-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x2048 : Shape := ⟨2, ![4096, 2048]⟩
abbrev S8192x1024 : Shape := ⟨2, ![8192, 1024]⟩
abbrev S16x64x1024 : Shape := ⟨3, ![16, 64, 1024]⟩
abbrev S4096x1024 : Shape := ⟨2, ![4096, 1024]⟩
abbrev S16 : Shape := ⟨1, ![16]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S8192x1024, .f32⟩
  | .local _ .vmem, ⟨0, _⟩ => ⟨S16x64x1024, .f32⟩
  | .local _ .vmem, ⟨1, _⟩ => ⟨S16x64x1024, .f32⟩
  | .local _ .vmem, ⟨2, _⟩ => ⟨S16x64x1024, .f32⟩
  | .local _ .vmem, ⟨3, _⟩ => ⟨S16x64x1024, .f32⟩
  | .local _ .vmem, ⟨4, _⟩ => ⟨S4096x1024, .f32⟩
  | _, _ => ⟨S4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 226 → Bool
  | ⟨i, _⟩ => dmaSemScopedAt i

abbrev sig : RefSig :=
  (ofTc nBuf bufTy 1 226 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c1024_i32_17 : BitVec 32 := 1024#32
  let v33 : BitVec 32 := Scalar.muli v16 c1024_i32_17
  let v34 : BitVec 32 := Scalar.addi v33 c0_i32
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.subi c1_i32_15 v5
  let c1024_i32_16 : BitVec 32 := 1024#32
  let v32 : BitVec 32 := Scalar.muli v31 c1024_i32_16
  ![v34.toNat, v32.toNat]
def k0_off2 (d0 : Dev nD) : Fin 2 → Nat :=
  let c0_i32_72 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_71 : BitVec 32 := 1024#32
  let v130 : BitVec 32 := Scalar.muli v5 c1024_i32_71
  ![0, v130.toNat]
def k0_dev1 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v133 : BitVec 32 := Scalar.muli v2 c8_i32_74
  let v134 : BitVec 32 := Scalar.addi c0_i32_75 v133
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_76 : BitVec 32 := 4#32
  let v135 : BitVec 32 := Scalar.muli v13 c4_i32_76
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v137 : BitVec 32 := Scalar.muli v8 c1_i32_77
  let v138 : BitVec 32 := Scalar.addi v136 v137
  v138.toNat
def k0_dev2 (d0 : Dev nD) : Nat :=
  let c0_i32_80 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_79 : BitVec 32 := 8#32
  let v139 : BitVec 32 := Scalar.muli v14 c8_i32_79
  let v140 : BitVec 32 := Scalar.addi c0_i32_80 v139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v141 : BitVec 32 := Scalar.muli v5 c4_i32_81
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v143 : BitVec 32 := Scalar.muli v8 c1_i32_82
  let v144 : BitVec 32 := Scalar.addi v142 v143
  v144.toNat
def k0_dev3 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v145 : BitVec 32 := Scalar.muli v2 c8_i32_84
  let v146 : BitVec 32 := Scalar.addi c0_i32_85 v145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v147 : BitVec 32 := Scalar.muli v5 c4_i32_86
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_87 : BitVec 32 := 1#32
  let v149 : BitVec 32 := Scalar.muli v12 c1_i32_87
  let v150 : BitVec 32 := Scalar.addi v148 v149
  v150.toNat
def k0_dev4 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v156 : BitVec 32 := Scalar.muli v2 c8_i32_97
  let v157 : BitVec 32 := Scalar.addi c0_i32_98 v156
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_99 : BitVec 32 := 4#32
  let v158 : BitVec 32 := Scalar.muli v13 c4_i32_99
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v160 : BitVec 32 := Scalar.muli v8 c1_i32_100
  let v161 : BitVec 32 := Scalar.addi v159 v160
  v161.toNat
def k0_dev5 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v175 : BitVec 32 := Scalar.muli v2 c8_i32_113
  let v176 : BitVec 32 := Scalar.addi c0_i32_114 v175
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_115 : BitVec 32 := 4#32
  let v177 : BitVec 32 := Scalar.muli v13 c4_i32_115
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v179 : BitVec 32 := Scalar.muli v8 c1_i32_116
  let v180 : BitVec 32 := Scalar.addi v178 v179
  v180.toNat
def k0_dev6 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v194 : BitVec 32 := Scalar.muli v2 c8_i32_129
  let v195 : BitVec 32 := Scalar.addi c0_i32_130 v194
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_131 : BitVec 32 := 4#32
  let v196 : BitVec 32 := Scalar.muli v13 c4_i32_131
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v198 : BitVec 32 := Scalar.muli v8 c1_i32_132
  let v199 : BitVec 32 := Scalar.addi v197 v198
  v199.toNat
def k0_dev7 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v213 : BitVec 32 := Scalar.muli v2 c8_i32_145
  let v214 : BitVec 32 := Scalar.addi c0_i32_146 v213
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_147 : BitVec 32 := 4#32
  let v215 : BitVec 32 := Scalar.muli v13 c4_i32_147
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v217 : BitVec 32 := Scalar.muli v8 c1_i32_148
  let v218 : BitVec 32 := Scalar.addi v216 v217
  v218.toNat
def k0_dev8 (d0 : Dev nD) : Nat :=
  let c0_i32_162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_161 : BitVec 32 := 8#32
  let v232 : BitVec 32 := Scalar.muli v2 c8_i32_161
  let v233 : BitVec 32 := Scalar.addi c0_i32_162 v232
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_163 : BitVec 32 := 4#32
  let v234 : BitVec 32 := Scalar.muli v13 c4_i32_163
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v236 : BitVec 32 := Scalar.muli v8 c1_i32_164
  let v237 : BitVec 32 := Scalar.addi v235 v236
  v237.toNat
def k0_dev9 (d0 : Dev nD) : Nat :=
  let c0_i32_178 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_177 : BitVec 32 := 8#32
  let v251 : BitVec 32 := Scalar.muli v2 c8_i32_177
  let v252 : BitVec 32 := Scalar.addi c0_i32_178 v251
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_179 : BitVec 32 := 4#32
  let v253 : BitVec 32 := Scalar.muli v13 c4_i32_179
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_180 : BitVec 32 := 1#32
  let v255 : BitVec 32 := Scalar.muli v8 c1_i32_180
  let v256 : BitVec 32 := Scalar.addi v254 v255
  v256.toNat
def k0_dev10 (d0 : Dev nD) : Nat :=
  let c0_i32_194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_193 : BitVec 32 := 8#32
  let v270 : BitVec 32 := Scalar.muli v2 c8_i32_193
  let v271 : BitVec 32 := Scalar.addi c0_i32_194 v270
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_195 : BitVec 32 := 4#32
  let v272 : BitVec 32 := Scalar.muli v13 c4_i32_195
  let v273 : BitVec 32 := Scalar.addi v271 v272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v274 : BitVec 32 := Scalar.muli v8 c1_i32_196
  let v275 : BitVec 32 := Scalar.addi v273 v274
  v275.toNat
def k0_dev11 (d0 : Dev nD) : Nat :=
  let c0_i32_210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_209 : BitVec 32 := 8#32
  let v289 : BitVec 32 := Scalar.muli v2 c8_i32_209
  let v290 : BitVec 32 := Scalar.addi c0_i32_210 v289
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_211 : BitVec 32 := 4#32
  let v291 : BitVec 32 := Scalar.muli v13 c4_i32_211
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v293 : BitVec 32 := Scalar.muli v8 c1_i32_212
  let v294 : BitVec 32 := Scalar.addi v292 v293
  v294.toNat
def k0_dev12 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v308 : BitVec 32 := Scalar.muli v2 c8_i32_225
  let v309 : BitVec 32 := Scalar.addi c0_i32_226 v308
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_227 : BitVec 32 := 4#32
  let v310 : BitVec 32 := Scalar.muli v13 c4_i32_227
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v312 : BitVec 32 := Scalar.muli v8 c1_i32_228
  let v313 : BitVec 32 := Scalar.addi v311 v312
  v313.toNat
def k0_dev13 (d0 : Dev nD) : Nat :=
  let c0_i32_242 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_241 : BitVec 32 := 8#32
  let v327 : BitVec 32 := Scalar.muli v2 c8_i32_241
  let v328 : BitVec 32 := Scalar.addi c0_i32_242 v327
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_243 : BitVec 32 := 4#32
  let v329 : BitVec 32 := Scalar.muli v13 c4_i32_243
  let v330 : BitVec 32 := Scalar.addi v328 v329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v331 : BitVec 32 := Scalar.muli v8 c1_i32_244
  let v332 : BitVec 32 := Scalar.addi v330 v331
  v332.toNat
def k0_dev14 (d0 : Dev nD) : Nat :=
  let c0_i32_258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_257 : BitVec 32 := 8#32
  let v346 : BitVec 32 := Scalar.muli v2 c8_i32_257
  let v347 : BitVec 32 := Scalar.addi c0_i32_258 v346
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_259 : BitVec 32 := 4#32
  let v348 : BitVec 32 := Scalar.muli v13 c4_i32_259
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v350 : BitVec 32 := Scalar.muli v8 c1_i32_260
  let v351 : BitVec 32 := Scalar.addi v349 v350
  v351.toNat
def k0_dev15 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_273 : BitVec 32 := 8#32
  let v365 : BitVec 32 := Scalar.muli v2 c8_i32_273
  let v366 : BitVec 32 := Scalar.addi c0_i32_274 v365
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_275 : BitVec 32 := 4#32
  let v367 : BitVec 32 := Scalar.muli v13 c4_i32_275
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v369 : BitVec 32 := Scalar.muli v8 c1_i32_276
  let v370 : BitVec 32 := Scalar.addi v368 v369
  v370.toNat
def k0_dev16 (d0 : Dev nD) : Nat :=
  let c0_i32_290 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_289 : BitVec 32 := 8#32
  let v384 : BitVec 32 := Scalar.muli v2 c8_i32_289
  let v385 : BitVec 32 := Scalar.addi c0_i32_290 v384
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_291 : BitVec 32 := 4#32
  let v386 : BitVec 32 := Scalar.muli v13 c4_i32_291
  let v387 : BitVec 32 := Scalar.addi v385 v386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v388 : BitVec 32 := Scalar.muli v8 c1_i32_292
  let v389 : BitVec 32 := Scalar.addi v387 v388
  v389.toNat
def k0_dev17 (d0 : Dev nD) : Nat :=
  let c0_i32_306 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_305 : BitVec 32 := 8#32
  let v403 : BitVec 32 := Scalar.muli v2 c8_i32_305
  let v404 : BitVec 32 := Scalar.addi c0_i32_306 v403
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_307 : BitVec 32 := 4#32
  let v405 : BitVec 32 := Scalar.muli v13 c4_i32_307
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v407 : BitVec 32 := Scalar.muli v8 c1_i32_308
  let v408 : BitVec 32 := Scalar.addi v406 v407
  v408.toNat
def k0_dev18 (d0 : Dev nD) : Nat :=
  let c0_i32_322 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_321 : BitVec 32 := 8#32
  let v422 : BitVec 32 := Scalar.muli v2 c8_i32_321
  let v423 : BitVec 32 := Scalar.addi c0_i32_322 v422
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_323 : BitVec 32 := 4#32
  let v424 : BitVec 32 := Scalar.muli v13 c4_i32_323
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v426 : BitVec 32 := Scalar.muli v8 c1_i32_324
  let v427 : BitVec 32 := Scalar.addi v425 v426
  v427.toNat
def k0_dev19 (d0 : Dev nD) : Nat :=
  let c0_i32_338 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_337 : BitVec 32 := 8#32
  let v441 : BitVec 32 := Scalar.muli v2 c8_i32_337
  let v442 : BitVec 32 := Scalar.addi c0_i32_338 v441
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_339 : BitVec 32 := 4#32
  let v443 : BitVec 32 := Scalar.muli v13 c4_i32_339
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v445 : BitVec 32 := Scalar.muli v8 c1_i32_340
  let v446 : BitVec 32 := Scalar.addi v444 v445
  v446.toNat
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_346 : BitVec 32 := 4096#32
  let v456 : BitVec 32 := Scalar.muli v5 c4096_i32_346
  let c0_i32_347 : BitVec 32 := 0#32
  ![v456.toNat, 0]
def k0_dev20 (d0 : Dev nD) : Nat :=
  let c0_i32_365 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_364 : BitVec 32 := 8#32
  let v470 : BitVec 32 := Scalar.muli v14 c8_i32_364
  let v471 : BitVec 32 := Scalar.addi c0_i32_365 v470
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_366 : BitVec 32 := 4#32
  let v472 : BitVec 32 := Scalar.muli v5 c4_i32_366
  let v473 : BitVec 32 := Scalar.addi v471 v472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v474 : BitVec 32 := Scalar.muli v8 c1_i32_367
  let v475 : BitVec 32 := Scalar.addi v473 v474
  v475.toNat
def k0_dev21 (d0 : Dev nD) : Nat :=
  let c0_i32_377 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_376 : BitVec 32 := 8#32
  let v484 : BitVec 32 := Scalar.muli v2 c8_i32_376
  let v485 : BitVec 32 := Scalar.addi c0_i32_377 v484
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_378 : BitVec 32 := 4#32
  let v486 : BitVec 32 := Scalar.muli v5 c4_i32_378
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_379 : BitVec 32 := 1#32
  let v488 : BitVec 32 := Scalar.muli v12 c1_i32_379
  let v489 : BitVec 32 := Scalar.addi v487 v488
  v489.toNat
def k0_off4 (d0 : Dev nD) (c0_i32_384 : BitVec 32) : Fin 2 → Nat :=
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let c4096_i32 : BitVec 32 := 4096#32
  let v24 : BitVec 32 := Scalar.muli v23 c4096_i32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c1024_i32 : BitVec 32 := 1024#32
  let v25 : BitVec 32 := Scalar.muli v16 c1024_i32
  let v26 : BitVec 32 := Scalar.addi v24 v25
  let v498 : BitVec 32 := Scalar.addi v26 c0_i32_384
  let c0_i32_387 : BitVec 32 := 0#32
  ![v498.toNat, 0]
def k0_dev22 (d0 : Dev nD) : Nat :=
  let c0_i32_407 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_406 : BitVec 32 := 8#32
  let v516 : BitVec 32 := Scalar.muli v14 c8_i32_406
  let v517 : BitVec 32 := Scalar.addi c0_i32_407 v516
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_408 : BitVec 32 := 4#32
  let v518 : BitVec 32 := Scalar.muli v5 c4_i32_408
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v520 : BitVec 32 := Scalar.muli v8 c1_i32_409
  let v521 : BitVec 32 := Scalar.addi v519 v520
  v521.toNat
def k0_dev23 (d0 : Dev nD) : Nat :=
  let c0_i32_419 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_418 : BitVec 32 := 8#32
  let v530 : BitVec 32 := Scalar.muli v2 c8_i32_418
  let v531 : BitVec 32 := Scalar.addi c0_i32_419 v530
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_420 : BitVec 32 := 4#32
  let v532 : BitVec 32 := Scalar.muli v5 c4_i32_420
  let v533 : BitVec 32 := Scalar.addi v531 v532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_421 : BitVec 32 := 1#32
  let v534 : BitVec 32 := Scalar.muli v12 c1_i32_421
  let v535 : BitVec 32 := Scalar.addi v533 v534
  v535.toNat
def k0_dev24 (d0 : Dev nD) : Nat :=
  let c0_i32_449 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_448 : BitVec 32 := 8#32
  let v562 : BitVec 32 := Scalar.muli v14 c8_i32_448
  let v563 : BitVec 32 := Scalar.addi c0_i32_449 v562
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_450 : BitVec 32 := 4#32
  let v564 : BitVec 32 := Scalar.muli v5 c4_i32_450
  let v565 : BitVec 32 := Scalar.addi v563 v564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_451 : BitVec 32 := 1#32
  let v566 : BitVec 32 := Scalar.muli v8 c1_i32_451
  let v567 : BitVec 32 := Scalar.addi v565 v566
  v567.toNat
def k0_dev25 (d0 : Dev nD) : Nat :=
  let c0_i32_461 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_460 : BitVec 32 := 8#32
  let v576 : BitVec 32 := Scalar.muli v2 c8_i32_460
  let v577 : BitVec 32 := Scalar.addi c0_i32_461 v576
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_462 : BitVec 32 := 4#32
  let v578 : BitVec 32 := Scalar.muli v5 c4_i32_462
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_463 : BitVec 32 := 1#32
  let v580 : BitVec 32 := Scalar.muli v12 c1_i32_463
  let v581 : BitVec 32 := Scalar.addi v579 v580
  v581.toNat
def k0_dev26 (d0 : Dev nD) : Nat :=
  let c0_i32_491 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_490 : BitVec 32 := 8#32
  let v608 : BitVec 32 := Scalar.muli v14 c8_i32_490
  let v609 : BitVec 32 := Scalar.addi c0_i32_491 v608
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_492 : BitVec 32 := 4#32
  let v610 : BitVec 32 := Scalar.muli v5 c4_i32_492
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v612 : BitVec 32 := Scalar.muli v8 c1_i32_493
  let v613 : BitVec 32 := Scalar.addi v611 v612
  v613.toNat
def k0_dev27 (d0 : Dev nD) : Nat :=
  let c0_i32_503 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_502 : BitVec 32 := 8#32
  let v622 : BitVec 32 := Scalar.muli v2 c8_i32_502
  let v623 : BitVec 32 := Scalar.addi c0_i32_503 v622
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_504 : BitVec 32 := 4#32
  let v624 : BitVec 32 := Scalar.muli v5 c4_i32_504
  let v625 : BitVec 32 := Scalar.addi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_505 : BitVec 32 := 1#32
  let v626 : BitVec 32 := Scalar.muli v12 c1_i32_505
  let v627 : BitVec 32 := Scalar.addi v625 v626
  v627.toNat
def k0_dev28 (d0 : Dev nD) : Nat :=
  let c0_i32_533 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_532 : BitVec 32 := 8#32
  let v654 : BitVec 32 := Scalar.muli v14 c8_i32_532
  let v655 : BitVec 32 := Scalar.addi c0_i32_533 v654
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_534 : BitVec 32 := 4#32
  let v656 : BitVec 32 := Scalar.muli v5 c4_i32_534
  let v657 : BitVec 32 := Scalar.addi v655 v656
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v658 : BitVec 32 := Scalar.muli v8 c1_i32_535
  let v659 : BitVec 32 := Scalar.addi v657 v658
  v659.toNat
def k0_dev29 (d0 : Dev nD) : Nat :=
  let c0_i32_545 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_544 : BitVec 32 := 8#32
  let v668 : BitVec 32 := Scalar.muli v2 c8_i32_544
  let v669 : BitVec 32 := Scalar.addi c0_i32_545 v668
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_546 : BitVec 32 := 4#32
  let v670 : BitVec 32 := Scalar.muli v5 c4_i32_546
  let v671 : BitVec 32 := Scalar.addi v669 v670
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_547 : BitVec 32 := 1#32
  let v672 : BitVec 32 := Scalar.muli v12 c1_i32_547
  let v673 : BitVec 32 := Scalar.addi v671 v672
  v673.toNat
def k0_dev30 (d0 : Dev nD) : Nat :=
  let c0_i32_575 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_574 : BitVec 32 := 8#32
  let v700 : BitVec 32 := Scalar.muli v14 c8_i32_574
  let v701 : BitVec 32 := Scalar.addi c0_i32_575 v700
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_576 : BitVec 32 := 4#32
  let v702 : BitVec 32 := Scalar.muli v5 c4_i32_576
  let v703 : BitVec 32 := Scalar.addi v701 v702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_577 : BitVec 32 := 1#32
  let v704 : BitVec 32 := Scalar.muli v8 c1_i32_577
  let v705 : BitVec 32 := Scalar.addi v703 v704
  v705.toNat
def k0_dev31 (d0 : Dev nD) : Nat :=
  let c0_i32_587 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_586 : BitVec 32 := 8#32
  let v714 : BitVec 32 := Scalar.muli v2 c8_i32_586
  let v715 : BitVec 32 := Scalar.addi c0_i32_587 v714
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_588 : BitVec 32 := 4#32
  let v716 : BitVec 32 := Scalar.muli v5 c4_i32_588
  let v717 : BitVec 32 := Scalar.addi v715 v716
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_589 : BitVec 32 := 1#32
  let v718 : BitVec 32 := Scalar.muli v12 c1_i32_589
  let v719 : BitVec 32 := Scalar.addi v717 v718
  v719.toNat
def k0_dev32 (d0 : Dev nD) : Nat :=
  let c0_i32_617 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_616 : BitVec 32 := 8#32
  let v746 : BitVec 32 := Scalar.muli v14 c8_i32_616
  let v747 : BitVec 32 := Scalar.addi c0_i32_617 v746
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_618 : BitVec 32 := 4#32
  let v748 : BitVec 32 := Scalar.muli v5 c4_i32_618
  let v749 : BitVec 32 := Scalar.addi v747 v748
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_619 : BitVec 32 := 1#32
  let v750 : BitVec 32 := Scalar.muli v8 c1_i32_619
  let v751 : BitVec 32 := Scalar.addi v749 v750
  v751.toNat
def k0_dev33 (d0 : Dev nD) : Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_628 : BitVec 32 := 8#32
  let v760 : BitVec 32 := Scalar.muli v2 c8_i32_628
  let v761 : BitVec 32 := Scalar.addi c0_i32_629 v760
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_630 : BitVec 32 := 4#32
  let v762 : BitVec 32 := Scalar.muli v5 c4_i32_630
  let v763 : BitVec 32 := Scalar.addi v761 v762
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_631 : BitVec 32 := 1#32
  let v764 : BitVec 32 := Scalar.muli v12 c1_i32_631
  let v765 : BitVec 32 := Scalar.addi v763 v764
  v765.toNat
def k0_dev34 (d0 : Dev nD) : Nat :=
  let c0_i32_659 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_658 : BitVec 32 := 8#32
  let v792 : BitVec 32 := Scalar.muli v14 c8_i32_658
  let v793 : BitVec 32 := Scalar.addi c0_i32_659 v792
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_660 : BitVec 32 := 4#32
  let v794 : BitVec 32 := Scalar.muli v5 c4_i32_660
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_661 : BitVec 32 := 1#32
  let v796 : BitVec 32 := Scalar.muli v8 c1_i32_661
  let v797 : BitVec 32 := Scalar.addi v795 v796
  v797.toNat
def k0_dev35 (d0 : Dev nD) : Nat :=
  let c0_i32_671 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_670 : BitVec 32 := 8#32
  let v806 : BitVec 32 := Scalar.muli v2 c8_i32_670
  let v807 : BitVec 32 := Scalar.addi c0_i32_671 v806
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_672 : BitVec 32 := 4#32
  let v808 : BitVec 32 := Scalar.muli v5 c4_i32_672
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_673 : BitVec 32 := 1#32
  let v810 : BitVec 32 := Scalar.muli v12 c1_i32_673
  let v811 : BitVec 32 := Scalar.addi v809 v810
  v811.toNat
def k0_dev36 (d0 : Dev nD) : Nat :=
  let c0_i32_701 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_700 : BitVec 32 := 8#32
  let v838 : BitVec 32 := Scalar.muli v14 c8_i32_700
  let v839 : BitVec 32 := Scalar.addi c0_i32_701 v838
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_702 : BitVec 32 := 4#32
  let v840 : BitVec 32 := Scalar.muli v5 c4_i32_702
  let v841 : BitVec 32 := Scalar.addi v839 v840
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_703 : BitVec 32 := 1#32
  let v842 : BitVec 32 := Scalar.muli v8 c1_i32_703
  let v843 : BitVec 32 := Scalar.addi v841 v842
  v843.toNat
def k0_dev37 (d0 : Dev nD) : Nat :=
  let c0_i32_713 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_712 : BitVec 32 := 8#32
  let v852 : BitVec 32 := Scalar.muli v2 c8_i32_712
  let v853 : BitVec 32 := Scalar.addi c0_i32_713 v852
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_714 : BitVec 32 := 4#32
  let v854 : BitVec 32 := Scalar.muli v5 c4_i32_714
  let v855 : BitVec 32 := Scalar.addi v853 v854
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_715 : BitVec 32 := 1#32
  let v856 : BitVec 32 := Scalar.muli v12 c1_i32_715
  let v857 : BitVec 32 := Scalar.addi v855 v856
  v857.toNat
def k0_dev38 (d0 : Dev nD) : Nat :=
  let c0_i32_743 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_742 : BitVec 32 := 8#32
  let v884 : BitVec 32 := Scalar.muli v14 c8_i32_742
  let v885 : BitVec 32 := Scalar.addi c0_i32_743 v884
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_744 : BitVec 32 := 4#32
  let v886 : BitVec 32 := Scalar.muli v5 c4_i32_744
  let v887 : BitVec 32 := Scalar.addi v885 v886
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v888 : BitVec 32 := Scalar.muli v8 c1_i32_745
  let v889 : BitVec 32 := Scalar.addi v887 v888
  v889.toNat
def k0_dev39 (d0 : Dev nD) : Nat :=
  let c0_i32_755 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_754 : BitVec 32 := 8#32
  let v898 : BitVec 32 := Scalar.muli v2 c8_i32_754
  let v899 : BitVec 32 := Scalar.addi c0_i32_755 v898
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_756 : BitVec 32 := 4#32
  let v900 : BitVec 32 := Scalar.muli v5 c4_i32_756
  let v901 : BitVec 32 := Scalar.addi v899 v900
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_757 : BitVec 32 := 1#32
  let v902 : BitVec 32 := Scalar.muli v12 c1_i32_757
  let v903 : BitVec 32 := Scalar.addi v901 v902
  v903.toNat
def k0_dev40 (d0 : Dev nD) : Nat :=
  let c0_i32_785 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_784 : BitVec 32 := 8#32
  let v930 : BitVec 32 := Scalar.muli v14 c8_i32_784
  let v931 : BitVec 32 := Scalar.addi c0_i32_785 v930
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_786 : BitVec 32 := 4#32
  let v932 : BitVec 32 := Scalar.muli v5 c4_i32_786
  let v933 : BitVec 32 := Scalar.addi v931 v932
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_787 : BitVec 32 := 1#32
  let v934 : BitVec 32 := Scalar.muli v8 c1_i32_787
  let v935 : BitVec 32 := Scalar.addi v933 v934
  v935.toNat
def k0_dev41 (d0 : Dev nD) : Nat :=
  let c0_i32_797 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_796 : BitVec 32 := 8#32
  let v944 : BitVec 32 := Scalar.muli v2 c8_i32_796
  let v945 : BitVec 32 := Scalar.addi c0_i32_797 v944
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_798 : BitVec 32 := 4#32
  let v946 : BitVec 32 := Scalar.muli v5 c4_i32_798
  let v947 : BitVec 32 := Scalar.addi v945 v946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_799 : BitVec 32 := 1#32
  let v948 : BitVec 32 := Scalar.muli v12 c1_i32_799
  let v949 : BitVec 32 := Scalar.addi v947 v948
  v949.toNat
def k0_dev42 (d0 : Dev nD) : Nat :=
  let c0_i32_827 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_826 : BitVec 32 := 8#32
  let v976 : BitVec 32 := Scalar.muli v14 c8_i32_826
  let v977 : BitVec 32 := Scalar.addi c0_i32_827 v976
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_828 : BitVec 32 := 4#32
  let v978 : BitVec 32 := Scalar.muli v5 c4_i32_828
  let v979 : BitVec 32 := Scalar.addi v977 v978
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v980 : BitVec 32 := Scalar.muli v8 c1_i32_829
  let v981 : BitVec 32 := Scalar.addi v979 v980
  v981.toNat
def k0_dev43 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v990 : BitVec 32 := Scalar.muli v2 c8_i32_838
  let v991 : BitVec 32 := Scalar.addi c0_i32_839 v990
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v992 : BitVec 32 := Scalar.muli v5 c4_i32_840
  let v993 : BitVec 32 := Scalar.addi v991 v992
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_841 : BitVec 32 := 1#32
  let v994 : BitVec 32 := Scalar.muli v12 c1_i32_841
  let v995 : BitVec 32 := Scalar.addi v993 v994
  v995.toNat
def k0_dev44 (d0 : Dev nD) : Nat :=
  let c0_i32_869 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_868 : BitVec 32 := 8#32
  let v1022 : BitVec 32 := Scalar.muli v14 c8_i32_868
  let v1023 : BitVec 32 := Scalar.addi c0_i32_869 v1022
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_870 : BitVec 32 := 4#32
  let v1024 : BitVec 32 := Scalar.muli v5 c4_i32_870
  let v1025 : BitVec 32 := Scalar.addi v1023 v1024
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_871 : BitVec 32 := 1#32
  let v1026 : BitVec 32 := Scalar.muli v8 c1_i32_871
  let v1027 : BitVec 32 := Scalar.addi v1025 v1026
  v1027.toNat
def k0_dev45 (d0 : Dev nD) : Nat :=
  let c0_i32_881 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_880 : BitVec 32 := 8#32
  let v1036 : BitVec 32 := Scalar.muli v2 c8_i32_880
  let v1037 : BitVec 32 := Scalar.addi c0_i32_881 v1036
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_882 : BitVec 32 := 4#32
  let v1038 : BitVec 32 := Scalar.muli v5 c4_i32_882
  let v1039 : BitVec 32 := Scalar.addi v1037 v1038
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_883 : BitVec 32 := 1#32
  let v1040 : BitVec 32 := Scalar.muli v12 c1_i32_883
  let v1041 : BitVec 32 := Scalar.addi v1039 v1040
  v1041.toNat
def k0_dev46 (d0 : Dev nD) : Nat :=
  let c0_i32_911 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_910 : BitVec 32 := 8#32
  let v1068 : BitVec 32 := Scalar.muli v14 c8_i32_910
  let v1069 : BitVec 32 := Scalar.addi c0_i32_911 v1068
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v1070 : BitVec 32 := Scalar.muli v5 c4_i32_912
  let v1071 : BitVec 32 := Scalar.addi v1069 v1070
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_913 : BitVec 32 := 1#32
  let v1072 : BitVec 32 := Scalar.muli v8 c1_i32_913
  let v1073 : BitVec 32 := Scalar.addi v1071 v1072
  v1073.toNat
def k0_dev47 (d0 : Dev nD) : Nat :=
  let c0_i32_923 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_922 : BitVec 32 := 8#32
  let v1082 : BitVec 32 := Scalar.muli v2 c8_i32_922
  let v1083 : BitVec 32 := Scalar.addi c0_i32_923 v1082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_924 : BitVec 32 := 4#32
  let v1084 : BitVec 32 := Scalar.muli v5 c4_i32_924
  let v1085 : BitVec 32 := Scalar.addi v1083 v1084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_925 : BitVec 32 := 1#32
  let v1086 : BitVec 32 := Scalar.muli v12 c1_i32_925
  let v1087 : BitVec 32 := Scalar.addi v1085 v1086
  v1087.toNat
def k0_dev48 (d0 : Dev nD) : Nat :=
  let c0_i32_953 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_952 : BitVec 32 := 8#32
  let v1114 : BitVec 32 := Scalar.muli v14 c8_i32_952
  let v1115 : BitVec 32 := Scalar.addi c0_i32_953 v1114
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_954 : BitVec 32 := 4#32
  let v1116 : BitVec 32 := Scalar.muli v5 c4_i32_954
  let v1117 : BitVec 32 := Scalar.addi v1115 v1116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_955 : BitVec 32 := 1#32
  let v1118 : BitVec 32 := Scalar.muli v8 c1_i32_955
  let v1119 : BitVec 32 := Scalar.addi v1117 v1118
  v1119.toNat
def k0_dev49 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1128 : BitVec 32 := Scalar.muli v2 c8_i32_964
  let v1129 : BitVec 32 := Scalar.addi c0_i32_965 v1128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1130 : BitVec 32 := Scalar.muli v5 c4_i32_966
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_967 : BitVec 32 := 1#32
  let v1132 : BitVec 32 := Scalar.muli v12 c1_i32_967
  let v1133 : BitVec 32 := Scalar.addi v1131 v1132
  v1133.toNat
def k0_dev50 (d0 : Dev nD) : Nat :=
  let c0_i32_995 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_994 : BitVec 32 := 8#32
  let v1160 : BitVec 32 := Scalar.muli v14 c8_i32_994
  let v1161 : BitVec 32 := Scalar.addi c0_i32_995 v1160
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_996 : BitVec 32 := 4#32
  let v1162 : BitVec 32 := Scalar.muli v5 c4_i32_996
  let v1163 : BitVec 32 := Scalar.addi v1161 v1162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_997 : BitVec 32 := 1#32
  let v1164 : BitVec 32 := Scalar.muli v8 c1_i32_997
  let v1165 : BitVec 32 := Scalar.addi v1163 v1164
  v1165.toNat
def k0_dev51 (d0 : Dev nD) : Nat :=
  let c0_i32_1007 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1006 : BitVec 32 := 8#32
  let v1174 : BitVec 32 := Scalar.muli v2 c8_i32_1006
  let v1175 : BitVec 32 := Scalar.addi c0_i32_1007 v1174
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1008 : BitVec 32 := 4#32
  let v1176 : BitVec 32 := Scalar.muli v5 c4_i32_1008
  let v1177 : BitVec 32 := Scalar.addi v1175 v1176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1009 : BitVec 32 := 1#32
  let v1178 : BitVec 32 := Scalar.muli v12 c1_i32_1009
  let v1179 : BitVec 32 := Scalar.addi v1177 v1178
  v1179.toNat
def k0_off5 (d0 : Dev nD) (c0_i32_1032 : BitVec 32) : Fin 2 → Nat :=
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let c4096_i32 : BitVec 32 := 4096#32
  let v24 : BitVec 32 := Scalar.muli v23 c4096_i32
  let c2_i32_9 : BitVec 32 := 2#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c1024_i32_13 : BitVec 32 := 1024#32
  let v27 : BitVec 32 := Scalar.muli v19 c1024_i32_13
  let v28 : BitVec 32 := Scalar.addi v24 v27
  let v1206 : BitVec 32 := Scalar.addi v28 c0_i32_1032
  let c0_i32_1035 : BitVec 32 := 0#32
  ![v1206.toNat, 0]
def k0_off6 (d0 : Dev nD) (c0_i32_1050 : BitVec 32) : Fin 2 → Nat :=
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let c4096_i32 : BitVec 32 := 4096#32
  let v24 : BitVec 32 := Scalar.muli v23 c4096_i32
  let c2_i32_10 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.muli c2_i32_10 v2
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c1024_i32_14 : BitVec 32 := 1024#32
  let v29 : BitVec 32 := Scalar.muli v22 c1024_i32_14
  let v30 : BitVec 32 := Scalar.addi v24 v29
  let v1224 : BitVec 32 := Scalar.addi v30 c0_i32_1050
  let c0_i32_1053 : BitVec 32 := 0#32
  ![v1224.toNat, 0]
def k0_dev52 (d0 : Dev nD) : Nat :=
  let c0_i32_1061 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1060 : BitVec 32 := 8#32
  let v1231 : BitVec 32 := Scalar.muli v14 c8_i32_1060
  let v1232 : BitVec 32 := Scalar.addi c0_i32_1061 v1231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1062 : BitVec 32 := 4#32
  let v1233 : BitVec 32 := Scalar.muli v5 c4_i32_1062
  let v1234 : BitVec 32 := Scalar.addi v1232 v1233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1063 : BitVec 32 := 1#32
  let v1235 : BitVec 32 := Scalar.muli v8 c1_i32_1063
  let v1236 : BitVec 32 := Scalar.addi v1234 v1235
  v1236.toNat
def k0_dev53 (d0 : Dev nD) : Nat :=
  let c0_i32_1090 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1089 : BitVec 32 := 8#32
  let v1263 : BitVec 32 := Scalar.muli v2 c8_i32_1089
  let v1264 : BitVec 32 := Scalar.addi c0_i32_1090 v1263
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1091 : BitVec 32 := 4#32
  let v1265 : BitVec 32 := Scalar.muli v5 c4_i32_1091
  let v1266 : BitVec 32 := Scalar.addi v1264 v1265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1092 : BitVec 32 := 1#32
  let v1267 : BitVec 32 := Scalar.muli v12 c1_i32_1092
  let v1268 : BitVec 32 := Scalar.addi v1266 v1267
  v1268.toNat
def k0_dev54 (d0 : Dev nD) : Nat :=
  let c0_i32_1155 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1154 : BitVec 32 := 8#32
  let v1331 : BitVec 32 := Scalar.muli v14 c8_i32_1154
  let v1332 : BitVec 32 := Scalar.addi c0_i32_1155 v1331
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1156 : BitVec 32 := 4#32
  let v1333 : BitVec 32 := Scalar.muli v5 c4_i32_1156
  let v1334 : BitVec 32 := Scalar.addi v1332 v1333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1157 : BitVec 32 := 1#32
  let v1335 : BitVec 32 := Scalar.muli v8 c1_i32_1157
  let v1336 : BitVec 32 := Scalar.addi v1334 v1335
  v1336.toNat
def k0_dev55 (d0 : Dev nD) : Nat :=
  let c0_i32_1184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1183 : BitVec 32 := 8#32
  let v1363 : BitVec 32 := Scalar.muli v2 c8_i32_1183
  let v1364 : BitVec 32 := Scalar.addi c0_i32_1184 v1363
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1185 : BitVec 32 := 4#32
  let v1365 : BitVec 32 := Scalar.muli v5 c4_i32_1185
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1186 : BitVec 32 := 1#32
  let v1367 : BitVec 32 := Scalar.muli v12 c1_i32_1186
  let v1368 : BitVec 32 := Scalar.addi v1366 v1367
  v1368.toNat
def k0_dev56 (d0 : Dev nD) : Nat :=
  let c0_i32_1249 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1248 : BitVec 32 := 8#32
  let v1431 : BitVec 32 := Scalar.muli v14 c8_i32_1248
  let v1432 : BitVec 32 := Scalar.addi c0_i32_1249 v1431
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1250 : BitVec 32 := 4#32
  let v1433 : BitVec 32 := Scalar.muli v5 c4_i32_1250
  let v1434 : BitVec 32 := Scalar.addi v1432 v1433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1251 : BitVec 32 := 1#32
  let v1435 : BitVec 32 := Scalar.muli v8 c1_i32_1251
  let v1436 : BitVec 32 := Scalar.addi v1434 v1435
  v1436.toNat
def k0_dev57 (d0 : Dev nD) : Nat :=
  let c0_i32_1278 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1277 : BitVec 32 := 8#32
  let v1463 : BitVec 32 := Scalar.muli v2 c8_i32_1277
  let v1464 : BitVec 32 := Scalar.addi c0_i32_1278 v1463
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1279 : BitVec 32 := 4#32
  let v1465 : BitVec 32 := Scalar.muli v5 c4_i32_1279
  let v1466 : BitVec 32 := Scalar.addi v1464 v1465
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1280 : BitVec 32 := 1#32
  let v1467 : BitVec 32 := Scalar.muli v12 c1_i32_1280
  let v1468 : BitVec 32 := Scalar.addi v1466 v1467
  v1468.toNat
def k0_dev58 (d0 : Dev nD) : Nat :=
  let c0_i32_1343 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1342 : BitVec 32 := 8#32
  let v1531 : BitVec 32 := Scalar.muli v14 c8_i32_1342
  let v1532 : BitVec 32 := Scalar.addi c0_i32_1343 v1531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1344 : BitVec 32 := 4#32
  let v1533 : BitVec 32 := Scalar.muli v5 c4_i32_1344
  let v1534 : BitVec 32 := Scalar.addi v1532 v1533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1345 : BitVec 32 := 1#32
  let v1535 : BitVec 32 := Scalar.muli v8 c1_i32_1345
  let v1536 : BitVec 32 := Scalar.addi v1534 v1535
  v1536.toNat
def k0_dev59 (d0 : Dev nD) : Nat :=
  let c0_i32_1372 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1371 : BitVec 32 := 8#32
  let v1563 : BitVec 32 := Scalar.muli v2 c8_i32_1371
  let v1564 : BitVec 32 := Scalar.addi c0_i32_1372 v1563
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1373 : BitVec 32 := 4#32
  let v1565 : BitVec 32 := Scalar.muli v5 c4_i32_1373
  let v1566 : BitVec 32 := Scalar.addi v1564 v1565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1374 : BitVec 32 := 1#32
  let v1567 : BitVec 32 := Scalar.muli v12 c1_i32_1374
  let v1568 : BitVec 32 := Scalar.addi v1566 v1567
  v1568.toNat
def k0_dev60 (d0 : Dev nD) : Nat :=
  let c0_i32_1437 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1436 : BitVec 32 := 8#32
  let v1631 : BitVec 32 := Scalar.muli v14 c8_i32_1436
  let v1632 : BitVec 32 := Scalar.addi c0_i32_1437 v1631
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1438 : BitVec 32 := 4#32
  let v1633 : BitVec 32 := Scalar.muli v5 c4_i32_1438
  let v1634 : BitVec 32 := Scalar.addi v1632 v1633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1439 : BitVec 32 := 1#32
  let v1635 : BitVec 32 := Scalar.muli v8 c1_i32_1439
  let v1636 : BitVec 32 := Scalar.addi v1634 v1635
  v1636.toNat
def k0_dev61 (d0 : Dev nD) : Nat :=
  let c0_i32_1466 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1465 : BitVec 32 := 8#32
  let v1663 : BitVec 32 := Scalar.muli v2 c8_i32_1465
  let v1664 : BitVec 32 := Scalar.addi c0_i32_1466 v1663
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1467 : BitVec 32 := 4#32
  let v1665 : BitVec 32 := Scalar.muli v5 c4_i32_1467
  let v1666 : BitVec 32 := Scalar.addi v1664 v1665
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1468 : BitVec 32 := 1#32
  let v1667 : BitVec 32 := Scalar.muli v12 c1_i32_1468
  let v1668 : BitVec 32 := Scalar.addi v1666 v1667
  v1668.toNat
def k0_dev62 (d0 : Dev nD) : Nat :=
  let c0_i32_1531 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1530 : BitVec 32 := 8#32
  let v1731 : BitVec 32 := Scalar.muli v14 c8_i32_1530
  let v1732 : BitVec 32 := Scalar.addi c0_i32_1531 v1731
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1532 : BitVec 32 := 4#32
  let v1733 : BitVec 32 := Scalar.muli v5 c4_i32_1532
  let v1734 : BitVec 32 := Scalar.addi v1732 v1733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1533 : BitVec 32 := 1#32
  let v1735 : BitVec 32 := Scalar.muli v8 c1_i32_1533
  let v1736 : BitVec 32 := Scalar.addi v1734 v1735
  v1736.toNat
def k0_dev63 (d0 : Dev nD) : Nat :=
  let c0_i32_1560 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1559 : BitVec 32 := 8#32
  let v1763 : BitVec 32 := Scalar.muli v2 c8_i32_1559
  let v1764 : BitVec 32 := Scalar.addi c0_i32_1560 v1763
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1561 : BitVec 32 := 4#32
  let v1765 : BitVec 32 := Scalar.muli v5 c4_i32_1561
  let v1766 : BitVec 32 := Scalar.addi v1764 v1765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1562 : BitVec 32 := 1#32
  let v1767 : BitVec 32 := Scalar.muli v12 c1_i32_1562
  let v1768 : BitVec 32 := Scalar.addi v1766 v1767
  v1768.toNat
def k0_dev64 (d0 : Dev nD) : Nat :=
  let c0_i32_1625 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1624 : BitVec 32 := 8#32
  let v1831 : BitVec 32 := Scalar.muli v14 c8_i32_1624
  let v1832 : BitVec 32 := Scalar.addi c0_i32_1625 v1831
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1626 : BitVec 32 := 4#32
  let v1833 : BitVec 32 := Scalar.muli v5 c4_i32_1626
  let v1834 : BitVec 32 := Scalar.addi v1832 v1833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1627 : BitVec 32 := 1#32
  let v1835 : BitVec 32 := Scalar.muli v8 c1_i32_1627
  let v1836 : BitVec 32 := Scalar.addi v1834 v1835
  v1836.toNat
def k0_dev65 (d0 : Dev nD) : Nat :=
  let c0_i32_1654 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1653 : BitVec 32 := 8#32
  let v1863 : BitVec 32 := Scalar.muli v2 c8_i32_1653
  let v1864 : BitVec 32 := Scalar.addi c0_i32_1654 v1863
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1655 : BitVec 32 := 4#32
  let v1865 : BitVec 32 := Scalar.muli v5 c4_i32_1655
  let v1866 : BitVec 32 := Scalar.addi v1864 v1865
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1656 : BitVec 32 := 1#32
  let v1867 : BitVec 32 := Scalar.muli v12 c1_i32_1656
  let v1868 : BitVec 32 := Scalar.addi v1866 v1867
  v1868.toNat
def k0_dev66 (d0 : Dev nD) : Nat :=
  let c0_i32_1719 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1718 : BitVec 32 := 8#32
  let v1931 : BitVec 32 := Scalar.muli v14 c8_i32_1718
  let v1932 : BitVec 32 := Scalar.addi c0_i32_1719 v1931
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1720 : BitVec 32 := 4#32
  let v1933 : BitVec 32 := Scalar.muli v5 c4_i32_1720
  let v1934 : BitVec 32 := Scalar.addi v1932 v1933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1721 : BitVec 32 := 1#32
  let v1935 : BitVec 32 := Scalar.muli v8 c1_i32_1721
  let v1936 : BitVec 32 := Scalar.addi v1934 v1935
  v1936.toNat
def k0_dev67 (d0 : Dev nD) : Nat :=
  let c0_i32_1748 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1747 : BitVec 32 := 8#32
  let v1963 : BitVec 32 := Scalar.muli v2 c8_i32_1747
  let v1964 : BitVec 32 := Scalar.addi c0_i32_1748 v1963
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1749 : BitVec 32 := 4#32
  let v1965 : BitVec 32 := Scalar.muli v5 c4_i32_1749
  let v1966 : BitVec 32 := Scalar.addi v1964 v1965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1750 : BitVec 32 := 1#32
  let v1967 : BitVec 32 := Scalar.muli v12 c1_i32_1750
  let v1968 : BitVec 32 := Scalar.addi v1966 v1967
  v1968.toNat

class Facts₀ : Prop where
  inb_S16_S1_0 : ∀ a, (![0] : Fin 1 → Nat) a + S1.size a ≤ S16.size a
  squeezes_S1_S_ : S1.Squeezes S_
  inb_S16x64x1024_S1x64x1024_0_0_0 : ∀ a, (![0, 0, 0] : Fin 3 → Nat) a + S1x64x1024.size a ≤ S16x64x1024.size a
  squeezes_S1x64x1024_S64x1024 : S1x64x1024.Squeezes S64x1024
  inb_S16_S1_1 : ∀ a, (![1] : Fin 1 → Nat) a + S1.size a ≤ S16.size a
  inb_S16x64x1024_S1x64x1024_1_0_0 : ∀ a, (![1, 0, 0] : Fin 3 → Nat) a + S1x64x1024.size a ≤ S16x64x1024.size a
  inb_S16_S1_2 : ∀ a, (![2] : Fin 1 → Nat) a + S1.size a ≤ S16.size a
  inb_S16x64x1024_S1x64x1024_2_0_0 : ∀ a, (![2, 0, 0] : Fin 3 → Nat) a + S1x64x1024.size a ≤ S16x64x1024.size a
  inb_S16_S1_3 : ∀ a, (![3] : Fin 1 → Nat) a + S1.size a ≤ S16.size a
  inb_S16x64x1024_S1x64x1024_3_0_0 : ∀ a, (![3, 0, 0] : Fin 3 → Nat) a + S1x64x1024.size a ≤ S16x64x1024.size a
  inb_S16_S1_4 : ∀ a, (![4] : Fin 1 → Nat) a + S1.size a ≤ S16.size a
  inb_S16x64x1024_S1x64x1024_4_0_0 : ∀ a, (![4, 0, 0] : Fin 3 → Nat) a + S1x64x1024.size a ≤ S16x64x1024.size a
  inb_S16_S1_5 : ∀ a, (![5] : Fin 1 → Nat) a + S1.size a ≤ S16.size a
  inb_S16x64x1024_S1x64x1024_5_0_0 : ∀ a, (![5, 0, 0] : Fin 3 → Nat) a + S1x64x1024.size a ≤ S16x64x1024.size a
  inb_S16_S1_6 : ∀ a, (![6] : Fin 1 → Nat) a + S1.size a ≤ S16.size a
  inb_S16x64x1024_S1x64x1024_6_0_0 : ∀ a, (![6, 0, 0] : Fin 3 → Nat) a + S1x64x1024.size a ≤ S16x64x1024.size a
  inb_S16_S1_7 : ∀ a, (![7] : Fin 1 → Nat) a + S1.size a ≤ S16.size a
  inb_S16x64x1024_S1x64x1024_7_0_0 : ∀ a, (![7, 0, 0] : Fin 3 → Nat) a + S1x64x1024.size a ≤ S16x64x1024.size a
  inb_S16_S1_8 : ∀ a, (![8] : Fin 1 → Nat) a + S1.size a ≤ S16.size a
  inb_S16x64x1024_S1x64x1024_8_0_0 : ∀ a, (![8, 0, 0] : Fin 3 → Nat) a + S1x64x1024.size a ≤ S16x64x1024.size a
  inb_S16_S1_9 : ∀ a, (![9] : Fin 1 → Nat) a + S1.size a ≤ S16.size a
  inb_S16x64x1024_S1x64x1024_9_0_0 : ∀ a, (![9, 0, 0] : Fin 3 → Nat) a + S1x64x1024.size a ≤ S16x64x1024.size a
  inb_S16_S1_10 : ∀ a, (![10] : Fin 1 → Nat) a + S1.size a ≤ S16.size a
  inb_S16x64x1024_S1x64x1024_10_0_0 : ∀ a, (![10, 0, 0] : Fin 3 → Nat) a + S1x64x1024.size a ≤ S16x64x1024.size a
  inb_S16_S1_11 : ∀ a, (![11] : Fin 1 → Nat) a + S1.size a ≤ S16.size a
  inb_S16x64x1024_S1x64x1024_11_0_0 : ∀ a, (![11, 0, 0] : Fin 3 → Nat) a + S1x64x1024.size a ≤ S16x64x1024.size a
  inb_S16_S1_12 : ∀ a, (![12] : Fin 1 → Nat) a + S1.size a ≤ S16.size a
  inb_S16x64x1024_S1x64x1024_12_0_0 : ∀ a, (![12, 0, 0] : Fin 3 → Nat) a + S1x64x1024.size a ≤ S16x64x1024.size a
  inb_S16_S1_13 : ∀ a, (![13] : Fin 1 → Nat) a + S1.size a ≤ S16.size a
  inb_S16x64x1024_S1x64x1024_13_0_0 : ∀ a, (![13, 0, 0] : Fin 3 → Nat) a + S1x64x1024.size a ≤ S16x64x1024.size a
  inb_S16_S1_14 : ∀ a, (![14] : Fin 1 → Nat) a + S1.size a ≤ S16.size a
  inb_S16x64x1024_S1x64x1024_14_0_0 : ∀ a, (![14, 0, 0] : Fin 3 → Nat) a + S1x64x1024.size a ≤ S16x64x1024.size a
  inb_S16_S1_15 : ∀ a, (![15] : Fin 1 → Nat) a + S1.size a ≤ S16.size a
  inb_S16x64x1024_S1x64x1024_15_0_0 : ∀ a, (![15, 0, 0] : Fin 3 → Nat) a + S1x64x1024.size a ≤ S16x64x1024.size a
  hamt_1 : (1#32 : BitVec 32).msb = false
  hamt_3 : (3#32 : BitVec 32).msb = false
  hcc0_scratch5 : 0 + S16.numel ≤ 226
  hcc0_scratch6 : 16 + S16.numel ≤ 226
  hcc0_scratch7 : 32 + S16.numel ≤ 226
  hcc0_scratch8 : 48 + S16.numel ≤ 226
  hcc0_scratch9 : 64 + S16.numel ≤ 226
  hcc0_scratch10 : 80 + S16.numel ≤ 226
  hcc0_scratch11 : 96 + S16.numel ≤ 226
  hcc0_scratch12 : 112 + S16.numel ≤ 226
  hcc0_scratch13 : 128 + S16.numel ≤ 226
  hcc0_scratch14 : 144 + S16.numel ≤ 226
  hcc0_scratch15 : 160 + S16.numel ≤ 226
  hcc0_scratch16 : 176 + S16.numel ≤ 226
  hcc0_scratch17 : 192 + S16.numel ≤ 226
  hcc0_scratch18 : 208 + S16.numel ≤ 226
  hcc0_scratch19 : 224 + S_.numel ≤ 226
  hcc0_scratch20 : 225 + S_.numel ≤ 226
  k0_off1_inb : ∀ d0 : Dev nD, ∀ (r : Fin 16), ∀ a, (k0_off1 d0 (BitVec.ofNat 32 (64 * r.val))) a + S64x1024.size a ≤ S4096x2048.size a
  k0_off2_inb : ∀ d0 : Dev nD, ∀ a, (k0_off2 d0) a + S4096x1024.size a ≤ S4096x2048.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off3_inb : ∀ d0 : Dev nD, ∀ a, (k0_off3 d0) a + S4096x1024.size a ≤ S8192x1024.size a
  k0_dev20_lt : ∀ d0 : Dev nD, (k0_dev20 d0) < nD
  k0_dev21_lt : ∀ d0 : Dev nD, (k0_dev21 d0) < nD
  k0_off4_inb : ∀ d0 : Dev nD, ∀ (r : Fin 16), ∀ a, (k0_off4 d0 (BitVec.ofNat 32 (64 * r.val))) a + S64x1024.size a ≤ S8192x1024.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_off5_inb : ∀ d0 : Dev nD, ∀ (r : Fin 16), ∀ a, (k0_off5 d0 (BitVec.ofNat 32 (64 * r.val))) a + S64x1024.size a ≤ S8192x1024.size a
  k0_off6_inb : ∀ d0 : Dev nD, ∀ (r : Fin 16), ∀ a, (k0_off6 d0 (BitVec.ofNat 32 (64 * r.val))) a + S64x1024.size a ≤ S8192x1024.size a
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD

variable [Facts₀]

abbrev cc0_scratch5 : DmaSems sig S16 := SemArray.consecutive 0 S16 hcc0_scratch5
abbrev cc0_scratch6 : DmaSems sig S16 := SemArray.consecutive 16 S16 hcc0_scratch6
abbrev cc0_scratch7 : DmaSems sig S16 := SemArray.consecutive 32 S16 hcc0_scratch7
abbrev cc0_scratch8 : DmaSems sig S16 := SemArray.consecutive 48 S16 hcc0_scratch8
abbrev cc0_scratch9 : DmaSems sig S16 := SemArray.consecutive 64 S16 hcc0_scratch9
abbrev cc0_scratch10 : DmaSems sig S16 := SemArray.consecutive 80 S16 hcc0_scratch10
abbrev cc0_scratch11 : DmaSems sig S16 := SemArray.consecutive 96 S16 hcc0_scratch11
abbrev cc0_scratch12 : DmaSems sig S16 := SemArray.consecutive 112 S16 hcc0_scratch12
abbrev cc0_scratch13 : DmaSems sig S16 := SemArray.consecutive 128 S16 hcc0_scratch13
abbrev cc0_scratch14 : DmaSems sig S16 := SemArray.consecutive 144 S16 hcc0_scratch14
abbrev cc0_scratch15 : DmaSems sig S16 := SemArray.consecutive 160 S16 hcc0_scratch15
abbrev cc0_scratch16 : DmaSems sig S16 := SemArray.consecutive 176 S16 hcc0_scratch16
abbrev cc0_scratch17 : DmaSems sig S16 := SemArray.consecutive 192 S16 hcc0_scratch17
abbrev cc0_scratch18 : DmaSems sig S16 := SemArray.consecutive 208 S16 hcc0_scratch18
abbrev cc0_scratch19 : DmaSems sig S_ := SemArray.consecutive 224 S_ hcc0_scratch19
abbrev cc0_scratch20 : DmaSems sig S_ := SemArray.consecutive 225 S_ hcc0_scratch20

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.RefAndLayout.lean ====
/- The one-device reference's run, and the index equation that joins a device's result to its block of the
   whole array.

   The reference's @main is the empty line of host operations: it returns at once, so every TensorCore buffer
   ends holding what it held at launch (`ref_run`), from which its frame claim (`frame_ref`) is immediate.

   The layout lemma (`layout_of_src`): the whole array `W` of 8192 rows and 2048 columns lies across the
   2 × 2 × 4 mesh cut in two row blocks along the mesh's second axis, device `d` holding row block
   `(d / 4) % 2`. If device `c`'s result row `R` is, column by column, the row `R % 4096` of a device whose
   second coordinate is `R / 4096`, read at columns `1024 · ((c / 4) % 2) + j`, then the result is column
   block `(c / 4) % 2` of `W`: row `(R / 4096) · 4096 + R % 4096 = R`, column `((c / 4) % 2) · 1024 + j`. -/
import proofs.«900640_g7700000000000641_dist_a2a_v7x_xyz2x2x4_y_m4096_n1024_f32_1_alg».proof.Defs
import proofs.«900640_g7700000000000641_dist_a2a_v7x_xyz2x2x4_y_m4096_n1024_f32_1_alg».proof.Proof.Gen.ReferenceIdeal
import proofs.«900640_g7700000000000641_dist_a2a_v7x_xyz2x2x4_y_m4096_n1024_f32_1_alg».proof.Proof.Gen.Pre_finite_inputs_ReferenceIdeal
import Idealize.ShloMosaic.Lib.StableHlo.Run
import Idealize.ShloMosaic.Lib.Layout
import Idealize.ShloMosaic.Lib.ValueIdx

noncomputable section

namespace Cert.A2A.RefLayout

open Idealize.ShloMosaic Idealize.SL.Sem Idealize.ShloMosaic.StableHlo Idealize.ShloMosaic.ValueIdx

/-! ## The reference's run -/

section Ref

open Cert.ReferenceIdeal Cert.ReferenceIdeal.Gen

/-- The reference's @main is the empty line of host operations. -/
theorem ref_main_eq (c : Dev nD) : main (F := Ideal) c = seq [] := rfl

/-- The reference's signature scopes no TensorCore buffer … -/
theorem ref_scopedRefs : (Finset.univ.filter fun b : Ref sig .tc => b.isScoped) = ∅ := by decide

/-- … and no semaphore. -/
theorem ref_scopedSems : (Finset.univ.filter fun sm : SemLoc sig => sm.isScoped .tc) = ∅ := by decide

/-- From any memory with zero counters the reference terminates, and every TensorCore buffer of every device
    ends holding its launch contents. -/
theorem ref_run_tc (m' : (ℓ : Loc nD τ sig) → Buf (Elt Ideal) ℓ) (g' : Dev nD → PrngReg) :
    θ_run (defs (F := Ideal)) (onTc (τ := τ) (main (F := Ideal))) ⟨m', fun _ => 0, g'⟩
      (fun r => ∀ (d : Dev nD) (b : Ref sig .tc),
        r.2.mem ((d.tc : Thread nD τ).loc b) = m' ((d.tc : Thread nD τ).loc b)) :=
  (θ_run defs _ _).mono (fun _ h d b => h d b)
    (run_seq ref_scopedRefs ref_scopedSems defs main (fun _ => []) ref_main_eq (fun _ => trivial) m' g')

/-- Every buffer of a device of the reference's signature is a TensorCore buffer (its one array, in HBM). -/
theorem ref_locs : ∀ r : DevRef τ sig, ∃ b : Ref sig .tc, r = Proc.devRef .tc b := by decide

/-- From any memory with zero counters the reference terminates and the whole memory ends as it was at launch. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩
      (fun r => ∀ ℓ, r.2.mem ℓ = m' ℓ) :=
  (θ_run defs _ _).mono (fun _ h ℓ => by
      obtain ⟨d, r⟩ := ℓ
      obtain ⟨b, rfl⟩ := ref_locs r
      exact h d b)
    (ref_run_tc m' g')

/-- The reference runs and its argument array ends unchanged. -/
theorem frame_ref : Cert.frame_ReferenceIdeal := fun m g _ =>
  (θ_run defs _ _).mono (fun _ h _ => h _) (ref_run m g)

end Ref

/-! ## The layout lemma -/

/-- The block coordinate of a dimension cut along the mesh's second axis is the device's second coordinate. -/
theorem meshLin_y (c : Nat) : Layout.meshLin [2, 2, 4] c [1] = (c / 4) % 2 := by
  simp [Layout.meshLin, Layout.meshCoord, Layout.cutSize]

/-- A dimension that is not cut is one block. -/
theorem meshLin_nil (c : Nat) : Layout.meshLin [2, 2, 4] c [] = 0 := rfl

/-- The index equation: a result whose row `R` is read from row `R % 4096` of a device on row block `R / 4096`,
    at columns `1024 · ((c / 4) % 2) + j`, is column block `(c / 4) % 2` of the whole array. -/
theorem layout_of_src {α : Type}
    (W : (⟨2, ![8192, 2048]⟩ : Shape).Idx → α)
    (X : Dev 16 → (⟨2, ![4096, 2048]⟩ : Shape).Idx → α)
    (hX : ∀ d : Dev 16, X d = Layout.blockN ⟨2, ![4096, 2048]⟩ ⟨2, ![8192, 2048]⟩ (Layout.meshBlock [2, 2, 4] ![[1], []] d) W)
    (c : Dev 16) (src : Fin 8192 → Dev 16) (hsrc : ∀ R : Fin 8192, ((src R).val / 4) % 2 = R.val / 4096)
    (O : (⟨2, ![8192, 1024]⟩ : Shape).Idx → α)
    (hO : ∀ (R : Fin 8192) (j : Fin 1024),
      O (ix2 R j) = X (src R) (ix2 (⟨R.val % 4096, by omega⟩ : Fin 4096) (⟨1024 * ((c.val / 4) % 2) + j.val, by omega⟩ : Fin 2048))) :
    O = Layout.blockN ⟨2, ![8192, 1024]⟩ ⟨2, ![8192, 2048]⟩ (Layout.meshBlock [2, 2, 4] ![[], [1]] c) W := by
  funext i
  obtain ⟨R, j, rfl⟩ : ∃ R j, i = ix2 R j := ⟨i 0, i 1, eq_ix2 i⟩
  rw [hO R j, hX (src R), Layout.blockN_apply, Layout.blockN_apply]
  congr 1
  funext b
  refine Fin.ext ?_
  rw [Layout.TilesN.idx_val, Layout.TilesN.idx_val, Layout.meshBlock_val, Layout.meshBlock_val]
  have hs := hsrc R
  match b with
  | ⟨0, _⟩ =>
    show Layout.meshLin [2, 2, 4] (src R).val [1] * 4096 + R.val % 4096 = Layout.meshLin [2, 2, 4] c.val [] * 8192 + R.val
    rw [meshLin_y, meshLin_nil, hs]; omega
  | ⟨1, _⟩ =>
    show Layout.meshLin [2, 2, 4] (src R).val [] * 2048 + (1024 * ((c.val / 4) % 2) + j.val) = Layout.meshLin [2, 2, 4] c.val [1] * 1024 + j.val
    rw [meshLin_y, meshLin_nil]; omega

end Cert.A2A.RefLayout

end
-- ==== Proof.Mesh.lean ====
import proofs.«900640_g7700000000000641_dist_a2a_v7x_xyz2x2x4_y_m4096_n1024_f32_1_alg».proof.Proof.Gen.KernelIdeal
import Idealize.ShloMosaic.Lib.Tactic

/-!
# The mesh of the all-to-all: partners along each axis

The sixteen devices form a 2 × 2 × 4 mesh; device `8·x + 4·y + z` sits at `(x, y, z)`. The kernel talks to
three partners: the device across the `y` axis (its id with bit 2 flipped), the one across the `x` axis (bit 3
flipped), and its neighbour in the `z` pair `{2k, 2k+1}` (bit 0 flipped). Each is an involution, the three
commute, and every device id the kernel computes is one of them.
-/

noncomputable section

namespace Cert.KernelIdeal.A2A

open Cert.KernelIdeal Cert.KernelIdeal.Gen
open Idealize.ShloMosaic

/-- The partner across the `y` axis. -/
def yP (c : Dev nD) : Dev nD := ⟨c.val ^^^ 4, Nat.xor_lt_two_pow (n := 4) c.isLt (by decide)⟩
/-- The partner across the `x` axis. -/
def xP (c : Dev nD) : Dev nD := ⟨c.val ^^^ 8, Nat.xor_lt_two_pow (n := 4) c.isLt (by decide)⟩
/-- The partner inside the `z` pair. -/
def zP (c : Dev nD) : Dev nD := ⟨c.val ^^^ 1, Nat.xor_lt_two_pow (n := 4) c.isLt (by decide)⟩

theorem yP_yP (c : Dev nD) : yP (yP c) = c := by revert c; decide
theorem xP_xP (c : Dev nD) : xP (xP c) = c := by revert c; decide
theorem zP_zP (c : Dev nD) : zP (zP c) = c := by revert c; decide
theorem yP_ne (c : Dev nD) : yP c ≠ c := by revert c; decide
theorem xP_ne (c : Dev nD) : xP c ≠ c := by revert c; decide
theorem zP_ne (c : Dev nD) : zP c ≠ c := by revert c; decide
theorem yP_ne_xP (c : Dev nD) : yP c ≠ xP c := by revert c; decide
theorem yP_ne_zP (c : Dev nD) : yP c ≠ zP c := by revert c; decide
theorem xP_ne_zP (c : Dev nD) : xP c ≠ zP c := by revert c; decide

/-- The `y` coordinate is flipped by `yP` and kept by the other two. -/
theorem y_yP (c : Dev nD) : ((yP c).val / 4) % 2 = 1 - (c.val / 4) % 2 := by revert c; decide
theorem y_xP (c : Dev nD) : ((xP c).val / 4) % 2 = (c.val / 4) % 2 := by revert c; decide
theorem y_zP (c : Dev nD) : ((zP c).val / 4) % 2 = (c.val / 4) % 2 := by revert c; decide

def yEquiv : Dev nD ≃ Dev nD := ⟨yP, yP, yP_yP, yP_yP⟩
def xEquiv : Dev nD ≃ Dev nD := ⟨xP, xP, xP_xP, xP_xP⟩
def zEquiv : Dev nD ≃ Dev nD := ⟨zP, zP, zP_zP, zP_zP⟩

/-! ## The device ids the kernel computes -/

theorem dev1_eq (c : Dev nD) : (⟨k0_dev1 c, k0_dev1_lt c⟩ : Dev nD) = yP c := by revert c; decide +kernel
theorem dev2_eq (c : Dev nD) : (⟨k0_dev2 c, k0_dev2_lt c⟩ : Dev nD) = xP c := by revert c; decide +kernel
theorem dev3_eq (c : Dev nD) : (⟨k0_dev3 c, k0_dev3_lt c⟩ : Dev nD) = zP c := by revert c; decide +kernel
theorem dev4_eq (c : Dev nD) : (⟨k0_dev4 c, k0_dev4_lt c⟩ : Dev nD) = yP c := by revert c; decide +kernel
theorem dev5_eq (c : Dev nD) : (⟨k0_dev5 c, k0_dev5_lt c⟩ : Dev nD) = yP c := by revert c; decide +kernel
theorem dev6_eq (c : Dev nD) : (⟨k0_dev6 c, k0_dev6_lt c⟩ : Dev nD) = yP c := by revert c; decide +kernel
theorem dev7_eq (c : Dev nD) : (⟨k0_dev7 c, k0_dev7_lt c⟩ : Dev nD) = yP c := by revert c; decide +kernel
theorem dev8_eq (c : Dev nD) : (⟨k0_dev8 c, k0_dev8_lt c⟩ : Dev nD) = yP c := by revert c; decide +kernel
theorem dev9_eq (c : Dev nD) : (⟨k0_dev9 c, k0_dev9_lt c⟩ : Dev nD) = yP c := by revert c; decide +kernel
theorem dev10_eq (c : Dev nD) : (⟨k0_dev10 c, k0_dev10_lt c⟩ : Dev nD) = yP c := by revert c; decide +kernel
theorem dev11_eq (c : Dev nD) : (⟨k0_dev11 c, k0_dev11_lt c⟩ : Dev nD) = yP c := by revert c; decide +kernel
theorem dev12_eq (c : Dev nD) : (⟨k0_dev12 c, k0_dev12_lt c⟩ : Dev nD) = yP c := by revert c; decide +kernel
theorem dev13_eq (c : Dev nD) : (⟨k0_dev13 c, k0_dev13_lt c⟩ : Dev nD) = yP c := by revert c; decide +kernel
theorem dev14_eq (c : Dev nD) : (⟨k0_dev14 c, k0_dev14_lt c⟩ : Dev nD) = yP c := by revert c; decide +kernel
theorem dev15_eq (c : Dev nD) : (⟨k0_dev15 c, k0_dev15_lt c⟩ : Dev nD) = yP c := by revert c; decide +kernel
theorem dev16_eq (c : Dev nD) : (⟨k0_dev16 c, k0_dev16_lt c⟩ : Dev nD) = yP c := by revert c; decide +kernel
theorem dev17_eq (c : Dev nD) : (⟨k0_dev17 c, k0_dev17_lt c⟩ : Dev nD) = yP c := by revert c; decide +kernel
theorem dev18_eq (c : Dev nD) : (⟨k0_dev18 c, k0_dev18_lt c⟩ : Dev nD) = yP c := by revert c; decide +kernel
theorem dev19_eq (c : Dev nD) : (⟨k0_dev19 c, k0_dev19_lt c⟩ : Dev nD) = yP c := by revert c; decide +kernel
theorem dev20_eq (c : Dev nD) : (⟨k0_dev20 c, k0_dev20_lt c⟩ : Dev nD) = xP c := by revert c; decide +kernel
theorem dev21_eq (c : Dev nD) : (⟨k0_dev21 c, k0_dev21_lt c⟩ : Dev nD) = zP c := by revert c; decide +kernel
theorem dev22_eq (c : Dev nD) : (⟨k0_dev22 c, k0_dev22_lt c⟩ : Dev nD) = xP c := by revert c; decide +kernel
theorem dev23_eq (c : Dev nD) : (⟨k0_dev23 c, k0_dev23_lt c⟩ : Dev nD) = zP c := by revert c; decide +kernel
theorem dev24_eq (c : Dev nD) : (⟨k0_dev24 c, k0_dev24_lt c⟩ : Dev nD) = xP c := by revert c; decide +kernel
theorem dev25_eq (c : Dev nD) : (⟨k0_dev25 c, k0_dev25_lt c⟩ : Dev nD) = zP c := by revert c; decide +kernel
theorem dev26_eq (c : Dev nD) : (⟨k0_dev26 c, k0_dev26_lt c⟩ : Dev nD) = xP c := by revert c; decide +kernel
theorem dev27_eq (c : Dev nD) : (⟨k0_dev27 c, k0_dev27_lt c⟩ : Dev nD) = zP c := by revert c; decide +kernel
theorem dev28_eq (c : Dev nD) : (⟨k0_dev28 c, k0_dev28_lt c⟩ : Dev nD) = xP c := by revert c; decide +kernel
theorem dev29_eq (c : Dev nD) : (⟨k0_dev29 c, k0_dev29_lt c⟩ : Dev nD) = zP c := by revert c; decide +kernel
theorem dev30_eq (c : Dev nD) : (⟨k0_dev30 c, k0_dev30_lt c⟩ : Dev nD) = xP c := by revert c; decide +kernel
theorem dev31_eq (c : Dev nD) : (⟨k0_dev31 c, k0_dev31_lt c⟩ : Dev nD) = zP c := by revert c; decide +kernel
theorem dev32_eq (c : Dev nD) : (⟨k0_dev32 c, k0_dev32_lt c⟩ : Dev nD) = xP c := by revert c; decide +kernel
theorem dev33_eq (c : Dev nD) : (⟨k0_dev33 c, k0_dev33_lt c⟩ : Dev nD) = zP c := by revert c; decide +kernel
theorem dev34_eq (c : Dev nD) : (⟨k0_dev34 c, k0_dev34_lt c⟩ : Dev nD) = xP c := by revert c; decide +kernel
theorem dev35_eq (c : Dev nD) : (⟨k0_dev35 c, k0_dev35_lt c⟩ : Dev nD) = zP c := by revert c; decide +kernel
theorem dev36_eq (c : Dev nD) : (⟨k0_dev36 c, k0_dev36_lt c⟩ : Dev nD) = xP c := by revert c; decide +kernel
theorem dev37_eq (c : Dev nD) : (⟨k0_dev37 c, k0_dev37_lt c⟩ : Dev nD) = zP c := by revert c; decide +kernel
theorem dev38_eq (c : Dev nD) : (⟨k0_dev38 c, k0_dev38_lt c⟩ : Dev nD) = xP c := by revert c; decide +kernel
theorem dev39_eq (c : Dev nD) : (⟨k0_dev39 c, k0_dev39_lt c⟩ : Dev nD) = zP c := by revert c; decide +kernel
theorem dev40_eq (c : Dev nD) : (⟨k0_dev40 c, k0_dev40_lt c⟩ : Dev nD) = xP c := by revert c; decide +kernel
theorem dev41_eq (c : Dev nD) : (⟨k0_dev41 c, k0_dev41_lt c⟩ : Dev nD) = zP c := by revert c; decide +kernel
theorem dev42_eq (c : Dev nD) : (⟨k0_dev42 c, k0_dev42_lt c⟩ : Dev nD) = xP c := by revert c; decide +kernel
theorem dev43_eq (c : Dev nD) : (⟨k0_dev43 c, k0_dev43_lt c⟩ : Dev nD) = zP c := by revert c; decide +kernel
theorem dev44_eq (c : Dev nD) : (⟨k0_dev44 c, k0_dev44_lt c⟩ : Dev nD) = xP c := by revert c; decide +kernel
theorem dev45_eq (c : Dev nD) : (⟨k0_dev45 c, k0_dev45_lt c⟩ : Dev nD) = zP c := by revert c; decide +kernel
theorem dev46_eq (c : Dev nD) : (⟨k0_dev46 c, k0_dev46_lt c⟩ : Dev nD) = xP c := by revert c; decide +kernel
theorem dev47_eq (c : Dev nD) : (⟨k0_dev47 c, k0_dev47_lt c⟩ : Dev nD) = zP c := by revert c; decide +kernel
theorem dev48_eq (c : Dev nD) : (⟨k0_dev48 c, k0_dev48_lt c⟩ : Dev nD) = xP c := by revert c; decide +kernel
theorem dev49_eq (c : Dev nD) : (⟨k0_dev49 c, k0_dev49_lt c⟩ : Dev nD) = zP c := by revert c; decide +kernel
theorem dev50_eq (c : Dev nD) : (⟨k0_dev50 c, k0_dev50_lt c⟩ : Dev nD) = xP c := by revert c; decide +kernel
theorem dev51_eq (c : Dev nD) : (⟨k0_dev51 c, k0_dev51_lt c⟩ : Dev nD) = zP c := by revert c; decide +kernel
theorem dev52_eq (c : Dev nD) : (⟨k0_dev52 c, k0_dev52_lt c⟩ : Dev nD) = xP c := by revert c; decide +kernel
theorem dev53_eq (c : Dev nD) : (⟨k0_dev53 c, k0_dev53_lt c⟩ : Dev nD) = zP c := by revert c; decide +kernel
theorem dev54_eq (c : Dev nD) : (⟨k0_dev54 c, k0_dev54_lt c⟩ : Dev nD) = xP c := by revert c; decide +kernel
theorem dev55_eq (c : Dev nD) : (⟨k0_dev55 c, k0_dev55_lt c⟩ : Dev nD) = zP c := by revert c; decide +kernel
theorem dev56_eq (c : Dev nD) : (⟨k0_dev56 c, k0_dev56_lt c⟩ : Dev nD) = xP c := by revert c; decide +kernel
theorem dev57_eq (c : Dev nD) : (⟨k0_dev57 c, k0_dev57_lt c⟩ : Dev nD) = zP c := by revert c; decide +kernel
theorem dev58_eq (c : Dev nD) : (⟨k0_dev58 c, k0_dev58_lt c⟩ : Dev nD) = xP c := by revert c; decide +kernel
theorem dev59_eq (c : Dev nD) : (⟨k0_dev59 c, k0_dev59_lt c⟩ : Dev nD) = zP c := by revert c; decide +kernel
theorem dev60_eq (c : Dev nD) : (⟨k0_dev60 c, k0_dev60_lt c⟩ : Dev nD) = xP c := by revert c; decide +kernel
theorem dev61_eq (c : Dev nD) : (⟨k0_dev61 c, k0_dev61_lt c⟩ : Dev nD) = zP c := by revert c; decide +kernel
theorem dev62_eq (c : Dev nD) : (⟨k0_dev62 c, k0_dev62_lt c⟩ : Dev nD) = xP c := by revert c; decide +kernel
theorem dev63_eq (c : Dev nD) : (⟨k0_dev63 c, k0_dev63_lt c⟩ : Dev nD) = zP c := by revert c; decide +kernel
theorem dev64_eq (c : Dev nD) : (⟨k0_dev64 c, k0_dev64_lt c⟩ : Dev nD) = xP c := by revert c; decide +kernel
theorem dev65_eq (c : Dev nD) : (⟨k0_dev65 c, k0_dev65_lt c⟩ : Dev nD) = zP c := by revert c; decide +kernel
theorem dev66_eq (c : Dev nD) : (⟨k0_dev66 c, k0_dev66_lt c⟩ : Dev nD) = xP c := by revert c; decide +kernel
theorem dev67_eq (c : Dev nD) : (⟨k0_dev67 c, k0_dev67_lt c⟩ : Dev nD) = zP c := by revert c; decide +kernel

end Cert.KernelIdeal.A2A

end
-- ==== Proof.Proto.lean ====
import proofs.«900640_g7700000000000641_dist_a2a_v7x_xyz2x2x4_y_m4096_n1024_f32_1_alg».proof.Proof.Gen.KernelIdeal.Frame
import proofs.«900640_g7700000000000641_dist_a2a_v7x_xyz2x2x4_y_m4096_n1024_f32_1_alg».proof.Proof.Mesh
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

/-!
# The all-to-all's protocol: cells, contents, schedule

Every device cuts its other-half rows into four quarters of sixteen 64-row chunks. Chunk `i` of the quarter a
device loads itself travels to its `y` partner; from there a copy goes on to that device's `x` partner and one to
its `z` partner; and of those second-hand copies one more goes across the remaining axis. So every chunk a device
ever receives is the chunk some device `d` loaded from its own input, `chunk d i`, and the four receive families
differ only in which `d`: the `y` partner, the `y` partner of the `x` partner, of the `z` partner, of both.

One round per cell. The barrier cell has three unit duties, one from each partner, each handing over the landing
buffers that partner will write into. Every send and receive cell has one duty of a chunk's credit: a receive cell's
payload is the landing chunk at its exact contents, a send cell's the source share coming back.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## Memrefs -/

abbrev aM : Memref sig .tc .hbm S4096x2048 .f32 := Memref.whole main_arg0
abbrev oM : Memref sig .tc .hbm S8192x1024 .f32 := Memref.whole main_v1
abbrev sM : Memref sig .tc .vmem S16x64x1024 .f32 := Memref.whole cc0_scratch0
abbrev rM : Memref sig .tc .vmem S16x64x1024 .f32 := Memref.whole cc0_scratch1
abbrev xrM : Memref sig .tc .vmem S16x64x1024 .f32 := Memref.whole cc0_scratch2
abbrev zrM : Memref sig .tc .vmem S16x64x1024 .f32 := Memref.whole cc0_scratch3
abbrev lM : Memref sig .tc .vmem S4096x1024 .f32 := Memref.whole cc0_scratch4

theorem slab_inb (i : Fin 16) : ∀ a, (![i.val, 0, 0] : Fin 3 → Nat) a + S1x64x1024.size a ≤ S16x64x1024.size a := by
  intro a
  fin_cases a
  · show i.val + 1 ≤ 16; omega
  · show 0 + 64 ≤ 64; omega
  · show 0 + 1024 ≤ 1024; omega

/-- Chunk `i` of a 16 × 64 × 1024 scratch buffer, as a 64 × 1024 memref. -/
abbrev slab (M : Memref sig .tc .vmem S16x64x1024 .f32) (i : Fin 16) : Memref sig .tc .vmem S64x1024 .f32 :=
  (M.slice (Rect.unit (s := S16x64x1024) ![i.val, 0, 0] S1x64x1024.size (slab_inb i)) (fun _ => rfl)).squeeze S64x1024 squeezes_S1x64x1024_S64x1024

/-- The word by which the program names chunk `i`'s row offset inside a quarter. -/
abbrev wd (i : Fin 16) : BitVec 32 := BitVec.ofNat 32 (64 * i.val)

/-- The 64 input rows device `d` loads as its chunk `i`. -/
abbrev aWin (d : Dev nD) (i : Fin 16) : Memref sig .tc .hbm S64x1024 .f32 :=
  aM.slice (Rect.unit (s := S4096x2048) (k0_off1 d (wd i)) S64x1024.size (k0_off1_inb d i)) (fun _ => rfl)
/-- Sixty-four result rows starting where `off` says. -/
abbrev oRow (off : Fin 2 → Nat) (h : ∀ a, off a + S64x1024.size a ≤ S8192x1024.size a) : Memref sig .tc .hbm S64x1024 .f32 :=
  oM.slice (Rect.unit (s := S8192x1024) off S64x1024.size h) (fun _ => rfl)
/-- The result rows device `d` stores chunk `i` of the quarter it got from its `y` partner into; -/
abbrev oRowY (d : Dev nD) (i : Fin 16) : Memref sig .tc .hbm S64x1024 .f32 := oRow (k0_off4 d (wd i)) (k0_off4_inb d i)
/-- of the quarter that came on through its `x` partner; -/
abbrev oRowX (d : Dev nD) (i : Fin 16) : Memref sig .tc .hbm S64x1024 .f32 := oRow (k0_off5 d (wd i)) (k0_off5_inb d i)
/-- through its `z` partner. -/
abbrev oRowZ (d : Dev nD) (i : Fin 16) : Memref sig .tc .hbm S64x1024 .f32 := oRow (k0_off6 d (wd i)) (k0_off6_inb d i)

/-- Who writes chunk `i` of device `c`'s fourth quarter: its `x` partner for even `i`, its `z` partner for odd. -/
def qP (c : Dev nD) (i : Fin 16) : Dev nD := if i.val % 2 = 0 then xP c else zP c
/-- Where those rows start, as the writer computes it: it forwards a chunk it stored at the same rows of its own result. -/
def qOff (c : Dev nD) (i : Fin 16) : Fin 2 → Nat := if i.val % 2 = 0 then k0_off6 (xP c) (wd i) else k0_off5 (zP c) (wd i)
theorem qOff_inb (c : Dev nD) (i : Fin 16) : ∀ a, qOff c i a + S64x1024.size a ≤ S8192x1024.size a := by
  unfold qOff; split
  · exact k0_off6_inb (xP c) i
  · exact k0_off5_inb (zP c) i
abbrev oRowQ (c : Dev nD) (i : Fin 16) : Memref sig .tc .hbm S64x1024 .f32 := oRow (qOff c i) (qOff_inb c i)

/-! ## Cells -/

abbrev barS : Sem sig := (SemArray.scalar (sig.barrier 0 rfl) : Sems sig S_).sem

/-- The eight families of chunk cells: a send and a receive cell for each of the four hops. -/
abbrev Fam : Type := Fin 8
abbrev Fam.ys : Fam := 0
abbrev Fam.yr : Fam := 1
abbrev Fam.xs : Fam := 2
abbrev Fam.xr : Fam := 3
abbrev Fam.zs : Fam := 4
abbrev Fam.zr : Fam := 5
abbrev Fam.qs : Fam := 6
abbrev Fam.qr : Fam := 7

/-- Where a family's cells start among the DMA semaphores (the fourth hop alternates between two arrays). -/
def Fam.base (f : Fam) (i : Fin 16) : ℕ :=
  match f with
  | 0 => 64 | 1 => 80 | 2 => 96 | 3 => 112 | 4 => 128 | 5 => 144
  | 6 => if i.val % 2 = 0 then 160 else 192
  | 7 => if i.val % 2 = 0 then 176 else 208

theorem Fam.base_lt (f : Fam) (i : Fin 16) : f.base i + i.val < 226 := by
  revert f i; decide

/-- The family's cell for chunk `i`. -/
def Fam.sem (f : Fam) (i : Fin 16) : DmaSem sig := ⟨f.base i + i.val, f.base_lt i⟩

abbrev barCell (c : Dev nD) : GSem nD τ sig := ((c : Thread nD τ), .reg barS)
abbrev fcell (c : Dev nD) (f : Fam) (i : Fin 16) : GSem nD τ sig := ((c : Thread nD τ), .dma (f.sem i))

/-- A chunk's DMA credit. -/
abbrev N : ℕ := (slab rM 0).view.dmaCredit
theorem N_pos : 0 < N := View.dmaCredit_pos _ (by decide)

/-! ## Contents -/

variable (m : (ℓ : Loc nD τ sig) → Buf (Elt F) ℓ)

/-- The chunk device `d` loads as its `i`-th: 64 rows of its own input, read through the load's source window. -/
def chunk (d : Dev nD) (i : Fin 16) : Vec F S64x1024 .f32 :=
  (aWin d i).view.read (Elt F) (m ((d : Thread nD τ).loc main_arg0))

/-- A scratch buffer every chunk of which holds `v`. -/
def slabBuf (v : Vec F S64x1024 .f32) : S16x64x1024.Idx → Elt F .f32 := fun j => v (ix2 (j 1) (j 2))
/-- A result array every aligned block of 64 rows of which holds `v`. -/
def rowBuf (v : Vec F S64x1024 .f32) : S8192x1024.Idx → Elt F .f32 :=
  fun j => v (ix2 (⟨(j 0).val % 64, Nat.mod_lt _ (by decide)⟩ : Fin 64) (j 1))

/-! ## Payloads -/

/-- Shares of a chunk read by three copies at once (two addressed, one local), and by two. -/
abbrev qX : PosShare TreeShare := fullShare.left
abbrev qZ : PosShare TreeShare := fullShare.right.left
abbrev qS : PosShare TreeShare := fullShare.right.right
abbrev qH : PosShare TreeShare := fullShare.right

/-- Chunk `i` of each scratch buffer on device `d`: at share `q` holding `v`, and whole at some contents. -/
abbrev sPts (d : Dev nD) (i : Fin 16) (q : PosShare TreeShare) (v : Vec F S64x1024 .f32) : sProp 𝕄 :=
  ((slab sM i).view.loc (d : Thread nD τ)) ↦[(slab sM i).view.set]{q} slabBuf v
abbrev sAny (d : Dev nD) (i : Fin 16) : sProp 𝕄 :=
  iprop(∃ f, ((slab sM i).view.loc (d : Thread nD τ)) ↦[(slab sM i).view.set]{fullShare} f)
abbrev rPts (d : Dev nD) (i : Fin 16) (q : PosShare TreeShare) (v : Vec F S64x1024 .f32) : sProp 𝕄 :=
  ((slab rM i).view.loc (d : Thread nD τ)) ↦[(slab rM i).view.set]{q} slabBuf v
abbrev rAny (d : Dev nD) (i : Fin 16) : sProp 𝕄 :=
  iprop(∃ f, ((slab rM i).view.loc (d : Thread nD τ)) ↦[(slab rM i).view.set]{fullShare} f)
abbrev xrPts (d : Dev nD) (i : Fin 16) (q : PosShare TreeShare) (v : Vec F S64x1024 .f32) : sProp 𝕄 :=
  ((slab xrM i).view.loc (d : Thread nD τ)) ↦[(slab xrM i).view.set]{q} slabBuf v
abbrev xrAny (d : Dev nD) (i : Fin 16) : sProp 𝕄 :=
  iprop(∃ f, ((slab xrM i).view.loc (d : Thread nD τ)) ↦[(slab xrM i).view.set]{fullShare} f)
abbrev zrPts (d : Dev nD) (i : Fin 16) (q : PosShare TreeShare) (v : Vec F S64x1024 .f32) : sProp 𝕄 :=
  ((slab zrM i).view.loc (d : Thread nD τ)) ↦[(slab zrM i).view.set]{q} slabBuf v
abbrev zrAny (d : Dev nD) (i : Fin 16) : sProp 𝕄 :=
  iprop(∃ f, ((slab zrM i).view.loc (d : Thread nD τ)) ↦[(slab zrM i).view.set]{fullShare} f)
/-- Sixty-four result rows at `off` on device `d`, holding `v`; and at some contents. -/
abbrev rowPts (off : Fin 2 → Nat) (h : ∀ a, off a + S64x1024.size a ≤ S8192x1024.size a) (d : Dev nD) (v : Vec F S64x1024 .f32) : sProp 𝕄 :=
  ((oRow off h).view.loc (d : Thread nD τ)) ↦[(oRow off h).view.set]{fullShare} rowBuf v
abbrev rowAny (off : Fin 2 → Nat) (h : ∀ a, off a + S64x1024.size a ≤ S8192x1024.size a) (d : Dev nD) : sProp 𝕄 :=
  iprop(∃ f, ((oRow off h).view.loc (d : Thread nD τ)) ↦[(oRow off h).view.set]{fullShare} f)

/-- What family `f`'s cell for chunk `i` on device `c` hands its owner: a receive cell the landed chunk, already cut
    into the shares its readers take at once (a first-hop chunk is read by two onward copies and a local store, a
    second-hop chunk by at most one onward copy and a local store); a send cell the source share the copy was lent. -/
def famPay (c : Dev nD) (f : Fam) (i : Fin 16) : sProp 𝕄 :=
  match f with
  | 0 => sPts c i fullShare (chunk m c i)
  | 1 => iprop(rPts c i qX (chunk m (yP c) i) ∗ rPts c i qZ (chunk m (yP c) i) ∗ rPts c i qS (chunk m (yP c) i))
  | 2 => rPts c i qX (chunk m (yP c) i)
  | 3 => iprop(xrPts c i qX (chunk m (yP (xP c)) i) ∗ xrPts c i qH (chunk m (yP (xP c)) i))
  | 4 => rPts c i qZ (chunk m (yP c) i)
  | 5 => iprop(zrPts c i qX (chunk m (yP (zP c)) i) ∗ zrPts c i qH (chunk m (yP (zP c)) i))
  | 6 => if i.val % 2 = 0 then zrPts c i qX (chunk m (yP (zP c)) i) else xrPts c i qX (chunk m (yP (xP c)) i)
  | 7 => rowPts (qOff c i) (qOff_inb c i) c (chunk m (yP (xP (zP c))) i)

/-- What the partner across axis `d` (0: `y`, 1: `x`, 2: `z`) hands device `c` with its barrier signal: the landing
    chunks it offers for `c`'s copies along that axis — its scratch chunks, and for `x` and `z` also the rows of its
    fourth quarter that `c` will write. -/
def barPay (c : Dev nD) (d : Fin 3) : sProp 𝕄 :=
  match d with
  | 0 => bigSep Finset.univ fun i : Fin 16 => rAny (F := F) (yP c) i
  | 1 => iprop((bigSep Finset.univ fun i : Fin 16 => xrAny (F := F) (xP c) i)
        ∗ bigSep (Finset.univ.filter fun i : Fin 16 => i.val % 2 = 0) fun i => rowAny (F := F) (k0_off6 c (wd i)) (k0_off6_inb c i) (xP c))
  | 2 => iprop((bigSep Finset.univ fun i : Fin 16 => zrAny (F := F) (zP c) i)
        ∗ bigSep (Finset.univ.filter fun i : Fin 16 => i.val % 2 = 1) fun i => rowAny (F := F) (k0_off5 c (wd i)) (k0_off5_inb c i) (zP c))

/-! ## The schedule -/

/-- Which family and chunk a DMA semaphore is the cell of, if any. -/
def famOf (k : DmaSem sig) : Option (Fam × Fin 16) :=
  if h : 64 ≤ k.val ∧ k.val < 160 then
    some (⟨(k.val - 64) / 16, by omega⟩, ⟨(k.val - 64) % 16, Nat.mod_lt _ (by decide)⟩)
  else if h : 160 ≤ k.val ∧ k.val < 176 ∧ k.val % 2 = 0 then some (6, ⟨k.val - 160, by omega⟩)
  else if h : 176 ≤ k.val ∧ k.val < 192 ∧ k.val % 2 = 0 then some (7, ⟨k.val - 176, by omega⟩)
  else if h : 192 ≤ k.val ∧ k.val < 208 ∧ k.val % 2 = 1 then some (6, ⟨k.val - 192, by omega⟩)
  else if h : 208 ≤ k.val ∧ k.val < 224 ∧ k.val % 2 = 1 then some (7, ⟨k.val - 208, by omega⟩)
  else none

theorem famOf_sem (f : Fam) (i : Fin 16) : famOf (f.sem i) = some (f, i) := by
  revert f i; decide

/-- One round. The barrier cell: three unit duties. A chunk cell: one duty of the chunk's credit. -/
def sched : Rounds.Schedule (GSem nD τ sig) (Fin 3) 𝕄 where
  duties g r :=
    if r = 0 ∧ g.1.2 = .tc then
      (match g.2 with
        | .reg s => if s = barS then Finset.univ else ∅
        | .dma k => if (famOf k).isSome then {0} else ∅)
    else ∅
  amount g _ _ := match g.2 with | .reg _ => 1 | .dma _ => N
  payload g _ d :=
    match g.2 with
    | .reg _ => barPay (F := F) g.1.1 d
    | .dma k => match famOf k with
      | some (f, i) => famPay m g.1.1 f i
      | none => iprop(emp)
  amount_pos g _ _ _ := by
    cases g.2 with
    | reg _ => exact Nat.one_pos
    | dma _ => exact N_pos

/-! ## Cells, indexed -/

/-- A device's cells: the barrier cell (`none`) and the 128 chunk cells. -/
abbrev CK : Type := Option (Fam × Fin 16)
abbrev csem : CK → SemLoc sig
  | none => .reg barS
  | some (f, i) => .dma (f.sem i)
abbrev kcell (ck : Dev nD × CK) : GSem nD τ sig := ((ck.1 : Thread nD τ), csem ck.2)

/-! ## What a device owes at launch, and the levels -/

/-- Device `c` owes every landing it will cause — sixteen chunks to its `y` partner, sixteen each to its `x` and `z`
    partners, and the sixteen of the fourth hop, even ones to the `x` partner and odd ones to the `z` partner — and
    one barrier unit to each partner; written as a plain sum in the order the program pays (the barrier units last,
    so that they peel first). -/
def O₀ (c : Dev nD) : CellTallies nD τ sig Unit :=
  tallyAt (fcell (yP c) Fam.yr 0) () N
    + tallyAt (fcell (yP c) Fam.yr 1) () N
    + tallyAt (fcell (yP c) Fam.yr 2) () N
    + tallyAt (fcell (yP c) Fam.yr 3) () N
    + tallyAt (fcell (yP c) Fam.yr 4) () N
    + tallyAt (fcell (yP c) Fam.yr 5) () N
    + tallyAt (fcell (yP c) Fam.yr 6) () N
    + tallyAt (fcell (yP c) Fam.yr 7) () N
    + tallyAt (fcell (yP c) Fam.yr 8) () N
    + tallyAt (fcell (yP c) Fam.yr 9) () N
    + tallyAt (fcell (yP c) Fam.yr 10) () N
    + tallyAt (fcell (yP c) Fam.yr 11) () N
    + tallyAt (fcell (yP c) Fam.yr 12) () N
    + tallyAt (fcell (yP c) Fam.yr 13) () N
    + tallyAt (fcell (yP c) Fam.yr 14) () N
    + tallyAt (fcell (yP c) Fam.yr 15) () N
    + tallyAt (fcell (xP c) Fam.xr 0) () N
    + tallyAt (fcell (zP c) Fam.zr 0) () N
    + tallyAt (fcell (xP c) Fam.xr 1) () N
    + tallyAt (fcell (zP c) Fam.zr 1) () N
    + tallyAt (fcell (xP c) Fam.xr 2) () N
    + tallyAt (fcell (zP c) Fam.zr 2) () N
    + tallyAt (fcell (xP c) Fam.xr 3) () N
    + tallyAt (fcell (zP c) Fam.zr 3) () N
    + tallyAt (fcell (xP c) Fam.xr 4) () N
    + tallyAt (fcell (zP c) Fam.zr 4) () N
    + tallyAt (fcell (xP c) Fam.xr 5) () N
    + tallyAt (fcell (zP c) Fam.zr 5) () N
    + tallyAt (fcell (xP c) Fam.xr 6) () N
    + tallyAt (fcell (zP c) Fam.zr 6) () N
    + tallyAt (fcell (xP c) Fam.xr 7) () N
    + tallyAt (fcell (zP c) Fam.zr 7) () N
    + tallyAt (fcell (xP c) Fam.xr 8) () N
    + tallyAt (fcell (zP c) Fam.zr 8) () N
    + tallyAt (fcell (xP c) Fam.xr 9) () N
    + tallyAt (fcell (zP c) Fam.zr 9) () N
    + tallyAt (fcell (xP c) Fam.xr 10) () N
    + tallyAt (fcell (zP c) Fam.zr 10) () N
    + tallyAt (fcell (xP c) Fam.xr 11) () N
    + tallyAt (fcell (zP c) Fam.zr 11) () N
    + tallyAt (fcell (xP c) Fam.xr 12) () N
    + tallyAt (fcell (zP c) Fam.zr 12) () N
    + tallyAt (fcell (xP c) Fam.xr 13) () N
    + tallyAt (fcell (zP c) Fam.zr 13) () N
    + tallyAt (fcell (xP c) Fam.xr 14) () N
    + tallyAt (fcell (zP c) Fam.zr 14) () N
    + tallyAt (fcell (xP c) Fam.xr 15) () N
    + tallyAt (fcell (zP c) Fam.zr 15) () N
    + tallyAt (fcell (xP c) Fam.qr 0) () N
    + tallyAt (fcell (zP c) Fam.qr 1) () N
    + tallyAt (fcell (xP c) Fam.qr 2) () N
    + tallyAt (fcell (zP c) Fam.qr 3) () N
    + tallyAt (fcell (xP c) Fam.qr 4) () N
    + tallyAt (fcell (zP c) Fam.qr 5) () N
    + tallyAt (fcell (xP c) Fam.qr 6) () N
    + tallyAt (fcell (zP c) Fam.qr 7) () N
    + tallyAt (fcell (xP c) Fam.qr 8) () N
    + tallyAt (fcell (zP c) Fam.qr 9) () N
    + tallyAt (fcell (xP c) Fam.qr 10) () N
    + tallyAt (fcell (zP c) Fam.qr 11) () N
    + tallyAt (fcell (xP c) Fam.qr 12) () N
    + tallyAt (fcell (zP c) Fam.qr 13) () N
    + tallyAt (fcell (xP c) Fam.qr 14) () N
    + tallyAt (fcell (zP c) Fam.qr 15) () N
    + tallyAt (barCell (zP c)) () 1 + tallyAt (barCell (xP c)) () 1 + tallyAt (barCell (yP c)) () 1

def L (g : GSem nD τ sig) : Finset Unit := if g.1.2 = .tc then {()} else ∅
/-- Barrier cells at 1; the first hop's receive cells at 2, the second hop's at 3, the fourth quarter's at 4; everything
    else (send cells, the local copies' cells) at 0: every wait a device makes while it still owes a landing is on a
    cell below that landing's. -/
def lv (g : GSem nD τ sig) (_ : Unit) : ℕ :=
  match g.2 with
  | .reg s => if s = barS then 1 else 0
  | .dma k => match famOf k with
    | some (f, _) => if f = Fam.yr then 2 else if f = Fam.xr ∨ f = Fam.zr then 3 else if f = Fam.qr then 4 else 0
    | none => 0

end Cert.KernelIdeal.A2A

end
-- ==== Proof.Ghost.lean ====
import proofs.«900640_g7700000000000641_dist_a2a_v7x_xyz2x2x4_y_m4096_n1024_f32_1_alg».proof.Proof.Proto

/-!
# Ghost state and proof data

What a device's body starts from and ends with. All cells' invariants and the fact that every cell has reached its
one round are shared by everyone (`records`); a device keeps its own cells' positions, and holds the token of every
duty it pays itself: one barrier duty at each partner, the arrival duty of every chunk it sends, the departure
duty of each of its own send cells.

The result. Row `R` of device `c`'s result is row `R mod 4096` of the input block of a device whose `y`
coordinate is `R / 4096`: `c` itself for its own half, and for quarter `q` of the other half the device across `y`
whose `x` coordinate and `z` parity spell `q`. The columns are `c`'s own column half.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The result -/

/-- The `y` coordinate of a device. -/
def yOf (c : Dev nD) : ℕ := (c.val / 4) % 2

/-- The device whose loaded chunks fill quarter `q` of `c`'s other half: across `y`, with `x` coordinate `q / 2` and
    `z` parity `q mod 2`, in `c`'s own `z` pair. -/
def srcDev (c : Dev nD) (q : ℕ) : Dev nD :=
  ⟨(8 * ((q / 2) % 2) + 4 * (1 - yOf c) + 2 * ((c.val % 4) / 2) + q % 2) % 16, Nat.mod_lt _ (by decide)⟩

/-- Whose input block row `R` of `c`'s result comes from. -/
def srcOf (c : Dev nD) (R : ℕ) : Dev nD := if R / 4096 = yOf c then c else srcDev c ((R % 4096) / 1024)

/-- Device `c`'s result. -/
def outC (c : Dev nD) : S8192x1024.Idx → Elt F .f32 := fun j =>
  (m (((srcOf c (j 0).val : Dev nD) : Thread nD τ).loc main_arg0) : S4096x2048.Idx → Elt F .f32)
    (ix2 (⟨(j 0).val % 4096, Nat.mod_lt _ (by decide)⟩ : Fin 4096)
      (⟨(1024 * yOf c + (j 1).val) % 2048, Nat.mod_lt _ (by decide)⟩ : Fin 2048))

/-- The 4096 result rows a device fills from its own input, and the 4096 × 1024 input window they come from. -/
abbrev oOwn (c : Dev nD) : Memref sig .tc .hbm S4096x1024 .f32 :=
  oM.slice (Rect.unit (s := S8192x1024) (k0_off3 c) S4096x1024.size (k0_off3_inb c)) (fun _ => rfl)
abbrev aOwn (c : Dev nD) : Memref sig .tc .hbm S4096x1024 .f32 :=
  aM.slice (Rect.unit (s := S4096x2048) (k0_off2 c) S4096x1024.size (k0_off2_inb c)) (fun _ => rfl)
/-- What those rows end holding: the device's own column half of its input block. -/
def ownHalf (c : Dev nD) : Vec F S4096x1024 .f32 := (aOwn c).view.read (Elt F) (m ((c : Thread nD τ).loc main_arg0))

/-! ## Ghost state -/

section Ghost
variable (K : Dev nD × CK → ℕ)

/-- Every cell's invariant, and that every cell has reached its round: persistent, the same for every device. -/
def records : sProp 𝕄 :=
  iprop((bigSep Finset.univ fun ck : Dev nD × CK => cellInv ER (sched m) (K ck) (kcell ck))
    ∗ bigSep Finset.univ fun ck : Dev nD × CK => reached ER (kcell ck) 0)

/-- A device's positions in its own cells. -/
def positions (c : Dev nD) : sProp 𝕄 := bigSep Finset.univ fun k : CK => atPos ER (kcell (c, k)) 0 ∅ 0

/-- The tokens of the duties device `c` pays. -/
def payToks (c : Dev nD) : sProp 𝕄 :=
  iprop(dutyTok ER (barCell (yP c)) 0 0 ∗ dutyTok ER (barCell (xP c)) 0 1 ∗ dutyTok ER (barCell (zP c)) 0 2
    ∗ bigSep Finset.univ fun i : Fin 16 =>
        iprop(dutyTok ER (fcell c Fam.ys i) 0 0 ∗ dutyTok ER (fcell (yP c) Fam.yr i) 0 0
          ∗ dutyTok ER (fcell c Fam.xs i) 0 0 ∗ dutyTok ER (fcell (xP c) Fam.xr i) 0 0
          ∗ dutyTok ER (fcell c Fam.zs i) 0 0 ∗ dutyTok ER (fcell (zP c) Fam.zr i) 0 0
          ∗ dutyTok ER (fcell c Fam.qs i) 0 0 ∗ dutyTok ER (fcell (qP c i) Fam.qr i) 0 0))

def ghost (c : Dev nD) : sProp 𝕄 := iprop(records m K ∗ positions (F := F) c ∗ payToks (F := F) c)

end Ghost

/-- The kernel's DMA semaphores that are no chunk cell — the local copies' and the unused ones — at zero. -/
def localSems (c : Dev nD) : sProp 𝕄 :=
  bigSep (Finset.univ.filter fun k : DmaSem sig => (famOf k).isSome = false) fun k => semVal ((c : Thread nD τ), .dma k) 0

/-- The credit a device is dealt at launch: three units on its barrier cell, a chunk's credit on each receive cell. -/
def credsOf (c : Dev nD) : sProp 𝕄 :=
  iprop(cred (tallyAt (barCell c) () 3) ∗ bigSep Finset.univ (fun i : Fin 16 =>
    iprop(cred (tallyAt (fcell c Fam.yr i) () N) ∗ cred (tallyAt (fcell c Fam.xr i) () N)
      ∗ cred (tallyAt (fcell c Fam.zr i) () N) ∗ cred (tallyAt (fcell c Fam.qr i) () N))))

/-- The two arrays, whole. -/
abbrev argPts (c : Dev nD) : sProp 𝕄 := (((c : Thread nD τ).loc main_arg0) ↦{fullShare} m ((c : Thread nD τ).loc main_arg0))
abbrev resPts (c : Dev nD) (f : Buf (Elt F) ((c : Thread nD τ).loc main_v1)) : sProp 𝕄 := (((c : Thread nD τ).loc main_v1) ↦{fullShare} f)

/-- The five scratch buffers, each whole at some contents. -/
def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What a device's body starts from, before its scratch buffers: the ghost state at some names, the local
    semaphores at zero, its launch credit, the levels, and its two arrays as launched. -/
def start (c : Dev nD) : sProp 𝕄 :=
  iprop((∃ K, ghost m K c) ∗ localSems (F := F) c ∗ credsOf (F := F) c ∗ levAts L lv ∗ argPts m c ∗ resPts c (m ((c : Thread nD τ).loc main_v1)))

def Φ₀ (c : Dev nD) : sProp 𝕄 := iprop(start m c ∗ scratchAny (F := F) c)

/-- All of the kernel's own DMA semaphores, as the launch indexes them. -/
abbrev osem : DmaSem sig → SemLoc sig := fun k => .dma k

/-- After the body: the input as launched, the result at its value, the scratch buffers at some contents, every
    own semaphore back at zero. -/
def Φ₁ (c : Dev nD) : sProp 𝕄 :=
  iprop(argPts m c ∗ resPts c (outC m c) ∗ scratchAny (F := F) c ∗ Pipeline.ownSems0 osem c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.A2A

end
-- ==== Proof.ValueIdeal.lean ====
import proofs.«900640_g7700000000000641_dist_a2a_v7x_xyz2x2x4_y_m4096_n1024_f32_1_alg».proof.Proof.Ghost
import proofs.«900640_g7700000000000641_dist_a2a_v7x_xyz2x2x4_y_m4096_n1024_f32_1_alg».proof.Proof.RefAndLayout

/-!
# The result as a column block of the whole array

Every device's input is its row block of one whole 8192 × 2048 array: device `d` holds row block `(d / 4) % 2`.
Row `R` of device `c`'s result is read from a device whose `y` coordinate is `R / 4096` — `c` itself on its own
half, a device across `y` on the other half —, at that block's row `R mod 4096` and at `c`'s own column half,
columns `1024 · ((c / 4) % 2) + j`. So the result is row `(R / 4096) · 4096 + R mod 4096 = R` of the whole array at
those columns: `c`'s column block of it.
-/

set_option maxRecDepth 16384

noncomputable section

namespace Cert.KernelIdeal.A2A.LayoutIdeal

open Cert.KernelIdeal Cert.KernelIdeal.Gen Cert.KernelIdeal.A2A
open Idealize.ShloMosaic Idealize.ShloMosaic.TcCoe
open Idealize.SL.Sem
open Idealize.ShloMosaic.ValueIdx (ix2)

/-- A function of a row and a column takes equal values at equal rows and columns. -/
theorem idx_congr {α : Type} (f : (⟨2, ![4096, 2048]⟩ : Shape).Idx → α) {a a' : Fin 4096} {b b' : Fin 2048}
    (ha : a.val = a'.val) (hb : b.val = b'.val) : f (ix2 a b) = f (ix2 a' b') := by
  rw [Fin.ext ha, Fin.ext hb]

/-- The device that quarter `q` of the other half comes from lies across `y`: its digits
    `8·((q / 2) % 2) + 4·(1 − y) + 2·w + q % 2` sum to less than 16, and the second of them is `1 − y`. -/
theorem srcDev_y (c : Dev nD) (q : ℕ) : ((srcDev c q).val / 4) % 2 = 1 - yOf c := by
  show ((8 * ((q / 2) % 2) + 4 * (1 - (c.val / 4) % 2) + 2 * ((c.val % 4) / 2) + q % 2) % 16 / 4) % 2
    = 1 - (c.val / 4) % 2
  omega

/-- The device a result row is read from sits on the row block the row belongs to. -/
theorem srcOf_y (c : Dev nD) (R : Fin 8192) : ((srcOf c R.val).val / 4) % 2 = R.val / 4096 := by
  have hR : R.val < 8192 := R.isLt
  unfold srcOf
  split
  · next hq => unfold yOf at hq; omega
  · next hq => rw [srcDev_y]; unfold yOf at hq ⊢; omega

/-- If every device's input is its row block of the whole array `X`, device `c`'s result is its column block of `X`. -/
theorem outC_layout (m : (ℓ : Loc Cert.KernelIdeal.nD Cert.KernelIdeal.τ Cert.KernelIdeal.sig) → Buf (Elt Ideal) ℓ)
    (X : (⟨2, ![8192, 2048]⟩ : Shape).Idx → Elt Ideal .f32)
    (h : ∀ c : Dev Cert.KernelIdeal.nD, m ((c.tc : Thread Cert.KernelIdeal.nD Cert.KernelIdeal.τ).loc Cert.KernelIdeal.main_arg0) = Layout.blockN ⟨2, ![4096, 2048]⟩ ⟨2, ![8192, 2048]⟩ (Layout.meshBlock [2, 2, 4] ![[1], []] c) X)
    (c : Dev Cert.KernelIdeal.nD) :
    Cert.KernelIdeal.A2A.outC m c = Layout.blockN ⟨2, ![8192, 1024]⟩ ⟨2, ![8192, 2048]⟩ (Layout.meshBlock [2, 2, 4] ![[], [1]] c) X := by
  refine Cert.A2A.RefLayout.layout_of_src X
    (fun d => m ((d.tc : Thread Cert.KernelIdeal.nD Cert.KernelIdeal.τ).loc Cert.KernelIdeal.main_arg0)) h c
    (fun R => srcOf c R.val) (srcOf_y c) (outC m c) (fun R j => ?_)
  refine idx_congr (m (((srcOf c R.val).tc : Thread Cert.KernelIdeal.nD Cert.KernelIdeal.τ).loc Cert.KernelIdeal.main_arg0)) rfl ?_
  show (1024 * yOf c + j.val) % 2048 = 1024 * ((c.val / 4) % 2) + j.val
  have hj : j.val < 1024 := j.isLt
  unfold yOf
  omega

/-- info: 'Cert.KernelIdeal.A2A.LayoutIdeal.outC_layout' depends on axioms: [propext, Classical.choice, Quot.sound] -/
#guard_msgs in #print axioms outC_layout

end Cert.KernelIdeal.A2A.LayoutIdeal

end
-- ==== Proof.Tables.lean ====
import proofs.«900640_g7700000000000641_dist_a2a_v7x_xyz2x2x4_y_m4096_n1024_f32_1_alg».proof.Proof.Proto

/-!
# The schedule's tables

What the one-round schedule says at each cell, for a symbolic device, family, chunk and duty: the barrier cell has
the three unit duties, each chunk cell the one duty of a chunk's credit; the payloads are the ones the protocol names.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## The payloads, family by family -/

section Pay
variable (c : Dev nD) (i : Fin 16)

theorem famPay_ys : famPay m c Fam.ys i = sPts c i fullShare (chunk m c i) := rfl
theorem famPay_yr : famPay m c Fam.yr i
    = iprop(rPts c i qX (chunk m (yP c) i) ∗ rPts c i qZ (chunk m (yP c) i) ∗ rPts c i qS (chunk m (yP c) i)) := rfl
theorem famPay_xs : famPay m c Fam.xs i = rPts c i qX (chunk m (yP c) i) := rfl
theorem famPay_xr : famPay m c Fam.xr i
    = iprop(xrPts c i qX (chunk m (yP (xP c)) i) ∗ xrPts c i qH (chunk m (yP (xP c)) i)) := rfl
theorem famPay_zs : famPay m c Fam.zs i = rPts c i qZ (chunk m (yP c) i) := rfl
theorem famPay_zr : famPay m c Fam.zr i
    = iprop(zrPts c i qX (chunk m (yP (zP c)) i) ∗ zrPts c i qH (chunk m (yP (zP c)) i)) := rfl
theorem famPay_qs : famPay m c Fam.qs i
    = if i.val % 2 = 0 then zrPts c i qX (chunk m (yP (zP c)) i) else xrPts c i qX (chunk m (yP (xP c)) i) := rfl
theorem famPay_qr : famPay m c Fam.qr i = rowPts (qOff c i) (qOff_inb c i) c (chunk m (yP (xP (zP c))) i) := rfl

/-- The fourth hop's send cell at an even chunk hands back the share of the chunk that came through the `z` partner; -/
theorem famPay_qs_even (h : i.val % 2 = 0) : famPay m c Fam.qs i = zrPts c i qX (chunk m (yP (zP c)) i) := by
  rw [famPay_qs, if_pos h]
/-- at an odd chunk, of the one that came through the `x` partner. -/
theorem famPay_qs_odd (h : ¬ i.val % 2 = 0) : famPay m c Fam.qs i = xrPts c i qX (chunk m (yP (xP c)) i) := by
  rw [famPay_qs, if_neg h]

theorem barPay_0 : barPay (F := F) c 0 = bigSep Finset.univ fun i : Fin 16 => rAny (F := F) (yP c) i := rfl
theorem barPay_1 : barPay (F := F) c 1
    = iprop((bigSep Finset.univ fun i : Fin 16 => xrAny (F := F) (xP c) i)
        ∗ bigSep (Finset.univ.filter fun i : Fin 16 => i.val % 2 = 0) fun i => rowAny (F := F) (k0_off6 c (wd i)) (k0_off6_inb c i) (xP c)) := rfl
theorem barPay_2 : barPay (F := F) c 2
    = iprop((bigSep Finset.univ fun i : Fin 16 => zrAny (F := F) (zP c) i)
        ∗ bigSep (Finset.univ.filter fun i : Fin 16 => i.val % 2 = 1) fun i => rowAny (F := F) (k0_off5 c (wd i)) (k0_off5_inb c i) (zP c)) := rfl

end Pay

/-! ## Every payload can be stored in a cell's invariant -/

instance famPay_storable (c : Dev nD) (f : Fam) (i : Fin 16) : BI.Storable (upEmb : UEmb _ 𝕄) (famPay m c f i) := by
  fin_cases f
  · show BI.Storable upEmb (sPts c i fullShare (chunk m c i)); infer_instance
  · show BI.Storable upEmb iprop(rPts c i qX (chunk m (yP c) i) ∗ rPts c i qZ (chunk m (yP c) i) ∗ rPts c i qS (chunk m (yP c) i)); infer_instance
  · show BI.Storable upEmb (rPts c i qX (chunk m (yP c) i)); infer_instance
  · show BI.Storable upEmb iprop(xrPts c i qX (chunk m (yP (xP c)) i) ∗ xrPts c i qH (chunk m (yP (xP c)) i)); infer_instance
  · show BI.Storable upEmb (rPts c i qZ (chunk m (yP c) i)); infer_instance
  · show BI.Storable upEmb iprop(zrPts c i qX (chunk m (yP (zP c)) i) ∗ zrPts c i qH (chunk m (yP (zP c)) i)); infer_instance
  · show BI.Storable upEmb (if i.val % 2 = 0 then zrPts c i qX (chunk m (yP (zP c)) i) else xrPts c i qX (chunk m (yP (xP c)) i))
    split <;> infer_instance
  · show BI.Storable upEmb (rowPts (qOff c i) (qOff_inb c i) c (chunk m (yP (xP (zP c))) i)); infer_instance

instance barPay_storable (c : Dev nD) (d : Fin 3) : BI.Storable (upEmb : UEmb _ 𝕄) (barPay (F := F) c d) := by
  fin_cases d
  · rw [show barPay (F := F) c ((fun i => i) ⟨0, by decide⟩) = barPay (F := F) c 0 from rfl, barPay_0]; infer_instance
  · rw [show barPay (F := F) c ((fun i => i) ⟨1, by decide⟩) = barPay (F := F) c 1 from rfl, barPay_1]; infer_instance
  · rw [show barPay (F := F) c ((fun i => i) ⟨2, by decide⟩) = barPay (F := F) c 2 from rfl, barPay_2]; infer_instance

instance sched_payload_storable (g : GSem nD τ sig) (r : ℕ) (d : Fin 3) :
    BI.Storable (upEmb : UEmb _ 𝕄) ((sched (F := F) m).payload g r d) := by
  obtain ⟨t, s⟩ := g
  cases s with
  | reg s => exact barPay_storable t.1 d
  | dma k =>
    show BI.Storable upEmb (match famOf k with | some (f, i) => famPay m t.1 f i | none => iprop(emp))
    cases famOf k with
    | none => exact inferInstanceAs (BI.Storable upEmb (iprop(emp) : sProp 𝕄))
    | some fi => obtain ⟨f, i⟩ := fi; exact famPay_storable m t.1 f i

/-! ## The tables -/

section Sched
variable (c : Dev nD) (f : Fam) (i : Fin 16) (d : Fin 3)

theorem famOf_sem_isSome : (famOf (f.sem i)).isSome = true := by rw [famOf_sem]; rfl

theorem duties_bar : (sched m).duties (barCell c) 0 = Finset.univ := by
  show (if (0 : ℕ) = 0 ∧ ((c : Thread nD τ)).2 = .tc then (if barS = barS then (Finset.univ : Finset (Fin 3)) else ∅) else ∅) = Finset.univ
  rw [if_pos ⟨rfl, rfl⟩, if_pos rfl]

theorem duties_fam : (sched m).duties (fcell c f i) 0 = {0} := by
  show (if (0 : ℕ) = 0 ∧ ((c : Thread nD τ)).2 = .tc then (if (famOf (f.sem i)).isSome then ({0} : Finset (Fin 3)) else ∅) else ∅) = {0}
  rw [if_pos ⟨rfl, rfl⟩, if_pos (famOf_sem_isSome f i)]

theorem duties_later (g : GSem nD τ sig) : ∀ r, 1 ≤ r → (sched m).duties g r = ∅ :=
  fun r hr => by dsimp only [sched]; rw [if_neg fun h => by omega]

theorem amount_bar : (sched m).amount (barCell c) 0 d = 1 := rfl
theorem amount_fam : (sched m).amount (fcell c f i) 0 d = N := rfl

theorem expect_bar : (sched m).expect (barCell c) 0 = 3 := by
  unfold Schedule.expect Schedule.amountOf
  rw [duties_bar, Finset.sum_congr rfl fun d _ => amount_bar m c d, Finset.sum_const, Finset.card_univ, Fintype.card_fin, smul_eq_mul]

theorem expect_fam : (sched m).expect (fcell c f i) 0 = N := by
  unfold Schedule.expect Schedule.amountOf; rw [duties_fam, Finset.sum_singleton, amount_fam]

theorem payload_bar : (sched m).payload (barCell c) 0 d = barPay c d := rfl

theorem payload_fam : (sched m).payload (fcell c f i) 0 d = famPay m c f i := by
  show (match famOf (f.sem i) with | some (f, i) => famPay m c f i | none => iprop(emp)) = famPay m c f i
  rw [famOf_sem]

/-- The rest of a chunk cell's round, no duty taken: its one payload. -/
theorem rest_fam : bigSep ((sched m).duties (fcell c f i) 0 \ ∅) (fun d => (sched m).payload (fcell c f i) 0 d) = famPay m c f i := by
  rw [Finset.sdiff_empty, duties_fam, bigSep_singleton, payload_fam]

/-- The rest of the barrier cell's round, no duty taken: the three partners' payloads. -/
theorem rest_bar : bigSep ((sched m).duties (barCell c) 0 \ ∅) (fun d => (sched m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl

theorem not_unitless (g : GSem nD τ sig) : ¬ (sched m).unitless g := fun h => h

end Sched

/-! ## The cells are distinct -/

/-- A chunk cell names its family and chunk: `famOf` reads both back. -/
theorem fsem_injective : ∀ f f' i i', Fam.sem f i = Fam.sem f' i' → f = f' ∧ i = i' := by
  intro f f' i i' h
  have h' := congrArg famOf h
  rw [famOf_sem, famOf_sem] at h'
  exact Prod.mk.inj (Option.some.inj h')

theorem csem_injective : Function.Injective (csem : CK → SemLoc sig) := by
  rintro (_ | ⟨f, i⟩) (_ | ⟨f', i'⟩) h
  · rfl
  · exact absurd h (fun h => by cases h)
  · exact absurd h (fun h => by cases h)
  · have h' : Fam.sem f i = Fam.sem f' i' := SemLoc.dma.inj h
    obtain ⟨rfl, rfl⟩ := fsem_injective f f' i i' h'
    rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- info: 'Cert.KernelIdeal.A2A.rest_bar' depends on axioms: [propext, Classical.choice, Quot.sound] -/
#guard_msgs in #print axioms rest_bar

/-- info: 'Cert.KernelIdeal.A2A.sched_payload_storable' depends on axioms: [propext, Classical.choice, Quot.sound] -/
#guard_msgs in #print axioms sched_payload_storable

/-- info: 'Cert.KernelIdeal.A2A.kcell_injective' depends on axioms: [propext, Classical.choice, Quot.sound] -/
#guard_msgs in #print axioms kcell_injective

end Cert.KernelIdeal.A2A

end
-- ==== Proof.Levels.lean ====
import proofs.«900640_g7700000000000641_dist_a2a_v7x_xyz2x2x4_y_m4096_n1024_f32_1_alg».proof.Proof.Proto

/-!
# Levels and launch credit

The deadlock-freedom side of the all-to-all. Every unit a device owes at launch is a landing on a partner's receive
cell or a unit on a partner's barrier cell, and those cells sit at levels 1 (barrier), 2 (first hop), 3 (second hop)
and 4 (fourth quarter); every other cell sits at 0. A device's waits go up through these levels in program order, so
each wait is on a cell strictly below everything the device still owes at that moment.

The same sum, read from the other side, is what the launch hands device `c`: its partners are involutions of the
mesh, so what all devices owe the cells of `c` is three barrier units and one chunk's credit on each receive cell.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## Which cells wait -/

theorem L_of_ne (g : GSem nD τ sig) (h : g.1.2 ≠ .tc) : L g = ∅ := if_neg h
theorem L_tc (c : Dev nD) (sm : SemLoc sig) : L ((c : Thread nD τ), sm) = {()} := if_pos rfl

theorem mem_L_tc (c : Dev nD) (sm : SemLoc sig) (u : Unit) : u ∈ L ((c : Thread nD τ), sm) := by
  rw [L_tc]; exact Finset.mem_singleton_self _

/-! ## The levels of the cells that are ever owed -/

theorem lv_bar (c : Dev nD) : lv (barCell c) () = 1 := by
  unfold lv; exact if_pos rfl

theorem lv_fcell (c : Dev nD) (f : Fam) (i : Fin 16) :
    lv (fcell c f i) () = if f = Fam.yr then 2 else if f = Fam.xr ∨ f = Fam.zr then 3 else if f = Fam.qr then 4 else 0 := by
  unfold lv; dsimp only; rw [famOf_sem]

theorem lv_yr (c : Dev nD) (i : Fin 16) : lv (fcell c Fam.yr i) () = 2 := by rw [lv_fcell]; rfl
theorem lv_xr (c : Dev nD) (i : Fin 16) : lv (fcell c Fam.xr i) () = 3 := by rw [lv_fcell]; rfl
theorem lv_zr (c : Dev nD) (i : Fin 16) : lv (fcell c Fam.zr i) () = 3 := by rw [lv_fcell]; rfl
theorem lv_qr (c : Dev nD) (i : Fin 16) : lv (fcell c Fam.qr i) () = 4 := by rw [lv_fcell]; rfl

/-! ## The fourth hop's writer -/

theorem qP_of_even (c : Dev nD) (i : Fin 16) (h : i.val % 2 = 0) : qP c i = xP c := if_pos h
theorem qP_of_odd (c : Dev nD) (i : Fin 16) (h : ¬ i.val % 2 = 0) : qP c i = zP c := if_neg h

/-- The writer of chunk `i` of a device's fourth quarter has that device as the writer of its own chunk `i`. -/
theorem qP_qP (c : Dev nD) (i : Fin 16) : qP (qP c i) i = c := by
  by_cases h : i.val % 2 = 0
  · rw [qP_of_even (qP c i) i h, qP_of_even c i h, xP_xP]
  · rw [qP_of_odd (qP c i) i h, qP_of_odd c i h, zP_zP]

/-! ## What a device owes, family by family -/

/-- A sum over the sixteen chunks, written out. -/
theorem sum16 {M : Type _} [AddCommMonoid M] (f : Fin 16 → M) :
    ∑ i, f i = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- The first hop's landings on the `y` partner; -/
def Oy (c : Dev nD) : CellTallies nD τ sig Unit := ∑ i : Fin 16, tallyAt (fcell (yP c) Fam.yr i) () N
/-- the second hop's, on the `x` and the `z` partner; -/
def Oxz (c : Dev nD) : CellTallies nD τ sig Unit :=
  ∑ i : Fin 16, (tallyAt (fcell (xP c) Fam.xr i) () N + tallyAt (fcell (zP c) Fam.zr i) () N)
/-- the fourth quarter's, on the `x` partner for even chunks and on the `z` partner for odd ones. -/
def Oq (c : Dev nD) : CellTallies nD τ sig Unit := ∑ i : Fin 16, tallyAt (fcell (qP c i) Fam.qr i) () N

/-- What a device owes at launch is those three families and a barrier unit to each partner. -/
theorem O₀_eq (c : Dev nD) :
    O₀ c = Oy c + Oxz c + Oq c + tallyAt (barCell (zP c)) () 1 + tallyAt (barCell (xP c)) () 1 + tallyAt (barCell (yP c)) () 1 := by
  unfold O₀ Oy Oxz Oq
  rw [sum16, sum16, sum16]
  simp only [add_assoc]
  rfl

theorem O₀_pos {c : Dev nD} {g : GSem nD τ sig} {u : Unit} (h : 0 < O₀ c g u) :
    (g = barCell (yP c) ∨ g = barCell (xP c) ∨ g = barCell (zP c))
      ∨ (∃ i : Fin 16, g = fcell (yP c) Fam.yr i ∨ g = fcell (xP c) Fam.xr i ∨ g = fcell (zP c) Fam.zr i ∨ g = fcell (qP c i) Fam.qr i) := by
  rw [O₀_eq] at h
  rcases Pipeline.add_pos_cases h with h | h
  rcases Pipeline.add_pos_cases h with h | h
  rcases Pipeline.add_pos_cases h with h | h
  rcases Pipeline.add_pos_cases h with h | h
  rcases Pipeline.add_pos_cases h with h | h
  · obtain ⟨i, -, hi⟩ := Pipeline.sum_pos_exists h
    exact Or.inr ⟨i, Or.inl (Pipeline.tallyAt_pos hi).1⟩
  · obtain ⟨i, -, hi⟩ := Pipeline.sum_pos_exists h
    rcases Pipeline.add_pos_cases hi with hi | hi
    · exact Or.inr ⟨i, Or.inr (Or.inl (Pipeline.tallyAt_pos hi).1)⟩
    · exact Or.inr ⟨i, Or.inr (Or.inr (Or.inl (Pipeline.tallyAt_pos hi).1))⟩
  · obtain ⟨i, -, hi⟩ := Pipeline.sum_pos_exists h
    exact Or.inr ⟨i, Or.inr (Or.inr (Or.inr (Pipeline.tallyAt_pos hi).1))⟩
  · exact Or.inl (Or.inr (Or.inr (Pipeline.tallyAt_pos h).1))
  · exact Or.inl (Or.inr (Or.inl (Pipeline.tallyAt_pos h).1))
  · exact Or.inl (Or.inl (Pipeline.tallyAt_pos h).1)

/-! ## Every wait is below what is owed -/

/-- A wait on a cell of level `n` while everything owed is a TensorCore cell above `n`. -/
theorem mayWait_below (c : Dev nD) (sm : SemLoc sig) (O : CellTallies nD τ sig Unit)
    (hO : ∀ g u, 0 < O g u → ∃ (d : Dev nD) (s : SemLoc sig), g = ((d : Thread nD τ), s) ∧ lv ((c : Thread nD τ), sm) () < lv g ()) :
    (levAts L lv : sProp 𝕄) ⊢ MayWait (c : Thread nD τ) sm () O :=
  Pipeline.mayWait_of_levAts (mem_L_tc c sm ()) fun g u hg => by
    obtain ⟨d, s, rfl, hlt⟩ := hO g u hg
    exact ⟨mem_L_tc d s u, hlt⟩

/-- A wait on any cell of level 0 (a send cell, a local copy's cell), owing any part of the launch dues. -/
theorem mayWait_lv0 (c : Dev nD) (sm : SemLoc sig) (hsm : lv ((c : Thread nD τ), sm) () = 0) (O : CellTallies nD τ sig Unit)
    (hO : ∀ g u, 0 < O g u → 0 < O₀ c g u) : (levAts L lv : sProp 𝕄) ⊢ MayWait (c : Thread nD τ) sm () O :=
  mayWait_below c sm O fun g u hg => by
    rw [hsm]
    rcases O₀_pos (hO g u hg) with (rfl | rfl | rfl) | ⟨i, rfl | rfl | rfl | rfl⟩
    · exact ⟨_, _, rfl, by rw [lv_bar]; decide⟩
    · exact ⟨_, _, rfl, by rw [lv_bar]; decide⟩
    · exact ⟨_, _, rfl, by rw [lv_bar]; decide⟩
    · exact ⟨_, _, rfl, by rw [lv_yr]; decide⟩
    · exact ⟨_, _, rfl, by rw [lv_xr]; decide⟩
    · exact ⟨_, _, rfl, by rw [lv_zr]; decide⟩
    · exact ⟨_, _, rfl, by rw [lv_qr]; decide⟩

/-- The barrier wait, owing landings only: every receive cell is above the barrier cells. -/
theorem mayWait_bar (c : Dev nD) (O : CellTallies nD τ sig Unit)
    (hO : ∀ g u, 0 < O g u → ∃ i : Fin 16, g = fcell (yP c) Fam.yr i ∨ g = fcell (xP c) Fam.xr i ∨ g = fcell (zP c) Fam.zr i ∨ g = fcell (qP c i) Fam.qr i) :
    (levAts L lv : sProp 𝕄) ⊢ MayWait (c : Thread nD τ) (.reg barS) () O :=
  mayWait_below c (.reg barS) O fun g u hg => by
    rw [show lv ((c : Thread nD τ), SemLoc.reg barS) () = 1 from lv_bar c]
    obtain ⟨i, rfl | rfl | rfl | rfl⟩ := hO g u hg
    · exact ⟨_, _, rfl, by rw [lv_yr]; decide⟩
    · exact ⟨_, _, rfl, by rw [lv_xr]; decide⟩
    · exact ⟨_, _, rfl, by rw [lv_zr]; decide⟩
    · exact ⟨_, _, rfl, by rw [lv_qr]; decide⟩

/-- A first-hop receive wait, owing second-hop and fourth-quarter landings only. -/
theorem mayWait_yr (c : Dev nD) (i : Fin 16) (O : CellTallies nD τ sig Unit)
    (hO : ∀ g u, 0 < O g u → ∃ j : Fin 16, g = fcell (xP c) Fam.xr j ∨ g = fcell (zP c) Fam.zr j ∨ g = fcell (qP c j) Fam.qr j) :
    (levAts L lv : sProp 𝕄) ⊢ MayWait (c : Thread nD τ) (.dma (Fam.yr.sem i)) () O :=
  mayWait_below c (.dma (Fam.yr.sem i)) O fun g u hg => by
    rw [show lv ((c : Thread nD τ), SemLoc.dma (Fam.yr.sem i)) () = 2 from lv_yr c i]
    obtain ⟨j, rfl | rfl | rfl⟩ := hO g u hg
    · exact ⟨_, _, rfl, by rw [lv_xr]; decide⟩
    · exact ⟨_, _, rfl, by rw [lv_zr]; decide⟩
    · exact ⟨_, _, rfl, by rw [lv_qr]; decide⟩

/-- A second-hop receive wait, owing fourth-quarter landings only. -/
theorem mayWait_xzr (c : Dev nD) (f : Fam) (hf : f = Fam.xr ∨ f = Fam.zr) (i : Fin 16) (O : CellTallies nD τ sig Unit)
    (hO : ∀ g u, 0 < O g u → ∃ j : Fin 16, g = fcell (qP c j) Fam.qr j) :
    (levAts L lv : sProp 𝕄) ⊢ MayWait (c : Thread nD τ) (.dma (f.sem i)) () O :=
  mayWait_below c (.dma (f.sem i)) O fun g u hg => by
    rw [show lv ((c : Thread nD τ), SemLoc.dma (f.sem i)) () = 3 from by rcases hf with rfl | rfl; exact lv_xr c i; exact lv_zr c i]
    obtain ⟨j, rfl⟩ := hO g u hg
    exact ⟨_, _, rfl, by rw [lv_qr]; decide⟩

/-! ## The launch credit -/

theorem cred_y (c : Dev nD) :
    (Pipeline.launchCred Oy c : sProp 𝕄) ⊢ bigSep Finset.univ fun i : Fin 16 => cred (tallyAt (fcell c Fam.yr i) () N) := by
  unfold Oy
  rw [Pipeline.launchCred_sum]
  exact bigSep_mono fun i _ => Pipeline.launchCred_tallyAt (.dma (Fam.yr.sem i)) yP yP yP_yP yP_yP () N c

theorem cred_xz (c : Dev nD) :
    (Pipeline.launchCred Oxz c : sProp 𝕄)
      ⊢ iprop((bigSep Finset.univ fun i : Fin 16 => cred (tallyAt (fcell c Fam.xr i) () N))
          ∗ bigSep Finset.univ fun i : Fin 16 => cred (tallyAt (fcell c Fam.zr i) () N)) := by
  unfold Oxz
  rw [Pipeline.launchCred_sum, ← bigSep_sep']
  refine bigSep_mono fun i _ => ?_
  rw [Pipeline.launchCred_add]
  exact BIClass.sep_mono (Pipeline.launchCred_tallyAt (.dma (Fam.xr.sem i)) xP xP xP_xP xP_xP () N c)
    (Pipeline.launchCred_tallyAt (.dma (Fam.zr.sem i)) zP zP zP_zP zP_zP () N c)

theorem cred_q (c : Dev nD) :
    (Pipeline.launchCred Oq c : sProp 𝕄) ⊢ bigSep Finset.univ fun i : Fin 16 => cred (tallyAt (fcell c Fam.qr i) () N) := by
  unfold Oq
  rw [Pipeline.launchCred_sum]
  exact bigSep_mono fun i _ =>
    Pipeline.launchCred_tallyAt (.dma (Fam.qr.sem i)) (fun d => qP d i) (fun d => qP d i) (fun d => qP_qP d i) (fun d => qP_qP d i) () N c

/-- The barrier unit every device owes its partner along one axis, seen from the partner. -/
theorem cred_bar (c : Dev nD) (f : Dev nD → Dev nD) (hf : ∀ d, f (f d) = d) :
    (Pipeline.launchCred (fun d => tallyAt (barCell (f d)) () 1) c : sProp 𝕄) ⊢ cred (tallyAt (barCell c) () 1) :=
  Pipeline.launchCred_tallyAt (.reg barS) f f hf hf () 1 c

theorem cred_bar3 (c : Dev nD) :
    iprop(cred (tallyAt (barCell c) () 1) ∗ cred (tallyAt (barCell c) () 1) ∗ cred (tallyAt (barCell c) () 1))
      ⊢ (cred (tallyAt (barCell c) () 3) : sProp 𝕄) := by
  have h3 : (tallyAt (barCell c) () 3 : CellTallies nD τ sig Unit)
      = tallyAt (barCell c) () 1 + (tallyAt (barCell c) () 1 + tallyAt (barCell c) () 1) := by
    rw [tallyAt_add, tallyAt_add]
  rw [h3]
  exact (sep_mono_right (cred_add _ _).2).trans (cred_add _ _).2

/-- What the launch hands device `c`: three barrier units, and a chunk's credit on each of its 64 receive cells. -/
theorem creds (c : Dev nD) :
    (Pipeline.launchCred O₀ c : sProp 𝕄)
      ⊢ iprop(cred (tallyAt (barCell c) () 3)
          ∗ bigSep Finset.univ (fun i : Fin 16 => iprop(cred (tallyAt (fcell c Fam.yr i) () N) ∗ cred (tallyAt (fcell c Fam.xr i) () N)
              ∗ cred (tallyAt (fcell c Fam.zr i) () N) ∗ cred (tallyAt (fcell c Fam.qr i) () N)))) := by
  rw [show (O₀ : Dev nD → CellTallies nD τ sig Unit)
      = fun d => Oy d + Oxz d + Oq d + tallyAt (barCell (zP d)) () 1 + tallyAt (barCell (xP d)) () 1 + tallyAt (barCell (yP d)) () 1
      from funext O₀_eq]
  rw [Pipeline.launchCred_add, Pipeline.launchCred_add, Pipeline.launchCred_add, Pipeline.launchCred_add, Pipeline.launchCred_add]
  refine (BIClass.sep_mono (BIClass.sep_mono (BIClass.sep_mono (BIClass.sep_mono (BIClass.sep_mono (cred_y c) (cred_xz c)) (cred_q c)) (cred_bar c zP zP_zP))
      (cred_bar c xP xP_xP))
    (cred_bar c yP yP_yP)).trans ?_
  rw [bigSep_sep', bigSep_sep', bigSep_sep']
  iintro ⟨⟨⟨⟨⟨HY, HX, HZ⟩, HQ⟩, Hb1⟩, Hb2⟩, Hb3⟩
  isplitl [Hb1 Hb2 Hb3]
  · iapply (cred_bar3 (F := F) c)
    isplitl [Hb1]; · iexact Hb1
    isplitl [Hb2]; · iexact Hb2
    iexact Hb3
  · isplitl [HY]; · iexact HY
    isplitl [HX]; · iexact HX
    isplitl [HZ]; · iexact HZ
    iexact HQ

/-- info: 'Cert.KernelIdeal.A2A.O₀_pos' depends on axioms: [propext, Classical.choice, Quot.sound] -/
#guard_msgs in #print axioms O₀_pos

/-- info: 'Cert.KernelIdeal.A2A.mayWait_lv0' depends on axioms: [propext, Classical.choice, Quot.sound] -/
#guard_msgs in #print axioms mayWait_lv0

/-- info: 'Cert.KernelIdeal.A2A.mayWait_bar' depends on axioms: [propext, Classical.choice, Quot.sound] -/
#guard_msgs in #print axioms mayWait_bar

/-- info: 'Cert.KernelIdeal.A2A.mayWait_yr' depends on axioms: [propext, Classical.choice, Quot.sound] -/
#guard_msgs in #print axioms mayWait_yr

/-- info: 'Cert.KernelIdeal.A2A.mayWait_xzr' depends on axioms: [propext, Classical.choice, Quot.sound] -/
#guard_msgs in #print axioms mayWait_xzr

/-- info: 'Cert.KernelIdeal.A2A.creds' depends on axioms: [propext, Classical.choice, Quot.sound] -/
#guard_msgs in #print axioms creds

end Cert.KernelIdeal.A2A

end
-- ==== Proof.Launch.lean ====
import proofs.«900640_g7700000000000641_dist_a2a_v7x_xyz2x2x4_y_m4096_n1024_f32_1_alg».proof.Proof.Ghost
import proofs.«900640_g7700000000000641_dist_a2a_v7x_xyz2x2x4_y_m4096_n1024_f32_1_alg».proof.Proof.Tables
import proofs.«900640_g7700000000000641_dist_a2a_v7x_xyz2x2x4_y_m4096_n1024_f32_1_alg».proof.Proof.Levels

/-!
# The launch

The launch theorem applied: from each device's body proof, the run of the whole mesh. A device's body starts from its
ghost state, its local semaphores, its launch credit, the levels, and its two arrays as launched; it ends with the
input as launched and the result at its value, which the final state is then read against.

What is the protocol's own — that the launch's resources fund every device's ghost state, and the body itself — enters
as hypotheses.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- What the launch's global step hands a device: its ghost state at some names, its local semaphores at zero. -/
abbrev G' (c : Dev nD) : sProp 𝕄 := iprop((∃ K, ghost m K c) ∗ localSems (F := F) c)

/-- What is read against the final state: the input as launched, the result at its value. -/
abbrev Yc (c : Dev nD) : sProp 𝕄 := iprop(argPts m c ∗ resPts c (outC m c))

/-! ## The theorem's side conditions -/

/-- The unscoped rest is the two arrays as launched; the launch credit is the device's credit. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Ho⟩, Hlev, Hcr, -, HG, Hls⟩
  ihave Hc := (creds (F := F) c) $$ Hcr
  imodintro
  unfold start credsOf
  isplitl
  · isplitl [HG]; · iexact HG
    isplitl [Hls]; · iexact Hls
    isplitl [Hc]; · iexact Hc
    isplitl [Hlev]; · iexact Hlev
    isplitl [Ha]; · iexact Ha
    iexact Ho
  · iempintro

/-- The scoped rest is the five scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchAny
  iintro ⟨Hs, -, Hr⟩
  isplitl [Hs]; · iexact Hs
  iexact Hr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ scratchAny
  iintro ⟨Ha, Ho, Hr, Hz⟩
  isplitl [Ha Ho]
  · isplitl [Ha]; · iexact Ha
    iexact Ho
  isplitl [Hz]; · iexact Hz
  iexact Hr

/-- No staged window, so no staging cell to wait on. -/
theorem waits (c : Dev nD) : (levAts L lv : sProp 𝕄) ⊢ Pipeline.cellsWaits cfgs (dats m) () 0 c :=
  Pipeline.cellsWaits_intro cfgs (dats m) () 0 c fun w s t => w.elim0

/-- The two arrays, whole, read against the state: the memory holds their contents. -/
theorem read_arrays (c : Dev nD) (s' : Phys nD τ sig (Elt F)) :
    iprop(Yc m c ∗ emp ∗ SI s') ⊢ |={Set.univ}=> iprop(⌜s'.mem.mem ((c : Thread nD τ).loc main_v1) = outC m c
        ∧ s'.mem.mem ((c : Thread nD τ).loc main_arg0) = m ((c : Thread nD τ).loc main_arg0)⌝ ∗ SI s') := by
  iintro ⟨⟨Ha, Ho⟩, -, HSI⟩
  icombine HSI Ha gives %ha
  icombine HSI Ho gives %ho
  imodintro
  isplitr; · ipureintro; exact ⟨Buf.eq_of_forall_mem_univ ho, Buf.eq_of_forall_mem_univ ha⟩
  iexact HSI

/-! ## The run -/

/-- At the compiled mesh of sixteen devices, for any float values, from any memory with zero counters: given that the
    launch's resources fund every device's ghost state and that every device's body is proved, every weakly fair
    execution of @main terminates, and every final state has each device's result at `outC` and its input unchanged. -/
theorem run_main (u₀ : UU) (G : Dev nD → sProp 𝕄)
    (hu₀ : (ownU (u₀ : UU) : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop((∃ K, ghost m K c) ∗ localSems (F := F) c))
    (hown : Pipeline.OwnSemFacts cfg0.spec osem)
    (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_v1) = outC m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ hown (Pipeline.PreFacts.none _) EP defs₀ 𝒱₀ m ρ main
    (hmain := fun _ => rfl)
    (hbody := fun c => (hbody c).loose) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G) (G' := G' m) (u₀ := u₀)
    (hu₀ := hu₀)
    (hglob := hglob)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = outC m c
      ∧ s.mem ((c : Thread nD τ).loc main_arg0) = m ((c : Thread nD τ).loc main_arg0))
    (hY := read_arrays m)
    (hQ := fun _ h c => (h c).2.2)

/-- The same run, read for the input alone. -/
theorem frame_main (u₀ : UU) (G : Dev nD → sProp 𝕄)
    (hu₀ : (ownU (u₀ : UU) : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop((∃ K, ghost m K c) ∗ localSems (F := F) c))
    (hown : Pipeline.OwnSemFacts cfg0.spec osem)
    (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run defs _ _).mono (fun _ h c => (h c).2) (run_main m ρ u₀ G hu₀ hglob hown hbody)

/-- info: 'Cert.KernelIdeal.A2A.run_main' depends on axioms: [propext, Classical.choice, Quot.sound] -/
#guard_msgs in #print axioms run_main

/-- info: 'Cert.KernelIdeal.A2A.frame_main' depends on axioms: [propext, Classical.choice, Quot.sound] -/
#guard_msgs in #print axioms frame_main

end Cert.KernelIdeal.A2A

end
-- ==== Proof.Glob.lean ====
import proofs.«900640_g7700000000000641_dist_a2a_v7x_xyz2x2x4_y_m4096_n1024_f32_1_alg».proof.Proof.Ghost
import proofs.«900640_g7700000000000641_dist_a2a_v7x_xyz2x2x4_y_m4096_n1024_f32_1_alg».proof.Proof.Tables
import proofs.«900640_g7700000000000641_dist_a2a_v7x_xyz2x2x4_y_m4096_n1024_f32_1_alg».proof.Proof.Levels

/-!
# The launch: funding and the global step

The rounds element at launch is cut into what each device starts with: the round state of its 129 cells (the barrier
cell and the 128 chunk cells), its positions in them, and the tokens of their duties. The global step then opens the
129 invariants of every device from its semaphores at zero, and deals every token to the device that pays the duty:
a barrier cell's three tokens to the three partners, a receive cell's token to the device that sends the chunk, a
send cell's token to its own device. The partner maps are involutions of the mesh, so dealing is a reindexing.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## Cells and tokens -/

/-- Every device's 129 cells. -/
def allCells : Finset (GSem nD τ sig) := Finset.univ.map ⟨kcell, kcell_injective⟩

/-- Which duty of a device's cells: one of the barrier cell's three, or the one duty of chunk `i`'s cell of family `f`. -/
abbrev TK : Type := Fin 3 ⊕ (Fin 16 × Fam)

abbrev dutyOf (ct : Dev nD × TK) : GSem nD τ sig × ℕ × Fin 3 := match ct.2 with
  | .inl d => (barCell ct.1, 0, d)
  | .inr (i, f) => (fcell ct.1 f i, 0, 0)

theorem dutyOf_injective : Function.Injective (dutyOf : Dev nD × TK → GSem nD τ sig × ℕ × Fin 3) := by
  rintro ⟨c, t⟩ ⟨c', t'⟩ h
  rcases t with d | ⟨i, f⟩ <;> rcases t' with d' | ⟨i', f'⟩
  · have h1 : c = c' := congrArg (fun x : GSem nD τ sig × ℕ × Fin 3 => x.1.1.1) h
    have h2 : d = d' := congrArg (fun x : GSem nD τ sig × ℕ × Fin 3 => x.2.2) h
    subst h1 h2; rfl
  · exact absurd (congrArg (fun x : GSem nD τ sig × ℕ × Fin 3 => x.1.2) h) (fun h' => by cases h')
  · exact absurd (congrArg (fun x : GSem nD τ sig × ℕ × Fin 3 => x.1.2) h) (fun h' => by cases h')
  · have hk : kcell (c, some (f, i)) = kcell (c', some (f', i')) := congrArg (fun x : GSem nD τ sig × ℕ × Fin 3 => x.1) h
    obtain ⟨rfl, h3⟩ := Prod.mk.inj (kcell_injective hk)
    obtain ⟨rfl, rfl⟩ := Prod.mk.inj (Option.some.inj h3)
    rfl

/-- The tokens minted at launch: one for every duty of every cell. -/
def allToks : Finset (GSem nD τ sig × ℕ × Fin 3) := Finset.univ.map ⟨dutyOf, dutyOf_injective⟩

def u₀ : UU :=
  (initOf (Pipeline.cells cfgs cellOf_inj) (Pipeline.launchToks cfgs cellOf_inj), (initOf allCells allToks, 1))

/-- The duty tokens of device `c`'s own cells. -/
def toks (c : Dev nD) : sProp 𝕄 :=
  iprop((bigSep Finset.univ fun d : Fin 3 => dutyTok ER (barCell c) 0 d)
    ∗ bigSep Finset.univ fun i : Fin 16 => bigSep Finset.univ fun f : Fam => dutyTok ER (fcell c f i) 0 0)

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks (F := F) c)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_fam (Φ : Fam → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A device's cells: the barrier cell, and the chunk cells by family and chunk. -/
theorem bigSep_CK (Φ : CK → sProp 𝕄) :
    bigSep Finset.univ Φ = iprop(Φ none ∗ bigSep Finset.univ fun fi : Fam × Fin 16 => Φ (some fi)) := by
  have h : (Finset.univ.erase (none : CK)) = (Finset.univ : Finset (Fam × Fin 16)).map Function.Embedding.some := by
    ext x; cases x <;> simp
  rw [bigSep_univ_at Φ none, h, bigSep_map]; rfl

/-! ## Funding -/

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks; rw [bigSep_univ_sum, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb (UB × Counters) 𝕄) _ _) $$ HX
  icases H2 with ⟨HB, -⟩
  imod (fund_all m) $$ HB with HG
  imodintro
  isplitl [HP] <;> iassumption

/-! ## The semaphores at launch -/

theorem ownSemFacts : Pipeline.OwnSemFacts cfg0.spec osem :=
  ⟨by decide, fun a b h => SemLoc.dma.inj h, fun k w s => w.elim0⟩

/-- The barrier semaphore is the one semaphore of a core that no kernel scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A DMA semaphore that is a chunk cell is the cell of the family and chunk `famOf` reads off it. -/
theorem famOf_inv : ∀ k : DmaSem sig, (match famOf k with | some fi => decide (fi.1.sem fi.2 = k) | none => true) = true := by
  decide

theorem sem_of_famOf {k : DmaSem sig} {fi : Fam × Fin 16} (h : famOf k = some fi) : fi.1.sem fi.2 = k := by
  have := famOf_inv k; rw [h] at this; exact of_decide_eq_true this

/-- The chunk cells among the DMA semaphores, by family and chunk. -/
def fsemEmb : (Fam × Fin 16) ↪ DmaSem sig :=
  ⟨fun fi => fi.1.sem fi.2, fun a b h => by obtain ⟨h1, h2⟩ := fsem_injective a.1 b.1 a.2 b.2 h; exact Prod.ext h1 h2⟩

theorem chunk_filter : (Finset.univ.filter fun k : DmaSem sig => (famOf k).isSome = true) = Finset.univ.map fsemEmb := by
  ext k
  rw [Finset.mem_filter, Finset.mem_map]
  constructor
  · rintro ⟨-, hk⟩
    obtain ⟨fi, hfi⟩ := Option.isSome_iff_exists.mp hk
    exact ⟨fi, Finset.mem_univ _, sem_of_famOf hfi⟩
  · rintro ⟨fi, -, rfl⟩
    exact ⟨Finset.mem_univ _, famOf_sem_isSome fi.1 fi.2⟩

/-- A core's own semaphores at zero: its chunk cells', and the rest. -/
theorem ownSems0_split (c : Dev nD) :
    (Pipeline.ownSems0 (Ix := Unit) (Name := ℕ) (U := UU) (Lvl := ℕ) (Val := Elt F) (τ := τ) osem c : sProp 𝕄)
      = iprop((bigSep Finset.univ fun fi : Fam × Fin 16 => semVal (kcell (c, some fi)) 0) ∗ localSems c) := by
  unfold Pipeline.ownSems0 localSems
  rw [bigSep_filter_split Finset.univ (fun k : DmaSem sig => (famOf k).isSome = true), chunk_filter, bigSep_map,
    Finset.filter_congr (fun k _ => Iff.of_eq (Bool.not_eq_true ((famOf k).isSome)))]
  rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ localSems c) : sProp 𝕄) := by
  rw [ownSems0_split, unscopedSems0_eq, bigSep_CK]
  iintro ⟨⟨HS, HL⟩, HB⟩
  isplitr [HL]
  · isplitl [HB]; · iexact HB
    iexact HS
  · iexact HL

/-! ## Opening the invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0))
          ∗ toks c ∗ localSems c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-! ## Dealing the tokens -/

theorem records_pers (K : Dev nD × CK → ℕ) : BI.Persistent (records m K) := by unfold records; infer_instance

theorem inv_at (K : Dev nD × CK → ℕ) (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)

theorem reached_at (ck : Dev nD × CK) :
    (bigSep Finset.univ fun ck : Dev nD × CK => (reached ER (kcell ck) 0 : sProp 𝕄)) ⊢ reached ER (kcell ck) 0 :=
  bigSep_elim (Finset.mem_univ ck)

/-- One token of every device, handed each to its partner along an involution of the mesh. -/
theorem deal_dev (e : Dev nD → Dev nD) (he : ∀ c, e (e c) = c) (Φ : Dev nD → sProp 𝕄) :
    bigSep Finset.univ Φ ⊢ bigSep Finset.univ fun c => Φ (e c) :=
  Entails.of_eq (bigSep_univ_equiv ⟨e, e, he, he⟩ Φ)

/-- One token per device and chunk, handed each to a partner that may depend on the chunk. -/
theorem deal_chunk (π : Dev nD → Fin 16 → Dev nD) (hπ : ∀ c i, π (π c i) i = c) (Φ : Dev nD → Fin 16 → sProp 𝕄) :
    (bigSep Finset.univ fun c => bigSep Finset.univ fun i => Φ c i) ⊢ bigSep Finset.univ fun c => bigSep Finset.univ fun i => Φ (π c i) i :=
  ((Entails.of_eq (bigSep_univ_prod (fun ci : Dev nD × Fin 16 => Φ ci.1 ci.2)).symm).trans
    (Entails.of_eq (bigSep_univ_equiv
      (⟨fun ci => (π ci.1 ci.2, ci.2), fun ci => (π ci.1 ci.2, ci.2), fun ci => Prod.ext (hπ ci.1 ci.2) rfl, fun ci => Prod.ext (hπ ci.1 ci.2) rfl⟩ :
        Dev nD × Fin 16 ≃ Dev nD × Fin 16)
      (fun ci : Dev nD × Fin 16 => Φ ci.1 ci.2)))).trans
    (Entails.of_eq (bigSep_univ_prod (fun ci : Dev nD × Fin 16 => Φ (π ci.1 ci.2) ci.2)))

/-- The tokens dealt: a barrier cell's three to the three partners, a receive cell's to the sender, a send cell's stays. -/
theorem toks_around : (bigSep Finset.univ fun c : Dev nD => (toks c : sProp 𝕄)) ⊢ bigSep Finset.univ fun c : Dev nD => payToks c := by
  unfold toks payToks
  simp only [bigSep_fin3, bigSep_fam, bigSep_sep']
  iintro ⟨⟨H0, H1, H2⟩, A0, A1, A2, A3, A4, A5, A6, A7⟩
  isplitl [H0]; · iapply (deal_dev yP yP_yP (fun c => dutyTok ER (barCell c) 0 0)); iexact H0
  isplitl [H1]; · iapply (deal_dev xP xP_xP (fun c => dutyTok ER (barCell c) 0 1)); iexact H1
  isplitl [H2]; · iapply (deal_dev zP zP_zP (fun c => dutyTok ER (barCell c) 0 2)); iexact H2
  isplitl [A0]; · iexact A0
  isplitl [A1]; · iapply (deal_chunk (fun c _ => yP c) (fun c _ => yP_yP c) (fun c i => dutyTok ER (fcell c Fam.yr i) 0 0)); iexact A1
  isplitl [A2]; · iexact A2
  isplitl [A3]; · iapply (deal_chunk (fun c _ => xP c) (fun c _ => xP_xP c) (fun c i => dutyTok ER (fcell c Fam.xr i) 0 0)); iexact A3
  isplitl [A4]; · iexact A4
  isplitl [A5]; · iapply (deal_chunk (fun c _ => zP c) (fun c _ => zP_zP c) (fun c i => dutyTok ER (fcell c Fam.zr i) 0 0)); iexact A5
  isplitl [A6]; · iexact A6
  iapply (deal_chunk qP qP_qP (fun c i => dutyTok ER (fcell c Fam.qr i) 0 0)); iexact A7

/-! ## Regrouping, and the global step -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) :
    iprop(records m K ∗ (positions (F := F) c ∗ payToks (F := F) c) ∗ localSems (F := F) c)
      ⊢ iprop((∃ K, ghost m K c) ∗ localSems (F := F) c) := by
  unfold ghost
  iintro ⟨HR, ⟨Hp, Ht⟩, HL⟩
  isplitr [HL]
  · iexists K
    isplitl [HR]; · iexact HR
    isplitl [Hp]; · iexact Hp
    iexact Ht
  · iexact HL

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0))
          ∗ toks c ∗ localSems c) : sProp 𝕄)
      ⊢ bigSep Finset.univ (fun c : Dev nD => iprop((∃ K, ghost m K c) ∗ localSems (F := F) c)) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, HL⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  haveI := records_pers m K
  iapply (bigSep_with_persistent (R := records m K) fun c _ => ghost_intro m K c)
  isplitr
  · unfold records; isplitl; · iexact HI
    iexact HR
  · unfold positions
    simp only [bigSep_sep']
    isplitl [Hat Htk]
    · isplitl [Hat]; · iexact Hat
      iexact Htk
    · iexact HL

/-- The global step: every device's own and unscoped semaphores at once; each device ends with its ghost state at some
    names and its local semaphores at zero. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (fun c : Dev nD => iprop((∃ K, ghost m K c) ∗ localSems (F := F) c)) :=
  ((bigSep_mono fun c _ => core_alloc m c).trans (bigSep_fupd _ _)).trans (BI.fupd_mono (regroup m))

/-- info: 'Cert.KernelIdeal.A2A.hu₀' depends on axioms: [propext, Classical.choice, Quot.sound] -/
#guard_msgs in #print axioms hu₀

/-- info: 'Cert.KernelIdeal.A2A.glob' depends on axioms: [propext, Classical.choice, Quot.sound] -/
#guard_msgs in #print axioms glob

/-- info: 'Cert.KernelIdeal.A2A.ownSemFacts' depends on axioms: [propext, Classical.choice, Quot.sound] -/
#guard_msgs in #print axioms ownSemFacts

/-- info: 'Cert.KernelIdeal.A2A.unscopedSems0_eq' depends on axioms: [propext, Classical.choice, Quot.sound] -/
#guard_msgs in #print axioms unscopedSems0_eq

end Cert.KernelIdeal.A2A

end
-- ==== Proof.BodyCtx.lean ====
import proofs.«900640_g7700000000000641_dist_a2a_v7x_xyz2x2x4_y_m4096_n1024_f32_1_alg».proof.Proof.Ghost

/-!
# What a device's body starts from, spelt out

In the order the program uses it. First what the loads and the barrier handshake need: the levels, the barrier
cells, what the device owes, the input's sixteen chunk windows and own-half window with the scratch chunks they
fill, and the landing chunks and fourth-quarter rows the device offers its partners. Then, chunk by chunk, what each
pass over the chunks needs: the first hop's cells; the own half's store; the first hop's receive cell with the
second hop's cells and the store of the received chunk; the second hop's receive cells with their stores and the
fourth hop's cells; and for the closing waits the send cells' positions and the fourth hop's receive cell. Every
buffer is held through exactly the view the copies name; the part of the input nothing reads comes last.
-/

set_option maxRecDepth 65536

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The part of the input no copy reads: everything outside the sixteen chunk windows and the own-half window. -/
def aRest (c : Dev nD) : Finset (aM : Memref sig .tc .hbm S4096x2048 .f32).view.ty.Idx :=
  (aM : Memref sig .tc .hbm S4096x2048 .f32).view.set \ (((aOwn c).view.set : Finset (aM : Memref sig .tc .hbm S4096x2048 .f32).view.ty.Idx)
    ∪ Finset.univ.biUnion fun i : Fin 16 => ((aWin c i).view.set : Finset (aM : Memref sig .tc .hbm S4096x2048 .f32).view.ty.Idx))

def bodyCtx (K : Dev nD × CK → ℕ) (c : Dev nD) (W : Waits sig Unit) (fo : S8192x1024.Idx → Elt F .f32)
    (fs fr fx fz : S16x64x1024.Idx → Elt F .f32) (fl : S4096x1024.Idx → Elt F .f32) : sProp 𝕄 :=
  iprop(levAts L lv
    ∗ cellInv ER (sched m) (K (c, none)) (barCell c)
    ∗ cellInv ER (sched m) (K (yP c, none)) (barCell (yP c))
    ∗ cellInv ER (sched m) (K (xP c, none)) (barCell (xP c))
    ∗ cellInv ER (sched m) (K (zP c, none)) (barCell (zP c))
    ∗ reached ER (barCell (yP c)) 0
    ∗ reached ER (barCell (xP c)) 0
    ∗ reached ER (barCell (zP c)) 0
    ∗ atPos ER (barCell c) 0 ∅ 0
    ∗ dutyTok ER (barCell (yP c)) 0 0
    ∗ dutyTok ER (barCell (xP c)) 0 1
    ∗ dutyTok ER (barCell (zP c)) 0 2
    ∗ cred (tallyAt (barCell c) () 3)
    ∗ owes (c : Thread nD τ) (tallyAt (fcell (yP c) Fam.yr 0) () N + tallyAt (fcell (yP c) Fam.yr 1) () N + tallyAt (fcell (yP c) Fam.yr 2) () N + tallyAt (fcell (yP c) Fam.yr 3) () N + tallyAt (fcell (yP c) Fam.yr 4) () N + tallyAt (fcell (yP c) Fam.yr 5) () N + tallyAt (fcell (yP c) Fam.yr 6) () N + tallyAt (fcell (yP c) Fam.yr 7) () N + tallyAt (fcell (yP c) Fam.yr 8) () N + tallyAt (fcell (yP c) Fam.yr 9) () N + tallyAt (fcell (yP c) Fam.yr 10) () N + tallyAt (fcell (yP c) Fam.yr 11) () N + tallyAt (fcell (yP c) Fam.yr 12) () N + tallyAt (fcell (yP c) Fam.yr 13) () N + tallyAt (fcell (yP c) Fam.yr 14) () N + tallyAt (fcell (yP c) Fam.yr 15) () N + tallyAt (fcell (xP c) Fam.xr 0) () N + tallyAt (fcell (zP c) Fam.zr 0) () N + tallyAt (fcell (xP c) Fam.xr 1) () N + tallyAt (fcell (zP c) Fam.zr 1) () N + tallyAt (fcell (xP c) Fam.xr 2) () N + tallyAt (fcell (zP c) Fam.zr 2) () N + tallyAt (fcell (xP c) Fam.xr 3) () N + tallyAt (fcell (zP c) Fam.zr 3) () N + tallyAt (fcell (xP c) Fam.xr 4) () N + tallyAt (fcell (zP c) Fam.zr 4) () N + tallyAt (fcell (xP c) Fam.xr 5) () N + tallyAt (fcell (zP c) Fam.zr 5) () N + tallyAt (fcell (xP c) Fam.xr 6) () N + tallyAt (fcell (zP c) Fam.zr 6) () N + tallyAt (fcell (xP c) Fam.xr 7) () N + tallyAt (fcell (zP c) Fam.zr 7) () N + tallyAt (fcell (xP c) Fam.xr 8) () N + tallyAt (fcell (zP c) Fam.zr 8) () N + tallyAt (fcell (xP c) Fam.xr 9) () N + tallyAt (fcell (zP c) Fam.zr 9) () N + tallyAt (fcell (xP c) Fam.xr 10) () N + tallyAt (fcell (zP c) Fam.zr 10) () N + tallyAt (fcell (xP c) Fam.xr 11) () N + tallyAt (fcell (zP c) Fam.zr 11) () N + tallyAt (fcell (xP c) Fam.xr 12) () N + tallyAt (fcell (zP c) Fam.zr 12) () N + tallyAt (fcell (xP c) Fam.xr 13) () N + tallyAt (fcell (zP c) Fam.zr 13) () N + tallyAt (fcell (xP c) Fam.xr 14) () N + tallyAt (fcell (zP c) Fam.zr 14) () N + tallyAt (fcell (xP c) Fam.xr 15) () N + tallyAt (fcell (zP c) Fam.zr 15) () N + tallyAt (fcell (xP c) Fam.qr 0) () N + tallyAt (fcell (zP c) Fam.qr 1) () N + tallyAt (fcell (xP c) Fam.qr 2) () N + tallyAt (fcell (zP c) Fam.qr 3) () N + tallyAt (fcell (xP c) Fam.qr 4) () N + tallyAt (fcell (zP c) Fam.qr 5) () N + tallyAt (fcell (xP c) Fam.qr 6) () N + tallyAt (fcell (zP c) Fam.qr 7) () N + tallyAt (fcell (xP c) Fam.qr 8) () N + tallyAt (fcell (zP c) Fam.qr 9) () N + tallyAt (fcell (xP c) Fam.qr 10) () N + tallyAt (fcell (zP c) Fam.qr 11) () N + tallyAt (fcell (xP c) Fam.qr 12) () N + tallyAt (fcell (zP c) Fam.qr 13) () N + tallyAt (fcell (xP c) Fam.qr 14) () N + tallyAt (fcell (zP c) Fam.qr 15) () N + tallyAt (barCell (zP c)) () 1 + tallyAt (barCell (xP c)) () 1 + tallyAt (barCell (yP c)) () 1) W
    ∗ semVal ((c : Thread nD τ), .dma ⟨0, by decide⟩) 0
    ∗ ((aWin c 0).view.loc (c : Thread nD τ) ↦[(aWin c 0).view.set]{fullShare} m ((c : Thread nD τ).loc main_arg0))
    ∗ (((slab sM 0).view.loc (c : Thread nD τ)) ↦[(slab sM 0).view.set]{fullShare} fs)
    ∗ semVal ((c : Thread nD τ), .dma ⟨1, by decide⟩) 0
    ∗ ((aWin c 1).view.loc (c : Thread nD τ) ↦[(aWin c 1).view.set]{fullShare} m ((c : Thread nD τ).loc main_arg0))
    ∗ (((slab sM 1).view.loc (c : Thread nD τ)) ↦[(slab sM 1).view.set]{fullShare} fs)
    ∗ semVal ((c : Thread nD τ), .dma ⟨2, by decide⟩) 0
    ∗ ((aWin c 2).view.loc (c : Thread nD τ) ↦[(aWin c 2).view.set]{fullShare} m ((c : Thread nD τ).loc main_arg0))
    ∗ (((slab sM 2).view.loc (c : Thread nD τ)) ↦[(slab sM 2).view.set]{fullShare} fs)
    ∗ semVal ((c : Thread nD τ), .dma ⟨3, by decide⟩) 0
    ∗ ((aWin c 3).view.loc (c : Thread nD τ) ↦[(aWin c 3).view.set]{fullShare} m ((c : Thread nD τ).loc main_arg0))
    ∗ (((slab sM 3).view.loc (c : Thread nD τ)) ↦[(slab sM 3).view.set]{fullShare} fs)
    ∗ semVal ((c : Thread nD τ), .dma ⟨4, by decide⟩) 0
    ∗ ((aWin c 4).view.loc (c : Thread nD τ) ↦[(aWin c 4).view.set]{fullShare} m ((c : Thread nD τ).loc main_arg0))
    ∗ (((slab sM 4).view.loc (c : Thread nD τ)) ↦[(slab sM 4).view.set]{fullShare} fs)
    ∗ semVal ((c : Thread nD τ), .dma ⟨5, by decide⟩) 0
    ∗ ((aWin c 5).view.loc (c : Thread nD τ) ↦[(aWin c 5).view.set]{fullShare} m ((c : Thread nD τ).loc main_arg0))
    ∗ (((slab sM 5).view.loc (c : Thread nD τ)) ↦[(slab sM 5).view.set]{fullShare} fs)
    ∗ semVal ((c : Thread nD τ), .dma ⟨6, by decide⟩) 0
    ∗ ((aWin c 6).view.loc (c : Thread nD τ) ↦[(aWin c 6).view.set]{fullShare} m ((c : Thread nD τ).loc main_arg0))
    ∗ (((slab sM 6).view.loc (c : Thread nD τ)) ↦[(slab sM 6).view.set]{fullShare} fs)
    ∗ semVal ((c : Thread nD τ), .dma ⟨7, by decide⟩) 0
    ∗ ((aWin c 7).view.loc (c : Thread nD τ) ↦[(aWin c 7).view.set]{fullShare} m ((c : Thread nD τ).loc main_arg0))
    ∗ (((slab sM 7).view.loc (c : Thread nD τ)) ↦[(slab sM 7).view.set]{fullShare} fs)
    ∗ semVal ((c : Thread nD τ), .dma ⟨8, by decide⟩) 0
    ∗ ((aWin c 8).view.loc (c : Thread nD τ) ↦[(aWin c 8).view.set]{fullShare} m ((c : Thread nD τ).loc main_arg0))
    ∗ (((slab sM 8).view.loc (c : Thread nD τ)) ↦[(slab sM 8).view.set]{fullShare} fs)
    ∗ semVal ((c : Thread nD τ), .dma ⟨9, by decide⟩) 0
    ∗ ((aWin c 9).view.loc (c : Thread nD τ) ↦[(aWin c 9).view.set]{fullShare} m ((c : Thread nD τ).loc main_arg0))
    ∗ (((slab sM 9).view.loc (c : Thread nD τ)) ↦[(slab sM 9).view.set]{fullShare} fs)
    ∗ semVal ((c : Thread nD τ), .dma ⟨10, by decide⟩) 0
    ∗ ((aWin c 10).view.loc (c : Thread nD τ) ↦[(aWin c 10).view.set]{fullShare} m ((c : Thread nD τ).loc main_arg0))
    ∗ (((slab sM 10).view.loc (c : Thread nD τ)) ↦[(slab sM 10).view.set]{fullShare} fs)
    ∗ semVal ((c : Thread nD τ), .dma ⟨11, by decide⟩) 0
    ∗ ((aWin c 11).view.loc (c : Thread nD τ) ↦[(aWin c 11).view.set]{fullShare} m ((c : Thread nD τ).loc main_arg0))
    ∗ (((slab sM 11).view.loc (c : Thread nD τ)) ↦[(slab sM 11).view.set]{fullShare} fs)
    ∗ semVal ((c : Thread nD τ), .dma ⟨12, by decide⟩) 0
    ∗ ((aWin c 12).view.loc (c : Thread nD τ) ↦[(aWin c 12).view.set]{fullShare} m ((c : Thread nD τ).loc main_arg0))
    ∗ (((slab sM 12).view.loc (c : Thread nD τ)) ↦[(slab sM 12).view.set]{fullShare} fs)
    ∗ semVal ((c : Thread nD τ), .dma ⟨13, by decide⟩) 0
    ∗ ((aWin c 13).view.loc (c : Thread nD τ) ↦[(aWin c 13).view.set]{fullShare} m ((c : Thread nD τ).loc main_arg0))
    ∗ (((slab sM 13).view.loc (c : Thread nD τ)) ↦[(slab sM 13).view.set]{fullShare} fs)
    ∗ semVal ((c : Thread nD τ), .dma ⟨14, by decide⟩) 0
    ∗ ((aWin c 14).view.loc (c : Thread nD τ) ↦[(aWin c 14).view.set]{fullShare} m ((c : Thread nD τ).loc main_arg0))
    ∗ (((slab sM 14).view.loc (c : Thread nD τ)) ↦[(slab sM 14).view.set]{fullShare} fs)
    ∗ semVal ((c : Thread nD τ), .dma ⟨15, by decide⟩) 0
    ∗ ((aWin c 15).view.loc (c : Thread nD τ) ↦[(aWin c 15).view.set]{fullShare} m ((c : Thread nD τ).loc main_arg0))
    ∗ (((slab sM 15).view.loc (c : Thread nD τ)) ↦[(slab sM 15).view.set]{fullShare} fs)
    ∗ semVal ((c : Thread nD τ), .dma ⟨224, by decide⟩) 0
    ∗ ((aOwn c).view.loc (c : Thread nD τ) ↦[(aOwn c).view.set]{fullShare} m ((c : Thread nD τ).loc main_arg0))
    ∗ (lM.view.loc (c : Thread nD τ) ↦[lM.view.set]{fullShare} fl)
    ∗ (((slab rM 0).view.loc (c : Thread nD τ)) ↦[(slab rM 0).view.set]{fullShare} fr)
    ∗ (((slab rM 1).view.loc (c : Thread nD τ)) ↦[(slab rM 1).view.set]{fullShare} fr)
    ∗ (((slab rM 2).view.loc (c : Thread nD τ)) ↦[(slab rM 2).view.set]{fullShare} fr)
    ∗ (((slab rM 3).view.loc (c : Thread nD τ)) ↦[(slab rM 3).view.set]{fullShare} fr)
    ∗ (((slab rM 4).view.loc (c : Thread nD τ)) ↦[(slab rM 4).view.set]{fullShare} fr)
    ∗ (((slab rM 5).view.loc (c : Thread nD τ)) ↦[(slab rM 5).view.set]{fullShare} fr)
    ∗ (((slab rM 6).view.loc (c : Thread nD τ)) ↦[(slab rM 6).view.set]{fullShare} fr)
    ∗ (((slab rM 7).view.loc (c : Thread nD τ)) ↦[(slab rM 7).view.set]{fullShare} fr)
    ∗ (((slab rM 8).view.loc (c : Thread nD τ)) ↦[(slab rM 8).view.set]{fullShare} fr)
    ∗ (((slab rM 9).view.loc (c : Thread nD τ)) ↦[(slab rM 9).view.set]{fullShare} fr)
    ∗ (((slab rM 10).view.loc (c : Thread nD τ)) ↦[(slab rM 10).view.set]{fullShare} fr)
    ∗ (((slab rM 11).view.loc (c : Thread nD τ)) ↦[(slab rM 11).view.set]{fullShare} fr)
    ∗ (((slab rM 12).view.loc (c : Thread nD τ)) ↦[(slab rM 12).view.set]{fullShare} fr)
    ∗ (((slab rM 13).view.loc (c : Thread nD τ)) ↦[(slab rM 13).view.set]{fullShare} fr)
    ∗ (((slab rM 14).view.loc (c : Thread nD τ)) ↦[(slab rM 14).view.set]{fullShare} fr)
    ∗ (((slab rM 15).view.loc (c : Thread nD τ)) ↦[(slab rM 15).view.set]{fullShare} fr)
    ∗ (((slab xrM 0).view.loc (c : Thread nD τ)) ↦[(slab xrM 0).view.set]{fullShare} fx)
    ∗ (((slab xrM 1).view.loc (c : Thread nD τ)) ↦[(slab xrM 1).view.set]{fullShare} fx)
    ∗ (((slab xrM 2).view.loc (c : Thread nD τ)) ↦[(slab xrM 2).view.set]{fullShare} fx)
    ∗ (((slab xrM 3).view.loc (c : Thread nD τ)) ↦[(slab xrM 3).view.set]{fullShare} fx)
    ∗ (((slab xrM 4).view.loc (c : Thread nD τ)) ↦[(slab xrM 4).view.set]{fullShare} fx)
    ∗ (((slab xrM 5).view.loc (c : Thread nD τ)) ↦[(slab xrM 5).view.set]{fullShare} fx)
    ∗ (((slab xrM 6).view.loc (c : Thread nD τ)) ↦[(slab xrM 6).view.set]{fullShare} fx)
    ∗ (((slab xrM 7).view.loc (c : Thread nD τ)) ↦[(slab xrM 7).view.set]{fullShare} fx)
    ∗ (((slab xrM 8).view.loc (c : Thread nD τ)) ↦[(slab xrM 8).view.set]{fullShare} fx)
    ∗ (((slab xrM 9).view.loc (c : Thread nD τ)) ↦[(slab xrM 9).view.set]{fullShare} fx)
    ∗ (((slab xrM 10).view.loc (c : Thread nD τ)) ↦[(slab xrM 10).view.set]{fullShare} fx)
    ∗ (((slab xrM 11).view.loc (c : Thread nD τ)) ↦[(slab xrM 11).view.set]{fullShare} fx)
    ∗ (((slab xrM 12).view.loc (c : Thread nD τ)) ↦[(slab xrM 12).view.set]{fullShare} fx)
    ∗ (((slab xrM 13).view.loc (c : Thread nD τ)) ↦[(slab xrM 13).view.set]{fullShare} fx)
    ∗ (((slab xrM 14).view.loc (c : Thread nD τ)) ↦[(slab xrM 14).view.set]{fullShare} fx)
    ∗ (((slab xrM 15).view.loc (c : Thread nD τ)) ↦[(slab xrM 15).view.set]{fullShare} fx)
    ∗ ((oRowZ (xP c) 0).view.loc (c : Thread nD τ) ↦[(oRowZ (xP c) 0).view.set]{fullShare} fo)
    ∗ ((oRowZ (xP c) 2).view.loc (c : Thread nD τ) ↦[(oRowZ (xP c) 2).view.set]{fullShare} fo)
    ∗ ((oRowZ (xP c) 4).view.loc (c : Thread nD τ) ↦[(oRowZ (xP c) 4).view.set]{fullShare} fo)
    ∗ ((oRowZ (xP c) 6).view.loc (c : Thread nD τ) ↦[(oRowZ (xP c) 6).view.set]{fullShare} fo)
    ∗ ((oRowZ (xP c) 8).view.loc (c : Thread nD τ) ↦[(oRowZ (xP c) 8).view.set]{fullShare} fo)
    ∗ ((oRowZ (xP c) 10).view.loc (c : Thread nD τ) ↦[(oRowZ (xP c) 10).view.set]{fullShare} fo)
    ∗ ((oRowZ (xP c) 12).view.loc (c : Thread nD τ) ↦[(oRowZ (xP c) 12).view.set]{fullShare} fo)
    ∗ ((oRowZ (xP c) 14).view.loc (c : Thread nD τ) ↦[(oRowZ (xP c) 14).view.set]{fullShare} fo)
    ∗ (((slab zrM 0).view.loc (c : Thread nD τ)) ↦[(slab zrM 0).view.set]{fullShare} fz)
    ∗ (((slab zrM 1).view.loc (c : Thread nD τ)) ↦[(slab zrM 1).view.set]{fullShare} fz)
    ∗ (((slab zrM 2).view.loc (c : Thread nD τ)) ↦[(slab zrM 2).view.set]{fullShare} fz)
    ∗ (((slab zrM 3).view.loc (c : Thread nD τ)) ↦[(slab zrM 3).view.set]{fullShare} fz)
    ∗ (((slab zrM 4).view.loc (c : Thread nD τ)) ↦[(slab zrM 4).view.set]{fullShare} fz)
    ∗ (((slab zrM 5).view.loc (c : Thread nD τ)) ↦[(slab zrM 5).view.set]{fullShare} fz)
    ∗ (((slab zrM 6).view.loc (c : Thread nD τ)) ↦[(slab zrM 6).view.set]{fullShare} fz)
    ∗ (((slab zrM 7).view.loc (c : Thread nD τ)) ↦[(slab zrM 7).view.set]{fullShare} fz)
    ∗ (((slab zrM 8).view.loc (c : Thread nD τ)) ↦[(slab zrM 8).view.set]{fullShare} fz)
    ∗ (((slab zrM 9).view.loc (c : Thread nD τ)) ↦[(slab zrM 9).view.set]{fullShare} fz)
    ∗ (((slab zrM 10).view.loc (c : Thread nD τ)) ↦[(slab zrM 10).view.set]{fullShare} fz)
    ∗ (((slab zrM 11).view.loc (c : Thread nD τ)) ↦[(slab zrM 11).view.set]{fullShare} fz)
    ∗ (((slab zrM 12).view.loc (c : Thread nD τ)) ↦[(slab zrM 12).view.set]{fullShare} fz)
    ∗ (((slab zrM 13).view.loc (c : Thread nD τ)) ↦[(slab zrM 13).view.set]{fullShare} fz)
    ∗ (((slab zrM 14).view.loc (c : Thread nD τ)) ↦[(slab zrM 14).view.set]{fullShare} fz)
    ∗ (((slab zrM 15).view.loc (c : Thread nD τ)) ↦[(slab zrM 15).view.set]{fullShare} fz)
    ∗ ((oRowX (zP c) 1).view.loc (c : Thread nD τ) ↦[(oRowX (zP c) 1).view.set]{fullShare} fo)
    ∗ ((oRowX (zP c) 3).view.loc (c : Thread nD τ) ↦[(oRowX (zP c) 3).view.set]{fullShare} fo)
    ∗ ((oRowX (zP c) 5).view.loc (c : Thread nD τ) ↦[(oRowX (zP c) 5).view.set]{fullShare} fo)
    ∗ ((oRowX (zP c) 7).view.loc (c : Thread nD τ) ↦[(oRowX (zP c) 7).view.set]{fullShare} fo)
    ∗ ((oRowX (zP c) 9).view.loc (c : Thread nD τ) ↦[(oRowX (zP c) 9).view.set]{fullShare} fo)
    ∗ ((oRowX (zP c) 11).view.loc (c : Thread nD τ) ↦[(oRowX (zP c) 11).view.set]{fullShare} fo)
    ∗ ((oRowX (zP c) 13).view.loc (c : Thread nD τ) ↦[(oRowX (zP c) 13).view.set]{fullShare} fo)
    ∗ ((oRowX (zP c) 15).view.loc (c : Thread nD τ) ↦[(oRowX (zP c) 15).view.set]{fullShare} fo)
    ∗ cellInv ER (sched m) (K (c, some (Fam.ys, 0))) (fcell c Fam.ys 0)
    ∗ cellInv ER (sched m) (K (yP c, some (Fam.yr, 0))) (fcell (yP c) Fam.yr 0)
    ∗ reached ER (fcell c Fam.ys 0) 0
    ∗ reached ER (fcell (yP c) Fam.yr 0) 0
    ∗ dutyTok ER (fcell c Fam.ys 0) 0 0
    ∗ dutyTok ER (fcell (yP c) Fam.yr 0) 0 0
    ∗ cellInv ER (sched m) (K (c, some (Fam.ys, 1))) (fcell c Fam.ys 1)
    ∗ cellInv ER (sched m) (K (yP c, some (Fam.yr, 1))) (fcell (yP c) Fam.yr 1)
    ∗ reached ER (fcell c Fam.ys 1) 0
    ∗ reached ER (fcell (yP c) Fam.yr 1) 0
    ∗ dutyTok ER (fcell c Fam.ys 1) 0 0
    ∗ dutyTok ER (fcell (yP c) Fam.yr 1) 0 0
    ∗ cellInv ER (sched m) (K (c, some (Fam.ys, 2))) (fcell c Fam.ys 2)
    ∗ cellInv ER (sched m) (K (yP c, some (Fam.yr, 2))) (fcell (yP c) Fam.yr 2)
    ∗ reached ER (fcell c Fam.ys 2) 0
    ∗ reached ER (fcell (yP c) Fam.yr 2) 0
    ∗ dutyTok ER (fcell c Fam.ys 2) 0 0
    ∗ dutyTok ER (fcell (yP c) Fam.yr 2) 0 0
    ∗ cellInv ER (sched m) (K (c, some (Fam.ys, 3))) (fcell c Fam.ys 3)
    ∗ cellInv ER (sched m) (K (yP c, some (Fam.yr, 3))) (fcell (yP c) Fam.yr 3)
    ∗ reached ER (fcell c Fam.ys 3) 0
    ∗ reached ER (fcell (yP c) Fam.yr 3) 0
    ∗ dutyTok ER (fcell c Fam.ys 3) 0 0
    ∗ dutyTok ER (fcell (yP c) Fam.yr 3) 0 0
    ∗ cellInv ER (sched m) (K (c, some (Fam.ys, 4))) (fcell c Fam.ys 4)
    ∗ cellInv ER (sched m) (K (yP c, some (Fam.yr, 4))) (fcell (yP c) Fam.yr 4)
    ∗ reached ER (fcell c Fam.ys 4) 0
    ∗ reached ER (fcell (yP c) Fam.yr 4) 0
    ∗ dutyTok ER (fcell c Fam.ys 4) 0 0
    ∗ dutyTok ER (fcell (yP c) Fam.yr 4) 0 0
    ∗ cellInv ER (sched m) (K (c, some (Fam.ys, 5))) (fcell c Fam.ys 5)
    ∗ cellInv ER (sched m) (K (yP c, some (Fam.yr, 5))) (fcell (yP c) Fam.yr 5)
    ∗ reached ER (fcell c Fam.ys 5) 0
    ∗ reached ER (fcell (yP c) Fam.yr 5) 0
    ∗ dutyTok ER (fcell c Fam.ys 5) 0 0
    ∗ dutyTok ER (fcell (yP c) Fam.yr 5) 0 0
    ∗ cellInv ER (sched m) (K (c, some (Fam.ys, 6))) (fcell c Fam.ys 6)
    ∗ cellInv ER (sched m) (K (yP c, some (Fam.yr, 6))) (fcell (yP c) Fam.yr 6)
    ∗ reached ER (fcell c Fam.ys 6) 0
    ∗ reached ER (fcell (yP c) Fam.yr 6) 0
    ∗ dutyTok ER (fcell c Fam.ys 6) 0 0
    ∗ dutyTok ER (fcell (yP c) Fam.yr 6) 0 0
    ∗ cellInv ER (sched m) (K (c, some (Fam.ys, 7))) (fcell c Fam.ys 7)
    ∗ cellInv ER (sched m) (K (yP c, some (Fam.yr, 7))) (fcell (yP c) Fam.yr 7)
    ∗ reached ER (fcell c Fam.ys 7) 0
    ∗ reached ER (fcell (yP c) Fam.yr 7) 0
    ∗ dutyTok ER (fcell c Fam.ys 7) 0 0
    ∗ dutyTok ER (fcell (yP c) Fam.yr 7) 0 0
    ∗ cellInv ER (sched m) (K (c, some (Fam.ys, 8))) (fcell c Fam.ys 8)
    ∗ cellInv ER (sched m) (K (yP c, some (Fam.yr, 8))) (fcell (yP c) Fam.yr 8)
    ∗ reached ER (fcell c Fam.ys 8) 0
    ∗ reached ER (fcell (yP c) Fam.yr 8) 0
    ∗ dutyTok ER (fcell c Fam.ys 8) 0 0
    ∗ dutyTok ER (fcell (yP c) Fam.yr 8) 0 0
    ∗ cellInv ER (sched m) (K (c, some (Fam.ys, 9))) (fcell c Fam.ys 9)
    ∗ cellInv ER (sched m) (K (yP c, some (Fam.yr, 9))) (fcell (yP c) Fam.yr 9)
    ∗ reached ER (fcell c Fam.ys 9) 0
    ∗ reached ER (fcell (yP c) Fam.yr 9) 0
    ∗ dutyTok ER (fcell c Fam.ys 9) 0 0
    ∗ dutyTok ER (fcell (yP c) Fam.yr 9) 0 0
    ∗ cellInv ER (sched m) (K (c, some (Fam.ys, 10))) (fcell c Fam.ys 10)
    ∗ cellInv ER (sched m) (K (yP c, some (Fam.yr, 10))) (fcell (yP c) Fam.yr 10)
    ∗ reached ER (fcell c Fam.ys 10) 0
    ∗ reached ER (fcell (yP c) Fam.yr 10) 0
    ∗ dutyTok ER (fcell c Fam.ys 10) 0 0
    ∗ dutyTok ER (fcell (yP c) Fam.yr 10) 0 0
    ∗ cellInv ER (sched m) (K (c, some (Fam.ys, 11))) (fcell c Fam.ys 11)
    ∗ cellInv ER (sched m) (K (yP c, some (Fam.yr, 11))) (fcell (yP c) Fam.yr 11)
    ∗ reached ER (fcell c Fam.ys 11) 0
    ∗ reached ER (fcell (yP c) Fam.yr 11) 0
    ∗ dutyTok ER (fcell c Fam.ys 11) 0 0
    ∗ dutyTok ER (fcell (yP c) Fam.yr 11) 0 0
    ∗ cellInv ER (sched m) (K (c, some (Fam.ys, 12))) (fcell c Fam.ys 12)
    ∗ cellInv ER (sched m) (K (yP c, some (Fam.yr, 12))) (fcell (yP c) Fam.yr 12)
    ∗ reached ER (fcell c Fam.ys 12) 0
    ∗ reached ER (fcell (yP c) Fam.yr 12) 0
    ∗ dutyTok ER (fcell c Fam.ys 12) 0 0
    ∗ dutyTok ER (fcell (yP c) Fam.yr 12) 0 0
    ∗ cellInv ER (sched m) (K (c, some (Fam.ys, 13))) (fcell c Fam.ys 13)
    ∗ cellInv ER (sched m) (K (yP c, some (Fam.yr, 13))) (fcell (yP c) Fam.yr 13)
    ∗ reached ER (fcell c Fam.ys 13) 0
    ∗ reached ER (fcell (yP c) Fam.yr 13) 0
    ∗ dutyTok ER (fcell c Fam.ys 13) 0 0
    ∗ dutyTok ER (fcell (yP c) Fam.yr 13) 0 0
    ∗ cellInv ER (sched m) (K (c, some (Fam.ys, 14))) (fcell c Fam.ys 14)
    ∗ cellInv ER (sched m) (K (yP c, some (Fam.yr, 14))) (fcell (yP c) Fam.yr 14)
    ∗ reached ER (fcell c Fam.ys 14) 0
    ∗ reached ER (fcell (yP c) Fam.yr 14) 0
    ∗ dutyTok ER (fcell c Fam.ys 14) 0 0
    ∗ dutyTok ER (fcell (yP c) Fam.yr 14) 0 0
    ∗ cellInv ER (sched m) (K (c, some (Fam.ys, 15))) (fcell c Fam.ys 15)
    ∗ cellInv ER (sched m) (K (yP c, some (Fam.yr, 15))) (fcell (yP c) Fam.yr 15)
    ∗ reached ER (fcell c Fam.ys 15) 0
    ∗ reached ER (fcell (yP c) Fam.yr 15) 0
    ∗ dutyTok ER (fcell c Fam.ys 15) 0 0
    ∗ dutyTok ER (fcell (yP c) Fam.yr 15) 0 0
    ∗ semVal ((c : Thread nD τ), .dma ⟨225, by decide⟩) 0
    ∗ ((oOwn c).view.loc (c : Thread nD τ) ↦[(oOwn c).view.set]{fullShare} fo)
    ∗ cellInv ER (sched m) (K (c, some (Fam.yr, 0))) (fcell c Fam.yr 0)
    ∗ atPos ER (fcell c Fam.yr 0) 0 ∅ 0
    ∗ cred (tallyAt (fcell c Fam.yr 0) () N)
    ∗ cellInv ER (sched m) (K (c, some (Fam.xs, 0))) (fcell c Fam.xs 0)
    ∗ cellInv ER (sched m) (K (xP c, some (Fam.xr, 0))) (fcell (xP c) Fam.xr 0)
    ∗ reached ER (fcell c Fam.xs 0) 0
    ∗ reached ER (fcell (xP c) Fam.xr 0) 0
    ∗ dutyTok ER (fcell c Fam.xs 0) 0 0
    ∗ dutyTok ER (fcell (xP c) Fam.xr 0) 0 0
    ∗ cellInv ER (sched m) (K (c, some (Fam.zs, 0))) (fcell c Fam.zs 0)
    ∗ cellInv ER (sched m) (K (zP c, some (Fam.zr, 0))) (fcell (zP c) Fam.zr 0)
    ∗ reached ER (fcell c Fam.zs 0) 0
    ∗ reached ER (fcell (zP c) Fam.zr 0) 0
    ∗ dutyTok ER (fcell c Fam.zs 0) 0 0
    ∗ dutyTok ER (fcell (zP c) Fam.zr 0) 0 0
    ∗ semVal ((c : Thread nD τ), .dma ⟨16, by decide⟩) 0
    ∗ ((oRowY c 0).view.loc (c : Thread nD τ) ↦[(oRowY c 0).view.set]{fullShare} fo)
    ∗ cellInv ER (sched m) (K (c, some (Fam.yr, 1))) (fcell c Fam.yr 1)
    ∗ atPos ER (fcell c Fam.yr 1) 0 ∅ 0
    ∗ cred (tallyAt (fcell c Fam.yr 1) () N)
    ∗ cellInv ER (sched m) (K (c, some (Fam.xs, 1))) (fcell c Fam.xs 1)
    ∗ cellInv ER (sched m) (K (xP c, some (Fam.xr, 1))) (fcell (xP c) Fam.xr 1)
    ∗ reached ER (fcell c Fam.xs 1) 0
    ∗ reached ER (fcell (xP c) Fam.xr 1) 0
    ∗ dutyTok ER (fcell c Fam.xs 1) 0 0
    ∗ dutyTok ER (fcell (xP c) Fam.xr 1) 0 0
    ∗ cellInv ER (sched m) (K (c, some (Fam.zs, 1))) (fcell c Fam.zs 1)
    ∗ cellInv ER (sched m) (K (zP c, some (Fam.zr, 1))) (fcell (zP c) Fam.zr 1)
    ∗ reached ER (fcell c Fam.zs 1) 0
    ∗ reached ER (fcell (zP c) Fam.zr 1) 0
    ∗ dutyTok ER (fcell c Fam.zs 1) 0 0
    ∗ dutyTok ER (fcell (zP c) Fam.zr 1) 0 0
    ∗ semVal ((c : Thread nD τ), .dma ⟨17, by decide⟩) 0
    ∗ ((oRowY c 1).view.loc (c : Thread nD τ) ↦[(oRowY c 1).view.set]{fullShare} fo)
    ∗ cellInv ER (sched m) (K (c, some (Fam.yr, 2))) (fcell c Fam.yr 2)
    ∗ atPos ER (fcell c Fam.yr 2) 0 ∅ 0
    ∗ cred (tallyAt (fcell c Fam.yr 2) () N)
    ∗ cellInv ER (sched m) (K (c, some (Fam.xs, 2))) (fcell c Fam.xs 2)
    ∗ cellInv ER (sched m) (K (xP c, some (Fam.xr, 2))) (fcell (xP c) Fam.xr 2)
    ∗ reached ER (fcell c Fam.xs 2) 0
    ∗ reached ER (fcell (xP c) Fam.xr 2) 0
    ∗ dutyTok ER (fcell c Fam.xs 2) 0 0
    ∗ dutyTok ER (fcell (xP c) Fam.xr 2) 0 0
    ∗ cellInv ER (sched m) (K (c, some (Fam.zs, 2))) (fcell c Fam.zs 2)
    ∗ cellInv ER (sched m) (K (zP c, some (Fam.zr, 2))) (fcell (zP c) Fam.zr 2)
    ∗ reached ER (fcell c Fam.zs 2) 0
    ∗ reached ER (fcell (zP c) Fam.zr 2) 0
    ∗ dutyTok ER (fcell c Fam.zs 2) 0 0
    ∗ dutyTok ER (fcell (zP c) Fam.zr 2) 0 0
    ∗ semVal ((c : Thread nD τ), .dma ⟨18, by decide⟩) 0
    ∗ ((oRowY c 2).view.loc (c : Thread nD τ) ↦[(oRowY c 2).view.set]{fullShare} fo)
    ∗ cellInv ER (sched m) (K (c, some (Fam.yr, 3))) (fcell c Fam.yr 3)
    ∗ atPos ER (fcell c Fam.yr 3) 0 ∅ 0
    ∗ cred (tallyAt (fcell c Fam.yr 3) () N)
    ∗ cellInv ER (sched m) (K (c, some (Fam.xs, 3))) (fcell c Fam.xs 3)
    ∗ cellInv ER (sched m) (K (xP c, some (Fam.xr, 3))) (fcell (xP c) Fam.xr 3)
    ∗ reached ER (fcell c Fam.xs 3) 0
    ∗ reached ER (fcell (xP c) Fam.xr 3) 0
    ∗ dutyTok ER (fcell c Fam.xs 3) 0 0
    ∗ dutyTok ER (fcell (xP c) Fam.xr 3) 0 0
    ∗ cellInv ER (sched m) (K (c, some (Fam.zs, 3))) (fcell c Fam.zs 3)
    ∗ cellInv ER (sched m) (K (zP c, some (Fam.zr, 3))) (fcell (zP c) Fam.zr 3)
    ∗ reached ER (fcell c Fam.zs 3) 0
    ∗ reached ER (fcell (zP c) Fam.zr 3) 0
    ∗ dutyTok ER (fcell c Fam.zs 3) 0 0
    ∗ dutyTok ER (fcell (zP c) Fam.zr 3) 0 0
    ∗ semVal ((c : Thread nD τ), .dma ⟨19, by decide⟩) 0
    ∗ ((oRowY c 3).view.loc (c : Thread nD τ) ↦[(oRowY c 3).view.set]{fullShare} fo)
    ∗ cellInv ER (sched m) (K (c, some (Fam.yr, 4))) (fcell c Fam.yr 4)
    ∗ atPos ER (fcell c Fam.yr 4) 0 ∅ 0
    ∗ cred (tallyAt (fcell c Fam.yr 4) () N)
    ∗ cellInv ER (sched m) (K (c, some (Fam.xs, 4))) (fcell c Fam.xs 4)
    ∗ cellInv ER (sched m) (K (xP c, some (Fam.xr, 4))) (fcell (xP c) Fam.xr 4)
    ∗ reached ER (fcell c Fam.xs 4) 0
    ∗ reached ER (fcell (xP c) Fam.xr 4) 0
    ∗ dutyTok ER (fcell c Fam.xs 4) 0 0
    ∗ dutyTok ER (fcell (xP c) Fam.xr 4) 0 0
    ∗ cellInv ER (sched m) (K (c, some (Fam.zs, 4))) (fcell c Fam.zs 4)
    ∗ cellInv ER (sched m) (K (zP c, some (Fam.zr, 4))) (fcell (zP c) Fam.zr 4)
    ∗ reached ER (fcell c Fam.zs 4) 0
    ∗ reached ER (fcell (zP c) Fam.zr 4) 0
    ∗ dutyTok ER (fcell c Fam.zs 4) 0 0
    ∗ dutyTok ER (fcell (zP c) Fam.zr 4) 0 0
    ∗ semVal ((c : Thread nD τ), .dma ⟨20, by decide⟩) 0
    ∗ ((oRowY c 4).view.loc (c : Thread nD τ) ↦[(oRowY c 4).view.set]{fullShare} fo)
    ∗ cellInv ER (sched m) (K (c, some (Fam.yr, 5))) (fcell c Fam.yr 5)
    ∗ atPos ER (fcell c Fam.yr 5) 0 ∅ 0
    ∗ cred (tallyAt (fcell c Fam.yr 5) () N)
    ∗ cellInv ER (sched m) (K (c, some (Fam.xs, 5))) (fcell c Fam.xs 5)
    ∗ cellInv ER (sched m) (K (xP c, some (Fam.xr, 5))) (fcell (xP c) Fam.xr 5)
    ∗ reached ER (fcell c Fam.xs 5) 0
    ∗ reached ER (fcell (xP c) Fam.xr 5) 0
    ∗ dutyTok ER (fcell c Fam.xs 5) 0 0
    ∗ dutyTok ER (fcell (xP c) Fam.xr 5) 0 0
    ∗ cellInv ER (sched m) (K (c, some (Fam.zs, 5))) (fcell c Fam.zs 5)
    ∗ cellInv ER (sched m) (K (zP c, some (Fam.zr, 5))) (fcell (zP c) Fam.zr 5)
    ∗ reached ER (fcell c Fam.zs 5) 0
    ∗ reached ER (fcell (zP c) Fam.zr 5) 0
    ∗ dutyTok ER (fcell c Fam.zs 5) 0 0
    ∗ dutyTok ER (fcell (zP c) Fam.zr 5) 0 0
    ∗ semVal ((c : Thread nD τ), .dma ⟨21, by decide⟩) 0
    ∗ ((oRowY c 5).view.loc (c : Thread nD τ) ↦[(oRowY c 5).view.set]{fullShare} fo)
    ∗ cellInv ER (sched m) (K (c, some (Fam.yr, 6))) (fcell c Fam.yr 6)
    ∗ atPos ER (fcell c Fam.yr 6) 0 ∅ 0
    ∗ cred (tallyAt (fcell c Fam.yr 6) () N)
    ∗ cellInv ER (sched m) (K (c, some (Fam.xs, 6))) (fcell c Fam.xs 6)
    ∗ cellInv ER (sched m) (K (xP c, some (Fam.xr, 6))) (fcell (xP c) Fam.xr 6)
    ∗ reached ER (fcell c Fam.xs 6) 0
    ∗ reached ER (fcell (xP c) Fam.xr 6) 0
    ∗ dutyTok ER (fcell c Fam.xs 6) 0 0
    ∗ dutyTok ER (fcell (xP c) Fam.xr 6) 0 0
    ∗ cellInv ER (sched m) (K (c, some (Fam.zs, 6))) (fcell c Fam.zs 6)
    ∗ cellInv ER (sched m) (K (zP c, some (Fam.zr, 6))) (fcell (zP c) Fam.zr 6)
    ∗ reached ER (fcell c Fam.zs 6) 0
    ∗ reached ER (fcell (zP c) Fam.zr 6) 0
    ∗ dutyTok ER (fcell c Fam.zs 6) 0 0
    ∗ dutyTok ER (fcell (zP c) Fam.zr 6) 0 0
    ∗ semVal ((c : Thread nD τ), .dma ⟨22, by decide⟩) 0
    ∗ ((oRowY c 6).view.loc (c : Thread nD τ) ↦[(oRowY c 6).view.set]{fullShare} fo)
    ∗ cellInv ER (sched m) (K (c, some (Fam.yr, 7))) (fcell c Fam.yr 7)
    ∗ atPos ER (fcell c Fam.yr 7) 0 ∅ 0
    ∗ cred (tallyAt (fcell c Fam.yr 7) () N)
    ∗ cellInv ER (sched m) (K (c, some (Fam.xs, 7))) (fcell c Fam.xs 7)
    ∗ cellInv ER (sched m) (K (xP c, some (Fam.xr, 7))) (fcell (xP c) Fam.xr 7)
    ∗ reached ER (fcell c Fam.xs 7) 0
    ∗ reached ER (fcell (xP c) Fam.xr 7) 0
    ∗ dutyTok ER (fcell c Fam.xs 7) 0 0
    ∗ dutyTok ER (fcell (xP c) Fam.xr 7) 0 0
    ∗ cellInv ER (sched m) (K (c, some (Fam.zs, 7))) (fcell c Fam.zs 7)
    ∗ cellInv ER (sched m) (K (zP c, some (Fam.zr, 7))) (fcell (zP c) Fam.zr 7)
    ∗ reached ER (fcell c Fam.zs 7) 0
    ∗ reached ER (fcell (zP c) Fam.zr 7) 0
    ∗ dutyTok ER (fcell c Fam.zs 7) 0 0
    ∗ dutyTok ER (fcell (zP c) Fam.zr 7) 0 0
    ∗ semVal ((c : Thread nD τ), .dma ⟨23, by decide⟩) 0
    ∗ ((oRowY c 7).view.loc (c : Thread nD τ) ↦[(oRowY c 7).view.set]{fullShare} fo)
    ∗ cellInv ER (sched m) (K (c, some (Fam.yr, 8))) (fcell c Fam.yr 8)
    ∗ atPos ER (fcell c Fam.yr 8) 0 ∅ 0
    ∗ cred (tallyAt (fcell c Fam.yr 8) () N)
    ∗ cellInv ER (sched m) (K (c, some (Fam.xs, 8))) (fcell c Fam.xs 8)
    ∗ cellInv ER (sched m) (K (xP c, some (Fam.xr, 8))) (fcell (xP c) Fam.xr 8)
    ∗ reached ER (fcell c Fam.xs 8) 0
    ∗ reached ER (fcell (xP c) Fam.xr 8) 0
    ∗ dutyTok ER (fcell c Fam.xs 8) 0 0
    ∗ dutyTok ER (fcell (xP c) Fam.xr 8) 0 0
    ∗ cellInv ER (sched m) (K (c, some (Fam.zs, 8))) (fcell c Fam.zs 8)
    ∗ cellInv ER (sched m) (K (zP c, some (Fam.zr, 8))) (fcell (zP c) Fam.zr 8)
    ∗ reached ER (fcell c Fam.zs 8) 0
    ∗ reached ER (fcell (zP c) Fam.zr 8) 0
    ∗ dutyTok ER (fcell c Fam.zs 8) 0 0
    ∗ dutyTok ER (fcell (zP c) Fam.zr 8) 0 0
    ∗ semVal ((c : Thread nD τ), .dma ⟨24, by decide⟩) 0
    ∗ ((oRowY c 8).view.loc (c : Thread nD τ) ↦[(oRowY c 8).view.set]{fullShare} fo)
    ∗ cellInv ER (sched m) (K (c, some (Fam.yr, 9))) (fcell c Fam.yr 9)
    ∗ atPos ER (fcell c Fam.yr 9) 0 ∅ 0
    ∗ cred (tallyAt (fcell c Fam.yr 9) () N)
    ∗ cellInv ER (sched m) (K (c, some (Fam.xs, 9))) (fcell c Fam.xs 9)
    ∗ cellInv ER (sched m) (K (xP c, some (Fam.xr, 9))) (fcell (xP c) Fam.xr 9)
    ∗ reached ER (fcell c Fam.xs 9) 0
    ∗ reached ER (fcell (xP c) Fam.xr 9) 0
    ∗ dutyTok ER (fcell c Fam.xs 9) 0 0
    ∗ dutyTok ER (fcell (xP c) Fam.xr 9) 0 0
    ∗ cellInv ER (sched m) (K (c, some (Fam.zs, 9))) (fcell c Fam.zs 9)
    ∗ cellInv ER (sched m) (K (zP c, some (Fam.zr, 9))) (fcell (zP c) Fam.zr 9)
    ∗ reached ER (fcell c Fam.zs 9) 0
    ∗ reached ER (fcell (zP c) Fam.zr 9) 0
    ∗ dutyTok ER (fcell c Fam.zs 9) 0 0
    ∗ dutyTok ER (fcell (zP c) Fam.zr 9) 0 0
    ∗ semVal ((c : Thread nD τ), .dma ⟨25, by decide⟩) 0
    ∗ ((oRowY c 9).view.loc (c : Thread nD τ) ↦[(oRowY c 9).view.set]{fullShare} fo)
    ∗ cellInv ER (sched m) (K (c, some (Fam.yr, 10))) (fcell c Fam.yr 10)
    ∗ atPos ER (fcell c Fam.yr 10) 0 ∅ 0
    ∗ cred (tallyAt (fcell c Fam.yr 10) () N)
    ∗ cellInv ER (sched m) (K (c, some (Fam.xs, 10))) (fcell c Fam.xs 10)
    ∗ cellInv ER (sched m) (K (xP c, some (Fam.xr, 10))) (fcell (xP c) Fam.xr 10)
    ∗ reached ER (fcell c Fam.xs 10) 0
    ∗ reached ER (fcell (xP c) Fam.xr 10) 0
    ∗ dutyTok ER (fcell c Fam.xs 10) 0 0
    ∗ dutyTok ER (fcell (xP c) Fam.xr 10) 0 0
    ∗ cellInv ER (sched m) (K (c, some (Fam.zs, 10))) (fcell c Fam.zs 10)
    ∗ cellInv ER (sched m) (K (zP c, some (Fam.zr, 10))) (fcell (zP c) Fam.zr 10)
    ∗ reached ER (fcell c Fam.zs 10) 0
    ∗ reached ER (fcell (zP c) Fam.zr 10) 0
    ∗ dutyTok ER (fcell c Fam.zs 10) 0 0
    ∗ dutyTok ER (fcell (zP c) Fam.zr 10) 0 0
    ∗ semVal ((c : Thread nD τ), .dma ⟨26, by decide⟩) 0
    ∗ ((oRowY c 10).view.loc (c : Thread nD τ) ↦[(oRowY c 10).view.set]{fullShare} fo)
    ∗ cellInv ER (sched m) (K (c, some (Fam.yr, 11))) (fcell c Fam.yr 11)
    ∗ atPos ER (fcell c Fam.yr 11) 0 ∅ 0
    ∗ cred (tallyAt (fcell c Fam.yr 11) () N)
    ∗ cellInv ER (sched m) (K (c, some (Fam.xs, 11))) (fcell c Fam.xs 11)
    ∗ cellInv ER (sched m) (K (xP c, some (Fam.xr, 11))) (fcell (xP c) Fam.xr 11)
    ∗ reached ER (fcell c Fam.xs 11) 0
    ∗ reached ER (fcell (xP c) Fam.xr 11) 0
    ∗ dutyTok ER (fcell c Fam.xs 11) 0 0
    ∗ dutyTok ER (fcell (xP c) Fam.xr 11) 0 0
    ∗ cellInv ER (sched m) (K (c, some (Fam.zs, 11))) (fcell c Fam.zs 11)
    ∗ cellInv ER (sched m) (K (zP c, some (Fam.zr, 11))) (fcell (zP c) Fam.zr 11)
    ∗ reached ER (fcell c Fam.zs 11) 0
    ∗ reached ER (fcell (zP c) Fam.zr 11) 0
    ∗ dutyTok ER (fcell c Fam.zs 11) 0 0
    ∗ dutyTok ER (fcell (zP c) Fam.zr 11) 0 0
    ∗ semVal ((c : Thread nD τ), .dma ⟨27, by decide⟩) 0
    ∗ ((oRowY c 11).view.loc (c : Thread nD τ) ↦[(oRowY c 11).view.set]{fullShare} fo)
    ∗ cellInv ER (sched m) (K (c, some (Fam.yr, 12))) (fcell c Fam.yr 12)
    ∗ atPos ER (fcell c Fam.yr 12) 0 ∅ 0
    ∗ cred (tallyAt (fcell c Fam.yr 12) () N)
    ∗ cellInv ER (sched m) (K (c, some (Fam.xs, 12))) (fcell c Fam.xs 12)
    ∗ cellInv ER (sched m) (K (xP c, some (Fam.xr, 12))) (fcell (xP c) Fam.xr 12)
    ∗ reached ER (fcell c Fam.xs 12) 0
    ∗ reached ER (fcell (xP c) Fam.xr 12) 0
    ∗ dutyTok ER (fcell c Fam.xs 12) 0 0
    ∗ dutyTok ER (fcell (xP c) Fam.xr 12) 0 0
    ∗ cellInv ER (sched m) (K (c, some (Fam.zs, 12))) (fcell c Fam.zs 12)
    ∗ cellInv ER (sched m) (K (zP c, some (Fam.zr, 12))) (fcell (zP c) Fam.zr 12)
    ∗ reached ER (fcell c Fam.zs 12) 0
    ∗ reached ER (fcell (zP c) Fam.zr 12) 0
    ∗ dutyTok ER (fcell c Fam.zs 12) 0 0
    ∗ dutyTok ER (fcell (zP c) Fam.zr 12) 0 0
    ∗ semVal ((c : Thread nD τ), .dma ⟨28, by decide⟩) 0
    ∗ ((oRowY c 12).view.loc (c : Thread nD τ) ↦[(oRowY c 12).view.set]{fullShare} fo)
    ∗ cellInv ER (sched m) (K (c, some (Fam.yr, 13))) (fcell c Fam.yr 13)
    ∗ atPos ER (fcell c Fam.yr 13) 0 ∅ 0
    ∗ cred (tallyAt (fcell c Fam.yr 13) () N)
    ∗ cellInv ER (sched m) (K (c, some (Fam.xs, 13))) (fcell c Fam.xs 13)
    ∗ cellInv ER (sched m) (K (xP c, some (Fam.xr, 13))) (fcell (xP c) Fam.xr 13)
    ∗ reached ER (fcell c Fam.xs 13) 0
    ∗ reached ER (fcell (xP c) Fam.xr 13) 0
    ∗ dutyTok ER (fcell c Fam.xs 13) 0 0
    ∗ dutyTok ER (fcell (xP c) Fam.xr 13) 0 0
    ∗ cellInv ER (sched m) (K (c, some (Fam.zs, 13))) (fcell c Fam.zs 13)
    ∗ cellInv ER (sched m) (K (zP c, some (Fam.zr, 13))) (fcell (zP c) Fam.zr 13)
    ∗ reached ER (fcell c Fam.zs 13) 0
    ∗ reached ER (fcell (zP c) Fam.zr 13) 0
    ∗ dutyTok ER (fcell c Fam.zs 13) 0 0
    ∗ dutyTok ER (fcell (zP c) Fam.zr 13) 0 0
    ∗ semVal ((c : Thread nD τ), .dma ⟨29, by decide⟩) 0
    ∗ ((oRowY c 13).view.loc (c : Thread nD τ) ↦[(oRowY c 13).view.set]{fullShare} fo)
    ∗ cellInv ER (sched m) (K (c, some (Fam.yr, 14))) (fcell c Fam.yr 14)
    ∗ atPos ER (fcell c Fam.yr 14) 0 ∅ 0
    ∗ cred (tallyAt (fcell c Fam.yr 14) () N)
    ∗ cellInv ER (sched m) (K (c, some (Fam.xs, 14))) (fcell c Fam.xs 14)
    ∗ cellInv ER (sched m) (K (xP c, some (Fam.xr, 14))) (fcell (xP c) Fam.xr 14)
    ∗ reached ER (fcell c Fam.xs 14) 0
    ∗ reached ER (fcell (xP c) Fam.xr 14) 0
    ∗ dutyTok ER (fcell c Fam.xs 14) 0 0
    ∗ dutyTok ER (fcell (xP c) Fam.xr 14) 0 0
    ∗ cellInv ER (sched m) (K (c, some (Fam.zs, 14))) (fcell c Fam.zs 14)
    ∗ cellInv ER (sched m) (K (zP c, some (Fam.zr, 14))) (fcell (zP c) Fam.zr 14)
    ∗ reached ER (fcell c Fam.zs 14) 0
    ∗ reached ER (fcell (zP c) Fam.zr 14) 0
    ∗ dutyTok ER (fcell c Fam.zs 14) 0 0
    ∗ dutyTok ER (fcell (zP c) Fam.zr 14) 0 0
    ∗ semVal ((c : Thread nD τ), .dma ⟨30, by decide⟩) 0
    ∗ ((oRowY c 14).view.loc (c : Thread nD τ) ↦[(oRowY c 14).view.set]{fullShare} fo)
    ∗ cellInv ER (sched m) (K (c, some (Fam.yr, 15))) (fcell c Fam.yr 15)
    ∗ atPos ER (fcell c Fam.yr 15) 0 ∅ 0
    ∗ cred (tallyAt (fcell c Fam.yr 15) () N)
    ∗ cellInv ER (sched m) (K (c, some (Fam.xs, 15))) (fcell c Fam.xs 15)
    ∗ cellInv ER (sched m) (K (xP c, some (Fam.xr, 15))) (fcell (xP c) Fam.xr 15)
    ∗ reached ER (fcell c Fam.xs 15) 0
    ∗ reached ER (fcell (xP c) Fam.xr 15) 0
    ∗ dutyTok ER (fcell c Fam.xs 15) 0 0
    ∗ dutyTok ER (fcell (xP c) Fam.xr 15) 0 0
    ∗ cellInv ER (sched m) (K (c, some (Fam.zs, 15))) (fcell c Fam.zs 15)
    ∗ cellInv ER (sched m) (K (zP c, some (Fam.zr, 15))) (fcell (zP c) Fam.zr 15)
    ∗ reached ER (fcell c Fam.zs 15) 0
    ∗ reached ER (fcell (zP c) Fam.zr 15) 0
    ∗ dutyTok ER (fcell c Fam.zs 15) 0 0
    ∗ dutyTok ER (fcell (zP c) Fam.zr 15) 0 0
    ∗ semVal ((c : Thread nD τ), .dma ⟨31, by decide⟩) 0
    ∗ ((oRowY c 15).view.loc (c : Thread nD τ) ↦[(oRowY c 15).view.set]{fullShare} fo)
    ∗ cellInv ER (sched m) (K (c, some (Fam.xr, 0))) (fcell c Fam.xr 0)
    ∗ atPos ER (fcell c Fam.xr 0) 0 ∅ 0
    ∗ cred (tallyAt (fcell c Fam.xr 0) () N)
    ∗ semVal ((c : Thread nD τ), .dma ⟨32, by decide⟩) 0
    ∗ ((oRowX c 0).view.loc (c : Thread nD τ) ↦[(oRowX c 0).view.set]{fullShare} fo)
    ∗ cellInv ER (sched m) (K (c, some (Fam.zr, 0))) (fcell c Fam.zr 0)
    ∗ atPos ER (fcell c Fam.zr 0) 0 ∅ 0
    ∗ cred (tallyAt (fcell c Fam.zr 0) () N)
    ∗ semVal ((c : Thread nD τ), .dma ⟨48, by decide⟩) 0
    ∗ ((oRowZ c 0).view.loc (c : Thread nD τ) ↦[(oRowZ c 0).view.set]{fullShare} fo)
    ∗ cellInv ER (sched m) (K (c, some (Fam.qs, 0))) (fcell c Fam.qs 0)
    ∗ cellInv ER (sched m) (K (xP c, some (Fam.qr, 0))) (fcell (xP c) Fam.qr 0)
    ∗ reached ER (fcell c Fam.qs 0) 0
    ∗ reached ER (fcell (xP c) Fam.qr 0) 0
    ∗ dutyTok ER (fcell c Fam.qs 0) 0 0
    ∗ dutyTok ER (fcell (xP c) Fam.qr 0) 0 0
    ∗ cellInv ER (sched m) (K (c, some (Fam.xr, 1))) (fcell c Fam.xr 1)
    ∗ atPos ER (fcell c Fam.xr 1) 0 ∅ 0
    ∗ cred (tallyAt (fcell c Fam.xr 1) () N)
    ∗ semVal ((c : Thread nD τ), .dma ⟨33, by decide⟩) 0
    ∗ ((oRowX c 1).view.loc (c : Thread nD τ) ↦[(oRowX c 1).view.set]{fullShare} fo)
    ∗ cellInv ER (sched m) (K (c, some (Fam.zr, 1))) (fcell c Fam.zr 1)
    ∗ atPos ER (fcell c Fam.zr 1) 0 ∅ 0
    ∗ cred (tallyAt (fcell c Fam.zr 1) () N)
    ∗ semVal ((c : Thread nD τ), .dma ⟨49, by decide⟩) 0
    ∗ ((oRowZ c 1).view.loc (c : Thread nD τ) ↦[(oRowZ c 1).view.set]{fullShare} fo)
    ∗ cellInv ER (sched m) (K (c, some (Fam.qs, 1))) (fcell c Fam.qs 1)
    ∗ cellInv ER (sched m) (K (zP c, some (Fam.qr, 1))) (fcell (zP c) Fam.qr 1)
    ∗ reached ER (fcell c Fam.qs 1) 0
    ∗ reached ER (fcell (zP c) Fam.qr 1) 0
    ∗ dutyTok ER (fcell c Fam.qs 1) 0 0
    ∗ dutyTok ER (fcell (zP c) Fam.qr 1) 0 0
    ∗ cellInv ER (sched m) (K (c, some (Fam.xr, 2))) (fcell c Fam.xr 2)
    ∗ atPos ER (fcell c Fam.xr 2) 0 ∅ 0
    ∗ cred (tallyAt (fcell c Fam.xr 2) () N)
    ∗ semVal ((c : Thread nD τ), .dma ⟨34, by decide⟩) 0
    ∗ ((oRowX c 2).view.loc (c : Thread nD τ) ↦[(oRowX c 2).view.set]{fullShare} fo)
    ∗ cellInv ER (sched m) (K (c, some (Fam.zr, 2))) (fcell c Fam.zr 2)
    ∗ atPos ER (fcell c Fam.zr 2) 0 ∅ 0
    ∗ cred (tallyAt (fcell c Fam.zr 2) () N)
    ∗ semVal ((c : Thread nD τ), .dma ⟨50, by decide⟩) 0
    ∗ ((oRowZ c 2).view.loc (c : Thread nD τ) ↦[(oRowZ c 2).view.set]{fullShare} fo)
    ∗ cellInv ER (sched m) (K (c, some (Fam.qs, 2))) (fcell c Fam.qs 2)
    ∗ cellInv ER (sched m) (K (xP c, some (Fam.qr, 2))) (fcell (xP c) Fam.qr 2)
    ∗ reached ER (fcell c Fam.qs 2) 0
    ∗ reached ER (fcell (xP c) Fam.qr 2) 0
    ∗ dutyTok ER (fcell c Fam.qs 2) 0 0
    ∗ dutyTok ER (fcell (xP c) Fam.qr 2) 0 0
    ∗ cellInv ER (sched m) (K (c, some (Fam.xr, 3))) (fcell c Fam.xr 3)
    ∗ atPos ER (fcell c Fam.xr 3) 0 ∅ 0
    ∗ cred (tallyAt (fcell c Fam.xr 3) () N)
    ∗ semVal ((c : Thread nD τ), .dma ⟨35, by decide⟩) 0
    ∗ ((oRowX c 3).view.loc (c : Thread nD τ) ↦[(oRowX c 3).view.set]{fullShare} fo)
    ∗ cellInv ER (sched m) (K (c, some (Fam.zr, 3))) (fcell c Fam.zr 3)
    ∗ atPos ER (fcell c Fam.zr 3) 0 ∅ 0
    ∗ cred (tallyAt (fcell c Fam.zr 3) () N)
    ∗ semVal ((c : Thread nD τ), .dma ⟨51, by decide⟩) 0
    ∗ ((oRowZ c 3).view.loc (c : Thread nD τ) ↦[(oRowZ c 3).view.set]{fullShare} fo)
    ∗ cellInv ER (sched m) (K (c, some (Fam.qs, 3))) (fcell c Fam.qs 3)
    ∗ cellInv ER (sched m) (K (zP c, some (Fam.qr, 3))) (fcell (zP c) Fam.qr 3)
    ∗ reached ER (fcell c Fam.qs 3) 0
    ∗ reached ER (fcell (zP c) Fam.qr 3) 0
    ∗ dutyTok ER (fcell c Fam.qs 3) 0 0
    ∗ dutyTok ER (fcell (zP c) Fam.qr 3) 0 0
    ∗ cellInv ER (sched m) (K (c, some (Fam.xr, 4))) (fcell c Fam.xr 4)
    ∗ atPos ER (fcell c Fam.xr 4) 0 ∅ 0
    ∗ cred (tallyAt (fcell c Fam.xr 4) () N)
    ∗ semVal ((c : Thread nD τ), .dma ⟨36, by decide⟩) 0
    ∗ ((oRowX c 4).view.loc (c : Thread nD τ) ↦[(oRowX c 4).view.set]{fullShare} fo)
    ∗ cellInv ER (sched m) (K (c, some (Fam.zr, 4))) (fcell c Fam.zr 4)
    ∗ atPos ER (fcell c Fam.zr 4) 0 ∅ 0
    ∗ cred (tallyAt (fcell c Fam.zr 4) () N)
    ∗ semVal ((c : Thread nD τ), .dma ⟨52, by decide⟩) 0
    ∗ ((oRowZ c 4).view.loc (c : Thread nD τ) ↦[(oRowZ c 4).view.set]{fullShare} fo)
    ∗ cellInv ER (sched m) (K (c, some (Fam.qs, 4))) (fcell c Fam.qs 4)
    ∗ cellInv ER (sched m) (K (xP c, some (Fam.qr, 4))) (fcell (xP c) Fam.qr 4)
    ∗ reached ER (fcell c Fam.qs 4) 0
    ∗ reached ER (fcell (xP c) Fam.qr 4) 0
    ∗ dutyTok ER (fcell c Fam.qs 4) 0 0
    ∗ dutyTok ER (fcell (xP c) Fam.qr 4) 0 0
    ∗ cellInv ER (sched m) (K (c, some (Fam.xr, 5))) (fcell c Fam.xr 5)
    ∗ atPos ER (fcell c Fam.xr 5) 0 ∅ 0
    ∗ cred (tallyAt (fcell c Fam.xr 5) () N)
    ∗ semVal ((c : Thread nD τ), .dma ⟨37, by decide⟩) 0
    ∗ ((oRowX c 5).view.loc (c : Thread nD τ) ↦[(oRowX c 5).view.set]{fullShare} fo)
    ∗ cellInv ER (sched m) (K (c, some (Fam.zr, 5))) (fcell c Fam.zr 5)
    ∗ atPos ER (fcell c Fam.zr 5) 0 ∅ 0
    ∗ cred (tallyAt (fcell c Fam.zr 5) () N)
    ∗ semVal ((c : Thread nD τ), .dma ⟨53, by decide⟩) 0
    ∗ ((oRowZ c 5).view.loc (c : Thread nD τ) ↦[(oRowZ c 5).view.set]{fullShare} fo)
    ∗ cellInv ER (sched m) (K (c, some (Fam.qs, 5))) (fcell c Fam.qs 5)
    ∗ cellInv ER (sched m) (K (zP c, some (Fam.qr, 5))) (fcell (zP c) Fam.qr 5)
    ∗ reached ER (fcell c Fam.qs 5) 0
    ∗ reached ER (fcell (zP c) Fam.qr 5) 0
    ∗ dutyTok ER (fcell c Fam.qs 5) 0 0
    ∗ dutyTok ER (fcell (zP c) Fam.qr 5) 0 0
    ∗ cellInv ER (sched m) (K (c, some (Fam.xr, 6))) (fcell c Fam.xr 6)
    ∗ atPos ER (fcell c Fam.xr 6) 0 ∅ 0
    ∗ cred (tallyAt (fcell c Fam.xr 6) () N)
    ∗ semVal ((c : Thread nD τ), .dma ⟨38, by decide⟩) 0
    ∗ ((oRowX c 6).view.loc (c : Thread nD τ) ↦[(oRowX c 6).view.set]{fullShare} fo)
    ∗ cellInv ER (sched m) (K (c, some (Fam.zr, 6))) (fcell c Fam.zr 6)
    ∗ atPos ER (fcell c Fam.zr 6) 0 ∅ 0
    ∗ cred (tallyAt (fcell c Fam.zr 6) () N)
    ∗ semVal ((c : Thread nD τ), .dma ⟨54, by decide⟩) 0
    ∗ ((oRowZ c 6).view.loc (c : Thread nD τ) ↦[(oRowZ c 6).view.set]{fullShare} fo)
    ∗ cellInv ER (sched m) (K (c, some (Fam.qs, 6))) (fcell c Fam.qs 6)
    ∗ cellInv ER (sched m) (K (xP c, some (Fam.qr, 6))) (fcell (xP c) Fam.qr 6)
    ∗ reached ER (fcell c Fam.qs 6) 0
    ∗ reached ER (fcell (xP c) Fam.qr 6) 0
    ∗ dutyTok ER (fcell c Fam.qs 6) 0 0
    ∗ dutyTok ER (fcell (xP c) Fam.qr 6) 0 0
    ∗ cellInv ER (sched m) (K (c, some (Fam.xr, 7))) (fcell c Fam.xr 7)
    ∗ atPos ER (fcell c Fam.xr 7) 0 ∅ 0
    ∗ cred (tallyAt (fcell c Fam.xr 7) () N)
    ∗ semVal ((c : Thread nD τ), .dma ⟨39, by decide⟩) 0
    ∗ ((oRowX c 7).view.loc (c : Thread nD τ) ↦[(oRowX c 7).view.set]{fullShare} fo)
    ∗ cellInv ER (sched m) (K (c, some (Fam.zr, 7))) (fcell c Fam.zr 7)
    ∗ atPos ER (fcell c Fam.zr 7) 0 ∅ 0
    ∗ cred (tallyAt (fcell c Fam.zr 7) () N)
    ∗ semVal ((c : Thread nD τ), .dma ⟨55, by decide⟩) 0
    ∗ ((oRowZ c 7).view.loc (c : Thread nD τ) ↦[(oRowZ c 7).view.set]{fullShare} fo)
    ∗ cellInv ER (sched m) (K (c, some (Fam.qs, 7))) (fcell c Fam.qs 7)
    ∗ cellInv ER (sched m) (K (zP c, some (Fam.qr, 7))) (fcell (zP c) Fam.qr 7)
    ∗ reached ER (fcell c Fam.qs 7) 0
    ∗ reached ER (fcell (zP c) Fam.qr 7) 0
    ∗ dutyTok ER (fcell c Fam.qs 7) 0 0
    ∗ dutyTok ER (fcell (zP c) Fam.qr 7) 0 0
    ∗ cellInv ER (sched m) (K (c, some (Fam.xr, 8))) (fcell c Fam.xr 8)
    ∗ atPos ER (fcell c Fam.xr 8) 0 ∅ 0
    ∗ cred (tallyAt (fcell c Fam.xr 8) () N)
    ∗ semVal ((c : Thread nD τ), .dma ⟨40, by decide⟩) 0
    ∗ ((oRowX c 8).view.loc (c : Thread nD τ) ↦[(oRowX c 8).view.set]{fullShare} fo)
    ∗ cellInv ER (sched m) (K (c, some (Fam.zr, 8))) (fcell c Fam.zr 8)
    ∗ atPos ER (fcell c Fam.zr 8) 0 ∅ 0
    ∗ cred (tallyAt (fcell c Fam.zr 8) () N)
    ∗ semVal ((c : Thread nD τ), .dma ⟨56, by decide⟩) 0
    ∗ ((oRowZ c 8).view.loc (c : Thread nD τ) ↦[(oRowZ c 8).view.set]{fullShare} fo)
    ∗ cellInv ER (sched m) (K (c, some (Fam.qs, 8))) (fcell c Fam.qs 8)
    ∗ cellInv ER (sched m) (K (xP c, some (Fam.qr, 8))) (fcell (xP c) Fam.qr 8)
    ∗ reached ER (fcell c Fam.qs 8) 0
    ∗ reached ER (fcell (xP c) Fam.qr 8) 0
    ∗ dutyTok ER (fcell c Fam.qs 8) 0 0
    ∗ dutyTok ER (fcell (xP c) Fam.qr 8) 0 0
    ∗ cellInv ER (sched m) (K (c, some (Fam.xr, 9))) (fcell c Fam.xr 9)
    ∗ atPos ER (fcell c Fam.xr 9) 0 ∅ 0
    ∗ cred (tallyAt (fcell c Fam.xr 9) () N)
    ∗ semVal ((c : Thread nD τ), .dma ⟨41, by decide⟩) 0
    ∗ ((oRowX c 9).view.loc (c : Thread nD τ) ↦[(oRowX c 9).view.set]{fullShare} fo)
    ∗ cellInv ER (sched m) (K (c, some (Fam.zr, 9))) (fcell c Fam.zr 9)
    ∗ atPos ER (fcell c Fam.zr 9) 0 ∅ 0
    ∗ cred (tallyAt (fcell c Fam.zr 9) () N)
    ∗ semVal ((c : Thread nD τ), .dma ⟨57, by decide⟩) 0
    ∗ ((oRowZ c 9).view.loc (c : Thread nD τ) ↦[(oRowZ c 9).view.set]{fullShare} fo)
    ∗ cellInv ER (sched m) (K (c, some (Fam.qs, 9))) (fcell c Fam.qs 9)
    ∗ cellInv ER (sched m) (K (zP c, some (Fam.qr, 9))) (fcell (zP c) Fam.qr 9)
    ∗ reached ER (fcell c Fam.qs 9) 0
    ∗ reached ER (fcell (zP c) Fam.qr 9) 0
    ∗ dutyTok ER (fcell c Fam.qs 9) 0 0
    ∗ dutyTok ER (fcell (zP c) Fam.qr 9) 0 0
    ∗ cellInv ER (sched m) (K (c, some (Fam.xr, 10))) (fcell c Fam.xr 10)
    ∗ atPos ER (fcell c Fam.xr 10) 0 ∅ 0
    ∗ cred (tallyAt (fcell c Fam.xr 10) () N)
    ∗ semVal ((c : Thread nD τ), .dma ⟨42, by decide⟩) 0
    ∗ ((oRowX c 10).view.loc (c : Thread nD τ) ↦[(oRowX c 10).view.set]{fullShare} fo)
    ∗ cellInv ER (sched m) (K (c, some (Fam.zr, 10))) (fcell c Fam.zr 10)
    ∗ atPos ER (fcell c Fam.zr 10) 0 ∅ 0
    ∗ cred (tallyAt (fcell c Fam.zr 10) () N)
    ∗ semVal ((c : Thread nD τ), .dma ⟨58, by decide⟩) 0
    ∗ ((oRowZ c 10).view.loc (c : Thread nD τ) ↦[(oRowZ c 10).view.set]{fullShare} fo)
    ∗ cellInv ER (sched m) (K (c, some (Fam.qs, 10))) (fcell c Fam.qs 10)
    ∗ cellInv ER (sched m) (K (xP c, some (Fam.qr, 10))) (fcell (xP c) Fam.qr 10)
    ∗ reached ER (fcell c Fam.qs 10) 0
    ∗ reached ER (fcell (xP c) Fam.qr 10) 0
    ∗ dutyTok ER (fcell c Fam.qs 10) 0 0
    ∗ dutyTok ER (fcell (xP c) Fam.qr 10) 0 0
    ∗ cellInv ER (sched m) (K (c, some (Fam.xr, 11))) (fcell c Fam.xr 11)
    ∗ atPos ER (fcell c Fam.xr 11) 0 ∅ 0
    ∗ cred (tallyAt (fcell c Fam.xr 11) () N)
    ∗ semVal ((c : Thread nD τ), .dma ⟨43, by decide⟩) 0
    ∗ ((oRowX c 11).view.loc (c : Thread nD τ) ↦[(oRowX c 11).view.set]{fullShare} fo)
    ∗ cellInv ER (sched m) (K (c, some (Fam.zr, 11))) (fcell c Fam.zr 11)
    ∗ atPos ER (fcell c Fam.zr 11) 0 ∅ 0
    ∗ cred (tallyAt (fcell c Fam.zr 11) () N)
    ∗ semVal ((c : Thread nD τ), .dma ⟨59, by decide⟩) 0
    ∗ ((oRowZ c 11).view.loc (c : Thread nD τ) ↦[(oRowZ c 11).view.set]{fullShare} fo)
    ∗ cellInv ER (sched m) (K (c, some (Fam.qs, 11))) (fcell c Fam.qs 11)
    ∗ cellInv ER (sched m) (K (zP c, some (Fam.qr, 11))) (fcell (zP c) Fam.qr 11)
    ∗ reached ER (fcell c Fam.qs 11) 0
    ∗ reached ER (fcell (zP c) Fam.qr 11) 0
    ∗ dutyTok ER (fcell c Fam.qs 11) 0 0
    ∗ dutyTok ER (fcell (zP c) Fam.qr 11) 0 0
    ∗ cellInv ER (sched m) (K (c, some (Fam.xr, 12))) (fcell c Fam.xr 12)
    ∗ atPos ER (fcell c Fam.xr 12) 0 ∅ 0
    ∗ cred (tallyAt (fcell c Fam.xr 12) () N)
    ∗ semVal ((c : Thread nD τ), .dma ⟨44, by decide⟩) 0
    ∗ ((oRowX c 12).view.loc (c : Thread nD τ) ↦[(oRowX c 12).view.set]{fullShare} fo)
    ∗ cellInv ER (sched m) (K (c, some (Fam.zr, 12))) (fcell c Fam.zr 12)
    ∗ atPos ER (fcell c Fam.zr 12) 0 ∅ 0
    ∗ cred (tallyAt (fcell c Fam.zr 12) () N)
    ∗ semVal ((c : Thread nD τ), .dma ⟨60, by decide⟩) 0
    ∗ ((oRowZ c 12).view.loc (c : Thread nD τ) ↦[(oRowZ c 12).view.set]{fullShare} fo)
    ∗ cellInv ER (sched m) (K (c, some (Fam.qs, 12))) (fcell c Fam.qs 12)
    ∗ cellInv ER (sched m) (K (xP c, some (Fam.qr, 12))) (fcell (xP c) Fam.qr 12)
    ∗ reached ER (fcell c Fam.qs 12) 0
    ∗ reached ER (fcell (xP c) Fam.qr 12) 0
    ∗ dutyTok ER (fcell c Fam.qs 12) 0 0
    ∗ dutyTok ER (fcell (xP c) Fam.qr 12) 0 0
    ∗ cellInv ER (sched m) (K (c, some (Fam.xr, 13))) (fcell c Fam.xr 13)
    ∗ atPos ER (fcell c Fam.xr 13) 0 ∅ 0
    ∗ cred (tallyAt (fcell c Fam.xr 13) () N)
    ∗ semVal ((c : Thread nD τ), .dma ⟨45, by decide⟩) 0
    ∗ ((oRowX c 13).view.loc (c : Thread nD τ) ↦[(oRowX c 13).view.set]{fullShare} fo)
    ∗ cellInv ER (sched m) (K (c, some (Fam.zr, 13))) (fcell c Fam.zr 13)
    ∗ atPos ER (fcell c Fam.zr 13) 0 ∅ 0
    ∗ cred (tallyAt (fcell c Fam.zr 13) () N)
    ∗ semVal ((c : Thread nD τ), .dma ⟨61, by decide⟩) 0
    ∗ ((oRowZ c 13).view.loc (c : Thread nD τ) ↦[(oRowZ c 13).view.set]{fullShare} fo)
    ∗ cellInv ER (sched m) (K (c, some (Fam.qs, 13))) (fcell c Fam.qs 13)
    ∗ cellInv ER (sched m) (K (zP c, some (Fam.qr, 13))) (fcell (zP c) Fam.qr 13)
    ∗ reached ER (fcell c Fam.qs 13) 0
    ∗ reached ER (fcell (zP c) Fam.qr 13) 0
    ∗ dutyTok ER (fcell c Fam.qs 13) 0 0
    ∗ dutyTok ER (fcell (zP c) Fam.qr 13) 0 0
    ∗ cellInv ER (sched m) (K (c, some (Fam.xr, 14))) (fcell c Fam.xr 14)
    ∗ atPos ER (fcell c Fam.xr 14) 0 ∅ 0
    ∗ cred (tallyAt (fcell c Fam.xr 14) () N)
    ∗ semVal ((c : Thread nD τ), .dma ⟨46, by decide⟩) 0
    ∗ ((oRowX c 14).view.loc (c : Thread nD τ) ↦[(oRowX c 14).view.set]{fullShare} fo)
    ∗ cellInv ER (sched m) (K (c, some (Fam.zr, 14))) (fcell c Fam.zr 14)
    ∗ atPos ER (fcell c Fam.zr 14) 0 ∅ 0
    ∗ cred (tallyAt (fcell c Fam.zr 14) () N)
    ∗ semVal ((c : Thread nD τ), .dma ⟨62, by decide⟩) 0
    ∗ ((oRowZ c 14).view.loc (c : Thread nD τ) ↦[(oRowZ c 14).view.set]{fullShare} fo)
    ∗ cellInv ER (sched m) (K (c, some (Fam.qs, 14))) (fcell c Fam.qs 14)
    ∗ cellInv ER (sched m) (K (xP c, some (Fam.qr, 14))) (fcell (xP c) Fam.qr 14)
    ∗ reached ER (fcell c Fam.qs 14) 0
    ∗ reached ER (fcell (xP c) Fam.qr 14) 0
    ∗ dutyTok ER (fcell c Fam.qs 14) 0 0
    ∗ dutyTok ER (fcell (xP c) Fam.qr 14) 0 0
    ∗ cellInv ER (sched m) (K (c, some (Fam.xr, 15))) (fcell c Fam.xr 15)
    ∗ atPos ER (fcell c Fam.xr 15) 0 ∅ 0
    ∗ cred (tallyAt (fcell c Fam.xr 15) () N)
    ∗ semVal ((c : Thread nD τ), .dma ⟨47, by decide⟩) 0
    ∗ ((oRowX c 15).view.loc (c : Thread nD τ) ↦[(oRowX c 15).view.set]{fullShare} fo)
    ∗ cellInv ER (sched m) (K (c, some (Fam.zr, 15))) (fcell c Fam.zr 15)
    ∗ atPos ER (fcell c Fam.zr 15) 0 ∅ 0
    ∗ cred (tallyAt (fcell c Fam.zr 15) () N)
    ∗ semVal ((c : Thread nD τ), .dma ⟨63, by decide⟩) 0
    ∗ ((oRowZ c 15).view.loc (c : Thread nD τ) ↦[(oRowZ c 15).view.set]{fullShare} fo)
    ∗ cellInv ER (sched m) (K (c, some (Fam.qs, 15))) (fcell c Fam.qs 15)
    ∗ cellInv ER (sched m) (K (zP c, some (Fam.qr, 15))) (fcell (zP c) Fam.qr 15)
    ∗ reached ER (fcell c Fam.qs 15) 0
    ∗ reached ER (fcell (zP c) Fam.qr 15) 0
    ∗ dutyTok ER (fcell c Fam.qs 15) 0 0
    ∗ dutyTok ER (fcell (zP c) Fam.qr 15) 0 0
    ∗ atPos ER (fcell c Fam.ys 0) 0 ∅ 0
    ∗ atPos ER (fcell c Fam.xs 0) 0 ∅ 0
    ∗ atPos ER (fcell c Fam.zs 0) 0 ∅ 0
    ∗ atPos ER (fcell c Fam.qs 0) 0 ∅ 0
    ∗ cellInv ER (sched m) (K (c, some (Fam.qr, 0))) (fcell c Fam.qr 0)
    ∗ atPos ER (fcell c Fam.qr 0) 0 ∅ 0
    ∗ cred (tallyAt (fcell c Fam.qr 0) () N)
    ∗ atPos ER (fcell c Fam.ys 1) 0 ∅ 0
    ∗ atPos ER (fcell c Fam.xs 1) 0 ∅ 0
    ∗ atPos ER (fcell c Fam.zs 1) 0 ∅ 0
    ∗ atPos ER (fcell c Fam.qs 1) 0 ∅ 0
    ∗ cellInv ER (sched m) (K (c, some (Fam.qr, 1))) (fcell c Fam.qr 1)
    ∗ atPos ER (fcell c Fam.qr 1) 0 ∅ 0
    ∗ cred (tallyAt (fcell c Fam.qr 1) () N)
    ∗ atPos ER (fcell c Fam.ys 2) 0 ∅ 0
    ∗ atPos ER (fcell c Fam.xs 2) 0 ∅ 0
    ∗ atPos ER (fcell c Fam.zs 2) 0 ∅ 0
    ∗ atPos ER (fcell c Fam.qs 2) 0 ∅ 0
    ∗ cellInv ER (sched m) (K (c, some (Fam.qr, 2))) (fcell c Fam.qr 2)
    ∗ atPos ER (fcell c Fam.qr 2) 0 ∅ 0
    ∗ cred (tallyAt (fcell c Fam.qr 2) () N)
    ∗ atPos ER (fcell c Fam.ys 3) 0 ∅ 0
    ∗ atPos ER (fcell c Fam.xs 3) 0 ∅ 0
    ∗ atPos ER (fcell c Fam.zs 3) 0 ∅ 0
    ∗ atPos ER (fcell c Fam.qs 3) 0 ∅ 0
    ∗ cellInv ER (sched m) (K (c, some (Fam.qr, 3))) (fcell c Fam.qr 3)
    ∗ atPos ER (fcell c Fam.qr 3) 0 ∅ 0
    ∗ cred (tallyAt (fcell c Fam.qr 3) () N)
    ∗ atPos ER (fcell c Fam.ys 4) 0 ∅ 0
    ∗ atPos ER (fcell c Fam.xs 4) 0 ∅ 0
    ∗ atPos ER (fcell c Fam.zs 4) 0 ∅ 0
    ∗ atPos ER (fcell c Fam.qs 4) 0 ∅ 0
    ∗ cellInv ER (sched m) (K (c, some (Fam.qr, 4))) (fcell c Fam.qr 4)
    ∗ atPos ER (fcell c Fam.qr 4) 0 ∅ 0
    ∗ cred (tallyAt (fcell c Fam.qr 4) () N)
    ∗ atPos ER (fcell c Fam.ys 5) 0 ∅ 0
    ∗ atPos ER (fcell c Fam.xs 5) 0 ∅ 0
    ∗ atPos ER (fcell c Fam.zs 5) 0 ∅ 0
    ∗ atPos ER (fcell c Fam.qs 5) 0 ∅ 0
    ∗ cellInv ER (sched m) (K (c, some (Fam.qr, 5))) (fcell c Fam.qr 5)
    ∗ atPos ER (fcell c Fam.qr 5) 0 ∅ 0
    ∗ cred (tallyAt (fcell c Fam.qr 5) () N)
    ∗ atPos ER (fcell c Fam.ys 6) 0 ∅ 0
    ∗ atPos ER (fcell c Fam.xs 6) 0 ∅ 0
    ∗ atPos ER (fcell c Fam.zs 6) 0 ∅ 0
    ∗ atPos ER (fcell c Fam.qs 6) 0 ∅ 0
    ∗ cellInv ER (sched m) (K (c, some (Fam.qr, 6))) (fcell c Fam.qr 6)
    ∗ atPos ER (fcell c Fam.qr 6) 0 ∅ 0
    ∗ cred (tallyAt (fcell c Fam.qr 6) () N)
    ∗ atPos ER (fcell c Fam.ys 7) 0 ∅ 0
    ∗ atPos ER (fcell c Fam.xs 7) 0 ∅ 0
    ∗ atPos ER (fcell c Fam.zs 7) 0 ∅ 0
    ∗ atPos ER (fcell c Fam.qs 7) 0 ∅ 0
    ∗ cellInv ER (sched m) (K (c, some (Fam.qr, 7))) (fcell c Fam.qr 7)
    ∗ atPos ER (fcell c Fam.qr 7) 0 ∅ 0
    ∗ cred (tallyAt (fcell c Fam.qr 7) () N)
    ∗ atPos ER (fcell c Fam.ys 8) 0 ∅ 0
    ∗ atPos ER (fcell c Fam.xs 8) 0 ∅ 0
    ∗ atPos ER (fcell c Fam.zs 8) 0 ∅ 0
    ∗ atPos ER (fcell c Fam.qs 8) 0 ∅ 0
    ∗ cellInv ER (sched m) (K (c, some (Fam.qr, 8))) (fcell c Fam.qr 8)
    ∗ atPos ER (fcell c Fam.qr 8) 0 ∅ 0
    ∗ cred (tallyAt (fcell c Fam.qr 8) () N)
    ∗ atPos ER (fcell c Fam.ys 9) 0 ∅ 0
    ∗ atPos ER (fcell c Fam.xs 9) 0 ∅ 0
    ∗ atPos ER (fcell c Fam.zs 9) 0 ∅ 0
    ∗ atPos ER (fcell c Fam.qs 9) 0 ∅ 0
    ∗ cellInv ER (sched m) (K (c, some (Fam.qr, 9))) (fcell c Fam.qr 9)
    ∗ atPos ER (fcell c Fam.qr 9) 0 ∅ 0
    ∗ cred (tallyAt (fcell c Fam.qr 9) () N)
    ∗ atPos ER (fcell c Fam.ys 10) 0 ∅ 0
    ∗ atPos ER (fcell c Fam.xs 10) 0 ∅ 0
    ∗ atPos ER (fcell c Fam.zs 10) 0 ∅ 0
    ∗ atPos ER (fcell c Fam.qs 10) 0 ∅ 0
    ∗ cellInv ER (sched m) (K (c, some (Fam.qr, 10))) (fcell c Fam.qr 10)
    ∗ atPos ER (fcell c Fam.qr 10) 0 ∅ 0
    ∗ cred (tallyAt (fcell c Fam.qr 10) () N)
    ∗ atPos ER (fcell c Fam.ys 11) 0 ∅ 0
    ∗ atPos ER (fcell c Fam.xs 11) 0 ∅ 0
    ∗ atPos ER (fcell c Fam.zs 11) 0 ∅ 0
    ∗ atPos ER (fcell c Fam.qs 11) 0 ∅ 0
    ∗ cellInv ER (sched m) (K (c, some (Fam.qr, 11))) (fcell c Fam.qr 11)
    ∗ atPos ER (fcell c Fam.qr 11) 0 ∅ 0
    ∗ cred (tallyAt (fcell c Fam.qr 11) () N)
    ∗ atPos ER (fcell c Fam.ys 12) 0 ∅ 0
    ∗ atPos ER (fcell c Fam.xs 12) 0 ∅ 0
    ∗ atPos ER (fcell c Fam.zs 12) 0 ∅ 0
    ∗ atPos ER (fcell c Fam.qs 12) 0 ∅ 0
    ∗ cellInv ER (sched m) (K (c, some (Fam.qr, 12))) (fcell c Fam.qr 12)
    ∗ atPos ER (fcell c Fam.qr 12) 0 ∅ 0
    ∗ cred (tallyAt (fcell c Fam.qr 12) () N)
    ∗ atPos ER (fcell c Fam.ys 13) 0 ∅ 0
    ∗ atPos ER (fcell c Fam.xs 13) 0 ∅ 0
    ∗ atPos ER (fcell c Fam.zs 13) 0 ∅ 0
    ∗ atPos ER (fcell c Fam.qs 13) 0 ∅ 0
    ∗ cellInv ER (sched m) (K (c, some (Fam.qr, 13))) (fcell c Fam.qr 13)
    ∗ atPos ER (fcell c Fam.qr 13) 0 ∅ 0
    ∗ cred (tallyAt (fcell c Fam.qr 13) () N)
    ∗ atPos ER (fcell c Fam.ys 14) 0 ∅ 0
    ∗ atPos ER (fcell c Fam.xs 14) 0 ∅ 0
    ∗ atPos ER (fcell c Fam.zs 14) 0 ∅ 0
    ∗ atPos ER (fcell c Fam.qs 14) 0 ∅ 0
    ∗ cellInv ER (sched m) (K (c, some (Fam.qr, 14))) (fcell c Fam.qr 14)
    ∗ atPos ER (fcell c Fam.qr 14) 0 ∅ 0
    ∗ cred (tallyAt (fcell c Fam.qr 14) () N)
    ∗ atPos ER (fcell c Fam.ys 15) 0 ∅ 0
    ∗ atPos ER (fcell c Fam.xs 15) 0 ∅ 0
    ∗ atPos ER (fcell c Fam.zs 15) 0 ∅ 0
    ∗ atPos ER (fcell c Fam.qs 15) 0 ∅ 0
    ∗ cellInv ER (sched m) (K (c, some (Fam.qr, 15))) (fcell c Fam.qr 15)
    ∗ atPos ER (fcell c Fam.qr 15) 0 ∅ 0
    ∗ cred (tallyAt (fcell c Fam.qr 15) () N)
    ∗ (aM.view.loc (c : Thread nD τ) ↦[aRest c]{fullShare} m ((c : Thread nD τ).loc main_arg0)))

end Cert.KernelIdeal.A2A

end
-- ==== Proof.Windows.lean ====
import proofs.«900640_g7700000000000641_dist_a2a_v7x_xyz2x2x4_y_m4096_n1024_f32_1_alg».proof.Proof.Gen.KernelIdeal
import proofs.«900640_g7700000000000641_dist_a2a_v7x_xyz2x2x4_y_m4096_n1024_f32_1_alg».proof.Proof.Mesh
import Idealize.ShloMosaic.Lib.Tactic

/-!
# The windows the all-to-all keeps in flight together share no element

Every transfer of the kernel reads or writes a unit-stride window of the input array (4096 × 2048) or of the
result array (8192 × 1024). Two windows of one array whose rectangles are separated on one axis are disjoint;
the kernel's windows are separated either by their column half (the two reads of the input), by the half of the
result's rows (the device's own half against the three received quarters and the quarter its partners write), by
the quarter (the four quarters are numbered by the two bits `x` and `z mod 2`, each family flipping a different
subset of them), or, within one quarter, by the 64-row chunk.
-/

noncomputable section

namespace Cert.KernelIdeal.A2A

open Cert.KernelIdeal Cert.KernelIdeal.Gen
open Idealize.ShloMosaic Idealize.ShloMosaic.Tactic

/-! ## Two windows separated on an axis -/

/-- Two unit-stride windows of one memref whose rectangles are separated on some axis share no element. -/
theorem slice_unit_disjoint {κ : Kind} {sp : Space} {s : Shape} {e : EltTy} (m : Memref sig κ sp s e)
    {off size off' size' : Fin s.rank → Nat} {inb : ∀ a, off a + size a ≤ s.size a}
    {inb' : ∀ a, off' a + size' a ≤ s.size a}
    (hr : ∀ a, (Rect.unit off size inb).stride a = 1) (hr' : ∀ a, (Rect.unit off' size' inb').stride a = 1)
    (a : Fin s.rank) (h : off a + size a ≤ off' a ∨ off' a + size' a ≤ off a) :
    Disjoint (m.slice (Rect.unit off size inb) hr).view.set (m.slice (Rect.unit off' size' inb') hr').view.set := by
  show Disjoint (m.view.slice (Rect.unit off size inb)).set (m.view.slice (Rect.unit off' size' inb')).set
  refine Finset.disjoint_left.mpr fun (i : m.view.ty.Idx) hi hi' => ?_
  rw [View.set_slice] at hi hi'
  obtain ⟨x, hx, rfl⟩ := Finset.mem_map.mp hi
  obtain ⟨x', hx', hxx⟩ := Finset.mem_map.mp hi'
  obtain rfl : x' = x := m.view.emb.injective hxx
  exact Finset.disjoint_left.mp (Rect.unit_disjoint (inb := inb) (inb' := inb') a h) hx hx'

/-- The same at rank two, each window's offsets read through their closed form: the form a window at a literal
    chunk takes, its closed form found by instance. -/
theorem slice_closed_disjoint {κ : Kind} {sp : Space} {d : Fin 2 → Nat} {e : EltTy} (m : Memref sig κ sp ⟨2, d⟩ e)
    {off size off' size' : Fin 2 → Nat} {inb : ∀ a, off a + size a ≤ (⟨2, d⟩ : Shape).size a}
    {inb' : ∀ a, off' a + size' a ≤ (⟨2, d⟩ : Shape).size a}
    (hr : ∀ a, (Rect.unit (s := ⟨2, d⟩) off size inb).stride a = 1)
    (hr' : ∀ a, (Rect.unit (s := ⟨2, d⟩) off' size' inb').stride a = 1)
    [C : ClosedOff off] [C' : ClosedOff off'] (a : Fin 2)
    (h : C.form a + size a ≤ C'.form a ∨ C'.form a + size' a ≤ C.form a) :
    Disjoint (m.slice (Rect.unit off size inb) hr).view.set (m.slice (Rect.unit off' size' inb') hr').view.set := by
  refine slice_unit_disjoint m hr hr' a ?_
  rw [C.eq, C'.eq]; exact h

/-! ## The mesh coordinates of a device and of its partners

A device id is `8·x + 4·y + z`; the windows' closed forms speak of `x = id / 8`, `y = id / 4 % 2` and
`z mod 2 = id % 4 % 2`. Each partner flips exactly one of the three. -/

theorem dev_lt (c : Dev nD) : c.val < 16 := c.isLt

theorem yP_x (c : Dev nD) : (yP c).val / 8 = c.val / 8 := by revert c; decide
theorem yP_y (c : Dev nD) : (yP c).val / 4 % 2 = 1 - c.val / 4 % 2 := by revert c; decide
theorem yP_zp (c : Dev nD) : (yP c).val % 4 % 2 = c.val % 4 % 2 := by revert c; decide
theorem xP_x (c : Dev nD) : (xP c).val / 8 = 1 - c.val / 8 := by revert c; decide
theorem xP_y (c : Dev nD) : (xP c).val / 4 % 2 = c.val / 4 % 2 := by revert c; decide
theorem xP_zp (c : Dev nD) : (xP c).val % 4 % 2 = c.val % 4 % 2 := by revert c; decide
theorem zP_x (c : Dev nD) : (zP c).val / 8 = c.val / 8 := by revert c; decide
theorem zP_y (c : Dev nD) : (zP c).val / 4 % 2 = c.val / 4 % 2 := by revert c; decide
theorem zP_zp (c : Dev nD) : (zP c).val % 4 % 2 = 1 - c.val % 4 % 2 := by revert c; decide

/-! ## Deciding a separation

`a2a_disj c` closes `Disjoint W.view.set W'.view.set` for two of the kernel's windows of one array at literal
chunks, on device `c` or written by a partner of `c`: the rows first, then the columns; the offsets through their
closed forms, the partners' coordinates through `c`'s, the rest linear arithmetic over `x`, `y`, `z mod 2`. -/

/-- The arithmetic of a separation whose offsets are in closed form. -/
macro "a2a_sep " c:term : tactic => `(tactic| (
  have hc := dev_lt $c
  have hx : ($c).val / 8 = 0 ∨ ($c).val / 8 = 1 := by omega
  have hy : ($c).val / 4 % 2 = 0 ∨ ($c).val / 4 % 2 = 1 := by omega
  have hz : ($c).val % 4 % 2 = 0 ∨ ($c).val % 4 % 2 = 1 := by omega
  simp only [ClosedOff.form, k0_off1_eq, k0_off2_eq, k0_off3_eq, k0_off4_eq, k0_off5_eq, k0_off6_eq,
    Matrix.cons_val_zero, Matrix.cons_val_one, Matrix.head_cons,
    yP_x, yP_y, yP_zp, xP_x, xP_y, xP_zp, zP_x, zP_y, zP_zp]
  omega))

/-- Two windows of one array at literal chunks are disjoint. -/
macro "a2a_disj " c:term : tactic => `(tactic| first
  | (apply slice_closed_disjoint (a := 0); a2a_sep $c)
  | (apply slice_closed_disjoint (a := 1); a2a_sep $c))

/-- Two windows at symbolic chunks, separated on the given axis. -/
local macro "sep_on " ax:term " at " c:term : tactic => `(tactic| (
  refine slice_unit_disjoint _ _ _ ($ax : Fin 2) ?_
  a2a_sep $c))

/-! ## The windows by name -/

/-- The word the kernel passes for the `r`-th chunk of 64 rows. -/
abbrev ch (r : Fin 16) : BitVec 32 := BitVec.ofNat 32 (64 * r.val)

/-- The window of the input the `r`-th load reads: 64 rows of the device's quarter, the other column half. -/
abbrev W1 (m : Memref sig .tc .hbm S4096x2048 .f32) (c : Dev nD) (r : Fin 16) : Memref sig .tc .hbm S64x1024 .f32 :=
  m.slice (Rect.unit (s := S4096x2048) (k0_off1 c (ch r)) S64x1024.size (k0_off1_inb c r)) (fun _ => rfl)
/-- The window of the input the one whole-height load reads: the device's own column half. -/
abbrev W2 (m : Memref sig .tc .hbm S4096x2048 .f32) (c : Dev nD) : Memref sig .tc .hbm S4096x1024 .f32 :=
  m.slice (Rect.unit (s := S4096x2048) (k0_off2 c) S4096x1024.size (k0_off2_inb c)) (fun _ => rfl)
/-- The half of the result the device writes from its own input. -/
abbrev O3 (m : Memref sig .tc .hbm S8192x1024 .f32) (c : Dev nD) : Memref sig .tc .hbm S4096x1024 .f32 :=
  m.slice (Rect.unit (s := S8192x1024) (k0_off3 c) S4096x1024.size (k0_off3_inb c)) (fun _ => rfl)
/-- The `r`-th chunk of the quarter received across `y`, -/
abbrev O4 (m : Memref sig .tc .hbm S8192x1024 .f32) (c : Dev nD) (r : Fin 16) : Memref sig .tc .hbm S64x1024 .f32 :=
  m.slice (Rect.unit (s := S8192x1024) (k0_off4 c (ch r)) S64x1024.size (k0_off4_inb c r)) (fun _ => rfl)
/-- of the quarter received across `x` (on a `z`-partner's device: the chunk it writes into the fourth quarter), -/
abbrev O5 (m : Memref sig .tc .hbm S8192x1024 .f32) (c : Dev nD) (r : Fin 16) : Memref sig .tc .hbm S64x1024 .f32 :=
  m.slice (Rect.unit (s := S8192x1024) (k0_off5 c (ch r)) S64x1024.size (k0_off5_inb c r)) (fun _ => rfl)
/-- and of the quarter received within the `z` pair (on an `x`-partner's device: the chunk it writes into the fourth quarter). -/
abbrev O6 (m : Memref sig .tc .hbm S8192x1024 .f32) (c : Dev nD) (r : Fin 16) : Memref sig .tc .hbm S64x1024 .f32 :=
  m.slice (Rect.unit (s := S8192x1024) (k0_off6 c (ch r)) S64x1024.size (k0_off6_inb c r)) (fun _ => rfl)

/-! ## The input's windows -/

/-- Two different chunks of the quarter a device loads. -/
theorem arg_off1_off1 (m : Memref sig .tc .hbm S4096x2048 .f32) (c : Dev nD) {r r' : Fin 16} (hne : r ≠ r') :
    Disjoint (α := Finset m.view.ty.Idx) (W1 m c r).view.set (W1 m c r').view.set := by
  have hv : r.val ≠ r'.val := fun e => hne (Fin.ext e)
  sep_on 0 at c

/-- The own column half against a chunk of the other half. -/
theorem arg_off2_off1 (m : Memref sig .tc .hbm S4096x2048 .f32) (c : Dev nD) (r : Fin 16) :
    Disjoint (α := Finset m.view.ty.Idx) (W2 m c).view.set (W1 m c r).view.set := by
  sep_on 1 at c

/-! ## The result's windows on one device -/

/-- The device's own half of the rows against a chunk of the other half: the quarter from across `y`, -/
theorem out_off3_off4 (m : Memref sig .tc .hbm S8192x1024 .f32) (c : Dev nD) (r : Fin 16) :
    Disjoint (α := Finset m.view.ty.Idx) (O3 m c).view.set (O4 m c r).view.set := by
  sep_on 0 at c

/-- from across `x`, -/
theorem out_off3_off5 (m : Memref sig .tc .hbm S8192x1024 .f32) (c : Dev nD) (r : Fin 16) :
    Disjoint (α := Finset m.view.ty.Idx) (O3 m c).view.set (O5 m c r).view.set := by
  sep_on 0 at c

/-- from the `z` pair. -/
theorem out_off3_off6 (m : Memref sig .tc .hbm S8192x1024 .f32) (c : Dev nD) (r : Fin 16) :
    Disjoint (α := Finset m.view.ty.Idx) (O3 m c).view.set (O6 m c r).view.set := by
  sep_on 0 at c

/-- Two different chunks of one quarter: -/
theorem out_off4_off4 (m : Memref sig .tc .hbm S8192x1024 .f32) (c : Dev nD) {r r' : Fin 16} (hne : r ≠ r') :
    Disjoint (α := Finset m.view.ty.Idx) (O4 m c r).view.set (O4 m c r').view.set := by
  have hv : r.val ≠ r'.val := fun e => hne (Fin.ext e)
  sep_on 0 at c

/-- likewise, -/
theorem out_off5_off5 (m : Memref sig .tc .hbm S8192x1024 .f32) (c : Dev nD) {r r' : Fin 16} (hne : r ≠ r') :
    Disjoint (α := Finset m.view.ty.Idx) (O5 m c r).view.set (O5 m c r').view.set := by
  have hv : r.val ≠ r'.val := fun e => hne (Fin.ext e)
  sep_on 0 at c

/-- likewise. -/
theorem out_off6_off6 (m : Memref sig .tc .hbm S8192x1024 .f32) (c : Dev nD) {r r' : Fin 16} (hne : r ≠ r') :
    Disjoint (α := Finset m.view.ty.Idx) (O6 m c r).view.set (O6 m c r').view.set := by
  have hv : r.val ≠ r'.val := fun e => hne (Fin.ext e)
  sep_on 0 at c

/-- Chunks of two different quarters, whatever the chunks: quarters `(x, z)` and `(1 - x, z)`, -/
theorem out_off4_off5 (m : Memref sig .tc .hbm S8192x1024 .f32) (c : Dev nD) (r r' : Fin 16) :
    Disjoint (α := Finset m.view.ty.Idx) (O4 m c r).view.set (O5 m c r').view.set := by
  sep_on 0 at c

/-- `(x, z)` and `(x, 1 - z)`, -/
theorem out_off4_off6 (m : Memref sig .tc .hbm S8192x1024 .f32) (c : Dev nD) (r r' : Fin 16) :
    Disjoint (α := Finset m.view.ty.Idx) (O4 m c r).view.set (O6 m c r').view.set := by
  sep_on 0 at c

/-- `(1 - x, z)` and `(x, 1 - z)`. -/
theorem out_off5_off6 (m : Memref sig .tc .hbm S8192x1024 .f32) (c : Dev nD) (r r' : Fin 16) :
    Disjoint (α := Finset m.view.ty.Idx) (O5 m c r).view.set (O6 m c r').view.set := by
  sep_on 0 at c

/-! ## The fourth quarter, written by the partners

Device `c`'s fourth quarter `(1 - x, 1 - z)` is written chunk by chunk by its `z`-partner (which computes the
rows as its own quarter from across `x`) and by its `x`-partner (as its own quarter from the `z` pair). -/

/-- The own half against a chunk the `z`-partner writes, -/
theorem out_off3_zq (m : Memref sig .tc .hbm S8192x1024 .f32) (c : Dev nD) (r : Fin 16) :
    Disjoint (α := Finset m.view.ty.Idx) (O3 m c).view.set (O5 m (zP c) r).view.set := by
  sep_on 0 at c

/-- the three received quarters against it, -/
theorem out_off4_zq (m : Memref sig .tc .hbm S8192x1024 .f32) (c : Dev nD) (r r' : Fin 16) :
    Disjoint (α := Finset m.view.ty.Idx) (O4 m c r).view.set (O5 m (zP c) r').view.set := by
  sep_on 0 at c

/--  -/
theorem out_off5_zq (m : Memref sig .tc .hbm S8192x1024 .f32) (c : Dev nD) (r r' : Fin 16) :
    Disjoint (α := Finset m.view.ty.Idx) (O5 m c r).view.set (O5 m (zP c) r').view.set := by
  sep_on 0 at c

/--  -/
theorem out_off6_zq (m : Memref sig .tc .hbm S8192x1024 .f32) (c : Dev nD) (r r' : Fin 16) :
    Disjoint (α := Finset m.view.ty.Idx) (O6 m c r).view.set (O5 m (zP c) r').view.set := by
  sep_on 0 at c

/-- The own half against a chunk the `x`-partner writes, -/
theorem out_off3_xq (m : Memref sig .tc .hbm S8192x1024 .f32) (c : Dev nD) (r : Fin 16) :
    Disjoint (α := Finset m.view.ty.Idx) (O3 m c).view.set (O6 m (xP c) r).view.set := by
  sep_on 0 at c

/-- the three received quarters against it. -/
theorem out_off4_xq (m : Memref sig .tc .hbm S8192x1024 .f32) (c : Dev nD) (r r' : Fin 16) :
    Disjoint (α := Finset m.view.ty.Idx) (O4 m c r).view.set (O6 m (xP c) r').view.set := by
  sep_on 0 at c

/--  -/
theorem out_off5_xq (m : Memref sig .tc .hbm S8192x1024 .f32) (c : Dev nD) (r r' : Fin 16) :
    Disjoint (α := Finset m.view.ty.Idx) (O5 m c r).view.set (O6 m (xP c) r').view.set := by
  sep_on 0 at c

/--  -/
theorem out_off6_xq (m : Memref sig .tc .hbm S8192x1024 .f32) (c : Dev nD) (r r' : Fin 16) :
    Disjoint (α := Finset m.view.ty.Idx) (O6 m c r).view.set (O6 m (xP c) r').view.set := by
  sep_on 0 at c

/-- Two different chunks of the fourth quarter, whichever partner writes each. -/
theorem out_zq_zq (m : Memref sig .tc .hbm S8192x1024 .f32) (c : Dev nD) {r r' : Fin 16} (hne : r ≠ r') :
    Disjoint (α := Finset m.view.ty.Idx) (O5 m (zP c) r).view.set (O5 m (zP c) r').view.set := by
  have hv : r.val ≠ r'.val := fun e => hne (Fin.ext e)
  sep_on 0 at c

/--  -/
theorem out_xq_xq (m : Memref sig .tc .hbm S8192x1024 .f32) (c : Dev nD) {r r' : Fin 16} (hne : r ≠ r') :
    Disjoint (α := Finset m.view.ty.Idx) (O6 m (xP c) r).view.set (O6 m (xP c) r').view.set := by
  have hv : r.val ≠ r'.val := fun e => hne (Fin.ext e)
  sep_on 0 at c

/--  -/
theorem out_zq_xq (m : Memref sig .tc .hbm S8192x1024 .f32) (c : Dev nD) {r r' : Fin 16} (hne : r ≠ r') :
    Disjoint (α := Finset m.view.ty.Idx) (O5 m (zP c) r).view.set (O6 m (xP c) r').view.set := by
  have hv : r.val ≠ r'.val := fun e => hne (Fin.ext e)
  sep_on 0 at c

/-! ## At literal chunks -/

example (c : Dev nD) (h1 h2 hr1 hr2) :
    Disjoint ((Memref.whole main_arg0).slice (Rect.unit (s := S4096x2048) (k0_off2 c) S4096x1024.size h1) hr1).view.set
      ((Memref.whole main_arg0).slice (Rect.unit (s := S4096x2048) (k0_off1 c 64#32) S64x1024.size h2) hr2).view.set := by
  a2a_disj c

example (c : Dev nD) (h1 h2 hr1 hr2) :
    Disjoint ((Memref.whole main_v1).slice (Rect.unit (s := S8192x1024) (k0_off5 (zP c) 192#32) S64x1024.size h1) hr1).view.set
      ((Memref.whole main_v1).slice (Rect.unit (s := S8192x1024) (k0_off6 c 64#32) S64x1024.size h2) hr2).view.set := by
  a2a_disj c

example (c : Dev nD) (h1 h2 hr1 hr2) :
    Disjoint ((Memref.whole main_v1).slice (Rect.unit (s := S8192x1024) (k0_off5 (zP c) 192#32) S64x1024.size h1) hr1).view.set
      ((Memref.whole main_v1).slice (Rect.unit (s := S8192x1024) (k0_off6 (xP c) 128#32) S64x1024.size h2) hr2).view.set := by
  a2a_disj c

example (c : Dev nD) (h2 hr2) :
    Disjoint (O3 (Memref.whole main_v1) c).view.set
      ((Memref.whole main_v1).slice (Rect.unit (s := S8192x1024) (k0_off4 c 64#32) S64x1024.size h2) hr2).view.set :=
  out_off3_off4 _ c 1

end Cert.KernelIdeal.A2A

end
-- ==== Proof.Pieces.lean ====
import proofs.«900640_g7700000000000641_dist_a2a_v7x_xyz2x2x4_y_m4096_n1024_f32_1_alg».proof.Proof.BodyCtx
import proofs.«900640_g7700000000000641_dist_a2a_v7x_xyz2x2x4_y_m4096_n1024_f32_1_alg».proof.Proof.Tables
import proofs.«900640_g7700000000000641_dist_a2a_v7x_xyz2x2x4_y_m4096_n1024_f32_1_alg».proof.Proof.Levels
import proofs.«900640_g7700000000000641_dist_a2a_v7x_xyz2x2x4_y_m4096_n1024_f32_1_alg».proof.Proof.Glob
import proofs.«900640_g7700000000000641_dist_a2a_v7x_xyz2x2x4_y_m4096_n1024_f32_1_alg».proof.Proof.Windows

/-!
# The pieces a device's holdings come in

Tools for right-nested separating conjunctions built a segment at a time, and the facts, independent of any order,
that cut a device's holdings into the pieces its body names: the local semaphores into the ones the body uses (by
where the program uses them) and the idle ones; the input into the sixteen chunk windows, the own half's window and
the rest; each scratch buffer into its sixteen chunks, which are the rectangles of rows `i` along its first axis,
pairwise disjoint and covering it; the fourth quarter's rows by the parity of the chunk.
-/

set_option maxRecDepth 65536

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## Right-nested conjunctions, built a segment at a time -/

/-- `Φ a₁ (Φ a₂ (… (Φ aₙ R)))`. -/
@[reducible] def chain {I : Type} (l : List I) (Φ : I → sProp 𝕄 → sProp 𝕄) (R : sProp 𝕄) : sProp 𝕄 := l.foldr Φ R

theorem drop_left {P R R' : sProp 𝕄} (h : R ⊢ R') : iprop(P ∗ R) ⊢ R' := by
  iintro ⟨-, H⟩; iapply h; iexact H

theorem assoc_step {A B X Y : sProp 𝕄} (h : iprop(B ∗ X) ⊢ Y) : iprop((A ∗ B) ∗ X) ⊢ iprop(A ∗ Y) := by
  iintro ⟨⟨HA, HB⟩, HX⟩
  isplitl [HA]; · iexact HA
  iapply h; isplitl [HB]; · iexact HB
  iexact HX

/-- A segment whose members each use up their own resource `Q a`. -/
theorem chain_lin {I : Type} [DecidableEq I] {S : Finset I} (l : List I) (hS : S = l.toFinset) (hl : l.Nodup) (Q : I → sProp 𝕄)
    (Φ : I → sProp 𝕄 → sProp 𝕄) (hΦ : ∀ a (X Y : sProp 𝕄), (X ⊢ Y) → iprop(Q a ∗ X) ⊢ Φ a Y) {R R' : sProp 𝕄} (hR : R ⊢ R') :
    iprop(bigSep S Q ∗ R) ⊢ chain l Φ R' := by
  subst hS
  induction l with
  | nil =>
    show iprop(bigSep ([] : List I).toFinset Q ∗ R) ⊢ R'
    rw [List.toFinset_nil, bigSep_empty]
    exact drop_left hR
  | cons a l ih =>
    have hn := List.nodup_cons.mp hl
    have e : bigSep (a :: l).toFinset Q = iprop(Q a ∗ bigSep l.toFinset Q) := by
      rw [List.toFinset_cons]; exact bigSep_insert (by rw [List.mem_toFinset]; exact hn.1)
    rw [e]
    show iprop((Q a ∗ bigSep l.toFinset Q) ∗ R) ⊢ Φ a (chain l Φ R')
    iintro ⟨⟨Ha, Hl⟩, HR⟩
    iapply (hΦ a _ _ (ih hn.2))
    isplitl [Ha]; · iexact Ha
    isplitl [Hl]; · iexact Hl
    iexact HR

/-- A segment read off a persistent assertion, which stays for what follows. -/
theorem chain_pers {I : Type} (l : List I) (P : sProp 𝕄) (Φ : I → sProp 𝕄 → sProp 𝕄)
    (hΦ : ∀ a (X Y : sProp 𝕄), (iprop(P ∗ X) ⊢ Y) → iprop(P ∗ X) ⊢ Φ a Y) {R R' : sProp 𝕄} (hR : iprop(P ∗ R) ⊢ R') :
    iprop(P ∗ R) ⊢ chain l Φ R' := by
  induction l with
  | nil => exact hR
  | cons a l ih => exact hΦ a _ _ ih

theorem step_pers {P A X Y : sProp 𝕄} [BI.Persistent P] (hA : P ⊢ A) (h : iprop(P ∗ X) ⊢ Y) : iprop(P ∗ X) ⊢ iprop(A ∗ Y) := by
  iintro ⟨#HP, HX⟩
  isplitr
  · iapply hA; iexact HP
  · iapply h; isplitr; · iexact HP
    iexact HX

theorem pre4 {A B C D X Y : sProp 𝕄} (h : X ⊢ Y) : iprop((A ∗ B ∗ C ∗ D) ∗ X) ⊢ iprop(A ∗ B ∗ C ∗ D ∗ Y) := by
  iintro ⟨⟨HA, HB, HC, HD⟩, HX⟩
  isplitl [HA]; · iexact HA
  isplitl [HB]; · iexact HB
  isplitl [HC]; · iexact HC
  isplitl [HD]; · iexact HD
  iapply h; iexact HX

theorem pre8 {A B C D A' B' C' D' X Y : sProp 𝕄} (h : X ⊢ Y) :
    iprop((A ∗ B ∗ C ∗ D ∗ A' ∗ B' ∗ C' ∗ D') ∗ X) ⊢ iprop(A ∗ B ∗ C ∗ D ∗ A' ∗ B' ∗ C' ∗ D' ∗ Y) := by
  iintro ⟨⟨HA, HB, HC, HD, HA', HB', HC', HD'⟩, HX⟩
  isplitl [HA]; · iexact HA
  isplitl [HB]; · iexact HB
  isplitl [HC]; · iexact HC
  isplitl [HD]; · iexact HD
  isplitl [HA']; · iexact HA'
  isplitl [HB']; · iexact HB'
  isplitl [HC']; · iexact HC'
  isplitl [HD']; · iexact HD'
  iapply h; iexact HX

theorem univ16 : (Finset.univ : Finset (Fin 16)) = ([0, 1, 2, 3, 4, 5, 6, 7, 8, 9, 10, 11, 12, 13, 14, 15] : List (Fin 16)).toFinset := by decide
theorem univ8 : (Finset.univ : Finset Fam) = ([0, 1, 2, 3, 4, 5, 6, 7] : List Fam).toFinset := by decide
theorem nodup16 : ([0, 1, 2, 3, 4, 5, 6, 7, 8, 9, 10, 11, 12, 13, 14, 15] : List (Fin 16)).Nodup := by decide
theorem nodup8 : ([0, 1, 2, 3, 4, 5, 6, 7] : List Fam).Nodup := by decide

/-- A segment whose members each take their own resource `Q a` and also read the persistent `P`. -/
theorem chain_mix {I : Type} [DecidableEq I] {S : Finset I} (l : List I) (hS : S = l.toFinset) (hl : l.Nodup) (P : sProp 𝕄) (Q : I → sProp 𝕄)
    (Φ : I → sProp 𝕄 → sProp 𝕄) (hΦ : ∀ a (X Y : sProp 𝕄), (iprop(P ∗ X) ⊢ Y) → iprop(P ∗ Q a ∗ X) ⊢ Φ a Y) {R R' : sProp 𝕄}
    (hR : iprop(P ∗ R) ⊢ R') : iprop(P ∗ bigSep S Q ∗ R) ⊢ chain l Φ R' := by
  subst hS
  induction l with
  | nil =>
    show iprop(P ∗ bigSep ([] : List I).toFinset Q ∗ R) ⊢ R'
    rw [List.toFinset_nil, bigSep_empty]
    iintro ⟨HP, -, HR⟩; iapply hR; isplitl [HP]; · iexact HP
    iexact HR
  | cons a l ih =>
    have hn := List.nodup_cons.mp hl
    have e : bigSep (a :: l).toFinset Q = iprop(Q a ∗ bigSep l.toFinset Q) := by
      rw [List.toFinset_cons]; exact bigSep_insert (by rw [List.mem_toFinset]; exact hn.1)
    rw [e]
    show iprop(P ∗ (Q a ∗ bigSep l.toFinset Q) ∗ R) ⊢ Φ a (chain l Φ R')
    iintro ⟨HP, ⟨Ha, Hl⟩, HR⟩
    iapply (hΦ a _ _ (ih hn.2))
    isplitl [HP]; · iexact HP
    isplitl [Ha]; · iexact Ha
    isplitl [Hl]; · iexact Hl
    iexact HR

/-- A leaf read off the persistent `P`, in front of what follows. -/
theorem lin_under {P A X Y : sProp 𝕄} (h : iprop(P ∗ X) ⊢ Y) : iprop(P ∗ A ∗ X) ⊢ iprop(A ∗ Y) := by
  iintro ⟨HP, HA, HX⟩
  isplitl [HA]; · iexact HA
  iapply h; isplitl [HP]; · iexact HP
  iexact HX

/-! ## The local semaphores the body uses, and the rest -/

/-- The DMA semaphores of the local copies: the sixty-four of the chunk loads and stores, and the own half's two. -/
def usedL : List (DmaSem sig) := ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 224, 225] : List (Fin 226))

theorem usedL_nodup : usedL.Nodup := by decide

theorem usedL_sub : usedL.toFinset ⊆ (Finset.univ.filter fun k : DmaSem sig => (famOf k).isSome = false) := by decide

/-- The DMA semaphores no copy of the kernel completes on, at zero: handed through the body untouched. -/
def idle (c : Dev nD) : sProp 𝕄 :=
  bigSep ((Finset.univ.filter fun k : DmaSem sig => (famOf k).isSome = false) \ usedL.toFinset) fun k => semVal ((c : Thread nD τ), .dma k) 0

/-- The local semaphores are the ones the body uses and the idle ones (an equation: it reads both ways). -/
theorem localSems_split (c : Dev nD) :
    localSems (F := F) c = iprop((bigSep usedL.toFinset fun k => semVal ((c : Thread nD τ), .dma k) 0) ∗ idle c) := by
  unfold localSems idle
  exact bigSep_sdiff_split usedL_sub

/-! ## The pieces, cell by cell -/

theorem positions_eq (c : Dev nD) :
    positions (F := F) c = iprop(atPos ER (barCell c) 0 ∅ 0 ∗ bigSep Finset.univ fun f : Fam => bigSep Finset.univ fun i : Fin 16 => atPos ER (fcell c f i) 0 ∅ 0) := by
  unfold positions; rw [bigSep_CK, bigSep_univ_prod]

theorem inv_of (K : Dev nD × CK → ℕ) (ck : Dev nD × CK) : records m K ⊢ cellInv ER (sched m) (K ck) (kcell ck) := by
  unfold records; iintro ⟨H, -⟩; iapply (inv_at m K ck); iexact H

theorem rch_of (K : Dev nD × CK → ℕ) (ck : Dev nD × CK) : records m K ⊢ reached ER (kcell ck) 0 := by
  unfold records; iintro ⟨-, H⟩; iapply (reached_at (F := F) ck); iexact H

/-- The result in its 65 pieces, all at one contents. -/
abbrev resPieces (c : Dev nD) (fo : S8192x1024.Idx → Elt F .f32) : sProp 𝕄 :=
  iprop(((oOwn c).view.loc (c : Thread nD τ) ↦[(oOwn c).view.set]{fullShare} fo)
    ∗ bigSep Finset.univ fun i : Fin 16 => iprop(((oRowY c i).view.loc (c : Thread nD τ) ↦[(oRowY c i).view.set]{fullShare} fo) ∗ ((oRowX c i).view.loc (c : Thread nD τ) ↦[(oRowX c i).view.set]{fullShare} fo)
        ∗ ((oRowZ c i).view.loc (c : Thread nD τ) ↦[(oRowZ c i).view.set]{fullShare} fo) ∗ ((oRowQ c i).view.loc (c : Thread nD τ) ↦[(oRowQ c i).view.set]{fullShare} fo)))

/-! ## The used semaphores, where the program uses them -/

/-- Semaphore `b + i`: the four runs of sixteen (chunk loads, and the stores of the three received quarters). -/
def semAt (b : ℕ) (hb : b + 16 ≤ 226) (i : Fin 16) : DmaSem sig := (⟨b + i.val, by have := i.isLt; omega⟩ : Fin 226)

def semEmb (b : ℕ) (hb : b + 16 ≤ 226) : Fin 16 ↪ DmaSem sig :=
  ⟨semAt b hb, fun i j h => Fin.ext (by have h' : b + i.val = b + j.val := congrArg Fin.val h; omega)⟩

theorem used_eq : usedL.toFinset = (Finset.univ.map (semEmb 0 (by decide))) ∪ ((Finset.univ.map (semEmb 16 (by decide)))
    ∪ ((Finset.univ.map (semEmb 32 (by decide))) ∪ ((Finset.univ.map (semEmb 48 (by decide)))
    ∪ (({(⟨224, by decide⟩ : Fin 226)} : Finset (DmaSem sig)) ∪ {(⟨225, by decide⟩ : Fin 226)})))) := by decide

theorem used_split (Φ : DmaSem sig → sProp 𝕄) :
    bigSep usedL.toFinset Φ = iprop((bigSep Finset.univ fun i : Fin 16 => Φ (semAt 0 (by decide) i))
      ∗ (bigSep Finset.univ fun i : Fin 16 => Φ (semAt 16 (by decide) i))
      ∗ (bigSep Finset.univ fun i : Fin 16 => Φ (semAt 32 (by decide) i))
      ∗ (bigSep Finset.univ fun i : Fin 16 => Φ (semAt 48 (by decide) i))
      ∗ Φ (⟨224, by decide⟩ : Fin 226) ∗ Φ (⟨225, by decide⟩ : Fin 226)) := by
  rw [used_eq, bigSep_union (by decide), bigSep_union (by decide), bigSep_union (by decide), bigSep_union (by decide), bigSep_union (by decide),
    bigSep_map, bigSep_map, bigSep_map, bigSep_map, bigSep_singleton, bigSep_singleton]
  rfl

/-- The chunks whose fourth-quarter rows the `x` partner writes, and those the `z` partner writes. -/
def evens : List (Fin 16) := [0, 2, 4, 6, 8, 10, 12, 14]
def odds : List (Fin 16) := [1, 3, 5, 7, 9, 11, 13, 15]
theorem evens_nodup : evens.Nodup := by decide
theorem odds_nodup : odds.Nodup := by decide

theorem parity_split (Φ : Fin 16 → sProp 𝕄) : bigSep Finset.univ Φ = iprop(bigSep evens.toFinset Φ ∗ bigSep odds.toFinset Φ) := by
  rw [show (Finset.univ : Finset (Fin 16)) = evens.toFinset ∪ odds.toFinset from by decide]
  exact bigSep_union (by decide)

/-! ## A scratch buffer is its sixteen chunks -/

theorem slab_set_s (i : Fin 16) :
    (slab sM i).view.set = (Rect.unit (s := S16x64x1024) ![i.val, 0, 0] S1x64x1024.size (slab_inb i)).set := by
  show (((View.whole cc0_scratch0).slice _).reshape _ _).set = _
  rw [View.set_reshape, View.set_slice_whole]

theorem slab_mem_s (i : Fin 16) (j : S16x64x1024.Idx) : j ∈ (slab sM i).view.set ↔ (j 0).val = i.val := by
  rw [slab_set_s, Rect.mem_set_unit]
  constructor
  · intro h
    have h0 : i.val ≤ (j 0).val ∧ (j 0).val < i.val + 1 := h 0
    omega
  · intro h a
    fin_cases a
    · show i.val ≤ (j 0).val ∧ (j 0).val < i.val + 1
      omega
    · have h1 : (j 1).val < 64 := (j 1).isLt
      show 0 ≤ (j 1).val ∧ (j 1).val < 0 + 64
      omega
    · have h2 : (j 2).val < 1024 := (j 2).isLt
      show 0 ≤ (j 2).val ∧ (j 2).val < 0 + 1024
      omega

/-- Whole at `f` is every chunk at `f`: the chunks' rows partition the first axis. -/
theorem scratch_split_s (c : Dev nD) (f : Buf (Elt F) ((c : Thread nD τ).loc cc0_scratch0)) :
    ((((c : Thread nD τ).loc cc0_scratch0) ↦{fullShare} f : sProp 𝕄))
      = bigSep Finset.univ fun i : Fin 16 => (((slab sM i).view.loc (c : Thread nD τ)) ↦[(slab sM i).view.set]{fullShare} f : sProp 𝕄) := by
  have hcov : (Finset.univ : Finset (Idx ((c : Thread nD τ).loc cc0_scratch0))) = Finset.univ.biUnion fun i : Fin 16 => (slab sM i).view.set := by
    ext j
    simp only [Finset.mem_univ, Finset.mem_biUnion, true_and, true_iff]
    exact ⟨⟨(j 0).val, (j 0).isLt⟩, (slab_mem_s _ j).mpr rfl⟩
  have hdis : ∀ i ∈ (Finset.univ : Finset (Fin 16)), ∀ i' ∈ (Finset.univ : Finset (Fin 16)), i ≠ i' →
      Disjoint (slab sM i).view.set (slab sM i').view.set := by
    intro i _ i' _ hne
    rw [Finset.disjoint_left]
    intro j hj hj'
    exact hne (Fin.ext (((slab_mem_s i j).mp hj).symm.trans ((slab_mem_s i' j).mp hj')))
  rw [hcov, pointsTo_biUnion Finset.univ _ hdis]

theorem slab_set_r (i : Fin 16) :
    (slab rM i).view.set = (Rect.unit (s := S16x64x1024) ![i.val, 0, 0] S1x64x1024.size (slab_inb i)).set := by
  show (((View.whole cc0_scratch1).slice _).reshape _ _).set = _
  rw [View.set_reshape, View.set_slice_whole]

theorem slab_mem_r (i : Fin 16) (j : S16x64x1024.Idx) : j ∈ (slab rM i).view.set ↔ (j 0).val = i.val := by
  rw [slab_set_r, Rect.mem_set_unit]
  constructor
  · intro h
    have h0 : i.val ≤ (j 0).val ∧ (j 0).val < i.val + 1 := h 0
    omega
  · intro h a
    fin_cases a
    · show i.val ≤ (j 0).val ∧ (j 0).val < i.val + 1
      omega
    · have h1 : (j 1).val < 64 := (j 1).isLt
      show 0 ≤ (j 1).val ∧ (j 1).val < 0 + 64
      omega
    · have h2 : (j 2).val < 1024 := (j 2).isLt
      show 0 ≤ (j 2).val ∧ (j 2).val < 0 + 1024
      omega

/-- Whole at `f` is every chunk at `f`: the chunks' rows partition the first axis. -/
theorem scratch_split_r (c : Dev nD) (f : Buf (Elt F) ((c : Thread nD τ).loc cc0_scratch1)) :
    ((((c : Thread nD τ).loc cc0_scratch1) ↦{fullShare} f : sProp 𝕄))
      = bigSep Finset.univ fun i : Fin 16 => (((slab rM i).view.loc (c : Thread nD τ)) ↦[(slab rM i).view.set]{fullShare} f : sProp 𝕄) := by
  have hcov : (Finset.univ : Finset (Idx ((c : Thread nD τ).loc cc0_scratch1))) = Finset.univ.biUnion fun i : Fin 16 => (slab rM i).view.set := by
    ext j
    simp only [Finset.mem_univ, Finset.mem_biUnion, true_and, true_iff]
    exact ⟨⟨(j 0).val, (j 0).isLt⟩, (slab_mem_r _ j).mpr rfl⟩
  have hdis : ∀ i ∈ (Finset.univ : Finset (Fin 16)), ∀ i' ∈ (Finset.univ : Finset (Fin 16)), i ≠ i' →
      Disjoint (slab rM i).view.set (slab rM i').view.set := by
    intro i _ i' _ hne
    rw [Finset.disjoint_left]
    intro j hj hj'
    exact hne (Fin.ext (((slab_mem_r i j).mp hj).symm.trans ((slab_mem_r i' j).mp hj')))
  rw [hcov, pointsTo_biUnion Finset.univ _ hdis]

theorem slab_set_x (i : Fin 16) :
    (slab xrM i).view.set = (Rect.unit (s := S16x64x1024) ![i.val, 0, 0] S1x64x1024.size (slab_inb i)).set := by
  show (((View.whole cc0_scratch2).slice _).reshape _ _).set = _
  rw [View.set_reshape, View.set_slice_whole]

theorem slab_mem_x (i : Fin 16) (j : S16x64x1024.Idx) : j ∈ (slab xrM i).view.set ↔ (j 0).val = i.val := by
  rw [slab_set_x, Rect.mem_set_unit]
  constructor
  · intro h
    have h0 : i.val ≤ (j 0).val ∧ (j 0).val < i.val + 1 := h 0
    omega
  · intro h a
    fin_cases a
    · show i.val ≤ (j 0).val ∧ (j 0).val < i.val + 1
      omega
    · have h1 : (j 1).val < 64 := (j 1).isLt
      show 0 ≤ (j 1).val ∧ (j 1).val < 0 + 64
      omega
    · have h2 : (j 2).val < 1024 := (j 2).isLt
      show 0 ≤ (j 2).val ∧ (j 2).val < 0 + 1024
      omega

/-- Whole at `f` is every chunk at `f`: the chunks' rows partition the first axis. -/
theorem scratch_split_x (c : Dev nD) (f : Buf (Elt F) ((c : Thread nD τ).loc cc0_scratch2)) :
    ((((c : Thread nD τ).loc cc0_scratch2) ↦{fullShare} f : sProp 𝕄))
      = bigSep Finset.univ fun i : Fin 16 => (((slab xrM i).view.loc (c : Thread nD τ)) ↦[(slab xrM i).view.set]{fullShare} f : sProp 𝕄) := by
  have hcov : (Finset.univ : Finset (Idx ((c : Thread nD τ).loc cc0_scratch2))) = Finset.univ.biUnion fun i : Fin 16 => (slab xrM i).view.set := by
    ext j
    simp only [Finset.mem_univ, Finset.mem_biUnion, true_and, true_iff]
    exact ⟨⟨(j 0).val, (j 0).isLt⟩, (slab_mem_x _ j).mpr rfl⟩
  have hdis : ∀ i ∈ (Finset.univ : Finset (Fin 16)), ∀ i' ∈ (Finset.univ : Finset (Fin 16)), i ≠ i' →
      Disjoint (slab xrM i).view.set (slab xrM i').view.set := by
    intro i _ i' _ hne
    rw [Finset.disjoint_left]
    intro j hj hj'
    exact hne (Fin.ext (((slab_mem_x i j).mp hj).symm.trans ((slab_mem_x i' j).mp hj')))
  rw [hcov, pointsTo_biUnion Finset.univ _ hdis]

theorem slab_set_z (i : Fin 16) :
    (slab zrM i).view.set = (Rect.unit (s := S16x64x1024) ![i.val, 0, 0] S1x64x1024.size (slab_inb i)).set := by
  show (((View.whole cc0_scratch3).slice _).reshape _ _).set = _
  rw [View.set_reshape, View.set_slice_whole]

theorem slab_mem_z (i : Fin 16) (j : S16x64x1024.Idx) : j ∈ (slab zrM i).view.set ↔ (j 0).val = i.val := by
  rw [slab_set_z, Rect.mem_set_unit]
  constructor
  · intro h
    have h0 : i.val ≤ (j 0).val ∧ (j 0).val < i.val + 1 := h 0
    omega
  · intro h a
    fin_cases a
    · show i.val ≤ (j 0).val ∧ (j 0).val < i.val + 1
      omega
    · have h1 : (j 1).val < 64 := (j 1).isLt
      show 0 ≤ (j 1).val ∧ (j 1).val < 0 + 64
      omega
    · have h2 : (j 2).val < 1024 := (j 2).isLt
      show 0 ≤ (j 2).val ∧ (j 2).val < 0 + 1024
      omega

/-- Whole at `f` is every chunk at `f`: the chunks' rows partition the first axis. -/
theorem scratch_split_z (c : Dev nD) (f : Buf (Elt F) ((c : Thread nD τ).loc cc0_scratch3)) :
    ((((c : Thread nD τ).loc cc0_scratch3) ↦{fullShare} f : sProp 𝕄))
      = bigSep Finset.univ fun i : Fin 16 => (((slab zrM i).view.loc (c : Thread nD τ)) ↦[(slab zrM i).view.set]{fullShare} f : sProp 𝕄) := by
  have hcov : (Finset.univ : Finset (Idx ((c : Thread nD τ).loc cc0_scratch3))) = Finset.univ.biUnion fun i : Fin 16 => (slab zrM i).view.set := by
    ext j
    simp only [Finset.mem_univ, Finset.mem_biUnion, true_and, true_iff]
    exact ⟨⟨(j 0).val, (j 0).isLt⟩, (slab_mem_z _ j).mpr rfl⟩
  have hdis : ∀ i ∈ (Finset.univ : Finset (Fin 16)), ∀ i' ∈ (Finset.univ : Finset (Fin 16)), i ≠ i' →
      Disjoint (slab zrM i).view.set (slab zrM i').view.set := by
    intro i _ i' _ hne
    rw [Finset.disjoint_left]
    intro j hj hj'
    exact hne (Fin.ext (((slab_mem_z i j).mp hj).symm.trans ((slab_mem_z i' j).mp hj')))
  rw [hcov, pointsTo_biUnion Finset.univ _ hdis]

/-! ## Whole views, and the input's pieces -/

theorem arg_eq (c : Dev nD) :
    (aM.view.loc (c : Thread nD τ) ↦[aM.view.set]{fullShare} m ((c : Thread nD τ).loc main_arg0) : sProp 𝕄) = argPts m c := by
  rw [show aM.view.set = Finset.univ from View.set_whole _]

theorem lbuf_eq (c : Dev nD) (fl : Buf (Elt F) ((c : Thread nD τ).loc cc0_scratch4)) :
    (lM.view.loc (c : Thread nD τ) ↦[lM.view.set]{fullShare} fl : sProp 𝕄) = (((c : Thread nD τ).loc cc0_scratch4) ↦{fullShare} fl) := by
  rw [show lM.view.set = Finset.univ from View.set_whole _]

/-- The input as the copies read it: the sixteen chunk windows, the own half's window, and the rest; pairwise disjoint
    rectangles of one array, all at its launch contents. -/
theorem arg_pieces_eq (c : Dev nD) :
    argPts m c = iprop((bigSep Finset.univ fun i : Fin 16 => ((aWin c i).view.loc (c : Thread nD τ) ↦[(aWin c i).view.set]{fullShare} m ((c : Thread nD τ).loc main_arg0)))
      ∗ ((aOwn c).view.loc (c : Thread nD τ) ↦[(aOwn c).view.set]{fullShare} m ((c : Thread nD τ).loc main_arg0))
      ∗ (aM.view.loc (c : Thread nD τ) ↦[aRest c]{fullShare} m ((c : Thread nD τ).loc main_arg0))) := by
  have hB : Disjoint ((aOwn c).view.set : Finset (aM : Memref sig .tc .hbm S4096x2048 .f32).view.ty.Idx)
      (Finset.univ.biUnion fun i : Fin 16 => ((aWin c i).view.set : Finset (aM : Memref sig .tc .hbm S4096x2048 .f32).view.ty.Idx)) :=
    (Finset.disjoint_biUnion_right _ _ _).mpr fun i _ => arg_off2_off1 aM c i
  have hW : ∀ i ∈ (Finset.univ : Finset (Fin 16)), ∀ i' ∈ (Finset.univ : Finset (Fin 16)), i ≠ i' →
      Disjoint ((aWin c i).view.set : Finset (aM : Memref sig .tc .hbm S4096x2048 .f32).view.ty.Idx) ((aWin c i').view.set : Finset (aM : Memref sig .tc .hbm S4096x2048 .f32).view.ty.Idx) :=
    fun i _ i' _ h => arg_off1_off1 aM c h
  have hsub : (((aOwn c).view.set : Finset (aM : Memref sig .tc .hbm S4096x2048 .f32).view.ty.Idx)
      ∪ Finset.univ.biUnion fun i : Fin 16 => ((aWin c i).view.set : Finset (aM : Memref sig .tc .hbm S4096x2048 .f32).view.ty.Idx)) ⊆ aM.view.set := by
    rw [show aM.view.set = Finset.univ from View.set_whole _]; exact Finset.subset_univ _
  rw [← arg_eq m c]
  refine BI.Entails.antisymm (show _ ⊢ (_ : sProp 𝕄) from ?_) (show _ ⊢ (_ : sProp 𝕄) from ?_)
  · iintro H
    ihave H1 := (pointsTo_split_subset hsub).1 $$ H
    icases H1 with ⟨HU, Hrest⟩
    ihave H2 := (pointsTo_union hB).1 $$ HU
    icases H2 with ⟨Hown, HB⟩
    ihave H3 := (Entails.of_eq (pointsTo_biUnion Finset.univ _ hW)) $$ HB
    isplitl [H3]; · iexact H3
    isplitl [Hown]; · iexact Hown
    unfold aRest; iexact Hrest
  · iintro ⟨H3, Hown, Hrest⟩
    iapply (pointsTo_split_subset hsub).2
    isplitl [H3 Hown]
    · iapply (pointsTo_union hB).2
      isplitl [Hown]; · iexact Hown
      iapply (Entails.of_eq (pointsTo_biUnion Finset.univ _ hW).symm); iexact H3
    · unfold aRest; iexact Hrest

/-- info: 'Cert.KernelIdeal.A2A.arg_pieces_eq' depends on axioms: [propext, Classical.choice, Quot.sound] -/
#guard_msgs in #print axioms arg_pieces_eq

/-- info: 'Cert.KernelIdeal.A2A.localSems_split' depends on axioms: [propext, Classical.choice, Quot.sound] -/
#guard_msgs in #print axioms localSems_split

/-- info: 'Cert.KernelIdeal.A2A.used_split' depends on axioms: [propext, Classical.choice, Quot.sound] -/
#guard_msgs in #print axioms used_split

/-- info: 'Cert.KernelIdeal.A2A.scratch_split_s' depends on axioms: [propext, Classical.choice, Quot.sound] -/
#guard_msgs in #print axioms scratch_split_s

/-- info: 'Cert.KernelIdeal.A2A.chain_mix' depends on axioms: [propext, Classical.choice, Quot.sound] -/
#guard_msgs in #print axioms chain_mix

end Cert.KernelIdeal.A2A

end
-- ==== Proof.Unpack.lean ====
import proofs.«900640_g7700000000000641_dist_a2a_v7x_xyz2x2x4_y_m4096_n1024_f32_1_alg».proof.Proof.Pieces

/-!
# From the launch's hand-over to the body's starting context

What a device holds when its body starts — its ghost state, local semaphores, launch credit, the levels, its two
arrays and its scratch buffers — regrouped into the one long separating conjunction the body is run from, in the
order the program uses its parts: what the loads and the barrier need; then, chunk by chunk, what the first hop needs;
what the second hop and the first stores need; what the fourth hop and the other stores need; what the final waits
need; and the part of the input no copy reads. Every invariant and reached fact is read off the shared records.
-/

set_option maxRecDepth 65536

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

theorem lin_prod {P A B X Y : sProp 𝕄} (h : iprop(P ∗ B ∗ X) ⊢ Y) : iprop(P ∗ (A ∗ B) ∗ X) ⊢ iprop(A ∗ Y) := by
  iintro ⟨HP, ⟨HA, HB⟩, HX⟩
  isplitl [HA]; · iexact HA
  iapply h; isplitl [HP]; · iexact HP
  isplitl [HB]; · iexact HB
  iexact HX

/-! ## The holdings, family by family -/

theorem positions_split (c : Dev nD) :
    positions (F := F) c = iprop(atPos ER (barCell c) 0 ∅ 0
      ∗ (bigSep Finset.univ fun i : Fin 16 => atPos ER (fcell c Fam.ys i) 0 ∅ 0) ∗ (bigSep Finset.univ fun i : Fin 16 => atPos ER (fcell c Fam.yr i) 0 ∅ 0)
      ∗ (bigSep Finset.univ fun i : Fin 16 => atPos ER (fcell c Fam.xs i) 0 ∅ 0) ∗ (bigSep Finset.univ fun i : Fin 16 => atPos ER (fcell c Fam.xr i) 0 ∅ 0)
      ∗ (bigSep Finset.univ fun i : Fin 16 => atPos ER (fcell c Fam.zs i) 0 ∅ 0) ∗ (bigSep Finset.univ fun i : Fin 16 => atPos ER (fcell c Fam.zr i) 0 ∅ 0)
      ∗ (bigSep Finset.univ fun i : Fin 16 => atPos ER (fcell c Fam.qs i) 0 ∅ 0) ∗ (bigSep Finset.univ fun i : Fin 16 => atPos ER (fcell c Fam.qr i) 0 ∅ 0)) := by
  rw [positions_eq, bigSep_fam]

theorem payToks_split (c : Dev nD) :
    payToks (F := F) c = iprop(dutyTok ER (barCell (yP c)) 0 0 ∗ dutyTok ER (barCell (xP c)) 0 1 ∗ dutyTok ER (barCell (zP c)) 0 2
      ∗ (bigSep Finset.univ fun i : Fin 16 => dutyTok ER (fcell c Fam.ys i) 0 0) ∗ (bigSep Finset.univ fun i : Fin 16 => dutyTok ER (fcell (yP c) Fam.yr i) 0 0)
      ∗ (bigSep Finset.univ fun i : Fin 16 => dutyTok ER (fcell c Fam.xs i) 0 0) ∗ (bigSep Finset.univ fun i : Fin 16 => dutyTok ER (fcell (xP c) Fam.xr i) 0 0)
      ∗ (bigSep Finset.univ fun i : Fin 16 => dutyTok ER (fcell c Fam.zs i) 0 0) ∗ (bigSep Finset.univ fun i : Fin 16 => dutyTok ER (fcell (zP c) Fam.zr i) 0 0)
      ∗ (bigSep Finset.univ fun i : Fin 16 => dutyTok ER (fcell c Fam.qs i) 0 0) ∗ (bigSep Finset.univ fun i : Fin 16 => dutyTok ER (fcell (qP c i) Fam.qr i) 0 0)) := by
  unfold payToks; simp only [bigSep_sep']

theorem credsOf_split (c : Dev nD) :
    credsOf (F := F) c = iprop(cred (tallyAt (barCell c) () 3)
      ∗ (bigSep Finset.univ fun i : Fin 16 => cred (tallyAt (fcell c Fam.yr i) () N)) ∗ (bigSep Finset.univ fun i : Fin 16 => cred (tallyAt (fcell c Fam.xr i) () N))
      ∗ (bigSep Finset.univ fun i : Fin 16 => cred (tallyAt (fcell c Fam.zr i) () N)) ∗ (bigSep Finset.univ fun i : Fin 16 => cred (tallyAt (fcell c Fam.qr i) () N))) := by
  unfold credsOf; simp only [bigSep_sep']

theorem resPieces_split (c : Dev nD) (fo : S8192x1024.Idx → Elt F .f32) :
    resPieces (F := F) c fo = iprop(((oOwn c).view.loc (c : Thread nD τ) ↦[(oOwn c).view.set]{fullShare} fo)
      ∗ (bigSep Finset.univ fun i : Fin 16 => ((oRowY c i).view.loc (c : Thread nD τ) ↦[(oRowY c i).view.set]{fullShare} fo)) ∗ (bigSep Finset.univ fun i : Fin 16 => ((oRowX c i).view.loc (c : Thread nD τ) ↦[(oRowX c i).view.set]{fullShare} fo))
      ∗ (bigSep Finset.univ fun i : Fin 16 => ((oRowZ c i).view.loc (c : Thread nD τ) ↦[(oRowZ c i).view.set]{fullShare} fo)) ∗ (bigSep Finset.univ fun i : Fin 16 => ((oRowQ c i).view.loc (c : Thread nD τ) ↦[(oRowQ c i).view.set]{fullShare} fo))) := by
  unfold resPieces; simp only [bigSep_sep']

/-! ## The assembly -/

/-- The shared records and the device's own holdings, grouped as the program uses them, are the body's starting context. -/
theorem assemble (K : Dev nD × CK → ℕ) (c : Dev nD) (W : Waits sig Unit) (fo : S8192x1024.Idx → Elt F .f32)
    (fs fr fx fz : S16x64x1024.Idx → Elt F .f32) (fl : S4096x1024.Idx → Elt F .f32) :
    iprop(records m K
      ∗ (levAts L lv
        ∗ atPos ER (barCell c) 0 ∅ 0
        ∗ dutyTok ER (barCell (yP c)) 0 0 ∗ dutyTok ER (barCell (xP c)) 0 1 ∗ dutyTok ER (barCell (zP c)) 0 2
        ∗ cred (tallyAt (barCell c) () 3)
        ∗ owes (c : Thread nD τ) (O₀ c) W
        ∗ (bigSep Finset.univ fun i : Fin 16 => iprop(semVal ((c : Thread nD τ), .dma (semAt 0 (by decide) i)) 0 ∗ ((aWin c i).view.loc (c : Thread nD τ) ↦[(aWin c i).view.set]{fullShare} m ((c : Thread nD τ).loc main_arg0)) ∗ (((slab sM i).view.loc (c : Thread nD τ)) ↦[(slab sM i).view.set]{fullShare} fs : sProp 𝕄)))
        ∗ semVal ((c : Thread nD τ), .dma (⟨224, by decide⟩ : Fin 226)) 0
        ∗ ((aOwn c).view.loc (c : Thread nD τ) ↦[(aOwn c).view.set]{fullShare} m ((c : Thread nD τ).loc main_arg0))
        ∗ (lM.view.loc (c : Thread nD τ) ↦[lM.view.set]{fullShare} fl)
        ∗ (bigSep Finset.univ fun i : Fin 16 => (((slab rM i).view.loc (c : Thread nD τ)) ↦[(slab rM i).view.set]{fullShare} fr : sProp 𝕄))
        ∗ (bigSep Finset.univ fun i : Fin 16 => (((slab xrM i).view.loc (c : Thread nD τ)) ↦[(slab xrM i).view.set]{fullShare} fx : sProp 𝕄))
        ∗ (bigSep evens.toFinset fun i : Fin 16 => ((oRowQ c i).view.loc (c : Thread nD τ) ↦[(oRowQ c i).view.set]{fullShare} fo))
        ∗ (bigSep Finset.univ fun i : Fin 16 => (((slab zrM i).view.loc (c : Thread nD τ)) ↦[(slab zrM i).view.set]{fullShare} fz : sProp 𝕄))
        ∗ (bigSep odds.toFinset fun i : Fin 16 => ((oRowQ c i).view.loc (c : Thread nD τ) ↦[(oRowQ c i).view.set]{fullShare} fo))
        ∗ (bigSep Finset.univ fun i : Fin 16 => iprop(dutyTok ER (fcell c Fam.ys i) 0 0 ∗ dutyTok ER (fcell (yP c) Fam.yr i) 0 0))
        ∗ semVal ((c : Thread nD τ), .dma (⟨225, by decide⟩ : Fin 226)) 0
        ∗ ((oOwn c).view.loc (c : Thread nD τ) ↦[(oOwn c).view.set]{fullShare} fo)
        ∗ (bigSep Finset.univ fun i : Fin 16 => iprop(atPos ER (fcell c Fam.yr i) 0 ∅ 0 ∗ cred (tallyAt (fcell c Fam.yr i) () N) ∗ dutyTok ER (fcell c Fam.xs i) 0 0 ∗ dutyTok ER (fcell (xP c) Fam.xr i) 0 0 ∗ dutyTok ER (fcell c Fam.zs i) 0 0 ∗ dutyTok ER (fcell (zP c) Fam.zr i) 0 0 ∗ semVal ((c : Thread nD τ), .dma (semAt 16 (by decide) i)) 0 ∗ ((oRowY c i).view.loc (c : Thread nD τ) ↦[(oRowY c i).view.set]{fullShare} fo)))
        ∗ (bigSep Finset.univ fun i : Fin 16 => iprop(atPos ER (fcell c Fam.xr i) 0 ∅ 0 ∗ cred (tallyAt (fcell c Fam.xr i) () N) ∗ semVal ((c : Thread nD τ), .dma (semAt 32 (by decide) i)) 0 ∗ ((oRowX c i).view.loc (c : Thread nD τ) ↦[(oRowX c i).view.set]{fullShare} fo) ∗ atPos ER (fcell c Fam.zr i) 0 ∅ 0 ∗ cred (tallyAt (fcell c Fam.zr i) () N) ∗ semVal ((c : Thread nD τ), .dma (semAt 48 (by decide) i)) 0 ∗ ((oRowZ c i).view.loc (c : Thread nD τ) ↦[(oRowZ c i).view.set]{fullShare} fo) ∗ dutyTok ER (fcell c Fam.qs i) 0 0 ∗ dutyTok ER (fcell (qP c i) Fam.qr i) 0 0))
        ∗ (bigSep Finset.univ fun i : Fin 16 => iprop(atPos ER (fcell c Fam.ys i) 0 ∅ 0 ∗ atPos ER (fcell c Fam.xs i) 0 ∅ 0 ∗ atPos ER (fcell c Fam.zs i) 0 ∅ 0 ∗ atPos ER (fcell c Fam.qs i) 0 ∅ 0 ∗ atPos ER (fcell c Fam.qr i) 0 ∅ 0 ∗ cred (tallyAt (fcell c Fam.qr i) () N)))
        ∗ (aM.view.loc (c : Thread nD τ) ↦[aRest c]{fullShare} m ((c : Thread nD τ).loc main_arg0))))
      ⊢ bodyCtx m K c W fo fs fr fx fz fl := by
  haveI := records_pers m K
  unfold bodyCtx
  -- what the loads and the barrier need
  refine lin_under ?_
  refine chain_pers [c, yP c, xP c, zP c] (records m K) (fun d acc => iprop(cellInv ER (sched m) (K (d, none)) (barCell d) ∗ acc))
    (fun d X Y h => step_pers (inv_of m K (d, none)) h) ?_
  refine chain_pers [yP c, xP c, zP c] (records m K) (fun d acc => iprop(reached ER (barCell d) 0 ∗ acc))
    (fun d X Y h => step_pers (rch_of m K (d, none)) h) ?_
  refine lin_under (lin_under (lin_under (lin_under (lin_under (lin_under ?_)))))
  refine chain_mix ([0, 1, 2, 3, 4, 5, 6, 7, 8, 9, 10, 11, 12, 13, 14, 15] : List (Fin 16)) univ16 nodup16 (records m K) _
    (fun i acc => iprop(semVal ((c : Thread nD τ), .dma (semAt 0 (by decide) i)) 0 ∗ ((aWin c i).view.loc (c : Thread nD τ) ↦[(aWin c i).view.set]{fullShare} m ((c : Thread nD τ).loc main_arg0)) ∗ (((slab sM i).view.loc (c : Thread nD τ)) ↦[(slab sM i).view.set]{fullShare} fs : sProp 𝕄) ∗ acc))
    (fun i X Y h => lin_prod (lin_prod (lin_under h))) ?_
  refine lin_under (lin_under (lin_under ?_))
  refine chain_mix ([0, 1, 2, 3, 4, 5, 6, 7, 8, 9, 10, 11, 12, 13, 14, 15] : List (Fin 16)) univ16 nodup16 (records m K) _ (fun i acc => iprop((((slab rM i).view.loc (c : Thread nD τ)) ↦[(slab rM i).view.set]{fullShare} fr : sProp 𝕄) ∗ acc)) (fun i X Y h => lin_under h) ?_
  refine chain_mix ([0, 1, 2, 3, 4, 5, 6, 7, 8, 9, 10, 11, 12, 13, 14, 15] : List (Fin 16)) univ16 nodup16 (records m K) _ (fun i acc => iprop((((slab xrM i).view.loc (c : Thread nD τ)) ↦[(slab xrM i).view.set]{fullShare} fx : sProp 𝕄) ∗ acc)) (fun i X Y h => lin_under h) ?_
  refine chain_mix evens rfl evens_nodup (records m K) _ (fun i acc => iprop(((oRowQ c i).view.loc (c : Thread nD τ) ↦[(oRowQ c i).view.set]{fullShare} fo) ∗ acc)) (fun i X Y h => lin_under h) ?_
  refine chain_mix ([0, 1, 2, 3, 4, 5, 6, 7, 8, 9, 10, 11, 12, 13, 14, 15] : List (Fin 16)) univ16 nodup16 (records m K) _ (fun i acc => iprop((((slab zrM i).view.loc (c : Thread nD τ)) ↦[(slab zrM i).view.set]{fullShare} fz : sProp 𝕄) ∗ acc)) (fun i X Y h => lin_under h) ?_
  refine chain_mix odds rfl odds_nodup (records m K) _ (fun i acc => iprop(((oRowQ c i).view.loc (c : Thread nD τ) ↦[(oRowQ c i).view.set]{fullShare} fo) ∗ acc)) (fun i X Y h => lin_under h) ?_
  -- the first hop, chunk by chunk
  refine chain_mix ([0, 1, 2, 3, 4, 5, 6, 7, 8, 9, 10, 11, 12, 13, 14, 15] : List (Fin 16)) univ16 nodup16 (records m K) _
    (fun i acc => iprop(cellInv ER (sched m) (K (c, some (Fam.ys, i))) (fcell c Fam.ys i) ∗ cellInv ER (sched m) (K ((yP c), some (Fam.yr, i))) (fcell (yP c) Fam.yr i) ∗ reached ER (fcell c Fam.ys i) 0 ∗ reached ER (fcell (yP c) Fam.yr i) 0
      ∗ dutyTok ER (fcell c Fam.ys i) 0 0 ∗ dutyTok ER (fcell (yP c) Fam.yr i) 0 0 ∗ acc))
    (fun i X Y h => step_pers (inv_of m K (c, some (Fam.ys, i))) (step_pers (inv_of m K (yP c, some (Fam.yr, i))) (step_pers (rch_of m K (c, some (Fam.ys, i)))
      (step_pers (rch_of m K (yP c, some (Fam.yr, i))) (lin_prod (lin_under h)))))) ?_
  refine lin_under (lin_under ?_)
  -- the second hop and the first quarter's stores
  refine chain_mix ([0, 1, 2, 3, 4, 5, 6, 7, 8, 9, 10, 11, 12, 13, 14, 15] : List (Fin 16)) univ16 nodup16 (records m K) _
    (fun i acc => iprop(cellInv ER (sched m) (K (c, some (Fam.yr, i))) (fcell c Fam.yr i) ∗ atPos ER (fcell c Fam.yr i) 0 ∅ 0 ∗ cred (tallyAt (fcell c Fam.yr i) () N)
      ∗ cellInv ER (sched m) (K (c, some (Fam.xs, i))) (fcell c Fam.xs i) ∗ cellInv ER (sched m) (K ((xP c), some (Fam.xr, i))) (fcell (xP c) Fam.xr i) ∗ reached ER (fcell c Fam.xs i) 0 ∗ reached ER (fcell (xP c) Fam.xr i) 0 ∗ dutyTok ER (fcell c Fam.xs i) 0 0 ∗ dutyTok ER (fcell (xP c) Fam.xr i) 0 0
      ∗ cellInv ER (sched m) (K (c, some (Fam.zs, i))) (fcell c Fam.zs i) ∗ cellInv ER (sched m) (K ((zP c), some (Fam.zr, i))) (fcell (zP c) Fam.zr i) ∗ reached ER (fcell c Fam.zs i) 0 ∗ reached ER (fcell (zP c) Fam.zr i) 0 ∗ dutyTok ER (fcell c Fam.zs i) 0 0 ∗ dutyTok ER (fcell (zP c) Fam.zr i) 0 0
      ∗ semVal ((c : Thread nD τ), .dma (semAt 16 (by decide) i)) 0 ∗ ((oRowY c i).view.loc (c : Thread nD τ) ↦[(oRowY c i).view.set]{fullShare} fo) ∗ acc))
    (fun i X Y h => step_pers (inv_of m K (c, some (Fam.yr, i))) (lin_prod (lin_prod
      (step_pers (inv_of m K (c, some (Fam.xs, i))) (step_pers (inv_of m K (xP c, some (Fam.xr, i))) (step_pers (rch_of m K (c, some (Fam.xs, i))) (step_pers (rch_of m K (xP c, some (Fam.xr, i)))
      (lin_prod (lin_prod
      (step_pers (inv_of m K (c, some (Fam.zs, i))) (step_pers (inv_of m K (zP c, some (Fam.zr, i))) (step_pers (rch_of m K (c, some (Fam.zs, i))) (step_pers (rch_of m K (zP c, some (Fam.zr, i)))
      (lin_prod (lin_prod (lin_prod (lin_under h))))))))))))))))) ?_
  -- the fourth hop and the other two quarters' stores
  refine chain_mix ([0, 1, 2, 3, 4, 5, 6, 7, 8, 9, 10, 11, 12, 13, 14, 15] : List (Fin 16)) univ16 nodup16 (records m K) _
    (fun i acc => iprop(cellInv ER (sched m) (K (c, some (Fam.xr, i))) (fcell c Fam.xr i) ∗ atPos ER (fcell c Fam.xr i) 0 ∅ 0 ∗ cred (tallyAt (fcell c Fam.xr i) () N) ∗ semVal ((c : Thread nD τ), .dma (semAt 32 (by decide) i)) 0 ∗ ((oRowX c i).view.loc (c : Thread nD τ) ↦[(oRowX c i).view.set]{fullShare} fo)
      ∗ cellInv ER (sched m) (K (c, some (Fam.zr, i))) (fcell c Fam.zr i) ∗ atPos ER (fcell c Fam.zr i) 0 ∅ 0 ∗ cred (tallyAt (fcell c Fam.zr i) () N) ∗ semVal ((c : Thread nD τ), .dma (semAt 48 (by decide) i)) 0 ∗ ((oRowZ c i).view.loc (c : Thread nD τ) ↦[(oRowZ c i).view.set]{fullShare} fo)
      ∗ cellInv ER (sched m) (K (c, some (Fam.qs, i))) (fcell c Fam.qs i) ∗ cellInv ER (sched m) (K ((qP c i), some (Fam.qr, i))) (fcell (qP c i) Fam.qr i) ∗ reached ER (fcell c Fam.qs i) 0 ∗ reached ER (fcell (qP c i) Fam.qr i) 0 ∗ dutyTok ER (fcell c Fam.qs i) 0 0 ∗ dutyTok ER (fcell (qP c i) Fam.qr i) 0 0 ∗ acc))
    (fun i X Y h => step_pers (inv_of m K (c, some (Fam.xr, i))) (lin_prod (lin_prod (lin_prod (lin_prod
      (step_pers (inv_of m K (c, some (Fam.zr, i))) (lin_prod (lin_prod (lin_prod (lin_prod
      (step_pers (inv_of m K (c, some (Fam.qs, i))) (step_pers (inv_of m K (qP c i, some (Fam.qr, i))) (step_pers (rch_of m K (c, some (Fam.qs, i))) (step_pers (rch_of m K (qP c i, some (Fam.qr, i)))
      (lin_prod (lin_under h)))))))))))))))) ?_
  -- the final waits
  refine chain_mix ([0, 1, 2, 3, 4, 5, 6, 7, 8, 9, 10, 11, 12, 13, 14, 15] : List (Fin 16)) univ16 nodup16 (records m K) _
    (fun i acc => iprop(atPos ER (fcell c Fam.ys i) 0 ∅ 0 ∗ atPos ER (fcell c Fam.xs i) 0 ∅ 0 ∗ atPos ER (fcell c Fam.zs i) 0 ∅ 0 ∗ atPos ER (fcell c Fam.qs i) 0 ∅ 0 ∗ cellInv ER (sched m) (K (c, some (Fam.qr, i))) (fcell c Fam.qr i) ∗ atPos ER (fcell c Fam.qr i) 0 ∅ 0 ∗ cred (tallyAt (fcell c Fam.qr i) () N) ∗ acc))
    (fun i X Y h => lin_prod (lin_prod (lin_prod (lin_prod (step_pers (inv_of m K (c, some (Fam.qr, i))) (lin_prod (lin_under h))))))) ?_
  -- the part of the input no copy reads
  exact drop_left .rfl

/-! ## Unpacking -/

/-- What the launch hands a device, with what it owes, is the body's starting context at some names and contents, and
    the idle semaphores. The result's cut into its 65 pieces is taken as given (`hres`). -/
theorem unpack (c : Dev nD)
    (hres : ∀ fo : S8192x1024.Idx → Elt F .f32, resPts (F := F) c fo ⊢ resPieces (F := F) c fo) :
    iprop(Φ₀ m c ∗ (dats m 0 c).owesAt () (t0_0 : Fin cfg0.N).castSucc)
      ⊢ iprop(∃ K W fo fs fr fx fz fl, bodyCtx m K c W fo fs fr fx fz fl ∗ idle (F := F) c) := by
  unfold Φ₀ start ghost scratchAny
  iintro ⟨⟨⟨⟨%K, HR, Hpos, Htok⟩, HL, Hcr, Hlev, Harg, Hres⟩, ⟨%fs, Hs⟩, ⟨%fr, Hr⟩, ⟨%fx, Hx⟩, ⟨%fz, Hz⟩, ⟨%fl, Hl⟩⟩, ⟨%W, %hW, Ho⟩⟩
  iexists K; iexists W; iexists (m ((c : Thread nD τ).loc main_v1)); iexists fs; iexists fr; iexists fx; iexists fz; iexists fl
  ihave HL' := (Entails.of_eq (localSems_split (F := F) c)) $$ HL
  icases HL' with ⟨Hu, Hidle⟩
  ihave Hu' := (Entails.of_eq (used_split (F := F) (fun k => semVal ((c : Thread nD τ), .dma k) 0))) $$ Hu
  icases Hu' with ⟨S0, S16, S32, S48, S224, S225⟩
  ihave Hp := (Entails.of_eq (positions_split (F := F) c)) $$ Hpos
  icases Hp with ⟨Pbar, Pys, Pyr, Pxs, Pxr, Pzs, Pzr, Pqs, Pqr⟩
  ihave Ht := (Entails.of_eq (payToks_split (F := F) c)) $$ Htok
  icases Ht with ⟨Tby, Tbx, Tbz, Tys, Tyr, Txs, Txr, Tzs, Tzr, Tqs, Tqr⟩
  ihave Hc := (Entails.of_eq (credsOf_split (F := F) c)) $$ Hcr
  icases Hc with ⟨Cb, Cyr, Cxr, Czr, Cqr⟩
  ihave Ha := (Entails.of_eq (arg_pieces_eq m c)) $$ Harg
  icases Ha with ⟨Awin, Aown, Arest⟩
  ihave Hres1 := (hres _) $$ Hres
  ihave Hres2 := (Entails.of_eq (resPieces_split (F := F) c _)) $$ Hres1
  icases Hres2 with ⟨Oown, OY, OX, OZ, OQ⟩
  ihave OQ' := (Entails.of_eq (parity_split (F := F) (fun i : Fin 16 => ((oRowQ c i).view.loc (c : Thread nD τ) ↦[(oRowQ c i).view.set]{fullShare} (m ((c : Thread nD τ).loc main_v1)))))) $$ OQ
  icases OQ' with ⟨OQe, OQo⟩
  ihave Hs' := (Entails.of_eq (scratch_split_s (F := F) c fs)) $$ Hs
  ihave Hr' := (Entails.of_eq (scratch_split_r (F := F) c fr)) $$ Hr
  ihave Hx' := (Entails.of_eq (scratch_split_x (F := F) c fx)) $$ Hx
  ihave Hz' := (Entails.of_eq (scratch_split_z (F := F) c fz)) $$ Hz
  ihave Hl' := (Entails.of_eq (lbuf_eq (F := F) c fl).symm) $$ Hl
  isplitr [Hidle]
  · iapply (assemble m K c W _ fs fr fx fz fl)
    simp only [bigSep_sep']
    isplitl [HR]; · iexact HR
    isplitl [Hlev]; · iexact Hlev
    isplitl [Pbar]; · iexact Pbar
    isplitl [Tby]; · iexact Tby
    isplitl [Tbx]; · iexact Tbx
    isplitl [Tbz]; · iexact Tbz
    isplitl [Cb]; · iexact Cb
    isplitl [Ho]; · iexact Ho
    isplitl [S0 Awin Hs']
    · isplitl [S0]; · iexact S0
      isplitl [Awin]; · iexact Awin
      iexact Hs'
    isplitl [S224]; · iexact S224
    isplitl [Aown]; · iexact Aown
    isplitl [Hl']; · iexact Hl'
    isplitl [Hr']; · iexact Hr'
    isplitl [Hx']; · iexact Hx'
    isplitl [OQe]; · iexact OQe
    isplitl [Hz']; · iexact Hz'
    isplitl [OQo]; · iexact OQo
    isplitl [Tys Tyr]
    · isplitl [Tys]; · iexact Tys
      iexact Tyr
    isplitl [S225]; · iexact S225
    isplitl [Oown]; · iexact Oown
    isplitl [Pyr Cyr Txs Txr Tzs Tzr S16 OY]
    · isplitl [Pyr]; · iexact Pyr
      isplitl [Cyr]; · iexact Cyr
      isplitl [Txs]; · iexact Txs
      isplitl [Txr]; · iexact Txr
      isplitl [Tzs]; · iexact Tzs
      isplitl [Tzr]; · iexact Tzr
      isplitl [S16]; · iexact S16
      iexact OY
    isplitl [Pxr Cxr S32 OX Pzr Czr S48 OZ Tqs Tqr]
    · isplitl [Pxr]; · iexact Pxr
      isplitl [Cxr]; · iexact Cxr
      isplitl [S32]; · iexact S32
      isplitl [OX]; · iexact OX
      isplitl [Pzr]; · iexact Pzr
      isplitl [Czr]; · iexact Czr
      isplitl [S48]; · iexact S48
      isplitl [OZ]; · iexact OZ
      isplitl [Tqs]; · iexact Tqs
      iexact Tqr
    isplitl [Pys Pxs Pzs Pqs Pqr Cqr]
    · isplitl [Pys]; · iexact Pys
      isplitl [Pxs]; · iexact Pxs
      isplitl [Pzs]; · iexact Pzs
      isplitl [Pqs]; · iexact Pqs
      isplitl [Pqr]; · iexact Pqr
      iexact Cqr
    iexact Arest
  · iexact Hidle

/-! ## The body obligation -/

/-- The kernel stages no window: the obligation's conjunctions over windows are empty. -/
theorem bigSep_W0 (Φ : Fin cfg0.W → sProp 𝕄) : bigSep Finset.univ Φ = iprop(emp) := by
  have h : (Finset.univ : Finset (Fin cfg0.W)) = ∅ := Finset.eq_empty_of_forall_notMem fun w => w.elim0
  rw [h]; rfl

/-- The library's body obligation on every device, from the body run from its starting context. -/
theorem body_obligation
    (hres : ∀ (c : Dev nD) (fo : S8192x1024.Idx → Elt F .f32), resPts (F := F) c fo ⊢ resPieces (F := F) c fo)
    (hbody : ∀ (K : Dev nD × CK → ℕ) (c : Dev nD) (W : Waits sig Unit) (fo : S8192x1024.Idx → Elt F .f32)
        (fs fr fx fz : S16x64x1024.Idx → Elt F .f32) (fl : S4096x1024.Idx → Elt F .f32),
      iprop(bodyCtx m K c W fo fs fr fx fz fl ∗ idle (F := F) c)
        ⊢ wp frame (wpE (defs₀ (F := F)) 𝒱₀ (c : Thread nD τ) none) Set.univ (Gen.bodyAt0 t0_0)
            (fun _ => iprop(Φ₁ m c ∗ (dats m 0 c).owesAt () (t0_0 : Fin cfg0.N).succ))) :
    ∀ c, BodyObligation (dats (F := F) m 0 c) (defs₀ (F := F)) 𝒱₀ () Set.univ := fun c t => by
  rw [fin_N0 t]
  rw [bigSep_W0, bigSep_W0]
  show iprop(Φ₀ m c ∗ (dats m 0 c).owesAt () (t0_0 : Fin cfg0.N).castSucc ∗ emp)
    ⊢ wp frame (wpE (defs₀ (F := F)) 𝒱₀ (c : Thread nD τ) none) Set.univ (Gen.bodyAt0 t0_0)
        (fun _ => iprop(Φ₁ m c ∗ (dats m 0 c).owesAt () (t0_0 : Fin cfg0.N).succ ∗ emp))
  iintro ⟨HΦ, Ho, -⟩
  ihave H := (unpack m c (hres c)) $$ [HΦ Ho]
  · isplitl [HΦ] <;> iassumption
  icases H with ⟨%K, %W, %fo, %fs, %fr, %fx, %fz, %fl, H⟩
  iapply (wp_mono frame _ Set.univ (fun _ => show iprop(Φ₁ m c ∗ (dats m 0 c).owesAt () (t0_0 : Fin cfg0.N).succ)
      ⊢ iprop(Φ₁ m c ∗ (dats m 0 c).owesAt () (t0_0 : Fin cfg0.N).succ ∗ emp) from by
    iintro ⟨H1, H2⟩
    isplitl [H1]; · iexact H1
    isplitl [H2]; · iexact H2
    iempintro))
  iapply (hbody K c W fo fs fr fx fz fl); iexact H

/-- info: 'Cert.KernelIdeal.A2A.unpack' depends on axioms: [propext, Classical.choice, Quot.sound] -/
#guard_msgs in #print axioms unpack

/-- info: 'Cert.KernelIdeal.A2A.body_obligation' depends on axioms: [propext, Classical.choice, Quot.sound] -/
#guard_msgs in #print axioms body_obligation

end Cert.KernelIdeal.A2A

end
-- ==== Proof.Landing.lean ====
import proofs.«900640_g7700000000000641_dist_a2a_v7x_xyz2x2x4_y_m4096_n1024_f32_1_alg».proof.Proof.Proto

/-!
# What a chunk copy leaves behind

A copy of a 64 × 1024 chunk `v` into chunk `i` of a scratch buffer, or into 64 aligned rows of the result, leaves
that destination equal — on the elements the copy touches — to a buffer that holds `v` in every chunk (every aligned
block of 64 rows). Reading such a buffer back through the same window gives `v`. Both facts are index arithmetic:
the chunk window sits at `(i, 0, 0)` behind a squeezed leading axis, the row window at a row offset that is a
multiple of 64 and column offset 0. Values off the window are irrelevant to a points-to over the window, so the
assertion about the destination after the copy can be restated at those contents.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## Two facts about any window -/

section Abstract

variable {Val : EltTy → Type} {sg : RefSig} {κ : Kind} {sp : Space} {S : Shape} {e : EltTy}

/-- A buffer that holds `u y` under every index `y` of the window reads as `u` through it. -/
theorem read_eq_of_emb (w : View sg κ sp S e) (g : w.ty.Contents Val) (u : S.Idx → Val e)
    (h : ∀ y, g (w.emb y) = cast (congrArg Val w.elt_eq.symm) (u y)) : w.read Val g = u := by
  funext y
  rw [View.read_apply, h, cast_cast, cast_eq]

/-- After `u` is written through the whole window, the window's elements are those of any buffer that holds `u y`
    under every index `y` of the window. -/
theorem write_univ_eq_of_emb (w : View sg κ sp S e) (fd g : w.ty.Contents Val) (u : S.Idx → Val e)
    (h : ∀ y, g (w.emb y) = cast (congrArg Val w.elt_eq.symm) (u y)) :
    ∀ j ∈ w.set, w.write Val fd u Finset.univ j = g j := by
  intro j hj
  obtain ⟨y, rfl⟩ := View.exists_emb_of_mem_set w hj
  rw [View.write_emb_of_mem _ _ (Finset.mem_univ y), h]

end Abstract

/-! ## Chunk `i` of a scratch buffer -/

/-- The rectangle of chunk `i` of a 16 × 64 × 1024 buffer. -/
abbrev slabRect (i : Fin 16) : Rect S16x64x1024 :=
  Rect.unit (s := S16x64x1024) ![i.val, 0, 0] S1x64x1024.size (slab_inb i)

/-- Dropping the leading axis of size one: the chunk's index `x` is matched with `(0, x)`. -/
theorem sq_idx (x : S64x1024.Idx) : Shape.reshapeEquiv (s := S1x64x1024) (s' := S64x1024) squeezes_S1x64x1024_S64x1024.numel_eq x = Fin.cons (⟨0, Nat.one_pos⟩ : Fin 1) x :=
  Shape.reshapeEquiv_cons_one (n := 2) (d := ![64, 1024]) _ x

/-- Where index `x` of chunk `i` sits in the buffer: row `x 0`, -/
theorem slabRect_emb1 (i : Fin 16) (x : S64x1024.Idx) :
    (((slabRect i).emb (Shape.reshapeEquiv (s := S1x64x1024) (s' := S64x1024) squeezes_S1x64x1024_S64x1024.numel_eq x)) 1 : Fin 64) = x 0 := by
  apply Fin.ext
  rw [Rect.emb_apply, sq_idx]
  show 0 + 1 * (x 0).val = (x 0).val
  omega

/-- column `x 1`. -/
theorem slabRect_emb2 (i : Fin 16) (x : S64x1024.Idx) :
    (((slabRect i).emb (Shape.reshapeEquiv (s := S1x64x1024) (s' := S64x1024) squeezes_S1x64x1024_S64x1024.numel_eq x)) 2 : Fin 1024) = x 1 := by
  apply Fin.ext
  rw [Rect.emb_apply, sq_idx]
  show 0 + 1 * (x 1).val = (x 1).val
  omega

omit [FloatOps F] in
/-- A buffer every chunk of which holds `v`, at the place of index `x` of chunk `i`, holds `v x`. -/
theorem slabBuf_at (i : Fin 16) (v : Vec F S64x1024 .f32) (x : S64x1024.Idx) :
    slabBuf v ((slabRect i).emb (Shape.reshapeEquiv (s := S1x64x1024) (s' := S64x1024) squeezes_S1x64x1024_S64x1024.numel_eq x)) = v x := by
  show v (ix2 (((slabRect i).emb (Shape.reshapeEquiv (s := S1x64x1024) (s' := S64x1024) squeezes_S1x64x1024_S64x1024.numel_eq x)) 1) (((slabRect i).emb (Shape.reshapeEquiv (s := S1x64x1024) (s' := S64x1024) squeezes_S1x64x1024_S64x1024.numel_eq x)) 2)) = v x
  rw [slabRect_emb1, slabRect_emb2]
  exact congrArg v (Idealize.ShloMosaic.ValueIdx.eq_ix2 x).symm

omit [FloatOps F] in
theorem slab_key_s (i : Fin 16) (v : Vec F S64x1024 .f32) (y : S64x1024.Idx) :
    slabBuf v ((slab sM i).view.emb y) = cast (congrArg (Elt F) (slab sM i).view.elt_eq.symm) (v y) :=
  (slabBuf_at i v y).trans (cast_eq _ _).symm

omit [FloatOps F] in
/-- Chunk `i` of a buffer every chunk of which holds `v` reads as `v`. -/
theorem slab_read_s (i : Fin 16) (v : Vec F S64x1024 .f32) :
    (slab sM i).view.read (Elt F) (slabBuf v) = v :=
  read_eq_of_emb _ _ _ (slab_key_s i v)

omit [FloatOps F] in
/-- Whatever the buffer held, once `v` is written over chunk `i` the chunk's elements are those of `slabBuf v`. -/
theorem slab_landed_s (i : Fin 16) (fd : (slab sM i).view.ty.Contents (Elt F)) (v : Vec F S64x1024 .f32) :
    ∀ j ∈ (slab sM i).view.set, (slab sM i).view.write (Elt F) fd v Finset.univ j = slabBuf v j :=
  write_univ_eq_of_emb _ fd _ v (slab_key_s i v)

/-- The chunk as a copy leaves it, restated at its contents. -/
theorem sPts_landed (d : Dev nD) (i : Fin 16) (q : PosShare TreeShare) (fd : (slab sM i).view.ty.Contents (Elt F))
    (v : Vec F S64x1024 .f32) :
    ((((slab sM i).view.loc (d : Thread nD τ)) ↦[(slab sM i).view.set]{q} (slab sM i).view.write (Elt F) fd v Finset.univ) : sProp 𝕄)
      = sPts d i q v :=
  pointsTo_congr (slab_landed_s i fd v)

omit [FloatOps F] in
theorem slab_key_r (i : Fin 16) (v : Vec F S64x1024 .f32) (y : S64x1024.Idx) :
    slabBuf v ((slab rM i).view.emb y) = cast (congrArg (Elt F) (slab rM i).view.elt_eq.symm) (v y) :=
  (slabBuf_at i v y).trans (cast_eq _ _).symm

omit [FloatOps F] in
/-- Chunk `i` of a buffer every chunk of which holds `v` reads as `v`. -/
theorem slab_read_r (i : Fin 16) (v : Vec F S64x1024 .f32) :
    (slab rM i).view.read (Elt F) (slabBuf v) = v :=
  read_eq_of_emb _ _ _ (slab_key_r i v)

omit [FloatOps F] in
/-- Whatever the buffer held, once `v` is written over chunk `i` the chunk's elements are those of `slabBuf v`. -/
theorem slab_landed_r (i : Fin 16) (fd : (slab rM i).view.ty.Contents (Elt F)) (v : Vec F S64x1024 .f32) :
    ∀ j ∈ (slab rM i).view.set, (slab rM i).view.write (Elt F) fd v Finset.univ j = slabBuf v j :=
  write_univ_eq_of_emb _ fd _ v (slab_key_r i v)

/-- The chunk as a copy leaves it, restated at its contents. -/
theorem rPts_landed (d : Dev nD) (i : Fin 16) (q : PosShare TreeShare) (fd : (slab rM i).view.ty.Contents (Elt F))
    (v : Vec F S64x1024 .f32) :
    ((((slab rM i).view.loc (d : Thread nD τ)) ↦[(slab rM i).view.set]{q} (slab rM i).view.write (Elt F) fd v Finset.univ) : sProp 𝕄)
      = rPts d i q v :=
  pointsTo_congr (slab_landed_r i fd v)

omit [FloatOps F] in
theorem slab_key_xr (i : Fin 16) (v : Vec F S64x1024 .f32) (y : S64x1024.Idx) :
    slabBuf v ((slab xrM i).view.emb y) = cast (congrArg (Elt F) (slab xrM i).view.elt_eq.symm) (v y) :=
  (slabBuf_at i v y).trans (cast_eq _ _).symm

omit [FloatOps F] in
/-- Chunk `i` of a buffer every chunk of which holds `v` reads as `v`. -/
theorem slab_read_xr (i : Fin 16) (v : Vec F S64x1024 .f32) :
    (slab xrM i).view.read (Elt F) (slabBuf v) = v :=
  read_eq_of_emb _ _ _ (slab_key_xr i v)

omit [FloatOps F] in
/-- Whatever the buffer held, once `v` is written over chunk `i` the chunk's elements are those of `slabBuf v`. -/
theorem slab_landed_xr (i : Fin 16) (fd : (slab xrM i).view.ty.Contents (Elt F)) (v : Vec F S64x1024 .f32) :
    ∀ j ∈ (slab xrM i).view.set, (slab xrM i).view.write (Elt F) fd v Finset.univ j = slabBuf v j :=
  write_univ_eq_of_emb _ fd _ v (slab_key_xr i v)

/-- The chunk as a copy leaves it, restated at its contents. -/
theorem xrPts_landed (d : Dev nD) (i : Fin 16) (q : PosShare TreeShare) (fd : (slab xrM i).view.ty.Contents (Elt F))
    (v : Vec F S64x1024 .f32) :
    ((((slab xrM i).view.loc (d : Thread nD τ)) ↦[(slab xrM i).view.set]{q} (slab xrM i).view.write (Elt F) fd v Finset.univ) : sProp 𝕄)
      = xrPts d i q v :=
  pointsTo_congr (slab_landed_xr i fd v)

omit [FloatOps F] in
theorem slab_key_zr (i : Fin 16) (v : Vec F S64x1024 .f32) (y : S64x1024.Idx) :
    slabBuf v ((slab zrM i).view.emb y) = cast (congrArg (Elt F) (slab zrM i).view.elt_eq.symm) (v y) :=
  (slabBuf_at i v y).trans (cast_eq _ _).symm

omit [FloatOps F] in
/-- Chunk `i` of a buffer every chunk of which holds `v` reads as `v`. -/
theorem slab_read_zr (i : Fin 16) (v : Vec F S64x1024 .f32) :
    (slab zrM i).view.read (Elt F) (slabBuf v) = v :=
  read_eq_of_emb _ _ _ (slab_key_zr i v)

omit [FloatOps F] in
/-- Whatever the buffer held, once `v` is written over chunk `i` the chunk's elements are those of `slabBuf v`. -/
theorem slab_landed_zr (i : Fin 16) (fd : (slab zrM i).view.ty.Contents (Elt F)) (v : Vec F S64x1024 .f32) :
    ∀ j ∈ (slab zrM i).view.set, (slab zrM i).view.write (Elt F) fd v Finset.univ j = slabBuf v j :=
  write_univ_eq_of_emb _ fd _ v (slab_key_zr i v)

/-- The chunk as a copy leaves it, restated at its contents. -/
theorem zrPts_landed (d : Dev nD) (i : Fin 16) (q : PosShare TreeShare) (fd : (slab zrM i).view.ty.Contents (Elt F))
    (v : Vec F S64x1024 .f32) :
    ((((slab zrM i).view.loc (d : Thread nD τ)) ↦[(slab zrM i).view.set]{q} (slab zrM i).view.write (Elt F) fd v Finset.univ) : sProp 𝕄)
      = zrPts d i q v :=
  pointsTo_congr (slab_landed_zr i fd v)

/-! ## Sixty-four aligned rows of the result -/

omit [FloatOps F] in
/-- A result array every aligned 64-row block of which holds `v`, at the place of index `y` of a 64-row window
    that starts at a multiple of 64 and at column 0, holds `v y`. -/
theorem rowBuf_at (off : Fin 2 → Nat) (h : ∀ a, off a + S64x1024.size a ≤ S8192x1024.size a)
    (h0 : off 0 % 64 = 0) (h1 : off 1 = 0) (v : Vec F S64x1024 .f32) (y : S64x1024.Idx) :
    rowBuf v ((oRow off h).view.emb y) = v y := by
  have e0 : (⟨(((oRow off h).view.emb y) 0).val % 64, Nat.mod_lt _ (by decide)⟩ : Fin 64) = y 0 := by
    apply Fin.ext
    show (off 0 + 1 * (y 0).val) % 64 = (y 0).val
    have := Idealize.ShloMosaic.ValueIdx.idx2_lt0 y
    omega
  have e1 : ((((oRow off h).view.emb y) 1 : Fin 1024)) = y 1 := by
    apply Fin.ext
    show off 1 + 1 * (y 1).val = (y 1).val
    omega
  show v (ix2 (⟨(((oRow off h).view.emb y) 0).val % 64, Nat.mod_lt _ (by decide)⟩ : Fin 64) (((oRow off h).view.emb y) 1)) = v y
  rw [e0, e1]
  exact congrArg v (Idealize.ShloMosaic.ValueIdx.eq_ix2 y).symm

omit [FloatOps F] in
theorem row_key (off : Fin 2 → Nat) (h : ∀ a, off a + S64x1024.size a ≤ S8192x1024.size a)
    (h0 : off 0 % 64 = 0) (h1 : off 1 = 0) (v : Vec F S64x1024 .f32) (y : S64x1024.Idx) :
    rowBuf v ((oRow off h).view.emb y) = cast (congrArg (Elt F) (oRow off h).view.elt_eq.symm) (v y) :=
  (rowBuf_at off h h0 h1 v y).trans (cast_eq _ _).symm

omit [FloatOps F] in
/-- Sixty-four aligned rows of a result every aligned block of which holds `v` read as `v`. -/
theorem row_read (off : Fin 2 → Nat) (h : ∀ a, off a + S64x1024.size a ≤ S8192x1024.size a)
    (h0 : off 0 % 64 = 0) (h1 : off 1 = 0) (v : Vec F S64x1024 .f32) :
    (oRow off h).view.read (Elt F) (rowBuf v) = v :=
  read_eq_of_emb _ _ _ (row_key off h h0 h1 v)

omit [FloatOps F] in
/-- Whatever the result held, once `v` is written over those rows their elements are those of `rowBuf v`. -/
theorem row_landed (off : Fin 2 → Nat) (h : ∀ a, off a + S64x1024.size a ≤ S8192x1024.size a)
    (h0 : off 0 % 64 = 0) (h1 : off 1 = 0) (fd : (oRow off h).view.ty.Contents (Elt F)) (v : Vec F S64x1024 .f32) :
    ∀ j ∈ (oRow off h).view.set, (oRow off h).view.write (Elt F) fd v Finset.univ j = rowBuf v j :=
  write_univ_eq_of_emb _ fd _ v (row_key off h h0 h1 v)

/-- The rows as a copy leaves them, restated at their contents. -/
theorem rowPts_landed (off : Fin 2 → Nat) (h : ∀ a, off a + S64x1024.size a ≤ S8192x1024.size a)
    (h0 : off 0 % 64 = 0) (h1 : off 1 = 0) (d : Dev nD) (fd : (oRow off h).view.ty.Contents (Elt F))
    (v : Vec F S64x1024 .f32) :
    ((((oRow off h).view.loc (d : Thread nD τ)) ↦[(oRow off h).view.set]{fullShare} (oRow off h).view.write (Elt F) fd v Finset.univ) : sProp 𝕄)
      = rowPts off h d v :=
  pointsTo_congr (row_landed off h h0 h1 fd v)

/-! ## The row windows the program uses are aligned -/

theorem off4_al (d : Dev nD) (i : Fin 16) : k0_off4 d (wd i) 0 % 64 = 0 ∧ k0_off4 d (wd i) 1 = 0 := by
  rw [show k0_off4 d (wd i) = _ from k0_off4_eq d i]
  refine ⟨?_, rfl⟩
  show ((2048 * (d.val / 8) + 1024 * ((d.val % 4) % 2) + 64 * i.val + 4096) - 4096 * ((d.val / 4) % 2)) % 64 = 0
  omega

theorem off5_al (d : Dev nD) (i : Fin 16) : k0_off5 d (wd i) 0 % 64 = 0 ∧ k0_off5 d (wd i) 1 = 0 := by
  rw [show k0_off5 d (wd i) = _ from k0_off5_eq d i]
  refine ⟨?_, rfl⟩
  show ((1024 * ((d.val % 4) % 2) + 64 * i.val + 6144) - (4096 * ((d.val / 4) % 2) + 2048 * (d.val / 8))) % 64 = 0
  omega

theorem off6_al (d : Dev nD) (i : Fin 16) : k0_off6 d (wd i) 0 % 64 = 0 ∧ k0_off6 d (wd i) 1 = 0 := by
  rw [show k0_off6 d (wd i) = _ from k0_off6_eq d i]
  refine ⟨?_, rfl⟩
  show ((2048 * (d.val / 8) + 64 * i.val + 5120) - (4096 * ((d.val / 4) % 2) + 1024 * ((d.val % 4) % 2))) % 64 = 0
  omega

theorem qOff_al (c : Dev nD) (i : Fin 16) : qOff c i 0 % 64 = 0 ∧ qOff c i 1 = 0 := by
  unfold qOff; split
  · exact off6_al (xP c) i
  · exact off5_al (zP c) i

/-- The rows an even chunk of the fourth quarter lands in on the `x` partner are the rows the sender computes, -/
theorem qOff_xP_even (c : Dev nD) (i : Fin 16) (hi : i.val % 2 = 0) : qOff (xP c) i = k0_off6 c (wd i) := by
  unfold qOff; rw [if_pos hi, xP_xP]

/-- and likewise an odd chunk's on the `z` partner. -/
theorem qOff_zP_odd (c : Dev nD) (i : Fin 16) (hi : i.val % 2 = 1) : qOff (zP c) i = k0_off5 c (wd i) := by
  unfold qOff; rw [if_neg (by omega), zP_zP]

end Cert.KernelIdeal.A2A

end
-- ==== Proof.Value.lean ====
import proofs.«900640_g7700000000000641_dist_a2a_v7x_xyz2x2x4_y_m4096_n1024_f32_1_alg».proof.Proof.Ghost
import proofs.«900640_g7700000000000641_dist_a2a_v7x_xyz2x2x4_y_m4096_n1024_f32_1_alg».proof.Proof.Landing

/-!
# Where every stored chunk sits in the result

Device `c`'s result has 8192 rows: its own half, 4096 rows copied from its own input block, and the other half,
four quarters of sixteen 64-row chunks. Each chunk stored there is the chunk some device across `y` loaded from its
own input; which device depends only on the quarter. This module shows, index by index, that every stored piece
agrees with the result `outC m c` on the rows it is stored at, that the 65 pieces are pairwise disjoint and
cover the result, and joins them into the result held whole.

All of it is arithmetic on the row index: a device is `8·X + 4·Y + 2·W + Z` with `X, Y, W, Z ≤ 1`, its partners
flip `Y`, `X` or `Z`, and every row offset is `4096·(1 − Y) + 1024·quarter + 64·i`.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-- Closes an arithmetic goal about a device by going through the sixteen devices. -/
local macro "by_dev " c:term : tactic =>
  `(tactic| (have hc : ($c).val < 16 := ($c).isLt
             generalize ($c).val = n at hc ⊢
             interval_cases n <;> omega))

/-! ## Partners, in arithmetic -/

theorem yP_val (c : Dev nD) : (yP c).val = c.val + 4 - 8 * ((c.val / 4) % 2) := by revert c; decide
theorem xP_val (c : Dev nD) : (xP c).val = c.val + 8 - 16 * (c.val / 8) := by revert c; decide
theorem zP_val (c : Dev nD) : (zP c).val = c.val + 1 - 2 * (c.val % 2) := by revert c; decide

/-! ## The row offsets, in closed form -/

theorem off4_row (c : Dev nD) (i : Fin 16) :
    k0_off4 c (wd i) 0 = (2048 * (c.val / 8) + 1024 * ((c.val % 4) % 2) + 64 * i.val + 4096) - 4096 * ((c.val / 4) % 2) := by
  rw [show k0_off4 c (wd i) = _ from k0_off4_eq c i]; rfl

theorem off5_row (c : Dev nD) (i : Fin 16) :
    k0_off5 c (wd i) 0 = (1024 * ((c.val % 4) % 2) + 64 * i.val + 6144) - (4096 * ((c.val / 4) % 2) + 2048 * (c.val / 8)) := by
  rw [show k0_off5 c (wd i) = _ from k0_off5_eq c i]; rfl

theorem off6_row (c : Dev nD) (i : Fin 16) :
    k0_off6 c (wd i) 0 = (2048 * (c.val / 8) + 64 * i.val + 5120) - (4096 * ((c.val / 4) % 2) + 1024 * ((c.val % 4) % 2)) := by
  rw [show k0_off6 c (wd i) = _ from k0_off6_eq c i]; rfl

/-- The fourth quarter's rows, whoever writes them. -/
theorem qOff_row (c : Dev nD) (i : Fin 16) :
    qOff c i 0 = (64 * i.val + 7168) - (4096 * ((c.val / 4) % 2) + 2048 * (c.val / 8) + 1024 * ((c.val % 4) % 2)) := by
  unfold qOff; split
  · rw [off6_row, xP_val]; by_dev c
  · rw [off5_row, zP_val]; by_dev c

/-! ## The input, the chunks and the own half, index by index -/

/-- Device `d`'s input block. -/
def inp (d : Dev nD) : S4096x2048.Idx → Elt F .f32 := m ((d : Thread nD τ).loc main_arg0)

omit [FloatOps F] in
theorem inp_congr (s : Dev nD) {a a' : Fin 4096} {b b' : Fin 2048} (ha : a.val = a'.val) (hb : b.val = b'.val) :
    inp m s (ix2 a b) = inp m s (ix2 a' b') := by
  rw [Fin.ext ha, Fin.ext hb]

omit [FloatOps F] in
/-- Element `(r, col)` of the chunk device `d` loads as its `i`-th. -/
theorem chunk_inp (d : Dev nD) (i : Fin 16) (r : Fin 64) (col : Fin 1024) :
    chunk m d i (ix2 r col)
      = inp m d (ix2 (⟨2048 * (d.val / 8) + 1024 * ((d.val % 4) % 2) + 64 * i.val + r.val, by
            have := (show d.val < 16 from d.isLt); have := i.isLt; have := r.isLt; omega⟩ : Fin 4096)
          (⟨1024 - 1024 * ((d.val / 4) % 2) + col.val, by have := col.isLt; omega⟩ : Fin 2048)) := by
  unfold chunk inp
  rw [View.read_apply, cast_eq]
  congr 1
  funext a
  apply Fin.ext
  match a with
  | ⟨0, _⟩ =>
    show (k0_off1 d (wd i)) 0 + 1 * r.val = 2048 * (d.val / 8) + 1024 * ((d.val % 4) % 2) + 64 * i.val + r.val
    rw [show k0_off1 d (wd i) = _ from k0_off1_eq d i]
    show (2048 * (d.val / 8) + 1024 * ((d.val % 4) % 2) + 64 * i.val) + 1 * r.val = _
    omega
  | ⟨1, _⟩ =>
    show (k0_off1 d (wd i)) 1 + 1 * col.val = 1024 - 1024 * ((d.val / 4) % 2) + col.val
    rw [show k0_off1 d (wd i) = _ from k0_off1_eq d i]
    show (1024 - 1024 * ((d.val / 4) % 2)) + 1 * col.val = _
    omega

omit [FloatOps F] in
/-- The same, with the input written out. -/
theorem chunk_apply (d : Dev nD) (i : Fin 16) (r : Fin 64) (col : Fin 1024) :
    chunk m d i (ix2 r col)
      = (m ((d : Thread nD τ).loc main_arg0) : S4096x2048.Idx → Elt F .f32)
          (ix2 (⟨2048 * (d.val / 8) + 1024 * ((d.val % 4) % 2) + 64 * i.val + r.val, by
            have := (show d.val < 16 from d.isLt); have := i.isLt; have := r.isLt; omega⟩ : Fin 4096)
          (⟨1024 - 1024 * ((d.val / 4) % 2) + col.val, by have := col.isLt; omega⟩ : Fin 2048)) :=
  chunk_inp m d i r col

omit [FloatOps F] in
/-- Element `(R, col)` of a device's own half. -/
theorem own_inp (c : Dev nD) (R : Fin 4096) (col : Fin 1024) :
    ownHalf m c (ix2 R col)
      = inp m c (ix2 R (⟨1024 * ((c.val / 4) % 2) + col.val, by have := col.isLt; omega⟩ : Fin 2048)) := by
  unfold ownHalf inp
  rw [View.read_apply, cast_eq]
  congr 1
  funext a
  apply Fin.ext
  match a with
  | ⟨0, _⟩ =>
    show (k0_off2 c) 0 + 1 * R.val = R.val
    rw [k0_off2_eq]
    show 0 + 1 * R.val = _
    omega
  | ⟨1, _⟩ =>
    show (k0_off2 c) 1 + 1 * col.val = 1024 * ((c.val / 4) % 2) + col.val
    rw [k0_off2_eq]
    show 1024 * ((c.val / 4) % 2) + 1 * col.val = _
    omega

/-! ## The result, index by index -/

omit [FloatOps F] in
/-- A property of every index of a window holds of every element under it. -/
theorem forall_mem_set_of_emb {sg : RefSig} {κ : Kind} {sp : Space} {S : Shape} {e : EltTy} (w : View sg κ sp S e)
    (P : w.ty.Idx → Prop) (h : ∀ y, P (w.emb y)) : ∀ j ∈ w.set, P j := by
  intro j hj
  obtain ⟨y, rfl⟩ := View.exists_emb_of_mem_set w hj
  exact h y

omit [FloatOps F] in
/-- The result at a row whose source device is known. -/
theorem outC_at (c s : Dev nD) (j : S8192x1024.Idx) (hs : srcOf c (j 0).val = s) :
    outC m c j = inp m s (ix2 (⟨(j 0).val % 4096, Nat.mod_lt _ (by decide)⟩ : Fin 4096)
      (⟨(1024 * yOf c + (j 1).val) % 2048, Nat.mod_lt _ (by decide)⟩ : Fin 2048)) := by
  subst hs; rfl

omit [FloatOps F] in
/-- Chunk `i` of a device `s` across `y`, stored at 64 aligned rows that the result reads from `s` at the chunk's
    own rows, is the result there. -/
theorem row_out_core (c s : Dev nD) (i : Fin 16) (off : Fin 2 → Nat) (h : ∀ a, off a + S64x1024.size a ≤ S8192x1024.size a)
    (h0 : off 0 % 64 = 0) (h1 : off 1 = 0)
    (hsrc : ∀ r : ℕ, r < 64 → srcOf c (off 0 + r) = s)
    (hrow : ∀ r : ℕ, r < 64 → (off 0 + r) % 4096 = 2048 * (s.val / 8) + 1024 * ((s.val % 4) % 2) + 64 * i.val + r)
    (hcol : 1024 - 1024 * ((s.val / 4) % 2) = 1024 * yOf c) :
    ∀ j ∈ (oRow off h).view.set, rowBuf (chunk m s i) j = outC m c j := by
  refine forall_mem_set_of_emb (oRow off h).view (fun j => rowBuf (chunk m s i) j = outC m c j) fun x => ?_
  rw [rowBuf_at off h h0 h1]
  obtain ⟨r, col, rfl⟩ : ∃ r col, x = ix2 r col := ⟨x 0, x 1, Idealize.ShloMosaic.ValueIdx.eq_ix2 x⟩
  have e0 : (((oRow off h).view.emb (ix2 r col)) 0).val = off 0 + r.val := by
    show off 0 + 1 * r.val = _; omega
  have e1 : (((oRow off h).view.emb (ix2 r col)) 1).val = col.val := by
    show off 1 + 1 * col.val = _; omega
  rw [chunk_inp, outC_at m c s _ (by rw [e0]; exact hsrc r.val r.isLt)]
  refine inp_congr m s ?_ ?_
  · show 2048 * (s.val / 8) + 1024 * ((s.val % 4) % 2) + 64 * i.val + r.val = (((oRow off h).view.emb (ix2 r col)) 0).val % 4096
    rw [e0, hrow r.val r.isLt]
  · show 1024 - 1024 * ((s.val / 4) % 2) + col.val = (1024 * yOf c + (((oRow off h).view.emb (ix2 r col)) 1).val) % 2048
    rw [e1, hcol]
    have hy : yOf c ≤ 1 := by unfold yOf; omega
    have := col.isLt
    omega

omit [FloatOps F] in
/-- The source device of a row in the other half, as a number. -/
theorem srcOf_val_ne (c : Dev nD) (R : ℕ) (h : R / 4096 ≠ (c.val / 4) % 2) :
    (srcOf c R).val = (8 * ((((R % 4096) / 1024) / 2) % 2) + 4 * (1 - (c.val / 4) % 2) + 2 * ((c.val % 4) / 2) + ((R % 4096) / 1024) % 2) % 16 := by
  unfold srcOf yOf; rw [if_neg h]; rfl

omit [FloatOps F] in
/-- The quarter a device loads itself, stored on its `y` partner. -/
theorem rowY_out (c : Dev nD) (i : Fin 16) :
    ∀ j ∈ (oRowY c i).view.set, rowBuf (chunk m (yP c) i) j = outC m c j := by
  have hi := i.isLt
  refine row_out_core m c (yP c) i _ _ (off4_al c i).1 (off4_al c i).2 ?_ ?_ ?_
  · intro r hr
    have hne : (k0_off4 c (wd i) 0 + r) / 4096 ≠ (c.val / 4) % 2 := by rw [off4_row]; by_dev c
    apply Fin.ext
    rw [srcOf_val_ne c _ hne, off4_row, yP_val]
    by_dev c
  · intro r hr
    rw [off4_row, yP_val]; by_dev c
  · unfold yOf; rw [yP_val]; by_dev c

omit [FloatOps F] in
/-- The quarter that came on through the `x` partner. -/
theorem rowX_out (c : Dev nD) (i : Fin 16) :
    ∀ j ∈ (oRowX c i).view.set, rowBuf (chunk m (yP (xP c)) i) j = outC m c j := by
  have hi := i.isLt
  refine row_out_core m c (yP (xP c)) i _ _ (off5_al c i).1 (off5_al c i).2 ?_ ?_ ?_
  · intro r hr
    have hne : (k0_off5 c (wd i) 0 + r) / 4096 ≠ (c.val / 4) % 2 := by rw [off5_row]; by_dev c
    apply Fin.ext
    rw [srcOf_val_ne c _ hne, off5_row, yP_val, xP_val]
    by_dev c
  · intro r hr
    rw [off5_row, yP_val, xP_val]; by_dev c
  · unfold yOf; rw [yP_val, xP_val]; by_dev c

omit [FloatOps F] in
/-- The quarter that came on through the `z` partner. -/
theorem rowZ_out (c : Dev nD) (i : Fin 16) :
    ∀ j ∈ (oRowZ c i).view.set, rowBuf (chunk m (yP (zP c)) i) j = outC m c j := by
  have hi := i.isLt
  refine row_out_core m c (yP (zP c)) i _ _ (off6_al c i).1 (off6_al c i).2 ?_ ?_ ?_
  · intro r hr
    have hne : (k0_off6 c (wd i) 0 + r) / 4096 ≠ (c.val / 4) % 2 := by rw [off6_row]; by_dev c
    apply Fin.ext
    rw [srcOf_val_ne c _ hne, off6_row, yP_val, zP_val]
    by_dev c
  · intro r hr
    rw [off6_row, yP_val, zP_val]; by_dev c
  · unfold yOf; rw [yP_val, zP_val]; by_dev c

omit [FloatOps F] in
/-- The fourth quarter, written by a partner. -/
theorem rowQ_out (c : Dev nD) (i : Fin 16) :
    ∀ j ∈ (oRowQ c i).view.set, rowBuf (chunk m (yP (xP (zP c))) i) j = outC m c j := by
  have hi := i.isLt
  refine row_out_core m c (yP (xP (zP c))) i _ _ (qOff_al c i).1 (qOff_al c i).2 ?_ ?_ ?_
  · intro r hr
    have hne : (qOff c i 0 + r) / 4096 ≠ (c.val / 4) % 2 := by rw [qOff_row]; by_dev c
    apply Fin.ext
    rw [srcOf_val_ne c _ hne, qOff_row, yP_val, xP_val, zP_val]
    by_dev c
  · intro r hr
    rw [qOff_row, yP_val, xP_val, zP_val]; by_dev c
  · unfold yOf; rw [yP_val, xP_val, zP_val]; by_dev c

omit [FloatOps F] in
/-- The own half, as the local copy leaves it. -/
theorem own_out (c : Dev nD) (fd : (oOwn c).view.ty.Contents (Elt F)) :
    ∀ j ∈ (oOwn c).view.set, (oOwn c).view.write (Elt F) fd (ownHalf m c) Finset.univ j = outC m c j := by
  refine write_univ_eq_of_emb (oOwn c).view fd (outC m c) (ownHalf m c) fun y => ?_
  refine (?_ : _ = ownHalf m c y).trans (cast_eq _ _).symm
  obtain ⟨R, col, rfl⟩ : ∃ R col, y = ix2 R col := ⟨y 0, y 1, Idealize.ShloMosaic.ValueIdx.eq_ix2 y⟩
  have hR := R.isLt
  have hcol := col.isLt
  have e0 : (((oOwn c).view.emb (ix2 R col)) 0).val = 4096 * ((c.val / 4) % 2) + R.val := by
    show (k0_off3 c) 0 + 1 * R.val = _
    rw [k0_off3_eq]
    show 4096 * ((c.val / 4) % 2) + 1 * R.val = _
    omega
  have e1 : (((oOwn c).view.emb (ix2 R col)) 1).val = col.val := by
    show (k0_off3 c) 1 + 1 * col.val = _
    rw [k0_off3_eq]
    show 0 + 1 * col.val = _
    omega
  rw [own_inp, outC_at m c c _ (by rw [e0]; unfold srcOf yOf; rw [if_pos (by omega)])]
  refine inp_congr m c ?_ ?_
  · show (((oOwn c).view.emb (ix2 R col)) 0).val % 4096 = R.val
    rw [e0]; omega
  · show (1024 * yOf c + (((oOwn c).view.emb (ix2 R col)) 1).val) % 2048 = 1024 * ((c.val / 4) % 2) + col.val
    rw [e1]; unfold yOf; omega

/-! ## The 65 pieces: which rows each covers -/

/-- A 64-row window at column 0 holds exactly the elements whose row lies in its 64 rows. -/
theorem mem_oRow (off : Fin 2 → Nat) (h : ∀ a, off a + S64x1024.size a ≤ S8192x1024.size a) (h1 : off 1 = 0)
    (j : S8192x1024.Idx) : j ∈ (oRow off h).view.set ↔ off 0 ≤ (j 0).val ∧ (j 0).val < off 0 + 64 := by
  show j ∈ ((View.whole main_v1).slice (Rect.unit (s := S8192x1024) off S64x1024.size h)).set ↔ _
  rw [View.set_slice_whole, Rect.mem_set_unit]
  constructor
  · intro H; exact H 0
  · intro H a
    match a with
    | ⟨0, _⟩ => exact H
    | ⟨1, _⟩ =>
      have := Idealize.ShloMosaic.ValueIdx.idx2_lt1 j
      show off 1 ≤ (j 1).val ∧ (j 1).val < off 1 + 1024
      omega

abbrev Kown (c : Dev nD) : Finset S8192x1024.Idx := (oOwn c).view.set
abbrev KY (c : Dev nD) (i : Fin 16) : Finset S8192x1024.Idx := (oRowY c i).view.set
abbrev KX (c : Dev nD) (i : Fin 16) : Finset S8192x1024.Idx := (oRowX c i).view.set
abbrev KZ (c : Dev nD) (i : Fin 16) : Finset S8192x1024.Idx := (oRowZ c i).view.set
abbrev KQ (c : Dev nD) (i : Fin 16) : Finset S8192x1024.Idx := (oRowQ c i).view.set
/-- The four chunks numbered `i`. -/
abbrev K4 (c : Dev nD) (i : Fin 16) : Finset S8192x1024.Idx := KY c i ∪ (KX c i ∪ (KZ c i ∪ KQ c i))

/-- The own half: the 4096 rows of the device's own `y` coordinate. -/
theorem mem_Kown (c : Dev nD) (j : S8192x1024.Idx) :
    j ∈ Kown c ↔ 4096 * ((c.val / 4) % 2) ≤ (j 0).val ∧ (j 0).val < 4096 * ((c.val / 4) % 2) + 4096 := by
  show j ∈ ((View.whole main_v1).slice (Rect.unit (s := S8192x1024) (k0_off3 c) S4096x1024.size (k0_off3_inb c))).set ↔ _
  rw [View.set_slice_whole, Rect.mem_set_unit, k0_off3_eq]
  constructor
  · intro H; exact H 0
  · intro H a
    match a with
    | ⟨0, _⟩ => exact H
    | ⟨1, _⟩ =>
      have := Idealize.ShloMosaic.ValueIdx.idx2_lt1 j
      refine ⟨Nat.zero_le _, ?_⟩
      show (j 1).val < 0 + 1024
      omega

theorem mem_KY (c : Dev nD) (i : Fin 16) (j : S8192x1024.Idx) :
    j ∈ KY c i ↔ ((2048 * (c.val / 8) + 1024 * ((c.val % 4) % 2) + 64 * i.val + 4096) - 4096 * ((c.val / 4) % 2) ≤ (j 0).val ∧ (j 0).val < (2048 * (c.val / 8) + 1024 * ((c.val % 4) % 2) + 64 * i.val + 4096) - 4096 * ((c.val / 4) % 2) + 64) := by
  have e := mem_oRow (k0_off4 c (wd i)) (k0_off4_inb c i) (off4_al c i).2 j
  rw [off4_row] at e
  exact e

theorem mem_KX (c : Dev nD) (i : Fin 16) (j : S8192x1024.Idx) :
    j ∈ KX c i ↔ ((1024 * ((c.val % 4) % 2) + 64 * i.val + 6144) - (4096 * ((c.val / 4) % 2) + 2048 * (c.val / 8)) ≤ (j 0).val ∧ (j 0).val < (1024 * ((c.val % 4) % 2) + 64 * i.val + 6144) - (4096 * ((c.val / 4) % 2) + 2048 * (c.val / 8)) + 64) := by
  have e := mem_oRow (k0_off5 c (wd i)) (k0_off5_inb c i) (off5_al c i).2 j
  rw [off5_row] at e
  exact e

theorem mem_KZ (c : Dev nD) (i : Fin 16) (j : S8192x1024.Idx) :
    j ∈ KZ c i ↔ ((2048 * (c.val / 8) + 64 * i.val + 5120) - (4096 * ((c.val / 4) % 2) + 1024 * ((c.val % 4) % 2)) ≤ (j 0).val ∧ (j 0).val < (2048 * (c.val / 8) + 64 * i.val + 5120) - (4096 * ((c.val / 4) % 2) + 1024 * ((c.val % 4) % 2)) + 64) := by
  have e := mem_oRow (k0_off6 c (wd i)) (k0_off6_inb c i) (off6_al c i).2 j
  rw [off6_row] at e
  exact e

theorem mem_KQ (c : Dev nD) (i : Fin 16) (j : S8192x1024.Idx) :
    j ∈ KQ c i ↔ ((64 * i.val + 7168) - (4096 * ((c.val / 4) % 2) + 2048 * (c.val / 8) + 1024 * ((c.val % 4) % 2)) ≤ (j 0).val ∧ (j 0).val < (64 * i.val + 7168) - (4096 * ((c.val / 4) % 2) + 2048 * (c.val / 8) + 1024 * ((c.val % 4) % 2)) + 64) := by
  have e := mem_oRow (qOff c i) (qOff_inb c i) (qOff_al c i).2 j
  rw [qOff_row] at e
  exact e

theorem mem_K4 (c : Dev nD) (i : Fin 16) (j : S8192x1024.Idx) :
    j ∈ K4 c i ↔ ((2048 * (c.val / 8) + 1024 * ((c.val % 4) % 2) + 64 * i.val + 4096) - 4096 * ((c.val / 4) % 2) ≤ (j 0).val ∧ (j 0).val < (2048 * (c.val / 8) + 1024 * ((c.val % 4) % 2) + 64 * i.val + 4096) - 4096 * ((c.val / 4) % 2) + 64) ∨ ((1024 * ((c.val % 4) % 2) + 64 * i.val + 6144) - (4096 * ((c.val / 4) % 2) + 2048 * (c.val / 8)) ≤ (j 0).val ∧ (j 0).val < (1024 * ((c.val % 4) % 2) + 64 * i.val + 6144) - (4096 * ((c.val / 4) % 2) + 2048 * (c.val / 8)) + 64) ∨ ((2048 * (c.val / 8) + 64 * i.val + 5120) - (4096 * ((c.val / 4) % 2) + 1024 * ((c.val % 4) % 2)) ≤ (j 0).val ∧ (j 0).val < (2048 * (c.val / 8) + 64 * i.val + 5120) - (4096 * ((c.val / 4) % 2) + 1024 * ((c.val % 4) % 2)) + 64) ∨ ((64 * i.val + 7168) - (4096 * ((c.val / 4) % 2) + 2048 * (c.val / 8) + 1024 * ((c.val % 4) % 2)) ≤ (j 0).val ∧ (j 0).val < (64 * i.val + 7168) - (4096 * ((c.val / 4) % 2) + 2048 * (c.val / 8) + 1024 * ((c.val % 4) % 2)) + 64) := by
  rw [Finset.mem_union, Finset.mem_union, Finset.mem_union, mem_KY, mem_KX, mem_KZ, mem_KQ]

/-! ## Pairwise disjoint, and all of the result -/

theorem disj_ZQ (c : Dev nD) (i : Fin 16) : Disjoint (KZ c i) (KQ c i) := by
  rw [Finset.disjoint_left]; intro j hj hj'
  rw [mem_KZ] at hj; rw [mem_KQ] at hj'
  have hi := i.isLt
  revert hj hj'; by_dev c

theorem disj_X_ZQ (c : Dev nD) (i : Fin 16) : Disjoint (KX c i) (KZ c i ∪ KQ c i) := by
  rw [Finset.disjoint_left]; intro j hj hj'
  rw [mem_KX] at hj; rw [Finset.mem_union, mem_KZ, mem_KQ] at hj'
  have hi := i.isLt
  revert hj hj'; by_dev c

theorem disj_Y_XZQ (c : Dev nD) (i : Fin 16) : Disjoint (KY c i) (KX c i ∪ (KZ c i ∪ KQ c i)) := by
  rw [Finset.disjoint_left]; intro j hj hj'
  rw [mem_KY] at hj; rw [Finset.mem_union, Finset.mem_union, mem_KX, mem_KZ, mem_KQ] at hj'
  have hi := i.isLt
  revert hj hj'; by_dev c

theorem disj_K4 (c : Dev nD) :
    ∀ i ∈ (Finset.univ : Finset (Fin 16)), ∀ i' ∈ (Finset.univ : Finset (Fin 16)), i ≠ i' → Disjoint (K4 c i) (K4 c i') := by
  intro i _ i' _ hne
  rw [Finset.disjoint_left]; intro j hj hj'
  rw [mem_K4] at hj hj'
  have hi := i.isLt
  have hi' := i'.isLt
  have hv : i.val ≠ i'.val := fun e => hne (Fin.ext e)
  revert hj hj'; by_dev c

theorem disj_own (c : Dev nD) : Disjoint (Kown c) (Finset.univ.biUnion (K4 c)) := by
  rw [Finset.disjoint_left]; intro j hj hj'
  obtain ⟨i, -, hi4⟩ := Finset.mem_biUnion.mp hj'
  rw [mem_Kown] at hj; rw [mem_K4] at hi4
  have hi := i.isLt
  revert hj hi4; by_dev c

theorem cover (c : Dev nD) : Kown c ∪ Finset.univ.biUnion (K4 c) = Finset.univ := by
  refine Finset.eq_univ_of_forall fun j => ?_
  have hR : (j 0).val < 8192 := Idealize.ShloMosaic.ValueIdx.idx2_lt0 j
  by_cases hq : (j 0).val / 4096 = (c.val / 4) % 2
  · exact Finset.mem_union_left _ ((mem_Kown c j).mpr (by omega))
  · have hk : ((j 0).val % 1024) / 64 < 16 := by omega
    refine Finset.mem_union_right _ (Finset.mem_biUnion.mpr ⟨⟨((j 0).val % 1024) / 64, hk⟩, Finset.mem_univ _, (mem_K4 c _ j).mpr ?_⟩)
    dsimp only
    revert hq; by_dev c

/-! ## Splitting the result into its pieces, and joining them back -/

omit [FloatOps F] in
theorem eq_of_equiv {P Q : sProp 𝕄} (h : P ⊣⊢ Q) : P = Q := equiv_iff.mp ⟨h.1, h.2⟩

omit [FloatOps F] in
theorem sep_assoc_eq (P Q R : sProp 𝕄) : (iprop((P ∗ Q) ∗ R) : sProp 𝕄) = iprop(P ∗ Q ∗ R) := eq_of_equiv sep_assoc

omit [FloatOps F] in
/-- One assertion and sixteen groups of four, as one chain in order. -/
theorem chain16 (A : sProp 𝕄) (Y X Z Q : Fin 16 → sProp 𝕄) :
    (iprop(A ∗ bigSep Finset.univ (fun i : Fin 16 => iprop(Y i ∗ X i ∗ Z i ∗ Q i))) : sProp 𝕄)
      = iprop(A
        ∗ Y 0 ∗ X 0 ∗ Z 0 ∗ Q 0
        ∗ Y 1 ∗ X 1 ∗ Z 1 ∗ Q 1
        ∗ Y 2 ∗ X 2 ∗ Z 2 ∗ Q 2
        ∗ Y 3 ∗ X 3 ∗ Z 3 ∗ Q 3
        ∗ Y 4 ∗ X 4 ∗ Z 4 ∗ Q 4
        ∗ Y 5 ∗ X 5 ∗ Z 5 ∗ Q 5
        ∗ Y 6 ∗ X 6 ∗ Z 6 ∗ Q 6
        ∗ Y 7 ∗ X 7 ∗ Z 7 ∗ Q 7
        ∗ Y 8 ∗ X 8 ∗ Z 8 ∗ Q 8
        ∗ Y 9 ∗ X 9 ∗ Z 9 ∗ Q 9
        ∗ Y 10 ∗ X 10 ∗ Z 10 ∗ Q 10
        ∗ Y 11 ∗ X 11 ∗ Z 11 ∗ Q 11
        ∗ Y 12 ∗ X 12 ∗ Z 12 ∗ Q 12
        ∗ Y 13 ∗ X 13 ∗ Z 13 ∗ Q 13
        ∗ Y 14 ∗ X 14 ∗ Z 14 ∗ Q 14
        ∗ Y 15 ∗ X 15 ∗ Z 15 ∗ Q 15) := by
  rw [bigSep_univ_eq_bigSepL ([0, 1, 2, 3, 4, 5, 6, 7, 8, 9, 10, 11, 12, 13, 14, 15] : List (Fin 16)) (by decide) (by decide)]
  show (iprop(A
        ∗ (Y 0 ∗ X 0 ∗ Z 0 ∗ Q 0)
        ∗ (Y 1 ∗ X 1 ∗ Z 1 ∗ Q 1)
        ∗ (Y 2 ∗ X 2 ∗ Z 2 ∗ Q 2)
        ∗ (Y 3 ∗ X 3 ∗ Z 3 ∗ Q 3)
        ∗ (Y 4 ∗ X 4 ∗ Z 4 ∗ Q 4)
        ∗ (Y 5 ∗ X 5 ∗ Z 5 ∗ Q 5)
        ∗ (Y 6 ∗ X 6 ∗ Z 6 ∗ Q 6)
        ∗ (Y 7 ∗ X 7 ∗ Z 7 ∗ Q 7)
        ∗ (Y 8 ∗ X 8 ∗ Z 8 ∗ Q 8)
        ∗ (Y 9 ∗ X 9 ∗ Z 9 ∗ Q 9)
        ∗ (Y 10 ∗ X 10 ∗ Z 10 ∗ Q 10)
        ∗ (Y 11 ∗ X 11 ∗ Z 11 ∗ Q 11)
        ∗ (Y 12 ∗ X 12 ∗ Z 12 ∗ Q 12)
        ∗ (Y 13 ∗ X 13 ∗ Z 13 ∗ Q 13)
        ∗ (Y 14 ∗ X 14 ∗ Z 14 ∗ Q 14)
        ∗ (Y 15 ∗ X 15 ∗ Z 15 ∗ Q 15)) : sProp 𝕄) = _
  simp only [sep_assoc_eq]

omit [FloatOps F] in
/-- The own half and the sixty-four chunks, all at one valuation, are the whole result at it. -/
theorem pieces_eq (c : Dev nD) (g : Buf (Elt F) ((c : Thread nD τ).loc main_v1)) :
    (iprop((((c : Thread nD τ).loc main_v1) ↦[Kown c]{fullShare} g)
      ∗ bigSep Finset.univ (fun i : Fin 16 => iprop((((c : Thread nD τ).loc main_v1) ↦[KY c i]{fullShare} g) ∗ (((c : Thread nD τ).loc main_v1) ↦[KX c i]{fullShare} g)
          ∗ (((c : Thread nD τ).loc main_v1) ↦[KZ c i]{fullShare} g) ∗ (((c : Thread nD τ).loc main_v1) ↦[KQ c i]{fullShare} g)))) : sProp 𝕄)
      = (((c : Thread nD τ).loc main_v1) ↦[Finset.univ]{fullShare} g) := by
  have e4 : ∀ i : Fin 16, (iprop((((c : Thread nD τ).loc main_v1) ↦[KY c i]{fullShare} g) ∗ (((c : Thread nD τ).loc main_v1) ↦[KX c i]{fullShare} g)
          ∗ (((c : Thread nD τ).loc main_v1) ↦[KZ c i]{fullShare} g) ∗ (((c : Thread nD τ).loc main_v1) ↦[KQ c i]{fullShare} g)) : sProp 𝕄)
        = (((c : Thread nD τ).loc main_v1) ↦[K4 c i]{fullShare} g) := fun i => by
    rw [← eq_of_equiv (pointsTo_union (ℓ := ((c : Thread nD τ).loc main_v1)) (q := fullShare) (f := g) (disj_ZQ c i)),
      ← eq_of_equiv (pointsTo_union (ℓ := ((c : Thread nD τ).loc main_v1)) (q := fullShare) (f := g) (disj_X_ZQ c i)),
      ← eq_of_equiv (pointsTo_union (ℓ := ((c : Thread nD τ).loc main_v1)) (q := fullShare) (f := g) (disj_Y_XZQ c i))]
  rw [bigSep_congr (fun i _ => e4 i),
    ← pointsTo_biUnion (ℓ := ((c : Thread nD τ).loc main_v1)) (q := fullShare) (f := g) Finset.univ (K4 c) (disj_K4 c),
    ← eq_of_equiv (pointsTo_union (ℓ := ((c : Thread nD τ).loc main_v1)) (q := fullShare) (f := g) (disj_own c)),
    cover c]

omit [FloatOps F] in
/-- The result held whole at `fo` is its own half and its sixty-four chunks at `fo`. -/
theorem res_split_eq (c : Dev nD) (fo : S8192x1024.Idx → Elt F .f32) :
    (resPts (F := F) c fo : sProp 𝕄)
      = iprop(((oOwn c).view.loc (c : Thread nD τ) ↦[(oOwn c).view.set]{fullShare} fo)
        ∗ bigSep Finset.univ (fun i : Fin 16 => iprop(
            ((oRowY c i).view.loc (c : Thread nD τ) ↦[(oRowY c i).view.set]{fullShare} fo)
          ∗ ((oRowX c i).view.loc (c : Thread nD τ) ↦[(oRowX c i).view.set]{fullShare} fo)
          ∗ ((oRowZ c i).view.loc (c : Thread nD τ) ↦[(oRowZ c i).view.set]{fullShare} fo)
          ∗ ((oRowQ c i).view.loc (c : Thread nD τ) ↦[(oRowQ c i).view.set]{fullShare} fo)))) :=
  (pieces_eq c fo).symm

omit [FloatOps F] in
/-- The way in: the result held whole at `fo` gives its own half and its sixty-four chunks at `fo`. -/
theorem res_split (c : Dev nD) (fo : S8192x1024.Idx → Elt F .f32) :
    resPts (F := F) c fo
      ⊢ iprop(((oOwn c).view.loc (c : Thread nD τ) ↦[(oOwn c).view.set]{fullShare} fo)
        ∗ bigSep Finset.univ (fun i : Fin 16 => iprop(
            ((oRowY c i).view.loc (c : Thread nD τ) ↦[(oRowY c i).view.set]{fullShare} fo)
          ∗ ((oRowX c i).view.loc (c : Thread nD τ) ↦[(oRowX c i).view.set]{fullShare} fo)
          ∗ ((oRowZ c i).view.loc (c : Thread nD τ) ↦[(oRowZ c i).view.set]{fullShare} fo)
          ∗ ((oRowQ c i).view.loc (c : Thread nD τ) ↦[(oRowQ c i).view.set]{fullShare} fo)))) :=
  Entails.of_eq (res_split_eq c fo)

omit [FloatOps F] in
/-- The same as one chain: the own half, then for each `i` in order the four chunks numbered `i`. -/
theorem res_split_chain (c : Dev nD) (fo : S8192x1024.Idx → Elt F .f32) :
    (resPts (F := F) c fo : sProp 𝕄)
      = iprop(((oOwn c).view.loc (c : Thread nD τ) ↦[(oOwn c).view.set]{fullShare} fo)
        ∗ ((oRowY c 0).view.loc (c : Thread nD τ) ↦[(oRowY c 0).view.set]{fullShare} fo)
        ∗ ((oRowX c 0).view.loc (c : Thread nD τ) ↦[(oRowX c 0).view.set]{fullShare} fo)
        ∗ ((oRowZ c 0).view.loc (c : Thread nD τ) ↦[(oRowZ c 0).view.set]{fullShare} fo)
        ∗ ((oRowQ c 0).view.loc (c : Thread nD τ) ↦[(oRowQ c 0).view.set]{fullShare} fo)
        ∗ ((oRowY c 1).view.loc (c : Thread nD τ) ↦[(oRowY c 1).view.set]{fullShare} fo)
        ∗ ((oRowX c 1).view.loc (c : Thread nD τ) ↦[(oRowX c 1).view.set]{fullShare} fo)
        ∗ ((oRowZ c 1).view.loc (c : Thread nD τ) ↦[(oRowZ c 1).view.set]{fullShare} fo)
        ∗ ((oRowQ c 1).view.loc (c : Thread nD τ) ↦[(oRowQ c 1).view.set]{fullShare} fo)
        ∗ ((oRowY c 2).view.loc (c : Thread nD τ) ↦[(oRowY c 2).view.set]{fullShare} fo)
        ∗ ((oRowX c 2).view.loc (c : Thread nD τ) ↦[(oRowX c 2).view.set]{fullShare} fo)
        ∗ ((oRowZ c 2).view.loc (c : Thread nD τ) ↦[(oRowZ c 2).view.set]{fullShare} fo)
        ∗ ((oRowQ c 2).view.loc (c : Thread nD τ) ↦[(oRowQ c 2).view.set]{fullShare} fo)
        ∗ ((oRowY c 3).view.loc (c : Thread nD τ) ↦[(oRowY c 3).view.set]{fullShare} fo)
        ∗ ((oRowX c 3).view.loc (c : Thread nD τ) ↦[(oRowX c 3).view.set]{fullShare} fo)
        ∗ ((oRowZ c 3).view.loc (c : Thread nD τ) ↦[(oRowZ c 3).view.set]{fullShare} fo)
        ∗ ((oRowQ c 3).view.loc (c : Thread nD τ) ↦[(oRowQ c 3).view.set]{fullShare} fo)
        ∗ ((oRowY c 4).view.loc (c : Thread nD τ) ↦[(oRowY c 4).view.set]{fullShare} fo)
        ∗ ((oRowX c 4).view.loc (c : Thread nD τ) ↦[(oRowX c 4).view.set]{fullShare} fo)
        ∗ ((oRowZ c 4).view.loc (c : Thread nD τ) ↦[(oRowZ c 4).view.set]{fullShare} fo)
        ∗ ((oRowQ c 4).view.loc (c : Thread nD τ) ↦[(oRowQ c 4).view.set]{fullShare} fo)
        ∗ ((oRowY c 5).view.loc (c : Thread nD τ) ↦[(oRowY c 5).view.set]{fullShare} fo)
        ∗ ((oRowX c 5).view.loc (c : Thread nD τ) ↦[(oRowX c 5).view.set]{fullShare} fo)
        ∗ ((oRowZ c 5).view.loc (c : Thread nD τ) ↦[(oRowZ c 5).view.set]{fullShare} fo)
        ∗ ((oRowQ c 5).view.loc (c : Thread nD τ) ↦[(oRowQ c 5).view.set]{fullShare} fo)
        ∗ ((oRowY c 6).view.loc (c : Thread nD τ) ↦[(oRowY c 6).view.set]{fullShare} fo)
        ∗ ((oRowX c 6).view.loc (c : Thread nD τ) ↦[(oRowX c 6).view.set]{fullShare} fo)
        ∗ ((oRowZ c 6).view.loc (c : Thread nD τ) ↦[(oRowZ c 6).view.set]{fullShare} fo)
        ∗ ((oRowQ c 6).view.loc (c : Thread nD τ) ↦[(oRowQ c 6).view.set]{fullShare} fo)
        ∗ ((oRowY c 7).view.loc (c : Thread nD τ) ↦[(oRowY c 7).view.set]{fullShare} fo)
        ∗ ((oRowX c 7).view.loc (c : Thread nD τ) ↦[(oRowX c 7).view.set]{fullShare} fo)
        ∗ ((oRowZ c 7).view.loc (c : Thread nD τ) ↦[(oRowZ c 7).view.set]{fullShare} fo)
        ∗ ((oRowQ c 7).view.loc (c : Thread nD τ) ↦[(oRowQ c 7).view.set]{fullShare} fo)
        ∗ ((oRowY c 8).view.loc (c : Thread nD τ) ↦[(oRowY c 8).view.set]{fullShare} fo)
        ∗ ((oRowX c 8).view.loc (c : Thread nD τ) ↦[(oRowX c 8).view.set]{fullShare} fo)
        ∗ ((oRowZ c 8).view.loc (c : Thread nD τ) ↦[(oRowZ c 8).view.set]{fullShare} fo)
        ∗ ((oRowQ c 8).view.loc (c : Thread nD τ) ↦[(oRowQ c 8).view.set]{fullShare} fo)
        ∗ ((oRowY c 9).view.loc (c : Thread nD τ) ↦[(oRowY c 9).view.set]{fullShare} fo)
        ∗ ((oRowX c 9).view.loc (c : Thread nD τ) ↦[(oRowX c 9).view.set]{fullShare} fo)
        ∗ ((oRowZ c 9).view.loc (c : Thread nD τ) ↦[(oRowZ c 9).view.set]{fullShare} fo)
        ∗ ((oRowQ c 9).view.loc (c : Thread nD τ) ↦[(oRowQ c 9).view.set]{fullShare} fo)
        ∗ ((oRowY c 10).view.loc (c : Thread nD τ) ↦[(oRowY c 10).view.set]{fullShare} fo)
        ∗ ((oRowX c 10).view.loc (c : Thread nD τ) ↦[(oRowX c 10).view.set]{fullShare} fo)
        ∗ ((oRowZ c 10).view.loc (c : Thread nD τ) ↦[(oRowZ c 10).view.set]{fullShare} fo)
        ∗ ((oRowQ c 10).view.loc (c : Thread nD τ) ↦[(oRowQ c 10).view.set]{fullShare} fo)
        ∗ ((oRowY c 11).view.loc (c : Thread nD τ) ↦[(oRowY c 11).view.set]{fullShare} fo)
        ∗ ((oRowX c 11).view.loc (c : Thread nD τ) ↦[(oRowX c 11).view.set]{fullShare} fo)
        ∗ ((oRowZ c 11).view.loc (c : Thread nD τ) ↦[(oRowZ c 11).view.set]{fullShare} fo)
        ∗ ((oRowQ c 11).view.loc (c : Thread nD τ) ↦[(oRowQ c 11).view.set]{fullShare} fo)
        ∗ ((oRowY c 12).view.loc (c : Thread nD τ) ↦[(oRowY c 12).view.set]{fullShare} fo)
        ∗ ((oRowX c 12).view.loc (c : Thread nD τ) ↦[(oRowX c 12).view.set]{fullShare} fo)
        ∗ ((oRowZ c 12).view.loc (c : Thread nD τ) ↦[(oRowZ c 12).view.set]{fullShare} fo)
        ∗ ((oRowQ c 12).view.loc (c : Thread nD τ) ↦[(oRowQ c 12).view.set]{fullShare} fo)
        ∗ ((oRowY c 13).view.loc (c : Thread nD τ) ↦[(oRowY c 13).view.set]{fullShare} fo)
        ∗ ((oRowX c 13).view.loc (c : Thread nD τ) ↦[(oRowX c 13).view.set]{fullShare} fo)
        ∗ ((oRowZ c 13).view.loc (c : Thread nD τ) ↦[(oRowZ c 13).view.set]{fullShare} fo)
        ∗ ((oRowQ c 13).view.loc (c : Thread nD τ) ↦[(oRowQ c 13).view.set]{fullShare} fo)
        ∗ ((oRowY c 14).view.loc (c : Thread nD τ) ↦[(oRowY c 14).view.set]{fullShare} fo)
        ∗ ((oRowX c 14).view.loc (c : Thread nD τ) ↦[(oRowX c 14).view.set]{fullShare} fo)
        ∗ ((oRowZ c 14).view.loc (c : Thread nD τ) ↦[(oRowZ c 14).view.set]{fullShare} fo)
        ∗ ((oRowQ c 14).view.loc (c : Thread nD τ) ↦[(oRowQ c 14).view.set]{fullShare} fo)
        ∗ ((oRowY c 15).view.loc (c : Thread nD τ) ↦[(oRowY c 15).view.set]{fullShare} fo)
        ∗ ((oRowX c 15).view.loc (c : Thread nD τ) ↦[(oRowX c 15).view.set]{fullShare} fo)
        ∗ ((oRowZ c 15).view.loc (c : Thread nD τ) ↦[(oRowZ c 15).view.set]{fullShare} fo)
        ∗ ((oRowQ c 15).view.loc (c : Thread nD τ) ↦[(oRowQ c 15).view.set]{fullShare} fo)) :=
  (res_split_eq c fo).trans (chain16 _ (fun i => ((oRowY c i).view.loc (c : Thread nD τ) ↦[(oRowY c i).view.set]{fullShare} fo)) (fun i => ((oRowX c i).view.loc (c : Thread nD τ) ↦[(oRowX c i).view.set]{fullShare} fo))
    (fun i => ((oRowZ c i).view.loc (c : Thread nD τ) ↦[(oRowZ c i).view.set]{fullShare} fo)) (fun i => ((oRowQ c i).view.loc (c : Thread nD τ) ↦[(oRowQ c i).view.set]{fullShare} fo)))

omit [FloatOps F] in
/-- Both ways, as one chain. -/
theorem res_split_chain_iff (c : Dev nD) (fo : S8192x1024.Idx → Elt F .f32) :
    (resPts (F := F) c fo : sProp 𝕄)
      ⊣⊢ iprop(((oOwn c).view.loc (c : Thread nD τ) ↦[(oOwn c).view.set]{fullShare} fo)
        ∗ ((oRowY c 0).view.loc (c : Thread nD τ) ↦[(oRowY c 0).view.set]{fullShare} fo)
        ∗ ((oRowX c 0).view.loc (c : Thread nD τ) ↦[(oRowX c 0).view.set]{fullShare} fo)
        ∗ ((oRowZ c 0).view.loc (c : Thread nD τ) ↦[(oRowZ c 0).view.set]{fullShare} fo)
        ∗ ((oRowQ c 0).view.loc (c : Thread nD τ) ↦[(oRowQ c 0).view.set]{fullShare} fo)
        ∗ ((oRowY c 1).view.loc (c : Thread nD τ) ↦[(oRowY c 1).view.set]{fullShare} fo)
        ∗ ((oRowX c 1).view.loc (c : Thread nD τ) ↦[(oRowX c 1).view.set]{fullShare} fo)
        ∗ ((oRowZ c 1).view.loc (c : Thread nD τ) ↦[(oRowZ c 1).view.set]{fullShare} fo)
        ∗ ((oRowQ c 1).view.loc (c : Thread nD τ) ↦[(oRowQ c 1).view.set]{fullShare} fo)
        ∗ ((oRowY c 2).view.loc (c : Thread nD τ) ↦[(oRowY c 2).view.set]{fullShare} fo)
        ∗ ((oRowX c 2).view.loc (c : Thread nD τ) ↦[(oRowX c 2).view.set]{fullShare} fo)
        ∗ ((oRowZ c 2).view.loc (c : Thread nD τ) ↦[(oRowZ c 2).view.set]{fullShare} fo)
        ∗ ((oRowQ c 2).view.loc (c : Thread nD τ) ↦[(oRowQ c 2).view.set]{fullShare} fo)
        ∗ ((oRowY c 3).view.loc (c : Thread nD τ) ↦[(oRowY c 3).view.set]{fullShare} fo)
        ∗ ((oRowX c 3).view.loc (c : Thread nD τ) ↦[(oRowX c 3).view.set]{fullShare} fo)
        ∗ ((oRowZ c 3).view.loc (c : Thread nD τ) ↦[(oRowZ c 3).view.set]{fullShare} fo)
        ∗ ((oRowQ c 3).view.loc (c : Thread nD τ) ↦[(oRowQ c 3).view.set]{fullShare} fo)
        ∗ ((oRowY c 4).view.loc (c : Thread nD τ) ↦[(oRowY c 4).view.set]{fullShare} fo)
        ∗ ((oRowX c 4).view.loc (c : Thread nD τ) ↦[(oRowX c 4).view.set]{fullShare} fo)
        ∗ ((oRowZ c 4).view.loc (c : Thread nD τ) ↦[(oRowZ c 4).view.set]{fullShare} fo)
        ∗ ((oRowQ c 4).view.loc (c : Thread nD τ) ↦[(oRowQ c 4).view.set]{fullShare} fo)
        ∗ ((oRowY c 5).view.loc (c : Thread nD τ) ↦[(oRowY c 5).view.set]{fullShare} fo)
        ∗ ((oRowX c 5).view.loc (c : Thread nD τ) ↦[(oRowX c 5).view.set]{fullShare} fo)
        ∗ ((oRowZ c 5).view.loc (c : Thread nD τ) ↦[(oRowZ c 5).view.set]{fullShare} fo)
        ∗ ((oRowQ c 5).view.loc (c : Thread nD τ) ↦[(oRowQ c 5).view.set]{fullShare} fo)
        ∗ ((oRowY c 6).view.loc (c : Thread nD τ) ↦[(oRowY c 6).view.set]{fullShare} fo)
        ∗ ((oRowX c 6).view.loc (c : Thread nD τ) ↦[(oRowX c 6).view.set]{fullShare} fo)
        ∗ ((oRowZ c 6).view.loc (c : Thread nD τ) ↦[(oRowZ c 6).view.set]{fullShare} fo)
        ∗ ((oRowQ c 6).view.loc (c : Thread nD τ) ↦[(oRowQ c 6).view.set]{fullShare} fo)
        ∗ ((oRowY c 7).view.loc (c : Thread nD τ) ↦[(oRowY c 7).view.set]{fullShare} fo)
        ∗ ((oRowX c 7).view.loc (c : Thread nD τ) ↦[(oRowX c 7).view.set]{fullShare} fo)
        ∗ ((oRowZ c 7).view.loc (c : Thread nD τ) ↦[(oRowZ c 7).view.set]{fullShare} fo)
        ∗ ((oRowQ c 7).view.loc (c : Thread nD τ) ↦[(oRowQ c 7).view.set]{fullShare} fo)
        ∗ ((oRowY c 8).view.loc (c : Thread nD τ) ↦[(oRowY c 8).view.set]{fullShare} fo)
        ∗ ((oRowX c 8).view.loc (c : Thread nD τ) ↦[(oRowX c 8).view.set]{fullShare} fo)
        ∗ ((oRowZ c 8).view.loc (c : Thread nD τ) ↦[(oRowZ c 8).view.set]{fullShare} fo)
        ∗ ((oRowQ c 8).view.loc (c : Thread nD τ) ↦[(oRowQ c 8).view.set]{fullShare} fo)
        ∗ ((oRowY c 9).view.loc (c : Thread nD τ) ↦[(oRowY c 9).view.set]{fullShare} fo)
        ∗ ((oRowX c 9).view.loc (c : Thread nD τ) ↦[(oRowX c 9).view.set]{fullShare} fo)
        ∗ ((oRowZ c 9).view.loc (c : Thread nD τ) ↦[(oRowZ c 9).view.set]{fullShare} fo)
        ∗ ((oRowQ c 9).view.loc (c : Thread nD τ) ↦[(oRowQ c 9).view.set]{fullShare} fo)
        ∗ ((oRowY c 10).view.loc (c : Thread nD τ) ↦[(oRowY c 10).view.set]{fullShare} fo)
        ∗ ((oRowX c 10).view.loc (c : Thread nD τ) ↦[(oRowX c 10).view.set]{fullShare} fo)
        ∗ ((oRowZ c 10).view.loc (c : Thread nD τ) ↦[(oRowZ c 10).view.set]{fullShare} fo)
        ∗ ((oRowQ c 10).view.loc (c : Thread nD τ) ↦[(oRowQ c 10).view.set]{fullShare} fo)
        ∗ ((oRowY c 11).view.loc (c : Thread nD τ) ↦[(oRowY c 11).view.set]{fullShare} fo)
        ∗ ((oRowX c 11).view.loc (c : Thread nD τ) ↦[(oRowX c 11).view.set]{fullShare} fo)
        ∗ ((oRowZ c 11).view.loc (c : Thread nD τ) ↦[(oRowZ c 11).view.set]{fullShare} fo)
        ∗ ((oRowQ c 11).view.loc (c : Thread nD τ) ↦[(oRowQ c 11).view.set]{fullShare} fo)
        ∗ ((oRowY c 12).view.loc (c : Thread nD τ) ↦[(oRowY c 12).view.set]{fullShare} fo)
        ∗ ((oRowX c 12).view.loc (c : Thread nD τ) ↦[(oRowX c 12).view.set]{fullShare} fo)
        ∗ ((oRowZ c 12).view.loc (c : Thread nD τ) ↦[(oRowZ c 12).view.set]{fullShare} fo)
        ∗ ((oRowQ c 12).view.loc (c : Thread nD τ) ↦[(oRowQ c 12).view.set]{fullShare} fo)
        ∗ ((oRowY c 13).view.loc (c : Thread nD τ) ↦[(oRowY c 13).view.set]{fullShare} fo)
        ∗ ((oRowX c 13).view.loc (c : Thread nD τ) ↦[(oRowX c 13).view.set]{fullShare} fo)
        ∗ ((oRowZ c 13).view.loc (c : Thread nD τ) ↦[(oRowZ c 13).view.set]{fullShare} fo)
        ∗ ((oRowQ c 13).view.loc (c : Thread nD τ) ↦[(oRowQ c 13).view.set]{fullShare} fo)
        ∗ ((oRowY c 14).view.loc (c : Thread nD τ) ↦[(oRowY c 14).view.set]{fullShare} fo)
        ∗ ((oRowX c 14).view.loc (c : Thread nD τ) ↦[(oRowX c 14).view.set]{fullShare} fo)
        ∗ ((oRowZ c 14).view.loc (c : Thread nD τ) ↦[(oRowZ c 14).view.set]{fullShare} fo)
        ∗ ((oRowQ c 14).view.loc (c : Thread nD τ) ↦[(oRowQ c 14).view.set]{fullShare} fo)
        ∗ ((oRowY c 15).view.loc (c : Thread nD τ) ↦[(oRowY c 15).view.set]{fullShare} fo)
        ∗ ((oRowX c 15).view.loc (c : Thread nD τ) ↦[(oRowX c 15).view.set]{fullShare} fo)
        ∗ ((oRowZ c 15).view.loc (c : Thread nD τ) ↦[(oRowZ c 15).view.set]{fullShare} fo)
        ∗ ((oRowQ c 15).view.loc (c : Thread nD τ) ↦[(oRowQ c 15).view.set]{fullShare} fo)) :=
  ⟨Entails.of_eq (res_split_chain c fo), Entails.of_eq (res_split_chain c fo).symm⟩

omit [FloatOps F] in
/-- The own half and the sixty-four chunks, each held at contents that agree with the result on its rows, are
    the result held whole. -/
theorem res_join (c : Dev nD) (fown : S8192x1024.Idx → Elt F .f32)
    (fy fx fz fq : Fin 16 → S8192x1024.Idx → Elt F .f32)
    (hown : ∀ j ∈ (oOwn c).view.set, fown j = outC m c j)
    (hy : ∀ i, ∀ j ∈ (oRowY c i).view.set, fy i j = outC m c j)
    (hx : ∀ i, ∀ j ∈ (oRowX c i).view.set, fx i j = outC m c j)
    (hz : ∀ i, ∀ j ∈ (oRowZ c i).view.set, fz i j = outC m c j)
    (hq : ∀ i, ∀ j ∈ (oRowQ c i).view.set, fq i j = outC m c j) :
    iprop(((oOwn c).view.loc (c : Thread nD τ) ↦[(oOwn c).view.set]{fullShare} fown)
      ∗ bigSep Finset.univ (fun i : Fin 16 => iprop(
            ((oRowY c i).view.loc (c : Thread nD τ) ↦[(oRowY c i).view.set]{fullShare} fy i)
          ∗ ((oRowX c i).view.loc (c : Thread nD τ) ↦[(oRowX c i).view.set]{fullShare} fx i)
          ∗ ((oRowZ c i).view.loc (c : Thread nD τ) ↦[(oRowZ c i).view.set]{fullShare} fz i)
          ∗ ((oRowQ c i).view.loc (c : Thread nD τ) ↦[(oRowQ c i).view.set]{fullShare} fq i))))
      ⊢ (resPts c (outC m c) : sProp 𝕄) := by
  refine Entails.of_eq ?_
  have e : ∀ i : Fin 16, (iprop((((c : Thread nD τ).loc main_v1) ↦[KY c i]{fullShare} fy i) ∗ (((c : Thread nD τ).loc main_v1) ↦[KX c i]{fullShare} fx i)
          ∗ (((c : Thread nD τ).loc main_v1) ↦[KZ c i]{fullShare} fz i) ∗ (((c : Thread nD τ).loc main_v1) ↦[KQ c i]{fullShare} fq i)) : sProp 𝕄)
        = iprop((((c : Thread nD τ).loc main_v1) ↦[KY c i]{fullShare} outC m c) ∗ (((c : Thread nD τ).loc main_v1) ↦[KX c i]{fullShare} outC m c)
          ∗ (((c : Thread nD τ).loc main_v1) ↦[KZ c i]{fullShare} outC m c) ∗ (((c : Thread nD τ).loc main_v1) ↦[KQ c i]{fullShare} outC m c)) := fun i => by
    rw [pointsTo_congr (ℓ := ((c : Thread nD τ).loc main_v1)) (I := KY c i) (q := fullShare) (hy i),
      pointsTo_congr (ℓ := ((c : Thread nD τ).loc main_v1)) (I := KX c i) (q := fullShare) (hx i),
      pointsTo_congr (ℓ := ((c : Thread nD τ).loc main_v1)) (I := KZ c i) (q := fullShare) (hz i),
      pointsTo_congr (ℓ := ((c : Thread nD τ).loc main_v1)) (I := KQ c i) (q := fullShare) (hq i)]
  show (iprop((((c : Thread nD τ).loc main_v1) ↦[Kown c]{fullShare} fown)
      ∗ bigSep Finset.univ (fun i : Fin 16 => iprop((((c : Thread nD τ).loc main_v1) ↦[KY c i]{fullShare} fy i) ∗ (((c : Thread nD τ).loc main_v1) ↦[KX c i]{fullShare} fx i)
          ∗ (((c : Thread nD τ).loc main_v1) ↦[KZ c i]{fullShare} fz i) ∗ (((c : Thread nD τ).loc main_v1) ↦[KQ c i]{fullShare} fq i)))) : sProp 𝕄)
      = (((c : Thread nD τ).loc main_v1) ↦[Finset.univ]{fullShare} outC m c)
  rw [pointsTo_congr (ℓ := ((c : Thread nD τ).loc main_v1)) (I := Kown c) (q := fullShare) hown, bigSep_congr (fun i _ => e i)]
  exact pieces_eq c (outC m c)

omit [FloatOps F] in
/-- The same from one chain in order. -/
theorem res_join_chain (c : Dev nD) (fown : S8192x1024.Idx → Elt F .f32)
    (fy fx fz fq : Fin 16 → S8192x1024.Idx → Elt F .f32)
    (hown : ∀ j ∈ (oOwn c).view.set, fown j = outC m c j)
    (hy : ∀ i, ∀ j ∈ (oRowY c i).view.set, fy i j = outC m c j)
    (hx : ∀ i, ∀ j ∈ (oRowX c i).view.set, fx i j = outC m c j)
    (hz : ∀ i, ∀ j ∈ (oRowZ c i).view.set, fz i j = outC m c j)
    (hq : ∀ i, ∀ j ∈ (oRowQ c i).view.set, fq i j = outC m c j) :
    iprop(((oOwn c).view.loc (c : Thread nD τ) ↦[(oOwn c).view.set]{fullShare} fown)
        ∗ ((oRowY c 0).view.loc (c : Thread nD τ) ↦[(oRowY c 0).view.set]{fullShare} fy 0)
        ∗ ((oRowX c 0).view.loc (c : Thread nD τ) ↦[(oRowX c 0).view.set]{fullShare} fx 0)
        ∗ ((oRowZ c 0).view.loc (c : Thread nD τ) ↦[(oRowZ c 0).view.set]{fullShare} fz 0)
        ∗ ((oRowQ c 0).view.loc (c : Thread nD τ) ↦[(oRowQ c 0).view.set]{fullShare} fq 0)
        ∗ ((oRowY c 1).view.loc (c : Thread nD τ) ↦[(oRowY c 1).view.set]{fullShare} fy 1)
        ∗ ((oRowX c 1).view.loc (c : Thread nD τ) ↦[(oRowX c 1).view.set]{fullShare} fx 1)
        ∗ ((oRowZ c 1).view.loc (c : Thread nD τ) ↦[(oRowZ c 1).view.set]{fullShare} fz 1)
        ∗ ((oRowQ c 1).view.loc (c : Thread nD τ) ↦[(oRowQ c 1).view.set]{fullShare} fq 1)
        ∗ ((oRowY c 2).view.loc (c : Thread nD τ) ↦[(oRowY c 2).view.set]{fullShare} fy 2)
        ∗ ((oRowX c 2).view.loc (c : Thread nD τ) ↦[(oRowX c 2).view.set]{fullShare} fx 2)
        ∗ ((oRowZ c 2).view.loc (c : Thread nD τ) ↦[(oRowZ c 2).view.set]{fullShare} fz 2)
        ∗ ((oRowQ c 2).view.loc (c : Thread nD τ) ↦[(oRowQ c 2).view.set]{fullShare} fq 2)
        ∗ ((oRowY c 3).view.loc (c : Thread nD τ) ↦[(oRowY c 3).view.set]{fullShare} fy 3)
        ∗ ((oRowX c 3).view.loc (c : Thread nD τ) ↦[(oRowX c 3).view.set]{fullShare} fx 3)
        ∗ ((oRowZ c 3).view.loc (c : Thread nD τ) ↦[(oRowZ c 3).view.set]{fullShare} fz 3)
        ∗ ((oRowQ c 3).view.loc (c : Thread nD τ) ↦[(oRowQ c 3).view.set]{fullShare} fq 3)
        ∗ ((oRowY c 4).view.loc (c : Thread nD τ) ↦[(oRowY c 4).view.set]{fullShare} fy 4)
        ∗ ((oRowX c 4).view.loc (c : Thread nD τ) ↦[(oRowX c 4).view.set]{fullShare} fx 4)
        ∗ ((oRowZ c 4).view.loc (c : Thread nD τ) ↦[(oRowZ c 4).view.set]{fullShare} fz 4)
        ∗ ((oRowQ c 4).view.loc (c : Thread nD τ) ↦[(oRowQ c 4).view.set]{fullShare} fq 4)
        ∗ ((oRowY c 5).view.loc (c : Thread nD τ) ↦[(oRowY c 5).view.set]{fullShare} fy 5)
        ∗ ((oRowX c 5).view.loc (c : Thread nD τ) ↦[(oRowX c 5).view.set]{fullShare} fx 5)
        ∗ ((oRowZ c 5).view.loc (c : Thread nD τ) ↦[(oRowZ c 5).view.set]{fullShare} fz 5)
        ∗ ((oRowQ c 5).view.loc (c : Thread nD τ) ↦[(oRowQ c 5).view.set]{fullShare} fq 5)
        ∗ ((oRowY c 6).view.loc (c : Thread nD τ) ↦[(oRowY c 6).view.set]{fullShare} fy 6)
        ∗ ((oRowX c 6).view.loc (c : Thread nD τ) ↦[(oRowX c 6).view.set]{fullShare} fx 6)
        ∗ ((oRowZ c 6).view.loc (c : Thread nD τ) ↦[(oRowZ c 6).view.set]{fullShare} fz 6)
        ∗ ((oRowQ c 6).view.loc (c : Thread nD τ) ↦[(oRowQ c 6).view.set]{fullShare} fq 6)
        ∗ ((oRowY c 7).view.loc (c : Thread nD τ) ↦[(oRowY c 7).view.set]{fullShare} fy 7)
        ∗ ((oRowX c 7).view.loc (c : Thread nD τ) ↦[(oRowX c 7).view.set]{fullShare} fx 7)
        ∗ ((oRowZ c 7).view.loc (c : Thread nD τ) ↦[(oRowZ c 7).view.set]{fullShare} fz 7)
        ∗ ((oRowQ c 7).view.loc (c : Thread nD τ) ↦[(oRowQ c 7).view.set]{fullShare} fq 7)
        ∗ ((oRowY c 8).view.loc (c : Thread nD τ) ↦[(oRowY c 8).view.set]{fullShare} fy 8)
        ∗ ((oRowX c 8).view.loc (c : Thread nD τ) ↦[(oRowX c 8).view.set]{fullShare} fx 8)
        ∗ ((oRowZ c 8).view.loc (c : Thread nD τ) ↦[(oRowZ c 8).view.set]{fullShare} fz 8)
        ∗ ((oRowQ c 8).view.loc (c : Thread nD τ) ↦[(oRowQ c 8).view.set]{fullShare} fq 8)
        ∗ ((oRowY c 9).view.loc (c : Thread nD τ) ↦[(oRowY c 9).view.set]{fullShare} fy 9)
        ∗ ((oRowX c 9).view.loc (c : Thread nD τ) ↦[(oRowX c 9).view.set]{fullShare} fx 9)
        ∗ ((oRowZ c 9).view.loc (c : Thread nD τ) ↦[(oRowZ c 9).view.set]{fullShare} fz 9)
        ∗ ((oRowQ c 9).view.loc (c : Thread nD τ) ↦[(oRowQ c 9).view.set]{fullShare} fq 9)
        ∗ ((oRowY c 10).view.loc (c : Thread nD τ) ↦[(oRowY c 10).view.set]{fullShare} fy 10)
        ∗ ((oRowX c 10).view.loc (c : Thread nD τ) ↦[(oRowX c 10).view.set]{fullShare} fx 10)
        ∗ ((oRowZ c 10).view.loc (c : Thread nD τ) ↦[(oRowZ c 10).view.set]{fullShare} fz 10)
        ∗ ((oRowQ c 10).view.loc (c : Thread nD τ) ↦[(oRowQ c 10).view.set]{fullShare} fq 10)
        ∗ ((oRowY c 11).view.loc (c : Thread nD τ) ↦[(oRowY c 11).view.set]{fullShare} fy 11)
        ∗ ((oRowX c 11).view.loc (c : Thread nD τ) ↦[(oRowX c 11).view.set]{fullShare} fx 11)
        ∗ ((oRowZ c 11).view.loc (c : Thread nD τ) ↦[(oRowZ c 11).view.set]{fullShare} fz 11)
        ∗ ((oRowQ c 11).view.loc (c : Thread nD τ) ↦[(oRowQ c 11).view.set]{fullShare} fq 11)
        ∗ ((oRowY c 12).view.loc (c : Thread nD τ) ↦[(oRowY c 12).view.set]{fullShare} fy 12)
        ∗ ((oRowX c 12).view.loc (c : Thread nD τ) ↦[(oRowX c 12).view.set]{fullShare} fx 12)
        ∗ ((oRowZ c 12).view.loc (c : Thread nD τ) ↦[(oRowZ c 12).view.set]{fullShare} fz 12)
        ∗ ((oRowQ c 12).view.loc (c : Thread nD τ) ↦[(oRowQ c 12).view.set]{fullShare} fq 12)
        ∗ ((oRowY c 13).view.loc (c : Thread nD τ) ↦[(oRowY c 13).view.set]{fullShare} fy 13)
        ∗ ((oRowX c 13).view.loc (c : Thread nD τ) ↦[(oRowX c 13).view.set]{fullShare} fx 13)
        ∗ ((oRowZ c 13).view.loc (c : Thread nD τ) ↦[(oRowZ c 13).view.set]{fullShare} fz 13)
        ∗ ((oRowQ c 13).view.loc (c : Thread nD τ) ↦[(oRowQ c 13).view.set]{fullShare} fq 13)
        ∗ ((oRowY c 14).view.loc (c : Thread nD τ) ↦[(oRowY c 14).view.set]{fullShare} fy 14)
        ∗ ((oRowX c 14).view.loc (c : Thread nD τ) ↦[(oRowX c 14).view.set]{fullShare} fx 14)
        ∗ ((oRowZ c 14).view.loc (c : Thread nD τ) ↦[(oRowZ c 14).view.set]{fullShare} fz 14)
        ∗ ((oRowQ c 14).view.loc (c : Thread nD τ) ↦[(oRowQ c 14).view.set]{fullShare} fq 14)
        ∗ ((oRowY c 15).view.loc (c : Thread nD τ) ↦[(oRowY c 15).view.set]{fullShare} fy 15)
        ∗ ((oRowX c 15).view.loc (c : Thread nD τ) ↦[(oRowX c 15).view.set]{fullShare} fx 15)
        ∗ ((oRowZ c 15).view.loc (c : Thread nD τ) ↦[(oRowZ c 15).view.set]{fullShare} fz 15)
        ∗ ((oRowQ c 15).view.loc (c : Thread nD τ) ↦[(oRowQ c 15).view.set]{fullShare} fq 15))
      ⊢ (resPts c (outC m c) : sProp 𝕄) :=
  (Entails.of_eq (chain16 _ (fun i => ((oRowY c i).view.loc (c : Thread nD τ) ↦[(oRowY c i).view.set]{fullShare} fy i)) (fun i => ((oRowX c i).view.loc (c : Thread nD τ) ↦[(oRowX c i).view.set]{fullShare} fx i))
    (fun i => ((oRowZ c i).view.loc (c : Thread nD τ) ↦[(oRowZ c i).view.set]{fullShare} fz i)) (fun i => ((oRowQ c i).view.loc (c : Thread nD τ) ↦[(oRowQ c i).view.set]{fullShare} fq i))).symm).trans
    (res_join m c fown fy fx fz fq hown hy hx hz hq)

/-! ## What the module rests on -/

/-- info: 'Cert.KernelIdeal.A2A.chunk_apply' depends on axioms: [propext, Classical.choice, Quot.sound] -/
#guard_msgs in #print axioms chunk_apply

/-- info: 'Cert.KernelIdeal.A2A.rowY_out' depends on axioms: [propext, Classical.choice, Quot.sound] -/
#guard_msgs in #print axioms rowY_out

/-- info: 'Cert.KernelIdeal.A2A.rowX_out' depends on axioms: [propext, Classical.choice, Quot.sound] -/
#guard_msgs in #print axioms rowX_out

/-- info: 'Cert.KernelIdeal.A2A.rowZ_out' depends on axioms: [propext, Classical.choice, Quot.sound] -/
#guard_msgs in #print axioms rowZ_out

/-- info: 'Cert.KernelIdeal.A2A.rowQ_out' depends on axioms: [propext, Classical.choice, Quot.sound] -/
#guard_msgs in #print axioms rowQ_out

/-- info: 'Cert.KernelIdeal.A2A.own_out' depends on axioms: [propext, Classical.choice, Quot.sound] -/
#guard_msgs in #print axioms own_out

/-- info: 'Cert.KernelIdeal.A2A.cover' depends on axioms: [propext, Classical.choice, Quot.sound] -/
#guard_msgs in #print axioms cover

/-- info: 'Cert.KernelIdeal.A2A.res_split' depends on axioms: [propext, Classical.choice, Quot.sound] -/
#guard_msgs in #print axioms res_split

/-- info: 'Cert.KernelIdeal.A2A.res_split_chain_iff' depends on axioms: [propext, Classical.choice, Quot.sound] -/
#guard_msgs in #print axioms res_split_chain_iff

/-- info: 'Cert.KernelIdeal.A2A.res_join' depends on axioms: [propext, Classical.choice, Quot.sound] -/
#guard_msgs in #print axioms res_join

/-- info: 'Cert.KernelIdeal.A2A.res_join_chain' depends on axioms: [propext, Classical.choice, Quot.sound] -/
#guard_msgs in #print axioms res_join_chain

end Cert.KernelIdeal.A2A

end
-- ==== Proof.Tables2.lean ====
import proofs.«900640_g7700000000000641_dist_a2a_v7x_xyz2x2x4_y_m4096_n1024_f32_1_alg».proof.Proof.Tables
import proofs.«900640_g7700000000000641_dist_a2a_v7x_xyz2x2x4_y_m4096_n1024_f32_1_alg».proof.Proof.Landing

/-!
# The schedule's payloads, spelt out

The same payloads as the tables give, written as the points-to assertions themselves, in the two forms in which a
cell's payload is met.

The owner of a cell, waiting on it, receives the payload as the protocol names it: a chunk of a scratch buffer, or
sixty-four rows of the result, at its exact contents, cut into the shares its readers take at once.

The payer of a receive cell, making the copy that lands there, must hand over the landing window as the copy leaves
it: the window it was given at arbitrary contents, overwritten with what it read from its own source. The two are
the same assertion: what was there before is gone from the window, what is read from a buffer that holds the chunk
everywhere is the chunk, and a whole share is its parts. Where a partner's partner is named, it is the device itself.

The barrier cell's payloads are the landing windows a partner offers, one after another.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## A whole share and its parts -/

section Shares
variable {ℓ : Loc nD τ sig} {I : Finset (Idx ℓ)} {f : Buf (Elt F) ℓ}

/-- The whole is the share one reader takes and the rest; -/
theorem share_x_h : ((ℓ ↦[I]{fullShare} f) : sProp 𝕄) = iprop((ℓ ↦[I]{qX} f) ∗ ℓ ↦[I]{qH} f) :=
  have h : ((ℓ ↦[I]{fullShare} f) : sProp 𝕄) ⊣⊢ iprop((ℓ ↦[I]{qX} f) ∗ ℓ ↦[I]{qH} f) :=
    pointsTo_share (PosShare.mem_left_op_right fullShare)
  equiv_iff.mp ⟨h.1, h.2⟩

/-- the rest is the shares of two more readers; -/
theorem share_z_s : ((ℓ ↦[I]{qH} f) : sProp 𝕄) = iprop((ℓ ↦[I]{qZ} f) ∗ ℓ ↦[I]{qS} f) :=
  have h : ((ℓ ↦[I]{qH} f) : sProp 𝕄) ⊣⊢ iprop((ℓ ↦[I]{qZ} f) ∗ ℓ ↦[I]{qS} f) :=
    pointsTo_share (PosShare.mem_left_op_right fullShare.right)
  equiv_iff.mp ⟨h.1, h.2⟩

/-- so the whole is three readers' shares. -/
theorem share_x_z_s : ((ℓ ↦[I]{fullShare} f) : sProp 𝕄) = iprop((ℓ ↦[I]{qX} f) ∗ (ℓ ↦[I]{qZ} f) ∗ ℓ ↦[I]{qS} f) := by
  rw [share_x_h (ℓ := ℓ) (I := I) (f := f), share_z_s (ℓ := ℓ) (I := I) (f := f)]

end Shares

/-- An assertion that does not depend on the witness, under `∃` over an inhabited type, is itself. -/
theorem exists_const_eq {T : Type} (P : T → sProp 𝕄) (Q : sProp 𝕄) (t₀ : T) (h : ∀ t, P t = Q) :
    (iprop(∃ t, P t) : sProp 𝕄) = Q := by
  have h₁ : (iprop(∃ t, P t) : sProp 𝕄) ⊢ Q := by
    iintro ⟨%t, H⟩
    iapply (Entails.of_eq (h t))
    iexact H
  have h₂ : Q ⊢ (iprop(∃ t, P t) : sProp 𝕄) := by
    iintro H
    iexists t₀
    iapply (Entails.of_eq (h t₀).symm)
    iexact H
  exact equiv_iff.mp ⟨h₁, h₂⟩

/-! ## Sixteen chunks, and the even and the odd ones, one after another -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem bigSep_even16 (Φ : Fin 16 → sProp 𝕄) :
    bigSep (Finset.univ.filter fun i : Fin 16 => i.val % 2 = 0) Φ = iprop(Φ 0 ∗ Φ 2 ∗ Φ 4 ∗ Φ 6 ∗ Φ 8 ∗ Φ 10 ∗ Φ 12 ∗ Φ 14) :=
  bigSep_eq_bigSepL_of_eq [0, 2, 4, 6, 8, 10, 12, 14] (by decide) (by decide) Φ

theorem bigSep_odd16 (Φ : Fin 16 → sProp 𝕄) :
    bigSep (Finset.univ.filter fun i : Fin 16 => i.val % 2 = 1) Φ = iprop(Φ 1 ∗ Φ 3 ∗ Φ 5 ∗ Φ 7 ∗ Φ 9 ∗ Φ 11 ∗ Φ 13 ∗ Φ 15) :=
  bigSep_eq_bigSepL_of_eq [1, 3, 5, 7, 9, 11, 13, 15] (by decide) (by decide) Φ

/-! ## Small facts about the mesh and the row windows -/

/-- Across `x`, then `z`, then `x` again is across `z`. -/
private theorem xP_zP_xP (c : Dev nD) : xP (zP (xP c)) = zP c := by revert c; decide

omit [FloatOps F] in
/-- Row windows at equal offsets are the same assertion. -/
private theorem rowPts_off {off off' : Fin 2 → Nat} (e : off = off') (h : ∀ a, off a + S64x1024.size a ≤ S8192x1024.size a)
    (h' : ∀ a, off' a + S64x1024.size a ≤ S8192x1024.size a) (d : Dev nD) (v : Vec F S64x1024 .f32) :
    (rowPts off h d v : sProp 𝕄) = rowPts off' h' d v := by
  subst e; rfl

section Pay
variable (c : Dev nD) (i : Fin 16) (d : Fin 3)

/-! ## The owner's view: what a wait on one's own cell hands over -/

theorem pay_ys_own : (sched (F := F) m).payload (fcell c Fam.ys i) 0 d
    = (((slab sM i).view.loc (c : Thread nD τ)) ↦[(slab sM i).view.set]{fullShare} slabBuf (chunk m c i)) := by
  rw [payload_fam]; rfl

theorem pay_yr_own : (sched (F := F) m).payload (fcell c Fam.yr i) 0 d
    = iprop((((slab rM i).view.loc (c : Thread nD τ)) ↦[(slab rM i).view.set]{qX} slabBuf (chunk m (yP c) i))
        ∗ (((slab rM i).view.loc (c : Thread nD τ)) ↦[(slab rM i).view.set]{qZ} slabBuf (chunk m (yP c) i))
        ∗ (((slab rM i).view.loc (c : Thread nD τ)) ↦[(slab rM i).view.set]{qS} slabBuf (chunk m (yP c) i))) := by
  rw [payload_fam]; rfl

theorem pay_xs_own : (sched (F := F) m).payload (fcell c Fam.xs i) 0 d
    = (((slab rM i).view.loc (c : Thread nD τ)) ↦[(slab rM i).view.set]{qX} slabBuf (chunk m (yP c) i)) := by
  rw [payload_fam]; rfl

theorem pay_xr_own : (sched (F := F) m).payload (fcell c Fam.xr i) 0 d
    = iprop((((slab xrM i).view.loc (c : Thread nD τ)) ↦[(slab xrM i).view.set]{qX} slabBuf (chunk m (yP (xP c)) i))
        ∗ (((slab xrM i).view.loc (c : Thread nD τ)) ↦[(slab xrM i).view.set]{qH} slabBuf (chunk m (yP (xP c)) i))) := by
  rw [payload_fam]; rfl

theorem pay_zs_own : (sched (F := F) m).payload (fcell c Fam.zs i) 0 d
    = (((slab rM i).view.loc (c : Thread nD τ)) ↦[(slab rM i).view.set]{qZ} slabBuf (chunk m (yP c) i)) := by
  rw [payload_fam]; rfl

theorem pay_zr_own : (sched (F := F) m).payload (fcell c Fam.zr i) 0 d
    = iprop((((slab zrM i).view.loc (c : Thread nD τ)) ↦[(slab zrM i).view.set]{qX} slabBuf (chunk m (yP (zP c)) i))
        ∗ (((slab zrM i).view.loc (c : Thread nD τ)) ↦[(slab zrM i).view.set]{qH} slabBuf (chunk m (yP (zP c)) i))) := by
  rw [payload_fam]; rfl

theorem pay_qs_own_even (hi : i.val % 2 = 0) : (sched (F := F) m).payload (fcell c Fam.qs i) 0 d
    = (((slab zrM i).view.loc (c : Thread nD τ)) ↦[(slab zrM i).view.set]{qX} slabBuf (chunk m (yP (zP c)) i)) := by
  rw [payload_fam, famPay_qs_even m c i hi]

theorem pay_qs_own_odd (hi : i.val % 2 = 1) : (sched (F := F) m).payload (fcell c Fam.qs i) 0 d
    = (((slab xrM i).view.loc (c : Thread nD τ)) ↦[(slab xrM i).view.set]{qX} slabBuf (chunk m (yP (xP c)) i)) := by
  rw [payload_fam, famPay_qs_odd m c i (by omega)]

theorem pay_qr_own : (sched (F := F) m).payload (fcell c Fam.qr i) 0 d
    = (((oRow (qOff c i) (qOff_inb c i)).view.loc (c : Thread nD τ)) ↦[(oRow (qOff c i) (qOff_inb c i)).view.set]{fullShare} rowBuf (chunk m (yP (xP (zP c))) i)) := by
  rw [payload_fam]; rfl

/-! ## The payer's view: what the copy that lands in a partner's cell hands over -/

/-- The first hop: the `y` partner's chunk `i`, overwritten with what is read from this device's loaded chunk. -/
theorem pay_yr_paid : (sched (F := F) m).payload (fcell (yP c) Fam.yr i) 0 d
    = iprop(∃ fd, ((slab rM i).view.loc (yP c : Thread nD τ)) ↦[(slab rM i).view.set]{fullShare}
        (slab rM i).view.write (Elt F) fd ((slab sM i).view.read (Elt F) (slabBuf (chunk m c i))) Finset.univ) := by
  rw [payload_fam, famPay_yr, yP_yP]
  refine (exists_const_eq _ _ (slabBuf (chunk m c i)) fun fd => ?_).symm
  rw [slab_read_s, rPts_landed]
  exact share_x_z_s

/-- The second hop across `x`: the `x` partner's chunk `i`, overwritten with what is read from the chunk that came
    from the `y` partner. -/
theorem pay_xr_paid : (sched (F := F) m).payload (fcell (xP c) Fam.xr i) 0 d
    = iprop(∃ fd, ((slab xrM i).view.loc (xP c : Thread nD τ)) ↦[(slab xrM i).view.set]{fullShare}
        (slab xrM i).view.write (Elt F) fd ((slab rM i).view.read (Elt F) (slabBuf (chunk m (yP c) i))) Finset.univ) := by
  rw [payload_fam, famPay_xr, xP_xP]
  refine (exists_const_eq _ _ (slabBuf (chunk m (yP c) i)) fun fd => ?_).symm
  rw [slab_read_r, xrPts_landed]
  exact share_x_h

/-- The second hop across `z`. -/
theorem pay_zr_paid : (sched (F := F) m).payload (fcell (zP c) Fam.zr i) 0 d
    = iprop(∃ fd, ((slab zrM i).view.loc (zP c : Thread nD τ)) ↦[(slab zrM i).view.set]{fullShare}
        (slab zrM i).view.write (Elt F) fd ((slab rM i).view.read (Elt F) (slabBuf (chunk m (yP c) i))) Finset.univ) := by
  rw [payload_fam, famPay_zr, zP_zP]
  refine (exists_const_eq _ _ (slabBuf (chunk m (yP c) i)) fun fd => ?_).symm
  rw [slab_read_r, zrPts_landed]
  exact share_x_h

/-- The last hop of an even chunk: the rows of the `x` partner's fourth quarter that this device computes, overwritten
    with what is read from the chunk that came through the `z` partner. -/
theorem pay_qr_paid_even (hi : i.val % 2 = 0) : (sched (F := F) m).payload (fcell (xP c) Fam.qr i) 0 d
    = iprop(∃ fd, ((oRowZ c i).view.loc (xP c : Thread nD τ)) ↦[(oRowZ c i).view.set]{fullShare}
        (oRowZ c i).view.write (Elt F) fd ((slab zrM i).view.read (Elt F) (slabBuf (chunk m (yP (zP c)) i))) Finset.univ) := by
  rw [payload_fam, famPay_qr, xP_zP_xP,
    rowPts_off (qOff_xP_even c i hi) (qOff_inb (xP c) i) (k0_off6_inb c i) (xP c) (chunk m (yP (zP c)) i)]
  refine (exists_const_eq _ _ (rowBuf (chunk m (yP (zP c)) i)) fun fd => ?_).symm
  rw [slab_read_zr]
  exact rowPts_landed (k0_off6 c (wd i)) (k0_off6_inb c i) (off6_al c i).1 (off6_al c i).2 (xP c) fd (chunk m (yP (zP c)) i)

/-- The last hop of an odd chunk: the rows of the `z` partner's fourth quarter, from the chunk that came through the
    `x` partner. -/
theorem pay_qr_paid_odd (hi : i.val % 2 = 1) : (sched (F := F) m).payload (fcell (zP c) Fam.qr i) 0 d
    = iprop(∃ fd, ((oRowX c i).view.loc (zP c : Thread nD τ)) ↦[(oRowX c i).view.set]{fullShare}
        (oRowX c i).view.write (Elt F) fd ((slab xrM i).view.read (Elt F) (slabBuf (chunk m (yP (xP c)) i))) Finset.univ) := by
  rw [payload_fam, famPay_qr, zP_zP,
    rowPts_off (qOff_zP_odd c i hi) (qOff_inb (zP c) i) (k0_off5_inb c i) (zP c) (chunk m (yP (xP c)) i)]
  refine (exists_const_eq _ _ (rowBuf (chunk m (yP (xP c)) i)) fun fd => ?_).symm
  rw [slab_read_xr]
  exact rowPts_landed (k0_off5 c (wd i)) (k0_off5_inb c i) (off5_al c i).1 (off5_al c i).2 (zP c) fd (chunk m (yP (xP c)) i)

end Pay

/-! ## The barrier cell -/

section Bar
variable (c : Dev nD)

/-! ### The payer's view: what a device offers the partner it signals — its own landing windows -/

/-- To the `y` partner: its sixteen receive chunks. -/
theorem pay_bar_y_paid : (sched (F := F) m).payload (barCell (yP c)) 0 0
    = iprop((∃ f, ((slab rM 0).view.loc (c : Thread nD τ)) ↦[(slab rM 0).view.set]{fullShare} f)
        ∗ (∃ f, ((slab rM 1).view.loc (c : Thread nD τ)) ↦[(slab rM 1).view.set]{fullShare} f)
        ∗ (∃ f, ((slab rM 2).view.loc (c : Thread nD τ)) ↦[(slab rM 2).view.set]{fullShare} f)
        ∗ (∃ f, ((slab rM 3).view.loc (c : Thread nD τ)) ↦[(slab rM 3).view.set]{fullShare} f)
        ∗ (∃ f, ((slab rM 4).view.loc (c : Thread nD τ)) ↦[(slab rM 4).view.set]{fullShare} f)
        ∗ (∃ f, ((slab rM 5).view.loc (c : Thread nD τ)) ↦[(slab rM 5).view.set]{fullShare} f)
        ∗ (∃ f, ((slab rM 6).view.loc (c : Thread nD τ)) ↦[(slab rM 6).view.set]{fullShare} f)
        ∗ (∃ f, ((slab rM 7).view.loc (c : Thread nD τ)) ↦[(slab rM 7).view.set]{fullShare} f)
        ∗ (∃ f, ((slab rM 8).view.loc (c : Thread nD τ)) ↦[(slab rM 8).view.set]{fullShare} f)
        ∗ (∃ f, ((slab rM 9).view.loc (c : Thread nD τ)) ↦[(slab rM 9).view.set]{fullShare} f)
        ∗ (∃ f, ((slab rM 10).view.loc (c : Thread nD τ)) ↦[(slab rM 10).view.set]{fullShare} f)
        ∗ (∃ f, ((slab rM 11).view.loc (c : Thread nD τ)) ↦[(slab rM 11).view.set]{fullShare} f)
        ∗ (∃ f, ((slab rM 12).view.loc (c : Thread nD τ)) ↦[(slab rM 12).view.set]{fullShare} f)
        ∗ (∃ f, ((slab rM 13).view.loc (c : Thread nD τ)) ↦[(slab rM 13).view.set]{fullShare} f)
        ∗ (∃ f, ((slab rM 14).view.loc (c : Thread nD τ)) ↦[(slab rM 14).view.set]{fullShare} f)
        ∗ (∃ f, ((slab rM 15).view.loc (c : Thread nD τ)) ↦[(slab rM 15).view.set]{fullShare} f)) := by
  rw [payload_bar, barPay_0, yP_yP, bigSep_fin16]

/-- To the `x` partner: its sixteen chunks for what comes across `x`, and the even chunks' rows of its fourth quarter. -/
theorem pay_bar_x_paid : (sched (F := F) m).payload (barCell (xP c)) 0 1
    = iprop(((∃ f, ((slab xrM 0).view.loc (c : Thread nD τ)) ↦[(slab xrM 0).view.set]{fullShare} f)
        ∗ (∃ f, ((slab xrM 1).view.loc (c : Thread nD τ)) ↦[(slab xrM 1).view.set]{fullShare} f)
        ∗ (∃ f, ((slab xrM 2).view.loc (c : Thread nD τ)) ↦[(slab xrM 2).view.set]{fullShare} f)
        ∗ (∃ f, ((slab xrM 3).view.loc (c : Thread nD τ)) ↦[(slab xrM 3).view.set]{fullShare} f)
        ∗ (∃ f, ((slab xrM 4).view.loc (c : Thread nD τ)) ↦[(slab xrM 4).view.set]{fullShare} f)
        ∗ (∃ f, ((slab xrM 5).view.loc (c : Thread nD τ)) ↦[(slab xrM 5).view.set]{fullShare} f)
        ∗ (∃ f, ((slab xrM 6).view.loc (c : Thread nD τ)) ↦[(slab xrM 6).view.set]{fullShare} f)
        ∗ (∃ f, ((slab xrM 7).view.loc (c : Thread nD τ)) ↦[(slab xrM 7).view.set]{fullShare} f)
        ∗ (∃ f, ((slab xrM 8).view.loc (c : Thread nD τ)) ↦[(slab xrM 8).view.set]{fullShare} f)
        ∗ (∃ f, ((slab xrM 9).view.loc (c : Thread nD τ)) ↦[(slab xrM 9).view.set]{fullShare} f)
        ∗ (∃ f, ((slab xrM 10).view.loc (c : Thread nD τ)) ↦[(slab xrM 10).view.set]{fullShare} f)
        ∗ (∃ f, ((slab xrM 11).view.loc (c : Thread nD τ)) ↦[(slab xrM 11).view.set]{fullShare} f)
        ∗ (∃ f, ((slab xrM 12).view.loc (c : Thread nD τ)) ↦[(slab xrM 12).view.set]{fullShare} f)
        ∗ (∃ f, ((slab xrM 13).view.loc (c : Thread nD τ)) ↦[(slab xrM 13).view.set]{fullShare} f)
        ∗ (∃ f, ((slab xrM 14).view.loc (c : Thread nD τ)) ↦[(slab xrM 14).view.set]{fullShare} f)
        ∗ (∃ f, ((slab xrM 15).view.loc (c : Thread nD τ)) ↦[(slab xrM 15).view.set]{fullShare} f))
      ∗ ((∃ f, ((oRow (k0_off6 (xP c) (wd 0)) (k0_off6_inb (xP c) 0)).view.loc (c : Thread nD τ)) ↦[(oRow (k0_off6 (xP c) (wd 0)) (k0_off6_inb (xP c) 0)).view.set]{fullShare} f)
        ∗ (∃ f, ((oRow (k0_off6 (xP c) (wd 2)) (k0_off6_inb (xP c) 2)).view.loc (c : Thread nD τ)) ↦[(oRow (k0_off6 (xP c) (wd 2)) (k0_off6_inb (xP c) 2)).view.set]{fullShare} f)
        ∗ (∃ f, ((oRow (k0_off6 (xP c) (wd 4)) (k0_off6_inb (xP c) 4)).view.loc (c : Thread nD τ)) ↦[(oRow (k0_off6 (xP c) (wd 4)) (k0_off6_inb (xP c) 4)).view.set]{fullShare} f)
        ∗ (∃ f, ((oRow (k0_off6 (xP c) (wd 6)) (k0_off6_inb (xP c) 6)).view.loc (c : Thread nD τ)) ↦[(oRow (k0_off6 (xP c) (wd 6)) (k0_off6_inb (xP c) 6)).view.set]{fullShare} f)
        ∗ (∃ f, ((oRow (k0_off6 (xP c) (wd 8)) (k0_off6_inb (xP c) 8)).view.loc (c : Thread nD τ)) ↦[(oRow (k0_off6 (xP c) (wd 8)) (k0_off6_inb (xP c) 8)).view.set]{fullShare} f)
        ∗ (∃ f, ((oRow (k0_off6 (xP c) (wd 10)) (k0_off6_inb (xP c) 10)).view.loc (c : Thread nD τ)) ↦[(oRow (k0_off6 (xP c) (wd 10)) (k0_off6_inb (xP c) 10)).view.set]{fullShare} f)
        ∗ (∃ f, ((oRow (k0_off6 (xP c) (wd 12)) (k0_off6_inb (xP c) 12)).view.loc (c : Thread nD τ)) ↦[(oRow (k0_off6 (xP c) (wd 12)) (k0_off6_inb (xP c) 12)).view.set]{fullShare} f)
        ∗ (∃ f, ((oRow (k0_off6 (xP c) (wd 14)) (k0_off6_inb (xP c) 14)).view.loc (c : Thread nD τ)) ↦[(oRow (k0_off6 (xP c) (wd 14)) (k0_off6_inb (xP c) 14)).view.set]{fullShare} f))) := by
  rw [payload_bar, barPay_1, xP_xP, bigSep_fin16, bigSep_even16]

/-- To the `z` partner: its sixteen chunks for what comes across `z`, and the odd chunks' rows of its fourth quarter. -/
theorem pay_bar_z_paid : (sched (F := F) m).payload (barCell (zP c)) 0 2
    = iprop(((∃ f, ((slab zrM 0).view.loc (c : Thread nD τ)) ↦[(slab zrM 0).view.set]{fullShare} f)
        ∗ (∃ f, ((slab zrM 1).view.loc (c : Thread nD τ)) ↦[(slab zrM 1).view.set]{fullShare} f)
        ∗ (∃ f, ((slab zrM 2).view.loc (c : Thread nD τ)) ↦[(slab zrM 2).view.set]{fullShare} f)
        ∗ (∃ f, ((slab zrM 3).view.loc (c : Thread nD τ)) ↦[(slab zrM 3).view.set]{fullShare} f)
        ∗ (∃ f, ((slab zrM 4).view.loc (c : Thread nD τ)) ↦[(slab zrM 4).view.set]{fullShare} f)
        ∗ (∃ f, ((slab zrM 5).view.loc (c : Thread nD τ)) ↦[(slab zrM 5).view.set]{fullShare} f)
        ∗ (∃ f, ((slab zrM 6).view.loc (c : Thread nD τ)) ↦[(slab zrM 6).view.set]{fullShare} f)
        ∗ (∃ f, ((slab zrM 7).view.loc (c : Thread nD τ)) ↦[(slab zrM 7).view.set]{fullShare} f)
        ∗ (∃ f, ((slab zrM 8).view.loc (c : Thread nD τ)) ↦[(slab zrM 8).view.set]{fullShare} f)
        ∗ (∃ f, ((slab zrM 9).view.loc (c : Thread nD τ)) ↦[(slab zrM 9).view.set]{fullShare} f)
        ∗ (∃ f, ((slab zrM 10).view.loc (c : Thread nD τ)) ↦[(slab zrM 10).view.set]{fullShare} f)
        ∗ (∃ f, ((slab zrM 11).view.loc (c : Thread nD τ)) ↦[(slab zrM 11).view.set]{fullShare} f)
        ∗ (∃ f, ((slab zrM 12).view.loc (c : Thread nD τ)) ↦[(slab zrM 12).view.set]{fullShare} f)
        ∗ (∃ f, ((slab zrM 13).view.loc (c : Thread nD τ)) ↦[(slab zrM 13).view.set]{fullShare} f)
        ∗ (∃ f, ((slab zrM 14).view.loc (c : Thread nD τ)) ↦[(slab zrM 14).view.set]{fullShare} f)
        ∗ (∃ f, ((slab zrM 15).view.loc (c : Thread nD τ)) ↦[(slab zrM 15).view.set]{fullShare} f))
      ∗ ((∃ f, ((oRow (k0_off5 (zP c) (wd 1)) (k0_off5_inb (zP c) 1)).view.loc (c : Thread nD τ)) ↦[(oRow (k0_off5 (zP c) (wd 1)) (k0_off5_inb (zP c) 1)).view.set]{fullShare} f)
        ∗ (∃ f, ((oRow (k0_off5 (zP c) (wd 3)) (k0_off5_inb (zP c) 3)).view.loc (c : Thread nD τ)) ↦[(oRow (k0_off5 (zP c) (wd 3)) (k0_off5_inb (zP c) 3)).view.set]{fullShare} f)
        ∗ (∃ f, ((oRow (k0_off5 (zP c) (wd 5)) (k0_off5_inb (zP c) 5)).view.loc (c : Thread nD τ)) ↦[(oRow (k0_off5 (zP c) (wd 5)) (k0_off5_inb (zP c) 5)).view.set]{fullShare} f)
        ∗ (∃ f, ((oRow (k0_off5 (zP c) (wd 7)) (k0_off5_inb (zP c) 7)).view.loc (c : Thread nD τ)) ↦[(oRow (k0_off5 (zP c) (wd 7)) (k0_off5_inb (zP c) 7)).view.set]{fullShare} f)
        ∗ (∃ f, ((oRow (k0_off5 (zP c) (wd 9)) (k0_off5_inb (zP c) 9)).view.loc (c : Thread nD τ)) ↦[(oRow (k0_off5 (zP c) (wd 9)) (k0_off5_inb (zP c) 9)).view.set]{fullShare} f)
        ∗ (∃ f, ((oRow (k0_off5 (zP c) (wd 11)) (k0_off5_inb (zP c) 11)).view.loc (c : Thread nD τ)) ↦[(oRow (k0_off5 (zP c) (wd 11)) (k0_off5_inb (zP c) 11)).view.set]{fullShare} f)
        ∗ (∃ f, ((oRow (k0_off5 (zP c) (wd 13)) (k0_off5_inb (zP c) 13)).view.loc (c : Thread nD τ)) ↦[(oRow (k0_off5 (zP c) (wd 13)) (k0_off5_inb (zP c) 13)).view.set]{fullShare} f)
        ∗ (∃ f, ((oRow (k0_off5 (zP c) (wd 15)) (k0_off5_inb (zP c) 15)).view.loc (c : Thread nD τ)) ↦[(oRow (k0_off5 (zP c) (wd 15)) (k0_off5_inb (zP c) 15)).view.set]{fullShare} f))) := by
  rw [payload_bar, barPay_2, zP_zP, bigSep_fin16, bigSep_odd16]

/-! ### The owner's view: what the three partners' signals hand a device — their landing windows -/

theorem pay_bar0_own : (sched (F := F) m).payload (barCell c) 0 0
    = iprop((∃ f, ((slab rM 0).view.loc (yP c : Thread nD τ)) ↦[(slab rM 0).view.set]{fullShare} f)
        ∗ (∃ f, ((slab rM 1).view.loc (yP c : Thread nD τ)) ↦[(slab rM 1).view.set]{fullShare} f)
        ∗ (∃ f, ((slab rM 2).view.loc (yP c : Thread nD τ)) ↦[(slab rM 2).view.set]{fullShare} f)
        ∗ (∃ f, ((slab rM 3).view.loc (yP c : Thread nD τ)) ↦[(slab rM 3).view.set]{fullShare} f)
        ∗ (∃ f, ((slab rM 4).view.loc (yP c : Thread nD τ)) ↦[(slab rM 4).view.set]{fullShare} f)
        ∗ (∃ f, ((slab rM 5).view.loc (yP c : Thread nD τ)) ↦[(slab rM 5).view.set]{fullShare} f)
        ∗ (∃ f, ((slab rM 6).view.loc (yP c : Thread nD τ)) ↦[(slab rM 6).view.set]{fullShare} f)
        ∗ (∃ f, ((slab rM 7).view.loc (yP c : Thread nD τ)) ↦[(slab rM 7).view.set]{fullShare} f)
        ∗ (∃ f, ((slab rM 8).view.loc (yP c : Thread nD τ)) ↦[(slab rM 8).view.set]{fullShare} f)
        ∗ (∃ f, ((slab rM 9).view.loc (yP c : Thread nD τ)) ↦[(slab rM 9).view.set]{fullShare} f)
        ∗ (∃ f, ((slab rM 10).view.loc (yP c : Thread nD τ)) ↦[(slab rM 10).view.set]{fullShare} f)
        ∗ (∃ f, ((slab rM 11).view.loc (yP c : Thread nD τ)) ↦[(slab rM 11).view.set]{fullShare} f)
        ∗ (∃ f, ((slab rM 12).view.loc (yP c : Thread nD τ)) ↦[(slab rM 12).view.set]{fullShare} f)
        ∗ (∃ f, ((slab rM 13).view.loc (yP c : Thread nD τ)) ↦[(slab rM 13).view.set]{fullShare} f)
        ∗ (∃ f, ((slab rM 14).view.loc (yP c : Thread nD τ)) ↦[(slab rM 14).view.set]{fullShare} f)
        ∗ (∃ f, ((slab rM 15).view.loc (yP c : Thread nD τ)) ↦[(slab rM 15).view.set]{fullShare} f)) := by
  rw [payload_bar, barPay_0, bigSep_fin16]

theorem pay_bar1_own : (sched (F := F) m).payload (barCell c) 0 1
    = iprop(((∃ f, ((slab xrM 0).view.loc (xP c : Thread nD τ)) ↦[(slab xrM 0).view.set]{fullShare} f)
        ∗ (∃ f, ((slab xrM 1).view.loc (xP c : Thread nD τ)) ↦[(slab xrM 1).view.set]{fullShare} f)
        ∗ (∃ f, ((slab xrM 2).view.loc (xP c : Thread nD τ)) ↦[(slab xrM 2).view.set]{fullShare} f)
        ∗ (∃ f, ((slab xrM 3).view.loc (xP c : Thread nD τ)) ↦[(slab xrM 3).view.set]{fullShare} f)
        ∗ (∃ f, ((slab xrM 4).view.loc (xP c : Thread nD τ)) ↦[(slab xrM 4).view.set]{fullShare} f)
        ∗ (∃ f, ((slab xrM 5).view.loc (xP c : Thread nD τ)) ↦[(slab xrM 5).view.set]{fullShare} f)
        ∗ (∃ f, ((slab xrM 6).view.loc (xP c : Thread nD τ)) ↦[(slab xrM 6).view.set]{fullShare} f)
        ∗ (∃ f, ((slab xrM 7).view.loc (xP c : Thread nD τ)) ↦[(slab xrM 7).view.set]{fullShare} f)
        ∗ (∃ f, ((slab xrM 8).view.loc (xP c : Thread nD τ)) ↦[(slab xrM 8).view.set]{fullShare} f)
        ∗ (∃ f, ((slab xrM 9).view.loc (xP c : Thread nD τ)) ↦[(slab xrM 9).view.set]{fullShare} f)
        ∗ (∃ f, ((slab xrM 10).view.loc (xP c : Thread nD τ)) ↦[(slab xrM 10).view.set]{fullShare} f)
        ∗ (∃ f, ((slab xrM 11).view.loc (xP c : Thread nD τ)) ↦[(slab xrM 11).view.set]{fullShare} f)
        ∗ (∃ f, ((slab xrM 12).view.loc (xP c : Thread nD τ)) ↦[(slab xrM 12).view.set]{fullShare} f)
        ∗ (∃ f, ((slab xrM 13).view.loc (xP c : Thread nD τ)) ↦[(slab xrM 13).view.set]{fullShare} f)
        ∗ (∃ f, ((slab xrM 14).view.loc (xP c : Thread nD τ)) ↦[(slab xrM 14).view.set]{fullShare} f)
        ∗ (∃ f, ((slab xrM 15).view.loc (xP c : Thread nD τ)) ↦[(slab xrM 15).view.set]{fullShare} f))
      ∗ ((∃ f, ((oRow (k0_off6 c (wd 0)) (k0_off6_inb c 0)).view.loc (xP c : Thread nD τ)) ↦[(oRow (k0_off6 c (wd 0)) (k0_off6_inb c 0)).view.set]{fullShare} f)
        ∗ (∃ f, ((oRow (k0_off6 c (wd 2)) (k0_off6_inb c 2)).view.loc (xP c : Thread nD τ)) ↦[(oRow (k0_off6 c (wd 2)) (k0_off6_inb c 2)).view.set]{fullShare} f)
        ∗ (∃ f, ((oRow (k0_off6 c (wd 4)) (k0_off6_inb c 4)).view.loc (xP c : Thread nD τ)) ↦[(oRow (k0_off6 c (wd 4)) (k0_off6_inb c 4)).view.set]{fullShare} f)
        ∗ (∃ f, ((oRow (k0_off6 c (wd 6)) (k0_off6_inb c 6)).view.loc (xP c : Thread nD τ)) ↦[(oRow (k0_off6 c (wd 6)) (k0_off6_inb c 6)).view.set]{fullShare} f)
        ∗ (∃ f, ((oRow (k0_off6 c (wd 8)) (k0_off6_inb c 8)).view.loc (xP c : Thread nD τ)) ↦[(oRow (k0_off6 c (wd 8)) (k0_off6_inb c 8)).view.set]{fullShare} f)
        ∗ (∃ f, ((oRow (k0_off6 c (wd 10)) (k0_off6_inb c 10)).view.loc (xP c : Thread nD τ)) ↦[(oRow (k0_off6 c (wd 10)) (k0_off6_inb c 10)).view.set]{fullShare} f)
        ∗ (∃ f, ((oRow (k0_off6 c (wd 12)) (k0_off6_inb c 12)).view.loc (xP c : Thread nD τ)) ↦[(oRow (k0_off6 c (wd 12)) (k0_off6_inb c 12)).view.set]{fullShare} f)
        ∗ (∃ f, ((oRow (k0_off6 c (wd 14)) (k0_off6_inb c 14)).view.loc (xP c : Thread nD τ)) ↦[(oRow (k0_off6 c (wd 14)) (k0_off6_inb c 14)).view.set]{fullShare} f))) := by
  rw [payload_bar, barPay_1, bigSep_fin16, bigSep_even16]

theorem pay_bar2_own : (sched (F := F) m).payload (barCell c) 0 2
    = iprop(((∃ f, ((slab zrM 0).view.loc (zP c : Thread nD τ)) ↦[(slab zrM 0).view.set]{fullShare} f)
        ∗ (∃ f, ((slab zrM 1).view.loc (zP c : Thread nD τ)) ↦[(slab zrM 1).view.set]{fullShare} f)
        ∗ (∃ f, ((slab zrM 2).view.loc (zP c : Thread nD τ)) ↦[(slab zrM 2).view.set]{fullShare} f)
        ∗ (∃ f, ((slab zrM 3).view.loc (zP c : Thread nD τ)) ↦[(slab zrM 3).view.set]{fullShare} f)
        ∗ (∃ f, ((slab zrM 4).view.loc (zP c : Thread nD τ)) ↦[(slab zrM 4).view.set]{fullShare} f)
        ∗ (∃ f, ((slab zrM 5).view.loc (zP c : Thread nD τ)) ↦[(slab zrM 5).view.set]{fullShare} f)
        ∗ (∃ f, ((slab zrM 6).view.loc (zP c : Thread nD τ)) ↦[(slab zrM 6).view.set]{fullShare} f)
        ∗ (∃ f, ((slab zrM 7).view.loc (zP c : Thread nD τ)) ↦[(slab zrM 7).view.set]{fullShare} f)
        ∗ (∃ f, ((slab zrM 8).view.loc (zP c : Thread nD τ)) ↦[(slab zrM 8).view.set]{fullShare} f)
        ∗ (∃ f, ((slab zrM 9).view.loc (zP c : Thread nD τ)) ↦[(slab zrM 9).view.set]{fullShare} f)
        ∗ (∃ f, ((slab zrM 10).view.loc (zP c : Thread nD τ)) ↦[(slab zrM 10).view.set]{fullShare} f)
        ∗ (∃ f, ((slab zrM 11).view.loc (zP c : Thread nD τ)) ↦[(slab zrM 11).view.set]{fullShare} f)
        ∗ (∃ f, ((slab zrM 12).view.loc (zP c : Thread nD τ)) ↦[(slab zrM 12).view.set]{fullShare} f)
        ∗ (∃ f, ((slab zrM 13).view.loc (zP c : Thread nD τ)) ↦[(slab zrM 13).view.set]{fullShare} f)
        ∗ (∃ f, ((slab zrM 14).view.loc (zP c : Thread nD τ)) ↦[(slab zrM 14).view.set]{fullShare} f)
        ∗ (∃ f, ((slab zrM 15).view.loc (zP c : Thread nD τ)) ↦[(slab zrM 15).view.set]{fullShare} f))
      ∗ ((∃ f, ((oRow (k0_off5 c (wd 1)) (k0_off5_inb c 1)).view.loc (zP c : Thread nD τ)) ↦[(oRow (k0_off5 c (wd 1)) (k0_off5_inb c 1)).view.set]{fullShare} f)
        ∗ (∃ f, ((oRow (k0_off5 c (wd 3)) (k0_off5_inb c 3)).view.loc (zP c : Thread nD τ)) ↦[(oRow (k0_off5 c (wd 3)) (k0_off5_inb c 3)).view.set]{fullShare} f)
        ∗ (∃ f, ((oRow (k0_off5 c (wd 5)) (k0_off5_inb c 5)).view.loc (zP c : Thread nD τ)) ↦[(oRow (k0_off5 c (wd 5)) (k0_off5_inb c 5)).view.set]{fullShare} f)
        ∗ (∃ f, ((oRow (k0_off5 c (wd 7)) (k0_off5_inb c 7)).view.loc (zP c : Thread nD τ)) ↦[(oRow (k0_off5 c (wd 7)) (k0_off5_inb c 7)).view.set]{fullShare} f)
        ∗ (∃ f, ((oRow (k0_off5 c (wd 9)) (k0_off5_inb c 9)).view.loc (zP c : Thread nD τ)) ↦[(oRow (k0_off5 c (wd 9)) (k0_off5_inb c 9)).view.set]{fullShare} f)
        ∗ (∃ f, ((oRow (k0_off5 c (wd 11)) (k0_off5_inb c 11)).view.loc (zP c : Thread nD τ)) ↦[(oRow (k0_off5 c (wd 11)) (k0_off5_inb c 11)).view.set]{fullShare} f)
        ∗ (∃ f, ((oRow (k0_off5 c (wd 13)) (k0_off5_inb c 13)).view.loc (zP c : Thread nD τ)) ↦[(oRow (k0_off5 c (wd 13)) (k0_off5_inb c 13)).view.set]{fullShare} f)
        ∗ (∃ f, ((oRow (k0_off5 c (wd 15)) (k0_off5_inb c 15)).view.loc (zP c : Thread nD τ)) ↦[(oRow (k0_off5 c (wd 15)) (k0_off5_inb c 15)).view.set]{fullShare} f))) := by
  rw [payload_bar, barPay_2, bigSep_fin16, bigSep_odd16]

/-- The whole round of the barrier cell, no duty taken: the three partners' offers. -/
theorem rest_bar_own : bigSep ((sched (F := F) m).duties (barCell c) 0 \ ∅) (fun d => (sched (F := F) m).payload (barCell c) 0 d)
    = iprop(((∃ f, ((slab rM 0).view.loc (yP c : Thread nD τ)) ↦[(slab rM 0).view.set]{fullShare} f)
        ∗ (∃ f, ((slab rM 1).view.loc (yP c : Thread nD τ)) ↦[(slab rM 1).view.set]{fullShare} f)
        ∗ (∃ f, ((slab rM 2).view.loc (yP c : Thread nD τ)) ↦[(slab rM 2).view.set]{fullShare} f)
        ∗ (∃ f, ((slab rM 3).view.loc (yP c : Thread nD τ)) ↦[(slab rM 3).view.set]{fullShare} f)
        ∗ (∃ f, ((slab rM 4).view.loc (yP c : Thread nD τ)) ↦[(slab rM 4).view.set]{fullShare} f)
        ∗ (∃ f, ((slab rM 5).view.loc (yP c : Thread nD τ)) ↦[(slab rM 5).view.set]{fullShare} f)
        ∗ (∃ f, ((slab rM 6).view.loc (yP c : Thread nD τ)) ↦[(slab rM 6).view.set]{fullShare} f)
        ∗ (∃ f, ((slab rM 7).view.loc (yP c : Thread nD τ)) ↦[(slab rM 7).view.set]{fullShare} f)
        ∗ (∃ f, ((slab rM 8).view.loc (yP c : Thread nD τ)) ↦[(slab rM 8).view.set]{fullShare} f)
        ∗ (∃ f, ((slab rM 9).view.loc (yP c : Thread nD τ)) ↦[(slab rM 9).view.set]{fullShare} f)
        ∗ (∃ f, ((slab rM 10).view.loc (yP c : Thread nD τ)) ↦[(slab rM 10).view.set]{fullShare} f)
        ∗ (∃ f, ((slab rM 11).view.loc (yP c : Thread nD τ)) ↦[(slab rM 11).view.set]{fullShare} f)
        ∗ (∃ f, ((slab rM 12).view.loc (yP c : Thread nD τ)) ↦[(slab rM 12).view.set]{fullShare} f)
        ∗ (∃ f, ((slab rM 13).view.loc (yP c : Thread nD τ)) ↦[(slab rM 13).view.set]{fullShare} f)
        ∗ (∃ f, ((slab rM 14).view.loc (yP c : Thread nD τ)) ↦[(slab rM 14).view.set]{fullShare} f)
        ∗ (∃ f, ((slab rM 15).view.loc (yP c : Thread nD τ)) ↦[(slab rM 15).view.set]{fullShare} f))
      ∗ (((∃ f, ((slab xrM 0).view.loc (xP c : Thread nD τ)) ↦[(slab xrM 0).view.set]{fullShare} f)
        ∗ (∃ f, ((slab xrM 1).view.loc (xP c : Thread nD τ)) ↦[(slab xrM 1).view.set]{fullShare} f)
        ∗ (∃ f, ((slab xrM 2).view.loc (xP c : Thread nD τ)) ↦[(slab xrM 2).view.set]{fullShare} f)
        ∗ (∃ f, ((slab xrM 3).view.loc (xP c : Thread nD τ)) ↦[(slab xrM 3).view.set]{fullShare} f)
        ∗ (∃ f, ((slab xrM 4).view.loc (xP c : Thread nD τ)) ↦[(slab xrM 4).view.set]{fullShare} f)
        ∗ (∃ f, ((slab xrM 5).view.loc (xP c : Thread nD τ)) ↦[(slab xrM 5).view.set]{fullShare} f)
        ∗ (∃ f, ((slab xrM 6).view.loc (xP c : Thread nD τ)) ↦[(slab xrM 6).view.set]{fullShare} f)
        ∗ (∃ f, ((slab xrM 7).view.loc (xP c : Thread nD τ)) ↦[(slab xrM 7).view.set]{fullShare} f)
        ∗ (∃ f, ((slab xrM 8).view.loc (xP c : Thread nD τ)) ↦[(slab xrM 8).view.set]{fullShare} f)
        ∗ (∃ f, ((slab xrM 9).view.loc (xP c : Thread nD τ)) ↦[(slab xrM 9).view.set]{fullShare} f)
        ∗ (∃ f, ((slab xrM 10).view.loc (xP c : Thread nD τ)) ↦[(slab xrM 10).view.set]{fullShare} f)
        ∗ (∃ f, ((slab xrM 11).view.loc (xP c : Thread nD τ)) ↦[(slab xrM 11).view.set]{fullShare} f)
        ∗ (∃ f, ((slab xrM 12).view.loc (xP c : Thread nD τ)) ↦[(slab xrM 12).view.set]{fullShare} f)
        ∗ (∃ f, ((slab xrM 13).view.loc (xP c : Thread nD τ)) ↦[(slab xrM 13).view.set]{fullShare} f)
        ∗ (∃ f, ((slab xrM 14).view.loc (xP c : Thread nD τ)) ↦[(slab xrM 14).view.set]{fullShare} f)
        ∗ (∃ f, ((slab xrM 15).view.loc (xP c : Thread nD τ)) ↦[(slab xrM 15).view.set]{fullShare} f))
        ∗ ((∃ f, ((oRow (k0_off6 c (wd 0)) (k0_off6_inb c 0)).view.loc (xP c : Thread nD τ)) ↦[(oRow (k0_off6 c (wd 0)) (k0_off6_inb c 0)).view.set]{fullShare} f)
        ∗ (∃ f, ((oRow (k0_off6 c (wd 2)) (k0_off6_inb c 2)).view.loc (xP c : Thread nD τ)) ↦[(oRow (k0_off6 c (wd 2)) (k0_off6_inb c 2)).view.set]{fullShare} f)
        ∗ (∃ f, ((oRow (k0_off6 c (wd 4)) (k0_off6_inb c 4)).view.loc (xP c : Thread nD τ)) ↦[(oRow (k0_off6 c (wd 4)) (k0_off6_inb c 4)).view.set]{fullShare} f)
        ∗ (∃ f, ((oRow (k0_off6 c (wd 6)) (k0_off6_inb c 6)).view.loc (xP c : Thread nD τ)) ↦[(oRow (k0_off6 c (wd 6)) (k0_off6_inb c 6)).view.set]{fullShare} f)
        ∗ (∃ f, ((oRow (k0_off6 c (wd 8)) (k0_off6_inb c 8)).view.loc (xP c : Thread nD τ)) ↦[(oRow (k0_off6 c (wd 8)) (k0_off6_inb c 8)).view.set]{fullShare} f)
        ∗ (∃ f, ((oRow (k0_off6 c (wd 10)) (k0_off6_inb c 10)).view.loc (xP c : Thread nD τ)) ↦[(oRow (k0_off6 c (wd 10)) (k0_off6_inb c 10)).view.set]{fullShare} f)
        ∗ (∃ f, ((oRow (k0_off6 c (wd 12)) (k0_off6_inb c 12)).view.loc (xP c : Thread nD τ)) ↦[(oRow (k0_off6 c (wd 12)) (k0_off6_inb c 12)).view.set]{fullShare} f)
        ∗ (∃ f, ((oRow (k0_off6 c (wd 14)) (k0_off6_inb c 14)).view.loc (xP c : Thread nD τ)) ↦[(oRow (k0_off6 c (wd 14)) (k0_off6_inb c 14)).view.set]{fullShare} f)))
      ∗ (((∃ f, ((slab zrM 0).view.loc (zP c : Thread nD τ)) ↦[(slab zrM 0).view.set]{fullShare} f)
        ∗ (∃ f, ((slab zrM 1).view.loc (zP c : Thread nD τ)) ↦[(slab zrM 1).view.set]{fullShare} f)
        ∗ (∃ f, ((slab zrM 2).view.loc (zP c : Thread nD τ)) ↦[(slab zrM 2).view.set]{fullShare} f)
        ∗ (∃ f, ((slab zrM 3).view.loc (zP c : Thread nD τ)) ↦[(slab zrM 3).view.set]{fullShare} f)
        ∗ (∃ f, ((slab zrM 4).view.loc (zP c : Thread nD τ)) ↦[(slab zrM 4).view.set]{fullShare} f)
        ∗ (∃ f, ((slab zrM 5).view.loc (zP c : Thread nD τ)) ↦[(slab zrM 5).view.set]{fullShare} f)
        ∗ (∃ f, ((slab zrM 6).view.loc (zP c : Thread nD τ)) ↦[(slab zrM 6).view.set]{fullShare} f)
        ∗ (∃ f, ((slab zrM 7).view.loc (zP c : Thread nD τ)) ↦[(slab zrM 7).view.set]{fullShare} f)
        ∗ (∃ f, ((slab zrM 8).view.loc (zP c : Thread nD τ)) ↦[(slab zrM 8).view.set]{fullShare} f)
        ∗ (∃ f, ((slab zrM 9).view.loc (zP c : Thread nD τ)) ↦[(slab zrM 9).view.set]{fullShare} f)
        ∗ (∃ f, ((slab zrM 10).view.loc (zP c : Thread nD τ)) ↦[(slab zrM 10).view.set]{fullShare} f)
        ∗ (∃ f, ((slab zrM 11).view.loc (zP c : Thread nD τ)) ↦[(slab zrM 11).view.set]{fullShare} f)
        ∗ (∃ f, ((slab zrM 12).view.loc (zP c : Thread nD τ)) ↦[(slab zrM 12).view.set]{fullShare} f)
        ∗ (∃ f, ((slab zrM 13).view.loc (zP c : Thread nD τ)) ↦[(slab zrM 13).view.set]{fullShare} f)
        ∗ (∃ f, ((slab zrM 14).view.loc (zP c : Thread nD τ)) ↦[(slab zrM 14).view.set]{fullShare} f)
        ∗ (∃ f, ((slab zrM 15).view.loc (zP c : Thread nD τ)) ↦[(slab zrM 15).view.set]{fullShare} f))
        ∗ ((∃ f, ((oRow (k0_off5 c (wd 1)) (k0_off5_inb c 1)).view.loc (zP c : Thread nD τ)) ↦[(oRow (k0_off5 c (wd 1)) (k0_off5_inb c 1)).view.set]{fullShare} f)
        ∗ (∃ f, ((oRow (k0_off5 c (wd 3)) (k0_off5_inb c 3)).view.loc (zP c : Thread nD τ)) ↦[(oRow (k0_off5 c (wd 3)) (k0_off5_inb c 3)).view.set]{fullShare} f)
        ∗ (∃ f, ((oRow (k0_off5 c (wd 5)) (k0_off5_inb c 5)).view.loc (zP c : Thread nD τ)) ↦[(oRow (k0_off5 c (wd 5)) (k0_off5_inb c 5)).view.set]{fullShare} f)
        ∗ (∃ f, ((oRow (k0_off5 c (wd 7)) (k0_off5_inb c 7)).view.loc (zP c : Thread nD τ)) ↦[(oRow (k0_off5 c (wd 7)) (k0_off5_inb c 7)).view.set]{fullShare} f)
        ∗ (∃ f, ((oRow (k0_off5 c (wd 9)) (k0_off5_inb c 9)).view.loc (zP c : Thread nD τ)) ↦[(oRow (k0_off5 c (wd 9)) (k0_off5_inb c 9)).view.set]{fullShare} f)
        ∗ (∃ f, ((oRow (k0_off5 c (wd 11)) (k0_off5_inb c 11)).view.loc (zP c : Thread nD τ)) ↦[(oRow (k0_off5 c (wd 11)) (k0_off5_inb c 11)).view.set]{fullShare} f)
        ∗ (∃ f, ((oRow (k0_off5 c (wd 13)) (k0_off5_inb c 13)).view.loc (zP c : Thread nD τ)) ↦[(oRow (k0_off5 c (wd 13)) (k0_off5_inb c 13)).view.set]{fullShare} f)
        ∗ (∃ f, ((oRow (k0_off5 c (wd 15)) (k0_off5_inb c 15)).view.loc (zP c : Thread nD τ)) ↦[(oRow (k0_off5 c (wd 15)) (k0_off5_inb c 15)).view.set]{fullShare} f)))) :=
  (rest_bar m c).trans (congrArg₂ (fun a b : sProp 𝕄 => iprop(a ∗ b)) ((payload_bar m c 0).symm.trans (pay_bar0_own m c))
    (congrArg₂ (fun a b : sProp 𝕄 => iprop(a ∗ b)) ((payload_bar m c 1).symm.trans (pay_bar1_own m c)) ((payload_bar m c 2).symm.trans (pay_bar2_own m c))))

end Bar

/-! ## The fourth quarter's rows, named from either side -/

omit [FloatOps F] in
/-- The rows an even chunk of a device's fourth quarter lands in are the rows its `x` partner computes; -/
theorem oRowQ_even (c : Dev nD) (i : Fin 16) (hi : i.val % 2 = 0) : oRowQ c i = oRowZ (xP c) i := by
  have e : qOff c i = k0_off6 (xP c) (wd i) := by unfold qOff; rw [if_pos hi]
  show oRow (qOff c i) (qOff_inb c i) = oRow (k0_off6 (xP c) (wd i)) (k0_off6_inb (xP c) i)
  generalize qOff_inb c i = h
  revert h; rw [e]; intro h; rfl

omit [FloatOps F] in
/-- an odd chunk's, the rows its `z` partner computes. -/
theorem oRowQ_odd (c : Dev nD) (i : Fin 16) (hi : i.val % 2 = 1) : oRowQ c i = oRowX (zP c) i := by
  have e : qOff c i = k0_off5 (zP c) (wd i) := by unfold qOff; rw [if_neg (by omega)]
  show oRow (qOff c i) (qOff_inb c i) = oRow (k0_off5 (zP c) (wd i)) (k0_off5_inb (zP c) i)
  generalize qOff_inb c i = h
  revert h; rw [e]; intro h; rfl

/-- info: 'Cert.KernelIdeal.A2A.pay_yr_paid' depends on axioms: [propext, Classical.choice, Quot.sound] -/
#guard_msgs in #print axioms pay_yr_paid

/-- info: 'Cert.KernelIdeal.A2A.pay_qr_paid_even' depends on axioms: [propext, Classical.choice, Quot.sound] -/
#guard_msgs in #print axioms pay_qr_paid_even

/-- info: 'Cert.KernelIdeal.A2A.rest_bar_own' depends on axioms: [propext, Classical.choice, Quot.sound] -/
#guard_msgs in #print axioms rest_bar_own

end Cert.KernelIdeal.A2A

end
-- ==== Proof.Tables3.lean ====
import proofs.«900640_g7700000000000641_dist_a2a_v7x_xyz2x2x4_y_m4096_n1024_f32_1_alg».proof.Proof.Tables2

/-!
# The fourth hop's payloads, chunk by chunk

Which partner writes chunk `i` of a device's fourth quarter depends on the parity of `i`: an even chunk goes across `x`
from the chunk that came through the `z` partner, an odd chunk across `z` from the chunk that came through the `x`
partner. The general payload equations carry that parity as a hypothesis. Here they are at each of the sixteen
chunks, the parity decided: the same equations, one per chunk, with no hypothesis left.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## The payer's view of the fourth hop's receive cell -/

theorem pay_qr_paid_0 (c : Dev nD) (d : Fin 3) : (sched (F := F) m).payload (fcell (xP c) Fam.qr 0) 0 d
    = iprop(∃ fd, ((oRowZ c 0).view.loc (xP c : Thread nD τ)) ↦[(oRowZ c 0).view.set]{fullShare}
        (oRowZ c 0).view.write (Elt F) fd ((slab zrM 0).view.read (Elt F) (slabBuf (chunk m (yP (zP c)) 0))) Finset.univ) :=
  pay_qr_paid_even m c 0 d (by decide)

theorem pay_qr_paid_1 (c : Dev nD) (d : Fin 3) : (sched (F := F) m).payload (fcell (zP c) Fam.qr 1) 0 d
    = iprop(∃ fd, ((oRowX c 1).view.loc (zP c : Thread nD τ)) ↦[(oRowX c 1).view.set]{fullShare}
        (oRowX c 1).view.write (Elt F) fd ((slab xrM 1).view.read (Elt F) (slabBuf (chunk m (yP (xP c)) 1))) Finset.univ) :=
  pay_qr_paid_odd m c 1 d (by decide)

theorem pay_qr_paid_2 (c : Dev nD) (d : Fin 3) : (sched (F := F) m).payload (fcell (xP c) Fam.qr 2) 0 d
    = iprop(∃ fd, ((oRowZ c 2).view.loc (xP c : Thread nD τ)) ↦[(oRowZ c 2).view.set]{fullShare}
        (oRowZ c 2).view.write (Elt F) fd ((slab zrM 2).view.read (Elt F) (slabBuf (chunk m (yP (zP c)) 2))) Finset.univ) :=
  pay_qr_paid_even m c 2 d (by decide)

theorem pay_qr_paid_3 (c : Dev nD) (d : Fin 3) : (sched (F := F) m).payload (fcell (zP c) Fam.qr 3) 0 d
    = iprop(∃ fd, ((oRowX c 3).view.loc (zP c : Thread nD τ)) ↦[(oRowX c 3).view.set]{fullShare}
        (oRowX c 3).view.write (Elt F) fd ((slab xrM 3).view.read (Elt F) (slabBuf (chunk m (yP (xP c)) 3))) Finset.univ) :=
  pay_qr_paid_odd m c 3 d (by decide)

theorem pay_qr_paid_4 (c : Dev nD) (d : Fin 3) : (sched (F := F) m).payload (fcell (xP c) Fam.qr 4) 0 d
    = iprop(∃ fd, ((oRowZ c 4).view.loc (xP c : Thread nD τ)) ↦[(oRowZ c 4).view.set]{fullShare}
        (oRowZ c 4).view.write (Elt F) fd ((slab zrM 4).view.read (Elt F) (slabBuf (chunk m (yP (zP c)) 4))) Finset.univ) :=
  pay_qr_paid_even m c 4 d (by decide)

theorem pay_qr_paid_5 (c : Dev nD) (d : Fin 3) : (sched (F := F) m).payload (fcell (zP c) Fam.qr 5) 0 d
    = iprop(∃ fd, ((oRowX c 5).view.loc (zP c : Thread nD τ)) ↦[(oRowX c 5).view.set]{fullShare}
        (oRowX c 5).view.write (Elt F) fd ((slab xrM 5).view.read (Elt F) (slabBuf (chunk m (yP (xP c)) 5))) Finset.univ) :=
  pay_qr_paid_odd m c 5 d (by decide)

theorem pay_qr_paid_6 (c : Dev nD) (d : Fin 3) : (sched (F := F) m).payload (fcell (xP c) Fam.qr 6) 0 d
    = iprop(∃ fd, ((oRowZ c 6).view.loc (xP c : Thread nD τ)) ↦[(oRowZ c 6).view.set]{fullShare}
        (oRowZ c 6).view.write (Elt F) fd ((slab zrM 6).view.read (Elt F) (slabBuf (chunk m (yP (zP c)) 6))) Finset.univ) :=
  pay_qr_paid_even m c 6 d (by decide)

theorem pay_qr_paid_7 (c : Dev nD) (d : Fin 3) : (sched (F := F) m).payload (fcell (zP c) Fam.qr 7) 0 d
    = iprop(∃ fd, ((oRowX c 7).view.loc (zP c : Thread nD τ)) ↦[(oRowX c 7).view.set]{fullShare}
        (oRowX c 7).view.write (Elt F) fd ((slab xrM 7).view.read (Elt F) (slabBuf (chunk m (yP (xP c)) 7))) Finset.univ) :=
  pay_qr_paid_odd m c 7 d (by decide)

theorem pay_qr_paid_8 (c : Dev nD) (d : Fin 3) : (sched (F := F) m).payload (fcell (xP c) Fam.qr 8) 0 d
    = iprop(∃ fd, ((oRowZ c 8).view.loc (xP c : Thread nD τ)) ↦[(oRowZ c 8).view.set]{fullShare}
        (oRowZ c 8).view.write (Elt F) fd ((slab zrM 8).view.read (Elt F) (slabBuf (chunk m (yP (zP c)) 8))) Finset.univ) :=
  pay_qr_paid_even m c 8 d (by decide)

theorem pay_qr_paid_9 (c : Dev nD) (d : Fin 3) : (sched (F := F) m).payload (fcell (zP c) Fam.qr 9) 0 d
    = iprop(∃ fd, ((oRowX c 9).view.loc (zP c : Thread nD τ)) ↦[(oRowX c 9).view.set]{fullShare}
        (oRowX c 9).view.write (Elt F) fd ((slab xrM 9).view.read (Elt F) (slabBuf (chunk m (yP (xP c)) 9))) Finset.univ) :=
  pay_qr_paid_odd m c 9 d (by decide)

theorem pay_qr_paid_10 (c : Dev nD) (d : Fin 3) : (sched (F := F) m).payload (fcell (xP c) Fam.qr 10) 0 d
    = iprop(∃ fd, ((oRowZ c 10).view.loc (xP c : Thread nD τ)) ↦[(oRowZ c 10).view.set]{fullShare}
        (oRowZ c 10).view.write (Elt F) fd ((slab zrM 10).view.read (Elt F) (slabBuf (chunk m (yP (zP c)) 10))) Finset.univ) :=
  pay_qr_paid_even m c 10 d (by decide)

theorem pay_qr_paid_11 (c : Dev nD) (d : Fin 3) : (sched (F := F) m).payload (fcell (zP c) Fam.qr 11) 0 d
    = iprop(∃ fd, ((oRowX c 11).view.loc (zP c : Thread nD τ)) ↦[(oRowX c 11).view.set]{fullShare}
        (oRowX c 11).view.write (Elt F) fd ((slab xrM 11).view.read (Elt F) (slabBuf (chunk m (yP (xP c)) 11))) Finset.univ) :=
  pay_qr_paid_odd m c 11 d (by decide)

theorem pay_qr_paid_12 (c : Dev nD) (d : Fin 3) : (sched (F := F) m).payload (fcell (xP c) Fam.qr 12) 0 d
    = iprop(∃ fd, ((oRowZ c 12).view.loc (xP c : Thread nD τ)) ↦[(oRowZ c 12).view.set]{fullShare}
        (oRowZ c 12).view.write (Elt F) fd ((slab zrM 12).view.read (Elt F) (slabBuf (chunk m (yP (zP c)) 12))) Finset.univ) :=
  pay_qr_paid_even m c 12 d (by decide)

theorem pay_qr_paid_13 (c : Dev nD) (d : Fin 3) : (sched (F := F) m).payload (fcell (zP c) Fam.qr 13) 0 d
    = iprop(∃ fd, ((oRowX c 13).view.loc (zP c : Thread nD τ)) ↦[(oRowX c 13).view.set]{fullShare}
        (oRowX c 13).view.write (Elt F) fd ((slab xrM 13).view.read (Elt F) (slabBuf (chunk m (yP (xP c)) 13))) Finset.univ) :=
  pay_qr_paid_odd m c 13 d (by decide)

theorem pay_qr_paid_14 (c : Dev nD) (d : Fin 3) : (sched (F := F) m).payload (fcell (xP c) Fam.qr 14) 0 d
    = iprop(∃ fd, ((oRowZ c 14).view.loc (xP c : Thread nD τ)) ↦[(oRowZ c 14).view.set]{fullShare}
        (oRowZ c 14).view.write (Elt F) fd ((slab zrM 14).view.read (Elt F) (slabBuf (chunk m (yP (zP c)) 14))) Finset.univ) :=
  pay_qr_paid_even m c 14 d (by decide)

theorem pay_qr_paid_15 (c : Dev nD) (d : Fin 3) : (sched (F := F) m).payload (fcell (zP c) Fam.qr 15) 0 d
    = iprop(∃ fd, ((oRowX c 15).view.loc (zP c : Thread nD τ)) ↦[(oRowX c 15).view.set]{fullShare}
        (oRowX c 15).view.write (Elt F) fd ((slab xrM 15).view.read (Elt F) (slabBuf (chunk m (yP (xP c)) 15))) Finset.univ) :=
  pay_qr_paid_odd m c 15 d (by decide)

/-! ## The owner's view of the fourth hop's send cell -/

theorem pay_qs_own_0 (c : Dev nD) (d : Fin 3) : (sched (F := F) m).payload (fcell c Fam.qs 0) 0 d
    = (((slab zrM 0).view.loc (c : Thread nD τ)) ↦[(slab zrM 0).view.set]{qX} slabBuf (chunk m (yP (zP c)) 0)) :=
  pay_qs_own_even m c 0 d (by decide)

theorem pay_qs_own_1 (c : Dev nD) (d : Fin 3) : (sched (F := F) m).payload (fcell c Fam.qs 1) 0 d
    = (((slab xrM 1).view.loc (c : Thread nD τ)) ↦[(slab xrM 1).view.set]{qX} slabBuf (chunk m (yP (xP c)) 1)) :=
  pay_qs_own_odd m c 1 d (by decide)

theorem pay_qs_own_2 (c : Dev nD) (d : Fin 3) : (sched (F := F) m).payload (fcell c Fam.qs 2) 0 d
    = (((slab zrM 2).view.loc (c : Thread nD τ)) ↦[(slab zrM 2).view.set]{qX} slabBuf (chunk m (yP (zP c)) 2)) :=
  pay_qs_own_even m c 2 d (by decide)

theorem pay_qs_own_3 (c : Dev nD) (d : Fin 3) : (sched (F := F) m).payload (fcell c Fam.qs 3) 0 d
    = (((slab xrM 3).view.loc (c : Thread nD τ)) ↦[(slab xrM 3).view.set]{qX} slabBuf (chunk m (yP (xP c)) 3)) :=
  pay_qs_own_odd m c 3 d (by decide)

theorem pay_qs_own_4 (c : Dev nD) (d : Fin 3) : (sched (F := F) m).payload (fcell c Fam.qs 4) 0 d
    = (((slab zrM 4).view.loc (c : Thread nD τ)) ↦[(slab zrM 4).view.set]{qX} slabBuf (chunk m (yP (zP c)) 4)) :=
  pay_qs_own_even m c 4 d (by decide)

theorem pay_qs_own_5 (c : Dev nD) (d : Fin 3) : (sched (F := F) m).payload (fcell c Fam.qs 5) 0 d
    = (((slab xrM 5).view.loc (c : Thread nD τ)) ↦[(slab xrM 5).view.set]{qX} slabBuf (chunk m (yP (xP c)) 5)) :=
  pay_qs_own_odd m c 5 d (by decide)

theorem pay_qs_own_6 (c : Dev nD) (d : Fin 3) : (sched (F := F) m).payload (fcell c Fam.qs 6) 0 d
    = (((slab zrM 6).view.loc (c : Thread nD τ)) ↦[(slab zrM 6).view.set]{qX} slabBuf (chunk m (yP (zP c)) 6)) :=
  pay_qs_own_even m c 6 d (by decide)

theorem pay_qs_own_7 (c : Dev nD) (d : Fin 3) : (sched (F := F) m).payload (fcell c Fam.qs 7) 0 d
    = (((slab xrM 7).view.loc (c : Thread nD τ)) ↦[(slab xrM 7).view.set]{qX} slabBuf (chunk m (yP (xP c)) 7)) :=
  pay_qs_own_odd m c 7 d (by decide)

theorem pay_qs_own_8 (c : Dev nD) (d : Fin 3) : (sched (F := F) m).payload (fcell c Fam.qs 8) 0 d
    = (((slab zrM 8).view.loc (c : Thread nD τ)) ↦[(slab zrM 8).view.set]{qX} slabBuf (chunk m (yP (zP c)) 8)) :=
  pay_qs_own_even m c 8 d (by decide)

theorem pay_qs_own_9 (c : Dev nD) (d : Fin 3) : (sched (F := F) m).payload (fcell c Fam.qs 9) 0 d
    = (((slab xrM 9).view.loc (c : Thread nD τ)) ↦[(slab xrM 9).view.set]{qX} slabBuf (chunk m (yP (xP c)) 9)) :=
  pay_qs_own_odd m c 9 d (by decide)

theorem pay_qs_own_10 (c : Dev nD) (d : Fin 3) : (sched (F := F) m).payload (fcell c Fam.qs 10) 0 d
    = (((slab zrM 10).view.loc (c : Thread nD τ)) ↦[(slab zrM 10).view.set]{qX} slabBuf (chunk m (yP (zP c)) 10)) :=
  pay_qs_own_even m c 10 d (by decide)

theorem pay_qs_own_11 (c : Dev nD) (d : Fin 3) : (sched (F := F) m).payload (fcell c Fam.qs 11) 0 d
    = (((slab xrM 11).view.loc (c : Thread nD τ)) ↦[(slab xrM 11).view.set]{qX} slabBuf (chunk m (yP (xP c)) 11)) :=
  pay_qs_own_odd m c 11 d (by decide)

theorem pay_qs_own_12 (c : Dev nD) (d : Fin 3) : (sched (F := F) m).payload (fcell c Fam.qs 12) 0 d
    = (((slab zrM 12).view.loc (c : Thread nD τ)) ↦[(slab zrM 12).view.set]{qX} slabBuf (chunk m (yP (zP c)) 12)) :=
  pay_qs_own_even m c 12 d (by decide)

theorem pay_qs_own_13 (c : Dev nD) (d : Fin 3) : (sched (F := F) m).payload (fcell c Fam.qs 13) 0 d
    = (((slab xrM 13).view.loc (c : Thread nD τ)) ↦[(slab xrM 13).view.set]{qX} slabBuf (chunk m (yP (xP c)) 13)) :=
  pay_qs_own_odd m c 13 d (by decide)

theorem pay_qs_own_14 (c : Dev nD) (d : Fin 3) : (sched (F := F) m).payload (fcell c Fam.qs 14) 0 d
    = (((slab zrM 14).view.loc (c : Thread nD τ)) ↦[(slab zrM 14).view.set]{qX} slabBuf (chunk m (yP (zP c)) 14)) :=
  pay_qs_own_even m c 14 d (by decide)

theorem pay_qs_own_15 (c : Dev nD) (d : Fin 3) : (sched (F := F) m).payload (fcell c Fam.qs 15) 0 d
    = (((slab xrM 15).view.loc (c : Thread nD τ)) ↦[(slab xrM 15).view.set]{qX} slabBuf (chunk m (yP (xP c)) 15)) :=
  pay_qs_own_odd m c 15 d (by decide)

end Cert.KernelIdeal.A2A

end
-- ==== Proof.Tables4.lean ====
import proofs.«900640_g7700000000000641_dist_a2a_v7x_xyz2x2x4_y_m4096_n1024_f32_1_alg».proof.Proof.Tables2

/-!
# The barrier cell's payloads as single chains

What a partner offers with its barrier signal is a list of landing windows: sixteen chunks of a scratch buffer and,
across `x` and `z`, eight row blocks of the fourth quarter. The same equations as before, with every right-hand side
one right-nested chain of its windows in the same order: separating conjunction associates.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-- Separating conjunction associates. -/
theorem bar_sep_assoc (P Q R : sProp 𝕄) : iprop((P ∗ Q) ∗ R) = iprop(P ∗ Q ∗ R) :=
  Idealize.SL.BI.Entails.antisymm Idealize.SL.BI.sep_assoc Idealize.SL.BI.sep_assoc'

section Bar
variable (c : Dev nD)

/-! ## The payer's view -/

theorem pay_bar_x_paid_flat : (sched (F := F) m).payload (barCell (xP c)) 0 1
    = iprop((∃ f, ((slab xrM 0).view.loc (c : Thread nD τ)) ↦[(slab xrM 0).view.set]{fullShare} f)
        ∗ (∃ f, ((slab xrM 1).view.loc (c : Thread nD τ)) ↦[(slab xrM 1).view.set]{fullShare} f)
        ∗ (∃ f, ((slab xrM 2).view.loc (c : Thread nD τ)) ↦[(slab xrM 2).view.set]{fullShare} f)
        ∗ (∃ f, ((slab xrM 3).view.loc (c : Thread nD τ)) ↦[(slab xrM 3).view.set]{fullShare} f)
        ∗ (∃ f, ((slab xrM 4).view.loc (c : Thread nD τ)) ↦[(slab xrM 4).view.set]{fullShare} f)
        ∗ (∃ f, ((slab xrM 5).view.loc (c : Thread nD τ)) ↦[(slab xrM 5).view.set]{fullShare} f)
        ∗ (∃ f, ((slab xrM 6).view.loc (c : Thread nD τ)) ↦[(slab xrM 6).view.set]{fullShare} f)
        ∗ (∃ f, ((slab xrM 7).view.loc (c : Thread nD τ)) ↦[(slab xrM 7).view.set]{fullShare} f)
        ∗ (∃ f, ((slab xrM 8).view.loc (c : Thread nD τ)) ↦[(slab xrM 8).view.set]{fullShare} f)
        ∗ (∃ f, ((slab xrM 9).view.loc (c : Thread nD τ)) ↦[(slab xrM 9).view.set]{fullShare} f)
        ∗ (∃ f, ((slab xrM 10).view.loc (c : Thread nD τ)) ↦[(slab xrM 10).view.set]{fullShare} f)
        ∗ (∃ f, ((slab xrM 11).view.loc (c : Thread nD τ)) ↦[(slab xrM 11).view.set]{fullShare} f)
        ∗ (∃ f, ((slab xrM 12).view.loc (c : Thread nD τ)) ↦[(slab xrM 12).view.set]{fullShare} f)
        ∗ (∃ f, ((slab xrM 13).view.loc (c : Thread nD τ)) ↦[(slab xrM 13).view.set]{fullShare} f)
        ∗ (∃ f, ((slab xrM 14).view.loc (c : Thread nD τ)) ↦[(slab xrM 14).view.set]{fullShare} f)
        ∗ (∃ f, ((slab xrM 15).view.loc (c : Thread nD τ)) ↦[(slab xrM 15).view.set]{fullShare} f)
        ∗ (∃ f, ((oRow (k0_off6 (xP c) (wd 0)) (k0_off6_inb (xP c) 0)).view.loc (c : Thread nD τ)) ↦[(oRow (k0_off6 (xP c) (wd 0)) (k0_off6_inb (xP c) 0)).view.set]{fullShare} f)
        ∗ (∃ f, ((oRow (k0_off6 (xP c) (wd 2)) (k0_off6_inb (xP c) 2)).view.loc (c : Thread nD τ)) ↦[(oRow (k0_off6 (xP c) (wd 2)) (k0_off6_inb (xP c) 2)).view.set]{fullShare} f)
        ∗ (∃ f, ((oRow (k0_off6 (xP c) (wd 4)) (k0_off6_inb (xP c) 4)).view.loc (c : Thread nD τ)) ↦[(oRow (k0_off6 (xP c) (wd 4)) (k0_off6_inb (xP c) 4)).view.set]{fullShare} f)
        ∗ (∃ f, ((oRow (k0_off6 (xP c) (wd 6)) (k0_off6_inb (xP c) 6)).view.loc (c : Thread nD τ)) ↦[(oRow (k0_off6 (xP c) (wd 6)) (k0_off6_inb (xP c) 6)).view.set]{fullShare} f)
        ∗ (∃ f, ((oRow (k0_off6 (xP c) (wd 8)) (k0_off6_inb (xP c) 8)).view.loc (c : Thread nD τ)) ↦[(oRow (k0_off6 (xP c) (wd 8)) (k0_off6_inb (xP c) 8)).view.set]{fullShare} f)
        ∗ (∃ f, ((oRow (k0_off6 (xP c) (wd 10)) (k0_off6_inb (xP c) 10)).view.loc (c : Thread nD τ)) ↦[(oRow (k0_off6 (xP c) (wd 10)) (k0_off6_inb (xP c) 10)).view.set]{fullShare} f)
        ∗ (∃ f, ((oRow (k0_off6 (xP c) (wd 12)) (k0_off6_inb (xP c) 12)).view.loc (c : Thread nD τ)) ↦[(oRow (k0_off6 (xP c) (wd 12)) (k0_off6_inb (xP c) 12)).view.set]{fullShare} f)
        ∗ (∃ f, ((oRow (k0_off6 (xP c) (wd 14)) (k0_off6_inb (xP c) 14)).view.loc (c : Thread nD τ)) ↦[(oRow (k0_off6 (xP c) (wd 14)) (k0_off6_inb (xP c) 14)).view.set]{fullShare} f)) := by
  rw [pay_bar_x_paid]
  simp only [bar_sep_assoc]

theorem pay_bar_z_paid_flat : (sched (F := F) m).payload (barCell (zP c)) 0 2
    = iprop((∃ f, ((slab zrM 0).view.loc (c : Thread nD τ)) ↦[(slab zrM 0).view.set]{fullShare} f)
        ∗ (∃ f, ((slab zrM 1).view.loc (c : Thread nD τ)) ↦[(slab zrM 1).view.set]{fullShare} f)
        ∗ (∃ f, ((slab zrM 2).view.loc (c : Thread nD τ)) ↦[(slab zrM 2).view.set]{fullShare} f)
        ∗ (∃ f, ((slab zrM 3).view.loc (c : Thread nD τ)) ↦[(slab zrM 3).view.set]{fullShare} f)
        ∗ (∃ f, ((slab zrM 4).view.loc (c : Thread nD τ)) ↦[(slab zrM 4).view.set]{fullShare} f)
        ∗ (∃ f, ((slab zrM 5).view.loc (c : Thread nD τ)) ↦[(slab zrM 5).view.set]{fullShare} f)
        ∗ (∃ f, ((slab zrM 6).view.loc (c : Thread nD τ)) ↦[(slab zrM 6).view.set]{fullShare} f)
        ∗ (∃ f, ((slab zrM 7).view.loc (c : Thread nD τ)) ↦[(slab zrM 7).view.set]{fullShare} f)
        ∗ (∃ f, ((slab zrM 8).view.loc (c : Thread nD τ)) ↦[(slab zrM 8).view.set]{fullShare} f)
        ∗ (∃ f, ((slab zrM 9).view.loc (c : Thread nD τ)) ↦[(slab zrM 9).view.set]{fullShare} f)
        ∗ (∃ f, ((slab zrM 10).view.loc (c : Thread nD τ)) ↦[(slab zrM 10).view.set]{fullShare} f)
        ∗ (∃ f, ((slab zrM 11).view.loc (c : Thread nD τ)) ↦[(slab zrM 11).view.set]{fullShare} f)
        ∗ (∃ f, ((slab zrM 12).view.loc (c : Thread nD τ)) ↦[(slab zrM 12).view.set]{fullShare} f)
        ∗ (∃ f, ((slab zrM 13).view.loc (c : Thread nD τ)) ↦[(slab zrM 13).view.set]{fullShare} f)
        ∗ (∃ f, ((slab zrM 14).view.loc (c : Thread nD τ)) ↦[(slab zrM 14).view.set]{fullShare} f)
        ∗ (∃ f, ((slab zrM 15).view.loc (c : Thread nD τ)) ↦[(slab zrM 15).view.set]{fullShare} f)
        ∗ (∃ f, ((oRow (k0_off5 (zP c) (wd 1)) (k0_off5_inb (zP c) 1)).view.loc (c : Thread nD τ)) ↦[(oRow (k0_off5 (zP c) (wd 1)) (k0_off5_inb (zP c) 1)).view.set]{fullShare} f)
        ∗ (∃ f, ((oRow (k0_off5 (zP c) (wd 3)) (k0_off5_inb (zP c) 3)).view.loc (c : Thread nD τ)) ↦[(oRow (k0_off5 (zP c) (wd 3)) (k0_off5_inb (zP c) 3)).view.set]{fullShare} f)
        ∗ (∃ f, ((oRow (k0_off5 (zP c) (wd 5)) (k0_off5_inb (zP c) 5)).view.loc (c : Thread nD τ)) ↦[(oRow (k0_off5 (zP c) (wd 5)) (k0_off5_inb (zP c) 5)).view.set]{fullShare} f)
        ∗ (∃ f, ((oRow (k0_off5 (zP c) (wd 7)) (k0_off5_inb (zP c) 7)).view.loc (c : Thread nD τ)) ↦[(oRow (k0_off5 (zP c) (wd 7)) (k0_off5_inb (zP c) 7)).view.set]{fullShare} f)
        ∗ (∃ f, ((oRow (k0_off5 (zP c) (wd 9)) (k0_off5_inb (zP c) 9)).view.loc (c : Thread nD τ)) ↦[(oRow (k0_off5 (zP c) (wd 9)) (k0_off5_inb (zP c) 9)).view.set]{fullShare} f)
        ∗ (∃ f, ((oRow (k0_off5 (zP c) (wd 11)) (k0_off5_inb (zP c) 11)).view.loc (c : Thread nD τ)) ↦[(oRow (k0_off5 (zP c) (wd 11)) (k0_off5_inb (zP c) 11)).view.set]{fullShare} f)
        ∗ (∃ f, ((oRow (k0_off5 (zP c) (wd 13)) (k0_off5_inb (zP c) 13)).view.loc (c : Thread nD τ)) ↦[(oRow (k0_off5 (zP c) (wd 13)) (k0_off5_inb (zP c) 13)).view.set]{fullShare} f)
        ∗ (∃ f, ((oRow (k0_off5 (zP c) (wd 15)) (k0_off5_inb (zP c) 15)).view.loc (c : Thread nD τ)) ↦[(oRow (k0_off5 (zP c) (wd 15)) (k0_off5_inb (zP c) 15)).view.set]{fullShare} f)) := by
  rw [pay_bar_z_paid]
  simp only [bar_sep_assoc]

/-! ## The owner's view -/

theorem pay_bar1_own_flat : (sched (F := F) m).payload (barCell c) 0 1
    = iprop((∃ f, ((slab xrM 0).view.loc (xP c : Thread nD τ)) ↦[(slab xrM 0).view.set]{fullShare} f)
        ∗ (∃ f, ((slab xrM 1).view.loc (xP c : Thread nD τ)) ↦[(slab xrM 1).view.set]{fullShare} f)
        ∗ (∃ f, ((slab xrM 2).view.loc (xP c : Thread nD τ)) ↦[(slab xrM 2).view.set]{fullShare} f)
        ∗ (∃ f, ((slab xrM 3).view.loc (xP c : Thread nD τ)) ↦[(slab xrM 3).view.set]{fullShare} f)
        ∗ (∃ f, ((slab xrM 4).view.loc (xP c : Thread nD τ)) ↦[(slab xrM 4).view.set]{fullShare} f)
        ∗ (∃ f, ((slab xrM 5).view.loc (xP c : Thread nD τ)) ↦[(slab xrM 5).view.set]{fullShare} f)
        ∗ (∃ f, ((slab xrM 6).view.loc (xP c : Thread nD τ)) ↦[(slab xrM 6).view.set]{fullShare} f)
        ∗ (∃ f, ((slab xrM 7).view.loc (xP c : Thread nD τ)) ↦[(slab xrM 7).view.set]{fullShare} f)
        ∗ (∃ f, ((slab xrM 8).view.loc (xP c : Thread nD τ)) ↦[(slab xrM 8).view.set]{fullShare} f)
        ∗ (∃ f, ((slab xrM 9).view.loc (xP c : Thread nD τ)) ↦[(slab xrM 9).view.set]{fullShare} f)
        ∗ (∃ f, ((slab xrM 10).view.loc (xP c : Thread nD τ)) ↦[(slab xrM 10).view.set]{fullShare} f)
        ∗ (∃ f, ((slab xrM 11).view.loc (xP c : Thread nD τ)) ↦[(slab xrM 11).view.set]{fullShare} f)
        ∗ (∃ f, ((slab xrM 12).view.loc (xP c : Thread nD τ)) ↦[(slab xrM 12).view.set]{fullShare} f)
        ∗ (∃ f, ((slab xrM 13).view.loc (xP c : Thread nD τ)) ↦[(slab xrM 13).view.set]{fullShare} f)
        ∗ (∃ f, ((slab xrM 14).view.loc (xP c : Thread nD τ)) ↦[(slab xrM 14).view.set]{fullShare} f)
        ∗ (∃ f, ((slab xrM 15).view.loc (xP c : Thread nD τ)) ↦[(slab xrM 15).view.set]{fullShare} f)
        ∗ (∃ f, ((oRow (k0_off6 c (wd 0)) (k0_off6_inb c 0)).view.loc (xP c : Thread nD τ)) ↦[(oRow (k0_off6 c (wd 0)) (k0_off6_inb c 0)).view.set]{fullShare} f)
        ∗ (∃ f, ((oRow (k0_off6 c (wd 2)) (k0_off6_inb c 2)).view.loc (xP c : Thread nD τ)) ↦[(oRow (k0_off6 c (wd 2)) (k0_off6_inb c 2)).view.set]{fullShare} f)
        ∗ (∃ f, ((oRow (k0_off6 c (wd 4)) (k0_off6_inb c 4)).view.loc (xP c : Thread nD τ)) ↦[(oRow (k0_off6 c (wd 4)) (k0_off6_inb c 4)).view.set]{fullShare} f)
        ∗ (∃ f, ((oRow (k0_off6 c (wd 6)) (k0_off6_inb c 6)).view.loc (xP c : Thread nD τ)) ↦[(oRow (k0_off6 c (wd 6)) (k0_off6_inb c 6)).view.set]{fullShare} f)
        ∗ (∃ f, ((oRow (k0_off6 c (wd 8)) (k0_off6_inb c 8)).view.loc (xP c : Thread nD τ)) ↦[(oRow (k0_off6 c (wd 8)) (k0_off6_inb c 8)).view.set]{fullShare} f)
        ∗ (∃ f, ((oRow (k0_off6 c (wd 10)) (k0_off6_inb c 10)).view.loc (xP c : Thread nD τ)) ↦[(oRow (k0_off6 c (wd 10)) (k0_off6_inb c 10)).view.set]{fullShare} f)
        ∗ (∃ f, ((oRow (k0_off6 c (wd 12)) (k0_off6_inb c 12)).view.loc (xP c : Thread nD τ)) ↦[(oRow (k0_off6 c (wd 12)) (k0_off6_inb c 12)).view.set]{fullShare} f)
        ∗ (∃ f, ((oRow (k0_off6 c (wd 14)) (k0_off6_inb c 14)).view.loc (xP c : Thread nD τ)) ↦[(oRow (k0_off6 c (wd 14)) (k0_off6_inb c 14)).view.set]{fullShare} f)) := by
  rw [pay_bar1_own]
  simp only [bar_sep_assoc]

theorem pay_bar2_own_flat : (sched (F := F) m).payload (barCell c) 0 2
    = iprop((∃ f, ((slab zrM 0).view.loc (zP c : Thread nD τ)) ↦[(slab zrM 0).view.set]{fullShare} f)
        ∗ (∃ f, ((slab zrM 1).view.loc (zP c : Thread nD τ)) ↦[(slab zrM 1).view.set]{fullShare} f)
        ∗ (∃ f, ((slab zrM 2).view.loc (zP c : Thread nD τ)) ↦[(slab zrM 2).view.set]{fullShare} f)
        ∗ (∃ f, ((slab zrM 3).view.loc (zP c : Thread nD τ)) ↦[(slab zrM 3).view.set]{fullShare} f)
        ∗ (∃ f, ((slab zrM 4).view.loc (zP c : Thread nD τ)) ↦[(slab zrM 4).view.set]{fullShare} f)
        ∗ (∃ f, ((slab zrM 5).view.loc (zP c : Thread nD τ)) ↦[(slab zrM 5).view.set]{fullShare} f)
        ∗ (∃ f, ((slab zrM 6).view.loc (zP c : Thread nD τ)) ↦[(slab zrM 6).view.set]{fullShare} f)
        ∗ (∃ f, ((slab zrM 7).view.loc (zP c : Thread nD τ)) ↦[(slab zrM 7).view.set]{fullShare} f)
        ∗ (∃ f, ((slab zrM 8).view.loc (zP c : Thread nD τ)) ↦[(slab zrM 8).view.set]{fullShare} f)
        ∗ (∃ f, ((slab zrM 9).view.loc (zP c : Thread nD τ)) ↦[(slab zrM 9).view.set]{fullShare} f)
        ∗ (∃ f, ((slab zrM 10).view.loc (zP c : Thread nD τ)) ↦[(slab zrM 10).view.set]{fullShare} f)
        ∗ (∃ f, ((slab zrM 11).view.loc (zP c : Thread nD τ)) ↦[(slab zrM 11).view.set]{fullShare} f)
        ∗ (∃ f, ((slab zrM 12).view.loc (zP c : Thread nD τ)) ↦[(slab zrM 12).view.set]{fullShare} f)
        ∗ (∃ f, ((slab zrM 13).view.loc (zP c : Thread nD τ)) ↦[(slab zrM 13).view.set]{fullShare} f)
        ∗ (∃ f, ((slab zrM 14).view.loc (zP c : Thread nD τ)) ↦[(slab zrM 14).view.set]{fullShare} f)
        ∗ (∃ f, ((slab zrM 15).view.loc (zP c : Thread nD τ)) ↦[(slab zrM 15).view.set]{fullShare} f)
        ∗ (∃ f, ((oRow (k0_off5 c (wd 1)) (k0_off5_inb c 1)).view.loc (zP c : Thread nD τ)) ↦[(oRow (k0_off5 c (wd 1)) (k0_off5_inb c 1)).view.set]{fullShare} f)
        ∗ (∃ f, ((oRow (k0_off5 c (wd 3)) (k0_off5_inb c 3)).view.loc (zP c : Thread nD τ)) ↦[(oRow (k0_off5 c (wd 3)) (k0_off5_inb c 3)).view.set]{fullShare} f)
        ∗ (∃ f, ((oRow (k0_off5 c (wd 5)) (k0_off5_inb c 5)).view.loc (zP c : Thread nD τ)) ↦[(oRow (k0_off5 c (wd 5)) (k0_off5_inb c 5)).view.set]{fullShare} f)
        ∗ (∃ f, ((oRow (k0_off5 c (wd 7)) (k0_off5_inb c 7)).view.loc (zP c : Thread nD τ)) ↦[(oRow (k0_off5 c (wd 7)) (k0_off5_inb c 7)).view.set]{fullShare} f)
        ∗ (∃ f, ((oRow (k0_off5 c (wd 9)) (k0_off5_inb c 9)).view.loc (zP c : Thread nD τ)) ↦[(oRow (k0_off5 c (wd 9)) (k0_off5_inb c 9)).view.set]{fullShare} f)
        ∗ (∃ f, ((oRow (k0_off5 c (wd 11)) (k0_off5_inb c 11)).view.loc (zP c : Thread nD τ)) ↦[(oRow (k0_off5 c (wd 11)) (k0_off5_inb c 11)).view.set]{fullShare} f)
        ∗ (∃ f, ((oRow (k0_off5 c (wd 13)) (k0_off5_inb c 13)).view.loc (zP c : Thread nD τ)) ↦[(oRow (k0_off5 c (wd 13)) (k0_off5_inb c 13)).view.set]{fullShare} f)
        ∗ (∃ f, ((oRow (k0_off5 c (wd 15)) (k0_off5_inb c 15)).view.loc (zP c : Thread nD τ)) ↦[(oRow (k0_off5 c (wd 15)) (k0_off5_inb c 15)).view.set]{fullShare} f)) := by
  rw [pay_bar2_own]
  simp only [bar_sep_assoc]

/-- The whole round of the barrier cell, no duty taken: the three partners' offers, one window after another. -/
theorem rest_bar_own_flat : bigSep ((sched (F := F) m).duties (barCell c) 0 \ ∅) (fun d => (sched (F := F) m).payload (barCell c) 0 d)
    = iprop((∃ f, ((slab rM 0).view.loc (yP c : Thread nD τ)) ↦[(slab rM 0).view.set]{fullShare} f)
        ∗ (∃ f, ((slab rM 1).view.loc (yP c : Thread nD τ)) ↦[(slab rM 1).view.set]{fullShare} f)
        ∗ (∃ f, ((slab rM 2).view.loc (yP c : Thread nD τ)) ↦[(slab rM 2).view.set]{fullShare} f)
        ∗ (∃ f, ((slab rM 3).view.loc (yP c : Thread nD τ)) ↦[(slab rM 3).view.set]{fullShare} f)
        ∗ (∃ f, ((slab rM 4).view.loc (yP c : Thread nD τ)) ↦[(slab rM 4).view.set]{fullShare} f)
        ∗ (∃ f, ((slab rM 5).view.loc (yP c : Thread nD τ)) ↦[(slab rM 5).view.set]{fullShare} f)
        ∗ (∃ f, ((slab rM 6).view.loc (yP c : Thread nD τ)) ↦[(slab rM 6).view.set]{fullShare} f)
        ∗ (∃ f, ((slab rM 7).view.loc (yP c : Thread nD τ)) ↦[(slab rM 7).view.set]{fullShare} f)
        ∗ (∃ f, ((slab rM 8).view.loc (yP c : Thread nD τ)) ↦[(slab rM 8).view.set]{fullShare} f)
        ∗ (∃ f, ((slab rM 9).view.loc (yP c : Thread nD τ)) ↦[(slab rM 9).view.set]{fullShare} f)
        ∗ (∃ f, ((slab rM 10).view.loc (yP c : Thread nD τ)) ↦[(slab rM 10).view.set]{fullShare} f)
        ∗ (∃ f, ((slab rM 11).view.loc (yP c : Thread nD τ)) ↦[(slab rM 11).view.set]{fullShare} f)
        ∗ (∃ f, ((slab rM 12).view.loc (yP c : Thread nD τ)) ↦[(slab rM 12).view.set]{fullShare} f)
        ∗ (∃ f, ((slab rM 13).view.loc (yP c : Thread nD τ)) ↦[(slab rM 13).view.set]{fullShare} f)
        ∗ (∃ f, ((slab rM 14).view.loc (yP c : Thread nD τ)) ↦[(slab rM 14).view.set]{fullShare} f)
        ∗ (∃ f, ((slab rM 15).view.loc (yP c : Thread nD τ)) ↦[(slab rM 15).view.set]{fullShare} f)
        ∗ (∃ f, ((slab xrM 0).view.loc (xP c : Thread nD τ)) ↦[(slab xrM 0).view.set]{fullShare} f)
        ∗ (∃ f, ((slab xrM 1).view.loc (xP c : Thread nD τ)) ↦[(slab xrM 1).view.set]{fullShare} f)
        ∗ (∃ f, ((slab xrM 2).view.loc (xP c : Thread nD τ)) ↦[(slab xrM 2).view.set]{fullShare} f)
        ∗ (∃ f, ((slab xrM 3).view.loc (xP c : Thread nD τ)) ↦[(slab xrM 3).view.set]{fullShare} f)
        ∗ (∃ f, ((slab xrM 4).view.loc (xP c : Thread nD τ)) ↦[(slab xrM 4).view.set]{fullShare} f)
        ∗ (∃ f, ((slab xrM 5).view.loc (xP c : Thread nD τ)) ↦[(slab xrM 5).view.set]{fullShare} f)
        ∗ (∃ f, ((slab xrM 6).view.loc (xP c : Thread nD τ)) ↦[(slab xrM 6).view.set]{fullShare} f)
        ∗ (∃ f, ((slab xrM 7).view.loc (xP c : Thread nD τ)) ↦[(slab xrM 7).view.set]{fullShare} f)
        ∗ (∃ f, ((slab xrM 8).view.loc (xP c : Thread nD τ)) ↦[(slab xrM 8).view.set]{fullShare} f)
        ∗ (∃ f, ((slab xrM 9).view.loc (xP c : Thread nD τ)) ↦[(slab xrM 9).view.set]{fullShare} f)
        ∗ (∃ f, ((slab xrM 10).view.loc (xP c : Thread nD τ)) ↦[(slab xrM 10).view.set]{fullShare} f)
        ∗ (∃ f, ((slab xrM 11).view.loc (xP c : Thread nD τ)) ↦[(slab xrM 11).view.set]{fullShare} f)
        ∗ (∃ f, ((slab xrM 12).view.loc (xP c : Thread nD τ)) ↦[(slab xrM 12).view.set]{fullShare} f)
        ∗ (∃ f, ((slab xrM 13).view.loc (xP c : Thread nD τ)) ↦[(slab xrM 13).view.set]{fullShare} f)
        ∗ (∃ f, ((slab xrM 14).view.loc (xP c : Thread nD τ)) ↦[(slab xrM 14).view.set]{fullShare} f)
        ∗ (∃ f, ((slab xrM 15).view.loc (xP c : Thread nD τ)) ↦[(slab xrM 15).view.set]{fullShare} f)
        ∗ (∃ f, ((oRow (k0_off6 c (wd 0)) (k0_off6_inb c 0)).view.loc (xP c : Thread nD τ)) ↦[(oRow (k0_off6 c (wd 0)) (k0_off6_inb c 0)).view.set]{fullShare} f)
        ∗ (∃ f, ((oRow (k0_off6 c (wd 2)) (k0_off6_inb c 2)).view.loc (xP c : Thread nD τ)) ↦[(oRow (k0_off6 c (wd 2)) (k0_off6_inb c 2)).view.set]{fullShare} f)
        ∗ (∃ f, ((oRow (k0_off6 c (wd 4)) (k0_off6_inb c 4)).view.loc (xP c : Thread nD τ)) ↦[(oRow (k0_off6 c (wd 4)) (k0_off6_inb c 4)).view.set]{fullShare} f)
        ∗ (∃ f, ((oRow (k0_off6 c (wd 6)) (k0_off6_inb c 6)).view.loc (xP c : Thread nD τ)) ↦[(oRow (k0_off6 c (wd 6)) (k0_off6_inb c 6)).view.set]{fullShare} f)
        ∗ (∃ f, ((oRow (k0_off6 c (wd 8)) (k0_off6_inb c 8)).view.loc (xP c : Thread nD τ)) ↦[(oRow (k0_off6 c (wd 8)) (k0_off6_inb c 8)).view.set]{fullShare} f)
        ∗ (∃ f, ((oRow (k0_off6 c (wd 10)) (k0_off6_inb c 10)).view.loc (xP c : Thread nD τ)) ↦[(oRow (k0_off6 c (wd 10)) (k0_off6_inb c 10)).view.set]{fullShare} f)
        ∗ (∃ f, ((oRow (k0_off6 c (wd 12)) (k0_off6_inb c 12)).view.loc (xP c : Thread nD τ)) ↦[(oRow (k0_off6 c (wd 12)) (k0_off6_inb c 12)).view.set]{fullShare} f)
        ∗ (∃ f, ((oRow (k0_off6 c (wd 14)) (k0_off6_inb c 14)).view.loc (xP c : Thread nD τ)) ↦[(oRow (k0_off6 c (wd 14)) (k0_off6_inb c 14)).view.set]{fullShare} f)
        ∗ (∃ f, ((slab zrM 0).view.loc (zP c : Thread nD τ)) ↦[(slab zrM 0).view.set]{fullShare} f)
        ∗ (∃ f, ((slab zrM 1).view.loc (zP c : Thread nD τ)) ↦[(slab zrM 1).view.set]{fullShare} f)
        ∗ (∃ f, ((slab zrM 2).view.loc (zP c : Thread nD τ)) ↦[(slab zrM 2).view.set]{fullShare} f)
        ∗ (∃ f, ((slab zrM 3).view.loc (zP c : Thread nD τ)) ↦[(slab zrM 3).view.set]{fullShare} f)
        ∗ (∃ f, ((slab zrM 4).view.loc (zP c : Thread nD τ)) ↦[(slab zrM 4).view.set]{fullShare} f)
        ∗ (∃ f, ((slab zrM 5).view.loc (zP c : Thread nD τ)) ↦[(slab zrM 5).view.set]{fullShare} f)
        ∗ (∃ f, ((slab zrM 6).view.loc (zP c : Thread nD τ)) ↦[(slab zrM 6).view.set]{fullShare} f)
        ∗ (∃ f, ((slab zrM 7).view.loc (zP c : Thread nD τ)) ↦[(slab zrM 7).view.set]{fullShare} f)
        ∗ (∃ f, ((slab zrM 8).view.loc (zP c : Thread nD τ)) ↦[(slab zrM 8).view.set]{fullShare} f)
        ∗ (∃ f, ((slab zrM 9).view.loc (zP c : Thread nD τ)) ↦[(slab zrM 9).view.set]{fullShare} f)
        ∗ (∃ f, ((slab zrM 10).view.loc (zP c : Thread nD τ)) ↦[(slab zrM 10).view.set]{fullShare} f)
        ∗ (∃ f, ((slab zrM 11).view.loc (zP c : Thread nD τ)) ↦[(slab zrM 11).view.set]{fullShare} f)
        ∗ (∃ f, ((slab zrM 12).view.loc (zP c : Thread nD τ)) ↦[(slab zrM 12).view.set]{fullShare} f)
        ∗ (∃ f, ((slab zrM 13).view.loc (zP c : Thread nD τ)) ↦[(slab zrM 13).view.set]{fullShare} f)
        ∗ (∃ f, ((slab zrM 14).view.loc (zP c : Thread nD τ)) ↦[(slab zrM 14).view.set]{fullShare} f)
        ∗ (∃ f, ((slab zrM 15).view.loc (zP c : Thread nD τ)) ↦[(slab zrM 15).view.set]{fullShare} f)
        ∗ (∃ f, ((oRow (k0_off5 c (wd 1)) (k0_off5_inb c 1)).view.loc (zP c : Thread nD τ)) ↦[(oRow (k0_off5 c (wd 1)) (k0_off5_inb c 1)).view.set]{fullShare} f)
        ∗ (∃ f, ((oRow (k0_off5 c (wd 3)) (k0_off5_inb c 3)).view.loc (zP c : Thread nD τ)) ↦[(oRow (k0_off5 c (wd 3)) (k0_off5_inb c 3)).view.set]{fullShare} f)
        ∗ (∃ f, ((oRow (k0_off5 c (wd 5)) (k0_off5_inb c 5)).view.loc (zP c : Thread nD τ)) ↦[(oRow (k0_off5 c (wd 5)) (k0_off5_inb c 5)).view.set]{fullShare} f)
        ∗ (∃ f, ((oRow (k0_off5 c (wd 7)) (k0_off5_inb c 7)).view.loc (zP c : Thread nD τ)) ↦[(oRow (k0_off5 c (wd 7)) (k0_off5_inb c 7)).view.set]{fullShare} f)
        ∗ (∃ f, ((oRow (k0_off5 c (wd 9)) (k0_off5_inb c 9)).view.loc (zP c : Thread nD τ)) ↦[(oRow (k0_off5 c (wd 9)) (k0_off5_inb c 9)).view.set]{fullShare} f)
        ∗ (∃ f, ((oRow (k0_off5 c (wd 11)) (k0_off5_inb c 11)).view.loc (zP c : Thread nD τ)) ↦[(oRow (k0_off5 c (wd 11)) (k0_off5_inb c 11)).view.set]{fullShare} f)
        ∗ (∃ f, ((oRow (k0_off5 c (wd 13)) (k0_off5_inb c 13)).view.loc (zP c : Thread nD τ)) ↦[(oRow (k0_off5 c (wd 13)) (k0_off5_inb c 13)).view.set]{fullShare} f)
        ∗ (∃ f, ((oRow (k0_off5 c (wd 15)) (k0_off5_inb c 15)).view.loc (zP c : Thread nD τ)) ↦[(oRow (k0_off5 c (wd 15)) (k0_off5_inb c 15)).view.set]{fullShare} f)) := by
  rw [rest_bar_own]
  simp only [bar_sep_assoc]

end Bar

/-- info: 'Cert.KernelIdeal.A2A.rest_bar_own_flat' depends on axioms: [propext, Classical.choice, Quot.sound] -/
#guard_msgs in #print axioms rest_bar_own_flat

end Cert.KernelIdeal.A2A

end
-- ==== Proof.Tables5.lean ====
import proofs.«900640_g7700000000000641_dist_a2a_v7x_xyz2x2x4_y_m4096_n1024_f32_1_alg».proof.Proof.Tables2

/-!
# The second hop's receive payloads, the other way round

A receive cell of the second hop hands its owner the landed chunk in two shares: the one a further copy will read and
the rest. Separating conjunction is commutative, so the same payload is also the rest first and that share second.
The order is immaterial to the protocol; it only fixes which of the two is named first where the payload is unpacked.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-- Separating conjunction, as an equation, is commutative. -/
theorem sep_swap (P Q : sProp 𝕄) : (iprop(P ∗ Q) : sProp 𝕄) = iprop(Q ∗ P) :=
  have h : (iprop(P ∗ Q) : sProp 𝕄) ⊣⊢ iprop(Q ∗ P) := sep_comm
  equiv_iff.mp ⟨h.1, h.2⟩

section Pay
variable (c : Dev nD) (i : Fin 16) (d : Fin 3)

/-- What came across `x`: the rest first, then the share the fourth hop reads. -/
theorem pay_xr_own_sw : (sched (F := F) m).payload (fcell c Fam.xr i) 0 d
    = iprop((((slab xrM i).view.loc (c : Thread nD τ)) ↦[(slab xrM i).view.set]{qH} slabBuf (chunk m (yP (xP c)) i))
        ∗ (((slab xrM i).view.loc (c : Thread nD τ)) ↦[(slab xrM i).view.set]{qX} slabBuf (chunk m (yP (xP c)) i))) := by
  rw [pay_xr_own]; exact sep_swap _ _

/-- What came across `z`, likewise. -/
theorem pay_zr_own_sw : (sched (F := F) m).payload (fcell c Fam.zr i) 0 d
    = iprop((((slab zrM i).view.loc (c : Thread nD τ)) ↦[(slab zrM i).view.set]{qH} slabBuf (chunk m (yP (zP c)) i))
        ∗ (((slab zrM i).view.loc (c : Thread nD τ)) ↦[(slab zrM i).view.set]{qX} slabBuf (chunk m (yP (zP c)) i))) := by
  rw [pay_zr_own]; exact sep_swap _ _

end Pay

/-- info: 'Cert.KernelIdeal.A2A.pay_xr_own_sw' depends on axioms: [propext, Classical.choice, Quot.sound] -/
#guard_msgs in #print axioms pay_xr_own_sw

/-- info: 'Cert.KernelIdeal.A2A.pay_zr_own_sw' depends on axioms: [propext, Classical.choice, Quot.sound] -/
#guard_msgs in #print axioms pay_zr_own_sw

end Cert.KernelIdeal.A2A

end
-- ==== Proof.Written.lean ====
import proofs.«900640_g7700000000000641_dist_a2a_v7x_xyz2x2x4_y_m4096_n1024_f32_1_alg».proof.Proof.Landing
import proofs.«900640_g7700000000000641_dist_a2a_v7x_xyz2x2x4_y_m4096_n1024_f32_1_alg».proof.Proof.Ghost
import proofs.«900640_g7700000000000641_dist_a2a_v7x_xyz2x2x4_y_m4096_n1024_f32_1_alg».proof.Proof.Value

/-!
# A buffer filled by one store through all of a window

A local copy leaves its destination as one store of the copied value through the whole of the destination window.
On the window's elements that is the same as writing the value through the window, so every fact about a landed
chunk or landed rows holds of it too: the chunk or the rows can be restated at their contents, and what was stored
through the whole of a window reads back through it.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## A buffer filled through the whole of a window -/

section Abstract

variable {Val : EltTy → Type} {sg : RefSig} {κ : Kind} {sp : Space} {S : Shape} {e : EltTy}

/-- Slicing a window by all of its shape leaves every index where it was. -/
theorem emb_slice_whole (w : View sg κ sp S e) (y : S.Idx) : (w.slice (Rect.whole S)).emb y = w.emb y := by
  show w.emb ((Rect.whole S).emb y) = w.emb y
  rw [Rect.emb_whole_apply]

/-- After one store of `u` through all of the window, the window's elements are those of any buffer that holds
    `u y` under every index `y` of the window. -/
theorem writes_whole_eq_of_emb (w : View sg κ sp S e) (fd g : w.ty.Contents Val) (u : S.Idx → Val e)
    (h : ∀ y, g (w.emb y) = cast (congrArg Val w.elt_eq.symm) (u y)) :
    ∀ j ∈ w.set, w.writes Val fd [⟨Rect.whole S, u⟩] j = g j := by
  intro j hj
  obtain ⟨y, rfl⟩ := View.exists_emb_of_mem_set w hj
  have e := View.write_emb_of_mem (v := w.slice (Rect.whole S)) fd u (Finset.mem_univ y)
  rw [emb_slice_whole] at e
  exact e.trans (h y).symm

/-- On the window's elements, one store through all of the window is a write through the window. -/
theorem writes_whole_eq_write (w : View sg κ sp S e) (fd : w.ty.Contents Val) (u : S.Idx → Val e) :
    ∀ j ∈ w.set, w.writes Val fd [⟨Rect.whole S, u⟩] j = w.write Val fd u Finset.univ j :=
  writes_whole_eq_of_emb w fd (w.write Val fd u Finset.univ) u
    (fun y => View.write_emb_of_mem fd u (Finset.mem_univ y))

/-- What was stored through all of the window reads back. -/
theorem read_writes_whole (w : View sg κ sp S e) (fd : w.ty.Contents Val) (u : S.Idx → Val e) :
    w.read Val (w.writes Val fd [⟨Rect.whole S, u⟩]) = u := by
  funext y
  have e := View.write_emb_of_mem (v := w.slice (Rect.whole S)) fd u (Finset.mem_univ y)
  rw [emb_slice_whole] at e
  rw [View.read_apply]
  exact (congrArg (cast (congrArg Val w.elt_eq)) e).trans (by rw [cast_cast, cast_eq])

end Abstract

/-! ## The chunks and rows, as a store through all of the window leaves them -/

theorem sPts_written (d : Dev nD) (i : Fin 16) (q : PosShare TreeShare) (f : (slab sM i).view.ty.Contents (Elt F))
    (v : Vec F S64x1024 .f32) :
    ((((slab sM i).view.loc (d : Thread nD τ)) ↦[(slab sM i).view.set]{q}
        (slab sM i).view.writes (Elt F) f [⟨Rect.whole S64x1024, v⟩]) : sProp 𝕄) = sPts d i q v :=
  pointsTo_congr fun j hj => (writes_whole_eq_write (slab sM i).view f v j hj).trans (slab_landed_s i f v j hj)

theorem rPts_written (d : Dev nD) (i : Fin 16) (q : PosShare TreeShare) (f : (slab rM i).view.ty.Contents (Elt F))
    (v : Vec F S64x1024 .f32) :
    ((((slab rM i).view.loc (d : Thread nD τ)) ↦[(slab rM i).view.set]{q}
        (slab rM i).view.writes (Elt F) f [⟨Rect.whole S64x1024, v⟩]) : sProp 𝕄) = rPts d i q v :=
  pointsTo_congr fun j hj => (writes_whole_eq_write (slab rM i).view f v j hj).trans (slab_landed_r i f v j hj)

theorem xrPts_written (d : Dev nD) (i : Fin 16) (q : PosShare TreeShare) (f : (slab xrM i).view.ty.Contents (Elt F))
    (v : Vec F S64x1024 .f32) :
    ((((slab xrM i).view.loc (d : Thread nD τ)) ↦[(slab xrM i).view.set]{q}
        (slab xrM i).view.writes (Elt F) f [⟨Rect.whole S64x1024, v⟩]) : sProp 𝕄) = xrPts d i q v :=
  pointsTo_congr fun j hj => (writes_whole_eq_write (slab xrM i).view f v j hj).trans (slab_landed_xr i f v j hj)

theorem zrPts_written (d : Dev nD) (i : Fin 16) (q : PosShare TreeShare) (f : (slab zrM i).view.ty.Contents (Elt F))
    (v : Vec F S64x1024 .f32) :
    ((((slab zrM i).view.loc (d : Thread nD τ)) ↦[(slab zrM i).view.set]{q}
        (slab zrM i).view.writes (Elt F) f [⟨Rect.whole S64x1024, v⟩]) : sProp 𝕄) = zrPts d i q v :=
  pointsTo_congr fun j hj => (writes_whole_eq_write (slab zrM i).view f v j hj).trans (slab_landed_zr i f v j hj)

theorem rowPts_written (off : Fin 2 → Nat) (h : ∀ a, off a + S64x1024.size a ≤ S8192x1024.size a)
    (h0 : off 0 % 64 = 0) (h1 : off 1 = 0) (d : Dev nD) (f : (oRow off h).view.ty.Contents (Elt F))
    (v : Vec F S64x1024 .f32) :
    ((((oRow off h).view.loc (d : Thread nD τ)) ↦[(oRow off h).view.set]{fullShare}
        (oRow off h).view.writes (Elt F) f [⟨Rect.whole S64x1024, v⟩]) : sProp 𝕄) = rowPts off h d v :=
  pointsTo_congr fun j hj => (writes_whole_eq_write (oRow off h).view f v j hj).trans (row_landed off h h0 h1 f v j hj)

omit [FloatOps F] in
/-- The own half passes through the whole staging buffer unchanged. -/
theorem lbuf_read (f : lM.view.ty.Contents (Elt F)) (v : Vec F S4096x1024 .f32) :
    lM.view.read (Elt F) (lM.view.writes (Elt F) f [⟨Rect.whole S4096x1024, v⟩]) = v :=
  read_writes_whole lM.view f v

variable (m : (ℓ : Loc nD τ sig) → Buf (Elt F) ℓ)

omit [FloatOps F] in
/-- The own half of the result, as one store through all of its window leaves it. -/
theorem own_written_out (c : Dev nD) (f : (oOwn c).view.ty.Contents (Elt F)) :
    ∀ j ∈ (oOwn c).view.set, (oOwn c).view.writes (Elt F) f [⟨Rect.whole S4096x1024, ownHalf m c⟩] j = outC m c j :=
  fun j hj => (writes_whole_eq_write (oOwn c).view f (ownHalf m c) j hj).trans (own_out m c f j hj)

/-! ## What the module rests on -/

/-- info: 'Cert.KernelIdeal.A2A.sPts_written' depends on axioms: [propext, Classical.choice, Quot.sound] -/
#guard_msgs in #print axioms sPts_written

/-- info: 'Cert.KernelIdeal.A2A.rPts_written' depends on axioms: [propext, Classical.choice, Quot.sound] -/
#guard_msgs in #print axioms rPts_written

/-- info: 'Cert.KernelIdeal.A2A.xrPts_written' depends on axioms: [propext, Classical.choice, Quot.sound] -/
#guard_msgs in #print axioms xrPts_written

/-- info: 'Cert.KernelIdeal.A2A.zrPts_written' depends on axioms: [propext, Classical.choice, Quot.sound] -/
#guard_msgs in #print axioms zrPts_written

/-- info: 'Cert.KernelIdeal.A2A.rowPts_written' depends on axioms: [propext, Classical.choice, Quot.sound] -/
#guard_msgs in #print axioms rowPts_written

/-- info: 'Cert.KernelIdeal.A2A.lbuf_read' depends on axioms: [propext, Classical.choice, Quot.sound] -/
#guard_msgs in #print axioms lbuf_read

/-- info: 'Cert.KernelIdeal.A2A.own_written_out' depends on axioms: [propext, Classical.choice, Quot.sound] -/
#guard_msgs in #print axioms own_written_out

end Cert.KernelIdeal.A2A

end
-- ==== Proof.EndFacts.lean ====
import proofs.«900640_g7700000000000641_dist_a2a_v7x_xyz2x2x4_y_m4096_n1024_f32_1_alg».proof.Proof.Written

/-!
# What the pieces of the result hold when the body ends

At the end of a device's body every piece of its result was filled by a local store of a value read a moment
before: a chunk read out of a receive buffer held at its contents, or the own half read from the input and passed
through the staging buffer. Reading a buffer held at a chunk's contents gives the chunk; storing it through all of
its rows leaves rows that agree with the result there. So every piece agrees with the result on its rows, which is
what joining the pieces into the whole result asks.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

omit [FloatOps F] in
/-- The first quarter's chunk `i`, stored from what was read out of the receive buffer. -/
theorem endY (c : Dev nD) (i : Fin 16) (fo : (oRowY c i).view.ty.Contents (Elt F)) (v : Vec F S64x1024 .f32)
    (hv : v = (slab rM i).view.read (Elt F) (slabBuf (chunk m (yP c) i))) :
    ∀ j ∈ (oRowY c i).view.set, (oRowY c i).view.writes (Elt F) fo [⟨Rect.whole S64x1024, v⟩] j = outC m c j := by
  have e : v = chunk m (yP c) i := hv.trans (slab_read_r i _)
  subst e
  exact fun j hj => (writes_whole_eq_write (oRowY c i).view fo _ j hj).trans
    ((row_landed _ _ (off4_al c i).1 (off4_al c i).2 fo _ j hj).trans (rowY_out m c i j hj))

omit [FloatOps F] in
/-- The quarter that came through the `x` partner. -/
theorem endX (c : Dev nD) (i : Fin 16) (fo : (oRowX c i).view.ty.Contents (Elt F)) (v : Vec F S64x1024 .f32)
    (hv : v = (slab xrM i).view.read (Elt F) (slabBuf (chunk m (yP (xP c)) i))) :
    ∀ j ∈ (oRowX c i).view.set, (oRowX c i).view.writes (Elt F) fo [⟨Rect.whole S64x1024, v⟩] j = outC m c j := by
  have e : v = chunk m (yP (xP c)) i := hv.trans (slab_read_xr i _)
  subst e
  exact fun j hj => (writes_whole_eq_write (oRowX c i).view fo _ j hj).trans
    ((row_landed _ _ (off5_al c i).1 (off5_al c i).2 fo _ j hj).trans (rowX_out m c i j hj))

omit [FloatOps F] in
/-- The quarter that came through the `z` partner. -/
theorem endZ (c : Dev nD) (i : Fin 16) (fo : (oRowZ c i).view.ty.Contents (Elt F)) (v : Vec F S64x1024 .f32)
    (hv : v = (slab zrM i).view.read (Elt F) (slabBuf (chunk m (yP (zP c)) i))) :
    ∀ j ∈ (oRowZ c i).view.set, (oRowZ c i).view.writes (Elt F) fo [⟨Rect.whole S64x1024, v⟩] j = outC m c j := by
  have e : v = chunk m (yP (zP c)) i := hv.trans (slab_read_zr i _)
  subst e
  exact fun j hj => (writes_whole_eq_write (oRowZ c i).view fo _ j hj).trans
    ((row_landed _ _ (off6_al c i).1 (off6_al c i).2 fo _ j hj).trans (rowZ_out m c i j hj))

omit [FloatOps F] in
/-- The fourth quarter's chunks come back from their receive waits already at their contents. -/
theorem endQ (c : Dev nD) (i : Fin 16) :
    ∀ j ∈ (oRowQ c i).view.set, rowBuf (chunk m (yP (xP (zP c))) i) j = outC m c j :=
  rowQ_out m c i

omit [FloatOps F] in
/-- The own half: read from the input window, passed through the whole staging buffer, stored. -/
theorem endOwn (c : Dev nD) (fo : (oOwn c).view.ty.Contents (Elt F)) (fl : lM.view.ty.Contents (Elt F))
    (v w : Vec F S4096x1024 .f32)
    (hw : w = (aOwn c).view.read (Elt F) (m ((c : Thread nD τ).loc main_arg0)))
    (hv : v = lM.view.read (Elt F) (lM.view.writes (Elt F) fl [⟨Rect.whole S4096x1024, w⟩])) :
    ∀ j ∈ (oOwn c).view.set, (oOwn c).view.writes (Elt F) fo [⟨Rect.whole S4096x1024, v⟩] j = outC m c j := by
  have ew : w = ownHalf m c := hw
  have e : v = ownHalf m c := hv.trans ((lbuf_read fl w).trans ew)
  subst e
  exact own_written_out m c fo

/-- A chunk as loaded, ready to be sent: the load's destination restated at the chunk's contents. -/
theorem sbuf_loaded (c : Dev nD) (i : Fin 16) (fs : (slab sM i).view.ty.Contents (Elt F)) (v : Vec F S64x1024 .f32)
    (hv : v = chunk m c i) :
    ((((slab sM i).view.loc (c : Thread nD τ)) ↦[(slab sM i).view.set]{fullShare}
        (slab sM i).view.writes (Elt F) fs [⟨Rect.whole S64x1024, v⟩]) : sProp 𝕄)
      = (((slab sM i).view.loc (c : Thread nD τ)) ↦[(slab sM i).view.set]{fullShare} slabBuf (chunk m c i)) := by
  subst hv
  exact sPts_written c i fullShare fs _

/-! ## What the module rests on -/

/-- info: 'Cert.KernelIdeal.A2A.endY' depends on axioms: [propext, Classical.choice, Quot.sound] -/
#guard_msgs in #print axioms endY

/-- info: 'Cert.KernelIdeal.A2A.endX' depends on axioms: [propext, Classical.choice, Quot.sound] -/
#guard_msgs in #print axioms endX

/-- info: 'Cert.KernelIdeal.A2A.endZ' depends on axioms: [propext, Classical.choice, Quot.sound] -/
#guard_msgs in #print axioms endZ

/-- info: 'Cert.KernelIdeal.A2A.endQ' depends on axioms: [propext, Classical.choice, Quot.sound] -/
#guard_msgs in #print axioms endQ

/-- info: 'Cert.KernelIdeal.A2A.endOwn' depends on axioms: [propext, Classical.choice, Quot.sound] -/
#guard_msgs in #print axioms endOwn

/-- info: 'Cert.KernelIdeal.A2A.sbuf_loaded' depends on axioms: [propext, Classical.choice, Quot.sound] -/
#guard_msgs in #print axioms sbuf_loaded

end Cert.KernelIdeal.A2A

end
-- ==== Proof.Restate.lean ====
import proofs.«900640_g7700000000000641_dist_a2a_v7x_xyz2x2x4_y_m4096_n1024_f32_1_alg».proof.Proof.Written

/-!
# The stored chunks, restated at their contents

A chunk of the result filled by a local store of what was read out of a receive buffer held at a chunk's contents
holds that chunk in its rows: the read gives the chunk back, and the store through all of the rows leaves the rows
at the contents of a result every aligned block of which holds it.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-- Chunk `i` of the first quarter. -/
theorem restY (c : Dev nD) (i : Fin 16) (fo : (oRowY c i).view.ty.Contents (Elt F)) (v : Vec F S64x1024 .f32)
    (hv : v = (slab rM i).view.read (Elt F) (slabBuf (chunk m (yP c) i))) :
    (((oRowY c i).view.loc (c : Thread nD τ) ↦[(oRowY c i).view.set]{fullShare}
        (oRowY c i).view.writes (Elt F) fo [⟨Rect.whole S64x1024, v⟩]) : sProp 𝕄)
      ⊢ ((oRowY c i).view.loc (c : Thread nD τ) ↦[(oRowY c i).view.set]{fullShare} rowBuf (chunk m (yP c) i)) := by
  have e : v = chunk m (yP c) i := hv.trans (slab_read_r i _)
  subst e
  exact Entails.of_eq (rowPts_written _ _ (off4_al c i).1 (off4_al c i).2 c fo _)

/-- Chunk `i` of the quarter that came through the `x` partner. -/
theorem restX (c : Dev nD) (i : Fin 16) (fo : (oRowX c i).view.ty.Contents (Elt F)) (v : Vec F S64x1024 .f32)
    (hv : v = (slab xrM i).view.read (Elt F) (slabBuf (chunk m (yP (xP c)) i))) :
    (((oRowX c i).view.loc (c : Thread nD τ) ↦[(oRowX c i).view.set]{fullShare}
        (oRowX c i).view.writes (Elt F) fo [⟨Rect.whole S64x1024, v⟩]) : sProp 𝕄)
      ⊢ ((oRowX c i).view.loc (c : Thread nD τ) ↦[(oRowX c i).view.set]{fullShare} rowBuf (chunk m (yP (xP c)) i)) := by
  have e : v = chunk m (yP (xP c)) i := hv.trans (slab_read_xr i _)
  subst e
  exact Entails.of_eq (rowPts_written _ _ (off5_al c i).1 (off5_al c i).2 c fo _)

/-- Chunk `i` of the quarter that came through the `z` partner. -/
theorem restZ (c : Dev nD) (i : Fin 16) (fo : (oRowZ c i).view.ty.Contents (Elt F)) (v : Vec F S64x1024 .f32)
    (hv : v = (slab zrM i).view.read (Elt F) (slabBuf (chunk m (yP (zP c)) i))) :
    (((oRowZ c i).view.loc (c : Thread nD τ) ↦[(oRowZ c i).view.set]{fullShare}
        (oRowZ c i).view.writes (Elt F) fo [⟨Rect.whole S64x1024, v⟩]) : sProp 𝕄)
      ⊢ ((oRowZ c i).view.loc (c : Thread nD τ) ↦[(oRowZ c i).view.set]{fullShare} rowBuf (chunk m (yP (zP c)) i)) := by
  have e : v = chunk m (yP (zP c)) i := hv.trans (slab_read_zr i _)
  subst e
  exact Entails.of_eq (rowPts_written _ _ (off6_al c i).1 (off6_al c i).2 c fo _)

/-! ## What the module rests on -/

/-- info: 'Cert.KernelIdeal.A2A.restY' depends on axioms: [propext, Classical.choice, Quot.sound] -/
#guard_msgs in #print axioms restY

/-- info: 'Cert.KernelIdeal.A2A.restX' depends on axioms: [propext, Classical.choice, Quot.sound] -/
#guard_msgs in #print axioms restX

/-- info: 'Cert.KernelIdeal.A2A.restZ' depends on axioms: [propext, Classical.choice, Quot.sound] -/
#guard_msgs in #print axioms restZ

end Cert.KernelIdeal.A2A

end
-- ==== Proof.Above.lean ====
import proofs.«900640_g7700000000000641_dist_a2a_v7x_xyz2x2x4_y_m4096_n1024_f32_1_alg».proof.Proof.Levels

/-!
# Everything owed lies above a level

A wait on a cell of level `n` is allowed while every cell the device still owes on is a TensorCore cell of a level
above `n`. What is owed at a wait is a literal sum of one-cell tallies, so "above `n`" is checked summand by summand:
a cell's level depends on its semaphore only, and for a literal semaphore it is a numeral found by evaluation.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## The predicate -/

/-- Every cell on which `O` owes anything is a TensorCore cell of a level above `n`. -/
def Above (n : ℕ) (O : CellTallies nD τ sig Unit) : Prop := ∀ g u, 0 < O g u → u ∈ L g ∧ n < lv g u

theorem Above.zero (n : ℕ) : Above n 0 := fun g u h => absurd h (Nat.lt_irrefl 0)

theorem Above.add {n : ℕ} {O₁ O₂ : CellTallies nD τ sig Unit} (h₁ : Above n O₁) (h₂ : Above n O₂) : Above n (O₁ + O₂) :=
  fun g u h => (Pipeline.add_pos_cases h).elim (h₁ g u) (h₂ g u)

/-- One tally on a device's cell whose level is above `n`. -/
theorem Above.tally (n : ℕ) (d : Dev nD) (s : SemLoc sig) (k : ℕ) (h : n < lv ((d : Thread nD τ), s) ()) :
    Above n (tallyAt ((d : Thread nD τ), s) () k) :=
  fun g' u hp => by
    obtain ⟨rfl, rfl⟩ := Pipeline.tallyAt_pos hp
    exact ⟨mem_L_tc d s (), h⟩

/-- Whatever is above a level is above every smaller one. -/
theorem Above.mono {n n' : ℕ} {O : CellTallies nD τ sig Unit} (hn : n' ≤ n) (h : Above n O) : Above n' O :=
  fun g u hp => ⟨(h g u hp).1, Nat.lt_of_le_of_lt hn (h g u hp).2⟩

/-! ## A cell's level, by its semaphore alone -/

/-- The level of a cell with semaphore `sm`, on whichever thread. -/
def lvS (sm : SemLoc sig) : ℕ :=
  match sm with
  | .reg s => if s = barS then 1 else 0
  | .dma k => match famOf k with
    | some (f, _) => if f = Fam.yr then 2 else if f = Fam.xr ∨ f = Fam.zr then 3 else if f = Fam.qr then 4 else 0
    | none => 0

theorem lv_eq_lvS (t : Thread nD τ) (sm : SemLoc sig) (u : Unit) : lv (t, sm) u = lvS sm := by
  cases sm <;> rfl

/-- A DMA semaphore that is no chunk cell (a local copy's) sits at level 0. -/
theorem lv_local (t : Thread nD τ) (k : DmaSem sig) (h : famOf k = none) : lv (t, .dma k) () = 0 := by
  rw [lv_eq_lvS]; unfold lvS; dsimp only; rw [h]

/-! ## The wait -/

/-- A wait on a cell while everything owed is above that cell's level. -/
theorem mayWait_above (c : Dev nD) (sm : SemLoc sig) (O : CellTallies nD τ sig Unit)
    (h : Above (lv ((c : Thread nD τ), sm) ()) O) : (levAts L lv : sProp 𝕄) ⊢ MayWait (c : Thread nD τ) sm () O :=
  Pipeline.mayWait_of_levAts (mem_L_tc c sm ()) fun g u hg => h g u hg

/-! ## Checking a literal sum -/

open Lean Meta Elab Tactic in
/-- The level comparisons left by splitting `Above n O` along the `+` of a literal sum `O` of one-cell tallies. Fails at
    once on any other goal. -/
partial def aboveSplit (g : MVarId) : MetaM (List MVarId) := g.withContext do
  let ty := (← whnfR (← instantiateMVars (← g.getType))).consumeMData
  unless ty.isAppOfArity ``Above 2 do throwError "above_tac: the goal is not of the form `Above n O`"
  let O := ty.appArg!.consumeMData
  if O.isAppOfArity ``HAdd.hAdd 6 then
    let gs ← g.apply (← mkConstWithFreshMVarLevels ``Above.add)
    let mut out : List MVarId := []
    for g' in gs do out := out ++ (← aboveSplit g')
    return out
  else if O.isAppOf ``Idealize.ShloMosaic.tallyAt then
    g.apply (← mkConstWithFreshMVarLevels ``Above.tally)
  else if O.isAppOfArity ``OfNat.ofNat 3 then
    g.apply (← mkConstWithFreshMVarLevels ``Above.zero)
  else throwError "above_tac: what is owed is neither a sum, a tally nor zero:{indentExpr O}"

open Lean Meta Elab Tactic in
/-- `above_split`: the goal `Above n O`, `O` a literal sum of tallies, replaced by one level comparison per summand. -/
elab "above_split" : tactic => liftMetaTactic aboveSplit

/-- `above_tac` proves `Above n O` for a literal sum `O` of tallies on devices' cells with literal semaphores and `n`
    a numeral or the level of a cell with a literal semaphore: every comparison is between two numerals once each
    level is read off its semaphore. -/
macro "above_tac" : tactic =>
  `(tactic| (above_split <;> (try simp only [lv_eq_lvS]) <;> decide))

/-! ## Checks -/

example (c : Dev nD) : Above (lv ((c : Thread nD τ), SemLoc.dma ⟨3, by decide⟩) ())
    (tallyAt (fcell (xP c) Fam.xr 0) () N + tallyAt (fcell (yP c) Fam.yr 0) () N + tallyAt (barCell (zP c)) () 1) := by
  above_tac

example (c : Dev nD) : Above (lv (barCell c) ())
    (tallyAt (fcell (xP c) Fam.xr 0) () N + tallyAt (fcell (yP c) Fam.yr 0) () N + tallyAt (fcell (zP c) Fam.qr 5) () N) := by
  above_tac

example (c : Dev nD) : Above (lv (fcell c Fam.yr 7) ())
    (tallyAt (fcell (xP c) Fam.xr 0) () N + tallyAt (fcell (zP c) Fam.zr 3) () N + tallyAt (fcell (zP c) Fam.qr 5) () N) := by
  above_tac

example (c : Dev nD) : Above (lv (fcell c Fam.zr 15) ()) (tallyAt (fcell (xP c) Fam.qr 0) () N + tallyAt (fcell (zP c) Fam.qr 5) () N) := by
  above_tac

example (c : Dev nD) : Above (lv (fcell c Fam.qr 15) ()) 0 := by
  above_tac

/-- info: 'Cert.KernelIdeal.A2A.mayWait_above' depends on axioms: [propext, Classical.choice, Quot.sound] -/
#guard_msgs in #print axioms mayWait_above

end Cert.KernelIdeal.A2A

end
-- ==== Proof.Canon.lean ====
import proofs.«900640_g7700000000000641_dist_a2a_v7x_xyz2x2x4_y_m4096_n1024_f32_1_alg».proof.Proof.Proto
import Idealize.ShloMosaic.Lib.Tactic

/-!
# The program's spellings and the protocol's names

The program names a chunk's semaphore as entry `i` of one of its semaphore arrays, a chunk of a scratch buffer as
slice `i` of the whole buffer, and sixty-four rows of the input or of the result by a literal row word. Each equation
below says that one such spelling is the protocol's name for the same thing: a family's cell, a slab, a row
block, a load window.
-/

set_option maxRecDepth 16384

namespace Cert.KernelIdeal.A2A

open Cert.KernelIdeal Cert.KernelIdeal.Gen
open Idealize.ShloMosaic Idealize.ShloMosaic.TcCoe

/-! ## Semaphores: entry `i` of a family's array is the family's cell for chunk `i` -/

theorem canon_sem_ys_0 : ((SemArray.slice cc0_scratch9 (Rect.unit (s := S16) ![0] S1.size inb_S16_S1_0)).squeeze S_ squeezes_S1_S_).sem = Fam.sem Fam.ys 0 := by decide
theorem canon_sem_ys_1 : ((SemArray.slice cc0_scratch9 (Rect.unit (s := S16) ![1] S1.size inb_S16_S1_1)).squeeze S_ squeezes_S1_S_).sem = Fam.sem Fam.ys 1 := by decide
theorem canon_sem_ys_2 : ((SemArray.slice cc0_scratch9 (Rect.unit (s := S16) ![2] S1.size inb_S16_S1_2)).squeeze S_ squeezes_S1_S_).sem = Fam.sem Fam.ys 2 := by decide
theorem canon_sem_ys_3 : ((SemArray.slice cc0_scratch9 (Rect.unit (s := S16) ![3] S1.size inb_S16_S1_3)).squeeze S_ squeezes_S1_S_).sem = Fam.sem Fam.ys 3 := by decide
theorem canon_sem_ys_4 : ((SemArray.slice cc0_scratch9 (Rect.unit (s := S16) ![4] S1.size inb_S16_S1_4)).squeeze S_ squeezes_S1_S_).sem = Fam.sem Fam.ys 4 := by decide
theorem canon_sem_ys_5 : ((SemArray.slice cc0_scratch9 (Rect.unit (s := S16) ![5] S1.size inb_S16_S1_5)).squeeze S_ squeezes_S1_S_).sem = Fam.sem Fam.ys 5 := by decide
theorem canon_sem_ys_6 : ((SemArray.slice cc0_scratch9 (Rect.unit (s := S16) ![6] S1.size inb_S16_S1_6)).squeeze S_ squeezes_S1_S_).sem = Fam.sem Fam.ys 6 := by decide
theorem canon_sem_ys_7 : ((SemArray.slice cc0_scratch9 (Rect.unit (s := S16) ![7] S1.size inb_S16_S1_7)).squeeze S_ squeezes_S1_S_).sem = Fam.sem Fam.ys 7 := by decide
theorem canon_sem_ys_8 : ((SemArray.slice cc0_scratch9 (Rect.unit (s := S16) ![8] S1.size inb_S16_S1_8)).squeeze S_ squeezes_S1_S_).sem = Fam.sem Fam.ys 8 := by decide
theorem canon_sem_ys_9 : ((SemArray.slice cc0_scratch9 (Rect.unit (s := S16) ![9] S1.size inb_S16_S1_9)).squeeze S_ squeezes_S1_S_).sem = Fam.sem Fam.ys 9 := by decide
theorem canon_sem_ys_10 : ((SemArray.slice cc0_scratch9 (Rect.unit (s := S16) ![10] S1.size inb_S16_S1_10)).squeeze S_ squeezes_S1_S_).sem = Fam.sem Fam.ys 10 := by decide
theorem canon_sem_ys_11 : ((SemArray.slice cc0_scratch9 (Rect.unit (s := S16) ![11] S1.size inb_S16_S1_11)).squeeze S_ squeezes_S1_S_).sem = Fam.sem Fam.ys 11 := by decide
theorem canon_sem_ys_12 : ((SemArray.slice cc0_scratch9 (Rect.unit (s := S16) ![12] S1.size inb_S16_S1_12)).squeeze S_ squeezes_S1_S_).sem = Fam.sem Fam.ys 12 := by decide
theorem canon_sem_ys_13 : ((SemArray.slice cc0_scratch9 (Rect.unit (s := S16) ![13] S1.size inb_S16_S1_13)).squeeze S_ squeezes_S1_S_).sem = Fam.sem Fam.ys 13 := by decide
theorem canon_sem_ys_14 : ((SemArray.slice cc0_scratch9 (Rect.unit (s := S16) ![14] S1.size inb_S16_S1_14)).squeeze S_ squeezes_S1_S_).sem = Fam.sem Fam.ys 14 := by decide
theorem canon_sem_ys_15 : ((SemArray.slice cc0_scratch9 (Rect.unit (s := S16) ![15] S1.size inb_S16_S1_15)).squeeze S_ squeezes_S1_S_).sem = Fam.sem Fam.ys 15 := by decide
theorem canon_sem_yr_0 : ((SemArray.slice cc0_scratch10 (Rect.unit (s := S16) ![0] S1.size inb_S16_S1_0)).squeeze S_ squeezes_S1_S_).sem = Fam.sem Fam.yr 0 := by decide
theorem canon_sem_yr_1 : ((SemArray.slice cc0_scratch10 (Rect.unit (s := S16) ![1] S1.size inb_S16_S1_1)).squeeze S_ squeezes_S1_S_).sem = Fam.sem Fam.yr 1 := by decide
theorem canon_sem_yr_2 : ((SemArray.slice cc0_scratch10 (Rect.unit (s := S16) ![2] S1.size inb_S16_S1_2)).squeeze S_ squeezes_S1_S_).sem = Fam.sem Fam.yr 2 := by decide
theorem canon_sem_yr_3 : ((SemArray.slice cc0_scratch10 (Rect.unit (s := S16) ![3] S1.size inb_S16_S1_3)).squeeze S_ squeezes_S1_S_).sem = Fam.sem Fam.yr 3 := by decide
theorem canon_sem_yr_4 : ((SemArray.slice cc0_scratch10 (Rect.unit (s := S16) ![4] S1.size inb_S16_S1_4)).squeeze S_ squeezes_S1_S_).sem = Fam.sem Fam.yr 4 := by decide
theorem canon_sem_yr_5 : ((SemArray.slice cc0_scratch10 (Rect.unit (s := S16) ![5] S1.size inb_S16_S1_5)).squeeze S_ squeezes_S1_S_).sem = Fam.sem Fam.yr 5 := by decide
theorem canon_sem_yr_6 : ((SemArray.slice cc0_scratch10 (Rect.unit (s := S16) ![6] S1.size inb_S16_S1_6)).squeeze S_ squeezes_S1_S_).sem = Fam.sem Fam.yr 6 := by decide
theorem canon_sem_yr_7 : ((SemArray.slice cc0_scratch10 (Rect.unit (s := S16) ![7] S1.size inb_S16_S1_7)).squeeze S_ squeezes_S1_S_).sem = Fam.sem Fam.yr 7 := by decide
theorem canon_sem_yr_8 : ((SemArray.slice cc0_scratch10 (Rect.unit (s := S16) ![8] S1.size inb_S16_S1_8)).squeeze S_ squeezes_S1_S_).sem = Fam.sem Fam.yr 8 := by decide
theorem canon_sem_yr_9 : ((SemArray.slice cc0_scratch10 (Rect.unit (s := S16) ![9] S1.size inb_S16_S1_9)).squeeze S_ squeezes_S1_S_).sem = Fam.sem Fam.yr 9 := by decide
theorem canon_sem_yr_10 : ((SemArray.slice cc0_scratch10 (Rect.unit (s := S16) ![10] S1.size inb_S16_S1_10)).squeeze S_ squeezes_S1_S_).sem = Fam.sem Fam.yr 10 := by decide
theorem canon_sem_yr_11 : ((SemArray.slice cc0_scratch10 (Rect.unit (s := S16) ![11] S1.size inb_S16_S1_11)).squeeze S_ squeezes_S1_S_).sem = Fam.sem Fam.yr 11 := by decide
theorem canon_sem_yr_12 : ((SemArray.slice cc0_scratch10 (Rect.unit (s := S16) ![12] S1.size inb_S16_S1_12)).squeeze S_ squeezes_S1_S_).sem = Fam.sem Fam.yr 12 := by decide
theorem canon_sem_yr_13 : ((SemArray.slice cc0_scratch10 (Rect.unit (s := S16) ![13] S1.size inb_S16_S1_13)).squeeze S_ squeezes_S1_S_).sem = Fam.sem Fam.yr 13 := by decide
theorem canon_sem_yr_14 : ((SemArray.slice cc0_scratch10 (Rect.unit (s := S16) ![14] S1.size inb_S16_S1_14)).squeeze S_ squeezes_S1_S_).sem = Fam.sem Fam.yr 14 := by decide
theorem canon_sem_yr_15 : ((SemArray.slice cc0_scratch10 (Rect.unit (s := S16) ![15] S1.size inb_S16_S1_15)).squeeze S_ squeezes_S1_S_).sem = Fam.sem Fam.yr 15 := by decide
theorem canon_sem_xs_0 : ((SemArray.slice cc0_scratch11 (Rect.unit (s := S16) ![0] S1.size inb_S16_S1_0)).squeeze S_ squeezes_S1_S_).sem = Fam.sem Fam.xs 0 := by decide
theorem canon_sem_xs_1 : ((SemArray.slice cc0_scratch11 (Rect.unit (s := S16) ![1] S1.size inb_S16_S1_1)).squeeze S_ squeezes_S1_S_).sem = Fam.sem Fam.xs 1 := by decide
theorem canon_sem_xs_2 : ((SemArray.slice cc0_scratch11 (Rect.unit (s := S16) ![2] S1.size inb_S16_S1_2)).squeeze S_ squeezes_S1_S_).sem = Fam.sem Fam.xs 2 := by decide
theorem canon_sem_xs_3 : ((SemArray.slice cc0_scratch11 (Rect.unit (s := S16) ![3] S1.size inb_S16_S1_3)).squeeze S_ squeezes_S1_S_).sem = Fam.sem Fam.xs 3 := by decide
theorem canon_sem_xs_4 : ((SemArray.slice cc0_scratch11 (Rect.unit (s := S16) ![4] S1.size inb_S16_S1_4)).squeeze S_ squeezes_S1_S_).sem = Fam.sem Fam.xs 4 := by decide
theorem canon_sem_xs_5 : ((SemArray.slice cc0_scratch11 (Rect.unit (s := S16) ![5] S1.size inb_S16_S1_5)).squeeze S_ squeezes_S1_S_).sem = Fam.sem Fam.xs 5 := by decide
theorem canon_sem_xs_6 : ((SemArray.slice cc0_scratch11 (Rect.unit (s := S16) ![6] S1.size inb_S16_S1_6)).squeeze S_ squeezes_S1_S_).sem = Fam.sem Fam.xs 6 := by decide
theorem canon_sem_xs_7 : ((SemArray.slice cc0_scratch11 (Rect.unit (s := S16) ![7] S1.size inb_S16_S1_7)).squeeze S_ squeezes_S1_S_).sem = Fam.sem Fam.xs 7 := by decide
theorem canon_sem_xs_8 : ((SemArray.slice cc0_scratch11 (Rect.unit (s := S16) ![8] S1.size inb_S16_S1_8)).squeeze S_ squeezes_S1_S_).sem = Fam.sem Fam.xs 8 := by decide
theorem canon_sem_xs_9 : ((SemArray.slice cc0_scratch11 (Rect.unit (s := S16) ![9] S1.size inb_S16_S1_9)).squeeze S_ squeezes_S1_S_).sem = Fam.sem Fam.xs 9 := by decide
theorem canon_sem_xs_10 : ((SemArray.slice cc0_scratch11 (Rect.unit (s := S16) ![10] S1.size inb_S16_S1_10)).squeeze S_ squeezes_S1_S_).sem = Fam.sem Fam.xs 10 := by decide
theorem canon_sem_xs_11 : ((SemArray.slice cc0_scratch11 (Rect.unit (s := S16) ![11] S1.size inb_S16_S1_11)).squeeze S_ squeezes_S1_S_).sem = Fam.sem Fam.xs 11 := by decide
theorem canon_sem_xs_12 : ((SemArray.slice cc0_scratch11 (Rect.unit (s := S16) ![12] S1.size inb_S16_S1_12)).squeeze S_ squeezes_S1_S_).sem = Fam.sem Fam.xs 12 := by decide
theorem canon_sem_xs_13 : ((SemArray.slice cc0_scratch11 (Rect.unit (s := S16) ![13] S1.size inb_S16_S1_13)).squeeze S_ squeezes_S1_S_).sem = Fam.sem Fam.xs 13 := by decide
theorem canon_sem_xs_14 : ((SemArray.slice cc0_scratch11 (Rect.unit (s := S16) ![14] S1.size inb_S16_S1_14)).squeeze S_ squeezes_S1_S_).sem = Fam.sem Fam.xs 14 := by decide
theorem canon_sem_xs_15 : ((SemArray.slice cc0_scratch11 (Rect.unit (s := S16) ![15] S1.size inb_S16_S1_15)).squeeze S_ squeezes_S1_S_).sem = Fam.sem Fam.xs 15 := by decide
theorem canon_sem_xr_0 : ((SemArray.slice cc0_scratch12 (Rect.unit (s := S16) ![0] S1.size inb_S16_S1_0)).squeeze S_ squeezes_S1_S_).sem = Fam.sem Fam.xr 0 := by decide
theorem canon_sem_xr_1 : ((SemArray.slice cc0_scratch12 (Rect.unit (s := S16) ![1] S1.size inb_S16_S1_1)).squeeze S_ squeezes_S1_S_).sem = Fam.sem Fam.xr 1 := by decide
theorem canon_sem_xr_2 : ((SemArray.slice cc0_scratch12 (Rect.unit (s := S16) ![2] S1.size inb_S16_S1_2)).squeeze S_ squeezes_S1_S_).sem = Fam.sem Fam.xr 2 := by decide
theorem canon_sem_xr_3 : ((SemArray.slice cc0_scratch12 (Rect.unit (s := S16) ![3] S1.size inb_S16_S1_3)).squeeze S_ squeezes_S1_S_).sem = Fam.sem Fam.xr 3 := by decide
theorem canon_sem_xr_4 : ((SemArray.slice cc0_scratch12 (Rect.unit (s := S16) ![4] S1.size inb_S16_S1_4)).squeeze S_ squeezes_S1_S_).sem = Fam.sem Fam.xr 4 := by decide
theorem canon_sem_xr_5 : ((SemArray.slice cc0_scratch12 (Rect.unit (s := S16) ![5] S1.size inb_S16_S1_5)).squeeze S_ squeezes_S1_S_).sem = Fam.sem Fam.xr 5 := by decide
theorem canon_sem_xr_6 : ((SemArray.slice cc0_scratch12 (Rect.unit (s := S16) ![6] S1.size inb_S16_S1_6)).squeeze S_ squeezes_S1_S_).sem = Fam.sem Fam.xr 6 := by decide
theorem canon_sem_xr_7 : ((SemArray.slice cc0_scratch12 (Rect.unit (s := S16) ![7] S1.size inb_S16_S1_7)).squeeze S_ squeezes_S1_S_).sem = Fam.sem Fam.xr 7 := by decide
theorem canon_sem_xr_8 : ((SemArray.slice cc0_scratch12 (Rect.unit (s := S16) ![8] S1.size inb_S16_S1_8)).squeeze S_ squeezes_S1_S_).sem = Fam.sem Fam.xr 8 := by decide
theorem canon_sem_xr_9 : ((SemArray.slice cc0_scratch12 (Rect.unit (s := S16) ![9] S1.size inb_S16_S1_9)).squeeze S_ squeezes_S1_S_).sem = Fam.sem Fam.xr 9 := by decide
theorem canon_sem_xr_10 : ((SemArray.slice cc0_scratch12 (Rect.unit (s := S16) ![10] S1.size inb_S16_S1_10)).squeeze S_ squeezes_S1_S_).sem = Fam.sem Fam.xr 10 := by decide
theorem canon_sem_xr_11 : ((SemArray.slice cc0_scratch12 (Rect.unit (s := S16) ![11] S1.size inb_S16_S1_11)).squeeze S_ squeezes_S1_S_).sem = Fam.sem Fam.xr 11 := by decide
theorem canon_sem_xr_12 : ((SemArray.slice cc0_scratch12 (Rect.unit (s := S16) ![12] S1.size inb_S16_S1_12)).squeeze S_ squeezes_S1_S_).sem = Fam.sem Fam.xr 12 := by decide
theorem canon_sem_xr_13 : ((SemArray.slice cc0_scratch12 (Rect.unit (s := S16) ![13] S1.size inb_S16_S1_13)).squeeze S_ squeezes_S1_S_).sem = Fam.sem Fam.xr 13 := by decide
theorem canon_sem_xr_14 : ((SemArray.slice cc0_scratch12 (Rect.unit (s := S16) ![14] S1.size inb_S16_S1_14)).squeeze S_ squeezes_S1_S_).sem = Fam.sem Fam.xr 14 := by decide
theorem canon_sem_xr_15 : ((SemArray.slice cc0_scratch12 (Rect.unit (s := S16) ![15] S1.size inb_S16_S1_15)).squeeze S_ squeezes_S1_S_).sem = Fam.sem Fam.xr 15 := by decide
theorem canon_sem_zs_0 : ((SemArray.slice cc0_scratch13 (Rect.unit (s := S16) ![0] S1.size inb_S16_S1_0)).squeeze S_ squeezes_S1_S_).sem = Fam.sem Fam.zs 0 := by decide
theorem canon_sem_zs_1 : ((SemArray.slice cc0_scratch13 (Rect.unit (s := S16) ![1] S1.size inb_S16_S1_1)).squeeze S_ squeezes_S1_S_).sem = Fam.sem Fam.zs 1 := by decide
theorem canon_sem_zs_2 : ((SemArray.slice cc0_scratch13 (Rect.unit (s := S16) ![2] S1.size inb_S16_S1_2)).squeeze S_ squeezes_S1_S_).sem = Fam.sem Fam.zs 2 := by decide
theorem canon_sem_zs_3 : ((SemArray.slice cc0_scratch13 (Rect.unit (s := S16) ![3] S1.size inb_S16_S1_3)).squeeze S_ squeezes_S1_S_).sem = Fam.sem Fam.zs 3 := by decide
theorem canon_sem_zs_4 : ((SemArray.slice cc0_scratch13 (Rect.unit (s := S16) ![4] S1.size inb_S16_S1_4)).squeeze S_ squeezes_S1_S_).sem = Fam.sem Fam.zs 4 := by decide
theorem canon_sem_zs_5 : ((SemArray.slice cc0_scratch13 (Rect.unit (s := S16) ![5] S1.size inb_S16_S1_5)).squeeze S_ squeezes_S1_S_).sem = Fam.sem Fam.zs 5 := by decide
theorem canon_sem_zs_6 : ((SemArray.slice cc0_scratch13 (Rect.unit (s := S16) ![6] S1.size inb_S16_S1_6)).squeeze S_ squeezes_S1_S_).sem = Fam.sem Fam.zs 6 := by decide
theorem canon_sem_zs_7 : ((SemArray.slice cc0_scratch13 (Rect.unit (s := S16) ![7] S1.size inb_S16_S1_7)).squeeze S_ squeezes_S1_S_).sem = Fam.sem Fam.zs 7 := by decide
theorem canon_sem_zs_8 : ((SemArray.slice cc0_scratch13 (Rect.unit (s := S16) ![8] S1.size inb_S16_S1_8)).squeeze S_ squeezes_S1_S_).sem = Fam.sem Fam.zs 8 := by decide
theorem canon_sem_zs_9 : ((SemArray.slice cc0_scratch13 (Rect.unit (s := S16) ![9] S1.size inb_S16_S1_9)).squeeze S_ squeezes_S1_S_).sem = Fam.sem Fam.zs 9 := by decide
theorem canon_sem_zs_10 : ((SemArray.slice cc0_scratch13 (Rect.unit (s := S16) ![10] S1.size inb_S16_S1_10)).squeeze S_ squeezes_S1_S_).sem = Fam.sem Fam.zs 10 := by decide
theorem canon_sem_zs_11 : ((SemArray.slice cc0_scratch13 (Rect.unit (s := S16) ![11] S1.size inb_S16_S1_11)).squeeze S_ squeezes_S1_S_).sem = Fam.sem Fam.zs 11 := by decide
theorem canon_sem_zs_12 : ((SemArray.slice cc0_scratch13 (Rect.unit (s := S16) ![12] S1.size inb_S16_S1_12)).squeeze S_ squeezes_S1_S_).sem = Fam.sem Fam.zs 12 := by decide
theorem canon_sem_zs_13 : ((SemArray.slice cc0_scratch13 (Rect.unit (s := S16) ![13] S1.size inb_S16_S1_13)).squeeze S_ squeezes_S1_S_).sem = Fam.sem Fam.zs 13 := by decide
theorem canon_sem_zs_14 : ((SemArray.slice cc0_scratch13 (Rect.unit (s := S16) ![14] S1.size inb_S16_S1_14)).squeeze S_ squeezes_S1_S_).sem = Fam.sem Fam.zs 14 := by decide
theorem canon_sem_zs_15 : ((SemArray.slice cc0_scratch13 (Rect.unit (s := S16) ![15] S1.size inb_S16_S1_15)).squeeze S_ squeezes_S1_S_).sem = Fam.sem Fam.zs 15 := by decide
theorem canon_sem_zr_0 : ((SemArray.slice cc0_scratch14 (Rect.unit (s := S16) ![0] S1.size inb_S16_S1_0)).squeeze S_ squeezes_S1_S_).sem = Fam.sem Fam.zr 0 := by decide
theorem canon_sem_zr_1 : ((SemArray.slice cc0_scratch14 (Rect.unit (s := S16) ![1] S1.size inb_S16_S1_1)).squeeze S_ squeezes_S1_S_).sem = Fam.sem Fam.zr 1 := by decide
theorem canon_sem_zr_2 : ((SemArray.slice cc0_scratch14 (Rect.unit (s := S16) ![2] S1.size inb_S16_S1_2)).squeeze S_ squeezes_S1_S_).sem = Fam.sem Fam.zr 2 := by decide
theorem canon_sem_zr_3 : ((SemArray.slice cc0_scratch14 (Rect.unit (s := S16) ![3] S1.size inb_S16_S1_3)).squeeze S_ squeezes_S1_S_).sem = Fam.sem Fam.zr 3 := by decide
theorem canon_sem_zr_4 : ((SemArray.slice cc0_scratch14 (Rect.unit (s := S16) ![4] S1.size inb_S16_S1_4)).squeeze S_ squeezes_S1_S_).sem = Fam.sem Fam.zr 4 := by decide
theorem canon_sem_zr_5 : ((SemArray.slice cc0_scratch14 (Rect.unit (s := S16) ![5] S1.size inb_S16_S1_5)).squeeze S_ squeezes_S1_S_).sem = Fam.sem Fam.zr 5 := by decide
theorem canon_sem_zr_6 : ((SemArray.slice cc0_scratch14 (Rect.unit (s := S16) ![6] S1.size inb_S16_S1_6)).squeeze S_ squeezes_S1_S_).sem = Fam.sem Fam.zr 6 := by decide
theorem canon_sem_zr_7 : ((SemArray.slice cc0_scratch14 (Rect.unit (s := S16) ![7] S1.size inb_S16_S1_7)).squeeze S_ squeezes_S1_S_).sem = Fam.sem Fam.zr 7 := by decide
theorem canon_sem_zr_8 : ((SemArray.slice cc0_scratch14 (Rect.unit (s := S16) ![8] S1.size inb_S16_S1_8)).squeeze S_ squeezes_S1_S_).sem = Fam.sem Fam.zr 8 := by decide
theorem canon_sem_zr_9 : ((SemArray.slice cc0_scratch14 (Rect.unit (s := S16) ![9] S1.size inb_S16_S1_9)).squeeze S_ squeezes_S1_S_).sem = Fam.sem Fam.zr 9 := by decide
theorem canon_sem_zr_10 : ((SemArray.slice cc0_scratch14 (Rect.unit (s := S16) ![10] S1.size inb_S16_S1_10)).squeeze S_ squeezes_S1_S_).sem = Fam.sem Fam.zr 10 := by decide
theorem canon_sem_zr_11 : ((SemArray.slice cc0_scratch14 (Rect.unit (s := S16) ![11] S1.size inb_S16_S1_11)).squeeze S_ squeezes_S1_S_).sem = Fam.sem Fam.zr 11 := by decide
theorem canon_sem_zr_12 : ((SemArray.slice cc0_scratch14 (Rect.unit (s := S16) ![12] S1.size inb_S16_S1_12)).squeeze S_ squeezes_S1_S_).sem = Fam.sem Fam.zr 12 := by decide
theorem canon_sem_zr_13 : ((SemArray.slice cc0_scratch14 (Rect.unit (s := S16) ![13] S1.size inb_S16_S1_13)).squeeze S_ squeezes_S1_S_).sem = Fam.sem Fam.zr 13 := by decide
theorem canon_sem_zr_14 : ((SemArray.slice cc0_scratch14 (Rect.unit (s := S16) ![14] S1.size inb_S16_S1_14)).squeeze S_ squeezes_S1_S_).sem = Fam.sem Fam.zr 14 := by decide
theorem canon_sem_zr_15 : ((SemArray.slice cc0_scratch14 (Rect.unit (s := S16) ![15] S1.size inb_S16_S1_15)).squeeze S_ squeezes_S1_S_).sem = Fam.sem Fam.zr 15 := by decide
theorem canon_sem_qs_0 : ((SemArray.slice cc0_scratch15 (Rect.unit (s := S16) ![0] S1.size inb_S16_S1_0)).squeeze S_ squeezes_S1_S_).sem = Fam.sem Fam.qs 0 := by decide
theorem canon_sem_qs_1 : ((SemArray.slice cc0_scratch17 (Rect.unit (s := S16) ![1] S1.size inb_S16_S1_1)).squeeze S_ squeezes_S1_S_).sem = Fam.sem Fam.qs 1 := by decide
theorem canon_sem_qs_2 : ((SemArray.slice cc0_scratch15 (Rect.unit (s := S16) ![2] S1.size inb_S16_S1_2)).squeeze S_ squeezes_S1_S_).sem = Fam.sem Fam.qs 2 := by decide
theorem canon_sem_qs_3 : ((SemArray.slice cc0_scratch17 (Rect.unit (s := S16) ![3] S1.size inb_S16_S1_3)).squeeze S_ squeezes_S1_S_).sem = Fam.sem Fam.qs 3 := by decide
theorem canon_sem_qs_4 : ((SemArray.slice cc0_scratch15 (Rect.unit (s := S16) ![4] S1.size inb_S16_S1_4)).squeeze S_ squeezes_S1_S_).sem = Fam.sem Fam.qs 4 := by decide
theorem canon_sem_qs_5 : ((SemArray.slice cc0_scratch17 (Rect.unit (s := S16) ![5] S1.size inb_S16_S1_5)).squeeze S_ squeezes_S1_S_).sem = Fam.sem Fam.qs 5 := by decide
theorem canon_sem_qs_6 : ((SemArray.slice cc0_scratch15 (Rect.unit (s := S16) ![6] S1.size inb_S16_S1_6)).squeeze S_ squeezes_S1_S_).sem = Fam.sem Fam.qs 6 := by decide
theorem canon_sem_qs_7 : ((SemArray.slice cc0_scratch17 (Rect.unit (s := S16) ![7] S1.size inb_S16_S1_7)).squeeze S_ squeezes_S1_S_).sem = Fam.sem Fam.qs 7 := by decide
theorem canon_sem_qs_8 : ((SemArray.slice cc0_scratch15 (Rect.unit (s := S16) ![8] S1.size inb_S16_S1_8)).squeeze S_ squeezes_S1_S_).sem = Fam.sem Fam.qs 8 := by decide
theorem canon_sem_qs_9 : ((SemArray.slice cc0_scratch17 (Rect.unit (s := S16) ![9] S1.size inb_S16_S1_9)).squeeze S_ squeezes_S1_S_).sem = Fam.sem Fam.qs 9 := by decide
theorem canon_sem_qs_10 : ((SemArray.slice cc0_scratch15 (Rect.unit (s := S16) ![10] S1.size inb_S16_S1_10)).squeeze S_ squeezes_S1_S_).sem = Fam.sem Fam.qs 10 := by decide
theorem canon_sem_qs_11 : ((SemArray.slice cc0_scratch17 (Rect.unit (s := S16) ![11] S1.size inb_S16_S1_11)).squeeze S_ squeezes_S1_S_).sem = Fam.sem Fam.qs 11 := by decide
theorem canon_sem_qs_12 : ((SemArray.slice cc0_scratch15 (Rect.unit (s := S16) ![12] S1.size inb_S16_S1_12)).squeeze S_ squeezes_S1_S_).sem = Fam.sem Fam.qs 12 := by decide
theorem canon_sem_qs_13 : ((SemArray.slice cc0_scratch17 (Rect.unit (s := S16) ![13] S1.size inb_S16_S1_13)).squeeze S_ squeezes_S1_S_).sem = Fam.sem Fam.qs 13 := by decide
theorem canon_sem_qs_14 : ((SemArray.slice cc0_scratch15 (Rect.unit (s := S16) ![14] S1.size inb_S16_S1_14)).squeeze S_ squeezes_S1_S_).sem = Fam.sem Fam.qs 14 := by decide
theorem canon_sem_qs_15 : ((SemArray.slice cc0_scratch17 (Rect.unit (s := S16) ![15] S1.size inb_S16_S1_15)).squeeze S_ squeezes_S1_S_).sem = Fam.sem Fam.qs 15 := by decide
theorem canon_sem_qr_0 : ((SemArray.slice cc0_scratch16 (Rect.unit (s := S16) ![0] S1.size inb_S16_S1_0)).squeeze S_ squeezes_S1_S_).sem = Fam.sem Fam.qr 0 := by decide
theorem canon_sem_qr_1 : ((SemArray.slice cc0_scratch18 (Rect.unit (s := S16) ![1] S1.size inb_S16_S1_1)).squeeze S_ squeezes_S1_S_).sem = Fam.sem Fam.qr 1 := by decide
theorem canon_sem_qr_2 : ((SemArray.slice cc0_scratch16 (Rect.unit (s := S16) ![2] S1.size inb_S16_S1_2)).squeeze S_ squeezes_S1_S_).sem = Fam.sem Fam.qr 2 := by decide
theorem canon_sem_qr_3 : ((SemArray.slice cc0_scratch18 (Rect.unit (s := S16) ![3] S1.size inb_S16_S1_3)).squeeze S_ squeezes_S1_S_).sem = Fam.sem Fam.qr 3 := by decide
theorem canon_sem_qr_4 : ((SemArray.slice cc0_scratch16 (Rect.unit (s := S16) ![4] S1.size inb_S16_S1_4)).squeeze S_ squeezes_S1_S_).sem = Fam.sem Fam.qr 4 := by decide
theorem canon_sem_qr_5 : ((SemArray.slice cc0_scratch18 (Rect.unit (s := S16) ![5] S1.size inb_S16_S1_5)).squeeze S_ squeezes_S1_S_).sem = Fam.sem Fam.qr 5 := by decide
theorem canon_sem_qr_6 : ((SemArray.slice cc0_scratch16 (Rect.unit (s := S16) ![6] S1.size inb_S16_S1_6)).squeeze S_ squeezes_S1_S_).sem = Fam.sem Fam.qr 6 := by decide
theorem canon_sem_qr_7 : ((SemArray.slice cc0_scratch18 (Rect.unit (s := S16) ![7] S1.size inb_S16_S1_7)).squeeze S_ squeezes_S1_S_).sem = Fam.sem Fam.qr 7 := by decide
theorem canon_sem_qr_8 : ((SemArray.slice cc0_scratch16 (Rect.unit (s := S16) ![8] S1.size inb_S16_S1_8)).squeeze S_ squeezes_S1_S_).sem = Fam.sem Fam.qr 8 := by decide
theorem canon_sem_qr_9 : ((SemArray.slice cc0_scratch18 (Rect.unit (s := S16) ![9] S1.size inb_S16_S1_9)).squeeze S_ squeezes_S1_S_).sem = Fam.sem Fam.qr 9 := by decide
theorem canon_sem_qr_10 : ((SemArray.slice cc0_scratch16 (Rect.unit (s := S16) ![10] S1.size inb_S16_S1_10)).squeeze S_ squeezes_S1_S_).sem = Fam.sem Fam.qr 10 := by decide
theorem canon_sem_qr_11 : ((SemArray.slice cc0_scratch18 (Rect.unit (s := S16) ![11] S1.size inb_S16_S1_11)).squeeze S_ squeezes_S1_S_).sem = Fam.sem Fam.qr 11 := by decide
theorem canon_sem_qr_12 : ((SemArray.slice cc0_scratch16 (Rect.unit (s := S16) ![12] S1.size inb_S16_S1_12)).squeeze S_ squeezes_S1_S_).sem = Fam.sem Fam.qr 12 := by decide
theorem canon_sem_qr_13 : ((SemArray.slice cc0_scratch18 (Rect.unit (s := S16) ![13] S1.size inb_S16_S1_13)).squeeze S_ squeezes_S1_S_).sem = Fam.sem Fam.qr 13 := by decide
theorem canon_sem_qr_14 : ((SemArray.slice cc0_scratch16 (Rect.unit (s := S16) ![14] S1.size inb_S16_S1_14)).squeeze S_ squeezes_S1_S_).sem = Fam.sem Fam.qr 14 := by decide
theorem canon_sem_qr_15 : ((SemArray.slice cc0_scratch18 (Rect.unit (s := S16) ![15] S1.size inb_S16_S1_15)).squeeze S_ squeezes_S1_S_).sem = Fam.sem Fam.qr 15 := by decide

/-! ## Scratch chunks: slice `i` of a whole scratch buffer is its slab `i` -/

theorem canon_slab_s_0 : ((Memref.whole cc0_scratch0).slice (Rect.unit (s := S16x64x1024) ![0, 0, 0] S1x64x1024.size inb_S16x64x1024_S1x64x1024_0_0_0) (fun _ => rfl)).squeeze S64x1024 squeezes_S1x64x1024_S64x1024 = slab sM 0 := rfl
theorem canon_slab_s_1 : ((Memref.whole cc0_scratch0).slice (Rect.unit (s := S16x64x1024) ![1, 0, 0] S1x64x1024.size inb_S16x64x1024_S1x64x1024_1_0_0) (fun _ => rfl)).squeeze S64x1024 squeezes_S1x64x1024_S64x1024 = slab sM 1 := rfl
theorem canon_slab_s_2 : ((Memref.whole cc0_scratch0).slice (Rect.unit (s := S16x64x1024) ![2, 0, 0] S1x64x1024.size inb_S16x64x1024_S1x64x1024_2_0_0) (fun _ => rfl)).squeeze S64x1024 squeezes_S1x64x1024_S64x1024 = slab sM 2 := rfl
theorem canon_slab_s_3 : ((Memref.whole cc0_scratch0).slice (Rect.unit (s := S16x64x1024) ![3, 0, 0] S1x64x1024.size inb_S16x64x1024_S1x64x1024_3_0_0) (fun _ => rfl)).squeeze S64x1024 squeezes_S1x64x1024_S64x1024 = slab sM 3 := rfl
theorem canon_slab_s_4 : ((Memref.whole cc0_scratch0).slice (Rect.unit (s := S16x64x1024) ![4, 0, 0] S1x64x1024.size inb_S16x64x1024_S1x64x1024_4_0_0) (fun _ => rfl)).squeeze S64x1024 squeezes_S1x64x1024_S64x1024 = slab sM 4 := rfl
theorem canon_slab_s_5 : ((Memref.whole cc0_scratch0).slice (Rect.unit (s := S16x64x1024) ![5, 0, 0] S1x64x1024.size inb_S16x64x1024_S1x64x1024_5_0_0) (fun _ => rfl)).squeeze S64x1024 squeezes_S1x64x1024_S64x1024 = slab sM 5 := rfl
theorem canon_slab_s_6 : ((Memref.whole cc0_scratch0).slice (Rect.unit (s := S16x64x1024) ![6, 0, 0] S1x64x1024.size inb_S16x64x1024_S1x64x1024_6_0_0) (fun _ => rfl)).squeeze S64x1024 squeezes_S1x64x1024_S64x1024 = slab sM 6 := rfl
theorem canon_slab_s_7 : ((Memref.whole cc0_scratch0).slice (Rect.unit (s := S16x64x1024) ![7, 0, 0] S1x64x1024.size inb_S16x64x1024_S1x64x1024_7_0_0) (fun _ => rfl)).squeeze S64x1024 squeezes_S1x64x1024_S64x1024 = slab sM 7 := rfl
theorem canon_slab_s_8 : ((Memref.whole cc0_scratch0).slice (Rect.unit (s := S16x64x1024) ![8, 0, 0] S1x64x1024.size inb_S16x64x1024_S1x64x1024_8_0_0) (fun _ => rfl)).squeeze S64x1024 squeezes_S1x64x1024_S64x1024 = slab sM 8 := rfl
theorem canon_slab_s_9 : ((Memref.whole cc0_scratch0).slice (Rect.unit (s := S16x64x1024) ![9, 0, 0] S1x64x1024.size inb_S16x64x1024_S1x64x1024_9_0_0) (fun _ => rfl)).squeeze S64x1024 squeezes_S1x64x1024_S64x1024 = slab sM 9 := rfl
theorem canon_slab_s_10 : ((Memref.whole cc0_scratch0).slice (Rect.unit (s := S16x64x1024) ![10, 0, 0] S1x64x1024.size inb_S16x64x1024_S1x64x1024_10_0_0) (fun _ => rfl)).squeeze S64x1024 squeezes_S1x64x1024_S64x1024 = slab sM 10 := rfl
theorem canon_slab_s_11 : ((Memref.whole cc0_scratch0).slice (Rect.unit (s := S16x64x1024) ![11, 0, 0] S1x64x1024.size inb_S16x64x1024_S1x64x1024_11_0_0) (fun _ => rfl)).squeeze S64x1024 squeezes_S1x64x1024_S64x1024 = slab sM 11 := rfl
theorem canon_slab_s_12 : ((Memref.whole cc0_scratch0).slice (Rect.unit (s := S16x64x1024) ![12, 0, 0] S1x64x1024.size inb_S16x64x1024_S1x64x1024_12_0_0) (fun _ => rfl)).squeeze S64x1024 squeezes_S1x64x1024_S64x1024 = slab sM 12 := rfl
theorem canon_slab_s_13 : ((Memref.whole cc0_scratch0).slice (Rect.unit (s := S16x64x1024) ![13, 0, 0] S1x64x1024.size inb_S16x64x1024_S1x64x1024_13_0_0) (fun _ => rfl)).squeeze S64x1024 squeezes_S1x64x1024_S64x1024 = slab sM 13 := rfl
theorem canon_slab_s_14 : ((Memref.whole cc0_scratch0).slice (Rect.unit (s := S16x64x1024) ![14, 0, 0] S1x64x1024.size inb_S16x64x1024_S1x64x1024_14_0_0) (fun _ => rfl)).squeeze S64x1024 squeezes_S1x64x1024_S64x1024 = slab sM 14 := rfl
theorem canon_slab_s_15 : ((Memref.whole cc0_scratch0).slice (Rect.unit (s := S16x64x1024) ![15, 0, 0] S1x64x1024.size inb_S16x64x1024_S1x64x1024_15_0_0) (fun _ => rfl)).squeeze S64x1024 squeezes_S1x64x1024_S64x1024 = slab sM 15 := rfl
theorem canon_slab_r_0 : ((Memref.whole cc0_scratch1).slice (Rect.unit (s := S16x64x1024) ![0, 0, 0] S1x64x1024.size inb_S16x64x1024_S1x64x1024_0_0_0) (fun _ => rfl)).squeeze S64x1024 squeezes_S1x64x1024_S64x1024 = slab rM 0 := rfl
theorem canon_slab_r_1 : ((Memref.whole cc0_scratch1).slice (Rect.unit (s := S16x64x1024) ![1, 0, 0] S1x64x1024.size inb_S16x64x1024_S1x64x1024_1_0_0) (fun _ => rfl)).squeeze S64x1024 squeezes_S1x64x1024_S64x1024 = slab rM 1 := rfl
theorem canon_slab_r_2 : ((Memref.whole cc0_scratch1).slice (Rect.unit (s := S16x64x1024) ![2, 0, 0] S1x64x1024.size inb_S16x64x1024_S1x64x1024_2_0_0) (fun _ => rfl)).squeeze S64x1024 squeezes_S1x64x1024_S64x1024 = slab rM 2 := rfl
theorem canon_slab_r_3 : ((Memref.whole cc0_scratch1).slice (Rect.unit (s := S16x64x1024) ![3, 0, 0] S1x64x1024.size inb_S16x64x1024_S1x64x1024_3_0_0) (fun _ => rfl)).squeeze S64x1024 squeezes_S1x64x1024_S64x1024 = slab rM 3 := rfl
theorem canon_slab_r_4 : ((Memref.whole cc0_scratch1).slice (Rect.unit (s := S16x64x1024) ![4, 0, 0] S1x64x1024.size inb_S16x64x1024_S1x64x1024_4_0_0) (fun _ => rfl)).squeeze S64x1024 squeezes_S1x64x1024_S64x1024 = slab rM 4 := rfl
theorem canon_slab_r_5 : ((Memref.whole cc0_scratch1).slice (Rect.unit (s := S16x64x1024) ![5, 0, 0] S1x64x1024.size inb_S16x64x1024_S1x64x1024_5_0_0) (fun _ => rfl)).squeeze S64x1024 squeezes_S1x64x1024_S64x1024 = slab rM 5 := rfl
theorem canon_slab_r_6 : ((Memref.whole cc0_scratch1).slice (Rect.unit (s := S16x64x1024) ![6, 0, 0] S1x64x1024.size inb_S16x64x1024_S1x64x1024_6_0_0) (fun _ => rfl)).squeeze S64x1024 squeezes_S1x64x1024_S64x1024 = slab rM 6 := rfl
theorem canon_slab_r_7 : ((Memref.whole cc0_scratch1).slice (Rect.unit (s := S16x64x1024) ![7, 0, 0] S1x64x1024.size inb_S16x64x1024_S1x64x1024_7_0_0) (fun _ => rfl)).squeeze S64x1024 squeezes_S1x64x1024_S64x1024 = slab rM 7 := rfl
theorem canon_slab_r_8 : ((Memref.whole cc0_scratch1).slice (Rect.unit (s := S16x64x1024) ![8, 0, 0] S1x64x1024.size inb_S16x64x1024_S1x64x1024_8_0_0) (fun _ => rfl)).squeeze S64x1024 squeezes_S1x64x1024_S64x1024 = slab rM 8 := rfl
theorem canon_slab_r_9 : ((Memref.whole cc0_scratch1).slice (Rect.unit (s := S16x64x1024) ![9, 0, 0] S1x64x1024.size inb_S16x64x1024_S1x64x1024_9_0_0) (fun _ => rfl)).squeeze S64x1024 squeezes_S1x64x1024_S64x1024 = slab rM 9 := rfl
theorem canon_slab_r_10 : ((Memref.whole cc0_scratch1).slice (Rect.unit (s := S16x64x1024) ![10, 0, 0] S1x64x1024.size inb_S16x64x1024_S1x64x1024_10_0_0) (fun _ => rfl)).squeeze S64x1024 squeezes_S1x64x1024_S64x1024 = slab rM 10 := rfl
theorem canon_slab_r_11 : ((Memref.whole cc0_scratch1).slice (Rect.unit (s := S16x64x1024) ![11, 0, 0] S1x64x1024.size inb_S16x64x1024_S1x64x1024_11_0_0) (fun _ => rfl)).squeeze S64x1024 squeezes_S1x64x1024_S64x1024 = slab rM 11 := rfl
theorem canon_slab_r_12 : ((Memref.whole cc0_scratch1).slice (Rect.unit (s := S16x64x1024) ![12, 0, 0] S1x64x1024.size inb_S16x64x1024_S1x64x1024_12_0_0) (fun _ => rfl)).squeeze S64x1024 squeezes_S1x64x1024_S64x1024 = slab rM 12 := rfl
theorem canon_slab_r_13 : ((Memref.whole cc0_scratch1).slice (Rect.unit (s := S16x64x1024) ![13, 0, 0] S1x64x1024.size inb_S16x64x1024_S1x64x1024_13_0_0) (fun _ => rfl)).squeeze S64x1024 squeezes_S1x64x1024_S64x1024 = slab rM 13 := rfl
theorem canon_slab_r_14 : ((Memref.whole cc0_scratch1).slice (Rect.unit (s := S16x64x1024) ![14, 0, 0] S1x64x1024.size inb_S16x64x1024_S1x64x1024_14_0_0) (fun _ => rfl)).squeeze S64x1024 squeezes_S1x64x1024_S64x1024 = slab rM 14 := rfl
theorem canon_slab_r_15 : ((Memref.whole cc0_scratch1).slice (Rect.unit (s := S16x64x1024) ![15, 0, 0] S1x64x1024.size inb_S16x64x1024_S1x64x1024_15_0_0) (fun _ => rfl)).squeeze S64x1024 squeezes_S1x64x1024_S64x1024 = slab rM 15 := rfl
theorem canon_slab_xr_0 : ((Memref.whole cc0_scratch2).slice (Rect.unit (s := S16x64x1024) ![0, 0, 0] S1x64x1024.size inb_S16x64x1024_S1x64x1024_0_0_0) (fun _ => rfl)).squeeze S64x1024 squeezes_S1x64x1024_S64x1024 = slab xrM 0 := rfl
theorem canon_slab_xr_1 : ((Memref.whole cc0_scratch2).slice (Rect.unit (s := S16x64x1024) ![1, 0, 0] S1x64x1024.size inb_S16x64x1024_S1x64x1024_1_0_0) (fun _ => rfl)).squeeze S64x1024 squeezes_S1x64x1024_S64x1024 = slab xrM 1 := rfl
theorem canon_slab_xr_2 : ((Memref.whole cc0_scratch2).slice (Rect.unit (s := S16x64x1024) ![2, 0, 0] S1x64x1024.size inb_S16x64x1024_S1x64x1024_2_0_0) (fun _ => rfl)).squeeze S64x1024 squeezes_S1x64x1024_S64x1024 = slab xrM 2 := rfl
theorem canon_slab_xr_3 : ((Memref.whole cc0_scratch2).slice (Rect.unit (s := S16x64x1024) ![3, 0, 0] S1x64x1024.size inb_S16x64x1024_S1x64x1024_3_0_0) (fun _ => rfl)).squeeze S64x1024 squeezes_S1x64x1024_S64x1024 = slab xrM 3 := rfl
theorem canon_slab_xr_4 : ((Memref.whole cc0_scratch2).slice (Rect.unit (s := S16x64x1024) ![4, 0, 0] S1x64x1024.size inb_S16x64x1024_S1x64x1024_4_0_0) (fun _ => rfl)).squeeze S64x1024 squeezes_S1x64x1024_S64x1024 = slab xrM 4 := rfl
theorem canon_slab_xr_5 : ((Memref.whole cc0_scratch2).slice (Rect.unit (s := S16x64x1024) ![5, 0, 0] S1x64x1024.size inb_S16x64x1024_S1x64x1024_5_0_0) (fun _ => rfl)).squeeze S64x1024 squeezes_S1x64x1024_S64x1024 = slab xrM 5 := rfl
theorem canon_slab_xr_6 : ((Memref.whole cc0_scratch2).slice (Rect.unit (s := S16x64x1024) ![6, 0, 0] S1x64x1024.size inb_S16x64x1024_S1x64x1024_6_0_0) (fun _ => rfl)).squeeze S64x1024 squeezes_S1x64x1024_S64x1024 = slab xrM 6 := rfl
theorem canon_slab_xr_7 : ((Memref.whole cc0_scratch2).slice (Rect.unit (s := S16x64x1024) ![7, 0, 0] S1x64x1024.size inb_S16x64x1024_S1x64x1024_7_0_0) (fun _ => rfl)).squeeze S64x1024 squeezes_S1x64x1024_S64x1024 = slab xrM 7 := rfl
theorem canon_slab_xr_8 : ((Memref.whole cc0_scratch2).slice (Rect.unit (s := S16x64x1024) ![8, 0, 0] S1x64x1024.size inb_S16x64x1024_S1x64x1024_8_0_0) (fun _ => rfl)).squeeze S64x1024 squeezes_S1x64x1024_S64x1024 = slab xrM 8 := rfl
theorem canon_slab_xr_9 : ((Memref.whole cc0_scratch2).slice (Rect.unit (s := S16x64x1024) ![9, 0, 0] S1x64x1024.size inb_S16x64x1024_S1x64x1024_9_0_0) (fun _ => rfl)).squeeze S64x1024 squeezes_S1x64x1024_S64x1024 = slab xrM 9 := rfl
theorem canon_slab_xr_10 : ((Memref.whole cc0_scratch2).slice (Rect.unit (s := S16x64x1024) ![10, 0, 0] S1x64x1024.size inb_S16x64x1024_S1x64x1024_10_0_0) (fun _ => rfl)).squeeze S64x1024 squeezes_S1x64x1024_S64x1024 = slab xrM 10 := rfl
theorem canon_slab_xr_11 : ((Memref.whole cc0_scratch2).slice (Rect.unit (s := S16x64x1024) ![11, 0, 0] S1x64x1024.size inb_S16x64x1024_S1x64x1024_11_0_0) (fun _ => rfl)).squeeze S64x1024 squeezes_S1x64x1024_S64x1024 = slab xrM 11 := rfl
theorem canon_slab_xr_12 : ((Memref.whole cc0_scratch2).slice (Rect.unit (s := S16x64x1024) ![12, 0, 0] S1x64x1024.size inb_S16x64x1024_S1x64x1024_12_0_0) (fun _ => rfl)).squeeze S64x1024 squeezes_S1x64x1024_S64x1024 = slab xrM 12 := rfl
theorem canon_slab_xr_13 : ((Memref.whole cc0_scratch2).slice (Rect.unit (s := S16x64x1024) ![13, 0, 0] S1x64x1024.size inb_S16x64x1024_S1x64x1024_13_0_0) (fun _ => rfl)).squeeze S64x1024 squeezes_S1x64x1024_S64x1024 = slab xrM 13 := rfl
theorem canon_slab_xr_14 : ((Memref.whole cc0_scratch2).slice (Rect.unit (s := S16x64x1024) ![14, 0, 0] S1x64x1024.size inb_S16x64x1024_S1x64x1024_14_0_0) (fun _ => rfl)).squeeze S64x1024 squeezes_S1x64x1024_S64x1024 = slab xrM 14 := rfl
theorem canon_slab_xr_15 : ((Memref.whole cc0_scratch2).slice (Rect.unit (s := S16x64x1024) ![15, 0, 0] S1x64x1024.size inb_S16x64x1024_S1x64x1024_15_0_0) (fun _ => rfl)).squeeze S64x1024 squeezes_S1x64x1024_S64x1024 = slab xrM 15 := rfl
theorem canon_slab_zr_0 : ((Memref.whole cc0_scratch3).slice (Rect.unit (s := S16x64x1024) ![0, 0, 0] S1x64x1024.size inb_S16x64x1024_S1x64x1024_0_0_0) (fun _ => rfl)).squeeze S64x1024 squeezes_S1x64x1024_S64x1024 = slab zrM 0 := rfl
theorem canon_slab_zr_1 : ((Memref.whole cc0_scratch3).slice (Rect.unit (s := S16x64x1024) ![1, 0, 0] S1x64x1024.size inb_S16x64x1024_S1x64x1024_1_0_0) (fun _ => rfl)).squeeze S64x1024 squeezes_S1x64x1024_S64x1024 = slab zrM 1 := rfl
theorem canon_slab_zr_2 : ((Memref.whole cc0_scratch3).slice (Rect.unit (s := S16x64x1024) ![2, 0, 0] S1x64x1024.size inb_S16x64x1024_S1x64x1024_2_0_0) (fun _ => rfl)).squeeze S64x1024 squeezes_S1x64x1024_S64x1024 = slab zrM 2 := rfl
theorem canon_slab_zr_3 : ((Memref.whole cc0_scratch3).slice (Rect.unit (s := S16x64x1024) ![3, 0, 0] S1x64x1024.size inb_S16x64x1024_S1x64x1024_3_0_0) (fun _ => rfl)).squeeze S64x1024 squeezes_S1x64x1024_S64x1024 = slab zrM 3 := rfl
theorem canon_slab_zr_4 : ((Memref.whole cc0_scratch3).slice (Rect.unit (s := S16x64x1024) ![4, 0, 0] S1x64x1024.size inb_S16x64x1024_S1x64x1024_4_0_0) (fun _ => rfl)).squeeze S64x1024 squeezes_S1x64x1024_S64x1024 = slab zrM 4 := rfl
theorem canon_slab_zr_5 : ((Memref.whole cc0_scratch3).slice (Rect.unit (s := S16x64x1024) ![5, 0, 0] S1x64x1024.size inb_S16x64x1024_S1x64x1024_5_0_0) (fun _ => rfl)).squeeze S64x1024 squeezes_S1x64x1024_S64x1024 = slab zrM 5 := rfl
theorem canon_slab_zr_6 : ((Memref.whole cc0_scratch3).slice (Rect.unit (s := S16x64x1024) ![6, 0, 0] S1x64x1024.size inb_S16x64x1024_S1x64x1024_6_0_0) (fun _ => rfl)).squeeze S64x1024 squeezes_S1x64x1024_S64x1024 = slab zrM 6 := rfl
theorem canon_slab_zr_7 : ((Memref.whole cc0_scratch3).slice (Rect.unit (s := S16x64x1024) ![7, 0, 0] S1x64x1024.size inb_S16x64x1024_S1x64x1024_7_0_0) (fun _ => rfl)).squeeze S64x1024 squeezes_S1x64x1024_S64x1024 = slab zrM 7 := rfl
theorem canon_slab_zr_8 : ((Memref.whole cc0_scratch3).slice (Rect.unit (s := S16x64x1024) ![8, 0, 0] S1x64x1024.size inb_S16x64x1024_S1x64x1024_8_0_0) (fun _ => rfl)).squeeze S64x1024 squeezes_S1x64x1024_S64x1024 = slab zrM 8 := rfl
theorem canon_slab_zr_9 : ((Memref.whole cc0_scratch3).slice (Rect.unit (s := S16x64x1024) ![9, 0, 0] S1x64x1024.size inb_S16x64x1024_S1x64x1024_9_0_0) (fun _ => rfl)).squeeze S64x1024 squeezes_S1x64x1024_S64x1024 = slab zrM 9 := rfl
theorem canon_slab_zr_10 : ((Memref.whole cc0_scratch3).slice (Rect.unit (s := S16x64x1024) ![10, 0, 0] S1x64x1024.size inb_S16x64x1024_S1x64x1024_10_0_0) (fun _ => rfl)).squeeze S64x1024 squeezes_S1x64x1024_S64x1024 = slab zrM 10 := rfl
theorem canon_slab_zr_11 : ((Memref.whole cc0_scratch3).slice (Rect.unit (s := S16x64x1024) ![11, 0, 0] S1x64x1024.size inb_S16x64x1024_S1x64x1024_11_0_0) (fun _ => rfl)).squeeze S64x1024 squeezes_S1x64x1024_S64x1024 = slab zrM 11 := rfl
theorem canon_slab_zr_12 : ((Memref.whole cc0_scratch3).slice (Rect.unit (s := S16x64x1024) ![12, 0, 0] S1x64x1024.size inb_S16x64x1024_S1x64x1024_12_0_0) (fun _ => rfl)).squeeze S64x1024 squeezes_S1x64x1024_S64x1024 = slab zrM 12 := rfl
theorem canon_slab_zr_13 : ((Memref.whole cc0_scratch3).slice (Rect.unit (s := S16x64x1024) ![13, 0, 0] S1x64x1024.size inb_S16x64x1024_S1x64x1024_13_0_0) (fun _ => rfl)).squeeze S64x1024 squeezes_S1x64x1024_S64x1024 = slab zrM 13 := rfl
theorem canon_slab_zr_14 : ((Memref.whole cc0_scratch3).slice (Rect.unit (s := S16x64x1024) ![14, 0, 0] S1x64x1024.size inb_S16x64x1024_S1x64x1024_14_0_0) (fun _ => rfl)).squeeze S64x1024 squeezes_S1x64x1024_S64x1024 = slab zrM 14 := rfl
theorem canon_slab_zr_15 : ((Memref.whole cc0_scratch3).slice (Rect.unit (s := S16x64x1024) ![15, 0, 0] S1x64x1024.size inb_S16x64x1024_S1x64x1024_15_0_0) (fun _ => rfl)).squeeze S64x1024 squeezes_S1x64x1024_S64x1024 = slab zrM 15 := rfl

/-! ## Result rows and load windows: the literal row word `64 · i` is chunk `i`'s -/

theorem canon_rowY_0 (c : Dev nD) : (Memref.whole main_v1).slice (Rect.unit (s := S8192x1024) (k0_off4 c 0#32) S64x1024.size (k0_off4_inb c 0)) (fun _ => rfl) = oRowY c 0 := rfl
theorem canon_rowY_1 (c : Dev nD) : (Memref.whole main_v1).slice (Rect.unit (s := S8192x1024) (k0_off4 c 64#32) S64x1024.size (k0_off4_inb c 1)) (fun _ => rfl) = oRowY c 1 := rfl
theorem canon_rowY_2 (c : Dev nD) : (Memref.whole main_v1).slice (Rect.unit (s := S8192x1024) (k0_off4 c 128#32) S64x1024.size (k0_off4_inb c 2)) (fun _ => rfl) = oRowY c 2 := rfl
theorem canon_rowY_3 (c : Dev nD) : (Memref.whole main_v1).slice (Rect.unit (s := S8192x1024) (k0_off4 c 192#32) S64x1024.size (k0_off4_inb c 3)) (fun _ => rfl) = oRowY c 3 := rfl
theorem canon_rowY_4 (c : Dev nD) : (Memref.whole main_v1).slice (Rect.unit (s := S8192x1024) (k0_off4 c 256#32) S64x1024.size (k0_off4_inb c 4)) (fun _ => rfl) = oRowY c 4 := rfl
theorem canon_rowY_5 (c : Dev nD) : (Memref.whole main_v1).slice (Rect.unit (s := S8192x1024) (k0_off4 c 320#32) S64x1024.size (k0_off4_inb c 5)) (fun _ => rfl) = oRowY c 5 := rfl
theorem canon_rowY_6 (c : Dev nD) : (Memref.whole main_v1).slice (Rect.unit (s := S8192x1024) (k0_off4 c 384#32) S64x1024.size (k0_off4_inb c 6)) (fun _ => rfl) = oRowY c 6 := rfl
theorem canon_rowY_7 (c : Dev nD) : (Memref.whole main_v1).slice (Rect.unit (s := S8192x1024) (k0_off4 c 448#32) S64x1024.size (k0_off4_inb c 7)) (fun _ => rfl) = oRowY c 7 := rfl
theorem canon_rowY_8 (c : Dev nD) : (Memref.whole main_v1).slice (Rect.unit (s := S8192x1024) (k0_off4 c 512#32) S64x1024.size (k0_off4_inb c 8)) (fun _ => rfl) = oRowY c 8 := rfl
theorem canon_rowY_9 (c : Dev nD) : (Memref.whole main_v1).slice (Rect.unit (s := S8192x1024) (k0_off4 c 576#32) S64x1024.size (k0_off4_inb c 9)) (fun _ => rfl) = oRowY c 9 := rfl
theorem canon_rowY_10 (c : Dev nD) : (Memref.whole main_v1).slice (Rect.unit (s := S8192x1024) (k0_off4 c 640#32) S64x1024.size (k0_off4_inb c 10)) (fun _ => rfl) = oRowY c 10 := rfl
theorem canon_rowY_11 (c : Dev nD) : (Memref.whole main_v1).slice (Rect.unit (s := S8192x1024) (k0_off4 c 704#32) S64x1024.size (k0_off4_inb c 11)) (fun _ => rfl) = oRowY c 11 := rfl
theorem canon_rowY_12 (c : Dev nD) : (Memref.whole main_v1).slice (Rect.unit (s := S8192x1024) (k0_off4 c 768#32) S64x1024.size (k0_off4_inb c 12)) (fun _ => rfl) = oRowY c 12 := rfl
theorem canon_rowY_13 (c : Dev nD) : (Memref.whole main_v1).slice (Rect.unit (s := S8192x1024) (k0_off4 c 832#32) S64x1024.size (k0_off4_inb c 13)) (fun _ => rfl) = oRowY c 13 := rfl
theorem canon_rowY_14 (c : Dev nD) : (Memref.whole main_v1).slice (Rect.unit (s := S8192x1024) (k0_off4 c 896#32) S64x1024.size (k0_off4_inb c 14)) (fun _ => rfl) = oRowY c 14 := rfl
theorem canon_rowY_15 (c : Dev nD) : (Memref.whole main_v1).slice (Rect.unit (s := S8192x1024) (k0_off4 c 960#32) S64x1024.size (k0_off4_inb c 15)) (fun _ => rfl) = oRowY c 15 := rfl
theorem canon_rowX_0 (c : Dev nD) : (Memref.whole main_v1).slice (Rect.unit (s := S8192x1024) (k0_off5 c 0#32) S64x1024.size (k0_off5_inb c 0)) (fun _ => rfl) = oRowX c 0 := rfl
theorem canon_rowX_1 (c : Dev nD) : (Memref.whole main_v1).slice (Rect.unit (s := S8192x1024) (k0_off5 c 64#32) S64x1024.size (k0_off5_inb c 1)) (fun _ => rfl) = oRowX c 1 := rfl
theorem canon_rowX_2 (c : Dev nD) : (Memref.whole main_v1).slice (Rect.unit (s := S8192x1024) (k0_off5 c 128#32) S64x1024.size (k0_off5_inb c 2)) (fun _ => rfl) = oRowX c 2 := rfl
theorem canon_rowX_3 (c : Dev nD) : (Memref.whole main_v1).slice (Rect.unit (s := S8192x1024) (k0_off5 c 192#32) S64x1024.size (k0_off5_inb c 3)) (fun _ => rfl) = oRowX c 3 := rfl
theorem canon_rowX_4 (c : Dev nD) : (Memref.whole main_v1).slice (Rect.unit (s := S8192x1024) (k0_off5 c 256#32) S64x1024.size (k0_off5_inb c 4)) (fun _ => rfl) = oRowX c 4 := rfl
theorem canon_rowX_5 (c : Dev nD) : (Memref.whole main_v1).slice (Rect.unit (s := S8192x1024) (k0_off5 c 320#32) S64x1024.size (k0_off5_inb c 5)) (fun _ => rfl) = oRowX c 5 := rfl
theorem canon_rowX_6 (c : Dev nD) : (Memref.whole main_v1).slice (Rect.unit (s := S8192x1024) (k0_off5 c 384#32) S64x1024.size (k0_off5_inb c 6)) (fun _ => rfl) = oRowX c 6 := rfl
theorem canon_rowX_7 (c : Dev nD) : (Memref.whole main_v1).slice (Rect.unit (s := S8192x1024) (k0_off5 c 448#32) S64x1024.size (k0_off5_inb c 7)) (fun _ => rfl) = oRowX c 7 := rfl
theorem canon_rowX_8 (c : Dev nD) : (Memref.whole main_v1).slice (Rect.unit (s := S8192x1024) (k0_off5 c 512#32) S64x1024.size (k0_off5_inb c 8)) (fun _ => rfl) = oRowX c 8 := rfl
theorem canon_rowX_9 (c : Dev nD) : (Memref.whole main_v1).slice (Rect.unit (s := S8192x1024) (k0_off5 c 576#32) S64x1024.size (k0_off5_inb c 9)) (fun _ => rfl) = oRowX c 9 := rfl
theorem canon_rowX_10 (c : Dev nD) : (Memref.whole main_v1).slice (Rect.unit (s := S8192x1024) (k0_off5 c 640#32) S64x1024.size (k0_off5_inb c 10)) (fun _ => rfl) = oRowX c 10 := rfl
theorem canon_rowX_11 (c : Dev nD) : (Memref.whole main_v1).slice (Rect.unit (s := S8192x1024) (k0_off5 c 704#32) S64x1024.size (k0_off5_inb c 11)) (fun _ => rfl) = oRowX c 11 := rfl
theorem canon_rowX_12 (c : Dev nD) : (Memref.whole main_v1).slice (Rect.unit (s := S8192x1024) (k0_off5 c 768#32) S64x1024.size (k0_off5_inb c 12)) (fun _ => rfl) = oRowX c 12 := rfl
theorem canon_rowX_13 (c : Dev nD) : (Memref.whole main_v1).slice (Rect.unit (s := S8192x1024) (k0_off5 c 832#32) S64x1024.size (k0_off5_inb c 13)) (fun _ => rfl) = oRowX c 13 := rfl
theorem canon_rowX_14 (c : Dev nD) : (Memref.whole main_v1).slice (Rect.unit (s := S8192x1024) (k0_off5 c 896#32) S64x1024.size (k0_off5_inb c 14)) (fun _ => rfl) = oRowX c 14 := rfl
theorem canon_rowX_15 (c : Dev nD) : (Memref.whole main_v1).slice (Rect.unit (s := S8192x1024) (k0_off5 c 960#32) S64x1024.size (k0_off5_inb c 15)) (fun _ => rfl) = oRowX c 15 := rfl
theorem canon_rowZ_0 (c : Dev nD) : (Memref.whole main_v1).slice (Rect.unit (s := S8192x1024) (k0_off6 c 0#32) S64x1024.size (k0_off6_inb c 0)) (fun _ => rfl) = oRowZ c 0 := rfl
theorem canon_rowZ_1 (c : Dev nD) : (Memref.whole main_v1).slice (Rect.unit (s := S8192x1024) (k0_off6 c 64#32) S64x1024.size (k0_off6_inb c 1)) (fun _ => rfl) = oRowZ c 1 := rfl
theorem canon_rowZ_2 (c : Dev nD) : (Memref.whole main_v1).slice (Rect.unit (s := S8192x1024) (k0_off6 c 128#32) S64x1024.size (k0_off6_inb c 2)) (fun _ => rfl) = oRowZ c 2 := rfl
theorem canon_rowZ_3 (c : Dev nD) : (Memref.whole main_v1).slice (Rect.unit (s := S8192x1024) (k0_off6 c 192#32) S64x1024.size (k0_off6_inb c 3)) (fun _ => rfl) = oRowZ c 3 := rfl
theorem canon_rowZ_4 (c : Dev nD) : (Memref.whole main_v1).slice (Rect.unit (s := S8192x1024) (k0_off6 c 256#32) S64x1024.size (k0_off6_inb c 4)) (fun _ => rfl) = oRowZ c 4 := rfl
theorem canon_rowZ_5 (c : Dev nD) : (Memref.whole main_v1).slice (Rect.unit (s := S8192x1024) (k0_off6 c 320#32) S64x1024.size (k0_off6_inb c 5)) (fun _ => rfl) = oRowZ c 5 := rfl
theorem canon_rowZ_6 (c : Dev nD) : (Memref.whole main_v1).slice (Rect.unit (s := S8192x1024) (k0_off6 c 384#32) S64x1024.size (k0_off6_inb c 6)) (fun _ => rfl) = oRowZ c 6 := rfl
theorem canon_rowZ_7 (c : Dev nD) : (Memref.whole main_v1).slice (Rect.unit (s := S8192x1024) (k0_off6 c 448#32) S64x1024.size (k0_off6_inb c 7)) (fun _ => rfl) = oRowZ c 7 := rfl
theorem canon_rowZ_8 (c : Dev nD) : (Memref.whole main_v1).slice (Rect.unit (s := S8192x1024) (k0_off6 c 512#32) S64x1024.size (k0_off6_inb c 8)) (fun _ => rfl) = oRowZ c 8 := rfl
theorem canon_rowZ_9 (c : Dev nD) : (Memref.whole main_v1).slice (Rect.unit (s := S8192x1024) (k0_off6 c 576#32) S64x1024.size (k0_off6_inb c 9)) (fun _ => rfl) = oRowZ c 9 := rfl
theorem canon_rowZ_10 (c : Dev nD) : (Memref.whole main_v1).slice (Rect.unit (s := S8192x1024) (k0_off6 c 640#32) S64x1024.size (k0_off6_inb c 10)) (fun _ => rfl) = oRowZ c 10 := rfl
theorem canon_rowZ_11 (c : Dev nD) : (Memref.whole main_v1).slice (Rect.unit (s := S8192x1024) (k0_off6 c 704#32) S64x1024.size (k0_off6_inb c 11)) (fun _ => rfl) = oRowZ c 11 := rfl
theorem canon_rowZ_12 (c : Dev nD) : (Memref.whole main_v1).slice (Rect.unit (s := S8192x1024) (k0_off6 c 768#32) S64x1024.size (k0_off6_inb c 12)) (fun _ => rfl) = oRowZ c 12 := rfl
theorem canon_rowZ_13 (c : Dev nD) : (Memref.whole main_v1).slice (Rect.unit (s := S8192x1024) (k0_off6 c 832#32) S64x1024.size (k0_off6_inb c 13)) (fun _ => rfl) = oRowZ c 13 := rfl
theorem canon_rowZ_14 (c : Dev nD) : (Memref.whole main_v1).slice (Rect.unit (s := S8192x1024) (k0_off6 c 896#32) S64x1024.size (k0_off6_inb c 14)) (fun _ => rfl) = oRowZ c 14 := rfl
theorem canon_rowZ_15 (c : Dev nD) : (Memref.whole main_v1).slice (Rect.unit (s := S8192x1024) (k0_off6 c 960#32) S64x1024.size (k0_off6_inb c 15)) (fun _ => rfl) = oRowZ c 15 := rfl
theorem canon_win_0 (c : Dev nD) : (Memref.whole main_arg0).slice (Rect.unit (s := S4096x2048) (k0_off1 c 0#32) S64x1024.size (k0_off1_inb c 0)) (fun _ => rfl) = aWin c 0 := rfl
theorem canon_win_1 (c : Dev nD) : (Memref.whole main_arg0).slice (Rect.unit (s := S4096x2048) (k0_off1 c 64#32) S64x1024.size (k0_off1_inb c 1)) (fun _ => rfl) = aWin c 1 := rfl
theorem canon_win_2 (c : Dev nD) : (Memref.whole main_arg0).slice (Rect.unit (s := S4096x2048) (k0_off1 c 128#32) S64x1024.size (k0_off1_inb c 2)) (fun _ => rfl) = aWin c 2 := rfl
theorem canon_win_3 (c : Dev nD) : (Memref.whole main_arg0).slice (Rect.unit (s := S4096x2048) (k0_off1 c 192#32) S64x1024.size (k0_off1_inb c 3)) (fun _ => rfl) = aWin c 3 := rfl
theorem canon_win_4 (c : Dev nD) : (Memref.whole main_arg0).slice (Rect.unit (s := S4096x2048) (k0_off1 c 256#32) S64x1024.size (k0_off1_inb c 4)) (fun _ => rfl) = aWin c 4 := rfl
theorem canon_win_5 (c : Dev nD) : (Memref.whole main_arg0).slice (Rect.unit (s := S4096x2048) (k0_off1 c 320#32) S64x1024.size (k0_off1_inb c 5)) (fun _ => rfl) = aWin c 5 := rfl
theorem canon_win_6 (c : Dev nD) : (Memref.whole main_arg0).slice (Rect.unit (s := S4096x2048) (k0_off1 c 384#32) S64x1024.size (k0_off1_inb c 6)) (fun _ => rfl) = aWin c 6 := rfl
theorem canon_win_7 (c : Dev nD) : (Memref.whole main_arg0).slice (Rect.unit (s := S4096x2048) (k0_off1 c 448#32) S64x1024.size (k0_off1_inb c 7)) (fun _ => rfl) = aWin c 7 := rfl
theorem canon_win_8 (c : Dev nD) : (Memref.whole main_arg0).slice (Rect.unit (s := S4096x2048) (k0_off1 c 512#32) S64x1024.size (k0_off1_inb c 8)) (fun _ => rfl) = aWin c 8 := rfl
theorem canon_win_9 (c : Dev nD) : (Memref.whole main_arg0).slice (Rect.unit (s := S4096x2048) (k0_off1 c 576#32) S64x1024.size (k0_off1_inb c 9)) (fun _ => rfl) = aWin c 9 := rfl
theorem canon_win_10 (c : Dev nD) : (Memref.whole main_arg0).slice (Rect.unit (s := S4096x2048) (k0_off1 c 640#32) S64x1024.size (k0_off1_inb c 10)) (fun _ => rfl) = aWin c 10 := rfl
theorem canon_win_11 (c : Dev nD) : (Memref.whole main_arg0).slice (Rect.unit (s := S4096x2048) (k0_off1 c 704#32) S64x1024.size (k0_off1_inb c 11)) (fun _ => rfl) = aWin c 11 := rfl
theorem canon_win_12 (c : Dev nD) : (Memref.whole main_arg0).slice (Rect.unit (s := S4096x2048) (k0_off1 c 768#32) S64x1024.size (k0_off1_inb c 12)) (fun _ => rfl) = aWin c 12 := rfl
theorem canon_win_13 (c : Dev nD) : (Memref.whole main_arg0).slice (Rect.unit (s := S4096x2048) (k0_off1 c 832#32) S64x1024.size (k0_off1_inb c 13)) (fun _ => rfl) = aWin c 13 := rfl
theorem canon_win_14 (c : Dev nD) : (Memref.whole main_arg0).slice (Rect.unit (s := S4096x2048) (k0_off1 c 896#32) S64x1024.size (k0_off1_inb c 14)) (fun _ => rfl) = aWin c 14 := rfl
theorem canon_win_15 (c : Dev nD) : (Memref.whole main_arg0).slice (Rect.unit (s := S4096x2048) (k0_off1 c 960#32) S64x1024.size (k0_off1_inb c 15)) (fun _ => rfl) = aWin c 15 := rfl

/-! ## The table, and the device equations of the mesh with it -/

attribute [sl_canon] canon_sem_ys_0 canon_sem_ys_1 canon_sem_ys_2 canon_sem_ys_3 canon_sem_ys_4 canon_sem_ys_5 canon_sem_ys_6 canon_sem_ys_7 canon_sem_ys_8 canon_sem_ys_9 canon_sem_ys_10 canon_sem_ys_11 canon_sem_ys_12 canon_sem_ys_13 canon_sem_ys_14 canon_sem_ys_15 canon_sem_yr_0 canon_sem_yr_1 canon_sem_yr_2 canon_sem_yr_3 canon_sem_yr_4 canon_sem_yr_5 canon_sem_yr_6 canon_sem_yr_7 canon_sem_yr_8 canon_sem_yr_9 canon_sem_yr_10 canon_sem_yr_11 canon_sem_yr_12 canon_sem_yr_13 canon_sem_yr_14 canon_sem_yr_15 canon_sem_xs_0 canon_sem_xs_1 canon_sem_xs_2 canon_sem_xs_3 canon_sem_xs_4 canon_sem_xs_5 canon_sem_xs_6 canon_sem_xs_7 canon_sem_xs_8 canon_sem_xs_9 canon_sem_xs_10 canon_sem_xs_11 canon_sem_xs_12 canon_sem_xs_13 canon_sem_xs_14 canon_sem_xs_15 canon_sem_xr_0 canon_sem_xr_1 canon_sem_xr_2 canon_sem_xr_3 canon_sem_xr_4 canon_sem_xr_5 canon_sem_xr_6 canon_sem_xr_7 canon_sem_xr_8 canon_sem_xr_9 canon_sem_xr_10 canon_sem_xr_11 canon_sem_xr_12 canon_sem_xr_13 canon_sem_xr_14 canon_sem_xr_15 canon_sem_zs_0 canon_sem_zs_1 canon_sem_zs_2 canon_sem_zs_3 canon_sem_zs_4 canon_sem_zs_5 canon_sem_zs_6 canon_sem_zs_7 canon_sem_zs_8 canon_sem_zs_9 canon_sem_zs_10 canon_sem_zs_11 canon_sem_zs_12 canon_sem_zs_13 canon_sem_zs_14 canon_sem_zs_15 canon_sem_zr_0 canon_sem_zr_1 canon_sem_zr_2 canon_sem_zr_3 canon_sem_zr_4 canon_sem_zr_5 canon_sem_zr_6 canon_sem_zr_7 canon_sem_zr_8 canon_sem_zr_9 canon_sem_zr_10 canon_sem_zr_11 canon_sem_zr_12 canon_sem_zr_13 canon_sem_zr_14 canon_sem_zr_15 canon_sem_qs_0 canon_sem_qs_1 canon_sem_qs_2 canon_sem_qs_3 canon_sem_qs_4 canon_sem_qs_5 canon_sem_qs_6 canon_sem_qs_7 canon_sem_qs_8 canon_sem_qs_9 canon_sem_qs_10 canon_sem_qs_11 canon_sem_qs_12 canon_sem_qs_13 canon_sem_qs_14 canon_sem_qs_15 canon_sem_qr_0 canon_sem_qr_1 canon_sem_qr_2 canon_sem_qr_3 canon_sem_qr_4 canon_sem_qr_5 canon_sem_qr_6 canon_sem_qr_7 canon_sem_qr_8 canon_sem_qr_9 canon_sem_qr_10 canon_sem_qr_11 canon_sem_qr_12 canon_sem_qr_13 canon_sem_qr_14 canon_sem_qr_15 canon_slab_s_0 canon_slab_s_1 canon_slab_s_2 canon_slab_s_3 canon_slab_s_4 canon_slab_s_5 canon_slab_s_6 canon_slab_s_7 canon_slab_s_8 canon_slab_s_9 canon_slab_s_10 canon_slab_s_11 canon_slab_s_12 canon_slab_s_13 canon_slab_s_14 canon_slab_s_15 canon_slab_r_0 canon_slab_r_1 canon_slab_r_2 canon_slab_r_3 canon_slab_r_4 canon_slab_r_5 canon_slab_r_6 canon_slab_r_7 canon_slab_r_8 canon_slab_r_9 canon_slab_r_10 canon_slab_r_11 canon_slab_r_12 canon_slab_r_13 canon_slab_r_14 canon_slab_r_15 canon_slab_xr_0 canon_slab_xr_1 canon_slab_xr_2 canon_slab_xr_3 canon_slab_xr_4 canon_slab_xr_5 canon_slab_xr_6 canon_slab_xr_7 canon_slab_xr_8 canon_slab_xr_9 canon_slab_xr_10 canon_slab_xr_11 canon_slab_xr_12 canon_slab_xr_13 canon_slab_xr_14 canon_slab_xr_15 canon_slab_zr_0 canon_slab_zr_1 canon_slab_zr_2 canon_slab_zr_3 canon_slab_zr_4 canon_slab_zr_5 canon_slab_zr_6 canon_slab_zr_7 canon_slab_zr_8 canon_slab_zr_9 canon_slab_zr_10 canon_slab_zr_11 canon_slab_zr_12 canon_slab_zr_13 canon_slab_zr_14 canon_slab_zr_15 canon_rowY_0 canon_rowY_1 canon_rowY_2 canon_rowY_3 canon_rowY_4 canon_rowY_5 canon_rowY_6 canon_rowY_7 canon_rowY_8 canon_rowY_9 canon_rowY_10 canon_rowY_11 canon_rowY_12 canon_rowY_13 canon_rowY_14 canon_rowY_15 canon_rowX_0 canon_rowX_1 canon_rowX_2 canon_rowX_3 canon_rowX_4 canon_rowX_5 canon_rowX_6 canon_rowX_7 canon_rowX_8 canon_rowX_9 canon_rowX_10 canon_rowX_11 canon_rowX_12 canon_rowX_13 canon_rowX_14 canon_rowX_15 canon_rowZ_0 canon_rowZ_1 canon_rowZ_2 canon_rowZ_3 canon_rowZ_4 canon_rowZ_5 canon_rowZ_6 canon_rowZ_7 canon_rowZ_8 canon_rowZ_9 canon_rowZ_10 canon_rowZ_11 canon_rowZ_12 canon_rowZ_13 canon_rowZ_14 canon_rowZ_15 canon_win_0 canon_win_1 canon_win_2 canon_win_3 canon_win_4 canon_win_5 canon_win_6 canon_win_7 canon_win_8 canon_win_9 canon_win_10 canon_win_11 canon_win_12 canon_win_13 canon_win_14 canon_win_15 dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq dev63_eq dev64_eq dev65_eq dev66_eq dev67_eq

/-- Rewrites every device id the program computes to the partner it is. -/
macro "a2a_dev" : tactic => `(tactic| simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq, dev64_eq, dev65_eq, dev66_eq, dev67_eq])

end Cert.KernelIdeal.A2A
-- ==== Proof.Close.lean ====
import proofs.«900640_g7700000000000641_dist_a2a_v7x_xyz2x2x4_y_m4096_n1024_f32_1_alg».proof.Proof.Glob

/-!
# Closing the cells

At the end of its body a device has waited once on each of its 128 chunk cells: it stands at round 1 of every one of
them, having taken nothing of that round, and no cell has a duty from round 1 on. So each cell closes, which reads its
counter at zero; together with the semaphores that are no chunk cell this is every own DMA semaphore back at zero.

The 128 cells are listed family by family (the first hop's send and receive cells, the second hop's along `x` and
along `z`, the fourth quarter's), sixteen chunks each.
-/

set_option maxRecDepth 65536

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## One cell, all cells -/

/-- A chunk cell whose owner stands at round 1 with nothing taken closes: its counter reads zero. -/
theorem close_cell (K : Dev nD × CK → ℕ) (c : Dev nD) (f : Fam) (i : Fin 16) :
    iprop(cellInv ER (sched m) (K (c, some (f, i))) (fcell c f i) ∗ atPos ER (fcell c f i) 1 ∅ 0)
      ⊢ (|={Set.univ}=> semVal (fcell c f i) 0 : sProp 𝕄) :=
  Rounds.cell_close ER (sched m) (Set.mem_univ _) (not_unitless m _) (R := 1) (duties_later m _)

/-- All 128 chunk cells of a device close at once. -/
theorem close_all (K : Dev nD × CK → ℕ) (c : Dev nD) :
    iprop((bigSep Finset.univ fun fi : Fam × Fin 16 => cellInv ER (sched m) (K (c, some fi)) (fcell c fi.1 fi.2))
        ∗ bigSep Finset.univ fun fi : Fam × Fin 16 => atPos ER (fcell c fi.1 fi.2) 1 ∅ 0)
      ⊢ (|={Set.univ}=> bigSep Finset.univ fun fi : Fam × Fin 16 => semVal (fcell c fi.1 fi.2) 0 : sProp 𝕄) := by
  rw [← bigSep_sep']
  exact (bigSep_mono fun fi _ => close_cell m K c fi.1 fi.2).trans (bigSep_fupd _ _)

/-! ## The 128 cells, one by one -/

theorem close_sep_assoc (P Q R : sProp 𝕄) : iprop((P ∗ Q) ∗ R) = iprop(P ∗ Q ∗ R) := Idealize.SL.BI.Entails.antisymm Idealize.SL.BI.sep_assoc Idealize.SL.BI.sep_assoc'

theorem close_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- A `bigSep` over family and chunk is the chain of its 128 summands, families outermost. -/
theorem bigSep_cells (Φ : Fam × Fin 16 → sProp 𝕄) :
    bigSep Finset.univ Φ = iprop(
        Φ (Fam.ys, 0) ∗ Φ (Fam.ys, 1) ∗ Φ (Fam.ys, 2) ∗ Φ (Fam.ys, 3) ∗ Φ (Fam.ys, 4) ∗ Φ (Fam.ys, 5) ∗ Φ (Fam.ys, 6) ∗ Φ (Fam.ys, 7)
      ∗ Φ (Fam.ys, 8) ∗ Φ (Fam.ys, 9) ∗ Φ (Fam.ys, 10) ∗ Φ (Fam.ys, 11) ∗ Φ (Fam.ys, 12) ∗ Φ (Fam.ys, 13) ∗ Φ (Fam.ys, 14) ∗ Φ (Fam.ys, 15)
      ∗ Φ (Fam.yr, 0) ∗ Φ (Fam.yr, 1) ∗ Φ (Fam.yr, 2) ∗ Φ (Fam.yr, 3) ∗ Φ (Fam.yr, 4) ∗ Φ (Fam.yr, 5) ∗ Φ (Fam.yr, 6) ∗ Φ (Fam.yr, 7)
      ∗ Φ (Fam.yr, 8) ∗ Φ (Fam.yr, 9) ∗ Φ (Fam.yr, 10) ∗ Φ (Fam.yr, 11) ∗ Φ (Fam.yr, 12) ∗ Φ (Fam.yr, 13) ∗ Φ (Fam.yr, 14) ∗ Φ (Fam.yr, 15)
      ∗ Φ (Fam.xs, 0) ∗ Φ (Fam.xs, 1) ∗ Φ (Fam.xs, 2) ∗ Φ (Fam.xs, 3) ∗ Φ (Fam.xs, 4) ∗ Φ (Fam.xs, 5) ∗ Φ (Fam.xs, 6) ∗ Φ (Fam.xs, 7)
      ∗ Φ (Fam.xs, 8) ∗ Φ (Fam.xs, 9) ∗ Φ (Fam.xs, 10) ∗ Φ (Fam.xs, 11) ∗ Φ (Fam.xs, 12) ∗ Φ (Fam.xs, 13) ∗ Φ (Fam.xs, 14) ∗ Φ (Fam.xs, 15)
      ∗ Φ (Fam.xr, 0) ∗ Φ (Fam.xr, 1) ∗ Φ (Fam.xr, 2) ∗ Φ (Fam.xr, 3) ∗ Φ (Fam.xr, 4) ∗ Φ (Fam.xr, 5) ∗ Φ (Fam.xr, 6) ∗ Φ (Fam.xr, 7)
      ∗ Φ (Fam.xr, 8) ∗ Φ (Fam.xr, 9) ∗ Φ (Fam.xr, 10) ∗ Φ (Fam.xr, 11) ∗ Φ (Fam.xr, 12) ∗ Φ (Fam.xr, 13) ∗ Φ (Fam.xr, 14) ∗ Φ (Fam.xr, 15)
      ∗ Φ (Fam.zs, 0) ∗ Φ (Fam.zs, 1) ∗ Φ (Fam.zs, 2) ∗ Φ (Fam.zs, 3) ∗ Φ (Fam.zs, 4) ∗ Φ (Fam.zs, 5) ∗ Φ (Fam.zs, 6) ∗ Φ (Fam.zs, 7)
      ∗ Φ (Fam.zs, 8) ∗ Φ (Fam.zs, 9) ∗ Φ (Fam.zs, 10) ∗ Φ (Fam.zs, 11) ∗ Φ (Fam.zs, 12) ∗ Φ (Fam.zs, 13) ∗ Φ (Fam.zs, 14) ∗ Φ (Fam.zs, 15)
      ∗ Φ (Fam.zr, 0) ∗ Φ (Fam.zr, 1) ∗ Φ (Fam.zr, 2) ∗ Φ (Fam.zr, 3) ∗ Φ (Fam.zr, 4) ∗ Φ (Fam.zr, 5) ∗ Φ (Fam.zr, 6) ∗ Φ (Fam.zr, 7)
      ∗ Φ (Fam.zr, 8) ∗ Φ (Fam.zr, 9) ∗ Φ (Fam.zr, 10) ∗ Φ (Fam.zr, 11) ∗ Φ (Fam.zr, 12) ∗ Φ (Fam.zr, 13) ∗ Φ (Fam.zr, 14) ∗ Φ (Fam.zr, 15)
      ∗ Φ (Fam.qs, 0) ∗ Φ (Fam.qs, 1) ∗ Φ (Fam.qs, 2) ∗ Φ (Fam.qs, 3) ∗ Φ (Fam.qs, 4) ∗ Φ (Fam.qs, 5) ∗ Φ (Fam.qs, 6) ∗ Φ (Fam.qs, 7)
      ∗ Φ (Fam.qs, 8) ∗ Φ (Fam.qs, 9) ∗ Φ (Fam.qs, 10) ∗ Φ (Fam.qs, 11) ∗ Φ (Fam.qs, 12) ∗ Φ (Fam.qs, 13) ∗ Φ (Fam.qs, 14) ∗ Φ (Fam.qs, 15)
      ∗ Φ (Fam.qr, 0) ∗ Φ (Fam.qr, 1) ∗ Φ (Fam.qr, 2) ∗ Φ (Fam.qr, 3) ∗ Φ (Fam.qr, 4) ∗ Φ (Fam.qr, 5) ∗ Φ (Fam.qr, 6) ∗ Φ (Fam.qr, 7)
      ∗ Φ (Fam.qr, 8) ∗ Φ (Fam.qr, 9) ∗ Φ (Fam.qr, 10) ∗ Φ (Fam.qr, 11) ∗ Φ (Fam.qr, 12) ∗ Φ (Fam.qr, 13) ∗ Φ (Fam.qr, 14) ∗ Φ (Fam.qr, 15)) := by
  rw [bigSep_univ_prod, bigSep_fam]
  simp only [close_fin16, close_sep_assoc]

/-- The 128 invariants and the 128 positions, each as a chain in that order, close all the cells. -/
theorem close_chain (K : Dev nD × CK → ℕ) (c : Dev nD) :
    iprop((
        cellInv ER (sched m) (K (c, some (Fam.ys, 0))) (fcell c Fam.ys 0) ∗ cellInv ER (sched m) (K (c, some (Fam.ys, 1))) (fcell c Fam.ys 1)
      ∗ cellInv ER (sched m) (K (c, some (Fam.ys, 2))) (fcell c Fam.ys 2) ∗ cellInv ER (sched m) (K (c, some (Fam.ys, 3))) (fcell c Fam.ys 3)
      ∗ cellInv ER (sched m) (K (c, some (Fam.ys, 4))) (fcell c Fam.ys 4) ∗ cellInv ER (sched m) (K (c, some (Fam.ys, 5))) (fcell c Fam.ys 5)
      ∗ cellInv ER (sched m) (K (c, some (Fam.ys, 6))) (fcell c Fam.ys 6) ∗ cellInv ER (sched m) (K (c, some (Fam.ys, 7))) (fcell c Fam.ys 7)
      ∗ cellInv ER (sched m) (K (c, some (Fam.ys, 8))) (fcell c Fam.ys 8) ∗ cellInv ER (sched m) (K (c, some (Fam.ys, 9))) (fcell c Fam.ys 9)
      ∗ cellInv ER (sched m) (K (c, some (Fam.ys, 10))) (fcell c Fam.ys 10) ∗ cellInv ER (sched m) (K (c, some (Fam.ys, 11))) (fcell c Fam.ys 11)
      ∗ cellInv ER (sched m) (K (c, some (Fam.ys, 12))) (fcell c Fam.ys 12) ∗ cellInv ER (sched m) (K (c, some (Fam.ys, 13))) (fcell c Fam.ys 13)
      ∗ cellInv ER (sched m) (K (c, some (Fam.ys, 14))) (fcell c Fam.ys 14) ∗ cellInv ER (sched m) (K (c, some (Fam.ys, 15))) (fcell c Fam.ys 15)
      ∗ cellInv ER (sched m) (K (c, some (Fam.yr, 0))) (fcell c Fam.yr 0) ∗ cellInv ER (sched m) (K (c, some (Fam.yr, 1))) (fcell c Fam.yr 1)
      ∗ cellInv ER (sched m) (K (c, some (Fam.yr, 2))) (fcell c Fam.yr 2) ∗ cellInv ER (sched m) (K (c, some (Fam.yr, 3))) (fcell c Fam.yr 3)
      ∗ cellInv ER (sched m) (K (c, some (Fam.yr, 4))) (fcell c Fam.yr 4) ∗ cellInv ER (sched m) (K (c, some (Fam.yr, 5))) (fcell c Fam.yr 5)
      ∗ cellInv ER (sched m) (K (c, some (Fam.yr, 6))) (fcell c Fam.yr 6) ∗ cellInv ER (sched m) (K (c, some (Fam.yr, 7))) (fcell c Fam.yr 7)
      ∗ cellInv ER (sched m) (K (c, some (Fam.yr, 8))) (fcell c Fam.yr 8) ∗ cellInv ER (sched m) (K (c, some (Fam.yr, 9))) (fcell c Fam.yr 9)
      ∗ cellInv ER (sched m) (K (c, some (Fam.yr, 10))) (fcell c Fam.yr 10) ∗ cellInv ER (sched m) (K (c, some (Fam.yr, 11))) (fcell c Fam.yr 11)
      ∗ cellInv ER (sched m) (K (c, some (Fam.yr, 12))) (fcell c Fam.yr 12) ∗ cellInv ER (sched m) (K (c, some (Fam.yr, 13))) (fcell c Fam.yr 13)
      ∗ cellInv ER (sched m) (K (c, some (Fam.yr, 14))) (fcell c Fam.yr 14) ∗ cellInv ER (sched m) (K (c, some (Fam.yr, 15))) (fcell c Fam.yr 15)
      ∗ cellInv ER (sched m) (K (c, some (Fam.xs, 0))) (fcell c Fam.xs 0) ∗ cellInv ER (sched m) (K (c, some (Fam.xs, 1))) (fcell c Fam.xs 1)
      ∗ cellInv ER (sched m) (K (c, some (Fam.xs, 2))) (fcell c Fam.xs 2) ∗ cellInv ER (sched m) (K (c, some (Fam.xs, 3))) (fcell c Fam.xs 3)
      ∗ cellInv ER (sched m) (K (c, some (Fam.xs, 4))) (fcell c Fam.xs 4) ∗ cellInv ER (sched m) (K (c, some (Fam.xs, 5))) (fcell c Fam.xs 5)
      ∗ cellInv ER (sched m) (K (c, some (Fam.xs, 6))) (fcell c Fam.xs 6) ∗ cellInv ER (sched m) (K (c, some (Fam.xs, 7))) (fcell c Fam.xs 7)
      ∗ cellInv ER (sched m) (K (c, some (Fam.xs, 8))) (fcell c Fam.xs 8) ∗ cellInv ER (sched m) (K (c, some (Fam.xs, 9))) (fcell c Fam.xs 9)
      ∗ cellInv ER (sched m) (K (c, some (Fam.xs, 10))) (fcell c Fam.xs 10) ∗ cellInv ER (sched m) (K (c, some (Fam.xs, 11))) (fcell c Fam.xs 11)
      ∗ cellInv ER (sched m) (K (c, some (Fam.xs, 12))) (fcell c Fam.xs 12) ∗ cellInv ER (sched m) (K (c, some (Fam.xs, 13))) (fcell c Fam.xs 13)
      ∗ cellInv ER (sched m) (K (c, some (Fam.xs, 14))) (fcell c Fam.xs 14) ∗ cellInv ER (sched m) (K (c, some (Fam.xs, 15))) (fcell c Fam.xs 15)
      ∗ cellInv ER (sched m) (K (c, some (Fam.xr, 0))) (fcell c Fam.xr 0) ∗ cellInv ER (sched m) (K (c, some (Fam.xr, 1))) (fcell c Fam.xr 1)
      ∗ cellInv ER (sched m) (K (c, some (Fam.xr, 2))) (fcell c Fam.xr 2) ∗ cellInv ER (sched m) (K (c, some (Fam.xr, 3))) (fcell c Fam.xr 3)
      ∗ cellInv ER (sched m) (K (c, some (Fam.xr, 4))) (fcell c Fam.xr 4) ∗ cellInv ER (sched m) (K (c, some (Fam.xr, 5))) (fcell c Fam.xr 5)
      ∗ cellInv ER (sched m) (K (c, some (Fam.xr, 6))) (fcell c Fam.xr 6) ∗ cellInv ER (sched m) (K (c, some (Fam.xr, 7))) (fcell c Fam.xr 7)
      ∗ cellInv ER (sched m) (K (c, some (Fam.xr, 8))) (fcell c Fam.xr 8) ∗ cellInv ER (sched m) (K (c, some (Fam.xr, 9))) (fcell c Fam.xr 9)
      ∗ cellInv ER (sched m) (K (c, some (Fam.xr, 10))) (fcell c Fam.xr 10) ∗ cellInv ER (sched m) (K (c, some (Fam.xr, 11))) (fcell c Fam.xr 11)
      ∗ cellInv ER (sched m) (K (c, some (Fam.xr, 12))) (fcell c Fam.xr 12) ∗ cellInv ER (sched m) (K (c, some (Fam.xr, 13))) (fcell c Fam.xr 13)
      ∗ cellInv ER (sched m) (K (c, some (Fam.xr, 14))) (fcell c Fam.xr 14) ∗ cellInv ER (sched m) (K (c, some (Fam.xr, 15))) (fcell c Fam.xr 15)
      ∗ cellInv ER (sched m) (K (c, some (Fam.zs, 0))) (fcell c Fam.zs 0) ∗ cellInv ER (sched m) (K (c, some (Fam.zs, 1))) (fcell c Fam.zs 1)
      ∗ cellInv ER (sched m) (K (c, some (Fam.zs, 2))) (fcell c Fam.zs 2) ∗ cellInv ER (sched m) (K (c, some (Fam.zs, 3))) (fcell c Fam.zs 3)
      ∗ cellInv ER (sched m) (K (c, some (Fam.zs, 4))) (fcell c Fam.zs 4) ∗ cellInv ER (sched m) (K (c, some (Fam.zs, 5))) (fcell c Fam.zs 5)
      ∗ cellInv ER (sched m) (K (c, some (Fam.zs, 6))) (fcell c Fam.zs 6) ∗ cellInv ER (sched m) (K (c, some (Fam.zs, 7))) (fcell c Fam.zs 7)
      ∗ cellInv ER (sched m) (K (c, some (Fam.zs, 8))) (fcell c Fam.zs 8) ∗ cellInv ER (sched m) (K (c, some (Fam.zs, 9))) (fcell c Fam.zs 9)
      ∗ cellInv ER (sched m) (K (c, some (Fam.zs, 10))) (fcell c Fam.zs 10) ∗ cellInv ER (sched m) (K (c, some (Fam.zs, 11))) (fcell c Fam.zs 11)
      ∗ cellInv ER (sched m) (K (c, some (Fam.zs, 12))) (fcell c Fam.zs 12) ∗ cellInv ER (sched m) (K (c, some (Fam.zs, 13))) (fcell c Fam.zs 13)
      ∗ cellInv ER (sched m) (K (c, some (Fam.zs, 14))) (fcell c Fam.zs 14) ∗ cellInv ER (sched m) (K (c, some (Fam.zs, 15))) (fcell c Fam.zs 15)
      ∗ cellInv ER (sched m) (K (c, some (Fam.zr, 0))) (fcell c Fam.zr 0) ∗ cellInv ER (sched m) (K (c, some (Fam.zr, 1))) (fcell c Fam.zr 1)
      ∗ cellInv ER (sched m) (K (c, some (Fam.zr, 2))) (fcell c Fam.zr 2) ∗ cellInv ER (sched m) (K (c, some (Fam.zr, 3))) (fcell c Fam.zr 3)
      ∗ cellInv ER (sched m) (K (c, some (Fam.zr, 4))) (fcell c Fam.zr 4) ∗ cellInv ER (sched m) (K (c, some (Fam.zr, 5))) (fcell c Fam.zr 5)
      ∗ cellInv ER (sched m) (K (c, some (Fam.zr, 6))) (fcell c Fam.zr 6) ∗ cellInv ER (sched m) (K (c, some (Fam.zr, 7))) (fcell c Fam.zr 7)
      ∗ cellInv ER (sched m) (K (c, some (Fam.zr, 8))) (fcell c Fam.zr 8) ∗ cellInv ER (sched m) (K (c, some (Fam.zr, 9))) (fcell c Fam.zr 9)
      ∗ cellInv ER (sched m) (K (c, some (Fam.zr, 10))) (fcell c Fam.zr 10) ∗ cellInv ER (sched m) (K (c, some (Fam.zr, 11))) (fcell c Fam.zr 11)
      ∗ cellInv ER (sched m) (K (c, some (Fam.zr, 12))) (fcell c Fam.zr 12) ∗ cellInv ER (sched m) (K (c, some (Fam.zr, 13))) (fcell c Fam.zr 13)
      ∗ cellInv ER (sched m) (K (c, some (Fam.zr, 14))) (fcell c Fam.zr 14) ∗ cellInv ER (sched m) (K (c, some (Fam.zr, 15))) (fcell c Fam.zr 15)
      ∗ cellInv ER (sched m) (K (c, some (Fam.qs, 0))) (fcell c Fam.qs 0) ∗ cellInv ER (sched m) (K (c, some (Fam.qs, 1))) (fcell c Fam.qs 1)
      ∗ cellInv ER (sched m) (K (c, some (Fam.qs, 2))) (fcell c Fam.qs 2) ∗ cellInv ER (sched m) (K (c, some (Fam.qs, 3))) (fcell c Fam.qs 3)
      ∗ cellInv ER (sched m) (K (c, some (Fam.qs, 4))) (fcell c Fam.qs 4) ∗ cellInv ER (sched m) (K (c, some (Fam.qs, 5))) (fcell c Fam.qs 5)
      ∗ cellInv ER (sched m) (K (c, some (Fam.qs, 6))) (fcell c Fam.qs 6) ∗ cellInv ER (sched m) (K (c, some (Fam.qs, 7))) (fcell c Fam.qs 7)
      ∗ cellInv ER (sched m) (K (c, some (Fam.qs, 8))) (fcell c Fam.qs 8) ∗ cellInv ER (sched m) (K (c, some (Fam.qs, 9))) (fcell c Fam.qs 9)
      ∗ cellInv ER (sched m) (K (c, some (Fam.qs, 10))) (fcell c Fam.qs 10) ∗ cellInv ER (sched m) (K (c, some (Fam.qs, 11))) (fcell c Fam.qs 11)
      ∗ cellInv ER (sched m) (K (c, some (Fam.qs, 12))) (fcell c Fam.qs 12) ∗ cellInv ER (sched m) (K (c, some (Fam.qs, 13))) (fcell c Fam.qs 13)
      ∗ cellInv ER (sched m) (K (c, some (Fam.qs, 14))) (fcell c Fam.qs 14) ∗ cellInv ER (sched m) (K (c, some (Fam.qs, 15))) (fcell c Fam.qs 15)
      ∗ cellInv ER (sched m) (K (c, some (Fam.qr, 0))) (fcell c Fam.qr 0) ∗ cellInv ER (sched m) (K (c, some (Fam.qr, 1))) (fcell c Fam.qr 1)
      ∗ cellInv ER (sched m) (K (c, some (Fam.qr, 2))) (fcell c Fam.qr 2) ∗ cellInv ER (sched m) (K (c, some (Fam.qr, 3))) (fcell c Fam.qr 3)
      ∗ cellInv ER (sched m) (K (c, some (Fam.qr, 4))) (fcell c Fam.qr 4) ∗ cellInv ER (sched m) (K (c, some (Fam.qr, 5))) (fcell c Fam.qr 5)
      ∗ cellInv ER (sched m) (K (c, some (Fam.qr, 6))) (fcell c Fam.qr 6) ∗ cellInv ER (sched m) (K (c, some (Fam.qr, 7))) (fcell c Fam.qr 7)
      ∗ cellInv ER (sched m) (K (c, some (Fam.qr, 8))) (fcell c Fam.qr 8) ∗ cellInv ER (sched m) (K (c, some (Fam.qr, 9))) (fcell c Fam.qr 9)
      ∗ cellInv ER (sched m) (K (c, some (Fam.qr, 10))) (fcell c Fam.qr 10) ∗ cellInv ER (sched m) (K (c, some (Fam.qr, 11))) (fcell c Fam.qr 11)
      ∗ cellInv ER (sched m) (K (c, some (Fam.qr, 12))) (fcell c Fam.qr 12) ∗ cellInv ER (sched m) (K (c, some (Fam.qr, 13))) (fcell c Fam.qr 13)
      ∗ cellInv ER (sched m) (K (c, some (Fam.qr, 14))) (fcell c Fam.qr 14) ∗ cellInv ER (sched m) (K (c, some (Fam.qr, 15))) (fcell c Fam.qr 15))
      ∗ (
        atPos ER (fcell c Fam.ys 0) 1 ∅ 0 ∗ atPos ER (fcell c Fam.ys 1) 1 ∅ 0 ∗ atPos ER (fcell c Fam.ys 2) 1 ∅ 0 ∗ atPos ER (fcell c Fam.ys 3) 1 ∅ 0
      ∗ atPos ER (fcell c Fam.ys 4) 1 ∅ 0 ∗ atPos ER (fcell c Fam.ys 5) 1 ∅ 0 ∗ atPos ER (fcell c Fam.ys 6) 1 ∅ 0 ∗ atPos ER (fcell c Fam.ys 7) 1 ∅ 0
      ∗ atPos ER (fcell c Fam.ys 8) 1 ∅ 0 ∗ atPos ER (fcell c Fam.ys 9) 1 ∅ 0 ∗ atPos ER (fcell c Fam.ys 10) 1 ∅ 0 ∗ atPos ER (fcell c Fam.ys 11) 1 ∅ 0
      ∗ atPos ER (fcell c Fam.ys 12) 1 ∅ 0 ∗ atPos ER (fcell c Fam.ys 13) 1 ∅ 0 ∗ atPos ER (fcell c Fam.ys 14) 1 ∅ 0 ∗ atPos ER (fcell c Fam.ys 15) 1 ∅ 0
      ∗ atPos ER (fcell c Fam.yr 0) 1 ∅ 0 ∗ atPos ER (fcell c Fam.yr 1) 1 ∅ 0 ∗ atPos ER (fcell c Fam.yr 2) 1 ∅ 0 ∗ atPos ER (fcell c Fam.yr 3) 1 ∅ 0
      ∗ atPos ER (fcell c Fam.yr 4) 1 ∅ 0 ∗ atPos ER (fcell c Fam.yr 5) 1 ∅ 0 ∗ atPos ER (fcell c Fam.yr 6) 1 ∅ 0 ∗ atPos ER (fcell c Fam.yr 7) 1 ∅ 0
      ∗ atPos ER (fcell c Fam.yr 8) 1 ∅ 0 ∗ atPos ER (fcell c Fam.yr 9) 1 ∅ 0 ∗ atPos ER (fcell c Fam.yr 10) 1 ∅ 0 ∗ atPos ER (fcell c Fam.yr 11) 1 ∅ 0
      ∗ atPos ER (fcell c Fam.yr 12) 1 ∅ 0 ∗ atPos ER (fcell c Fam.yr 13) 1 ∅ 0 ∗ atPos ER (fcell c Fam.yr 14) 1 ∅ 0 ∗ atPos ER (fcell c Fam.yr 15) 1 ∅ 0
      ∗ atPos ER (fcell c Fam.xs 0) 1 ∅ 0 ∗ atPos ER (fcell c Fam.xs 1) 1 ∅ 0 ∗ atPos ER (fcell c Fam.xs 2) 1 ∅ 0 ∗ atPos ER (fcell c Fam.xs 3) 1 ∅ 0
      ∗ atPos ER (fcell c Fam.xs 4) 1 ∅ 0 ∗ atPos ER (fcell c Fam.xs 5) 1 ∅ 0 ∗ atPos ER (fcell c Fam.xs 6) 1 ∅ 0 ∗ atPos ER (fcell c Fam.xs 7) 1 ∅ 0
      ∗ atPos ER (fcell c Fam.xs 8) 1 ∅ 0 ∗ atPos ER (fcell c Fam.xs 9) 1 ∅ 0 ∗ atPos ER (fcell c Fam.xs 10) 1 ∅ 0 ∗ atPos ER (fcell c Fam.xs 11) 1 ∅ 0
      ∗ atPos ER (fcell c Fam.xs 12) 1 ∅ 0 ∗ atPos ER (fcell c Fam.xs 13) 1 ∅ 0 ∗ atPos ER (fcell c Fam.xs 14) 1 ∅ 0 ∗ atPos ER (fcell c Fam.xs 15) 1 ∅ 0
      ∗ atPos ER (fcell c Fam.xr 0) 1 ∅ 0 ∗ atPos ER (fcell c Fam.xr 1) 1 ∅ 0 ∗ atPos ER (fcell c Fam.xr 2) 1 ∅ 0 ∗ atPos ER (fcell c Fam.xr 3) 1 ∅ 0
      ∗ atPos ER (fcell c Fam.xr 4) 1 ∅ 0 ∗ atPos ER (fcell c Fam.xr 5) 1 ∅ 0 ∗ atPos ER (fcell c Fam.xr 6) 1 ∅ 0 ∗ atPos ER (fcell c Fam.xr 7) 1 ∅ 0
      ∗ atPos ER (fcell c Fam.xr 8) 1 ∅ 0 ∗ atPos ER (fcell c Fam.xr 9) 1 ∅ 0 ∗ atPos ER (fcell c Fam.xr 10) 1 ∅ 0 ∗ atPos ER (fcell c Fam.xr 11) 1 ∅ 0
      ∗ atPos ER (fcell c Fam.xr 12) 1 ∅ 0 ∗ atPos ER (fcell c Fam.xr 13) 1 ∅ 0 ∗ atPos ER (fcell c Fam.xr 14) 1 ∅ 0 ∗ atPos ER (fcell c Fam.xr 15) 1 ∅ 0
      ∗ atPos ER (fcell c Fam.zs 0) 1 ∅ 0 ∗ atPos ER (fcell c Fam.zs 1) 1 ∅ 0 ∗ atPos ER (fcell c Fam.zs 2) 1 ∅ 0 ∗ atPos ER (fcell c Fam.zs 3) 1 ∅ 0
      ∗ atPos ER (fcell c Fam.zs 4) 1 ∅ 0 ∗ atPos ER (fcell c Fam.zs 5) 1 ∅ 0 ∗ atPos ER (fcell c Fam.zs 6) 1 ∅ 0 ∗ atPos ER (fcell c Fam.zs 7) 1 ∅ 0
      ∗ atPos ER (fcell c Fam.zs 8) 1 ∅ 0 ∗ atPos ER (fcell c Fam.zs 9) 1 ∅ 0 ∗ atPos ER (fcell c Fam.zs 10) 1 ∅ 0 ∗ atPos ER (fcell c Fam.zs 11) 1 ∅ 0
      ∗ atPos ER (fcell c Fam.zs 12) 1 ∅ 0 ∗ atPos ER (fcell c Fam.zs 13) 1 ∅ 0 ∗ atPos ER (fcell c Fam.zs 14) 1 ∅ 0 ∗ atPos ER (fcell c Fam.zs 15) 1 ∅ 0
      ∗ atPos ER (fcell c Fam.zr 0) 1 ∅ 0 ∗ atPos ER (fcell c Fam.zr 1) 1 ∅ 0 ∗ atPos ER (fcell c Fam.zr 2) 1 ∅ 0 ∗ atPos ER (fcell c Fam.zr 3) 1 ∅ 0
      ∗ atPos ER (fcell c Fam.zr 4) 1 ∅ 0 ∗ atPos ER (fcell c Fam.zr 5) 1 ∅ 0 ∗ atPos ER (fcell c Fam.zr 6) 1 ∅ 0 ∗ atPos ER (fcell c Fam.zr 7) 1 ∅ 0
      ∗ atPos ER (fcell c Fam.zr 8) 1 ∅ 0 ∗ atPos ER (fcell c Fam.zr 9) 1 ∅ 0 ∗ atPos ER (fcell c Fam.zr 10) 1 ∅ 0 ∗ atPos ER (fcell c Fam.zr 11) 1 ∅ 0
      ∗ atPos ER (fcell c Fam.zr 12) 1 ∅ 0 ∗ atPos ER (fcell c Fam.zr 13) 1 ∅ 0 ∗ atPos ER (fcell c Fam.zr 14) 1 ∅ 0 ∗ atPos ER (fcell c Fam.zr 15) 1 ∅ 0
      ∗ atPos ER (fcell c Fam.qs 0) 1 ∅ 0 ∗ atPos ER (fcell c Fam.qs 1) 1 ∅ 0 ∗ atPos ER (fcell c Fam.qs 2) 1 ∅ 0 ∗ atPos ER (fcell c Fam.qs 3) 1 ∅ 0
      ∗ atPos ER (fcell c Fam.qs 4) 1 ∅ 0 ∗ atPos ER (fcell c Fam.qs 5) 1 ∅ 0 ∗ atPos ER (fcell c Fam.qs 6) 1 ∅ 0 ∗ atPos ER (fcell c Fam.qs 7) 1 ∅ 0
      ∗ atPos ER (fcell c Fam.qs 8) 1 ∅ 0 ∗ atPos ER (fcell c Fam.qs 9) 1 ∅ 0 ∗ atPos ER (fcell c Fam.qs 10) 1 ∅ 0 ∗ atPos ER (fcell c Fam.qs 11) 1 ∅ 0
      ∗ atPos ER (fcell c Fam.qs 12) 1 ∅ 0 ∗ atPos ER (fcell c Fam.qs 13) 1 ∅ 0 ∗ atPos ER (fcell c Fam.qs 14) 1 ∅ 0 ∗ atPos ER (fcell c Fam.qs 15) 1 ∅ 0
      ∗ atPos ER (fcell c Fam.qr 0) 1 ∅ 0 ∗ atPos ER (fcell c Fam.qr 1) 1 ∅ 0 ∗ atPos ER (fcell c Fam.qr 2) 1 ∅ 0 ∗ atPos ER (fcell c Fam.qr 3) 1 ∅ 0
      ∗ atPos ER (fcell c Fam.qr 4) 1 ∅ 0 ∗ atPos ER (fcell c Fam.qr 5) 1 ∅ 0 ∗ atPos ER (fcell c Fam.qr 6) 1 ∅ 0 ∗ atPos ER (fcell c Fam.qr 7) 1 ∅ 0
      ∗ atPos ER (fcell c Fam.qr 8) 1 ∅ 0 ∗ atPos ER (fcell c Fam.qr 9) 1 ∅ 0 ∗ atPos ER (fcell c Fam.qr 10) 1 ∅ 0 ∗ atPos ER (fcell c Fam.qr 11) 1 ∅ 0
      ∗ atPos ER (fcell c Fam.qr 12) 1 ∅ 0 ∗ atPos ER (fcell c Fam.qr 13) 1 ∅ 0 ∗ atPos ER (fcell c Fam.qr 14) 1 ∅ 0 ∗ atPos ER (fcell c Fam.qr 15) 1 ∅ 0))
      ⊢ (|={Set.univ}=> bigSep Finset.univ fun fi : Fam × Fin 16 => semVal (fcell c fi.1 fi.2) 0 : sProp 𝕄) :=
  (BIClass.sep_mono
    (Entails.of_eq (bigSep_cells (fun fi : Fam × Fin 16 => cellInv ER (sched m) (K (c, some fi)) (fcell c fi.1 fi.2))).symm)
    (Entails.of_eq (bigSep_cells (fun fi : Fam × Fin 16 => (atPos ER (fcell c fi.1 fi.2) 1 ∅ 0 : sProp 𝕄))).symm)).trans
    (close_all m K c)

/-! ## Every own semaphore back at zero -/

/-- The chunk cells' counters at zero and the other DMA semaphores at zero are all own DMA semaphores at zero. -/
theorem ownSems_back (c : Dev nD) :
    iprop((bigSep Finset.univ fun fi : Fam × Fin 16 => semVal (fcell c fi.1 fi.2) 0) ∗ localSems (F := F) c)
      ⊢ (Pipeline.ownSems0 (Ix := Unit) (Name := ℕ) (U := UU) (Lvl := ℕ) (Val := Elt F) (τ := τ) osem c : sProp 𝕄) := by
  rw [ownSems0_split]

/-- From the closed cells' chain of positions and invariants to every own DMA semaphore at zero. -/
theorem close_own (K : Dev nD × CK → ℕ) (c : Dev nD) :
    iprop((bigSep Finset.univ fun fi : Fam × Fin 16 => cellInv ER (sched m) (K (c, some fi)) (fcell c fi.1 fi.2))
        ∗ (bigSep Finset.univ fun fi : Fam × Fin 16 => atPos ER (fcell c fi.1 fi.2) 1 ∅ 0)
        ∗ localSems (F := F) c)
      ⊢ (|={Set.univ}=> Pipeline.ownSems0 (Ix := Unit) (Name := ℕ) (U := UU) (Lvl := ℕ) (Val := Elt F) (τ := τ) osem c : sProp 𝕄) := by
  iintro ⟨HI, HP, HL⟩
  imod (close_all m K c) $$ [HI HP] with HS
  · isplitl [HI] <;> iassumption
  imodintro
  iapply (ownSems_back (F := F) c)
  isplitl [HS] <;> iassumption

/-- info: 'Cert.KernelIdeal.A2A.close_chain' depends on axioms: [propext, Classical.choice, Quot.sound] -/
#guard_msgs in #print axioms close_chain

/-- info: 'Cert.KernelIdeal.A2A.close_own' depends on axioms: [propext, Classical.choice, Quot.sound] -/
#guard_msgs in #print axioms close_own

end Cert.KernelIdeal.A2A

end
-- ==== Proof.Rejoin.lean ====
import proofs.«900640_g7700000000000641_dist_a2a_v7x_xyz2x2x4_y_m4096_n1024_f32_1_alg».proof.Proof.Ghost
import proofs.«900640_g7700000000000641_dist_a2a_v7x_xyz2x2x4_y_m4096_n1024_f32_1_alg».proof.Proof.Landing

/-!
# The scratch buffers come back whole

A scratch buffer of sixteen chunks is cut along its leading axis: chunk `i` is the rectangle at `(i, 0, 0)` of size
`1 × 64 × 1024`. Two different chunks are separated on that axis, and every index `j` of the buffer lies in chunk
`j 0`; so the sixteen chunk sets are pairwise disjoint and their union is the whole index set. Sixteen points-to
assertions, one over each chunk and each at contents of its own, therefore join into one assertion over the whole
buffer at some contents. A chunk held in the shares its readers took is first put together again: the left and
right halves of a share make up that share.
-/

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## Shares -/

/-- The whole share is its left half with its right half, -/
theorem share_full : (fullShare : PosShare TreeShare) ∈ qX ·? qH := PosShare.mem_left_op_right fullShare
/-- and the right half is its own two halves. -/
theorem share_half : qH ∈ qZ ·? qS := PosShare.mem_left_op_right fullShare.right

section Merge
variable {ℓ : Loc nD τ sig} {I : Finset (Idx ℓ)} {f : Buf (Elt F) ℓ}

/-- Two shares of the same elements at the same contents that make up the whole share, -/
theorem merge2 : iprop((ℓ ↦[I]{qX} f) ∗ (ℓ ↦[I]{qH} f)) ⊢ (ℓ ↦[I]{fullShare} f : sProp 𝕄) :=
  (pointsTo_share share_full).2

/-- and three. -/
theorem merge3 : iprop((ℓ ↦[I]{qX} f) ∗ (ℓ ↦[I]{qZ} f) ∗ (ℓ ↦[I]{qS} f)) ⊢ (ℓ ↦[I]{fullShare} f : sProp 𝕄) :=
  (BI.sep_mono_r (pointsTo_share share_half).2).trans (pointsTo_share share_full).2

end Merge

/-- A chunk read by two onward copies and a local store, whole again. -/
theorem chunk_merge3 (c : Dev nD) (i : Fin 16) (g : S16x64x1024.Idx → Elt F .f32) :
    iprop((((slab rM i).view.loc (c : Thread nD τ)) ↦[(slab rM i).view.set]{qX} g) ∗ (((slab rM i).view.loc (c : Thread nD τ)) ↦[(slab rM i).view.set]{qZ} g) ∗ (((slab rM i).view.loc (c : Thread nD τ)) ↦[(slab rM i).view.set]{qS} g))
      ⊢ ((((slab rM i).view.loc (c : Thread nD τ)) ↦[(slab rM i).view.set]{fullShare} g) : sProp 𝕄) := merge3

/-- A chunk read by one onward copy and a local store, whole again. -/
theorem chunk_merge2_xr (c : Dev nD) (i : Fin 16) (g : S16x64x1024.Idx → Elt F .f32) :
    iprop((((slab xrM i).view.loc (c : Thread nD τ)) ↦[(slab xrM i).view.set]{qX} g) ∗ (((slab xrM i).view.loc (c : Thread nD τ)) ↦[(slab xrM i).view.set]{qH} g))
      ⊢ ((((slab xrM i).view.loc (c : Thread nD τ)) ↦[(slab xrM i).view.set]{fullShare} g) : sProp 𝕄) := merge2

theorem chunk_merge2_zr (c : Dev nD) (i : Fin 16) (g : S16x64x1024.Idx → Elt F .f32) :
    iprop((((slab zrM i).view.loc (c : Thread nD τ)) ↦[(slab zrM i).view.set]{qX} g) ∗ (((slab zrM i).view.loc (c : Thread nD τ)) ↦[(slab zrM i).view.set]{qH} g))
      ⊢ ((((slab zrM i).view.loc (c : Thread nD τ)) ↦[(slab zrM i).view.set]{fullShare} g) : sProp 𝕄) := merge2

/-! ## The sixteen chunk rectangles -/

/-- Two different chunks are separated on the leading axis. -/
theorem slabRect_disjoint {i j : Fin 16} (h : i ≠ j) : Disjoint (slabRect i).set (slabRect j).set := by
  have hv : i.val ≠ j.val := fun e => h (Fin.ext e)
  refine Rect.unit_disjoint (0 : Fin 3) ?_
  show i.val + 1 ≤ j.val ∨ j.val + 1 ≤ i.val
  omega

/-- The leading coordinate of an index of a scratch buffer: the chunk it lies in. -/
def lead (y : S16x64x1024.Idx) : Fin 16 := y 0

/-- Every index lies in the chunk its leading coordinate names. -/
theorem slabRect_mem (y : S16x64x1024.Idx) : y ∈ (slabRect (lead y)).set := by
  refine Rect.mem_set_unit.mpr fun a => ?_
  have h1 : (y 1).val < 64 := (y 1).isLt
  have h2 : (y 2).val < 1024 := (y 2).isLt
  fin_cases a
  · show (y 0).val ≤ (y 0).val ∧ (y 0).val < (y 0).val + 1; omega
  · show 0 ≤ (y 1).val ∧ (y 1).val < 0 + 64; omega
  · show 0 ≤ (y 2).val ∧ (y 2).val < 0 + 1024; omega

section Slabs
variable (M : Memref sig .tc .vmem S16x64x1024 .f32)

/-- The elements of chunk `i` are those under its rectangle. -/
theorem slab_set (i : Fin 16) : (slab M i).view.set = (slabRect i).set.map M.view.emb :=
  (View.set_reshape (M.view.slice (slabRect i)) (s' := S64x1024) squeezes_S1x64x1024_S64x1024.numel_eq).trans
    (View.set_slice M.view (slabRect i))

/-- Two different chunks share no element. -/
theorem slab_disjoint {i j : Fin 16} (h : i ≠ j) : Disjoint (slab M i).view.set (slab M j).view.set := by
  rw [slab_set, slab_set]
  exact (Finset.disjoint_map _).mpr (slabRect_disjoint h)

/-- The sixteen chunks together are the whole buffer. -/
theorem slab_cover : (Finset.univ.biUnion fun i : Fin 16 => (slab M i).view.set) = M.view.set := by
  ext x
  constructor
  · intro hx
    obtain ⟨i, -, hi⟩ := Finset.mem_biUnion.mp hx
    rw [slab_set] at hi
    show x ∈ Finset.univ.map M.view.emb
    exact Finset.map_subset_map.mpr (Finset.subset_univ _) hi
  · intro hx
    obtain ⟨y, -, rfl⟩ := Finset.mem_map.mp hx
    refine Finset.mem_biUnion.mpr ⟨lead y, Finset.mem_univ _, ?_⟩
    rw [slab_set]
    exact Finset.mem_map_of_mem _ (slabRect_mem y)

/-- Sixteen chunks, each whole and at contents of its own, are the buffer at some contents. -/
theorem slab_join (c : Dev nD) (g : Fin 16 → Buf (Elt F) (M.view.loc (c : Thread nD τ))) :
    (bigSep Finset.univ fun i : Fin 16 => (((slab M i).view.loc (c : Thread nD τ)) ↦[(slab M i).view.set]{fullShare} g i))
      ⊢ (iprop(∃ f, (M.view.loc (c : Thread nD τ)) ↦[M.view.set]{fullShare} f) : sProp 𝕄) := by
  refine (pointsTo_biUnion_join (ℓ := M.view.loc (c : Thread nD τ)) (q := fullShare) Finset.univ
    (fun i : Fin 16 => (slab M i).view.set) g (g 0) (fun i _ j _ hij => slab_disjoint M hij)).trans ?_
  rw [slab_cover M]
  iintro ⟨%f, %hf, H⟩
  iexists f
  iexact H

end Slabs

/-! ## Each scratch buffer whole -/

theorem scratch_join_s (c : Dev nD) (g : Fin 16 → S16x64x1024.Idx → Elt F .f32) :
    (bigSep Finset.univ fun i : Fin 16 => (((slab sM i).view.loc (c : Thread nD τ)) ↦[(slab sM i).view.set]{fullShare} g i))
      ⊢ (iprop(∃ f : Buf (Elt F) ((c : Thread nD τ).loc cc0_scratch0), ((c : Thread nD τ).loc cc0_scratch0) ↦{fullShare} f) : sProp 𝕄) := by
  refine (slab_join sM c g).trans ?_
  rw [show sM.view.set = Finset.univ from View.set_whole _]

theorem scratch_join_r (c : Dev nD) (g : Fin 16 → S16x64x1024.Idx → Elt F .f32) :
    (bigSep Finset.univ fun i : Fin 16 => (((slab rM i).view.loc (c : Thread nD τ)) ↦[(slab rM i).view.set]{fullShare} g i))
      ⊢ (iprop(∃ f : Buf (Elt F) ((c : Thread nD τ).loc cc0_scratch1), ((c : Thread nD τ).loc cc0_scratch1) ↦{fullShare} f) : sProp 𝕄) := by
  refine (slab_join rM c g).trans ?_
  rw [show rM.view.set = Finset.univ from View.set_whole _]

theorem scratch_join_xr (c : Dev nD) (g : Fin 16 → S16x64x1024.Idx → Elt F .f32) :
    (bigSep Finset.univ fun i : Fin 16 => (((slab xrM i).view.loc (c : Thread nD τ)) ↦[(slab xrM i).view.set]{fullShare} g i))
      ⊢ (iprop(∃ f : Buf (Elt F) ((c : Thread nD τ).loc cc0_scratch2), ((c : Thread nD τ).loc cc0_scratch2) ↦{fullShare} f) : sProp 𝕄) := by
  refine (slab_join xrM c g).trans ?_
  rw [show xrM.view.set = Finset.univ from View.set_whole _]

theorem scratch_join_zr (c : Dev nD) (g : Fin 16 → S16x64x1024.Idx → Elt F .f32) :
    (bigSep Finset.univ fun i : Fin 16 => (((slab zrM i).view.loc (c : Thread nD τ)) ↦[(slab zrM i).view.set]{fullShare} g i))
      ⊢ (iprop(∃ f : Buf (Elt F) ((c : Thread nD τ).loc cc0_scratch3), ((c : Thread nD τ).loc cc0_scratch3) ↦{fullShare} f) : sProp 𝕄) := by
  refine (slab_join zrM c g).trans ?_
  rw [show zrM.view.set = Finset.univ from View.set_whole _]

/-- The buffer that is held whole throughout. -/
theorem scratch_whole_l (c : Dev nD) (fl : S4096x1024.Idx → Elt F .f32) :
    (((lM.view.loc (c : Thread nD τ)) ↦[lM.view.set]{fullShare} fl) : sProp 𝕄)
      ⊢ iprop(∃ f : Buf (Elt F) ((c : Thread nD τ).loc cc0_scratch4), ((c : Thread nD τ).loc cc0_scratch4) ↦{fullShare} f) := by
  rw [show lM.view.set = Finset.univ from View.set_whole _]
  iintro H
  iexists fl
  iexact H

/-! ## From the shares the readers took -/

theorem scratch_join_r_cut (c : Dev nD) (g : Fin 16 → S16x64x1024.Idx → Elt F .f32) :
    (bigSep Finset.univ fun i : Fin 16 => iprop((((slab rM i).view.loc (c : Thread nD τ)) ↦[(slab rM i).view.set]{qX} g i) ∗ (((slab rM i).view.loc (c : Thread nD τ)) ↦[(slab rM i).view.set]{qZ} g i) ∗ (((slab rM i).view.loc (c : Thread nD τ)) ↦[(slab rM i).view.set]{qS} g i)))
      ⊢ (iprop(∃ f : Buf (Elt F) ((c : Thread nD τ).loc cc0_scratch1), ((c : Thread nD τ).loc cc0_scratch1) ↦{fullShare} f) : sProp 𝕄) :=
  (bigSep_mono fun i _ => chunk_merge3 c i (g i)).trans (scratch_join_r c g)

theorem scratch_join_xr_cut (c : Dev nD) (g : Fin 16 → S16x64x1024.Idx → Elt F .f32) :
    (bigSep Finset.univ fun i : Fin 16 => iprop((((slab xrM i).view.loc (c : Thread nD τ)) ↦[(slab xrM i).view.set]{qX} g i) ∗ (((slab xrM i).view.loc (c : Thread nD τ)) ↦[(slab xrM i).view.set]{qH} g i)))
      ⊢ (iprop(∃ f : Buf (Elt F) ((c : Thread nD τ).loc cc0_scratch2), ((c : Thread nD τ).loc cc0_scratch2) ↦{fullShare} f) : sProp 𝕄) :=
  (bigSep_mono fun i _ => chunk_merge2_xr c i (g i)).trans (scratch_join_xr c g)

theorem scratch_join_zr_cut (c : Dev nD) (g : Fin 16 → S16x64x1024.Idx → Elt F .f32) :
    (bigSep Finset.univ fun i : Fin 16 => iprop((((slab zrM i).view.loc (c : Thread nD τ)) ↦[(slab zrM i).view.set]{qX} g i) ∗ (((slab zrM i).view.loc (c : Thread nD τ)) ↦[(slab zrM i).view.set]{qH} g i)))
      ⊢ (iprop(∃ f : Buf (Elt F) ((c : Thread nD τ).loc cc0_scratch3), ((c : Thread nD τ).loc cc0_scratch3) ↦{fullShare} f) : sProp 𝕄) :=
  (bigSep_mono fun i _ => chunk_merge2_zr c i (g i)).trans (scratch_join_zr c g)

/-! ## All five -/

/-- The five scratch buffers, each chunk whole, are the scratch buffers at some contents. -/
theorem scratchAny_of (c : Dev nD) (gs gr gx gz : Fin 16 → S16x64x1024.Idx → Elt F .f32) (fl : S4096x1024.Idx → Elt F .f32) :
    iprop((bigSep Finset.univ fun i : Fin 16 => (((slab sM i).view.loc (c : Thread nD τ)) ↦[(slab sM i).view.set]{fullShare} gs i))
      ∗ (bigSep Finset.univ fun i : Fin 16 => (((slab rM i).view.loc (c : Thread nD τ)) ↦[(slab rM i).view.set]{fullShare} gr i))
      ∗ (bigSep Finset.univ fun i : Fin 16 => (((slab xrM i).view.loc (c : Thread nD τ)) ↦[(slab xrM i).view.set]{fullShare} gx i))
      ∗ (bigSep Finset.univ fun i : Fin 16 => (((slab zrM i).view.loc (c : Thread nD τ)) ↦[(slab zrM i).view.set]{fullShare} gz i))
      ∗ ((lM.view.loc (c : Thread nD τ)) ↦[lM.view.set]{fullShare} fl))
      ⊢ scratchAny (F := F) c := by
  unfold scratchAny
  exact BI.sep_mono (scratch_join_s c gs) (BI.sep_mono (scratch_join_r c gr) (BI.sep_mono (scratch_join_xr c gx)
    (BI.sep_mono (scratch_join_zr c gz) (scratch_whole_l c fl))))

/-- The same from the shares the readers took. -/
theorem scratchAny_of_cut (c : Dev nD) (gs gr gx gz : Fin 16 → S16x64x1024.Idx → Elt F .f32) (fl : S4096x1024.Idx → Elt F .f32) :
    iprop((bigSep Finset.univ fun i : Fin 16 => (((slab sM i).view.loc (c : Thread nD τ)) ↦[(slab sM i).view.set]{fullShare} gs i))
      ∗ (bigSep Finset.univ fun i : Fin 16 => iprop((((slab rM i).view.loc (c : Thread nD τ)) ↦[(slab rM i).view.set]{qX} gr i) ∗ (((slab rM i).view.loc (c : Thread nD τ)) ↦[(slab rM i).view.set]{qZ} gr i) ∗ (((slab rM i).view.loc (c : Thread nD τ)) ↦[(slab rM i).view.set]{qS} gr i)))
      ∗ (bigSep Finset.univ fun i : Fin 16 => iprop((((slab xrM i).view.loc (c : Thread nD τ)) ↦[(slab xrM i).view.set]{qX} gx i) ∗ (((slab xrM i).view.loc (c : Thread nD τ)) ↦[(slab xrM i).view.set]{qH} gx i)))
      ∗ (bigSep Finset.univ fun i : Fin 16 => iprop((((slab zrM i).view.loc (c : Thread nD τ)) ↦[(slab zrM i).view.set]{qX} gz i) ∗ (((slab zrM i).view.loc (c : Thread nD τ)) ↦[(slab zrM i).view.set]{qH} gz i)))
      ∗ ((lM.view.loc (c : Thread nD τ)) ↦[lM.view.set]{fullShare} fl))
      ⊢ scratchAny (F := F) c := by
  unfold scratchAny
  exact BI.sep_mono (scratch_join_s c gs) (BI.sep_mono (scratch_join_r_cut c gr) (BI.sep_mono (scratch_join_xr_cut c gx)
    (BI.sep_mono (scratch_join_zr_cut c gz) (scratch_whole_l c fl))))

/-- info: 'Cert.KernelIdeal.A2A.scratchAny_of_cut' depends on axioms: [propext, Classical.choice, Quot.sound] -/
#guard_msgs in #print axioms scratchAny_of_cut

end Cert.KernelIdeal.A2A

end
-- ==== Proof.Finish.lean ====
import proofs.«900640_g7700000000000641_dist_a2a_v7x_xyz2x2x4_y_m4096_n1024_f32_1_alg».proof.Proof.Close
import proofs.«900640_g7700000000000641_dist_a2a_v7x_xyz2x2x4_y_m4096_n1024_f32_1_alg».proof.Proof.Rejoin
/-!
# The end of the body

What the run leaves is put together into what the device must hand back: the input as launched, the result at its
value, the scratch buffers at some contents, every own DMA semaphore at zero, and nothing owed. The 128 chunk cells
close, which reads their counters at zero; with the semaphores that are no chunk cell these are all own semaphores.
The sixty-five pieces of the result, each agreeing with the result on its rows, are the result whole; the chunks of
the scratch buffers, put together from the shares their readers took, are the scratch buffers whole.
-/

set_option maxRecDepth 65536

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## The pieces -/

/-- The input held through its whole view is the input array. -/
theorem arg_whole (c : Dev nD) :
    ((aM.view.loc (c : Thread nD τ) ↦[aM.view.set]{fullShare} m ((c : Thread nD τ).loc main_arg0)) : sProp 𝕄) ⊢ argPts m c := by
  rw [show aM.view.set = Finset.univ from View.set_whole _]

/-- After the one point of the body nothing is owed. -/
theorem owed_end (c : Dev nD) : (dats m 0 c).owed (Gen.t0_0 : Fin cfg0.N).succ = 0 := rfl

/-- Owing nothing, with whatever waits recorded, is what the loop holds after the point. -/
theorem owes_end (c : Dev nD) (W' : Waits sig Unit) :
    (owes (c : Thread nD τ) 0 W' : sProp 𝕄) ⊢ (dats m 0 c).owesAt () (Gen.t0_0 : Fin cfg0.N).succ := by
  iintro HO
  iexists W'
  isplitr
  · ipureintro; exact Set.subset_union_of_subset_left (Set.subset_univ _) _
  · iexact HO

/-! ## The last step, over whatever the result and scratch pieces are held as -/

/-- From the closed cells, the local semaphores, nothing owed, and pieces that make up the input, the result and
    the scratch buffers, to the state after the body. -/
theorem finish_core (K : Dev nD × CK → ℕ) (c : Dev nD) (W' : Waits sig Unit) (Loc Idle Arg Res Scr : sProp 𝕄)
    (hLoc : iprop(Loc ∗ Idle) ⊢ localSems (F := F) c) (hArg : Arg ⊢ argPts m c) (hRes : Res ⊢ resPts c (outC m c)) (hScr : Scr ⊢ scratchAny (F := F) c) :
    iprop((
        cellInv ER (sched m) (K (c, some (Fam.ys, 0))) (fcell c Fam.ys 0) ∗ cellInv ER (sched m) (K (c, some (Fam.ys, 1))) (fcell c Fam.ys 1)
      ∗ cellInv ER (sched m) (K (c, some (Fam.ys, 2))) (fcell c Fam.ys 2) ∗ cellInv ER (sched m) (K (c, some (Fam.ys, 3))) (fcell c Fam.ys 3)
      ∗ cellInv ER (sched m) (K (c, some (Fam.ys, 4))) (fcell c Fam.ys 4) ∗ cellInv ER (sched m) (K (c, some (Fam.ys, 5))) (fcell c Fam.ys 5)
      ∗ cellInv ER (sched m) (K (c, some (Fam.ys, 6))) (fcell c Fam.ys 6) ∗ cellInv ER (sched m) (K (c, some (Fam.ys, 7))) (fcell c Fam.ys 7)
      ∗ cellInv ER (sched m) (K (c, some (Fam.ys, 8))) (fcell c Fam.ys 8) ∗ cellInv ER (sched m) (K (c, some (Fam.ys, 9))) (fcell c Fam.ys 9)
      ∗ cellInv ER (sched m) (K (c, some (Fam.ys, 10))) (fcell c Fam.ys 10) ∗ cellInv ER (sched m) (K (c, some (Fam.ys, 11))) (fcell c Fam.ys 11)
      ∗ cellInv ER (sched m) (K (c, some (Fam.ys, 12))) (fcell c Fam.ys 12) ∗ cellInv ER (sched m) (K (c, some (Fam.ys, 13))) (fcell c Fam.ys 13)
      ∗ cellInv ER (sched m) (K (c, some (Fam.ys, 14))) (fcell c Fam.ys 14) ∗ cellInv ER (sched m) (K (c, some (Fam.ys, 15))) (fcell c Fam.ys 15)
      ∗ cellInv ER (sched m) (K (c, some (Fam.yr, 0))) (fcell c Fam.yr 0) ∗ cellInv ER (sched m) (K (c, some (Fam.yr, 1))) (fcell c Fam.yr 1)
      ∗ cellInv ER (sched m) (K (c, some (Fam.yr, 2))) (fcell c Fam.yr 2) ∗ cellInv ER (sched m) (K (c, some (Fam.yr, 3))) (fcell c Fam.yr 3)
      ∗ cellInv ER (sched m) (K (c, some (Fam.yr, 4))) (fcell c Fam.yr 4) ∗ cellInv ER (sched m) (K (c, some (Fam.yr, 5))) (fcell c Fam.yr 5)
      ∗ cellInv ER (sched m) (K (c, some (Fam.yr, 6))) (fcell c Fam.yr 6) ∗ cellInv ER (sched m) (K (c, some (Fam.yr, 7))) (fcell c Fam.yr 7)
      ∗ cellInv ER (sched m) (K (c, some (Fam.yr, 8))) (fcell c Fam.yr 8) ∗ cellInv ER (sched m) (K (c, some (Fam.yr, 9))) (fcell c Fam.yr 9)
      ∗ cellInv ER (sched m) (K (c, some (Fam.yr, 10))) (fcell c Fam.yr 10) ∗ cellInv ER (sched m) (K (c, some (Fam.yr, 11))) (fcell c Fam.yr 11)
      ∗ cellInv ER (sched m) (K (c, some (Fam.yr, 12))) (fcell c Fam.yr 12) ∗ cellInv ER (sched m) (K (c, some (Fam.yr, 13))) (fcell c Fam.yr 13)
      ∗ cellInv ER (sched m) (K (c, some (Fam.yr, 14))) (fcell c Fam.yr 14) ∗ cellInv ER (sched m) (K (c, some (Fam.yr, 15))) (fcell c Fam.yr 15)
      ∗ cellInv ER (sched m) (K (c, some (Fam.xs, 0))) (fcell c Fam.xs 0) ∗ cellInv ER (sched m) (K (c, some (Fam.xs, 1))) (fcell c Fam.xs 1)
      ∗ cellInv ER (sched m) (K (c, some (Fam.xs, 2))) (fcell c Fam.xs 2) ∗ cellInv ER (sched m) (K (c, some (Fam.xs, 3))) (fcell c Fam.xs 3)
      ∗ cellInv ER (sched m) (K (c, some (Fam.xs, 4))) (fcell c Fam.xs 4) ∗ cellInv ER (sched m) (K (c, some (Fam.xs, 5))) (fcell c Fam.xs 5)
      ∗ cellInv ER (sched m) (K (c, some (Fam.xs, 6))) (fcell c Fam.xs 6) ∗ cellInv ER (sched m) (K (c, some (Fam.xs, 7))) (fcell c Fam.xs 7)
      ∗ cellInv ER (sched m) (K (c, some (Fam.xs, 8))) (fcell c Fam.xs 8) ∗ cellInv ER (sched m) (K (c, some (Fam.xs, 9))) (fcell c Fam.xs 9)
      ∗ cellInv ER (sched m) (K (c, some (Fam.xs, 10))) (fcell c Fam.xs 10) ∗ cellInv ER (sched m) (K (c, some (Fam.xs, 11))) (fcell c Fam.xs 11)
      ∗ cellInv ER (sched m) (K (c, some (Fam.xs, 12))) (fcell c Fam.xs 12) ∗ cellInv ER (sched m) (K (c, some (Fam.xs, 13))) (fcell c Fam.xs 13)
      ∗ cellInv ER (sched m) (K (c, some (Fam.xs, 14))) (fcell c Fam.xs 14) ∗ cellInv ER (sched m) (K (c, some (Fam.xs, 15))) (fcell c Fam.xs 15)
      ∗ cellInv ER (sched m) (K (c, some (Fam.xr, 0))) (fcell c Fam.xr 0) ∗ cellInv ER (sched m) (K (c, some (Fam.xr, 1))) (fcell c Fam.xr 1)
      ∗ cellInv ER (sched m) (K (c, some (Fam.xr, 2))) (fcell c Fam.xr 2) ∗ cellInv ER (sched m) (K (c, some (Fam.xr, 3))) (fcell c Fam.xr 3)
      ∗ cellInv ER (sched m) (K (c, some (Fam.xr, 4))) (fcell c Fam.xr 4) ∗ cellInv ER (sched m) (K (c, some (Fam.xr, 5))) (fcell c Fam.xr 5)
      ∗ cellInv ER (sched m) (K (c, some (Fam.xr, 6))) (fcell c Fam.xr 6) ∗ cellInv ER (sched m) (K (c, some (Fam.xr, 7))) (fcell c Fam.xr 7)
      ∗ cellInv ER (sched m) (K (c, some (Fam.xr, 8))) (fcell c Fam.xr 8) ∗ cellInv ER (sched m) (K (c, some (Fam.xr, 9))) (fcell c Fam.xr 9)
      ∗ cellInv ER (sched m) (K (c, some (Fam.xr, 10))) (fcell c Fam.xr 10) ∗ cellInv ER (sched m) (K (c, some (Fam.xr, 11))) (fcell c Fam.xr 11)
      ∗ cellInv ER (sched m) (K (c, some (Fam.xr, 12))) (fcell c Fam.xr 12) ∗ cellInv ER (sched m) (K (c, some (Fam.xr, 13))) (fcell c Fam.xr 13)
      ∗ cellInv ER (sched m) (K (c, some (Fam.xr, 14))) (fcell c Fam.xr 14) ∗ cellInv ER (sched m) (K (c, some (Fam.xr, 15))) (fcell c Fam.xr 15)
      ∗ cellInv ER (sched m) (K (c, some (Fam.zs, 0))) (fcell c Fam.zs 0) ∗ cellInv ER (sched m) (K (c, some (Fam.zs, 1))) (fcell c Fam.zs 1)
      ∗ cellInv ER (sched m) (K (c, some (Fam.zs, 2))) (fcell c Fam.zs 2) ∗ cellInv ER (sched m) (K (c, some (Fam.zs, 3))) (fcell c Fam.zs 3)
      ∗ cellInv ER (sched m) (K (c, some (Fam.zs, 4))) (fcell c Fam.zs 4) ∗ cellInv ER (sched m) (K (c, some (Fam.zs, 5))) (fcell c Fam.zs 5)
      ∗ cellInv ER (sched m) (K (c, some (Fam.zs, 6))) (fcell c Fam.zs 6) ∗ cellInv ER (sched m) (K (c, some (Fam.zs, 7))) (fcell c Fam.zs 7)
      ∗ cellInv ER (sched m) (K (c, some (Fam.zs, 8))) (fcell c Fam.zs 8) ∗ cellInv ER (sched m) (K (c, some (Fam.zs, 9))) (fcell c Fam.zs 9)
      ∗ cellInv ER (sched m) (K (c, some (Fam.zs, 10))) (fcell c Fam.zs 10) ∗ cellInv ER (sched m) (K (c, some (Fam.zs, 11))) (fcell c Fam.zs 11)
      ∗ cellInv ER (sched m) (K (c, some (Fam.zs, 12))) (fcell c Fam.zs 12) ∗ cellInv ER (sched m) (K (c, some (Fam.zs, 13))) (fcell c Fam.zs 13)
      ∗ cellInv ER (sched m) (K (c, some (Fam.zs, 14))) (fcell c Fam.zs 14) ∗ cellInv ER (sched m) (K (c, some (Fam.zs, 15))) (fcell c Fam.zs 15)
      ∗ cellInv ER (sched m) (K (c, some (Fam.zr, 0))) (fcell c Fam.zr 0) ∗ cellInv ER (sched m) (K (c, some (Fam.zr, 1))) (fcell c Fam.zr 1)
      ∗ cellInv ER (sched m) (K (c, some (Fam.zr, 2))) (fcell c Fam.zr 2) ∗ cellInv ER (sched m) (K (c, some (Fam.zr, 3))) (fcell c Fam.zr 3)
      ∗ cellInv ER (sched m) (K (c, some (Fam.zr, 4))) (fcell c Fam.zr 4) ∗ cellInv ER (sched m) (K (c, some (Fam.zr, 5))) (fcell c Fam.zr 5)
      ∗ cellInv ER (sched m) (K (c, some (Fam.zr, 6))) (fcell c Fam.zr 6) ∗ cellInv ER (sched m) (K (c, some (Fam.zr, 7))) (fcell c Fam.zr 7)
      ∗ cellInv ER (sched m) (K (c, some (Fam.zr, 8))) (fcell c Fam.zr 8) ∗ cellInv ER (sched m) (K (c, some (Fam.zr, 9))) (fcell c Fam.zr 9)
      ∗ cellInv ER (sched m) (K (c, some (Fam.zr, 10))) (fcell c Fam.zr 10) ∗ cellInv ER (sched m) (K (c, some (Fam.zr, 11))) (fcell c Fam.zr 11)
      ∗ cellInv ER (sched m) (K (c, some (Fam.zr, 12))) (fcell c Fam.zr 12) ∗ cellInv ER (sched m) (K (c, some (Fam.zr, 13))) (fcell c Fam.zr 13)
      ∗ cellInv ER (sched m) (K (c, some (Fam.zr, 14))) (fcell c Fam.zr 14) ∗ cellInv ER (sched m) (K (c, some (Fam.zr, 15))) (fcell c Fam.zr 15)
      ∗ cellInv ER (sched m) (K (c, some (Fam.qs, 0))) (fcell c Fam.qs 0) ∗ cellInv ER (sched m) (K (c, some (Fam.qs, 1))) (fcell c Fam.qs 1)
      ∗ cellInv ER (sched m) (K (c, some (Fam.qs, 2))) (fcell c Fam.qs 2) ∗ cellInv ER (sched m) (K (c, some (Fam.qs, 3))) (fcell c Fam.qs 3)
      ∗ cellInv ER (sched m) (K (c, some (Fam.qs, 4))) (fcell c Fam.qs 4) ∗ cellInv ER (sched m) (K (c, some (Fam.qs, 5))) (fcell c Fam.qs 5)
      ∗ cellInv ER (sched m) (K (c, some (Fam.qs, 6))) (fcell c Fam.qs 6) ∗ cellInv ER (sched m) (K (c, some (Fam.qs, 7))) (fcell c Fam.qs 7)
      ∗ cellInv ER (sched m) (K (c, some (Fam.qs, 8))) (fcell c Fam.qs 8) ∗ cellInv ER (sched m) (K (c, some (Fam.qs, 9))) (fcell c Fam.qs 9)
      ∗ cellInv ER (sched m) (K (c, some (Fam.qs, 10))) (fcell c Fam.qs 10) ∗ cellInv ER (sched m) (K (c, some (Fam.qs, 11))) (fcell c Fam.qs 11)
      ∗ cellInv ER (sched m) (K (c, some (Fam.qs, 12))) (fcell c Fam.qs 12) ∗ cellInv ER (sched m) (K (c, some (Fam.qs, 13))) (fcell c Fam.qs 13)
      ∗ cellInv ER (sched m) (K (c, some (Fam.qs, 14))) (fcell c Fam.qs 14) ∗ cellInv ER (sched m) (K (c, some (Fam.qs, 15))) (fcell c Fam.qs 15)
      ∗ cellInv ER (sched m) (K (c, some (Fam.qr, 0))) (fcell c Fam.qr 0) ∗ cellInv ER (sched m) (K (c, some (Fam.qr, 1))) (fcell c Fam.qr 1)
      ∗ cellInv ER (sched m) (K (c, some (Fam.qr, 2))) (fcell c Fam.qr 2) ∗ cellInv ER (sched m) (K (c, some (Fam.qr, 3))) (fcell c Fam.qr 3)
      ∗ cellInv ER (sched m) (K (c, some (Fam.qr, 4))) (fcell c Fam.qr 4) ∗ cellInv ER (sched m) (K (c, some (Fam.qr, 5))) (fcell c Fam.qr 5)
      ∗ cellInv ER (sched m) (K (c, some (Fam.qr, 6))) (fcell c Fam.qr 6) ∗ cellInv ER (sched m) (K (c, some (Fam.qr, 7))) (fcell c Fam.qr 7)
      ∗ cellInv ER (sched m) (K (c, some (Fam.qr, 8))) (fcell c Fam.qr 8) ∗ cellInv ER (sched m) (K (c, some (Fam.qr, 9))) (fcell c Fam.qr 9)
      ∗ cellInv ER (sched m) (K (c, some (Fam.qr, 10))) (fcell c Fam.qr 10) ∗ cellInv ER (sched m) (K (c, some (Fam.qr, 11))) (fcell c Fam.qr 11)
      ∗ cellInv ER (sched m) (K (c, some (Fam.qr, 12))) (fcell c Fam.qr 12) ∗ cellInv ER (sched m) (K (c, some (Fam.qr, 13))) (fcell c Fam.qr 13)
      ∗ cellInv ER (sched m) (K (c, some (Fam.qr, 14))) (fcell c Fam.qr 14) ∗ cellInv ER (sched m) (K (c, some (Fam.qr, 15))) (fcell c Fam.qr 15))
      ∗ (
        atPos ER (fcell c Fam.ys 0) 1 ∅ 0 ∗ atPos ER (fcell c Fam.ys 1) 1 ∅ 0 ∗ atPos ER (fcell c Fam.ys 2) 1 ∅ 0 ∗ atPos ER (fcell c Fam.ys 3) 1 ∅ 0
      ∗ atPos ER (fcell c Fam.ys 4) 1 ∅ 0 ∗ atPos ER (fcell c Fam.ys 5) 1 ∅ 0 ∗ atPos ER (fcell c Fam.ys 6) 1 ∅ 0 ∗ atPos ER (fcell c Fam.ys 7) 1 ∅ 0
      ∗ atPos ER (fcell c Fam.ys 8) 1 ∅ 0 ∗ atPos ER (fcell c Fam.ys 9) 1 ∅ 0 ∗ atPos ER (fcell c Fam.ys 10) 1 ∅ 0 ∗ atPos ER (fcell c Fam.ys 11) 1 ∅ 0
      ∗ atPos ER (fcell c Fam.ys 12) 1 ∅ 0 ∗ atPos ER (fcell c Fam.ys 13) 1 ∅ 0 ∗ atPos ER (fcell c Fam.ys 14) 1 ∅ 0 ∗ atPos ER (fcell c Fam.ys 15) 1 ∅ 0
      ∗ atPos ER (fcell c Fam.yr 0) 1 ∅ 0 ∗ atPos ER (fcell c Fam.yr 1) 1 ∅ 0 ∗ atPos ER (fcell c Fam.yr 2) 1 ∅ 0 ∗ atPos ER (fcell c Fam.yr 3) 1 ∅ 0
      ∗ atPos ER (fcell c Fam.yr 4) 1 ∅ 0 ∗ atPos ER (fcell c Fam.yr 5) 1 ∅ 0 ∗ atPos ER (fcell c Fam.yr 6) 1 ∅ 0 ∗ atPos ER (fcell c Fam.yr 7) 1 ∅ 0
      ∗ atPos ER (fcell c Fam.yr 8) 1 ∅ 0 ∗ atPos ER (fcell c Fam.yr 9) 1 ∅ 0 ∗ atPos ER (fcell c Fam.yr 10) 1 ∅ 0 ∗ atPos ER (fcell c Fam.yr 11) 1 ∅ 0
      ∗ atPos ER (fcell c Fam.yr 12) 1 ∅ 0 ∗ atPos ER (fcell c Fam.yr 13) 1 ∅ 0 ∗ atPos ER (fcell c Fam.yr 14) 1 ∅ 0 ∗ atPos ER (fcell c Fam.yr 15) 1 ∅ 0
      ∗ atPos ER (fcell c Fam.xs 0) 1 ∅ 0 ∗ atPos ER (fcell c Fam.xs 1) 1 ∅ 0 ∗ atPos ER (fcell c Fam.xs 2) 1 ∅ 0 ∗ atPos ER (fcell c Fam.xs 3) 1 ∅ 0
      ∗ atPos ER (fcell c Fam.xs 4) 1 ∅ 0 ∗ atPos ER (fcell c Fam.xs 5) 1 ∅ 0 ∗ atPos ER (fcell c Fam.xs 6) 1 ∅ 0 ∗ atPos ER (fcell c Fam.xs 7) 1 ∅ 0
      ∗ atPos ER (fcell c Fam.xs 8) 1 ∅ 0 ∗ atPos ER (fcell c Fam.xs 9) 1 ∅ 0 ∗ atPos ER (fcell c Fam.xs 10) 1 ∅ 0 ∗ atPos ER (fcell c Fam.xs 11) 1 ∅ 0
      ∗ atPos ER (fcell c Fam.xs 12) 1 ∅ 0 ∗ atPos ER (fcell c Fam.xs 13) 1 ∅ 0 ∗ atPos ER (fcell c Fam.xs 14) 1 ∅ 0 ∗ atPos ER (fcell c Fam.xs 15) 1 ∅ 0
      ∗ atPos ER (fcell c Fam.xr 0) 1 ∅ 0 ∗ atPos ER (fcell c Fam.xr 1) 1 ∅ 0 ∗ atPos ER (fcell c Fam.xr 2) 1 ∅ 0 ∗ atPos ER (fcell c Fam.xr 3) 1 ∅ 0
      ∗ atPos ER (fcell c Fam.xr 4) 1 ∅ 0 ∗ atPos ER (fcell c Fam.xr 5) 1 ∅ 0 ∗ atPos ER (fcell c Fam.xr 6) 1 ∅ 0 ∗ atPos ER (fcell c Fam.xr 7) 1 ∅ 0
      ∗ atPos ER (fcell c Fam.xr 8) 1 ∅ 0 ∗ atPos ER (fcell c Fam.xr 9) 1 ∅ 0 ∗ atPos ER (fcell c Fam.xr 10) 1 ∅ 0 ∗ atPos ER (fcell c Fam.xr 11) 1 ∅ 0
      ∗ atPos ER (fcell c Fam.xr 12) 1 ∅ 0 ∗ atPos ER (fcell c Fam.xr 13) 1 ∅ 0 ∗ atPos ER (fcell c Fam.xr 14) 1 ∅ 0 ∗ atPos ER (fcell c Fam.xr 15) 1 ∅ 0
      ∗ atPos ER (fcell c Fam.zs 0) 1 ∅ 0 ∗ atPos ER (fcell c Fam.zs 1) 1 ∅ 0 ∗ atPos ER (fcell c Fam.zs 2) 1 ∅ 0 ∗ atPos ER (fcell c Fam.zs 3) 1 ∅ 0
      ∗ atPos ER (fcell c Fam.zs 4) 1 ∅ 0 ∗ atPos ER (fcell c Fam.zs 5) 1 ∅ 0 ∗ atPos ER (fcell c Fam.zs 6) 1 ∅ 0 ∗ atPos ER (fcell c Fam.zs 7) 1 ∅ 0
      ∗ atPos ER (fcell c Fam.zs 8) 1 ∅ 0 ∗ atPos ER (fcell c Fam.zs 9) 1 ∅ 0 ∗ atPos ER (fcell c Fam.zs 10) 1 ∅ 0 ∗ atPos ER (fcell c Fam.zs 11) 1 ∅ 0
      ∗ atPos ER (fcell c Fam.zs 12) 1 ∅ 0 ∗ atPos ER (fcell c Fam.zs 13) 1 ∅ 0 ∗ atPos ER (fcell c Fam.zs 14) 1 ∅ 0 ∗ atPos ER (fcell c Fam.zs 15) 1 ∅ 0
      ∗ atPos ER (fcell c Fam.zr 0) 1 ∅ 0 ∗ atPos ER (fcell c Fam.zr 1) 1 ∅ 0 ∗ atPos ER (fcell c Fam.zr 2) 1 ∅ 0 ∗ atPos ER (fcell c Fam.zr 3) 1 ∅ 0
      ∗ atPos ER (fcell c Fam.zr 4) 1 ∅ 0 ∗ atPos ER (fcell c Fam.zr 5) 1 ∅ 0 ∗ atPos ER (fcell c Fam.zr 6) 1 ∅ 0 ∗ atPos ER (fcell c Fam.zr 7) 1 ∅ 0
      ∗ atPos ER (fcell c Fam.zr 8) 1 ∅ 0 ∗ atPos ER (fcell c Fam.zr 9) 1 ∅ 0 ∗ atPos ER (fcell c Fam.zr 10) 1 ∅ 0 ∗ atPos ER (fcell c Fam.zr 11) 1 ∅ 0
      ∗ atPos ER (fcell c Fam.zr 12) 1 ∅ 0 ∗ atPos ER (fcell c Fam.zr 13) 1 ∅ 0 ∗ atPos ER (fcell c Fam.zr 14) 1 ∅ 0 ∗ atPos ER (fcell c Fam.zr 15) 1 ∅ 0
      ∗ atPos ER (fcell c Fam.qs 0) 1 ∅ 0 ∗ atPos ER (fcell c Fam.qs 1) 1 ∅ 0 ∗ atPos ER (fcell c Fam.qs 2) 1 ∅ 0 ∗ atPos ER (fcell c Fam.qs 3) 1 ∅ 0
      ∗ atPos ER (fcell c Fam.qs 4) 1 ∅ 0 ∗ atPos ER (fcell c Fam.qs 5) 1 ∅ 0 ∗ atPos ER (fcell c Fam.qs 6) 1 ∅ 0 ∗ atPos ER (fcell c Fam.qs 7) 1 ∅ 0
      ∗ atPos ER (fcell c Fam.qs 8) 1 ∅ 0 ∗ atPos ER (fcell c Fam.qs 9) 1 ∅ 0 ∗ atPos ER (fcell c Fam.qs 10) 1 ∅ 0 ∗ atPos ER (fcell c Fam.qs 11) 1 ∅ 0
      ∗ atPos ER (fcell c Fam.qs 12) 1 ∅ 0 ∗ atPos ER (fcell c Fam.qs 13) 1 ∅ 0 ∗ atPos ER (fcell c Fam.qs 14) 1 ∅ 0 ∗ atPos ER (fcell c Fam.qs 15) 1 ∅ 0
      ∗ atPos ER (fcell c Fam.qr 0) 1 ∅ 0 ∗ atPos ER (fcell c Fam.qr 1) 1 ∅ 0 ∗ atPos ER (fcell c Fam.qr 2) 1 ∅ 0 ∗ atPos ER (fcell c Fam.qr 3) 1 ∅ 0
      ∗ atPos ER (fcell c Fam.qr 4) 1 ∅ 0 ∗ atPos ER (fcell c Fam.qr 5) 1 ∅ 0 ∗ atPos ER (fcell c Fam.qr 6) 1 ∅ 0 ∗ atPos ER (fcell c Fam.qr 7) 1 ∅ 0
      ∗ atPos ER (fcell c Fam.qr 8) 1 ∅ 0 ∗ atPos ER (fcell c Fam.qr 9) 1 ∅ 0 ∗ atPos ER (fcell c Fam.qr 10) 1 ∅ 0 ∗ atPos ER (fcell c Fam.qr 11) 1 ∅ 0
      ∗ atPos ER (fcell c Fam.qr 12) 1 ∅ 0 ∗ atPos ER (fcell c Fam.qr 13) 1 ∅ 0 ∗ atPos ER (fcell c Fam.qr 14) 1 ∅ 0 ∗ atPos ER (fcell c Fam.qr 15) 1 ∅ 0)
      ∗ Loc ∗ Idle
      ∗ owes (c : Thread nD τ) 0 W'
      ∗ Arg ∗ Res ∗ Scr)
      ⊢ (|={Set.univ}=> iprop(Φ₁ m c ∗ (dats m 0 c).owesAt () (Gen.t0_0 : Fin cfg0.N).succ) : sProp 𝕄) := by
  iintro ⟨HI, HP, HL, Hid, HO, Ha, HR, HS⟩
  imod (close_chain m K c) $$ [HI HP] with Hsem
  · isplitl [HI] <;> iassumption
  imodintro
  unfold Φ₁
  isplitr [HO]
  · isplitl [Ha]; · iapply hArg $$ Ha
    isplitl [HR]; · iapply hRes $$ HR
    isplitl [HS]; · iapply hScr $$ HS
    iapply (ownSems_back (F := F) c)
    isplitl [Hsem]; · iexact Hsem
    iapply hLoc
    isplitl [HL] <;> iassumption
  · iapply (owes_end m c W') $$ HO

/-! ## The scratch chunks, one by one -/

/-- The scratch chunks as the run leaves them — the first buffer's whole, the landing buffers' in the shares their
    readers took — and the staging buffer, are the scratch buffers at some contents. -/
theorem scratch_chain (c : Dev nD) (gs gr gx gz : Fin 16 → S16x64x1024.Idx → Elt F .f32) (fl : S4096x1024.Idx → Elt F .f32) :
    iprop((
        (((slab sM 0).view.loc (c : Thread nD τ)) ↦[(slab sM 0).view.set]{fullShare} gs 0)
      ∗ (((slab sM 1).view.loc (c : Thread nD τ)) ↦[(slab sM 1).view.set]{fullShare} gs 1)
      ∗ (((slab sM 2).view.loc (c : Thread nD τ)) ↦[(slab sM 2).view.set]{fullShare} gs 2)
      ∗ (((slab sM 3).view.loc (c : Thread nD τ)) ↦[(slab sM 3).view.set]{fullShare} gs 3)
      ∗ (((slab sM 4).view.loc (c : Thread nD τ)) ↦[(slab sM 4).view.set]{fullShare} gs 4)
      ∗ (((slab sM 5).view.loc (c : Thread nD τ)) ↦[(slab sM 5).view.set]{fullShare} gs 5)
      ∗ (((slab sM 6).view.loc (c : Thread nD τ)) ↦[(slab sM 6).view.set]{fullShare} gs 6)
      ∗ (((slab sM 7).view.loc (c : Thread nD τ)) ↦[(slab sM 7).view.set]{fullShare} gs 7)
      ∗ (((slab sM 8).view.loc (c : Thread nD τ)) ↦[(slab sM 8).view.set]{fullShare} gs 8)
      ∗ (((slab sM 9).view.loc (c : Thread nD τ)) ↦[(slab sM 9).view.set]{fullShare} gs 9)
      ∗ (((slab sM 10).view.loc (c : Thread nD τ)) ↦[(slab sM 10).view.set]{fullShare} gs 10)
      ∗ (((slab sM 11).view.loc (c : Thread nD τ)) ↦[(slab sM 11).view.set]{fullShare} gs 11)
      ∗ (((slab sM 12).view.loc (c : Thread nD τ)) ↦[(slab sM 12).view.set]{fullShare} gs 12)
      ∗ (((slab sM 13).view.loc (c : Thread nD τ)) ↦[(slab sM 13).view.set]{fullShare} gs 13)
      ∗ (((slab sM 14).view.loc (c : Thread nD τ)) ↦[(slab sM 14).view.set]{fullShare} gs 14)
      ∗ (((slab sM 15).view.loc (c : Thread nD τ)) ↦[(slab sM 15).view.set]{fullShare} gs 15))
      ∗ (
        (((slab rM 0).view.loc (c : Thread nD τ)) ↦[(slab rM 0).view.set]{qX} gr 0)
      ∗ (((slab rM 0).view.loc (c : Thread nD τ)) ↦[(slab rM 0).view.set]{qZ} gr 0)
      ∗ (((slab rM 0).view.loc (c : Thread nD τ)) ↦[(slab rM 0).view.set]{qS} gr 0)
      ∗ (((slab rM 1).view.loc (c : Thread nD τ)) ↦[(slab rM 1).view.set]{qX} gr 1)
      ∗ (((slab rM 1).view.loc (c : Thread nD τ)) ↦[(slab rM 1).view.set]{qZ} gr 1)
      ∗ (((slab rM 1).view.loc (c : Thread nD τ)) ↦[(slab rM 1).view.set]{qS} gr 1)
      ∗ (((slab rM 2).view.loc (c : Thread nD τ)) ↦[(slab rM 2).view.set]{qX} gr 2)
      ∗ (((slab rM 2).view.loc (c : Thread nD τ)) ↦[(slab rM 2).view.set]{qZ} gr 2)
      ∗ (((slab rM 2).view.loc (c : Thread nD τ)) ↦[(slab rM 2).view.set]{qS} gr 2)
      ∗ (((slab rM 3).view.loc (c : Thread nD τ)) ↦[(slab rM 3).view.set]{qX} gr 3)
      ∗ (((slab rM 3).view.loc (c : Thread nD τ)) ↦[(slab rM 3).view.set]{qZ} gr 3)
      ∗ (((slab rM 3).view.loc (c : Thread nD τ)) ↦[(slab rM 3).view.set]{qS} gr 3)
      ∗ (((slab rM 4).view.loc (c : Thread nD τ)) ↦[(slab rM 4).view.set]{qX} gr 4)
      ∗ (((slab rM 4).view.loc (c : Thread nD τ)) ↦[(slab rM 4).view.set]{qZ} gr 4)
      ∗ (((slab rM 4).view.loc (c : Thread nD τ)) ↦[(slab rM 4).view.set]{qS} gr 4)
      ∗ (((slab rM 5).view.loc (c : Thread nD τ)) ↦[(slab rM 5).view.set]{qX} gr 5)
      ∗ (((slab rM 5).view.loc (c : Thread nD τ)) ↦[(slab rM 5).view.set]{qZ} gr 5)
      ∗ (((slab rM 5).view.loc (c : Thread nD τ)) ↦[(slab rM 5).view.set]{qS} gr 5)
      ∗ (((slab rM 6).view.loc (c : Thread nD τ)) ↦[(slab rM 6).view.set]{qX} gr 6)
      ∗ (((slab rM 6).view.loc (c : Thread nD τ)) ↦[(slab rM 6).view.set]{qZ} gr 6)
      ∗ (((slab rM 6).view.loc (c : Thread nD τ)) ↦[(slab rM 6).view.set]{qS} gr 6)
      ∗ (((slab rM 7).view.loc (c : Thread nD τ)) ↦[(slab rM 7).view.set]{qX} gr 7)
      ∗ (((slab rM 7).view.loc (c : Thread nD τ)) ↦[(slab rM 7).view.set]{qZ} gr 7)
      ∗ (((slab rM 7).view.loc (c : Thread nD τ)) ↦[(slab rM 7).view.set]{qS} gr 7)
      ∗ (((slab rM 8).view.loc (c : Thread nD τ)) ↦[(slab rM 8).view.set]{qX} gr 8)
      ∗ (((slab rM 8).view.loc (c : Thread nD τ)) ↦[(slab rM 8).view.set]{qZ} gr 8)
      ∗ (((slab rM 8).view.loc (c : Thread nD τ)) ↦[(slab rM 8).view.set]{qS} gr 8)
      ∗ (((slab rM 9).view.loc (c : Thread nD τ)) ↦[(slab rM 9).view.set]{qX} gr 9)
      ∗ (((slab rM 9).view.loc (c : Thread nD τ)) ↦[(slab rM 9).view.set]{qZ} gr 9)
      ∗ (((slab rM 9).view.loc (c : Thread nD τ)) ↦[(slab rM 9).view.set]{qS} gr 9)
      ∗ (((slab rM 10).view.loc (c : Thread nD τ)) ↦[(slab rM 10).view.set]{qX} gr 10)
      ∗ (((slab rM 10).view.loc (c : Thread nD τ)) ↦[(slab rM 10).view.set]{qZ} gr 10)
      ∗ (((slab rM 10).view.loc (c : Thread nD τ)) ↦[(slab rM 10).view.set]{qS} gr 10)
      ∗ (((slab rM 11).view.loc (c : Thread nD τ)) ↦[(slab rM 11).view.set]{qX} gr 11)
      ∗ (((slab rM 11).view.loc (c : Thread nD τ)) ↦[(slab rM 11).view.set]{qZ} gr 11)
      ∗ (((slab rM 11).view.loc (c : Thread nD τ)) ↦[(slab rM 11).view.set]{qS} gr 11)
      ∗ (((slab rM 12).view.loc (c : Thread nD τ)) ↦[(slab rM 12).view.set]{qX} gr 12)
      ∗ (((slab rM 12).view.loc (c : Thread nD τ)) ↦[(slab rM 12).view.set]{qZ} gr 12)
      ∗ (((slab rM 12).view.loc (c : Thread nD τ)) ↦[(slab rM 12).view.set]{qS} gr 12)
      ∗ (((slab rM 13).view.loc (c : Thread nD τ)) ↦[(slab rM 13).view.set]{qX} gr 13)
      ∗ (((slab rM 13).view.loc (c : Thread nD τ)) ↦[(slab rM 13).view.set]{qZ} gr 13)
      ∗ (((slab rM 13).view.loc (c : Thread nD τ)) ↦[(slab rM 13).view.set]{qS} gr 13)
      ∗ (((slab rM 14).view.loc (c : Thread nD τ)) ↦[(slab rM 14).view.set]{qX} gr 14)
      ∗ (((slab rM 14).view.loc (c : Thread nD τ)) ↦[(slab rM 14).view.set]{qZ} gr 14)
      ∗ (((slab rM 14).view.loc (c : Thread nD τ)) ↦[(slab rM 14).view.set]{qS} gr 14)
      ∗ (((slab rM 15).view.loc (c : Thread nD τ)) ↦[(slab rM 15).view.set]{qX} gr 15)
      ∗ (((slab rM 15).view.loc (c : Thread nD τ)) ↦[(slab rM 15).view.set]{qZ} gr 15)
      ∗ (((slab rM 15).view.loc (c : Thread nD τ)) ↦[(slab rM 15).view.set]{qS} gr 15))
      ∗ (
        (((slab xrM 0).view.loc (c : Thread nD τ)) ↦[(slab xrM 0).view.set]{qX} gx 0)
      ∗ (((slab xrM 0).view.loc (c : Thread nD τ)) ↦[(slab xrM 0).view.set]{qH} gx 0)
      ∗ (((slab xrM 1).view.loc (c : Thread nD τ)) ↦[(slab xrM 1).view.set]{qX} gx 1)
      ∗ (((slab xrM 1).view.loc (c : Thread nD τ)) ↦[(slab xrM 1).view.set]{qH} gx 1)
      ∗ (((slab xrM 2).view.loc (c : Thread nD τ)) ↦[(slab xrM 2).view.set]{qX} gx 2)
      ∗ (((slab xrM 2).view.loc (c : Thread nD τ)) ↦[(slab xrM 2).view.set]{qH} gx 2)
      ∗ (((slab xrM 3).view.loc (c : Thread nD τ)) ↦[(slab xrM 3).view.set]{qX} gx 3)
      ∗ (((slab xrM 3).view.loc (c : Thread nD τ)) ↦[(slab xrM 3).view.set]{qH} gx 3)
      ∗ (((slab xrM 4).view.loc (c : Thread nD τ)) ↦[(slab xrM 4).view.set]{qX} gx 4)
      ∗ (((slab xrM 4).view.loc (c : Thread nD τ)) ↦[(slab xrM 4).view.set]{qH} gx 4)
      ∗ (((slab xrM 5).view.loc (c : Thread nD τ)) ↦[(slab xrM 5).view.set]{qX} gx 5)
      ∗ (((slab xrM 5).view.loc (c : Thread nD τ)) ↦[(slab xrM 5).view.set]{qH} gx 5)
      ∗ (((slab xrM 6).view.loc (c : Thread nD τ)) ↦[(slab xrM 6).view.set]{qX} gx 6)
      ∗ (((slab xrM 6).view.loc (c : Thread nD τ)) ↦[(slab xrM 6).view.set]{qH} gx 6)
      ∗ (((slab xrM 7).view.loc (c : Thread nD τ)) ↦[(slab xrM 7).view.set]{qX} gx 7)
      ∗ (((slab xrM 7).view.loc (c : Thread nD τ)) ↦[(slab xrM 7).view.set]{qH} gx 7)
      ∗ (((slab xrM 8).view.loc (c : Thread nD τ)) ↦[(slab xrM 8).view.set]{qX} gx 8)
      ∗ (((slab xrM 8).view.loc (c : Thread nD τ)) ↦[(slab xrM 8).view.set]{qH} gx 8)
      ∗ (((slab xrM 9).view.loc (c : Thread nD τ)) ↦[(slab xrM 9).view.set]{qX} gx 9)
      ∗ (((slab xrM 9).view.loc (c : Thread nD τ)) ↦[(slab xrM 9).view.set]{qH} gx 9)
      ∗ (((slab xrM 10).view.loc (c : Thread nD τ)) ↦[(slab xrM 10).view.set]{qX} gx 10)
      ∗ (((slab xrM 10).view.loc (c : Thread nD τ)) ↦[(slab xrM 10).view.set]{qH} gx 10)
      ∗ (((slab xrM 11).view.loc (c : Thread nD τ)) ↦[(slab xrM 11).view.set]{qX} gx 11)
      ∗ (((slab xrM 11).view.loc (c : Thread nD τ)) ↦[(slab xrM 11).view.set]{qH} gx 11)
      ∗ (((slab xrM 12).view.loc (c : Thread nD τ)) ↦[(slab xrM 12).view.set]{qX} gx 12)
      ∗ (((slab xrM 12).view.loc (c : Thread nD τ)) ↦[(slab xrM 12).view.set]{qH} gx 12)
      ∗ (((slab xrM 13).view.loc (c : Thread nD τ)) ↦[(slab xrM 13).view.set]{qX} gx 13)
      ∗ (((slab xrM 13).view.loc (c : Thread nD τ)) ↦[(slab xrM 13).view.set]{qH} gx 13)
      ∗ (((slab xrM 14).view.loc (c : Thread nD τ)) ↦[(slab xrM 14).view.set]{qX} gx 14)
      ∗ (((slab xrM 14).view.loc (c : Thread nD τ)) ↦[(slab xrM 14).view.set]{qH} gx 14)
      ∗ (((slab xrM 15).view.loc (c : Thread nD τ)) ↦[(slab xrM 15).view.set]{qX} gx 15)
      ∗ (((slab xrM 15).view.loc (c : Thread nD τ)) ↦[(slab xrM 15).view.set]{qH} gx 15))
      ∗ (
        (((slab zrM 0).view.loc (c : Thread nD τ)) ↦[(slab zrM 0).view.set]{qX} gz 0)
      ∗ (((slab zrM 0).view.loc (c : Thread nD τ)) ↦[(slab zrM 0).view.set]{qH} gz 0)
      ∗ (((slab zrM 1).view.loc (c : Thread nD τ)) ↦[(slab zrM 1).view.set]{qX} gz 1)
      ∗ (((slab zrM 1).view.loc (c : Thread nD τ)) ↦[(slab zrM 1).view.set]{qH} gz 1)
      ∗ (((slab zrM 2).view.loc (c : Thread nD τ)) ↦[(slab zrM 2).view.set]{qX} gz 2)
      ∗ (((slab zrM 2).view.loc (c : Thread nD τ)) ↦[(slab zrM 2).view.set]{qH} gz 2)
      ∗ (((slab zrM 3).view.loc (c : Thread nD τ)) ↦[(slab zrM 3).view.set]{qX} gz 3)
      ∗ (((slab zrM 3).view.loc (c : Thread nD τ)) ↦[(slab zrM 3).view.set]{qH} gz 3)
      ∗ (((slab zrM 4).view.loc (c : Thread nD τ)) ↦[(slab zrM 4).view.set]{qX} gz 4)
      ∗ (((slab zrM 4).view.loc (c : Thread nD τ)) ↦[(slab zrM 4).view.set]{qH} gz 4)
      ∗ (((slab zrM 5).view.loc (c : Thread nD τ)) ↦[(slab zrM 5).view.set]{qX} gz 5)
      ∗ (((slab zrM 5).view.loc (c : Thread nD τ)) ↦[(slab zrM 5).view.set]{qH} gz 5)
      ∗ (((slab zrM 6).view.loc (c : Thread nD τ)) ↦[(slab zrM 6).view.set]{qX} gz 6)
      ∗ (((slab zrM 6).view.loc (c : Thread nD τ)) ↦[(slab zrM 6).view.set]{qH} gz 6)
      ∗ (((slab zrM 7).view.loc (c : Thread nD τ)) ↦[(slab zrM 7).view.set]{qX} gz 7)
      ∗ (((slab zrM 7).view.loc (c : Thread nD τ)) ↦[(slab zrM 7).view.set]{qH} gz 7)
      ∗ (((slab zrM 8).view.loc (c : Thread nD τ)) ↦[(slab zrM 8).view.set]{qX} gz 8)
      ∗ (((slab zrM 8).view.loc (c : Thread nD τ)) ↦[(slab zrM 8).view.set]{qH} gz 8)
      ∗ (((slab zrM 9).view.loc (c : Thread nD τ)) ↦[(slab zrM 9).view.set]{qX} gz 9)
      ∗ (((slab zrM 9).view.loc (c : Thread nD τ)) ↦[(slab zrM 9).view.set]{qH} gz 9)
      ∗ (((slab zrM 10).view.loc (c : Thread nD τ)) ↦[(slab zrM 10).view.set]{qX} gz 10)
      ∗ (((slab zrM 10).view.loc (c : Thread nD τ)) ↦[(slab zrM 10).view.set]{qH} gz 10)
      ∗ (((slab zrM 11).view.loc (c : Thread nD τ)) ↦[(slab zrM 11).view.set]{qX} gz 11)
      ∗ (((slab zrM 11).view.loc (c : Thread nD τ)) ↦[(slab zrM 11).view.set]{qH} gz 11)
      ∗ (((slab zrM 12).view.loc (c : Thread nD τ)) ↦[(slab zrM 12).view.set]{qX} gz 12)
      ∗ (((slab zrM 12).view.loc (c : Thread nD τ)) ↦[(slab zrM 12).view.set]{qH} gz 12)
      ∗ (((slab zrM 13).view.loc (c : Thread nD τ)) ↦[(slab zrM 13).view.set]{qX} gz 13)
      ∗ (((slab zrM 13).view.loc (c : Thread nD τ)) ↦[(slab zrM 13).view.set]{qH} gz 13)
      ∗ (((slab zrM 14).view.loc (c : Thread nD τ)) ↦[(slab zrM 14).view.set]{qX} gz 14)
      ∗ (((slab zrM 14).view.loc (c : Thread nD τ)) ↦[(slab zrM 14).view.set]{qH} gz 14)
      ∗ (((slab zrM 15).view.loc (c : Thread nD τ)) ↦[(slab zrM 15).view.set]{qX} gz 15)
      ∗ (((slab zrM 15).view.loc (c : Thread nD τ)) ↦[(slab zrM 15).view.set]{qH} gz 15))
      ∗ ((lM.view.loc (c : Thread nD τ)) ↦[lM.view.set]{fullShare} fl))
      ⊢ scratchAny (F := F) c := by
  refine Entails.trans (Entails.of_eq ?_) (scratchAny_of_cut c gs gr gx gz fl)
  simp only [close_fin16, close_sep_assoc]

/-! ## The last step -/

set_option maxHeartbeats 8000000 in
/-- The last step of the body, from the hypotheses the run leaves, each group a chain in the order the body's
    context lists them; the idle semaphores and the pieces of the input and of the result are whatever makes them up. -/
theorem finish (K : Dev nD × CK → ℕ) (c : Dev nD) (W' : Waits sig Unit)
    (gs gr gx gz : Fin 16 → S16x64x1024.Idx → Elt F .f32) (fl : S4096x1024.Idx → Elt F .f32)
    (Idle Arg Res : sProp 𝕄)
    (hLoc : iprop((
        semVal ((c : Thread nD τ), .dma ⟨0, by decide⟩) 0 ∗ semVal ((c : Thread nD τ), .dma ⟨1, by decide⟩) 0 ∗ semVal ((c : Thread nD τ), .dma ⟨2, by decide⟩) 0
      ∗ semVal ((c : Thread nD τ), .dma ⟨3, by decide⟩) 0 ∗ semVal ((c : Thread nD τ), .dma ⟨4, by decide⟩) 0 ∗ semVal ((c : Thread nD τ), .dma ⟨5, by decide⟩) 0
      ∗ semVal ((c : Thread nD τ), .dma ⟨6, by decide⟩) 0 ∗ semVal ((c : Thread nD τ), .dma ⟨7, by decide⟩) 0 ∗ semVal ((c : Thread nD τ), .dma ⟨8, by decide⟩) 0
      ∗ semVal ((c : Thread nD τ), .dma ⟨9, by decide⟩) 0 ∗ semVal ((c : Thread nD τ), .dma ⟨10, by decide⟩) 0 ∗ semVal ((c : Thread nD τ), .dma ⟨11, by decide⟩) 0
      ∗ semVal ((c : Thread nD τ), .dma ⟨12, by decide⟩) 0 ∗ semVal ((c : Thread nD τ), .dma ⟨13, by decide⟩) 0 ∗ semVal ((c : Thread nD τ), .dma ⟨14, by decide⟩) 0
      ∗ semVal ((c : Thread nD τ), .dma ⟨15, by decide⟩) 0 ∗ semVal ((c : Thread nD τ), .dma ⟨16, by decide⟩) 0 ∗ semVal ((c : Thread nD τ), .dma ⟨17, by decide⟩) 0
      ∗ semVal ((c : Thread nD τ), .dma ⟨18, by decide⟩) 0 ∗ semVal ((c : Thread nD τ), .dma ⟨19, by decide⟩) 0 ∗ semVal ((c : Thread nD τ), .dma ⟨20, by decide⟩) 0
      ∗ semVal ((c : Thread nD τ), .dma ⟨21, by decide⟩) 0 ∗ semVal ((c : Thread nD τ), .dma ⟨22, by decide⟩) 0 ∗ semVal ((c : Thread nD τ), .dma ⟨23, by decide⟩) 0
      ∗ semVal ((c : Thread nD τ), .dma ⟨24, by decide⟩) 0 ∗ semVal ((c : Thread nD τ), .dma ⟨25, by decide⟩) 0 ∗ semVal ((c : Thread nD τ), .dma ⟨26, by decide⟩) 0
      ∗ semVal ((c : Thread nD τ), .dma ⟨27, by decide⟩) 0 ∗ semVal ((c : Thread nD τ), .dma ⟨28, by decide⟩) 0 ∗ semVal ((c : Thread nD τ), .dma ⟨29, by decide⟩) 0
      ∗ semVal ((c : Thread nD τ), .dma ⟨30, by decide⟩) 0 ∗ semVal ((c : Thread nD τ), .dma ⟨31, by decide⟩) 0 ∗ semVal ((c : Thread nD τ), .dma ⟨32, by decide⟩) 0
      ∗ semVal ((c : Thread nD τ), .dma ⟨33, by decide⟩) 0 ∗ semVal ((c : Thread nD τ), .dma ⟨34, by decide⟩) 0 ∗ semVal ((c : Thread nD τ), .dma ⟨35, by decide⟩) 0
      ∗ semVal ((c : Thread nD τ), .dma ⟨36, by decide⟩) 0 ∗ semVal ((c : Thread nD τ), .dma ⟨37, by decide⟩) 0 ∗ semVal ((c : Thread nD τ), .dma ⟨38, by decide⟩) 0
      ∗ semVal ((c : Thread nD τ), .dma ⟨39, by decide⟩) 0 ∗ semVal ((c : Thread nD τ), .dma ⟨40, by decide⟩) 0 ∗ semVal ((c : Thread nD τ), .dma ⟨41, by decide⟩) 0
      ∗ semVal ((c : Thread nD τ), .dma ⟨42, by decide⟩) 0 ∗ semVal ((c : Thread nD τ), .dma ⟨43, by decide⟩) 0 ∗ semVal ((c : Thread nD τ), .dma ⟨44, by decide⟩) 0
      ∗ semVal ((c : Thread nD τ), .dma ⟨45, by decide⟩) 0 ∗ semVal ((c : Thread nD τ), .dma ⟨46, by decide⟩) 0 ∗ semVal ((c : Thread nD τ), .dma ⟨47, by decide⟩) 0
      ∗ semVal ((c : Thread nD τ), .dma ⟨48, by decide⟩) 0 ∗ semVal ((c : Thread nD τ), .dma ⟨49, by decide⟩) 0 ∗ semVal ((c : Thread nD τ), .dma ⟨50, by decide⟩) 0
      ∗ semVal ((c : Thread nD τ), .dma ⟨51, by decide⟩) 0 ∗ semVal ((c : Thread nD τ), .dma ⟨52, by decide⟩) 0 ∗ semVal ((c : Thread nD τ), .dma ⟨53, by decide⟩) 0
      ∗ semVal ((c : Thread nD τ), .dma ⟨54, by decide⟩) 0 ∗ semVal ((c : Thread nD τ), .dma ⟨55, by decide⟩) 0 ∗ semVal ((c : Thread nD τ), .dma ⟨56, by decide⟩) 0
      ∗ semVal ((c : Thread nD τ), .dma ⟨57, by decide⟩) 0 ∗ semVal ((c : Thread nD τ), .dma ⟨58, by decide⟩) 0 ∗ semVal ((c : Thread nD τ), .dma ⟨59, by decide⟩) 0
      ∗ semVal ((c : Thread nD τ), .dma ⟨60, by decide⟩) 0 ∗ semVal ((c : Thread nD τ), .dma ⟨61, by decide⟩) 0 ∗ semVal ((c : Thread nD τ), .dma ⟨62, by decide⟩) 0
      ∗ semVal ((c : Thread nD τ), .dma ⟨63, by decide⟩) 0 ∗ semVal ((c : Thread nD τ), .dma ⟨224, by decide⟩) 0 ∗ semVal ((c : Thread nD τ), .dma ⟨225, by decide⟩) 0)
      ∗ Idle) ⊢ localSems (F := F) c)
    (hArg : Arg ⊢ argPts m c) (hRes : Res ⊢ resPts c (outC m c)) :
    iprop((
        cellInv ER (sched m) (K (c, some (Fam.ys, 0))) (fcell c Fam.ys 0) ∗ cellInv ER (sched m) (K (c, some (Fam.ys, 1))) (fcell c Fam.ys 1)
      ∗ cellInv ER (sched m) (K (c, some (Fam.ys, 2))) (fcell c Fam.ys 2) ∗ cellInv ER (sched m) (K (c, some (Fam.ys, 3))) (fcell c Fam.ys 3)
      ∗ cellInv ER (sched m) (K (c, some (Fam.ys, 4))) (fcell c Fam.ys 4) ∗ cellInv ER (sched m) (K (c, some (Fam.ys, 5))) (fcell c Fam.ys 5)
      ∗ cellInv ER (sched m) (K (c, some (Fam.ys, 6))) (fcell c Fam.ys 6) ∗ cellInv ER (sched m) (K (c, some (Fam.ys, 7))) (fcell c Fam.ys 7)
      ∗ cellInv ER (sched m) (K (c, some (Fam.ys, 8))) (fcell c Fam.ys 8) ∗ cellInv ER (sched m) (K (c, some (Fam.ys, 9))) (fcell c Fam.ys 9)
      ∗ cellInv ER (sched m) (K (c, some (Fam.ys, 10))) (fcell c Fam.ys 10) ∗ cellInv ER (sched m) (K (c, some (Fam.ys, 11))) (fcell c Fam.ys 11)
      ∗ cellInv ER (sched m) (K (c, some (Fam.ys, 12))) (fcell c Fam.ys 12) ∗ cellInv ER (sched m) (K (c, some (Fam.ys, 13))) (fcell c Fam.ys 13)
      ∗ cellInv ER (sched m) (K (c, some (Fam.ys, 14))) (fcell c Fam.ys 14) ∗ cellInv ER (sched m) (K (c, some (Fam.ys, 15))) (fcell c Fam.ys 15)
      ∗ cellInv ER (sched m) (K (c, some (Fam.yr, 0))) (fcell c Fam.yr 0) ∗ cellInv ER (sched m) (K (c, some (Fam.yr, 1))) (fcell c Fam.yr 1)
      ∗ cellInv ER (sched m) (K (c, some (Fam.yr, 2))) (fcell c Fam.yr 2) ∗ cellInv ER (sched m) (K (c, some (Fam.yr, 3))) (fcell c Fam.yr 3)
      ∗ cellInv ER (sched m) (K (c, some (Fam.yr, 4))) (fcell c Fam.yr 4) ∗ cellInv ER (sched m) (K (c, some (Fam.yr, 5))) (fcell c Fam.yr 5)
      ∗ cellInv ER (sched m) (K (c, some (Fam.yr, 6))) (fcell c Fam.yr 6) ∗ cellInv ER (sched m) (K (c, some (Fam.yr, 7))) (fcell c Fam.yr 7)
      ∗ cellInv ER (sched m) (K (c, some (Fam.yr, 8))) (fcell c Fam.yr 8) ∗ cellInv ER (sched m) (K (c, some (Fam.yr, 9))) (fcell c Fam.yr 9)
      ∗ cellInv ER (sched m) (K (c, some (Fam.yr, 10))) (fcell c Fam.yr 10) ∗ cellInv ER (sched m) (K (c, some (Fam.yr, 11))) (fcell c Fam.yr 11)
      ∗ cellInv ER (sched m) (K (c, some (Fam.yr, 12))) (fcell c Fam.yr 12) ∗ cellInv ER (sched m) (K (c, some (Fam.yr, 13))) (fcell c Fam.yr 13)
      ∗ cellInv ER (sched m) (K (c, some (Fam.yr, 14))) (fcell c Fam.yr 14) ∗ cellInv ER (sched m) (K (c, some (Fam.yr, 15))) (fcell c Fam.yr 15)
      ∗ cellInv ER (sched m) (K (c, some (Fam.xs, 0))) (fcell c Fam.xs 0) ∗ cellInv ER (sched m) (K (c, some (Fam.xs, 1))) (fcell c Fam.xs 1)
      ∗ cellInv ER (sched m) (K (c, some (Fam.xs, 2))) (fcell c Fam.xs 2) ∗ cellInv ER (sched m) (K (c, some (Fam.xs, 3))) (fcell c Fam.xs 3)
      ∗ cellInv ER (sched m) (K (c, some (Fam.xs, 4))) (fcell c Fam.xs 4) ∗ cellInv ER (sched m) (K (c, some (Fam.xs, 5))) (fcell c Fam.xs 5)
      ∗ cellInv ER (sched m) (K (c, some (Fam.xs, 6))) (fcell c Fam.xs 6) ∗ cellInv ER (sched m) (K (c, some (Fam.xs, 7))) (fcell c Fam.xs 7)
      ∗ cellInv ER (sched m) (K (c, some (Fam.xs, 8))) (fcell c Fam.xs 8) ∗ cellInv ER (sched m) (K (c, some (Fam.xs, 9))) (fcell c Fam.xs 9)
      ∗ cellInv ER (sched m) (K (c, some (Fam.xs, 10))) (fcell c Fam.xs 10) ∗ cellInv ER (sched m) (K (c, some (Fam.xs, 11))) (fcell c Fam.xs 11)
      ∗ cellInv ER (sched m) (K (c, some (Fam.xs, 12))) (fcell c Fam.xs 12) ∗ cellInv ER (sched m) (K (c, some (Fam.xs, 13))) (fcell c Fam.xs 13)
      ∗ cellInv ER (sched m) (K (c, some (Fam.xs, 14))) (fcell c Fam.xs 14) ∗ cellInv ER (sched m) (K (c, some (Fam.xs, 15))) (fcell c Fam.xs 15)
      ∗ cellInv ER (sched m) (K (c, some (Fam.xr, 0))) (fcell c Fam.xr 0) ∗ cellInv ER (sched m) (K (c, some (Fam.xr, 1))) (fcell c Fam.xr 1)
      ∗ cellInv ER (sched m) (K (c, some (Fam.xr, 2))) (fcell c Fam.xr 2) ∗ cellInv ER (sched m) (K (c, some (Fam.xr, 3))) (fcell c Fam.xr 3)
      ∗ cellInv ER (sched m) (K (c, some (Fam.xr, 4))) (fcell c Fam.xr 4) ∗ cellInv ER (sched m) (K (c, some (Fam.xr, 5))) (fcell c Fam.xr 5)
      ∗ cellInv ER (sched m) (K (c, some (Fam.xr, 6))) (fcell c Fam.xr 6) ∗ cellInv ER (sched m) (K (c, some (Fam.xr, 7))) (fcell c Fam.xr 7)
      ∗ cellInv ER (sched m) (K (c, some (Fam.xr, 8))) (fcell c Fam.xr 8) ∗ cellInv ER (sched m) (K (c, some (Fam.xr, 9))) (fcell c Fam.xr 9)
      ∗ cellInv ER (sched m) (K (c, some (Fam.xr, 10))) (fcell c Fam.xr 10) ∗ cellInv ER (sched m) (K (c, some (Fam.xr, 11))) (fcell c Fam.xr 11)
      ∗ cellInv ER (sched m) (K (c, some (Fam.xr, 12))) (fcell c Fam.xr 12) ∗ cellInv ER (sched m) (K (c, some (Fam.xr, 13))) (fcell c Fam.xr 13)
      ∗ cellInv ER (sched m) (K (c, some (Fam.xr, 14))) (fcell c Fam.xr 14) ∗ cellInv ER (sched m) (K (c, some (Fam.xr, 15))) (fcell c Fam.xr 15)
      ∗ cellInv ER (sched m) (K (c, some (Fam.zs, 0))) (fcell c Fam.zs 0) ∗ cellInv ER (sched m) (K (c, some (Fam.zs, 1))) (fcell c Fam.zs 1)
      ∗ cellInv ER (sched m) (K (c, some (Fam.zs, 2))) (fcell c Fam.zs 2) ∗ cellInv ER (sched m) (K (c, some (Fam.zs, 3))) (fcell c Fam.zs 3)
      ∗ cellInv ER (sched m) (K (c, some (Fam.zs, 4))) (fcell c Fam.zs 4) ∗ cellInv ER (sched m) (K (c, some (Fam.zs, 5))) (fcell c Fam.zs 5)
      ∗ cellInv ER (sched m) (K (c, some (Fam.zs, 6))) (fcell c Fam.zs 6) ∗ cellInv ER (sched m) (K (c, some (Fam.zs, 7))) (fcell c Fam.zs 7)
      ∗ cellInv ER (sched m) (K (c, some (Fam.zs, 8))) (fcell c Fam.zs 8) ∗ cellInv ER (sched m) (K (c, some (Fam.zs, 9))) (fcell c Fam.zs 9)
      ∗ cellInv ER (sched m) (K (c, some (Fam.zs, 10))) (fcell c Fam.zs 10) ∗ cellInv ER (sched m) (K (c, some (Fam.zs, 11))) (fcell c Fam.zs 11)
      ∗ cellInv ER (sched m) (K (c, some (Fam.zs, 12))) (fcell c Fam.zs 12) ∗ cellInv ER (sched m) (K (c, some (Fam.zs, 13))) (fcell c Fam.zs 13)
      ∗ cellInv ER (sched m) (K (c, some (Fam.zs, 14))) (fcell c Fam.zs 14) ∗ cellInv ER (sched m) (K (c, some (Fam.zs, 15))) (fcell c Fam.zs 15)
      ∗ cellInv ER (sched m) (K (c, some (Fam.zr, 0))) (fcell c Fam.zr 0) ∗ cellInv ER (sched m) (K (c, some (Fam.zr, 1))) (fcell c Fam.zr 1)
      ∗ cellInv ER (sched m) (K (c, some (Fam.zr, 2))) (fcell c Fam.zr 2) ∗ cellInv ER (sched m) (K (c, some (Fam.zr, 3))) (fcell c Fam.zr 3)
      ∗ cellInv ER (sched m) (K (c, some (Fam.zr, 4))) (fcell c Fam.zr 4) ∗ cellInv ER (sched m) (K (c, some (Fam.zr, 5))) (fcell c Fam.zr 5)
      ∗ cellInv ER (sched m) (K (c, some (Fam.zr, 6))) (fcell c Fam.zr 6) ∗ cellInv ER (sched m) (K (c, some (Fam.zr, 7))) (fcell c Fam.zr 7)
      ∗ cellInv ER (sched m) (K (c, some (Fam.zr, 8))) (fcell c Fam.zr 8) ∗ cellInv ER (sched m) (K (c, some (Fam.zr, 9))) (fcell c Fam.zr 9)
      ∗ cellInv ER (sched m) (K (c, some (Fam.zr, 10))) (fcell c Fam.zr 10) ∗ cellInv ER (sched m) (K (c, some (Fam.zr, 11))) (fcell c Fam.zr 11)
      ∗ cellInv ER (sched m) (K (c, some (Fam.zr, 12))) (fcell c Fam.zr 12) ∗ cellInv ER (sched m) (K (c, some (Fam.zr, 13))) (fcell c Fam.zr 13)
      ∗ cellInv ER (sched m) (K (c, some (Fam.zr, 14))) (fcell c Fam.zr 14) ∗ cellInv ER (sched m) (K (c, some (Fam.zr, 15))) (fcell c Fam.zr 15)
      ∗ cellInv ER (sched m) (K (c, some (Fam.qs, 0))) (fcell c Fam.qs 0) ∗ cellInv ER (sched m) (K (c, some (Fam.qs, 1))) (fcell c Fam.qs 1)
      ∗ cellInv ER (sched m) (K (c, some (Fam.qs, 2))) (fcell c Fam.qs 2) ∗ cellInv ER (sched m) (K (c, some (Fam.qs, 3))) (fcell c Fam.qs 3)
      ∗ cellInv ER (sched m) (K (c, some (Fam.qs, 4))) (fcell c Fam.qs 4) ∗ cellInv ER (sched m) (K (c, some (Fam.qs, 5))) (fcell c Fam.qs 5)
      ∗ cellInv ER (sched m) (K (c, some (Fam.qs, 6))) (fcell c Fam.qs 6) ∗ cellInv ER (sched m) (K (c, some (Fam.qs, 7))) (fcell c Fam.qs 7)
      ∗ cellInv ER (sched m) (K (c, some (Fam.qs, 8))) (fcell c Fam.qs 8) ∗ cellInv ER (sched m) (K (c, some (Fam.qs, 9))) (fcell c Fam.qs 9)
      ∗ cellInv ER (sched m) (K (c, some (Fam.qs, 10))) (fcell c Fam.qs 10) ∗ cellInv ER (sched m) (K (c, some (Fam.qs, 11))) (fcell c Fam.qs 11)
      ∗ cellInv ER (sched m) (K (c, some (Fam.qs, 12))) (fcell c Fam.qs 12) ∗ cellInv ER (sched m) (K (c, some (Fam.qs, 13))) (fcell c Fam.qs 13)
      ∗ cellInv ER (sched m) (K (c, some (Fam.qs, 14))) (fcell c Fam.qs 14) ∗ cellInv ER (sched m) (K (c, some (Fam.qs, 15))) (fcell c Fam.qs 15)
      ∗ cellInv ER (sched m) (K (c, some (Fam.qr, 0))) (fcell c Fam.qr 0) ∗ cellInv ER (sched m) (K (c, some (Fam.qr, 1))) (fcell c Fam.qr 1)
      ∗ cellInv ER (sched m) (K (c, some (Fam.qr, 2))) (fcell c Fam.qr 2) ∗ cellInv ER (sched m) (K (c, some (Fam.qr, 3))) (fcell c Fam.qr 3)
      ∗ cellInv ER (sched m) (K (c, some (Fam.qr, 4))) (fcell c Fam.qr 4) ∗ cellInv ER (sched m) (K (c, some (Fam.qr, 5))) (fcell c Fam.qr 5)
      ∗ cellInv ER (sched m) (K (c, some (Fam.qr, 6))) (fcell c Fam.qr 6) ∗ cellInv ER (sched m) (K (c, some (Fam.qr, 7))) (fcell c Fam.qr 7)
      ∗ cellInv ER (sched m) (K (c, some (Fam.qr, 8))) (fcell c Fam.qr 8) ∗ cellInv ER (sched m) (K (c, some (Fam.qr, 9))) (fcell c Fam.qr 9)
      ∗ cellInv ER (sched m) (K (c, some (Fam.qr, 10))) (fcell c Fam.qr 10) ∗ cellInv ER (sched m) (K (c, some (Fam.qr, 11))) (fcell c Fam.qr 11)
      ∗ cellInv ER (sched m) (K (c, some (Fam.qr, 12))) (fcell c Fam.qr 12) ∗ cellInv ER (sched m) (K (c, some (Fam.qr, 13))) (fcell c Fam.qr 13)
      ∗ cellInv ER (sched m) (K (c, some (Fam.qr, 14))) (fcell c Fam.qr 14) ∗ cellInv ER (sched m) (K (c, some (Fam.qr, 15))) (fcell c Fam.qr 15))
      ∗ (
        atPos ER (fcell c Fam.ys 0) 1 ∅ 0 ∗ atPos ER (fcell c Fam.ys 1) 1 ∅ 0 ∗ atPos ER (fcell c Fam.ys 2) 1 ∅ 0 ∗ atPos ER (fcell c Fam.ys 3) 1 ∅ 0
      ∗ atPos ER (fcell c Fam.ys 4) 1 ∅ 0 ∗ atPos ER (fcell c Fam.ys 5) 1 ∅ 0 ∗ atPos ER (fcell c Fam.ys 6) 1 ∅ 0 ∗ atPos ER (fcell c Fam.ys 7) 1 ∅ 0
      ∗ atPos ER (fcell c Fam.ys 8) 1 ∅ 0 ∗ atPos ER (fcell c Fam.ys 9) 1 ∅ 0 ∗ atPos ER (fcell c Fam.ys 10) 1 ∅ 0 ∗ atPos ER (fcell c Fam.ys 11) 1 ∅ 0
      ∗ atPos ER (fcell c Fam.ys 12) 1 ∅ 0 ∗ atPos ER (fcell c Fam.ys 13) 1 ∅ 0 ∗ atPos ER (fcell c Fam.ys 14) 1 ∅ 0 ∗ atPos ER (fcell c Fam.ys 15) 1 ∅ 0
      ∗ atPos ER (fcell c Fam.yr 0) 1 ∅ 0 ∗ atPos ER (fcell c Fam.yr 1) 1 ∅ 0 ∗ atPos ER (fcell c Fam.yr 2) 1 ∅ 0 ∗ atPos ER (fcell c Fam.yr 3) 1 ∅ 0
      ∗ atPos ER (fcell c Fam.yr 4) 1 ∅ 0 ∗ atPos ER (fcell c Fam.yr 5) 1 ∅ 0 ∗ atPos ER (fcell c Fam.yr 6) 1 ∅ 0 ∗ atPos ER (fcell c Fam.yr 7) 1 ∅ 0
      ∗ atPos ER (fcell c Fam.yr 8) 1 ∅ 0 ∗ atPos ER (fcell c Fam.yr 9) 1 ∅ 0 ∗ atPos ER (fcell c Fam.yr 10) 1 ∅ 0 ∗ atPos ER (fcell c Fam.yr 11) 1 ∅ 0
      ∗ atPos ER (fcell c Fam.yr 12) 1 ∅ 0 ∗ atPos ER (fcell c Fam.yr 13) 1 ∅ 0 ∗ atPos ER (fcell c Fam.yr 14) 1 ∅ 0 ∗ atPos ER (fcell c Fam.yr 15) 1 ∅ 0
      ∗ atPos ER (fcell c Fam.xs 0) 1 ∅ 0 ∗ atPos ER (fcell c Fam.xs 1) 1 ∅ 0 ∗ atPos ER (fcell c Fam.xs 2) 1 ∅ 0 ∗ atPos ER (fcell c Fam.xs 3) 1 ∅ 0
      ∗ atPos ER (fcell c Fam.xs 4) 1 ∅ 0 ∗ atPos ER (fcell c Fam.xs 5) 1 ∅ 0 ∗ atPos ER (fcell c Fam.xs 6) 1 ∅ 0 ∗ atPos ER (fcell c Fam.xs 7) 1 ∅ 0
      ∗ atPos ER (fcell c Fam.xs 8) 1 ∅ 0 ∗ atPos ER (fcell c Fam.xs 9) 1 ∅ 0 ∗ atPos ER (fcell c Fam.xs 10) 1 ∅ 0 ∗ atPos ER (fcell c Fam.xs 11) 1 ∅ 0
      ∗ atPos ER (fcell c Fam.xs 12) 1 ∅ 0 ∗ atPos ER (fcell c Fam.xs 13) 1 ∅ 0 ∗ atPos ER (fcell c Fam.xs 14) 1 ∅ 0 ∗ atPos ER (fcell c Fam.xs 15) 1 ∅ 0
      ∗ atPos ER (fcell c Fam.xr 0) 1 ∅ 0 ∗ atPos ER (fcell c Fam.xr 1) 1 ∅ 0 ∗ atPos ER (fcell c Fam.xr 2) 1 ∅ 0 ∗ atPos ER (fcell c Fam.xr 3) 1 ∅ 0
      ∗ atPos ER (fcell c Fam.xr 4) 1 ∅ 0 ∗ atPos ER (fcell c Fam.xr 5) 1 ∅ 0 ∗ atPos ER (fcell c Fam.xr 6) 1 ∅ 0 ∗ atPos ER (fcell c Fam.xr 7) 1 ∅ 0
      ∗ atPos ER (fcell c Fam.xr 8) 1 ∅ 0 ∗ atPos ER (fcell c Fam.xr 9) 1 ∅ 0 ∗ atPos ER (fcell c Fam.xr 10) 1 ∅ 0 ∗ atPos ER (fcell c Fam.xr 11) 1 ∅ 0
      ∗ atPos ER (fcell c Fam.xr 12) 1 ∅ 0 ∗ atPos ER (fcell c Fam.xr 13) 1 ∅ 0 ∗ atPos ER (fcell c Fam.xr 14) 1 ∅ 0 ∗ atPos ER (fcell c Fam.xr 15) 1 ∅ 0
      ∗ atPos ER (fcell c Fam.zs 0) 1 ∅ 0 ∗ atPos ER (fcell c Fam.zs 1) 1 ∅ 0 ∗ atPos ER (fcell c Fam.zs 2) 1 ∅ 0 ∗ atPos ER (fcell c Fam.zs 3) 1 ∅ 0
      ∗ atPos ER (fcell c Fam.zs 4) 1 ∅ 0 ∗ atPos ER (fcell c Fam.zs 5) 1 ∅ 0 ∗ atPos ER (fcell c Fam.zs 6) 1 ∅ 0 ∗ atPos ER (fcell c Fam.zs 7) 1 ∅ 0
      ∗ atPos ER (fcell c Fam.zs 8) 1 ∅ 0 ∗ atPos ER (fcell c Fam.zs 9) 1 ∅ 0 ∗ atPos ER (fcell c Fam.zs 10) 1 ∅ 0 ∗ atPos ER (fcell c Fam.zs 11) 1 ∅ 0
      ∗ atPos ER (fcell c Fam.zs 12) 1 ∅ 0 ∗ atPos ER (fcell c Fam.zs 13) 1 ∅ 0 ∗ atPos ER (fcell c Fam.zs 14) 1 ∅ 0 ∗ atPos ER (fcell c Fam.zs 15) 1 ∅ 0
      ∗ atPos ER (fcell c Fam.zr 0) 1 ∅ 0 ∗ atPos ER (fcell c Fam.zr 1) 1 ∅ 0 ∗ atPos ER (fcell c Fam.zr 2) 1 ∅ 0 ∗ atPos ER (fcell c Fam.zr 3) 1 ∅ 0
      ∗ atPos ER (fcell c Fam.zr 4) 1 ∅ 0 ∗ atPos ER (fcell c Fam.zr 5) 1 ∅ 0 ∗ atPos ER (fcell c Fam.zr 6) 1 ∅ 0 ∗ atPos ER (fcell c Fam.zr 7) 1 ∅ 0
      ∗ atPos ER (fcell c Fam.zr 8) 1 ∅ 0 ∗ atPos ER (fcell c Fam.zr 9) 1 ∅ 0 ∗ atPos ER (fcell c Fam.zr 10) 1 ∅ 0 ∗ atPos ER (fcell c Fam.zr 11) 1 ∅ 0
      ∗ atPos ER (fcell c Fam.zr 12) 1 ∅ 0 ∗ atPos ER (fcell c Fam.zr 13) 1 ∅ 0 ∗ atPos ER (fcell c Fam.zr 14) 1 ∅ 0 ∗ atPos ER (fcell c Fam.zr 15) 1 ∅ 0
      ∗ atPos ER (fcell c Fam.qs 0) 1 ∅ 0 ∗ atPos ER (fcell c Fam.qs 1) 1 ∅ 0 ∗ atPos ER (fcell c Fam.qs 2) 1 ∅ 0 ∗ atPos ER (fcell c Fam.qs 3) 1 ∅ 0
      ∗ atPos ER (fcell c Fam.qs 4) 1 ∅ 0 ∗ atPos ER (fcell c Fam.qs 5) 1 ∅ 0 ∗ atPos ER (fcell c Fam.qs 6) 1 ∅ 0 ∗ atPos ER (fcell c Fam.qs 7) 1 ∅ 0
      ∗ atPos ER (fcell c Fam.qs 8) 1 ∅ 0 ∗ atPos ER (fcell c Fam.qs 9) 1 ∅ 0 ∗ atPos ER (fcell c Fam.qs 10) 1 ∅ 0 ∗ atPos ER (fcell c Fam.qs 11) 1 ∅ 0
      ∗ atPos ER (fcell c Fam.qs 12) 1 ∅ 0 ∗ atPos ER (fcell c Fam.qs 13) 1 ∅ 0 ∗ atPos ER (fcell c Fam.qs 14) 1 ∅ 0 ∗ atPos ER (fcell c Fam.qs 15) 1 ∅ 0
      ∗ atPos ER (fcell c Fam.qr 0) 1 ∅ 0 ∗ atPos ER (fcell c Fam.qr 1) 1 ∅ 0 ∗ atPos ER (fcell c Fam.qr 2) 1 ∅ 0 ∗ atPos ER (fcell c Fam.qr 3) 1 ∅ 0
      ∗ atPos ER (fcell c Fam.qr 4) 1 ∅ 0 ∗ atPos ER (fcell c Fam.qr 5) 1 ∅ 0 ∗ atPos ER (fcell c Fam.qr 6) 1 ∅ 0 ∗ atPos ER (fcell c Fam.qr 7) 1 ∅ 0
      ∗ atPos ER (fcell c Fam.qr 8) 1 ∅ 0 ∗ atPos ER (fcell c Fam.qr 9) 1 ∅ 0 ∗ atPos ER (fcell c Fam.qr 10) 1 ∅ 0 ∗ atPos ER (fcell c Fam.qr 11) 1 ∅ 0
      ∗ atPos ER (fcell c Fam.qr 12) 1 ∅ 0 ∗ atPos ER (fcell c Fam.qr 13) 1 ∅ 0 ∗ atPos ER (fcell c Fam.qr 14) 1 ∅ 0 ∗ atPos ER (fcell c Fam.qr 15) 1 ∅ 0)
      ∗ (
        semVal ((c : Thread nD τ), .dma ⟨0, by decide⟩) 0 ∗ semVal ((c : Thread nD τ), .dma ⟨1, by decide⟩) 0 ∗ semVal ((c : Thread nD τ), .dma ⟨2, by decide⟩) 0
      ∗ semVal ((c : Thread nD τ), .dma ⟨3, by decide⟩) 0 ∗ semVal ((c : Thread nD τ), .dma ⟨4, by decide⟩) 0 ∗ semVal ((c : Thread nD τ), .dma ⟨5, by decide⟩) 0
      ∗ semVal ((c : Thread nD τ), .dma ⟨6, by decide⟩) 0 ∗ semVal ((c : Thread nD τ), .dma ⟨7, by decide⟩) 0 ∗ semVal ((c : Thread nD τ), .dma ⟨8, by decide⟩) 0
      ∗ semVal ((c : Thread nD τ), .dma ⟨9, by decide⟩) 0 ∗ semVal ((c : Thread nD τ), .dma ⟨10, by decide⟩) 0 ∗ semVal ((c : Thread nD τ), .dma ⟨11, by decide⟩) 0
      ∗ semVal ((c : Thread nD τ), .dma ⟨12, by decide⟩) 0 ∗ semVal ((c : Thread nD τ), .dma ⟨13, by decide⟩) 0 ∗ semVal ((c : Thread nD τ), .dma ⟨14, by decide⟩) 0
      ∗ semVal ((c : Thread nD τ), .dma ⟨15, by decide⟩) 0 ∗ semVal ((c : Thread nD τ), .dma ⟨16, by decide⟩) 0 ∗ semVal ((c : Thread nD τ), .dma ⟨17, by decide⟩) 0
      ∗ semVal ((c : Thread nD τ), .dma ⟨18, by decide⟩) 0 ∗ semVal ((c : Thread nD τ), .dma ⟨19, by decide⟩) 0 ∗ semVal ((c : Thread nD τ), .dma ⟨20, by decide⟩) 0
      ∗ semVal ((c : Thread nD τ), .dma ⟨21, by decide⟩) 0 ∗ semVal ((c : Thread nD τ), .dma ⟨22, by decide⟩) 0 ∗ semVal ((c : Thread nD τ), .dma ⟨23, by decide⟩) 0
      ∗ semVal ((c : Thread nD τ), .dma ⟨24, by decide⟩) 0 ∗ semVal ((c : Thread nD τ), .dma ⟨25, by decide⟩) 0 ∗ semVal ((c : Thread nD τ), .dma ⟨26, by decide⟩) 0
      ∗ semVal ((c : Thread nD τ), .dma ⟨27, by decide⟩) 0 ∗ semVal ((c : Thread nD τ), .dma ⟨28, by decide⟩) 0 ∗ semVal ((c : Thread nD τ), .dma ⟨29, by decide⟩) 0
      ∗ semVal ((c : Thread nD τ), .dma ⟨30, by decide⟩) 0 ∗ semVal ((c : Thread nD τ), .dma ⟨31, by decide⟩) 0 ∗ semVal ((c : Thread nD τ), .dma ⟨32, by decide⟩) 0
      ∗ semVal ((c : Thread nD τ), .dma ⟨33, by decide⟩) 0 ∗ semVal ((c : Thread nD τ), .dma ⟨34, by decide⟩) 0 ∗ semVal ((c : Thread nD τ), .dma ⟨35, by decide⟩) 0
      ∗ semVal ((c : Thread nD τ), .dma ⟨36, by decide⟩) 0 ∗ semVal ((c : Thread nD τ), .dma ⟨37, by decide⟩) 0 ∗ semVal ((c : Thread nD τ), .dma ⟨38, by decide⟩) 0
      ∗ semVal ((c : Thread nD τ), .dma ⟨39, by decide⟩) 0 ∗ semVal ((c : Thread nD τ), .dma ⟨40, by decide⟩) 0 ∗ semVal ((c : Thread nD τ), .dma ⟨41, by decide⟩) 0
      ∗ semVal ((c : Thread nD τ), .dma ⟨42, by decide⟩) 0 ∗ semVal ((c : Thread nD τ), .dma ⟨43, by decide⟩) 0 ∗ semVal ((c : Thread nD τ), .dma ⟨44, by decide⟩) 0
      ∗ semVal ((c : Thread nD τ), .dma ⟨45, by decide⟩) 0 ∗ semVal ((c : Thread nD τ), .dma ⟨46, by decide⟩) 0 ∗ semVal ((c : Thread nD τ), .dma ⟨47, by decide⟩) 0
      ∗ semVal ((c : Thread nD τ), .dma ⟨48, by decide⟩) 0 ∗ semVal ((c : Thread nD τ), .dma ⟨49, by decide⟩) 0 ∗ semVal ((c : Thread nD τ), .dma ⟨50, by decide⟩) 0
      ∗ semVal ((c : Thread nD τ), .dma ⟨51, by decide⟩) 0 ∗ semVal ((c : Thread nD τ), .dma ⟨52, by decide⟩) 0 ∗ semVal ((c : Thread nD τ), .dma ⟨53, by decide⟩) 0
      ∗ semVal ((c : Thread nD τ), .dma ⟨54, by decide⟩) 0 ∗ semVal ((c : Thread nD τ), .dma ⟨55, by decide⟩) 0 ∗ semVal ((c : Thread nD τ), .dma ⟨56, by decide⟩) 0
      ∗ semVal ((c : Thread nD τ), .dma ⟨57, by decide⟩) 0 ∗ semVal ((c : Thread nD τ), .dma ⟨58, by decide⟩) 0 ∗ semVal ((c : Thread nD τ), .dma ⟨59, by decide⟩) 0
      ∗ semVal ((c : Thread nD τ), .dma ⟨60, by decide⟩) 0 ∗ semVal ((c : Thread nD τ), .dma ⟨61, by decide⟩) 0 ∗ semVal ((c : Thread nD τ), .dma ⟨62, by decide⟩) 0
      ∗ semVal ((c : Thread nD τ), .dma ⟨63, by decide⟩) 0 ∗ semVal ((c : Thread nD τ), .dma ⟨224, by decide⟩) 0 ∗ semVal ((c : Thread nD τ), .dma ⟨225, by decide⟩) 0)
      ∗ Idle
      ∗ owes (c : Thread nD τ) 0 W'
      ∗ Arg
      ∗ Res
      ∗ (
        (((slab sM 0).view.loc (c : Thread nD τ)) ↦[(slab sM 0).view.set]{fullShare} gs 0)
      ∗ (((slab sM 1).view.loc (c : Thread nD τ)) ↦[(slab sM 1).view.set]{fullShare} gs 1)
      ∗ (((slab sM 2).view.loc (c : Thread nD τ)) ↦[(slab sM 2).view.set]{fullShare} gs 2)
      ∗ (((slab sM 3).view.loc (c : Thread nD τ)) ↦[(slab sM 3).view.set]{fullShare} gs 3)
      ∗ (((slab sM 4).view.loc (c : Thread nD τ)) ↦[(slab sM 4).view.set]{fullShare} gs 4)
      ∗ (((slab sM 5).view.loc (c : Thread nD τ)) ↦[(slab sM 5).view.set]{fullShare} gs 5)
      ∗ (((slab sM 6).view.loc (c : Thread nD τ)) ↦[(slab sM 6).view.set]{fullShare} gs 6)
      ∗ (((slab sM 7).view.loc (c : Thread nD τ)) ↦[(slab sM 7).view.set]{fullShare} gs 7)
      ∗ (((slab sM 8).view.loc (c : Thread nD τ)) ↦[(slab sM 8).view.set]{fullShare} gs 8)
      ∗ (((slab sM 9).view.loc (c : Thread nD τ)) ↦[(slab sM 9).view.set]{fullShare} gs 9)
      ∗ (((slab sM 10).view.loc (c : Thread nD τ)) ↦[(slab sM 10).view.set]{fullShare} gs 10)
      ∗ (((slab sM 11).view.loc (c : Thread nD τ)) ↦[(slab sM 11).view.set]{fullShare} gs 11)
      ∗ (((slab sM 12).view.loc (c : Thread nD τ)) ↦[(slab sM 12).view.set]{fullShare} gs 12)
      ∗ (((slab sM 13).view.loc (c : Thread nD τ)) ↦[(slab sM 13).view.set]{fullShare} gs 13)
      ∗ (((slab sM 14).view.loc (c : Thread nD τ)) ↦[(slab sM 14).view.set]{fullShare} gs 14)
      ∗ (((slab sM 15).view.loc (c : Thread nD τ)) ↦[(slab sM 15).view.set]{fullShare} gs 15))
      ∗ (
        (((slab rM 0).view.loc (c : Thread nD τ)) ↦[(slab rM 0).view.set]{qX} gr 0)
      ∗ (((slab rM 0).view.loc (c : Thread nD τ)) ↦[(slab rM 0).view.set]{qZ} gr 0)
      ∗ (((slab rM 0).view.loc (c : Thread nD τ)) ↦[(slab rM 0).view.set]{qS} gr 0)
      ∗ (((slab rM 1).view.loc (c : Thread nD τ)) ↦[(slab rM 1).view.set]{qX} gr 1)
      ∗ (((slab rM 1).view.loc (c : Thread nD τ)) ↦[(slab rM 1).view.set]{qZ} gr 1)
      ∗ (((slab rM 1).view.loc (c : Thread nD τ)) ↦[(slab rM 1).view.set]{qS} gr 1)
      ∗ (((slab rM 2).view.loc (c : Thread nD τ)) ↦[(slab rM 2).view.set]{qX} gr 2)
      ∗ (((slab rM 2).view.loc (c : Thread nD τ)) ↦[(slab rM 2).view.set]{qZ} gr 2)
      ∗ (((slab rM 2).view.loc (c : Thread nD τ)) ↦[(slab rM 2).view.set]{qS} gr 2)
      ∗ (((slab rM 3).view.loc (c : Thread nD τ)) ↦[(slab rM 3).view.set]{qX} gr 3)
      ∗ (((slab rM 3).view.loc (c : Thread nD τ)) ↦[(slab rM 3).view.set]{qZ} gr 3)
      ∗ (((slab rM 3).view.loc (c : Thread nD τ)) ↦[(slab rM 3).view.set]{qS} gr 3)
      ∗ (((slab rM 4).view.loc (c : Thread nD τ)) ↦[(slab rM 4).view.set]{qX} gr 4)
      ∗ (((slab rM 4).view.loc (c : Thread nD τ)) ↦[(slab rM 4).view.set]{qZ} gr 4)
      ∗ (((slab rM 4).view.loc (c : Thread nD τ)) ↦[(slab rM 4).view.set]{qS} gr 4)
      ∗ (((slab rM 5).view.loc (c : Thread nD τ)) ↦[(slab rM 5).view.set]{qX} gr 5)
      ∗ (((slab rM 5).view.loc (c : Thread nD τ)) ↦[(slab rM 5).view.set]{qZ} gr 5)
      ∗ (((slab rM 5).view.loc (c : Thread nD τ)) ↦[(slab rM 5).view.set]{qS} gr 5)
      ∗ (((slab rM 6).view.loc (c : Thread nD τ)) ↦[(slab rM 6).view.set]{qX} gr 6)
      ∗ (((slab rM 6).view.loc (c : Thread nD τ)) ↦[(slab rM 6).view.set]{qZ} gr 6)
      ∗ (((slab rM 6).view.loc (c : Thread nD τ)) ↦[(slab rM 6).view.set]{qS} gr 6)
      ∗ (((slab rM 7).view.loc (c : Thread nD τ)) ↦[(slab rM 7).view.set]{qX} gr 7)
      ∗ (((slab rM 7).view.loc (c : Thread nD τ)) ↦[(slab rM 7).view.set]{qZ} gr 7)
      ∗ (((slab rM 7).view.loc (c : Thread nD τ)) ↦[(slab rM 7).view.set]{qS} gr 7)
      ∗ (((slab rM 8).view.loc (c : Thread nD τ)) ↦[(slab rM 8).view.set]{qX} gr 8)
      ∗ (((slab rM 8).view.loc (c : Thread nD τ)) ↦[(slab rM 8).view.set]{qZ} gr 8)
      ∗ (((slab rM 8).view.loc (c : Thread nD τ)) ↦[(slab rM 8).view.set]{qS} gr 8)
      ∗ (((slab rM 9).view.loc (c : Thread nD τ)) ↦[(slab rM 9).view.set]{qX} gr 9)
      ∗ (((slab rM 9).view.loc (c : Thread nD τ)) ↦[(slab rM 9).view.set]{qZ} gr 9)
      ∗ (((slab rM 9).view.loc (c : Thread nD τ)) ↦[(slab rM 9).view.set]{qS} gr 9)
      ∗ (((slab rM 10).view.loc (c : Thread nD τ)) ↦[(slab rM 10).view.set]{qX} gr 10)
      ∗ (((slab rM 10).view.loc (c : Thread nD τ)) ↦[(slab rM 10).view.set]{qZ} gr 10)
      ∗ (((slab rM 10).view.loc (c : Thread nD τ)) ↦[(slab rM 10).view.set]{qS} gr 10)
      ∗ (((slab rM 11).view.loc (c : Thread nD τ)) ↦[(slab rM 11).view.set]{qX} gr 11)
      ∗ (((slab rM 11).view.loc (c : Thread nD τ)) ↦[(slab rM 11).view.set]{qZ} gr 11)
      ∗ (((slab rM 11).view.loc (c : Thread nD τ)) ↦[(slab rM 11).view.set]{qS} gr 11)
      ∗ (((slab rM 12).view.loc (c : Thread nD τ)) ↦[(slab rM 12).view.set]{qX} gr 12)
      ∗ (((slab rM 12).view.loc (c : Thread nD τ)) ↦[(slab rM 12).view.set]{qZ} gr 12)
      ∗ (((slab rM 12).view.loc (c : Thread nD τ)) ↦[(slab rM 12).view.set]{qS} gr 12)
      ∗ (((slab rM 13).view.loc (c : Thread nD τ)) ↦[(slab rM 13).view.set]{qX} gr 13)
      ∗ (((slab rM 13).view.loc (c : Thread nD τ)) ↦[(slab rM 13).view.set]{qZ} gr 13)
      ∗ (((slab rM 13).view.loc (c : Thread nD τ)) ↦[(slab rM 13).view.set]{qS} gr 13)
      ∗ (((slab rM 14).view.loc (c : Thread nD τ)) ↦[(slab rM 14).view.set]{qX} gr 14)
      ∗ (((slab rM 14).view.loc (c : Thread nD τ)) ↦[(slab rM 14).view.set]{qZ} gr 14)
      ∗ (((slab rM 14).view.loc (c : Thread nD τ)) ↦[(slab rM 14).view.set]{qS} gr 14)
      ∗ (((slab rM 15).view.loc (c : Thread nD τ)) ↦[(slab rM 15).view.set]{qX} gr 15)
      ∗ (((slab rM 15).view.loc (c : Thread nD τ)) ↦[(slab rM 15).view.set]{qZ} gr 15)
      ∗ (((slab rM 15).view.loc (c : Thread nD τ)) ↦[(slab rM 15).view.set]{qS} gr 15))
      ∗ (
        (((slab xrM 0).view.loc (c : Thread nD τ)) ↦[(slab xrM 0).view.set]{qX} gx 0)
      ∗ (((slab xrM 0).view.loc (c : Thread nD τ)) ↦[(slab xrM 0).view.set]{qH} gx 0)
      ∗ (((slab xrM 1).view.loc (c : Thread nD τ)) ↦[(slab xrM 1).view.set]{qX} gx 1)
      ∗ (((slab xrM 1).view.loc (c : Thread nD τ)) ↦[(slab xrM 1).view.set]{qH} gx 1)
      ∗ (((slab xrM 2).view.loc (c : Thread nD τ)) ↦[(slab xrM 2).view.set]{qX} gx 2)
      ∗ (((slab xrM 2).view.loc (c : Thread nD τ)) ↦[(slab xrM 2).view.set]{qH} gx 2)
      ∗ (((slab xrM 3).view.loc (c : Thread nD τ)) ↦[(slab xrM 3).view.set]{qX} gx 3)
      ∗ (((slab xrM 3).view.loc (c : Thread nD τ)) ↦[(slab xrM 3).view.set]{qH} gx 3)
      ∗ (((slab xrM 4).view.loc (c : Thread nD τ)) ↦[(slab xrM 4).view.set]{qX} gx 4)
      ∗ (((slab xrM 4).view.loc (c : Thread nD τ)) ↦[(slab xrM 4).view.set]{qH} gx 4)
      ∗ (((slab xrM 5).view.loc (c : Thread nD τ)) ↦[(slab xrM 5).view.set]{qX} gx 5)
      ∗ (((slab xrM 5).view.loc (c : Thread nD τ)) ↦[(slab xrM 5).view.set]{qH} gx 5)
      ∗ (((slab xrM 6).view.loc (c : Thread nD τ)) ↦[(slab xrM 6).view.set]{qX} gx 6)
      ∗ (((slab xrM 6).view.loc (c : Thread nD τ)) ↦[(slab xrM 6).view.set]{qH} gx 6)
      ∗ (((slab xrM 7).view.loc (c : Thread nD τ)) ↦[(slab xrM 7).view.set]{qX} gx 7)
      ∗ (((slab xrM 7).view.loc (c : Thread nD τ)) ↦[(slab xrM 7).view.set]{qH} gx 7)
      ∗ (((slab xrM 8).view.loc (c : Thread nD τ)) ↦[(slab xrM 8).view.set]{qX} gx 8)
      ∗ (((slab xrM 8).view.loc (c : Thread nD τ)) ↦[(slab xrM 8).view.set]{qH} gx 8)
      ∗ (((slab xrM 9).view.loc (c : Thread nD τ)) ↦[(slab xrM 9).view.set]{qX} gx 9)
      ∗ (((slab xrM 9).view.loc (c : Thread nD τ)) ↦[(slab xrM 9).view.set]{qH} gx 9)
      ∗ (((slab xrM 10).view.loc (c : Thread nD τ)) ↦[(slab xrM 10).view.set]{qX} gx 10)
      ∗ (((slab xrM 10).view.loc (c : Thread nD τ)) ↦[(slab xrM 10).view.set]{qH} gx 10)
      ∗ (((slab xrM 11).view.loc (c : Thread nD τ)) ↦[(slab xrM 11).view.set]{qX} gx 11)
      ∗ (((slab xrM 11).view.loc (c : Thread nD τ)) ↦[(slab xrM 11).view.set]{qH} gx 11)
      ∗ (((slab xrM 12).view.loc (c : Thread nD τ)) ↦[(slab xrM 12).view.set]{qX} gx 12)
      ∗ (((slab xrM 12).view.loc (c : Thread nD τ)) ↦[(slab xrM 12).view.set]{qH} gx 12)
      ∗ (((slab xrM 13).view.loc (c : Thread nD τ)) ↦[(slab xrM 13).view.set]{qX} gx 13)
      ∗ (((slab xrM 13).view.loc (c : Thread nD τ)) ↦[(slab xrM 13).view.set]{qH} gx 13)
      ∗ (((slab xrM 14).view.loc (c : Thread nD τ)) ↦[(slab xrM 14).view.set]{qX} gx 14)
      ∗ (((slab xrM 14).view.loc (c : Thread nD τ)) ↦[(slab xrM 14).view.set]{qH} gx 14)
      ∗ (((slab xrM 15).view.loc (c : Thread nD τ)) ↦[(slab xrM 15).view.set]{qX} gx 15)
      ∗ (((slab xrM 15).view.loc (c : Thread nD τ)) ↦[(slab xrM 15).view.set]{qH} gx 15))
      ∗ (
        (((slab zrM 0).view.loc (c : Thread nD τ)) ↦[(slab zrM 0).view.set]{qX} gz 0)
      ∗ (((slab zrM 0).view.loc (c : Thread nD τ)) ↦[(slab zrM 0).view.set]{qH} gz 0)
      ∗ (((slab zrM 1).view.loc (c : Thread nD τ)) ↦[(slab zrM 1).view.set]{qX} gz 1)
      ∗ (((slab zrM 1).view.loc (c : Thread nD τ)) ↦[(slab zrM 1).view.set]{qH} gz 1)
      ∗ (((slab zrM 2).view.loc (c : Thread nD τ)) ↦[(slab zrM 2).view.set]{qX} gz 2)
      ∗ (((slab zrM 2).view.loc (c : Thread nD τ)) ↦[(slab zrM 2).view.set]{qH} gz 2)
      ∗ (((slab zrM 3).view.loc (c : Thread nD τ)) ↦[(slab zrM 3).view.set]{qX} gz 3)
      ∗ (((slab zrM 3).view.loc (c : Thread nD τ)) ↦[(slab zrM 3).view.set]{qH} gz 3)
      ∗ (((slab zrM 4).view.loc (c : Thread nD τ)) ↦[(slab zrM 4).view.set]{qX} gz 4)
      ∗ (((slab zrM 4).view.loc (c : Thread nD τ)) ↦[(slab zrM 4).view.set]{qH} gz 4)
      ∗ (((slab zrM 5).view.loc (c : Thread nD τ)) ↦[(slab zrM 5).view.set]{qX} gz 5)
      ∗ (((slab zrM 5).view.loc (c : Thread nD τ)) ↦[(slab zrM 5).view.set]{qH} gz 5)
      ∗ (((slab zrM 6).view.loc (c : Thread nD τ)) ↦[(slab zrM 6).view.set]{qX} gz 6)
      ∗ (((slab zrM 6).view.loc (c : Thread nD τ)) ↦[(slab zrM 6).view.set]{qH} gz 6)
      ∗ (((slab zrM 7).view.loc (c : Thread nD τ)) ↦[(slab zrM 7).view.set]{qX} gz 7)
      ∗ (((slab zrM 7).view.loc (c : Thread nD τ)) ↦[(slab zrM 7).view.set]{qH} gz 7)
      ∗ (((slab zrM 8).view.loc (c : Thread nD τ)) ↦[(slab zrM 8).view.set]{qX} gz 8)
      ∗ (((slab zrM 8).view.loc (c : Thread nD τ)) ↦[(slab zrM 8).view.set]{qH} gz 8)
      ∗ (((slab zrM 9).view.loc (c : Thread nD τ)) ↦[(slab zrM 9).view.set]{qX} gz 9)
      ∗ (((slab zrM 9).view.loc (c : Thread nD τ)) ↦[(slab zrM 9).view.set]{qH} gz 9)
      ∗ (((slab zrM 10).view.loc (c : Thread nD τ)) ↦[(slab zrM 10).view.set]{qX} gz 10)
      ∗ (((slab zrM 10).view.loc (c : Thread nD τ)) ↦[(slab zrM 10).view.set]{qH} gz 10)
      ∗ (((slab zrM 11).view.loc (c : Thread nD τ)) ↦[(slab zrM 11).view.set]{qX} gz 11)
      ∗ (((slab zrM 11).view.loc (c : Thread nD τ)) ↦[(slab zrM 11).view.set]{qH} gz 11)
      ∗ (((slab zrM 12).view.loc (c : Thread nD τ)) ↦[(slab zrM 12).view.set]{qX} gz 12)
      ∗ (((slab zrM 12).view.loc (c : Thread nD τ)) ↦[(slab zrM 12).view.set]{qH} gz 12)
      ∗ (((slab zrM 13).view.loc (c : Thread nD τ)) ↦[(slab zrM 13).view.set]{qX} gz 13)
      ∗ (((slab zrM 13).view.loc (c : Thread nD τ)) ↦[(slab zrM 13).view.set]{qH} gz 13)
      ∗ (((slab zrM 14).view.loc (c : Thread nD τ)) ↦[(slab zrM 14).view.set]{qX} gz 14)
      ∗ (((slab zrM 14).view.loc (c : Thread nD τ)) ↦[(slab zrM 14).view.set]{qH} gz 14)
      ∗ (((slab zrM 15).view.loc (c : Thread nD τ)) ↦[(slab zrM 15).view.set]{qX} gz 15)
      ∗ (((slab zrM 15).view.loc (c : Thread nD τ)) ↦[(slab zrM 15).view.set]{qH} gz 15))
      ∗ ((lM.view.loc (c : Thread nD τ)) ↦[lM.view.set]{fullShare} fl))
      ⊢ (|={Set.univ}=> iprop(Φ₁ m c ∗ (dats m 0 c).owesAt () (Gen.t0_0 : Fin cfg0.N).succ) : sProp 𝕄) :=
  finish_core m K c W' _ Idle Arg Res _ hLoc hArg hRes (scratch_chain c gs gr gx gz fl)

/-- info: 'Cert.KernelIdeal.A2A.finish' depends on axioms: [propext, Classical.choice, Quot.sound] -/
#guard_msgs in #print axioms finish

end Cert.KernelIdeal.A2A

end
-- ==== Proof.LocChain.lean ====
import proofs.«900640_g7700000000000641_dist_a2a_v7x_xyz2x2x4_y_m4096_n1024_f32_1_alg».proof.Proof.Pieces
import proofs.«900640_g7700000000000641_dist_a2a_v7x_xyz2x2x4_y_m4096_n1024_f32_1_alg».proof.Proof.Close
/-!
# The local semaphores and the input's pieces, one by one

The sixty-six DMA semaphores of the local copies, listed in the order the body's context lists them, and the idle
ones are the device's DMA semaphores that are no chunk cell. The input array is its sixteen chunk windows, its
own-half window and the part no copy reads.
-/

set_option maxRecDepth 65536

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

set_option maxHeartbeats 4000000 in
/-- The sixty-six semaphores of the local copies at zero, in the order the body's context lists them, and the idle
    ones, are the device's local semaphores. -/
theorem loc_chain (c : Dev nD) :
    iprop((
        semVal ((c : Thread nD τ), .dma ⟨0, by decide⟩) 0 ∗ semVal ((c : Thread nD τ), .dma ⟨1, by decide⟩) 0 ∗ semVal ((c : Thread nD τ), .dma ⟨2, by decide⟩) 0
      ∗ semVal ((c : Thread nD τ), .dma ⟨3, by decide⟩) 0 ∗ semVal ((c : Thread nD τ), .dma ⟨4, by decide⟩) 0 ∗ semVal ((c : Thread nD τ), .dma ⟨5, by decide⟩) 0
      ∗ semVal ((c : Thread nD τ), .dma ⟨6, by decide⟩) 0 ∗ semVal ((c : Thread nD τ), .dma ⟨7, by decide⟩) 0 ∗ semVal ((c : Thread nD τ), .dma ⟨8, by decide⟩) 0
      ∗ semVal ((c : Thread nD τ), .dma ⟨9, by decide⟩) 0 ∗ semVal ((c : Thread nD τ), .dma ⟨10, by decide⟩) 0 ∗ semVal ((c : Thread nD τ), .dma ⟨11, by decide⟩) 0
      ∗ semVal ((c : Thread nD τ), .dma ⟨12, by decide⟩) 0 ∗ semVal ((c : Thread nD τ), .dma ⟨13, by decide⟩) 0 ∗ semVal ((c : Thread nD τ), .dma ⟨14, by decide⟩) 0
      ∗ semVal ((c : Thread nD τ), .dma ⟨15, by decide⟩) 0 ∗ semVal ((c : Thread nD τ), .dma ⟨16, by decide⟩) 0 ∗ semVal ((c : Thread nD τ), .dma ⟨17, by decide⟩) 0
      ∗ semVal ((c : Thread nD τ), .dma ⟨18, by decide⟩) 0 ∗ semVal ((c : Thread nD τ), .dma ⟨19, by decide⟩) 0 ∗ semVal ((c : Thread nD τ), .dma ⟨20, by decide⟩) 0
      ∗ semVal ((c : Thread nD τ), .dma ⟨21, by decide⟩) 0 ∗ semVal ((c : Thread nD τ), .dma ⟨22, by decide⟩) 0 ∗ semVal ((c : Thread nD τ), .dma ⟨23, by decide⟩) 0
      ∗ semVal ((c : Thread nD τ), .dma ⟨24, by decide⟩) 0 ∗ semVal ((c : Thread nD τ), .dma ⟨25, by decide⟩) 0 ∗ semVal ((c : Thread nD τ), .dma ⟨26, by decide⟩) 0
      ∗ semVal ((c : Thread nD τ), .dma ⟨27, by decide⟩) 0 ∗ semVal ((c : Thread nD τ), .dma ⟨28, by decide⟩) 0 ∗ semVal ((c : Thread nD τ), .dma ⟨29, by decide⟩) 0
      ∗ semVal ((c : Thread nD τ), .dma ⟨30, by decide⟩) 0 ∗ semVal ((c : Thread nD τ), .dma ⟨31, by decide⟩) 0 ∗ semVal ((c : Thread nD τ), .dma ⟨32, by decide⟩) 0
      ∗ semVal ((c : Thread nD τ), .dma ⟨33, by decide⟩) 0 ∗ semVal ((c : Thread nD τ), .dma ⟨34, by decide⟩) 0 ∗ semVal ((c : Thread nD τ), .dma ⟨35, by decide⟩) 0
      ∗ semVal ((c : Thread nD τ), .dma ⟨36, by decide⟩) 0 ∗ semVal ((c : Thread nD τ), .dma ⟨37, by decide⟩) 0 ∗ semVal ((c : Thread nD τ), .dma ⟨38, by decide⟩) 0
      ∗ semVal ((c : Thread nD τ), .dma ⟨39, by decide⟩) 0 ∗ semVal ((c : Thread nD τ), .dma ⟨40, by decide⟩) 0 ∗ semVal ((c : Thread nD τ), .dma ⟨41, by decide⟩) 0
      ∗ semVal ((c : Thread nD τ), .dma ⟨42, by decide⟩) 0 ∗ semVal ((c : Thread nD τ), .dma ⟨43, by decide⟩) 0 ∗ semVal ((c : Thread nD τ), .dma ⟨44, by decide⟩) 0
      ∗ semVal ((c : Thread nD τ), .dma ⟨45, by decide⟩) 0 ∗ semVal ((c : Thread nD τ), .dma ⟨46, by decide⟩) 0 ∗ semVal ((c : Thread nD τ), .dma ⟨47, by decide⟩) 0
      ∗ semVal ((c : Thread nD τ), .dma ⟨48, by decide⟩) 0 ∗ semVal ((c : Thread nD τ), .dma ⟨49, by decide⟩) 0 ∗ semVal ((c : Thread nD τ), .dma ⟨50, by decide⟩) 0
      ∗ semVal ((c : Thread nD τ), .dma ⟨51, by decide⟩) 0 ∗ semVal ((c : Thread nD τ), .dma ⟨52, by decide⟩) 0 ∗ semVal ((c : Thread nD τ), .dma ⟨53, by decide⟩) 0
      ∗ semVal ((c : Thread nD τ), .dma ⟨54, by decide⟩) 0 ∗ semVal ((c : Thread nD τ), .dma ⟨55, by decide⟩) 0 ∗ semVal ((c : Thread nD τ), .dma ⟨56, by decide⟩) 0
      ∗ semVal ((c : Thread nD τ), .dma ⟨57, by decide⟩) 0 ∗ semVal ((c : Thread nD τ), .dma ⟨58, by decide⟩) 0 ∗ semVal ((c : Thread nD τ), .dma ⟨59, by decide⟩) 0
      ∗ semVal ((c : Thread nD τ), .dma ⟨60, by decide⟩) 0 ∗ semVal ((c : Thread nD τ), .dma ⟨61, by decide⟩) 0 ∗ semVal ((c : Thread nD τ), .dma ⟨62, by decide⟩) 0
      ∗ semVal ((c : Thread nD τ), .dma ⟨63, by decide⟩) 0 ∗ semVal ((c : Thread nD τ), .dma ⟨224, by decide⟩) 0 ∗ semVal ((c : Thread nD τ), .dma ⟨225, by decide⟩) 0)
      ∗ idle (F := F) c) ⊢ localSems (F := F) c := by
  rw [localSems_split, bigSep_eq_bigSepL usedL usedL_nodup]
  exact Entails.rfl

/-! ## The input's pieces, one by one -/

/-- The sixteen chunk windows of the input, its own-half window and the part no copy reads are the input array. -/
theorem arg_chain (c : Dev nD) :
    iprop(
        ((aWin c 0).view.loc (c : Thread nD τ) ↦[(aWin c 0).view.set]{fullShare} m ((c : Thread nD τ).loc main_arg0))
      ∗ ((aWin c 1).view.loc (c : Thread nD τ) ↦[(aWin c 1).view.set]{fullShare} m ((c : Thread nD τ).loc main_arg0))
      ∗ ((aWin c 2).view.loc (c : Thread nD τ) ↦[(aWin c 2).view.set]{fullShare} m ((c : Thread nD τ).loc main_arg0))
      ∗ ((aWin c 3).view.loc (c : Thread nD τ) ↦[(aWin c 3).view.set]{fullShare} m ((c : Thread nD τ).loc main_arg0))
      ∗ ((aWin c 4).view.loc (c : Thread nD τ) ↦[(aWin c 4).view.set]{fullShare} m ((c : Thread nD τ).loc main_arg0))
      ∗ ((aWin c 5).view.loc (c : Thread nD τ) ↦[(aWin c 5).view.set]{fullShare} m ((c : Thread nD τ).loc main_arg0))
      ∗ ((aWin c 6).view.loc (c : Thread nD τ) ↦[(aWin c 6).view.set]{fullShare} m ((c : Thread nD τ).loc main_arg0))
      ∗ ((aWin c 7).view.loc (c : Thread nD τ) ↦[(aWin c 7).view.set]{fullShare} m ((c : Thread nD τ).loc main_arg0))
      ∗ ((aWin c 8).view.loc (c : Thread nD τ) ↦[(aWin c 8).view.set]{fullShare} m ((c : Thread nD τ).loc main_arg0))
      ∗ ((aWin c 9).view.loc (c : Thread nD τ) ↦[(aWin c 9).view.set]{fullShare} m ((c : Thread nD τ).loc main_arg0))
      ∗ ((aWin c 10).view.loc (c : Thread nD τ) ↦[(aWin c 10).view.set]{fullShare} m ((c : Thread nD τ).loc main_arg0))
      ∗ ((aWin c 11).view.loc (c : Thread nD τ) ↦[(aWin c 11).view.set]{fullShare} m ((c : Thread nD τ).loc main_arg0))
      ∗ ((aWin c 12).view.loc (c : Thread nD τ) ↦[(aWin c 12).view.set]{fullShare} m ((c : Thread nD τ).loc main_arg0))
      ∗ ((aWin c 13).view.loc (c : Thread nD τ) ↦[(aWin c 13).view.set]{fullShare} m ((c : Thread nD τ).loc main_arg0))
      ∗ ((aWin c 14).view.loc (c : Thread nD τ) ↦[(aWin c 14).view.set]{fullShare} m ((c : Thread nD τ).loc main_arg0))
      ∗ ((aWin c 15).view.loc (c : Thread nD τ) ↦[(aWin c 15).view.set]{fullShare} m ((c : Thread nD τ).loc main_arg0))
      ∗ ((aOwn c).view.loc (c : Thread nD τ) ↦[(aOwn c).view.set]{fullShare} m ((c : Thread nD τ).loc main_arg0))
      ∗ (aM.view.loc (c : Thread nD τ) ↦[aRest c]{fullShare} m ((c : Thread nD τ).loc main_arg0))) ⊢ (argPts m c : sProp 𝕄) := by
  refine Entails.trans (Entails.of_eq ?_) (Entails.of_eq (arg_pieces_eq m c).symm)
  simp only [close_fin16, close_sep_assoc]

/-- info: 'Cert.KernelIdeal.A2A.arg_chain' depends on axioms: [propext, Classical.choice, Quot.sound] -/
#guard_msgs in #print axioms arg_chain

/-- info: 'Cert.KernelIdeal.A2A.loc_chain' depends on axioms: [propext, Classical.choice, Quot.sound] -/
#guard_msgs in #print axioms loc_chain

end Cert.KernelIdeal.A2A

end
-- ==== Proof.Body.lean ====
import proofs.«900640_g7700000000000641_dist_a2a_v7x_xyz2x2x4_y_m4096_n1024_f32_1_alg».proof.Proof.Ghost
import proofs.«900640_g7700000000000641_dist_a2a_v7x_xyz2x2x4_y_m4096_n1024_f32_1_alg».proof.Proof.Windows
import proofs.«900640_g7700000000000641_dist_a2a_v7x_xyz2x2x4_y_m4096_n1024_f32_1_alg».proof.Proof.Landing
import proofs.«900640_g7700000000000641_dist_a2a_v7x_xyz2x2x4_y_m4096_n1024_f32_1_alg».proof.Proof.Levels
import proofs.«900640_g7700000000000641_dist_a2a_v7x_xyz2x2x4_y_m4096_n1024_f32_1_alg».proof.Proof.Tables
import proofs.«900640_g7700000000000641_dist_a2a_v7x_xyz2x2x4_y_m4096_n1024_f32_1_alg».proof.Proof.Tables2
import proofs.«900640_g7700000000000641_dist_a2a_v7x_xyz2x2x4_y_m4096_n1024_f32_1_alg».proof.Proof.Tables3
import proofs.«900640_g7700000000000641_dist_a2a_v7x_xyz2x2x4_y_m4096_n1024_f32_1_alg».proof.Proof.Tables4
import proofs.«900640_g7700000000000641_dist_a2a_v7x_xyz2x2x4_y_m4096_n1024_f32_1_alg».proof.Proof.Tables5
import proofs.«900640_g7700000000000641_dist_a2a_v7x_xyz2x2x4_y_m4096_n1024_f32_1_alg».proof.Proof.EndFacts
import proofs.«900640_g7700000000000641_dist_a2a_v7x_xyz2x2x4_y_m4096_n1024_f32_1_alg».proof.Proof.Restate
import proofs.«900640_g7700000000000641_dist_a2a_v7x_xyz2x2x4_y_m4096_n1024_f32_1_alg».proof.Proof.Above
import proofs.«900640_g7700000000000641_dist_a2a_v7x_xyz2x2x4_y_m4096_n1024_f32_1_alg».proof.Proof.Canon
import proofs.«900640_g7700000000000641_dist_a2a_v7x_xyz2x2x4_y_m4096_n1024_f32_1_alg».proof.Proof.BodyCtx
import proofs.«900640_g7700000000000641_dist_a2a_v7x_xyz2x2x4_y_m4096_n1024_f32_1_alg».proof.Proof.Pieces
import proofs.«900640_g7700000000000641_dist_a2a_v7x_xyz2x2x4_y_m4096_n1024_f32_1_alg».proof.Proof.Finish
import proofs.«900640_g7700000000000641_dist_a2a_v7x_xyz2x2x4_y_m4096_n1024_f32_1_alg».proof.Proof.LocChain
import proofs.«900640_g7700000000000641_dist_a2a_v7x_xyz2x2x4_y_m4096_n1024_f32_1_alg».proof.Proof.Value
import proofs.«900640_g7700000000000641_dist_a2a_v7x_xyz2x2x4_y_m4096_n1024_f32_1_alg».proof.Proof.Gen.KernelIdeal.Skeleton
import Idealize.ShloMosaic.Lib.Tactic

/-!
# One device's body

From what a device holds when its body starts — the cells' invariants, its positions, tokens and credits, what it
owes, its semaphores at zero, the input and the result in the pieces the copies name, the scratch buffers chunk by
chunk — the body runs to its return and leaves the input as it was, the result at its value, every scratch chunk
whole again and every semaphore at zero.

The run follows the program. Sixteen loads and the own-half load start; the three barrier signals hand each partner
the landing windows it will write into, and the barrier wait brings the partners' windows back. Then, chunk by chunk:
the load's wait and the first hop; the first hop's arrival, the two second hops and the store of the received chunk;
the second hops' arrivals, their stores and the one fourth hop; at the end every departure's wait, the fourth
quarter's arrivals and the stores' waits. What the device owes is kept in the order in which it will be paid, last
debt first, so that each payment takes the last summand off the sum.
-/

set_option maxRecDepth 65536

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]
local notation "𝕄" => MT nD τ sig Unit (Elt F) ℕ UU ℕ
variable (m : (ℓ : Loc nD τ sig) → Buf (Elt F) ℓ)

/-! ## The schedule's tables, as equations with the entry on the left

A cell's payload is read in the owner's form at the owner's wait and in the payer's form at the copy that lands
there; where both equations match, the payer's form is taken first. -/

attribute [local sl_rounds] duties_bar duties_fam amount_bar amount_fam expect_bar expect_fam
attribute [local sl_rounds] pay_ys_own pay_yr_own pay_xs_own pay_xr_own_sw pay_zs_own pay_zr_own_sw pay_qs_own_0 pay_qs_own_1 pay_qs_own_2 pay_qs_own_3 pay_qs_own_4 pay_qs_own_5 pay_qs_own_6 pay_qs_own_7 pay_qs_own_8 pay_qs_own_9 pay_qs_own_10 pay_qs_own_11 pay_qs_own_12 pay_qs_own_13 pay_qs_own_14 pay_qs_own_15 pay_qr_own rest_bar_own_flat
attribute [local sl_rounds high] pay_yr_paid pay_xr_paid pay_zr_paid pay_qr_paid_0 pay_qr_paid_1 pay_qr_paid_2 pay_qr_paid_3 pay_qr_paid_4 pay_qr_paid_5 pay_qr_paid_6 pay_qr_paid_7 pay_qr_paid_8 pay_qr_paid_9 pay_qr_paid_10 pay_qr_paid_11 pay_qr_paid_12 pay_qr_paid_13 pay_qr_paid_14 pay_qr_paid_15 pay_bar_y_paid pay_bar_x_paid_flat pay_bar_z_paid_flat
attribute [local sl_rounds] yP_yP xP_xP zP_zP

set_option maxHeartbeats 8000000
set_option sl_exec.dmaWindow true
set_option sl_exec.dmaWindowSet true
set_option sl_exec.askDisjointFirst true

/-- One stretch of the body: the side conditions are a level comparison (a wait while something is still owed), a
    separation of two windows, or a device id the program computes. -/
local macro "a2a_run " c:term : tactic => `(tactic| sl_exec_parts (disch := first | above_tac | a2a_disj $c | a2a_dev))

/-- The body of device `c`, from its starting context and the semaphores the body never touches. -/
theorem sound_body (K : Dev nD × CK → ℕ) (c : Dev nD) (W : Waits sig Unit) (fo : S8192x1024.Idx → Elt F .f32)
    (fs fr fx fz : S16x64x1024.Idx → Elt F .f32) (fl : S4096x1024.Idx → Elt F .f32) :
    iprop(bodyCtx m K c W fo fs fr fx fz fl ∗ idle (F := F) c)
    ⊢ wp frame (wpE (defs₀ (F := F)) 𝒱₀ (c : Thread nD τ) none) Set.univ (Gen.bodyAt0 t0_0)
        (fun _ => iprop(Φ₁ m c ∗ (dats m 0 c).owesAt () (t0_0 : Fin cfg0.N).succ)) := by
  unfold bodyCtx Gen.bodyAt0
  iintro ⟨⟨#Hlev, #I0, #Iby, #Ibx, #Ibz, #Rby, #Rbx, #Rbz, Hat0, Tby, Tbx, Tbz, Cb, HO, S0, Ha0, Hs0, S1, Ha1, Hs1, S2, Ha2, Hs2, S3, Ha3, Hs3, S4, Ha4, Hs4, S5, Ha5, Hs5, S6, Ha6, Hs6, S7, Ha7, Hs7, S8, Ha8, Hs8, S9, Ha9, Hs9, S10, Ha10, Hs10, S11, Ha11, Hs11, S12, Ha12, Hs12, S13, Ha13, Hs13, S14, Ha14, Hs14, S15, Ha15, Hs15, S224, Haown, Hl, Hr0, Hr1, Hr2, Hr3, Hr4, Hr5, Hr6, Hr7, Hr8, Hr9, Hr10, Hr11, Hr12, Hr13, Hr14, Hr15, Hx0, Hx1, Hx2, Hx3, Hx4, Hx5, Hx6, Hx7, Hx8, Hx9, Hx10, Hx11, Hx12, Hx13, Hx14, Hx15, HoQ0, HoQ2, HoQ4, HoQ6, HoQ8, HoQ10, HoQ12, HoQ14, Hz0, Hz1, Hz2, Hz3, Hz4, Hz5, Hz6, Hz7, Hz8, Hz9, Hz10, Hz11, Hz12, Hz13, Hz14, Hz15, HoQ1, HoQ3, HoQ5, HoQ7, HoQ9, HoQ11, HoQ13, HoQ15, Rest⟩, Hidle⟩
  have hmw : ∀ (sm : SemLoc sig) (u : Unit) (O : CellTallies nD τ sig Unit), Above (lv ((c : Thread nD τ), sm) u) O → (levAts L lv : sProp 𝕄) ⊢ MayWait (c : Thread nD τ) sm u O := fun sm u O h => mayWait_above c sm O h
  -- what is owed, restated with the last debt first
  have hOeq : (tallyAt (fcell (yP c) Fam.yr 0) () N + tallyAt (fcell (yP c) Fam.yr 1) () N + tallyAt (fcell (yP c) Fam.yr 2) () N + tallyAt (fcell (yP c) Fam.yr 3) () N + tallyAt (fcell (yP c) Fam.yr 4) () N + tallyAt (fcell (yP c) Fam.yr 5) () N + tallyAt (fcell (yP c) Fam.yr 6) () N + tallyAt (fcell (yP c) Fam.yr 7) () N + tallyAt (fcell (yP c) Fam.yr 8) () N + tallyAt (fcell (yP c) Fam.yr 9) () N + tallyAt (fcell (yP c) Fam.yr 10) () N + tallyAt (fcell (yP c) Fam.yr 11) () N + tallyAt (fcell (yP c) Fam.yr 12) () N + tallyAt (fcell (yP c) Fam.yr 13) () N + tallyAt (fcell (yP c) Fam.yr 14) () N + tallyAt (fcell (yP c) Fam.yr 15) () N + tallyAt (fcell (xP c) Fam.xr 0) () N + tallyAt (fcell (zP c) Fam.zr 0) () N + tallyAt (fcell (xP c) Fam.xr 1) () N + tallyAt (fcell (zP c) Fam.zr 1) () N + tallyAt (fcell (xP c) Fam.xr 2) () N + tallyAt (fcell (zP c) Fam.zr 2) () N + tallyAt (fcell (xP c) Fam.xr 3) () N + tallyAt (fcell (zP c) Fam.zr 3) () N + tallyAt (fcell (xP c) Fam.xr 4) () N + tallyAt (fcell (zP c) Fam.zr 4) () N + tallyAt (fcell (xP c) Fam.xr 5) () N + tallyAt (fcell (zP c) Fam.zr 5) () N + tallyAt (fcell (xP c) Fam.xr 6) () N + tallyAt (fcell (zP c) Fam.zr 6) () N + tallyAt (fcell (xP c) Fam.xr 7) () N + tallyAt (fcell (zP c) Fam.zr 7) () N + tallyAt (fcell (xP c) Fam.xr 8) () N + tallyAt (fcell (zP c) Fam.zr 8) () N + tallyAt (fcell (xP c) Fam.xr 9) () N + tallyAt (fcell (zP c) Fam.zr 9) () N + tallyAt (fcell (xP c) Fam.xr 10) () N + tallyAt (fcell (zP c) Fam.zr 10) () N + tallyAt (fcell (xP c) Fam.xr 11) () N + tallyAt (fcell (zP c) Fam.zr 11) () N + tallyAt (fcell (xP c) Fam.xr 12) () N + tallyAt (fcell (zP c) Fam.zr 12) () N + tallyAt (fcell (xP c) Fam.xr 13) () N + tallyAt (fcell (zP c) Fam.zr 13) () N + tallyAt (fcell (xP c) Fam.xr 14) () N + tallyAt (fcell (zP c) Fam.zr 14) () N + tallyAt (fcell (xP c) Fam.xr 15) () N + tallyAt (fcell (zP c) Fam.zr 15) () N + tallyAt (fcell (xP c) Fam.qr 0) () N + tallyAt (fcell (zP c) Fam.qr 1) () N + tallyAt (fcell (xP c) Fam.qr 2) () N + tallyAt (fcell (zP c) Fam.qr 3) () N + tallyAt (fcell (xP c) Fam.qr 4) () N + tallyAt (fcell (zP c) Fam.qr 5) () N + tallyAt (fcell (xP c) Fam.qr 6) () N + tallyAt (fcell (zP c) Fam.qr 7) () N + tallyAt (fcell (xP c) Fam.qr 8) () N + tallyAt (fcell (zP c) Fam.qr 9) () N + tallyAt (fcell (xP c) Fam.qr 10) () N + tallyAt (fcell (zP c) Fam.qr 11) () N + tallyAt (fcell (xP c) Fam.qr 12) () N + tallyAt (fcell (zP c) Fam.qr 13) () N + tallyAt (fcell (xP c) Fam.qr 14) () N + tallyAt (fcell (zP c) Fam.qr 15) () N + tallyAt (barCell (zP c)) () 1 + tallyAt (barCell (xP c)) () 1 + tallyAt (barCell (yP c)) () 1 : CellTallies nD τ sig Unit) = tallyAt (fcell (zP c) Fam.qr 15) () N + tallyAt (fcell (xP c) Fam.qr 14) () N + tallyAt (fcell (zP c) Fam.qr 13) () N + tallyAt (fcell (xP c) Fam.qr 12) () N + tallyAt (fcell (zP c) Fam.qr 11) () N + tallyAt (fcell (xP c) Fam.qr 10) () N + tallyAt (fcell (zP c) Fam.qr 9) () N + tallyAt (fcell (xP c) Fam.qr 8) () N + tallyAt (fcell (zP c) Fam.qr 7) () N + tallyAt (fcell (xP c) Fam.qr 6) () N + tallyAt (fcell (zP c) Fam.qr 5) () N + tallyAt (fcell (xP c) Fam.qr 4) () N + tallyAt (fcell (zP c) Fam.qr 3) () N + tallyAt (fcell (xP c) Fam.qr 2) () N + tallyAt (fcell (zP c) Fam.qr 1) () N + tallyAt (fcell (xP c) Fam.qr 0) () N + tallyAt (fcell (zP c) Fam.zr 15) () N + tallyAt (fcell (xP c) Fam.xr 15) () N + tallyAt (fcell (zP c) Fam.zr 14) () N + tallyAt (fcell (xP c) Fam.xr 14) () N + tallyAt (fcell (zP c) Fam.zr 13) () N + tallyAt (fcell (xP c) Fam.xr 13) () N + tallyAt (fcell (zP c) Fam.zr 12) () N + tallyAt (fcell (xP c) Fam.xr 12) () N + tallyAt (fcell (zP c) Fam.zr 11) () N + tallyAt (fcell (xP c) Fam.xr 11) () N + tallyAt (fcell (zP c) Fam.zr 10) () N + tallyAt (fcell (xP c) Fam.xr 10) () N + tallyAt (fcell (zP c) Fam.zr 9) () N + tallyAt (fcell (xP c) Fam.xr 9) () N + tallyAt (fcell (zP c) Fam.zr 8) () N + tallyAt (fcell (xP c) Fam.xr 8) () N + tallyAt (fcell (zP c) Fam.zr 7) () N + tallyAt (fcell (xP c) Fam.xr 7) () N + tallyAt (fcell (zP c) Fam.zr 6) () N + tallyAt (fcell (xP c) Fam.xr 6) () N + tallyAt (fcell (zP c) Fam.zr 5) () N + tallyAt (fcell (xP c) Fam.xr 5) () N + tallyAt (fcell (zP c) Fam.zr 4) () N + tallyAt (fcell (xP c) Fam.xr 4) () N + tallyAt (fcell (zP c) Fam.zr 3) () N + tallyAt (fcell (xP c) Fam.xr 3) () N + tallyAt (fcell (zP c) Fam.zr 2) () N + tallyAt (fcell (xP c) Fam.xr 2) () N + tallyAt (fcell (zP c) Fam.zr 1) () N + tallyAt (fcell (xP c) Fam.xr 1) () N + tallyAt (fcell (zP c) Fam.zr 0) () N + tallyAt (fcell (xP c) Fam.xr 0) () N + tallyAt (fcell (yP c) Fam.yr 15) () N + tallyAt (fcell (yP c) Fam.yr 14) () N + tallyAt (fcell (yP c) Fam.yr 13) () N + tallyAt (fcell (yP c) Fam.yr 12) () N + tallyAt (fcell (yP c) Fam.yr 11) () N + tallyAt (fcell (yP c) Fam.yr 10) () N + tallyAt (fcell (yP c) Fam.yr 9) () N + tallyAt (fcell (yP c) Fam.yr 8) () N + tallyAt (fcell (yP c) Fam.yr 7) () N + tallyAt (fcell (yP c) Fam.yr 6) () N + tallyAt (fcell (yP c) Fam.yr 5) () N + tallyAt (fcell (yP c) Fam.yr 4) () N + tallyAt (fcell (yP c) Fam.yr 3) () N + tallyAt (fcell (yP c) Fam.yr 2) () N + tallyAt (fcell (yP c) Fam.yr 1) () N + tallyAt (fcell (yP c) Fam.yr 0) () N + tallyAt (barCell (zP c)) () 1 + tallyAt (barCell (xP c)) () 1 + tallyAt (barCell (yP c)) () 1 := by ac_rfl
  ihave HO := (Entails.of_eq (congrArg (fun O => (owes (c : Thread nD τ) O W : sProp 𝕄)) hOeq)) $$ HO
  clear hOeq
  sl_unfold [cc0_body]
  -- the loads, the three barrier signals, the barrier wait, the first load's wait
  a2a_run c
  -- the partners' landing windows, one by one
  have hb := rest_bar_own_flat m c
  rw [duties_bar, Finset.sdiff_empty] at hb
  ihave Hb := (Entails.of_eq hb) $$ Hat0_pay1
  clear hb
  icases Hb with ⟨⟨%gr0, Gr0⟩, ⟨%gr1, Gr1⟩, ⟨%gr2, Gr2⟩, ⟨%gr3, Gr3⟩, ⟨%gr4, Gr4⟩, ⟨%gr5, Gr5⟩, ⟨%gr6, Gr6⟩, ⟨%gr7, Gr7⟩, ⟨%gr8, Gr8⟩, ⟨%gr9, Gr9⟩, ⟨%gr10, Gr10⟩, ⟨%gr11, Gr11⟩, ⟨%gr12, Gr12⟩, ⟨%gr13, Gr13⟩, ⟨%gr14, Gr14⟩, ⟨%gr15, Gr15⟩, ⟨%gx0, Gx0⟩, ⟨%gx1, Gx1⟩, ⟨%gx2, Gx2⟩, ⟨%gx3, Gx3⟩, ⟨%gx4, Gx4⟩, ⟨%gx5, Gx5⟩, ⟨%gx6, Gx6⟩, ⟨%gx7, Gx7⟩, ⟨%gx8, Gx8⟩, ⟨%gx9, Gx9⟩, ⟨%gx10, Gx10⟩, ⟨%gx11, Gx11⟩, ⟨%gx12, Gx12⟩, ⟨%gx13, Gx13⟩, ⟨%gx14, Gx14⟩, ⟨%gx15, Gx15⟩, ⟨%gox0, GoX0⟩, ⟨%gox2, GoX2⟩, ⟨%gox4, GoX4⟩, ⟨%gox6, GoX6⟩, ⟨%gox8, GoX8⟩, ⟨%gox10, GoX10⟩, ⟨%gox12, GoX12⟩, ⟨%gox14, GoX14⟩, ⟨%gz0, Gz0⟩, ⟨%gz1, Gz1⟩, ⟨%gz2, Gz2⟩, ⟨%gz3, Gz3⟩, ⟨%gz4, Gz4⟩, ⟨%gz5, Gz5⟩, ⟨%gz6, Gz6⟩, ⟨%gz7, Gz7⟩, ⟨%gz8, Gz8⟩, ⟨%gz9, Gz9⟩, ⟨%gz10, Gz10⟩, ⟨%gz11, Gz11⟩, ⟨%gz12, Gz12⟩, ⟨%gz13, Gz13⟩, ⟨%gz14, Gz14⟩, ⟨%gz15, Gz15⟩, ⟨%goz1, GoZ1⟩, ⟨%goz3, GoZ3⟩, ⟨%goz5, GoZ5⟩, ⟨%goz7, GoZ7⟩, ⟨%goz9, GoZ9⟩, ⟨%goz11, GoZ11⟩, ⟨%goz13, GoZ13⟩, ⟨%goz15, GoZ15⟩⟩
  -- per chunk: the loaded chunk at its contents, the first hop, the next load's wait
  icases Rest with ⟨#Iys0, #Jy0, #Rys0, #RJy0, Tys0, Tyr0, Rest⟩
  ihave Hs0 := (Entails.of_eq (sbuf_loaded m c 0 fs (sound_body.sl.dma0 m c) rfl)) $$ Hs0
  a2a_run c
  icases Rest with ⟨#Iys1, #Jy1, #Rys1, #RJy1, Tys1, Tyr1, Rest⟩
  ihave Hs1 := (Entails.of_eq (sbuf_loaded m c 1 fs (sound_body.sl.dma0_1 m c) rfl)) $$ Hs1
  a2a_run c
  icases Rest with ⟨#Iys2, #Jy2, #Rys2, #RJy2, Tys2, Tyr2, Rest⟩
  ihave Hs2 := (Entails.of_eq (sbuf_loaded m c 2 fs (sound_body.sl.dma0_2 m c) rfl)) $$ Hs2
  a2a_run c
  icases Rest with ⟨#Iys3, #Jy3, #Rys3, #RJy3, Tys3, Tyr3, Rest⟩
  ihave Hs3 := (Entails.of_eq (sbuf_loaded m c 3 fs (sound_body.sl.dma0_3 m c) rfl)) $$ Hs3
  a2a_run c
  icases Rest with ⟨#Iys4, #Jy4, #Rys4, #RJy4, Tys4, Tyr4, Rest⟩
  ihave Hs4 := (Entails.of_eq (sbuf_loaded m c 4 fs (sound_body.sl.dma0_4 m c) rfl)) $$ Hs4
  a2a_run c
  icases Rest with ⟨#Iys5, #Jy5, #Rys5, #RJy5, Tys5, Tyr5, Rest⟩
  ihave Hs5 := (Entails.of_eq (sbuf_loaded m c 5 fs (sound_body.sl.dma0_5 m c) rfl)) $$ Hs5
  a2a_run c
  icases Rest with ⟨#Iys6, #Jy6, #Rys6, #RJy6, Tys6, Tyr6, Rest⟩
  ihave Hs6 := (Entails.of_eq (sbuf_loaded m c 6 fs (sound_body.sl.dma0_6 m c) rfl)) $$ Hs6
  a2a_run c
  icases Rest with ⟨#Iys7, #Jy7, #Rys7, #RJy7, Tys7, Tyr7, Rest⟩
  ihave Hs7 := (Entails.of_eq (sbuf_loaded m c 7 fs (sound_body.sl.dma0_7 m c) rfl)) $$ Hs7
  a2a_run c
  icases Rest with ⟨#Iys8, #Jy8, #Rys8, #RJy8, Tys8, Tyr8, Rest⟩
  ihave Hs8 := (Entails.of_eq (sbuf_loaded m c 8 fs (sound_body.sl.dma0_8 m c) rfl)) $$ Hs8
  a2a_run c
  icases Rest with ⟨#Iys9, #Jy9, #Rys9, #RJy9, Tys9, Tyr9, Rest⟩
  ihave Hs9 := (Entails.of_eq (sbuf_loaded m c 9 fs (sound_body.sl.dma0_9 m c) rfl)) $$ Hs9
  a2a_run c
  icases Rest with ⟨#Iys10, #Jy10, #Rys10, #RJy10, Tys10, Tyr10, Rest⟩
  ihave Hs10 := (Entails.of_eq (sbuf_loaded m c 10 fs (sound_body.sl.dma0_10 m c) rfl)) $$ Hs10
  a2a_run c
  icases Rest with ⟨#Iys11, #Jy11, #Rys11, #RJy11, Tys11, Tyr11, Rest⟩
  ihave Hs11 := (Entails.of_eq (sbuf_loaded m c 11 fs (sound_body.sl.dma0_11 m c) rfl)) $$ Hs11
  a2a_run c
  icases Rest with ⟨#Iys12, #Jy12, #Rys12, #RJy12, Tys12, Tyr12, Rest⟩
  ihave Hs12 := (Entails.of_eq (sbuf_loaded m c 12 fs (sound_body.sl.dma0_12 m c) rfl)) $$ Hs12
  a2a_run c
  icases Rest with ⟨#Iys13, #Jy13, #Rys13, #RJy13, Tys13, Tyr13, Rest⟩
  ihave Hs13 := (Entails.of_eq (sbuf_loaded m c 13 fs (sound_body.sl.dma0_13 m c) rfl)) $$ Hs13
  a2a_run c
  icases Rest with ⟨#Iys14, #Jy14, #Rys14, #RJy14, Tys14, Tyr14, Rest⟩
  ihave Hs14 := (Entails.of_eq (sbuf_loaded m c 14 fs (sound_body.sl.dma0_14 m c) rfl)) $$ Hs14
  a2a_run c
  icases Rest with ⟨#Iys15, #Jy15, #Rys15, #RJy15, Tys15, Tyr15, Rest⟩
  ihave Hs15 := (Entails.of_eq (sbuf_loaded m c 15 fs (sound_body.sl.dma0_15 m c) rfl)) $$ Hs15
  a2a_run c
  -- the own half's load lands and is stored
  icases Rest with ⟨S225, Hown, Rest⟩
  a2a_run c
  -- per chunk: the first hop's arrival, the two second hops, the store of the received chunk
  icases Rest with ⟨#Iyr0, Ayr0, Cyr0, #Ixs0, #Jx0, #Rxs0, #RJx0, Txs0, Txr0, #Izs0, #Jz0, #Rzs0, #RJz0, Tzs0, Tzr0, S16, HoY0, Rest⟩
  a2a_run c
  icases Rest with ⟨#Iyr1, Ayr1, Cyr1, #Ixs1, #Jx1, #Rxs1, #RJx1, Txs1, Txr1, #Izs1, #Jz1, #Rzs1, #RJz1, Tzs1, Tzr1, S17, HoY1, Rest⟩
  a2a_run c
  icases Rest with ⟨#Iyr2, Ayr2, Cyr2, #Ixs2, #Jx2, #Rxs2, #RJx2, Txs2, Txr2, #Izs2, #Jz2, #Rzs2, #RJz2, Tzs2, Tzr2, S18, HoY2, Rest⟩
  a2a_run c
  icases Rest with ⟨#Iyr3, Ayr3, Cyr3, #Ixs3, #Jx3, #Rxs3, #RJx3, Txs3, Txr3, #Izs3, #Jz3, #Rzs3, #RJz3, Tzs3, Tzr3, S19, HoY3, Rest⟩
  a2a_run c
  icases Rest with ⟨#Iyr4, Ayr4, Cyr4, #Ixs4, #Jx4, #Rxs4, #RJx4, Txs4, Txr4, #Izs4, #Jz4, #Rzs4, #RJz4, Tzs4, Tzr4, S20, HoY4, Rest⟩
  a2a_run c
  icases Rest with ⟨#Iyr5, Ayr5, Cyr5, #Ixs5, #Jx5, #Rxs5, #RJx5, Txs5, Txr5, #Izs5, #Jz5, #Rzs5, #RJz5, Tzs5, Tzr5, S21, HoY5, Rest⟩
  a2a_run c
  icases Rest with ⟨#Iyr6, Ayr6, Cyr6, #Ixs6, #Jx6, #Rxs6, #RJx6, Txs6, Txr6, #Izs6, #Jz6, #Rzs6, #RJz6, Tzs6, Tzr6, S22, HoY6, Rest⟩
  a2a_run c
  icases Rest with ⟨#Iyr7, Ayr7, Cyr7, #Ixs7, #Jx7, #Rxs7, #RJx7, Txs7, Txr7, #Izs7, #Jz7, #Rzs7, #RJz7, Tzs7, Tzr7, S23, HoY7, Rest⟩
  a2a_run c
  icases Rest with ⟨#Iyr8, Ayr8, Cyr8, #Ixs8, #Jx8, #Rxs8, #RJx8, Txs8, Txr8, #Izs8, #Jz8, #Rzs8, #RJz8, Tzs8, Tzr8, S24, HoY8, Rest⟩
  a2a_run c
  icases Rest with ⟨#Iyr9, Ayr9, Cyr9, #Ixs9, #Jx9, #Rxs9, #RJx9, Txs9, Txr9, #Izs9, #Jz9, #Rzs9, #RJz9, Tzs9, Tzr9, S25, HoY9, Rest⟩
  a2a_run c
  icases Rest with ⟨#Iyr10, Ayr10, Cyr10, #Ixs10, #Jx10, #Rxs10, #RJx10, Txs10, Txr10, #Izs10, #Jz10, #Rzs10, #RJz10, Tzs10, Tzr10, S26, HoY10, Rest⟩
  a2a_run c
  icases Rest with ⟨#Iyr11, Ayr11, Cyr11, #Ixs11, #Jx11, #Rxs11, #RJx11, Txs11, Txr11, #Izs11, #Jz11, #Rzs11, #RJz11, Tzs11, Tzr11, S27, HoY11, Rest⟩
  a2a_run c
  icases Rest with ⟨#Iyr12, Ayr12, Cyr12, #Ixs12, #Jx12, #Rxs12, #RJx12, Txs12, Txr12, #Izs12, #Jz12, #Rzs12, #RJz12, Tzs12, Tzr12, S28, HoY12, Rest⟩
  a2a_run c
  icases Rest with ⟨#Iyr13, Ayr13, Cyr13, #Ixs13, #Jx13, #Rxs13, #RJx13, Txs13, Txr13, #Izs13, #Jz13, #Rzs13, #RJz13, Tzs13, Tzr13, S29, HoY13, Rest⟩
  a2a_run c
  icases Rest with ⟨#Iyr14, Ayr14, Cyr14, #Ixs14, #Jx14, #Rxs14, #RJx14, Txs14, Txr14, #Izs14, #Jz14, #Rzs14, #RJz14, Tzs14, Tzr14, S30, HoY14, Rest⟩
  a2a_run c
  icases Rest with ⟨#Iyr15, Ayr15, Cyr15, #Ixs15, #Jx15, #Rxs15, #RJx15, Txs15, Txr15, #Izs15, #Jz15, #Rzs15, #RJz15, Tzs15, Tzr15, S31, HoY15, Rest⟩
  a2a_run c
  -- per chunk: the second hops' arrivals, their stores, the fourth hop
  icases Rest with ⟨#Ixr0, Axr0, Cxr0, S32, HoX0, #Izr0, Azr0, Czr0, S48, HoZ0, #Iqs0, #Jq0, #Rqs0, #RJq0, Tqs0, Tqr0, Rest⟩
  a2a_run c
  icases Rest with ⟨#Ixr1, Axr1, Cxr1, S33, HoX1, #Izr1, Azr1, Czr1, S49, HoZ1, #Iqs1, #Jq1, #Rqs1, #RJq1, Tqs1, Tqr1, Rest⟩
  a2a_run c
  icases Rest with ⟨#Ixr2, Axr2, Cxr2, S34, HoX2, #Izr2, Azr2, Czr2, S50, HoZ2, #Iqs2, #Jq2, #Rqs2, #RJq2, Tqs2, Tqr2, Rest⟩
  a2a_run c
  icases Rest with ⟨#Ixr3, Axr3, Cxr3, S35, HoX3, #Izr3, Azr3, Czr3, S51, HoZ3, #Iqs3, #Jq3, #Rqs3, #RJq3, Tqs3, Tqr3, Rest⟩
  a2a_run c
  icases Rest with ⟨#Ixr4, Axr4, Cxr4, S36, HoX4, #Izr4, Azr4, Czr4, S52, HoZ4, #Iqs4, #Jq4, #Rqs4, #RJq4, Tqs4, Tqr4, Rest⟩
  a2a_run c
  icases Rest with ⟨#Ixr5, Axr5, Cxr5, S37, HoX5, #Izr5, Azr5, Czr5, S53, HoZ5, #Iqs5, #Jq5, #Rqs5, #RJq5, Tqs5, Tqr5, Rest⟩
  a2a_run c
  icases Rest with ⟨#Ixr6, Axr6, Cxr6, S38, HoX6, #Izr6, Azr6, Czr6, S54, HoZ6, #Iqs6, #Jq6, #Rqs6, #RJq6, Tqs6, Tqr6, Rest⟩
  a2a_run c
  icases Rest with ⟨#Ixr7, Axr7, Cxr7, S39, HoX7, #Izr7, Azr7, Czr7, S55, HoZ7, #Iqs7, #Jq7, #Rqs7, #RJq7, Tqs7, Tqr7, Rest⟩
  a2a_run c
  icases Rest with ⟨#Ixr8, Axr8, Cxr8, S40, HoX8, #Izr8, Azr8, Czr8, S56, HoZ8, #Iqs8, #Jq8, #Rqs8, #RJq8, Tqs8, Tqr8, Rest⟩
  a2a_run c
  icases Rest with ⟨#Ixr9, Axr9, Cxr9, S41, HoX9, #Izr9, Azr9, Czr9, S57, HoZ9, #Iqs9, #Jq9, #Rqs9, #RJq9, Tqs9, Tqr9, Rest⟩
  a2a_run c
  icases Rest with ⟨#Ixr10, Axr10, Cxr10, S42, HoX10, #Izr10, Azr10, Czr10, S58, HoZ10, #Iqs10, #Jq10, #Rqs10, #RJq10, Tqs10, Tqr10, Rest⟩
  a2a_run c
  icases Rest with ⟨#Ixr11, Axr11, Cxr11, S43, HoX11, #Izr11, Azr11, Czr11, S59, HoZ11, #Iqs11, #Jq11, #Rqs11, #RJq11, Tqs11, Tqr11, Rest⟩
  a2a_run c
  icases Rest with ⟨#Ixr12, Axr12, Cxr12, S44, HoX12, #Izr12, Azr12, Czr12, S60, HoZ12, #Iqs12, #Jq12, #Rqs12, #RJq12, Tqs12, Tqr12, Rest⟩
  a2a_run c
  icases Rest with ⟨#Ixr13, Axr13, Cxr13, S45, HoX13, #Izr13, Azr13, Czr13, S61, HoZ13, #Iqs13, #Jq13, #Rqs13, #RJq13, Tqs13, Tqr13, Rest⟩
  a2a_run c
  icases Rest with ⟨#Ixr14, Axr14, Cxr14, S46, HoX14, #Izr14, Azr14, Czr14, S62, HoZ14, #Iqs14, #Jq14, #Rqs14, #RJq14, Tqs14, Tqr14, Rest⟩
  a2a_run c
  icases Rest with ⟨#Ixr15, Axr15, Cxr15, S47, HoX15, #Izr15, Azr15, Czr15, S63, HoZ15, #Iqs15, #Jq15, #Rqs15, #RJq15, Tqs15, Tqr15, Rest⟩
  a2a_run c
  -- per chunk: the departures' waits and the fourth quarter's arrival; after the last, the stores' waits
  icases Rest with ⟨Ays0, Axs0, Azs0, Aqs0, #Iqr0, Aqr0, Cqr0, Rest⟩
  a2a_run c
  icases Rest with ⟨Ays1, Axs1, Azs1, Aqs1, #Iqr1, Aqr1, Cqr1, Rest⟩
  a2a_run c
  icases Rest with ⟨Ays2, Axs2, Azs2, Aqs2, #Iqr2, Aqr2, Cqr2, Rest⟩
  a2a_run c
  icases Rest with ⟨Ays3, Axs3, Azs3, Aqs3, #Iqr3, Aqr3, Cqr3, Rest⟩
  a2a_run c
  icases Rest with ⟨Ays4, Axs4, Azs4, Aqs4, #Iqr4, Aqr4, Cqr4, Rest⟩
  a2a_run c
  icases Rest with ⟨Ays5, Axs5, Azs5, Aqs5, #Iqr5, Aqr5, Cqr5, Rest⟩
  a2a_run c
  icases Rest with ⟨Ays6, Axs6, Azs6, Aqs6, #Iqr6, Aqr6, Cqr6, Rest⟩
  a2a_run c
  icases Rest with ⟨Ays7, Axs7, Azs7, Aqs7, #Iqr7, Aqr7, Cqr7, Rest⟩
  a2a_run c
  icases Rest with ⟨Ays8, Axs8, Azs8, Aqs8, #Iqr8, Aqr8, Cqr8, Rest⟩
  a2a_run c
  icases Rest with ⟨Ays9, Axs9, Azs9, Aqs9, #Iqr9, Aqr9, Cqr9, Rest⟩
  a2a_run c
  icases Rest with ⟨Ays10, Axs10, Azs10, Aqs10, #Iqr10, Aqr10, Cqr10, Rest⟩
  a2a_run c
  icases Rest with ⟨Ays11, Axs11, Azs11, Aqs11, #Iqr11, Aqr11, Cqr11, Rest⟩
  a2a_run c
  icases Rest with ⟨Ays12, Axs12, Azs12, Aqs12, #Iqr12, Aqr12, Cqr12, Rest⟩
  a2a_run c
  icases Rest with ⟨Ays13, Axs13, Azs13, Aqs13, #Iqr13, Aqr13, Cqr13, Rest⟩
  a2a_run c
  icases Rest with ⟨Ays14, Axs14, Azs14, Aqs14, #Iqr14, Aqr14, Cqr14, Rest⟩
  a2a_run c
  icases Rest with ⟨Ays15, Axs15, Azs15, Aqs15, #Iqr15, Aqr15, Cqr15, Harest⟩
  a2a_run c
  -- the return
  rw [wp_ret]
  iapply (finish m K c _ (fun i => slabBuf (chunk m c i)) (fun i => slabBuf (chunk m (yP c) i)) (fun i => slabBuf (chunk m (yP (xP c)) i)) (fun i => slabBuf (chunk m (yP (zP c)) i)) _
    (idle (F := F) c) _ _ (loc_chain c) (arg_chain m c)
    (res_join_chain m c _ (fun i => rowBuf (chunk m (yP c) i)) (fun i => rowBuf (chunk m (yP (xP c)) i)) (fun i => rowBuf (chunk m (yP (zP c)) i)) (fun i => rowBuf (chunk m (yP (xP (zP c))) i))
      (endOwn m c fo fl _ _ rfl rfl) (rowY_out m c) (rowX_out m c) (rowZ_out m c) (rowQ_out m c)))
  -- 1: the 128 chunk-cell invariants (persistent: no spatial hypothesis goes left)
  isplitl []
  · isplitl []; · iexact Iys0
    isplitl []; · iexact Iys1
    isplitl []; · iexact Iys2
    isplitl []; · iexact Iys3
    isplitl []; · iexact Iys4
    isplitl []; · iexact Iys5
    isplitl []; · iexact Iys6
    isplitl []; · iexact Iys7
    isplitl []; · iexact Iys8
    isplitl []; · iexact Iys9
    isplitl []; · iexact Iys10
    isplitl []; · iexact Iys11
    isplitl []; · iexact Iys12
    isplitl []; · iexact Iys13
    isplitl []; · iexact Iys14
    isplitl []; · iexact Iys15
    isplitl []; · iexact Iyr0
    isplitl []; · iexact Iyr1
    isplitl []; · iexact Iyr2
    isplitl []; · iexact Iyr3
    isplitl []; · iexact Iyr4
    isplitl []; · iexact Iyr5
    isplitl []; · iexact Iyr6
    isplitl []; · iexact Iyr7
    isplitl []; · iexact Iyr8
    isplitl []; · iexact Iyr9
    isplitl []; · iexact Iyr10
    isplitl []; · iexact Iyr11
    isplitl []; · iexact Iyr12
    isplitl []; · iexact Iyr13
    isplitl []; · iexact Iyr14
    isplitl []; · iexact Iyr15
    isplitl []; · iexact Ixs0
    isplitl []; · iexact Ixs1
    isplitl []; · iexact Ixs2
    isplitl []; · iexact Ixs3
    isplitl []; · iexact Ixs4
    isplitl []; · iexact Ixs5
    isplitl []; · iexact Ixs6
    isplitl []; · iexact Ixs7
    isplitl []; · iexact Ixs8
    isplitl []; · iexact Ixs9
    isplitl []; · iexact Ixs10
    isplitl []; · iexact Ixs11
    isplitl []; · iexact Ixs12
    isplitl []; · iexact Ixs13
    isplitl []; · iexact Ixs14
    isplitl []; · iexact Ixs15
    isplitl []; · iexact Ixr0
    isplitl []; · iexact Ixr1
    isplitl []; · iexact Ixr2
    isplitl []; · iexact Ixr3
    isplitl []; · iexact Ixr4
    isplitl []; · iexact Ixr5
    isplitl []; · iexact Ixr6
    isplitl []; · iexact Ixr7
    isplitl []; · iexact Ixr8
    isplitl []; · iexact Ixr9
    isplitl []; · iexact Ixr10
    isplitl []; · iexact Ixr11
    isplitl []; · iexact Ixr12
    isplitl []; · iexact Ixr13
    isplitl []; · iexact Ixr14
    isplitl []; · iexact Ixr15
    isplitl []; · iexact Izs0
    isplitl []; · iexact Izs1
    isplitl []; · iexact Izs2
    isplitl []; · iexact Izs3
    isplitl []; · iexact Izs4
    isplitl []; · iexact Izs5
    isplitl []; · iexact Izs6
    isplitl []; · iexact Izs7
    isplitl []; · iexact Izs8
    isplitl []; · iexact Izs9
    isplitl []; · iexact Izs10
    isplitl []; · iexact Izs11
    isplitl []; · iexact Izs12
    isplitl []; · iexact Izs13
    isplitl []; · iexact Izs14
    isplitl []; · iexact Izs15
    isplitl []; · iexact Izr0
    isplitl []; · iexact Izr1
    isplitl []; · iexact Izr2
    isplitl []; · iexact Izr3
    isplitl []; · iexact Izr4
    isplitl []; · iexact Izr5
    isplitl []; · iexact Izr6
    isplitl []; · iexact Izr7
    isplitl []; · iexact Izr8
    isplitl []; · iexact Izr9
    isplitl []; · iexact Izr10
    isplitl []; · iexact Izr11
    isplitl []; · iexact Izr12
    isplitl []; · iexact Izr13
    isplitl []; · iexact Izr14
    isplitl []; · iexact Izr15
    isplitl []; · iexact Iqs0
    isplitl []; · iexact Iqs1
    isplitl []; · iexact Iqs2
    isplitl []; · iexact Iqs3
    isplitl []; · iexact Iqs4
    isplitl []; · iexact Iqs5
    isplitl []; · iexact Iqs6
    isplitl []; · iexact Iqs7
    isplitl []; · iexact Iqs8
    isplitl []; · iexact Iqs9
    isplitl []; · iexact Iqs10
    isplitl []; · iexact Iqs11
    isplitl []; · iexact Iqs12
    isplitl []; · iexact Iqs13
    isplitl []; · iexact Iqs14
    isplitl []; · iexact Iqs15
    isplitl []; · iexact Iqr0
    isplitl []; · iexact Iqr1
    isplitl []; · iexact Iqr2
    isplitl []; · iexact Iqr3
    isplitl []; · iexact Iqr4
    isplitl []; · iexact Iqr5
    isplitl []; · iexact Iqr6
    isplitl []; · iexact Iqr7
    isplitl []; · iexact Iqr8
    isplitl []; · iexact Iqr9
    isplitl []; · iexact Iqr10
    isplitl []; · iexact Iqr11
    isplitl []; · iexact Iqr12
    isplitl []; · iexact Iqr13
    isplitl []; · iexact Iqr14
    iexact Iqr15
  -- 2: the 128 positions at round 1
  isplitl [Ays0 Ays1 Ays2 Ays3 Ays4 Ays5 Ays6 Ays7 Ays8 Ays9 Ays10 Ays11 Ays12 Ays13 Ays14 Ays15 Ayr0 Ayr1 Ayr2 Ayr3 Ayr4 Ayr5 Ayr6 Ayr7 Ayr8 Ayr9 Ayr10 Ayr11 Ayr12 Ayr13 Ayr14 Ayr15 Axs0 Axs1 Axs2 Axs3 Axs4 Axs5 Axs6 Axs7 Axs8 Axs9 Axs10 Axs11 Axs12 Axs13 Axs14 Axs15 Axr0 Axr1 Axr2 Axr3 Axr4 Axr5 Axr6 Axr7 Axr8 Axr9 Axr10 Axr11 Axr12 Axr13 Axr14 Axr15 Azs0 Azs1 Azs2 Azs3 Azs4 Azs5 Azs6 Azs7 Azs8 Azs9 Azs10 Azs11 Azs12 Azs13 Azs14 Azs15 Azr0 Azr1 Azr2 Azr3 Azr4 Azr5 Azr6 Azr7 Azr8 Azr9 Azr10 Azr11 Azr12 Azr13 Azr14 Azr15 Aqs0 Aqs1 Aqs2 Aqs3 Aqs4 Aqs5 Aqs6 Aqs7 Aqs8 Aqs9 Aqs10 Aqs11 Aqs12 Aqs13 Aqs14 Aqs15 Aqr0 Aqr1 Aqr2 Aqr3 Aqr4 Aqr5 Aqr6 Aqr7 Aqr8 Aqr9 Aqr10 Aqr11 Aqr12 Aqr13 Aqr14 Aqr15]
  · isplitl [Ays0]; · iexact Ays0
    isplitl [Ays1]; · iexact Ays1
    isplitl [Ays2]; · iexact Ays2
    isplitl [Ays3]; · iexact Ays3
    isplitl [Ays4]; · iexact Ays4
    isplitl [Ays5]; · iexact Ays5
    isplitl [Ays6]; · iexact Ays6
    isplitl [Ays7]; · iexact Ays7
    isplitl [Ays8]; · iexact Ays8
    isplitl [Ays9]; · iexact Ays9
    isplitl [Ays10]; · iexact Ays10
    isplitl [Ays11]; · iexact Ays11
    isplitl [Ays12]; · iexact Ays12
    isplitl [Ays13]; · iexact Ays13
    isplitl [Ays14]; · iexact Ays14
    isplitl [Ays15]; · iexact Ays15
    isplitl [Ayr0]; · iexact Ayr0
    isplitl [Ayr1]; · iexact Ayr1
    isplitl [Ayr2]; · iexact Ayr2
    isplitl [Ayr3]; · iexact Ayr3
    isplitl [Ayr4]; · iexact Ayr4
    isplitl [Ayr5]; · iexact Ayr5
    isplitl [Ayr6]; · iexact Ayr6
    isplitl [Ayr7]; · iexact Ayr7
    isplitl [Ayr8]; · iexact Ayr8
    isplitl [Ayr9]; · iexact Ayr9
    isplitl [Ayr10]; · iexact Ayr10
    isplitl [Ayr11]; · iexact Ayr11
    isplitl [Ayr12]; · iexact Ayr12
    isplitl [Ayr13]; · iexact Ayr13
    isplitl [Ayr14]; · iexact Ayr14
    isplitl [Ayr15]; · iexact Ayr15
    isplitl [Axs0]; · iexact Axs0
    isplitl [Axs1]; · iexact Axs1
    isplitl [Axs2]; · iexact Axs2
    isplitl [Axs3]; · iexact Axs3
    isplitl [Axs4]; · iexact Axs4
    isplitl [Axs5]; · iexact Axs5
    isplitl [Axs6]; · iexact Axs6
    isplitl [Axs7]; · iexact Axs7
    isplitl [Axs8]; · iexact Axs8
    isplitl [Axs9]; · iexact Axs9
    isplitl [Axs10]; · iexact Axs10
    isplitl [Axs11]; · iexact Axs11
    isplitl [Axs12]; · iexact Axs12
    isplitl [Axs13]; · iexact Axs13
    isplitl [Axs14]; · iexact Axs14
    isplitl [Axs15]; · iexact Axs15
    isplitl [Axr0]; · iexact Axr0
    isplitl [Axr1]; · iexact Axr1
    isplitl [Axr2]; · iexact Axr2
    isplitl [Axr3]; · iexact Axr3
    isplitl [Axr4]; · iexact Axr4
    isplitl [Axr5]; · iexact Axr5
    isplitl [Axr6]; · iexact Axr6
    isplitl [Axr7]; · iexact Axr7
    isplitl [Axr8]; · iexact Axr8
    isplitl [Axr9]; · iexact Axr9
    isplitl [Axr10]; · iexact Axr10
    isplitl [Axr11]; · iexact Axr11
    isplitl [Axr12]; · iexact Axr12
    isplitl [Axr13]; · iexact Axr13
    isplitl [Axr14]; · iexact Axr14
    isplitl [Axr15]; · iexact Axr15
    isplitl [Azs0]; · iexact Azs0
    isplitl [Azs1]; · iexact Azs1
    isplitl [Azs2]; · iexact Azs2
    isplitl [Azs3]; · iexact Azs3
    isplitl [Azs4]; · iexact Azs4
    isplitl [Azs5]; · iexact Azs5
    isplitl [Azs6]; · iexact Azs6
    isplitl [Azs7]; · iexact Azs7
    isplitl [Azs8]; · iexact Azs8
    isplitl [Azs9]; · iexact Azs9
    isplitl [Azs10]; · iexact Azs10
    isplitl [Azs11]; · iexact Azs11
    isplitl [Azs12]; · iexact Azs12
    isplitl [Azs13]; · iexact Azs13
    isplitl [Azs14]; · iexact Azs14
    isplitl [Azs15]; · iexact Azs15
    isplitl [Azr0]; · iexact Azr0
    isplitl [Azr1]; · iexact Azr1
    isplitl [Azr2]; · iexact Azr2
    isplitl [Azr3]; · iexact Azr3
    isplitl [Azr4]; · iexact Azr4
    isplitl [Azr5]; · iexact Azr5
    isplitl [Azr6]; · iexact Azr6
    isplitl [Azr7]; · iexact Azr7
    isplitl [Azr8]; · iexact Azr8
    isplitl [Azr9]; · iexact Azr9
    isplitl [Azr10]; · iexact Azr10
    isplitl [Azr11]; · iexact Azr11
    isplitl [Azr12]; · iexact Azr12
    isplitl [Azr13]; · iexact Azr13
    isplitl [Azr14]; · iexact Azr14
    isplitl [Azr15]; · iexact Azr15
    isplitl [Aqs0]; · iexact Aqs0
    isplitl [Aqs1]; · iexact Aqs1
    isplitl [Aqs2]; · iexact Aqs2
    isplitl [Aqs3]; · iexact Aqs3
    isplitl [Aqs4]; · iexact Aqs4
    isplitl [Aqs5]; · iexact Aqs5
    isplitl [Aqs6]; · iexact Aqs6
    isplitl [Aqs7]; · iexact Aqs7
    isplitl [Aqs8]; · iexact Aqs8
    isplitl [Aqs9]; · iexact Aqs9
    isplitl [Aqs10]; · iexact Aqs10
    isplitl [Aqs11]; · iexact Aqs11
    isplitl [Aqs12]; · iexact Aqs12
    isplitl [Aqs13]; · iexact Aqs13
    isplitl [Aqs14]; · iexact Aqs14
    isplitl [Aqs15]; · iexact Aqs15
    isplitl [Aqr0]; · iexact Aqr0
    isplitl [Aqr1]; · iexact Aqr1
    isplitl [Aqr2]; · iexact Aqr2
    isplitl [Aqr3]; · iexact Aqr3
    isplitl [Aqr4]; · iexact Aqr4
    isplitl [Aqr5]; · iexact Aqr5
    isplitl [Aqr6]; · iexact Aqr6
    isplitl [Aqr7]; · iexact Aqr7
    isplitl [Aqr8]; · iexact Aqr8
    isplitl [Aqr9]; · iexact Aqr9
    isplitl [Aqr10]; · iexact Aqr10
    isplitl [Aqr11]; · iexact Aqr11
    isplitl [Aqr12]; · iexact Aqr12
    isplitl [Aqr13]; · iexact Aqr13
    isplitl [Aqr14]; · iexact Aqr14
    iexact Aqr15
  -- 3: the 66 local semaphores
  isplitl [S0 S1 S2 S3 S4 S5 S6 S7 S8 S9 S10 S11 S12 S13 S14 S15 S16 S17 S18 S19 S20 S21 S22 S23 S24 S25 S26 S27 S28 S29 S30 S31 S32 S33 S34 S35 S36 S37 S38 S39 S40 S41 S42 S43 S44 S45 S46 S47 S48 S49 S50 S51 S52 S53 S54 S55 S56 S57 S58 S59 S60 S61 S62 S63 S224 S225]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    isplitl [S41]; · iexact S41
    isplitl [S42]; · iexact S42
    isplitl [S43]; · iexact S43
    isplitl [S44]; · iexact S44
    isplitl [S45]; · iexact S45
    isplitl [S46]; · iexact S46
    isplitl [S47]; · iexact S47
    isplitl [S48]; · iexact S48
    isplitl [S49]; · iexact S49
    isplitl [S50]; · iexact S50
    isplitl [S51]; · iexact S51
    isplitl [S52]; · iexact S52
    isplitl [S53]; · iexact S53
    isplitl [S54]; · iexact S54
    isplitl [S55]; · iexact S55
    isplitl [S56]; · iexact S56
    isplitl [S57]; · iexact S57
    isplitl [S58]; · iexact S58
    isplitl [S59]; · iexact S59
    isplitl [S60]; · iexact S60
    isplitl [S61]; · iexact S61
    isplitl [S62]; · iexact S62
    isplitl [S63]; · iexact S63
    isplitl [S224]; · iexact S224
    iexact S225
  -- 4: the idle semaphores;  5: nothing owed
  isplitl [Hidle]; · iexact Hidle
  isplitl [HO]; · iexact HO
  -- 6: the input's eighteen pieces
  isplitl [Ha0 Ha1 Ha2 Ha3 Ha4 Ha5 Ha6 Ha7 Ha8 Ha9 Ha10 Ha11 Ha12 Ha13 Ha14 Ha15 Haown Harest]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [Haown]; · iexact Haown
    iexact Harest
  -- 7: the result's sixty-five pieces (own half; per chunk Y X Z Q)
  isplitl [Hown HoY0 HoX0 HoZ0 Aqr0_pay1 HoY1 HoX1 HoZ1 Aqr1_pay1 HoY2 HoX2 HoZ2 Aqr2_pay1 HoY3 HoX3 HoZ3 Aqr3_pay1 HoY4 HoX4 HoZ4 Aqr4_pay1 HoY5 HoX5 HoZ5 Aqr5_pay1 HoY6 HoX6 HoZ6 Aqr6_pay1 HoY7 HoX7 HoZ7 Aqr7_pay1 HoY8 HoX8 HoZ8 Aqr8_pay1 HoY9 HoX9 HoZ9 Aqr9_pay1 HoY10 HoX10 HoZ10 Aqr10_pay1 HoY11 HoX11 HoZ11 Aqr11_pay1 HoY12 HoX12 HoZ12 Aqr12_pay1 HoY13 HoX13 HoZ13 Aqr13_pay1 HoY14 HoX14 HoZ14 Aqr14_pay1 HoY15 HoX15 HoZ15 Aqr15_pay1]
  · isplitl [Hown]; · iexact Hown
    isplitl [HoY0]; · iapply (restY m c 0 _ _ rfl); iexact HoY0
    isplitl [HoX0]; · iapply (restX m c 0 _ _ rfl); iexact HoX0
    isplitl [HoZ0]; · iapply (restZ m c 0 _ _ rfl); iexact HoZ0
    isplitl [Aqr0_pay1]; · iexact Aqr0_pay1
    isplitl [HoY1]; · iapply (restY m c 1 _ _ rfl); iexact HoY1
    isplitl [HoX1]; · iapply (restX m c 1 _ _ rfl); iexact HoX1
    isplitl [HoZ1]; · iapply (restZ m c 1 _ _ rfl); iexact HoZ1
    isplitl [Aqr1_pay1]; · iexact Aqr1_pay1
    isplitl [HoY2]; · iapply (restY m c 2 _ _ rfl); iexact HoY2
    isplitl [HoX2]; · iapply (restX m c 2 _ _ rfl); iexact HoX2
    isplitl [HoZ2]; · iapply (restZ m c 2 _ _ rfl); iexact HoZ2
    isplitl [Aqr2_pay1]; · iexact Aqr2_pay1
    isplitl [HoY3]; · iapply (restY m c 3 _ _ rfl); iexact HoY3
    isplitl [HoX3]; · iapply (restX m c 3 _ _ rfl); iexact HoX3
    isplitl [HoZ3]; · iapply (restZ m c 3 _ _ rfl); iexact HoZ3
    isplitl [Aqr3_pay1]; · iexact Aqr3_pay1
    isplitl [HoY4]; · iapply (restY m c 4 _ _ rfl); iexact HoY4
    isplitl [HoX4]; · iapply (restX m c 4 _ _ rfl); iexact HoX4
    isplitl [HoZ4]; · iapply (restZ m c 4 _ _ rfl); iexact HoZ4
    isplitl [Aqr4_pay1]; · iexact Aqr4_pay1
    isplitl [HoY5]; · iapply (restY m c 5 _ _ rfl); iexact HoY5
    isplitl [HoX5]; · iapply (restX m c 5 _ _ rfl); iexact HoX5
    isplitl [HoZ5]; · iapply (restZ m c 5 _ _ rfl); iexact HoZ5
    isplitl [Aqr5_pay1]; · iexact Aqr5_pay1
    isplitl [HoY6]; · iapply (restY m c 6 _ _ rfl); iexact HoY6
    isplitl [HoX6]; · iapply (restX m c 6 _ _ rfl); iexact HoX6
    isplitl [HoZ6]; · iapply (restZ m c 6 _ _ rfl); iexact HoZ6
    isplitl [Aqr6_pay1]; · iexact Aqr6_pay1
    isplitl [HoY7]; · iapply (restY m c 7 _ _ rfl); iexact HoY7
    isplitl [HoX7]; · iapply (restX m c 7 _ _ rfl); iexact HoX7
    isplitl [HoZ7]; · iapply (restZ m c 7 _ _ rfl); iexact HoZ7
    isplitl [Aqr7_pay1]; · iexact Aqr7_pay1
    isplitl [HoY8]; · iapply (restY m c 8 _ _ rfl); iexact HoY8
    isplitl [HoX8]; · iapply (restX m c 8 _ _ rfl); iexact HoX8
    isplitl [HoZ8]; · iapply (restZ m c 8 _ _ rfl); iexact HoZ8
    isplitl [Aqr8_pay1]; · iexact Aqr8_pay1
    isplitl [HoY9]; · iapply (restY m c 9 _ _ rfl); iexact HoY9
    isplitl [HoX9]; · iapply (restX m c 9 _ _ rfl); iexact HoX9
    isplitl [HoZ9]; · iapply (restZ m c 9 _ _ rfl); iexact HoZ9
    isplitl [Aqr9_pay1]; · iexact Aqr9_pay1
    isplitl [HoY10]; · iapply (restY m c 10 _ _ rfl); iexact HoY10
    isplitl [HoX10]; · iapply (restX m c 10 _ _ rfl); iexact HoX10
    isplitl [HoZ10]; · iapply (restZ m c 10 _ _ rfl); iexact HoZ10
    isplitl [Aqr10_pay1]; · iexact Aqr10_pay1
    isplitl [HoY11]; · iapply (restY m c 11 _ _ rfl); iexact HoY11
    isplitl [HoX11]; · iapply (restX m c 11 _ _ rfl); iexact HoX11
    isplitl [HoZ11]; · iapply (restZ m c 11 _ _ rfl); iexact HoZ11
    isplitl [Aqr11_pay1]; · iexact Aqr11_pay1
    isplitl [HoY12]; · iapply (restY m c 12 _ _ rfl); iexact HoY12
    isplitl [HoX12]; · iapply (restX m c 12 _ _ rfl); iexact HoX12
    isplitl [HoZ12]; · iapply (restZ m c 12 _ _ rfl); iexact HoZ12
    isplitl [Aqr12_pay1]; · iexact Aqr12_pay1
    isplitl [HoY13]; · iapply (restY m c 13 _ _ rfl); iexact HoY13
    isplitl [HoX13]; · iapply (restX m c 13 _ _ rfl); iexact HoX13
    isplitl [HoZ13]; · iapply (restZ m c 13 _ _ rfl); iexact HoZ13
    isplitl [Aqr13_pay1]; · iexact Aqr13_pay1
    isplitl [HoY14]; · iapply (restY m c 14 _ _ rfl); iexact HoY14
    isplitl [HoX14]; · iapply (restX m c 14 _ _ rfl); iexact HoX14
    isplitl [HoZ14]; · iapply (restZ m c 14 _ _ rfl); iexact HoZ14
    isplitl [Aqr14_pay1]; · iexact Aqr14_pay1
    isplitl [HoY15]; · iapply (restY m c 15 _ _ rfl); iexact HoY15
    isplitl [HoX15]; · iapply (restX m c 15 _ _ rfl); iexact HoX15
    isplitl [HoZ15]; · iapply (restZ m c 15 _ _ rfl); iexact HoZ15
    iexact Aqr15_pay1
  -- 8: sbuf's chunks, back from the first hop's send waits
  isplitl [Ays0_pay1 Ays1_pay1 Ays2_pay1 Ays3_pay1 Ays4_pay1 Ays5_pay1 Ays6_pay1 Ays7_pay1 Ays8_pay1 Ays9_pay1 Ays10_pay1 Ays11_pay1 Ays12_pay1 Ays13_pay1 Ays14_pay1 Ays15_pay1]
  · isplitl [Ays0_pay1]; · iexact Ays0_pay1
    isplitl [Ays1_pay1]; · iexact Ays1_pay1
    isplitl [Ays2_pay1]; · iexact Ays2_pay1
    isplitl [Ays3_pay1]; · iexact Ays3_pay1
    isplitl [Ays4_pay1]; · iexact Ays4_pay1
    isplitl [Ays5_pay1]; · iexact Ays5_pay1
    isplitl [Ays6_pay1]; · iexact Ays6_pay1
    isplitl [Ays7_pay1]; · iexact Ays7_pay1
    isplitl [Ays8_pay1]; · iexact Ays8_pay1
    isplitl [Ays9_pay1]; · iexact Ays9_pay1
    isplitl [Ays10_pay1]; · iexact Ays10_pay1
    isplitl [Ays11_pay1]; · iexact Ays11_pay1
    isplitl [Ays12_pay1]; · iexact Ays12_pay1
    isplitl [Ays13_pay1]; · iexact Ays13_pay1
    isplitl [Ays14_pay1]; · iexact Ays14_pay1
    iexact Ays15_pay1
  -- 9: rbuf's shares per chunk: qX (back from the x copy's send wait), qZ (from the z copy's), qS (the local store's)
  isplitl [Axs0_pay1 Azs0_pay1 Ayr0_pay3 Axs1_pay1 Azs1_pay1 Ayr1_pay3 Axs2_pay1 Azs2_pay1 Ayr2_pay3 Axs3_pay1 Azs3_pay1 Ayr3_pay3 Axs4_pay1 Azs4_pay1 Ayr4_pay3 Axs5_pay1 Azs5_pay1 Ayr5_pay3 Axs6_pay1 Azs6_pay1 Ayr6_pay3 Axs7_pay1 Azs7_pay1 Ayr7_pay3 Axs8_pay1 Azs8_pay1 Ayr8_pay3 Axs9_pay1 Azs9_pay1 Ayr9_pay3 Axs10_pay1 Azs10_pay1 Ayr10_pay3 Axs11_pay1 Azs11_pay1 Ayr11_pay3 Axs12_pay1 Azs12_pay1 Ayr12_pay3 Axs13_pay1 Azs13_pay1 Ayr13_pay3 Axs14_pay1 Azs14_pay1 Ayr14_pay3 Axs15_pay1 Azs15_pay1 Ayr15_pay3]
  · isplitl [Axs0_pay1]; · iexact Axs0_pay1
    isplitl [Azs0_pay1]; · iexact Azs0_pay1
    isplitl [Ayr0_pay3]; · iexact Ayr0_pay3
    isplitl [Axs1_pay1]; · iexact Axs1_pay1
    isplitl [Azs1_pay1]; · iexact Azs1_pay1
    isplitl [Ayr1_pay3]; · iexact Ayr1_pay3
    isplitl [Axs2_pay1]; · iexact Axs2_pay1
    isplitl [Azs2_pay1]; · iexact Azs2_pay1
    isplitl [Ayr2_pay3]; · iexact Ayr2_pay3
    isplitl [Axs3_pay1]; · iexact Axs3_pay1
    isplitl [Azs3_pay1]; · iexact Azs3_pay1
    isplitl [Ayr3_pay3]; · iexact Ayr3_pay3
    isplitl [Axs4_pay1]; · iexact Axs4_pay1
    isplitl [Azs4_pay1]; · iexact Azs4_pay1
    isplitl [Ayr4_pay3]; · iexact Ayr4_pay3
    isplitl [Axs5_pay1]; · iexact Axs5_pay1
    isplitl [Azs5_pay1]; · iexact Azs5_pay1
    isplitl [Ayr5_pay3]; · iexact Ayr5_pay3
    isplitl [Axs6_pay1]; · iexact Axs6_pay1
    isplitl [Azs6_pay1]; · iexact Azs6_pay1
    isplitl [Ayr6_pay3]; · iexact Ayr6_pay3
    isplitl [Axs7_pay1]; · iexact Axs7_pay1
    isplitl [Azs7_pay1]; · iexact Azs7_pay1
    isplitl [Ayr7_pay3]; · iexact Ayr7_pay3
    isplitl [Axs8_pay1]; · iexact Axs8_pay1
    isplitl [Azs8_pay1]; · iexact Azs8_pay1
    isplitl [Ayr8_pay3]; · iexact Ayr8_pay3
    isplitl [Axs9_pay1]; · iexact Axs9_pay1
    isplitl [Azs9_pay1]; · iexact Azs9_pay1
    isplitl [Ayr9_pay3]; · iexact Ayr9_pay3
    isplitl [Axs10_pay1]; · iexact Axs10_pay1
    isplitl [Azs10_pay1]; · iexact Azs10_pay1
    isplitl [Ayr10_pay3]; · iexact Ayr10_pay3
    isplitl [Axs11_pay1]; · iexact Axs11_pay1
    isplitl [Azs11_pay1]; · iexact Azs11_pay1
    isplitl [Ayr11_pay3]; · iexact Ayr11_pay3
    isplitl [Axs12_pay1]; · iexact Axs12_pay1
    isplitl [Azs12_pay1]; · iexact Azs12_pay1
    isplitl [Ayr12_pay3]; · iexact Ayr12_pay3
    isplitl [Axs13_pay1]; · iexact Axs13_pay1
    isplitl [Azs13_pay1]; · iexact Azs13_pay1
    isplitl [Ayr13_pay3]; · iexact Ayr13_pay3
    isplitl [Axs14_pay1]; · iexact Axs14_pay1
    isplitl [Azs14_pay1]; · iexact Azs14_pay1
    isplitl [Ayr14_pay3]; · iexact Ayr14_pay3
    isplitl [Axs15_pay1]; · iexact Axs15_pay1
    isplitl [Azs15_pay1]; · iexact Azs15_pay1
    iexact Ayr15_pay3
  -- 10: xrbuf's shares per chunk: qX (odd i: back from the fourth hop's send wait; even i: never lent), qH (the local store's)
  isplitl [Axr0_pay2 Axr0_pay1 Aqs1_pay1 Axr1_pay1 Axr2_pay2 Axr2_pay1 Aqs3_pay1 Axr3_pay1 Axr4_pay2 Axr4_pay1 Aqs5_pay1 Axr5_pay1 Axr6_pay2 Axr6_pay1 Aqs7_pay1 Axr7_pay1 Axr8_pay2 Axr8_pay1 Aqs9_pay1 Axr9_pay1 Axr10_pay2 Axr10_pay1 Aqs11_pay1 Axr11_pay1 Axr12_pay2 Axr12_pay1 Aqs13_pay1 Axr13_pay1 Axr14_pay2 Axr14_pay1 Aqs15_pay1 Axr15_pay1]
  · isplitl [Axr0_pay2]; · iexact Axr0_pay2
    isplitl [Axr0_pay1]; · iexact Axr0_pay1
    isplitl [Aqs1_pay1]; · iexact Aqs1_pay1
    isplitl [Axr1_pay1]; · iexact Axr1_pay1
    isplitl [Axr2_pay2]; · iexact Axr2_pay2
    isplitl [Axr2_pay1]; · iexact Axr2_pay1
    isplitl [Aqs3_pay1]; · iexact Aqs3_pay1
    isplitl [Axr3_pay1]; · iexact Axr3_pay1
    isplitl [Axr4_pay2]; · iexact Axr4_pay2
    isplitl [Axr4_pay1]; · iexact Axr4_pay1
    isplitl [Aqs5_pay1]; · iexact Aqs5_pay1
    isplitl [Axr5_pay1]; · iexact Axr5_pay1
    isplitl [Axr6_pay2]; · iexact Axr6_pay2
    isplitl [Axr6_pay1]; · iexact Axr6_pay1
    isplitl [Aqs7_pay1]; · iexact Aqs7_pay1
    isplitl [Axr7_pay1]; · iexact Axr7_pay1
    isplitl [Axr8_pay2]; · iexact Axr8_pay2
    isplitl [Axr8_pay1]; · iexact Axr8_pay1
    isplitl [Aqs9_pay1]; · iexact Aqs9_pay1
    isplitl [Axr9_pay1]; · iexact Axr9_pay1
    isplitl [Axr10_pay2]; · iexact Axr10_pay2
    isplitl [Axr10_pay1]; · iexact Axr10_pay1
    isplitl [Aqs11_pay1]; · iexact Aqs11_pay1
    isplitl [Axr11_pay1]; · iexact Axr11_pay1
    isplitl [Axr12_pay2]; · iexact Axr12_pay2
    isplitl [Axr12_pay1]; · iexact Axr12_pay1
    isplitl [Aqs13_pay1]; · iexact Aqs13_pay1
    isplitl [Axr13_pay1]; · iexact Axr13_pay1
    isplitl [Axr14_pay2]; · iexact Axr14_pay2
    isplitl [Axr14_pay1]; · iexact Axr14_pay1
    isplitl [Aqs15_pay1]; · iexact Aqs15_pay1
    iexact Axr15_pay1
  -- 11: zrbuf's shares per chunk: qX (even i: back from the fourth hop's send wait; odd i: never lent), qH (the local store's)
  isplitl [Aqs0_pay1 Azr0_pay1 Azr1_pay2 Azr1_pay1 Aqs2_pay1 Azr2_pay1 Azr3_pay2 Azr3_pay1 Aqs4_pay1 Azr4_pay1 Azr5_pay2 Azr5_pay1 Aqs6_pay1 Azr6_pay1 Azr7_pay2 Azr7_pay1 Aqs8_pay1 Azr8_pay1 Azr9_pay2 Azr9_pay1 Aqs10_pay1 Azr10_pay1 Azr11_pay2 Azr11_pay1 Aqs12_pay1 Azr12_pay1 Azr13_pay2 Azr13_pay1 Aqs14_pay1 Azr14_pay1 Azr15_pay2 Azr15_pay1]
  · isplitl [Aqs0_pay1]; · iexact Aqs0_pay1
    isplitl [Azr0_pay1]; · iexact Azr0_pay1
    isplitl [Azr1_pay2]; · iexact Azr1_pay2
    isplitl [Azr1_pay1]; · iexact Azr1_pay1
    isplitl [Aqs2_pay1]; · iexact Aqs2_pay1
    isplitl [Azr2_pay1]; · iexact Azr2_pay1
    isplitl [Azr3_pay2]; · iexact Azr3_pay2
    isplitl [Azr3_pay1]; · iexact Azr3_pay1
    isplitl [Aqs4_pay1]; · iexact Aqs4_pay1
    isplitl [Azr4_pay1]; · iexact Azr4_pay1
    isplitl [Azr5_pay2]; · iexact Azr5_pay2
    isplitl [Azr5_pay1]; · iexact Azr5_pay1
    isplitl [Aqs6_pay1]; · iexact Aqs6_pay1
    isplitl [Azr6_pay1]; · iexact Azr6_pay1
    isplitl [Azr7_pay2]; · iexact Azr7_pay2
    isplitl [Azr7_pay1]; · iexact Azr7_pay1
    isplitl [Aqs8_pay1]; · iexact Aqs8_pay1
    isplitl [Azr8_pay1]; · iexact Azr8_pay1
    isplitl [Azr9_pay2]; · iexact Azr9_pay2
    isplitl [Azr9_pay1]; · iexact Azr9_pay1
    isplitl [Aqs10_pay1]; · iexact Aqs10_pay1
    isplitl [Azr10_pay1]; · iexact Azr10_pay1
    isplitl [Azr11_pay2]; · iexact Azr11_pay2
    isplitl [Azr11_pay1]; · iexact Azr11_pay1
    isplitl [Aqs12_pay1]; · iexact Aqs12_pay1
    isplitl [Azr12_pay1]; · iexact Azr12_pay1
    isplitl [Azr13_pay2]; · iexact Azr13_pay2
    isplitl [Azr13_pay1]; · iexact Azr13_pay1
    isplitl [Aqs14_pay1]; · iexact Aqs14_pay1
    isplitl [Azr14_pay1]; · iexact Azr14_pay1
    isplitl [Azr15_pay2]; · iexact Azr15_pay2
    iexact Azr15_pay1
  -- 12: the staging buffer (whatever else is left in the context — reached facts, credits, the levels — rides to here and is dropped)
  iexact Hl

end Cert.KernelIdeal.A2A

end
-- ==== Proof.BMesh.lean ====
import proofs.«900640_g7700000000000641_dist_a2a_v7x_xyz2x2x4_y_m4096_n1024_f32_1_alg».proof.Proof.Gen.Kernel
import Idealize.ShloMosaic.Lib.Tactic

/-!
# The mesh of the all-to-all: partners along each axis

The sixteen devices form a 2 × 2 × 4 mesh; device `8·x + 4·y + z` sits at `(x, y, z)`. The kernel talks to
three partners: the device across the `y` axis (its id with bit 2 flipped), the one across the `x` axis (bit 3
flipped), and its neighbour in the `z` pair `{2k, 2k+1}` (bit 0 flipped). Each is an involution, the three
commute, and every device id the kernel computes is one of them.
-/

noncomputable section

namespace Cert.Kernel.A2A

open Cert.Kernel Cert.Kernel.Gen
open Idealize.ShloMosaic

/-- The partner across the `y` axis. -/
def yP (c : Dev nD) : Dev nD := ⟨c.val ^^^ 4, Nat.xor_lt_two_pow (n := 4) c.isLt (by decide)⟩
/-- The partner across the `x` axis. -/
def xP (c : Dev nD) : Dev nD := ⟨c.val ^^^ 8, Nat.xor_lt_two_pow (n := 4) c.isLt (by decide)⟩
/-- The partner inside the `z` pair. -/
def zP (c : Dev nD) : Dev nD := ⟨c.val ^^^ 1, Nat.xor_lt_two_pow (n := 4) c.isLt (by decide)⟩

theorem yP_yP (c : Dev nD) : yP (yP c) = c := by revert c; decide
theorem xP_xP (c : Dev nD) : xP (xP c) = c := by revert c; decide
theorem zP_zP (c : Dev nD) : zP (zP c) = c := by revert c; decide
theorem yP_ne (c : Dev nD) : yP c ≠ c := by revert c; decide
theorem xP_ne (c : Dev nD) : xP c ≠ c := by revert c; decide
theorem zP_ne (c : Dev nD) : zP c ≠ c := by revert c; decide
theorem yP_ne_xP (c : Dev nD) : yP c ≠ xP c := by revert c; decide
theorem yP_ne_zP (c : Dev nD) : yP c ≠ zP c := by revert c; decide
theorem xP_ne_zP (c : Dev nD) : xP c ≠ zP c := by revert c; decide

/-- The `y` coordinate is flipped by `yP` and kept by the other two. -/
theorem y_yP (c : Dev nD) : ((yP c).val / 4) % 2 = 1 - (c.val / 4) % 2 := by revert c; decide
theorem y_xP (c : Dev nD) : ((xP c).val / 4) % 2 = (c.val / 4) % 2 := by revert c; decide
theorem y_zP (c : Dev nD) : ((zP c).val / 4) % 2 = (c.val / 4) % 2 := by revert c; decide

def yEquiv : Dev nD ≃ Dev nD := ⟨yP, yP, yP_yP, yP_yP⟩
def xEquiv : Dev nD ≃ Dev nD := ⟨xP, xP, xP_xP, xP_xP⟩
def zEquiv : Dev nD ≃ Dev nD := ⟨zP, zP, zP_zP, zP_zP⟩

/-! ## The device ids the kernel computes -/

theorem dev1_eq (c : Dev nD) : (⟨k0_dev1 c, k0_dev1_lt c⟩ : Dev nD) = yP c := by revert c; decide +kernel
theorem dev2_eq (c : Dev nD) : (⟨k0_dev2 c, k0_dev2_lt c⟩ : Dev nD) = xP c := by revert c; decide +kernel
theorem dev3_eq (c : Dev nD) : (⟨k0_dev3 c, k0_dev3_lt c⟩ : Dev nD) = zP c := by revert c; decide +kernel
theorem dev4_eq (c : Dev nD) : (⟨k0_dev4 c, k0_dev4_lt c⟩ : Dev nD) = yP c := by revert c; decide +kernel
theorem dev5_eq (c : Dev nD) : (⟨k0_dev5 c, k0_dev5_lt c⟩ : Dev nD) = yP c := by revert c; decide +kernel
theorem dev6_eq (c : Dev nD) : (⟨k0_dev6 c, k0_dev6_lt c⟩ : Dev nD) = yP c := by revert c; decide +kernel
theorem dev7_eq (c : Dev nD) : (⟨k0_dev7 c, k0_dev7_lt c⟩ : Dev nD) = yP c := by revert c; decide +kernel
theorem dev8_eq (c : Dev nD) : (⟨k0_dev8 c, k0_dev8_lt c⟩ : Dev nD) = yP c := by revert c; decide +kernel
theorem dev9_eq (c : Dev nD) : (⟨k0_dev9 c, k0_dev9_lt c⟩ : Dev nD) = yP c := by revert c; decide +kernel
theorem dev10_eq (c : Dev nD) : (⟨k0_dev10 c, k0_dev10_lt c⟩ : Dev nD) = yP c := by revert c; decide +kernel
theorem dev11_eq (c : Dev nD) : (⟨k0_dev11 c, k0_dev11_lt c⟩ : Dev nD) = yP c := by revert c; decide +kernel
theorem dev12_eq (c : Dev nD) : (⟨k0_dev12 c, k0_dev12_lt c⟩ : Dev nD) = yP c := by revert c; decide +kernel
theorem dev13_eq (c : Dev nD) : (⟨k0_dev13 c, k0_dev13_lt c⟩ : Dev nD) = yP c := by revert c; decide +kernel
theorem dev14_eq (c : Dev nD) : (⟨k0_dev14 c, k0_dev14_lt c⟩ : Dev nD) = yP c := by revert c; decide +kernel
theorem dev15_eq (c : Dev nD) : (⟨k0_dev15 c, k0_dev15_lt c⟩ : Dev nD) = yP c := by revert c; decide +kernel
theorem dev16_eq (c : Dev nD) : (⟨k0_dev16 c, k0_dev16_lt c⟩ : Dev nD) = yP c := by revert c; decide +kernel
theorem dev17_eq (c : Dev nD) : (⟨k0_dev17 c, k0_dev17_lt c⟩ : Dev nD) = yP c := by revert c; decide +kernel
theorem dev18_eq (c : Dev nD) : (⟨k0_dev18 c, k0_dev18_lt c⟩ : Dev nD) = yP c := by revert c; decide +kernel
theorem dev19_eq (c : Dev nD) : (⟨k0_dev19 c, k0_dev19_lt c⟩ : Dev nD) = yP c := by revert c; decide +kernel
theorem dev20_eq (c : Dev nD) : (⟨k0_dev20 c, k0_dev20_lt c⟩ : Dev nD) = xP c := by revert c; decide +kernel
theorem dev21_eq (c : Dev nD) : (⟨k0_dev21 c, k0_dev21_lt c⟩ : Dev nD) = zP c := by revert c; decide +kernel
theorem dev22_eq (c : Dev nD) : (⟨k0_dev22 c, k0_dev22_lt c⟩ : Dev nD) = xP c := by revert c; decide +kernel
theorem dev23_eq (c : Dev nD) : (⟨k0_dev23 c, k0_dev23_lt c⟩ : Dev nD) = zP c := by revert c; decide +kernel
theorem dev24_eq (c : Dev nD) : (⟨k0_dev24 c, k0_dev24_lt c⟩ : Dev nD) = xP c := by revert c; decide +kernel
theorem dev25_eq (c : Dev nD) : (⟨k0_dev25 c, k0_dev25_lt c⟩ : Dev nD) = zP c := by revert c; decide +kernel
theorem dev26_eq (c : Dev nD) : (⟨k0_dev26 c, k0_dev26_lt c⟩ : Dev nD) = xP c := by revert c; decide +kernel
theorem dev27_eq (c : Dev nD) : (⟨k0_dev27 c, k0_dev27_lt c⟩ : Dev nD) = zP c := by revert c; decide +kernel
theorem dev28_eq (c : Dev nD) : (⟨k0_dev28 c, k0_dev28_lt c⟩ : Dev nD) = xP c := by revert c; decide +kernel
theorem dev29_eq (c : Dev nD) : (⟨k0_dev29 c, k0_dev29_lt c⟩ : Dev nD) = zP c := by revert c; decide +kernel
theorem dev30_eq (c : Dev nD) : (⟨k0_dev30 c, k0_dev30_lt c⟩ : Dev nD) = xP c := by revert c; decide +kernel
theorem dev31_eq (c : Dev nD) : (⟨k0_dev31 c, k0_dev31_lt c⟩ : Dev nD) = zP c := by revert c; decide +kernel
theorem dev32_eq (c : Dev nD) : (⟨k0_dev32 c, k0_dev32_lt c⟩ : Dev nD) = xP c := by revert c; decide +kernel
theorem dev33_eq (c : Dev nD) : (⟨k0_dev33 c, k0_dev33_lt c⟩ : Dev nD) = zP c := by revert c; decide +kernel
theorem dev34_eq (c : Dev nD) : (⟨k0_dev34 c, k0_dev34_lt c⟩ : Dev nD) = xP c := by revert c; decide +kernel
theorem dev35_eq (c : Dev nD) : (⟨k0_dev35 c, k0_dev35_lt c⟩ : Dev nD) = zP c := by revert c; decide +kernel
theorem dev36_eq (c : Dev nD) : (⟨k0_dev36 c, k0_dev36_lt c⟩ : Dev nD) = xP c := by revert c; decide +kernel
theorem dev37_eq (c : Dev nD) : (⟨k0_dev37 c, k0_dev37_lt c⟩ : Dev nD) = zP c := by revert c; decide +kernel
theorem dev38_eq (c : Dev nD) : (⟨k0_dev38 c, k0_dev38_lt c⟩ : Dev nD) = xP c := by revert c; decide +kernel
theorem dev39_eq (c : Dev nD) : (⟨k0_dev39 c, k0_dev39_lt c⟩ : Dev nD) = zP c := by revert c; decide +kernel
theorem dev40_eq (c : Dev nD) : (⟨k0_dev40 c, k0_dev40_lt c⟩ : Dev nD) = xP c := by revert c; decide +kernel
theorem dev41_eq (c : Dev nD) : (⟨k0_dev41 c, k0_dev41_lt c⟩ : Dev nD) = zP c := by revert c; decide +kernel
theorem dev42_eq (c : Dev nD) : (⟨k0_dev42 c, k0_dev42_lt c⟩ : Dev nD) = xP c := by revert c; decide +kernel
theorem dev43_eq (c : Dev nD) : (⟨k0_dev43 c, k0_dev43_lt c⟩ : Dev nD) = zP c := by revert c; decide +kernel
theorem dev44_eq (c : Dev nD) : (⟨k0_dev44 c, k0_dev44_lt c⟩ : Dev nD) = xP c := by revert c; decide +kernel
theorem dev45_eq (c : Dev nD) : (⟨k0_dev45 c, k0_dev45_lt c⟩ : Dev nD) = zP c := by revert c; decide +kernel
theorem dev46_eq (c : Dev nD) : (⟨k0_dev46 c, k0_dev46_lt c⟩ : Dev nD) = xP c := by revert c; decide +kernel
theorem dev47_eq (c : Dev nD) : (⟨k0_dev47 c, k0_dev47_lt c⟩ : Dev nD) = zP c := by revert c; decide +kernel
theorem dev48_eq (c : Dev nD) : (⟨k0_dev48 c, k0_dev48_lt c⟩ : Dev nD) = xP c := by revert c; decide +kernel
theorem dev49_eq (c : Dev nD) : (⟨k0_dev49 c, k0_dev49_lt c⟩ : Dev nD) = zP c := by revert c; decide +kernel
theorem dev50_eq (c : Dev nD) : (⟨k0_dev50 c, k0_dev50_lt c⟩ : Dev nD) = xP c := by revert c; decide +kernel
theorem dev51_eq (c : Dev nD) : (⟨k0_dev51 c, k0_dev51_lt c⟩ : Dev nD) = zP c := by revert c; decide +kernel
theorem dev52_eq (c : Dev nD) : (⟨k0_dev52 c, k0_dev52_lt c⟩ : Dev nD) = xP c := by revert c; decide +kernel
theorem dev53_eq (c : Dev nD) : (⟨k0_dev53 c, k0_dev53_lt c⟩ : Dev nD) = zP c := by revert c; decide +kernel
theorem dev54_eq (c : Dev nD) : (⟨k0_dev54 c, k0_dev54_lt c⟩ : Dev nD) = xP c := by revert c; decide +kernel
theorem dev55_eq (c : Dev nD) : (⟨k0_dev55 c, k0_dev55_lt c⟩ : Dev nD) = zP c := by revert c; decide +kernel
theorem dev56_eq (c : Dev nD) : (⟨k0_dev56 c, k0_dev56_lt c⟩ : Dev nD) = xP c := by revert c; decide +kernel
theorem dev57_eq (c : Dev nD) : (⟨k0_dev57 c, k0_dev57_lt c⟩ : Dev nD) = zP c := by revert c; decide +kernel
theorem dev58_eq (c : Dev nD) : (⟨k0_dev58 c, k0_dev58_lt c⟩ : Dev nD) = xP c := by revert c; decide +kernel
theorem dev59_eq (c : Dev nD) : (⟨k0_dev59 c, k0_dev59_lt c⟩ : Dev nD) = zP c := by revert c; decide +kernel
theorem dev60_eq (c : Dev nD) : (⟨k0_dev60 c, k0_dev60_lt c⟩ : Dev nD) = xP c := by revert c; decide +kernel
theorem dev61_eq (c : Dev nD) : (⟨k0_dev61 c, k0_dev61_lt c⟩ : Dev nD) = zP c := by revert c; decide +kernel
theorem dev62_eq (c : Dev nD) : (⟨k0_dev62 c, k0_dev62_lt c⟩ : Dev nD) = xP c := by revert c; decide +kernel
theorem dev63_eq (c : Dev nD) : (⟨k0_dev63 c, k0_dev63_lt c⟩ : Dev nD) = zP c := by revert c; decide +kernel
theorem dev64_eq (c : Dev nD) : (⟨k0_dev64 c, k0_dev64_lt c⟩ : Dev nD) = xP c := by revert c; decide +kernel
theorem dev65_eq (c : Dev nD) : (⟨k0_dev65 c, k0_dev65_lt c⟩ : Dev nD) = zP c := by revert c; decide +kernel
theorem dev66_eq (c : Dev nD) : (⟨k0_dev66 c, k0_dev66_lt c⟩ : Dev nD) = xP c := by revert c; decide +kernel
theorem dev67_eq (c : Dev nD) : (⟨k0_dev67 c, k0_dev67_lt c⟩ : Dev nD) = zP c := by revert c; decide +kernel

end Cert.Kernel.A2A

end
-- ==== Proof.BProto.lean ====
import proofs.«900640_g7700000000000641_dist_a2a_v7x_xyz2x2x4_y_m4096_n1024_f32_1_alg».proof.Proof.Gen.Kernel.Frame
import proofs.«900640_g7700000000000641_dist_a2a_v7x_xyz2x2x4_y_m4096_n1024_f32_1_alg».proof.Proof.BMesh
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

/-!
# The all-to-all's protocol: cells, contents, schedule

Every device cuts its other-half rows into four quarters of sixteen 64-row chunks. Chunk `i` of the quarter a
device loads itself travels to its `y` partner; from there a copy goes on to that device's `x` partner and one to
its `z` partner; and of those second-hand copies one more goes across the remaining axis. So every chunk a device
ever receives is the chunk some device `d` loaded from its own input, `chunk d i`, and the four receive families
differ only in which `d`: the `y` partner, the `y` partner of the `x` partner, of the `z` partner, of both.

One round per cell. The barrier cell has three unit duties, one from each partner, each handing over the landing
buffers that partner will write into. Every send and receive cell has one duty of a chunk's credit: a receive cell's
payload is the landing chunk at its exact contents, a send cell's the source share coming back.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## Memrefs -/

abbrev aM : Memref sig .tc .hbm S4096x2048 .f32 := Memref.whole main_arg0
abbrev oM : Memref sig .tc .hbm S8192x1024 .f32 := Memref.whole main_v1
abbrev sM : Memref sig .tc .vmem S16x64x1024 .f32 := Memref.whole cc0_scratch0
abbrev rM : Memref sig .tc .vmem S16x64x1024 .f32 := Memref.whole cc0_scratch1
abbrev xrM : Memref sig .tc .vmem S16x64x1024 .f32 := Memref.whole cc0_scratch2
abbrev zrM : Memref sig .tc .vmem S16x64x1024 .f32 := Memref.whole cc0_scratch3
abbrev lM : Memref sig .tc .vmem S4096x1024 .f32 := Memref.whole cc0_scratch4

theorem slab_inb (i : Fin 16) : ∀ a, (![i.val, 0, 0] : Fin 3 → Nat) a + S1x64x1024.size a ≤ S16x64x1024.size a := by
  intro a
  fin_cases a
  · show i.val + 1 ≤ 16; omega
  · show 0 + 64 ≤ 64; omega
  · show 0 + 1024 ≤ 1024; omega

/-- Chunk `i` of a 16 × 64 × 1024 scratch buffer, as a 64 × 1024 memref. -/
abbrev slab (M : Memref sig .tc .vmem S16x64x1024 .f32) (i : Fin 16) : Memref sig .tc .vmem S64x1024 .f32 :=
  (M.slice (Rect.unit (s := S16x64x1024) ![i.val, 0, 0] S1x64x1024.size (slab_inb i)) (fun _ => rfl)).squeeze S64x1024 squeezes_S1x64x1024_S64x1024

/-- The word by which the program names chunk `i`'s row offset inside a quarter. -/
abbrev wd (i : Fin 16) : BitVec 32 := BitVec.ofNat 32 (64 * i.val)

/-- The 64 input rows device `d` loads as its chunk `i`. -/
abbrev aWin (d : Dev nD) (i : Fin 16) : Memref sig .tc .hbm S64x1024 .f32 :=
  aM.slice (Rect.unit (s := S4096x2048) (k0_off1 d (wd i)) S64x1024.size (k0_off1_inb d i)) (fun _ => rfl)
/-- Sixty-four result rows starting where `off` says. -/
abbrev oRow (off : Fin 2 → Nat) (h : ∀ a, off a + S64x1024.size a ≤ S8192x1024.size a) : Memref sig .tc .hbm S64x1024 .f32 :=
  oM.slice (Rect.unit (s := S8192x1024) off S64x1024.size h) (fun _ => rfl)
/-- The result rows device `d` stores chunk `i` of the quarter it got from its `y` partner into; -/
abbrev oRowY (d : Dev nD) (i : Fin 16) : Memref sig .tc .hbm S64x1024 .f32 := oRow (k0_off4 d (wd i)) (k0_off4_inb d i)
/-- of the quarter that came on through its `x` partner; -/
abbrev oRowX (d : Dev nD) (i : Fin 16) : Memref sig .tc .hbm S64x1024 .f32 := oRow (k0_off5 d (wd i)) (k0_off5_inb d i)
/-- through its `z` partner. -/
abbrev oRowZ (d : Dev nD) (i : Fin 16) : Memref sig .tc .hbm S64x1024 .f32 := oRow (k0_off6 d (wd i)) (k0_off6_inb d i)

/-- Who writes chunk `i` of device `c`'s fourth quarter: its `x` partner for even `i`, its `z` partner for odd. -/
def qP (c : Dev nD) (i : Fin 16) : Dev nD := if i.val % 2 = 0 then xP c else zP c
/-- Where those rows start, as the writer computes it: it forwards a chunk it stored at the same rows of its own result. -/
def qOff (c : Dev nD) (i : Fin 16) : Fin 2 → Nat := if i.val % 2 = 0 then k0_off6 (xP c) (wd i) else k0_off5 (zP c) (wd i)
theorem qOff_inb (c : Dev nD) (i : Fin 16) : ∀ a, qOff c i a + S64x1024.size a ≤ S8192x1024.size a := by
  unfold qOff; split
  · exact k0_off6_inb (xP c) i
  · exact k0_off5_inb (zP c) i
abbrev oRowQ (c : Dev nD) (i : Fin 16) : Memref sig .tc .hbm S64x1024 .f32 := oRow (qOff c i) (qOff_inb c i)

/-! ## Cells -/

abbrev barS : Sem sig := (SemArray.scalar (sig.barrier 0 rfl) : Sems sig S_).sem

/-- The eight families of chunk cells: a send and a receive cell for each of the four hops. -/
abbrev Fam : Type := Fin 8
abbrev Fam.ys : Fam := 0
abbrev Fam.yr : Fam := 1
abbrev Fam.xs : Fam := 2
abbrev Fam.xr : Fam := 3
abbrev Fam.zs : Fam := 4
abbrev Fam.zr : Fam := 5
abbrev Fam.qs : Fam := 6
abbrev Fam.qr : Fam := 7

/-- Where a family's cells start among the DMA semaphores (the fourth hop alternates between two arrays). -/
def Fam.base (f : Fam) (i : Fin 16) : ℕ :=
  match f with
  | 0 => 64 | 1 => 80 | 2 => 96 | 3 => 112 | 4 => 128 | 5 => 144
  | 6 => if i.val % 2 = 0 then 160 else 192
  | 7 => if i.val % 2 = 0 then 176 else 208

theorem Fam.base_lt (f : Fam) (i : Fin 16) : f.base i + i.val < 226 := by
  revert f i; decide

/-- The family's cell for chunk `i`. -/
def Fam.sem (f : Fam) (i : Fin 16) : DmaSem sig := ⟨f.base i + i.val, f.base_lt i⟩

abbrev barCell (c : Dev nD) : GSem nD τ sig := ((c : Thread nD τ), .reg barS)
abbrev fcell (c : Dev nD) (f : Fam) (i : Fin 16) : GSem nD τ sig := ((c : Thread nD τ), .dma (f.sem i))

/-- A chunk's DMA credit. -/
abbrev N : ℕ := (slab rM 0).view.dmaCredit
theorem N_pos : 0 < N := View.dmaCredit_pos _ (by decide)

/-! ## Contents -/

variable (m : (ℓ : Loc nD τ sig) → Buf (Elt F) ℓ)

/-- The chunk device `d` loads as its `i`-th: 64 rows of its own input, read through the load's source window. -/
def chunk (d : Dev nD) (i : Fin 16) : Vec F S64x1024 .f32 :=
  (aWin d i).view.read (Elt F) (m ((d : Thread nD τ).loc main_arg0))

/-- A scratch buffer every chunk of which holds `v`. -/
def slabBuf (v : Vec F S64x1024 .f32) : S16x64x1024.Idx → Elt F .f32 := fun j => v (ix2 (j 1) (j 2))
/-- A result array every aligned block of 64 rows of which holds `v`. -/
def rowBuf (v : Vec F S64x1024 .f32) : S8192x1024.Idx → Elt F .f32 :=
  fun j => v (ix2 (⟨(j 0).val % 64, Nat.mod_lt _ (by decide)⟩ : Fin 64) (j 1))

/-! ## Payloads -/

/-- Shares of a chunk read by three copies at once (two addressed, one local), and by two. -/
abbrev qX : PosShare TreeShare := fullShare.left
abbrev qZ : PosShare TreeShare := fullShare.right.left
abbrev qS : PosShare TreeShare := fullShare.right.right
abbrev qH : PosShare TreeShare := fullShare.right

/-- Chunk `i` of each scratch buffer on device `d`: at share `q` holding `v`, and whole at some contents. -/
abbrev sPts (d : Dev nD) (i : Fin 16) (q : PosShare TreeShare) (v : Vec F S64x1024 .f32) : sProp 𝕄 :=
  ((slab sM i).view.loc (d : Thread nD τ)) ↦[(slab sM i).view.set]{q} slabBuf v
abbrev sAny (d : Dev nD) (i : Fin 16) : sProp 𝕄 :=
  iprop(∃ f, ((slab sM i).view.loc (d : Thread nD τ)) ↦[(slab sM i).view.set]{fullShare} f)
abbrev rPts (d : Dev nD) (i : Fin 16) (q : PosShare TreeShare) (v : Vec F S64x1024 .f32) : sProp 𝕄 :=
  ((slab rM i).view.loc (d : Thread nD τ)) ↦[(slab rM i).view.set]{q} slabBuf v
abbrev rAny (d : Dev nD) (i : Fin 16) : sProp 𝕄 :=
  iprop(∃ f, ((slab rM i).view.loc (d : Thread nD τ)) ↦[(slab rM i).view.set]{fullShare} f)
abbrev xrPts (d : Dev nD) (i : Fin 16) (q : PosShare TreeShare) (v : Vec F S64x1024 .f32) : sProp 𝕄 :=
  ((slab xrM i).view.loc (d : Thread nD τ)) ↦[(slab xrM i).view.set]{q} slabBuf v
abbrev xrAny (d : Dev nD) (i : Fin 16) : sProp 𝕄 :=
  iprop(∃ f, ((slab xrM i).view.loc (d : Thread nD τ)) ↦[(slab xrM i).view.set]{fullShare} f)
abbrev zrPts (d : Dev nD) (i : Fin 16) (q : PosShare TreeShare) (v : Vec F S64x1024 .f32) : sProp 𝕄 :=
  ((slab zrM i).view.loc (d : Thread nD τ)) ↦[(slab zrM i).view.set]{q} slabBuf v
abbrev zrAny (d : Dev nD) (i : Fin 16) : sProp 𝕄 :=
  iprop(∃ f, ((slab zrM i).view.loc (d : Thread nD τ)) ↦[(slab zrM i).view.set]{fullShare} f)
/-- Sixty-four result rows at `off` on device `d`, holding `v`; and at some contents. -/
abbrev rowPts (off : Fin 2 → Nat) (h : ∀ a, off a + S64x1024.size a ≤ S8192x1024.size a) (d : Dev nD) (v : Vec F S64x1024 .f32) : sProp 𝕄 :=
  ((oRow off h).view.loc (d : Thread nD τ)) ↦[(oRow off h).view.set]{fullShare} rowBuf v
abbrev rowAny (off : Fin 2 → Nat) (h : ∀ a, off a + S64x1024.size a ≤ S8192x1024.size a) (d : Dev nD) : sProp 𝕄 :=
  iprop(∃ f, ((oRow off h).view.loc (d : Thread nD τ)) ↦[(oRow off h).view.set]{fullShare} f)

/-- What family `f`'s cell for chunk `i` on device `c` hands its owner: a receive cell the landed chunk, already cut
    into the shares its readers take at once (a first-hop chunk is read by two onward copies and a local store, a
    second-hop chunk by at most one onward copy and a local store); a send cell the source share the copy was lent. -/
def famPay (c : Dev nD) (f : Fam) (i : Fin 16) : sProp 𝕄 :=
  match f with
  | 0 => sPts c i fullShare (chunk m c i)
  | 1 => iprop(rPts c i qX (chunk m (yP c) i) ∗ rPts c i qZ (chunk m (yP c) i) ∗ rPts c i qS (chunk m (yP c) i))
  | 2 => rPts c i qX (chunk m (yP c) i)
  | 3 => iprop(xrPts c i qX (chunk m (yP (xP c)) i) ∗ xrPts c i qH (chunk m (yP (xP c)) i))
  | 4 => rPts c i qZ (chunk m (yP c) i)
  | 5 => iprop(zrPts c i qX (chunk m (yP (zP c)) i) ∗ zrPts c i qH (chunk m (yP (zP c)) i))
  | 6 => if i.val % 2 = 0 then zrPts c i qX (chunk m (yP (zP c)) i) else xrPts c i qX (chunk m (yP (xP c)) i)
  | 7 => rowPts (qOff c i) (qOff_inb c i) c (chunk m (yP (xP (zP c))) i)

/-- What the partner across axis `d` (0: `y`, 1: `x`, 2: `z`) hands device `c` with its barrier signal: the landing
    chunks it offers for `c`'s copies along that axis — its scratch chunks, and for `x` and `z` also the rows of its
    fourth quarter that `c` will write. -/
def barPay (c : Dev nD) (d : Fin 3) : sProp 𝕄 :=
  match d with
  | 0 => bigSep Finset.univ fun i : Fin 16 => rAny (F := F) (yP c) i
  | 1 => iprop((bigSep Finset.univ fun i : Fin 16 => xrAny (F := F) (xP c) i)
        ∗ bigSep (Finset.univ.filter fun i : Fin 16 => i.val % 2 = 0) fun i => rowAny (F := F) (k0_off6 c (wd i)) (k0_off6_inb c i) (xP c))
  | 2 => iprop((bigSep Finset.univ fun i : Fin 16 => zrAny (F := F) (zP c) i)
        ∗ bigSep (Finset.univ.filter fun i : Fin 16 => i.val % 2 = 1) fun i => rowAny (F := F) (k0_off5 c (wd i)) (k0_off5_inb c i) (zP c))

/-! ## The schedule -/

/-- Which family and chunk a DMA semaphore is the cell of, if any. -/
def famOf (k : DmaSem sig) : Option (Fam × Fin 16) :=
  if h : 64 ≤ k.val ∧ k.val < 160 then
    some (⟨(k.val - 64) / 16, by omega⟩, ⟨(k.val - 64) % 16, Nat.mod_lt _ (by decide)⟩)
  else if h : 160 ≤ k.val ∧ k.val < 176 ∧ k.val % 2 = 0 then some (6, ⟨k.val - 160, by omega⟩)
  else if h : 176 ≤ k.val ∧ k.val < 192 ∧ k.val % 2 = 0 then some (7, ⟨k.val - 176, by omega⟩)
  else if h : 192 ≤ k.val ∧ k.val < 208 ∧ k.val % 2 = 1 then some (6, ⟨k.val - 192, by omega⟩)
  else if h : 208 ≤ k.val ∧ k.val < 224 ∧ k.val % 2 = 1 then some (7, ⟨k.val - 208, by omega⟩)
  else none

theorem famOf_sem (f : Fam) (i : Fin 16) : famOf (f.sem i) = some (f, i) := by
  revert f i; decide

/-- One round. The barrier cell: three unit duties. A chunk cell: one duty of the chunk's credit. -/
def sched : Rounds.Schedule (GSem nD τ sig) (Fin 3) 𝕄 where
  duties g r :=
    if r = 0 ∧ g.1.2 = .tc then
      (match g.2 with
        | .reg s => if s = barS then Finset.univ else ∅
        | .dma k => if (famOf k).isSome then {0} else ∅)
    else ∅
  amount g _ _ := match g.2 with | .reg _ => 1 | .dma _ => N
  payload g _ d :=
    match g.2 with
    | .reg _ => barPay (F := F) g.1.1 d
    | .dma k => match famOf k with
      | some (f, i) => famPay m g.1.1 f i
      | none => iprop(emp)
  amount_pos g _ _ _ := by
    cases g.2 with
    | reg _ => exact Nat.one_pos
    | dma _ => exact N_pos

/-! ## Cells, indexed -/

/-- A device's cells: the barrier cell (`none`) and the 128 chunk cells. -/
abbrev CK : Type := Option (Fam × Fin 16)
abbrev csem : CK → SemLoc sig
  | none => .reg barS
  | some (f, i) => .dma (f.sem i)
abbrev kcell (ck : Dev nD × CK) : GSem nD τ sig := ((ck.1 : Thread nD τ), csem ck.2)

/-! ## What a device owes at launch, and the levels -/

/-- Device `c` owes every landing it will cause — sixteen chunks to its `y` partner, sixteen each to its `x` and `z`
    partners, and the sixteen of the fourth hop, even ones to the `x` partner and odd ones to the `z` partner — and
    one barrier unit to each partner; written as a plain sum in the order the program pays (the barrier units last,
    so that they peel first). -/
def O₀ (c : Dev nD) : CellTallies nD τ sig Unit :=
  tallyAt (fcell (yP c) Fam.yr 0) () N
    + tallyAt (fcell (yP c) Fam.yr 1) () N
    + tallyAt (fcell (yP c) Fam.yr 2) () N
    + tallyAt (fcell (yP c) Fam.yr 3) () N
    + tallyAt (fcell (yP c) Fam.yr 4) () N
    + tallyAt (fcell (yP c) Fam.yr 5) () N
    + tallyAt (fcell (yP c) Fam.yr 6) () N
    + tallyAt (fcell (yP c) Fam.yr 7) () N
    + tallyAt (fcell (yP c) Fam.yr 8) () N
    + tallyAt (fcell (yP c) Fam.yr 9) () N
    + tallyAt (fcell (yP c) Fam.yr 10) () N
    + tallyAt (fcell (yP c) Fam.yr 11) () N
    + tallyAt (fcell (yP c) Fam.yr 12) () N
    + tallyAt (fcell (yP c) Fam.yr 13) () N
    + tallyAt (fcell (yP c) Fam.yr 14) () N
    + tallyAt (fcell (yP c) Fam.yr 15) () N
    + tallyAt (fcell (xP c) Fam.xr 0) () N
    + tallyAt (fcell (zP c) Fam.zr 0) () N
    + tallyAt (fcell (xP c) Fam.xr 1) () N
    + tallyAt (fcell (zP c) Fam.zr 1) () N
    + tallyAt (fcell (xP c) Fam.xr 2) () N
    + tallyAt (fcell (zP c) Fam.zr 2) () N
    + tallyAt (fcell (xP c) Fam.xr 3) () N
    + tallyAt (fcell (zP c) Fam.zr 3) () N
    + tallyAt (fcell (xP c) Fam.xr 4) () N
    + tallyAt (fcell (zP c) Fam.zr 4) () N
    + tallyAt (fcell (xP c) Fam.xr 5) () N
    + tallyAt (fcell (zP c) Fam.zr 5) () N
    + tallyAt (fcell (xP c) Fam.xr 6) () N
    + tallyAt (fcell (zP c) Fam.zr 6) () N
    + tallyAt (fcell (xP c) Fam.xr 7) () N
    + tallyAt (fcell (zP c) Fam.zr 7) () N
    + tallyAt (fcell (xP c) Fam.xr 8) () N
    + tallyAt (fcell (zP c) Fam.zr 8) () N
    + tallyAt (fcell (xP c) Fam.xr 9) () N
    + tallyAt (fcell (zP c) Fam.zr 9) () N
    + tallyAt (fcell (xP c) Fam.xr 10) () N
    + tallyAt (fcell (zP c) Fam.zr 10) () N
    + tallyAt (fcell (xP c) Fam.xr 11) () N
    + tallyAt (fcell (zP c) Fam.zr 11) () N
    + tallyAt (fcell (xP c) Fam.xr 12) () N
    + tallyAt (fcell (zP c) Fam.zr 12) () N
    + tallyAt (fcell (xP c) Fam.xr 13) () N
    + tallyAt (fcell (zP c) Fam.zr 13) () N
    + tallyAt (fcell (xP c) Fam.xr 14) () N
    + tallyAt (fcell (zP c) Fam.zr 14) () N
    + tallyAt (fcell (xP c) Fam.xr 15) () N
    + tallyAt (fcell (zP c) Fam.zr 15) () N
    + tallyAt (fcell (xP c) Fam.qr 0) () N
    + tallyAt (fcell (zP c) Fam.qr 1) () N
    + tallyAt (fcell (xP c) Fam.qr 2) () N
    + tallyAt (fcell (zP c) Fam.qr 3) () N
    + tallyAt (fcell (xP c) Fam.qr 4) () N
    + tallyAt (fcell (zP c) Fam.qr 5) () N
    + tallyAt (fcell (xP c) Fam.qr 6) () N
    + tallyAt (fcell (zP c) Fam.qr 7) () N
    + tallyAt (fcell (xP c) Fam.qr 8) () N
    + tallyAt (fcell (zP c) Fam.qr 9) () N
    + tallyAt (fcell (xP c) Fam.qr 10) () N
    + tallyAt (fcell (zP c) Fam.qr 11) () N
    + tallyAt (fcell (xP c) Fam.qr 12) () N
    + tallyAt (fcell (zP c) Fam.qr 13) () N
    + tallyAt (fcell (xP c) Fam.qr 14) () N
    + tallyAt (fcell (zP c) Fam.qr 15) () N
    + tallyAt (barCell (zP c)) () 1 + tallyAt (barCell (xP c)) () 1 + tallyAt (barCell (yP c)) () 1

def L (g : GSem nD τ sig) : Finset Unit := if g.1.2 = .tc then {()} else ∅
/-- Barrier cells at 1; the first hop's receive cells at 2, the second hop's at 3, the fourth quarter's at 4; everything
    else (send cells, the local copies' cells) at 0: every wait a device makes while it still owes a landing is on a
    cell below that landing's. -/
def lv (g : GSem nD τ sig) (_ : Unit) : ℕ :=
  match g.2 with
  | .reg s => if s = barS then 1 else 0
  | .dma k => match famOf k with
    | some (f, _) => if f = Fam.yr then 2 else if f = Fam.xr ∨ f = Fam.zr then 3 else if f = Fam.qr then 4 else 0
    | none => 0

end Cert.Kernel.A2A

end
-- ==== Proof.BGhost.lean ====
import proofs.«900640_g7700000000000641_dist_a2a_v7x_xyz2x2x4_y_m4096_n1024_f32_1_alg».proof.Proof.BProto

/-!
# Ghost state and proof data

What a device's body starts from and ends with. All cells' invariants and the fact that every cell has reached its
one round are shared by everyone (`records`); a device keeps its own cells' positions, and holds the token of every
duty it pays itself: one barrier duty at each partner, the arrival duty of every chunk it sends, the departure
duty of each of its own send cells.

The result. Row `R` of device `c`'s result is row `R mod 4096` of the input block of a device whose `y`
coordinate is `R / 4096`: `c` itself for its own half, and for quarter `q` of the other half the device across `y`
whose `x` coordinate and `z` parity spell `q`. The columns are `c`'s own column half.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The result -/

/-- The `y` coordinate of a device. -/
def yOf (c : Dev nD) : ℕ := (c.val / 4) % 2

/-- The device whose loaded chunks fill quarter `q` of `c`'s other half: across `y`, with `x` coordinate `q / 2` and
    `z` parity `q mod 2`, in `c`'s own `z` pair. -/
def srcDev (c : Dev nD) (q : ℕ) : Dev nD :=
  ⟨(8 * ((q / 2) % 2) + 4 * (1 - yOf c) + 2 * ((c.val % 4) / 2) + q % 2) % 16, Nat.mod_lt _ (by decide)⟩

/-- Whose input block row `R` of `c`'s result comes from. -/
def srcOf (c : Dev nD) (R : ℕ) : Dev nD := if R / 4096 = yOf c then c else srcDev c ((R % 4096) / 1024)

/-- Device `c`'s result. -/
def outC (c : Dev nD) : S8192x1024.Idx → Elt F .f32 := fun j =>
  (m (((srcOf c (j 0).val : Dev nD) : Thread nD τ).loc main_arg0) : S4096x2048.Idx → Elt F .f32)
    (ix2 (⟨(j 0).val % 4096, Nat.mod_lt _ (by decide)⟩ : Fin 4096)
      (⟨(1024 * yOf c + (j 1).val) % 2048, Nat.mod_lt _ (by decide)⟩ : Fin 2048))

/-- The 4096 result rows a device fills from its own input, and the 4096 × 1024 input window they come from. -/
abbrev oOwn (c : Dev nD) : Memref sig .tc .hbm S4096x1024 .f32 :=
  oM.slice (Rect.unit (s := S8192x1024) (k0_off3 c) S4096x1024.size (k0_off3_inb c)) (fun _ => rfl)
abbrev aOwn (c : Dev nD) : Memref sig .tc .hbm S4096x1024 .f32 :=
  aM.slice (Rect.unit (s := S4096x2048) (k0_off2 c) S4096x1024.size (k0_off2_inb c)) (fun _ => rfl)
/-- What those rows end holding: the device's own column half of its input block. -/
def ownHalf (c : Dev nD) : Vec F S4096x1024 .f32 := (aOwn c).view.read (Elt F) (m ((c : Thread nD τ).loc main_arg0))

/-! ## Ghost state -/

section Ghost
variable (K : Dev nD × CK → ℕ)

/-- Every cell's invariant, and that every cell has reached its round: persistent, the same for every device. -/
def records : sProp 𝕄 :=
  iprop((bigSep Finset.univ fun ck : Dev nD × CK => cellInv ER (sched m) (K ck) (kcell ck))
    ∗ bigSep Finset.univ fun ck : Dev nD × CK => reached ER (kcell ck) 0)

/-- A device's positions in its own cells. -/
def positions (c : Dev nD) : sProp 𝕄 := bigSep Finset.univ fun k : CK => atPos ER (kcell (c, k)) 0 ∅ 0

/-- The tokens of the duties device `c` pays. -/
def payToks (c : Dev nD) : sProp 𝕄 :=
  iprop(dutyTok ER (barCell (yP c)) 0 0 ∗ dutyTok ER (barCell (xP c)) 0 1 ∗ dutyTok ER (barCell (zP c)) 0 2
    ∗ bigSep Finset.univ fun i : Fin 16 =>
        iprop(dutyTok ER (fcell c Fam.ys i) 0 0 ∗ dutyTok ER (fcell (yP c) Fam.yr i) 0 0
          ∗ dutyTok ER (fcell c Fam.xs i) 0 0 ∗ dutyTok ER (fcell (xP c) Fam.xr i) 0 0
          ∗ dutyTok ER (fcell c Fam.zs i) 0 0 ∗ dutyTok ER (fcell (zP c) Fam.zr i) 0 0
          ∗ dutyTok ER (fcell c Fam.qs i) 0 0 ∗ dutyTok ER (fcell (qP c i) Fam.qr i) 0 0))

def ghost (c : Dev nD) : sProp 𝕄 := iprop(records m K ∗ positions (F := F) c ∗ payToks (F := F) c)

end Ghost

/-- The kernel's DMA semaphores that are no chunk cell — the local copies' and the unused ones — at zero. -/
def localSems (c : Dev nD) : sProp 𝕄 :=
  bigSep (Finset.univ.filter fun k : DmaSem sig => (famOf k).isSome = false) fun k => semVal ((c : Thread nD τ), .dma k) 0

/-- The credit a device is dealt at launch: three units on its barrier cell, a chunk's credit on each receive cell. -/
def credsOf (c : Dev nD) : sProp 𝕄 :=
  iprop(cred (tallyAt (barCell c) () 3) ∗ bigSep Finset.univ (fun i : Fin 16 =>
    iprop(cred (tallyAt (fcell c Fam.yr i) () N) ∗ cred (tallyAt (fcell c Fam.xr i) () N)
      ∗ cred (tallyAt (fcell c Fam.zr i) () N) ∗ cred (tallyAt (fcell c Fam.qr i) () N))))

/-- The two arrays, whole. -/
abbrev argPts (c : Dev nD) : sProp 𝕄 := (((c : Thread nD τ).loc main_arg0) ↦{fullShare} m ((c : Thread nD τ).loc main_arg0))
abbrev resPts (c : Dev nD) (f : Buf (Elt F) ((c : Thread nD τ).loc main_v1)) : sProp 𝕄 := (((c : Thread nD τ).loc main_v1) ↦{fullShare} f)

/-- The five scratch buffers, each whole at some contents. -/
def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What a device's body starts from, before its scratch buffers: the ghost state at some names, the local
    semaphores at zero, its launch credit, the levels, and its two arrays as launched. -/
def start (c : Dev nD) : sProp 𝕄 :=
  iprop((∃ K, ghost m K c) ∗ localSems (F := F) c ∗ credsOf (F := F) c ∗ levAts L lv ∗ argPts m c ∗ resPts c (m ((c : Thread nD τ).loc main_v1)))

def Φ₀ (c : Dev nD) : sProp 𝕄 := iprop(start m c ∗ scratchAny (F := F) c)

/-- All of the kernel's own DMA semaphores, as the launch indexes them. -/
abbrev osem : DmaSem sig → SemLoc sig := fun k => .dma k

/-- After the body: the input as launched, the result at its value, the scratch buffers at some contents, every
    own semaphore back at zero. -/
def Φ₁ (c : Dev nD) : sProp 𝕄 :=
  iprop(argPts m c ∗ resPts c (outC m c) ∗ scratchAny (F := F) c ∗ Pipeline.ownSems0 osem c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.A2A

end
-- ==== Proof.BTables.lean ====
import proofs.«900640_g7700000000000641_dist_a2a_v7x_xyz2x2x4_y_m4096_n1024_f32_1_alg».proof.Proof.BProto

/-!
# The schedule's tables

What the one-round schedule says at each cell, for a symbolic device, family, chunk and duty: the barrier cell has
the three unit duties, each chunk cell the one duty of a chunk's credit; the payloads are the ones the protocol names.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## The payloads, family by family -/

section Pay
variable (c : Dev nD) (i : Fin 16)

theorem famPay_ys : famPay m c Fam.ys i = sPts c i fullShare (chunk m c i) := rfl
theorem famPay_yr : famPay m c Fam.yr i
    = iprop(rPts c i qX (chunk m (yP c) i) ∗ rPts c i qZ (chunk m (yP c) i) ∗ rPts c i qS (chunk m (yP c) i)) := rfl
theorem famPay_xs : famPay m c Fam.xs i = rPts c i qX (chunk m (yP c) i) := rfl
theorem famPay_xr : famPay m c Fam.xr i
    = iprop(xrPts c i qX (chunk m (yP (xP c)) i) ∗ xrPts c i qH (chunk m (yP (xP c)) i)) := rfl
theorem famPay_zs : famPay m c Fam.zs i = rPts c i qZ (chunk m (yP c) i) := rfl
theorem famPay_zr : famPay m c Fam.zr i
    = iprop(zrPts c i qX (chunk m (yP (zP c)) i) ∗ zrPts c i qH (chunk m (yP (zP c)) i)) := rfl
theorem famPay_qs : famPay m c Fam.qs i
    = if i.val % 2 = 0 then zrPts c i qX (chunk m (yP (zP c)) i) else xrPts c i qX (chunk m (yP (xP c)) i) := rfl
theorem famPay_qr : famPay m c Fam.qr i = rowPts (qOff c i) (qOff_inb c i) c (chunk m (yP (xP (zP c))) i) := rfl

/-- The fourth hop's send cell at an even chunk hands back the share of the chunk that came through the `z` partner; -/
theorem famPay_qs_even (h : i.val % 2 = 0) : famPay m c Fam.qs i = zrPts c i qX (chunk m (yP (zP c)) i) := by
  rw [famPay_qs, if_pos h]
/-- at an odd chunk, of the one that came through the `x` partner. -/
theorem famPay_qs_odd (h : ¬ i.val % 2 = 0) : famPay m c Fam.qs i = xrPts c i qX (chunk m (yP (xP c)) i) := by
  rw [famPay_qs, if_neg h]

theorem barPay_0 : barPay (F := F) c 0 = bigSep Finset.univ fun i : Fin 16 => rAny (F := F) (yP c) i := rfl
theorem barPay_1 : barPay (F := F) c 1
    = iprop((bigSep Finset.univ fun i : Fin 16 => xrAny (F := F) (xP c) i)
        ∗ bigSep (Finset.univ.filter fun i : Fin 16 => i.val % 2 = 0) fun i => rowAny (F := F) (k0_off6 c (wd i)) (k0_off6_inb c i) (xP c)) := rfl
theorem barPay_2 : barPay (F := F) c 2
    = iprop((bigSep Finset.univ fun i : Fin 16 => zrAny (F := F) (zP c) i)
        ∗ bigSep (Finset.univ.filter fun i : Fin 16 => i.val % 2 = 1) fun i => rowAny (F := F) (k0_off5 c (wd i)) (k0_off5_inb c i) (zP c)) := rfl

end Pay

/-! ## Every payload can be stored in a cell's invariant -/

instance famPay_storable (c : Dev nD) (f : Fam) (i : Fin 16) : BI.Storable (upEmb : UEmb _ 𝕄) (famPay m c f i) := by
  fin_cases f
  · show BI.Storable upEmb (sPts c i fullShare (chunk m c i)); infer_instance
  · show BI.Storable upEmb iprop(rPts c i qX (chunk m (yP c) i) ∗ rPts c i qZ (chunk m (yP c) i) ∗ rPts c i qS (chunk m (yP c) i)); infer_instance
  · show BI.Storable upEmb (rPts c i qX (chunk m (yP c) i)); infer_instance
  · show BI.Storable upEmb iprop(xrPts c i qX (chunk m (yP (xP c)) i) ∗ xrPts c i qH (chunk m (yP (xP c)) i)); infer_instance
  · show BI.Storable upEmb (rPts c i qZ (chunk m (yP c) i)); infer_instance
  · show BI.Storable upEmb iprop(zrPts c i qX (chunk m (yP (zP c)) i) ∗ zrPts c i qH (chunk m (yP (zP c)) i)); infer_instance
  · show BI.Storable upEmb (if i.val % 2 = 0 then zrPts c i qX (chunk m (yP (zP c)) i) else xrPts c i qX (chunk m (yP (xP c)) i))
    split <;> infer_instance
  · show BI.Storable upEmb (rowPts (qOff c i) (qOff_inb c i) c (chunk m (yP (xP (zP c))) i)); infer_instance

instance barPay_storable (c : Dev nD) (d : Fin 3) : BI.Storable (upEmb : UEmb _ 𝕄) (barPay (F := F) c d) := by
  fin_cases d
  · rw [show barPay (F := F) c ((fun i => i) ⟨0, by decide⟩) = barPay (F := F) c 0 from rfl, barPay_0]; infer_instance
  · rw [show barPay (F := F) c ((fun i => i) ⟨1, by decide⟩) = barPay (F := F) c 1 from rfl, barPay_1]; infer_instance
  · rw [show barPay (F := F) c ((fun i => i) ⟨2, by decide⟩) = barPay (F := F) c 2 from rfl, barPay_2]; infer_instance

instance sched_payload_storable (g : GSem nD τ sig) (r : ℕ) (d : Fin 3) :
    BI.Storable (upEmb : UEmb _ 𝕄) ((sched (F := F) m).payload g r d) := by
  obtain ⟨t, s⟩ := g
  cases s with
  | reg s => exact barPay_storable t.1 d
  | dma k =>
    show BI.Storable upEmb (match famOf k with | some (f, i) => famPay m t.1 f i | none => iprop(emp))
    cases famOf k with
    | none => exact inferInstanceAs (BI.Storable upEmb (iprop(emp) : sProp 𝕄))
    | some fi => obtain ⟨f, i⟩ := fi; exact famPay_storable m t.1 f i

/-! ## The tables -/

section Sched
variable (c : Dev nD) (f : Fam) (i : Fin 16) (d : Fin 3)

theorem famOf_sem_isSome : (famOf (f.sem i)).isSome = true := by rw [famOf_sem]; rfl

theorem duties_bar : (sched m).duties (barCell c) 0 = Finset.univ := by
  show (if (0 : ℕ) = 0 ∧ ((c : Thread nD τ)).2 = .tc then (if barS = barS then (Finset.univ : Finset (Fin 3)) else ∅) else ∅) = Finset.univ
  rw [if_pos ⟨rfl, rfl⟩, if_pos rfl]

theorem duties_fam : (sched m).duties (fcell c f i) 0 = {0} := by
  show (if (0 : ℕ) = 0 ∧ ((c : Thread nD τ)).2 = .tc then (if (famOf (f.sem i)).isSome then ({0} : Finset (Fin 3)) else ∅) else ∅) = {0}
  rw [if_pos ⟨rfl, rfl⟩, if_pos (famOf_sem_isSome f i)]

theorem duties_later (g : GSem nD τ sig) : ∀ r, 1 ≤ r → (sched m).duties g r = ∅ :=
  fun r hr => by dsimp only [sched]; rw [if_neg fun h => by omega]

theorem amount_bar : (sched m).amount (barCell c) 0 d = 1 := rfl
theorem amount_fam : (sched m).amount (fcell c f i) 0 d = N := rfl

theorem expect_bar : (sched m).expect (barCell c) 0 = 3 := by
  unfold Schedule.expect Schedule.amountOf
  rw [duties_bar, Finset.sum_congr rfl fun d _ => amount_bar m c d, Finset.sum_const, Finset.card_univ, Fintype.card_fin, smul_eq_mul]

theorem expect_fam : (sched m).expect (fcell c f i) 0 = N := by
  unfold Schedule.expect Schedule.amountOf; rw [duties_fam, Finset.sum_singleton, amount_fam]

theorem payload_bar : (sched m).payload (barCell c) 0 d = barPay c d := rfl

theorem payload_fam : (sched m).payload (fcell c f i) 0 d = famPay m c f i := by
  show (match famOf (f.sem i) with | some (f, i) => famPay m c f i | none => iprop(emp)) = famPay m c f i
  rw [famOf_sem]

/-- The rest of a chunk cell's round, no duty taken: its one payload. -/
theorem rest_fam : bigSep ((sched m).duties (fcell c f i) 0 \ ∅) (fun d => (sched m).payload (fcell c f i) 0 d) = famPay m c f i := by
  rw [Finset.sdiff_empty, duties_fam, bigSep_singleton, payload_fam]

/-- The rest of the barrier cell's round, no duty taken: the three partners' payloads. -/
theorem rest_bar : bigSep ((sched m).duties (barCell c) 0 \ ∅) (fun d => (sched m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl

theorem not_unitless (g : GSem nD τ sig) : ¬ (sched m).unitless g := fun h => h

end Sched

/-! ## The cells are distinct -/

/-- A chunk cell names its family and chunk: `famOf` reads both back. -/
theorem fsem_injective : ∀ f f' i i', Fam.sem f i = Fam.sem f' i' → f = f' ∧ i = i' := by
  intro f f' i i' h
  have h' := congrArg famOf h
  rw [famOf_sem, famOf_sem] at h'
  exact Prod.mk.inj (Option.some.inj h')

theorem csem_injective : Function.Injective (csem : CK → SemLoc sig) := by
  rintro (_ | ⟨f, i⟩) (_ | ⟨f', i'⟩) h
  · rfl
  · exact absurd h (fun h => by cases h)
  · exact absurd h (fun h => by cases h)
  · have h' : Fam.sem f i = Fam.sem f' i' := SemLoc.dma.inj h
    obtain ⟨rfl, rfl⟩ := fsem_injective f f' i i' h'
    rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- info: 'Cert.Kernel.A2A.rest_bar' depends on axioms: [propext, Classical.choice, Quot.sound] -/
#guard_msgs in #print axioms rest_bar

/-- info: 'Cert.Kernel.A2A.sched_payload_storable' depends on axioms: [propext, Classical.choice, Quot.sound] -/
#guard_msgs in #print axioms sched_payload_storable

/-- info: 'Cert.Kernel.A2A.kcell_injective' depends on axioms: [propext, Classical.choice, Quot.sound] -/
#guard_msgs in #print axioms kcell_injective

end Cert.Kernel.A2A

end
-- ==== Proof.BLevels.lean ====
import proofs.«900640_g7700000000000641_dist_a2a_v7x_xyz2x2x4_y_m4096_n1024_f32_1_alg».proof.Proof.BProto

/-!
# Levels and launch credit

The deadlock-freedom side of the all-to-all. Every unit a device owes at launch is a landing on a partner's receive
cell or a unit on a partner's barrier cell, and those cells sit at levels 1 (barrier), 2 (first hop), 3 (second hop)
and 4 (fourth quarter); every other cell sits at 0. A device's waits go up through these levels in program order, so
each wait is on a cell strictly below everything the device still owes at that moment.

The same sum, read from the other side, is what the launch hands device `c`: its partners are involutions of the
mesh, so what all devices owe the cells of `c` is three barrier units and one chunk's credit on each receive cell.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## Which cells wait -/

theorem L_of_ne (g : GSem nD τ sig) (h : g.1.2 ≠ .tc) : L g = ∅ := if_neg h
theorem L_tc (c : Dev nD) (sm : SemLoc sig) : L ((c : Thread nD τ), sm) = {()} := if_pos rfl

theorem mem_L_tc (c : Dev nD) (sm : SemLoc sig) (u : Unit) : u ∈ L ((c : Thread nD τ), sm) := by
  rw [L_tc]; exact Finset.mem_singleton_self _

/-! ## The levels of the cells that are ever owed -/

theorem lv_bar (c : Dev nD) : lv (barCell c) () = 1 := by
  unfold lv; exact if_pos rfl

theorem lv_fcell (c : Dev nD) (f : Fam) (i : Fin 16) :
    lv (fcell c f i) () = if f = Fam.yr then 2 else if f = Fam.xr ∨ f = Fam.zr then 3 else if f = Fam.qr then 4 else 0 := by
  unfold lv; dsimp only; rw [famOf_sem]

theorem lv_yr (c : Dev nD) (i : Fin 16) : lv (fcell c Fam.yr i) () = 2 := by rw [lv_fcell]; rfl
theorem lv_xr (c : Dev nD) (i : Fin 16) : lv (fcell c Fam.xr i) () = 3 := by rw [lv_fcell]; rfl
theorem lv_zr (c : Dev nD) (i : Fin 16) : lv (fcell c Fam.zr i) () = 3 := by rw [lv_fcell]; rfl
theorem lv_qr (c : Dev nD) (i : Fin 16) : lv (fcell c Fam.qr i) () = 4 := by rw [lv_fcell]; rfl

/-! ## The fourth hop's writer -/

theorem qP_of_even (c : Dev nD) (i : Fin 16) (h : i.val % 2 = 0) : qP c i = xP c := if_pos h
theorem qP_of_odd (c : Dev nD) (i : Fin 16) (h : ¬ i.val % 2 = 0) : qP c i = zP c := if_neg h

/-- The writer of chunk `i` of a device's fourth quarter has that device as the writer of its own chunk `i`. -/
theorem qP_qP (c : Dev nD) (i : Fin 16) : qP (qP c i) i = c := by
  by_cases h : i.val % 2 = 0
  · rw [qP_of_even (qP c i) i h, qP_of_even c i h, xP_xP]
  · rw [qP_of_odd (qP c i) i h, qP_of_odd c i h, zP_zP]

/-! ## What a device owes, family by family -/

/-- A sum over the sixteen chunks, written out. -/
theorem sum16 {M : Type _} [AddCommMonoid M] (f : Fin 16 → M) :
    ∑ i, f i = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- The first hop's landings on the `y` partner; -/
def Oy (c : Dev nD) : CellTallies nD τ sig Unit := ∑ i : Fin 16, tallyAt (fcell (yP c) Fam.yr i) () N
/-- the second hop's, on the `x` and the `z` partner; -/
def Oxz (c : Dev nD) : CellTallies nD τ sig Unit :=
  ∑ i : Fin 16, (tallyAt (fcell (xP c) Fam.xr i) () N + tallyAt (fcell (zP c) Fam.zr i) () N)
/-- the fourth quarter's, on the `x` partner for even chunks and on the `z` partner for odd ones. -/
def Oq (c : Dev nD) : CellTallies nD τ sig Unit := ∑ i : Fin 16, tallyAt (fcell (qP c i) Fam.qr i) () N

/-- What a device owes at launch is those three families and a barrier unit to each partner. -/
theorem O₀_eq (c : Dev nD) :
    O₀ c = Oy c + Oxz c + Oq c + tallyAt (barCell (zP c)) () 1 + tallyAt (barCell (xP c)) () 1 + tallyAt (barCell (yP c)) () 1 := by
  unfold O₀ Oy Oxz Oq
  rw [sum16, sum16, sum16]
  simp only [add_assoc]
  rfl

theorem O₀_pos {c : Dev nD} {g : GSem nD τ sig} {u : Unit} (h : 0 < O₀ c g u) :
    (g = barCell (yP c) ∨ g = barCell (xP c) ∨ g = barCell (zP c))
      ∨ (∃ i : Fin 16, g = fcell (yP c) Fam.yr i ∨ g = fcell (xP c) Fam.xr i ∨ g = fcell (zP c) Fam.zr i ∨ g = fcell (qP c i) Fam.qr i) := by
  rw [O₀_eq] at h
  rcases Pipeline.add_pos_cases h with h | h
  rcases Pipeline.add_pos_cases h with h | h
  rcases Pipeline.add_pos_cases h with h | h
  rcases Pipeline.add_pos_cases h with h | h
  rcases Pipeline.add_pos_cases h with h | h
  · obtain ⟨i, -, hi⟩ := Pipeline.sum_pos_exists h
    exact Or.inr ⟨i, Or.inl (Pipeline.tallyAt_pos hi).1⟩
  · obtain ⟨i, -, hi⟩ := Pipeline.sum_pos_exists h
    rcases Pipeline.add_pos_cases hi with hi | hi
    · exact Or.inr ⟨i, Or.inr (Or.inl (Pipeline.tallyAt_pos hi).1)⟩
    · exact Or.inr ⟨i, Or.inr (Or.inr (Or.inl (Pipeline.tallyAt_pos hi).1))⟩
  · obtain ⟨i, -, hi⟩ := Pipeline.sum_pos_exists h
    exact Or.inr ⟨i, Or.inr (Or.inr (Or.inr (Pipeline.tallyAt_pos hi).1))⟩
  · exact Or.inl (Or.inr (Or.inr (Pipeline.tallyAt_pos h).1))
  · exact Or.inl (Or.inr (Or.inl (Pipeline.tallyAt_pos h).1))
  · exact Or.inl (Or.inl (Pipeline.tallyAt_pos h).1)

/-! ## Every wait is below what is owed -/

/-- A wait on a cell of level `n` while everything owed is a TensorCore cell above `n`. -/
theorem mayWait_below (c : Dev nD) (sm : SemLoc sig) (O : CellTallies nD τ sig Unit)
    (hO : ∀ g u, 0 < O g u → ∃ (d : Dev nD) (s : SemLoc sig), g = ((d : Thread nD τ), s) ∧ lv ((c : Thread nD τ), sm) () < lv g ()) :
    (levAts L lv : sProp 𝕄) ⊢ MayWait (c : Thread nD τ) sm () O :=
  Pipeline.mayWait_of_levAts (mem_L_tc c sm ()) fun g u hg => by
    obtain ⟨d, s, rfl, hlt⟩ := hO g u hg
    exact ⟨mem_L_tc d s u, hlt⟩

/-- A wait on any cell of level 0 (a send cell, a local copy's cell), owing any part of the launch dues. -/
theorem mayWait_lv0 (c : Dev nD) (sm : SemLoc sig) (hsm : lv ((c : Thread nD τ), sm) () = 0) (O : CellTallies nD τ sig Unit)
    (hO : ∀ g u, 0 < O g u → 0 < O₀ c g u) : (levAts L lv : sProp 𝕄) ⊢ MayWait (c : Thread nD τ) sm () O :=
  mayWait_below c sm O fun g u hg => by
    rw [hsm]
    rcases O₀_pos (hO g u hg) with (rfl | rfl | rfl) | ⟨i, rfl | rfl | rfl | rfl⟩
    · exact ⟨_, _, rfl, by rw [lv_bar]; decide⟩
    · exact ⟨_, _, rfl, by rw [lv_bar]; decide⟩
    · exact ⟨_, _, rfl, by rw [lv_bar]; decide⟩
    · exact ⟨_, _, rfl, by rw [lv_yr]; decide⟩
    · exact ⟨_, _, rfl, by rw [lv_xr]; decide⟩
    · exact ⟨_, _, rfl, by rw [lv_zr]; decide⟩
    · exact ⟨_, _, rfl, by rw [lv_qr]; decide⟩

/-- The barrier wait, owing landings only: every receive cell is above the barrier cells. -/
theorem mayWait_bar (c : Dev nD) (O : CellTallies nD τ sig Unit)
    (hO : ∀ g u, 0 < O g u → ∃ i : Fin 16, g = fcell (yP c) Fam.yr i ∨ g = fcell (xP c) Fam.xr i ∨ g = fcell (zP c) Fam.zr i ∨ g = fcell (qP c i) Fam.qr i) :
    (levAts L lv : sProp 𝕄) ⊢ MayWait (c : Thread nD τ) (.reg barS) () O :=
  mayWait_below c (.reg barS) O fun g u hg => by
    rw [show lv ((c : Thread nD τ), SemLoc.reg barS) () = 1 from lv_bar c]
    obtain ⟨i, rfl | rfl | rfl | rfl⟩ := hO g u hg
    · exact ⟨_, _, rfl, by rw [lv_yr]; decide⟩
    · exact ⟨_, _, rfl, by rw [lv_xr]; decide⟩
    · exact ⟨_, _, rfl, by rw [lv_zr]; decide⟩
    · exact ⟨_, _, rfl, by rw [lv_qr]; decide⟩

/-- A first-hop receive wait, owing second-hop and fourth-quarter landings only. -/
theorem mayWait_yr (c : Dev nD) (i : Fin 16) (O : CellTallies nD τ sig Unit)
    (hO : ∀ g u, 0 < O g u → ∃ j : Fin 16, g = fcell (xP c) Fam.xr j ∨ g = fcell (zP c) Fam.zr j ∨ g = fcell (qP c j) Fam.qr j) :
    (levAts L lv : sProp 𝕄) ⊢ MayWait (c : Thread nD τ) (.dma (Fam.yr.sem i)) () O :=
  mayWait_below c (.dma (Fam.yr.sem i)) O fun g u hg => by
    rw [show lv ((c : Thread nD τ), SemLoc.dma (Fam.yr.sem i)) () = 2 from lv_yr c i]
    obtain ⟨j, rfl | rfl | rfl⟩ := hO g u hg
    · exact ⟨_, _, rfl, by rw [lv_xr]; decide⟩
    · exact ⟨_, _, rfl, by rw [lv_zr]; decide⟩
    · exact ⟨_, _, rfl, by rw [lv_qr]; decide⟩

/-- A second-hop receive wait, owing fourth-quarter landings only. -/
theorem mayWait_xzr (c : Dev nD) (f : Fam) (hf : f = Fam.xr ∨ f = Fam.zr) (i : Fin 16) (O : CellTallies nD τ sig Unit)
    (hO : ∀ g u, 0 < O g u → ∃ j : Fin 16, g = fcell (qP c j) Fam.qr j) :
    (levAts L lv : sProp 𝕄) ⊢ MayWait (c : Thread nD τ) (.dma (f.sem i)) () O :=
  mayWait_below c (.dma (f.sem i)) O fun g u hg => by
    rw [show lv ((c : Thread nD τ), SemLoc.dma (f.sem i)) () = 3 from by rcases hf with rfl | rfl; exact lv_xr c i; exact lv_zr c i]
    obtain ⟨j, rfl⟩ := hO g u hg
    exact ⟨_, _, rfl, by rw [lv_qr]; decide⟩

/-! ## The launch credit -/

theorem cred_y (c : Dev nD) :
    (Pipeline.launchCred Oy c : sProp 𝕄) ⊢ bigSep Finset.univ fun i : Fin 16 => cred (tallyAt (fcell c Fam.yr i) () N) := by
  unfold Oy
  rw [Pipeline.launchCred_sum]
  exact bigSep_mono fun i _ => Pipeline.launchCred_tallyAt (.dma (Fam.yr.sem i)) yP yP yP_yP yP_yP () N c

theorem cred_xz (c : Dev nD) :
    (Pipeline.launchCred Oxz c : sProp 𝕄)
      ⊢ iprop((bigSep Finset.univ fun i : Fin 16 => cred (tallyAt (fcell c Fam.xr i) () N))
          ∗ bigSep Finset.univ fun i : Fin 16 => cred (tallyAt (fcell c Fam.zr i) () N)) := by
  unfold Oxz
  rw [Pipeline.launchCred_sum, ← bigSep_sep']
  refine bigSep_mono fun i _ => ?_
  rw [Pipeline.launchCred_add]
  exact BIClass.sep_mono (Pipeline.launchCred_tallyAt (.dma (Fam.xr.sem i)) xP xP xP_xP xP_xP () N c)
    (Pipeline.launchCred_tallyAt (.dma (Fam.zr.sem i)) zP zP zP_zP zP_zP () N c)

theorem cred_q (c : Dev nD) :
    (Pipeline.launchCred Oq c : sProp 𝕄) ⊢ bigSep Finset.univ fun i : Fin 16 => cred (tallyAt (fcell c Fam.qr i) () N) := by
  unfold Oq
  rw [Pipeline.launchCred_sum]
  exact bigSep_mono fun i _ =>
    Pipeline.launchCred_tallyAt (.dma (Fam.qr.sem i)) (fun d => qP d i) (fun d => qP d i) (fun d => qP_qP d i) (fun d => qP_qP d i) () N c

/-- The barrier unit every device owes its partner along one axis, seen from the partner. -/
theorem cred_bar (c : Dev nD) (f : Dev nD → Dev nD) (hf : ∀ d, f (f d) = d) :
    (Pipeline.launchCred (fun d => tallyAt (barCell (f d)) () 1) c : sProp 𝕄) ⊢ cred (tallyAt (barCell c) () 1) :=
  Pipeline.launchCred_tallyAt (.reg barS) f f hf hf () 1 c

theorem cred_bar3 (c : Dev nD) :
    iprop(cred (tallyAt (barCell c) () 1) ∗ cred (tallyAt (barCell c) () 1) ∗ cred (tallyAt (barCell c) () 1))
      ⊢ (cred (tallyAt (barCell c) () 3) : sProp 𝕄) := by
  have h3 : (tallyAt (barCell c) () 3 : CellTallies nD τ sig Unit)
      = tallyAt (barCell c) () 1 + (tallyAt (barCell c) () 1 + tallyAt (barCell c) () 1) := by
    rw [tallyAt_add, tallyAt_add]
  rw [h3]
  exact (sep_mono_right (cred_add _ _).2).trans (cred_add _ _).2

/-- What the launch hands device `c`: three barrier units, and a chunk's credit on each of its 64 receive cells. -/
theorem creds (c : Dev nD) :
    (Pipeline.launchCred O₀ c : sProp 𝕄)
      ⊢ iprop(cred (tallyAt (barCell c) () 3)
          ∗ bigSep Finset.univ (fun i : Fin 16 => iprop(cred (tallyAt (fcell c Fam.yr i) () N) ∗ cred (tallyAt (fcell c Fam.xr i) () N)
              ∗ cred (tallyAt (fcell c Fam.zr i) () N) ∗ cred (tallyAt (fcell c Fam.qr i) () N)))) := by
  rw [show (O₀ : Dev nD → CellTallies nD τ sig Unit)
      = fun d => Oy d + Oxz d + Oq d + tallyAt (barCell (zP d)) () 1 + tallyAt (barCell (xP d)) () 1 + tallyAt (barCell (yP d)) () 1
      from funext O₀_eq]
  rw [Pipeline.launchCred_add, Pipeline.launchCred_add, Pipeline.launchCred_add, Pipeline.launchCred_add, Pipeline.launchCred_add]
  refine (BIClass.sep_mono (BIClass.sep_mono (BIClass.sep_mono (BIClass.sep_mono (BIClass.sep_mono (cred_y c) (cred_xz c)) (cred_q c)) (cred_bar c zP zP_zP))
      (cred_bar c xP xP_xP))
    (cred_bar c yP yP_yP)).trans ?_
  rw [bigSep_sep', bigSep_sep', bigSep_sep']
  iintro ⟨⟨⟨⟨⟨HY, HX, HZ⟩, HQ⟩, Hb1⟩, Hb2⟩, Hb3⟩
  isplitl [Hb1 Hb2 Hb3]
  · iapply (cred_bar3 (F := F) c)
    isplitl [Hb1]; · iexact Hb1
    isplitl [Hb2]; · iexact Hb2
    iexact Hb3
  · isplitl [HY]; · iexact HY
    isplitl [HX]; · iexact HX
    isplitl [HZ]; · iexact HZ
    iexact HQ

/-- info: 'Cert.Kernel.A2A.O₀_pos' depends on axioms: [propext, Classical.choice, Quot.sound] -/
#guard_msgs in #print axioms O₀_pos

/-- info: 'Cert.Kernel.A2A.mayWait_lv0' depends on axioms: [propext, Classical.choice, Quot.sound] -/
#guard_msgs in #print axioms mayWait_lv0

/-- info: 'Cert.Kernel.A2A.mayWait_bar' depends on axioms: [propext, Classical.choice, Quot.sound] -/
#guard_msgs in #print axioms mayWait_bar

/-- info: 'Cert.Kernel.A2A.mayWait_yr' depends on axioms: [propext, Classical.choice, Quot.sound] -/
#guard_msgs in #print axioms mayWait_yr

/-- info: 'Cert.Kernel.A2A.mayWait_xzr' depends on axioms: [propext, Classical.choice, Quot.sound] -/
#guard_msgs in #print axioms mayWait_xzr

/-- info: 'Cert.Kernel.A2A.creds' depends on axioms: [propext, Classical.choice, Quot.sound] -/
#guard_msgs in #print axioms creds

end Cert.Kernel.A2A

end
-- ==== Proof.BLaunch.lean ====
import proofs.«900640_g7700000000000641_dist_a2a_v7x_xyz2x2x4_y_m4096_n1024_f32_1_alg».proof.Proof.BGhost
import proofs.«900640_g7700000000000641_dist_a2a_v7x_xyz2x2x4_y_m4096_n1024_f32_1_alg».proof.Proof.BTables
import proofs.«900640_g7700000000000641_dist_a2a_v7x_xyz2x2x4_y_m4096_n1024_f32_1_alg».proof.Proof.BLevels

/-!
# The launch

The launch theorem applied: from each device's body proof, the run of the whole mesh. A device's body starts from its
ghost state, its local semaphores, its launch credit, the levels, and its two arrays as launched; it ends with the
input as launched and the result at its value, which the final state is then read against.

What is the protocol's own — that the launch's resources fund every device's ghost state, and the body itself — enters
as hypotheses.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- What the launch's global step hands a device: its ghost state at some names, its local semaphores at zero. -/
abbrev G' (c : Dev nD) : sProp 𝕄 := iprop((∃ K, ghost m K c) ∗ localSems (F := F) c)

/-- What is read against the final state: the input as launched, the result at its value. -/
abbrev Yc (c : Dev nD) : sProp 𝕄 := iprop(argPts m c ∗ resPts c (outC m c))

/-! ## The theorem's side conditions -/

/-- The unscoped rest is the two arrays as launched; the launch credit is the device's credit. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Ho⟩, Hlev, Hcr, -, HG, Hls⟩
  ihave Hc := (creds (F := F) c) $$ Hcr
  imodintro
  unfold start credsOf
  isplitl
  · isplitl [HG]; · iexact HG
    isplitl [Hls]; · iexact Hls
    isplitl [Hc]; · iexact Hc
    isplitl [Hlev]; · iexact Hlev
    isplitl [Ha]; · iexact Ha
    iexact Ho
  · iempintro

/-- The scoped rest is the five scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchAny
  iintro ⟨Hs, -, Hr⟩
  isplitl [Hs]; · iexact Hs
  iexact Hr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ scratchAny
  iintro ⟨Ha, Ho, Hr, Hz⟩
  isplitl [Ha Ho]
  · isplitl [Ha]; · iexact Ha
    iexact Ho
  isplitl [Hz]; · iexact Hz
  iexact Hr

/-- No staged window, so no staging cell to wait on. -/
theorem waits (c : Dev nD) : (levAts L lv : sProp 𝕄) ⊢ Pipeline.cellsWaits cfgs (dats m) () 0 c :=
  Pipeline.cellsWaits_intro cfgs (dats m) () 0 c fun w s t => w.elim0

/-- The two arrays, whole, read against the state: the memory holds their contents. -/
theorem read_arrays (c : Dev nD) (s' : Phys nD τ sig (Elt F)) :
    iprop(Yc m c ∗ emp ∗ SI s') ⊢ |={Set.univ}=> iprop(⌜s'.mem.mem ((c : Thread nD τ).loc main_v1) = outC m c
        ∧ s'.mem.mem ((c : Thread nD τ).loc main_arg0) = m ((c : Thread nD τ).loc main_arg0)⌝ ∗ SI s') := by
  iintro ⟨⟨Ha, Ho⟩, -, HSI⟩
  icombine HSI Ha gives %ha
  icombine HSI Ho gives %ho
  imodintro
  isplitr; · ipureintro; exact ⟨Buf.eq_of_forall_mem_univ ho, Buf.eq_of_forall_mem_univ ha⟩
  iexact HSI

/-! ## The run -/

/-- At the compiled mesh of sixteen devices, for any float values, from any memory with zero counters: given that the
    launch's resources fund every device's ghost state and that every device's body is proved, every weakly fair
    execution of @main terminates, and every final state has each device's result at `outC` and its input unchanged. -/
theorem run_main (u₀ : UU) (G : Dev nD → sProp 𝕄)
    (hu₀ : (ownU (u₀ : UU) : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop((∃ K, ghost m K c) ∗ localSems (F := F) c))
    (hown : Pipeline.OwnSemFacts cfg0.spec osem)
    (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_v1) = outC m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ hown (Pipeline.PreFacts.none _) EP defs₀ 𝒱₀ m ρ main
    (hmain := fun _ => rfl)
    (hbody := fun c => (hbody c).loose) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G) (G' := G' m) (u₀ := u₀)
    (hu₀ := hu₀)
    (hglob := hglob)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = outC m c
      ∧ s.mem ((c : Thread nD τ).loc main_arg0) = m ((c : Thread nD τ).loc main_arg0))
    (hY := read_arrays m)
    (hQ := fun _ h c => (h c).2.2)

/-- The same run, read for the input alone. -/
theorem frame_main (u₀ : UU) (G : Dev nD → sProp 𝕄)
    (hu₀ : (ownU (u₀ : UU) : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop((∃ K, ghost m K c) ∗ localSems (F := F) c))
    (hown : Pipeline.OwnSemFacts cfg0.spec osem)
    (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run defs _ _).mono (fun _ h c => (h c).2) (run_main m ρ u₀ G hu₀ hglob hown hbody)

/-- info: 'Cert.Kernel.A2A.run_main' depends on axioms: [propext, Classical.choice, Quot.sound] -/
#guard_msgs in #print axioms run_main

/-- info: 'Cert.Kernel.A2A.frame_main' depends on axioms: [propext, Classical.choice, Quot.sound] -/
#guard_msgs in #print axioms frame_main

end Cert.Kernel.A2A

end
-- ==== Proof.BGlob.lean ====
import proofs.«900640_g7700000000000641_dist_a2a_v7x_xyz2x2x4_y_m4096_n1024_f32_1_alg».proof.Proof.BGhost
import proofs.«900640_g7700000000000641_dist_a2a_v7x_xyz2x2x4_y_m4096_n1024_f32_1_alg».proof.Proof.BTables
import proofs.«900640_g7700000000000641_dist_a2a_v7x_xyz2x2x4_y_m4096_n1024_f32_1_alg».proof.Proof.BLevels

/-!
# The launch: funding and the global step

The rounds element at launch is cut into what each device starts with: the round state of its 129 cells (the barrier
cell and the 128 chunk cells), its positions in them, and the tokens of their duties. The global step then opens the
129 invariants of every device from its semaphores at zero, and deals every token to the device that pays the duty:
a barrier cell's three tokens to the three partners, a receive cell's token to the device that sends the chunk, a
send cell's token to its own device. The partner maps are involutions of the mesh, so dealing is a reindexing.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## Cells and tokens -/

/-- Every device's 129 cells. -/
def allCells : Finset (GSem nD τ sig) := Finset.univ.map ⟨kcell, kcell_injective⟩

/-- Which duty of a device's cells: one of the barrier cell's three, or the one duty of chunk `i`'s cell of family `f`. -/
abbrev TK : Type := Fin 3 ⊕ (Fin 16 × Fam)

abbrev dutyOf (ct : Dev nD × TK) : GSem nD τ sig × ℕ × Fin 3 := match ct.2 with
  | .inl d => (barCell ct.1, 0, d)
  | .inr (i, f) => (fcell ct.1 f i, 0, 0)

theorem dutyOf_injective : Function.Injective (dutyOf : Dev nD × TK → GSem nD τ sig × ℕ × Fin 3) := by
  rintro ⟨c, t⟩ ⟨c', t'⟩ h
  rcases t with d | ⟨i, f⟩ <;> rcases t' with d' | ⟨i', f'⟩
  · have h1 : c = c' := congrArg (fun x : GSem nD τ sig × ℕ × Fin 3 => x.1.1.1) h
    have h2 : d = d' := congrArg (fun x : GSem nD τ sig × ℕ × Fin 3 => x.2.2) h
    subst h1 h2; rfl
  · exact absurd (congrArg (fun x : GSem nD τ sig × ℕ × Fin 3 => x.1.2) h) (fun h' => by cases h')
  · exact absurd (congrArg (fun x : GSem nD τ sig × ℕ × Fin 3 => x.1.2) h) (fun h' => by cases h')
  · have hk : kcell (c, some (f, i)) = kcell (c', some (f', i')) := congrArg (fun x : GSem nD τ sig × ℕ × Fin 3 => x.1) h
    obtain ⟨rfl, h3⟩ := Prod.mk.inj (kcell_injective hk)
    obtain ⟨rfl, rfl⟩ := Prod.mk.inj (Option.some.inj h3)
    rfl

/-- The tokens minted at launch: one for every duty of every cell. -/
def allToks : Finset (GSem nD τ sig × ℕ × Fin 3) := Finset.univ.map ⟨dutyOf, dutyOf_injective⟩

def u₀ : UU :=
  (initOf (Pipeline.cells cfgs cellOf_inj) (Pipeline.launchToks cfgs cellOf_inj), (initOf allCells allToks, 1))

/-- The duty tokens of device `c`'s own cells. -/
def toks (c : Dev nD) : sProp 𝕄 :=
  iprop((bigSep Finset.univ fun d : Fin 3 => dutyTok ER (barCell c) 0 d)
    ∗ bigSep Finset.univ fun i : Fin 16 => bigSep Finset.univ fun f : Fam => dutyTok ER (fcell c f i) 0 0)

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks (F := F) c)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_fam (Φ : Fam → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A device's cells: the barrier cell, and the chunk cells by family and chunk. -/
theorem bigSep_CK (Φ : CK → sProp 𝕄) :
    bigSep Finset.univ Φ = iprop(Φ none ∗ bigSep Finset.univ fun fi : Fam × Fin 16 => Φ (some fi)) := by
  have h : (Finset.univ.erase (none : CK)) = (Finset.univ : Finset (Fam × Fin 16)).map Function.Embedding.some := by
    ext x; cases x <;> simp
  rw [bigSep_univ_at Φ none, h, bigSep_map]; rfl

/-! ## Funding -/

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks; rw [bigSep_univ_sum, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb (UB × Counters) 𝕄) _ _) $$ HX
  icases H2 with ⟨HB, -⟩
  imod (fund_all m) $$ HB with HG
  imodintro
  isplitl [HP] <;> iassumption

/-! ## The semaphores at launch -/

theorem ownSemFacts : Pipeline.OwnSemFacts cfg0.spec osem :=
  ⟨by decide, fun a b h => SemLoc.dma.inj h, fun k w s => w.elim0⟩

/-- The barrier semaphore is the one semaphore of a core that no kernel scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A DMA semaphore that is a chunk cell is the cell of the family and chunk `famOf` reads off it. -/
theorem famOf_inv : ∀ k : DmaSem sig, (match famOf k with | some fi => decide (fi.1.sem fi.2 = k) | none => true) = true := by
  decide

theorem sem_of_famOf {k : DmaSem sig} {fi : Fam × Fin 16} (h : famOf k = some fi) : fi.1.sem fi.2 = k := by
  have := famOf_inv k; rw [h] at this; exact of_decide_eq_true this

/-- The chunk cells among the DMA semaphores, by family and chunk. -/
def fsemEmb : (Fam × Fin 16) ↪ DmaSem sig :=
  ⟨fun fi => fi.1.sem fi.2, fun a b h => by obtain ⟨h1, h2⟩ := fsem_injective a.1 b.1 a.2 b.2 h; exact Prod.ext h1 h2⟩

theorem chunk_filter : (Finset.univ.filter fun k : DmaSem sig => (famOf k).isSome = true) = Finset.univ.map fsemEmb := by
  ext k
  rw [Finset.mem_filter, Finset.mem_map]
  constructor
  · rintro ⟨-, hk⟩
    obtain ⟨fi, hfi⟩ := Option.isSome_iff_exists.mp hk
    exact ⟨fi, Finset.mem_univ _, sem_of_famOf hfi⟩
  · rintro ⟨fi, -, rfl⟩
    exact ⟨Finset.mem_univ _, famOf_sem_isSome fi.1 fi.2⟩

/-- A core's own semaphores at zero: its chunk cells', and the rest. -/
theorem ownSems0_split (c : Dev nD) :
    (Pipeline.ownSems0 (Ix := Unit) (Name := ℕ) (U := UU) (Lvl := ℕ) (Val := Elt F) (τ := τ) osem c : sProp 𝕄)
      = iprop((bigSep Finset.univ fun fi : Fam × Fin 16 => semVal (kcell (c, some fi)) 0) ∗ localSems c) := by
  unfold Pipeline.ownSems0 localSems
  rw [bigSep_filter_split Finset.univ (fun k : DmaSem sig => (famOf k).isSome = true), chunk_filter, bigSep_map,
    Finset.filter_congr (fun k _ => Iff.of_eq (Bool.not_eq_true ((famOf k).isSome)))]
  rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ localSems c) : sProp 𝕄) := by
  rw [ownSems0_split, unscopedSems0_eq, bigSep_CK]
  iintro ⟨⟨HS, HL⟩, HB⟩
  isplitr [HL]
  · isplitl [HB]; · iexact HB
    iexact HS
  · iexact HL

/-! ## Opening the invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0))
          ∗ toks c ∗ localSems c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-! ## Dealing the tokens -/

theorem records_pers (K : Dev nD × CK → ℕ) : BI.Persistent (records m K) := by unfold records; infer_instance

theorem inv_at (K : Dev nD × CK → ℕ) (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)

theorem reached_at (ck : Dev nD × CK) :
    (bigSep Finset.univ fun ck : Dev nD × CK => (reached ER (kcell ck) 0 : sProp 𝕄)) ⊢ reached ER (kcell ck) 0 :=
  bigSep_elim (Finset.mem_univ ck)

/-- One token of every device, handed each to its partner along an involution of the mesh. -/
theorem deal_dev (e : Dev nD → Dev nD) (he : ∀ c, e (e c) = c) (Φ : Dev nD → sProp 𝕄) :
    bigSep Finset.univ Φ ⊢ bigSep Finset.univ fun c => Φ (e c) :=
  Entails.of_eq (bigSep_univ_equiv ⟨e, e, he, he⟩ Φ)

/-- One token per device and chunk, handed each to a partner that may depend on the chunk. -/
theorem deal_chunk (π : Dev nD → Fin 16 → Dev nD) (hπ : ∀ c i, π (π c i) i = c) (Φ : Dev nD → Fin 16 → sProp 𝕄) :
    (bigSep Finset.univ fun c => bigSep Finset.univ fun i => Φ c i) ⊢ bigSep Finset.univ fun c => bigSep Finset.univ fun i => Φ (π c i) i :=
  ((Entails.of_eq (bigSep_univ_prod (fun ci : Dev nD × Fin 16 => Φ ci.1 ci.2)).symm).trans
    (Entails.of_eq (bigSep_univ_equiv
      (⟨fun ci => (π ci.1 ci.2, ci.2), fun ci => (π ci.1 ci.2, ci.2), fun ci => Prod.ext (hπ ci.1 ci.2) rfl, fun ci => Prod.ext (hπ ci.1 ci.2) rfl⟩ :
        Dev nD × Fin 16 ≃ Dev nD × Fin 16)
      (fun ci : Dev nD × Fin 16 => Φ ci.1 ci.2)))).trans
    (Entails.of_eq (bigSep_univ_prod (fun ci : Dev nD × Fin 16 => Φ (π ci.1 ci.2) ci.2)))

/-- The tokens dealt: a barrier cell's three to the three partners, a receive cell's to the sender, a send cell's stays. -/
theorem toks_around : (bigSep Finset.univ fun c : Dev nD => (toks c : sProp 𝕄)) ⊢ bigSep Finset.univ fun c : Dev nD => payToks c := by
  unfold toks payToks
  simp only [bigSep_fin3, bigSep_fam, bigSep_sep']
  iintro ⟨⟨H0, H1, H2⟩, A0, A1, A2, A3, A4, A5, A6, A7⟩
  isplitl [H0]; · iapply (deal_dev yP yP_yP (fun c => dutyTok ER (barCell c) 0 0)); iexact H0
  isplitl [H1]; · iapply (deal_dev xP xP_xP (fun c => dutyTok ER (barCell c) 0 1)); iexact H1
  isplitl [H2]; · iapply (deal_dev zP zP_zP (fun c => dutyTok ER (barCell c) 0 2)); iexact H2
  isplitl [A0]; · iexact A0
  isplitl [A1]; · iapply (deal_chunk (fun c _ => yP c) (fun c _ => yP_yP c) (fun c i => dutyTok ER (fcell c Fam.yr i) 0 0)); iexact A1
  isplitl [A2]; · iexact A2
  isplitl [A3]; · iapply (deal_chunk (fun c _ => xP c) (fun c _ => xP_xP c) (fun c i => dutyTok ER (fcell c Fam.xr i) 0 0)); iexact A3
  isplitl [A4]; · iexact A4
  isplitl [A5]; · iapply (deal_chunk (fun c _ => zP c) (fun c _ => zP_zP c) (fun c i => dutyTok ER (fcell c Fam.zr i) 0 0)); iexact A5
  isplitl [A6]; · iexact A6
  iapply (deal_chunk qP qP_qP (fun c i => dutyTok ER (fcell c Fam.qr i) 0 0)); iexact A7

/-! ## Regrouping, and the global step -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) :
    iprop(records m K ∗ (positions (F := F) c ∗ payToks (F := F) c) ∗ localSems (F := F) c)
      ⊢ iprop((∃ K, ghost m K c) ∗ localSems (F := F) c) := by
  unfold ghost
  iintro ⟨HR, ⟨Hp, Ht⟩, HL⟩
  isplitr [HL]
  · iexists K
    isplitl [HR]; · iexact HR
    isplitl [Hp]; · iexact Hp
    iexact Ht
  · iexact HL

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0))
          ∗ toks c ∗ localSems c) : sProp 𝕄)
      ⊢ bigSep Finset.univ (fun c : Dev nD => iprop((∃ K, ghost m K c) ∗ localSems (F := F) c)) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, HL⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  haveI := records_pers m K
  iapply (bigSep_with_persistent (R := records m K) fun c _ => ghost_intro m K c)
  isplitr
  · unfold records; isplitl; · iexact HI
    iexact HR
  · unfold positions
    simp only [bigSep_sep']
    isplitl [Hat Htk]
    · isplitl [Hat]; · iexact Hat
      iexact Htk
    · iexact HL

/-- The global step: every device's own and unscoped semaphores at once; each device ends with its ghost state at some
    names and its local semaphores at zero. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (fun c : Dev nD => iprop((∃ K, ghost m K c) ∗ localSems (F := F) c)) :=
  ((bigSep_mono fun c _ => core_alloc m c).trans (bigSep_fupd _ _)).trans (BI.fupd_mono (regroup m))

/-- info: 'Cert.Kernel.A2A.hu₀' depends on axioms: [propext, Classical.choice, Quot.sound] -/
#guard_msgs in #print axioms hu₀

/-- info: 'Cert.Kernel.A2A.glob' depends on axioms: [propext, Classical.choice, Quot.sound] -/
#guard_msgs in #print axioms glob

/-- info: 'Cert.Kernel.A2A.ownSemFacts' depends on axioms: [propext, Classical.choice, Quot.sound] -/
#guard_msgs in #print axioms ownSemFacts

/-- info: 'Cert.Kernel.A2A.unscopedSems0_eq' depends on axioms: [propext, Classical.choice, Quot.sound] -/
#guard_msgs in #print axioms unscopedSems0_eq

end Cert.Kernel.A2A

end
-- ==== Proof.BBodyCtx.lean ====
import proofs.«900640_g7700000000000641_dist_a2a_v7x_xyz2x2x4_y_m4096_n1024_f32_1_alg».proof.Proof.BGhost

/-!
# What a device's body starts from, spelt out

In the order the program uses it. First what the loads and the barrier handshake need: the levels, the barrier
cells, what the device owes, the input's sixteen chunk windows and own-half window with the scratch chunks they
fill, and the landing chunks and fourth-quarter rows the device offers its partners. Then, chunk by chunk, what each
pass over the chunks needs: the first hop's cells; the own half's store; the first hop's receive cell with the
second hop's cells and the store of the received chunk; the second hop's receive cells with their stores and the
fourth hop's cells; and for the closing waits the send cells' positions and the fourth hop's receive cell. Every
buffer is held through exactly the view the copies name; the part of the input nothing reads comes last.
-/

set_option maxRecDepth 65536

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The part of the input no copy reads: everything outside the sixteen chunk windows and the own-half window. -/
def aRest (c : Dev nD) : Finset (aM : Memref sig .tc .hbm S4096x2048 .f32).view.ty.Idx :=
  (aM : Memref sig .tc .hbm S4096x2048 .f32).view.set \ (((aOwn c).view.set : Finset (aM : Memref sig .tc .hbm S4096x2048 .f32).view.ty.Idx)
    ∪ Finset.univ.biUnion fun i : Fin 16 => ((aWin c i).view.set : Finset (aM : Memref sig .tc .hbm S4096x2048 .f32).view.ty.Idx))

def bodyCtx (K : Dev nD × CK → ℕ) (c : Dev nD) (W : Waits sig Unit) (fo : S8192x1024.Idx → Elt F .f32)
    (fs fr fx fz : S16x64x1024.Idx → Elt F .f32) (fl : S4096x1024.Idx → Elt F .f32) : sProp 𝕄 :=
  iprop(levAts L lv
    ∗ cellInv ER (sched m) (K (c, none)) (barCell c)
    ∗ cellInv ER (sched m) (K (yP c, none)) (barCell (yP c))
    ∗ cellInv ER (sched m) (K (xP c, none)) (barCell (xP c))
    ∗ cellInv ER (sched m) (K (zP c, none)) (barCell (zP c))
    ∗ reached ER (barCell (yP c)) 0
    ∗ reached ER (barCell (xP c)) 0
    ∗ reached ER (barCell (zP c)) 0
    ∗ atPos ER (barCell c) 0 ∅ 0
    ∗ dutyTok ER (barCell (yP c)) 0 0
    ∗ dutyTok ER (barCell (xP c)) 0 1
    ∗ dutyTok ER (barCell (zP c)) 0 2
    ∗ cred (tallyAt (barCell c) () 3)
    ∗ owes (c : Thread nD τ) (tallyAt (fcell (yP c) Fam.yr 0) () N + tallyAt (fcell (yP c) Fam.yr 1) () N + tallyAt (fcell (yP c) Fam.yr 2) () N + tallyAt (fcell (yP c) Fam.yr 3) () N + tallyAt (fcell (yP c) Fam.yr 4) () N + tallyAt (fcell (yP c) Fam.yr 5) () N + tallyAt (fcell (yP c) Fam.yr 6) () N + tallyAt (fcell (yP c) Fam.yr 7) () N + tallyAt (fcell (yP c) Fam.yr 8) () N + tallyAt (fcell (yP c) Fam.yr 9) () N + tallyAt (fcell (yP c) Fam.yr 10) () N + tallyAt (fcell (yP c) Fam.yr 11) () N + tallyAt (fcell (yP c) Fam.yr 12) () N + tallyAt (fcell (yP c) Fam.yr 13) () N + tallyAt (fcell (yP c) Fam.yr 14) () N + tallyAt (fcell (yP c) Fam.yr 15) () N + tallyAt (fcell (xP c) Fam.xr 0) () N + tallyAt (fcell (zP c) Fam.zr 0) () N + tallyAt (fcell (xP c) Fam.xr 1) () N + tallyAt (fcell (zP c) Fam.zr 1) () N + tallyAt (fcell (xP c) Fam.xr 2) () N + tallyAt (fcell (zP c) Fam.zr 2) () N + tallyAt (fcell (xP c) Fam.xr 3) () N + tallyAt (fcell (zP c) Fam.zr 3) () N + tallyAt (fcell (xP c) Fam.xr 4) () N + tallyAt (fcell (zP c) Fam.zr 4) () N + tallyAt (fcell (xP c) Fam.xr 5) () N + tallyAt (fcell (zP c) Fam.zr 5) () N + tallyAt (fcell (xP c) Fam.xr 6) () N + tallyAt (fcell (zP c) Fam.zr 6) () N + tallyAt (fcell (xP c) Fam.xr 7) () N + tallyAt (fcell (zP c) Fam.zr 7) () N + tallyAt (fcell (xP c) Fam.xr 8) () N + tallyAt (fcell (zP c) Fam.zr 8) () N + tallyAt (fcell (xP c) Fam.xr 9) () N + tallyAt (fcell (zP c) Fam.zr 9) () N + tallyAt (fcell (xP c) Fam.xr 10) () N + tallyAt (fcell (zP c) Fam.zr 10) () N + tallyAt (fcell (xP c) Fam.xr 11) () N + tallyAt (fcell (zP c) Fam.zr 11) () N + tallyAt (fcell (xP c) Fam.xr 12) () N + tallyAt (fcell (zP c) Fam.zr 12) () N + tallyAt (fcell (xP c) Fam.xr 13) () N + tallyAt (fcell (zP c) Fam.zr 13) () N + tallyAt (fcell (xP c) Fam.xr 14) () N + tallyAt (fcell (zP c) Fam.zr 14) () N + tallyAt (fcell (xP c) Fam.xr 15) () N + tallyAt (fcell (zP c) Fam.zr 15) () N + tallyAt (fcell (xP c) Fam.qr 0) () N + tallyAt (fcell (zP c) Fam.qr 1) () N + tallyAt (fcell (xP c) Fam.qr 2) () N + tallyAt (fcell (zP c) Fam.qr 3) () N + tallyAt (fcell (xP c) Fam.qr 4) () N + tallyAt (fcell (zP c) Fam.qr 5) () N + tallyAt (fcell (xP c) Fam.qr 6) () N + tallyAt (fcell (zP c) Fam.qr 7) () N + tallyAt (fcell (xP c) Fam.qr 8) () N + tallyAt (fcell (zP c) Fam.qr 9) () N + tallyAt (fcell (xP c) Fam.qr 10) () N + tallyAt (fcell (zP c) Fam.qr 11) () N + tallyAt (fcell (xP c) Fam.qr 12) () N + tallyAt (fcell (zP c) Fam.qr 13) () N + tallyAt (fcell (xP c) Fam.qr 14) () N + tallyAt (fcell (zP c) Fam.qr 15) () N + tallyAt (barCell (zP c)) () 1 + tallyAt (barCell (xP c)) () 1 + tallyAt (barCell (yP c)) () 1) W
    ∗ semVal ((c : Thread nD τ), .dma ⟨0, by decide⟩) 0
    ∗ ((aWin c 0).view.loc (c : Thread nD τ) ↦[(aWin c 0).view.set]{fullShare} m ((c : Thread nD τ).loc main_arg0))
    ∗ (((slab sM 0).view.loc (c : Thread nD τ)) ↦[(slab sM 0).view.set]{fullShare} fs)
    ∗ semVal ((c : Thread nD τ), .dma ⟨1, by decide⟩) 0
    ∗ ((aWin c 1).view.loc (c : Thread nD τ) ↦[(aWin c 1).view.set]{fullShare} m ((c : Thread nD τ).loc main_arg0))
    ∗ (((slab sM 1).view.loc (c : Thread nD τ)) ↦[(slab sM 1).view.set]{fullShare} fs)
    ∗ semVal ((c : Thread nD τ), .dma ⟨2, by decide⟩) 0
    ∗ ((aWin c 2).view.loc (c : Thread nD τ) ↦[(aWin c 2).view.set]{fullShare} m ((c : Thread nD τ).loc main_arg0))
    ∗ (((slab sM 2).view.loc (c : Thread nD τ)) ↦[(slab sM 2).view.set]{fullShare} fs)
    ∗ semVal ((c : Thread nD τ), .dma ⟨3, by decide⟩) 0
    ∗ ((aWin c 3).view.loc (c : Thread nD τ) ↦[(aWin c 3).view.set]{fullShare} m ((c : Thread nD τ).loc main_arg0))
    ∗ (((slab sM 3).view.loc (c : Thread nD τ)) ↦[(slab sM 3).view.set]{fullShare} fs)
    ∗ semVal ((c : Thread nD τ), .dma ⟨4, by decide⟩) 0
    ∗ ((aWin c 4).view.loc (c : Thread nD τ) ↦[(aWin c 4).view.set]{fullShare} m ((c : Thread nD τ).loc main_arg0))
    ∗ (((slab sM 4).view.loc (c : Thread nD τ)) ↦[(slab sM 4).view.set]{fullShare} fs)
    ∗ semVal ((c : Thread nD τ), .dma ⟨5, by decide⟩) 0
    ∗ ((aWin c 5).view.loc (c : Thread nD τ) ↦[(aWin c 5).view.set]{fullShare} m ((c : Thread nD τ).loc main_arg0))
    ∗ (((slab sM 5).view.loc (c : Thread nD τ)) ↦[(slab sM 5).view.set]{fullShare} fs)
    ∗ semVal ((c : Thread nD τ), .dma ⟨6, by decide⟩) 0
    ∗ ((aWin c 6).view.loc (c : Thread nD τ) ↦[(aWin c 6).view.set]{fullShare} m ((c : Thread nD τ).loc main_arg0))
    ∗ (((slab sM 6).view.loc (c : Thread nD τ)) ↦[(slab sM 6).view.set]{fullShare} fs)
    ∗ semVal ((c : Thread nD τ), .dma ⟨7, by decide⟩) 0
    ∗ ((aWin c 7).view.loc (c : Thread nD τ) ↦[(aWin c 7).view.set]{fullShare} m ((c : Thread nD τ).loc main_arg0))
    ∗ (((slab sM 7).view.loc (c : Thread nD τ)) ↦[(slab sM 7).view.set]{fullShare} fs)
    ∗ semVal ((c : Thread nD τ), .dma ⟨8, by decide⟩) 0
    ∗ ((aWin c 8).view.loc (c : Thread nD τ) ↦[(aWin c 8).view.set]{fullShare} m ((c : Thread nD τ).loc main_arg0))
    ∗ (((slab sM 8).view.loc (c : Thread nD τ)) ↦[(slab sM 8).view.set]{fullShare} fs)
    ∗ semVal ((c : Thread nD τ), .dma ⟨9, by decide⟩) 0
    ∗ ((aWin c 9).view.loc (c : Thread nD τ) ↦[(aWin c 9).view.set]{fullShare} m ((c : Thread nD τ).loc main_arg0))
    ∗ (((slab sM 9).view.loc (c : Thread nD τ)) ↦[(slab sM 9).view.set]{fullShare} fs)
    ∗ semVal ((c : Thread nD τ), .dma ⟨10, by decide⟩) 0
    ∗ ((aWin c 10).view.loc (c : Thread nD τ) ↦[(aWin c 10).view.set]{fullShare} m ((c : Thread nD τ).loc main_arg0))
    ∗ (((slab sM 10).view.loc (c : Thread nD τ)) ↦[(slab sM 10).view.set]{fullShare} fs)
    ∗ semVal ((c : Thread nD τ), .dma ⟨11, by decide⟩) 0
    ∗ ((aWin c 11).view.loc (c : Thread nD τ) ↦[(aWin c 11).view.set]{fullShare} m ((c : Thread nD τ).loc main_arg0))
    ∗ (((slab sM 11).view.loc (c : Thread nD τ)) ↦[(slab sM 11).view.set]{fullShare} fs)
    ∗ semVal ((c : Thread nD τ), .dma ⟨12, by decide⟩) 0
    ∗ ((aWin c 12).view.loc (c : Thread nD τ) ↦[(aWin c 12).view.set]{fullShare} m ((c : Thread nD τ).loc main_arg0))
    ∗ (((slab sM 12).view.loc (c : Thread nD τ)) ↦[(slab sM 12).view.set]{fullShare} fs)
    ∗ semVal ((c : Thread nD τ), .dma ⟨13, by decide⟩) 0
    ∗ ((aWin c 13).view.loc (c : Thread nD τ) ↦[(aWin c 13).view.set]{fullShare} m ((c : Thread nD τ).loc main_arg0))
    ∗ (((slab sM 13).view.loc (c : Thread nD τ)) ↦[(slab sM 13).view.set]{fullShare} fs)
    ∗ semVal ((c : Thread nD τ), .dma ⟨14, by decide⟩) 0
    ∗ ((aWin c 14).view.loc (c : Thread nD τ) ↦[(aWin c 14).view.set]{fullShare} m ((c : Thread nD τ).loc main_arg0))
    ∗ (((slab sM 14).view.loc (c : Thread nD τ)) ↦[(slab sM 14).view.set]{fullShare} fs)
    ∗ semVal ((c : Thread nD τ), .dma ⟨15, by decide⟩) 0
    ∗ ((aWin c 15).view.loc (c : Thread nD τ) ↦[(aWin c 15).view.set]{fullShare} m ((c : Thread nD τ).loc main_arg0))
    ∗ (((slab sM 15).view.loc (c : Thread nD τ)) ↦[(slab sM 15).view.set]{fullShare} fs)
    ∗ semVal ((c : Thread nD τ), .dma ⟨224, by decide⟩) 0
    ∗ ((aOwn c).view.loc (c : Thread nD τ) ↦[(aOwn c).view.set]{fullShare} m ((c : Thread nD τ).loc main_arg0))
    ∗ (lM.view.loc (c : Thread nD τ) ↦[lM.view.set]{fullShare} fl)
    ∗ (((slab rM 0).view.loc (c : Thread nD τ)) ↦[(slab rM 0).view.set]{fullShare} fr)
    ∗ (((slab rM 1).view.loc (c : Thread nD τ)) ↦[(slab rM 1).view.set]{fullShare} fr)
    ∗ (((slab rM 2).view.loc (c : Thread nD τ)) ↦[(slab rM 2).view.set]{fullShare} fr)
    ∗ (((slab rM 3).view.loc (c : Thread nD τ)) ↦[(slab rM 3).view.set]{fullShare} fr)
    ∗ (((slab rM 4).view.loc (c : Thread nD τ)) ↦[(slab rM 4).view.set]{fullShare} fr)
    ∗ (((slab rM 5).view.loc (c : Thread nD τ)) ↦[(slab rM 5).view.set]{fullShare} fr)
    ∗ (((slab rM 6).view.loc (c : Thread nD τ)) ↦[(slab rM 6).view.set]{fullShare} fr)
    ∗ (((slab rM 7).view.loc (c : Thread nD τ)) ↦[(slab rM 7).view.set]{fullShare} fr)
    ∗ (((slab rM 8).view.loc (c : Thread nD τ)) ↦[(slab rM 8).view.set]{fullShare} fr)
    ∗ (((slab rM 9).view.loc (c : Thread nD τ)) ↦[(slab rM 9).view.set]{fullShare} fr)
    ∗ (((slab rM 10).view.loc (c : Thread nD τ)) ↦[(slab rM 10).view.set]{fullShare} fr)
    ∗ (((slab rM 11).view.loc (c : Thread nD τ)) ↦[(slab rM 11).view.set]{fullShare} fr)
    ∗ (((slab rM 12).view.loc (c : Thread nD τ)) ↦[(slab rM 12).view.set]{fullShare} fr)
    ∗ (((slab rM 13).view.loc (c : Thread nD τ)) ↦[(slab rM 13).view.set]{fullShare} fr)
    ∗ (((slab rM 14).view.loc (c : Thread nD τ)) ↦[(slab rM 14).view.set]{fullShare} fr)
    ∗ (((slab rM 15).view.loc (c : Thread nD τ)) ↦[(slab rM 15).view.set]{fullShare} fr)
    ∗ (((slab xrM 0).view.loc (c : Thread nD τ)) ↦[(slab xrM 0).view.set]{fullShare} fx)
    ∗ (((slab xrM 1).view.loc (c : Thread nD τ)) ↦[(slab xrM 1).view.set]{fullShare} fx)
    ∗ (((slab xrM 2).view.loc (c : Thread nD τ)) ↦[(slab xrM 2).view.set]{fullShare} fx)
    ∗ (((slab xrM 3).view.loc (c : Thread nD τ)) ↦[(slab xrM 3).view.set]{fullShare} fx)
    ∗ (((slab xrM 4).view.loc (c : Thread nD τ)) ↦[(slab xrM 4).view.set]{fullShare} fx)
    ∗ (((slab xrM 5).view.loc (c : Thread nD τ)) ↦[(slab xrM 5).view.set]{fullShare} fx)
    ∗ (((slab xrM 6).view.loc (c : Thread nD τ)) ↦[(slab xrM 6).view.set]{fullShare} fx)
    ∗ (((slab xrM 7).view.loc (c : Thread nD τ)) ↦[(slab xrM 7).view.set]{fullShare} fx)
    ∗ (((slab xrM 8).view.loc (c : Thread nD τ)) ↦[(slab xrM 8).view.set]{fullShare} fx)
    ∗ (((slab xrM 9).view.loc (c : Thread nD τ)) ↦[(slab xrM 9).view.set]{fullShare} fx)
    ∗ (((slab xrM 10).view.loc (c : Thread nD τ)) ↦[(slab xrM 10).view.set]{fullShare} fx)
    ∗ (((slab xrM 11).view.loc (c : Thread nD τ)) ↦[(slab xrM 11).view.set]{fullShare} fx)
    ∗ (((slab xrM 12).view.loc (c : Thread nD τ)) ↦[(slab xrM 12).view.set]{fullShare} fx)
    ∗ (((slab xrM 13).view.loc (c : Thread nD τ)) ↦[(slab xrM 13).view.set]{fullShare} fx)
    ∗ (((slab xrM 14).view.loc (c : Thread nD τ)) ↦[(slab xrM 14).view.set]{fullShare} fx)
    ∗ (((slab xrM 15).view.loc (c : Thread nD τ)) ↦[(slab xrM 15).view.set]{fullShare} fx)
    ∗ ((oRowZ (xP c) 0).view.loc (c : Thread nD τ) ↦[(oRowZ (xP c) 0).view.set]{fullShare} fo)
    ∗ ((oRowZ (xP c) 2).view.loc (c : Thread nD τ) ↦[(oRowZ (xP c) 2).view.set]{fullShare} fo)
    ∗ ((oRowZ (xP c) 4).view.loc (c : Thread nD τ) ↦[(oRowZ (xP c) 4).view.set]{fullShare} fo)
    ∗ ((oRowZ (xP c) 6).view.loc (c : Thread nD τ) ↦[(oRowZ (xP c) 6).view.set]{fullShare} fo)
    ∗ ((oRowZ (xP c) 8).view.loc (c : Thread nD τ) ↦[(oRowZ (xP c) 8).view.set]{fullShare} fo)
    ∗ ((oRowZ (xP c) 10).view.loc (c : Thread nD τ) ↦[(oRowZ (xP c) 10).view.set]{fullShare} fo)
    ∗ ((oRowZ (xP c) 12).view.loc (c : Thread nD τ) ↦[(oRowZ (xP c) 12).view.set]{fullShare} fo)
    ∗ ((oRowZ (xP c) 14).view.loc (c : Thread nD τ) ↦[(oRowZ (xP c) 14).view.set]{fullShare} fo)
    ∗ (((slab zrM 0).view.loc (c : Thread nD τ)) ↦[(slab zrM 0).view.set]{fullShare} fz)
    ∗ (((slab zrM 1).view.loc (c : Thread nD τ)) ↦[(slab zrM 1).view.set]{fullShare} fz)
    ∗ (((slab zrM 2).view.loc (c : Thread nD τ)) ↦[(slab zrM 2).view.set]{fullShare} fz)
    ∗ (((slab zrM 3).view.loc (c : Thread nD τ)) ↦[(slab zrM 3).view.set]{fullShare} fz)
    ∗ (((slab zrM 4).view.loc (c : Thread nD τ)) ↦[(slab zrM 4).view.set]{fullShare} fz)
    ∗ (((slab zrM 5).view.loc (c : Thread nD τ)) ↦[(slab zrM 5).view.set]{fullShare} fz)
    ∗ (((slab zrM 6).view.loc (c : Thread nD τ)) ↦[(slab zrM 6).view.set]{fullShare} fz)
    ∗ (((slab zrM 7).view.loc (c : Thread nD τ)) ↦[(slab zrM 7).view.set]{fullShare} fz)
    ∗ (((slab zrM 8).view.loc (c : Thread nD τ)) ↦[(slab zrM 8).view.set]{fullShare} fz)
    ∗ (((slab zrM 9).view.loc (c : Thread nD τ)) ↦[(slab zrM 9).view.set]{fullShare} fz)
    ∗ (((slab zrM 10).view.loc (c : Thread nD τ)) ↦[(slab zrM 10).view.set]{fullShare} fz)
    ∗ (((slab zrM 11).view.loc (c : Thread nD τ)) ↦[(slab zrM 11).view.set]{fullShare} fz)
    ∗ (((slab zrM 12).view.loc (c : Thread nD τ)) ↦[(slab zrM 12).view.set]{fullShare} fz)
    ∗ (((slab zrM 13).view.loc (c : Thread nD τ)) ↦[(slab zrM 13).view.set]{fullShare} fz)
    ∗ (((slab zrM 14).view.loc (c : Thread nD τ)) ↦[(slab zrM 14).view.set]{fullShare} fz)
    ∗ (((slab zrM 15).view.loc (c : Thread nD τ)) ↦[(slab zrM 15).view.set]{fullShare} fz)
    ∗ ((oRowX (zP c) 1).view.loc (c : Thread nD τ) ↦[(oRowX (zP c) 1).view.set]{fullShare} fo)
    ∗ ((oRowX (zP c) 3).view.loc (c : Thread nD τ) ↦[(oRowX (zP c) 3).view.set]{fullShare} fo)
    ∗ ((oRowX (zP c) 5).view.loc (c : Thread nD τ) ↦[(oRowX (zP c) 5).view.set]{fullShare} fo)
    ∗ ((oRowX (zP c) 7).view.loc (c : Thread nD τ) ↦[(oRowX (zP c) 7).view.set]{fullShare} fo)
    ∗ ((oRowX (zP c) 9).view.loc (c : Thread nD τ) ↦[(oRowX (zP c) 9).view.set]{fullShare} fo)
    ∗ ((oRowX (zP c) 11).view.loc (c : Thread nD τ) ↦[(oRowX (zP c) 11).view.set]{fullShare} fo)
    ∗ ((oRowX (zP c) 13).view.loc (c : Thread nD τ) ↦[(oRowX (zP c) 13).view.set]{fullShare} fo)
    ∗ ((oRowX (zP c) 15).view.loc (c : Thread nD τ) ↦[(oRowX (zP c) 15).view.set]{fullShare} fo)
    ∗ cellInv ER (sched m) (K (c, some (Fam.ys, 0))) (fcell c Fam.ys 0)
    ∗ cellInv ER (sched m) (K (yP c, some (Fam.yr, 0))) (fcell (yP c) Fam.yr 0)
    ∗ reached ER (fcell c Fam.ys 0) 0
    ∗ reached ER (fcell (yP c) Fam.yr 0) 0
    ∗ dutyTok ER (fcell c Fam.ys 0) 0 0
    ∗ dutyTok ER (fcell (yP c) Fam.yr 0) 0 0
    ∗ cellInv ER (sched m) (K (c, some (Fam.ys, 1))) (fcell c Fam.ys 1)
    ∗ cellInv ER (sched m) (K (yP c, some (Fam.yr, 1))) (fcell (yP c) Fam.yr 1)
    ∗ reached ER (fcell c Fam.ys 1) 0
    ∗ reached ER (fcell (yP c) Fam.yr 1) 0
    ∗ dutyTok ER (fcell c Fam.ys 1) 0 0
    ∗ dutyTok ER (fcell (yP c) Fam.yr 1) 0 0
    ∗ cellInv ER (sched m) (K (c, some (Fam.ys, 2))) (fcell c Fam.ys 2)
    ∗ cellInv ER (sched m) (K (yP c, some (Fam.yr, 2))) (fcell (yP c) Fam.yr 2)
    ∗ reached ER (fcell c Fam.ys 2) 0
    ∗ reached ER (fcell (yP c) Fam.yr 2) 0
    ∗ dutyTok ER (fcell c Fam.ys 2) 0 0
    ∗ dutyTok ER (fcell (yP c) Fam.yr 2) 0 0
    ∗ cellInv ER (sched m) (K (c, some (Fam.ys, 3))) (fcell c Fam.ys 3)
    ∗ cellInv ER (sched m) (K (yP c, some (Fam.yr, 3))) (fcell (yP c) Fam.yr 3)
    ∗ reached ER (fcell c Fam.ys 3) 0
    ∗ reached ER (fcell (yP c) Fam.yr 3) 0
    ∗ dutyTok ER (fcell c Fam.ys 3) 0 0
    ∗ dutyTok ER (fcell (yP c) Fam.yr 3) 0 0
    ∗ cellInv ER (sched m) (K (c, some (Fam.ys, 4))) (fcell c Fam.ys 4)
    ∗ cellInv ER (sched m) (K (yP c, some (Fam.yr, 4))) (fcell (yP c) Fam.yr 4)
    ∗ reached ER (fcell c Fam.ys 4) 0
    ∗ reached ER (fcell (yP c) Fam.yr 4) 0
    ∗ dutyTok ER (fcell c Fam.ys 4) 0 0
    ∗ dutyTok ER (fcell (yP c) Fam.yr 4) 0 0
    ∗ cellInv ER (sched m) (K (c, some (Fam.ys, 5))) (fcell c Fam.ys 5)
    ∗ cellInv ER (sched m) (K (yP c, some (Fam.yr, 5))) (fcell (yP c) Fam.yr 5)
    ∗ reached ER (fcell c Fam.ys 5) 0
    ∗ reached ER (fcell (yP c) Fam.yr 5) 0
    ∗ dutyTok ER (fcell c Fam.ys 5) 0 0
    ∗ dutyTok ER (fcell (yP c) Fam.yr 5) 0 0
    ∗ cellInv ER (sched m) (K (c, some (Fam.ys, 6))) (fcell c Fam.ys 6)
    ∗ cellInv ER (sched m) (K (yP c, some (Fam.yr, 6))) (fcell (yP c) Fam.yr 6)
    ∗ reached ER (fcell c Fam.ys 6) 0
    ∗ reached ER (fcell (yP c) Fam.yr 6) 0
    ∗ dutyTok ER (fcell c Fam.ys 6) 0 0
    ∗ dutyTok ER (fcell (yP c) Fam.yr 6) 0 0
    ∗ cellInv ER (sched m) (K (c, some (Fam.ys, 7))) (fcell c Fam.ys 7)
    ∗ cellInv ER (sched m) (K (yP c, some (Fam.yr, 7))) (fcell (yP c) Fam.yr 7)
    ∗ reached ER (fcell c Fam.ys 7) 0
    ∗ reached ER (fcell (yP c) Fam.yr 7) 0
    ∗ dutyTok ER (fcell c Fam.ys 7) 0 0
    ∗ dutyTok ER (fcell (yP c) Fam.yr 7) 0 0
    ∗ cellInv ER (sched m) (K (c, some (Fam.ys, 8))) (fcell c Fam.ys 8)
    ∗ cellInv ER (sched m) (K (yP c, some (Fam.yr, 8))) (fcell (yP c) Fam.yr 8)
    ∗ reached ER (fcell c Fam.ys 8) 0
    ∗ reached ER (fcell (yP c) Fam.yr 8) 0
    ∗ dutyTok ER (fcell c Fam.ys 8) 0 0
    ∗ dutyTok ER (fcell (yP c) Fam.yr 8) 0 0
    ∗ cellInv ER (sched m) (K (c, some (Fam.ys, 9))) (fcell c Fam.ys 9)
    ∗ cellInv ER (sched m) (K (yP c, some (Fam.yr, 9))) (fcell (yP c) Fam.yr 9)
    ∗ reached ER (fcell c Fam.ys 9) 0
    ∗ reached ER (fcell (yP c) Fam.yr 9) 0
    ∗ dutyTok ER (fcell c Fam.ys 9) 0 0
    ∗ dutyTok ER (fcell (yP c) Fam.yr 9) 0 0
    ∗ cellInv ER (sched m) (K (c, some (Fam.ys, 10))) (fcell c Fam.ys 10)
    ∗ cellInv ER (sched m) (K (yP c, some (Fam.yr, 10))) (fcell (yP c) Fam.yr 10)
    ∗ reached ER (fcell c Fam.ys 10) 0
    ∗ reached ER (fcell (yP c) Fam.yr 10) 0
    ∗ dutyTok ER (fcell c Fam.ys 10) 0 0
    ∗ dutyTok ER (fcell (yP c) Fam.yr 10) 0 0
    ∗ cellInv ER (sched m) (K (c, some (Fam.ys, 11))) (fcell c Fam.ys 11)
    ∗ cellInv ER (sched m) (K (yP c, some (Fam.yr, 11))) (fcell (yP c) Fam.yr 11)
    ∗ reached ER (fcell c Fam.ys 11) 0
    ∗ reached ER (fcell (yP c) Fam.yr 11) 0
    ∗ dutyTok ER (fcell c Fam.ys 11) 0 0
    ∗ dutyTok ER (fcell (yP c) Fam.yr 11) 0 0
    ∗ cellInv ER (sched m) (K (c, some (Fam.ys, 12))) (fcell c Fam.ys 12)
    ∗ cellInv ER (sched m) (K (yP c, some (Fam.yr, 12))) (fcell (yP c) Fam.yr 12)
    ∗ reached ER (fcell c Fam.ys 12) 0
    ∗ reached ER (fcell (yP c) Fam.yr 12) 0
    ∗ dutyTok ER (fcell c Fam.ys 12) 0 0
    ∗ dutyTok ER (fcell (yP c) Fam.yr 12) 0 0
    ∗ cellInv ER (sched m) (K (c, some (Fam.ys, 13))) (fcell c Fam.ys 13)
    ∗ cellInv ER (sched m) (K (yP c, some (Fam.yr, 13))) (fcell (yP c) Fam.yr 13)
    ∗ reached ER (fcell c Fam.ys 13) 0
    ∗ reached ER (fcell (yP c) Fam.yr 13) 0
    ∗ dutyTok ER (fcell c Fam.ys 13) 0 0
    ∗ dutyTok ER (fcell (yP c) Fam.yr 13) 0 0
    ∗ cellInv ER (sched m) (K (c, some (Fam.ys, 14))) (fcell c Fam.ys 14)
    ∗ cellInv ER (sched m) (K (yP c, some (Fam.yr, 14))) (fcell (yP c) Fam.yr 14)
    ∗ reached ER (fcell c Fam.ys 14) 0
    ∗ reached ER (fcell (yP c) Fam.yr 14) 0
    ∗ dutyTok ER (fcell c Fam.ys 14) 0 0
    ∗ dutyTok ER (fcell (yP c) Fam.yr 14) 0 0
    ∗ cellInv ER (sched m) (K (c, some (Fam.ys, 15))) (fcell c Fam.ys 15)
    ∗ cellInv ER (sched m) (K (yP c, some (Fam.yr, 15))) (fcell (yP c) Fam.yr 15)
    ∗ reached ER (fcell c Fam.ys 15) 0
    ∗ reached ER (fcell (yP c) Fam.yr 15) 0
    ∗ dutyTok ER (fcell c Fam.ys 15) 0 0
    ∗ dutyTok ER (fcell (yP c) Fam.yr 15) 0 0
    ∗ semVal ((c : Thread nD τ), .dma ⟨225, by decide⟩) 0
    ∗ ((oOwn c).view.loc (c : Thread nD τ) ↦[(oOwn c).view.set]{fullShare} fo)
    ∗ cellInv ER (sched m) (K (c, some (Fam.yr, 0))) (fcell c Fam.yr 0)
    ∗ atPos ER (fcell c Fam.yr 0) 0 ∅ 0
    ∗ cred (tallyAt (fcell c Fam.yr 0) () N)
    ∗ cellInv ER (sched m) (K (c, some (Fam.xs, 0))) (fcell c Fam.xs 0)
    ∗ cellInv ER (sched m) (K (xP c, some (Fam.xr, 0))) (fcell (xP c) Fam.xr 0)
    ∗ reached ER (fcell c Fam.xs 0) 0
    ∗ reached ER (fcell (xP c) Fam.xr 0) 0
    ∗ dutyTok ER (fcell c Fam.xs 0) 0 0
    ∗ dutyTok ER (fcell (xP c) Fam.xr 0) 0 0
    ∗ cellInv ER (sched m) (K (c, some (Fam.zs, 0))) (fcell c Fam.zs 0)
    ∗ cellInv ER (sched m) (K (zP c, some (Fam.zr, 0))) (fcell (zP c) Fam.zr 0)
    ∗ reached ER (fcell c Fam.zs 0) 0
    ∗ reached ER (fcell (zP c) Fam.zr 0) 0
    ∗ dutyTok ER (fcell c Fam.zs 0) 0 0
    ∗ dutyTok ER (fcell (zP c) Fam.zr 0) 0 0
    ∗ semVal ((c : Thread nD τ), .dma ⟨16, by decide⟩) 0
    ∗ ((oRowY c 0).view.loc (c : Thread nD τ) ↦[(oRowY c 0).view.set]{fullShare} fo)
    ∗ cellInv ER (sched m) (K (c, some (Fam.yr, 1))) (fcell c Fam.yr 1)
    ∗ atPos ER (fcell c Fam.yr 1) 0 ∅ 0
    ∗ cred (tallyAt (fcell c Fam.yr 1) () N)
    ∗ cellInv ER (sched m) (K (c, some (Fam.xs, 1))) (fcell c Fam.xs 1)
    ∗ cellInv ER (sched m) (K (xP c, some (Fam.xr, 1))) (fcell (xP c) Fam.xr 1)
    ∗ reached ER (fcell c Fam.xs 1) 0
    ∗ reached ER (fcell (xP c) Fam.xr 1) 0
    ∗ dutyTok ER (fcell c Fam.xs 1) 0 0
    ∗ dutyTok ER (fcell (xP c) Fam.xr 1) 0 0
    ∗ cellInv ER (sched m) (K (c, some (Fam.zs, 1))) (fcell c Fam.zs 1)
    ∗ cellInv ER (sched m) (K (zP c, some (Fam.zr, 1))) (fcell (zP c) Fam.zr 1)
    ∗ reached ER (fcell c Fam.zs 1) 0
    ∗ reached ER (fcell (zP c) Fam.zr 1) 0
    ∗ dutyTok ER (fcell c Fam.zs 1) 0 0
    ∗ dutyTok ER (fcell (zP c) Fam.zr 1) 0 0
    ∗ semVal ((c : Thread nD τ), .dma ⟨17, by decide⟩) 0
    ∗ ((oRowY c 1).view.loc (c : Thread nD τ) ↦[(oRowY c 1).view.set]{fullShare} fo)
    ∗ cellInv ER (sched m) (K (c, some (Fam.yr, 2))) (fcell c Fam.yr 2)
    ∗ atPos ER (fcell c Fam.yr 2) 0 ∅ 0
    ∗ cred (tallyAt (fcell c Fam.yr 2) () N)
    ∗ cellInv ER (sched m) (K (c, some (Fam.xs, 2))) (fcell c Fam.xs 2)
    ∗ cellInv ER (sched m) (K (xP c, some (Fam.xr, 2))) (fcell (xP c) Fam.xr 2)
    ∗ reached ER (fcell c Fam.xs 2) 0
    ∗ reached ER (fcell (xP c) Fam.xr 2) 0
    ∗ dutyTok ER (fcell c Fam.xs 2) 0 0
    ∗ dutyTok ER (fcell (xP c) Fam.xr 2) 0 0
    ∗ cellInv ER (sched m) (K (c, some (Fam.zs, 2))) (fcell c Fam.zs 2)
    ∗ cellInv ER (sched m) (K (zP c, some (Fam.zr, 2))) (fcell (zP c) Fam.zr 2)
    ∗ reached ER (fcell c Fam.zs 2) 0
    ∗ reached ER (fcell (zP c) Fam.zr 2) 0
    ∗ dutyTok ER (fcell c Fam.zs 2) 0 0
    ∗ dutyTok ER (fcell (zP c) Fam.zr 2) 0 0
    ∗ semVal ((c : Thread nD τ), .dma ⟨18, by decide⟩) 0
    ∗ ((oRowY c 2).view.loc (c : Thread nD τ) ↦[(oRowY c 2).view.set]{fullShare} fo)
    ∗ cellInv ER (sched m) (K (c, some (Fam.yr, 3))) (fcell c Fam.yr 3)
    ∗ atPos ER (fcell c Fam.yr 3) 0 ∅ 0
    ∗ cred (tallyAt (fcell c Fam.yr 3) () N)
    ∗ cellInv ER (sched m) (K (c, some (Fam.xs, 3))) (fcell c Fam.xs 3)
    ∗ cellInv ER (sched m) (K (xP c, some (Fam.xr, 3))) (fcell (xP c) Fam.xr 3)
    ∗ reached ER (fcell c Fam.xs 3) 0
    ∗ reached ER (fcell (xP c) Fam.xr 3) 0
    ∗ dutyTok ER (fcell c Fam.xs 3) 0 0
    ∗ dutyTok ER (fcell (xP c) Fam.xr 3) 0 0
    ∗ cellInv ER (sched m) (K (c, some (Fam.zs, 3))) (fcell c Fam.zs 3)
    ∗ cellInv ER (sched m) (K (zP c, some (Fam.zr, 3))) (fcell (zP c) Fam.zr 3)
    ∗ reached ER (fcell c Fam.zs 3) 0
    ∗ reached ER (fcell (zP c) Fam.zr 3) 0
    ∗ dutyTok ER (fcell c Fam.zs 3) 0 0
    ∗ dutyTok ER (fcell (zP c) Fam.zr 3) 0 0
    ∗ semVal ((c : Thread nD τ), .dma ⟨19, by decide⟩) 0
    ∗ ((oRowY c 3).view.loc (c : Thread nD τ) ↦[(oRowY c 3).view.set]{fullShare} fo)
    ∗ cellInv ER (sched m) (K (c, some (Fam.yr, 4))) (fcell c Fam.yr 4)
    ∗ atPos ER (fcell c Fam.yr 4) 0 ∅ 0
    ∗ cred (tallyAt (fcell c Fam.yr 4) () N)
    ∗ cellInv ER (sched m) (K (c, some (Fam.xs, 4))) (fcell c Fam.xs 4)
    ∗ cellInv ER (sched m) (K (xP c, some (Fam.xr, 4))) (fcell (xP c) Fam.xr 4)
    ∗ reached ER (fcell c Fam.xs 4) 0
    ∗ reached ER (fcell (xP c) Fam.xr 4) 0
    ∗ dutyTok ER (fcell c Fam.xs 4) 0 0
    ∗ dutyTok ER (fcell (xP c) Fam.xr 4) 0 0
    ∗ cellInv ER (sched m) (K (c, some (Fam.zs, 4))) (fcell c Fam.zs 4)
    ∗ cellInv ER (sched m) (K (zP c, some (Fam.zr, 4))) (fcell (zP c) Fam.zr 4)
    ∗ reached ER (fcell c Fam.zs 4) 0
    ∗ reached ER (fcell (zP c) Fam.zr 4) 0
    ∗ dutyTok ER (fcell c Fam.zs 4) 0 0
    ∗ dutyTok ER (fcell (zP c) Fam.zr 4) 0 0
    ∗ semVal ((c : Thread nD τ), .dma ⟨20, by decide⟩) 0
    ∗ ((oRowY c 4).view.loc (c : Thread nD τ) ↦[(oRowY c 4).view.set]{fullShare} fo)
    ∗ cellInv ER (sched m) (K (c, some (Fam.yr, 5))) (fcell c Fam.yr 5)
    ∗ atPos ER (fcell c Fam.yr 5) 0 ∅ 0
    ∗ cred (tallyAt (fcell c Fam.yr 5) () N)
    ∗ cellInv ER (sched m) (K (c, some (Fam.xs, 5))) (fcell c Fam.xs 5)
    ∗ cellInv ER (sched m) (K (xP c, some (Fam.xr, 5))) (fcell (xP c) Fam.xr 5)
    ∗ reached ER (fcell c Fam.xs 5) 0
    ∗ reached ER (fcell (xP c) Fam.xr 5) 0
    ∗ dutyTok ER (fcell c Fam.xs 5) 0 0
    ∗ dutyTok ER (fcell (xP c) Fam.xr 5) 0 0
    ∗ cellInv ER (sched m) (K (c, some (Fam.zs, 5))) (fcell c Fam.zs 5)
    ∗ cellInv ER (sched m) (K (zP c, some (Fam.zr, 5))) (fcell (zP c) Fam.zr 5)
    ∗ reached ER (fcell c Fam.zs 5) 0
    ∗ reached ER (fcell (zP c) Fam.zr 5) 0
    ∗ dutyTok ER (fcell c Fam.zs 5) 0 0
    ∗ dutyTok ER (fcell (zP c) Fam.zr 5) 0 0
    ∗ semVal ((c : Thread nD τ), .dma ⟨21, by decide⟩) 0
    ∗ ((oRowY c 5).view.loc (c : Thread nD τ) ↦[(oRowY c 5).view.set]{fullShare} fo)
    ∗ cellInv ER (sched m) (K (c, some (Fam.yr, 6))) (fcell c Fam.yr 6)
    ∗ atPos ER (fcell c Fam.yr 6) 0 ∅ 0
    ∗ cred (tallyAt (fcell c Fam.yr 6) () N)
    ∗ cellInv ER (sched m) (K (c, some (Fam.xs, 6))) (fcell c Fam.xs 6)
    ∗ cellInv ER (sched m) (K (xP c, some (Fam.xr, 6))) (fcell (xP c) Fam.xr 6)
    ∗ reached ER (fcell c Fam.xs 6) 0
    ∗ reached ER (fcell (xP c) Fam.xr 6) 0
    ∗ dutyTok ER (fcell c Fam.xs 6) 0 0
    ∗ dutyTok ER (fcell (xP c) Fam.xr 6) 0 0
    ∗ cellInv ER (sched m) (K (c, some (Fam.zs, 6))) (fcell c Fam.zs 6)
    ∗ cellInv ER (sched m) (K (zP c, some (Fam.zr, 6))) (fcell (zP c) Fam.zr 6)
    ∗ reached ER (fcell c Fam.zs 6) 0
    ∗ reached ER (fcell (zP c) Fam.zr 6) 0
    ∗ dutyTok ER (fcell c Fam.zs 6) 0 0
    ∗ dutyTok ER (fcell (zP c) Fam.zr 6) 0 0
    ∗ semVal ((c : Thread nD τ), .dma ⟨22, by decide⟩) 0
    ∗ ((oRowY c 6).view.loc (c : Thread nD τ) ↦[(oRowY c 6).view.set]{fullShare} fo)
    ∗ cellInv ER (sched m) (K (c, some (Fam.yr, 7))) (fcell c Fam.yr 7)
    ∗ atPos ER (fcell c Fam.yr 7) 0 ∅ 0
    ∗ cred (tallyAt (fcell c Fam.yr 7) () N)
    ∗ cellInv ER (sched m) (K (c, some (Fam.xs, 7))) (fcell c Fam.xs 7)
    ∗ cellInv ER (sched m) (K (xP c, some (Fam.xr, 7))) (fcell (xP c) Fam.xr 7)
    ∗ reached ER (fcell c Fam.xs 7) 0
    ∗ reached ER (fcell (xP c) Fam.xr 7) 0
    ∗ dutyTok ER (fcell c Fam.xs 7) 0 0
    ∗ dutyTok ER (fcell (xP c) Fam.xr 7) 0 0
    ∗ cellInv ER (sched m) (K (c, some (Fam.zs, 7))) (fcell c Fam.zs 7)
    ∗ cellInv ER (sched m) (K (zP c, some (Fam.zr, 7))) (fcell (zP c) Fam.zr 7)
    ∗ reached ER (fcell c Fam.zs 7) 0
    ∗ reached ER (fcell (zP c) Fam.zr 7) 0
    ∗ dutyTok ER (fcell c Fam.zs 7) 0 0
    ∗ dutyTok ER (fcell (zP c) Fam.zr 7) 0 0
    ∗ semVal ((c : Thread nD τ), .dma ⟨23, by decide⟩) 0
    ∗ ((oRowY c 7).view.loc (c : Thread nD τ) ↦[(oRowY c 7).view.set]{fullShare} fo)
    ∗ cellInv ER (sched m) (K (c, some (Fam.yr, 8))) (fcell c Fam.yr 8)
    ∗ atPos ER (fcell c Fam.yr 8) 0 ∅ 0
    ∗ cred (tallyAt (fcell c Fam.yr 8) () N)
    ∗ cellInv ER (sched m) (K (c, some (Fam.xs, 8))) (fcell c Fam.xs 8)
    ∗ cellInv ER (sched m) (K (xP c, some (Fam.xr, 8))) (fcell (xP c) Fam.xr 8)
    ∗ reached ER (fcell c Fam.xs 8) 0
    ∗ reached ER (fcell (xP c) Fam.xr 8) 0
    ∗ dutyTok ER (fcell c Fam.xs 8) 0 0
    ∗ dutyTok ER (fcell (xP c) Fam.xr 8) 0 0
    ∗ cellInv ER (sched m) (K (c, some (Fam.zs, 8))) (fcell c Fam.zs 8)
    ∗ cellInv ER (sched m) (K (zP c, some (Fam.zr, 8))) (fcell (zP c) Fam.zr 8)
    ∗ reached ER (fcell c Fam.zs 8) 0
    ∗ reached ER (fcell (zP c) Fam.zr 8) 0
    ∗ dutyTok ER (fcell c Fam.zs 8) 0 0
    ∗ dutyTok ER (fcell (zP c) Fam.zr 8) 0 0
    ∗ semVal ((c : Thread nD τ), .dma ⟨24, by decide⟩) 0
    ∗ ((oRowY c 8).view.loc (c : Thread nD τ) ↦[(oRowY c 8).view.set]{fullShare} fo)
    ∗ cellInv ER (sched m) (K (c, some (Fam.yr, 9))) (fcell c Fam.yr 9)
    ∗ atPos ER (fcell c Fam.yr 9) 0 ∅ 0
    ∗ cred (tallyAt (fcell c Fam.yr 9) () N)
    ∗ cellInv ER (sched m) (K (c, some (Fam.xs, 9))) (fcell c Fam.xs 9)
    ∗ cellInv ER (sched m) (K (xP c, some (Fam.xr, 9))) (fcell (xP c) Fam.xr 9)
    ∗ reached ER (fcell c Fam.xs 9) 0
    ∗ reached ER (fcell (xP c) Fam.xr 9) 0
    ∗ dutyTok ER (fcell c Fam.xs 9) 0 0
    ∗ dutyTok ER (fcell (xP c) Fam.xr 9) 0 0
    ∗ cellInv ER (sched m) (K (c, some (Fam.zs, 9))) (fcell c Fam.zs 9)
    ∗ cellInv ER (sched m) (K (zP c, some (Fam.zr, 9))) (fcell (zP c) Fam.zr 9)
    ∗ reached ER (fcell c Fam.zs 9) 0
    ∗ reached ER (fcell (zP c) Fam.zr 9) 0
    ∗ dutyTok ER (fcell c Fam.zs 9) 0 0
    ∗ dutyTok ER (fcell (zP c) Fam.zr 9) 0 0
    ∗ semVal ((c : Thread nD τ), .dma ⟨25, by decide⟩) 0
    ∗ ((oRowY c 9).view.loc (c : Thread nD τ) ↦[(oRowY c 9).view.set]{fullShare} fo)
    ∗ cellInv ER (sched m) (K (c, some (Fam.yr, 10))) (fcell c Fam.yr 10)
    ∗ atPos ER (fcell c Fam.yr 10) 0 ∅ 0
    ∗ cred (tallyAt (fcell c Fam.yr 10) () N)
    ∗ cellInv ER (sched m) (K (c, some (Fam.xs, 10))) (fcell c Fam.xs 10)
    ∗ cellInv ER (sched m) (K (xP c, some (Fam.xr, 10))) (fcell (xP c) Fam.xr 10)
    ∗ reached ER (fcell c Fam.xs 10) 0
    ∗ reached ER (fcell (xP c) Fam.xr 10) 0
    ∗ dutyTok ER (fcell c Fam.xs 10) 0 0
    ∗ dutyTok ER (fcell (xP c) Fam.xr 10) 0 0
    ∗ cellInv ER (sched m) (K (c, some (Fam.zs, 10))) (fcell c Fam.zs 10)
    ∗ cellInv ER (sched m) (K (zP c, some (Fam.zr, 10))) (fcell (zP c) Fam.zr 10)
    ∗ reached ER (fcell c Fam.zs 10) 0
    ∗ reached ER (fcell (zP c) Fam.zr 10) 0
    ∗ dutyTok ER (fcell c Fam.zs 10) 0 0
    ∗ dutyTok ER (fcell (zP c) Fam.zr 10) 0 0
    ∗ semVal ((c : Thread nD τ), .dma ⟨26, by decide⟩) 0
    ∗ ((oRowY c 10).view.loc (c : Thread nD τ) ↦[(oRowY c 10).view.set]{fullShare} fo)
    ∗ cellInv ER (sched m) (K (c, some (Fam.yr, 11))) (fcell c Fam.yr 11)
    ∗ atPos ER (fcell c Fam.yr 11) 0 ∅ 0
    ∗ cred (tallyAt (fcell c Fam.yr 11) () N)
    ∗ cellInv ER (sched m) (K (c, some (Fam.xs, 11))) (fcell c Fam.xs 11)
    ∗ cellInv ER (sched m) (K (xP c, some (Fam.xr, 11))) (fcell (xP c) Fam.xr 11)
    ∗ reached ER (fcell c Fam.xs 11) 0
    ∗ reached ER (fcell (xP c) Fam.xr 11) 0
    ∗ dutyTok ER (fcell c Fam.xs 11) 0 0
    ∗ dutyTok ER (fcell (xP c) Fam.xr 11) 0 0
    ∗ cellInv ER (sched m) (K (c, some (Fam.zs, 11))) (fcell c Fam.zs 11)
    ∗ cellInv ER (sched m) (K (zP c, some (Fam.zr, 11))) (fcell (zP c) Fam.zr 11)
    ∗ reached ER (fcell c Fam.zs 11) 0
    ∗ reached ER (fcell (zP c) Fam.zr 11) 0
    ∗ dutyTok ER (fcell c Fam.zs 11) 0 0
    ∗ dutyTok ER (fcell (zP c) Fam.zr 11) 0 0
    ∗ semVal ((c : Thread nD τ), .dma ⟨27, by decide⟩) 0
    ∗ ((oRowY c 11).view.loc (c : Thread nD τ) ↦[(oRowY c 11).view.set]{fullShare} fo)
    ∗ cellInv ER (sched m) (K (c, some (Fam.yr, 12))) (fcell c Fam.yr 12)
    ∗ atPos ER (fcell c Fam.yr 12) 0 ∅ 0
    ∗ cred (tallyAt (fcell c Fam.yr 12) () N)
    ∗ cellInv ER (sched m) (K (c, some (Fam.xs, 12))) (fcell c Fam.xs 12)
    ∗ cellInv ER (sched m) (K (xP c, some (Fam.xr, 12))) (fcell (xP c) Fam.xr 12)
    ∗ reached ER (fcell c Fam.xs 12) 0
    ∗ reached ER (fcell (xP c) Fam.xr 12) 0
    ∗ dutyTok ER (fcell c Fam.xs 12) 0 0
    ∗ dutyTok ER (fcell (xP c) Fam.xr 12) 0 0
    ∗ cellInv ER (sched m) (K (c, some (Fam.zs, 12))) (fcell c Fam.zs 12)
    ∗ cellInv ER (sched m) (K (zP c, some (Fam.zr, 12))) (fcell (zP c) Fam.zr 12)
    ∗ reached ER (fcell c Fam.zs 12) 0
    ∗ reached ER (fcell (zP c) Fam.zr 12) 0
    ∗ dutyTok ER (fcell c Fam.zs 12) 0 0
    ∗ dutyTok ER (fcell (zP c) Fam.zr 12) 0 0
    ∗ semVal ((c : Thread nD τ), .dma ⟨28, by decide⟩) 0
    ∗ ((oRowY c 12).view.loc (c : Thread nD τ) ↦[(oRowY c 12).view.set]{fullShare} fo)
    ∗ cellInv ER (sched m) (K (c, some (Fam.yr, 13))) (fcell c Fam.yr 13)
    ∗ atPos ER (fcell c Fam.yr 13) 0 ∅ 0
    ∗ cred (tallyAt (fcell c Fam.yr 13) () N)
    ∗ cellInv ER (sched m) (K (c, some (Fam.xs, 13))) (fcell c Fam.xs 13)
    ∗ cellInv ER (sched m) (K (xP c, some (Fam.xr, 13))) (fcell (xP c) Fam.xr 13)
    ∗ reached ER (fcell c Fam.xs 13) 0
    ∗ reached ER (fcell (xP c) Fam.xr 13) 0
    ∗ dutyTok ER (fcell c Fam.xs 13) 0 0
    ∗ dutyTok ER (fcell (xP c) Fam.xr 13) 0 0
    ∗ cellInv ER (sched m) (K (c, some (Fam.zs, 13))) (fcell c Fam.zs 13)
    ∗ cellInv ER (sched m) (K (zP c, some (Fam.zr, 13))) (fcell (zP c) Fam.zr 13)
    ∗ reached ER (fcell c Fam.zs 13) 0
    ∗ reached ER (fcell (zP c) Fam.zr 13) 0
    ∗ dutyTok ER (fcell c Fam.zs 13) 0 0
    ∗ dutyTok ER (fcell (zP c) Fam.zr 13) 0 0
    ∗ semVal ((c : Thread nD τ), .dma ⟨29, by decide⟩) 0
    ∗ ((oRowY c 13).view.loc (c : Thread nD τ) ↦[(oRowY c 13).view.set]{fullShare} fo)
    ∗ cellInv ER (sched m) (K (c, some (Fam.yr, 14))) (fcell c Fam.yr 14)
    ∗ atPos ER (fcell c Fam.yr 14) 0 ∅ 0
    ∗ cred (tallyAt (fcell c Fam.yr 14) () N)
    ∗ cellInv ER (sched m) (K (c, some (Fam.xs, 14))) (fcell c Fam.xs 14)
    ∗ cellInv ER (sched m) (K (xP c, some (Fam.xr, 14))) (fcell (xP c) Fam.xr 14)
    ∗ reached ER (fcell c Fam.xs 14) 0
    ∗ reached ER (fcell (xP c) Fam.xr 14) 0
    ∗ dutyTok ER (fcell c Fam.xs 14) 0 0
    ∗ dutyTok ER (fcell (xP c) Fam.xr 14) 0 0
    ∗ cellInv ER (sched m) (K (c, some (Fam.zs, 14))) (fcell c Fam.zs 14)
    ∗ cellInv ER (sched m) (K (zP c, some (Fam.zr, 14))) (fcell (zP c) Fam.zr 14)
    ∗ reached ER (fcell c Fam.zs 14) 0
    ∗ reached ER (fcell (zP c) Fam.zr 14) 0
    ∗ dutyTok ER (fcell c Fam.zs 14) 0 0
    ∗ dutyTok ER (fcell (zP c) Fam.zr 14) 0 0
    ∗ semVal ((c : Thread nD τ), .dma ⟨30, by decide⟩) 0
    ∗ ((oRowY c 14).view.loc (c : Thread nD τ) ↦[(oRowY c 14).view.set]{fullShare} fo)
    ∗ cellInv ER (sched m) (K (c, some (Fam.yr, 15))) (fcell c Fam.yr 15)
    ∗ atPos ER (fcell c Fam.yr 15) 0 ∅ 0
    ∗ cred (tallyAt (fcell c Fam.yr 15) () N)
    ∗ cellInv ER (sched m) (K (c, some (Fam.xs, 15))) (fcell c Fam.xs 15)
    ∗ cellInv ER (sched m) (K (xP c, some (Fam.xr, 15))) (fcell (xP c) Fam.xr 15)
    ∗ reached ER (fcell c Fam.xs 15) 0
    ∗ reached ER (fcell (xP c) Fam.xr 15) 0
    ∗ dutyTok ER (fcell c Fam.xs 15) 0 0
    ∗ dutyTok ER (fcell (xP c) Fam.xr 15) 0 0
    ∗ cellInv ER (sched m) (K (c, some (Fam.zs, 15))) (fcell c Fam.zs 15)
    ∗ cellInv ER (sched m) (K (zP c, some (Fam.zr, 15))) (fcell (zP c) Fam.zr 15)
    ∗ reached ER (fcell c Fam.zs 15) 0
    ∗ reached ER (fcell (zP c) Fam.zr 15) 0
    ∗ dutyTok ER (fcell c Fam.zs 15) 0 0
    ∗ dutyTok ER (fcell (zP c) Fam.zr 15) 0 0
    ∗ semVal ((c : Thread nD τ), .dma ⟨31, by decide⟩) 0
    ∗ ((oRowY c 15).view.loc (c : Thread nD τ) ↦[(oRowY c 15).view.set]{fullShare} fo)
    ∗ cellInv ER (sched m) (K (c, some (Fam.xr, 0))) (fcell c Fam.xr 0)
    ∗ atPos ER (fcell c Fam.xr 0) 0 ∅ 0
    ∗ cred (tallyAt (fcell c Fam.xr 0) () N)
    ∗ semVal ((c : Thread nD τ), .dma ⟨32, by decide⟩) 0
    ∗ ((oRowX c 0).view.loc (c : Thread nD τ) ↦[(oRowX c 0).view.set]{fullShare} fo)
    ∗ cellInv ER (sched m) (K (c, some (Fam.zr, 0))) (fcell c Fam.zr 0)
    ∗ atPos ER (fcell c Fam.zr 0) 0 ∅ 0
    ∗ cred (tallyAt (fcell c Fam.zr 0) () N)
    ∗ semVal ((c : Thread nD τ), .dma ⟨48, by decide⟩) 0
    ∗ ((oRowZ c 0).view.loc (c : Thread nD τ) ↦[(oRowZ c 0).view.set]{fullShare} fo)
    ∗ cellInv ER (sched m) (K (c, some (Fam.qs, 0))) (fcell c Fam.qs 0)
    ∗ cellInv ER (sched m) (K (xP c, some (Fam.qr, 0))) (fcell (xP c) Fam.qr 0)
    ∗ reached ER (fcell c Fam.qs 0) 0
    ∗ reached ER (fcell (xP c) Fam.qr 0) 0
    ∗ dutyTok ER (fcell c Fam.qs 0) 0 0
    ∗ dutyTok ER (fcell (xP c) Fam.qr 0) 0 0
    ∗ cellInv ER (sched m) (K (c, some (Fam.xr, 1))) (fcell c Fam.xr 1)
    ∗ atPos ER (fcell c Fam.xr 1) 0 ∅ 0
    ∗ cred (tallyAt (fcell c Fam.xr 1) () N)
    ∗ semVal ((c : Thread nD τ), .dma ⟨33, by decide⟩) 0
    ∗ ((oRowX c 1).view.loc (c : Thread nD τ) ↦[(oRowX c 1).view.set]{fullShare} fo)
    ∗ cellInv ER (sched m) (K (c, some (Fam.zr, 1))) (fcell c Fam.zr 1)
    ∗ atPos ER (fcell c Fam.zr 1) 0 ∅ 0
    ∗ cred (tallyAt (fcell c Fam.zr 1) () N)
    ∗ semVal ((c : Thread nD τ), .dma ⟨49, by decide⟩) 0
    ∗ ((oRowZ c 1).view.loc (c : Thread nD τ) ↦[(oRowZ c 1).view.set]{fullShare} fo)
    ∗ cellInv ER (sched m) (K (c, some (Fam.qs, 1))) (fcell c Fam.qs 1)
    ∗ cellInv ER (sched m) (K (zP c, some (Fam.qr, 1))) (fcell (zP c) Fam.qr 1)
    ∗ reached ER (fcell c Fam.qs 1) 0
    ∗ reached ER (fcell (zP c) Fam.qr 1) 0
    ∗ dutyTok ER (fcell c Fam.qs 1) 0 0
    ∗ dutyTok ER (fcell (zP c) Fam.qr 1) 0 0
    ∗ cellInv ER (sched m) (K (c, some (Fam.xr, 2))) (fcell c Fam.xr 2)
    ∗ atPos ER (fcell c Fam.xr 2) 0 ∅ 0
    ∗ cred (tallyAt (fcell c Fam.xr 2) () N)
    ∗ semVal ((c : Thread nD τ), .dma ⟨34, by decide⟩) 0
    ∗ ((oRowX c 2).view.loc (c : Thread nD τ) ↦[(oRowX c 2).view.set]{fullShare} fo)
    ∗ cellInv ER (sched m) (K (c, some (Fam.zr, 2))) (fcell c Fam.zr 2)
    ∗ atPos ER (fcell c Fam.zr 2) 0 ∅ 0
    ∗ cred (tallyAt (fcell c Fam.zr 2) () N)
    ∗ semVal ((c : Thread nD τ), .dma ⟨50, by decide⟩) 0
    ∗ ((oRowZ c 2).view.loc (c : Thread nD τ) ↦[(oRowZ c 2).view.set]{fullShare} fo)
    ∗ cellInv ER (sched m) (K (c, some (Fam.qs, 2))) (fcell c Fam.qs 2)
    ∗ cellInv ER (sched m) (K (xP c, some (Fam.qr, 2))) (fcell (xP c) Fam.qr 2)
    ∗ reached ER (fcell c Fam.qs 2) 0
    ∗ reached ER (fcell (xP c) Fam.qr 2) 0
    ∗ dutyTok ER (fcell c Fam.qs 2) 0 0
    ∗ dutyTok ER (fcell (xP c) Fam.qr 2) 0 0
    ∗ cellInv ER (sched m) (K (c, some (Fam.xr, 3))) (fcell c Fam.xr 3)
    ∗ atPos ER (fcell c Fam.xr 3) 0 ∅ 0
    ∗ cred (tallyAt (fcell c Fam.xr 3) () N)
    ∗ semVal ((c : Thread nD τ), .dma ⟨35, by decide⟩) 0
    ∗ ((oRowX c 3).view.loc (c : Thread nD τ) ↦[(oRowX c 3).view.set]{fullShare} fo)
    ∗ cellInv ER (sched m) (K (c, some (Fam.zr, 3))) (fcell c Fam.zr 3)
    ∗ atPos ER (fcell c Fam.zr 3) 0 ∅ 0
    ∗ cred (tallyAt (fcell c Fam.zr 3) () N)
    ∗ semVal ((c : Thread nD τ), .dma ⟨51, by decide⟩) 0
    ∗ ((oRowZ c 3).view.loc (c : Thread nD τ) ↦[(oRowZ c 3).view.set]{fullShare} fo)
    ∗ cellInv ER (sched m) (K (c, some (Fam.qs, 3))) (fcell c Fam.qs 3)
    ∗ cellInv ER (sched m) (K (zP c, some (Fam.qr, 3))) (fcell (zP c) Fam.qr 3)
    ∗ reached ER (fcell c Fam.qs 3) 0
    ∗ reached ER (fcell (zP c) Fam.qr 3) 0
    ∗ dutyTok ER (fcell c Fam.qs 3) 0 0
    ∗ dutyTok ER (fcell (zP c) Fam.qr 3) 0 0
    ∗ cellInv ER (sched m) (K (c, some (Fam.xr, 4))) (fcell c Fam.xr 4)
    ∗ atPos ER (fcell c Fam.xr 4) 0 ∅ 0
    ∗ cred (tallyAt (fcell c Fam.xr 4) () N)
    ∗ semVal ((c : Thread nD τ), .dma ⟨36, by decide⟩) 0
    ∗ ((oRowX c 4).view.loc (c : Thread nD τ) ↦[(oRowX c 4).view.set]{fullShare} fo)
    ∗ cellInv ER (sched m) (K (c, some (Fam.zr, 4))) (fcell c Fam.zr 4)
    ∗ atPos ER (fcell c Fam.zr 4) 0 ∅ 0
    ∗ cred (tallyAt (fcell c Fam.zr 4) () N)
    ∗ semVal ((c : Thread nD τ), .dma ⟨52, by decide⟩) 0
    ∗ ((oRowZ c 4).view.loc (c : Thread nD τ) ↦[(oRowZ c 4).view.set]{fullShare} fo)
    ∗ cellInv ER (sched m) (K (c, some (Fam.qs, 4))) (fcell c Fam.qs 4)
    ∗ cellInv ER (sched m) (K (xP c, some (Fam.qr, 4))) (fcell (xP c) Fam.qr 4)
    ∗ reached ER (fcell c Fam.qs 4) 0
    ∗ reached ER (fcell (xP c) Fam.qr 4) 0
    ∗ dutyTok ER (fcell c Fam.qs 4) 0 0
    ∗ dutyTok ER (fcell (xP c) Fam.qr 4) 0 0
    ∗ cellInv ER (sched m) (K (c, some (Fam.xr, 5))) (fcell c Fam.xr 5)
    ∗ atPos ER (fcell c Fam.xr 5) 0 ∅ 0
    ∗ cred (tallyAt (fcell c Fam.xr 5) () N)
    ∗ semVal ((c : Thread nD τ), .dma ⟨37, by decide⟩) 0
    ∗ ((oRowX c 5).view.loc (c : Thread nD τ) ↦[(oRowX c 5).view.set]{fullShare} fo)
    ∗ cellInv ER (sched m) (K (c, some (Fam.zr, 5))) (fcell c Fam.zr 5)
    ∗ atPos ER (fcell c Fam.zr 5) 0 ∅ 0
    ∗ cred (tallyAt (fcell c Fam.zr 5) () N)
    ∗ semVal ((c : Thread nD τ), .dma ⟨53, by decide⟩) 0
    ∗ ((oRowZ c 5).view.loc (c : Thread nD τ) ↦[(oRowZ c 5).view.set]{fullShare} fo)
    ∗ cellInv ER (sched m) (K (c, some (Fam.qs, 5))) (fcell c Fam.qs 5)
    ∗ cellInv ER (sched m) (K (zP c, some (Fam.qr, 5))) (fcell (zP c) Fam.qr 5)
    ∗ reached ER (fcell c Fam.qs 5) 0
    ∗ reached ER (fcell (zP c) Fam.qr 5) 0
    ∗ dutyTok ER (fcell c Fam.qs 5) 0 0
    ∗ dutyTok ER (fcell (zP c) Fam.qr 5) 0 0
    ∗ cellInv ER (sched m) (K (c, some (Fam.xr, 6))) (fcell c Fam.xr 6)
    ∗ atPos ER (fcell c Fam.xr 6) 0 ∅ 0
    ∗ cred (tallyAt (fcell c Fam.xr 6) () N)
    ∗ semVal ((c : Thread nD τ), .dma ⟨38, by decide⟩) 0
    ∗ ((oRowX c 6).view.loc (c : Thread nD τ) ↦[(oRowX c 6).view.set]{fullShare} fo)
    ∗ cellInv ER (sched m) (K (c, some (Fam.zr, 6))) (fcell c Fam.zr 6)
    ∗ atPos ER (fcell c Fam.zr 6) 0 ∅ 0
    ∗ cred (tallyAt (fcell c Fam.zr 6) () N)
    ∗ semVal ((c : Thread nD τ), .dma ⟨54, by decide⟩) 0
    ∗ ((oRowZ c 6).view.loc (c : Thread nD τ) ↦[(oRowZ c 6).view.set]{fullShare} fo)
    ∗ cellInv ER (sched m) (K (c, some (Fam.qs, 6))) (fcell c Fam.qs 6)
    ∗ cellInv ER (sched m) (K (xP c, some (Fam.qr, 6))) (fcell (xP c) Fam.qr 6)
    ∗ reached ER (fcell c Fam.qs 6) 0
    ∗ reached ER (fcell (xP c) Fam.qr 6) 0
    ∗ dutyTok ER (fcell c Fam.qs 6) 0 0
    ∗ dutyTok ER (fcell (xP c) Fam.qr 6) 0 0
    ∗ cellInv ER (sched m) (K (c, some (Fam.xr, 7))) (fcell c Fam.xr 7)
    ∗ atPos ER (fcell c Fam.xr 7) 0 ∅ 0
    ∗ cred (tallyAt (fcell c Fam.xr 7) () N)
    ∗ semVal ((c : Thread nD τ), .dma ⟨39, by decide⟩) 0
    ∗ ((oRowX c 7).view.loc (c : Thread nD τ) ↦[(oRowX c 7).view.set]{fullShare} fo)
    ∗ cellInv ER (sched m) (K (c, some (Fam.zr, 7))) (fcell c Fam.zr 7)
    ∗ atPos ER (fcell c Fam.zr 7) 0 ∅ 0
    ∗ cred (tallyAt (fcell c Fam.zr 7) () N)
    ∗ semVal ((c : Thread nD τ), .dma ⟨55, by decide⟩) 0
    ∗ ((oRowZ c 7).view.loc (c : Thread nD τ) ↦[(oRowZ c 7).view.set]{fullShare} fo)
    ∗ cellInv ER (sched m) (K (c, some (Fam.qs, 7))) (fcell c Fam.qs 7)
    ∗ cellInv ER (sched m) (K (zP c, some (Fam.qr, 7))) (fcell (zP c) Fam.qr 7)
    ∗ reached ER (fcell c Fam.qs 7) 0
    ∗ reached ER (fcell (zP c) Fam.qr 7) 0
    ∗ dutyTok ER (fcell c Fam.qs 7) 0 0
    ∗ dutyTok ER (fcell (zP c) Fam.qr 7) 0 0
    ∗ cellInv ER (sched m) (K (c, some (Fam.xr, 8))) (fcell c Fam.xr 8)
    ∗ atPos ER (fcell c Fam.xr 8) 0 ∅ 0
    ∗ cred (tallyAt (fcell c Fam.xr 8) () N)
    ∗ semVal ((c : Thread nD τ), .dma ⟨40, by decide⟩) 0
    ∗ ((oRowX c 8).view.loc (c : Thread nD τ) ↦[(oRowX c 8).view.set]{fullShare} fo)
    ∗ cellInv ER (sched m) (K (c, some (Fam.zr, 8))) (fcell c Fam.zr 8)
    ∗ atPos ER (fcell c Fam.zr 8) 0 ∅ 0
    ∗ cred (tallyAt (fcell c Fam.zr 8) () N)
    ∗ semVal ((c : Thread nD τ), .dma ⟨56, by decide⟩) 0
    ∗ ((oRowZ c 8).view.loc (c : Thread nD τ) ↦[(oRowZ c 8).view.set]{fullShare} fo)
    ∗ cellInv ER (sched m) (K (c, some (Fam.qs, 8))) (fcell c Fam.qs 8)
    ∗ cellInv ER (sched m) (K (xP c, some (Fam.qr, 8))) (fcell (xP c) Fam.qr 8)
    ∗ reached ER (fcell c Fam.qs 8) 0
    ∗ reached ER (fcell (xP c) Fam.qr 8) 0
    ∗ dutyTok ER (fcell c Fam.qs 8) 0 0
    ∗ dutyTok ER (fcell (xP c) Fam.qr 8) 0 0
    ∗ cellInv ER (sched m) (K (c, some (Fam.xr, 9))) (fcell c Fam.xr 9)
    ∗ atPos ER (fcell c Fam.xr 9) 0 ∅ 0
    ∗ cred (tallyAt (fcell c Fam.xr 9) () N)
    ∗ semVal ((c : Thread nD τ), .dma ⟨41, by decide⟩) 0
    ∗ ((oRowX c 9).view.loc (c : Thread nD τ) ↦[(oRowX c 9).view.set]{fullShare} fo)
    ∗ cellInv ER (sched m) (K (c, some (Fam.zr, 9))) (fcell c Fam.zr 9)
    ∗ atPos ER (fcell c Fam.zr 9) 0 ∅ 0
    ∗ cred (tallyAt (fcell c Fam.zr 9) () N)
    ∗ semVal ((c : Thread nD τ), .dma ⟨57, by decide⟩) 0
    ∗ ((oRowZ c 9).view.loc (c : Thread nD τ) ↦[(oRowZ c 9).view.set]{fullShare} fo)
    ∗ cellInv ER (sched m) (K (c, some (Fam.qs, 9))) (fcell c Fam.qs 9)
    ∗ cellInv ER (sched m) (K (zP c, some (Fam.qr, 9))) (fcell (zP c) Fam.qr 9)
    ∗ reached ER (fcell c Fam.qs 9) 0
    ∗ reached ER (fcell (zP c) Fam.qr 9) 0
    ∗ dutyTok ER (fcell c Fam.qs 9) 0 0
    ∗ dutyTok ER (fcell (zP c) Fam.qr 9) 0 0
    ∗ cellInv ER (sched m) (K (c, some (Fam.xr, 10))) (fcell c Fam.xr 10)
    ∗ atPos ER (fcell c Fam.xr 10) 0 ∅ 0
    ∗ cred (tallyAt (fcell c Fam.xr 10) () N)
    ∗ semVal ((c : Thread nD τ), .dma ⟨42, by decide⟩) 0
    ∗ ((oRowX c 10).view.loc (c : Thread nD τ) ↦[(oRowX c 10).view.set]{fullShare} fo)
    ∗ cellInv ER (sched m) (K (c, some (Fam.zr, 10))) (fcell c Fam.zr 10)
    ∗ atPos ER (fcell c Fam.zr 10) 0 ∅ 0
    ∗ cred (tallyAt (fcell c Fam.zr 10) () N)
    ∗ semVal ((c : Thread nD τ), .dma ⟨58, by decide⟩) 0
    ∗ ((oRowZ c 10).view.loc (c : Thread nD τ) ↦[(oRowZ c 10).view.set]{fullShare} fo)
    ∗ cellInv ER (sched m) (K (c, some (Fam.qs, 10))) (fcell c Fam.qs 10)
    ∗ cellInv ER (sched m) (K (xP c, some (Fam.qr, 10))) (fcell (xP c) Fam.qr 10)
    ∗ reached ER (fcell c Fam.qs 10) 0
    ∗ reached ER (fcell (xP c) Fam.qr 10) 0
    ∗ dutyTok ER (fcell c Fam.qs 10) 0 0
    ∗ dutyTok ER (fcell (xP c) Fam.qr 10) 0 0
    ∗ cellInv ER (sched m) (K (c, some (Fam.xr, 11))) (fcell c Fam.xr 11)
    ∗ atPos ER (fcell c Fam.xr 11) 0 ∅ 0
    ∗ cred (tallyAt (fcell c Fam.xr 11) () N)
    ∗ semVal ((c : Thread nD τ), .dma ⟨43, by decide⟩) 0
    ∗ ((oRowX c 11).view.loc (c : Thread nD τ) ↦[(oRowX c 11).view.set]{fullShare} fo)
    ∗ cellInv ER (sched m) (K (c, some (Fam.zr, 11))) (fcell c Fam.zr 11)
    ∗ atPos ER (fcell c Fam.zr 11) 0 ∅ 0
    ∗ cred (tallyAt (fcell c Fam.zr 11) () N)
    ∗ semVal ((c : Thread nD τ), .dma ⟨59, by decide⟩) 0
    ∗ ((oRowZ c 11).view.loc (c : Thread nD τ) ↦[(oRowZ c 11).view.set]{fullShare} fo)
    ∗ cellInv ER (sched m) (K (c, some (Fam.qs, 11))) (fcell c Fam.qs 11)
    ∗ cellInv ER (sched m) (K (zP c, some (Fam.qr, 11))) (fcell (zP c) Fam.qr 11)
    ∗ reached ER (fcell c Fam.qs 11) 0
    ∗ reached ER (fcell (zP c) Fam.qr 11) 0
    ∗ dutyTok ER (fcell c Fam.qs 11) 0 0
    ∗ dutyTok ER (fcell (zP c) Fam.qr 11) 0 0
    ∗ cellInv ER (sched m) (K (c, some (Fam.xr, 12))) (fcell c Fam.xr 12)
    ∗ atPos ER (fcell c Fam.xr 12) 0 ∅ 0
    ∗ cred (tallyAt (fcell c Fam.xr 12) () N)
    ∗ semVal ((c : Thread nD τ), .dma ⟨44, by decide⟩) 0
    ∗ ((oRowX c 12).view.loc (c : Thread nD τ) ↦[(oRowX c 12).view.set]{fullShare} fo)
    ∗ cellInv ER (sched m) (K (c, some (Fam.zr, 12))) (fcell c Fam.zr 12)
    ∗ atPos ER (fcell c Fam.zr 12) 0 ∅ 0
    ∗ cred (tallyAt (fcell c Fam.zr 12) () N)
    ∗ semVal ((c : Thread nD τ), .dma ⟨60, by decide⟩) 0
    ∗ ((oRowZ c 12).view.loc (c : Thread nD τ) ↦[(oRowZ c 12).view.set]{fullShare} fo)
    ∗ cellInv ER (sched m) (K (c, some (Fam.qs, 12))) (fcell c Fam.qs 12)
    ∗ cellInv ER (sched m) (K (xP c, some (Fam.qr, 12))) (fcell (xP c) Fam.qr 12)
    ∗ reached ER (fcell c Fam.qs 12) 0
    ∗ reached ER (fcell (xP c) Fam.qr 12) 0
    ∗ dutyTok ER (fcell c Fam.qs 12) 0 0
    ∗ dutyTok ER (fcell (xP c) Fam.qr 12) 0 0
    ∗ cellInv ER (sched m) (K (c, some (Fam.xr, 13))) (fcell c Fam.xr 13)
    ∗ atPos ER (fcell c Fam.xr 13) 0 ∅ 0
    ∗ cred (tallyAt (fcell c Fam.xr 13) () N)
    ∗ semVal ((c : Thread nD τ), .dma ⟨45, by decide⟩) 0
    ∗ ((oRowX c 13).view.loc (c : Thread nD τ) ↦[(oRowX c 13).view.set]{fullShare} fo)
    ∗ cellInv ER (sched m) (K (c, some (Fam.zr, 13))) (fcell c Fam.zr 13)
    ∗ atPos ER (fcell c Fam.zr 13) 0 ∅ 0
    ∗ cred (tallyAt (fcell c Fam.zr 13) () N)
    ∗ semVal ((c : Thread nD τ), .dma ⟨61, by decide⟩) 0
    ∗ ((oRowZ c 13).view.loc (c : Thread nD τ) ↦[(oRowZ c 13).view.set]{fullShare} fo)
    ∗ cellInv ER (sched m) (K (c, some (Fam.qs, 13))) (fcell c Fam.qs 13)
    ∗ cellInv ER (sched m) (K (zP c, some (Fam.qr, 13))) (fcell (zP c) Fam.qr 13)
    ∗ reached ER (fcell c Fam.qs 13) 0
    ∗ reached ER (fcell (zP c) Fam.qr 13) 0
    ∗ dutyTok ER (fcell c Fam.qs 13) 0 0
    ∗ dutyTok ER (fcell (zP c) Fam.qr 13) 0 0
    ∗ cellInv ER (sched m) (K (c, some (Fam.xr, 14))) (fcell c Fam.xr 14)
    ∗ atPos ER (fcell c Fam.xr 14) 0 ∅ 0
    ∗ cred (tallyAt (fcell c Fam.xr 14) () N)
    ∗ semVal ((c : Thread nD τ), .dma ⟨46, by decide⟩) 0
    ∗ ((oRowX c 14).view.loc (c : Thread nD τ) ↦[(oRowX c 14).view.set]{fullShare} fo)
    ∗ cellInv ER (sched m) (K (c, some (Fam.zr, 14))) (fcell c Fam.zr 14)
    ∗ atPos ER (fcell c Fam.zr 14) 0 ∅ 0
    ∗ cred (tallyAt (fcell c Fam.zr 14) () N)
    ∗ semVal ((c : Thread nD τ), .dma ⟨62, by decide⟩) 0
    ∗ ((oRowZ c 14).view.loc (c : Thread nD τ) ↦[(oRowZ c 14).view.set]{fullShare} fo)
    ∗ cellInv ER (sched m) (K (c, some (Fam.qs, 14))) (fcell c Fam.qs 14)
    ∗ cellInv ER (sched m) (K (xP c, some (Fam.qr, 14))) (fcell (xP c) Fam.qr 14)
    ∗ reached ER (fcell c Fam.qs 14) 0
    ∗ reached ER (fcell (xP c) Fam.qr 14) 0
    ∗ dutyTok ER (fcell c Fam.qs 14) 0 0
    ∗ dutyTok ER (fcell (xP c) Fam.qr 14) 0 0
    ∗ cellInv ER (sched m) (K (c, some (Fam.xr, 15))) (fcell c Fam.xr 15)
    ∗ atPos ER (fcell c Fam.xr 15) 0 ∅ 0
    ∗ cred (tallyAt (fcell c Fam.xr 15) () N)
    ∗ semVal ((c : Thread nD τ), .dma ⟨47, by decide⟩) 0
    ∗ ((oRowX c 15).view.loc (c : Thread nD τ) ↦[(oRowX c 15).view.set]{fullShare} fo)
    ∗ cellInv ER (sched m) (K (c, some (Fam.zr, 15))) (fcell c Fam.zr 15)
    ∗ atPos ER (fcell c Fam.zr 15) 0 ∅ 0
    ∗ cred (tallyAt (fcell c Fam.zr 15) () N)
    ∗ semVal ((c : Thread nD τ), .dma ⟨63, by decide⟩) 0
    ∗ ((oRowZ c 15).view.loc (c : Thread nD τ) ↦[(oRowZ c 15).view.set]{fullShare} fo)
    ∗ cellInv ER (sched m) (K (c, some (Fam.qs, 15))) (fcell c Fam.qs 15)
    ∗ cellInv ER (sched m) (K (zP c, some (Fam.qr, 15))) (fcell (zP c) Fam.qr 15)
    ∗ reached ER (fcell c Fam.qs 15) 0
    ∗ reached ER (fcell (zP c) Fam.qr 15) 0
    ∗ dutyTok ER (fcell c Fam.qs 15) 0 0
    ∗ dutyTok ER (fcell (zP c) Fam.qr 15) 0 0
    ∗ atPos ER (fcell c Fam.ys 0) 0 ∅ 0
    ∗ atPos ER (fcell c Fam.xs 0) 0 ∅ 0
    ∗ atPos ER (fcell c Fam.zs 0) 0 ∅ 0
    ∗ atPos ER (fcell c Fam.qs 0) 0 ∅ 0
    ∗ cellInv ER (sched m) (K (c, some (Fam.qr, 0))) (fcell c Fam.qr 0)
    ∗ atPos ER (fcell c Fam.qr 0) 0 ∅ 0
    ∗ cred (tallyAt (fcell c Fam.qr 0) () N)
    ∗ atPos ER (fcell c Fam.ys 1) 0 ∅ 0
    ∗ atPos ER (fcell c Fam.xs 1) 0 ∅ 0
    ∗ atPos ER (fcell c Fam.zs 1) 0 ∅ 0
    ∗ atPos ER (fcell c Fam.qs 1) 0 ∅ 0
    ∗ cellInv ER (sched m) (K (c, some (Fam.qr, 1))) (fcell c Fam.qr 1)
    ∗ atPos ER (fcell c Fam.qr 1) 0 ∅ 0
    ∗ cred (tallyAt (fcell c Fam.qr 1) () N)
    ∗ atPos ER (fcell c Fam.ys 2) 0 ∅ 0
    ∗ atPos ER (fcell c Fam.xs 2) 0 ∅ 0
    ∗ atPos ER (fcell c Fam.zs 2) 0 ∅ 0
    ∗ atPos ER (fcell c Fam.qs 2) 0 ∅ 0
    ∗ cellInv ER (sched m) (K (c, some (Fam.qr, 2))) (fcell c Fam.qr 2)
    ∗ atPos ER (fcell c Fam.qr 2) 0 ∅ 0
    ∗ cred (tallyAt (fcell c Fam.qr 2) () N)
    ∗ atPos ER (fcell c Fam.ys 3) 0 ∅ 0
    ∗ atPos ER (fcell c Fam.xs 3) 0 ∅ 0
    ∗ atPos ER (fcell c Fam.zs 3) 0 ∅ 0
    ∗ atPos ER (fcell c Fam.qs 3) 0 ∅ 0
    ∗ cellInv ER (sched m) (K (c, some (Fam.qr, 3))) (fcell c Fam.qr 3)
    ∗ atPos ER (fcell c Fam.qr 3) 0 ∅ 0
    ∗ cred (tallyAt (fcell c Fam.qr 3) () N)
    ∗ atPos ER (fcell c Fam.ys 4) 0 ∅ 0
    ∗ atPos ER (fcell c Fam.xs 4) 0 ∅ 0
    ∗ atPos ER (fcell c Fam.zs 4) 0 ∅ 0
    ∗ atPos ER (fcell c Fam.qs 4) 0 ∅ 0
    ∗ cellInv ER (sched m) (K (c, some (Fam.qr, 4))) (fcell c Fam.qr 4)
    ∗ atPos ER (fcell c Fam.qr 4) 0 ∅ 0
    ∗ cred (tallyAt (fcell c Fam.qr 4) () N)
    ∗ atPos ER (fcell c Fam.ys 5) 0 ∅ 0
    ∗ atPos ER (fcell c Fam.xs 5) 0 ∅ 0
    ∗ atPos ER (fcell c Fam.zs 5) 0 ∅ 0
    ∗ atPos ER (fcell c Fam.qs 5) 0 ∅ 0
    ∗ cellInv ER (sched m) (K (c, some (Fam.qr, 5))) (fcell c Fam.qr 5)
    ∗ atPos ER (fcell c Fam.qr 5) 0 ∅ 0
    ∗ cred (tallyAt (fcell c Fam.qr 5) () N)
    ∗ atPos ER (fcell c Fam.ys 6) 0 ∅ 0
    ∗ atPos ER (fcell c Fam.xs 6) 0 ∅ 0
    ∗ atPos ER (fcell c Fam.zs 6) 0 ∅ 0
    ∗ atPos ER (fcell c Fam.qs 6) 0 ∅ 0
    ∗ cellInv ER (sched m) (K (c, some (Fam.qr, 6))) (fcell c Fam.qr 6)
    ∗ atPos ER (fcell c Fam.qr 6) 0 ∅ 0
    ∗ cred (tallyAt (fcell c Fam.qr 6) () N)
    ∗ atPos ER (fcell c Fam.ys 7) 0 ∅ 0
    ∗ atPos ER (fcell c Fam.xs 7) 0 ∅ 0
    ∗ atPos ER (fcell c Fam.zs 7) 0 ∅ 0
    ∗ atPos ER (fcell c Fam.qs 7) 0 ∅ 0
    ∗ cellInv ER (sched m) (K (c, some (Fam.qr, 7))) (fcell c Fam.qr 7)
    ∗ atPos ER (fcell c Fam.qr 7) 0 ∅ 0
    ∗ cred (tallyAt (fcell c Fam.qr 7) () N)
    ∗ atPos ER (fcell c Fam.ys 8) 0 ∅ 0
    ∗ atPos ER (fcell c Fam.xs 8) 0 ∅ 0
    ∗ atPos ER (fcell c Fam.zs 8) 0 ∅ 0
    ∗ atPos ER (fcell c Fam.qs 8) 0 ∅ 0
    ∗ cellInv ER (sched m) (K (c, some (Fam.qr, 8))) (fcell c Fam.qr 8)
    ∗ atPos ER (fcell c Fam.qr 8) 0 ∅ 0
    ∗ cred (tallyAt (fcell c Fam.qr 8) () N)
    ∗ atPos ER (fcell c Fam.ys 9) 0 ∅ 0
    ∗ atPos ER (fcell c Fam.xs 9) 0 ∅ 0
    ∗ atPos ER (fcell c Fam.zs 9) 0 ∅ 0
    ∗ atPos ER (fcell c Fam.qs 9) 0 ∅ 0
    ∗ cellInv ER (sched m) (K (c, some (Fam.qr, 9))) (fcell c Fam.qr 9)
    ∗ atPos ER (fcell c Fam.qr 9) 0 ∅ 0
    ∗ cred (tallyAt (fcell c Fam.qr 9) () N)
    ∗ atPos ER (fcell c Fam.ys 10) 0 ∅ 0
    ∗ atPos ER (fcell c Fam.xs 10) 0 ∅ 0
    ∗ atPos ER (fcell c Fam.zs 10) 0 ∅ 0
    ∗ atPos ER (fcell c Fam.qs 10) 0 ∅ 0
    ∗ cellInv ER (sched m) (K (c, some (Fam.qr, 10))) (fcell c Fam.qr 10)
    ∗ atPos ER (fcell c Fam.qr 10) 0 ∅ 0
    ∗ cred (tallyAt (fcell c Fam.qr 10) () N)
    ∗ atPos ER (fcell c Fam.ys 11) 0 ∅ 0
    ∗ atPos ER (fcell c Fam.xs 11) 0 ∅ 0
    ∗ atPos ER (fcell c Fam.zs 11) 0 ∅ 0
    ∗ atPos ER (fcell c Fam.qs 11) 0 ∅ 0
    ∗ cellInv ER (sched m) (K (c, some (Fam.qr, 11))) (fcell c Fam.qr 11)
    ∗ atPos ER (fcell c Fam.qr 11) 0 ∅ 0
    ∗ cred (tallyAt (fcell c Fam.qr 11) () N)
    ∗ atPos ER (fcell c Fam.ys 12) 0 ∅ 0
    ∗ atPos ER (fcell c Fam.xs 12) 0 ∅ 0
    ∗ atPos ER (fcell c Fam.zs 12) 0 ∅ 0
    ∗ atPos ER (fcell c Fam.qs 12) 0 ∅ 0
    ∗ cellInv ER (sched m) (K (c, some (Fam.qr, 12))) (fcell c Fam.qr 12)
    ∗ atPos ER (fcell c Fam.qr 12) 0 ∅ 0
    ∗ cred (tallyAt (fcell c Fam.qr 12) () N)
    ∗ atPos ER (fcell c Fam.ys 13) 0 ∅ 0
    ∗ atPos ER (fcell c Fam.xs 13) 0 ∅ 0
    ∗ atPos ER (fcell c Fam.zs 13) 0 ∅ 0
    ∗ atPos ER (fcell c Fam.qs 13) 0 ∅ 0
    ∗ cellInv ER (sched m) (K (c, some (Fam.qr, 13))) (fcell c Fam.qr 13)
    ∗ atPos ER (fcell c Fam.qr 13) 0 ∅ 0
    ∗ cred (tallyAt (fcell c Fam.qr 13) () N)
    ∗ atPos ER (fcell c Fam.ys 14) 0 ∅ 0
    ∗ atPos ER (fcell c Fam.xs 14) 0 ∅ 0
    ∗ atPos ER (fcell c Fam.zs 14) 0 ∅ 0
    ∗ atPos ER (fcell c Fam.qs 14) 0 ∅ 0
    ∗ cellInv ER (sched m) (K (c, some (Fam.qr, 14))) (fcell c Fam.qr 14)
    ∗ atPos ER (fcell c Fam.qr 14) 0 ∅ 0
    ∗ cred (tallyAt (fcell c Fam.qr 14) () N)
    ∗ atPos ER (fcell c Fam.ys 15) 0 ∅ 0
    ∗ atPos ER (fcell c Fam.xs 15) 0 ∅ 0
    ∗ atPos ER (fcell c Fam.zs 15) 0 ∅ 0
    ∗ atPos ER (fcell c Fam.qs 15) 0 ∅ 0
    ∗ cellInv ER (sched m) (K (c, some (Fam.qr, 15))) (fcell c Fam.qr 15)
    ∗ atPos ER (fcell c Fam.qr 15) 0 ∅ 0
    ∗ cred (tallyAt (fcell c Fam.qr 15) () N)
    ∗ (aM.view.loc (c : Thread nD τ) ↦[aRest c]{fullShare} m ((c : Thread nD τ).loc main_arg0)))

end Cert.Kernel.A2A

end
-- ==== Proof.BWindows.lean ====
import proofs.«900640_g7700000000000641_dist_a2a_v7x_xyz2x2x4_y_m4096_n1024_f32_1_alg».proof.Proof.Gen.Kernel
import proofs.«900640_g7700000000000641_dist_a2a_v7x_xyz2x2x4_y_m4096_n1024_f32_1_alg».proof.Proof.BMesh
import Idealize.ShloMosaic.Lib.Tactic

/-!
# The windows the all-to-all keeps in flight together share no element

Every transfer of the kernel reads or writes a unit-stride window of the input array (4096 × 2048) or of the
result array (8192 × 1024). Two windows of one array whose rectangles are separated on one axis are disjoint;
the kernel's windows are separated either by their column half (the two reads of the input), by the half of the
result's rows (the device's own half against the three received quarters and the quarter its partners write), by
the quarter (the four quarters are numbered by the two bits `x` and `z mod 2`, each family flipping a different
subset of them), or, within one quarter, by the 64-row chunk.
-/

noncomputable section

namespace Cert.Kernel.A2A

open Cert.Kernel Cert.Kernel.Gen
open Idealize.ShloMosaic Idealize.ShloMosaic.Tactic

/-! ## Two windows separated on an axis -/

/-- Two unit-stride windows of one memref whose rectangles are separated on some axis share no element. -/
theorem slice_unit_disjoint {κ : Kind} {sp : Space} {s : Shape} {e : EltTy} (m : Memref sig κ sp s e)
    {off size off' size' : Fin s.rank → Nat} {inb : ∀ a, off a + size a ≤ s.size a}
    {inb' : ∀ a, off' a + size' a ≤ s.size a}
    (hr : ∀ a, (Rect.unit off size inb).stride a = 1) (hr' : ∀ a, (Rect.unit off' size' inb').stride a = 1)
    (a : Fin s.rank) (h : off a + size a ≤ off' a ∨ off' a + size' a ≤ off a) :
    Disjoint (m.slice (Rect.unit off size inb) hr).view.set (m.slice (Rect.unit off' size' inb') hr').view.set := by
  show Disjoint (m.view.slice (Rect.unit off size inb)).set (m.view.slice (Rect.unit off' size' inb')).set
  refine Finset.disjoint_left.mpr fun (i : m.view.ty.Idx) hi hi' => ?_
  rw [View.set_slice] at hi hi'
  obtain ⟨x, hx, rfl⟩ := Finset.mem_map.mp hi
  obtain ⟨x', hx', hxx⟩ := Finset.mem_map.mp hi'
  obtain rfl : x' = x := m.view.emb.injective hxx
  exact Finset.disjoint_left.mp (Rect.unit_disjoint (inb := inb) (inb' := inb') a h) hx hx'

/-- The same at rank two, each window's offsets read through their closed form: the form a window at a literal
    chunk takes, its closed form found by instance. -/
theorem slice_closed_disjoint {κ : Kind} {sp : Space} {d : Fin 2 → Nat} {e : EltTy} (m : Memref sig κ sp ⟨2, d⟩ e)
    {off size off' size' : Fin 2 → Nat} {inb : ∀ a, off a + size a ≤ (⟨2, d⟩ : Shape).size a}
    {inb' : ∀ a, off' a + size' a ≤ (⟨2, d⟩ : Shape).size a}
    (hr : ∀ a, (Rect.unit (s := ⟨2, d⟩) off size inb).stride a = 1)
    (hr' : ∀ a, (Rect.unit (s := ⟨2, d⟩) off' size' inb').stride a = 1)
    [C : ClosedOff off] [C' : ClosedOff off'] (a : Fin 2)
    (h : C.form a + size a ≤ C'.form a ∨ C'.form a + size' a ≤ C.form a) :
    Disjoint (m.slice (Rect.unit off size inb) hr).view.set (m.slice (Rect.unit off' size' inb') hr').view.set := by
  refine slice_unit_disjoint m hr hr' a ?_
  rw [C.eq, C'.eq]; exact h

/-! ## The mesh coordinates of a device and of its partners

A device id is `8·x + 4·y + z`; the windows' closed forms speak of `x = id / 8`, `y = id / 4 % 2` and
`z mod 2 = id % 4 % 2`. Each partner flips exactly one of the three. -/

theorem dev_lt (c : Dev nD) : c.val < 16 := c.isLt

theorem yP_x (c : Dev nD) : (yP c).val / 8 = c.val / 8 := by revert c; decide
theorem yP_y (c : Dev nD) : (yP c).val / 4 % 2 = 1 - c.val / 4 % 2 := by revert c; decide
theorem yP_zp (c : Dev nD) : (yP c).val % 4 % 2 = c.val % 4 % 2 := by revert c; decide
theorem xP_x (c : Dev nD) : (xP c).val / 8 = 1 - c.val / 8 := by revert c; decide
theorem xP_y (c : Dev nD) : (xP c).val / 4 % 2 = c.val / 4 % 2 := by revert c; decide
theorem xP_zp (c : Dev nD) : (xP c).val % 4 % 2 = c.val % 4 % 2 := by revert c; decide
theorem zP_x (c : Dev nD) : (zP c).val / 8 = c.val / 8 := by revert c; decide
theorem zP_y (c : Dev nD) : (zP c).val / 4 % 2 = c.val / 4 % 2 := by revert c; decide
theorem zP_zp (c : Dev nD) : (zP c).val % 4 % 2 = 1 - c.val % 4 % 2 := by revert c; decide

/-! ## Deciding a separation

`a2a_disj c` closes `Disjoint W.view.set W'.view.set` for two of the kernel's windows of one array at literal
chunks, on device `c` or written by a partner of `c`: the rows first, then the columns; the offsets through their
closed forms, the partners' coordinates through `c`'s, the rest linear arithmetic over `x`, `y`, `z mod 2`. -/

/-- The arithmetic of a separation whose offsets are in closed form. -/
macro "a2a_sep " c:term : tactic => `(tactic| (
  have hc := dev_lt $c
  have hx : ($c).val / 8 = 0 ∨ ($c).val / 8 = 1 := by omega
  have hy : ($c).val / 4 % 2 = 0 ∨ ($c).val / 4 % 2 = 1 := by omega
  have hz : ($c).val % 4 % 2 = 0 ∨ ($c).val % 4 % 2 = 1 := by omega
  simp only [ClosedOff.form, k0_off1_eq, k0_off2_eq, k0_off3_eq, k0_off4_eq, k0_off5_eq, k0_off6_eq,
    Matrix.cons_val_zero, Matrix.cons_val_one, Matrix.head_cons,
    yP_x, yP_y, yP_zp, xP_x, xP_y, xP_zp, zP_x, zP_y, zP_zp]
  omega))

/-- Two windows of one array at literal chunks are disjoint. -/
macro "a2a_disj " c:term : tactic => `(tactic| first
  | (apply slice_closed_disjoint (a := 0); a2a_sep $c)
  | (apply slice_closed_disjoint (a := 1); a2a_sep $c))

/-- Two windows at symbolic chunks, separated on the given axis. -/
local macro "sep_on " ax:term " at " c:term : tactic => `(tactic| (
  refine slice_unit_disjoint _ _ _ ($ax : Fin 2) ?_
  a2a_sep $c))

/-! ## The windows by name -/

/-- The word the kernel passes for the `r`-th chunk of 64 rows. -/
abbrev ch (r : Fin 16) : BitVec 32 := BitVec.ofNat 32 (64 * r.val)

/-- The window of the input the `r`-th load reads: 64 rows of the device's quarter, the other column half. -/
abbrev W1 (m : Memref sig .tc .hbm S4096x2048 .f32) (c : Dev nD) (r : Fin 16) : Memref sig .tc .hbm S64x1024 .f32 :=
  m.slice (Rect.unit (s := S4096x2048) (k0_off1 c (ch r)) S64x1024.size (k0_off1_inb c r)) (fun _ => rfl)
/-- The window of the input the one whole-height load reads: the device's own column half. -/
abbrev W2 (m : Memref sig .tc .hbm S4096x2048 .f32) (c : Dev nD) : Memref sig .tc .hbm S4096x1024 .f32 :=
  m.slice (Rect.unit (s := S4096x2048) (k0_off2 c) S4096x1024.size (k0_off2_inb c)) (fun _ => rfl)
/-- The half of the result the device writes from its own input. -/
abbrev O3 (m : Memref sig .tc .hbm S8192x1024 .f32) (c : Dev nD) : Memref sig .tc .hbm S4096x1024 .f32 :=
  m.slice (Rect.unit (s := S8192x1024) (k0_off3 c) S4096x1024.size (k0_off3_inb c)) (fun _ => rfl)
/-- The `r`-th chunk of the quarter received across `y`, -/
abbrev O4 (m : Memref sig .tc .hbm S8192x1024 .f32) (c : Dev nD) (r : Fin 16) : Memref sig .tc .hbm S64x1024 .f32 :=
  m.slice (Rect.unit (s := S8192x1024) (k0_off4 c (ch r)) S64x1024.size (k0_off4_inb c r)) (fun _ => rfl)
/-- of the quarter received across `x` (on a `z`-partner's device: the chunk it writes into the fourth quarter), -/
abbrev O5 (m : Memref sig .tc .hbm S8192x1024 .f32) (c : Dev nD) (r : Fin 16) : Memref sig .tc .hbm S64x1024 .f32 :=
  m.slice (Rect.unit (s := S8192x1024) (k0_off5 c (ch r)) S64x1024.size (k0_off5_inb c r)) (fun _ => rfl)
/-- and of the quarter received within the `z` pair (on an `x`-partner's device: the chunk it writes into the fourth quarter). -/
abbrev O6 (m : Memref sig .tc .hbm S8192x1024 .f32) (c : Dev nD) (r : Fin 16) : Memref sig .tc .hbm S64x1024 .f32 :=
  m.slice (Rect.unit (s := S8192x1024) (k0_off6 c (ch r)) S64x1024.size (k0_off6_inb c r)) (fun _ => rfl)

/-! ## The input's windows -/

/-- Two different chunks of the quarter a device loads. -/
theorem arg_off1_off1 (m : Memref sig .tc .hbm S4096x2048 .f32) (c : Dev nD) {r r' : Fin 16} (hne : r ≠ r') :
    Disjoint (α := Finset m.view.ty.Idx) (W1 m c r).view.set (W1 m c r').view.set := by
  have hv : r.val ≠ r'.val := fun e => hne (Fin.ext e)
  sep_on 0 at c

/-- The own column half against a chunk of the other half. -/
theorem arg_off2_off1 (m : Memref sig .tc .hbm S4096x2048 .f32) (c : Dev nD) (r : Fin 16) :
    Disjoint (α := Finset m.view.ty.Idx) (W2 m c).view.set (W1 m c r).view.set := by
  sep_on 1 at c

/-! ## The result's windows on one device -/

/-- The device's own half of the rows against a chunk of the other half: the quarter from across `y`, -/
theorem out_off3_off4 (m : Memref sig .tc .hbm S8192x1024 .f32) (c : Dev nD) (r : Fin 16) :
    Disjoint (α := Finset m.view.ty.Idx) (O3 m c).view.set (O4 m c r).view.set := by
  sep_on 0 at c

/-- from across `x`, -/
theorem out_off3_off5 (m : Memref sig .tc .hbm S8192x1024 .f32) (c : Dev nD) (r : Fin 16) :
    Disjoint (α := Finset m.view.ty.Idx) (O3 m c).view.set (O5 m c r).view.set := by
  sep_on 0 at c

/-- from the `z` pair. -/
theorem out_off3_off6 (m : Memref sig .tc .hbm S8192x1024 .f32) (c : Dev nD) (r : Fin 16) :
    Disjoint (α := Finset m.view.ty.Idx) (O3 m c).view.set (O6 m c r).view.set := by
  sep_on 0 at c

/-- Two different chunks of one quarter: -/
theorem out_off4_off4 (m : Memref sig .tc .hbm S8192x1024 .f32) (c : Dev nD) {r r' : Fin 16} (hne : r ≠ r') :
    Disjoint (α := Finset m.view.ty.Idx) (O4 m c r).view.set (O4 m c r').view.set := by
  have hv : r.val ≠ r'.val := fun e => hne (Fin.ext e)
  sep_on 0 at c

/-- likewise, -/
theorem out_off5_off5 (m : Memref sig .tc .hbm S8192x1024 .f32) (c : Dev nD) {r r' : Fin 16} (hne : r ≠ r') :
    Disjoint (α := Finset m.view.ty.Idx) (O5 m c r).view.set (O5 m c r').view.set := by
  have hv : r.val ≠ r'.val := fun e => hne (Fin.ext e)
  sep_on 0 at c

/-- likewise. -/
theorem out_off6_off6 (m : Memref sig .tc .hbm S8192x1024 .f32) (c : Dev nD) {r r' : Fin 16} (hne : r ≠ r') :
    Disjoint (α := Finset m.view.ty.Idx) (O6 m c r).view.set (O6 m c r').view.set := by
  have hv : r.val ≠ r'.val := fun e => hne (Fin.ext e)
  sep_on 0 at c

/-- Chunks of two different quarters, whatever the chunks: quarters `(x, z)` and `(1 - x, z)`, -/
theorem out_off4_off5 (m : Memref sig .tc .hbm S8192x1024 .f32) (c : Dev nD) (r r' : Fin 16) :
    Disjoint (α := Finset m.view.ty.Idx) (O4 m c r).view.set (O5 m c r').view.set := by
  sep_on 0 at c

/-- `(x, z)` and `(x, 1 - z)`, -/
theorem out_off4_off6 (m : Memref sig .tc .hbm S8192x1024 .f32) (c : Dev nD) (r r' : Fin 16) :
    Disjoint (α := Finset m.view.ty.Idx) (O4 m c r).view.set (O6 m c r').view.set := by
  sep_on 0 at c

/-- `(1 - x, z)` and `(x, 1 - z)`. -/
theorem out_off5_off6 (m : Memref sig .tc .hbm S8192x1024 .f32) (c : Dev nD) (r r' : Fin 16) :
    Disjoint (α := Finset m.view.ty.Idx) (O5 m c r).view.set (O6 m c r').view.set := by
  sep_on 0 at c

/-! ## The fourth quarter, written by the partners

Device `c`'s fourth quarter `(1 - x, 1 - z)` is written chunk by chunk by its `z`-partner (which computes the
rows as its own quarter from across `x`) and by its `x`-partner (as its own quarter from the `z` pair). -/

/-- The own half against a chunk the `z`-partner writes, -/
theorem out_off3_zq (m : Memref sig .tc .hbm S8192x1024 .f32) (c : Dev nD) (r : Fin 16) :
    Disjoint (α := Finset m.view.ty.Idx) (O3 m c).view.set (O5 m (zP c) r).view.set := by
  sep_on 0 at c

/-- the three received quarters against it, -/
theorem out_off4_zq (m : Memref sig .tc .hbm S8192x1024 .f32) (c : Dev nD) (r r' : Fin 16) :
    Disjoint (α := Finset m.view.ty.Idx) (O4 m c r).view.set (O5 m (zP c) r').view.set := by
  sep_on 0 at c

/--  -/
theorem out_off5_zq (m : Memref sig .tc .hbm S8192x1024 .f32) (c : Dev nD) (r r' : Fin 16) :
    Disjoint (α := Finset m.view.ty.Idx) (O5 m c r).view.set (O5 m (zP c) r').view.set := by
  sep_on 0 at c

/--  -/
theorem out_off6_zq (m : Memref sig .tc .hbm S8192x1024 .f32) (c : Dev nD) (r r' : Fin 16) :
    Disjoint (α := Finset m.view.ty.Idx) (O6 m c r).view.set (O5 m (zP c) r').view.set := by
  sep_on 0 at c

/-- The own half against a chunk the `x`-partner writes, -/
theorem out_off3_xq (m : Memref sig .tc .hbm S8192x1024 .f32) (c : Dev nD) (r : Fin 16) :
    Disjoint (α := Finset m.view.ty.Idx) (O3 m c).view.set (O6 m (xP c) r).view.set := by
  sep_on 0 at c

/-- the three received quarters against it. -/
theorem out_off4_xq (m : Memref sig .tc .hbm S8192x1024 .f32) (c : Dev nD) (r r' : Fin 16) :
    Disjoint (α := Finset m.view.ty.Idx) (O4 m c r).view.set (O6 m (xP c) r').view.set := by
  sep_on 0 at c

/--  -/
theorem out_off5_xq (m : Memref sig .tc .hbm S8192x1024 .f32) (c : Dev nD) (r r' : Fin 16) :
    Disjoint (α := Finset m.view.ty.Idx) (O5 m c r).view.set (O6 m (xP c) r').view.set := by
  sep_on 0 at c

/--  -/
theorem out_off6_xq (m : Memref sig .tc .hbm S8192x1024 .f32) (c : Dev nD) (r r' : Fin 16) :
    Disjoint (α := Finset m.view.ty.Idx) (O6 m c r).view.set (O6 m (xP c) r').view.set := by
  sep_on 0 at c

/-- Two different chunks of the fourth quarter, whichever partner writes each. -/
theorem out_zq_zq (m : Memref sig .tc .hbm S8192x1024 .f32) (c : Dev nD) {r r' : Fin 16} (hne : r ≠ r') :
    Disjoint (α := Finset m.view.ty.Idx) (O5 m (zP c) r).view.set (O5 m (zP c) r').view.set := by
  have hv : r.val ≠ r'.val := fun e => hne (Fin.ext e)
  sep_on 0 at c

/--  -/
theorem out_xq_xq (m : Memref sig .tc .hbm S8192x1024 .f32) (c : Dev nD) {r r' : Fin 16} (hne : r ≠ r') :
    Disjoint (α := Finset m.view.ty.Idx) (O6 m (xP c) r).view.set (O6 m (xP c) r').view.set := by
  have hv : r.val ≠ r'.val := fun e => hne (Fin.ext e)
  sep_on 0 at c

/--  -/
theorem out_zq_xq (m : Memref sig .tc .hbm S8192x1024 .f32) (c : Dev nD) {r r' : Fin 16} (hne : r ≠ r') :
    Disjoint (α := Finset m.view.ty.Idx) (O5 m (zP c) r).view.set (O6 m (xP c) r').view.set := by
  have hv : r.val ≠ r'.val := fun e => hne (Fin.ext e)
  sep_on 0 at c

/-! ## At literal chunks -/

example (c : Dev nD) (h1 h2 hr1 hr2) :
    Disjoint ((Memref.whole main_arg0).slice (Rect.unit (s := S4096x2048) (k0_off2 c) S4096x1024.size h1) hr1).view.set
      ((Memref.whole main_arg0).slice (Rect.unit (s := S4096x2048) (k0_off1 c 64#32) S64x1024.size h2) hr2).view.set := by
  a2a_disj c

example (c : Dev nD) (h1 h2 hr1 hr2) :
    Disjoint ((Memref.whole main_v1).slice (Rect.unit (s := S8192x1024) (k0_off5 (zP c) 192#32) S64x1024.size h1) hr1).view.set
      ((Memref.whole main_v1).slice (Rect.unit (s := S8192x1024) (k0_off6 c 64#32) S64x1024.size h2) hr2).view.set := by
  a2a_disj c

example (c : Dev nD) (h1 h2 hr1 hr2) :
    Disjoint ((Memref.whole main_v1).slice (Rect.unit (s := S8192x1024) (k0_off5 (zP c) 192#32) S64x1024.size h1) hr1).view.set
      ((Memref.whole main_v1).slice (Rect.unit (s := S8192x1024) (k0_off6 (xP c) 128#32) S64x1024.size h2) hr2).view.set := by
  a2a_disj c

example (c : Dev nD) (h2 hr2) :
    Disjoint (O3 (Memref.whole main_v1) c).view.set
      ((Memref.whole main_v1).slice (Rect.unit (s := S8192x1024) (k0_off4 c 64#32) S64x1024.size h2) hr2).view.set :=
  out_off3_off4 _ c 1

end Cert.Kernel.A2A

end
-- ==== Proof.BPieces.lean ====
import proofs.«900640_g7700000000000641_dist_a2a_v7x_xyz2x2x4_y_m4096_n1024_f32_1_alg».proof.Proof.BBodyCtx
import proofs.«900640_g7700000000000641_dist_a2a_v7x_xyz2x2x4_y_m4096_n1024_f32_1_alg».proof.Proof.BTables
import proofs.«900640_g7700000000000641_dist_a2a_v7x_xyz2x2x4_y_m4096_n1024_f32_1_alg».proof.Proof.BLevels
import proofs.«900640_g7700000000000641_dist_a2a_v7x_xyz2x2x4_y_m4096_n1024_f32_1_alg».proof.Proof.BGlob
import proofs.«900640_g7700000000000641_dist_a2a_v7x_xyz2x2x4_y_m4096_n1024_f32_1_alg».proof.Proof.BWindows

/-!
# The pieces a device's holdings come in

Tools for right-nested separating conjunctions built a segment at a time, and the facts, independent of any order,
that cut a device's holdings into the pieces its body names: the local semaphores into the ones the body uses (by
where the program uses them) and the idle ones; the input into the sixteen chunk windows, the own half's window and
the rest; each scratch buffer into its sixteen chunks, which are the rectangles of rows `i` along its first axis,
pairwise disjoint and covering it; the fourth quarter's rows by the parity of the chunk.
-/

set_option maxRecDepth 65536

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## Right-nested conjunctions, built a segment at a time -/

/-- `Φ a₁ (Φ a₂ (… (Φ aₙ R)))`. -/
@[reducible] def chain {I : Type} (l : List I) (Φ : I → sProp 𝕄 → sProp 𝕄) (R : sProp 𝕄) : sProp 𝕄 := l.foldr Φ R

theorem drop_left {P R R' : sProp 𝕄} (h : R ⊢ R') : iprop(P ∗ R) ⊢ R' := by
  iintro ⟨-, H⟩; iapply h; iexact H

theorem assoc_step {A B X Y : sProp 𝕄} (h : iprop(B ∗ X) ⊢ Y) : iprop((A ∗ B) ∗ X) ⊢ iprop(A ∗ Y) := by
  iintro ⟨⟨HA, HB⟩, HX⟩
  isplitl [HA]; · iexact HA
  iapply h; isplitl [HB]; · iexact HB
  iexact HX

/-- A segment whose members each use up their own resource `Q a`. -/
theorem chain_lin {I : Type} [DecidableEq I] {S : Finset I} (l : List I) (hS : S = l.toFinset) (hl : l.Nodup) (Q : I → sProp 𝕄)
    (Φ : I → sProp 𝕄 → sProp 𝕄) (hΦ : ∀ a (X Y : sProp 𝕄), (X ⊢ Y) → iprop(Q a ∗ X) ⊢ Φ a Y) {R R' : sProp 𝕄} (hR : R ⊢ R') :
    iprop(bigSep S Q ∗ R) ⊢ chain l Φ R' := by
  subst hS
  induction l with
  | nil =>
    show iprop(bigSep ([] : List I).toFinset Q ∗ R) ⊢ R'
    rw [List.toFinset_nil, bigSep_empty]
    exact drop_left hR
  | cons a l ih =>
    have hn := List.nodup_cons.mp hl
    have e : bigSep (a :: l).toFinset Q = iprop(Q a ∗ bigSep l.toFinset Q) := by
      rw [List.toFinset_cons]; exact bigSep_insert (by rw [List.mem_toFinset]; exact hn.1)
    rw [e]
    show iprop((Q a ∗ bigSep l.toFinset Q) ∗ R) ⊢ Φ a (chain l Φ R')
    iintro ⟨⟨Ha, Hl⟩, HR⟩
    iapply (hΦ a _ _ (ih hn.2))
    isplitl [Ha]; · iexact Ha
    isplitl [Hl]; · iexact Hl
    iexact HR

/-- A segment read off a persistent assertion, which stays for what follows. -/
theorem chain_pers {I : Type} (l : List I) (P : sProp 𝕄) (Φ : I → sProp 𝕄 → sProp 𝕄)
    (hΦ : ∀ a (X Y : sProp 𝕄), (iprop(P ∗ X) ⊢ Y) → iprop(P ∗ X) ⊢ Φ a Y) {R R' : sProp 𝕄} (hR : iprop(P ∗ R) ⊢ R') :
    iprop(P ∗ R) ⊢ chain l Φ R' := by
  induction l with
  | nil => exact hR
  | cons a l ih => exact hΦ a _ _ ih

theorem step_pers {P A X Y : sProp 𝕄} [BI.Persistent P] (hA : P ⊢ A) (h : iprop(P ∗ X) ⊢ Y) : iprop(P ∗ X) ⊢ iprop(A ∗ Y) := by
  iintro ⟨#HP, HX⟩
  isplitr
  · iapply hA; iexact HP
  · iapply h; isplitr; · iexact HP
    iexact HX

theorem pre4 {A B C D X Y : sProp 𝕄} (h : X ⊢ Y) : iprop((A ∗ B ∗ C ∗ D) ∗ X) ⊢ iprop(A ∗ B ∗ C ∗ D ∗ Y) := by
  iintro ⟨⟨HA, HB, HC, HD⟩, HX⟩
  isplitl [HA]; · iexact HA
  isplitl [HB]; · iexact HB
  isplitl [HC]; · iexact HC
  isplitl [HD]; · iexact HD
  iapply h; iexact HX

theorem pre8 {A B C D A' B' C' D' X Y : sProp 𝕄} (h : X ⊢ Y) :
    iprop((A ∗ B ∗ C ∗ D ∗ A' ∗ B' ∗ C' ∗ D') ∗ X) ⊢ iprop(A ∗ B ∗ C ∗ D ∗ A' ∗ B' ∗ C' ∗ D' ∗ Y) := by
  iintro ⟨⟨HA, HB, HC, HD, HA', HB', HC', HD'⟩, HX⟩
  isplitl [HA]; · iexact HA
  isplitl [HB]; · iexact HB
  isplitl [HC]; · iexact HC
  isplitl [HD]; · iexact HD
  isplitl [HA']; · iexact HA'
  isplitl [HB']; · iexact HB'
  isplitl [HC']; · iexact HC'
  isplitl [HD']; · iexact HD'
  iapply h; iexact HX

theorem univ16 : (Finset.univ : Finset (Fin 16)) = ([0, 1, 2, 3, 4, 5, 6, 7, 8, 9, 10, 11, 12, 13, 14, 15] : List (Fin 16)).toFinset := by decide
theorem univ8 : (Finset.univ : Finset Fam) = ([0, 1, 2, 3, 4, 5, 6, 7] : List Fam).toFinset := by decide
theorem nodup16 : ([0, 1, 2, 3, 4, 5, 6, 7, 8, 9, 10, 11, 12, 13, 14, 15] : List (Fin 16)).Nodup := by decide
theorem nodup8 : ([0, 1, 2, 3, 4, 5, 6, 7] : List Fam).Nodup := by decide

/-- A segment whose members each take their own resource `Q a` and also read the persistent `P`. -/
theorem chain_mix {I : Type} [DecidableEq I] {S : Finset I} (l : List I) (hS : S = l.toFinset) (hl : l.Nodup) (P : sProp 𝕄) (Q : I → sProp 𝕄)
    (Φ : I → sProp 𝕄 → sProp 𝕄) (hΦ : ∀ a (X Y : sProp 𝕄), (iprop(P ∗ X) ⊢ Y) → iprop(P ∗ Q a ∗ X) ⊢ Φ a Y) {R R' : sProp 𝕄}
    (hR : iprop(P ∗ R) ⊢ R') : iprop(P ∗ bigSep S Q ∗ R) ⊢ chain l Φ R' := by
  subst hS
  induction l with
  | nil =>
    show iprop(P ∗ bigSep ([] : List I).toFinset Q ∗ R) ⊢ R'
    rw [List.toFinset_nil, bigSep_empty]
    iintro ⟨HP, -, HR⟩; iapply hR; isplitl [HP]; · iexact HP
    iexact HR
  | cons a l ih =>
    have hn := List.nodup_cons.mp hl
    have e : bigSep (a :: l).toFinset Q = iprop(Q a ∗ bigSep l.toFinset Q) := by
      rw [List.toFinset_cons]; exact bigSep_insert (by rw [List.mem_toFinset]; exact hn.1)
    rw [e]
    show iprop(P ∗ (Q a ∗ bigSep l.toFinset Q) ∗ R) ⊢ Φ a (chain l Φ R')
    iintro ⟨HP, ⟨Ha, Hl⟩, HR⟩
    iapply (hΦ a _ _ (ih hn.2))
    isplitl [HP]; · iexact HP
    isplitl [Ha]; · iexact Ha
    isplitl [Hl]; · iexact Hl
    iexact HR

/-- A leaf read off the persistent `P`, in front of what follows. -/
theorem lin_under {P A X Y : sProp 𝕄} (h : iprop(P ∗ X) ⊢ Y) : iprop(P ∗ A ∗ X) ⊢ iprop(A ∗ Y) := by
  iintro ⟨HP, HA, HX⟩
  isplitl [HA]; · iexact HA
  iapply h; isplitl [HP]; · iexact HP
  iexact HX

/-! ## The local semaphores the body uses, and the rest -/

/-- The DMA semaphores of the local copies: the sixty-four of the chunk loads and stores, and the own half's two. -/
def usedL : List (DmaSem sig) := ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 224, 225] : List (Fin 226))

theorem usedL_nodup : usedL.Nodup := by decide

theorem usedL_sub : usedL.toFinset ⊆ (Finset.univ.filter fun k : DmaSem sig => (famOf k).isSome = false) := by decide

/-- The DMA semaphores no copy of the kernel completes on, at zero: handed through the body untouched. -/
def idle (c : Dev nD) : sProp 𝕄 :=
  bigSep ((Finset.univ.filter fun k : DmaSem sig => (famOf k).isSome = false) \ usedL.toFinset) fun k => semVal ((c : Thread nD τ), .dma k) 0

/-- The local semaphores are the ones the body uses and the idle ones (an equation: it reads both ways). -/
theorem localSems_split (c : Dev nD) :
    localSems (F := F) c = iprop((bigSep usedL.toFinset fun k => semVal ((c : Thread nD τ), .dma k) 0) ∗ idle c) := by
  unfold localSems idle
  exact bigSep_sdiff_split usedL_sub

/-! ## The pieces, cell by cell -/

theorem positions_eq (c : Dev nD) :
    positions (F := F) c = iprop(atPos ER (barCell c) 0 ∅ 0 ∗ bigSep Finset.univ fun f : Fam => bigSep Finset.univ fun i : Fin 16 => atPos ER (fcell c f i) 0 ∅ 0) := by
  unfold positions; rw [bigSep_CK, bigSep_univ_prod]

theorem inv_of (K : Dev nD × CK → ℕ) (ck : Dev nD × CK) : records m K ⊢ cellInv ER (sched m) (K ck) (kcell ck) := by
  unfold records; iintro ⟨H, -⟩; iapply (inv_at m K ck); iexact H

theorem rch_of (K : Dev nD × CK → ℕ) (ck : Dev nD × CK) : records m K ⊢ reached ER (kcell ck) 0 := by
  unfold records; iintro ⟨-, H⟩; iapply (reached_at (F := F) ck); iexact H

/-- The result in its 65 pieces, all at one contents. -/
abbrev resPieces (c : Dev nD) (fo : S8192x1024.Idx → Elt F .f32) : sProp 𝕄 :=
  iprop(((oOwn c).view.loc (c : Thread nD τ) ↦[(oOwn c).view.set]{fullShare} fo)
    ∗ bigSep Finset.univ fun i : Fin 16 => iprop(((oRowY c i).view.loc (c : Thread nD τ) ↦[(oRowY c i).view.set]{fullShare} fo) ∗ ((oRowX c i).view.loc (c : Thread nD τ) ↦[(oRowX c i).view.set]{fullShare} fo)
        ∗ ((oRowZ c i).view.loc (c : Thread nD τ) ↦[(oRowZ c i).view.set]{fullShare} fo) ∗ ((oRowQ c i).view.loc (c : Thread nD τ) ↦[(oRowQ c i).view.set]{fullShare} fo)))

/-! ## The used semaphores, where the program uses them -/

/-- Semaphore `b + i`: the four runs of sixteen (chunk loads, and the stores of the three received quarters). -/
def semAt (b : ℕ) (hb : b + 16 ≤ 226) (i : Fin 16) : DmaSem sig := (⟨b + i.val, by have := i.isLt; omega⟩ : Fin 226)

def semEmb (b : ℕ) (hb : b + 16 ≤ 226) : Fin 16 ↪ DmaSem sig :=
  ⟨semAt b hb, fun i j h => Fin.ext (by have h' : b + i.val = b + j.val := congrArg Fin.val h; omega)⟩

theorem used_eq : usedL.toFinset = (Finset.univ.map (semEmb 0 (by decide))) ∪ ((Finset.univ.map (semEmb 16 (by decide)))
    ∪ ((Finset.univ.map (semEmb 32 (by decide))) ∪ ((Finset.univ.map (semEmb 48 (by decide)))
    ∪ (({(⟨224, by decide⟩ : Fin 226)} : Finset (DmaSem sig)) ∪ {(⟨225, by decide⟩ : Fin 226)})))) := by decide

theorem used_split (Φ : DmaSem sig → sProp 𝕄) :
    bigSep usedL.toFinset Φ = iprop((bigSep Finset.univ fun i : Fin 16 => Φ (semAt 0 (by decide) i))
      ∗ (bigSep Finset.univ fun i : Fin 16 => Φ (semAt 16 (by decide) i))
      ∗ (bigSep Finset.univ fun i : Fin 16 => Φ (semAt 32 (by decide) i))
      ∗ (bigSep Finset.univ fun i : Fin 16 => Φ (semAt 48 (by decide) i))
      ∗ Φ (⟨224, by decide⟩ : Fin 226) ∗ Φ (⟨225, by decide⟩ : Fin 226)) := by
  rw [used_eq, bigSep_union (by decide), bigSep_union (by decide), bigSep_union (by decide), bigSep_union (by decide), bigSep_union (by decide),
    bigSep_map, bigSep_map, bigSep_map, bigSep_map, bigSep_singleton, bigSep_singleton]
  rfl

/-- The chunks whose fourth-quarter rows the `x` partner writes, and those the `z` partner writes. -/
def evens : List (Fin 16) := [0, 2, 4, 6, 8, 10, 12, 14]
def odds : List (Fin 16) := [1, 3, 5, 7, 9, 11, 13, 15]
theorem evens_nodup : evens.Nodup := by decide
theorem odds_nodup : odds.Nodup := by decide

theorem parity_split (Φ : Fin 16 → sProp 𝕄) : bigSep Finset.univ Φ = iprop(bigSep evens.toFinset Φ ∗ bigSep odds.toFinset Φ) := by
  rw [show (Finset.univ : Finset (Fin 16)) = evens.toFinset ∪ odds.toFinset from by decide]
  exact bigSep_union (by decide)

/-! ## A scratch buffer is its sixteen chunks -/

theorem slab_set_s (i : Fin 16) :
    (slab sM i).view.set = (Rect.unit (s := S16x64x1024) ![i.val, 0, 0] S1x64x1024.size (slab_inb i)).set := by
  show (((View.whole cc0_scratch0).slice _).reshape _ _).set = _
  rw [View.set_reshape, View.set_slice_whole]

theorem slab_mem_s (i : Fin 16) (j : S16x64x1024.Idx) : j ∈ (slab sM i).view.set ↔ (j 0).val = i.val := by
  rw [slab_set_s, Rect.mem_set_unit]
  constructor
  · intro h
    have h0 : i.val ≤ (j 0).val ∧ (j 0).val < i.val + 1 := h 0
    omega
  · intro h a
    fin_cases a
    · show i.val ≤ (j 0).val ∧ (j 0).val < i.val + 1
      omega
    · have h1 : (j 1).val < 64 := (j 1).isLt
      show 0 ≤ (j 1).val ∧ (j 1).val < 0 + 64
      omega
    · have h2 : (j 2).val < 1024 := (j 2).isLt
      show 0 ≤ (j 2).val ∧ (j 2).val < 0 + 1024
      omega

/-- Whole at `f` is every chunk at `f`: the chunks' rows partition the first axis. -/
theorem scratch_split_s (c : Dev nD) (f : Buf (Elt F) ((c : Thread nD τ).loc cc0_scratch0)) :
    ((((c : Thread nD τ).loc cc0_scratch0) ↦{fullShare} f : sProp 𝕄))
      = bigSep Finset.univ fun i : Fin 16 => (((slab sM i).view.loc (c : Thread nD τ)) ↦[(slab sM i).view.set]{fullShare} f : sProp 𝕄) := by
  have hcov : (Finset.univ : Finset (Idx ((c : Thread nD τ).loc cc0_scratch0))) = Finset.univ.biUnion fun i : Fin 16 => (slab sM i).view.set := by
    ext j
    simp only [Finset.mem_univ, Finset.mem_biUnion, true_and, true_iff]
    exact ⟨⟨(j 0).val, (j 0).isLt⟩, (slab_mem_s _ j).mpr rfl⟩
  have hdis : ∀ i ∈ (Finset.univ : Finset (Fin 16)), ∀ i' ∈ (Finset.univ : Finset (Fin 16)), i ≠ i' →
      Disjoint (slab sM i).view.set (slab sM i').view.set := by
    intro i _ i' _ hne
    rw [Finset.disjoint_left]
    intro j hj hj'
    exact hne (Fin.ext (((slab_mem_s i j).mp hj).symm.trans ((slab_mem_s i' j).mp hj')))
  rw [hcov, pointsTo_biUnion Finset.univ _ hdis]

theorem slab_set_r (i : Fin 16) :
    (slab rM i).view.set = (Rect.unit (s := S16x64x1024) ![i.val, 0, 0] S1x64x1024.size (slab_inb i)).set := by
  show (((View.whole cc0_scratch1).slice _).reshape _ _).set = _
  rw [View.set_reshape, View.set_slice_whole]

theorem slab_mem_r (i : Fin 16) (j : S16x64x1024.Idx) : j ∈ (slab rM i).view.set ↔ (j 0).val = i.val := by
  rw [slab_set_r, Rect.mem_set_unit]
  constructor
  · intro h
    have h0 : i.val ≤ (j 0).val ∧ (j 0).val < i.val + 1 := h 0
    omega
  · intro h a
    fin_cases a
    · show i.val ≤ (j 0).val ∧ (j 0).val < i.val + 1
      omega
    · have h1 : (j 1).val < 64 := (j 1).isLt
      show 0 ≤ (j 1).val ∧ (j 1).val < 0 + 64
      omega
    · have h2 : (j 2).val < 1024 := (j 2).isLt
      show 0 ≤ (j 2).val ∧ (j 2).val < 0 + 1024
      omega

/-- Whole at `f` is every chunk at `f`: the chunks' rows partition the first axis. -/
theorem scratch_split_r (c : Dev nD) (f : Buf (Elt F) ((c : Thread nD τ).loc cc0_scratch1)) :
    ((((c : Thread nD τ).loc cc0_scratch1) ↦{fullShare} f : sProp 𝕄))
      = bigSep Finset.univ fun i : Fin 16 => (((slab rM i).view.loc (c : Thread nD τ)) ↦[(slab rM i).view.set]{fullShare} f : sProp 𝕄) := by
  have hcov : (Finset.univ : Finset (Idx ((c : Thread nD τ).loc cc0_scratch1))) = Finset.univ.biUnion fun i : Fin 16 => (slab rM i).view.set := by
    ext j
    simp only [Finset.mem_univ, Finset.mem_biUnion, true_and, true_iff]
    exact ⟨⟨(j 0).val, (j 0).isLt⟩, (slab_mem_r _ j).mpr rfl⟩
  have hdis : ∀ i ∈ (Finset.univ : Finset (Fin 16)), ∀ i' ∈ (Finset.univ : Finset (Fin 16)), i ≠ i' →
      Disjoint (slab rM i).view.set (slab rM i').view.set := by
    intro i _ i' _ hne
    rw [Finset.disjoint_left]
    intro j hj hj'
    exact hne (Fin.ext (((slab_mem_r i j).mp hj).symm.trans ((slab_mem_r i' j).mp hj')))
  rw [hcov, pointsTo_biUnion Finset.univ _ hdis]

theorem slab_set_x (i : Fin 16) :
    (slab xrM i).view.set = (Rect.unit (s := S16x64x1024) ![i.val, 0, 0] S1x64x1024.size (slab_inb i)).set := by
  show (((View.whole cc0_scratch2).slice _).reshape _ _).set = _
  rw [View.set_reshape, View.set_slice_whole]

theorem slab_mem_x (i : Fin 16) (j : S16x64x1024.Idx) : j ∈ (slab xrM i).view.set ↔ (j 0).val = i.val := by
  rw [slab_set_x, Rect.mem_set_unit]
  constructor
  · intro h
    have h0 : i.val ≤ (j 0).val ∧ (j 0).val < i.val + 1 := h 0
    omega
  · intro h a
    fin_cases a
    · show i.val ≤ (j 0).val ∧ (j 0).val < i.val + 1
      omega
    · have h1 : (j 1).val < 64 := (j 1).isLt
      show 0 ≤ (j 1).val ∧ (j 1).val < 0 + 64
      omega
    · have h2 : (j 2).val < 1024 := (j 2).isLt
      show 0 ≤ (j 2).val ∧ (j 2).val < 0 + 1024
      omega

/-- Whole at `f` is every chunk at `f`: the chunks' rows partition the first axis. -/
theorem scratch_split_x (c : Dev nD) (f : Buf (Elt F) ((c : Thread nD τ).loc cc0_scratch2)) :
    ((((c : Thread nD τ).loc cc0_scratch2) ↦{fullShare} f : sProp 𝕄))
      = bigSep Finset.univ fun i : Fin 16 => (((slab xrM i).view.loc (c : Thread nD τ)) ↦[(slab xrM i).view.set]{fullShare} f : sProp 𝕄) := by
  have hcov : (Finset.univ : Finset (Idx ((c : Thread nD τ).loc cc0_scratch2))) = Finset.univ.biUnion fun i : Fin 16 => (slab xrM i).view.set := by
    ext j
    simp only [Finset.mem_univ, Finset.mem_biUnion, true_and, true_iff]
    exact ⟨⟨(j 0).val, (j 0).isLt⟩, (slab_mem_x _ j).mpr rfl⟩
  have hdis : ∀ i ∈ (Finset.univ : Finset (Fin 16)), ∀ i' ∈ (Finset.univ : Finset (Fin 16)), i ≠ i' →
      Disjoint (slab xrM i).view.set (slab xrM i').view.set := by
    intro i _ i' _ hne
    rw [Finset.disjoint_left]
    intro j hj hj'
    exact hne (Fin.ext (((slab_mem_x i j).mp hj).symm.trans ((slab_mem_x i' j).mp hj')))
  rw [hcov, pointsTo_biUnion Finset.univ _ hdis]

theorem slab_set_z (i : Fin 16) :
    (slab zrM i).view.set = (Rect.unit (s := S16x64x1024) ![i.val, 0, 0] S1x64x1024.size (slab_inb i)).set := by
  show (((View.whole cc0_scratch3).slice _).reshape _ _).set = _
  rw [View.set_reshape, View.set_slice_whole]

theorem slab_mem_z (i : Fin 16) (j : S16x64x1024.Idx) : j ∈ (slab zrM i).view.set ↔ (j 0).val = i.val := by
  rw [slab_set_z, Rect.mem_set_unit]
  constructor
  · intro h
    have h0 : i.val ≤ (j 0).val ∧ (j 0).val < i.val + 1 := h 0
    omega
  · intro h a
    fin_cases a
    · show i.val ≤ (j 0).val ∧ (j 0).val < i.val + 1
      omega
    · have h1 : (j 1).val < 64 := (j 1).isLt
      show 0 ≤ (j 1).val ∧ (j 1).val < 0 + 64
      omega
    · have h2 : (j 2).val < 1024 := (j 2).isLt
      show 0 ≤ (j 2).val ∧ (j 2).val < 0 + 1024
      omega

/-- Whole at `f` is every chunk at `f`: the chunks' rows partition the first axis. -/
theorem scratch_split_z (c : Dev nD) (f : Buf (Elt F) ((c : Thread nD τ).loc cc0_scratch3)) :
    ((((c : Thread nD τ).loc cc0_scratch3) ↦{fullShare} f : sProp 𝕄))
      = bigSep Finset.univ fun i : Fin 16 => (((slab zrM i).view.loc (c : Thread nD τ)) ↦[(slab zrM i).view.set]{fullShare} f : sProp 𝕄) := by
  have hcov : (Finset.univ : Finset (Idx ((c : Thread nD τ).loc cc0_scratch3))) = Finset.univ.biUnion fun i : Fin 16 => (slab zrM i).view.set := by
    ext j
    simp only [Finset.mem_univ, Finset.mem_biUnion, true_and, true_iff]
    exact ⟨⟨(j 0).val, (j 0).isLt⟩, (slab_mem_z _ j).mpr rfl⟩
  have hdis : ∀ i ∈ (Finset.univ : Finset (Fin 16)), ∀ i' ∈ (Finset.univ : Finset (Fin 16)), i ≠ i' →
      Disjoint (slab zrM i).view.set (slab zrM i').view.set := by
    intro i _ i' _ hne
    rw [Finset.disjoint_left]
    intro j hj hj'
    exact hne (Fin.ext (((slab_mem_z i j).mp hj).symm.trans ((slab_mem_z i' j).mp hj')))
  rw [hcov, pointsTo_biUnion Finset.univ _ hdis]

/-! ## Whole views, and the input's pieces -/

theorem arg_eq (c : Dev nD) :
    (aM.view.loc (c : Thread nD τ) ↦[aM.view.set]{fullShare} m ((c : Thread nD τ).loc main_arg0) : sProp 𝕄) = argPts m c := by
  rw [show aM.view.set = Finset.univ from View.set_whole _]

theorem lbuf_eq (c : Dev nD) (fl : Buf (Elt F) ((c : Thread nD τ).loc cc0_scratch4)) :
    (lM.view.loc (c : Thread nD τ) ↦[lM.view.set]{fullShare} fl : sProp 𝕄) = (((c : Thread nD τ).loc cc0_scratch4) ↦{fullShare} fl) := by
  rw [show lM.view.set = Finset.univ from View.set_whole _]

/-- The input as the copies read it: the sixteen chunk windows, the own half's window, and the rest; pairwise disjoint
    rectangles of one array, all at its launch contents. -/
theorem arg_pieces_eq (c : Dev nD) :
    argPts m c = iprop((bigSep Finset.univ fun i : Fin 16 => ((aWin c i).view.loc (c : Thread nD τ) ↦[(aWin c i).view.set]{fullShare} m ((c : Thread nD τ).loc main_arg0)))
      ∗ ((aOwn c).view.loc (c : Thread nD τ) ↦[(aOwn c).view.set]{fullShare} m ((c : Thread nD τ).loc main_arg0))
      ∗ (aM.view.loc (c : Thread nD τ) ↦[aRest c]{fullShare} m ((c : Thread nD τ).loc main_arg0))) := by
  have hB : Disjoint ((aOwn c).view.set : Finset (aM : Memref sig .tc .hbm S4096x2048 .f32).view.ty.Idx)
      (Finset.univ.biUnion fun i : Fin 16 => ((aWin c i).view.set : Finset (aM : Memref sig .tc .hbm S4096x2048 .f32).view.ty.Idx)) :=
    (Finset.disjoint_biUnion_right _ _ _).mpr fun i _ => arg_off2_off1 aM c i
  have hW : ∀ i ∈ (Finset.univ : Finset (Fin 16)), ∀ i' ∈ (Finset.univ : Finset (Fin 16)), i ≠ i' →
      Disjoint ((aWin c i).view.set : Finset (aM : Memref sig .tc .hbm S4096x2048 .f32).view.ty.Idx) ((aWin c i').view.set : Finset (aM : Memref sig .tc .hbm S4096x2048 .f32).view.ty.Idx) :=
    fun i _ i' _ h => arg_off1_off1 aM c h
  have hsub : (((aOwn c).view.set : Finset (aM : Memref sig .tc .hbm S4096x2048 .f32).view.ty.Idx)
      ∪ Finset.univ.biUnion fun i : Fin 16 => ((aWin c i).view.set : Finset (aM : Memref sig .tc .hbm S4096x2048 .f32).view.ty.Idx)) ⊆ aM.view.set := by
    rw [show aM.view.set = Finset.univ from View.set_whole _]; exact Finset.subset_univ _
  rw [← arg_eq m c]
  refine BI.Entails.antisymm (show _ ⊢ (_ : sProp 𝕄) from ?_) (show _ ⊢ (_ : sProp 𝕄) from ?_)
  · iintro H
    ihave H1 := (pointsTo_split_subset hsub).1 $$ H
    icases H1 with ⟨HU, Hrest⟩
    ihave H2 := (pointsTo_union hB).1 $$ HU
    icases H2 with ⟨Hown, HB⟩
    ihave H3 := (Entails.of_eq (pointsTo_biUnion Finset.univ _ hW)) $$ HB
    isplitl [H3]; · iexact H3
    isplitl [Hown]; · iexact Hown
    unfold aRest; iexact Hrest
  · iintro ⟨H3, Hown, Hrest⟩
    iapply (pointsTo_split_subset hsub).2
    isplitl [H3 Hown]
    · iapply (pointsTo_union hB).2
      isplitl [Hown]; · iexact Hown
      iapply (Entails.of_eq (pointsTo_biUnion Finset.univ _ hW).symm); iexact H3
    · unfold aRest; iexact Hrest

/-- info: 'Cert.Kernel.A2A.arg_pieces_eq' depends on axioms: [propext, Classical.choice, Quot.sound] -/
#guard_msgs in #print axioms arg_pieces_eq

/-- info: 'Cert.Kernel.A2A.localSems_split' depends on axioms: [propext, Classical.choice, Quot.sound] -/
#guard_msgs in #print axioms localSems_split

/-- info: 'Cert.Kernel.A2A.used_split' depends on axioms: [propext, Classical.choice, Quot.sound] -/
#guard_msgs in #print axioms used_split

/-- info: 'Cert.Kernel.A2A.scratch_split_s' depends on axioms: [propext, Classical.choice, Quot.sound] -/
#guard_msgs in #print axioms scratch_split_s

/-- info: 'Cert.Kernel.A2A.chain_mix' depends on axioms: [propext, Classical.choice, Quot.sound] -/
#guard_msgs in #print axioms chain_mix

end Cert.Kernel.A2A

end
-- ==== Proof.BUnpack.lean ====
import proofs.«900640_g7700000000000641_dist_a2a_v7x_xyz2x2x4_y_m4096_n1024_f32_1_alg».proof.Proof.BPieces

/-!
# From the launch's hand-over to the body's starting context

What a device holds when its body starts — its ghost state, local semaphores, launch credit, the levels, its two
arrays and its scratch buffers — regrouped into the one long separating conjunction the body is run from, in the
order the program uses its parts: what the loads and the barrier need; then, chunk by chunk, what the first hop needs;
what the second hop and the first stores need; what the fourth hop and the other stores need; what the final waits
need; and the part of the input no copy reads. Every invariant and reached fact is read off the shared records.
-/

set_option maxRecDepth 65536

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

theorem lin_prod {P A B X Y : sProp 𝕄} (h : iprop(P ∗ B ∗ X) ⊢ Y) : iprop(P ∗ (A ∗ B) ∗ X) ⊢ iprop(A ∗ Y) := by
  iintro ⟨HP, ⟨HA, HB⟩, HX⟩
  isplitl [HA]; · iexact HA
  iapply h; isplitl [HP]; · iexact HP
  isplitl [HB]; · iexact HB
  iexact HX

/-! ## The holdings, family by family -/

theorem positions_split (c : Dev nD) :
    positions (F := F) c = iprop(atPos ER (barCell c) 0 ∅ 0
      ∗ (bigSep Finset.univ fun i : Fin 16 => atPos ER (fcell c Fam.ys i) 0 ∅ 0) ∗ (bigSep Finset.univ fun i : Fin 16 => atPos ER (fcell c Fam.yr i) 0 ∅ 0)
      ∗ (bigSep Finset.univ fun i : Fin 16 => atPos ER (fcell c Fam.xs i) 0 ∅ 0) ∗ (bigSep Finset.univ fun i : Fin 16 => atPos ER (fcell c Fam.xr i) 0 ∅ 0)
      ∗ (bigSep Finset.univ fun i : Fin 16 => atPos ER (fcell c Fam.zs i) 0 ∅ 0) ∗ (bigSep Finset.univ fun i : Fin 16 => atPos ER (fcell c Fam.zr i) 0 ∅ 0)
      ∗ (bigSep Finset.univ fun i : Fin 16 => atPos ER (fcell c Fam.qs i) 0 ∅ 0) ∗ (bigSep Finset.univ fun i : Fin 16 => atPos ER (fcell c Fam.qr i) 0 ∅ 0)) := by
  rw [positions_eq, bigSep_fam]

theorem payToks_split (c : Dev nD) :
    payToks (F := F) c = iprop(dutyTok ER (barCell (yP c)) 0 0 ∗ dutyTok ER (barCell (xP c)) 0 1 ∗ dutyTok ER (barCell (zP c)) 0 2
      ∗ (bigSep Finset.univ fun i : Fin 16 => dutyTok ER (fcell c Fam.ys i) 0 0) ∗ (bigSep Finset.univ fun i : Fin 16 => dutyTok ER (fcell (yP c) Fam.yr i) 0 0)
      ∗ (bigSep Finset.univ fun i : Fin 16 => dutyTok ER (fcell c Fam.xs i) 0 0) ∗ (bigSep Finset.univ fun i : Fin 16 => dutyTok ER (fcell (xP c) Fam.xr i) 0 0)
      ∗ (bigSep Finset.univ fun i : Fin 16 => dutyTok ER (fcell c Fam.zs i) 0 0) ∗ (bigSep Finset.univ fun i : Fin 16 => dutyTok ER (fcell (zP c) Fam.zr i) 0 0)
      ∗ (bigSep Finset.univ fun i : Fin 16 => dutyTok ER (fcell c Fam.qs i) 0 0) ∗ (bigSep Finset.univ fun i : Fin 16 => dutyTok ER (fcell (qP c i) Fam.qr i) 0 0)) := by
  unfold payToks; simp only [bigSep_sep']

theorem credsOf_split (c : Dev nD) :
    credsOf (F := F) c = iprop(cred (tallyAt (barCell c) () 3)
      ∗ (bigSep Finset.univ fun i : Fin 16 => cred (tallyAt (fcell c Fam.yr i) () N)) ∗ (bigSep Finset.univ fun i : Fin 16 => cred (tallyAt (fcell c Fam.xr i) () N))
      ∗ (bigSep Finset.univ fun i : Fin 16 => cred (tallyAt (fcell c Fam.zr i) () N)) ∗ (bigSep Finset.univ fun i : Fin 16 => cred (tallyAt (fcell c Fam.qr i) () N))) := by
  unfold credsOf; simp only [bigSep_sep']

theorem resPieces_split (c : Dev nD) (fo : S8192x1024.Idx → Elt F .f32) :
    resPieces (F := F) c fo = iprop(((oOwn c).view.loc (c : Thread nD τ) ↦[(oOwn c).view.set]{fullShare} fo)
      ∗ (bigSep Finset.univ fun i : Fin 16 => ((oRowY c i).view.loc (c : Thread nD τ) ↦[(oRowY c i).view.set]{fullShare} fo)) ∗ (bigSep Finset.univ fun i : Fin 16 => ((oRowX c i).view.loc (c : Thread nD τ) ↦[(oRowX c i).view.set]{fullShare} fo))
      ∗ (bigSep Finset.univ fun i : Fin 16 => ((oRowZ c i).view.loc (c : Thread nD τ) ↦[(oRowZ c i).view.set]{fullShare} fo)) ∗ (bigSep Finset.univ fun i : Fin 16 => ((oRowQ c i).view.loc (c : Thread nD τ) ↦[(oRowQ c i).view.set]{fullShare} fo))) := by
  unfold resPieces; simp only [bigSep_sep']

/-! ## The assembly -/

/-- The shared records and the device's own holdings, grouped as the program uses them, are the body's starting context. -/
theorem assemble (K : Dev nD × CK → ℕ) (c : Dev nD) (W : Waits sig Unit) (fo : S8192x1024.Idx → Elt F .f32)
    (fs fr fx fz : S16x64x1024.Idx → Elt F .f32) (fl : S4096x1024.Idx → Elt F .f32) :
    iprop(records m K
      ∗ (levAts L lv
        ∗ atPos ER (barCell c) 0 ∅ 0
        ∗ dutyTok ER (barCell (yP c)) 0 0 ∗ dutyTok ER (barCell (xP c)) 0 1 ∗ dutyTok ER (barCell (zP c)) 0 2
        ∗ cred (tallyAt (barCell c) () 3)
        ∗ owes (c : Thread nD τ) (O₀ c) W
        ∗ (bigSep Finset.univ fun i : Fin 16 => iprop(semVal ((c : Thread nD τ), .dma (semAt 0 (by decide) i)) 0 ∗ ((aWin c i).view.loc (c : Thread nD τ) ↦[(aWin c i).view.set]{fullShare} m ((c : Thread nD τ).loc main_arg0)) ∗ (((slab sM i).view.loc (c : Thread nD τ)) ↦[(slab sM i).view.set]{fullShare} fs : sProp 𝕄)))
        ∗ semVal ((c : Thread nD τ), .dma (⟨224, by decide⟩ : Fin 226)) 0
        ∗ ((aOwn c).view.loc (c : Thread nD τ) ↦[(aOwn c).view.set]{fullShare} m ((c : Thread nD τ).loc main_arg0))
        ∗ (lM.view.loc (c : Thread nD τ) ↦[lM.view.set]{fullShare} fl)
        ∗ (bigSep Finset.univ fun i : Fin 16 => (((slab rM i).view.loc (c : Thread nD τ)) ↦[(slab rM i).view.set]{fullShare} fr : sProp 𝕄))
        ∗ (bigSep Finset.univ fun i : Fin 16 => (((slab xrM i).view.loc (c : Thread nD τ)) ↦[(slab xrM i).view.set]{fullShare} fx : sProp 𝕄))
        ∗ (bigSep evens.toFinset fun i : Fin 16 => ((oRowQ c i).view.loc (c : Thread nD τ) ↦[(oRowQ c i).view.set]{fullShare} fo))
        ∗ (bigSep Finset.univ fun i : Fin 16 => (((slab zrM i).view.loc (c : Thread nD τ)) ↦[(slab zrM i).view.set]{fullShare} fz : sProp 𝕄))
        ∗ (bigSep odds.toFinset fun i : Fin 16 => ((oRowQ c i).view.loc (c : Thread nD τ) ↦[(oRowQ c i).view.set]{fullShare} fo))
        ∗ (bigSep Finset.univ fun i : Fin 16 => iprop(dutyTok ER (fcell c Fam.ys i) 0 0 ∗ dutyTok ER (fcell (yP c) Fam.yr i) 0 0))
        ∗ semVal ((c : Thread nD τ), .dma (⟨225, by decide⟩ : Fin 226)) 0
        ∗ ((oOwn c).view.loc (c : Thread nD τ) ↦[(oOwn c).view.set]{fullShare} fo)
        ∗ (bigSep Finset.univ fun i : Fin 16 => iprop(atPos ER (fcell c Fam.yr i) 0 ∅ 0 ∗ cred (tallyAt (fcell c Fam.yr i) () N) ∗ dutyTok ER (fcell c Fam.xs i) 0 0 ∗ dutyTok ER (fcell (xP c) Fam.xr i) 0 0 ∗ dutyTok ER (fcell c Fam.zs i) 0 0 ∗ dutyTok ER (fcell (zP c) Fam.zr i) 0 0 ∗ semVal ((c : Thread nD τ), .dma (semAt 16 (by decide) i)) 0 ∗ ((oRowY c i).view.loc (c : Thread nD τ) ↦[(oRowY c i).view.set]{fullShare} fo)))
        ∗ (bigSep Finset.univ fun i : Fin 16 => iprop(atPos ER (fcell c Fam.xr i) 0 ∅ 0 ∗ cred (tallyAt (fcell c Fam.xr i) () N) ∗ semVal ((c : Thread nD τ), .dma (semAt 32 (by decide) i)) 0 ∗ ((oRowX c i).view.loc (c : Thread nD τ) ↦[(oRowX c i).view.set]{fullShare} fo) ∗ atPos ER (fcell c Fam.zr i) 0 ∅ 0 ∗ cred (tallyAt (fcell c Fam.zr i) () N) ∗ semVal ((c : Thread nD τ), .dma (semAt 48 (by decide) i)) 0 ∗ ((oRowZ c i).view.loc (c : Thread nD τ) ↦[(oRowZ c i).view.set]{fullShare} fo) ∗ dutyTok ER (fcell c Fam.qs i) 0 0 ∗ dutyTok ER (fcell (qP c i) Fam.qr i) 0 0))
        ∗ (bigSep Finset.univ fun i : Fin 16 => iprop(atPos ER (fcell c Fam.ys i) 0 ∅ 0 ∗ atPos ER (fcell c Fam.xs i) 0 ∅ 0 ∗ atPos ER (fcell c Fam.zs i) 0 ∅ 0 ∗ atPos ER (fcell c Fam.qs i) 0 ∅ 0 ∗ atPos ER (fcell c Fam.qr i) 0 ∅ 0 ∗ cred (tallyAt (fcell c Fam.qr i) () N)))
        ∗ (aM.view.loc (c : Thread nD τ) ↦[aRest c]{fullShare} m ((c : Thread nD τ).loc main_arg0))))
      ⊢ bodyCtx m K c W fo fs fr fx fz fl := by
  haveI := records_pers m K
  unfold bodyCtx
  -- what the loads and the barrier need
  refine lin_under ?_
  refine chain_pers [c, yP c, xP c, zP c] (records m K) (fun d acc => iprop(cellInv ER (sched m) (K (d, none)) (barCell d) ∗ acc))
    (fun d X Y h => step_pers (inv_of m K (d, none)) h) ?_
  refine chain_pers [yP c, xP c, zP c] (records m K) (fun d acc => iprop(reached ER (barCell d) 0 ∗ acc))
    (fun d X Y h => step_pers (rch_of m K (d, none)) h) ?_
  refine lin_under (lin_under (lin_under (lin_under (lin_under (lin_under ?_)))))
  refine chain_mix ([0, 1, 2, 3, 4, 5, 6, 7, 8, 9, 10, 11, 12, 13, 14, 15] : List (Fin 16)) univ16 nodup16 (records m K) _
    (fun i acc => iprop(semVal ((c : Thread nD τ), .dma (semAt 0 (by decide) i)) 0 ∗ ((aWin c i).view.loc (c : Thread nD τ) ↦[(aWin c i).view.set]{fullShare} m ((c : Thread nD τ).loc main_arg0)) ∗ (((slab sM i).view.loc (c : Thread nD τ)) ↦[(slab sM i).view.set]{fullShare} fs : sProp 𝕄) ∗ acc))
    (fun i X Y h => lin_prod (lin_prod (lin_under h))) ?_
  refine lin_under (lin_under (lin_under ?_))
  refine chain_mix ([0, 1, 2, 3, 4, 5, 6, 7, 8, 9, 10, 11, 12, 13, 14, 15] : List (Fin 16)) univ16 nodup16 (records m K) _ (fun i acc => iprop((((slab rM i).view.loc (c : Thread nD τ)) ↦[(slab rM i).view.set]{fullShare} fr : sProp 𝕄) ∗ acc)) (fun i X Y h => lin_under h) ?_
  refine chain_mix ([0, 1, 2, 3, 4, 5, 6, 7, 8, 9, 10, 11, 12, 13, 14, 15] : List (Fin 16)) univ16 nodup16 (records m K) _ (fun i acc => iprop((((slab xrM i).view.loc (c : Thread nD τ)) ↦[(slab xrM i).view.set]{fullShare} fx : sProp 𝕄) ∗ acc)) (fun i X Y h => lin_under h) ?_
  refine chain_mix evens rfl evens_nodup (records m K) _ (fun i acc => iprop(((oRowQ c i).view.loc (c : Thread nD τ) ↦[(oRowQ c i).view.set]{fullShare} fo) ∗ acc)) (fun i X Y h => lin_under h) ?_
  refine chain_mix ([0, 1, 2, 3, 4, 5, 6, 7, 8, 9, 10, 11, 12, 13, 14, 15] : List (Fin 16)) univ16 nodup16 (records m K) _ (fun i acc => iprop((((slab zrM i).view.loc (c : Thread nD τ)) ↦[(slab zrM i).view.set]{fullShare} fz : sProp 𝕄) ∗ acc)) (fun i X Y h => lin_under h) ?_
  refine chain_mix odds rfl odds_nodup (records m K) _ (fun i acc => iprop(((oRowQ c i).view.loc (c : Thread nD τ) ↦[(oRowQ c i).view.set]{fullShare} fo) ∗ acc)) (fun i X Y h => lin_under h) ?_
  -- the first hop, chunk by chunk
  refine chain_mix ([0, 1, 2, 3, 4, 5, 6, 7, 8, 9, 10, 11, 12, 13, 14, 15] : List (Fin 16)) univ16 nodup16 (records m K) _
    (fun i acc => iprop(cellInv ER (sched m) (K (c, some (Fam.ys, i))) (fcell c Fam.ys i) ∗ cellInv ER (sched m) (K ((yP c), some (Fam.yr, i))) (fcell (yP c) Fam.yr i) ∗ reached ER (fcell c Fam.ys i) 0 ∗ reached ER (fcell (yP c) Fam.yr i) 0
      ∗ dutyTok ER (fcell c Fam.ys i) 0 0 ∗ dutyTok ER (fcell (yP c) Fam.yr i) 0 0 ∗ acc))
    (fun i X Y h => step_pers (inv_of m K (c, some (Fam.ys, i))) (step_pers (inv_of m K (yP c, some (Fam.yr, i))) (step_pers (rch_of m K (c, some (Fam.ys, i)))
      (step_pers (rch_of m K (yP c, some (Fam.yr, i))) (lin_prod (lin_under h)))))) ?_
  refine lin_under (lin_under ?_)
  -- the second hop and the first quarter's stores
  refine chain_mix ([0, 1, 2, 3, 4, 5, 6, 7, 8, 9, 10, 11, 12, 13, 14, 15] : List (Fin 16)) univ16 nodup16 (records m K) _
    (fun i acc => iprop(cellInv ER (sched m) (K (c, some (Fam.yr, i))) (fcell c Fam.yr i) ∗ atPos ER (fcell c Fam.yr i) 0 ∅ 0 ∗ cred (tallyAt (fcell c Fam.yr i) () N)
      ∗ cellInv ER (sched m) (K (c, some (Fam.xs, i))) (fcell c Fam.xs i) ∗ cellInv ER (sched m) (K ((xP c), some (Fam.xr, i))) (fcell (xP c) Fam.xr i) ∗ reached ER (fcell c Fam.xs i) 0 ∗ reached ER (fcell (xP c) Fam.xr i) 0 ∗ dutyTok ER (fcell c Fam.xs i) 0 0 ∗ dutyTok ER (fcell (xP c) Fam.xr i) 0 0
      ∗ cellInv ER (sched m) (K (c, some (Fam.zs, i))) (fcell c Fam.zs i) ∗ cellInv ER (sched m) (K ((zP c), some (Fam.zr, i))) (fcell (zP c) Fam.zr i) ∗ reached ER (fcell c Fam.zs i) 0 ∗ reached ER (fcell (zP c) Fam.zr i) 0 ∗ dutyTok ER (fcell c Fam.zs i) 0 0 ∗ dutyTok ER (fcell (zP c) Fam.zr i) 0 0
      ∗ semVal ((c : Thread nD τ), .dma (semAt 16 (by decide) i)) 0 ∗ ((oRowY c i).view.loc (c : Thread nD τ) ↦[(oRowY c i).view.set]{fullShare} fo) ∗ acc))
    (fun i X Y h => step_pers (inv_of m K (c, some (Fam.yr, i))) (lin_prod (lin_prod
      (step_pers (inv_of m K (c, some (Fam.xs, i))) (step_pers (inv_of m K (xP c, some (Fam.xr, i))) (step_pers (rch_of m K (c, some (Fam.xs, i))) (step_pers (rch_of m K (xP c, some (Fam.xr, i)))
      (lin_prod (lin_prod
      (step_pers (inv_of m K (c, some (Fam.zs, i))) (step_pers (inv_of m K (zP c, some (Fam.zr, i))) (step_pers (rch_of m K (c, some (Fam.zs, i))) (step_pers (rch_of m K (zP c, some (Fam.zr, i)))
      (lin_prod (lin_prod (lin_prod (lin_under h))))))))))))))))) ?_
  -- the fourth hop and the other two quarters' stores
  refine chain_mix ([0, 1, 2, 3, 4, 5, 6, 7, 8, 9, 10, 11, 12, 13, 14, 15] : List (Fin 16)) univ16 nodup16 (records m K) _
    (fun i acc => iprop(cellInv ER (sched m) (K (c, some (Fam.xr, i))) (fcell c Fam.xr i) ∗ atPos ER (fcell c Fam.xr i) 0 ∅ 0 ∗ cred (tallyAt (fcell c Fam.xr i) () N) ∗ semVal ((c : Thread nD τ), .dma (semAt 32 (by decide) i)) 0 ∗ ((oRowX c i).view.loc (c : Thread nD τ) ↦[(oRowX c i).view.set]{fullShare} fo)
      ∗ cellInv ER (sched m) (K (c, some (Fam.zr, i))) (fcell c Fam.zr i) ∗ atPos ER (fcell c Fam.zr i) 0 ∅ 0 ∗ cred (tallyAt (fcell c Fam.zr i) () N) ∗ semVal ((c : Thread nD τ), .dma (semAt 48 (by decide) i)) 0 ∗ ((oRowZ c i).view.loc (c : Thread nD τ) ↦[(oRowZ c i).view.set]{fullShare} fo)
      ∗ cellInv ER (sched m) (K (c, some (Fam.qs, i))) (fcell c Fam.qs i) ∗ cellInv ER (sched m) (K ((qP c i), some (Fam.qr, i))) (fcell (qP c i) Fam.qr i) ∗ reached ER (fcell c Fam.qs i) 0 ∗ reached ER (fcell (qP c i) Fam.qr i) 0 ∗ dutyTok ER (fcell c Fam.qs i) 0 0 ∗ dutyTok ER (fcell (qP c i) Fam.qr i) 0 0 ∗ acc))
    (fun i X Y h => step_pers (inv_of m K (c, some (Fam.xr, i))) (lin_prod (lin_prod (lin_prod (lin_prod
      (step_pers (inv_of m K (c, some (Fam.zr, i))) (lin_prod (lin_prod (lin_prod (lin_prod
      (step_pers (inv_of m K (c, some (Fam.qs, i))) (step_pers (inv_of m K (qP c i, some (Fam.qr, i))) (step_pers (rch_of m K (c, some (Fam.qs, i))) (step_pers (rch_of m K (qP c i, some (Fam.qr, i)))
      (lin_prod (lin_under h)))))))))))))))) ?_
  -- the final waits
  refine chain_mix ([0, 1, 2, 3, 4, 5, 6, 7, 8, 9, 10, 11, 12, 13, 14, 15] : List (Fin 16)) univ16 nodup16 (records m K) _
    (fun i acc => iprop(atPos ER (fcell c Fam.ys i) 0 ∅ 0 ∗ atPos ER (fcell c Fam.xs i) 0 ∅ 0 ∗ atPos ER (fcell c Fam.zs i) 0 ∅ 0 ∗ atPos ER (fcell c Fam.qs i) 0 ∅ 0 ∗ cellInv ER (sched m) (K (c, some (Fam.qr, i))) (fcell c Fam.qr i) ∗ atPos ER (fcell c Fam.qr i) 0 ∅ 0 ∗ cred (tallyAt (fcell c Fam.qr i) () N) ∗ acc))
    (fun i X Y h => lin_prod (lin_prod (lin_prod (lin_prod (step_pers (inv_of m K (c, some (Fam.qr, i))) (lin_prod (lin_under h))))))) ?_
  -- the part of the input no copy reads
  exact drop_left .rfl

/-! ## Unpacking -/

/-- What the launch hands a device, with what it owes, is the body's starting context at some names and contents, and
    the idle semaphores. The result's cut into its 65 pieces is taken as given (`hres`). -/
theorem unpack (c : Dev nD)
    (hres : ∀ fo : S8192x1024.Idx → Elt F .f32, resPts (F := F) c fo ⊢ resPieces (F := F) c fo) :
    iprop(Φ₀ m c ∗ (dats m 0 c).owesAt () (t0_0 : Fin cfg0.N).castSucc)
      ⊢ iprop(∃ K W fo fs fr fx fz fl, bodyCtx m K c W fo fs fr fx fz fl ∗ idle (F := F) c) := by
  unfold Φ₀ start ghost scratchAny
  iintro ⟨⟨⟨⟨%K, HR, Hpos, Htok⟩, HL, Hcr, Hlev, Harg, Hres⟩, ⟨%fs, Hs⟩, ⟨%fr, Hr⟩, ⟨%fx, Hx⟩, ⟨%fz, Hz⟩, ⟨%fl, Hl⟩⟩, ⟨%W, %hW, Ho⟩⟩
  iexists K; iexists W; iexists (m ((c : Thread nD τ).loc main_v1)); iexists fs; iexists fr; iexists fx; iexists fz; iexists fl
  ihave HL' := (Entails.of_eq (localSems_split (F := F) c)) $$ HL
  icases HL' with ⟨Hu, Hidle⟩
  ihave Hu' := (Entails.of_eq (used_split (F := F) (fun k => semVal ((c : Thread nD τ), .dma k) 0))) $$ Hu
  icases Hu' with ⟨S0, S16, S32, S48, S224, S225⟩
  ihave Hp := (Entails.of_eq (positions_split (F := F) c)) $$ Hpos
  icases Hp with ⟨Pbar, Pys, Pyr, Pxs, Pxr, Pzs, Pzr, Pqs, Pqr⟩
  ihave Ht := (Entails.of_eq (payToks_split (F := F) c)) $$ Htok
  icases Ht with ⟨Tby, Tbx, Tbz, Tys, Tyr, Txs, Txr, Tzs, Tzr, Tqs, Tqr⟩
  ihave Hc := (Entails.of_eq (credsOf_split (F := F) c)) $$ Hcr
  icases Hc with ⟨Cb, Cyr, Cxr, Czr, Cqr⟩
  ihave Ha := (Entails.of_eq (arg_pieces_eq m c)) $$ Harg
  icases Ha with ⟨Awin, Aown, Arest⟩
  ihave Hres1 := (hres _) $$ Hres
  ihave Hres2 := (Entails.of_eq (resPieces_split (F := F) c _)) $$ Hres1
  icases Hres2 with ⟨Oown, OY, OX, OZ, OQ⟩
  ihave OQ' := (Entails.of_eq (parity_split (F := F) (fun i : Fin 16 => ((oRowQ c i).view.loc (c : Thread nD τ) ↦[(oRowQ c i).view.set]{fullShare} (m ((c : Thread nD τ).loc main_v1)))))) $$ OQ
  icases OQ' with ⟨OQe, OQo⟩
  ihave Hs' := (Entails.of_eq (scratch_split_s (F := F) c fs)) $$ Hs
  ihave Hr' := (Entails.of_eq (scratch_split_r (F := F) c fr)) $$ Hr
  ihave Hx' := (Entails.of_eq (scratch_split_x (F := F) c fx)) $$ Hx
  ihave Hz' := (Entails.of_eq (scratch_split_z (F := F) c fz)) $$ Hz
  ihave Hl' := (Entails.of_eq (lbuf_eq (F := F) c fl).symm) $$ Hl
  isplitr [Hidle]
  · iapply (assemble m K c W _ fs fr fx fz fl)
    simp only [bigSep_sep']
    isplitl [HR]; · iexact HR
    isplitl [Hlev]; · iexact Hlev
    isplitl [Pbar]; · iexact Pbar
    isplitl [Tby]; · iexact Tby
    isplitl [Tbx]; · iexact Tbx
    isplitl [Tbz]; · iexact Tbz
    isplitl [Cb]; · iexact Cb
    isplitl [Ho]; · iexact Ho
    isplitl [S0 Awin Hs']
    · isplitl [S0]; · iexact S0
      isplitl [Awin]; · iexact Awin
      iexact Hs'
    isplitl [S224]; · iexact S224
    isplitl [Aown]; · iexact Aown
    isplitl [Hl']; · iexact Hl'
    isplitl [Hr']; · iexact Hr'
    isplitl [Hx']; · iexact Hx'
    isplitl [OQe]; · iexact OQe
    isplitl [Hz']; · iexact Hz'
    isplitl [OQo]; · iexact OQo
    isplitl [Tys Tyr]
    · isplitl [Tys]; · iexact Tys
      iexact Tyr
    isplitl [S225]; · iexact S225
    isplitl [Oown]; · iexact Oown
    isplitl [Pyr Cyr Txs Txr Tzs Tzr S16 OY]
    · isplitl [Pyr]; · iexact Pyr
      isplitl [Cyr]; · iexact Cyr
      isplitl [Txs]; · iexact Txs
      isplitl [Txr]; · iexact Txr
      isplitl [Tzs]; · iexact Tzs
      isplitl [Tzr]; · iexact Tzr
      isplitl [S16]; · iexact S16
      iexact OY
    isplitl [Pxr Cxr S32 OX Pzr Czr S48 OZ Tqs Tqr]
    · isplitl [Pxr]; · iexact Pxr
      isplitl [Cxr]; · iexact Cxr
      isplitl [S32]; · iexact S32
      isplitl [OX]; · iexact OX
      isplitl [Pzr]; · iexact Pzr
      isplitl [Czr]; · iexact Czr
      isplitl [S48]; · iexact S48
      isplitl [OZ]; · iexact OZ
      isplitl [Tqs]; · iexact Tqs
      iexact Tqr
    isplitl [Pys Pxs Pzs Pqs Pqr Cqr]
    · isplitl [Pys]; · iexact Pys
      isplitl [Pxs]; · iexact Pxs
      isplitl [Pzs]; · iexact Pzs
      isplitl [Pqs]; · iexact Pqs
      isplitl [Pqr]; · iexact Pqr
      iexact Cqr
    iexact Arest
  · iexact Hidle

/-! ## The body obligation -/

/-- The kernel stages no window: the obligation's conjunctions over windows are empty. -/
theorem bigSep_W0 (Φ : Fin cfg0.W → sProp 𝕄) : bigSep Finset.univ Φ = iprop(emp) := by
  have h : (Finset.univ : Finset (Fin cfg0.W)) = ∅ := Finset.eq_empty_of_forall_notMem fun w => w.elim0
  rw [h]; rfl

/-- The library's body obligation on every device, from the body run from its starting context. -/
theorem body_obligation
    (hres : ∀ (c : Dev nD) (fo : S8192x1024.Idx → Elt F .f32), resPts (F := F) c fo ⊢ resPieces (F := F) c fo)
    (hbody : ∀ (K : Dev nD × CK → ℕ) (c : Dev nD) (W : Waits sig Unit) (fo : S8192x1024.Idx → Elt F .f32)
        (fs fr fx fz : S16x64x1024.Idx → Elt F .f32) (fl : S4096x1024.Idx → Elt F .f32),
      iprop(bodyCtx m K c W fo fs fr fx fz fl ∗ idle (F := F) c)
        ⊢ wp frame (wpE (defs₀ (F := F)) 𝒱₀ (c : Thread nD τ) none) Set.univ (Gen.bodyAt0 t0_0)
            (fun _ => iprop(Φ₁ m c ∗ (dats m 0 c).owesAt () (t0_0 : Fin cfg0.N).succ))) :
    ∀ c, BodyObligation (dats (F := F) m 0 c) (defs₀ (F := F)) 𝒱₀ () Set.univ := fun c t => by
  rw [fin_N0 t]
  rw [bigSep_W0, bigSep_W0]
  show iprop(Φ₀ m c ∗ (dats m 0 c).owesAt () (t0_0 : Fin cfg0.N).castSucc ∗ emp)
    ⊢ wp frame (wpE (defs₀ (F := F)) 𝒱₀ (c : Thread nD τ) none) Set.univ (Gen.bodyAt0 t0_0)
        (fun _ => iprop(Φ₁ m c ∗ (dats m 0 c).owesAt () (t0_0 : Fin cfg0.N).succ ∗ emp))
  iintro ⟨HΦ, Ho, -⟩
  ihave H := (unpack m c (hres c)) $$ [HΦ Ho]
  · isplitl [HΦ] <;> iassumption
  icases H with ⟨%K, %W, %fo, %fs, %fr, %fx, %fz, %fl, H⟩
  iapply (wp_mono frame _ Set.univ (fun _ => show iprop(Φ₁ m c ∗ (dats m 0 c).owesAt () (t0_0 : Fin cfg0.N).succ)
      ⊢ iprop(Φ₁ m c ∗ (dats m 0 c).owesAt () (t0_0 : Fin cfg0.N).succ ∗ emp) from by
    iintro ⟨H1, H2⟩
    isplitl [H1]; · iexact H1
    isplitl [H2]; · iexact H2
    iempintro))
  iapply (hbody K c W fo fs fr fx fz fl); iexact H

/-- info: 'Cert.Kernel.A2A.unpack' depends on axioms: [propext, Classical.choice, Quot.sound] -/
#guard_msgs in #print axioms unpack

/-- info: 'Cert.Kernel.A2A.body_obligation' depends on axioms: [propext, Classical.choice, Quot.sound] -/
#guard_msgs in #print axioms body_obligation

end Cert.Kernel.A2A

end
-- ==== Proof.BLanding.lean ====
import proofs.«900640_g7700000000000641_dist_a2a_v7x_xyz2x2x4_y_m4096_n1024_f32_1_alg».proof.Proof.BProto

/-!
# What a chunk copy leaves behind

A copy of a 64 × 1024 chunk `v` into chunk `i` of a scratch buffer, or into 64 aligned rows of the result, leaves
that destination equal — on the elements the copy touches — to a buffer that holds `v` in every chunk (every aligned
block of 64 rows). Reading such a buffer back through the same window gives `v`. Both facts are index arithmetic:
the chunk window sits at `(i, 0, 0)` behind a squeezed leading axis, the row window at a row offset that is a
multiple of 64 and column offset 0. Values off the window are irrelevant to a points-to over the window, so the
assertion about the destination after the copy can be restated at those contents.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## Two facts about any window -/

section Abstract

variable {Val : EltTy → Type} {sg : RefSig} {κ : Kind} {sp : Space} {S : Shape} {e : EltTy}

/-- A buffer that holds `u y` under every index `y` of the window reads as `u` through it. -/
theorem read_eq_of_emb (w : View sg κ sp S e) (g : w.ty.Contents Val) (u : S.Idx → Val e)
    (h : ∀ y, g (w.emb y) = cast (congrArg Val w.elt_eq.symm) (u y)) : w.read Val g = u := by
  funext y
  rw [View.read_apply, h, cast_cast, cast_eq]

/-- After `u` is written through the whole window, the window's elements are those of any buffer that holds `u y`
    under every index `y` of the window. -/
theorem write_univ_eq_of_emb (w : View sg κ sp S e) (fd g : w.ty.Contents Val) (u : S.Idx → Val e)
    (h : ∀ y, g (w.emb y) = cast (congrArg Val w.elt_eq.symm) (u y)) :
    ∀ j ∈ w.set, w.write Val fd u Finset.univ j = g j := by
  intro j hj
  obtain ⟨y, rfl⟩ := View.exists_emb_of_mem_set w hj
  rw [View.write_emb_of_mem _ _ (Finset.mem_univ y), h]

end Abstract

/-! ## Chunk `i` of a scratch buffer -/

/-- The rectangle of chunk `i` of a 16 × 64 × 1024 buffer. -/
abbrev slabRect (i : Fin 16) : Rect S16x64x1024 :=
  Rect.unit (s := S16x64x1024) ![i.val, 0, 0] S1x64x1024.size (slab_inb i)

/-- Dropping the leading axis of size one: the chunk's index `x` is matched with `(0, x)`. -/
theorem sq_idx (x : S64x1024.Idx) : Shape.reshapeEquiv (s := S1x64x1024) (s' := S64x1024) squeezes_S1x64x1024_S64x1024.numel_eq x = Fin.cons (⟨0, Nat.one_pos⟩ : Fin 1) x :=
  Shape.reshapeEquiv_cons_one (n := 2) (d := ![64, 1024]) _ x

/-- Where index `x` of chunk `i` sits in the buffer: row `x 0`, -/
theorem slabRect_emb1 (i : Fin 16) (x : S64x1024.Idx) :
    (((slabRect i).emb (Shape.reshapeEquiv (s := S1x64x1024) (s' := S64x1024) squeezes_S1x64x1024_S64x1024.numel_eq x)) 1 : Fin 64) = x 0 := by
  apply Fin.ext
  rw [Rect.emb_apply, sq_idx]
  show 0 + 1 * (x 0).val = (x 0).val
  omega

/-- column `x 1`. -/
theorem slabRect_emb2 (i : Fin 16) (x : S64x1024.Idx) :
    (((slabRect i).emb (Shape.reshapeEquiv (s := S1x64x1024) (s' := S64x1024) squeezes_S1x64x1024_S64x1024.numel_eq x)) 2 : Fin 1024) = x 1 := by
  apply Fin.ext
  rw [Rect.emb_apply, sq_idx]
  show 0 + 1 * (x 1).val = (x 1).val
  omega

omit [FloatOps F] in
/-- A buffer every chunk of which holds `v`, at the place of index `x` of chunk `i`, holds `v x`. -/
theorem slabBuf_at (i : Fin 16) (v : Vec F S64x1024 .f32) (x : S64x1024.Idx) :
    slabBuf v ((slabRect i).emb (Shape.reshapeEquiv (s := S1x64x1024) (s' := S64x1024) squeezes_S1x64x1024_S64x1024.numel_eq x)) = v x := by
  show v (ix2 (((slabRect i).emb (Shape.reshapeEquiv (s := S1x64x1024) (s' := S64x1024) squeezes_S1x64x1024_S64x1024.numel_eq x)) 1) (((slabRect i).emb (Shape.reshapeEquiv (s := S1x64x1024) (s' := S64x1024) squeezes_S1x64x1024_S64x1024.numel_eq x)) 2)) = v x
  rw [slabRect_emb1, slabRect_emb2]
  exact congrArg v (Idealize.ShloMosaic.ValueIdx.eq_ix2 x).symm

omit [FloatOps F] in
theorem slab_key_s (i : Fin 16) (v : Vec F S64x1024 .f32) (y : S64x1024.Idx) :
    slabBuf v ((slab sM i).view.emb y) = cast (congrArg (Elt F) (slab sM i).view.elt_eq.symm) (v y) :=
  (slabBuf_at i v y).trans (cast_eq _ _).symm

omit [FloatOps F] in
/-- Chunk `i` of a buffer every chunk of which holds `v` reads as `v`. -/
theorem slab_read_s (i : Fin 16) (v : Vec F S64x1024 .f32) :
    (slab sM i).view.read (Elt F) (slabBuf v) = v :=
  read_eq_of_emb _ _ _ (slab_key_s i v)

omit [FloatOps F] in
/-- Whatever the buffer held, once `v` is written over chunk `i` the chunk's elements are those of `slabBuf v`. -/
theorem slab_landed_s (i : Fin 16) (fd : (slab sM i).view.ty.Contents (Elt F)) (v : Vec F S64x1024 .f32) :
    ∀ j ∈ (slab sM i).view.set, (slab sM i).view.write (Elt F) fd v Finset.univ j = slabBuf v j :=
  write_univ_eq_of_emb _ fd _ v (slab_key_s i v)

/-- The chunk as a copy leaves it, restated at its contents. -/
theorem sPts_landed (d : Dev nD) (i : Fin 16) (q : PosShare TreeShare) (fd : (slab sM i).view.ty.Contents (Elt F))
    (v : Vec F S64x1024 .f32) :
    ((((slab sM i).view.loc (d : Thread nD τ)) ↦[(slab sM i).view.set]{q} (slab sM i).view.write (Elt F) fd v Finset.univ) : sProp 𝕄)
      = sPts d i q v :=
  pointsTo_congr (slab_landed_s i fd v)

omit [FloatOps F] in
theorem slab_key_r (i : Fin 16) (v : Vec F S64x1024 .f32) (y : S64x1024.Idx) :
    slabBuf v ((slab rM i).view.emb y) = cast (congrArg (Elt F) (slab rM i).view.elt_eq.symm) (v y) :=
  (slabBuf_at i v y).trans (cast_eq _ _).symm

omit [FloatOps F] in
/-- Chunk `i` of a buffer every chunk of which holds `v` reads as `v`. -/
theorem slab_read_r (i : Fin 16) (v : Vec F S64x1024 .f32) :
    (slab rM i).view.read (Elt F) (slabBuf v) = v :=
  read_eq_of_emb _ _ _ (slab_key_r i v)

omit [FloatOps F] in
/-- Whatever the buffer held, once `v` is written over chunk `i` the chunk's elements are those of `slabBuf v`. -/
theorem slab_landed_r (i : Fin 16) (fd : (slab rM i).view.ty.Contents (Elt F)) (v : Vec F S64x1024 .f32) :
    ∀ j ∈ (slab rM i).view.set, (slab rM i).view.write (Elt F) fd v Finset.univ j = slabBuf v j :=
  write_univ_eq_of_emb _ fd _ v (slab_key_r i v)

/-- The chunk as a copy leaves it, restated at its contents. -/
theorem rPts_landed (d : Dev nD) (i : Fin 16) (q : PosShare TreeShare) (fd : (slab rM i).view.ty.Contents (Elt F))
    (v : Vec F S64x1024 .f32) :
    ((((slab rM i).view.loc (d : Thread nD τ)) ↦[(slab rM i).view.set]{q} (slab rM i).view.write (Elt F) fd v Finset.univ) : sProp 𝕄)
      = rPts d i q v :=
  pointsTo_congr (slab_landed_r i fd v)

omit [FloatOps F] in
theorem slab_key_xr (i : Fin 16) (v : Vec F S64x1024 .f32) (y : S64x1024.Idx) :
    slabBuf v ((slab xrM i).view.emb y) = cast (congrArg (Elt F) (slab xrM i).view.elt_eq.symm) (v y) :=
  (slabBuf_at i v y).trans (cast_eq _ _).symm

omit [FloatOps F] in
/-- Chunk `i` of a buffer every chunk of which holds `v` reads as `v`. -/
theorem slab_read_xr (i : Fin 16) (v : Vec F S64x1024 .f32) :
    (slab xrM i).view.read (Elt F) (slabBuf v) = v :=
  read_eq_of_emb _ _ _ (slab_key_xr i v)

omit [FloatOps F] in
/-- Whatever the buffer held, once `v` is written over chunk `i` the chunk's elements are those of `slabBuf v`. -/
theorem slab_landed_xr (i : Fin 16) (fd : (slab xrM i).view.ty.Contents (Elt F)) (v : Vec F S64x1024 .f32) :
    ∀ j ∈ (slab xrM i).view.set, (slab xrM i).view.write (Elt F) fd v Finset.univ j = slabBuf v j :=
  write_univ_eq_of_emb _ fd _ v (slab_key_xr i v)

/-- The chunk as a copy leaves it, restated at its contents. -/
theorem xrPts_landed (d : Dev nD) (i : Fin 16) (q : PosShare TreeShare) (fd : (slab xrM i).view.ty.Contents (Elt F))
    (v : Vec F S64x1024 .f32) :
    ((((slab xrM i).view.loc (d : Thread nD τ)) ↦[(slab xrM i).view.set]{q} (slab xrM i).view.write (Elt F) fd v Finset.univ) : sProp 𝕄)
      = xrPts d i q v :=
  pointsTo_congr (slab_landed_xr i fd v)

omit [FloatOps F] in
theorem slab_key_zr (i : Fin 16) (v : Vec F S64x1024 .f32) (y : S64x1024.Idx) :
    slabBuf v ((slab zrM i).view.emb y) = cast (congrArg (Elt F) (slab zrM i).view.elt_eq.symm) (v y) :=
  (slabBuf_at i v y).trans (cast_eq _ _).symm

omit [FloatOps F] in
/-- Chunk `i` of a buffer every chunk of which holds `v` reads as `v`. -/
theorem slab_read_zr (i : Fin 16) (v : Vec F S64x1024 .f32) :
    (slab zrM i).view.read (Elt F) (slabBuf v) = v :=
  read_eq_of_emb _ _ _ (slab_key_zr i v)

omit [FloatOps F] in
/-- Whatever the buffer held, once `v` is written over chunk `i` the chunk's elements are those of `slabBuf v`. -/
theorem slab_landed_zr (i : Fin 16) (fd : (slab zrM i).view.ty.Contents (Elt F)) (v : Vec F S64x1024 .f32) :
    ∀ j ∈ (slab zrM i).view.set, (slab zrM i).view.write (Elt F) fd v Finset.univ j = slabBuf v j :=
  write_univ_eq_of_emb _ fd _ v (slab_key_zr i v)

/-- The chunk as a copy leaves it, restated at its contents. -/
theorem zrPts_landed (d : Dev nD) (i : Fin 16) (q : PosShare TreeShare) (fd : (slab zrM i).view.ty.Contents (Elt F))
    (v : Vec F S64x1024 .f32) :
    ((((slab zrM i).view.loc (d : Thread nD τ)) ↦[(slab zrM i).view.set]{q} (slab zrM i).view.write (Elt F) fd v Finset.univ) : sProp 𝕄)
      = zrPts d i q v :=
  pointsTo_congr (slab_landed_zr i fd v)

/-! ## Sixty-four aligned rows of the result -/

omit [FloatOps F] in
/-- A result array every aligned 64-row block of which holds `v`, at the place of index `y` of a 64-row window
    that starts at a multiple of 64 and at column 0, holds `v y`. -/
theorem rowBuf_at (off : Fin 2 → Nat) (h : ∀ a, off a + S64x1024.size a ≤ S8192x1024.size a)
    (h0 : off 0 % 64 = 0) (h1 : off 1 = 0) (v : Vec F S64x1024 .f32) (y : S64x1024.Idx) :
    rowBuf v ((oRow off h).view.emb y) = v y := by
  have e0 : (⟨(((oRow off h).view.emb y) 0).val % 64, Nat.mod_lt _ (by decide)⟩ : Fin 64) = y 0 := by
    apply Fin.ext
    show (off 0 + 1 * (y 0).val) % 64 = (y 0).val
    have := Idealize.ShloMosaic.ValueIdx.idx2_lt0 y
    omega
  have e1 : ((((oRow off h).view.emb y) 1 : Fin 1024)) = y 1 := by
    apply Fin.ext
    show off 1 + 1 * (y 1).val = (y 1).val
    omega
  show v (ix2 (⟨(((oRow off h).view.emb y) 0).val % 64, Nat.mod_lt _ (by decide)⟩ : Fin 64) (((oRow off h).view.emb y) 1)) = v y
  rw [e0, e1]
  exact congrArg v (Idealize.ShloMosaic.ValueIdx.eq_ix2 y).symm

omit [FloatOps F] in
theorem row_key (off : Fin 2 → Nat) (h : ∀ a, off a + S64x1024.size a ≤ S8192x1024.size a)
    (h0 : off 0 % 64 = 0) (h1 : off 1 = 0) (v : Vec F S64x1024 .f32) (y : S64x1024.Idx) :
    rowBuf v ((oRow off h).view.emb y) = cast (congrArg (Elt F) (oRow off h).view.elt_eq.symm) (v y) :=
  (rowBuf_at off h h0 h1 v y).trans (cast_eq _ _).symm

omit [FloatOps F] in
/-- Sixty-four aligned rows of a result every aligned block of which holds `v` read as `v`. -/
theorem row_read (off : Fin 2 → Nat) (h : ∀ a, off a + S64x1024.size a ≤ S8192x1024.size a)
    (h0 : off 0 % 64 = 0) (h1 : off 1 = 0) (v : Vec F S64x1024 .f32) :
    (oRow off h).view.read (Elt F) (rowBuf v) = v :=
  read_eq_of_emb _ _ _ (row_key off h h0 h1 v)

omit [FloatOps F] in
/-- Whatever the result held, once `v` is written over those rows their elements are those of `rowBuf v`. -/
theorem row_landed (off : Fin 2 → Nat) (h : ∀ a, off a + S64x1024.size a ≤ S8192x1024.size a)
    (h0 : off 0 % 64 = 0) (h1 : off 1 = 0) (fd : (oRow off h).view.ty.Contents (Elt F)) (v : Vec F S64x1024 .f32) :
    ∀ j ∈ (oRow off h).view.set, (oRow off h).view.write (Elt F) fd v Finset.univ j = rowBuf v j :=
  write_univ_eq_of_emb _ fd _ v (row_key off h h0 h1 v)

/-- The rows as a copy leaves them, restated at their contents. -/
theorem rowPts_landed (off : Fin 2 → Nat) (h : ∀ a, off a + S64x1024.size a ≤ S8192x1024.size a)
    (h0 : off 0 % 64 = 0) (h1 : off 1 = 0) (d : Dev nD) (fd : (oRow off h).view.ty.Contents (Elt F))
    (v : Vec F S64x1024 .f32) :
    ((((oRow off h).view.loc (d : Thread nD τ)) ↦[(oRow off h).view.set]{fullShare} (oRow off h).view.write (Elt F) fd v Finset.univ) : sProp 𝕄)
      = rowPts off h d v :=
  pointsTo_congr (row_landed off h h0 h1 fd v)

/-! ## The row windows the program uses are aligned -/

theorem off4_al (d : Dev nD) (i : Fin 16) : k0_off4 d (wd i) 0 % 64 = 0 ∧ k0_off4 d (wd i) 1 = 0 := by
  rw [show k0_off4 d (wd i) = _ from k0_off4_eq d i]
  refine ⟨?_, rfl⟩
  show ((2048 * (d.val / 8) + 1024 * ((d.val % 4) % 2) + 64 * i.val + 4096) - 4096 * ((d.val / 4) % 2)) % 64 = 0
  omega

theorem off5_al (d : Dev nD) (i : Fin 16) : k0_off5 d (wd i) 0 % 64 = 0 ∧ k0_off5 d (wd i) 1 = 0 := by
  rw [show k0_off5 d (wd i) = _ from k0_off5_eq d i]
  refine ⟨?_, rfl⟩
  show ((1024 * ((d.val % 4) % 2) + 64 * i.val + 6144) - (4096 * ((d.val / 4) % 2) + 2048 * (d.val / 8))) % 64 = 0
  omega

theorem off6_al (d : Dev nD) (i : Fin 16) : k0_off6 d (wd i) 0 % 64 = 0 ∧ k0_off6 d (wd i) 1 = 0 := by
  rw [show k0_off6 d (wd i) = _ from k0_off6_eq d i]
  refine ⟨?_, rfl⟩
  show ((2048 * (d.val / 8) + 64 * i.val + 5120) - (4096 * ((d.val / 4) % 2) + 1024 * ((d.val % 4) % 2))) % 64 = 0
  omega

theorem qOff_al (c : Dev nD) (i : Fin 16) : qOff c i 0 % 64 = 0 ∧ qOff c i 1 = 0 := by
  unfold qOff; split
  · exact off6_al (xP c) i
  · exact off5_al (zP c) i

/-- The rows an even chunk of the fourth quarter lands in on the `x` partner are the rows the sender computes, -/
theorem qOff_xP_even (c : Dev nD) (i : Fin 16) (hi : i.val % 2 = 0) : qOff (xP c) i = k0_off6 c (wd i) := by
  unfold qOff; rw [if_pos hi, xP_xP]

/-- and likewise an odd chunk's on the `z` partner. -/
theorem qOff_zP_odd (c : Dev nD) (i : Fin 16) (hi : i.val % 2 = 1) : qOff (zP c) i = k0_off5 c (wd i) := by
  unfold qOff; rw [if_neg (by omega), zP_zP]

end Cert.Kernel.A2A

end
-- ==== Proof.BValue.lean ====
import proofs.«900640_g7700000000000641_dist_a2a_v7x_xyz2x2x4_y_m4096_n1024_f32_1_alg».proof.Proof.BGhost
import proofs.«900640_g7700000000000641_dist_a2a_v7x_xyz2x2x4_y_m4096_n1024_f32_1_alg».proof.Proof.BLanding

/-!
# Where every stored chunk sits in the result

Device `c`'s result has 8192 rows: its own half, 4096 rows copied from its own input block, and the other half,
four quarters of sixteen 64-row chunks. Each chunk stored there is the chunk some device across `y` loaded from its
own input; which device depends only on the quarter. This module shows, index by index, that every stored piece
agrees with the result `outC m c` on the rows it is stored at, that the 65 pieces are pairwise disjoint and
cover the result, and joins them into the result held whole.

All of it is arithmetic on the row index: a device is `8·X + 4·Y + 2·W + Z` with `X, Y, W, Z ≤ 1`, its partners
flip `Y`, `X` or `Z`, and every row offset is `4096·(1 − Y) + 1024·quarter + 64·i`.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-- Closes an arithmetic goal about a device by going through the sixteen devices. -/
local macro "by_dev " c:term : tactic =>
  `(tactic| (have hc : ($c).val < 16 := ($c).isLt
             generalize ($c).val = n at hc ⊢
             interval_cases n <;> omega))

/-! ## Partners, in arithmetic -/

theorem yP_val (c : Dev nD) : (yP c).val = c.val + 4 - 8 * ((c.val / 4) % 2) := by revert c; decide
theorem xP_val (c : Dev nD) : (xP c).val = c.val + 8 - 16 * (c.val / 8) := by revert c; decide
theorem zP_val (c : Dev nD) : (zP c).val = c.val + 1 - 2 * (c.val % 2) := by revert c; decide

/-! ## The row offsets, in closed form -/

theorem off4_row (c : Dev nD) (i : Fin 16) :
    k0_off4 c (wd i) 0 = (2048 * (c.val / 8) + 1024 * ((c.val % 4) % 2) + 64 * i.val + 4096) - 4096 * ((c.val / 4) % 2) := by
  rw [show k0_off4 c (wd i) = _ from k0_off4_eq c i]; rfl

theorem off5_row (c : Dev nD) (i : Fin 16) :
    k0_off5 c (wd i) 0 = (1024 * ((c.val % 4) % 2) + 64 * i.val + 6144) - (4096 * ((c.val / 4) % 2) + 2048 * (c.val / 8)) := by
  rw [show k0_off5 c (wd i) = _ from k0_off5_eq c i]; rfl

theorem off6_row (c : Dev nD) (i : Fin 16) :
    k0_off6 c (wd i) 0 = (2048 * (c.val / 8) + 64 * i.val + 5120) - (4096 * ((c.val / 4) % 2) + 1024 * ((c.val % 4) % 2)) := by
  rw [show k0_off6 c (wd i) = _ from k0_off6_eq c i]; rfl

/-- The fourth quarter's rows, whoever writes them. -/
theorem qOff_row (c : Dev nD) (i : Fin 16) :
    qOff c i 0 = (64 * i.val + 7168) - (4096 * ((c.val / 4) % 2) + 2048 * (c.val / 8) + 1024 * ((c.val % 4) % 2)) := by
  unfold qOff; split
  · rw [off6_row, xP_val]; by_dev c
  · rw [off5_row, zP_val]; by_dev c

/-! ## The input, the chunks and the own half, index by index -/

/-- Device `d`'s input block. -/
def inp (d : Dev nD) : S4096x2048.Idx → Elt F .f32 := m ((d : Thread nD τ).loc main_arg0)

omit [FloatOps F] in
theorem inp_congr (s : Dev nD) {a a' : Fin 4096} {b b' : Fin 2048} (ha : a.val = a'.val) (hb : b.val = b'.val) :
    inp m s (ix2 a b) = inp m s (ix2 a' b') := by
  rw [Fin.ext ha, Fin.ext hb]

omit [FloatOps F] in
/-- Element `(r, col)` of the chunk device `d` loads as its `i`-th. -/
theorem chunk_inp (d : Dev nD) (i : Fin 16) (r : Fin 64) (col : Fin 1024) :
    chunk m d i (ix2 r col)
      = inp m d (ix2 (⟨2048 * (d.val / 8) + 1024 * ((d.val % 4) % 2) + 64 * i.val + r.val, by
            have := (show d.val < 16 from d.isLt); have := i.isLt; have := r.isLt; omega⟩ : Fin 4096)
          (⟨1024 - 1024 * ((d.val / 4) % 2) + col.val, by have := col.isLt; omega⟩ : Fin 2048)) := by
  unfold chunk inp
  rw [View.read_apply, cast_eq]
  congr 1
  funext a
  apply Fin.ext
  match a with
  | ⟨0, _⟩ =>
    show (k0_off1 d (wd i)) 0 + 1 * r.val = 2048 * (d.val / 8) + 1024 * ((d.val % 4) % 2) + 64 * i.val + r.val
    rw [show k0_off1 d (wd i) = _ from k0_off1_eq d i]
    show (2048 * (d.val / 8) + 1024 * ((d.val % 4) % 2) + 64 * i.val) + 1 * r.val = _
    omega
  | ⟨1, _⟩ =>
    show (k0_off1 d (wd i)) 1 + 1 * col.val = 1024 - 1024 * ((d.val / 4) % 2) + col.val
    rw [show k0_off1 d (wd i) = _ from k0_off1_eq d i]
    show (1024 - 1024 * ((d.val / 4) % 2)) + 1 * col.val = _
    omega

omit [FloatOps F] in
/-- The same, with the input written out. -/
theorem chunk_apply (d : Dev nD) (i : Fin 16) (r : Fin 64) (col : Fin 1024) :
    chunk m d i (ix2 r col)
      = (m ((d : Thread nD τ).loc main_arg0) : S4096x2048.Idx → Elt F .f32)
          (ix2 (⟨2048 * (d.val / 8) + 1024 * ((d.val % 4) % 2) + 64 * i.val + r.val, by
            have := (show d.val < 16 from d.isLt); have := i.isLt; have := r.isLt; omega⟩ : Fin 4096)
          (⟨1024 - 1024 * ((d.val / 4) % 2) + col.val, by have := col.isLt; omega⟩ : Fin 2048)) :=
  chunk_inp m d i r col

omit [FloatOps F] in
/-- Element `(R, col)` of a device's own half. -/
theorem own_inp (c : Dev nD) (R : Fin 4096) (col : Fin 1024) :
    ownHalf m c (ix2 R col)
      = inp m c (ix2 R (⟨1024 * ((c.val / 4) % 2) + col.val, by have := col.isLt; omega⟩ : Fin 2048)) := by
  unfold ownHalf inp
  rw [View.read_apply, cast_eq]
  congr 1
  funext a
  apply Fin.ext
  match a with
  | ⟨0, _⟩ =>
    show (k0_off2 c) 0 + 1 * R.val = R.val
    rw [k0_off2_eq]
    show 0 + 1 * R.val = _
    omega
  | ⟨1, _⟩ =>
    show (k0_off2 c) 1 + 1 * col.val = 1024 * ((c.val / 4) % 2) + col.val
    rw [k0_off2_eq]
    show 1024 * ((c.val / 4) % 2) + 1 * col.val = _
    omega

/-! ## The result, index by index -/

omit [FloatOps F] in
/-- A property of every index of a window holds of every element under it. -/
theorem forall_mem_set_of_emb {sg : RefSig} {κ : Kind} {sp : Space} {S : Shape} {e : EltTy} (w : View sg κ sp S e)
    (P : w.ty.Idx → Prop) (h : ∀ y, P (w.emb y)) : ∀ j ∈ w.set, P j := by
  intro j hj
  obtain ⟨y, rfl⟩ := View.exists_emb_of_mem_set w hj
  exact h y

omit [FloatOps F] in
/-- The result at a row whose source device is known. -/
theorem outC_at (c s : Dev nD) (j : S8192x1024.Idx) (hs : srcOf c (j 0).val = s) :
    outC m c j = inp m s (ix2 (⟨(j 0).val % 4096, Nat.mod_lt _ (by decide)⟩ : Fin 4096)
      (⟨(1024 * yOf c + (j 1).val) % 2048, Nat.mod_lt _ (by decide)⟩ : Fin 2048)) := by
  subst hs; rfl

omit [FloatOps F] in
/-- Chunk `i` of a device `s` across `y`, stored at 64 aligned rows that the result reads from `s` at the chunk's
    own rows, is the result there. -/
theorem row_out_core (c s : Dev nD) (i : Fin 16) (off : Fin 2 → Nat) (h : ∀ a, off a + S64x1024.size a ≤ S8192x1024.size a)
    (h0 : off 0 % 64 = 0) (h1 : off 1 = 0)
    (hsrc : ∀ r : ℕ, r < 64 → srcOf c (off 0 + r) = s)
    (hrow : ∀ r : ℕ, r < 64 → (off 0 + r) % 4096 = 2048 * (s.val / 8) + 1024 * ((s.val % 4) % 2) + 64 * i.val + r)
    (hcol : 1024 - 1024 * ((s.val / 4) % 2) = 1024 * yOf c) :
    ∀ j ∈ (oRow off h).view.set, rowBuf (chunk m s i) j = outC m c j := by
  refine forall_mem_set_of_emb (oRow off h).view (fun j => rowBuf (chunk m s i) j = outC m c j) fun x => ?_
  rw [rowBuf_at off h h0 h1]
  obtain ⟨r, col, rfl⟩ : ∃ r col, x = ix2 r col := ⟨x 0, x 1, Idealize.ShloMosaic.ValueIdx.eq_ix2 x⟩
  have e0 : (((oRow off h).view.emb (ix2 r col)) 0).val = off 0 + r.val := by
    show off 0 + 1 * r.val = _; omega
  have e1 : (((oRow off h).view.emb (ix2 r col)) 1).val = col.val := by
    show off 1 + 1 * col.val = _; omega
  rw [chunk_inp, outC_at m c s _ (by rw [e0]; exact hsrc r.val r.isLt)]
  refine inp_congr m s ?_ ?_
  · show 2048 * (s.val / 8) + 1024 * ((s.val % 4) % 2) + 64 * i.val + r.val = (((oRow off h).view.emb (ix2 r col)) 0).val % 4096
    rw [e0, hrow r.val r.isLt]
  · show 1024 - 1024 * ((s.val / 4) % 2) + col.val = (1024 * yOf c + (((oRow off h).view.emb (ix2 r col)) 1).val) % 2048
    rw [e1, hcol]
    have hy : yOf c ≤ 1 := by unfold yOf; omega
    have := col.isLt
    omega

omit [FloatOps F] in
/-- The source device of a row in the other half, as a number. -/
theorem srcOf_val_ne (c : Dev nD) (R : ℕ) (h : R / 4096 ≠ (c.val / 4) % 2) :
    (srcOf c R).val = (8 * ((((R % 4096) / 1024) / 2) % 2) + 4 * (1 - (c.val / 4) % 2) + 2 * ((c.val % 4) / 2) + ((R % 4096) / 1024) % 2) % 16 := by
  unfold srcOf yOf; rw [if_neg h]; rfl

omit [FloatOps F] in
/-- The quarter a device loads itself, stored on its `y` partner. -/
theorem rowY_out (c : Dev nD) (i : Fin 16) :
    ∀ j ∈ (oRowY c i).view.set, rowBuf (chunk m (yP c) i) j = outC m c j := by
  have hi := i.isLt
  refine row_out_core m c (yP c) i _ _ (off4_al c i).1 (off4_al c i).2 ?_ ?_ ?_
  · intro r hr
    have hne : (k0_off4 c (wd i) 0 + r) / 4096 ≠ (c.val / 4) % 2 := by rw [off4_row]; by_dev c
    apply Fin.ext
    rw [srcOf_val_ne c _ hne, off4_row, yP_val]
    by_dev c
  · intro r hr
    rw [off4_row, yP_val]; by_dev c
  · unfold yOf; rw [yP_val]; by_dev c

omit [FloatOps F] in
/-- The quarter that came on through the `x` partner. -/
theorem rowX_out (c : Dev nD) (i : Fin 16) :
    ∀ j ∈ (oRowX c i).view.set, rowBuf (chunk m (yP (xP c)) i) j = outC m c j := by
  have hi := i.isLt
  refine row_out_core m c (yP (xP c)) i _ _ (off5_al c i).1 (off5_al c i).2 ?_ ?_ ?_
  · intro r hr
    have hne : (k0_off5 c (wd i) 0 + r) / 4096 ≠ (c.val / 4) % 2 := by rw [off5_row]; by_dev c
    apply Fin.ext
    rw [srcOf_val_ne c _ hne, off5_row, yP_val, xP_val]
    by_dev c
  · intro r hr
    rw [off5_row, yP_val, xP_val]; by_dev c
  · unfold yOf; rw [yP_val, xP_val]; by_dev c

omit [FloatOps F] in
/-- The quarter that came on through the `z` partner. -/
theorem rowZ_out (c : Dev nD) (i : Fin 16) :
    ∀ j ∈ (oRowZ c i).view.set, rowBuf (chunk m (yP (zP c)) i) j = outC m c j := by
  have hi := i.isLt
  refine row_out_core m c (yP (zP c)) i _ _ (off6_al c i).1 (off6_al c i).2 ?_ ?_ ?_
  · intro r hr
    have hne : (k0_off6 c (wd i) 0 + r) / 4096 ≠ (c.val / 4) % 2 := by rw [off6_row]; by_dev c
    apply Fin.ext
    rw [srcOf_val_ne c _ hne, off6_row, yP_val, zP_val]
    by_dev c
  · intro r hr
    rw [off6_row, yP_val, zP_val]; by_dev c
  · unfold yOf; rw [yP_val, zP_val]; by_dev c

omit [FloatOps F] in
/-- The fourth quarter, written by a partner. -/
theorem rowQ_out (c : Dev nD) (i : Fin 16) :
    ∀ j ∈ (oRowQ c i).view.set, rowBuf (chunk m (yP (xP (zP c))) i) j = outC m c j := by
  have hi := i.isLt
  refine row_out_core m c (yP (xP (zP c))) i _ _ (qOff_al c i).1 (qOff_al c i).2 ?_ ?_ ?_
  · intro r hr
    have hne : (qOff c i 0 + r) / 4096 ≠ (c.val / 4) % 2 := by rw [qOff_row]; by_dev c
    apply Fin.ext
    rw [srcOf_val_ne c _ hne, qOff_row, yP_val, xP_val, zP_val]
    by_dev c
  · intro r hr
    rw [qOff_row, yP_val, xP_val, zP_val]; by_dev c
  · unfold yOf; rw [yP_val, xP_val, zP_val]; by_dev c

omit [FloatOps F] in
/-- The own half, as the local copy leaves it. -/
theorem own_out (c : Dev nD) (fd : (oOwn c).view.ty.Contents (Elt F)) :
    ∀ j ∈ (oOwn c).view.set, (oOwn c).view.write (Elt F) fd (ownHalf m c) Finset.univ j = outC m c j := by
  refine write_univ_eq_of_emb (oOwn c).view fd (outC m c) (ownHalf m c) fun y => ?_
  refine (?_ : _ = ownHalf m c y).trans (cast_eq _ _).symm
  obtain ⟨R, col, rfl⟩ : ∃ R col, y = ix2 R col := ⟨y 0, y 1, Idealize.ShloMosaic.ValueIdx.eq_ix2 y⟩
  have hR := R.isLt
  have hcol := col.isLt
  have e0 : (((oOwn c).view.emb (ix2 R col)) 0).val = 4096 * ((c.val / 4) % 2) + R.val := by
    show (k0_off3 c) 0 + 1 * R.val = _
    rw [k0_off3_eq]
    show 4096 * ((c.val / 4) % 2) + 1 * R.val = _
    omega
  have e1 : (((oOwn c).view.emb (ix2 R col)) 1).val = col.val := by
    show (k0_off3 c) 1 + 1 * col.val = _
    rw [k0_off3_eq]
    show 0 + 1 * col.val = _
    omega
  rw [own_inp, outC_at m c c _ (by rw [e0]; unfold srcOf yOf; rw [if_pos (by omega)])]
  refine inp_congr m c ?_ ?_
  · show (((oOwn c).view.emb (ix2 R col)) 0).val % 4096 = R.val
    rw [e0]; omega
  · show (1024 * yOf c + (((oOwn c).view.emb (ix2 R col)) 1).val) % 2048 = 1024 * ((c.val / 4) % 2) + col.val
    rw [e1]; unfold yOf; omega

/-! ## The 65 pieces: which rows each covers -/

/-- A 64-row window at column 0 holds exactly the elements whose row lies in its 64 rows. -/
theorem mem_oRow (off : Fin 2 → Nat) (h : ∀ a, off a + S64x1024.size a ≤ S8192x1024.size a) (h1 : off 1 = 0)
    (j : S8192x1024.Idx) : j ∈ (oRow off h).view.set ↔ off 0 ≤ (j 0).val ∧ (j 0).val < off 0 + 64 := by
  show j ∈ ((View.whole main_v1).slice (Rect.unit (s := S8192x1024) off S64x1024.size h)).set ↔ _
  rw [View.set_slice_whole, Rect.mem_set_unit]
  constructor
  · intro H; exact H 0
  · intro H a
    match a with
    | ⟨0, _⟩ => exact H
    | ⟨1, _⟩ =>
      have := Idealize.ShloMosaic.ValueIdx.idx2_lt1 j
      show off 1 ≤ (j 1).val ∧ (j 1).val < off 1 + 1024
      omega

abbrev Kown (c : Dev nD) : Finset S8192x1024.Idx := (oOwn c).view.set
abbrev KY (c : Dev nD) (i : Fin 16) : Finset S8192x1024.Idx := (oRowY c i).view.set
abbrev KX (c : Dev nD) (i : Fin 16) : Finset S8192x1024.Idx := (oRowX c i).view.set
abbrev KZ (c : Dev nD) (i : Fin 16) : Finset S8192x1024.Idx := (oRowZ c i).view.set
abbrev KQ (c : Dev nD) (i : Fin 16) : Finset S8192x1024.Idx := (oRowQ c i).view.set
/-- The four chunks numbered `i`. -/
abbrev K4 (c : Dev nD) (i : Fin 16) : Finset S8192x1024.Idx := KY c i ∪ (KX c i ∪ (KZ c i ∪ KQ c i))

/-- The own half: the 4096 rows of the device's own `y` coordinate. -/
theorem mem_Kown (c : Dev nD) (j : S8192x1024.Idx) :
    j ∈ Kown c ↔ 4096 * ((c.val / 4) % 2) ≤ (j 0).val ∧ (j 0).val < 4096 * ((c.val / 4) % 2) + 4096 := by
  show j ∈ ((View.whole main_v1).slice (Rect.unit (s := S8192x1024) (k0_off3 c) S4096x1024.size (k0_off3_inb c))).set ↔ _
  rw [View.set_slice_whole, Rect.mem_set_unit, k0_off3_eq]
  constructor
  · intro H; exact H 0
  · intro H a
    match a with
    | ⟨0, _⟩ => exact H
    | ⟨1, _⟩ =>
      have := Idealize.ShloMosaic.ValueIdx.idx2_lt1 j
      refine ⟨Nat.zero_le _, ?_⟩
      show (j 1).val < 0 + 1024
      omega

theorem mem_KY (c : Dev nD) (i : Fin 16) (j : S8192x1024.Idx) :
    j ∈ KY c i ↔ ((2048 * (c.val / 8) + 1024 * ((c.val % 4) % 2) + 64 * i.val + 4096) - 4096 * ((c.val / 4) % 2) ≤ (j 0).val ∧ (j 0).val < (2048 * (c.val / 8) + 1024 * ((c.val % 4) % 2) + 64 * i.val + 4096) - 4096 * ((c.val / 4) % 2) + 64) := by
  have e := mem_oRow (k0_off4 c (wd i)) (k0_off4_inb c i) (off4_al c i).2 j
  rw [off4_row] at e
  exact e

theorem mem_KX (c : Dev nD) (i : Fin 16) (j : S8192x1024.Idx) :
    j ∈ KX c i ↔ ((1024 * ((c.val % 4) % 2) + 64 * i.val + 6144) - (4096 * ((c.val / 4) % 2) + 2048 * (c.val / 8)) ≤ (j 0).val ∧ (j 0).val < (1024 * ((c.val % 4) % 2) + 64 * i.val + 6144) - (4096 * ((c.val / 4) % 2) + 2048 * (c.val / 8)) + 64) := by
  have e := mem_oRow (k0_off5 c (wd i)) (k0_off5_inb c i) (off5_al c i).2 j
  rw [off5_row] at e
  exact e

theorem mem_KZ (c : Dev nD) (i : Fin 16) (j : S8192x1024.Idx) :
    j ∈ KZ c i ↔ ((2048 * (c.val / 8) + 64 * i.val + 5120) - (4096 * ((c.val / 4) % 2) + 1024 * ((c.val % 4) % 2)) ≤ (j 0).val ∧ (j 0).val < (2048 * (c.val / 8) + 64 * i.val + 5120) - (4096 * ((c.val / 4) % 2) + 1024 * ((c.val % 4) % 2)) + 64) := by
  have e := mem_oRow (k0_off6 c (wd i)) (k0_off6_inb c i) (off6_al c i).2 j
  rw [off6_row] at e
  exact e

theorem mem_KQ (c : Dev nD) (i : Fin 16) (j : S8192x1024.Idx) :
    j ∈ KQ c i ↔ ((64 * i.val + 7168) - (4096 * ((c.val / 4) % 2) + 2048 * (c.val / 8) + 1024 * ((c.val % 4) % 2)) ≤ (j 0).val ∧ (j 0).val < (64 * i.val + 7168) - (4096 * ((c.val / 4) % 2) + 2048 * (c.val / 8) + 1024 * ((c.val % 4) % 2)) + 64) := by
  have e := mem_oRow (qOff c i) (qOff_inb c i) (qOff_al c i).2 j
  rw [qOff_row] at e
  exact e

theorem mem_K4 (c : Dev nD) (i : Fin 16) (j : S8192x1024.Idx) :
    j ∈ K4 c i ↔ ((2048 * (c.val / 8) + 1024 * ((c.val % 4) % 2) + 64 * i.val + 4096) - 4096 * ((c.val / 4) % 2) ≤ (j 0).val ∧ (j 0).val < (2048 * (c.val / 8) + 1024 * ((c.val % 4) % 2) + 64 * i.val + 4096) - 4096 * ((c.val / 4) % 2) + 64) ∨ ((1024 * ((c.val % 4) % 2) + 64 * i.val + 6144) - (4096 * ((c.val / 4) % 2) + 2048 * (c.val / 8)) ≤ (j 0).val ∧ (j 0).val < (1024 * ((c.val % 4) % 2) + 64 * i.val + 6144) - (4096 * ((c.val / 4) % 2) + 2048 * (c.val / 8)) + 64) ∨ ((2048 * (c.val / 8) + 64 * i.val + 5120) - (4096 * ((c.val / 4) % 2) + 1024 * ((c.val % 4) % 2)) ≤ (j 0).val ∧ (j 0).val < (2048 * (c.val / 8) + 64 * i.val + 5120) - (4096 * ((c.val / 4) % 2) + 1024 * ((c.val % 4) % 2)) + 64) ∨ ((64 * i.val + 7168) - (4096 * ((c.val / 4) % 2) + 2048 * (c.val / 8) + 1024 * ((c.val % 4) % 2)) ≤ (j 0).val ∧ (j 0).val < (64 * i.val + 7168) - (4096 * ((c.val / 4) % 2) + 2048 * (c.val / 8) + 1024 * ((c.val % 4) % 2)) + 64) := by
  rw [Finset.mem_union, Finset.mem_union, Finset.mem_union, mem_KY, mem_KX, mem_KZ, mem_KQ]

/-! ## Pairwise disjoint, and all of the result -/

theorem disj_ZQ (c : Dev nD) (i : Fin 16) : Disjoint (KZ c i) (KQ c i) := by
  rw [Finset.disjoint_left]; intro j hj hj'
  rw [mem_KZ] at hj; rw [mem_KQ] at hj'
  have hi := i.isLt
  revert hj hj'; by_dev c

theorem disj_X_ZQ (c : Dev nD) (i : Fin 16) : Disjoint (KX c i) (KZ c i ∪ KQ c i) := by
  rw [Finset.disjoint_left]; intro j hj hj'
  rw [mem_KX] at hj; rw [Finset.mem_union, mem_KZ, mem_KQ] at hj'
  have hi := i.isLt
  revert hj hj'; by_dev c

theorem disj_Y_XZQ (c : Dev nD) (i : Fin 16) : Disjoint (KY c i) (KX c i ∪ (KZ c i ∪ KQ c i)) := by
  rw [Finset.disjoint_left]; intro j hj hj'
  rw [mem_KY] at hj; rw [Finset.mem_union, Finset.mem_union, mem_KX, mem_KZ, mem_KQ] at hj'
  have hi := i.isLt
  revert hj hj'; by_dev c

theorem disj_K4 (c : Dev nD) :
    ∀ i ∈ (Finset.univ : Finset (Fin 16)), ∀ i' ∈ (Finset.univ : Finset (Fin 16)), i ≠ i' → Disjoint (K4 c i) (K4 c i') := by
  intro i _ i' _ hne
  rw [Finset.disjoint_left]; intro j hj hj'
  rw [mem_K4] at hj hj'
  have hi := i.isLt
  have hi' := i'.isLt
  have hv : i.val ≠ i'.val := fun e => hne (Fin.ext e)
  revert hj hj'; by_dev c

theorem disj_own (c : Dev nD) : Disjoint (Kown c) (Finset.univ.biUnion (K4 c)) := by
  rw [Finset.disjoint_left]; intro j hj hj'
  obtain ⟨i, -, hi4⟩ := Finset.mem_biUnion.mp hj'
  rw [mem_Kown] at hj; rw [mem_K4] at hi4
  have hi := i.isLt
  revert hj hi4; by_dev c

theorem cover (c : Dev nD) : Kown c ∪ Finset.univ.biUnion (K4 c) = Finset.univ := by
  refine Finset.eq_univ_of_forall fun j => ?_
  have hR : (j 0).val < 8192 := Idealize.ShloMosaic.ValueIdx.idx2_lt0 j
  by_cases hq : (j 0).val / 4096 = (c.val / 4) % 2
  · exact Finset.mem_union_left _ ((mem_Kown c j).mpr (by omega))
  · have hk : ((j 0).val % 1024) / 64 < 16 := by omega
    refine Finset.mem_union_right _ (Finset.mem_biUnion.mpr ⟨⟨((j 0).val % 1024) / 64, hk⟩, Finset.mem_univ _, (mem_K4 c _ j).mpr ?_⟩)
    dsimp only
    revert hq; by_dev c

/-! ## Splitting the result into its pieces, and joining them back -/

omit [FloatOps F] in
theorem eq_of_equiv {P Q : sProp 𝕄} (h : P ⊣⊢ Q) : P = Q := equiv_iff.mp ⟨h.1, h.2⟩

omit [FloatOps F] in
theorem sep_assoc_eq (P Q R : sProp 𝕄) : (iprop((P ∗ Q) ∗ R) : sProp 𝕄) = iprop(P ∗ Q ∗ R) := eq_of_equiv sep_assoc

omit [FloatOps F] in
/-- One assertion and sixteen groups of four, as one chain in order. -/
theorem chain16 (A : sProp 𝕄) (Y X Z Q : Fin 16 → sProp 𝕄) :
    (iprop(A ∗ bigSep Finset.univ (fun i : Fin 16 => iprop(Y i ∗ X i ∗ Z i ∗ Q i))) : sProp 𝕄)
      = iprop(A
        ∗ Y 0 ∗ X 0 ∗ Z 0 ∗ Q 0
        ∗ Y 1 ∗ X 1 ∗ Z 1 ∗ Q 1
        ∗ Y 2 ∗ X 2 ∗ Z 2 ∗ Q 2
        ∗ Y 3 ∗ X 3 ∗ Z 3 ∗ Q 3
        ∗ Y 4 ∗ X 4 ∗ Z 4 ∗ Q 4
        ∗ Y 5 ∗ X 5 ∗ Z 5 ∗ Q 5
        ∗ Y 6 ∗ X 6 ∗ Z 6 ∗ Q 6
        ∗ Y 7 ∗ X 7 ∗ Z 7 ∗ Q 7
        ∗ Y 8 ∗ X 8 ∗ Z 8 ∗ Q 8
        ∗ Y 9 ∗ X 9 ∗ Z 9 ∗ Q 9
        ∗ Y 10 ∗ X 10 ∗ Z 10 ∗ Q 10
        ∗ Y 11 ∗ X 11 ∗ Z 11 ∗ Q 11
        ∗ Y 12 ∗ X 12 ∗ Z 12 ∗ Q 12
        ∗ Y 13 ∗ X 13 ∗ Z 13 ∗ Q 13
        ∗ Y 14 ∗ X 14 ∗ Z 14 ∗ Q 14
        ∗ Y 15 ∗ X 15 ∗ Z 15 ∗ Q 15) := by
  rw [bigSep_univ_eq_bigSepL ([0, 1, 2, 3, 4, 5, 6, 7, 8, 9, 10, 11, 12, 13, 14, 15] : List (Fin 16)) (by decide) (by decide)]
  show (iprop(A
        ∗ (Y 0 ∗ X 0 ∗ Z 0 ∗ Q 0)
        ∗ (Y 1 ∗ X 1 ∗ Z 1 ∗ Q 1)
        ∗ (Y 2 ∗ X 2 ∗ Z 2 ∗ Q 2)
        ∗ (Y 3 ∗ X 3 ∗ Z 3 ∗ Q 3)
        ∗ (Y 4 ∗ X 4 ∗ Z 4 ∗ Q 4)
        ∗ (Y 5 ∗ X 5 ∗ Z 5 ∗ Q 5)
        ∗ (Y 6 ∗ X 6 ∗ Z 6 ∗ Q 6)
        ∗ (Y 7 ∗ X 7 ∗ Z 7 ∗ Q 7)
        ∗ (Y 8 ∗ X 8 ∗ Z 8 ∗ Q 8)
        ∗ (Y 9 ∗ X 9 ∗ Z 9 ∗ Q 9)
        ∗ (Y 10 ∗ X 10 ∗ Z 10 ∗ Q 10)
        ∗ (Y 11 ∗ X 11 ∗ Z 11 ∗ Q 11)
        ∗ (Y 12 ∗ X 12 ∗ Z 12 ∗ Q 12)
        ∗ (Y 13 ∗ X 13 ∗ Z 13 ∗ Q 13)
        ∗ (Y 14 ∗ X 14 ∗ Z 14 ∗ Q 14)
        ∗ (Y 15 ∗ X 15 ∗ Z 15 ∗ Q 15)) : sProp 𝕄) = _
  simp only [sep_assoc_eq]

omit [FloatOps F] in
/-- The own half and the sixty-four chunks, all at one valuation, are the whole result at it. -/
theorem pieces_eq (c : Dev nD) (g : Buf (Elt F) ((c : Thread nD τ).loc main_v1)) :
    (iprop((((c : Thread nD τ).loc main_v1) ↦[Kown c]{fullShare} g)
      ∗ bigSep Finset.univ (fun i : Fin 16 => iprop((((c : Thread nD τ).loc main_v1) ↦[KY c i]{fullShare} g) ∗ (((c : Thread nD τ).loc main_v1) ↦[KX c i]{fullShare} g)
          ∗ (((c : Thread nD τ).loc main_v1) ↦[KZ c i]{fullShare} g) ∗ (((c : Thread nD τ).loc main_v1) ↦[KQ c i]{fullShare} g)))) : sProp 𝕄)
      = (((c : Thread nD τ).loc main_v1) ↦[Finset.univ]{fullShare} g) := by
  have e4 : ∀ i : Fin 16, (iprop((((c : Thread nD τ).loc main_v1) ↦[KY c i]{fullShare} g) ∗ (((c : Thread nD τ).loc main_v1) ↦[KX c i]{fullShare} g)
          ∗ (((c : Thread nD τ).loc main_v1) ↦[KZ c i]{fullShare} g) ∗ (((c : Thread nD τ).loc main_v1) ↦[KQ c i]{fullShare} g)) : sProp 𝕄)
        = (((c : Thread nD τ).loc main_v1) ↦[K4 c i]{fullShare} g) := fun i => by
    rw [← eq_of_equiv (pointsTo_union (ℓ := ((c : Thread nD τ).loc main_v1)) (q := fullShare) (f := g) (disj_ZQ c i)),
      ← eq_of_equiv (pointsTo_union (ℓ := ((c : Thread nD τ).loc main_v1)) (q := fullShare) (f := g) (disj_X_ZQ c i)),
      ← eq_of_equiv (pointsTo_union (ℓ := ((c : Thread nD τ).loc main_v1)) (q := fullShare) (f := g) (disj_Y_XZQ c i))]
  rw [bigSep_congr (fun i _ => e4 i),
    ← pointsTo_biUnion (ℓ := ((c : Thread nD τ).loc main_v1)) (q := fullShare) (f := g) Finset.univ (K4 c) (disj_K4 c),
    ← eq_of_equiv (pointsTo_union (ℓ := ((c : Thread nD τ).loc main_v1)) (q := fullShare) (f := g) (disj_own c)),
    cover c]

omit [FloatOps F] in
/-- The result held whole at `fo` is its own half and its sixty-four chunks at `fo`. -/
theorem res_split_eq (c : Dev nD) (fo : S8192x1024.Idx → Elt F .f32) :
    (resPts (F := F) c fo : sProp 𝕄)
      = iprop(((oOwn c).view.loc (c : Thread nD τ) ↦[(oOwn c).view.set]{fullShare} fo)
        ∗ bigSep Finset.univ (fun i : Fin 16 => iprop(
            ((oRowY c i).view.loc (c : Thread nD τ) ↦[(oRowY c i).view.set]{fullShare} fo)
          ∗ ((oRowX c i).view.loc (c : Thread nD τ) ↦[(oRowX c i).view.set]{fullShare} fo)
          ∗ ((oRowZ c i).view.loc (c : Thread nD τ) ↦[(oRowZ c i).view.set]{fullShare} fo)
          ∗ ((oRowQ c i).view.loc (c : Thread nD τ) ↦[(oRowQ c i).view.set]{fullShare} fo)))) :=
  (pieces_eq c fo).symm

omit [FloatOps F] in
/-- The way in: the result held whole at `fo` gives its own half and its sixty-four chunks at `fo`. -/
theorem res_split (c : Dev nD) (fo : S8192x1024.Idx → Elt F .f32) :
    resPts (F := F) c fo
      ⊢ iprop(((oOwn c).view.loc (c : Thread nD τ) ↦[(oOwn c).view.set]{fullShare} fo)
        ∗ bigSep Finset.univ (fun i : Fin 16 => iprop(
            ((oRowY c i).view.loc (c : Thread nD τ) ↦[(oRowY c i).view.set]{fullShare} fo)
          ∗ ((oRowX c i).view.loc (c : Thread nD τ) ↦[(oRowX c i).view.set]{fullShare} fo)
          ∗ ((oRowZ c i).view.loc (c : Thread nD τ) ↦[(oRowZ c i).view.set]{fullShare} fo)
          ∗ ((oRowQ c i).view.loc (c : Thread nD τ) ↦[(oRowQ c i).view.set]{fullShare} fo)))) :=
  Entails.of_eq (res_split_eq c fo)

omit [FloatOps F] in
/-- The same as one chain: the own half, then for each `i` in order the four chunks numbered `i`. -/
theorem res_split_chain (c : Dev nD) (fo : S8192x1024.Idx → Elt F .f32) :
    (resPts (F := F) c fo : sProp 𝕄)
      = iprop(((oOwn c).view.loc (c : Thread nD τ) ↦[(oOwn c).view.set]{fullShare} fo)
        ∗ ((oRowY c 0).view.loc (c : Thread nD τ) ↦[(oRowY c 0).view.set]{fullShare} fo)
        ∗ ((oRowX c 0).view.loc (c : Thread nD τ) ↦[(oRowX c 0).view.set]{fullShare} fo)
        ∗ ((oRowZ c 0).view.loc (c : Thread nD τ) ↦[(oRowZ c 0).view.set]{fullShare} fo)
        ∗ ((oRowQ c 0).view.loc (c : Thread nD τ) ↦[(oRowQ c 0).view.set]{fullShare} fo)
        ∗ ((oRowY c 1).view.loc (c : Thread nD τ) ↦[(oRowY c 1).view.set]{fullShare} fo)
        ∗ ((oRowX c 1).view.loc (c : Thread nD τ) ↦[(oRowX c 1).view.set]{fullShare} fo)
        ∗ ((oRowZ c 1).view.loc (c : Thread nD τ) ↦[(oRowZ c 1).view.set]{fullShare} fo)
        ∗ ((oRowQ c 1).view.loc (c : Thread nD τ) ↦[(oRowQ c 1).view.set]{fullShare} fo)
        ∗ ((oRowY c 2).view.loc (c : Thread nD τ) ↦[(oRowY c 2).view.set]{fullShare} fo)
        ∗ ((oRowX c 2).view.loc (c : Thread nD τ) ↦[(oRowX c 2).view.set]{fullShare} fo)
        ∗ ((oRowZ c 2).view.loc (c : Thread nD τ) ↦[(oRowZ c 2).view.set]{fullShare} fo)
        ∗ ((oRowQ c 2).view.loc (c : Thread nD τ) ↦[(oRowQ c 2).view.set]{fullShare} fo)
        ∗ ((oRowY c 3).view.loc (c : Thread nD τ) ↦[(oRowY c 3).view.set]{fullShare} fo)
        ∗ ((oRowX c 3).view.loc (c : Thread nD τ) ↦[(oRowX c 3).view.set]{fullShare} fo)
        ∗ ((oRowZ c 3).view.loc (c : Thread nD τ) ↦[(oRowZ c 3).view.set]{fullShare} fo)
        ∗ ((oRowQ c 3).view.loc (c : Thread nD τ) ↦[(oRowQ c 3).view.set]{fullShare} fo)
        ∗ ((oRowY c 4).view.loc (c : Thread nD τ) ↦[(oRowY c 4).view.set]{fullShare} fo)
        ∗ ((oRowX c 4).view.loc (c : Thread nD τ) ↦[(oRowX c 4).view.set]{fullShare} fo)
        ∗ ((oRowZ c 4).view.loc (c : Thread nD τ) ↦[(oRowZ c 4).view.set]{fullShare} fo)
        ∗ ((oRowQ c 4).view.loc (c : Thread nD τ) ↦[(oRowQ c 4).view.set]{fullShare} fo)
        ∗ ((oRowY c 5).view.loc (c : Thread nD τ) ↦[(oRowY c 5).view.set]{fullShare} fo)
        ∗ ((oRowX c 5).view.loc (c : Thread nD τ) ↦[(oRowX c 5).view.set]{fullShare} fo)
        ∗ ((oRowZ c 5).view.loc (c : Thread nD τ) ↦[(oRowZ c 5).view.set]{fullShare} fo)
        ∗ ((oRowQ c 5).view.loc (c : Thread nD τ) ↦[(oRowQ c 5).view.set]{fullShare} fo)
        ∗ ((oRowY c 6).view.loc (c : Thread nD τ) ↦[(oRowY c 6).view.set]{fullShare} fo)
        ∗ ((oRowX c 6).view.loc (c : Thread nD τ) ↦[(oRowX c 6).view.set]{fullShare} fo)
        ∗ ((oRowZ c 6).view.loc (c : Thread nD τ) ↦[(oRowZ c 6).view.set]{fullShare} fo)
        ∗ ((oRowQ c 6).view.loc (c : Thread nD τ) ↦[(oRowQ c 6).view.set]{fullShare} fo)
        ∗ ((oRowY c 7).view.loc (c : Thread nD τ) ↦[(oRowY c 7).view.set]{fullShare} fo)
        ∗ ((oRowX c 7).view.loc (c : Thread nD τ) ↦[(oRowX c 7).view.set]{fullShare} fo)
        ∗ ((oRowZ c 7).view.loc (c : Thread nD τ) ↦[(oRowZ c 7).view.set]{fullShare} fo)
        ∗ ((oRowQ c 7).view.loc (c : Thread nD τ) ↦[(oRowQ c 7).view.set]{fullShare} fo)
        ∗ ((oRowY c 8).view.loc (c : Thread nD τ) ↦[(oRowY c 8).view.set]{fullShare} fo)
        ∗ ((oRowX c 8).view.loc (c : Thread nD τ) ↦[(oRowX c 8).view.set]{fullShare} fo)
        ∗ ((oRowZ c 8).view.loc (c : Thread nD τ) ↦[(oRowZ c 8).view.set]{fullShare} fo)
        ∗ ((oRowQ c 8).view.loc (c : Thread nD τ) ↦[(oRowQ c 8).view.set]{fullShare} fo)
        ∗ ((oRowY c 9).view.loc (c : Thread nD τ) ↦[(oRowY c 9).view.set]{fullShare} fo)
        ∗ ((oRowX c 9).view.loc (c : Thread nD τ) ↦[(oRowX c 9).view.set]{fullShare} fo)
        ∗ ((oRowZ c 9).view.loc (c : Thread nD τ) ↦[(oRowZ c 9).view.set]{fullShare} fo)
        ∗ ((oRowQ c 9).view.loc (c : Thread nD τ) ↦[(oRowQ c 9).view.set]{fullShare} fo)
        ∗ ((oRowY c 10).view.loc (c : Thread nD τ) ↦[(oRowY c 10).view.set]{fullShare} fo)
        ∗ ((oRowX c 10).view.loc (c : Thread nD τ) ↦[(oRowX c 10).view.set]{fullShare} fo)
        ∗ ((oRowZ c 10).view.loc (c : Thread nD τ) ↦[(oRowZ c 10).view.set]{fullShare} fo)
        ∗ ((oRowQ c 10).view.loc (c : Thread nD τ) ↦[(oRowQ c 10).view.set]{fullShare} fo)
        ∗ ((oRowY c 11).view.loc (c : Thread nD τ) ↦[(oRowY c 11).view.set]{fullShare} fo)
        ∗ ((oRowX c 11).view.loc (c : Thread nD τ) ↦[(oRowX c 11).view.set]{fullShare} fo)
        ∗ ((oRowZ c 11).view.loc (c : Thread nD τ) ↦[(oRowZ c 11).view.set]{fullShare} fo)
        ∗ ((oRowQ c 11).view.loc (c : Thread nD τ) ↦[(oRowQ c 11).view.set]{fullShare} fo)
        ∗ ((oRowY c 12).view.loc (c : Thread nD τ) ↦[(oRowY c 12).view.set]{fullShare} fo)
        ∗ ((oRowX c 12).view.loc (c : Thread nD τ) ↦[(oRowX c 12).view.set]{fullShare} fo)
        ∗ ((oRowZ c 12).view.loc (c : Thread nD τ) ↦[(oRowZ c 12).view.set]{fullShare} fo)
        ∗ ((oRowQ c 12).view.loc (c : Thread nD τ) ↦[(oRowQ c 12).view.set]{fullShare} fo)
        ∗ ((oRowY c 13).view.loc (c : Thread nD τ) ↦[(oRowY c 13).view.set]{fullShare} fo)
        ∗ ((oRowX c 13).view.loc (c : Thread nD τ) ↦[(oRowX c 13).view.set]{fullShare} fo)
        ∗ ((oRowZ c 13).view.loc (c : Thread nD τ) ↦[(oRowZ c 13).view.set]{fullShare} fo)
        ∗ ((oRowQ c 13).view.loc (c : Thread nD τ) ↦[(oRowQ c 13).view.set]{fullShare} fo)
        ∗ ((oRowY c 14).view.loc (c : Thread nD τ) ↦[(oRowY c 14).view.set]{fullShare} fo)
        ∗ ((oRowX c 14).view.loc (c : Thread nD τ) ↦[(oRowX c 14).view.set]{fullShare} fo)
        ∗ ((oRowZ c 14).view.loc (c : Thread nD τ) ↦[(oRowZ c 14).view.set]{fullShare} fo)
        ∗ ((oRowQ c 14).view.loc (c : Thread nD τ) ↦[(oRowQ c 14).view.set]{fullShare} fo)
        ∗ ((oRowY c 15).view.loc (c : Thread nD τ) ↦[(oRowY c 15).view.set]{fullShare} fo)
        ∗ ((oRowX c 15).view.loc (c : Thread nD τ) ↦[(oRowX c 15).view.set]{fullShare} fo)
        ∗ ((oRowZ c 15).view.loc (c : Thread nD τ) ↦[(oRowZ c 15).view.set]{fullShare} fo)
        ∗ ((oRowQ c 15).view.loc (c : Thread nD τ) ↦[(oRowQ c 15).view.set]{fullShare} fo)) :=
  (res_split_eq c fo).trans (chain16 _ (fun i => ((oRowY c i).view.loc (c : Thread nD τ) ↦[(oRowY c i).view.set]{fullShare} fo)) (fun i => ((oRowX c i).view.loc (c : Thread nD τ) ↦[(oRowX c i).view.set]{fullShare} fo))
    (fun i => ((oRowZ c i).view.loc (c : Thread nD τ) ↦[(oRowZ c i).view.set]{fullShare} fo)) (fun i => ((oRowQ c i).view.loc (c : Thread nD τ) ↦[(oRowQ c i).view.set]{fullShare} fo)))

omit [FloatOps F] in
/-- Both ways, as one chain. -/
theorem res_split_chain_iff (c : Dev nD) (fo : S8192x1024.Idx → Elt F .f32) :
    (resPts (F := F) c fo : sProp 𝕄)
      ⊣⊢ iprop(((oOwn c).view.loc (c : Thread nD τ) ↦[(oOwn c).view.set]{fullShare} fo)
        ∗ ((oRowY c 0).view.loc (c : Thread nD τ) ↦[(oRowY c 0).view.set]{fullShare} fo)
        ∗ ((oRowX c 0).view.loc (c : Thread nD τ) ↦[(oRowX c 0).view.set]{fullShare} fo)
        ∗ ((oRowZ c 0).view.loc (c : Thread nD τ) ↦[(oRowZ c 0).view.set]{fullShare} fo)
        ∗ ((oRowQ c 0).view.loc (c : Thread nD τ) ↦[(oRowQ c 0).view.set]{fullShare} fo)
        ∗ ((oRowY c 1).view.loc (c : Thread nD τ) ↦[(oRowY c 1).view.set]{fullShare} fo)
        ∗ ((oRowX c 1).view.loc (c : Thread nD τ) ↦[(oRowX c 1).view.set]{fullShare} fo)
        ∗ ((oRowZ c 1).view.loc (c : Thread nD τ) ↦[(oRowZ c 1).view.set]{fullShare} fo)
        ∗ ((oRowQ c 1).view.loc (c : Thread nD τ) ↦[(oRowQ c 1).view.set]{fullShare} fo)
        ∗ ((oRowY c 2).view.loc (c : Thread nD τ) ↦[(oRowY c 2).view.set]{fullShare} fo)
        ∗ ((oRowX c 2).view.loc (c : Thread nD τ) ↦[(oRowX c 2).view.set]{fullShare} fo)
        ∗ ((oRowZ c 2).view.loc (c : Thread nD τ) ↦[(oRowZ c 2).view.set]{fullShare} fo)
        ∗ ((oRowQ c 2).view.loc (c : Thread nD τ) ↦[(oRowQ c 2).view.set]{fullShare} fo)
        ∗ ((oRowY c 3).view.loc (c : Thread nD τ) ↦[(oRowY c 3).view.set]{fullShare} fo)
        ∗ ((oRowX c 3).view.loc (c : Thread nD τ) ↦[(oRowX c 3).view.set]{fullShare} fo)
        ∗ ((oRowZ c 3).view.loc (c : Thread nD τ) ↦[(oRowZ c 3).view.set]{fullShare} fo)
        ∗ ((oRowQ c 3).view.loc (c : Thread nD τ) ↦[(oRowQ c 3).view.set]{fullShare} fo)
        ∗ ((oRowY c 4).view.loc (c : Thread nD τ) ↦[(oRowY c 4).view.set]{fullShare} fo)
        ∗ ((oRowX c 4).view.loc (c : Thread nD τ) ↦[(oRowX c 4).view.set]{fullShare} fo)
        ∗ ((oRowZ c 4).view.loc (c : Thread nD τ) ↦[(oRowZ c 4).view.set]{fullShare} fo)
        ∗ ((oRowQ c 4).view.loc (c : Thread nD τ) ↦[(oRowQ c 4).view.set]{fullShare} fo)
        ∗ ((oRowY c 5).view.loc (c : Thread nD τ) ↦[(oRowY c 5).view.set]{fullShare} fo)
        ∗ ((oRowX c 5).view.loc (c : Thread nD τ) ↦[(oRowX c 5).view.set]{fullShare} fo)
        ∗ ((oRowZ c 5).view.loc (c : Thread nD τ) ↦[(oRowZ c 5).view.set]{fullShare} fo)
        ∗ ((oRowQ c 5).view.loc (c : Thread nD τ) ↦[(oRowQ c 5).view.set]{fullShare} fo)
        ∗ ((oRowY c 6).view.loc (c : Thread nD τ) ↦[(oRowY c 6).view.set]{fullShare} fo)
        ∗ ((oRowX c 6).view.loc (c : Thread nD τ) ↦[(oRowX c 6).view.set]{fullShare} fo)
        ∗ ((oRowZ c 6).view.loc (c : Thread nD τ) ↦[(oRowZ c 6).view.set]{fullShare} fo)
        ∗ ((oRowQ c 6).view.loc (c : Thread nD τ) ↦[(oRowQ c 6).view.set]{fullShare} fo)
        ∗ ((oRowY c 7).view.loc (c : Thread nD τ) ↦[(oRowY c 7).view.set]{fullShare} fo)
        ∗ ((oRowX c 7).view.loc (c : Thread nD τ) ↦[(oRowX c 7).view.set]{fullShare} fo)
        ∗ ((oRowZ c 7).view.loc (c : Thread nD τ) ↦[(oRowZ c 7).view.set]{fullShare} fo)
        ∗ ((oRowQ c 7).view.loc (c : Thread nD τ) ↦[(oRowQ c 7).view.set]{fullShare} fo)
        ∗ ((oRowY c 8).view.loc (c : Thread nD τ) ↦[(oRowY c 8).view.set]{fullShare} fo)
        ∗ ((oRowX c 8).view.loc (c : Thread nD τ) ↦[(oRowX c 8).view.set]{fullShare} fo)
        ∗ ((oRowZ c 8).view.loc (c : Thread nD τ) ↦[(oRowZ c 8).view.set]{fullShare} fo)
        ∗ ((oRowQ c 8).view.loc (c : Thread nD τ) ↦[(oRowQ c 8).view.set]{fullShare} fo)
        ∗ ((oRowY c 9).view.loc (c : Thread nD τ) ↦[(oRowY c 9).view.set]{fullShare} fo)
        ∗ ((oRowX c 9).view.loc (c : Thread nD τ) ↦[(oRowX c 9).view.set]{fullShare} fo)
        ∗ ((oRowZ c 9).view.loc (c : Thread nD τ) ↦[(oRowZ c 9).view.set]{fullShare} fo)
        ∗ ((oRowQ c 9).view.loc (c : Thread nD τ) ↦[(oRowQ c 9).view.set]{fullShare} fo)
        ∗ ((oRowY c 10).view.loc (c : Thread nD τ) ↦[(oRowY c 10).view.set]{fullShare} fo)
        ∗ ((oRowX c 10).view.loc (c : Thread nD τ) ↦[(oRowX c 10).view.set]{fullShare} fo)
        ∗ ((oRowZ c 10).view.loc (c : Thread nD τ) ↦[(oRowZ c 10).view.set]{fullShare} fo)
        ∗ ((oRowQ c 10).view.loc (c : Thread nD τ) ↦[(oRowQ c 10).view.set]{fullShare} fo)
        ∗ ((oRowY c 11).view.loc (c : Thread nD τ) ↦[(oRowY c 11).view.set]{fullShare} fo)
        ∗ ((oRowX c 11).view.loc (c : Thread nD τ) ↦[(oRowX c 11).view.set]{fullShare} fo)
        ∗ ((oRowZ c 11).view.loc (c : Thread nD τ) ↦[(oRowZ c 11).view.set]{fullShare} fo)
        ∗ ((oRowQ c 11).view.loc (c : Thread nD τ) ↦[(oRowQ c 11).view.set]{fullShare} fo)
        ∗ ((oRowY c 12).view.loc (c : Thread nD τ) ↦[(oRowY c 12).view.set]{fullShare} fo)
        ∗ ((oRowX c 12).view.loc (c : Thread nD τ) ↦[(oRowX c 12).view.set]{fullShare} fo)
        ∗ ((oRowZ c 12).view.loc (c : Thread nD τ) ↦[(oRowZ c 12).view.set]{fullShare} fo)
        ∗ ((oRowQ c 12).view.loc (c : Thread nD τ) ↦[(oRowQ c 12).view.set]{fullShare} fo)
        ∗ ((oRowY c 13).view.loc (c : Thread nD τ) ↦[(oRowY c 13).view.set]{fullShare} fo)
        ∗ ((oRowX c 13).view.loc (c : Thread nD τ) ↦[(oRowX c 13).view.set]{fullShare} fo)
        ∗ ((oRowZ c 13).view.loc (c : Thread nD τ) ↦[(oRowZ c 13).view.set]{fullShare} fo)
        ∗ ((oRowQ c 13).view.loc (c : Thread nD τ) ↦[(oRowQ c 13).view.set]{fullShare} fo)
        ∗ ((oRowY c 14).view.loc (c : Thread nD τ) ↦[(oRowY c 14).view.set]{fullShare} fo)
        ∗ ((oRowX c 14).view.loc (c : Thread nD τ) ↦[(oRowX c 14).view.set]{fullShare} fo)
        ∗ ((oRowZ c 14).view.loc (c : Thread nD τ) ↦[(oRowZ c 14).view.set]{fullShare} fo)
        ∗ ((oRowQ c 14).view.loc (c : Thread nD τ) ↦[(oRowQ c 14).view.set]{fullShare} fo)
        ∗ ((oRowY c 15).view.loc (c : Thread nD τ) ↦[(oRowY c 15).view.set]{fullShare} fo)
        ∗ ((oRowX c 15).view.loc (c : Thread nD τ) ↦[(oRowX c 15).view.set]{fullShare} fo)
        ∗ ((oRowZ c 15).view.loc (c : Thread nD τ) ↦[(oRowZ c 15).view.set]{fullShare} fo)
        ∗ ((oRowQ c 15).view.loc (c : Thread nD τ) ↦[(oRowQ c 15).view.set]{fullShare} fo)) :=
  ⟨Entails.of_eq (res_split_chain c fo), Entails.of_eq (res_split_chain c fo).symm⟩

omit [FloatOps F] in
/-- The own half and the sixty-four chunks, each held at contents that agree with the result on its rows, are
    the result held whole. -/
theorem res_join (c : Dev nD) (fown : S8192x1024.Idx → Elt F .f32)
    (fy fx fz fq : Fin 16 → S8192x1024.Idx → Elt F .f32)
    (hown : ∀ j ∈ (oOwn c).view.set, fown j = outC m c j)
    (hy : ∀ i, ∀ j ∈ (oRowY c i).view.set, fy i j = outC m c j)
    (hx : ∀ i, ∀ j ∈ (oRowX c i).view.set, fx i j = outC m c j)
    (hz : ∀ i, ∀ j ∈ (oRowZ c i).view.set, fz i j = outC m c j)
    (hq : ∀ i, ∀ j ∈ (oRowQ c i).view.set, fq i j = outC m c j) :
    iprop(((oOwn c).view.loc (c : Thread nD τ) ↦[(oOwn c).view.set]{fullShare} fown)
      ∗ bigSep Finset.univ (fun i : Fin 16 => iprop(
            ((oRowY c i).view.loc (c : Thread nD τ) ↦[(oRowY c i).view.set]{fullShare} fy i)
          ∗ ((oRowX c i).view.loc (c : Thread nD τ) ↦[(oRowX c i).view.set]{fullShare} fx i)
          ∗ ((oRowZ c i).view.loc (c : Thread nD τ) ↦[(oRowZ c i).view.set]{fullShare} fz i)
          ∗ ((oRowQ c i).view.loc (c : Thread nD τ) ↦[(oRowQ c i).view.set]{fullShare} fq i))))
      ⊢ (resPts c (outC m c) : sProp 𝕄) := by
  refine Entails.of_eq ?_
  have e : ∀ i : Fin 16, (iprop((((c : Thread nD τ).loc main_v1) ↦[KY c i]{fullShare} fy i) ∗ (((c : Thread nD τ).loc main_v1) ↦[KX c i]{fullShare} fx i)
          ∗ (((c : Thread nD τ).loc main_v1) ↦[KZ c i]{fullShare} fz i) ∗ (((c : Thread nD τ).loc main_v1) ↦[KQ c i]{fullShare} fq i)) : sProp 𝕄)
        = iprop((((c : Thread nD τ).loc main_v1) ↦[KY c i]{fullShare} outC m c) ∗ (((c : Thread nD τ).loc main_v1) ↦[KX c i]{fullShare} outC m c)
          ∗ (((c : Thread nD τ).loc main_v1) ↦[KZ c i]{fullShare} outC m c) ∗ (((c : Thread nD τ).loc main_v1) ↦[KQ c i]{fullShare} outC m c)) := fun i => by
    rw [pointsTo_congr (ℓ := ((c : Thread nD τ).loc main_v1)) (I := KY c i) (q := fullShare) (hy i),
      pointsTo_congr (ℓ := ((c : Thread nD τ).loc main_v1)) (I := KX c i) (q := fullShare) (hx i),
      pointsTo_congr (ℓ := ((c : Thread nD τ).loc main_v1)) (I := KZ c i) (q := fullShare) (hz i),
      pointsTo_congr (ℓ := ((c : Thread nD τ).loc main_v1)) (I := KQ c i) (q := fullShare) (hq i)]
  show (iprop((((c : Thread nD τ).loc main_v1) ↦[Kown c]{fullShare} fown)
      ∗ bigSep Finset.univ (fun i : Fin 16 => iprop((((c : Thread nD τ).loc main_v1) ↦[KY c i]{fullShare} fy i) ∗ (((c : Thread nD τ).loc main_v1) ↦[KX c i]{fullShare} fx i)
          ∗ (((c : Thread nD τ).loc main_v1) ↦[KZ c i]{fullShare} fz i) ∗ (((c : Thread nD τ).loc main_v1) ↦[KQ c i]{fullShare} fq i)))) : sProp 𝕄)
      = (((c : Thread nD τ).loc main_v1) ↦[Finset.univ]{fullShare} outC m c)
  rw [pointsTo_congr (ℓ := ((c : Thread nD τ).loc main_v1)) (I := Kown c) (q := fullShare) hown, bigSep_congr (fun i _ => e i)]
  exact pieces_eq c (outC m c)

omit [FloatOps F] in
/-- The same from one chain in order. -/
theorem res_join_chain (c : Dev nD) (fown : S8192x1024.Idx → Elt F .f32)
    (fy fx fz fq : Fin 16 → S8192x1024.Idx → Elt F .f32)
    (hown : ∀ j ∈ (oOwn c).view.set, fown j = outC m c j)
    (hy : ∀ i, ∀ j ∈ (oRowY c i).view.set, fy i j = outC m c j)
    (hx : ∀ i, ∀ j ∈ (oRowX c i).view.set, fx i j = outC m c j)
    (hz : ∀ i, ∀ j ∈ (oRowZ c i).view.set, fz i j = outC m c j)
    (hq : ∀ i, ∀ j ∈ (oRowQ c i).view.set, fq i j = outC m c j) :
    iprop(((oOwn c).view.loc (c : Thread nD τ) ↦[(oOwn c).view.set]{fullShare} fown)
        ∗ ((oRowY c 0).view.loc (c : Thread nD τ) ↦[(oRowY c 0).view.set]{fullShare} fy 0)
        ∗ ((oRowX c 0).view.loc (c : Thread nD τ) ↦[(oRowX c 0).view.set]{fullShare} fx 0)
        ∗ ((oRowZ c 0).view.loc (c : Thread nD τ) ↦[(oRowZ c 0).view.set]{fullShare} fz 0)
        ∗ ((oRowQ c 0).view.loc (c : Thread nD τ) ↦[(oRowQ c 0).view.set]{fullShare} fq 0)
        ∗ ((oRowY c 1).view.loc (c : Thread nD τ) ↦[(oRowY c 1).view.set]{fullShare} fy 1)
        ∗ ((oRowX c 1).view.loc (c : Thread nD τ) ↦[(oRowX c 1).view.set]{fullShare} fx 1)
        ∗ ((oRowZ c 1).view.loc (c : Thread nD τ) ↦[(oRowZ c 1).view.set]{fullShare} fz 1)
        ∗ ((oRowQ c 1).view.loc (c : Thread nD τ) ↦[(oRowQ c 1).view.set]{fullShare} fq 1)
        ∗ ((oRowY c 2).view.loc (c : Thread nD τ) ↦[(oRowY c 2).view.set]{fullShare} fy 2)
        ∗ ((oRowX c 2).view.loc (c : Thread nD τ) ↦[(oRowX c 2).view.set]{fullShare} fx 2)
        ∗ ((oRowZ c 2).view.loc (c : Thread nD τ) ↦[(oRowZ c 2).view.set]{fullShare} fz 2)
        ∗ ((oRowQ c 2).view.loc (c : Thread nD τ) ↦[(oRowQ c 2).view.set]{fullShare} fq 2)
        ∗ ((oRowY c 3).view.loc (c : Thread nD τ) ↦[(oRowY c 3).view.set]{fullShare} fy 3)
        ∗ ((oRowX c 3).view.loc (c : Thread nD τ) ↦[(oRowX c 3).view.set]{fullShare} fx 3)
        ∗ ((oRowZ c 3).view.loc (c : Thread nD τ) ↦[(oRowZ c 3).view.set]{fullShare} fz 3)
        ∗ ((oRowQ c 3).view.loc (c : Thread nD τ) ↦[(oRowQ c 3).view.set]{fullShare} fq 3)
        ∗ ((oRowY c 4).view.loc (c : Thread nD τ) ↦[(oRowY c 4).view.set]{fullShare} fy 4)
        ∗ ((oRowX c 4).view.loc (c : Thread nD τ) ↦[(oRowX c 4).view.set]{fullShare} fx 4)
        ∗ ((oRowZ c 4).view.loc (c : Thread nD τ) ↦[(oRowZ c 4).view.set]{fullShare} fz 4)
        ∗ ((oRowQ c 4).view.loc (c : Thread nD τ) ↦[(oRowQ c 4).view.set]{fullShare} fq 4)
        ∗ ((oRowY c 5).view.loc (c : Thread nD τ) ↦[(oRowY c 5).view.set]{fullShare} fy 5)
        ∗ ((oRowX c 5).view.loc (c : Thread nD τ) ↦[(oRowX c 5).view.set]{fullShare} fx 5)
        ∗ ((oRowZ c 5).view.loc (c : Thread nD τ) ↦[(oRowZ c 5).view.set]{fullShare} fz 5)
        ∗ ((oRowQ c 5).view.loc (c : Thread nD τ) ↦[(oRowQ c 5).view.set]{fullShare} fq 5)
        ∗ ((oRowY c 6).view.loc (c : Thread nD τ) ↦[(oRowY c 6).view.set]{fullShare} fy 6)
        ∗ ((oRowX c 6).view.loc (c : Thread nD τ) ↦[(oRowX c 6).view.set]{fullShare} fx 6)
        ∗ ((oRowZ c 6).view.loc (c : Thread nD τ) ↦[(oRowZ c 6).view.set]{fullShare} fz 6)
        ∗ ((oRowQ c 6).view.loc (c : Thread nD τ) ↦[(oRowQ c 6).view.set]{fullShare} fq 6)
        ∗ ((oRowY c 7).view.loc (c : Thread nD τ) ↦[(oRowY c 7).view.set]{fullShare} fy 7)
        ∗ ((oRowX c 7).view.loc (c : Thread nD τ) ↦[(oRowX c 7).view.set]{fullShare} fx 7)
        ∗ ((oRowZ c 7).view.loc (c : Thread nD τ) ↦[(oRowZ c 7).view.set]{fullShare} fz 7)
        ∗ ((oRowQ c 7).view.loc (c : Thread nD τ) ↦[(oRowQ c 7).view.set]{fullShare} fq 7)
        ∗ ((oRowY c 8).view.loc (c : Thread nD τ) ↦[(oRowY c 8).view.set]{fullShare} fy 8)
        ∗ ((oRowX c 8).view.loc (c : Thread nD τ) ↦[(oRowX c 8).view.set]{fullShare} fx 8)
        ∗ ((oRowZ c 8).view.loc (c : Thread nD τ) ↦[(oRowZ c 8).view.set]{fullShare} fz 8)
        ∗ ((oRowQ c 8).view.loc (c : Thread nD τ) ↦[(oRowQ c 8).view.set]{fullShare} fq 8)
        ∗ ((oRowY c 9).view.loc (c : Thread nD τ) ↦[(oRowY c 9).view.set]{fullShare} fy 9)
        ∗ ((oRowX c 9).view.loc (c : Thread nD τ) ↦[(oRowX c 9).view.set]{fullShare} fx 9)
        ∗ ((oRowZ c 9).view.loc (c : Thread nD τ) ↦[(oRowZ c 9).view.set]{fullShare} fz 9)
        ∗ ((oRowQ c 9).view.loc (c : Thread nD τ) ↦[(oRowQ c 9).view.set]{fullShare} fq 9)
        ∗ ((oRowY c 10).view.loc (c : Thread nD τ) ↦[(oRowY c 10).view.set]{fullShare} fy 10)
        ∗ ((oRowX c 10).view.loc (c : Thread nD τ) ↦[(oRowX c 10).view.set]{fullShare} fx 10)
        ∗ ((oRowZ c 10).view.loc (c : Thread nD τ) ↦[(oRowZ c 10).view.set]{fullShare} fz 10)
        ∗ ((oRowQ c 10).view.loc (c : Thread nD τ) ↦[(oRowQ c 10).view.set]{fullShare} fq 10)
        ∗ ((oRowY c 11).view.loc (c : Thread nD τ) ↦[(oRowY c 11).view.set]{fullShare} fy 11)
        ∗ ((oRowX c 11).view.loc (c : Thread nD τ) ↦[(oRowX c 11).view.set]{fullShare} fx 11)
        ∗ ((oRowZ c 11).view.loc (c : Thread nD τ) ↦[(oRowZ c 11).view.set]{fullShare} fz 11)
        ∗ ((oRowQ c 11).view.loc (c : Thread nD τ) ↦[(oRowQ c 11).view.set]{fullShare} fq 11)
        ∗ ((oRowY c 12).view.loc (c : Thread nD τ) ↦[(oRowY c 12).view.set]{fullShare} fy 12)
        ∗ ((oRowX c 12).view.loc (c : Thread nD τ) ↦[(oRowX c 12).view.set]{fullShare} fx 12)
        ∗ ((oRowZ c 12).view.loc (c : Thread nD τ) ↦[(oRowZ c 12).view.set]{fullShare} fz 12)
        ∗ ((oRowQ c 12).view.loc (c : Thread nD τ) ↦[(oRowQ c 12).view.set]{fullShare} fq 12)
        ∗ ((oRowY c 13).view.loc (c : Thread nD τ) ↦[(oRowY c 13).view.set]{fullShare} fy 13)
        ∗ ((oRowX c 13).view.loc (c : Thread nD τ) ↦[(oRowX c 13).view.set]{fullShare} fx 13)
        ∗ ((oRowZ c 13).view.loc (c : Thread nD τ) ↦[(oRowZ c 13).view.set]{fullShare} fz 13)
        ∗ ((oRowQ c 13).view.loc (c : Thread nD τ) ↦[(oRowQ c 13).view.set]{fullShare} fq 13)
        ∗ ((oRowY c 14).view.loc (c : Thread nD τ) ↦[(oRowY c 14).view.set]{fullShare} fy 14)
        ∗ ((oRowX c 14).view.loc (c : Thread nD τ) ↦[(oRowX c 14).view.set]{fullShare} fx 14)
        ∗ ((oRowZ c 14).view.loc (c : Thread nD τ) ↦[(oRowZ c 14).view.set]{fullShare} fz 14)
        ∗ ((oRowQ c 14).view.loc (c : Thread nD τ) ↦[(oRowQ c 14).view.set]{fullShare} fq 14)
        ∗ ((oRowY c 15).view.loc (c : Thread nD τ) ↦[(oRowY c 15).view.set]{fullShare} fy 15)
        ∗ ((oRowX c 15).view.loc (c : Thread nD τ) ↦[(oRowX c 15).view.set]{fullShare} fx 15)
        ∗ ((oRowZ c 15).view.loc (c : Thread nD τ) ↦[(oRowZ c 15).view.set]{fullShare} fz 15)
        ∗ ((oRowQ c 15).view.loc (c : Thread nD τ) ↦[(oRowQ c 15).view.set]{fullShare} fq 15))
      ⊢ (resPts c (outC m c) : sProp 𝕄) :=
  (Entails.of_eq (chain16 _ (fun i => ((oRowY c i).view.loc (c : Thread nD τ) ↦[(oRowY c i).view.set]{fullShare} fy i)) (fun i => ((oRowX c i).view.loc (c : Thread nD τ) ↦[(oRowX c i).view.set]{fullShare} fx i))
    (fun i => ((oRowZ c i).view.loc (c : Thread nD τ) ↦[(oRowZ c i).view.set]{fullShare} fz i)) (fun i => ((oRowQ c i).view.loc (c : Thread nD τ) ↦[(oRowQ c i).view.set]{fullShare} fq i))).symm).trans
    (res_join m c fown fy fx fz fq hown hy hx hz hq)

/-! ## What the module rests on -/

/-- info: 'Cert.Kernel.A2A.chunk_apply' depends on axioms: [propext, Classical.choice, Quot.sound] -/
#guard_msgs in #print axioms chunk_apply

/-- info: 'Cert.Kernel.A2A.rowY_out' depends on axioms: [propext, Classical.choice, Quot.sound] -/
#guard_msgs in #print axioms rowY_out

/-- info: 'Cert.Kernel.A2A.rowX_out' depends on axioms: [propext, Classical.choice, Quot.sound] -/
#guard_msgs in #print axioms rowX_out

/-- info: 'Cert.Kernel.A2A.rowZ_out' depends on axioms: [propext, Classical.choice, Quot.sound] -/
#guard_msgs in #print axioms rowZ_out

/-- info: 'Cert.Kernel.A2A.rowQ_out' depends on axioms: [propext, Classical.choice, Quot.sound] -/
#guard_msgs in #print axioms rowQ_out

/-- info: 'Cert.Kernel.A2A.own_out' depends on axioms: [propext, Classical.choice, Quot.sound] -/
#guard_msgs in #print axioms own_out

/-- info: 'Cert.Kernel.A2A.cover' depends on axioms: [propext, Classical.choice, Quot.sound] -/
#guard_msgs in #print axioms cover

/-- info: 'Cert.Kernel.A2A.res_split' depends on axioms: [propext, Classical.choice, Quot.sound] -/
#guard_msgs in #print axioms res_split

/-- info: 'Cert.Kernel.A2A.res_split_chain_iff' depends on axioms: [propext, Classical.choice, Quot.sound] -/
#guard_msgs in #print axioms res_split_chain_iff

/-- info: 'Cert.Kernel.A2A.res_join' depends on axioms: [propext, Classical.choice, Quot.sound] -/
#guard_msgs in #print axioms res_join

/-- info: 'Cert.Kernel.A2A.res_join_chain' depends on axioms: [propext, Classical.choice, Quot.sound] -/
#guard_msgs in #print axioms res_join_chain

end Cert.Kernel.A2A

end
-- ==== Proof.BTables2.lean ====
import proofs.«900640_g7700000000000641_dist_a2a_v7x_xyz2x2x4_y_m4096_n1024_f32_1_alg».proof.Proof.BTables
import proofs.«900640_g7700000000000641_dist_a2a_v7x_xyz2x2x4_y_m4096_n1024_f32_1_alg».proof.Proof.BLanding

/-!
# The schedule's payloads, spelt out

The same payloads as the tables give, written as the points-to assertions themselves, in the two forms in which a
cell's payload is met.

The owner of a cell, waiting on it, receives the payload as the protocol names it: a chunk of a scratch buffer, or
sixty-four rows of the result, at its exact contents, cut into the shares its readers take at once.

The payer of a receive cell, making the copy that lands there, must hand over the landing window as the copy leaves
it: the window it was given at arbitrary contents, overwritten with what it read from its own source. The two are
the same assertion: what was there before is gone from the window, what is read from a buffer that holds the chunk
everywhere is the chunk, and a whole share is its parts. Where a partner's partner is named, it is the device itself.

The barrier cell's payloads are the landing windows a partner offers, one after another.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## A whole share and its parts -/

section Shares
variable {ℓ : Loc nD τ sig} {I : Finset (Idx ℓ)} {f : Buf (Elt F) ℓ}

/-- The whole is the share one reader takes and the rest; -/
theorem share_x_h : ((ℓ ↦[I]{fullShare} f) : sProp 𝕄) = iprop((ℓ ↦[I]{qX} f) ∗ ℓ ↦[I]{qH} f) :=
  have h : ((ℓ ↦[I]{fullShare} f) : sProp 𝕄) ⊣⊢ iprop((ℓ ↦[I]{qX} f) ∗ ℓ ↦[I]{qH} f) :=
    pointsTo_share (PosShare.mem_left_op_right fullShare)
  equiv_iff.mp ⟨h.1, h.2⟩

/-- the rest is the shares of two more readers; -/
theorem share_z_s : ((ℓ ↦[I]{qH} f) : sProp 𝕄) = iprop((ℓ ↦[I]{qZ} f) ∗ ℓ ↦[I]{qS} f) :=
  have h : ((ℓ ↦[I]{qH} f) : sProp 𝕄) ⊣⊢ iprop((ℓ ↦[I]{qZ} f) ∗ ℓ ↦[I]{qS} f) :=
    pointsTo_share (PosShare.mem_left_op_right fullShare.right)
  equiv_iff.mp ⟨h.1, h.2⟩

/-- so the whole is three readers' shares. -/
theorem share_x_z_s : ((ℓ ↦[I]{fullShare} f) : sProp 𝕄) = iprop((ℓ ↦[I]{qX} f) ∗ (ℓ ↦[I]{qZ} f) ∗ ℓ ↦[I]{qS} f) := by
  rw [share_x_h (ℓ := ℓ) (I := I) (f := f), share_z_s (ℓ := ℓ) (I := I) (f := f)]

end Shares

/-- An assertion that does not depend on the witness, under `∃` over an inhabited type, is itself. -/
theorem exists_const_eq {T : Type} (P : T → sProp 𝕄) (Q : sProp 𝕄) (t₀ : T) (h : ∀ t, P t = Q) :
    (iprop(∃ t, P t) : sProp 𝕄) = Q := by
  have h₁ : (iprop(∃ t, P t) : sProp 𝕄) ⊢ Q := by
    iintro ⟨%t, H⟩
    iapply (Entails.of_eq (h t))
    iexact H
  have h₂ : Q ⊢ (iprop(∃ t, P t) : sProp 𝕄) := by
    iintro H
    iexists t₀
    iapply (Entails.of_eq (h t₀).symm)
    iexact H
  exact equiv_iff.mp ⟨h₁, h₂⟩

/-! ## Sixteen chunks, and the even and the odd ones, one after another -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem bigSep_even16 (Φ : Fin 16 → sProp 𝕄) :
    bigSep (Finset.univ.filter fun i : Fin 16 => i.val % 2 = 0) Φ = iprop(Φ 0 ∗ Φ 2 ∗ Φ 4 ∗ Φ 6 ∗ Φ 8 ∗ Φ 10 ∗ Φ 12 ∗ Φ 14) :=
  bigSep_eq_bigSepL_of_eq [0, 2, 4, 6, 8, 10, 12, 14] (by decide) (by decide) Φ

theorem bigSep_odd16 (Φ : Fin 16 → sProp 𝕄) :
    bigSep (Finset.univ.filter fun i : Fin 16 => i.val % 2 = 1) Φ = iprop(Φ 1 ∗ Φ 3 ∗ Φ 5 ∗ Φ 7 ∗ Φ 9 ∗ Φ 11 ∗ Φ 13 ∗ Φ 15) :=
  bigSep_eq_bigSepL_of_eq [1, 3, 5, 7, 9, 11, 13, 15] (by decide) (by decide) Φ

/-! ## Small facts about the mesh and the row windows -/

/-- Across `x`, then `z`, then `x` again is across `z`. -/
private theorem xP_zP_xP (c : Dev nD) : xP (zP (xP c)) = zP c := by revert c; decide

omit [FloatOps F] in
/-- Row windows at equal offsets are the same assertion. -/
private theorem rowPts_off {off off' : Fin 2 → Nat} (e : off = off') (h : ∀ a, off a + S64x1024.size a ≤ S8192x1024.size a)
    (h' : ∀ a, off' a + S64x1024.size a ≤ S8192x1024.size a) (d : Dev nD) (v : Vec F S64x1024 .f32) :
    (rowPts off h d v : sProp 𝕄) = rowPts off' h' d v := by
  subst e; rfl

section Pay
variable (c : Dev nD) (i : Fin 16) (d : Fin 3)

/-! ## The owner's view: what a wait on one's own cell hands over -/

theorem pay_ys_own : (sched (F := F) m).payload (fcell c Fam.ys i) 0 d
    = (((slab sM i).view.loc (c : Thread nD τ)) ↦[(slab sM i).view.set]{fullShare} slabBuf (chunk m c i)) := by
  rw [payload_fam]; rfl

theorem pay_yr_own : (sched (F := F) m).payload (fcell c Fam.yr i) 0 d
    = iprop((((slab rM i).view.loc (c : Thread nD τ)) ↦[(slab rM i).view.set]{qX} slabBuf (chunk m (yP c) i))
        ∗ (((slab rM i).view.loc (c : Thread nD τ)) ↦[(slab rM i).view.set]{qZ} slabBuf (chunk m (yP c) i))
        ∗ (((slab rM i).view.loc (c : Thread nD τ)) ↦[(slab rM i).view.set]{qS} slabBuf (chunk m (yP c) i))) := by
  rw [payload_fam]; rfl

theorem pay_xs_own : (sched (F := F) m).payload (fcell c Fam.xs i) 0 d
    = (((slab rM i).view.loc (c : Thread nD τ)) ↦[(slab rM i).view.set]{qX} slabBuf (chunk m (yP c) i)) := by
  rw [payload_fam]; rfl

theorem pay_xr_own : (sched (F := F) m).payload (fcell c Fam.xr i) 0 d
    = iprop((((slab xrM i).view.loc (c : Thread nD τ)) ↦[(slab xrM i).view.set]{qX} slabBuf (chunk m (yP (xP c)) i))
        ∗ (((slab xrM i).view.loc (c : Thread nD τ)) ↦[(slab xrM i).view.set]{qH} slabBuf (chunk m (yP (xP c)) i))) := by
  rw [payload_fam]; rfl

theorem pay_zs_own : (sched (F := F) m).payload (fcell c Fam.zs i) 0 d
    = (((slab rM i).view.loc (c : Thread nD τ)) ↦[(slab rM i).view.set]{qZ} slabBuf (chunk m (yP c) i)) := by
  rw [payload_fam]; rfl

theorem pay_zr_own : (sched (F := F) m).payload (fcell c Fam.zr i) 0 d
    = iprop((((slab zrM i).view.loc (c : Thread nD τ)) ↦[(slab zrM i).view.set]{qX} slabBuf (chunk m (yP (zP c)) i))
        ∗ (((slab zrM i).view.loc (c : Thread nD τ)) ↦[(slab zrM i).view.set]{qH} slabBuf (chunk m (yP (zP c)) i))) := by
  rw [payload_fam]; rfl

theorem pay_qs_own_even (hi : i.val % 2 = 0) : (sched (F := F) m).payload (fcell c Fam.qs i) 0 d
    = (((slab zrM i).view.loc (c : Thread nD τ)) ↦[(slab zrM i).view.set]{qX} slabBuf (chunk m (yP (zP c)) i)) := by
  rw [payload_fam, famPay_qs_even m c i hi]

theorem pay_qs_own_odd (hi : i.val % 2 = 1) : (sched (F := F) m).payload (fcell c Fam.qs i) 0 d
    = (((slab xrM i).view.loc (c : Thread nD τ)) ↦[(slab xrM i).view.set]{qX} slabBuf (chunk m (yP (xP c)) i)) := by
  rw [payload_fam, famPay_qs_odd m c i (by omega)]

theorem pay_qr_own : (sched (F := F) m).payload (fcell c Fam.qr i) 0 d
    = (((oRow (qOff c i) (qOff_inb c i)).view.loc (c : Thread nD τ)) ↦[(oRow (qOff c i) (qOff_inb c i)).view.set]{fullShare} rowBuf (chunk m (yP (xP (zP c))) i)) := by
  rw [payload_fam]; rfl

/-! ## The payer's view: what the copy that lands in a partner's cell hands over -/

/-- The first hop: the `y` partner's chunk `i`, overwritten with what is read from this device's loaded chunk. -/
theorem pay_yr_paid : (sched (F := F) m).payload (fcell (yP c) Fam.yr i) 0 d
    = iprop(∃ fd, ((slab rM i).view.loc (yP c : Thread nD τ)) ↦[(slab rM i).view.set]{fullShare}
        (slab rM i).view.write (Elt F) fd ((slab sM i).view.read (Elt F) (slabBuf (chunk m c i))) Finset.univ) := by
  rw [payload_fam, famPay_yr, yP_yP]
  refine (exists_const_eq _ _ (slabBuf (chunk m c i)) fun fd => ?_).symm
  rw [slab_read_s, rPts_landed]
  exact share_x_z_s

/-- The second hop across `x`: the `x` partner's chunk `i`, overwritten with what is read from the chunk that came
    from the `y` partner. -/
theorem pay_xr_paid : (sched (F := F) m).payload (fcell (xP c) Fam.xr i) 0 d
    = iprop(∃ fd, ((slab xrM i).view.loc (xP c : Thread nD τ)) ↦[(slab xrM i).view.set]{fullShare}
        (slab xrM i).view.write (Elt F) fd ((slab rM i).view.read (Elt F) (slabBuf (chunk m (yP c) i))) Finset.univ) := by
  rw [payload_fam, famPay_xr, xP_xP]
  refine (exists_const_eq _ _ (slabBuf (chunk m (yP c) i)) fun fd => ?_).symm
  rw [slab_read_r, xrPts_landed]
  exact share_x_h

/-- The second hop across `z`. -/
theorem pay_zr_paid : (sched (F := F) m).payload (fcell (zP c) Fam.zr i) 0 d
    = iprop(∃ fd, ((slab zrM i).view.loc (zP c : Thread nD τ)) ↦[(slab zrM i).view.set]{fullShare}
        (slab zrM i).view.write (Elt F) fd ((slab rM i).view.read (Elt F) (slabBuf (chunk m (yP c) i))) Finset.univ) := by
  rw [payload_fam, famPay_zr, zP_zP]
  refine (exists_const_eq _ _ (slabBuf (chunk m (yP c) i)) fun fd => ?_).symm
  rw [slab_read_r, zrPts_landed]
  exact share_x_h

/-- The last hop of an even chunk: the rows of the `x` partner's fourth quarter that this device computes, overwritten
    with what is read from the chunk that came through the `z` partner. -/
theorem pay_qr_paid_even (hi : i.val % 2 = 0) : (sched (F := F) m).payload (fcell (xP c) Fam.qr i) 0 d
    = iprop(∃ fd, ((oRowZ c i).view.loc (xP c : Thread nD τ)) ↦[(oRowZ c i).view.set]{fullShare}
        (oRowZ c i).view.write (Elt F) fd ((slab zrM i).view.read (Elt F) (slabBuf (chunk m (yP (zP c)) i))) Finset.univ) := by
  rw [payload_fam, famPay_qr, xP_zP_xP,
    rowPts_off (qOff_xP_even c i hi) (qOff_inb (xP c) i) (k0_off6_inb c i) (xP c) (chunk m (yP (zP c)) i)]
  refine (exists_const_eq _ _ (rowBuf (chunk m (yP (zP c)) i)) fun fd => ?_).symm
  rw [slab_read_zr]
  exact rowPts_landed (k0_off6 c (wd i)) (k0_off6_inb c i) (off6_al c i).1 (off6_al c i).2 (xP c) fd (chunk m (yP (zP c)) i)

/-- The last hop of an odd chunk: the rows of the `z` partner's fourth quarter, from the chunk that came through the
    `x` partner. -/
theorem pay_qr_paid_odd (hi : i.val % 2 = 1) : (sched (F := F) m).payload (fcell (zP c) Fam.qr i) 0 d
    = iprop(∃ fd, ((oRowX c i).view.loc (zP c : Thread nD τ)) ↦[(oRowX c i).view.set]{fullShare}
        (oRowX c i).view.write (Elt F) fd ((slab xrM i).view.read (Elt F) (slabBuf (chunk m (yP (xP c)) i))) Finset.univ) := by
  rw [payload_fam, famPay_qr, zP_zP,
    rowPts_off (qOff_zP_odd c i hi) (qOff_inb (zP c) i) (k0_off5_inb c i) (zP c) (chunk m (yP (xP c)) i)]
  refine (exists_const_eq _ _ (rowBuf (chunk m (yP (xP c)) i)) fun fd => ?_).symm
  rw [slab_read_xr]
  exact rowPts_landed (k0_off5 c (wd i)) (k0_off5_inb c i) (off5_al c i).1 (off5_al c i).2 (zP c) fd (chunk m (yP (xP c)) i)

end Pay

/-! ## The barrier cell -/

section Bar
variable (c : Dev nD)

/-! ### The payer's view: what a device offers the partner it signals — its own landing windows -/

/-- To the `y` partner: its sixteen receive chunks. -/
theorem pay_bar_y_paid : (sched (F := F) m).payload (barCell (yP c)) 0 0
    = iprop((∃ f, ((slab rM 0).view.loc (c : Thread nD τ)) ↦[(slab rM 0).view.set]{fullShare} f)
        ∗ (∃ f, ((slab rM 1).view.loc (c : Thread nD τ)) ↦[(slab rM 1).view.set]{fullShare} f)
        ∗ (∃ f, ((slab rM 2).view.loc (c : Thread nD τ)) ↦[(slab rM 2).view.set]{fullShare} f)
        ∗ (∃ f, ((slab rM 3).view.loc (c : Thread nD τ)) ↦[(slab rM 3).view.set]{fullShare} f)
        ∗ (∃ f, ((slab rM 4).view.loc (c : Thread nD τ)) ↦[(slab rM 4).view.set]{fullShare} f)
        ∗ (∃ f, ((slab rM 5).view.loc (c : Thread nD τ)) ↦[(slab rM 5).view.set]{fullShare} f)
        ∗ (∃ f, ((slab rM 6).view.loc (c : Thread nD τ)) ↦[(slab rM 6).view.set]{fullShare} f)
        ∗ (∃ f, ((slab rM 7).view.loc (c : Thread nD τ)) ↦[(slab rM 7).view.set]{fullShare} f)
        ∗ (∃ f, ((slab rM 8).view.loc (c : Thread nD τ)) ↦[(slab rM 8).view.set]{fullShare} f)
        ∗ (∃ f, ((slab rM 9).view.loc (c : Thread nD τ)) ↦[(slab rM 9).view.set]{fullShare} f)
        ∗ (∃ f, ((slab rM 10).view.loc (c : Thread nD τ)) ↦[(slab rM 10).view.set]{fullShare} f)
        ∗ (∃ f, ((slab rM 11).view.loc (c : Thread nD τ)) ↦[(slab rM 11).view.set]{fullShare} f)
        ∗ (∃ f, ((slab rM 12).view.loc (c : Thread nD τ)) ↦[(slab rM 12).view.set]{fullShare} f)
        ∗ (∃ f, ((slab rM 13).view.loc (c : Thread nD τ)) ↦[(slab rM 13).view.set]{fullShare} f)
        ∗ (∃ f, ((slab rM 14).view.loc (c : Thread nD τ)) ↦[(slab rM 14).view.set]{fullShare} f)
        ∗ (∃ f, ((slab rM 15).view.loc (c : Thread nD τ)) ↦[(slab rM 15).view.set]{fullShare} f)) := by
  rw [payload_bar, barPay_0, yP_yP, bigSep_fin16]

/-- To the `x` partner: its sixteen chunks for what comes across `x`, and the even chunks' rows of its fourth quarter. -/
theorem pay_bar_x_paid : (sched (F := F) m).payload (barCell (xP c)) 0 1
    = iprop(((∃ f, ((slab xrM 0).view.loc (c : Thread nD τ)) ↦[(slab xrM 0).view.set]{fullShare} f)
        ∗ (∃ f, ((slab xrM 1).view.loc (c : Thread nD τ)) ↦[(slab xrM 1).view.set]{fullShare} f)
        ∗ (∃ f, ((slab xrM 2).view.loc (c : Thread nD τ)) ↦[(slab xrM 2).view.set]{fullShare} f)
        ∗ (∃ f, ((slab xrM 3).view.loc (c : Thread nD τ)) ↦[(slab xrM 3).view.set]{fullShare} f)
        ∗ (∃ f, ((slab xrM 4).view.loc (c : Thread nD τ)) ↦[(slab xrM 4).view.set]{fullShare} f)
        ∗ (∃ f, ((slab xrM 5).view.loc (c : Thread nD τ)) ↦[(slab xrM 5).view.set]{fullShare} f)
        ∗ (∃ f, ((slab xrM 6).view.loc (c : Thread nD τ)) ↦[(slab xrM 6).view.set]{fullShare} f)
        ∗ (∃ f, ((slab xrM 7).view.loc (c : Thread nD τ)) ↦[(slab xrM 7).view.set]{fullShare} f)
        ∗ (∃ f, ((slab xrM 8).view.loc (c : Thread nD τ)) ↦[(slab xrM 8).view.set]{fullShare} f)
        ∗ (∃ f, ((slab xrM 9).view.loc (c : Thread nD τ)) ↦[(slab xrM 9).view.set]{fullShare} f)
        ∗ (∃ f, ((slab xrM 10).view.loc (c : Thread nD τ)) ↦[(slab xrM 10).view.set]{fullShare} f)
        ∗ (∃ f, ((slab xrM 11).view.loc (c : Thread nD τ)) ↦[(slab xrM 11).view.set]{fullShare} f)
        ∗ (∃ f, ((slab xrM 12).view.loc (c : Thread nD τ)) ↦[(slab xrM 12).view.set]{fullShare} f)
        ∗ (∃ f, ((slab xrM 13).view.loc (c : Thread nD τ)) ↦[(slab xrM 13).view.set]{fullShare} f)
        ∗ (∃ f, ((slab xrM 14).view.loc (c : Thread nD τ)) ↦[(slab xrM 14).view.set]{fullShare} f)
        ∗ (∃ f, ((slab xrM 15).view.loc (c : Thread nD τ)) ↦[(slab xrM 15).view.set]{fullShare} f))
      ∗ ((∃ f, ((oRow (k0_off6 (xP c) (wd 0)) (k0_off6_inb (xP c) 0)).view.loc (c : Thread nD τ)) ↦[(oRow (k0_off6 (xP c) (wd 0)) (k0_off6_inb (xP c) 0)).view.set]{fullShare} f)
        ∗ (∃ f, ((oRow (k0_off6 (xP c) (wd 2)) (k0_off6_inb (xP c) 2)).view.loc (c : Thread nD τ)) ↦[(oRow (k0_off6 (xP c) (wd 2)) (k0_off6_inb (xP c) 2)).view.set]{fullShare} f)
        ∗ (∃ f, ((oRow (k0_off6 (xP c) (wd 4)) (k0_off6_inb (xP c) 4)).view.loc (c : Thread nD τ)) ↦[(oRow (k0_off6 (xP c) (wd 4)) (k0_off6_inb (xP c) 4)).view.set]{fullShare} f)
        ∗ (∃ f, ((oRow (k0_off6 (xP c) (wd 6)) (k0_off6_inb (xP c) 6)).view.loc (c : Thread nD τ)) ↦[(oRow (k0_off6 (xP c) (wd 6)) (k0_off6_inb (xP c) 6)).view.set]{fullShare} f)
        ∗ (∃ f, ((oRow (k0_off6 (xP c) (wd 8)) (k0_off6_inb (xP c) 8)).view.loc (c : Thread nD τ)) ↦[(oRow (k0_off6 (xP c) (wd 8)) (k0_off6_inb (xP c) 8)).view.set]{fullShare} f)
        ∗ (∃ f, ((oRow (k0_off6 (xP c) (wd 10)) (k0_off6_inb (xP c) 10)).view.loc (c : Thread nD τ)) ↦[(oRow (k0_off6 (xP c) (wd 10)) (k0_off6_inb (xP c) 10)).view.set]{fullShare} f)
        ∗ (∃ f, ((oRow (k0_off6 (xP c) (wd 12)) (k0_off6_inb (xP c) 12)).view.loc (c : Thread nD τ)) ↦[(oRow (k0_off6 (xP c) (wd 12)) (k0_off6_inb (xP c) 12)).view.set]{fullShare} f)
        ∗ (∃ f, ((oRow (k0_off6 (xP c) (wd 14)) (k0_off6_inb (xP c) 14)).view.loc (c : Thread nD τ)) ↦[(oRow (k0_off6 (xP c) (wd 14)) (k0_off6_inb (xP c) 14)).view.set]{fullShare} f))) := by
  rw [payload_bar, barPay_1, xP_xP, bigSep_fin16, bigSep_even16]

/-- To the `z` partner: its sixteen chunks for what comes across `z`, and the odd chunks' rows of its fourth quarter. -/
theorem pay_bar_z_paid : (sched (F := F) m).payload (barCell (zP c)) 0 2
    = iprop(((∃ f, ((slab zrM 0).view.loc (c : Thread nD τ)) ↦[(slab zrM 0).view.set]{fullShare} f)
        ∗ (∃ f, ((slab zrM 1).view.loc (c : Thread nD τ)) ↦[(slab zrM 1).view.set]{fullShare} f)
        ∗ (∃ f, ((slab zrM 2).view.loc (c : Thread nD τ)) ↦[(slab zrM 2).view.set]{fullShare} f)
        ∗ (∃ f, ((slab zrM 3).view.loc (c : Thread nD τ)) ↦[(slab zrM 3).view.set]{fullShare} f)
        ∗ (∃ f, ((slab zrM 4).view.loc (c : Thread nD τ)) ↦[(slab zrM 4).view.set]{fullShare} f)
        ∗ (∃ f, ((slab zrM 5).view.loc (c : Thread nD τ)) ↦[(slab zrM 5).view.set]{fullShare} f)
        ∗ (∃ f, ((slab zrM 6).view.loc (c : Thread nD τ)) ↦[(slab zrM 6).view.set]{fullShare} f)
        ∗ (∃ f, ((slab zrM 7).view.loc (c : Thread nD τ)) ↦[(slab zrM 7).view.set]{fullShare} f)
        ∗ (∃ f, ((slab zrM 8).view.loc (c : Thread nD τ)) ↦[(slab zrM 8).view.set]{fullShare} f)
        ∗ (∃ f, ((slab zrM 9).view.loc (c : Thread nD τ)) ↦[(slab zrM 9).view.set]{fullShare} f)
        ∗ (∃ f, ((slab zrM 10).view.loc (c : Thread nD τ)) ↦[(slab zrM 10).view.set]{fullShare} f)
        ∗ (∃ f, ((slab zrM 11).view.loc (c : Thread nD τ)) ↦[(slab zrM 11).view.set]{fullShare} f)
        ∗ (∃ f, ((slab zrM 12).view.loc (c : Thread nD τ)) ↦[(slab zrM 12).view.set]{fullShare} f)
        ∗ (∃ f, ((slab zrM 13).view.loc (c : Thread nD τ)) ↦[(slab zrM 13).view.set]{fullShare} f)
        ∗ (∃ f, ((slab zrM 14).view.loc (c : Thread nD τ)) ↦[(slab zrM 14).view.set]{fullShare} f)
        ∗ (∃ f, ((slab zrM 15).view.loc (c : Thread nD τ)) ↦[(slab zrM 15).view.set]{fullShare} f))
      ∗ ((∃ f, ((oRow (k0_off5 (zP c) (wd 1)) (k0_off5_inb (zP c) 1)).view.loc (c : Thread nD τ)) ↦[(oRow (k0_off5 (zP c) (wd 1)) (k0_off5_inb (zP c) 1)).view.set]{fullShare} f)
        ∗ (∃ f, ((oRow (k0_off5 (zP c) (wd 3)) (k0_off5_inb (zP c) 3)).view.loc (c : Thread nD τ)) ↦[(oRow (k0_off5 (zP c) (wd 3)) (k0_off5_inb (zP c) 3)).view.set]{fullShare} f)
        ∗ (∃ f, ((oRow (k0_off5 (zP c) (wd 5)) (k0_off5_inb (zP c) 5)).view.loc (c : Thread nD τ)) ↦[(oRow (k0_off5 (zP c) (wd 5)) (k0_off5_inb (zP c) 5)).view.set]{fullShare} f)
        ∗ (∃ f, ((oRow (k0_off5 (zP c) (wd 7)) (k0_off5_inb (zP c) 7)).view.loc (c : Thread nD τ)) ↦[(oRow (k0_off5 (zP c) (wd 7)) (k0_off5_inb (zP c) 7)).view.set]{fullShare} f)
        ∗ (∃ f, ((oRow (k0_off5 (zP c) (wd 9)) (k0_off5_inb (zP c) 9)).view.loc (c : Thread nD τ)) ↦[(oRow (k0_off5 (zP c) (wd 9)) (k0_off5_inb (zP c) 9)).view.set]{fullShare} f)
        ∗ (∃ f, ((oRow (k0_off5 (zP c) (wd 11)) (k0_off5_inb (zP c) 11)).view.loc (c : Thread nD τ)) ↦[(oRow (k0_off5 (zP c) (wd 11)) (k0_off5_inb (zP c) 11)).view.set]{fullShare} f)
        ∗ (∃ f, ((oRow (k0_off5 (zP c) (wd 13)) (k0_off5_inb (zP c) 13)).view.loc (c : Thread nD τ)) ↦[(oRow (k0_off5 (zP c) (wd 13)) (k0_off5_inb (zP c) 13)).view.set]{fullShare} f)
        ∗ (∃ f, ((oRow (k0_off5 (zP c) (wd 15)) (k0_off5_inb (zP c) 15)).view.loc (c : Thread nD τ)) ↦[(oRow (k0_off5 (zP c) (wd 15)) (k0_off5_inb (zP c) 15)).view.set]{fullShare} f))) := by
  rw [payload_bar, barPay_2, zP_zP, bigSep_fin16, bigSep_odd16]

/-! ### The owner's view: what the three partners' signals hand a device — their landing windows -/

theorem pay_bar0_own : (sched (F := F) m).payload (barCell c) 0 0
    = iprop((∃ f, ((slab rM 0).view.loc (yP c : Thread nD τ)) ↦[(slab rM 0).view.set]{fullShare} f)
        ∗ (∃ f, ((slab rM 1).view.loc (yP c : Thread nD τ)) ↦[(slab rM 1).view.set]{fullShare} f)
        ∗ (∃ f, ((slab rM 2).view.loc (yP c : Thread nD τ)) ↦[(slab rM 2).view.set]{fullShare} f)
        ∗ (∃ f, ((slab rM 3).view.loc (yP c : Thread nD τ)) ↦[(slab rM 3).view.set]{fullShare} f)
        ∗ (∃ f, ((slab rM 4).view.loc (yP c : Thread nD τ)) ↦[(slab rM 4).view.set]{fullShare} f)
        ∗ (∃ f, ((slab rM 5).view.loc (yP c : Thread nD τ)) ↦[(slab rM 5).view.set]{fullShare} f)
        ∗ (∃ f, ((slab rM 6).view.loc (yP c : Thread nD τ)) ↦[(slab rM 6).view.set]{fullShare} f)
        ∗ (∃ f, ((slab rM 7).view.loc (yP c : Thread nD τ)) ↦[(slab rM 7).view.set]{fullShare} f)
        ∗ (∃ f, ((slab rM 8).view.loc (yP c : Thread nD τ)) ↦[(slab rM 8).view.set]{fullShare} f)
        ∗ (∃ f, ((slab rM 9).view.loc (yP c : Thread nD τ)) ↦[(slab rM 9).view.set]{fullShare} f)
        ∗ (∃ f, ((slab rM 10).view.loc (yP c : Thread nD τ)) ↦[(slab rM 10).view.set]{fullShare} f)
        ∗ (∃ f, ((slab rM 11).view.loc (yP c : Thread nD τ)) ↦[(slab rM 11).view.set]{fullShare} f)
        ∗ (∃ f, ((slab rM 12).view.loc (yP c : Thread nD τ)) ↦[(slab rM 12).view.set]{fullShare} f)
        ∗ (∃ f, ((slab rM 13).view.loc (yP c : Thread nD τ)) ↦[(slab rM 13).view.set]{fullShare} f)
        ∗ (∃ f, ((slab rM 14).view.loc (yP c : Thread nD τ)) ↦[(slab rM 14).view.set]{fullShare} f)
        ∗ (∃ f, ((slab rM 15).view.loc (yP c : Thread nD τ)) ↦[(slab rM 15).view.set]{fullShare} f)) := by
  rw [payload_bar, barPay_0, bigSep_fin16]

theorem pay_bar1_own : (sched (F := F) m).payload (barCell c) 0 1
    = iprop(((∃ f, ((slab xrM 0).view.loc (xP c : Thread nD τ)) ↦[(slab xrM 0).view.set]{fullShare} f)
        ∗ (∃ f, ((slab xrM 1).view.loc (xP c : Thread nD τ)) ↦[(slab xrM 1).view.set]{fullShare} f)
        ∗ (∃ f, ((slab xrM 2).view.loc (xP c : Thread nD τ)) ↦[(slab xrM 2).view.set]{fullShare} f)
        ∗ (∃ f, ((slab xrM 3).view.loc (xP c : Thread nD τ)) ↦[(slab xrM 3).view.set]{fullShare} f)
        ∗ (∃ f, ((slab xrM 4).view.loc (xP c : Thread nD τ)) ↦[(slab xrM 4).view.set]{fullShare} f)
        ∗ (∃ f, ((slab xrM 5).view.loc (xP c : Thread nD τ)) ↦[(slab xrM 5).view.set]{fullShare} f)
        ∗ (∃ f, ((slab xrM 6).view.loc (xP c : Thread nD τ)) ↦[(slab xrM 6).view.set]{fullShare} f)
        ∗ (∃ f, ((slab xrM 7).view.loc (xP c : Thread nD τ)) ↦[(slab xrM 7).view.set]{fullShare} f)
        ∗ (∃ f, ((slab xrM 8).view.loc (xP c : Thread nD τ)) ↦[(slab xrM 8).view.set]{fullShare} f)
        ∗ (∃ f, ((slab xrM 9).view.loc (xP c : Thread nD τ)) ↦[(slab xrM 9).view.set]{fullShare} f)
        ∗ (∃ f, ((slab xrM 10).view.loc (xP c : Thread nD τ)) ↦[(slab xrM 10).view.set]{fullShare} f)
        ∗ (∃ f, ((slab xrM 11).view.loc (xP c : Thread nD τ)) ↦[(slab xrM 11).view.set]{fullShare} f)
        ∗ (∃ f, ((slab xrM 12).view.loc (xP c : Thread nD τ)) ↦[(slab xrM 12).view.set]{fullShare} f)
        ∗ (∃ f, ((slab xrM 13).view.loc (xP c : Thread nD τ)) ↦[(slab xrM 13).view.set]{fullShare} f)
        ∗ (∃ f, ((slab xrM 14).view.loc (xP c : Thread nD τ)) ↦[(slab xrM 14).view.set]{fullShare} f)
        ∗ (∃ f, ((slab xrM 15).view.loc (xP c : Thread nD τ)) ↦[(slab xrM 15).view.set]{fullShare} f))
      ∗ ((∃ f, ((oRow (k0_off6 c (wd 0)) (k0_off6_inb c 0)).view.loc (xP c : Thread nD τ)) ↦[(oRow (k0_off6 c (wd 0)) (k0_off6_inb c 0)).view.set]{fullShare} f)
        ∗ (∃ f, ((oRow (k0_off6 c (wd 2)) (k0_off6_inb c 2)).view.loc (xP c : Thread nD τ)) ↦[(oRow (k0_off6 c (wd 2)) (k0_off6_inb c 2)).view.set]{fullShare} f)
        ∗ (∃ f, ((oRow (k0_off6 c (wd 4)) (k0_off6_inb c 4)).view.loc (xP c : Thread nD τ)) ↦[(oRow (k0_off6 c (wd 4)) (k0_off6_inb c 4)).view.set]{fullShare} f)
        ∗ (∃ f, ((oRow (k0_off6 c (wd 6)) (k0_off6_inb c 6)).view.loc (xP c : Thread nD τ)) ↦[(oRow (k0_off6 c (wd 6)) (k0_off6_inb c 6)).view.set]{fullShare} f)
        ∗ (∃ f, ((oRow (k0_off6 c (wd 8)) (k0_off6_inb c 8)).view.loc (xP c : Thread nD τ)) ↦[(oRow (k0_off6 c (wd 8)) (k0_off6_inb c 8)).view.set]{fullShare} f)
        ∗ (∃ f, ((oRow (k0_off6 c (wd 10)) (k0_off6_inb c 10)).view.loc (xP c : Thread nD τ)) ↦[(oRow (k0_off6 c (wd 10)) (k0_off6_inb c 10)).view.set]{fullShare} f)
        ∗ (∃ f, ((oRow (k0_off6 c (wd 12)) (k0_off6_inb c 12)).view.loc (xP c : Thread nD τ)) ↦[(oRow (k0_off6 c (wd 12)) (k0_off6_inb c 12)).view.set]{fullShare} f)
        ∗ (∃ f, ((oRow (k0_off6 c (wd 14)) (k0_off6_inb c 14)).view.loc (xP c : Thread nD τ)) ↦[(oRow (k0_off6 c (wd 14)) (k0_off6_inb c 14)).view.set]{fullShare} f))) := by
  rw [payload_bar, barPay_1, bigSep_fin16, bigSep_even16]

theorem pay_bar2_own : (sched (F := F) m).payload (barCell c) 0 2
    = iprop(((∃ f, ((slab zrM 0).view.loc (zP c : Thread nD τ)) ↦[(slab zrM 0).view.set]{fullShare} f)
        ∗ (∃ f, ((slab zrM 1).view.loc (zP c : Thread nD τ)) ↦[(slab zrM 1).view.set]{fullShare} f)
        ∗ (∃ f, ((slab zrM 2).view.loc (zP c : Thread nD τ)) ↦[(slab zrM 2).view.set]{fullShare} f)
        ∗ (∃ f, ((slab zrM 3).view.loc (zP c : Thread nD τ)) ↦[(slab zrM 3).view.set]{fullShare} f)
        ∗ (∃ f, ((slab zrM 4).view.loc (zP c : Thread nD τ)) ↦[(slab zrM 4).view.set]{fullShare} f)
        ∗ (∃ f, ((slab zrM 5).view.loc (zP c : Thread nD τ)) ↦[(slab zrM 5).view.set]{fullShare} f)
        ∗ (∃ f, ((slab zrM 6).view.loc (zP c : Thread nD τ)) ↦[(slab zrM 6).view.set]{fullShare} f)
        ∗ (∃ f, ((slab zrM 7).view.loc (zP c : Thread nD τ)) ↦[(slab zrM 7).view.set]{fullShare} f)
        ∗ (∃ f, ((slab zrM 8).view.loc (zP c : Thread nD τ)) ↦[(slab zrM 8).view.set]{fullShare} f)
        ∗ (∃ f, ((slab zrM 9).view.loc (zP c : Thread nD τ)) ↦[(slab zrM 9).view.set]{fullShare} f)
        ∗ (∃ f, ((slab zrM 10).view.loc (zP c : Thread nD τ)) ↦[(slab zrM 10).view.set]{fullShare} f)
        ∗ (∃ f, ((slab zrM 11).view.loc (zP c : Thread nD τ)) ↦[(slab zrM 11).view.set]{fullShare} f)
        ∗ (∃ f, ((slab zrM 12).view.loc (zP c : Thread nD τ)) ↦[(slab zrM 12).view.set]{fullShare} f)
        ∗ (∃ f, ((slab zrM 13).view.loc (zP c : Thread nD τ)) ↦[(slab zrM 13).view.set]{fullShare} f)
        ∗ (∃ f, ((slab zrM 14).view.loc (zP c : Thread nD τ)) ↦[(slab zrM 14).view.set]{fullShare} f)
        ∗ (∃ f, ((slab zrM 15).view.loc (zP c : Thread nD τ)) ↦[(slab zrM 15).view.set]{fullShare} f))
      ∗ ((∃ f, ((oRow (k0_off5 c (wd 1)) (k0_off5_inb c 1)).view.loc (zP c : Thread nD τ)) ↦[(oRow (k0_off5 c (wd 1)) (k0_off5_inb c 1)).view.set]{fullShare} f)
        ∗ (∃ f, ((oRow (k0_off5 c (wd 3)) (k0_off5_inb c 3)).view.loc (zP c : Thread nD τ)) ↦[(oRow (k0_off5 c (wd 3)) (k0_off5_inb c 3)).view.set]{fullShare} f)
        ∗ (∃ f, ((oRow (k0_off5 c (wd 5)) (k0_off5_inb c 5)).view.loc (zP c : Thread nD τ)) ↦[(oRow (k0_off5 c (wd 5)) (k0_off5_inb c 5)).view.set]{fullShare} f)
        ∗ (∃ f, ((oRow (k0_off5 c (wd 7)) (k0_off5_inb c 7)).view.loc (zP c : Thread nD τ)) ↦[(oRow (k0_off5 c (wd 7)) (k0_off5_inb c 7)).view.set]{fullShare} f)
        ∗ (∃ f, ((oRow (k0_off5 c (wd 9)) (k0_off5_inb c 9)).view.loc (zP c : Thread nD τ)) ↦[(oRow (k0_off5 c (wd 9)) (k0_off5_inb c 9)).view.set]{fullShare} f)
        ∗ (∃ f, ((oRow (k0_off5 c (wd 11)) (k0_off5_inb c 11)).view.loc (zP c : Thread nD τ)) ↦[(oRow (k0_off5 c (wd 11)) (k0_off5_inb c 11)).view.set]{fullShare} f)
        ∗ (∃ f, ((oRow (k0_off5 c (wd 13)) (k0_off5_inb c 13)).view.loc (zP c : Thread nD τ)) ↦[(oRow (k0_off5 c (wd 13)) (k0_off5_inb c 13)).view.set]{fullShare} f)
        ∗ (∃ f, ((oRow (k0_off5 c (wd 15)) (k0_off5_inb c 15)).view.loc (zP c : Thread nD τ)) ↦[(oRow (k0_off5 c (wd 15)) (k0_off5_inb c 15)).view.set]{fullShare} f))) := by
  rw [payload_bar, barPay_2, bigSep_fin16, bigSep_odd16]

/-- The whole round of the barrier cell, no duty taken: the three partners' offers. -/
theorem rest_bar_own : bigSep ((sched (F := F) m).duties (barCell c) 0 \ ∅) (fun d => (sched (F := F) m).payload (barCell c) 0 d)
    = iprop(((∃ f, ((slab rM 0).view.loc (yP c : Thread nD τ)) ↦[(slab rM 0).view.set]{fullShare} f)
        ∗ (∃ f, ((slab rM 1).view.loc (yP c : Thread nD τ)) ↦[(slab rM 1).view.set]{fullShare} f)
        ∗ (∃ f, ((slab rM 2).view.loc (yP c : Thread nD τ)) ↦[(slab rM 2).view.set]{fullShare} f)
        ∗ (∃ f, ((slab rM 3).view.loc (yP c : Thread nD τ)) ↦[(slab rM 3).view.set]{fullShare} f)
        ∗ (∃ f, ((slab rM 4).view.loc (yP c : Thread nD τ)) ↦[(slab rM 4).view.set]{fullShare} f)
        ∗ (∃ f, ((slab rM 5).view.loc (yP c : Thread nD τ)) ↦[(slab rM 5).view.set]{fullShare} f)
        ∗ (∃ f, ((slab rM 6).view.loc (yP c : Thread nD τ)) ↦[(slab rM 6).view.set]{fullShare} f)
        ∗ (∃ f, ((slab rM 7).view.loc (yP c : Thread nD τ)) ↦[(slab rM 7).view.set]{fullShare} f)
        ∗ (∃ f, ((slab rM 8).view.loc (yP c : Thread nD τ)) ↦[(slab rM 8).view.set]{fullShare} f)
        ∗ (∃ f, ((slab rM 9).view.loc (yP c : Thread nD τ)) ↦[(slab rM 9).view.set]{fullShare} f)
        ∗ (∃ f, ((slab rM 10).view.loc (yP c : Thread nD τ)) ↦[(slab rM 10).view.set]{fullShare} f)
        ∗ (∃ f, ((slab rM 11).view.loc (yP c : Thread nD τ)) ↦[(slab rM 11).view.set]{fullShare} f)
        ∗ (∃ f, ((slab rM 12).view.loc (yP c : Thread nD τ)) ↦[(slab rM 12).view.set]{fullShare} f)
        ∗ (∃ f, ((slab rM 13).view.loc (yP c : Thread nD τ)) ↦[(slab rM 13).view.set]{fullShare} f)
        ∗ (∃ f, ((slab rM 14).view.loc (yP c : Thread nD τ)) ↦[(slab rM 14).view.set]{fullShare} f)
        ∗ (∃ f, ((slab rM 15).view.loc (yP c : Thread nD τ)) ↦[(slab rM 15).view.set]{fullShare} f))
      ∗ (((∃ f, ((slab xrM 0).view.loc (xP c : Thread nD τ)) ↦[(slab xrM 0).view.set]{fullShare} f)
        ∗ (∃ f, ((slab xrM 1).view.loc (xP c : Thread nD τ)) ↦[(slab xrM 1).view.set]{fullShare} f)
        ∗ (∃ f, ((slab xrM 2).view.loc (xP c : Thread nD τ)) ↦[(slab xrM 2).view.set]{fullShare} f)
        ∗ (∃ f, ((slab xrM 3).view.loc (xP c : Thread nD τ)) ↦[(slab xrM 3).view.set]{fullShare} f)
        ∗ (∃ f, ((slab xrM 4).view.loc (xP c : Thread nD τ)) ↦[(slab xrM 4).view.set]{fullShare} f)
        ∗ (∃ f, ((slab xrM 5).view.loc (xP c : Thread nD τ)) ↦[(slab xrM 5).view.set]{fullShare} f)
        ∗ (∃ f, ((slab xrM 6).view.loc (xP c : Thread nD τ)) ↦[(slab xrM 6).view.set]{fullShare} f)
        ∗ (∃ f, ((slab xrM 7).view.loc (xP c : Thread nD τ)) ↦[(slab xrM 7).view.set]{fullShare} f)
        ∗ (∃ f, ((slab xrM 8).view.loc (xP c : Thread nD τ)) ↦[(slab xrM 8).view.set]{fullShare} f)
        ∗ (∃ f, ((slab xrM 9).view.loc (xP c : Thread nD τ)) ↦[(slab xrM 9).view.set]{fullShare} f)
        ∗ (∃ f, ((slab xrM 10).view.loc (xP c : Thread nD τ)) ↦[(slab xrM 10).view.set]{fullShare} f)
        ∗ (∃ f, ((slab xrM 11).view.loc (xP c : Thread nD τ)) ↦[(slab xrM 11).view.set]{fullShare} f)
        ∗ (∃ f, ((slab xrM 12).view.loc (xP c : Thread nD τ)) ↦[(slab xrM 12).view.set]{fullShare} f)
        ∗ (∃ f, ((slab xrM 13).view.loc (xP c : Thread nD τ)) ↦[(slab xrM 13).view.set]{fullShare} f)
        ∗ (∃ f, ((slab xrM 14).view.loc (xP c : Thread nD τ)) ↦[(slab xrM 14).view.set]{fullShare} f)
        ∗ (∃ f, ((slab xrM 15).view.loc (xP c : Thread nD τ)) ↦[(slab xrM 15).view.set]{fullShare} f))
        ∗ ((∃ f, ((oRow (k0_off6 c (wd 0)) (k0_off6_inb c 0)).view.loc (xP c : Thread nD τ)) ↦[(oRow (k0_off6 c (wd 0)) (k0_off6_inb c 0)).view.set]{fullShare} f)
        ∗ (∃ f, ((oRow (k0_off6 c (wd 2)) (k0_off6_inb c 2)).view.loc (xP c : Thread nD τ)) ↦[(oRow (k0_off6 c (wd 2)) (k0_off6_inb c 2)).view.set]{fullShare} f)
        ∗ (∃ f, ((oRow (k0_off6 c (wd 4)) (k0_off6_inb c 4)).view.loc (xP c : Thread nD τ)) ↦[(oRow (k0_off6 c (wd 4)) (k0_off6_inb c 4)).view.set]{fullShare} f)
        ∗ (∃ f, ((oRow (k0_off6 c (wd 6)) (k0_off6_inb c 6)).view.loc (xP c : Thread nD τ)) ↦[(oRow (k0_off6 c (wd 6)) (k0_off6_inb c 6)).view.set]{fullShare} f)
        ∗ (∃ f, ((oRow (k0_off6 c (wd 8)) (k0_off6_inb c 8)).view.loc (xP c : Thread nD τ)) ↦[(oRow (k0_off6 c (wd 8)) (k0_off6_inb c 8)).view.set]{fullShare} f)
        ∗ (∃ f, ((oRow (k0_off6 c (wd 10)) (k0_off6_inb c 10)).view.loc (xP c : Thread nD τ)) ↦[(oRow (k0_off6 c (wd 10)) (k0_off6_inb c 10)).view.set]{fullShare} f)
        ∗ (∃ f, ((oRow (k0_off6 c (wd 12)) (k0_off6_inb c 12)).view.loc (xP c : Thread nD τ)) ↦[(oRow (k0_off6 c (wd 12)) (k0_off6_inb c 12)).view.set]{fullShare} f)
        ∗ (∃ f, ((oRow (k0_off6 c (wd 14)) (k0_off6_inb c 14)).view.loc (xP c : Thread nD τ)) ↦[(oRow (k0_off6 c (wd 14)) (k0_off6_inb c 14)).view.set]{fullShare} f)))
      ∗ (((∃ f, ((slab zrM 0).view.loc (zP c : Thread nD τ)) ↦[(slab zrM 0).view.set]{fullShare} f)
        ∗ (∃ f, ((slab zrM 1).view.loc (zP c : Thread nD τ)) ↦[(slab zrM 1).view.set]{fullShare} f)
        ∗ (∃ f, ((slab zrM 2).view.loc (zP c : Thread nD τ)) ↦[(slab zrM 2).view.set]{fullShare} f)
        ∗ (∃ f, ((slab zrM 3).view.loc (zP c : Thread nD τ)) ↦[(slab zrM 3).view.set]{fullShare} f)
        ∗ (∃ f, ((slab zrM 4).view.loc (zP c : Thread nD τ)) ↦[(slab zrM 4).view.set]{fullShare} f)
        ∗ (∃ f, ((slab zrM 5).view.loc (zP c : Thread nD τ)) ↦[(slab zrM 5).view.set]{fullShare} f)
        ∗ (∃ f, ((slab zrM 6).view.loc (zP c : Thread nD τ)) ↦[(slab zrM 6).view.set]{fullShare} f)
        ∗ (∃ f, ((slab zrM 7).view.loc (zP c : Thread nD τ)) ↦[(slab zrM 7).view.set]{fullShare} f)
        ∗ (∃ f, ((slab zrM 8).view.loc (zP c : Thread nD τ)) ↦[(slab zrM 8).view.set]{fullShare} f)
        ∗ (∃ f, ((slab zrM 9).view.loc (zP c : Thread nD τ)) ↦[(slab zrM 9).view.set]{fullShare} f)
        ∗ (∃ f, ((slab zrM 10).view.loc (zP c : Thread nD τ)) ↦[(slab zrM 10).view.set]{fullShare} f)
        ∗ (∃ f, ((slab zrM 11).view.loc (zP c : Thread nD τ)) ↦[(slab zrM 11).view.set]{fullShare} f)
        ∗ (∃ f, ((slab zrM 12).view.loc (zP c : Thread nD τ)) ↦[(slab zrM 12).view.set]{fullShare} f)
        ∗ (∃ f, ((slab zrM 13).view.loc (zP c : Thread nD τ)) ↦[(slab zrM 13).view.set]{fullShare} f)
        ∗ (∃ f, ((slab zrM 14).view.loc (zP c : Thread nD τ)) ↦[(slab zrM 14).view.set]{fullShare} f)
        ∗ (∃ f, ((slab zrM 15).view.loc (zP c : Thread nD τ)) ↦[(slab zrM 15).view.set]{fullShare} f))
        ∗ ((∃ f, ((oRow (k0_off5 c (wd 1)) (k0_off5_inb c 1)).view.loc (zP c : Thread nD τ)) ↦[(oRow (k0_off5 c (wd 1)) (k0_off5_inb c 1)).view.set]{fullShare} f)
        ∗ (∃ f, ((oRow (k0_off5 c (wd 3)) (k0_off5_inb c 3)).view.loc (zP c : Thread nD τ)) ↦[(oRow (k0_off5 c (wd 3)) (k0_off5_inb c 3)).view.set]{fullShare} f)
        ∗ (∃ f, ((oRow (k0_off5 c (wd 5)) (k0_off5_inb c 5)).view.loc (zP c : Thread nD τ)) ↦[(oRow (k0_off5 c (wd 5)) (k0_off5_inb c 5)).view.set]{fullShare} f)
        ∗ (∃ f, ((oRow (k0_off5 c (wd 7)) (k0_off5_inb c 7)).view.loc (zP c : Thread nD τ)) ↦[(oRow (k0_off5 c (wd 7)) (k0_off5_inb c 7)).view.set]{fullShare} f)
        ∗ (∃ f, ((oRow (k0_off5 c (wd 9)) (k0_off5_inb c 9)).view.loc (zP c : Thread nD τ)) ↦[(oRow (k0_off5 c (wd 9)) (k0_off5_inb c 9)).view.set]{fullShare} f)
        ∗ (∃ f, ((oRow (k0_off5 c (wd 11)) (k0_off5_inb c 11)).view.loc (zP c : Thread nD τ)) ↦[(oRow (k0_off5 c (wd 11)) (k0_off5_inb c 11)).view.set]{fullShare} f)
        ∗ (∃ f, ((oRow (k0_off5 c (wd 13)) (k0_off5_inb c 13)).view.loc (zP c : Thread nD τ)) ↦[(oRow (k0_off5 c (wd 13)) (k0_off5_inb c 13)).view.set]{fullShare} f)
        ∗ (∃ f, ((oRow (k0_off5 c (wd 15)) (k0_off5_inb c 15)).view.loc (zP c : Thread nD τ)) ↦[(oRow (k0_off5 c (wd 15)) (k0_off5_inb c 15)).view.set]{fullShare} f)))) :=
  (rest_bar m c).trans (congrArg₂ (fun a b : sProp 𝕄 => iprop(a ∗ b)) ((payload_bar m c 0).symm.trans (pay_bar0_own m c))
    (congrArg₂ (fun a b : sProp 𝕄 => iprop(a ∗ b)) ((payload_bar m c 1).symm.trans (pay_bar1_own m c)) ((payload_bar m c 2).symm.trans (pay_bar2_own m c))))

end Bar

/-! ## The fourth quarter's rows, named from either side -/

omit [FloatOps F] in
/-- The rows an even chunk of a device's fourth quarter lands in are the rows its `x` partner computes; -/
theorem oRowQ_even (c : Dev nD) (i : Fin 16) (hi : i.val % 2 = 0) : oRowQ c i = oRowZ (xP c) i := by
  have e : qOff c i = k0_off6 (xP c) (wd i) := by unfold qOff; rw [if_pos hi]
  show oRow (qOff c i) (qOff_inb c i) = oRow (k0_off6 (xP c) (wd i)) (k0_off6_inb (xP c) i)
  generalize qOff_inb c i = h
  revert h; rw [e]; intro h; rfl

omit [FloatOps F] in
/-- an odd chunk's, the rows its `z` partner computes. -/
theorem oRowQ_odd (c : Dev nD) (i : Fin 16) (hi : i.val % 2 = 1) : oRowQ c i = oRowX (zP c) i := by
  have e : qOff c i = k0_off5 (zP c) (wd i) := by unfold qOff; rw [if_neg (by omega)]
  show oRow (qOff c i) (qOff_inb c i) = oRow (k0_off5 (zP c) (wd i)) (k0_off5_inb (zP c) i)
  generalize qOff_inb c i = h
  revert h; rw [e]; intro h; rfl

/-- info: 'Cert.Kernel.A2A.pay_yr_paid' depends on axioms: [propext, Classical.choice, Quot.sound] -/
#guard_msgs in #print axioms pay_yr_paid

/-- info: 'Cert.Kernel.A2A.pay_qr_paid_even' depends on axioms: [propext, Classical.choice, Quot.sound] -/
#guard_msgs in #print axioms pay_qr_paid_even

/-- info: 'Cert.Kernel.A2A.rest_bar_own' depends on axioms: [propext, Classical.choice, Quot.sound] -/
#guard_msgs in #print axioms rest_bar_own

end Cert.Kernel.A2A

end
-- ==== Proof.BTables3.lean ====
import proofs.«900640_g7700000000000641_dist_a2a_v7x_xyz2x2x4_y_m4096_n1024_f32_1_alg».proof.Proof.BTables2

/-!
# The fourth hop's payloads, chunk by chunk

Which partner writes chunk `i` of a device's fourth quarter depends on the parity of `i`: an even chunk goes across `x`
from the chunk that came through the `z` partner, an odd chunk across `z` from the chunk that came through the `x`
partner. The general payload equations carry that parity as a hypothesis. Here they are at each of the sixteen
chunks, the parity decided: the same equations, one per chunk, with no hypothesis left.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## The payer's view of the fourth hop's receive cell -/

theorem pay_qr_paid_0 (c : Dev nD) (d : Fin 3) : (sched (F := F) m).payload (fcell (xP c) Fam.qr 0) 0 d
    = iprop(∃ fd, ((oRowZ c 0).view.loc (xP c : Thread nD τ)) ↦[(oRowZ c 0).view.set]{fullShare}
        (oRowZ c 0).view.write (Elt F) fd ((slab zrM 0).view.read (Elt F) (slabBuf (chunk m (yP (zP c)) 0))) Finset.univ) :=
  pay_qr_paid_even m c 0 d (by decide)

theorem pay_qr_paid_1 (c : Dev nD) (d : Fin 3) : (sched (F := F) m).payload (fcell (zP c) Fam.qr 1) 0 d
    = iprop(∃ fd, ((oRowX c 1).view.loc (zP c : Thread nD τ)) ↦[(oRowX c 1).view.set]{fullShare}
        (oRowX c 1).view.write (Elt F) fd ((slab xrM 1).view.read (Elt F) (slabBuf (chunk m (yP (xP c)) 1))) Finset.univ) :=
  pay_qr_paid_odd m c 1 d (by decide)

theorem pay_qr_paid_2 (c : Dev nD) (d : Fin 3) : (sched (F := F) m).payload (fcell (xP c) Fam.qr 2) 0 d
    = iprop(∃ fd, ((oRowZ c 2).view.loc (xP c : Thread nD τ)) ↦[(oRowZ c 2).view.set]{fullShare}
        (oRowZ c 2).view.write (Elt F) fd ((slab zrM 2).view.read (Elt F) (slabBuf (chunk m (yP (zP c)) 2))) Finset.univ) :=
  pay_qr_paid_even m c 2 d (by decide)

theorem pay_qr_paid_3 (c : Dev nD) (d : Fin 3) : (sched (F := F) m).payload (fcell (zP c) Fam.qr 3) 0 d
    = iprop(∃ fd, ((oRowX c 3).view.loc (zP c : Thread nD τ)) ↦[(oRowX c 3).view.set]{fullShare}
        (oRowX c 3).view.write (Elt F) fd ((slab xrM 3).view.read (Elt F) (slabBuf (chunk m (yP (xP c)) 3))) Finset.univ) :=
  pay_qr_paid_odd m c 3 d (by decide)

theorem pay_qr_paid_4 (c : Dev nD) (d : Fin 3) : (sched (F := F) m).payload (fcell (xP c) Fam.qr 4) 0 d
    = iprop(∃ fd, ((oRowZ c 4).view.loc (xP c : Thread nD τ)) ↦[(oRowZ c 4).view.set]{fullShare}
        (oRowZ c 4).view.write (Elt F) fd ((slab zrM 4).view.read (Elt F) (slabBuf (chunk m (yP (zP c)) 4))) Finset.univ) :=
  pay_qr_paid_even m c 4 d (by decide)

theorem pay_qr_paid_5 (c : Dev nD) (d : Fin 3) : (sched (F := F) m).payload (fcell (zP c) Fam.qr 5) 0 d
    = iprop(∃ fd, ((oRowX c 5).view.loc (zP c : Thread nD τ)) ↦[(oRowX c 5).view.set]{fullShare}
        (oRowX c 5).view.write (Elt F) fd ((slab xrM 5).view.read (Elt F) (slabBuf (chunk m (yP (xP c)) 5))) Finset.univ) :=
  pay_qr_paid_odd m c 5 d (by decide)

theorem pay_qr_paid_6 (c : Dev nD) (d : Fin 3) : (sched (F := F) m).payload (fcell (xP c) Fam.qr 6) 0 d
    = iprop(∃ fd, ((oRowZ c 6).view.loc (xP c : Thread nD τ)) ↦[(oRowZ c 6).view.set]{fullShare}
        (oRowZ c 6).view.write (Elt F) fd ((slab zrM 6).view.read (Elt F) (slabBuf (chunk m (yP (zP c)) 6))) Finset.univ) :=
  pay_qr_paid_even m c 6 d (by decide)

theorem pay_qr_paid_7 (c : Dev nD) (d : Fin 3) : (sched (F := F) m).payload (fcell (zP c) Fam.qr 7) 0 d
    = iprop(∃ fd, ((oRowX c 7).view.loc (zP c : Thread nD τ)) ↦[(oRowX c 7).view.set]{fullShare}
        (oRowX c 7).view.write (Elt F) fd ((slab xrM 7).view.read (Elt F) (slabBuf (chunk m (yP (xP c)) 7))) Finset.univ) :=
  pay_qr_paid_odd m c 7 d (by decide)

theorem pay_qr_paid_8 (c : Dev nD) (d : Fin 3) : (sched (F := F) m).payload (fcell (xP c) Fam.qr 8) 0 d
    = iprop(∃ fd, ((oRowZ c 8).view.loc (xP c : Thread nD τ)) ↦[(oRowZ c 8).view.set]{fullShare}
        (oRowZ c 8).view.write (Elt F) fd ((slab zrM 8).view.read (Elt F) (slabBuf (chunk m (yP (zP c)) 8))) Finset.univ) :=
  pay_qr_paid_even m c 8 d (by decide)

theorem pay_qr_paid_9 (c : Dev nD) (d : Fin 3) : (sched (F := F) m).payload (fcell (zP c) Fam.qr 9) 0 d
    = iprop(∃ fd, ((oRowX c 9).view.loc (zP c : Thread nD τ)) ↦[(oRowX c 9).view.set]{fullShare}
        (oRowX c 9).view.write (Elt F) fd ((slab xrM 9).view.read (Elt F) (slabBuf (chunk m (yP (xP c)) 9))) Finset.univ) :=
  pay_qr_paid_odd m c 9 d (by decide)

theorem pay_qr_paid_10 (c : Dev nD) (d : Fin 3) : (sched (F := F) m).payload (fcell (xP c) Fam.qr 10) 0 d
    = iprop(∃ fd, ((oRowZ c 10).view.loc (xP c : Thread nD τ)) ↦[(oRowZ c 10).view.set]{fullShare}
        (oRowZ c 10).view.write (Elt F) fd ((slab zrM 10).view.read (Elt F) (slabBuf (chunk m (yP (zP c)) 10))) Finset.univ) :=
  pay_qr_paid_even m c 10 d (by decide)

theorem pay_qr_paid_11 (c : Dev nD) (d : Fin 3) : (sched (F := F) m).payload (fcell (zP c) Fam.qr 11) 0 d
    = iprop(∃ fd, ((oRowX c 11).view.loc (zP c : Thread nD τ)) ↦[(oRowX c 11).view.set]{fullShare}
        (oRowX c 11).view.write (Elt F) fd ((slab xrM 11).view.read (Elt F) (slabBuf (chunk m (yP (xP c)) 11))) Finset.univ) :=
  pay_qr_paid_odd m c 11 d (by decide)

theorem pay_qr_paid_12 (c : Dev nD) (d : Fin 3) : (sched (F := F) m).payload (fcell (xP c) Fam.qr 12) 0 d
    = iprop(∃ fd, ((oRowZ c 12).view.loc (xP c : Thread nD τ)) ↦[(oRowZ c 12).view.set]{fullShare}
        (oRowZ c 12).view.write (Elt F) fd ((slab zrM 12).view.read (Elt F) (slabBuf (chunk m (yP (zP c)) 12))) Finset.univ) :=
  pay_qr_paid_even m c 12 d (by decide)

theorem pay_qr_paid_13 (c : Dev nD) (d : Fin 3) : (sched (F := F) m).payload (fcell (zP c) Fam.qr 13) 0 d
    = iprop(∃ fd, ((oRowX c 13).view.loc (zP c : Thread nD τ)) ↦[(oRowX c 13).view.set]{fullShare}
        (oRowX c 13).view.write (Elt F) fd ((slab xrM 13).view.read (Elt F) (slabBuf (chunk m (yP (xP c)) 13))) Finset.univ) :=
  pay_qr_paid_odd m c 13 d (by decide)

theorem pay_qr_paid_14 (c : Dev nD) (d : Fin 3) : (sched (F := F) m).payload (fcell (xP c) Fam.qr 14) 0 d
    = iprop(∃ fd, ((oRowZ c 14).view.loc (xP c : Thread nD τ)) ↦[(oRowZ c 14).view.set]{fullShare}
        (oRowZ c 14).view.write (Elt F) fd ((slab zrM 14).view.read (Elt F) (slabBuf (chunk m (yP (zP c)) 14))) Finset.univ) :=
  pay_qr_paid_even m c 14 d (by decide)

theorem pay_qr_paid_15 (c : Dev nD) (d : Fin 3) : (sched (F := F) m).payload (fcell (zP c) Fam.qr 15) 0 d
    = iprop(∃ fd, ((oRowX c 15).view.loc (zP c : Thread nD τ)) ↦[(oRowX c 15).view.set]{fullShare}
        (oRowX c 15).view.write (Elt F) fd ((slab xrM 15).view.read (Elt F) (slabBuf (chunk m (yP (xP c)) 15))) Finset.univ) :=
  pay_qr_paid_odd m c 15 d (by decide)

/-! ## The owner's view of the fourth hop's send cell -/

theorem pay_qs_own_0 (c : Dev nD) (d : Fin 3) : (sched (F := F) m).payload (fcell c Fam.qs 0) 0 d
    = (((slab zrM 0).view.loc (c : Thread nD τ)) ↦[(slab zrM 0).view.set]{qX} slabBuf (chunk m (yP (zP c)) 0)) :=
  pay_qs_own_even m c 0 d (by decide)

theorem pay_qs_own_1 (c : Dev nD) (d : Fin 3) : (sched (F := F) m).payload (fcell c Fam.qs 1) 0 d
    = (((slab xrM 1).view.loc (c : Thread nD τ)) ↦[(slab xrM 1).view.set]{qX} slabBuf (chunk m (yP (xP c)) 1)) :=
  pay_qs_own_odd m c 1 d (by decide)

theorem pay_qs_own_2 (c : Dev nD) (d : Fin 3) : (sched (F := F) m).payload (fcell c Fam.qs 2) 0 d
    = (((slab zrM 2).view.loc (c : Thread nD τ)) ↦[(slab zrM 2).view.set]{qX} slabBuf (chunk m (yP (zP c)) 2)) :=
  pay_qs_own_even m c 2 d (by decide)

theorem pay_qs_own_3 (c : Dev nD) (d : Fin 3) : (sched (F := F) m).payload (fcell c Fam.qs 3) 0 d
    = (((slab xrM 3).view.loc (c : Thread nD τ)) ↦[(slab xrM 3).view.set]{qX} slabBuf (chunk m (yP (xP c)) 3)) :=
  pay_qs_own_odd m c 3 d (by decide)

theorem pay_qs_own_4 (c : Dev nD) (d : Fin 3) : (sched (F := F) m).payload (fcell c Fam.qs 4) 0 d
    = (((slab zrM 4).view.loc (c : Thread nD τ)) ↦[(slab zrM 4).view.set]{qX} slabBuf (chunk m (yP (zP c)) 4)) :=
  pay_qs_own_even m c 4 d (by decide)

theorem pay_qs_own_5 (c : Dev nD) (d : Fin 3) : (sched (F := F) m).payload (fcell c Fam.qs 5) 0 d
    = (((slab xrM 5).view.loc (c : Thread nD τ)) ↦[(slab xrM 5).view.set]{qX} slabBuf (chunk m (yP (xP c)) 5)) :=
  pay_qs_own_odd m c 5 d (by decide)

theorem pay_qs_own_6 (c : Dev nD) (d : Fin 3) : (sched (F := F) m).payload (fcell c Fam.qs 6) 0 d
    = (((slab zrM 6).view.loc (c : Thread nD τ)) ↦[(slab zrM 6).view.set]{qX} slabBuf (chunk m (yP (zP c)) 6)) :=
  pay_qs_own_even m c 6 d (by decide)

theorem pay_qs_own_7 (c : Dev nD) (d : Fin 3) : (sched (F := F) m).payload (fcell c Fam.qs 7) 0 d
    = (((slab xrM 7).view.loc (c : Thread nD τ)) ↦[(slab xrM 7).view.set]{qX} slabBuf (chunk m (yP (xP c)) 7)) :=
  pay_qs_own_odd m c 7 d (by decide)

theorem pay_qs_own_8 (c : Dev nD) (d : Fin 3) : (sched (F := F) m).payload (fcell c Fam.qs 8) 0 d
    = (((slab zrM 8).view.loc (c : Thread nD τ)) ↦[(slab zrM 8).view.set]{qX} slabBuf (chunk m (yP (zP c)) 8)) :=
  pay_qs_own_even m c 8 d (by decide)

theorem pay_qs_own_9 (c : Dev nD) (d : Fin 3) : (sched (F := F) m).payload (fcell c Fam.qs 9) 0 d
    = (((slab xrM 9).view.loc (c : Thread nD τ)) ↦[(slab xrM 9).view.set]{qX} slabBuf (chunk m (yP (xP c)) 9)) :=
  pay_qs_own_odd m c 9 d (by decide)

theorem pay_qs_own_10 (c : Dev nD) (d : Fin 3) : (sched (F := F) m).payload (fcell c Fam.qs 10) 0 d
    = (((slab zrM 10).view.loc (c : Thread nD τ)) ↦[(slab zrM 10).view.set]{qX} slabBuf (chunk m (yP (zP c)) 10)) :=
  pay_qs_own_even m c 10 d (by decide)

theorem pay_qs_own_11 (c : Dev nD) (d : Fin 3) : (sched (F := F) m).payload (fcell c Fam.qs 11) 0 d
    = (((slab xrM 11).view.loc (c : Thread nD τ)) ↦[(slab xrM 11).view.set]{qX} slabBuf (chunk m (yP (xP c)) 11)) :=
  pay_qs_own_odd m c 11 d (by decide)

theorem pay_qs_own_12 (c : Dev nD) (d : Fin 3) : (sched (F := F) m).payload (fcell c Fam.qs 12) 0 d
    = (((slab zrM 12).view.loc (c : Thread nD τ)) ↦[(slab zrM 12).view.set]{qX} slabBuf (chunk m (yP (zP c)) 12)) :=
  pay_qs_own_even m c 12 d (by decide)

theorem pay_qs_own_13 (c : Dev nD) (d : Fin 3) : (sched (F := F) m).payload (fcell c Fam.qs 13) 0 d
    = (((slab xrM 13).view.loc (c : Thread nD τ)) ↦[(slab xrM 13).view.set]{qX} slabBuf (chunk m (yP (xP c)) 13)) :=
  pay_qs_own_odd m c 13 d (by decide)

theorem pay_qs_own_14 (c : Dev nD) (d : Fin 3) : (sched (F := F) m).payload (fcell c Fam.qs 14) 0 d
    = (((slab zrM 14).view.loc (c : Thread nD τ)) ↦[(slab zrM 14).view.set]{qX} slabBuf (chunk m (yP (zP c)) 14)) :=
  pay_qs_own_even m c 14 d (by decide)

theorem pay_qs_own_15 (c : Dev nD) (d : Fin 3) : (sched (F := F) m).payload (fcell c Fam.qs 15) 0 d
    = (((slab xrM 15).view.loc (c : Thread nD τ)) ↦[(slab xrM 15).view.set]{qX} slabBuf (chunk m (yP (xP c)) 15)) :=
  pay_qs_own_odd m c 15 d (by decide)

end Cert.Kernel.A2A

end
-- ==== Proof.BTables4.lean ====
import proofs.«900640_g7700000000000641_dist_a2a_v7x_xyz2x2x4_y_m4096_n1024_f32_1_alg».proof.Proof.BTables2

/-!
# The barrier cell's payloads as single chains

What a partner offers with its barrier signal is a list of landing windows: sixteen chunks of a scratch buffer and,
across `x` and `z`, eight row blocks of the fourth quarter. The same equations as before, with every right-hand side
one right-nested chain of its windows in the same order: separating conjunction associates.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-- Separating conjunction associates. -/
theorem bar_sep_assoc (P Q R : sProp 𝕄) : iprop((P ∗ Q) ∗ R) = iprop(P ∗ Q ∗ R) :=
  Idealize.SL.BI.Entails.antisymm Idealize.SL.BI.sep_assoc Idealize.SL.BI.sep_assoc'

section Bar
variable (c : Dev nD)

/-! ## The payer's view -/

theorem pay_bar_x_paid_flat : (sched (F := F) m).payload (barCell (xP c)) 0 1
    = iprop((∃ f, ((slab xrM 0).view.loc (c : Thread nD τ)) ↦[(slab xrM 0).view.set]{fullShare} f)
        ∗ (∃ f, ((slab xrM 1).view.loc (c : Thread nD τ)) ↦[(slab xrM 1).view.set]{fullShare} f)
        ∗ (∃ f, ((slab xrM 2).view.loc (c : Thread nD τ)) ↦[(slab xrM 2).view.set]{fullShare} f)
        ∗ (∃ f, ((slab xrM 3).view.loc (c : Thread nD τ)) ↦[(slab xrM 3).view.set]{fullShare} f)
        ∗ (∃ f, ((slab xrM 4).view.loc (c : Thread nD τ)) ↦[(slab xrM 4).view.set]{fullShare} f)
        ∗ (∃ f, ((slab xrM 5).view.loc (c : Thread nD τ)) ↦[(slab xrM 5).view.set]{fullShare} f)
        ∗ (∃ f, ((slab xrM 6).view.loc (c : Thread nD τ)) ↦[(slab xrM 6).view.set]{fullShare} f)
        ∗ (∃ f, ((slab xrM 7).view.loc (c : Thread nD τ)) ↦[(slab xrM 7).view.set]{fullShare} f)
        ∗ (∃ f, ((slab xrM 8).view.loc (c : Thread nD τ)) ↦[(slab xrM 8).view.set]{fullShare} f)
        ∗ (∃ f, ((slab xrM 9).view.loc (c : Thread nD τ)) ↦[(slab xrM 9).view.set]{fullShare} f)
        ∗ (∃ f, ((slab xrM 10).view.loc (c : Thread nD τ)) ↦[(slab xrM 10).view.set]{fullShare} f)
        ∗ (∃ f, ((slab xrM 11).view.loc (c : Thread nD τ)) ↦[(slab xrM 11).view.set]{fullShare} f)
        ∗ (∃ f, ((slab xrM 12).view.loc (c : Thread nD τ)) ↦[(slab xrM 12).view.set]{fullShare} f)
        ∗ (∃ f, ((slab xrM 13).view.loc (c : Thread nD τ)) ↦[(slab xrM 13).view.set]{fullShare} f)
        ∗ (∃ f, ((slab xrM 14).view.loc (c : Thread nD τ)) ↦[(slab xrM 14).view.set]{fullShare} f)
        ∗ (∃ f, ((slab xrM 15).view.loc (c : Thread nD τ)) ↦[(slab xrM 15).view.set]{fullShare} f)
        ∗ (∃ f, ((oRow (k0_off6 (xP c) (wd 0)) (k0_off6_inb (xP c) 0)).view.loc (c : Thread nD τ)) ↦[(oRow (k0_off6 (xP c) (wd 0)) (k0_off6_inb (xP c) 0)).view.set]{fullShare} f)
        ∗ (∃ f, ((oRow (k0_off6 (xP c) (wd 2)) (k0_off6_inb (xP c) 2)).view.loc (c : Thread nD τ)) ↦[(oRow (k0_off6 (xP c) (wd 2)) (k0_off6_inb (xP c) 2)).view.set]{fullShare} f)
        ∗ (∃ f, ((oRow (k0_off6 (xP c) (wd 4)) (k0_off6_inb (xP c) 4)).view.loc (c : Thread nD τ)) ↦[(oRow (k0_off6 (xP c) (wd 4)) (k0_off6_inb (xP c) 4)).view.set]{fullShare} f)
        ∗ (∃ f, ((oRow (k0_off6 (xP c) (wd 6)) (k0_off6_inb (xP c) 6)).view.loc (c : Thread nD τ)) ↦[(oRow (k0_off6 (xP c) (wd 6)) (k0_off6_inb (xP c) 6)).view.set]{fullShare} f)
        ∗ (∃ f, ((oRow (k0_off6 (xP c) (wd 8)) (k0_off6_inb (xP c) 8)).view.loc (c : Thread nD τ)) ↦[(oRow (k0_off6 (xP c) (wd 8)) (k0_off6_inb (xP c) 8)).view.set]{fullShare} f)
        ∗ (∃ f, ((oRow (k0_off6 (xP c) (wd 10)) (k0_off6_inb (xP c) 10)).view.loc (c : Thread nD τ)) ↦[(oRow (k0_off6 (xP c) (wd 10)) (k0_off6_inb (xP c) 10)).view.set]{fullShare} f)
        ∗ (∃ f, ((oRow (k0_off6 (xP c) (wd 12)) (k0_off6_inb (xP c) 12)).view.loc (c : Thread nD τ)) ↦[(oRow (k0_off6 (xP c) (wd 12)) (k0_off6_inb (xP c) 12)).view.set]{fullShare} f)
        ∗ (∃ f, ((oRow (k0_off6 (xP c) (wd 14)) (k0_off6_inb (xP c) 14)).view.loc (c : Thread nD τ)) ↦[(oRow (k0_off6 (xP c) (wd 14)) (k0_off6_inb (xP c) 14)).view.set]{fullShare} f)) := by
  rw [pay_bar_x_paid]
  simp only [bar_sep_assoc]

theorem pay_bar_z_paid_flat : (sched (F := F) m).payload (barCell (zP c)) 0 2
    = iprop((∃ f, ((slab zrM 0).view.loc (c : Thread nD τ)) ↦[(slab zrM 0).view.set]{fullShare} f)
        ∗ (∃ f, ((slab zrM 1).view.loc (c : Thread nD τ)) ↦[(slab zrM 1).view.set]{fullShare} f)
        ∗ (∃ f, ((slab zrM 2).view.loc (c : Thread nD τ)) ↦[(slab zrM 2).view.set]{fullShare} f)
        ∗ (∃ f, ((slab zrM 3).view.loc (c : Thread nD τ)) ↦[(slab zrM 3).view.set]{fullShare} f)
        ∗ (∃ f, ((slab zrM 4).view.loc (c : Thread nD τ)) ↦[(slab zrM 4).view.set]{fullShare} f)
        ∗ (∃ f, ((slab zrM 5).view.loc (c : Thread nD τ)) ↦[(slab zrM 5).view.set]{fullShare} f)
        ∗ (∃ f, ((slab zrM 6).view.loc (c : Thread nD τ)) ↦[(slab zrM 6).view.set]{fullShare} f)
        ∗ (∃ f, ((slab zrM 7).view.loc (c : Thread nD τ)) ↦[(slab zrM 7).view.set]{fullShare} f)
        ∗ (∃ f, ((slab zrM 8).view.loc (c : Thread nD τ)) ↦[(slab zrM 8).view.set]{fullShare} f)
        ∗ (∃ f, ((slab zrM 9).view.loc (c : Thread nD τ)) ↦[(slab zrM 9).view.set]{fullShare} f)
        ∗ (∃ f, ((slab zrM 10).view.loc (c : Thread nD τ)) ↦[(slab zrM 10).view.set]{fullShare} f)
        ∗ (∃ f, ((slab zrM 11).view.loc (c : Thread nD τ)) ↦[(slab zrM 11).view.set]{fullShare} f)
        ∗ (∃ f, ((slab zrM 12).view.loc (c : Thread nD τ)) ↦[(slab zrM 12).view.set]{fullShare} f)
        ∗ (∃ f, ((slab zrM 13).view.loc (c : Thread nD τ)) ↦[(slab zrM 13).view.set]{fullShare} f)
        ∗ (∃ f, ((slab zrM 14).view.loc (c : Thread nD τ)) ↦[(slab zrM 14).view.set]{fullShare} f)
        ∗ (∃ f, ((slab zrM 15).view.loc (c : Thread nD τ)) ↦[(slab zrM 15).view.set]{fullShare} f)
        ∗ (∃ f, ((oRow (k0_off5 (zP c) (wd 1)) (k0_off5_inb (zP c) 1)).view.loc (c : Thread nD τ)) ↦[(oRow (k0_off5 (zP c) (wd 1)) (k0_off5_inb (zP c) 1)).view.set]{fullShare} f)
        ∗ (∃ f, ((oRow (k0_off5 (zP c) (wd 3)) (k0_off5_inb (zP c) 3)).view.loc (c : Thread nD τ)) ↦[(oRow (k0_off5 (zP c) (wd 3)) (k0_off5_inb (zP c) 3)).view.set]{fullShare} f)
        ∗ (∃ f, ((oRow (k0_off5 (zP c) (wd 5)) (k0_off5_inb (zP c) 5)).view.loc (c : Thread nD τ)) ↦[(oRow (k0_off5 (zP c) (wd 5)) (k0_off5_inb (zP c) 5)).view.set]{fullShare} f)
        ∗ (∃ f, ((oRow (k0_off5 (zP c) (wd 7)) (k0_off5_inb (zP c) 7)).view.loc (c : Thread nD τ)) ↦[(oRow (k0_off5 (zP c) (wd 7)) (k0_off5_inb (zP c) 7)).view.set]{fullShare} f)
        ∗ (∃ f, ((oRow (k0_off5 (zP c) (wd 9)) (k0_off5_inb (zP c) 9)).view.loc (c : Thread nD τ)) ↦[(oRow (k0_off5 (zP c) (wd 9)) (k0_off5_inb (zP c) 9)).view.set]{fullShare} f)
        ∗ (∃ f, ((oRow (k0_off5 (zP c) (wd 11)) (k0_off5_inb (zP c) 11)).view.loc (c : Thread nD τ)) ↦[(oRow (k0_off5 (zP c) (wd 11)) (k0_off5_inb (zP c) 11)).view.set]{fullShare} f)
        ∗ (∃ f, ((oRow (k0_off5 (zP c) (wd 13)) (k0_off5_inb (zP c) 13)).view.loc (c : Thread nD τ)) ↦[(oRow (k0_off5 (zP c) (wd 13)) (k0_off5_inb (zP c) 13)).view.set]{fullShare} f)
        ∗ (∃ f, ((oRow (k0_off5 (zP c) (wd 15)) (k0_off5_inb (zP c) 15)).view.loc (c : Thread nD τ)) ↦[(oRow (k0_off5 (zP c) (wd 15)) (k0_off5_inb (zP c) 15)).view.set]{fullShare} f)) := by
  rw [pay_bar_z_paid]
  simp only [bar_sep_assoc]

/-! ## The owner's view -/

theorem pay_bar1_own_flat : (sched (F := F) m).payload (barCell c) 0 1
    = iprop((∃ f, ((slab xrM 0).view.loc (xP c : Thread nD τ)) ↦[(slab xrM 0).view.set]{fullShare} f)
        ∗ (∃ f, ((slab xrM 1).view.loc (xP c : Thread nD τ)) ↦[(slab xrM 1).view.set]{fullShare} f)
        ∗ (∃ f, ((slab xrM 2).view.loc (xP c : Thread nD τ)) ↦[(slab xrM 2).view.set]{fullShare} f)
        ∗ (∃ f, ((slab xrM 3).view.loc (xP c : Thread nD τ)) ↦[(slab xrM 3).view.set]{fullShare} f)
        ∗ (∃ f, ((slab xrM 4).view.loc (xP c : Thread nD τ)) ↦[(slab xrM 4).view.set]{fullShare} f)
        ∗ (∃ f, ((slab xrM 5).view.loc (xP c : Thread nD τ)) ↦[(slab xrM 5).view.set]{fullShare} f)
        ∗ (∃ f, ((slab xrM 6).view.loc (xP c : Thread nD τ)) ↦[(slab xrM 6).view.set]{fullShare} f)
        ∗ (∃ f, ((slab xrM 7).view.loc (xP c : Thread nD τ)) ↦[(slab xrM 7).view.set]{fullShare} f)
        ∗ (∃ f, ((slab xrM 8).view.loc (xP c : Thread nD τ)) ↦[(slab xrM 8).view.set]{fullShare} f)
        ∗ (∃ f, ((slab xrM 9).view.loc (xP c : Thread nD τ)) ↦[(slab xrM 9).view.set]{fullShare} f)
        ∗ (∃ f, ((slab xrM 10).view.loc (xP c : Thread nD τ)) ↦[(slab xrM 10).view.set]{fullShare} f)
        ∗ (∃ f, ((slab xrM 11).view.loc (xP c : Thread nD τ)) ↦[(slab xrM 11).view.set]{fullShare} f)
        ∗ (∃ f, ((slab xrM 12).view.loc (xP c : Thread nD τ)) ↦[(slab xrM 12).view.set]{fullShare} f)
        ∗ (∃ f, ((slab xrM 13).view.loc (xP c : Thread nD τ)) ↦[(slab xrM 13).view.set]{fullShare} f)
        ∗ (∃ f, ((slab xrM 14).view.loc (xP c : Thread nD τ)) ↦[(slab xrM 14).view.set]{fullShare} f)
        ∗ (∃ f, ((slab xrM 15).view.loc (xP c : Thread nD τ)) ↦[(slab xrM 15).view.set]{fullShare} f)
        ∗ (∃ f, ((oRow (k0_off6 c (wd 0)) (k0_off6_inb c 0)).view.loc (xP c : Thread nD τ)) ↦[(oRow (k0_off6 c (wd 0)) (k0_off6_inb c 0)).view.set]{fullShare} f)
        ∗ (∃ f, ((oRow (k0_off6 c (wd 2)) (k0_off6_inb c 2)).view.loc (xP c : Thread nD τ)) ↦[(oRow (k0_off6 c (wd 2)) (k0_off6_inb c 2)).view.set]{fullShare} f)
        ∗ (∃ f, ((oRow (k0_off6 c (wd 4)) (k0_off6_inb c 4)).view.loc (xP c : Thread nD τ)) ↦[(oRow (k0_off6 c (wd 4)) (k0_off6_inb c 4)).view.set]{fullShare} f)
        ∗ (∃ f, ((oRow (k0_off6 c (wd 6)) (k0_off6_inb c 6)).view.loc (xP c : Thread nD τ)) ↦[(oRow (k0_off6 c (wd 6)) (k0_off6_inb c 6)).view.set]{fullShare} f)
        ∗ (∃ f, ((oRow (k0_off6 c (wd 8)) (k0_off6_inb c 8)).view.loc (xP c : Thread nD τ)) ↦[(oRow (k0_off6 c (wd 8)) (k0_off6_inb c 8)).view.set]{fullShare} f)
        ∗ (∃ f, ((oRow (k0_off6 c (wd 10)) (k0_off6_inb c 10)).view.loc (xP c : Thread nD τ)) ↦[(oRow (k0_off6 c (wd 10)) (k0_off6_inb c 10)).view.set]{fullShare} f)
        ∗ (∃ f, ((oRow (k0_off6 c (wd 12)) (k0_off6_inb c 12)).view.loc (xP c : Thread nD τ)) ↦[(oRow (k0_off6 c (wd 12)) (k0_off6_inb c 12)).view.set]{fullShare} f)
        ∗ (∃ f, ((oRow (k0_off6 c (wd 14)) (k0_off6_inb c 14)).view.loc (xP c : Thread nD τ)) ↦[(oRow (k0_off6 c (wd 14)) (k0_off6_inb c 14)).view.set]{fullShare} f)) := by
  rw [pay_bar1_own]
  simp only [bar_sep_assoc]

theorem pay_bar2_own_flat : (sched (F := F) m).payload (barCell c) 0 2
    = iprop((∃ f, ((slab zrM 0).view.loc (zP c : Thread nD τ)) ↦[(slab zrM 0).view.set]{fullShare} f)
        ∗ (∃ f, ((slab zrM 1).view.loc (zP c : Thread nD τ)) ↦[(slab zrM 1).view.set]{fullShare} f)
        ∗ (∃ f, ((slab zrM 2).view.loc (zP c : Thread nD τ)) ↦[(slab zrM 2).view.set]{fullShare} f)
        ∗ (∃ f, ((slab zrM 3).view.loc (zP c : Thread nD τ)) ↦[(slab zrM 3).view.set]{fullShare} f)
        ∗ (∃ f, ((slab zrM 4).view.loc (zP c : Thread nD τ)) ↦[(slab zrM 4).view.set]{fullShare} f)
        ∗ (∃ f, ((slab zrM 5).view.loc (zP c : Thread nD τ)) ↦[(slab zrM 5).view.set]{fullShare} f)
        ∗ (∃ f, ((slab zrM 6).view.loc (zP c : Thread nD τ)) ↦[(slab zrM 6).view.set]{fullShare} f)
        ∗ (∃ f, ((slab zrM 7).view.loc (zP c : Thread nD τ)) ↦[(slab zrM 7).view.set]{fullShare} f)
        ∗ (∃ f, ((slab zrM 8).view.loc (zP c : Thread nD τ)) ↦[(slab zrM 8).view.set]{fullShare} f)
        ∗ (∃ f, ((slab zrM 9).view.loc (zP c : Thread nD τ)) ↦[(slab zrM 9).view.set]{fullShare} f)
        ∗ (∃ f, ((slab zrM 10).view.loc (zP c : Thread nD τ)) ↦[(slab zrM 10).view.set]{fullShare} f)
        ∗ (∃ f, ((slab zrM 11).view.loc (zP c : Thread nD τ)) ↦[(slab zrM 11).view.set]{fullShare} f)
        ∗ (∃ f, ((slab zrM 12).view.loc (zP c : Thread nD τ)) ↦[(slab zrM 12).view.set]{fullShare} f)
        ∗ (∃ f, ((slab zrM 13).view.loc (zP c : Thread nD τ)) ↦[(slab zrM 13).view.set]{fullShare} f)
        ∗ (∃ f, ((slab zrM 14).view.loc (zP c : Thread nD τ)) ↦[(slab zrM 14).view.set]{fullShare} f)
        ∗ (∃ f, ((slab zrM 15).view.loc (zP c : Thread nD τ)) ↦[(slab zrM 15).view.set]{fullShare} f)
        ∗ (∃ f, ((oRow (k0_off5 c (wd 1)) (k0_off5_inb c 1)).view.loc (zP c : Thread nD τ)) ↦[(oRow (k0_off5 c (wd 1)) (k0_off5_inb c 1)).view.set]{fullShare} f)
        ∗ (∃ f, ((oRow (k0_off5 c (wd 3)) (k0_off5_inb c 3)).view.loc (zP c : Thread nD τ)) ↦[(oRow (k0_off5 c (wd 3)) (k0_off5_inb c 3)).view.set]{fullShare} f)
        ∗ (∃ f, ((oRow (k0_off5 c (wd 5)) (k0_off5_inb c 5)).view.loc (zP c : Thread nD τ)) ↦[(oRow (k0_off5 c (wd 5)) (k0_off5_inb c 5)).view.set]{fullShare} f)
        ∗ (∃ f, ((oRow (k0_off5 c (wd 7)) (k0_off5_inb c 7)).view.loc (zP c : Thread nD τ)) ↦[(oRow (k0_off5 c (wd 7)) (k0_off5_inb c 7)).view.set]{fullShare} f)
        ∗ (∃ f, ((oRow (k0_off5 c (wd 9)) (k0_off5_inb c 9)).view.loc (zP c : Thread nD τ)) ↦[(oRow (k0_off5 c (wd 9)) (k0_off5_inb c 9)).view.set]{fullShare} f)
        ∗ (∃ f, ((oRow (k0_off5 c (wd 11)) (k0_off5_inb c 11)).view.loc (zP c : Thread nD τ)) ↦[(oRow (k0_off5 c (wd 11)) (k0_off5_inb c 11)).view.set]{fullShare} f)
        ∗ (∃ f, ((oRow (k0_off5 c (wd 13)) (k0_off5_inb c 13)).view.loc (zP c : Thread nD τ)) ↦[(oRow (k0_off5 c (wd 13)) (k0_off5_inb c 13)).view.set]{fullShare} f)
        ∗ (∃ f, ((oRow (k0_off5 c (wd 15)) (k0_off5_inb c 15)).view.loc (zP c : Thread nD τ)) ↦[(oRow (k0_off5 c (wd 15)) (k0_off5_inb c 15)).view.set]{fullShare} f)) := by
  rw [pay_bar2_own]
  simp only [bar_sep_assoc]

/-- The whole round of the barrier cell, no duty taken: the three partners' offers, one window after another. -/
theorem rest_bar_own_flat : bigSep ((sched (F := F) m).duties (barCell c) 0 \ ∅) (fun d => (sched (F := F) m).payload (barCell c) 0 d)
    = iprop((∃ f, ((slab rM 0).view.loc (yP c : Thread nD τ)) ↦[(slab rM 0).view.set]{fullShare} f)
        ∗ (∃ f, ((slab rM 1).view.loc (yP c : Thread nD τ)) ↦[(slab rM 1).view.set]{fullShare} f)
        ∗ (∃ f, ((slab rM 2).view.loc (yP c : Thread nD τ)) ↦[(slab rM 2).view.set]{fullShare} f)
        ∗ (∃ f, ((slab rM 3).view.loc (yP c : Thread nD τ)) ↦[(slab rM 3).view.set]{fullShare} f)
        ∗ (∃ f, ((slab rM 4).view.loc (yP c : Thread nD τ)) ↦[(slab rM 4).view.set]{fullShare} f)
        ∗ (∃ f, ((slab rM 5).view.loc (yP c : Thread nD τ)) ↦[(slab rM 5).view.set]{fullShare} f)
        ∗ (∃ f, ((slab rM 6).view.loc (yP c : Thread nD τ)) ↦[(slab rM 6).view.set]{fullShare} f)
        ∗ (∃ f, ((slab rM 7).view.loc (yP c : Thread nD τ)) ↦[(slab rM 7).view.set]{fullShare} f)
        ∗ (∃ f, ((slab rM 8).view.loc (yP c : Thread nD τ)) ↦[(slab rM 8).view.set]{fullShare} f)
        ∗ (∃ f, ((slab rM 9).view.loc (yP c : Thread nD τ)) ↦[(slab rM 9).view.set]{fullShare} f)
        ∗ (∃ f, ((slab rM 10).view.loc (yP c : Thread nD τ)) ↦[(slab rM 10).view.set]{fullShare} f)
        ∗ (∃ f, ((slab rM 11).view.loc (yP c : Thread nD τ)) ↦[(slab rM 11).view.set]{fullShare} f)
        ∗ (∃ f, ((slab rM 12).view.loc (yP c : Thread nD τ)) ↦[(slab rM 12).view.set]{fullShare} f)
        ∗ (∃ f, ((slab rM 13).view.loc (yP c : Thread nD τ)) ↦[(slab rM 13).view.set]{fullShare} f)
        ∗ (∃ f, ((slab rM 14).view.loc (yP c : Thread nD τ)) ↦[(slab rM 14).view.set]{fullShare} f)
        ∗ (∃ f, ((slab rM 15).view.loc (yP c : Thread nD τ)) ↦[(slab rM 15).view.set]{fullShare} f)
        ∗ (∃ f, ((slab xrM 0).view.loc (xP c : Thread nD τ)) ↦[(slab xrM 0).view.set]{fullShare} f)
        ∗ (∃ f, ((slab xrM 1).view.loc (xP c : Thread nD τ)) ↦[(slab xrM 1).view.set]{fullShare} f)
        ∗ (∃ f, ((slab xrM 2).view.loc (xP c : Thread nD τ)) ↦[(slab xrM 2).view.set]{fullShare} f)
        ∗ (∃ f, ((slab xrM 3).view.loc (xP c : Thread nD τ)) ↦[(slab xrM 3).view.set]{fullShare} f)
        ∗ (∃ f, ((slab xrM 4).view.loc (xP c : Thread nD τ)) ↦[(slab xrM 4).view.set]{fullShare} f)
        ∗ (∃ f, ((slab xrM 5).view.loc (xP c : Thread nD τ)) ↦[(slab xrM 5).view.set]{fullShare} f)
        ∗ (∃ f, ((slab xrM 6).view.loc (xP c : Thread nD τ)) ↦[(slab xrM 6).view.set]{fullShare} f)
        ∗ (∃ f, ((slab xrM 7).view.loc (xP c : Thread nD τ)) ↦[(slab xrM 7).view.set]{fullShare} f)
        ∗ (∃ f, ((slab xrM 8).view.loc (xP c : Thread nD τ)) ↦[(slab xrM 8).view.set]{fullShare} f)
        ∗ (∃ f, ((slab xrM 9).view.loc (xP c : Thread nD τ)) ↦[(slab xrM 9).view.set]{fullShare} f)
        ∗ (∃ f, ((slab xrM 10).view.loc (xP c : Thread nD τ)) ↦[(slab xrM 10).view.set]{fullShare} f)
        ∗ (∃ f, ((slab xrM 11).view.loc (xP c : Thread nD τ)) ↦[(slab xrM 11).view.set]{fullShare} f)
        ∗ (∃ f, ((slab xrM 12).view.loc (xP c : Thread nD τ)) ↦[(slab xrM 12).view.set]{fullShare} f)
        ∗ (∃ f, ((slab xrM 13).view.loc (xP c : Thread nD τ)) ↦[(slab xrM 13).view.set]{fullShare} f)
        ∗ (∃ f, ((slab xrM 14).view.loc (xP c : Thread nD τ)) ↦[(slab xrM 14).view.set]{fullShare} f)
        ∗ (∃ f, ((slab xrM 15).view.loc (xP c : Thread nD τ)) ↦[(slab xrM 15).view.set]{fullShare} f)
        ∗ (∃ f, ((oRow (k0_off6 c (wd 0)) (k0_off6_inb c 0)).view.loc (xP c : Thread nD τ)) ↦[(oRow (k0_off6 c (wd 0)) (k0_off6_inb c 0)).view.set]{fullShare} f)
        ∗ (∃ f, ((oRow (k0_off6 c (wd 2)) (k0_off6_inb c 2)).view.loc (xP c : Thread nD τ)) ↦[(oRow (k0_off6 c (wd 2)) (k0_off6_inb c 2)).view.set]{fullShare} f)
        ∗ (∃ f, ((oRow (k0_off6 c (wd 4)) (k0_off6_inb c 4)).view.loc (xP c : Thread nD τ)) ↦[(oRow (k0_off6 c (wd 4)) (k0_off6_inb c 4)).view.set]{fullShare} f)
        ∗ (∃ f, ((oRow (k0_off6 c (wd 6)) (k0_off6_inb c 6)).view.loc (xP c : Thread nD τ)) ↦[(oRow (k0_off6 c (wd 6)) (k0_off6_inb c 6)).view.set]{fullShare} f)
        ∗ (∃ f, ((oRow (k0_off6 c (wd 8)) (k0_off6_inb c 8)).view.loc (xP c : Thread nD τ)) ↦[(oRow (k0_off6 c (wd 8)) (k0_off6_inb c 8)).view.set]{fullShare} f)
        ∗ (∃ f, ((oRow (k0_off6 c (wd 10)) (k0_off6_inb c 10)).view.loc (xP c : Thread nD τ)) ↦[(oRow (k0_off6 c (wd 10)) (k0_off6_inb c 10)).view.set]{fullShare} f)
        ∗ (∃ f, ((oRow (k0_off6 c (wd 12)) (k0_off6_inb c 12)).view.loc (xP c : Thread nD τ)) ↦[(oRow (k0_off6 c (wd 12)) (k0_off6_inb c 12)).view.set]{fullShare} f)
        ∗ (∃ f, ((oRow (k0_off6 c (wd 14)) (k0_off6_inb c 14)).view.loc (xP c : Thread nD τ)) ↦[(oRow (k0_off6 c (wd 14)) (k0_off6_inb c 14)).view.set]{fullShare} f)
        ∗ (∃ f, ((slab zrM 0).view.loc (zP c : Thread nD τ)) ↦[(slab zrM 0).view.set]{fullShare} f)
        ∗ (∃ f, ((slab zrM 1).view.loc (zP c : Thread nD τ)) ↦[(slab zrM 1).view.set]{fullShare} f)
        ∗ (∃ f, ((slab zrM 2).view.loc (zP c : Thread nD τ)) ↦[(slab zrM 2).view.set]{fullShare} f)
        ∗ (∃ f, ((slab zrM 3).view.loc (zP c : Thread nD τ)) ↦[(slab zrM 3).view.set]{fullShare} f)
        ∗ (∃ f, ((slab zrM 4).view.loc (zP c : Thread nD τ)) ↦[(slab zrM 4).view.set]{fullShare} f)
        ∗ (∃ f, ((slab zrM 5).view.loc (zP c : Thread nD τ)) ↦[(slab zrM 5).view.set]{fullShare} f)
        ∗ (∃ f, ((slab zrM 6).view.loc (zP c : Thread nD τ)) ↦[(slab zrM 6).view.set]{fullShare} f)
        ∗ (∃ f, ((slab zrM 7).view.loc (zP c : Thread nD τ)) ↦[(slab zrM 7).view.set]{fullShare} f)
        ∗ (∃ f, ((slab zrM 8).view.loc (zP c : Thread nD τ)) ↦[(slab zrM 8).view.set]{fullShare} f)
        ∗ (∃ f, ((slab zrM 9).view.loc (zP c : Thread nD τ)) ↦[(slab zrM 9).view.set]{fullShare} f)
        ∗ (∃ f, ((slab zrM 10).view.loc (zP c : Thread nD τ)) ↦[(slab zrM 10).view.set]{fullShare} f)
        ∗ (∃ f, ((slab zrM 11).view.loc (zP c : Thread nD τ)) ↦[(slab zrM 11).view.set]{fullShare} f)
        ∗ (∃ f, ((slab zrM 12).view.loc (zP c : Thread nD τ)) ↦[(slab zrM 12).view.set]{fullShare} f)
        ∗ (∃ f, ((slab zrM 13).view.loc (zP c : Thread nD τ)) ↦[(slab zrM 13).view.set]{fullShare} f)
        ∗ (∃ f, ((slab zrM 14).view.loc (zP c : Thread nD τ)) ↦[(slab zrM 14).view.set]{fullShare} f)
        ∗ (∃ f, ((slab zrM 15).view.loc (zP c : Thread nD τ)) ↦[(slab zrM 15).view.set]{fullShare} f)
        ∗ (∃ f, ((oRow (k0_off5 c (wd 1)) (k0_off5_inb c 1)).view.loc (zP c : Thread nD τ)) ↦[(oRow (k0_off5 c (wd 1)) (k0_off5_inb c 1)).view.set]{fullShare} f)
        ∗ (∃ f, ((oRow (k0_off5 c (wd 3)) (k0_off5_inb c 3)).view.loc (zP c : Thread nD τ)) ↦[(oRow (k0_off5 c (wd 3)) (k0_off5_inb c 3)).view.set]{fullShare} f)
        ∗ (∃ f, ((oRow (k0_off5 c (wd 5)) (k0_off5_inb c 5)).view.loc (zP c : Thread nD τ)) ↦[(oRow (k0_off5 c (wd 5)) (k0_off5_inb c 5)).view.set]{fullShare} f)
        ∗ (∃ f, ((oRow (k0_off5 c (wd 7)) (k0_off5_inb c 7)).view.loc (zP c : Thread nD τ)) ↦[(oRow (k0_off5 c (wd 7)) (k0_off5_inb c 7)).view.set]{fullShare} f)
        ∗ (∃ f, ((oRow (k0_off5 c (wd 9)) (k0_off5_inb c 9)).view.loc (zP c : Thread nD τ)) ↦[(oRow (k0_off5 c (wd 9)) (k0_off5_inb c 9)).view.set]{fullShare} f)
        ∗ (∃ f, ((oRow (k0_off5 c (wd 11)) (k0_off5_inb c 11)).view.loc (zP c : Thread nD τ)) ↦[(oRow (k0_off5 c (wd 11)) (k0_off5_inb c 11)).view.set]{fullShare} f)
        ∗ (∃ f, ((oRow (k0_off5 c (wd 13)) (k0_off5_inb c 13)).view.loc (zP c : Thread nD τ)) ↦[(oRow (k0_off5 c (wd 13)) (k0_off5_inb c 13)).view.set]{fullShare} f)
        ∗ (∃ f, ((oRow (k0_off5 c (wd 15)) (k0_off5_inb c 15)).view.loc (zP c : Thread nD τ)) ↦[(oRow (k0_off5 c (wd 15)) (k0_off5_inb c 15)).view.set]{fullShare} f)) := by
  rw [rest_bar_own]
  simp only [bar_sep_assoc]

end Bar

/-- info: 'Cert.Kernel.A2A.rest_bar_own_flat' depends on axioms: [propext, Classical.choice, Quot.sound] -/
#guard_msgs in #print axioms rest_bar_own_flat

end Cert.Kernel.A2A

end
-- ==== Proof.BTables5.lean ====
import proofs.«900640_g7700000000000641_dist_a2a_v7x_xyz2x2x4_y_m4096_n1024_f32_1_alg».proof.Proof.BTables2

/-!
# The second hop's receive payloads, the other way round

A receive cell of the second hop hands its owner the landed chunk in two shares: the one a further copy will read and
the rest. Separating conjunction is commutative, so the same payload is also the rest first and that share second.
The order is immaterial to the protocol; it only fixes which of the two is named first where the payload is unpacked.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-- Separating conjunction, as an equation, is commutative. -/
theorem sep_swap (P Q : sProp 𝕄) : (iprop(P ∗ Q) : sProp 𝕄) = iprop(Q ∗ P) :=
  have h : (iprop(P ∗ Q) : sProp 𝕄) ⊣⊢ iprop(Q ∗ P) := sep_comm
  equiv_iff.mp ⟨h.1, h.2⟩

section Pay
variable (c : Dev nD) (i : Fin 16) (d : Fin 3)

/-- What came across `x`: the rest first, then the share the fourth hop reads. -/
theorem pay_xr_own_sw : (sched (F := F) m).payload (fcell c Fam.xr i) 0 d
    = iprop((((slab xrM i).view.loc (c : Thread nD τ)) ↦[(slab xrM i).view.set]{qH} slabBuf (chunk m (yP (xP c)) i))
        ∗ (((slab xrM i).view.loc (c : Thread nD τ)) ↦[(slab xrM i).view.set]{qX} slabBuf (chunk m (yP (xP c)) i))) := by
  rw [pay_xr_own]; exact sep_swap _ _

/-- What came across `z`, likewise. -/
theorem pay_zr_own_sw : (sched (F := F) m).payload (fcell c Fam.zr i) 0 d
    = iprop((((slab zrM i).view.loc (c : Thread nD τ)) ↦[(slab zrM i).view.set]{qH} slabBuf (chunk m (yP (zP c)) i))
        ∗ (((slab zrM i).view.loc (c : Thread nD τ)) ↦[(slab zrM i).view.set]{qX} slabBuf (chunk m (yP (zP c)) i))) := by
  rw [pay_zr_own]; exact sep_swap _ _

end Pay

/-- info: 'Cert.Kernel.A2A.pay_xr_own_sw' depends on axioms: [propext, Classical.choice, Quot.sound] -/
#guard_msgs in #print axioms pay_xr_own_sw

/-- info: 'Cert.Kernel.A2A.pay_zr_own_sw' depends on axioms: [propext, Classical.choice, Quot.sound] -/
#guard_msgs in #print axioms pay_zr_own_sw

end Cert.Kernel.A2A

end
-- ==== Proof.BWritten.lean ====
import proofs.«900640_g7700000000000641_dist_a2a_v7x_xyz2x2x4_y_m4096_n1024_f32_1_alg».proof.Proof.BLanding
import proofs.«900640_g7700000000000641_dist_a2a_v7x_xyz2x2x4_y_m4096_n1024_f32_1_alg».proof.Proof.BGhost
import proofs.«900640_g7700000000000641_dist_a2a_v7x_xyz2x2x4_y_m4096_n1024_f32_1_alg».proof.Proof.BValue

/-!
# A buffer filled by one store through all of a window

A local copy leaves its destination as one store of the copied value through the whole of the destination window.
On the window's elements that is the same as writing the value through the window, so every fact about a landed
chunk or landed rows holds of it too: the chunk or the rows can be restated at their contents, and what was stored
through the whole of a window reads back through it.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## A buffer filled through the whole of a window -/

section Abstract

variable {Val : EltTy → Type} {sg : RefSig} {κ : Kind} {sp : Space} {S : Shape} {e : EltTy}

/-- Slicing a window by all of its shape leaves every index where it was. -/
theorem emb_slice_whole (w : View sg κ sp S e) (y : S.Idx) : (w.slice (Rect.whole S)).emb y = w.emb y := by
  show w.emb ((Rect.whole S).emb y) = w.emb y
  rw [Rect.emb_whole_apply]

/-- After one store of `u` through all of the window, the window's elements are those of any buffer that holds
    `u y` under every index `y` of the window. -/
theorem writes_whole_eq_of_emb (w : View sg κ sp S e) (fd g : w.ty.Contents Val) (u : S.Idx → Val e)
    (h : ∀ y, g (w.emb y) = cast (congrArg Val w.elt_eq.symm) (u y)) :
    ∀ j ∈ w.set, w.writes Val fd [⟨Rect.whole S, u⟩] j = g j := by
  intro j hj
  obtain ⟨y, rfl⟩ := View.exists_emb_of_mem_set w hj
  have e := View.write_emb_of_mem (v := w.slice (Rect.whole S)) fd u (Finset.mem_univ y)
  rw [emb_slice_whole] at e
  exact e.trans (h y).symm

/-- On the window's elements, one store through all of the window is a write through the window. -/
theorem writes_whole_eq_write (w : View sg κ sp S e) (fd : w.ty.Contents Val) (u : S.Idx → Val e) :
    ∀ j ∈ w.set, w.writes Val fd [⟨Rect.whole S, u⟩] j = w.write Val fd u Finset.univ j :=
  writes_whole_eq_of_emb w fd (w.write Val fd u Finset.univ) u
    (fun y => View.write_emb_of_mem fd u (Finset.mem_univ y))

/-- What was stored through all of the window reads back. -/
theorem read_writes_whole (w : View sg κ sp S e) (fd : w.ty.Contents Val) (u : S.Idx → Val e) :
    w.read Val (w.writes Val fd [⟨Rect.whole S, u⟩]) = u := by
  funext y
  have e := View.write_emb_of_mem (v := w.slice (Rect.whole S)) fd u (Finset.mem_univ y)
  rw [emb_slice_whole] at e
  rw [View.read_apply]
  exact (congrArg (cast (congrArg Val w.elt_eq)) e).trans (by rw [cast_cast, cast_eq])

end Abstract

/-! ## The chunks and rows, as a store through all of the window leaves them -/

theorem sPts_written (d : Dev nD) (i : Fin 16) (q : PosShare TreeShare) (f : (slab sM i).view.ty.Contents (Elt F))
    (v : Vec F S64x1024 .f32) :
    ((((slab sM i).view.loc (d : Thread nD τ)) ↦[(slab sM i).view.set]{q}
        (slab sM i).view.writes (Elt F) f [⟨Rect.whole S64x1024, v⟩]) : sProp 𝕄) = sPts d i q v :=
  pointsTo_congr fun j hj => (writes_whole_eq_write (slab sM i).view f v j hj).trans (slab_landed_s i f v j hj)

theorem rPts_written (d : Dev nD) (i : Fin 16) (q : PosShare TreeShare) (f : (slab rM i).view.ty.Contents (Elt F))
    (v : Vec F S64x1024 .f32) :
    ((((slab rM i).view.loc (d : Thread nD τ)) ↦[(slab rM i).view.set]{q}
        (slab rM i).view.writes (Elt F) f [⟨Rect.whole S64x1024, v⟩]) : sProp 𝕄) = rPts d i q v :=
  pointsTo_congr fun j hj => (writes_whole_eq_write (slab rM i).view f v j hj).trans (slab_landed_r i f v j hj)

theorem xrPts_written (d : Dev nD) (i : Fin 16) (q : PosShare TreeShare) (f : (slab xrM i).view.ty.Contents (Elt F))
    (v : Vec F S64x1024 .f32) :
    ((((slab xrM i).view.loc (d : Thread nD τ)) ↦[(slab xrM i).view.set]{q}
        (slab xrM i).view.writes (Elt F) f [⟨Rect.whole S64x1024, v⟩]) : sProp 𝕄) = xrPts d i q v :=
  pointsTo_congr fun j hj => (writes_whole_eq_write (slab xrM i).view f v j hj).trans (slab_landed_xr i f v j hj)

theorem zrPts_written (d : Dev nD) (i : Fin 16) (q : PosShare TreeShare) (f : (slab zrM i).view.ty.Contents (Elt F))
    (v : Vec F S64x1024 .f32) :
    ((((slab zrM i).view.loc (d : Thread nD τ)) ↦[(slab zrM i).view.set]{q}
        (slab zrM i).view.writes (Elt F) f [⟨Rect.whole S64x1024, v⟩]) : sProp 𝕄) = zrPts d i q v :=
  pointsTo_congr fun j hj => (writes_whole_eq_write (slab zrM i).view f v j hj).trans (slab_landed_zr i f v j hj)

theorem rowPts_written (off : Fin 2 → Nat) (h : ∀ a, off a + S64x1024.size a ≤ S8192x1024.size a)
    (h0 : off 0 % 64 = 0) (h1 : off 1 = 0) (d : Dev nD) (f : (oRow off h).view.ty.Contents (Elt F))
    (v : Vec F S64x1024 .f32) :
    ((((oRow off h).view.loc (d : Thread nD τ)) ↦[(oRow off h).view.set]{fullShare}
        (oRow off h).view.writes (Elt F) f [⟨Rect.whole S64x1024, v⟩]) : sProp 𝕄) = rowPts off h d v :=
  pointsTo_congr fun j hj => (writes_whole_eq_write (oRow off h).view f v j hj).trans (row_landed off h h0 h1 f v j hj)

omit [FloatOps F] in
/-- The own half passes through the whole staging buffer unchanged. -/
theorem lbuf_read (f : lM.view.ty.Contents (Elt F)) (v : Vec F S4096x1024 .f32) :
    lM.view.read (Elt F) (lM.view.writes (Elt F) f [⟨Rect.whole S4096x1024, v⟩]) = v :=
  read_writes_whole lM.view f v

variable (m : (ℓ : Loc nD τ sig) → Buf (Elt F) ℓ)

omit [FloatOps F] in
/-- The own half of the result, as one store through all of its window leaves it. -/
theorem own_written_out (c : Dev nD) (f : (oOwn c).view.ty.Contents (Elt F)) :
    ∀ j ∈ (oOwn c).view.set, (oOwn c).view.writes (Elt F) f [⟨Rect.whole S4096x1024, ownHalf m c⟩] j = outC m c j :=
  fun j hj => (writes_whole_eq_write (oOwn c).view f (ownHalf m c) j hj).trans (own_out m c f j hj)

/-! ## What the module rests on -/

/-- info: 'Cert.Kernel.A2A.sPts_written' depends on axioms: [propext, Classical.choice, Quot.sound] -/
#guard_msgs in #print axioms sPts_written

/-- info: 'Cert.Kernel.A2A.rPts_written' depends on axioms: [propext, Classical.choice, Quot.sound] -/
#guard_msgs in #print axioms rPts_written

/-- info: 'Cert.Kernel.A2A.xrPts_written' depends on axioms: [propext, Classical.choice, Quot.sound] -/
#guard_msgs in #print axioms xrPts_written

/-- info: 'Cert.Kernel.A2A.zrPts_written' depends on axioms: [propext, Classical.choice, Quot.sound] -/
#guard_msgs in #print axioms zrPts_written

/-- info: 'Cert.Kernel.A2A.rowPts_written' depends on axioms: [propext, Classical.choice, Quot.sound] -/
#guard_msgs in #print axioms rowPts_written

/-- info: 'Cert.Kernel.A2A.lbuf_read' depends on axioms: [propext, Classical.choice, Quot.sound] -/
#guard_msgs in #print axioms lbuf_read

/-- info: 'Cert.Kernel.A2A.own_written_out' depends on axioms: [propext, Classical.choice, Quot.sound] -/
#guard_msgs in #print axioms own_written_out

end Cert.Kernel.A2A

end
-- ==== Proof.BEndFacts.lean ====
import proofs.«900640_g7700000000000641_dist_a2a_v7x_xyz2x2x4_y_m4096_n1024_f32_1_alg».proof.Proof.BWritten

/-!
# What the pieces of the result hold when the body ends

At the end of a device's body every piece of its result was filled by a local store of a value read a moment
before: a chunk read out of a receive buffer held at its contents, or the own half read from the input and passed
through the staging buffer. Reading a buffer held at a chunk's contents gives the chunk; storing it through all of
its rows leaves rows that agree with the result there. So every piece agrees with the result on its rows, which is
what joining the pieces into the whole result asks.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

omit [FloatOps F] in
/-- The first quarter's chunk `i`, stored from what was read out of the receive buffer. -/
theorem endY (c : Dev nD) (i : Fin 16) (fo : (oRowY c i).view.ty.Contents (Elt F)) (v : Vec F S64x1024 .f32)
    (hv : v = (slab rM i).view.read (Elt F) (slabBuf (chunk m (yP c) i))) :
    ∀ j ∈ (oRowY c i).view.set, (oRowY c i).view.writes (Elt F) fo [⟨Rect.whole S64x1024, v⟩] j = outC m c j := by
  have e : v = chunk m (yP c) i := hv.trans (slab_read_r i _)
  subst e
  exact fun j hj => (writes_whole_eq_write (oRowY c i).view fo _ j hj).trans
    ((row_landed _ _ (off4_al c i).1 (off4_al c i).2 fo _ j hj).trans (rowY_out m c i j hj))

omit [FloatOps F] in
/-- The quarter that came through the `x` partner. -/
theorem endX (c : Dev nD) (i : Fin 16) (fo : (oRowX c i).view.ty.Contents (Elt F)) (v : Vec F S64x1024 .f32)
    (hv : v = (slab xrM i).view.read (Elt F) (slabBuf (chunk m (yP (xP c)) i))) :
    ∀ j ∈ (oRowX c i).view.set, (oRowX c i).view.writes (Elt F) fo [⟨Rect.whole S64x1024, v⟩] j = outC m c j := by
  have e : v = chunk m (yP (xP c)) i := hv.trans (slab_read_xr i _)
  subst e
  exact fun j hj => (writes_whole_eq_write (oRowX c i).view fo _ j hj).trans
    ((row_landed _ _ (off5_al c i).1 (off5_al c i).2 fo _ j hj).trans (rowX_out m c i j hj))

omit [FloatOps F] in
/-- The quarter that came through the `z` partner. -/
theorem endZ (c : Dev nD) (i : Fin 16) (fo : (oRowZ c i).view.ty.Contents (Elt F)) (v : Vec F S64x1024 .f32)
    (hv : v = (slab zrM i).view.read (Elt F) (slabBuf (chunk m (yP (zP c)) i))) :
    ∀ j ∈ (oRowZ c i).view.set, (oRowZ c i).view.writes (Elt F) fo [⟨Rect.whole S64x1024, v⟩] j = outC m c j := by
  have e : v = chunk m (yP (zP c)) i := hv.trans (slab_read_zr i _)
  subst e
  exact fun j hj => (writes_whole_eq_write (oRowZ c i).view fo _ j hj).trans
    ((row_landed _ _ (off6_al c i).1 (off6_al c i).2 fo _ j hj).trans (rowZ_out m c i j hj))

omit [FloatOps F] in
/-- The fourth quarter's chunks come back from their receive waits already at their contents. -/
theorem endQ (c : Dev nD) (i : Fin 16) :
    ∀ j ∈ (oRowQ c i).view.set, rowBuf (chunk m (yP (xP (zP c))) i) j = outC m c j :=
  rowQ_out m c i

omit [FloatOps F] in
/-- The own half: read from the input window, passed through the whole staging buffer, stored. -/
theorem endOwn (c : Dev nD) (fo : (oOwn c).view.ty.Contents (Elt F)) (fl : lM.view.ty.Contents (Elt F))
    (v w : Vec F S4096x1024 .f32)
    (hw : w = (aOwn c).view.read (Elt F) (m ((c : Thread nD τ).loc main_arg0)))
    (hv : v = lM.view.read (Elt F) (lM.view.writes (Elt F) fl [⟨Rect.whole S4096x1024, w⟩])) :
    ∀ j ∈ (oOwn c).view.set, (oOwn c).view.writes (Elt F) fo [⟨Rect.whole S4096x1024, v⟩] j = outC m c j := by
  have ew : w = ownHalf m c := hw
  have e : v = ownHalf m c := hv.trans ((lbuf_read fl w).trans ew)
  subst e
  exact own_written_out m c fo

/-- A chunk as loaded, ready to be sent: the load's destination restated at the chunk's contents. -/
theorem sbuf_loaded (c : Dev nD) (i : Fin 16) (fs : (slab sM i).view.ty.Contents (Elt F)) (v : Vec F S64x1024 .f32)
    (hv : v = chunk m c i) :
    ((((slab sM i).view.loc (c : Thread nD τ)) ↦[(slab sM i).view.set]{fullShare}
        (slab sM i).view.writes (Elt F) fs [⟨Rect.whole S64x1024, v⟩]) : sProp 𝕄)
      = (((slab sM i).view.loc (c : Thread nD τ)) ↦[(slab sM i).view.set]{fullShare} slabBuf (chunk m c i)) := by
  subst hv
  exact sPts_written c i fullShare fs _

/-! ## What the module rests on -/

/-- info: 'Cert.Kernel.A2A.endY' depends on axioms: [propext, Classical.choice, Quot.sound] -/
#guard_msgs in #print axioms endY

/-- info: 'Cert.Kernel.A2A.endX' depends on axioms: [propext, Classical.choice, Quot.sound] -/
#guard_msgs in #print axioms endX

/-- info: 'Cert.Kernel.A2A.endZ' depends on axioms: [propext, Classical.choice, Quot.sound] -/
#guard_msgs in #print axioms endZ

/-- info: 'Cert.Kernel.A2A.endQ' depends on axioms: [propext, Classical.choice, Quot.sound] -/
#guard_msgs in #print axioms endQ

/-- info: 'Cert.Kernel.A2A.endOwn' depends on axioms: [propext, Classical.choice, Quot.sound] -/
#guard_msgs in #print axioms endOwn

/-- info: 'Cert.Kernel.A2A.sbuf_loaded' depends on axioms: [propext, Classical.choice, Quot.sound] -/
#guard_msgs in #print axioms sbuf_loaded

end Cert.Kernel.A2A

end
-- ==== Proof.BRestate.lean ====
import proofs.«900640_g7700000000000641_dist_a2a_v7x_xyz2x2x4_y_m4096_n1024_f32_1_alg».proof.Proof.BWritten

/-!
# The stored chunks, restated at their contents

A chunk of the result filled by a local store of what was read out of a receive buffer held at a chunk's contents
holds that chunk in its rows: the read gives the chunk back, and the store through all of the rows leaves the rows
at the contents of a result every aligned block of which holds it.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-- Chunk `i` of the first quarter. -/
theorem restY (c : Dev nD) (i : Fin 16) (fo : (oRowY c i).view.ty.Contents (Elt F)) (v : Vec F S64x1024 .f32)
    (hv : v = (slab rM i).view.read (Elt F) (slabBuf (chunk m (yP c) i))) :
    (((oRowY c i).view.loc (c : Thread nD τ) ↦[(oRowY c i).view.set]{fullShare}
        (oRowY c i).view.writes (Elt F) fo [⟨Rect.whole S64x1024, v⟩]) : sProp 𝕄)
      ⊢ ((oRowY c i).view.loc (c : Thread nD τ) ↦[(oRowY c i).view.set]{fullShare} rowBuf (chunk m (yP c) i)) := by
  have e : v = chunk m (yP c) i := hv.trans (slab_read_r i _)
  subst e
  exact Entails.of_eq (rowPts_written _ _ (off4_al c i).1 (off4_al c i).2 c fo _)

/-- Chunk `i` of the quarter that came through the `x` partner. -/
theorem restX (c : Dev nD) (i : Fin 16) (fo : (oRowX c i).view.ty.Contents (Elt F)) (v : Vec F S64x1024 .f32)
    (hv : v = (slab xrM i).view.read (Elt F) (slabBuf (chunk m (yP (xP c)) i))) :
    (((oRowX c i).view.loc (c : Thread nD τ) ↦[(oRowX c i).view.set]{fullShare}
        (oRowX c i).view.writes (Elt F) fo [⟨Rect.whole S64x1024, v⟩]) : sProp 𝕄)
      ⊢ ((oRowX c i).view.loc (c : Thread nD τ) ↦[(oRowX c i).view.set]{fullShare} rowBuf (chunk m (yP (xP c)) i)) := by
  have e : v = chunk m (yP (xP c)) i := hv.trans (slab_read_xr i _)
  subst e
  exact Entails.of_eq (rowPts_written _ _ (off5_al c i).1 (off5_al c i).2 c fo _)

/-- Chunk `i` of the quarter that came through the `z` partner. -/
theorem restZ (c : Dev nD) (i : Fin 16) (fo : (oRowZ c i).view.ty.Contents (Elt F)) (v : Vec F S64x1024 .f32)
    (hv : v = (slab zrM i).view.read (Elt F) (slabBuf (chunk m (yP (zP c)) i))) :
    (((oRowZ c i).view.loc (c : Thread nD τ) ↦[(oRowZ c i).view.set]{fullShare}
        (oRowZ c i).view.writes (Elt F) fo [⟨Rect.whole S64x1024, v⟩]) : sProp 𝕄)
      ⊢ ((oRowZ c i).view.loc (c : Thread nD τ) ↦[(oRowZ c i).view.set]{fullShare} rowBuf (chunk m (yP (zP c)) i)) := by
  have e : v = chunk m (yP (zP c)) i := hv.trans (slab_read_zr i _)
  subst e
  exact Entails.of_eq (rowPts_written _ _ (off6_al c i).1 (off6_al c i).2 c fo _)

/-! ## What the module rests on -/

/-- info: 'Cert.Kernel.A2A.restY' depends on axioms: [propext, Classical.choice, Quot.sound] -/
#guard_msgs in #print axioms restY

/-- info: 'Cert.Kernel.A2A.restX' depends on axioms: [propext, Classical.choice, Quot.sound] -/
#guard_msgs in #print axioms restX

/-- info: 'Cert.Kernel.A2A.restZ' depends on axioms: [propext, Classical.choice, Quot.sound] -/
#guard_msgs in #print axioms restZ

end Cert.Kernel.A2A

end
-- ==== Proof.BAbove.lean ====
import proofs.«900640_g7700000000000641_dist_a2a_v7x_xyz2x2x4_y_m4096_n1024_f32_1_alg».proof.Proof.BLevels

/-!
# Everything owed lies above a level

A wait on a cell of level `n` is allowed while every cell the device still owes on is a TensorCore cell of a level
above `n`. What is owed at a wait is a literal sum of one-cell tallies, so "above `n`" is checked summand by summand:
a cell's level depends on its semaphore only, and for a literal semaphore it is a numeral found by evaluation.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## The predicate -/

/-- Every cell on which `O` owes anything is a TensorCore cell of a level above `n`. -/
def Above (n : ℕ) (O : CellTallies nD τ sig Unit) : Prop := ∀ g u, 0 < O g u → u ∈ L g ∧ n < lv g u

theorem Above.zero (n : ℕ) : Above n 0 := fun g u h => absurd h (Nat.lt_irrefl 0)

theorem Above.add {n : ℕ} {O₁ O₂ : CellTallies nD τ sig Unit} (h₁ : Above n O₁) (h₂ : Above n O₂) : Above n (O₁ + O₂) :=
  fun g u h => (Pipeline.add_pos_cases h).elim (h₁ g u) (h₂ g u)

/-- One tally on a device's cell whose level is above `n`. -/
theorem Above.tally (n : ℕ) (d : Dev nD) (s : SemLoc sig) (k : ℕ) (h : n < lv ((d : Thread nD τ), s) ()) :
    Above n (tallyAt ((d : Thread nD τ), s) () k) :=
  fun g' u hp => by
    obtain ⟨rfl, rfl⟩ := Pipeline.tallyAt_pos hp
    exact ⟨mem_L_tc d s (), h⟩

/-- Whatever is above a level is above every smaller one. -/
theorem Above.mono {n n' : ℕ} {O : CellTallies nD τ sig Unit} (hn : n' ≤ n) (h : Above n O) : Above n' O :=
  fun g u hp => ⟨(h g u hp).1, Nat.lt_of_le_of_lt hn (h g u hp).2⟩

/-! ## A cell's level, by its semaphore alone -/

/-- The level of a cell with semaphore `sm`, on whichever thread. -/
def lvS (sm : SemLoc sig) : ℕ :=
  match sm with
  | .reg s => if s = barS then 1 else 0
  | .dma k => match famOf k with
    | some (f, _) => if f = Fam.yr then 2 else if f = Fam.xr ∨ f = Fam.zr then 3 else if f = Fam.qr then 4 else 0
    | none => 0

theorem lv_eq_lvS (t : Thread nD τ) (sm : SemLoc sig) (u : Unit) : lv (t, sm) u = lvS sm := by
  cases sm <;> rfl

/-- A DMA semaphore that is no chunk cell (a local copy's) sits at level 0. -/
theorem lv_local (t : Thread nD τ) (k : DmaSem sig) (h : famOf k = none) : lv (t, .dma k) () = 0 := by
  rw [lv_eq_lvS]; unfold lvS; dsimp only; rw [h]

/-! ## The wait -/

/-- A wait on a cell while everything owed is above that cell's level. -/
theorem mayWait_above (c : Dev nD) (sm : SemLoc sig) (O : CellTallies nD τ sig Unit)
    (h : Above (lv ((c : Thread nD τ), sm) ()) O) : (levAts L lv : sProp 𝕄) ⊢ MayWait (c : Thread nD τ) sm () O :=
  Pipeline.mayWait_of_levAts (mem_L_tc c sm ()) fun g u hg => h g u hg

/-! ## Checking a literal sum -/

open Lean Meta Elab Tactic in
/-- The level comparisons left by splitting `Above n O` along the `+` of a literal sum `O` of one-cell tallies. Fails at
    once on any other goal. -/
partial def aboveSplit (g : MVarId) : MetaM (List MVarId) := g.withContext do
  let ty := (← whnfR (← instantiateMVars (← g.getType))).consumeMData
  unless ty.isAppOfArity ``Above 2 do throwError "above_tac: the goal is not of the form `Above n O`"
  let O := ty.appArg!.consumeMData
  if O.isAppOfArity ``HAdd.hAdd 6 then
    let gs ← g.apply (← mkConstWithFreshMVarLevels ``Above.add)
    let mut out : List MVarId := []
    for g' in gs do out := out ++ (← aboveSplit g')
    return out
  else if O.isAppOf ``Idealize.ShloMosaic.tallyAt then
    g.apply (← mkConstWithFreshMVarLevels ``Above.tally)
  else if O.isAppOfArity ``OfNat.ofNat 3 then
    g.apply (← mkConstWithFreshMVarLevels ``Above.zero)
  else throwError "above_tac: what is owed is neither a sum, a tally nor zero:{indentExpr O}"

open Lean Meta Elab Tactic in
/-- `above_split`: the goal `Above n O`, `O` a literal sum of tallies, replaced by one level comparison per summand. -/
elab "above_split" : tactic => liftMetaTactic aboveSplit

/-- `above_tac` proves `Above n O` for a literal sum `O` of tallies on devices' cells with literal semaphores and `n`
    a numeral or the level of a cell with a literal semaphore: every comparison is between two numerals once each
    level is read off its semaphore. -/
macro "above_tac" : tactic =>
  `(tactic| (above_split <;> (try simp only [lv_eq_lvS]) <;> decide))

/-! ## Checks -/

example (c : Dev nD) : Above (lv ((c : Thread nD τ), SemLoc.dma ⟨3, by decide⟩) ())
    (tallyAt (fcell (xP c) Fam.xr 0) () N + tallyAt (fcell (yP c) Fam.yr 0) () N + tallyAt (barCell (zP c)) () 1) := by
  above_tac

example (c : Dev nD) : Above (lv (barCell c) ())
    (tallyAt (fcell (xP c) Fam.xr 0) () N + tallyAt (fcell (yP c) Fam.yr 0) () N + tallyAt (fcell (zP c) Fam.qr 5) () N) := by
  above_tac

example (c : Dev nD) : Above (lv (fcell c Fam.yr 7) ())
    (tallyAt (fcell (xP c) Fam.xr 0) () N + tallyAt (fcell (zP c) Fam.zr 3) () N + tallyAt (fcell (zP c) Fam.qr 5) () N) := by
  above_tac

example (c : Dev nD) : Above (lv (fcell c Fam.zr 15) ()) (tallyAt (fcell (xP c) Fam.qr 0) () N + tallyAt (fcell (zP c) Fam.qr 5) () N) := by
  above_tac

example (c : Dev nD) : Above (lv (fcell c Fam.qr 15) ()) 0 := by
  above_tac

/-- info: 'Cert.Kernel.A2A.mayWait_above' depends on axioms: [propext, Classical.choice, Quot.sound] -/
#guard_msgs in #print axioms mayWait_above

end Cert.Kernel.A2A

end
-- ==== Proof.BCanon.lean ====
import proofs.«900640_g7700000000000641_dist_a2a_v7x_xyz2x2x4_y_m4096_n1024_f32_1_alg».proof.Proof.BProto
import Idealize.ShloMosaic.Lib.Tactic

/-!
# The program's spellings and the protocol's names

The program names a chunk's semaphore as entry `i` of one of its semaphore arrays, a chunk of a scratch buffer as
slice `i` of the whole buffer, and sixty-four rows of the input or of the result by a literal row word. Each equation
below says that one such spelling is the protocol's name for the same thing: a family's cell, a slab, a row
block, a load window.
-/

set_option maxRecDepth 16384

namespace Cert.Kernel.A2A

open Cert.Kernel Cert.Kernel.Gen
open Idealize.ShloMosaic Idealize.ShloMosaic.TcCoe

/-! ## Semaphores: entry `i` of a family's array is the family's cell for chunk `i` -/

theorem canon_sem_ys_0 : ((SemArray.slice cc0_scratch9 (Rect.unit (s := S16) ![0] S1.size inb_S16_S1_0)).squeeze S_ squeezes_S1_S_).sem = Fam.sem Fam.ys 0 := by decide
theorem canon_sem_ys_1 : ((SemArray.slice cc0_scratch9 (Rect.unit (s := S16) ![1] S1.size inb_S16_S1_1)).squeeze S_ squeezes_S1_S_).sem = Fam.sem Fam.ys 1 := by decide
theorem canon_sem_ys_2 : ((SemArray.slice cc0_scratch9 (Rect.unit (s := S16) ![2] S1.size inb_S16_S1_2)).squeeze S_ squeezes_S1_S_).sem = Fam.sem Fam.ys 2 := by decide
theorem canon_sem_ys_3 : ((SemArray.slice cc0_scratch9 (Rect.unit (s := S16) ![3] S1.size inb_S16_S1_3)).squeeze S_ squeezes_S1_S_).sem = Fam.sem Fam.ys 3 := by decide
theorem canon_sem_ys_4 : ((SemArray.slice cc0_scratch9 (Rect.unit (s := S16) ![4] S1.size inb_S16_S1_4)).squeeze S_ squeezes_S1_S_).sem = Fam.sem Fam.ys 4 := by decide
theorem canon_sem_ys_5 : ((SemArray.slice cc0_scratch9 (Rect.unit (s := S16) ![5] S1.size inb_S16_S1_5)).squeeze S_ squeezes_S1_S_).sem = Fam.sem Fam.ys 5 := by decide
theorem canon_sem_ys_6 : ((SemArray.slice cc0_scratch9 (Rect.unit (s := S16) ![6] S1.size inb_S16_S1_6)).squeeze S_ squeezes_S1_S_).sem = Fam.sem Fam.ys 6 := by decide
theorem canon_sem_ys_7 : ((SemArray.slice cc0_scratch9 (Rect.unit (s := S16) ![7] S1.size inb_S16_S1_7)).squeeze S_ squeezes_S1_S_).sem = Fam.sem Fam.ys 7 := by decide
theorem canon_sem_ys_8 : ((SemArray.slice cc0_scratch9 (Rect.unit (s := S16) ![8] S1.size inb_S16_S1_8)).squeeze S_ squeezes_S1_S_).sem = Fam.sem Fam.ys 8 := by decide
theorem canon_sem_ys_9 : ((SemArray.slice cc0_scratch9 (Rect.unit (s := S16) ![9] S1.size inb_S16_S1_9)).squeeze S_ squeezes_S1_S_).sem = Fam.sem Fam.ys 9 := by decide
theorem canon_sem_ys_10 : ((SemArray.slice cc0_scratch9 (Rect.unit (s := S16) ![10] S1.size inb_S16_S1_10)).squeeze S_ squeezes_S1_S_).sem = Fam.sem Fam.ys 10 := by decide
theorem canon_sem_ys_11 : ((SemArray.slice cc0_scratch9 (Rect.unit (s := S16) ![11] S1.size inb_S16_S1_11)).squeeze S_ squeezes_S1_S_).sem = Fam.sem Fam.ys 11 := by decide
theorem canon_sem_ys_12 : ((SemArray.slice cc0_scratch9 (Rect.unit (s := S16) ![12] S1.size inb_S16_S1_12)).squeeze S_ squeezes_S1_S_).sem = Fam.sem Fam.ys 12 := by decide
theorem canon_sem_ys_13 : ((SemArray.slice cc0_scratch9 (Rect.unit (s := S16) ![13] S1.size inb_S16_S1_13)).squeeze S_ squeezes_S1_S_).sem = Fam.sem Fam.ys 13 := by decide
theorem canon_sem_ys_14 : ((SemArray.slice cc0_scratch9 (Rect.unit (s := S16) ![14] S1.size inb_S16_S1_14)).squeeze S_ squeezes_S1_S_).sem = Fam.sem Fam.ys 14 := by decide
theorem canon_sem_ys_15 : ((SemArray.slice cc0_scratch9 (Rect.unit (s := S16) ![15] S1.size inb_S16_S1_15)).squeeze S_ squeezes_S1_S_).sem = Fam.sem Fam.ys 15 := by decide
theorem canon_sem_yr_0 : ((SemArray.slice cc0_scratch10 (Rect.unit (s := S16) ![0] S1.size inb_S16_S1_0)).squeeze S_ squeezes_S1_S_).sem = Fam.sem Fam.yr 0 := by decide
theorem canon_sem_yr_1 : ((SemArray.slice cc0_scratch10 (Rect.unit (s := S16) ![1] S1.size inb_S16_S1_1)).squeeze S_ squeezes_S1_S_).sem = Fam.sem Fam.yr 1 := by decide
theorem canon_sem_yr_2 : ((SemArray.slice cc0_scratch10 (Rect.unit (s := S16) ![2] S1.size inb_S16_S1_2)).squeeze S_ squeezes_S1_S_).sem = Fam.sem Fam.yr 2 := by decide
theorem canon_sem_yr_3 : ((SemArray.slice cc0_scratch10 (Rect.unit (s := S16) ![3] S1.size inb_S16_S1_3)).squeeze S_ squeezes_S1_S_).sem = Fam.sem Fam.yr 3 := by decide
theorem canon_sem_yr_4 : ((SemArray.slice cc0_scratch10 (Rect.unit (s := S16) ![4] S1.size inb_S16_S1_4)).squeeze S_ squeezes_S1_S_).sem = Fam.sem Fam.yr 4 := by decide
theorem canon_sem_yr_5 : ((SemArray.slice cc0_scratch10 (Rect.unit (s := S16) ![5] S1.size inb_S16_S1_5)).squeeze S_ squeezes_S1_S_).sem = Fam.sem Fam.yr 5 := by decide
theorem canon_sem_yr_6 : ((SemArray.slice cc0_scratch10 (Rect.unit (s := S16) ![6] S1.size inb_S16_S1_6)).squeeze S_ squeezes_S1_S_).sem = Fam.sem Fam.yr 6 := by decide
theorem canon_sem_yr_7 : ((SemArray.slice cc0_scratch10 (Rect.unit (s := S16) ![7] S1.size inb_S16_S1_7)).squeeze S_ squeezes_S1_S_).sem = Fam.sem Fam.yr 7 := by decide
theorem canon_sem_yr_8 : ((SemArray.slice cc0_scratch10 (Rect.unit (s := S16) ![8] S1.size inb_S16_S1_8)).squeeze S_ squeezes_S1_S_).sem = Fam.sem Fam.yr 8 := by decide
theorem canon_sem_yr_9 : ((SemArray.slice cc0_scratch10 (Rect.unit (s := S16) ![9] S1.size inb_S16_S1_9)).squeeze S_ squeezes_S1_S_).sem = Fam.sem Fam.yr 9 := by decide
theorem canon_sem_yr_10 : ((SemArray.slice cc0_scratch10 (Rect.unit (s := S16) ![10] S1.size inb_S16_S1_10)).squeeze S_ squeezes_S1_S_).sem = Fam.sem Fam.yr 10 := by decide
theorem canon_sem_yr_11 : ((SemArray.slice cc0_scratch10 (Rect.unit (s := S16) ![11] S1.size inb_S16_S1_11)).squeeze S_ squeezes_S1_S_).sem = Fam.sem Fam.yr 11 := by decide
theorem canon_sem_yr_12 : ((SemArray.slice cc0_scratch10 (Rect.unit (s := S16) ![12] S1.size inb_S16_S1_12)).squeeze S_ squeezes_S1_S_).sem = Fam.sem Fam.yr 12 := by decide
theorem canon_sem_yr_13 : ((SemArray.slice cc0_scratch10 (Rect.unit (s := S16) ![13] S1.size inb_S16_S1_13)).squeeze S_ squeezes_S1_S_).sem = Fam.sem Fam.yr 13 := by decide
theorem canon_sem_yr_14 : ((SemArray.slice cc0_scratch10 (Rect.unit (s := S16) ![14] S1.size inb_S16_S1_14)).squeeze S_ squeezes_S1_S_).sem = Fam.sem Fam.yr 14 := by decide
theorem canon_sem_yr_15 : ((SemArray.slice cc0_scratch10 (Rect.unit (s := S16) ![15] S1.size inb_S16_S1_15)).squeeze S_ squeezes_S1_S_).sem = Fam.sem Fam.yr 15 := by decide
theorem canon_sem_xs_0 : ((SemArray.slice cc0_scratch11 (Rect.unit (s := S16) ![0] S1.size inb_S16_S1_0)).squeeze S_ squeezes_S1_S_).sem = Fam.sem Fam.xs 0 := by decide
theorem canon_sem_xs_1 : ((SemArray.slice cc0_scratch11 (Rect.unit (s := S16) ![1] S1.size inb_S16_S1_1)).squeeze S_ squeezes_S1_S_).sem = Fam.sem Fam.xs 1 := by decide
theorem canon_sem_xs_2 : ((SemArray.slice cc0_scratch11 (Rect.unit (s := S16) ![2] S1.size inb_S16_S1_2)).squeeze S_ squeezes_S1_S_).sem = Fam.sem Fam.xs 2 := by decide
theorem canon_sem_xs_3 : ((SemArray.slice cc0_scratch11 (Rect.unit (s := S16) ![3] S1.size inb_S16_S1_3)).squeeze S_ squeezes_S1_S_).sem = Fam.sem Fam.xs 3 := by decide
theorem canon_sem_xs_4 : ((SemArray.slice cc0_scratch11 (Rect.unit (s := S16) ![4] S1.size inb_S16_S1_4)).squeeze S_ squeezes_S1_S_).sem = Fam.sem Fam.xs 4 := by decide
theorem canon_sem_xs_5 : ((SemArray.slice cc0_scratch11 (Rect.unit (s := S16) ![5] S1.size inb_S16_S1_5)).squeeze S_ squeezes_S1_S_).sem = Fam.sem Fam.xs 5 := by decide
theorem canon_sem_xs_6 : ((SemArray.slice cc0_scratch11 (Rect.unit (s := S16) ![6] S1.size inb_S16_S1_6)).squeeze S_ squeezes_S1_S_).sem = Fam.sem Fam.xs 6 := by decide
theorem canon_sem_xs_7 : ((SemArray.slice cc0_scratch11 (Rect.unit (s := S16) ![7] S1.size inb_S16_S1_7)).squeeze S_ squeezes_S1_S_).sem = Fam.sem Fam.xs 7 := by decide
theorem canon_sem_xs_8 : ((SemArray.slice cc0_scratch11 (Rect.unit (s := S16) ![8] S1.size inb_S16_S1_8)).squeeze S_ squeezes_S1_S_).sem = Fam.sem Fam.xs 8 := by decide
theorem canon_sem_xs_9 : ((SemArray.slice cc0_scratch11 (Rect.unit (s := S16) ![9] S1.size inb_S16_S1_9)).squeeze S_ squeezes_S1_S_).sem = Fam.sem Fam.xs 9 := by decide
theorem canon_sem_xs_10 : ((SemArray.slice cc0_scratch11 (Rect.unit (s := S16) ![10] S1.size inb_S16_S1_10)).squeeze S_ squeezes_S1_S_).sem = Fam.sem Fam.xs 10 := by decide
theorem canon_sem_xs_11 : ((SemArray.slice cc0_scratch11 (Rect.unit (s := S16) ![11] S1.size inb_S16_S1_11)).squeeze S_ squeezes_S1_S_).sem = Fam.sem Fam.xs 11 := by decide
theorem canon_sem_xs_12 : ((SemArray.slice cc0_scratch11 (Rect.unit (s := S16) ![12] S1.size inb_S16_S1_12)).squeeze S_ squeezes_S1_S_).sem = Fam.sem Fam.xs 12 := by decide
theorem canon_sem_xs_13 : ((SemArray.slice cc0_scratch11 (Rect.unit (s := S16) ![13] S1.size inb_S16_S1_13)).squeeze S_ squeezes_S1_S_).sem = Fam.sem Fam.xs 13 := by decide
theorem canon_sem_xs_14 : ((SemArray.slice cc0_scratch11 (Rect.unit (s := S16) ![14] S1.size inb_S16_S1_14)).squeeze S_ squeezes_S1_S_).sem = Fam.sem Fam.xs 14 := by decide
theorem canon_sem_xs_15 : ((SemArray.slice cc0_scratch11 (Rect.unit (s := S16) ![15] S1.size inb_S16_S1_15)).squeeze S_ squeezes_S1_S_).sem = Fam.sem Fam.xs 15 := by decide
theorem canon_sem_xr_0 : ((SemArray.slice cc0_scratch12 (Rect.unit (s := S16) ![0] S1.size inb_S16_S1_0)).squeeze S_ squeezes_S1_S_).sem = Fam.sem Fam.xr 0 := by decide
theorem canon_sem_xr_1 : ((SemArray.slice cc0_scratch12 (Rect.unit (s := S16) ![1] S1.size inb_S16_S1_1)).squeeze S_ squeezes_S1_S_).sem = Fam.sem Fam.xr 1 := by decide
theorem canon_sem_xr_2 : ((SemArray.slice cc0_scratch12 (Rect.unit (s := S16) ![2] S1.size inb_S16_S1_2)).squeeze S_ squeezes_S1_S_).sem = Fam.sem Fam.xr 2 := by decide
theorem canon_sem_xr_3 : ((SemArray.slice cc0_scratch12 (Rect.unit (s := S16) ![3] S1.size inb_S16_S1_3)).squeeze S_ squeezes_S1_S_).sem = Fam.sem Fam.xr 3 := by decide
theorem canon_sem_xr_4 : ((SemArray.slice cc0_scratch12 (Rect.unit (s := S16) ![4] S1.size inb_S16_S1_4)).squeeze S_ squeezes_S1_S_).sem = Fam.sem Fam.xr 4 := by decide
theorem canon_sem_xr_5 : ((SemArray.slice cc0_scratch12 (Rect.unit (s := S16) ![5] S1.size inb_S16_S1_5)).squeeze S_ squeezes_S1_S_).sem = Fam.sem Fam.xr 5 := by decide
theorem canon_sem_xr_6 : ((SemArray.slice cc0_scratch12 (Rect.unit (s := S16) ![6] S1.size inb_S16_S1_6)).squeeze S_ squeezes_S1_S_).sem = Fam.sem Fam.xr 6 := by decide
theorem canon_sem_xr_7 : ((SemArray.slice cc0_scratch12 (Rect.unit (s := S16) ![7] S1.size inb_S16_S1_7)).squeeze S_ squeezes_S1_S_).sem = Fam.sem Fam.xr 7 := by decide
theorem canon_sem_xr_8 : ((SemArray.slice cc0_scratch12 (Rect.unit (s := S16) ![8] S1.size inb_S16_S1_8)).squeeze S_ squeezes_S1_S_).sem = Fam.sem Fam.xr 8 := by decide
theorem canon_sem_xr_9 : ((SemArray.slice cc0_scratch12 (Rect.unit (s := S16) ![9] S1.size inb_S16_S1_9)).squeeze S_ squeezes_S1_S_).sem = Fam.sem Fam.xr 9 := by decide
theorem canon_sem_xr_10 : ((SemArray.slice cc0_scratch12 (Rect.unit (s := S16) ![10] S1.size inb_S16_S1_10)).squeeze S_ squeezes_S1_S_).sem = Fam.sem Fam.xr 10 := by decide
theorem canon_sem_xr_11 : ((SemArray.slice cc0_scratch12 (Rect.unit (s := S16) ![11] S1.size inb_S16_S1_11)).squeeze S_ squeezes_S1_S_).sem = Fam.sem Fam.xr 11 := by decide
theorem canon_sem_xr_12 : ((SemArray.slice cc0_scratch12 (Rect.unit (s := S16) ![12] S1.size inb_S16_S1_12)).squeeze S_ squeezes_S1_S_).sem = Fam.sem Fam.xr 12 := by decide
theorem canon_sem_xr_13 : ((SemArray.slice cc0_scratch12 (Rect.unit (s := S16) ![13] S1.size inb_S16_S1_13)).squeeze S_ squeezes_S1_S_).sem = Fam.sem Fam.xr 13 := by decide
theorem canon_sem_xr_14 : ((SemArray.slice cc0_scratch12 (Rect.unit (s := S16) ![14] S1.size inb_S16_S1_14)).squeeze S_ squeezes_S1_S_).sem = Fam.sem Fam.xr 14 := by decide
theorem canon_sem_xr_15 : ((SemArray.slice cc0_scratch12 (Rect.unit (s := S16) ![15] S1.size inb_S16_S1_15)).squeeze S_ squeezes_S1_S_).sem = Fam.sem Fam.xr 15 := by decide
theorem canon_sem_zs_0 : ((SemArray.slice cc0_scratch13 (Rect.unit (s := S16) ![0] S1.size inb_S16_S1_0)).squeeze S_ squeezes_S1_S_).sem = Fam.sem Fam.zs 0 := by decide
theorem canon_sem_zs_1 : ((SemArray.slice cc0_scratch13 (Rect.unit (s := S16) ![1] S1.size inb_S16_S1_1)).squeeze S_ squeezes_S1_S_).sem = Fam.sem Fam.zs 1 := by decide
theorem canon_sem_zs_2 : ((SemArray.slice cc0_scratch13 (Rect.unit (s := S16) ![2] S1.size inb_S16_S1_2)).squeeze S_ squeezes_S1_S_).sem = Fam.sem Fam.zs 2 := by decide
theorem canon_sem_zs_3 : ((SemArray.slice cc0_scratch13 (Rect.unit (s := S16) ![3] S1.size inb_S16_S1_3)).squeeze S_ squeezes_S1_S_).sem = Fam.sem Fam.zs 3 := by decide
theorem canon_sem_zs_4 : ((SemArray.slice cc0_scratch13 (Rect.unit (s := S16) ![4] S1.size inb_S16_S1_4)).squeeze S_ squeezes_S1_S_).sem = Fam.sem Fam.zs 4 := by decide
theorem canon_sem_zs_5 : ((SemArray.slice cc0_scratch13 (Rect.unit (s := S16) ![5] S1.size inb_S16_S1_5)).squeeze S_ squeezes_S1_S_).sem = Fam.sem Fam.zs 5 := by decide
theorem canon_sem_zs_6 : ((SemArray.slice cc0_scratch13 (Rect.unit (s := S16) ![6] S1.size inb_S16_S1_6)).squeeze S_ squeezes_S1_S_).sem = Fam.sem Fam.zs 6 := by decide
theorem canon_sem_zs_7 : ((SemArray.slice cc0_scratch13 (Rect.unit (s := S16) ![7] S1.size inb_S16_S1_7)).squeeze S_ squeezes_S1_S_).sem = Fam.sem Fam.zs 7 := by decide
theorem canon_sem_zs_8 : ((SemArray.slice cc0_scratch13 (Rect.unit (s := S16) ![8] S1.size inb_S16_S1_8)).squeeze S_ squeezes_S1_S_).sem = Fam.sem Fam.zs 8 := by decide
theorem canon_sem_zs_9 : ((SemArray.slice cc0_scratch13 (Rect.unit (s := S16) ![9] S1.size inb_S16_S1_9)).squeeze S_ squeezes_S1_S_).sem = Fam.sem Fam.zs 9 := by decide
theorem canon_sem_zs_10 : ((SemArray.slice cc0_scratch13 (Rect.unit (s := S16) ![10] S1.size inb_S16_S1_10)).squeeze S_ squeezes_S1_S_).sem = Fam.sem Fam.zs 10 := by decide
theorem canon_sem_zs_11 : ((SemArray.slice cc0_scratch13 (Rect.unit (s := S16) ![11] S1.size inb_S16_S1_11)).squeeze S_ squeezes_S1_S_).sem = Fam.sem Fam.zs 11 := by decide
theorem canon_sem_zs_12 : ((SemArray.slice cc0_scratch13 (Rect.unit (s := S16) ![12] S1.size inb_S16_S1_12)).squeeze S_ squeezes_S1_S_).sem = Fam.sem Fam.zs 12 := by decide
theorem canon_sem_zs_13 : ((SemArray.slice cc0_scratch13 (Rect.unit (s := S16) ![13] S1.size inb_S16_S1_13)).squeeze S_ squeezes_S1_S_).sem = Fam.sem Fam.zs 13 := by decide
theorem canon_sem_zs_14 : ((SemArray.slice cc0_scratch13 (Rect.unit (s := S16) ![14] S1.size inb_S16_S1_14)).squeeze S_ squeezes_S1_S_).sem = Fam.sem Fam.zs 14 := by decide
theorem canon_sem_zs_15 : ((SemArray.slice cc0_scratch13 (Rect.unit (s := S16) ![15] S1.size inb_S16_S1_15)).squeeze S_ squeezes_S1_S_).sem = Fam.sem Fam.zs 15 := by decide
theorem canon_sem_zr_0 : ((SemArray.slice cc0_scratch14 (Rect.unit (s := S16) ![0] S1.size inb_S16_S1_0)).squeeze S_ squeezes_S1_S_).sem = Fam.sem Fam.zr 0 := by decide
theorem canon_sem_zr_1 : ((SemArray.slice cc0_scratch14 (Rect.unit (s := S16) ![1] S1.size inb_S16_S1_1)).squeeze S_ squeezes_S1_S_).sem = Fam.sem Fam.zr 1 := by decide
theorem canon_sem_zr_2 : ((SemArray.slice cc0_scratch14 (Rect.unit (s := S16) ![2] S1.size inb_S16_S1_2)).squeeze S_ squeezes_S1_S_).sem = Fam.sem Fam.zr 2 := by decide
theorem canon_sem_zr_3 : ((SemArray.slice cc0_scratch14 (Rect.unit (s := S16) ![3] S1.size inb_S16_S1_3)).squeeze S_ squeezes_S1_S_).sem = Fam.sem Fam.zr 3 := by decide
theorem canon_sem_zr_4 : ((SemArray.slice cc0_scratch14 (Rect.unit (s := S16) ![4] S1.size inb_S16_S1_4)).squeeze S_ squeezes_S1_S_).sem = Fam.sem Fam.zr 4 := by decide
theorem canon_sem_zr_5 : ((SemArray.slice cc0_scratch14 (Rect.unit (s := S16) ![5] S1.size inb_S16_S1_5)).squeeze S_ squeezes_S1_S_).sem = Fam.sem Fam.zr 5 := by decide
theorem canon_sem_zr_6 : ((SemArray.slice cc0_scratch14 (Rect.unit (s := S16) ![6] S1.size inb_S16_S1_6)).squeeze S_ squeezes_S1_S_).sem = Fam.sem Fam.zr 6 := by decide
theorem canon_sem_zr_7 : ((SemArray.slice cc0_scratch14 (Rect.unit (s := S16) ![7] S1.size inb_S16_S1_7)).squeeze S_ squeezes_S1_S_).sem = Fam.sem Fam.zr 7 := by decide
theorem canon_sem_zr_8 : ((SemArray.slice cc0_scratch14 (Rect.unit (s := S16) ![8] S1.size inb_S16_S1_8)).squeeze S_ squeezes_S1_S_).sem = Fam.sem Fam.zr 8 := by decide
theorem canon_sem_zr_9 : ((SemArray.slice cc0_scratch14 (Rect.unit (s := S16) ![9] S1.size inb_S16_S1_9)).squeeze S_ squeezes_S1_S_).sem = Fam.sem Fam.zr 9 := by decide
theorem canon_sem_zr_10 : ((SemArray.slice cc0_scratch14 (Rect.unit (s := S16) ![10] S1.size inb_S16_S1_10)).squeeze S_ squeezes_S1_S_).sem = Fam.sem Fam.zr 10 := by decide
theorem canon_sem_zr_11 : ((SemArray.slice cc0_scratch14 (Rect.unit (s := S16) ![11] S1.size inb_S16_S1_11)).squeeze S_ squeezes_S1_S_).sem = Fam.sem Fam.zr 11 := by decide
theorem canon_sem_zr_12 : ((SemArray.slice cc0_scratch14 (Rect.unit (s := S16) ![12] S1.size inb_S16_S1_12)).squeeze S_ squeezes_S1_S_).sem = Fam.sem Fam.zr 12 := by decide
theorem canon_sem_zr_13 : ((SemArray.slice cc0_scratch14 (Rect.unit (s := S16) ![13] S1.size inb_S16_S1_13)).squeeze S_ squeezes_S1_S_).sem = Fam.sem Fam.zr 13 := by decide
theorem canon_sem_zr_14 : ((SemArray.slice cc0_scratch14 (Rect.unit (s := S16) ![14] S1.size inb_S16_S1_14)).squeeze S_ squeezes_S1_S_).sem = Fam.sem Fam.zr 14 := by decide
theorem canon_sem_zr_15 : ((SemArray.slice cc0_scratch14 (Rect.unit (s := S16) ![15] S1.size inb_S16_S1_15)).squeeze S_ squeezes_S1_S_).sem = Fam.sem Fam.zr 15 := by decide
theorem canon_sem_qs_0 : ((SemArray.slice cc0_scratch15 (Rect.unit (s := S16) ![0] S1.size inb_S16_S1_0)).squeeze S_ squeezes_S1_S_).sem = Fam.sem Fam.qs 0 := by decide
theorem canon_sem_qs_1 : ((SemArray.slice cc0_scratch17 (Rect.unit (s := S16) ![1] S1.size inb_S16_S1_1)).squeeze S_ squeezes_S1_S_).sem = Fam.sem Fam.qs 1 := by decide
theorem canon_sem_qs_2 : ((SemArray.slice cc0_scratch15 (Rect.unit (s := S16) ![2] S1.size inb_S16_S1_2)).squeeze S_ squeezes_S1_S_).sem = Fam.sem Fam.qs 2 := by decide
theorem canon_sem_qs_3 : ((SemArray.slice cc0_scratch17 (Rect.unit (s := S16) ![3] S1.size inb_S16_S1_3)).squeeze S_ squeezes_S1_S_).sem = Fam.sem Fam.qs 3 := by decide
theorem canon_sem_qs_4 : ((SemArray.slice cc0_scratch15 (Rect.unit (s := S16) ![4] S1.size inb_S16_S1_4)).squeeze S_ squeezes_S1_S_).sem = Fam.sem Fam.qs 4 := by decide
theorem canon_sem_qs_5 : ((SemArray.slice cc0_scratch17 (Rect.unit (s := S16) ![5] S1.size inb_S16_S1_5)).squeeze S_ squeezes_S1_S_).sem = Fam.sem Fam.qs 5 := by decide
theorem canon_sem_qs_6 : ((SemArray.slice cc0_scratch15 (Rect.unit (s := S16) ![6] S1.size inb_S16_S1_6)).squeeze S_ squeezes_S1_S_).sem = Fam.sem Fam.qs 6 := by decide
theorem canon_sem_qs_7 : ((SemArray.slice cc0_scratch17 (Rect.unit (s := S16) ![7] S1.size inb_S16_S1_7)).squeeze S_ squeezes_S1_S_).sem = Fam.sem Fam.qs 7 := by decide
theorem canon_sem_qs_8 : ((SemArray.slice cc0_scratch15 (Rect.unit (s := S16) ![8] S1.size inb_S16_S1_8)).squeeze S_ squeezes_S1_S_).sem = Fam.sem Fam.qs 8 := by decide
theorem canon_sem_qs_9 : ((SemArray.slice cc0_scratch17 (Rect.unit (s := S16) ![9] S1.size inb_S16_S1_9)).squeeze S_ squeezes_S1_S_).sem = Fam.sem Fam.qs 9 := by decide
theorem canon_sem_qs_10 : ((SemArray.slice cc0_scratch15 (Rect.unit (s := S16) ![10] S1.size inb_S16_S1_10)).squeeze S_ squeezes_S1_S_).sem = Fam.sem Fam.qs 10 := by decide
theorem canon_sem_qs_11 : ((SemArray.slice cc0_scratch17 (Rect.unit (s := S16) ![11] S1.size inb_S16_S1_11)).squeeze S_ squeezes_S1_S_).sem = Fam.sem Fam.qs 11 := by decide
theorem canon_sem_qs_12 : ((SemArray.slice cc0_scratch15 (Rect.unit (s := S16) ![12] S1.size inb_S16_S1_12)).squeeze S_ squeezes_S1_S_).sem = Fam.sem Fam.qs 12 := by decide
theorem canon_sem_qs_13 : ((SemArray.slice cc0_scratch17 (Rect.unit (s := S16) ![13] S1.size inb_S16_S1_13)).squeeze S_ squeezes_S1_S_).sem = Fam.sem Fam.qs 13 := by decide
theorem canon_sem_qs_14 : ((SemArray.slice cc0_scratch15 (Rect.unit (s := S16) ![14] S1.size inb_S16_S1_14)).squeeze S_ squeezes_S1_S_).sem = Fam.sem Fam.qs 14 := by decide
theorem canon_sem_qs_15 : ((SemArray.slice cc0_scratch17 (Rect.unit (s := S16) ![15] S1.size inb_S16_S1_15)).squeeze S_ squeezes_S1_S_).sem = Fam.sem Fam.qs 15 := by decide
theorem canon_sem_qr_0 : ((SemArray.slice cc0_scratch16 (Rect.unit (s := S16) ![0] S1.size inb_S16_S1_0)).squeeze S_ squeezes_S1_S_).sem = Fam.sem Fam.qr 0 := by decide
theorem canon_sem_qr_1 : ((SemArray.slice cc0_scratch18 (Rect.unit (s := S16) ![1] S1.size inb_S16_S1_1)).squeeze S_ squeezes_S1_S_).sem = Fam.sem Fam.qr 1 := by decide
theorem canon_sem_qr_2 : ((SemArray.slice cc0_scratch16 (Rect.unit (s := S16) ![2] S1.size inb_S16_S1_2)).squeeze S_ squeezes_S1_S_).sem = Fam.sem Fam.qr 2 := by decide
theorem canon_sem_qr_3 : ((SemArray.slice cc0_scratch18 (Rect.unit (s := S16) ![3] S1.size inb_S16_S1_3)).squeeze S_ squeezes_S1_S_).sem = Fam.sem Fam.qr 3 := by decide
theorem canon_sem_qr_4 : ((SemArray.slice cc0_scratch16 (Rect.unit (s := S16) ![4] S1.size inb_S16_S1_4)).squeeze S_ squeezes_S1_S_).sem = Fam.sem Fam.qr 4 := by decide
theorem canon_sem_qr_5 : ((SemArray.slice cc0_scratch18 (Rect.unit (s := S16) ![5] S1.size inb_S16_S1_5)).squeeze S_ squeezes_S1_S_).sem = Fam.sem Fam.qr 5 := by decide
theorem canon_sem_qr_6 : ((SemArray.slice cc0_scratch16 (Rect.unit (s := S16) ![6] S1.size inb_S16_S1_6)).squeeze S_ squeezes_S1_S_).sem = Fam.sem Fam.qr 6 := by decide
theorem canon_sem_qr_7 : ((SemArray.slice cc0_scratch18 (Rect.unit (s := S16) ![7] S1.size inb_S16_S1_7)).squeeze S_ squeezes_S1_S_).sem = Fam.sem Fam.qr 7 := by decide
theorem canon_sem_qr_8 : ((SemArray.slice cc0_scratch16 (Rect.unit (s := S16) ![8] S1.size inb_S16_S1_8)).squeeze S_ squeezes_S1_S_).sem = Fam.sem Fam.qr 8 := by decide
theorem canon_sem_qr_9 : ((SemArray.slice cc0_scratch18 (Rect.unit (s := S16) ![9] S1.size inb_S16_S1_9)).squeeze S_ squeezes_S1_S_).sem = Fam.sem Fam.qr 9 := by decide
theorem canon_sem_qr_10 : ((SemArray.slice cc0_scratch16 (Rect.unit (s := S16) ![10] S1.size inb_S16_S1_10)).squeeze S_ squeezes_S1_S_).sem = Fam.sem Fam.qr 10 := by decide
theorem canon_sem_qr_11 : ((SemArray.slice cc0_scratch18 (Rect.unit (s := S16) ![11] S1.size inb_S16_S1_11)).squeeze S_ squeezes_S1_S_).sem = Fam.sem Fam.qr 11 := by decide
theorem canon_sem_qr_12 : ((SemArray.slice cc0_scratch16 (Rect.unit (s := S16) ![12] S1.size inb_S16_S1_12)).squeeze S_ squeezes_S1_S_).sem = Fam.sem Fam.qr 12 := by decide
theorem canon_sem_qr_13 : ((SemArray.slice cc0_scratch18 (Rect.unit (s := S16) ![13] S1.size inb_S16_S1_13)).squeeze S_ squeezes_S1_S_).sem = Fam.sem Fam.qr 13 := by decide
theorem canon_sem_qr_14 : ((SemArray.slice cc0_scratch16 (Rect.unit (s := S16) ![14] S1.size inb_S16_S1_14)).squeeze S_ squeezes_S1_S_).sem = Fam.sem Fam.qr 14 := by decide
theorem canon_sem_qr_15 : ((SemArray.slice cc0_scratch18 (Rect.unit (s := S16) ![15] S1.size inb_S16_S1_15)).squeeze S_ squeezes_S1_S_).sem = Fam.sem Fam.qr 15 := by decide

/-! ## Scratch chunks: slice `i` of a whole scratch buffer is its slab `i` -/

theorem canon_slab_s_0 : ((Memref.whole cc0_scratch0).slice (Rect.unit (s := S16x64x1024) ![0, 0, 0] S1x64x1024.size inb_S16x64x1024_S1x64x1024_0_0_0) (fun _ => rfl)).squeeze S64x1024 squeezes_S1x64x1024_S64x1024 = slab sM 0 := rfl
theorem canon_slab_s_1 : ((Memref.whole cc0_scratch0).slice (Rect.unit (s := S16x64x1024) ![1, 0, 0] S1x64x1024.size inb_S16x64x1024_S1x64x1024_1_0_0) (fun _ => rfl)).squeeze S64x1024 squeezes_S1x64x1024_S64x1024 = slab sM 1 := rfl
theorem canon_slab_s_2 : ((Memref.whole cc0_scratch0).slice (Rect.unit (s := S16x64x1024) ![2, 0, 0] S1x64x1024.size inb_S16x64x1024_S1x64x1024_2_0_0) (fun _ => rfl)).squeeze S64x1024 squeezes_S1x64x1024_S64x1024 = slab sM 2 := rfl
theorem canon_slab_s_3 : ((Memref.whole cc0_scratch0).slice (Rect.unit (s := S16x64x1024) ![3, 0, 0] S1x64x1024.size inb_S16x64x1024_S1x64x1024_3_0_0) (fun _ => rfl)).squeeze S64x1024 squeezes_S1x64x1024_S64x1024 = slab sM 3 := rfl
theorem canon_slab_s_4 : ((Memref.whole cc0_scratch0).slice (Rect.unit (s := S16x64x1024) ![4, 0, 0] S1x64x1024.size inb_S16x64x1024_S1x64x1024_4_0_0) (fun _ => rfl)).squeeze S64x1024 squeezes_S1x64x1024_S64x1024 = slab sM 4 := rfl
theorem canon_slab_s_5 : ((Memref.whole cc0_scratch0).slice (Rect.unit (s := S16x64x1024) ![5, 0, 0] S1x64x1024.size inb_S16x64x1024_S1x64x1024_5_0_0) (fun _ => rfl)).squeeze S64x1024 squeezes_S1x64x1024_S64x1024 = slab sM 5 := rfl
theorem canon_slab_s_6 : ((Memref.whole cc0_scratch0).slice (Rect.unit (s := S16x64x1024) ![6, 0, 0] S1x64x1024.size inb_S16x64x1024_S1x64x1024_6_0_0) (fun _ => rfl)).squeeze S64x1024 squeezes_S1x64x1024_S64x1024 = slab sM 6 := rfl
theorem canon_slab_s_7 : ((Memref.whole cc0_scratch0).slice (Rect.unit (s := S16x64x1024) ![7, 0, 0] S1x64x1024.size inb_S16x64x1024_S1x64x1024_7_0_0) (fun _ => rfl)).squeeze S64x1024 squeezes_S1x64x1024_S64x1024 = slab sM 7 := rfl
theorem canon_slab_s_8 : ((Memref.whole cc0_scratch0).slice (Rect.unit (s := S16x64x1024) ![8, 0, 0] S1x64x1024.size inb_S16x64x1024_S1x64x1024_8_0_0) (fun _ => rfl)).squeeze S64x1024 squeezes_S1x64x1024_S64x1024 = slab sM 8 := rfl
theorem canon_slab_s_9 : ((Memref.whole cc0_scratch0).slice (Rect.unit (s := S16x64x1024) ![9, 0, 0] S1x64x1024.size inb_S16x64x1024_S1x64x1024_9_0_0) (fun _ => rfl)).squeeze S64x1024 squeezes_S1x64x1024_S64x1024 = slab sM 9 := rfl
theorem canon_slab_s_10 : ((Memref.whole cc0_scratch0).slice (Rect.unit (s := S16x64x1024) ![10, 0, 0] S1x64x1024.size inb_S16x64x1024_S1x64x1024_10_0_0) (fun _ => rfl)).squeeze S64x1024 squeezes_S1x64x1024_S64x1024 = slab sM 10 := rfl
theorem canon_slab_s_11 : ((Memref.whole cc0_scratch0).slice (Rect.unit (s := S16x64x1024) ![11, 0, 0] S1x64x1024.size inb_S16x64x1024_S1x64x1024_11_0_0) (fun _ => rfl)).squeeze S64x1024 squeezes_S1x64x1024_S64x1024 = slab sM 11 := rfl
theorem canon_slab_s_12 : ((Memref.whole cc0_scratch0).slice (Rect.unit (s := S16x64x1024) ![12, 0, 0] S1x64x1024.size inb_S16x64x1024_S1x64x1024_12_0_0) (fun _ => rfl)).squeeze S64x1024 squeezes_S1x64x1024_S64x1024 = slab sM 12 := rfl
theorem canon_slab_s_13 : ((Memref.whole cc0_scratch0).slice (Rect.unit (s := S16x64x1024) ![13, 0, 0] S1x64x1024.size inb_S16x64x1024_S1x64x1024_13_0_0) (fun _ => rfl)).squeeze S64x1024 squeezes_S1x64x1024_S64x1024 = slab sM 13 := rfl
theorem canon_slab_s_14 : ((Memref.whole cc0_scratch0).slice (Rect.unit (s := S16x64x1024) ![14, 0, 0] S1x64x1024.size inb_S16x64x1024_S1x64x1024_14_0_0) (fun _ => rfl)).squeeze S64x1024 squeezes_S1x64x1024_S64x1024 = slab sM 14 := rfl
theorem canon_slab_s_15 : ((Memref.whole cc0_scratch0).slice (Rect.unit (s := S16x64x1024) ![15, 0, 0] S1x64x1024.size inb_S16x64x1024_S1x64x1024_15_0_0) (fun _ => rfl)).squeeze S64x1024 squeezes_S1x64x1024_S64x1024 = slab sM 15 := rfl
theorem canon_slab_r_0 : ((Memref.whole cc0_scratch1).slice (Rect.unit (s := S16x64x1024) ![0, 0, 0] S1x64x1024.size inb_S16x64x1024_S1x64x1024_0_0_0) (fun _ => rfl)).squeeze S64x1024 squeezes_S1x64x1024_S64x1024 = slab rM 0 := rfl
theorem canon_slab_r_1 : ((Memref.whole cc0_scratch1).slice (Rect.unit (s := S16x64x1024) ![1, 0, 0] S1x64x1024.size inb_S16x64x1024_S1x64x1024_1_0_0) (fun _ => rfl)).squeeze S64x1024 squeezes_S1x64x1024_S64x1024 = slab rM 1 := rfl
theorem canon_slab_r_2 : ((Memref.whole cc0_scratch1).slice (Rect.unit (s := S16x64x1024) ![2, 0, 0] S1x64x1024.size inb_S16x64x1024_S1x64x1024_2_0_0) (fun _ => rfl)).squeeze S64x1024 squeezes_S1x64x1024_S64x1024 = slab rM 2 := rfl
theorem canon_slab_r_3 : ((Memref.whole cc0_scratch1).slice (Rect.unit (s := S16x64x1024) ![3, 0, 0] S1x64x1024.size inb_S16x64x1024_S1x64x1024_3_0_0) (fun _ => rfl)).squeeze S64x1024 squeezes_S1x64x1024_S64x1024 = slab rM 3 := rfl
theorem canon_slab_r_4 : ((Memref.whole cc0_scratch1).slice (Rect.unit (s := S16x64x1024) ![4, 0, 0] S1x64x1024.size inb_S16x64x1024_S1x64x1024_4_0_0) (fun _ => rfl)).squeeze S64x1024 squeezes_S1x64x1024_S64x1024 = slab rM 4 := rfl
theorem canon_slab_r_5 : ((Memref.whole cc0_scratch1).slice (Rect.unit (s := S16x64x1024) ![5, 0, 0] S1x64x1024.size inb_S16x64x1024_S1x64x1024_5_0_0) (fun _ => rfl)).squeeze S64x1024 squeezes_S1x64x1024_S64x1024 = slab rM 5 := rfl
theorem canon_slab_r_6 : ((Memref.whole cc0_scratch1).slice (Rect.unit (s := S16x64x1024) ![6, 0, 0] S1x64x1024.size inb_S16x64x1024_S1x64x1024_6_0_0) (fun _ => rfl)).squeeze S64x1024 squeezes_S1x64x1024_S64x1024 = slab rM 6 := rfl
theorem canon_slab_r_7 : ((Memref.whole cc0_scratch1).slice (Rect.unit (s := S16x64x1024) ![7, 0, 0] S1x64x1024.size inb_S16x64x1024_S1x64x1024_7_0_0) (fun _ => rfl)).squeeze S64x1024 squeezes_S1x64x1024_S64x1024 = slab rM 7 := rfl
theorem canon_slab_r_8 : ((Memref.whole cc0_scratch1).slice (Rect.unit (s := S16x64x1024) ![8, 0, 0] S1x64x1024.size inb_S16x64x1024_S1x64x1024_8_0_0) (fun _ => rfl)).squeeze S64x1024 squeezes_S1x64x1024_S64x1024 = slab rM 8 := rfl
theorem canon_slab_r_9 : ((Memref.whole cc0_scratch1).slice (Rect.unit (s := S16x64x1024) ![9, 0, 0] S1x64x1024.size inb_S16x64x1024_S1x64x1024_9_0_0) (fun _ => rfl)).squeeze S64x1024 squeezes_S1x64x1024_S64x1024 = slab rM 9 := rfl
theorem canon_slab_r_10 : ((Memref.whole cc0_scratch1).slice (Rect.unit (s := S16x64x1024) ![10, 0, 0] S1x64x1024.size inb_S16x64x1024_S1x64x1024_10_0_0) (fun _ => rfl)).squeeze S64x1024 squeezes_S1x64x1024_S64x1024 = slab rM 10 := rfl
theorem canon_slab_r_11 : ((Memref.whole cc0_scratch1).slice (Rect.unit (s := S16x64x1024) ![11, 0, 0] S1x64x1024.size inb_S16x64x1024_S1x64x1024_11_0_0) (fun _ => rfl)).squeeze S64x1024 squeezes_S1x64x1024_S64x1024 = slab rM 11 := rfl
theorem canon_slab_r_12 : ((Memref.whole cc0_scratch1).slice (Rect.unit (s := S16x64x1024) ![12, 0, 0] S1x64x1024.size inb_S16x64x1024_S1x64x1024_12_0_0) (fun _ => rfl)).squeeze S64x1024 squeezes_S1x64x1024_S64x1024 = slab rM 12 := rfl
theorem canon_slab_r_13 : ((Memref.whole cc0_scratch1).slice (Rect.unit (s := S16x64x1024) ![13, 0, 0] S1x64x1024.size inb_S16x64x1024_S1x64x1024_13_0_0) (fun _ => rfl)).squeeze S64x1024 squeezes_S1x64x1024_S64x1024 = slab rM 13 := rfl
theorem canon_slab_r_14 : ((Memref.whole cc0_scratch1).slice (Rect.unit (s := S16x64x1024) ![14, 0, 0] S1x64x1024.size inb_S16x64x1024_S1x64x1024_14_0_0) (fun _ => rfl)).squeeze S64x1024 squeezes_S1x64x1024_S64x1024 = slab rM 14 := rfl
theorem canon_slab_r_15 : ((Memref.whole cc0_scratch1).slice (Rect.unit (s := S16x64x1024) ![15, 0, 0] S1x64x1024.size inb_S16x64x1024_S1x64x1024_15_0_0) (fun _ => rfl)).squeeze S64x1024 squeezes_S1x64x1024_S64x1024 = slab rM 15 := rfl
theorem canon_slab_xr_0 : ((Memref.whole cc0_scratch2).slice (Rect.unit (s := S16x64x1024) ![0, 0, 0] S1x64x1024.size inb_S16x64x1024_S1x64x1024_0_0_0) (fun _ => rfl)).squeeze S64x1024 squeezes_S1x64x1024_S64x1024 = slab xrM 0 := rfl
theorem canon_slab_xr_1 : ((Memref.whole cc0_scratch2).slice (Rect.unit (s := S16x64x1024) ![1, 0, 0] S1x64x1024.size inb_S16x64x1024_S1x64x1024_1_0_0) (fun _ => rfl)).squeeze S64x1024 squeezes_S1x64x1024_S64x1024 = slab xrM 1 := rfl
theorem canon_slab_xr_2 : ((Memref.whole cc0_scratch2).slice (Rect.unit (s := S16x64x1024) ![2, 0, 0] S1x64x1024.size inb_S16x64x1024_S1x64x1024_2_0_0) (fun _ => rfl)).squeeze S64x1024 squeezes_S1x64x1024_S64x1024 = slab xrM 2 := rfl
theorem canon_slab_xr_3 : ((Memref.whole cc0_scratch2).slice (Rect.unit (s := S16x64x1024) ![3, 0, 0] S1x64x1024.size inb_S16x64x1024_S1x64x1024_3_0_0) (fun _ => rfl)).squeeze S64x1024 squeezes_S1x64x1024_S64x1024 = slab xrM 3 := rfl
theorem canon_slab_xr_4 : ((Memref.whole cc0_scratch2).slice (Rect.unit (s := S16x64x1024) ![4, 0, 0] S1x64x1024.size inb_S16x64x1024_S1x64x1024_4_0_0) (fun _ => rfl)).squeeze S64x1024 squeezes_S1x64x1024_S64x1024 = slab xrM 4 := rfl
theorem canon_slab_xr_5 : ((Memref.whole cc0_scratch2).slice (Rect.unit (s := S16x64x1024) ![5, 0, 0] S1x64x1024.size inb_S16x64x1024_S1x64x1024_5_0_0) (fun _ => rfl)).squeeze S64x1024 squeezes_S1x64x1024_S64x1024 = slab xrM 5 := rfl
theorem canon_slab_xr_6 : ((Memref.whole cc0_scratch2).slice (Rect.unit (s := S16x64x1024) ![6, 0, 0] S1x64x1024.size inb_S16x64x1024_S1x64x1024_6_0_0) (fun _ => rfl)).squeeze S64x1024 squeezes_S1x64x1024_S64x1024 = slab xrM 6 := rfl
theorem canon_slab_xr_7 : ((Memref.whole cc0_scratch2).slice (Rect.unit (s := S16x64x1024) ![7, 0, 0] S1x64x1024.size inb_S16x64x1024_S1x64x1024_7_0_0) (fun _ => rfl)).squeeze S64x1024 squeezes_S1x64x1024_S64x1024 = slab xrM 7 := rfl
theorem canon_slab_xr_8 : ((Memref.whole cc0_scratch2).slice (Rect.unit (s := S16x64x1024) ![8, 0, 0] S1x64x1024.size inb_S16x64x1024_S1x64x1024_8_0_0) (fun _ => rfl)).squeeze S64x1024 squeezes_S1x64x1024_S64x1024 = slab xrM 8 := rfl
theorem canon_slab_xr_9 : ((Memref.whole cc0_scratch2).slice (Rect.unit (s := S16x64x1024) ![9, 0, 0] S1x64x1024.size inb_S16x64x1024_S1x64x1024_9_0_0) (fun _ => rfl)).squeeze S64x1024 squeezes_S1x64x1024_S64x1024 = slab xrM 9 := rfl
theorem canon_slab_xr_10 : ((Memref.whole cc0_scratch2).slice (Rect.unit (s := S16x64x1024) ![10, 0, 0] S1x64x1024.size inb_S16x64x1024_S1x64x1024_10_0_0) (fun _ => rfl)).squeeze S64x1024 squeezes_S1x64x1024_S64x1024 = slab xrM 10 := rfl
theorem canon_slab_xr_11 : ((Memref.whole cc0_scratch2).slice (Rect.unit (s := S16x64x1024) ![11, 0, 0] S1x64x1024.size inb_S16x64x1024_S1x64x1024_11_0_0) (fun _ => rfl)).squeeze S64x1024 squeezes_S1x64x1024_S64x1024 = slab xrM 11 := rfl
theorem canon_slab_xr_12 : ((Memref.whole cc0_scratch2).slice (Rect.unit (s := S16x64x1024) ![12, 0, 0] S1x64x1024.size inb_S16x64x1024_S1x64x1024_12_0_0) (fun _ => rfl)).squeeze S64x1024 squeezes_S1x64x1024_S64x1024 = slab xrM 12 := rfl
theorem canon_slab_xr_13 : ((Memref.whole cc0_scratch2).slice (Rect.unit (s := S16x64x1024) ![13, 0, 0] S1x64x1024.size inb_S16x64x1024_S1x64x1024_13_0_0) (fun _ => rfl)).squeeze S64x1024 squeezes_S1x64x1024_S64x1024 = slab xrM 13 := rfl
theorem canon_slab_xr_14 : ((Memref.whole cc0_scratch2).slice (Rect.unit (s := S16x64x1024) ![14, 0, 0] S1x64x1024.size inb_S16x64x1024_S1x64x1024_14_0_0) (fun _ => rfl)).squeeze S64x1024 squeezes_S1x64x1024_S64x1024 = slab xrM 14 := rfl
theorem canon_slab_xr_15 : ((Memref.whole cc0_scratch2).slice (Rect.unit (s := S16x64x1024) ![15, 0, 0] S1x64x1024.size inb_S16x64x1024_S1x64x1024_15_0_0) (fun _ => rfl)).squeeze S64x1024 squeezes_S1x64x1024_S64x1024 = slab xrM 15 := rfl
theorem canon_slab_zr_0 : ((Memref.whole cc0_scratch3).slice (Rect.unit (s := S16x64x1024) ![0, 0, 0] S1x64x1024.size inb_S16x64x1024_S1x64x1024_0_0_0) (fun _ => rfl)).squeeze S64x1024 squeezes_S1x64x1024_S64x1024 = slab zrM 0 := rfl
theorem canon_slab_zr_1 : ((Memref.whole cc0_scratch3).slice (Rect.unit (s := S16x64x1024) ![1, 0, 0] S1x64x1024.size inb_S16x64x1024_S1x64x1024_1_0_0) (fun _ => rfl)).squeeze S64x1024 squeezes_S1x64x1024_S64x1024 = slab zrM 1 := rfl
theorem canon_slab_zr_2 : ((Memref.whole cc0_scratch3).slice (Rect.unit (s := S16x64x1024) ![2, 0, 0] S1x64x1024.size inb_S16x64x1024_S1x64x1024_2_0_0) (fun _ => rfl)).squeeze S64x1024 squeezes_S1x64x1024_S64x1024 = slab zrM 2 := rfl
theorem canon_slab_zr_3 : ((Memref.whole cc0_scratch3).slice (Rect.unit (s := S16x64x1024) ![3, 0, 0] S1x64x1024.size inb_S16x64x1024_S1x64x1024_3_0_0) (fun _ => rfl)).squeeze S64x1024 squeezes_S1x64x1024_S64x1024 = slab zrM 3 := rfl
theorem canon_slab_zr_4 : ((Memref.whole cc0_scratch3).slice (Rect.unit (s := S16x64x1024) ![4, 0, 0] S1x64x1024.size inb_S16x64x1024_S1x64x1024_4_0_0) (fun _ => rfl)).squeeze S64x1024 squeezes_S1x64x1024_S64x1024 = slab zrM 4 := rfl
theorem canon_slab_zr_5 : ((Memref.whole cc0_scratch3).slice (Rect.unit (s := S16x64x1024) ![5, 0, 0] S1x64x1024.size inb_S16x64x1024_S1x64x1024_5_0_0) (fun _ => rfl)).squeeze S64x1024 squeezes_S1x64x1024_S64x1024 = slab zrM 5 := rfl
theorem canon_slab_zr_6 : ((Memref.whole cc0_scratch3).slice (Rect.unit (s := S16x64x1024) ![6, 0, 0] S1x64x1024.size inb_S16x64x1024_S1x64x1024_6_0_0) (fun _ => rfl)).squeeze S64x1024 squeezes_S1x64x1024_S64x1024 = slab zrM 6 := rfl
theorem canon_slab_zr_7 : ((Memref.whole cc0_scratch3).slice (Rect.unit (s := S16x64x1024) ![7, 0, 0] S1x64x1024.size inb_S16x64x1024_S1x64x1024_7_0_0) (fun _ => rfl)).squeeze S64x1024 squeezes_S1x64x1024_S64x1024 = slab zrM 7 := rfl
theorem canon_slab_zr_8 : ((Memref.whole cc0_scratch3).slice (Rect.unit (s := S16x64x1024) ![8, 0, 0] S1x64x1024.size inb_S16x64x1024_S1x64x1024_8_0_0) (fun _ => rfl)).squeeze S64x1024 squeezes_S1x64x1024_S64x1024 = slab zrM 8 := rfl
theorem canon_slab_zr_9 : ((Memref.whole cc0_scratch3).slice (Rect.unit (s := S16x64x1024) ![9, 0, 0] S1x64x1024.size inb_S16x64x1024_S1x64x1024_9_0_0) (fun _ => rfl)).squeeze S64x1024 squeezes_S1x64x1024_S64x1024 = slab zrM 9 := rfl
theorem canon_slab_zr_10 : ((Memref.whole cc0_scratch3).slice (Rect.unit (s := S16x64x1024) ![10, 0, 0] S1x64x1024.size inb_S16x64x1024_S1x64x1024_10_0_0) (fun _ => rfl)).squeeze S64x1024 squeezes_S1x64x1024_S64x1024 = slab zrM 10 := rfl
theorem canon_slab_zr_11 : ((Memref.whole cc0_scratch3).slice (Rect.unit (s := S16x64x1024) ![11, 0, 0] S1x64x1024.size inb_S16x64x1024_S1x64x1024_11_0_0) (fun _ => rfl)).squeeze S64x1024 squeezes_S1x64x1024_S64x1024 = slab zrM 11 := rfl
theorem canon_slab_zr_12 : ((Memref.whole cc0_scratch3).slice (Rect.unit (s := S16x64x1024) ![12, 0, 0] S1x64x1024.size inb_S16x64x1024_S1x64x1024_12_0_0) (fun _ => rfl)).squeeze S64x1024 squeezes_S1x64x1024_S64x1024 = slab zrM 12 := rfl
theorem canon_slab_zr_13 : ((Memref.whole cc0_scratch3).slice (Rect.unit (s := S16x64x1024) ![13, 0, 0] S1x64x1024.size inb_S16x64x1024_S1x64x1024_13_0_0) (fun _ => rfl)).squeeze S64x1024 squeezes_S1x64x1024_S64x1024 = slab zrM 13 := rfl
theorem canon_slab_zr_14 : ((Memref.whole cc0_scratch3).slice (Rect.unit (s := S16x64x1024) ![14, 0, 0] S1x64x1024.size inb_S16x64x1024_S1x64x1024_14_0_0) (fun _ => rfl)).squeeze S64x1024 squeezes_S1x64x1024_S64x1024 = slab zrM 14 := rfl
theorem canon_slab_zr_15 : ((Memref.whole cc0_scratch3).slice (Rect.unit (s := S16x64x1024) ![15, 0, 0] S1x64x1024.size inb_S16x64x1024_S1x64x1024_15_0_0) (fun _ => rfl)).squeeze S64x1024 squeezes_S1x64x1024_S64x1024 = slab zrM 15 := rfl

/-! ## Result rows and load windows: the literal row word `64 · i` is chunk `i`'s -/

theorem canon_rowY_0 (c : Dev nD) : (Memref.whole main_v1).slice (Rect.unit (s := S8192x1024) (k0_off4 c 0#32) S64x1024.size (k0_off4_inb c 0)) (fun _ => rfl) = oRowY c 0 := rfl
theorem canon_rowY_1 (c : Dev nD) : (Memref.whole main_v1).slice (Rect.unit (s := S8192x1024) (k0_off4 c 64#32) S64x1024.size (k0_off4_inb c 1)) (fun _ => rfl) = oRowY c 1 := rfl
theorem canon_rowY_2 (c : Dev nD) : (Memref.whole main_v1).slice (Rect.unit (s := S8192x1024) (k0_off4 c 128#32) S64x1024.size (k0_off4_inb c 2)) (fun _ => rfl) = oRowY c 2 := rfl
theorem canon_rowY_3 (c : Dev nD) : (Memref.whole main_v1).slice (Rect.unit (s := S8192x1024) (k0_off4 c 192#32) S64x1024.size (k0_off4_inb c 3)) (fun _ => rfl) = oRowY c 3 := rfl
theorem canon_rowY_4 (c : Dev nD) : (Memref.whole main_v1).slice (Rect.unit (s := S8192x1024) (k0_off4 c 256#32) S64x1024.size (k0_off4_inb c 4)) (fun _ => rfl) = oRowY c 4 := rfl
theorem canon_rowY_5 (c : Dev nD) : (Memref.whole main_v1).slice (Rect.unit (s := S8192x1024) (k0_off4 c 320#32) S64x1024.size (k0_off4_inb c 5)) (fun _ => rfl) = oRowY c 5 := rfl
theorem canon_rowY_6 (c : Dev nD) : (Memref.whole main_v1).slice (Rect.unit (s := S8192x1024) (k0_off4 c 384#32) S64x1024.size (k0_off4_inb c 6)) (fun _ => rfl) = oRowY c 6 := rfl
theorem canon_rowY_7 (c : Dev nD) : (Memref.whole main_v1).slice (Rect.unit (s := S8192x1024) (k0_off4 c 448#32) S64x1024.size (k0_off4_inb c 7)) (fun _ => rfl) = oRowY c 7 := rfl
theorem canon_rowY_8 (c : Dev nD) : (Memref.whole main_v1).slice (Rect.unit (s := S8192x1024) (k0_off4 c 512#32) S64x1024.size (k0_off4_inb c 8)) (fun _ => rfl) = oRowY c 8 := rfl
theorem canon_rowY_9 (c : Dev nD) : (Memref.whole main_v1).slice (Rect.unit (s := S8192x1024) (k0_off4 c 576#32) S64x1024.size (k0_off4_inb c 9)) (fun _ => rfl) = oRowY c 9 := rfl
theorem canon_rowY_10 (c : Dev nD) : (Memref.whole main_v1).slice (Rect.unit (s := S8192x1024) (k0_off4 c 640#32) S64x1024.size (k0_off4_inb c 10)) (fun _ => rfl) = oRowY c 10 := rfl
theorem canon_rowY_11 (c : Dev nD) : (Memref.whole main_v1).slice (Rect.unit (s := S8192x1024) (k0_off4 c 704#32) S64x1024.size (k0_off4_inb c 11)) (fun _ => rfl) = oRowY c 11 := rfl
theorem canon_rowY_12 (c : Dev nD) : (Memref.whole main_v1).slice (Rect.unit (s := S8192x1024) (k0_off4 c 768#32) S64x1024.size (k0_off4_inb c 12)) (fun _ => rfl) = oRowY c 12 := rfl
theorem canon_rowY_13 (c : Dev nD) : (Memref.whole main_v1).slice (Rect.unit (s := S8192x1024) (k0_off4 c 832#32) S64x1024.size (k0_off4_inb c 13)) (fun _ => rfl) = oRowY c 13 := rfl
theorem canon_rowY_14 (c : Dev nD) : (Memref.whole main_v1).slice (Rect.unit (s := S8192x1024) (k0_off4 c 896#32) S64x1024.size (k0_off4_inb c 14)) (fun _ => rfl) = oRowY c 14 := rfl
theorem canon_rowY_15 (c : Dev nD) : (Memref.whole main_v1).slice (Rect.unit (s := S8192x1024) (k0_off4 c 960#32) S64x1024.size (k0_off4_inb c 15)) (fun _ => rfl) = oRowY c 15 := rfl
theorem canon_rowX_0 (c : Dev nD) : (Memref.whole main_v1).slice (Rect.unit (s := S8192x1024) (k0_off5 c 0#32) S64x1024.size (k0_off5_inb c 0)) (fun _ => rfl) = oRowX c 0 := rfl
theorem canon_rowX_1 (c : Dev nD) : (Memref.whole main_v1).slice (Rect.unit (s := S8192x1024) (k0_off5 c 64#32) S64x1024.size (k0_off5_inb c 1)) (fun _ => rfl) = oRowX c 1 := rfl
theorem canon_rowX_2 (c : Dev nD) : (Memref.whole main_v1).slice (Rect.unit (s := S8192x1024) (k0_off5 c 128#32) S64x1024.size (k0_off5_inb c 2)) (fun _ => rfl) = oRowX c 2 := rfl
theorem canon_rowX_3 (c : Dev nD) : (Memref.whole main_v1).slice (Rect.unit (s := S8192x1024) (k0_off5 c 192#32) S64x1024.size (k0_off5_inb c 3)) (fun _ => rfl) = oRowX c 3 := rfl
theorem canon_rowX_4 (c : Dev nD) : (Memref.whole main_v1).slice (Rect.unit (s := S8192x1024) (k0_off5 c 256#32) S64x1024.size (k0_off5_inb c 4)) (fun _ => rfl) = oRowX c 4 := rfl
theorem canon_rowX_5 (c : Dev nD) : (Memref.whole main_v1).slice (Rect.unit (s := S8192x1024) (k0_off5 c 320#32) S64x1024.size (k0_off5_inb c 5)) (fun _ => rfl) = oRowX c 5 := rfl
theorem canon_rowX_6 (c : Dev nD) : (Memref.whole main_v1).slice (Rect.unit (s := S8192x1024) (k0_off5 c 384#32) S64x1024.size (k0_off5_inb c 6)) (fun _ => rfl) = oRowX c 6 := rfl
theorem canon_rowX_7 (c : Dev nD) : (Memref.whole main_v1).slice (Rect.unit (s := S8192x1024) (k0_off5 c 448#32) S64x1024.size (k0_off5_inb c 7)) (fun _ => rfl) = oRowX c 7 := rfl
theorem canon_rowX_8 (c : Dev nD) : (Memref.whole main_v1).slice (Rect.unit (s := S8192x1024) (k0_off5 c 512#32) S64x1024.size (k0_off5_inb c 8)) (fun _ => rfl) = oRowX c 8 := rfl
theorem canon_rowX_9 (c : Dev nD) : (Memref.whole main_v1).slice (Rect.unit (s := S8192x1024) (k0_off5 c 576#32) S64x1024.size (k0_off5_inb c 9)) (fun _ => rfl) = oRowX c 9 := rfl
theorem canon_rowX_10 (c : Dev nD) : (Memref.whole main_v1).slice (Rect.unit (s := S8192x1024) (k0_off5 c 640#32) S64x1024.size (k0_off5_inb c 10)) (fun _ => rfl) = oRowX c 10 := rfl
theorem canon_rowX_11 (c : Dev nD) : (Memref.whole main_v1).slice (Rect.unit (s := S8192x1024) (k0_off5 c 704#32) S64x1024.size (k0_off5_inb c 11)) (fun _ => rfl) = oRowX c 11 := rfl
theorem canon_rowX_12 (c : Dev nD) : (Memref.whole main_v1).slice (Rect.unit (s := S8192x1024) (k0_off5 c 768#32) S64x1024.size (k0_off5_inb c 12)) (fun _ => rfl) = oRowX c 12 := rfl
theorem canon_rowX_13 (c : Dev nD) : (Memref.whole main_v1).slice (Rect.unit (s := S8192x1024) (k0_off5 c 832#32) S64x1024.size (k0_off5_inb c 13)) (fun _ => rfl) = oRowX c 13 := rfl
theorem canon_rowX_14 (c : Dev nD) : (Memref.whole main_v1).slice (Rect.unit (s := S8192x1024) (k0_off5 c 896#32) S64x1024.size (k0_off5_inb c 14)) (fun _ => rfl) = oRowX c 14 := rfl
theorem canon_rowX_15 (c : Dev nD) : (Memref.whole main_v1).slice (Rect.unit (s := S8192x1024) (k0_off5 c 960#32) S64x1024.size (k0_off5_inb c 15)) (fun _ => rfl) = oRowX c 15 := rfl
theorem canon_rowZ_0 (c : Dev nD) : (Memref.whole main_v1).slice (Rect.unit (s := S8192x1024) (k0_off6 c 0#32) S64x1024.size (k0_off6_inb c 0)) (fun _ => rfl) = oRowZ c 0 := rfl
theorem canon_rowZ_1 (c : Dev nD) : (Memref.whole main_v1).slice (Rect.unit (s := S8192x1024) (k0_off6 c 64#32) S64x1024.size (k0_off6_inb c 1)) (fun _ => rfl) = oRowZ c 1 := rfl
theorem canon_rowZ_2 (c : Dev nD) : (Memref.whole main_v1).slice (Rect.unit (s := S8192x1024) (k0_off6 c 128#32) S64x1024.size (k0_off6_inb c 2)) (fun _ => rfl) = oRowZ c 2 := rfl
theorem canon_rowZ_3 (c : Dev nD) : (Memref.whole main_v1).slice (Rect.unit (s := S8192x1024) (k0_off6 c 192#32) S64x1024.size (k0_off6_inb c 3)) (fun _ => rfl) = oRowZ c 3 := rfl
theorem canon_rowZ_4 (c : Dev nD) : (Memref.whole main_v1).slice (Rect.unit (s := S8192x1024) (k0_off6 c 256#32) S64x1024.size (k0_off6_inb c 4)) (fun _ => rfl) = oRowZ c 4 := rfl
theorem canon_rowZ_5 (c : Dev nD) : (Memref.whole main_v1).slice (Rect.unit (s := S8192x1024) (k0_off6 c 320#32) S64x1024.size (k0_off6_inb c 5)) (fun _ => rfl) = oRowZ c 5 := rfl
theorem canon_rowZ_6 (c : Dev nD) : (Memref.whole main_v1).slice (Rect.unit (s := S8192x1024) (k0_off6 c 384#32) S64x1024.size (k0_off6_inb c 6)) (fun _ => rfl) = oRowZ c 6 := rfl
theorem canon_rowZ_7 (c : Dev nD) : (Memref.whole main_v1).slice (Rect.unit (s := S8192x1024) (k0_off6 c 448#32) S64x1024.size (k0_off6_inb c 7)) (fun _ => rfl) = oRowZ c 7 := rfl
theorem canon_rowZ_8 (c : Dev nD) : (Memref.whole main_v1).slice (Rect.unit (s := S8192x1024) (k0_off6 c 512#32) S64x1024.size (k0_off6_inb c 8)) (fun _ => rfl) = oRowZ c 8 := rfl
theorem canon_rowZ_9 (c : Dev nD) : (Memref.whole main_v1).slice (Rect.unit (s := S8192x1024) (k0_off6 c 576#32) S64x1024.size (k0_off6_inb c 9)) (fun _ => rfl) = oRowZ c 9 := rfl
theorem canon_rowZ_10 (c : Dev nD) : (Memref.whole main_v1).slice (Rect.unit (s := S8192x1024) (k0_off6 c 640#32) S64x1024.size (k0_off6_inb c 10)) (fun _ => rfl) = oRowZ c 10 := rfl
theorem canon_rowZ_11 (c : Dev nD) : (Memref.whole main_v1).slice (Rect.unit (s := S8192x1024) (k0_off6 c 704#32) S64x1024.size (k0_off6_inb c 11)) (fun _ => rfl) = oRowZ c 11 := rfl
theorem canon_rowZ_12 (c : Dev nD) : (Memref.whole main_v1).slice (Rect.unit (s := S8192x1024) (k0_off6 c 768#32) S64x1024.size (k0_off6_inb c 12)) (fun _ => rfl) = oRowZ c 12 := rfl
theorem canon_rowZ_13 (c : Dev nD) : (Memref.whole main_v1).slice (Rect.unit (s := S8192x1024) (k0_off6 c 832#32) S64x1024.size (k0_off6_inb c 13)) (fun _ => rfl) = oRowZ c 13 := rfl
theorem canon_rowZ_14 (c : Dev nD) : (Memref.whole main_v1).slice (Rect.unit (s := S8192x1024) (k0_off6 c 896#32) S64x1024.size (k0_off6_inb c 14)) (fun _ => rfl) = oRowZ c 14 := rfl
theorem canon_rowZ_15 (c : Dev nD) : (Memref.whole main_v1).slice (Rect.unit (s := S8192x1024) (k0_off6 c 960#32) S64x1024.size (k0_off6_inb c 15)) (fun _ => rfl) = oRowZ c 15 := rfl
theorem canon_win_0 (c : Dev nD) : (Memref.whole main_arg0).slice (Rect.unit (s := S4096x2048) (k0_off1 c 0#32) S64x1024.size (k0_off1_inb c 0)) (fun _ => rfl) = aWin c 0 := rfl
theorem canon_win_1 (c : Dev nD) : (Memref.whole main_arg0).slice (Rect.unit (s := S4096x2048) (k0_off1 c 64#32) S64x1024.size (k0_off1_inb c 1)) (fun _ => rfl) = aWin c 1 := rfl
theorem canon_win_2 (c : Dev nD) : (Memref.whole main_arg0).slice (Rect.unit (s := S4096x2048) (k0_off1 c 128#32) S64x1024.size (k0_off1_inb c 2)) (fun _ => rfl) = aWin c 2 := rfl
theorem canon_win_3 (c : Dev nD) : (Memref.whole main_arg0).slice (Rect.unit (s := S4096x2048) (k0_off1 c 192#32) S64x1024.size (k0_off1_inb c 3)) (fun _ => rfl) = aWin c 3 := rfl
theorem canon_win_4 (c : Dev nD) : (Memref.whole main_arg0).slice (Rect.unit (s := S4096x2048) (k0_off1 c 256#32) S64x1024.size (k0_off1_inb c 4)) (fun _ => rfl) = aWin c 4 := rfl
theorem canon_win_5 (c : Dev nD) : (Memref.whole main_arg0).slice (Rect.unit (s := S4096x2048) (k0_off1 c 320#32) S64x1024.size (k0_off1_inb c 5)) (fun _ => rfl) = aWin c 5 := rfl
theorem canon_win_6 (c : Dev nD) : (Memref.whole main_arg0).slice (Rect.unit (s := S4096x2048) (k0_off1 c 384#32) S64x1024.size (k0_off1_inb c 6)) (fun _ => rfl) = aWin c 6 := rfl
theorem canon_win_7 (c : Dev nD) : (Memref.whole main_arg0).slice (Rect.unit (s := S4096x2048) (k0_off1 c 448#32) S64x1024.size (k0_off1_inb c 7)) (fun _ => rfl) = aWin c 7 := rfl
theorem canon_win_8 (c : Dev nD) : (Memref.whole main_arg0).slice (Rect.unit (s := S4096x2048) (k0_off1 c 512#32) S64x1024.size (k0_off1_inb c 8)) (fun _ => rfl) = aWin c 8 := rfl
theorem canon_win_9 (c : Dev nD) : (Memref.whole main_arg0).slice (Rect.unit (s := S4096x2048) (k0_off1 c 576#32) S64x1024.size (k0_off1_inb c 9)) (fun _ => rfl) = aWin c 9 := rfl
theorem canon_win_10 (c : Dev nD) : (Memref.whole main_arg0).slice (Rect.unit (s := S4096x2048) (k0_off1 c 640#32) S64x1024.size (k0_off1_inb c 10)) (fun _ => rfl) = aWin c 10 := rfl
theorem canon_win_11 (c : Dev nD) : (Memref.whole main_arg0).slice (Rect.unit (s := S4096x2048) (k0_off1 c 704#32) S64x1024.size (k0_off1_inb c 11)) (fun _ => rfl) = aWin c 11 := rfl
theorem canon_win_12 (c : Dev nD) : (Memref.whole main_arg0).slice (Rect.unit (s := S4096x2048) (k0_off1 c 768#32) S64x1024.size (k0_off1_inb c 12)) (fun _ => rfl) = aWin c 12 := rfl
theorem canon_win_13 (c : Dev nD) : (Memref.whole main_arg0).slice (Rect.unit (s := S4096x2048) (k0_off1 c 832#32) S64x1024.size (k0_off1_inb c 13)) (fun _ => rfl) = aWin c 13 := rfl
theorem canon_win_14 (c : Dev nD) : (Memref.whole main_arg0).slice (Rect.unit (s := S4096x2048) (k0_off1 c 896#32) S64x1024.size (k0_off1_inb c 14)) (fun _ => rfl) = aWin c 14 := rfl
theorem canon_win_15 (c : Dev nD) : (Memref.whole main_arg0).slice (Rect.unit (s := S4096x2048) (k0_off1 c 960#32) S64x1024.size (k0_off1_inb c 15)) (fun _ => rfl) = aWin c 15 := rfl

/-! ## The table, and the device equations of the mesh with it -/

attribute [sl_canon] canon_sem_ys_0 canon_sem_ys_1 canon_sem_ys_2 canon_sem_ys_3 canon_sem_ys_4 canon_sem_ys_5 canon_sem_ys_6 canon_sem_ys_7 canon_sem_ys_8 canon_sem_ys_9 canon_sem_ys_10 canon_sem_ys_11 canon_sem_ys_12 canon_sem_ys_13 canon_sem_ys_14 canon_sem_ys_15 canon_sem_yr_0 canon_sem_yr_1 canon_sem_yr_2 canon_sem_yr_3 canon_sem_yr_4 canon_sem_yr_5 canon_sem_yr_6 canon_sem_yr_7 canon_sem_yr_8 canon_sem_yr_9 canon_sem_yr_10 canon_sem_yr_11 canon_sem_yr_12 canon_sem_yr_13 canon_sem_yr_14 canon_sem_yr_15 canon_sem_xs_0 canon_sem_xs_1 canon_sem_xs_2 canon_sem_xs_3 canon_sem_xs_4 canon_sem_xs_5 canon_sem_xs_6 canon_sem_xs_7 canon_sem_xs_8 canon_sem_xs_9 canon_sem_xs_10 canon_sem_xs_11 canon_sem_xs_12 canon_sem_xs_13 canon_sem_xs_14 canon_sem_xs_15 canon_sem_xr_0 canon_sem_xr_1 canon_sem_xr_2 canon_sem_xr_3 canon_sem_xr_4 canon_sem_xr_5 canon_sem_xr_6 canon_sem_xr_7 canon_sem_xr_8 canon_sem_xr_9 canon_sem_xr_10 canon_sem_xr_11 canon_sem_xr_12 canon_sem_xr_13 canon_sem_xr_14 canon_sem_xr_15 canon_sem_zs_0 canon_sem_zs_1 canon_sem_zs_2 canon_sem_zs_3 canon_sem_zs_4 canon_sem_zs_5 canon_sem_zs_6 canon_sem_zs_7 canon_sem_zs_8 canon_sem_zs_9 canon_sem_zs_10 canon_sem_zs_11 canon_sem_zs_12 canon_sem_zs_13 canon_sem_zs_14 canon_sem_zs_15 canon_sem_zr_0 canon_sem_zr_1 canon_sem_zr_2 canon_sem_zr_3 canon_sem_zr_4 canon_sem_zr_5 canon_sem_zr_6 canon_sem_zr_7 canon_sem_zr_8 canon_sem_zr_9 canon_sem_zr_10 canon_sem_zr_11 canon_sem_zr_12 canon_sem_zr_13 canon_sem_zr_14 canon_sem_zr_15 canon_sem_qs_0 canon_sem_qs_1 canon_sem_qs_2 canon_sem_qs_3 canon_sem_qs_4 canon_sem_qs_5 canon_sem_qs_6 canon_sem_qs_7 canon_sem_qs_8 canon_sem_qs_9 canon_sem_qs_10 canon_sem_qs_11 canon_sem_qs_12 canon_sem_qs_13 canon_sem_qs_14 canon_sem_qs_15 canon_sem_qr_0 canon_sem_qr_1 canon_sem_qr_2 canon_sem_qr_3 canon_sem_qr_4 canon_sem_qr_5 canon_sem_qr_6 canon_sem_qr_7 canon_sem_qr_8 canon_sem_qr_9 canon_sem_qr_10 canon_sem_qr_11 canon_sem_qr_12 canon_sem_qr_13 canon_sem_qr_14 canon_sem_qr_15 canon_slab_s_0 canon_slab_s_1 canon_slab_s_2 canon_slab_s_3 canon_slab_s_4 canon_slab_s_5 canon_slab_s_6 canon_slab_s_7 canon_slab_s_8 canon_slab_s_9 canon_slab_s_10 canon_slab_s_11 canon_slab_s_12 canon_slab_s_13 canon_slab_s_14 canon_slab_s_15 canon_slab_r_0 canon_slab_r_1 canon_slab_r_2 canon_slab_r_3 canon_slab_r_4 canon_slab_r_5 canon_slab_r_6 canon_slab_r_7 canon_slab_r_8 canon_slab_r_9 canon_slab_r_10 canon_slab_r_11 canon_slab_r_12 canon_slab_r_13 canon_slab_r_14 canon_slab_r_15 canon_slab_xr_0 canon_slab_xr_1 canon_slab_xr_2 canon_slab_xr_3 canon_slab_xr_4 canon_slab_xr_5 canon_slab_xr_6 canon_slab_xr_7 canon_slab_xr_8 canon_slab_xr_9 canon_slab_xr_10 canon_slab_xr_11 canon_slab_xr_12 canon_slab_xr_13 canon_slab_xr_14 canon_slab_xr_15 canon_slab_zr_0 canon_slab_zr_1 canon_slab_zr_2 canon_slab_zr_3 canon_slab_zr_4 canon_slab_zr_5 canon_slab_zr_6 canon_slab_zr_7 canon_slab_zr_8 canon_slab_zr_9 canon_slab_zr_10 canon_slab_zr_11 canon_slab_zr_12 canon_slab_zr_13 canon_slab_zr_14 canon_slab_zr_15 canon_rowY_0 canon_rowY_1 canon_rowY_2 canon_rowY_3 canon_rowY_4 canon_rowY_5 canon_rowY_6 canon_rowY_7 canon_rowY_8 canon_rowY_9 canon_rowY_10 canon_rowY_11 canon_rowY_12 canon_rowY_13 canon_rowY_14 canon_rowY_15 canon_rowX_0 canon_rowX_1 canon_rowX_2 canon_rowX_3 canon_rowX_4 canon_rowX_5 canon_rowX_6 canon_rowX_7 canon_rowX_8 canon_rowX_9 canon_rowX_10 canon_rowX_11 canon_rowX_12 canon_rowX_13 canon_rowX_14 canon_rowX_15 canon_rowZ_0 canon_rowZ_1 canon_rowZ_2 canon_rowZ_3 canon_rowZ_4 canon_rowZ_5 canon_rowZ_6 canon_rowZ_7 canon_rowZ_8 canon_rowZ_9 canon_rowZ_10 canon_rowZ_11 canon_rowZ_12 canon_rowZ_13 canon_rowZ_14 canon_rowZ_15 canon_win_0 canon_win_1 canon_win_2 canon_win_3 canon_win_4 canon_win_5 canon_win_6 canon_win_7 canon_win_8 canon_win_9 canon_win_10 canon_win_11 canon_win_12 canon_win_13 canon_win_14 canon_win_15 dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq dev63_eq dev64_eq dev65_eq dev66_eq dev67_eq

/-- Rewrites every device id the program computes to the partner it is. -/
macro "a2a_dev" : tactic => `(tactic| simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq, dev64_eq, dev65_eq, dev66_eq, dev67_eq])

end Cert.Kernel.A2A
-- ==== Proof.BClose.lean ====
import proofs.«900640_g7700000000000641_dist_a2a_v7x_xyz2x2x4_y_m4096_n1024_f32_1_alg».proof.Proof.BGlob

/-!
# Closing the cells

At the end of its body a device has waited once on each of its 128 chunk cells: it stands at round 1 of every one of
them, having taken nothing of that round, and no cell has a duty from round 1 on. So each cell closes, which reads its
counter at zero; together with the semaphores that are no chunk cell this is every own DMA semaphore back at zero.

The 128 cells are listed family by family (the first hop's send and receive cells, the second hop's along `x` and
along `z`, the fourth quarter's), sixteen chunks each.
-/

set_option maxRecDepth 65536

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## One cell, all cells -/

/-- A chunk cell whose owner stands at round 1 with nothing taken closes: its counter reads zero. -/
theorem close_cell (K : Dev nD × CK → ℕ) (c : Dev nD) (f : Fam) (i : Fin 16) :
    iprop(cellInv ER (sched m) (K (c, some (f, i))) (fcell c f i) ∗ atPos ER (fcell c f i) 1 ∅ 0)
      ⊢ (|={Set.univ}=> semVal (fcell c f i) 0 : sProp 𝕄) :=
  Rounds.cell_close ER (sched m) (Set.mem_univ _) (not_unitless m _) (R := 1) (duties_later m _)

/-- All 128 chunk cells of a device close at once. -/
theorem close_all (K : Dev nD × CK → ℕ) (c : Dev nD) :
    iprop((bigSep Finset.univ fun fi : Fam × Fin 16 => cellInv ER (sched m) (K (c, some fi)) (fcell c fi.1 fi.2))
        ∗ bigSep Finset.univ fun fi : Fam × Fin 16 => atPos ER (fcell c fi.1 fi.2) 1 ∅ 0)
      ⊢ (|={Set.univ}=> bigSep Finset.univ fun fi : Fam × Fin 16 => semVal (fcell c fi.1 fi.2) 0 : sProp 𝕄) := by
  rw [← bigSep_sep']
  exact (bigSep_mono fun fi _ => close_cell m K c fi.1 fi.2).trans (bigSep_fupd _ _)

/-! ## The 128 cells, one by one -/

theorem close_sep_assoc (P Q R : sProp 𝕄) : iprop((P ∗ Q) ∗ R) = iprop(P ∗ Q ∗ R) := Idealize.SL.BI.Entails.antisymm Idealize.SL.BI.sep_assoc Idealize.SL.BI.sep_assoc'

theorem close_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- A `bigSep` over family and chunk is the chain of its 128 summands, families outermost. -/
theorem bigSep_cells (Φ : Fam × Fin 16 → sProp 𝕄) :
    bigSep Finset.univ Φ = iprop(
        Φ (Fam.ys, 0) ∗ Φ (Fam.ys, 1) ∗ Φ (Fam.ys, 2) ∗ Φ (Fam.ys, 3) ∗ Φ (Fam.ys, 4) ∗ Φ (Fam.ys, 5) ∗ Φ (Fam.ys, 6) ∗ Φ (Fam.ys, 7)
      ∗ Φ (Fam.ys, 8) ∗ Φ (Fam.ys, 9) ∗ Φ (Fam.ys, 10) ∗ Φ (Fam.ys, 11) ∗ Φ (Fam.ys, 12) ∗ Φ (Fam.ys, 13) ∗ Φ (Fam.ys, 14) ∗ Φ (Fam.ys, 15)
      ∗ Φ (Fam.yr, 0) ∗ Φ (Fam.yr, 1) ∗ Φ (Fam.yr, 2) ∗ Φ (Fam.yr, 3) ∗ Φ (Fam.yr, 4) ∗ Φ (Fam.yr, 5) ∗ Φ (Fam.yr, 6) ∗ Φ (Fam.yr, 7)
      ∗ Φ (Fam.yr, 8) ∗ Φ (Fam.yr, 9) ∗ Φ (Fam.yr, 10) ∗ Φ (Fam.yr, 11) ∗ Φ (Fam.yr, 12) ∗ Φ (Fam.yr, 13) ∗ Φ (Fam.yr, 14) ∗ Φ (Fam.yr, 15)
      ∗ Φ (Fam.xs, 0) ∗ Φ (Fam.xs, 1) ∗ Φ (Fam.xs, 2) ∗ Φ (Fam.xs, 3) ∗ Φ (Fam.xs, 4) ∗ Φ (Fam.xs, 5) ∗ Φ (Fam.xs, 6) ∗ Φ (Fam.xs, 7)
      ∗ Φ (Fam.xs, 8) ∗ Φ (Fam.xs, 9) ∗ Φ (Fam.xs, 10) ∗ Φ (Fam.xs, 11) ∗ Φ (Fam.xs, 12) ∗ Φ (Fam.xs, 13) ∗ Φ (Fam.xs, 14) ∗ Φ (Fam.xs, 15)
      ∗ Φ (Fam.xr, 0) ∗ Φ (Fam.xr, 1) ∗ Φ (Fam.xr, 2) ∗ Φ (Fam.xr, 3) ∗ Φ (Fam.xr, 4) ∗ Φ (Fam.xr, 5) ∗ Φ (Fam.xr, 6) ∗ Φ (Fam.xr, 7)
      ∗ Φ (Fam.xr, 8) ∗ Φ (Fam.xr, 9) ∗ Φ (Fam.xr, 10) ∗ Φ (Fam.xr, 11) ∗ Φ (Fam.xr, 12) ∗ Φ (Fam.xr, 13) ∗ Φ (Fam.xr, 14) ∗ Φ (Fam.xr, 15)
      ∗ Φ (Fam.zs, 0) ∗ Φ (Fam.zs, 1) ∗ Φ (Fam.zs, 2) ∗ Φ (Fam.zs, 3) ∗ Φ (Fam.zs, 4) ∗ Φ (Fam.zs, 5) ∗ Φ (Fam.zs, 6) ∗ Φ (Fam.zs, 7)
      ∗ Φ (Fam.zs, 8) ∗ Φ (Fam.zs, 9) ∗ Φ (Fam.zs, 10) ∗ Φ (Fam.zs, 11) ∗ Φ (Fam.zs, 12) ∗ Φ (Fam.zs, 13) ∗ Φ (Fam.zs, 14) ∗ Φ (Fam.zs, 15)
      ∗ Φ (Fam.zr, 0) ∗ Φ (Fam.zr, 1) ∗ Φ (Fam.zr, 2) ∗ Φ (Fam.zr, 3) ∗ Φ (Fam.zr, 4) ∗ Φ (Fam.zr, 5) ∗ Φ (Fam.zr, 6) ∗ Φ (Fam.zr, 7)
      ∗ Φ (Fam.zr, 8) ∗ Φ (Fam.zr, 9) ∗ Φ (Fam.zr, 10) ∗ Φ (Fam.zr, 11) ∗ Φ (Fam.zr, 12) ∗ Φ (Fam.zr, 13) ∗ Φ (Fam.zr, 14) ∗ Φ (Fam.zr, 15)
      ∗ Φ (Fam.qs, 0) ∗ Φ (Fam.qs, 1) ∗ Φ (Fam.qs, 2) ∗ Φ (Fam.qs, 3) ∗ Φ (Fam.qs, 4) ∗ Φ (Fam.qs, 5) ∗ Φ (Fam.qs, 6) ∗ Φ (Fam.qs, 7)
      ∗ Φ (Fam.qs, 8) ∗ Φ (Fam.qs, 9) ∗ Φ (Fam.qs, 10) ∗ Φ (Fam.qs, 11) ∗ Φ (Fam.qs, 12) ∗ Φ (Fam.qs, 13) ∗ Φ (Fam.qs, 14) ∗ Φ (Fam.qs, 15)
      ∗ Φ (Fam.qr, 0) ∗ Φ (Fam.qr, 1) ∗ Φ (Fam.qr, 2) ∗ Φ (Fam.qr, 3) ∗ Φ (Fam.qr, 4) ∗ Φ (Fam.qr, 5) ∗ Φ (Fam.qr, 6) ∗ Φ (Fam.qr, 7)
      ∗ Φ (Fam.qr, 8) ∗ Φ (Fam.qr, 9) ∗ Φ (Fam.qr, 10) ∗ Φ (Fam.qr, 11) ∗ Φ (Fam.qr, 12) ∗ Φ (Fam.qr, 13) ∗ Φ (Fam.qr, 14) ∗ Φ (Fam.qr, 15)) := by
  rw [bigSep_univ_prod, bigSep_fam]
  simp only [close_fin16, close_sep_assoc]

/-- The 128 invariants and the 128 positions, each as a chain in that order, close all the cells. -/
theorem close_chain (K : Dev nD × CK → ℕ) (c : Dev nD) :
    iprop((
        cellInv ER (sched m) (K (c, some (Fam.ys, 0))) (fcell c Fam.ys 0) ∗ cellInv ER (sched m) (K (c, some (Fam.ys, 1))) (fcell c Fam.ys 1)
      ∗ cellInv ER (sched m) (K (c, some (Fam.ys, 2))) (fcell c Fam.ys 2) ∗ cellInv ER (sched m) (K (c, some (Fam.ys, 3))) (fcell c Fam.ys 3)
      ∗ cellInv ER (sched m) (K (c, some (Fam.ys, 4))) (fcell c Fam.ys 4) ∗ cellInv ER (sched m) (K (c, some (Fam.ys, 5))) (fcell c Fam.ys 5)
      ∗ cellInv ER (sched m) (K (c, some (Fam.ys, 6))) (fcell c Fam.ys 6) ∗ cellInv ER (sched m) (K (c, some (Fam.ys, 7))) (fcell c Fam.ys 7)
      ∗ cellInv ER (sched m) (K (c, some (Fam.ys, 8))) (fcell c Fam.ys 8) ∗ cellInv ER (sched m) (K (c, some (Fam.ys, 9))) (fcell c Fam.ys 9)
      ∗ cellInv ER (sched m) (K (c, some (Fam.ys, 10))) (fcell c Fam.ys 10) ∗ cellInv ER (sched m) (K (c, some (Fam.ys, 11))) (fcell c Fam.ys 11)
      ∗ cellInv ER (sched m) (K (c, some (Fam.ys, 12))) (fcell c Fam.ys 12) ∗ cellInv ER (sched m) (K (c, some (Fam.ys, 13))) (fcell c Fam.ys 13)
      ∗ cellInv ER (sched m) (K (c, some (Fam.ys, 14))) (fcell c Fam.ys 14) ∗ cellInv ER (sched m) (K (c, some (Fam.ys, 15))) (fcell c Fam.ys 15)
      ∗ cellInv ER (sched m) (K (c, some (Fam.yr, 0))) (fcell c Fam.yr 0) ∗ cellInv ER (sched m) (K (c, some (Fam.yr, 1))) (fcell c Fam.yr 1)
      ∗ cellInv ER (sched m) (K (c, some (Fam.yr, 2))) (fcell c Fam.yr 2) ∗ cellInv ER (sched m) (K (c, some (Fam.yr, 3))) (fcell c Fam.yr 3)
      ∗ cellInv ER (sched m) (K (c, some (Fam.yr, 4))) (fcell c Fam.yr 4) ∗ cellInv ER (sched m) (K (c, some (Fam.yr, 5))) (fcell c Fam.yr 5)
      ∗ cellInv ER (sched m) (K (c, some (Fam.yr, 6))) (fcell c Fam.yr 6) ∗ cellInv ER (sched m) (K (c, some (Fam.yr, 7))) (fcell c Fam.yr 7)
      ∗ cellInv ER (sched m) (K (c, some (Fam.yr, 8))) (fcell c Fam.yr 8) ∗ cellInv ER (sched m) (K (c, some (Fam.yr, 9))) (fcell c Fam.yr 9)
      ∗ cellInv ER (sched m) (K (c, some (Fam.yr, 10))) (fcell c Fam.yr 10) ∗ cellInv ER (sched m) (K (c, some (Fam.yr, 11))) (fcell c Fam.yr 11)
      ∗ cellInv ER (sched m) (K (c, some (Fam.yr, 12))) (fcell c Fam.yr 12) ∗ cellInv ER (sched m) (K (c, some (Fam.yr, 13))) (fcell c Fam.yr 13)
      ∗ cellInv ER (sched m) (K (c, some (Fam.yr, 14))) (fcell c Fam.yr 14) ∗ cellInv ER (sched m) (K (c, some (Fam.yr, 15))) (fcell c Fam.yr 15)
      ∗ cellInv ER (sched m) (K (c, some (Fam.xs, 0))) (fcell c Fam.xs 0) ∗ cellInv ER (sched m) (K (c, some (Fam.xs, 1))) (fcell c Fam.xs 1)
      ∗ cellInv ER (sched m) (K (c, some (Fam.xs, 2))) (fcell c Fam.xs 2) ∗ cellInv ER (sched m) (K (c, some (Fam.xs, 3))) (fcell c Fam.xs 3)
      ∗ cellInv ER (sched m) (K (c, some (Fam.xs, 4))) (fcell c Fam.xs 4) ∗ cellInv ER (sched m) (K (c, some (Fam.xs, 5))) (fcell c Fam.xs 5)
      ∗ cellInv ER (sched m) (K (c, some (Fam.xs, 6))) (fcell c Fam.xs 6) ∗ cellInv ER (sched m) (K (c, some (Fam.xs, 7))) (fcell c Fam.xs 7)
      ∗ cellInv ER (sched m) (K (c, some (Fam.xs, 8))) (fcell c Fam.xs 8) ∗ cellInv ER (sched m) (K (c, some (Fam.xs, 9))) (fcell c Fam.xs 9)
      ∗ cellInv ER (sched m) (K (c, some (Fam.xs, 10))) (fcell c Fam.xs 10) ∗ cellInv ER (sched m) (K (c, some (Fam.xs, 11))) (fcell c Fam.xs 11)
      ∗ cellInv ER (sched m) (K (c, some (Fam.xs, 12))) (fcell c Fam.xs 12) ∗ cellInv ER (sched m) (K (c, some (Fam.xs, 13))) (fcell c Fam.xs 13)
      ∗ cellInv ER (sched m) (K (c, some (Fam.xs, 14))) (fcell c Fam.xs 14) ∗ cellInv ER (sched m) (K (c, some (Fam.xs, 15))) (fcell c Fam.xs 15)
      ∗ cellInv ER (sched m) (K (c, some (Fam.xr, 0))) (fcell c Fam.xr 0) ∗ cellInv ER (sched m) (K (c, some (Fam.xr, 1))) (fcell c Fam.xr 1)
      ∗ cellInv ER (sched m) (K (c, some (Fam.xr, 2))) (fcell c Fam.xr 2) ∗ cellInv ER (sched m) (K (c, some (Fam.xr, 3))) (fcell c Fam.xr 3)
      ∗ cellInv ER (sched m) (K (c, some (Fam.xr, 4))) (fcell c Fam.xr 4) ∗ cellInv ER (sched m) (K (c, some (Fam.xr, 5))) (fcell c Fam.xr 5)
      ∗ cellInv ER (sched m) (K (c, some (Fam.xr, 6))) (fcell c Fam.xr 6) ∗ cellInv ER (sched m) (K (c, some (Fam.xr, 7))) (fcell c Fam.xr 7)
      ∗ cellInv ER (sched m) (K (c, some (Fam.xr, 8))) (fcell c Fam.xr 8) ∗ cellInv ER (sched m) (K (c, some (Fam.xr, 9))) (fcell c Fam.xr 9)
      ∗ cellInv ER (sched m) (K (c, some (Fam.xr, 10))) (fcell c Fam.xr 10) ∗ cellInv ER (sched m) (K (c, some (Fam.xr, 11))) (fcell c Fam.xr 11)
      ∗ cellInv ER (sched m) (K (c, some (Fam.xr, 12))) (fcell c Fam.xr 12) ∗ cellInv ER (sched m) (K (c, some (Fam.xr, 13))) (fcell c Fam.xr 13)
      ∗ cellInv ER (sched m) (K (c, some (Fam.xr, 14))) (fcell c Fam.xr 14) ∗ cellInv ER (sched m) (K (c, some (Fam.xr, 15))) (fcell c Fam.xr 15)
      ∗ cellInv ER (sched m) (K (c, some (Fam.zs, 0))) (fcell c Fam.zs 0) ∗ cellInv ER (sched m) (K (c, some (Fam.zs, 1))) (fcell c Fam.zs 1)
      ∗ cellInv ER (sched m) (K (c, some (Fam.zs, 2))) (fcell c Fam.zs 2) ∗ cellInv ER (sched m) (K (c, some (Fam.zs, 3))) (fcell c Fam.zs 3)
      ∗ cellInv ER (sched m) (K (c, some (Fam.zs, 4))) (fcell c Fam.zs 4) ∗ cellInv ER (sched m) (K (c, some (Fam.zs, 5))) (fcell c Fam.zs 5)
      ∗ cellInv ER (sched m) (K (c, some (Fam.zs, 6))) (fcell c Fam.zs 6) ∗ cellInv ER (sched m) (K (c, some (Fam.zs, 7))) (fcell c Fam.zs 7)
      ∗ cellInv ER (sched m) (K (c, some (Fam.zs, 8))) (fcell c Fam.zs 8) ∗ cellInv ER (sched m) (K (c, some (Fam.zs, 9))) (fcell c Fam.zs 9)
      ∗ cellInv ER (sched m) (K (c, some (Fam.zs, 10))) (fcell c Fam.zs 10) ∗ cellInv ER (sched m) (K (c, some (Fam.zs, 11))) (fcell c Fam.zs 11)
      ∗ cellInv ER (sched m) (K (c, some (Fam.zs, 12))) (fcell c Fam.zs 12) ∗ cellInv ER (sched m) (K (c, some (Fam.zs, 13))) (fcell c Fam.zs 13)
      ∗ cellInv ER (sched m) (K (c, some (Fam.zs, 14))) (fcell c Fam.zs 14) ∗ cellInv ER (sched m) (K (c, some (Fam.zs, 15))) (fcell c Fam.zs 15)
      ∗ cellInv ER (sched m) (K (c, some (Fam.zr, 0))) (fcell c Fam.zr 0) ∗ cellInv ER (sched m) (K (c, some (Fam.zr, 1))) (fcell c Fam.zr 1)
      ∗ cellInv ER (sched m) (K (c, some (Fam.zr, 2))) (fcell c Fam.zr 2) ∗ cellInv ER (sched m) (K (c, some (Fam.zr, 3))) (fcell c Fam.zr 3)
      ∗ cellInv ER (sched m) (K (c, some (Fam.zr, 4))) (fcell c Fam.zr 4) ∗ cellInv ER (sched m) (K (c, some (Fam.zr, 5))) (fcell c Fam.zr 5)
      ∗ cellInv ER (sched m) (K (c, some (Fam.zr, 6))) (fcell c Fam.zr 6) ∗ cellInv ER (sched m) (K (c, some (Fam.zr, 7))) (fcell c Fam.zr 7)
      ∗ cellInv ER (sched m) (K (c, some (Fam.zr, 8))) (fcell c Fam.zr 8) ∗ cellInv ER (sched m) (K (c, some (Fam.zr, 9))) (fcell c Fam.zr 9)
      ∗ cellInv ER (sched m) (K (c, some (Fam.zr, 10))) (fcell c Fam.zr 10) ∗ cellInv ER (sched m) (K (c, some (Fam.zr, 11))) (fcell c Fam.zr 11)
      ∗ cellInv ER (sched m) (K (c, some (Fam.zr, 12))) (fcell c Fam.zr 12) ∗ cellInv ER (sched m) (K (c, some (Fam.zr, 13))) (fcell c Fam.zr 13)
      ∗ cellInv ER (sched m) (K (c, some (Fam.zr, 14))) (fcell c Fam.zr 14) ∗ cellInv ER (sched m) (K (c, some (Fam.zr, 15))) (fcell c Fam.zr 15)
      ∗ cellInv ER (sched m) (K (c, some (Fam.qs, 0))) (fcell c Fam.qs 0) ∗ cellInv ER (sched m) (K (c, some (Fam.qs, 1))) (fcell c Fam.qs 1)
      ∗ cellInv ER (sched m) (K (c, some (Fam.qs, 2))) (fcell c Fam.qs 2) ∗ cellInv ER (sched m) (K (c, some (Fam.qs, 3))) (fcell c Fam.qs 3)
      ∗ cellInv ER (sched m) (K (c, some (Fam.qs, 4))) (fcell c Fam.qs 4) ∗ cellInv ER (sched m) (K (c, some (Fam.qs, 5))) (fcell c Fam.qs 5)
      ∗ cellInv ER (sched m) (K (c, some (Fam.qs, 6))) (fcell c Fam.qs 6) ∗ cellInv ER (sched m) (K (c, some (Fam.qs, 7))) (fcell c Fam.qs 7)
      ∗ cellInv ER (sched m) (K (c, some (Fam.qs, 8))) (fcell c Fam.qs 8) ∗ cellInv ER (sched m) (K (c, some (Fam.qs, 9))) (fcell c Fam.qs 9)
      ∗ cellInv ER (sched m) (K (c, some (Fam.qs, 10))) (fcell c Fam.qs 10) ∗ cellInv ER (sched m) (K (c, some (Fam.qs, 11))) (fcell c Fam.qs 11)
      ∗ cellInv ER (sched m) (K (c, some (Fam.qs, 12))) (fcell c Fam.qs 12) ∗ cellInv ER (sched m) (K (c, some (Fam.qs, 13))) (fcell c Fam.qs 13)
      ∗ cellInv ER (sched m) (K (c, some (Fam.qs, 14))) (fcell c Fam.qs 14) ∗ cellInv ER (sched m) (K (c, some (Fam.qs, 15))) (fcell c Fam.qs 15)
      ∗ cellInv ER (sched m) (K (c, some (Fam.qr, 0))) (fcell c Fam.qr 0) ∗ cellInv ER (sched m) (K (c, some (Fam.qr, 1))) (fcell c Fam.qr 1)
      ∗ cellInv ER (sched m) (K (c, some (Fam.qr, 2))) (fcell c Fam.qr 2) ∗ cellInv ER (sched m) (K (c, some (Fam.qr, 3))) (fcell c Fam.qr 3)
      ∗ cellInv ER (sched m) (K (c, some (Fam.qr, 4))) (fcell c Fam.qr 4) ∗ cellInv ER (sched m) (K (c, some (Fam.qr, 5))) (fcell c Fam.qr 5)
      ∗ cellInv ER (sched m) (K (c, some (Fam.qr, 6))) (fcell c Fam.qr 6) ∗ cellInv ER (sched m) (K (c, some (Fam.qr, 7))) (fcell c Fam.qr 7)
      ∗ cellInv ER (sched m) (K (c, some (Fam.qr, 8))) (fcell c Fam.qr 8) ∗ cellInv ER (sched m) (K (c, some (Fam.qr, 9))) (fcell c Fam.qr 9)
      ∗ cellInv ER (sched m) (K (c, some (Fam.qr, 10))) (fcell c Fam.qr 10) ∗ cellInv ER (sched m) (K (c, some (Fam.qr, 11))) (fcell c Fam.qr 11)
      ∗ cellInv ER (sched m) (K (c, some (Fam.qr, 12))) (fcell c Fam.qr 12) ∗ cellInv ER (sched m) (K (c, some (Fam.qr, 13))) (fcell c Fam.qr 13)
      ∗ cellInv ER (sched m) (K (c, some (Fam.qr, 14))) (fcell c Fam.qr 14) ∗ cellInv ER (sched m) (K (c, some (Fam.qr, 15))) (fcell c Fam.qr 15))
      ∗ (
        atPos ER (fcell c Fam.ys 0) 1 ∅ 0 ∗ atPos ER (fcell c Fam.ys 1) 1 ∅ 0 ∗ atPos ER (fcell c Fam.ys 2) 1 ∅ 0 ∗ atPos ER (fcell c Fam.ys 3) 1 ∅ 0
      ∗ atPos ER (fcell c Fam.ys 4) 1 ∅ 0 ∗ atPos ER (fcell c Fam.ys 5) 1 ∅ 0 ∗ atPos ER (fcell c Fam.ys 6) 1 ∅ 0 ∗ atPos ER (fcell c Fam.ys 7) 1 ∅ 0
      ∗ atPos ER (fcell c Fam.ys 8) 1 ∅ 0 ∗ atPos ER (fcell c Fam.ys 9) 1 ∅ 0 ∗ atPos ER (fcell c Fam.ys 10) 1 ∅ 0 ∗ atPos ER (fcell c Fam.ys 11) 1 ∅ 0
      ∗ atPos ER (fcell c Fam.ys 12) 1 ∅ 0 ∗ atPos ER (fcell c Fam.ys 13) 1 ∅ 0 ∗ atPos ER (fcell c Fam.ys 14) 1 ∅ 0 ∗ atPos ER (fcell c Fam.ys 15) 1 ∅ 0
      ∗ atPos ER (fcell c Fam.yr 0) 1 ∅ 0 ∗ atPos ER (fcell c Fam.yr 1) 1 ∅ 0 ∗ atPos ER (fcell c Fam.yr 2) 1 ∅ 0 ∗ atPos ER (fcell c Fam.yr 3) 1 ∅ 0
      ∗ atPos ER (fcell c Fam.yr 4) 1 ∅ 0 ∗ atPos ER (fcell c Fam.yr 5) 1 ∅ 0 ∗ atPos ER (fcell c Fam.yr 6) 1 ∅ 0 ∗ atPos ER (fcell c Fam.yr 7) 1 ∅ 0
      ∗ atPos ER (fcell c Fam.yr 8) 1 ∅ 0 ∗ atPos ER (fcell c Fam.yr 9) 1 ∅ 0 ∗ atPos ER (fcell c Fam.yr 10) 1 ∅ 0 ∗ atPos ER (fcell c Fam.yr 11) 1 ∅ 0
      ∗ atPos ER (fcell c Fam.yr 12) 1 ∅ 0 ∗ atPos ER (fcell c Fam.yr 13) 1 ∅ 0 ∗ atPos ER (fcell c Fam.yr 14) 1 ∅ 0 ∗ atPos ER (fcell c Fam.yr 15) 1 ∅ 0
      ∗ atPos ER (fcell c Fam.xs 0) 1 ∅ 0 ∗ atPos ER (fcell c Fam.xs 1) 1 ∅ 0 ∗ atPos ER (fcell c Fam.xs 2) 1 ∅ 0 ∗ atPos ER (fcell c Fam.xs 3) 1 ∅ 0
      ∗ atPos ER (fcell c Fam.xs 4) 1 ∅ 0 ∗ atPos ER (fcell c Fam.xs 5) 1 ∅ 0 ∗ atPos ER (fcell c Fam.xs 6) 1 ∅ 0 ∗ atPos ER (fcell c Fam.xs 7) 1 ∅ 0
      ∗ atPos ER (fcell c Fam.xs 8) 1 ∅ 0 ∗ atPos ER (fcell c Fam.xs 9) 1 ∅ 0 ∗ atPos ER (fcell c Fam.xs 10) 1 ∅ 0 ∗ atPos ER (fcell c Fam.xs 11) 1 ∅ 0
      ∗ atPos ER (fcell c Fam.xs 12) 1 ∅ 0 ∗ atPos ER (fcell c Fam.xs 13) 1 ∅ 0 ∗ atPos ER (fcell c Fam.xs 14) 1 ∅ 0 ∗ atPos ER (fcell c Fam.xs 15) 1 ∅ 0
      ∗ atPos ER (fcell c Fam.xr 0) 1 ∅ 0 ∗ atPos ER (fcell c Fam.xr 1) 1 ∅ 0 ∗ atPos ER (fcell c Fam.xr 2) 1 ∅ 0 ∗ atPos ER (fcell c Fam.xr 3) 1 ∅ 0
      ∗ atPos ER (fcell c Fam.xr 4) 1 ∅ 0 ∗ atPos ER (fcell c Fam.xr 5) 1 ∅ 0 ∗ atPos ER (fcell c Fam.xr 6) 1 ∅ 0 ∗ atPos ER (fcell c Fam.xr 7) 1 ∅ 0
      ∗ atPos ER (fcell c Fam.xr 8) 1 ∅ 0 ∗ atPos ER (fcell c Fam.xr 9) 1 ∅ 0 ∗ atPos ER (fcell c Fam.xr 10) 1 ∅ 0 ∗ atPos ER (fcell c Fam.xr 11) 1 ∅ 0
      ∗ atPos ER (fcell c Fam.xr 12) 1 ∅ 0 ∗ atPos ER (fcell c Fam.xr 13) 1 ∅ 0 ∗ atPos ER (fcell c Fam.xr 14) 1 ∅ 0 ∗ atPos ER (fcell c Fam.xr 15) 1 ∅ 0
      ∗ atPos ER (fcell c Fam.zs 0) 1 ∅ 0 ∗ atPos ER (fcell c Fam.zs 1) 1 ∅ 0 ∗ atPos ER (fcell c Fam.zs 2) 1 ∅ 0 ∗ atPos ER (fcell c Fam.zs 3) 1 ∅ 0
      ∗ atPos ER (fcell c Fam.zs 4) 1 ∅ 0 ∗ atPos ER (fcell c Fam.zs 5) 1 ∅ 0 ∗ atPos ER (fcell c Fam.zs 6) 1 ∅ 0 ∗ atPos ER (fcell c Fam.zs 7) 1 ∅ 0
      ∗ atPos ER (fcell c Fam.zs 8) 1 ∅ 0 ∗ atPos ER (fcell c Fam.zs 9) 1 ∅ 0 ∗ atPos ER (fcell c Fam.zs 10) 1 ∅ 0 ∗ atPos ER (fcell c Fam.zs 11) 1 ∅ 0
      ∗ atPos ER (fcell c Fam.zs 12) 1 ∅ 0 ∗ atPos ER (fcell c Fam.zs 13) 1 ∅ 0 ∗ atPos ER (fcell c Fam.zs 14) 1 ∅ 0 ∗ atPos ER (fcell c Fam.zs 15) 1 ∅ 0
      ∗ atPos ER (fcell c Fam.zr 0) 1 ∅ 0 ∗ atPos ER (fcell c Fam.zr 1) 1 ∅ 0 ∗ atPos ER (fcell c Fam.zr 2) 1 ∅ 0 ∗ atPos ER (fcell c Fam.zr 3) 1 ∅ 0
      ∗ atPos ER (fcell c Fam.zr 4) 1 ∅ 0 ∗ atPos ER (fcell c Fam.zr 5) 1 ∅ 0 ∗ atPos ER (fcell c Fam.zr 6) 1 ∅ 0 ∗ atPos ER (fcell c Fam.zr 7) 1 ∅ 0
      ∗ atPos ER (fcell c Fam.zr 8) 1 ∅ 0 ∗ atPos ER (fcell c Fam.zr 9) 1 ∅ 0 ∗ atPos ER (fcell c Fam.zr 10) 1 ∅ 0 ∗ atPos ER (fcell c Fam.zr 11) 1 ∅ 0
      ∗ atPos ER (fcell c Fam.zr 12) 1 ∅ 0 ∗ atPos ER (fcell c Fam.zr 13) 1 ∅ 0 ∗ atPos ER (fcell c Fam.zr 14) 1 ∅ 0 ∗ atPos ER (fcell c Fam.zr 15) 1 ∅ 0
      ∗ atPos ER (fcell c Fam.qs 0) 1 ∅ 0 ∗ atPos ER (fcell c Fam.qs 1) 1 ∅ 0 ∗ atPos ER (fcell c Fam.qs 2) 1 ∅ 0 ∗ atPos ER (fcell c Fam.qs 3) 1 ∅ 0
      ∗ atPos ER (fcell c Fam.qs 4) 1 ∅ 0 ∗ atPos ER (fcell c Fam.qs 5) 1 ∅ 0 ∗ atPos ER (fcell c Fam.qs 6) 1 ∅ 0 ∗ atPos ER (fcell c Fam.qs 7) 1 ∅ 0
      ∗ atPos ER (fcell c Fam.qs 8) 1 ∅ 0 ∗ atPos ER (fcell c Fam.qs 9) 1 ∅ 0 ∗ atPos ER (fcell c Fam.qs 10) 1 ∅ 0 ∗ atPos ER (fcell c Fam.qs 11) 1 ∅ 0
      ∗ atPos ER (fcell c Fam.qs 12) 1 ∅ 0 ∗ atPos ER (fcell c Fam.qs 13) 1 ∅ 0 ∗ atPos ER (fcell c Fam.qs 14) 1 ∅ 0 ∗ atPos ER (fcell c Fam.qs 15) 1 ∅ 0
      ∗ atPos ER (fcell c Fam.qr 0) 1 ∅ 0 ∗ atPos ER (fcell c Fam.qr 1) 1 ∅ 0 ∗ atPos ER (fcell c Fam.qr 2) 1 ∅ 0 ∗ atPos ER (fcell c Fam.qr 3) 1 ∅ 0
      ∗ atPos ER (fcell c Fam.qr 4) 1 ∅ 0 ∗ atPos ER (fcell c Fam.qr 5) 1 ∅ 0 ∗ atPos ER (fcell c Fam.qr 6) 1 ∅ 0 ∗ atPos ER (fcell c Fam.qr 7) 1 ∅ 0
      ∗ atPos ER (fcell c Fam.qr 8) 1 ∅ 0 ∗ atPos ER (fcell c Fam.qr 9) 1 ∅ 0 ∗ atPos ER (fcell c Fam.qr 10) 1 ∅ 0 ∗ atPos ER (fcell c Fam.qr 11) 1 ∅ 0
      ∗ atPos ER (fcell c Fam.qr 12) 1 ∅ 0 ∗ atPos ER (fcell c Fam.qr 13) 1 ∅ 0 ∗ atPos ER (fcell c Fam.qr 14) 1 ∅ 0 ∗ atPos ER (fcell c Fam.qr 15) 1 ∅ 0))
      ⊢ (|={Set.univ}=> bigSep Finset.univ fun fi : Fam × Fin 16 => semVal (fcell c fi.1 fi.2) 0 : sProp 𝕄) :=
  (BIClass.sep_mono
    (Entails.of_eq (bigSep_cells (fun fi : Fam × Fin 16 => cellInv ER (sched m) (K (c, some fi)) (fcell c fi.1 fi.2))).symm)
    (Entails.of_eq (bigSep_cells (fun fi : Fam × Fin 16 => (atPos ER (fcell c fi.1 fi.2) 1 ∅ 0 : sProp 𝕄))).symm)).trans
    (close_all m K c)

/-! ## Every own semaphore back at zero -/

/-- The chunk cells' counters at zero and the other DMA semaphores at zero are all own DMA semaphores at zero. -/
theorem ownSems_back (c : Dev nD) :
    iprop((bigSep Finset.univ fun fi : Fam × Fin 16 => semVal (fcell c fi.1 fi.2) 0) ∗ localSems (F := F) c)
      ⊢ (Pipeline.ownSems0 (Ix := Unit) (Name := ℕ) (U := UU) (Lvl := ℕ) (Val := Elt F) (τ := τ) osem c : sProp 𝕄) := by
  rw [ownSems0_split]

/-- From the closed cells' chain of positions and invariants to every own DMA semaphore at zero. -/
theorem close_own (K : Dev nD × CK → ℕ) (c : Dev nD) :
    iprop((bigSep Finset.univ fun fi : Fam × Fin 16 => cellInv ER (sched m) (K (c, some fi)) (fcell c fi.1 fi.2))
        ∗ (bigSep Finset.univ fun fi : Fam × Fin 16 => atPos ER (fcell c fi.1 fi.2) 1 ∅ 0)
        ∗ localSems (F := F) c)
      ⊢ (|={Set.univ}=> Pipeline.ownSems0 (Ix := Unit) (Name := ℕ) (U := UU) (Lvl := ℕ) (Val := Elt F) (τ := τ) osem c : sProp 𝕄) := by
  iintro ⟨HI, HP, HL⟩
  imod (close_all m K c) $$ [HI HP] with HS
  · isplitl [HI] <;> iassumption
  imodintro
  iapply (ownSems_back (F := F) c)
  isplitl [HS] <;> iassumption

/-- info: 'Cert.Kernel.A2A.close_chain' depends on axioms: [propext, Classical.choice, Quot.sound] -/
#guard_msgs in #print axioms close_chain

/-- info: 'Cert.Kernel.A2A.close_own' depends on axioms: [propext, Classical.choice, Quot.sound] -/
#guard_msgs in #print axioms close_own

end Cert.Kernel.A2A

end
-- ==== Proof.BRejoin.lean ====
import proofs.«900640_g7700000000000641_dist_a2a_v7x_xyz2x2x4_y_m4096_n1024_f32_1_alg».proof.Proof.BGhost
import proofs.«900640_g7700000000000641_dist_a2a_v7x_xyz2x2x4_y_m4096_n1024_f32_1_alg».proof.Proof.BLanding

/-!
# The scratch buffers come back whole

A scratch buffer of sixteen chunks is cut along its leading axis: chunk `i` is the rectangle at `(i, 0, 0)` of size
`1 × 64 × 1024`. Two different chunks are separated on that axis, and every index `j` of the buffer lies in chunk
`j 0`; so the sixteen chunk sets are pairwise disjoint and their union is the whole index set. Sixteen points-to
assertions, one over each chunk and each at contents of its own, therefore join into one assertion over the whole
buffer at some contents. A chunk held in the shares its readers took is first put together again: the left and
right halves of a share make up that share.
-/

set_option maxRecDepth 16384

noncomputable section

namespace Cert.Kernel.A2A

open Cert.Kernel Cert.Kernel.Gen
open Idealize.ShloMosaic Idealize.ShloMosaic.TcCoe
open Idealize.SL Idealize.SL.RA Idealize.SL.BI
open Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

/-! ## Shares -/

/-- The whole share is its left half with its right half, -/
theorem share_full : (fullShare : PosShare TreeShare) ∈ qX ·? qH := PosShare.mem_left_op_right fullShare
/-- and the right half is its own two halves. -/
theorem share_half : qH ∈ qZ ·? qS := PosShare.mem_left_op_right fullShare.right

section Merge
variable {ℓ : Loc nD τ sig} {I : Finset (Idx ℓ)} {f : Buf (Elt F) ℓ}

/-- Two shares of the same elements at the same contents that make up the whole share, -/
theorem merge2 : iprop((ℓ ↦[I]{qX} f) ∗ (ℓ ↦[I]{qH} f)) ⊢ (ℓ ↦[I]{fullShare} f : sProp 𝕄) :=
  (pointsTo_share share_full).2

/-- and three. -/
theorem merge3 : iprop((ℓ ↦[I]{qX} f) ∗ (ℓ ↦[I]{qZ} f) ∗ (ℓ ↦[I]{qS} f)) ⊢ (ℓ ↦[I]{fullShare} f : sProp 𝕄) :=
  (BI.sep_mono_r (pointsTo_share share_half).2).trans (pointsTo_share share_full).2

end Merge

/-- A chunk read by two onward copies and a local store, whole again. -/
theorem chunk_merge3 (c : Dev nD) (i : Fin 16) (g : S16x64x1024.Idx → Elt F .f32) :
    iprop((((slab rM i).view.loc (c : Thread nD τ)) ↦[(slab rM i).view.set]{qX} g) ∗ (((slab rM i).view.loc (c : Thread nD τ)) ↦[(slab rM i).view.set]{qZ} g) ∗ (((slab rM i).view.loc (c : Thread nD τ)) ↦[(slab rM i).view.set]{qS} g))
      ⊢ ((((slab rM i).view.loc (c : Thread nD τ)) ↦[(slab rM i).view.set]{fullShare} g) : sProp 𝕄) := merge3

/-- A chunk read by one onward copy and a local store, whole again. -/
theorem chunk_merge2_xr (c : Dev nD) (i : Fin 16) (g : S16x64x1024.Idx → Elt F .f32) :
    iprop((((slab xrM i).view.loc (c : Thread nD τ)) ↦[(slab xrM i).view.set]{qX} g) ∗ (((slab xrM i).view.loc (c : Thread nD τ)) ↦[(slab xrM i).view.set]{qH} g))
      ⊢ ((((slab xrM i).view.loc (c : Thread nD τ)) ↦[(slab xrM i).view.set]{fullShare} g) : sProp 𝕄) := merge2

theorem chunk_merge2_zr (c : Dev nD) (i : Fin 16) (g : S16x64x1024.Idx → Elt F .f32) :
    iprop((((slab zrM i).view.loc (c : Thread nD τ)) ↦[(slab zrM i).view.set]{qX} g) ∗ (((slab zrM i).view.loc (c : Thread nD τ)) ↦[(slab zrM i).view.set]{qH} g))
      ⊢ ((((slab zrM i).view.loc (c : Thread nD τ)) ↦[(slab zrM i).view.set]{fullShare} g) : sProp 𝕄) := merge2

/-! ## The sixteen chunk rectangles -/

/-- Two different chunks are separated on the leading axis. -/
theorem slabRect_disjoint {i j : Fin 16} (h : i ≠ j) : Disjoint (slabRect i).set (slabRect j).set := by
  have hv : i.val ≠ j.val := fun e => h (Fin.ext e)
  refine Rect.unit_disjoint (0 : Fin 3) ?_
  show i.val + 1 ≤ j.val ∨ j.val + 1 ≤ i.val
  omega

/-- The leading coordinate of an index of a scratch buffer: the chunk it lies in. -/
def lead (y : S16x64x1024.Idx) : Fin 16 := y 0

/-- Every index lies in the chunk its leading coordinate names. -/
theorem slabRect_mem (y : S16x64x1024.Idx) : y ∈ (slabRect (lead y)).set := by
  refine Rect.mem_set_unit.mpr fun a => ?_
  have h1 : (y 1).val < 64 := (y 1).isLt
  have h2 : (y 2).val < 1024 := (y 2).isLt
  fin_cases a
  · show (y 0).val ≤ (y 0).val ∧ (y 0).val < (y 0).val + 1; omega
  · show 0 ≤ (y 1).val ∧ (y 1).val < 0 + 64; omega
  · show 0 ≤ (y 2).val ∧ (y 2).val < 0 + 1024; omega

section Slabs
variable (M : Memref sig .tc .vmem S16x64x1024 .f32)

/-- The elements of chunk `i` are those under its rectangle. -/
theorem slab_set (i : Fin 16) : (slab M i).view.set = (slabRect i).set.map M.view.emb :=
  (View.set_reshape (M.view.slice (slabRect i)) (s' := S64x1024) squeezes_S1x64x1024_S64x1024.numel_eq).trans
    (View.set_slice M.view (slabRect i))

/-- Two different chunks share no element. -/
theorem slab_disjoint {i j : Fin 16} (h : i ≠ j) : Disjoint (slab M i).view.set (slab M j).view.set := by
  rw [slab_set, slab_set]
  exact (Finset.disjoint_map _).mpr (slabRect_disjoint h)

/-- The sixteen chunks together are the whole buffer. -/
theorem slab_cover : (Finset.univ.biUnion fun i : Fin 16 => (slab M i).view.set) = M.view.set := by
  ext x
  constructor
  · intro hx
    obtain ⟨i, -, hi⟩ := Finset.mem_biUnion.mp hx
    rw [slab_set] at hi
    show x ∈ Finset.univ.map M.view.emb
    exact Finset.map_subset_map.mpr (Finset.subset_univ _) hi
  · intro hx
    obtain ⟨y, -, rfl⟩ := Finset.mem_map.mp hx
    refine Finset.mem_biUnion.mpr ⟨lead y, Finset.mem_univ _, ?_⟩
    rw [slab_set]
    exact Finset.mem_map_of_mem _ (slabRect_mem y)

/-- Sixteen chunks, each whole and at contents of its own, are the buffer at some contents. -/
theorem slab_join (c : Dev nD) (g : Fin 16 → Buf (Elt F) (M.view.loc (c : Thread nD τ))) :
    (bigSep Finset.univ fun i : Fin 16 => (((slab M i).view.loc (c : Thread nD τ)) ↦[(slab M i).view.set]{fullShare} g i))
      ⊢ (iprop(∃ f, (M.view.loc (c : Thread nD τ)) ↦[M.view.set]{fullShare} f) : sProp 𝕄) := by
  refine (pointsTo_biUnion_join (ℓ := M.view.loc (c : Thread nD τ)) (q := fullShare) Finset.univ
    (fun i : Fin 16 => (slab M i).view.set) g (g 0) (fun i _ j _ hij => slab_disjoint M hij)).trans ?_
  rw [slab_cover M]
  iintro ⟨%f, %hf, H⟩
  iexists f
  iexact H

end Slabs

/-! ## Each scratch buffer whole -/

theorem scratch_join_s (c : Dev nD) (g : Fin 16 → S16x64x1024.Idx → Elt F .f32) :
    (bigSep Finset.univ fun i : Fin 16 => (((slab sM i).view.loc (c : Thread nD τ)) ↦[(slab sM i).view.set]{fullShare} g i))
      ⊢ (iprop(∃ f : Buf (Elt F) ((c : Thread nD τ).loc cc0_scratch0), ((c : Thread nD τ).loc cc0_scratch0) ↦{fullShare} f) : sProp 𝕄) := by
  refine (slab_join sM c g).trans ?_
  rw [show sM.view.set = Finset.univ from View.set_whole _]

theorem scratch_join_r (c : Dev nD) (g : Fin 16 → S16x64x1024.Idx → Elt F .f32) :
    (bigSep Finset.univ fun i : Fin 16 => (((slab rM i).view.loc (c : Thread nD τ)) ↦[(slab rM i).view.set]{fullShare} g i))
      ⊢ (iprop(∃ f : Buf (Elt F) ((c : Thread nD τ).loc cc0_scratch1), ((c : Thread nD τ).loc cc0_scratch1) ↦{fullShare} f) : sProp 𝕄) := by
  refine (slab_join rM c g).trans ?_
  rw [show rM.view.set = Finset.univ from View.set_whole _]

theorem scratch_join_xr (c : Dev nD) (g : Fin 16 → S16x64x1024.Idx → Elt F .f32) :
    (bigSep Finset.univ fun i : Fin 16 => (((slab xrM i).view.loc (c : Thread nD τ)) ↦[(slab xrM i).view.set]{fullShare} g i))
      ⊢ (iprop(∃ f : Buf (Elt F) ((c : Thread nD τ).loc cc0_scratch2), ((c : Thread nD τ).loc cc0_scratch2) ↦{fullShare} f) : sProp 𝕄) := by
  refine (slab_join xrM c g).trans ?_
  rw [show xrM.view.set = Finset.univ from View.set_whole _]

theorem scratch_join_zr (c : Dev nD) (g : Fin 16 → S16x64x1024.Idx → Elt F .f32) :
    (bigSep Finset.univ fun i : Fin 16 => (((slab zrM i).view.loc (c : Thread nD τ)) ↦[(slab zrM i).view.set]{fullShare} g i))
      ⊢ (iprop(∃ f : Buf (Elt F) ((c : Thread nD τ).loc cc0_scratch3), ((c : Thread nD τ).loc cc0_scratch3) ↦{fullShare} f) : sProp 𝕄) := by
  refine (slab_join zrM c g).trans ?_
  rw [show zrM.view.set = Finset.univ from View.set_whole _]

/-- The buffer that is held whole throughout. -/
theorem scratch_whole_l (c : Dev nD) (fl : S4096x1024.Idx → Elt F .f32) :
    (((lM.view.loc (c : Thread nD τ)) ↦[lM.view.set]{fullShare} fl) : sProp 𝕄)
      ⊢ iprop(∃ f : Buf (Elt F) ((c : Thread nD τ).loc cc0_scratch4), ((c : Thread nD τ).loc cc0_scratch4) ↦{fullShare} f) := by
  rw [show lM.view.set = Finset.univ from View.set_whole _]
  iintro H
  iexists fl
  iexact H

/-! ## From the shares the readers took -/

theorem scratch_join_r_cut (c : Dev nD) (g : Fin 16 → S16x64x1024.Idx → Elt F .f32) :
    (bigSep Finset.univ fun i : Fin 16 => iprop((((slab rM i).view.loc (c : Thread nD τ)) ↦[(slab rM i).view.set]{qX} g i) ∗ (((slab rM i).view.loc (c : Thread nD τ)) ↦[(slab rM i).view.set]{qZ} g i) ∗ (((slab rM i).view.loc (c : Thread nD τ)) ↦[(slab rM i).view.set]{qS} g i)))
      ⊢ (iprop(∃ f : Buf (Elt F) ((c : Thread nD τ).loc cc0_scratch1), ((c : Thread nD τ).loc cc0_scratch1) ↦{fullShare} f) : sProp 𝕄) :=
  (bigSep_mono fun i _ => chunk_merge3 c i (g i)).trans (scratch_join_r c g)

theorem scratch_join_xr_cut (c : Dev nD) (g : Fin 16 → S16x64x1024.Idx → Elt F .f32) :
    (bigSep Finset.univ fun i : Fin 16 => iprop((((slab xrM i).view.loc (c : Thread nD τ)) ↦[(slab xrM i).view.set]{qX} g i) ∗ (((slab xrM i).view.loc (c : Thread nD τ)) ↦[(slab xrM i).view.set]{qH} g i)))
      ⊢ (iprop(∃ f : Buf (Elt F) ((c : Thread nD τ).loc cc0_scratch2), ((c : Thread nD τ).loc cc0_scratch2) ↦{fullShare} f) : sProp 𝕄) :=
  (bigSep_mono fun i _ => chunk_merge2_xr c i (g i)).trans (scratch_join_xr c g)

theorem scratch_join_zr_cut (c : Dev nD) (g : Fin 16 → S16x64x1024.Idx → Elt F .f32) :
    (bigSep Finset.univ fun i : Fin 16 => iprop((((slab zrM i).view.loc (c : Thread nD τ)) ↦[(slab zrM i).view.set]{qX} g i) ∗ (((slab zrM i).view.loc (c : Thread nD τ)) ↦[(slab zrM i).view.set]{qH} g i)))
      ⊢ (iprop(∃ f : Buf (Elt F) ((c : Thread nD τ).loc cc0_scratch3), ((c : Thread nD τ).loc cc0_scratch3) ↦{fullShare} f) : sProp 𝕄) :=
  (bigSep_mono fun i _ => chunk_merge2_zr c i (g i)).trans (scratch_join_zr c g)

/-! ## All five -/

/-- The five scratch buffers, each chunk whole, are the scratch buffers at some contents. -/
theorem scratchAny_of (c : Dev nD) (gs gr gx gz : Fin 16 → S16x64x1024.Idx → Elt F .f32) (fl : S4096x1024.Idx → Elt F .f32) :
    iprop((bigSep Finset.univ fun i : Fin 16 => (((slab sM i).view.loc (c : Thread nD τ)) ↦[(slab sM i).view.set]{fullShare} gs i))
      ∗ (bigSep Finset.univ fun i : Fin 16 => (((slab rM i).view.loc (c : Thread nD τ)) ↦[(slab rM i).view.set]{fullShare} gr i))
      ∗ (bigSep Finset.univ fun i : Fin 16 => (((slab xrM i).view.loc (c : Thread nD τ)) ↦[(slab xrM i).view.set]{fullShare} gx i))
      ∗ (bigSep Finset.univ fun i : Fin 16 => (((slab zrM i).view.loc (c : Thread nD τ)) ↦[(slab zrM i).view.set]{fullShare} gz i))
      ∗ ((lM.view.loc (c : Thread nD τ)) ↦[lM.view.set]{fullShare} fl))
      ⊢ scratchAny (F := F) c := by
  unfold scratchAny
  exact BI.sep_mono (scratch_join_s c gs) (BI.sep_mono (scratch_join_r c gr) (BI.sep_mono (scratch_join_xr c gx)
    (BI.sep_mono (scratch_join_zr c gz) (scratch_whole_l c fl))))

/-- The same from the shares the readers took. -/
theorem scratchAny_of_cut (c : Dev nD) (gs gr gx gz : Fin 16 → S16x64x1024.Idx → Elt F .f32) (fl : S4096x1024.Idx → Elt F .f32) :
    iprop((bigSep Finset.univ fun i : Fin 16 => (((slab sM i).view.loc (c : Thread nD τ)) ↦[(slab sM i).view.set]{fullShare} gs i))
      ∗ (bigSep Finset.univ fun i : Fin 16 => iprop((((slab rM i).view.loc (c : Thread nD τ)) ↦[(slab rM i).view.set]{qX} gr i) ∗ (((slab rM i).view.loc (c : Thread nD τ)) ↦[(slab rM i).view.set]{qZ} gr i) ∗ (((slab rM i).view.loc (c : Thread nD τ)) ↦[(slab rM i).view.set]{qS} gr i)))
      ∗ (bigSep Finset.univ fun i : Fin 16 => iprop((((slab xrM i).view.loc (c : Thread nD τ)) ↦[(slab xrM i).view.set]{qX} gx i) ∗ (((slab xrM i).view.loc (c : Thread nD τ)) ↦[(slab xrM i).view.set]{qH} gx i)))
      ∗ (bigSep Finset.univ fun i : Fin 16 => iprop((((slab zrM i).view.loc (c : Thread nD τ)) ↦[(slab zrM i).view.set]{qX} gz i) ∗ (((slab zrM i).view.loc (c : Thread nD τ)) ↦[(slab zrM i).view.set]{qH} gz i)))
      ∗ ((lM.view.loc (c : Thread nD τ)) ↦[lM.view.set]{fullShare} fl))
      ⊢ scratchAny (F := F) c := by
  unfold scratchAny
  exact BI.sep_mono (scratch_join_s c gs) (BI.sep_mono (scratch_join_r_cut c gr) (BI.sep_mono (scratch_join_xr_cut c gx)
    (BI.sep_mono (scratch_join_zr_cut c gz) (scratch_whole_l c fl))))

/-- info: 'Cert.Kernel.A2A.scratchAny_of_cut' depends on axioms: [propext, Classical.choice, Quot.sound] -/
#guard_msgs in #print axioms scratchAny_of_cut

end Cert.Kernel.A2A

end
-- ==== Proof.BFinish.lean ====
import proofs.«900640_g7700000000000641_dist_a2a_v7x_xyz2x2x4_y_m4096_n1024_f32_1_alg».proof.Proof.BClose
import proofs.«900640_g7700000000000641_dist_a2a_v7x_xyz2x2x4_y_m4096_n1024_f32_1_alg».proof.Proof.BRejoin
/-!
# The end of the body

What the run leaves is put together into what the device must hand back: the input as launched, the result at its
value, the scratch buffers at some contents, every own DMA semaphore at zero, and nothing owed. The 128 chunk cells
close, which reads their counters at zero; with the semaphores that are no chunk cell these are all own semaphores.
The sixty-five pieces of the result, each agreeing with the result on its rows, are the result whole; the chunks of
the scratch buffers, put together from the shares their readers took, are the scratch buffers whole.
-/

set_option maxRecDepth 65536

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## The pieces -/

/-- The input held through its whole view is the input array. -/
theorem arg_whole (c : Dev nD) :
    ((aM.view.loc (c : Thread nD τ) ↦[aM.view.set]{fullShare} m ((c : Thread nD τ).loc main_arg0)) : sProp 𝕄) ⊢ argPts m c := by
  rw [show aM.view.set = Finset.univ from View.set_whole _]

/-- After the one point of the body nothing is owed. -/
theorem owed_end (c : Dev nD) : (dats m 0 c).owed (Gen.t0_0 : Fin cfg0.N).succ = 0 := rfl

/-- Owing nothing, with whatever waits recorded, is what the loop holds after the point. -/
theorem owes_end (c : Dev nD) (W' : Waits sig Unit) :
    (owes (c : Thread nD τ) 0 W' : sProp 𝕄) ⊢ (dats m 0 c).owesAt () (Gen.t0_0 : Fin cfg0.N).succ := by
  iintro HO
  iexists W'
  isplitr
  · ipureintro; exact Set.subset_union_of_subset_left (Set.subset_univ _) _
  · iexact HO

/-! ## The last step, over whatever the result and scratch pieces are held as -/

/-- From the closed cells, the local semaphores, nothing owed, and pieces that make up the input, the result and
    the scratch buffers, to the state after the body. -/
theorem finish_core (K : Dev nD × CK → ℕ) (c : Dev nD) (W' : Waits sig Unit) (Loc Idle Arg Res Scr : sProp 𝕄)
    (hLoc : iprop(Loc ∗ Idle) ⊢ localSems (F := F) c) (hArg : Arg ⊢ argPts m c) (hRes : Res ⊢ resPts c (outC m c)) (hScr : Scr ⊢ scratchAny (F := F) c) :
    iprop((
        cellInv ER (sched m) (K (c, some (Fam.ys, 0))) (fcell c Fam.ys 0) ∗ cellInv ER (sched m) (K (c, some (Fam.ys, 1))) (fcell c Fam.ys 1)
      ∗ cellInv ER (sched m) (K (c, some (Fam.ys, 2))) (fcell c Fam.ys 2) ∗ cellInv ER (sched m) (K (c, some (Fam.ys, 3))) (fcell c Fam.ys 3)
      ∗ cellInv ER (sched m) (K (c, some (Fam.ys, 4))) (fcell c Fam.ys 4) ∗ cellInv ER (sched m) (K (c, some (Fam.ys, 5))) (fcell c Fam.ys 5)
      ∗ cellInv ER (sched m) (K (c, some (Fam.ys, 6))) (fcell c Fam.ys 6) ∗ cellInv ER (sched m) (K (c, some (Fam.ys, 7))) (fcell c Fam.ys 7)
      ∗ cellInv ER (sched m) (K (c, some (Fam.ys, 8))) (fcell c Fam.ys 8) ∗ cellInv ER (sched m) (K (c, some (Fam.ys, 9))) (fcell c Fam.ys 9)
      ∗ cellInv ER (sched m) (K (c, some (Fam.ys, 10))) (fcell c Fam.ys 10) ∗ cellInv ER (sched m) (K (c, some (Fam.ys, 11))) (fcell c Fam.ys 11)
      ∗ cellInv ER (sched m) (K (c, some (Fam.ys, 12))) (fcell c Fam.ys 12) ∗ cellInv ER (sched m) (K (c, some (Fam.ys, 13))) (fcell c Fam.ys 13)
      ∗ cellInv ER (sched m) (K (c, some (Fam.ys, 14))) (fcell c Fam.ys 14) ∗ cellInv ER (sched m) (K (c, some (Fam.ys, 15))) (fcell c Fam.ys 15)
      ∗ cellInv ER (sched m) (K (c, some (Fam.yr, 0))) (fcell c Fam.yr 0) ∗ cellInv ER (sched m) (K (c, some (Fam.yr, 1))) (fcell c Fam.yr 1)
      ∗ cellInv ER (sched m) (K (c, some (Fam.yr, 2))) (fcell c Fam.yr 2) ∗ cellInv ER (sched m) (K (c, some (Fam.yr, 3))) (fcell c Fam.yr 3)
      ∗ cellInv ER (sched m) (K (c, some (Fam.yr, 4))) (fcell c Fam.yr 4) ∗ cellInv ER (sched m) (K (c, some (Fam.yr, 5))) (fcell c Fam.yr 5)
      ∗ cellInv ER (sched m) (K (c, some (Fam.yr, 6))) (fcell c Fam.yr 6) ∗ cellInv ER (sched m) (K (c, some (Fam.yr, 7))) (fcell c Fam.yr 7)
      ∗ cellInv ER (sched m) (K (c, some (Fam.yr, 8))) (fcell c Fam.yr 8) ∗ cellInv ER (sched m) (K (c, some (Fam.yr, 9))) (fcell c Fam.yr 9)
      ∗ cellInv ER (sched m) (K (c, some (Fam.yr, 10))) (fcell c Fam.yr 10) ∗ cellInv ER (sched m) (K (c, some (Fam.yr, 11))) (fcell c Fam.yr 11)
      ∗ cellInv ER (sched m) (K (c, some (Fam.yr, 12))) (fcell c Fam.yr 12) ∗ cellInv ER (sched m) (K (c, some (Fam.yr, 13))) (fcell c Fam.yr 13)
      ∗ cellInv ER (sched m) (K (c, some (Fam.yr, 14))) (fcell c Fam.yr 14) ∗ cellInv ER (sched m) (K (c, some (Fam.yr, 15))) (fcell c Fam.yr 15)
      ∗ cellInv ER (sched m) (K (c, some (Fam.xs, 0))) (fcell c Fam.xs 0) ∗ cellInv ER (sched m) (K (c, some (Fam.xs, 1))) (fcell c Fam.xs 1)
      ∗ cellInv ER (sched m) (K (c, some (Fam.xs, 2))) (fcell c Fam.xs 2) ∗ cellInv ER (sched m) (K (c, some (Fam.xs, 3))) (fcell c Fam.xs 3)
      ∗ cellInv ER (sched m) (K (c, some (Fam.xs, 4))) (fcell c Fam.xs 4) ∗ cellInv ER (sched m) (K (c, some (Fam.xs, 5))) (fcell c Fam.xs 5)
      ∗ cellInv ER (sched m) (K (c, some (Fam.xs, 6))) (fcell c Fam.xs 6) ∗ cellInv ER (sched m) (K (c, some (Fam.xs, 7))) (fcell c Fam.xs 7)
      ∗ cellInv ER (sched m) (K (c, some (Fam.xs, 8))) (fcell c Fam.xs 8) ∗ cellInv ER (sched m) (K (c, some (Fam.xs, 9))) (fcell c Fam.xs 9)
      ∗ cellInv ER (sched m) (K (c, some (Fam.xs, 10))) (fcell c Fam.xs 10) ∗ cellInv ER (sched m) (K (c, some (Fam.xs, 11))) (fcell c Fam.xs 11)
      ∗ cellInv ER (sched m) (K (c, some (Fam.xs, 12))) (fcell c Fam.xs 12) ∗ cellInv ER (sched m) (K (c, some (Fam.xs, 13))) (fcell c Fam.xs 13)
      ∗ cellInv ER (sched m) (K (c, some (Fam.xs, 14))) (fcell c Fam.xs 14) ∗ cellInv ER (sched m) (K (c, some (Fam.xs, 15))) (fcell c Fam.xs 15)
      ∗ cellInv ER (sched m) (K (c, some (Fam.xr, 0))) (fcell c Fam.xr 0) ∗ cellInv ER (sched m) (K (c, some (Fam.xr, 1))) (fcell c Fam.xr 1)
      ∗ cellInv ER (sched m) (K (c, some (Fam.xr, 2))) (fcell c Fam.xr 2) ∗ cellInv ER (sched m) (K (c, some (Fam.xr, 3))) (fcell c Fam.xr 3)
      ∗ cellInv ER (sched m) (K (c, some (Fam.xr, 4))) (fcell c Fam.xr 4) ∗ cellInv ER (sched m) (K (c, some (Fam.xr, 5))) (fcell c Fam.xr 5)
      ∗ cellInv ER (sched m) (K (c, some (Fam.xr, 6))) (fcell c Fam.xr 6) ∗ cellInv ER (sched m) (K (c, some (Fam.xr, 7))) (fcell c Fam.xr 7)
      ∗ cellInv ER (sched m) (K (c, some (Fam.xr, 8))) (fcell c Fam.xr 8) ∗ cellInv ER (sched m) (K (c, some (Fam.xr, 9))) (fcell c Fam.xr 9)
      ∗ cellInv ER (sched m) (K (c, some (Fam.xr, 10))) (fcell c Fam.xr 10) ∗ cellInv ER (sched m) (K (c, some (Fam.xr, 11))) (fcell c Fam.xr 11)
      ∗ cellInv ER (sched m) (K (c, some (Fam.xr, 12))) (fcell c Fam.xr 12) ∗ cellInv ER (sched m) (K (c, some (Fam.xr, 13))) (fcell c Fam.xr 13)
      ∗ cellInv ER (sched m) (K (c, some (Fam.xr, 14))) (fcell c Fam.xr 14) ∗ cellInv ER (sched m) (K (c, some (Fam.xr, 15))) (fcell c Fam.xr 15)
      ∗ cellInv ER (sched m) (K (c, some (Fam.zs, 0))) (fcell c Fam.zs 0) ∗ cellInv ER (sched m) (K (c, some (Fam.zs, 1))) (fcell c Fam.zs 1)
      ∗ cellInv ER (sched m) (K (c, some (Fam.zs, 2))) (fcell c Fam.zs 2) ∗ cellInv ER (sched m) (K (c, some (Fam.zs, 3))) (fcell c Fam.zs 3)
      ∗ cellInv ER (sched m) (K (c, some (Fam.zs, 4))) (fcell c Fam.zs 4) ∗ cellInv ER (sched m) (K (c, some (Fam.zs, 5))) (fcell c Fam.zs 5)
      ∗ cellInv ER (sched m) (K (c, some (Fam.zs, 6))) (fcell c Fam.zs 6) ∗ cellInv ER (sched m) (K (c, some (Fam.zs, 7))) (fcell c Fam.zs 7)
      ∗ cellInv ER (sched m) (K (c, some (Fam.zs, 8))) (fcell c Fam.zs 8) ∗ cellInv ER (sched m) (K (c, some (Fam.zs, 9))) (fcell c Fam.zs 9)
      ∗ cellInv ER (sched m) (K (c, some (Fam.zs, 10))) (fcell c Fam.zs 10) ∗ cellInv ER (sched m) (K (c, some (Fam.zs, 11))) (fcell c Fam.zs 11)
      ∗ cellInv ER (sched m) (K (c, some (Fam.zs, 12))) (fcell c Fam.zs 12) ∗ cellInv ER (sched m) (K (c, some (Fam.zs, 13))) (fcell c Fam.zs 13)
      ∗ cellInv ER (sched m) (K (c, some (Fam.zs, 14))) (fcell c Fam.zs 14) ∗ cellInv ER (sched m) (K (c, some (Fam.zs, 15))) (fcell c Fam.zs 15)
      ∗ cellInv ER (sched m) (K (c, some (Fam.zr, 0))) (fcell c Fam.zr 0) ∗ cellInv ER (sched m) (K (c, some (Fam.zr, 1))) (fcell c Fam.zr 1)
      ∗ cellInv ER (sched m) (K (c, some (Fam.zr, 2))) (fcell c Fam.zr 2) ∗ cellInv ER (sched m) (K (c, some (Fam.zr, 3))) (fcell c Fam.zr 3)
      ∗ cellInv ER (sched m) (K (c, some (Fam.zr, 4))) (fcell c Fam.zr 4) ∗ cellInv ER (sched m) (K (c, some (Fam.zr, 5))) (fcell c Fam.zr 5)
      ∗ cellInv ER (sched m) (K (c, some (Fam.zr, 6))) (fcell c Fam.zr 6) ∗ cellInv ER (sched m) (K (c, some (Fam.zr, 7))) (fcell c Fam.zr 7)
      ∗ cellInv ER (sched m) (K (c, some (Fam.zr, 8))) (fcell c Fam.zr 8) ∗ cellInv ER (sched m) (K (c, some (Fam.zr, 9))) (fcell c Fam.zr 9)
      ∗ cellInv ER (sched m) (K (c, some (Fam.zr, 10))) (fcell c Fam.zr 10) ∗ cellInv ER (sched m) (K (c, some (Fam.zr, 11))) (fcell c Fam.zr 11)
      ∗ cellInv ER (sched m) (K (c, some (Fam.zr, 12))) (fcell c Fam.zr 12) ∗ cellInv ER (sched m) (K (c, some (Fam.zr, 13))) (fcell c Fam.zr 13)
      ∗ cellInv ER (sched m) (K (c, some (Fam.zr, 14))) (fcell c Fam.zr 14) ∗ cellInv ER (sched m) (K (c, some (Fam.zr, 15))) (fcell c Fam.zr 15)
      ∗ cellInv ER (sched m) (K (c, some (Fam.qs, 0))) (fcell c Fam.qs 0) ∗ cellInv ER (sched m) (K (c, some (Fam.qs, 1))) (fcell c Fam.qs 1)
      ∗ cellInv ER (sched m) (K (c, some (Fam.qs, 2))) (fcell c Fam.qs 2) ∗ cellInv ER (sched m) (K (c, some (Fam.qs, 3))) (fcell c Fam.qs 3)
      ∗ cellInv ER (sched m) (K (c, some (Fam.qs, 4))) (fcell c Fam.qs 4) ∗ cellInv ER (sched m) (K (c, some (Fam.qs, 5))) (fcell c Fam.qs 5)
      ∗ cellInv ER (sched m) (K (c, some (Fam.qs, 6))) (fcell c Fam.qs 6) ∗ cellInv ER (sched m) (K (c, some (Fam.qs, 7))) (fcell c Fam.qs 7)
      ∗ cellInv ER (sched m) (K (c, some (Fam.qs, 8))) (fcell c Fam.qs 8) ∗ cellInv ER (sched m) (K (c, some (Fam.qs, 9))) (fcell c Fam.qs 9)
      ∗ cellInv ER (sched m) (K (c, some (Fam.qs, 10))) (fcell c Fam.qs 10) ∗ cellInv ER (sched m) (K (c, some (Fam.qs, 11))) (fcell c Fam.qs 11)
      ∗ cellInv ER (sched m) (K (c, some (Fam.qs, 12))) (fcell c Fam.qs 12) ∗ cellInv ER (sched m) (K (c, some (Fam.qs, 13))) (fcell c Fam.qs 13)
      ∗ cellInv ER (sched m) (K (c, some (Fam.qs, 14))) (fcell c Fam.qs 14) ∗ cellInv ER (sched m) (K (c, some (Fam.qs, 15))) (fcell c Fam.qs 15)
      ∗ cellInv ER (sched m) (K (c, some (Fam.qr, 0))) (fcell c Fam.qr 0) ∗ cellInv ER (sched m) (K (c, some (Fam.qr, 1))) (fcell c Fam.qr 1)
      ∗ cellInv ER (sched m) (K (c, some (Fam.qr, 2))) (fcell c Fam.qr 2) ∗ cellInv ER (sched m) (K (c, some (Fam.qr, 3))) (fcell c Fam.qr 3)
      ∗ cellInv ER (sched m) (K (c, some (Fam.qr, 4))) (fcell c Fam.qr 4) ∗ cellInv ER (sched m) (K (c, some (Fam.qr, 5))) (fcell c Fam.qr 5)
      ∗ cellInv ER (sched m) (K (c, some (Fam.qr, 6))) (fcell c Fam.qr 6) ∗ cellInv ER (sched m) (K (c, some (Fam.qr, 7))) (fcell c Fam.qr 7)
      ∗ cellInv ER (sched m) (K (c, some (Fam.qr, 8))) (fcell c Fam.qr 8) ∗ cellInv ER (sched m) (K (c, some (Fam.qr, 9))) (fcell c Fam.qr 9)
      ∗ cellInv ER (sched m) (K (c, some (Fam.qr, 10))) (fcell c Fam.qr 10) ∗ cellInv ER (sched m) (K (c, some (Fam.qr, 11))) (fcell c Fam.qr 11)
      ∗ cellInv ER (sched m) (K (c, some (Fam.qr, 12))) (fcell c Fam.qr 12) ∗ cellInv ER (sched m) (K (c, some (Fam.qr, 13))) (fcell c Fam.qr 13)
      ∗ cellInv ER (sched m) (K (c, some (Fam.qr, 14))) (fcell c Fam.qr 14) ∗ cellInv ER (sched m) (K (c, some (Fam.qr, 15))) (fcell c Fam.qr 15))
      ∗ (
        atPos ER (fcell c Fam.ys 0) 1 ∅ 0 ∗ atPos ER (fcell c Fam.ys 1) 1 ∅ 0 ∗ atPos ER (fcell c Fam.ys 2) 1 ∅ 0 ∗ atPos ER (fcell c Fam.ys 3) 1 ∅ 0
      ∗ atPos ER (fcell c Fam.ys 4) 1 ∅ 0 ∗ atPos ER (fcell c Fam.ys 5) 1 ∅ 0 ∗ atPos ER (fcell c Fam.ys 6) 1 ∅ 0 ∗ atPos ER (fcell c Fam.ys 7) 1 ∅ 0
      ∗ atPos ER (fcell c Fam.ys 8) 1 ∅ 0 ∗ atPos ER (fcell c Fam.ys 9) 1 ∅ 0 ∗ atPos ER (fcell c Fam.ys 10) 1 ∅ 0 ∗ atPos ER (fcell c Fam.ys 11) 1 ∅ 0
      ∗ atPos ER (fcell c Fam.ys 12) 1 ∅ 0 ∗ atPos ER (fcell c Fam.ys 13) 1 ∅ 0 ∗ atPos ER (fcell c Fam.ys 14) 1 ∅ 0 ∗ atPos ER (fcell c Fam.ys 15) 1 ∅ 0
      ∗ atPos ER (fcell c Fam.yr 0) 1 ∅ 0 ∗ atPos ER (fcell c Fam.yr 1) 1 ∅ 0 ∗ atPos ER (fcell c Fam.yr 2) 1 ∅ 0 ∗ atPos ER (fcell c Fam.yr 3) 1 ∅ 0
      ∗ atPos ER (fcell c Fam.yr 4) 1 ∅ 0 ∗ atPos ER (fcell c Fam.yr 5) 1 ∅ 0 ∗ atPos ER (fcell c Fam.yr 6) 1 ∅ 0 ∗ atPos ER (fcell c Fam.yr 7) 1 ∅ 0
      ∗ atPos ER (fcell c Fam.yr 8) 1 ∅ 0 ∗ atPos ER (fcell c Fam.yr 9) 1 ∅ 0 ∗ atPos ER (fcell c Fam.yr 10) 1 ∅ 0 ∗ atPos ER (fcell c Fam.yr 11) 1 ∅ 0
      ∗ atPos ER (fcell c Fam.yr 12) 1 ∅ 0 ∗ atPos ER (fcell c Fam.yr 13) 1 ∅ 0 ∗ atPos ER (fcell c Fam.yr 14) 1 ∅ 0 ∗ atPos ER (fcell c Fam.yr 15) 1 ∅ 0
      ∗ atPos ER (fcell c Fam.xs 0) 1 ∅ 0 ∗ atPos ER (fcell c Fam.xs 1) 1 ∅ 0 ∗ atPos ER (fcell c Fam.xs 2) 1 ∅ 0 ∗ atPos ER (fcell c Fam.xs 3) 1 ∅ 0
      ∗ atPos ER (fcell c Fam.xs 4) 1 ∅ 0 ∗ atPos ER (fcell c Fam.xs 5) 1 ∅ 0 ∗ atPos ER (fcell c Fam.xs 6) 1 ∅ 0 ∗ atPos ER (fcell c Fam.xs 7) 1 ∅ 0
      ∗ atPos ER (fcell c Fam.xs 8) 1 ∅ 0 ∗ atPos ER (fcell c Fam.xs 9) 1 ∅ 0 ∗ atPos ER (fcell c Fam.xs 10) 1 ∅ 0 ∗ atPos ER (fcell c Fam.xs 11) 1 ∅ 0
      ∗ atPos ER (fcell c Fam.xs 12) 1 ∅ 0 ∗ atPos ER (fcell c Fam.xs 13) 1 ∅ 0 ∗ atPos ER (fcell c Fam.xs 14) 1 ∅ 0 ∗ atPos ER (fcell c Fam.xs 15) 1 ∅ 0
      ∗ atPos ER (fcell c Fam.xr 0) 1 ∅ 0 ∗ atPos ER (fcell c Fam.xr 1) 1 ∅ 0 ∗ atPos ER (fcell c Fam.xr 2) 1 ∅ 0 ∗ atPos ER (fcell c Fam.xr 3) 1 ∅ 0
      ∗ atPos ER (fcell c Fam.xr 4) 1 ∅ 0 ∗ atPos ER (fcell c Fam.xr 5) 1 ∅ 0 ∗ atPos ER (fcell c Fam.xr 6) 1 ∅ 0 ∗ atPos ER (fcell c Fam.xr 7) 1 ∅ 0
      ∗ atPos ER (fcell c Fam.xr 8) 1 ∅ 0 ∗ atPos ER (fcell c Fam.xr 9) 1 ∅ 0 ∗ atPos ER (fcell c Fam.xr 10) 1 ∅ 0 ∗ atPos ER (fcell c Fam.xr 11) 1 ∅ 0
      ∗ atPos ER (fcell c Fam.xr 12) 1 ∅ 0 ∗ atPos ER (fcell c Fam.xr 13) 1 ∅ 0 ∗ atPos ER (fcell c Fam.xr 14) 1 ∅ 0 ∗ atPos ER (fcell c Fam.xr 15) 1 ∅ 0
      ∗ atPos ER (fcell c Fam.zs 0) 1 ∅ 0 ∗ atPos ER (fcell c Fam.zs 1) 1 ∅ 0 ∗ atPos ER (fcell c Fam.zs 2) 1 ∅ 0 ∗ atPos ER (fcell c Fam.zs 3) 1 ∅ 0
      ∗ atPos ER (fcell c Fam.zs 4) 1 ∅ 0 ∗ atPos ER (fcell c Fam.zs 5) 1 ∅ 0 ∗ atPos ER (fcell c Fam.zs 6) 1 ∅ 0 ∗ atPos ER (fcell c Fam.zs 7) 1 ∅ 0
      ∗ atPos ER (fcell c Fam.zs 8) 1 ∅ 0 ∗ atPos ER (fcell c Fam.zs 9) 1 ∅ 0 ∗ atPos ER (fcell c Fam.zs 10) 1 ∅ 0 ∗ atPos ER (fcell c Fam.zs 11) 1 ∅ 0
      ∗ atPos ER (fcell c Fam.zs 12) 1 ∅ 0 ∗ atPos ER (fcell c Fam.zs 13) 1 ∅ 0 ∗ atPos ER (fcell c Fam.zs 14) 1 ∅ 0 ∗ atPos ER (fcell c Fam.zs 15) 1 ∅ 0
      ∗ atPos ER (fcell c Fam.zr 0) 1 ∅ 0 ∗ atPos ER (fcell c Fam.zr 1) 1 ∅ 0 ∗ atPos ER (fcell c Fam.zr 2) 1 ∅ 0 ∗ atPos ER (fcell c Fam.zr 3) 1 ∅ 0
      ∗ atPos ER (fcell c Fam.zr 4) 1 ∅ 0 ∗ atPos ER (fcell c Fam.zr 5) 1 ∅ 0 ∗ atPos ER (fcell c Fam.zr 6) 1 ∅ 0 ∗ atPos ER (fcell c Fam.zr 7) 1 ∅ 0
      ∗ atPos ER (fcell c Fam.zr 8) 1 ∅ 0 ∗ atPos ER (fcell c Fam.zr 9) 1 ∅ 0 ∗ atPos ER (fcell c Fam.zr 10) 1 ∅ 0 ∗ atPos ER (fcell c Fam.zr 11) 1 ∅ 0
      ∗ atPos ER (fcell c Fam.zr 12) 1 ∅ 0 ∗ atPos ER (fcell c Fam.zr 13) 1 ∅ 0 ∗ atPos ER (fcell c Fam.zr 14) 1 ∅ 0 ∗ atPos ER (fcell c Fam.zr 15) 1 ∅ 0
      ∗ atPos ER (fcell c Fam.qs 0) 1 ∅ 0 ∗ atPos ER (fcell c Fam.qs 1) 1 ∅ 0 ∗ atPos ER (fcell c Fam.qs 2) 1 ∅ 0 ∗ atPos ER (fcell c Fam.qs 3) 1 ∅ 0
      ∗ atPos ER (fcell c Fam.qs 4) 1 ∅ 0 ∗ atPos ER (fcell c Fam.qs 5) 1 ∅ 0 ∗ atPos ER (fcell c Fam.qs 6) 1 ∅ 0 ∗ atPos ER (fcell c Fam.qs 7) 1 ∅ 0
      ∗ atPos ER (fcell c Fam.qs 8) 1 ∅ 0 ∗ atPos ER (fcell c Fam.qs 9) 1 ∅ 0 ∗ atPos ER (fcell c Fam.qs 10) 1 ∅ 0 ∗ atPos ER (fcell c Fam.qs 11) 1 ∅ 0
      ∗ atPos ER (fcell c Fam.qs 12) 1 ∅ 0 ∗ atPos ER (fcell c Fam.qs 13) 1 ∅ 0 ∗ atPos ER (fcell c Fam.qs 14) 1 ∅ 0 ∗ atPos ER (fcell c Fam.qs 15) 1 ∅ 0
      ∗ atPos ER (fcell c Fam.qr 0) 1 ∅ 0 ∗ atPos ER (fcell c Fam.qr 1) 1 ∅ 0 ∗ atPos ER (fcell c Fam.qr 2) 1 ∅ 0 ∗ atPos ER (fcell c Fam.qr 3) 1 ∅ 0
      ∗ atPos ER (fcell c Fam.qr 4) 1 ∅ 0 ∗ atPos ER (fcell c Fam.qr 5) 1 ∅ 0 ∗ atPos ER (fcell c Fam.qr 6) 1 ∅ 0 ∗ atPos ER (fcell c Fam.qr 7) 1 ∅ 0
      ∗ atPos ER (fcell c Fam.qr 8) 1 ∅ 0 ∗ atPos ER (fcell c Fam.qr 9) 1 ∅ 0 ∗ atPos ER (fcell c Fam.qr 10) 1 ∅ 0 ∗ atPos ER (fcell c Fam.qr 11) 1 ∅ 0
      ∗ atPos ER (fcell c Fam.qr 12) 1 ∅ 0 ∗ atPos ER (fcell c Fam.qr 13) 1 ∅ 0 ∗ atPos ER (fcell c Fam.qr 14) 1 ∅ 0 ∗ atPos ER (fcell c Fam.qr 15) 1 ∅ 0)
      ∗ Loc ∗ Idle
      ∗ owes (c : Thread nD τ) 0 W'
      ∗ Arg ∗ Res ∗ Scr)
      ⊢ (|={Set.univ}=> iprop(Φ₁ m c ∗ (dats m 0 c).owesAt () (Gen.t0_0 : Fin cfg0.N).succ) : sProp 𝕄) := by
  iintro ⟨HI, HP, HL, Hid, HO, Ha, HR, HS⟩
  imod (close_chain m K c) $$ [HI HP] with Hsem
  · isplitl [HI] <;> iassumption
  imodintro
  unfold Φ₁
  isplitr [HO]
  · isplitl [Ha]; · iapply hArg $$ Ha
    isplitl [HR]; · iapply hRes $$ HR
    isplitl [HS]; · iapply hScr $$ HS
    iapply (ownSems_back (F := F) c)
    isplitl [Hsem]; · iexact Hsem
    iapply hLoc
    isplitl [HL] <;> iassumption
  · iapply (owes_end m c W') $$ HO

/-! ## The scratch chunks, one by one -/

/-- The scratch chunks as the run leaves them — the first buffer's whole, the landing buffers' in the shares their
    readers took — and the staging buffer, are the scratch buffers at some contents. -/
theorem scratch_chain (c : Dev nD) (gs gr gx gz : Fin 16 → S16x64x1024.Idx → Elt F .f32) (fl : S4096x1024.Idx → Elt F .f32) :
    iprop((
        (((slab sM 0).view.loc (c : Thread nD τ)) ↦[(slab sM 0).view.set]{fullShare} gs 0)
      ∗ (((slab sM 1).view.loc (c : Thread nD τ)) ↦[(slab sM 1).view.set]{fullShare} gs 1)
      ∗ (((slab sM 2).view.loc (c : Thread nD τ)) ↦[(slab sM 2).view.set]{fullShare} gs 2)
      ∗ (((slab sM 3).view.loc (c : Thread nD τ)) ↦[(slab sM 3).view.set]{fullShare} gs 3)
      ∗ (((slab sM 4).view.loc (c : Thread nD τ)) ↦[(slab sM 4).view.set]{fullShare} gs 4)
      ∗ (((slab sM 5).view.loc (c : Thread nD τ)) ↦[(slab sM 5).view.set]{fullShare} gs 5)
      ∗ (((slab sM 6).view.loc (c : Thread nD τ)) ↦[(slab sM 6).view.set]{fullShare} gs 6)
      ∗ (((slab sM 7).view.loc (c : Thread nD τ)) ↦[(slab sM 7).view.set]{fullShare} gs 7)
      ∗ (((slab sM 8).view.loc (c : Thread nD τ)) ↦[(slab sM 8).view.set]{fullShare} gs 8)
      ∗ (((slab sM 9).view.loc (c : Thread nD τ)) ↦[(slab sM 9).view.set]{fullShare} gs 9)
      ∗ (((slab sM 10).view.loc (c : Thread nD τ)) ↦[(slab sM 10).view.set]{fullShare} gs 10)
      ∗ (((slab sM 11).view.loc (c : Thread nD τ)) ↦[(slab sM 11).view.set]{fullShare} gs 11)
      ∗ (((slab sM 12).view.loc (c : Thread nD τ)) ↦[(slab sM 12).view.set]{fullShare} gs 12)
      ∗ (((slab sM 13).view.loc (c : Thread nD τ)) ↦[(slab sM 13).view.set]{fullShare} gs 13)
      ∗ (((slab sM 14).view.loc (c : Thread nD τ)) ↦[(slab sM 14).view.set]{fullShare} gs 14)
      ∗ (((slab sM 15).view.loc (c : Thread nD τ)) ↦[(slab sM 15).view.set]{fullShare} gs 15))
      ∗ (
        (((slab rM 0).view.loc (c : Thread nD τ)) ↦[(slab rM 0).view.set]{qX} gr 0)
      ∗ (((slab rM 0).view.loc (c : Thread nD τ)) ↦[(slab rM 0).view.set]{qZ} gr 0)
      ∗ (((slab rM 0).view.loc (c : Thread nD τ)) ↦[(slab rM 0).view.set]{qS} gr 0)
      ∗ (((slab rM 1).view.loc (c : Thread nD τ)) ↦[(slab rM 1).view.set]{qX} gr 1)
      ∗ (((slab rM 1).view.loc (c : Thread nD τ)) ↦[(slab rM 1).view.set]{qZ} gr 1)
      ∗ (((slab rM 1).view.loc (c : Thread nD τ)) ↦[(slab rM 1).view.set]{qS} gr 1)
      ∗ (((slab rM 2).view.loc (c : Thread nD τ)) ↦[(slab rM 2).view.set]{qX} gr 2)
      ∗ (((slab rM 2).view.loc (c : Thread nD τ)) ↦[(slab rM 2).view.set]{qZ} gr 2)
      ∗ (((slab rM 2).view.loc (c : Thread nD τ)) ↦[(slab rM 2).view.set]{qS} gr 2)
      ∗ (((slab rM 3).view.loc (c : Thread nD τ)) ↦[(slab rM 3).view.set]{qX} gr 3)
      ∗ (((slab rM 3).view.loc (c : Thread nD τ)) ↦[(slab rM 3).view.set]{qZ} gr 3)
      ∗ (((slab rM 3).view.loc (c : Thread nD τ)) ↦[(slab rM 3).view.set]{qS} gr 3)
      ∗ (((slab rM 4).view.loc (c : Thread nD τ)) ↦[(slab rM 4).view.set]{qX} gr 4)
      ∗ (((slab rM 4).view.loc (c : Thread nD τ)) ↦[(slab rM 4).view.set]{qZ} gr 4)
      ∗ (((slab rM 4).view.loc (c : Thread nD τ)) ↦[(slab rM 4).view.set]{qS} gr 4)
      ∗ (((slab rM 5).view.loc (c : Thread nD τ)) ↦[(slab rM 5).view.set]{qX} gr 5)
      ∗ (((slab rM 5).view.loc (c : Thread nD τ)) ↦[(slab rM 5).view.set]{qZ} gr 5)
      ∗ (((slab rM 5).view.loc (c : Thread nD τ)) ↦[(slab rM 5).view.set]{qS} gr 5)
      ∗ (((slab rM 6).view.loc (c : Thread nD τ)) ↦[(slab rM 6).view.set]{qX} gr 6)
      ∗ (((slab rM 6).view.loc (c : Thread nD τ)) ↦[(slab rM 6).view.set]{qZ} gr 6)
      ∗ (((slab rM 6).view.loc (c : Thread nD τ)) ↦[(slab rM 6).view.set]{qS} gr 6)
      ∗ (((slab rM 7).view.loc (c : Thread nD τ)) ↦[(slab rM 7).view.set]{qX} gr 7)
      ∗ (((slab rM 7).view.loc (c : Thread nD τ)) ↦[(slab rM 7).view.set]{qZ} gr 7)
      ∗ (((slab rM 7).view.loc (c : Thread nD τ)) ↦[(slab rM 7).view.set]{qS} gr 7)
      ∗ (((slab rM 8).view.loc (c : Thread nD τ)) ↦[(slab rM 8).view.set]{qX} gr 8)
      ∗ (((slab rM 8).view.loc (c : Thread nD τ)) ↦[(slab rM 8).view.set]{qZ} gr 8)
      ∗ (((slab rM 8).view.loc (c : Thread nD τ)) ↦[(slab rM 8).view.set]{qS} gr 8)
      ∗ (((slab rM 9).view.loc (c : Thread nD τ)) ↦[(slab rM 9).view.set]{qX} gr 9)
      ∗ (((slab rM 9).view.loc (c : Thread nD τ)) ↦[(slab rM 9).view.set]{qZ} gr 9)
      ∗ (((slab rM 9).view.loc (c : Thread nD τ)) ↦[(slab rM 9).view.set]{qS} gr 9)
      ∗ (((slab rM 10).view.loc (c : Thread nD τ)) ↦[(slab rM 10).view.set]{qX} gr 10)
      ∗ (((slab rM 10).view.loc (c : Thread nD τ)) ↦[(slab rM 10).view.set]{qZ} gr 10)
      ∗ (((slab rM 10).view.loc (c : Thread nD τ)) ↦[(slab rM 10).view.set]{qS} gr 10)
      ∗ (((slab rM 11).view.loc (c : Thread nD τ)) ↦[(slab rM 11).view.set]{qX} gr 11)
      ∗ (((slab rM 11).view.loc (c : Thread nD τ)) ↦[(slab rM 11).view.set]{qZ} gr 11)
      ∗ (((slab rM 11).view.loc (c : Thread nD τ)) ↦[(slab rM 11).view.set]{qS} gr 11)
      ∗ (((slab rM 12).view.loc (c : Thread nD τ)) ↦[(slab rM 12).view.set]{qX} gr 12)
      ∗ (((slab rM 12).view.loc (c : Thread nD τ)) ↦[(slab rM 12).view.set]{qZ} gr 12)
      ∗ (((slab rM 12).view.loc (c : Thread nD τ)) ↦[(slab rM 12).view.set]{qS} gr 12)
      ∗ (((slab rM 13).view.loc (c : Thread nD τ)) ↦[(slab rM 13).view.set]{qX} gr 13)
      ∗ (((slab rM 13).view.loc (c : Thread nD τ)) ↦[(slab rM 13).view.set]{qZ} gr 13)
      ∗ (((slab rM 13).view.loc (c : Thread nD τ)) ↦[(slab rM 13).view.set]{qS} gr 13)
      ∗ (((slab rM 14).view.loc (c : Thread nD τ)) ↦[(slab rM 14).view.set]{qX} gr 14)
      ∗ (((slab rM 14).view.loc (c : Thread nD τ)) ↦[(slab rM 14).view.set]{qZ} gr 14)
      ∗ (((slab rM 14).view.loc (c : Thread nD τ)) ↦[(slab rM 14).view.set]{qS} gr 14)
      ∗ (((slab rM 15).view.loc (c : Thread nD τ)) ↦[(slab rM 15).view.set]{qX} gr 15)
      ∗ (((slab rM 15).view.loc (c : Thread nD τ)) ↦[(slab rM 15).view.set]{qZ} gr 15)
      ∗ (((slab rM 15).view.loc (c : Thread nD τ)) ↦[(slab rM 15).view.set]{qS} gr 15))
      ∗ (
        (((slab xrM 0).view.loc (c : Thread nD τ)) ↦[(slab xrM 0).view.set]{qX} gx 0)
      ∗ (((slab xrM 0).view.loc (c : Thread nD τ)) ↦[(slab xrM 0).view.set]{qH} gx 0)
      ∗ (((slab xrM 1).view.loc (c : Thread nD τ)) ↦[(slab xrM 1).view.set]{qX} gx 1)
      ∗ (((slab xrM 1).view.loc (c : Thread nD τ)) ↦[(slab xrM 1).view.set]{qH} gx 1)
      ∗ (((slab xrM 2).view.loc (c : Thread nD τ)) ↦[(slab xrM 2).view.set]{qX} gx 2)
      ∗ (((slab xrM 2).view.loc (c : Thread nD τ)) ↦[(slab xrM 2).view.set]{qH} gx 2)
      ∗ (((slab xrM 3).view.loc (c : Thread nD τ)) ↦[(slab xrM 3).view.set]{qX} gx 3)
      ∗ (((slab xrM 3).view.loc (c : Thread nD τ)) ↦[(slab xrM 3).view.set]{qH} gx 3)
      ∗ (((slab xrM 4).view.loc (c : Thread nD τ)) ↦[(slab xrM 4).view.set]{qX} gx 4)
      ∗ (((slab xrM 4).view.loc (c : Thread nD τ)) ↦[(slab xrM 4).view.set]{qH} gx 4)
      ∗ (((slab xrM 5).view.loc (c : Thread nD τ)) ↦[(slab xrM 5).view.set]{qX} gx 5)
      ∗ (((slab xrM 5).view.loc (c : Thread nD τ)) ↦[(slab xrM 5).view.set]{qH} gx 5)
      ∗ (((slab xrM 6).view.loc (c : Thread nD τ)) ↦[(slab xrM 6).view.set]{qX} gx 6)
      ∗ (((slab xrM 6).view.loc (c : Thread nD τ)) ↦[(slab xrM 6).view.set]{qH} gx 6)
      ∗ (((slab xrM 7).view.loc (c : Thread nD τ)) ↦[(slab xrM 7).view.set]{qX} gx 7)
      ∗ (((slab xrM 7).view.loc (c : Thread nD τ)) ↦[(slab xrM 7).view.set]{qH} gx 7)
      ∗ (((slab xrM 8).view.loc (c : Thread nD τ)) ↦[(slab xrM 8).view.set]{qX} gx 8)
      ∗ (((slab xrM 8).view.loc (c : Thread nD τ)) ↦[(slab xrM 8).view.set]{qH} gx 8)
      ∗ (((slab xrM 9).view.loc (c : Thread nD τ)) ↦[(slab xrM 9).view.set]{qX} gx 9)
      ∗ (((slab xrM 9).view.loc (c : Thread nD τ)) ↦[(slab xrM 9).view.set]{qH} gx 9)
      ∗ (((slab xrM 10).view.loc (c : Thread nD τ)) ↦[(slab xrM 10).view.set]{qX} gx 10)
      ∗ (((slab xrM 10).view.loc (c : Thread nD τ)) ↦[(slab xrM 10).view.set]{qH} gx 10)
      ∗ (((slab xrM 11).view.loc (c : Thread nD τ)) ↦[(slab xrM 11).view.set]{qX} gx 11)
      ∗ (((slab xrM 11).view.loc (c : Thread nD τ)) ↦[(slab xrM 11).view.set]{qH} gx 11)
      ∗ (((slab xrM 12).view.loc (c : Thread nD τ)) ↦[(slab xrM 12).view.set]{qX} gx 12)
      ∗ (((slab xrM 12).view.loc (c : Thread nD τ)) ↦[(slab xrM 12).view.set]{qH} gx 12)
      ∗ (((slab xrM 13).view.loc (c : Thread nD τ)) ↦[(slab xrM 13).view.set]{qX} gx 13)
      ∗ (((slab xrM 13).view.loc (c : Thread nD τ)) ↦[(slab xrM 13).view.set]{qH} gx 13)
      ∗ (((slab xrM 14).view.loc (c : Thread nD τ)) ↦[(slab xrM 14).view.set]{qX} gx 14)
      ∗ (((slab xrM 14).view.loc (c : Thread nD τ)) ↦[(slab xrM 14).view.set]{qH} gx 14)
      ∗ (((slab xrM 15).view.loc (c : Thread nD τ)) ↦[(slab xrM 15).view.set]{qX} gx 15)
      ∗ (((slab xrM 15).view.loc (c : Thread nD τ)) ↦[(slab xrM 15).view.set]{qH} gx 15))
      ∗ (
        (((slab zrM 0).view.loc (c : Thread nD τ)) ↦[(slab zrM 0).view.set]{qX} gz 0)
      ∗ (((slab zrM 0).view.loc (c : Thread nD τ)) ↦[(slab zrM 0).view.set]{qH} gz 0)
      ∗ (((slab zrM 1).view.loc (c : Thread nD τ)) ↦[(slab zrM 1).view.set]{qX} gz 1)
      ∗ (((slab zrM 1).view.loc (c : Thread nD τ)) ↦[(slab zrM 1).view.set]{qH} gz 1)
      ∗ (((slab zrM 2).view.loc (c : Thread nD τ)) ↦[(slab zrM 2).view.set]{qX} gz 2)
      ∗ (((slab zrM 2).view.loc (c : Thread nD τ)) ↦[(slab zrM 2).view.set]{qH} gz 2)
      ∗ (((slab zrM 3).view.loc (c : Thread nD τ)) ↦[(slab zrM 3).view.set]{qX} gz 3)
      ∗ (((slab zrM 3).view.loc (c : Thread nD τ)) ↦[(slab zrM 3).view.set]{qH} gz 3)
      ∗ (((slab zrM 4).view.loc (c : Thread nD τ)) ↦[(slab zrM 4).view.set]{qX} gz 4)
      ∗ (((slab zrM 4).view.loc (c : Thread nD τ)) ↦[(slab zrM 4).view.set]{qH} gz 4)
      ∗ (((slab zrM 5).view.loc (c : Thread nD τ)) ↦[(slab zrM 5).view.set]{qX} gz 5)
      ∗ (((slab zrM 5).view.loc (c : Thread nD τ)) ↦[(slab zrM 5).view.set]{qH} gz 5)
      ∗ (((slab zrM 6).view.loc (c : Thread nD τ)) ↦[(slab zrM 6).view.set]{qX} gz 6)
      ∗ (((slab zrM 6).view.loc (c : Thread nD τ)) ↦[(slab zrM 6).view.set]{qH} gz 6)
      ∗ (((slab zrM 7).view.loc (c : Thread nD τ)) ↦[(slab zrM 7).view.set]{qX} gz 7)
      ∗ (((slab zrM 7).view.loc (c : Thread nD τ)) ↦[(slab zrM 7).view.set]{qH} gz 7)
      ∗ (((slab zrM 8).view.loc (c : Thread nD τ)) ↦[(slab zrM 8).view.set]{qX} gz 8)
      ∗ (((slab zrM 8).view.loc (c : Thread nD τ)) ↦[(slab zrM 8).view.set]{qH} gz 8)
      ∗ (((slab zrM 9).view.loc (c : Thread nD τ)) ↦[(slab zrM 9).view.set]{qX} gz 9)
      ∗ (((slab zrM 9).view.loc (c : Thread nD τ)) ↦[(slab zrM 9).view.set]{qH} gz 9)
      ∗ (((slab zrM 10).view.loc (c : Thread nD τ)) ↦[(slab zrM 10).view.set]{qX} gz 10)
      ∗ (((slab zrM 10).view.loc (c : Thread nD τ)) ↦[(slab zrM 10).view.set]{qH} gz 10)
      ∗ (((slab zrM 11).view.loc (c : Thread nD τ)) ↦[(slab zrM 11).view.set]{qX} gz 11)
      ∗ (((slab zrM 11).view.loc (c : Thread nD τ)) ↦[(slab zrM 11).view.set]{qH} gz 11)
      ∗ (((slab zrM 12).view.loc (c : Thread nD τ)) ↦[(slab zrM 12).view.set]{qX} gz 12)
      ∗ (((slab zrM 12).view.loc (c : Thread nD τ)) ↦[(slab zrM 12).view.set]{qH} gz 12)
      ∗ (((slab zrM 13).view.loc (c : Thread nD τ)) ↦[(slab zrM 13).view.set]{qX} gz 13)
      ∗ (((slab zrM 13).view.loc (c : Thread nD τ)) ↦[(slab zrM 13).view.set]{qH} gz 13)
      ∗ (((slab zrM 14).view.loc (c : Thread nD τ)) ↦[(slab zrM 14).view.set]{qX} gz 14)
      ∗ (((slab zrM 14).view.loc (c : Thread nD τ)) ↦[(slab zrM 14).view.set]{qH} gz 14)
      ∗ (((slab zrM 15).view.loc (c : Thread nD τ)) ↦[(slab zrM 15).view.set]{qX} gz 15)
      ∗ (((slab zrM 15).view.loc (c : Thread nD τ)) ↦[(slab zrM 15).view.set]{qH} gz 15))
      ∗ ((lM.view.loc (c : Thread nD τ)) ↦[lM.view.set]{fullShare} fl))
      ⊢ scratchAny (F := F) c := by
  refine Entails.trans (Entails.of_eq ?_) (scratchAny_of_cut c gs gr gx gz fl)
  simp only [close_fin16, close_sep_assoc]

/-! ## The last step -/

set_option maxHeartbeats 8000000 in
/-- The last step of the body, from the hypotheses the run leaves, each group a chain in the order the body's
    context lists them; the idle semaphores and the pieces of the input and of the result are whatever makes them up. -/
theorem finish (K : Dev nD × CK → ℕ) (c : Dev nD) (W' : Waits sig Unit)
    (gs gr gx gz : Fin 16 → S16x64x1024.Idx → Elt F .f32) (fl : S4096x1024.Idx → Elt F .f32)
    (Idle Arg Res : sProp 𝕄)
    (hLoc : iprop((
        semVal ((c : Thread nD τ), .dma ⟨0, by decide⟩) 0 ∗ semVal ((c : Thread nD τ), .dma ⟨1, by decide⟩) 0 ∗ semVal ((c : Thread nD τ), .dma ⟨2, by decide⟩) 0
      ∗ semVal ((c : Thread nD τ), .dma ⟨3, by decide⟩) 0 ∗ semVal ((c : Thread nD τ), .dma ⟨4, by decide⟩) 0 ∗ semVal ((c : Thread nD τ), .dma ⟨5, by decide⟩) 0
      ∗ semVal ((c : Thread nD τ), .dma ⟨6, by decide⟩) 0 ∗ semVal ((c : Thread nD τ), .dma ⟨7, by decide⟩) 0 ∗ semVal ((c : Thread nD τ), .dma ⟨8, by decide⟩) 0
      ∗ semVal ((c : Thread nD τ), .dma ⟨9, by decide⟩) 0 ∗ semVal ((c : Thread nD τ), .dma ⟨10, by decide⟩) 0 ∗ semVal ((c : Thread nD τ), .dma ⟨11, by decide⟩) 0
      ∗ semVal ((c : Thread nD τ), .dma ⟨12, by decide⟩) 0 ∗ semVal ((c : Thread nD τ), .dma ⟨13, by decide⟩) 0 ∗ semVal ((c : Thread nD τ), .dma ⟨14, by decide⟩) 0
      ∗ semVal ((c : Thread nD τ), .dma ⟨15, by decide⟩) 0 ∗ semVal ((c : Thread nD τ), .dma ⟨16, by decide⟩) 0 ∗ semVal ((c : Thread nD τ), .dma ⟨17, by decide⟩) 0
      ∗ semVal ((c : Thread nD τ), .dma ⟨18, by decide⟩) 0 ∗ semVal ((c : Thread nD τ), .dma ⟨19, by decide⟩) 0 ∗ semVal ((c : Thread nD τ), .dma ⟨20, by decide⟩) 0
      ∗ semVal ((c : Thread nD τ), .dma ⟨21, by decide⟩) 0 ∗ semVal ((c : Thread nD τ), .dma ⟨22, by decide⟩) 0 ∗ semVal ((c : Thread nD τ), .dma ⟨23, by decide⟩) 0
      ∗ semVal ((c : Thread nD τ), .dma ⟨24, by decide⟩) 0 ∗ semVal ((c : Thread nD τ), .dma ⟨25, by decide⟩) 0 ∗ semVal ((c : Thread nD τ), .dma ⟨26, by decide⟩) 0
      ∗ semVal ((c : Thread nD τ), .dma ⟨27, by decide⟩) 0 ∗ semVal ((c : Thread nD τ), .dma ⟨28, by decide⟩) 0 ∗ semVal ((c : Thread nD τ), .dma ⟨29, by decide⟩) 0
      ∗ semVal ((c : Thread nD τ), .dma ⟨30, by decide⟩) 0 ∗ semVal ((c : Thread nD τ), .dma ⟨31, by decide⟩) 0 ∗ semVal ((c : Thread nD τ), .dma ⟨32, by decide⟩) 0
      ∗ semVal ((c : Thread nD τ), .dma ⟨33, by decide⟩) 0 ∗ semVal ((c : Thread nD τ), .dma ⟨34, by decide⟩) 0 ∗ semVal ((c : Thread nD τ), .dma ⟨35, by decide⟩) 0
      ∗ semVal ((c : Thread nD τ), .dma ⟨36, by decide⟩) 0 ∗ semVal ((c : Thread nD τ), .dma ⟨37, by decide⟩) 0 ∗ semVal ((c : Thread nD τ), .dma ⟨38, by decide⟩) 0
      ∗ semVal ((c : Thread nD τ), .dma ⟨39, by decide⟩) 0 ∗ semVal ((c : Thread nD τ), .dma ⟨40, by decide⟩) 0 ∗ semVal ((c : Thread nD τ), .dma ⟨41, by decide⟩) 0
      ∗ semVal ((c : Thread nD τ), .dma ⟨42, by decide⟩) 0 ∗ semVal ((c : Thread nD τ), .dma ⟨43, by decide⟩) 0 ∗ semVal ((c : Thread nD τ), .dma ⟨44, by decide⟩) 0
      ∗ semVal ((c : Thread nD τ), .dma ⟨45, by decide⟩) 0 ∗ semVal ((c : Thread nD τ), .dma ⟨46, by decide⟩) 0 ∗ semVal ((c : Thread nD τ), .dma ⟨47, by decide⟩) 0
      ∗ semVal ((c : Thread nD τ), .dma ⟨48, by decide⟩) 0 ∗ semVal ((c : Thread nD τ), .dma ⟨49, by decide⟩) 0 ∗ semVal ((c : Thread nD τ), .dma ⟨50, by decide⟩) 0
      ∗ semVal ((c : Thread nD τ), .dma ⟨51, by decide⟩) 0 ∗ semVal ((c : Thread nD τ), .dma ⟨52, by decide⟩) 0 ∗ semVal ((c : Thread nD τ), .dma ⟨53, by decide⟩) 0
      ∗ semVal ((c : Thread nD τ), .dma ⟨54, by decide⟩) 0 ∗ semVal ((c : Thread nD τ), .dma ⟨55, by decide⟩) 0 ∗ semVal ((c : Thread nD τ), .dma ⟨56, by decide⟩) 0
      ∗ semVal ((c : Thread nD τ), .dma ⟨57, by decide⟩) 0 ∗ semVal ((c : Thread nD τ), .dma ⟨58, by decide⟩) 0 ∗ semVal ((c : Thread nD τ), .dma ⟨59, by decide⟩) 0
      ∗ semVal ((c : Thread nD τ), .dma ⟨60, by decide⟩) 0 ∗ semVal ((c : Thread nD τ), .dma ⟨61, by decide⟩) 0 ∗ semVal ((c : Thread nD τ), .dma ⟨62, by decide⟩) 0
      ∗ semVal ((c : Thread nD τ), .dma ⟨63, by decide⟩) 0 ∗ semVal ((c : Thread nD τ), .dma ⟨224, by decide⟩) 0 ∗ semVal ((c : Thread nD τ), .dma ⟨225, by decide⟩) 0)
      ∗ Idle) ⊢ localSems (F := F) c)
    (hArg : Arg ⊢ argPts m c) (hRes : Res ⊢ resPts c (outC m c)) :
    iprop((
        cellInv ER (sched m) (K (c, some (Fam.ys, 0))) (fcell c Fam.ys 0) ∗ cellInv ER (sched m) (K (c, some (Fam.ys, 1))) (fcell c Fam.ys 1)
      ∗ cellInv ER (sched m) (K (c, some (Fam.ys, 2))) (fcell c Fam.ys 2) ∗ cellInv ER (sched m) (K (c, some (Fam.ys, 3))) (fcell c Fam.ys 3)
      ∗ cellInv ER (sched m) (K (c, some (Fam.ys, 4))) (fcell c Fam.ys 4) ∗ cellInv ER (sched m) (K (c, some (Fam.ys, 5))) (fcell c Fam.ys 5)
      ∗ cellInv ER (sched m) (K (c, some (Fam.ys, 6))) (fcell c Fam.ys 6) ∗ cellInv ER (sched m) (K (c, some (Fam.ys, 7))) (fcell c Fam.ys 7)
      ∗ cellInv ER (sched m) (K (c, some (Fam.ys, 8))) (fcell c Fam.ys 8) ∗ cellInv ER (sched m) (K (c, some (Fam.ys, 9))) (fcell c Fam.ys 9)
      ∗ cellInv ER (sched m) (K (c, some (Fam.ys, 10))) (fcell c Fam.ys 10) ∗ cellInv ER (sched m) (K (c, some (Fam.ys, 11))) (fcell c Fam.ys 11)
      ∗ cellInv ER (sched m) (K (c, some (Fam.ys, 12))) (fcell c Fam.ys 12) ∗ cellInv ER (sched m) (K (c, some (Fam.ys, 13))) (fcell c Fam.ys 13)
      ∗ cellInv ER (sched m) (K (c, some (Fam.ys, 14))) (fcell c Fam.ys 14) ∗ cellInv ER (sched m) (K (c, some (Fam.ys, 15))) (fcell c Fam.ys 15)
      ∗ cellInv ER (sched m) (K (c, some (Fam.yr, 0))) (fcell c Fam.yr 0) ∗ cellInv ER (sched m) (K (c, some (Fam.yr, 1))) (fcell c Fam.yr 1)
      ∗ cellInv ER (sched m) (K (c, some (Fam.yr, 2))) (fcell c Fam.yr 2) ∗ cellInv ER (sched m) (K (c, some (Fam.yr, 3))) (fcell c Fam.yr 3)
      ∗ cellInv ER (sched m) (K (c, some (Fam.yr, 4))) (fcell c Fam.yr 4) ∗ cellInv ER (sched m) (K (c, some (Fam.yr, 5))) (fcell c Fam.yr 5)
      ∗ cellInv ER (sched m) (K (c, some (Fam.yr, 6))) (fcell c Fam.yr 6) ∗ cellInv ER (sched m) (K (c, some (Fam.yr, 7))) (fcell c Fam.yr 7)
      ∗ cellInv ER (sched m) (K (c, some (Fam.yr, 8))) (fcell c Fam.yr 8) ∗ cellInv ER (sched m) (K (c, some (Fam.yr, 9))) (fcell c Fam.yr 9)
      ∗ cellInv ER (sched m) (K (c, some (Fam.yr, 10))) (fcell c Fam.yr 10) ∗ cellInv ER (sched m) (K (c, some (Fam.yr, 11))) (fcell c Fam.yr 11)
      ∗ cellInv ER (sched m) (K (c, some (Fam.yr, 12))) (fcell c Fam.yr 12) ∗ cellInv ER (sched m) (K (c, some (Fam.yr, 13))) (fcell c Fam.yr 13)
      ∗ cellInv ER (sched m) (K (c, some (Fam.yr, 14))) (fcell c Fam.yr 14) ∗ cellInv ER (sched m) (K (c, some (Fam.yr, 15))) (fcell c Fam.yr 15)
      ∗ cellInv ER (sched m) (K (c, some (Fam.xs, 0))) (fcell c Fam.xs 0) ∗ cellInv ER (sched m) (K (c, some (Fam.xs, 1))) (fcell c Fam.xs 1)
      ∗ cellInv ER (sched m) (K (c, some (Fam.xs, 2))) (fcell c Fam.xs 2) ∗ cellInv ER (sched m) (K (c, some (Fam.xs, 3))) (fcell c Fam.xs 3)
      ∗ cellInv ER (sched m) (K (c, some (Fam.xs, 4))) (fcell c Fam.xs 4) ∗ cellInv ER (sched m) (K (c, some (Fam.xs, 5))) (fcell c Fam.xs 5)
      ∗ cellInv ER (sched m) (K (c, some (Fam.xs, 6))) (fcell c Fam.xs 6) ∗ cellInv ER (sched m) (K (c, some (Fam.xs, 7))) (fcell c Fam.xs 7)
      ∗ cellInv ER (sched m) (K (c, some (Fam.xs, 8))) (fcell c Fam.xs 8) ∗ cellInv ER (sched m) (K (c, some (Fam.xs, 9))) (fcell c Fam.xs 9)
      ∗ cellInv ER (sched m) (K (c, some (Fam.xs, 10))) (fcell c Fam.xs 10) ∗ cellInv ER (sched m) (K (c, some (Fam.xs, 11))) (fcell c Fam.xs 11)
      ∗ cellInv ER (sched m) (K (c, some (Fam.xs, 12))) (fcell c Fam.xs 12) ∗ cellInv ER (sched m) (K (c, some (Fam.xs, 13))) (fcell c Fam.xs 13)
      ∗ cellInv ER (sched m) (K (c, some (Fam.xs, 14))) (fcell c Fam.xs 14) ∗ cellInv ER (sched m) (K (c, some (Fam.xs, 15))) (fcell c Fam.xs 15)
      ∗ cellInv ER (sched m) (K (c, some (Fam.xr, 0))) (fcell c Fam.xr 0) ∗ cellInv ER (sched m) (K (c, some (Fam.xr, 1))) (fcell c Fam.xr 1)
      ∗ cellInv ER (sched m) (K (c, some (Fam.xr, 2))) (fcell c Fam.xr 2) ∗ cellInv ER (sched m) (K (c, some (Fam.xr, 3))) (fcell c Fam.xr 3)
      ∗ cellInv ER (sched m) (K (c, some (Fam.xr, 4))) (fcell c Fam.xr 4) ∗ cellInv ER (sched m) (K (c, some (Fam.xr, 5))) (fcell c Fam.xr 5)
      ∗ cellInv ER (sched m) (K (c, some (Fam.xr, 6))) (fcell c Fam.xr 6) ∗ cellInv ER (sched m) (K (c, some (Fam.xr, 7))) (fcell c Fam.xr 7)
      ∗ cellInv ER (sched m) (K (c, some (Fam.xr, 8))) (fcell c Fam.xr 8) ∗ cellInv ER (sched m) (K (c, some (Fam.xr, 9))) (fcell c Fam.xr 9)
      ∗ cellInv ER (sched m) (K (c, some (Fam.xr, 10))) (fcell c Fam.xr 10) ∗ cellInv ER (sched m) (K (c, some (Fam.xr, 11))) (fcell c Fam.xr 11)
      ∗ cellInv ER (sched m) (K (c, some (Fam.xr, 12))) (fcell c Fam.xr 12) ∗ cellInv ER (sched m) (K (c, some (Fam.xr, 13))) (fcell c Fam.xr 13)
      ∗ cellInv ER (sched m) (K (c, some (Fam.xr, 14))) (fcell c Fam.xr 14) ∗ cellInv ER (sched m) (K (c, some (Fam.xr, 15))) (fcell c Fam.xr 15)
      ∗ cellInv ER (sched m) (K (c, some (Fam.zs, 0))) (fcell c Fam.zs 0) ∗ cellInv ER (sched m) (K (c, some (Fam.zs, 1))) (fcell c Fam.zs 1)
      ∗ cellInv ER (sched m) (K (c, some (Fam.zs, 2))) (fcell c Fam.zs 2) ∗ cellInv ER (sched m) (K (c, some (Fam.zs, 3))) (fcell c Fam.zs 3)
      ∗ cellInv ER (sched m) (K (c, some (Fam.zs, 4))) (fcell c Fam.zs 4) ∗ cellInv ER (sched m) (K (c, some (Fam.zs, 5))) (fcell c Fam.zs 5)
      ∗ cellInv ER (sched m) (K (c, some (Fam.zs, 6))) (fcell c Fam.zs 6) ∗ cellInv ER (sched m) (K (c, some (Fam.zs, 7))) (fcell c Fam.zs 7)
      ∗ cellInv ER (sched m) (K (c, some (Fam.zs, 8))) (fcell c Fam.zs 8) ∗ cellInv ER (sched m) (K (c, some (Fam.zs, 9))) (fcell c Fam.zs 9)
      ∗ cellInv ER (sched m) (K (c, some (Fam.zs, 10))) (fcell c Fam.zs 10) ∗ cellInv ER (sched m) (K (c, some (Fam.zs, 11))) (fcell c Fam.zs 11)
      ∗ cellInv ER (sched m) (K (c, some (Fam.zs, 12))) (fcell c Fam.zs 12) ∗ cellInv ER (sched m) (K (c, some (Fam.zs, 13))) (fcell c Fam.zs 13)
      ∗ cellInv ER (sched m) (K (c, some (Fam.zs, 14))) (fcell c Fam.zs 14) ∗ cellInv ER (sched m) (K (c, some (Fam.zs, 15))) (fcell c Fam.zs 15)
      ∗ cellInv ER (sched m) (K (c, some (Fam.zr, 0))) (fcell c Fam.zr 0) ∗ cellInv ER (sched m) (K (c, some (Fam.zr, 1))) (fcell c Fam.zr 1)
      ∗ cellInv ER (sched m) (K (c, some (Fam.zr, 2))) (fcell c Fam.zr 2) ∗ cellInv ER (sched m) (K (c, some (Fam.zr, 3))) (fcell c Fam.zr 3)
      ∗ cellInv ER (sched m) (K (c, some (Fam.zr, 4))) (fcell c Fam.zr 4) ∗ cellInv ER (sched m) (K (c, some (Fam.zr, 5))) (fcell c Fam.zr 5)
      ∗ cellInv ER (sched m) (K (c, some (Fam.zr, 6))) (fcell c Fam.zr 6) ∗ cellInv ER (sched m) (K (c, some (Fam.zr, 7))) (fcell c Fam.zr 7)
      ∗ cellInv ER (sched m) (K (c, some (Fam.zr, 8))) (fcell c Fam.zr 8) ∗ cellInv ER (sched m) (K (c, some (Fam.zr, 9))) (fcell c Fam.zr 9)
      ∗ cellInv ER (sched m) (K (c, some (Fam.zr, 10))) (fcell c Fam.zr 10) ∗ cellInv ER (sched m) (K (c, some (Fam.zr, 11))) (fcell c Fam.zr 11)
      ∗ cellInv ER (sched m) (K (c, some (Fam.zr, 12))) (fcell c Fam.zr 12) ∗ cellInv ER (sched m) (K (c, some (Fam.zr, 13))) (fcell c Fam.zr 13)
      ∗ cellInv ER (sched m) (K (c, some (Fam.zr, 14))) (fcell c Fam.zr 14) ∗ cellInv ER (sched m) (K (c, some (Fam.zr, 15))) (fcell c Fam.zr 15)
      ∗ cellInv ER (sched m) (K (c, some (Fam.qs, 0))) (fcell c Fam.qs 0) ∗ cellInv ER (sched m) (K (c, some (Fam.qs, 1))) (fcell c Fam.qs 1)
      ∗ cellInv ER (sched m) (K (c, some (Fam.qs, 2))) (fcell c Fam.qs 2) ∗ cellInv ER (sched m) (K (c, some (Fam.qs, 3))) (fcell c Fam.qs 3)
      ∗ cellInv ER (sched m) (K (c, some (Fam.qs, 4))) (fcell c Fam.qs 4) ∗ cellInv ER (sched m) (K (c, some (Fam.qs, 5))) (fcell c Fam.qs 5)
      ∗ cellInv ER (sched m) (K (c, some (Fam.qs, 6))) (fcell c Fam.qs 6) ∗ cellInv ER (sched m) (K (c, some (Fam.qs, 7))) (fcell c Fam.qs 7)
      ∗ cellInv ER (sched m) (K (c, some (Fam.qs, 8))) (fcell c Fam.qs 8) ∗ cellInv ER (sched m) (K (c, some (Fam.qs, 9))) (fcell c Fam.qs 9)
      ∗ cellInv ER (sched m) (K (c, some (Fam.qs, 10))) (fcell c Fam.qs 10) ∗ cellInv ER (sched m) (K (c, some (Fam.qs, 11))) (fcell c Fam.qs 11)
      ∗ cellInv ER (sched m) (K (c, some (Fam.qs, 12))) (fcell c Fam.qs 12) ∗ cellInv ER (sched m) (K (c, some (Fam.qs, 13))) (fcell c Fam.qs 13)
      ∗ cellInv ER (sched m) (K (c, some (Fam.qs, 14))) (fcell c Fam.qs 14) ∗ cellInv ER (sched m) (K (c, some (Fam.qs, 15))) (fcell c Fam.qs 15)
      ∗ cellInv ER (sched m) (K (c, some (Fam.qr, 0))) (fcell c Fam.qr 0) ∗ cellInv ER (sched m) (K (c, some (Fam.qr, 1))) (fcell c Fam.qr 1)
      ∗ cellInv ER (sched m) (K (c, some (Fam.qr, 2))) (fcell c Fam.qr 2) ∗ cellInv ER (sched m) (K (c, some (Fam.qr, 3))) (fcell c Fam.qr 3)
      ∗ cellInv ER (sched m) (K (c, some (Fam.qr, 4))) (fcell c Fam.qr 4) ∗ cellInv ER (sched m) (K (c, some (Fam.qr, 5))) (fcell c Fam.qr 5)
      ∗ cellInv ER (sched m) (K (c, some (Fam.qr, 6))) (fcell c Fam.qr 6) ∗ cellInv ER (sched m) (K (c, some (Fam.qr, 7))) (fcell c Fam.qr 7)
      ∗ cellInv ER (sched m) (K (c, some (Fam.qr, 8))) (fcell c Fam.qr 8) ∗ cellInv ER (sched m) (K (c, some (Fam.qr, 9))) (fcell c Fam.qr 9)
      ∗ cellInv ER (sched m) (K (c, some (Fam.qr, 10))) (fcell c Fam.qr 10) ∗ cellInv ER (sched m) (K (c, some (Fam.qr, 11))) (fcell c Fam.qr 11)
      ∗ cellInv ER (sched m) (K (c, some (Fam.qr, 12))) (fcell c Fam.qr 12) ∗ cellInv ER (sched m) (K (c, some (Fam.qr, 13))) (fcell c Fam.qr 13)
      ∗ cellInv ER (sched m) (K (c, some (Fam.qr, 14))) (fcell c Fam.qr 14) ∗ cellInv ER (sched m) (K (c, some (Fam.qr, 15))) (fcell c Fam.qr 15))
      ∗ (
        atPos ER (fcell c Fam.ys 0) 1 ∅ 0 ∗ atPos ER (fcell c Fam.ys 1) 1 ∅ 0 ∗ atPos ER (fcell c Fam.ys 2) 1 ∅ 0 ∗ atPos ER (fcell c Fam.ys 3) 1 ∅ 0
      ∗ atPos ER (fcell c Fam.ys 4) 1 ∅ 0 ∗ atPos ER (fcell c Fam.ys 5) 1 ∅ 0 ∗ atPos ER (fcell c Fam.ys 6) 1 ∅ 0 ∗ atPos ER (fcell c Fam.ys 7) 1 ∅ 0
      ∗ atPos ER (fcell c Fam.ys 8) 1 ∅ 0 ∗ atPos ER (fcell c Fam.ys 9) 1 ∅ 0 ∗ atPos ER (fcell c Fam.ys 10) 1 ∅ 0 ∗ atPos ER (fcell c Fam.ys 11) 1 ∅ 0
      ∗ atPos ER (fcell c Fam.ys 12) 1 ∅ 0 ∗ atPos ER (fcell c Fam.ys 13) 1 ∅ 0 ∗ atPos ER (fcell c Fam.ys 14) 1 ∅ 0 ∗ atPos ER (fcell c Fam.ys 15) 1 ∅ 0
      ∗ atPos ER (fcell c Fam.yr 0) 1 ∅ 0 ∗ atPos ER (fcell c Fam.yr 1) 1 ∅ 0 ∗ atPos ER (fcell c Fam.yr 2) 1 ∅ 0 ∗ atPos ER (fcell c Fam.yr 3) 1 ∅ 0
      ∗ atPos ER (fcell c Fam.yr 4) 1 ∅ 0 ∗ atPos ER (fcell c Fam.yr 5) 1 ∅ 0 ∗ atPos ER (fcell c Fam.yr 6) 1 ∅ 0 ∗ atPos ER (fcell c Fam.yr 7) 1 ∅ 0
      ∗ atPos ER (fcell c Fam.yr 8) 1 ∅ 0 ∗ atPos ER (fcell c Fam.yr 9) 1 ∅ 0 ∗ atPos ER (fcell c Fam.yr 10) 1 ∅ 0 ∗ atPos ER (fcell c Fam.yr 11) 1 ∅ 0
      ∗ atPos ER (fcell c Fam.yr 12) 1 ∅ 0 ∗ atPos ER (fcell c Fam.yr 13) 1 ∅ 0 ∗ atPos ER (fcell c Fam.yr 14) 1 ∅ 0 ∗ atPos ER (fcell c Fam.yr 15) 1 ∅ 0
      ∗ atPos ER (fcell c Fam.xs 0) 1 ∅ 0 ∗ atPos ER (fcell c Fam.xs 1) 1 ∅ 0 ∗ atPos ER (fcell c Fam.xs 2) 1 ∅ 0 ∗ atPos ER (fcell c Fam.xs 3) 1 ∅ 0
      ∗ atPos ER (fcell c Fam.xs 4) 1 ∅ 0 ∗ atPos ER (fcell c Fam.xs 5) 1 ∅ 0 ∗ atPos ER (fcell c Fam.xs 6) 1 ∅ 0 ∗ atPos ER (fcell c Fam.xs 7) 1 ∅ 0
      ∗ atPos ER (fcell c Fam.xs 8) 1 ∅ 0 ∗ atPos ER (fcell c Fam.xs 9) 1 ∅ 0 ∗ atPos ER (fcell c Fam.xs 10) 1 ∅ 0 ∗ atPos ER (fcell c Fam.xs 11) 1 ∅ 0
      ∗ atPos ER (fcell c Fam.xs 12) 1 ∅ 0 ∗ atPos ER (fcell c Fam.xs 13) 1 ∅ 0 ∗ atPos ER (fcell c Fam.xs 14) 1 ∅ 0 ∗ atPos ER (fcell c Fam.xs 15) 1 ∅ 0
      ∗ atPos ER (fcell c Fam.xr 0) 1 ∅ 0 ∗ atPos ER (fcell c Fam.xr 1) 1 ∅ 0 ∗ atPos ER (fcell c Fam.xr 2) 1 ∅ 0 ∗ atPos ER (fcell c Fam.xr 3) 1 ∅ 0
      ∗ atPos ER (fcell c Fam.xr 4) 1 ∅ 0 ∗ atPos ER (fcell c Fam.xr 5) 1 ∅ 0 ∗ atPos ER (fcell c Fam.xr 6) 1 ∅ 0 ∗ atPos ER (fcell c Fam.xr 7) 1 ∅ 0
      ∗ atPos ER (fcell c Fam.xr 8) 1 ∅ 0 ∗ atPos ER (fcell c Fam.xr 9) 1 ∅ 0 ∗ atPos ER (fcell c Fam.xr 10) 1 ∅ 0 ∗ atPos ER (fcell c Fam.xr 11) 1 ∅ 0
      ∗ atPos ER (fcell c Fam.xr 12) 1 ∅ 0 ∗ atPos ER (fcell c Fam.xr 13) 1 ∅ 0 ∗ atPos ER (fcell c Fam.xr 14) 1 ∅ 0 ∗ atPos ER (fcell c Fam.xr 15) 1 ∅ 0
      ∗ atPos ER (fcell c Fam.zs 0) 1 ∅ 0 ∗ atPos ER (fcell c Fam.zs 1) 1 ∅ 0 ∗ atPos ER (fcell c Fam.zs 2) 1 ∅ 0 ∗ atPos ER (fcell c Fam.zs 3) 1 ∅ 0
      ∗ atPos ER (fcell c Fam.zs 4) 1 ∅ 0 ∗ atPos ER (fcell c Fam.zs 5) 1 ∅ 0 ∗ atPos ER (fcell c Fam.zs 6) 1 ∅ 0 ∗ atPos ER (fcell c Fam.zs 7) 1 ∅ 0
      ∗ atPos ER (fcell c Fam.zs 8) 1 ∅ 0 ∗ atPos ER (fcell c Fam.zs 9) 1 ∅ 0 ∗ atPos ER (fcell c Fam.zs 10) 1 ∅ 0 ∗ atPos ER (fcell c Fam.zs 11) 1 ∅ 0
      ∗ atPos ER (fcell c Fam.zs 12) 1 ∅ 0 ∗ atPos ER (fcell c Fam.zs 13) 1 ∅ 0 ∗ atPos ER (fcell c Fam.zs 14) 1 ∅ 0 ∗ atPos ER (fcell c Fam.zs 15) 1 ∅ 0
      ∗ atPos ER (fcell c Fam.zr 0) 1 ∅ 0 ∗ atPos ER (fcell c Fam.zr 1) 1 ∅ 0 ∗ atPos ER (fcell c Fam.zr 2) 1 ∅ 0 ∗ atPos ER (fcell c Fam.zr 3) 1 ∅ 0
      ∗ atPos ER (fcell c Fam.zr 4) 1 ∅ 0 ∗ atPos ER (fcell c Fam.zr 5) 1 ∅ 0 ∗ atPos ER (fcell c Fam.zr 6) 1 ∅ 0 ∗ atPos ER (fcell c Fam.zr 7) 1 ∅ 0
      ∗ atPos ER (fcell c Fam.zr 8) 1 ∅ 0 ∗ atPos ER (fcell c Fam.zr 9) 1 ∅ 0 ∗ atPos ER (fcell c Fam.zr 10) 1 ∅ 0 ∗ atPos ER (fcell c Fam.zr 11) 1 ∅ 0
      ∗ atPos ER (fcell c Fam.zr 12) 1 ∅ 0 ∗ atPos ER (fcell c Fam.zr 13) 1 ∅ 0 ∗ atPos ER (fcell c Fam.zr 14) 1 ∅ 0 ∗ atPos ER (fcell c Fam.zr 15) 1 ∅ 0
      ∗ atPos ER (fcell c Fam.qs 0) 1 ∅ 0 ∗ atPos ER (fcell c Fam.qs 1) 1 ∅ 0 ∗ atPos ER (fcell c Fam.qs 2) 1 ∅ 0 ∗ atPos ER (fcell c Fam.qs 3) 1 ∅ 0
      ∗ atPos ER (fcell c Fam.qs 4) 1 ∅ 0 ∗ atPos ER (fcell c Fam.qs 5) 1 ∅ 0 ∗ atPos ER (fcell c Fam.qs 6) 1 ∅ 0 ∗ atPos ER (fcell c Fam.qs 7) 1 ∅ 0
      ∗ atPos ER (fcell c Fam.qs 8) 1 ∅ 0 ∗ atPos ER (fcell c Fam.qs 9) 1 ∅ 0 ∗ atPos ER (fcell c Fam.qs 10) 1 ∅ 0 ∗ atPos ER (fcell c Fam.qs 11) 1 ∅ 0
      ∗ atPos ER (fcell c Fam.qs 12) 1 ∅ 0 ∗ atPos ER (fcell c Fam.qs 13) 1 ∅ 0 ∗ atPos ER (fcell c Fam.qs 14) 1 ∅ 0 ∗ atPos ER (fcell c Fam.qs 15) 1 ∅ 0
      ∗ atPos ER (fcell c Fam.qr 0) 1 ∅ 0 ∗ atPos ER (fcell c Fam.qr 1) 1 ∅ 0 ∗ atPos ER (fcell c Fam.qr 2) 1 ∅ 0 ∗ atPos ER (fcell c Fam.qr 3) 1 ∅ 0
      ∗ atPos ER (fcell c Fam.qr 4) 1 ∅ 0 ∗ atPos ER (fcell c Fam.qr 5) 1 ∅ 0 ∗ atPos ER (fcell c Fam.qr 6) 1 ∅ 0 ∗ atPos ER (fcell c Fam.qr 7) 1 ∅ 0
      ∗ atPos ER (fcell c Fam.qr 8) 1 ∅ 0 ∗ atPos ER (fcell c Fam.qr 9) 1 ∅ 0 ∗ atPos ER (fcell c Fam.qr 10) 1 ∅ 0 ∗ atPos ER (fcell c Fam.qr 11) 1 ∅ 0
      ∗ atPos ER (fcell c Fam.qr 12) 1 ∅ 0 ∗ atPos ER (fcell c Fam.qr 13) 1 ∅ 0 ∗ atPos ER (fcell c Fam.qr 14) 1 ∅ 0 ∗ atPos ER (fcell c Fam.qr 15) 1 ∅ 0)
      ∗ (
        semVal ((c : Thread nD τ), .dma ⟨0, by decide⟩) 0 ∗ semVal ((c : Thread nD τ), .dma ⟨1, by decide⟩) 0 ∗ semVal ((c : Thread nD τ), .dma ⟨2, by decide⟩) 0
      ∗ semVal ((c : Thread nD τ), .dma ⟨3, by decide⟩) 0 ∗ semVal ((c : Thread nD τ), .dma ⟨4, by decide⟩) 0 ∗ semVal ((c : Thread nD τ), .dma ⟨5, by decide⟩) 0
      ∗ semVal ((c : Thread nD τ), .dma ⟨6, by decide⟩) 0 ∗ semVal ((c : Thread nD τ), .dma ⟨7, by decide⟩) 0 ∗ semVal ((c : Thread nD τ), .dma ⟨8, by decide⟩) 0
      ∗ semVal ((c : Thread nD τ), .dma ⟨9, by decide⟩) 0 ∗ semVal ((c : Thread nD τ), .dma ⟨10, by decide⟩) 0 ∗ semVal ((c : Thread nD τ), .dma ⟨11, by decide⟩) 0
      ∗ semVal ((c : Thread nD τ), .dma ⟨12, by decide⟩) 0 ∗ semVal ((c : Thread nD τ), .dma ⟨13, by decide⟩) 0 ∗ semVal ((c : Thread nD τ), .dma ⟨14, by decide⟩) 0
      ∗ semVal ((c : Thread nD τ), .dma ⟨15, by decide⟩) 0 ∗ semVal ((c : Thread nD τ), .dma ⟨16, by decide⟩) 0 ∗ semVal ((c : Thread nD τ), .dma ⟨17, by decide⟩) 0
      ∗ semVal ((c : Thread nD τ), .dma ⟨18, by decide⟩) 0 ∗ semVal ((c : Thread nD τ), .dma ⟨19, by decide⟩) 0 ∗ semVal ((c : Thread nD τ), .dma ⟨20, by decide⟩) 0
      ∗ semVal ((c : Thread nD τ), .dma ⟨21, by decide⟩) 0 ∗ semVal ((c : Thread nD τ), .dma ⟨22, by decide⟩) 0 ∗ semVal ((c : Thread nD τ), .dma ⟨23, by decide⟩) 0
      ∗ semVal ((c : Thread nD τ), .dma ⟨24, by decide⟩) 0 ∗ semVal ((c : Thread nD τ), .dma ⟨25, by decide⟩) 0 ∗ semVal ((c : Thread nD τ), .dma ⟨26, by decide⟩) 0
      ∗ semVal ((c : Thread nD τ), .dma ⟨27, by decide⟩) 0 ∗ semVal ((c : Thread nD τ), .dma ⟨28, by decide⟩) 0 ∗ semVal ((c : Thread nD τ), .dma ⟨29, by decide⟩) 0
      ∗ semVal ((c : Thread nD τ), .dma ⟨30, by decide⟩) 0 ∗ semVal ((c : Thread nD τ), .dma ⟨31, by decide⟩) 0 ∗ semVal ((c : Thread nD τ), .dma ⟨32, by decide⟩) 0
      ∗ semVal ((c : Thread nD τ), .dma ⟨33, by decide⟩) 0 ∗ semVal ((c : Thread nD τ), .dma ⟨34, by decide⟩) 0 ∗ semVal ((c : Thread nD τ), .dma ⟨35, by decide⟩) 0
      ∗ semVal ((c : Thread nD τ), .dma ⟨36, by decide⟩) 0 ∗ semVal ((c : Thread nD τ), .dma ⟨37, by decide⟩) 0 ∗ semVal ((c : Thread nD τ), .dma ⟨38, by decide⟩) 0
      ∗ semVal ((c : Thread nD τ), .dma ⟨39, by decide⟩) 0 ∗ semVal ((c : Thread nD τ), .dma ⟨40, by decide⟩) 0 ∗ semVal ((c : Thread nD τ), .dma ⟨41, by decide⟩) 0
      ∗ semVal ((c : Thread nD τ), .dma ⟨42, by decide⟩) 0 ∗ semVal ((c : Thread nD τ), .dma ⟨43, by decide⟩) 0 ∗ semVal ((c : Thread nD τ), .dma ⟨44, by decide⟩) 0
      ∗ semVal ((c : Thread nD τ), .dma ⟨45, by decide⟩) 0 ∗ semVal ((c : Thread nD τ), .dma ⟨46, by decide⟩) 0 ∗ semVal ((c : Thread nD τ), .dma ⟨47, by decide⟩) 0
      ∗ semVal ((c : Thread nD τ), .dma ⟨48, by decide⟩) 0 ∗ semVal ((c : Thread nD τ), .dma ⟨49, by decide⟩) 0 ∗ semVal ((c : Thread nD τ), .dma ⟨50, by decide⟩) 0
      ∗ semVal ((c : Thread nD τ), .dma ⟨51, by decide⟩) 0 ∗ semVal ((c : Thread nD τ), .dma ⟨52, by decide⟩) 0 ∗ semVal ((c : Thread nD τ), .dma ⟨53, by decide⟩) 0
      ∗ semVal ((c : Thread nD τ), .dma ⟨54, by decide⟩) 0 ∗ semVal ((c : Thread nD τ), .dma ⟨55, by decide⟩) 0 ∗ semVal ((c : Thread nD τ), .dma ⟨56, by decide⟩) 0
      ∗ semVal ((c : Thread nD τ), .dma ⟨57, by decide⟩) 0 ∗ semVal ((c : Thread nD τ), .dma ⟨58, by decide⟩) 0 ∗ semVal ((c : Thread nD τ), .dma ⟨59, by decide⟩) 0
      ∗ semVal ((c : Thread nD τ), .dma ⟨60, by decide⟩) 0 ∗ semVal ((c : Thread nD τ), .dma ⟨61, by decide⟩) 0 ∗ semVal ((c : Thread nD τ), .dma ⟨62, by decide⟩) 0
      ∗ semVal ((c : Thread nD τ), .dma ⟨63, by decide⟩) 0 ∗ semVal ((c : Thread nD τ), .dma ⟨224, by decide⟩) 0 ∗ semVal ((c : Thread nD τ), .dma ⟨225, by decide⟩) 0)
      ∗ Idle
      ∗ owes (c : Thread nD τ) 0 W'
      ∗ Arg
      ∗ Res
      ∗ (
        (((slab sM 0).view.loc (c : Thread nD τ)) ↦[(slab sM 0).view.set]{fullShare} gs 0)
      ∗ (((slab sM 1).view.loc (c : Thread nD τ)) ↦[(slab sM 1).view.set]{fullShare} gs 1)
      ∗ (((slab sM 2).view.loc (c : Thread nD τ)) ↦[(slab sM 2).view.set]{fullShare} gs 2)
      ∗ (((slab sM 3).view.loc (c : Thread nD τ)) ↦[(slab sM 3).view.set]{fullShare} gs 3)
      ∗ (((slab sM 4).view.loc (c : Thread nD τ)) ↦[(slab sM 4).view.set]{fullShare} gs 4)
      ∗ (((slab sM 5).view.loc (c : Thread nD τ)) ↦[(slab sM 5).view.set]{fullShare} gs 5)
      ∗ (((slab sM 6).view.loc (c : Thread nD τ)) ↦[(slab sM 6).view.set]{fullShare} gs 6)
      ∗ (((slab sM 7).view.loc (c : Thread nD τ)) ↦[(slab sM 7).view.set]{fullShare} gs 7)
      ∗ (((slab sM 8).view.loc (c : Thread nD τ)) ↦[(slab sM 8).view.set]{fullShare} gs 8)
      ∗ (((slab sM 9).view.loc (c : Thread nD τ)) ↦[(slab sM 9).view.set]{fullShare} gs 9)
      ∗ (((slab sM 10).view.loc (c : Thread nD τ)) ↦[(slab sM 10).view.set]{fullShare} gs 10)
      ∗ (((slab sM 11).view.loc (c : Thread nD τ)) ↦[(slab sM 11).view.set]{fullShare} gs 11)
      ∗ (((slab sM 12).view.loc (c : Thread nD τ)) ↦[(slab sM 12).view.set]{fullShare} gs 12)
      ∗ (((slab sM 13).view.loc (c : Thread nD τ)) ↦[(slab sM 13).view.set]{fullShare} gs 13)
      ∗ (((slab sM 14).view.loc (c : Thread nD τ)) ↦[(slab sM 14).view.set]{fullShare} gs 14)
      ∗ (((slab sM 15).view.loc (c : Thread nD τ)) ↦[(slab sM 15).view.set]{fullShare} gs 15))
      ∗ (
        (((slab rM 0).view.loc (c : Thread nD τ)) ↦[(slab rM 0).view.set]{qX} gr 0)
      ∗ (((slab rM 0).view.loc (c : Thread nD τ)) ↦[(slab rM 0).view.set]{qZ} gr 0)
      ∗ (((slab rM 0).view.loc (c : Thread nD τ)) ↦[(slab rM 0).view.set]{qS} gr 0)
      ∗ (((slab rM 1).view.loc (c : Thread nD τ)) ↦[(slab rM 1).view.set]{qX} gr 1)
      ∗ (((slab rM 1).view.loc (c : Thread nD τ)) ↦[(slab rM 1).view.set]{qZ} gr 1)
      ∗ (((slab rM 1).view.loc (c : Thread nD τ)) ↦[(slab rM 1).view.set]{qS} gr 1)
      ∗ (((slab rM 2).view.loc (c : Thread nD τ)) ↦[(slab rM 2).view.set]{qX} gr 2)
      ∗ (((slab rM 2).view.loc (c : Thread nD τ)) ↦[(slab rM 2).view.set]{qZ} gr 2)
      ∗ (((slab rM 2).view.loc (c : Thread nD τ)) ↦[(slab rM 2).view.set]{qS} gr 2)
      ∗ (((slab rM 3).view.loc (c : Thread nD τ)) ↦[(slab rM 3).view.set]{qX} gr 3)
      ∗ (((slab rM 3).view.loc (c : Thread nD τ)) ↦[(slab rM 3).view.set]{qZ} gr 3)
      ∗ (((slab rM 3).view.loc (c : Thread nD τ)) ↦[(slab rM 3).view.set]{qS} gr 3)
      ∗ (((slab rM 4).view.loc (c : Thread nD τ)) ↦[(slab rM 4).view.set]{qX} gr 4)
      ∗ (((slab rM 4).view.loc (c : Thread nD τ)) ↦[(slab rM 4).view.set]{qZ} gr 4)
      ∗ (((slab rM 4).view.loc (c : Thread nD τ)) ↦[(slab rM 4).view.set]{qS} gr 4)
      ∗ (((slab rM 5).view.loc (c : Thread nD τ)) ↦[(slab rM 5).view.set]{qX} gr 5)
      ∗ (((slab rM 5).view.loc (c : Thread nD τ)) ↦[(slab rM 5).view.set]{qZ} gr 5)
      ∗ (((slab rM 5).view.loc (c : Thread nD τ)) ↦[(slab rM 5).view.set]{qS} gr 5)
      ∗ (((slab rM 6).view.loc (c : Thread nD τ)) ↦[(slab rM 6).view.set]{qX} gr 6)
      ∗ (((slab rM 6).view.loc (c : Thread nD τ)) ↦[(slab rM 6).view.set]{qZ} gr 6)
      ∗ (((slab rM 6).view.loc (c : Thread nD τ)) ↦[(slab rM 6).view.set]{qS} gr 6)
      ∗ (((slab rM 7).view.loc (c : Thread nD τ)) ↦[(slab rM 7).view.set]{qX} gr 7)
      ∗ (((slab rM 7).view.loc (c : Thread nD τ)) ↦[(slab rM 7).view.set]{qZ} gr 7)
      ∗ (((slab rM 7).view.loc (c : Thread nD τ)) ↦[(slab rM 7).view.set]{qS} gr 7)
      ∗ (((slab rM 8).view.loc (c : Thread nD τ)) ↦[(slab rM 8).view.set]{qX} gr 8)
      ∗ (((slab rM 8).view.loc (c : Thread nD τ)) ↦[(slab rM 8).view.set]{qZ} gr 8)
      ∗ (((slab rM 8).view.loc (c : Thread nD τ)) ↦[(slab rM 8).view.set]{qS} gr 8)
      ∗ (((slab rM 9).view.loc (c : Thread nD τ)) ↦[(slab rM 9).view.set]{qX} gr 9)
      ∗ (((slab rM 9).view.loc (c : Thread nD τ)) ↦[(slab rM 9).view.set]{qZ} gr 9)
      ∗ (((slab rM 9).view.loc (c : Thread nD τ)) ↦[(slab rM 9).view.set]{qS} gr 9)
      ∗ (((slab rM 10).view.loc (c : Thread nD τ)) ↦[(slab rM 10).view.set]{qX} gr 10)
      ∗ (((slab rM 10).view.loc (c : Thread nD τ)) ↦[(slab rM 10).view.set]{qZ} gr 10)
      ∗ (((slab rM 10).view.loc (c : Thread nD τ)) ↦[(slab rM 10).view.set]{qS} gr 10)
      ∗ (((slab rM 11).view.loc (c : Thread nD τ)) ↦[(slab rM 11).view.set]{qX} gr 11)
      ∗ (((slab rM 11).view.loc (c : Thread nD τ)) ↦[(slab rM 11).view.set]{qZ} gr 11)
      ∗ (((slab rM 11).view.loc (c : Thread nD τ)) ↦[(slab rM 11).view.set]{qS} gr 11)
      ∗ (((slab rM 12).view.loc (c : Thread nD τ)) ↦[(slab rM 12).view.set]{qX} gr 12)
      ∗ (((slab rM 12).view.loc (c : Thread nD τ)) ↦[(slab rM 12).view.set]{qZ} gr 12)
      ∗ (((slab rM 12).view.loc (c : Thread nD τ)) ↦[(slab rM 12).view.set]{qS} gr 12)
      ∗ (((slab rM 13).view.loc (c : Thread nD τ)) ↦[(slab rM 13).view.set]{qX} gr 13)
      ∗ (((slab rM 13).view.loc (c : Thread nD τ)) ↦[(slab rM 13).view.set]{qZ} gr 13)
      ∗ (((slab rM 13).view.loc (c : Thread nD τ)) ↦[(slab rM 13).view.set]{qS} gr 13)
      ∗ (((slab rM 14).view.loc (c : Thread nD τ)) ↦[(slab rM 14).view.set]{qX} gr 14)
      ∗ (((slab rM 14).view.loc (c : Thread nD τ)) ↦[(slab rM 14).view.set]{qZ} gr 14)
      ∗ (((slab rM 14).view.loc (c : Thread nD τ)) ↦[(slab rM 14).view.set]{qS} gr 14)
      ∗ (((slab rM 15).view.loc (c : Thread nD τ)) ↦[(slab rM 15).view.set]{qX} gr 15)
      ∗ (((slab rM 15).view.loc (c : Thread nD τ)) ↦[(slab rM 15).view.set]{qZ} gr 15)
      ∗ (((slab rM 15).view.loc (c : Thread nD τ)) ↦[(slab rM 15).view.set]{qS} gr 15))
      ∗ (
        (((slab xrM 0).view.loc (c : Thread nD τ)) ↦[(slab xrM 0).view.set]{qX} gx 0)
      ∗ (((slab xrM 0).view.loc (c : Thread nD τ)) ↦[(slab xrM 0).view.set]{qH} gx 0)
      ∗ (((slab xrM 1).view.loc (c : Thread nD τ)) ↦[(slab xrM 1).view.set]{qX} gx 1)
      ∗ (((slab xrM 1).view.loc (c : Thread nD τ)) ↦[(slab xrM 1).view.set]{qH} gx 1)
      ∗ (((slab xrM 2).view.loc (c : Thread nD τ)) ↦[(slab xrM 2).view.set]{qX} gx 2)
      ∗ (((slab xrM 2).view.loc (c : Thread nD τ)) ↦[(slab xrM 2).view.set]{qH} gx 2)
      ∗ (((slab xrM 3).view.loc (c : Thread nD τ)) ↦[(slab xrM 3).view.set]{qX} gx 3)
      ∗ (((slab xrM 3).view.loc (c : Thread nD τ)) ↦[(slab xrM 3).view.set]{qH} gx 3)
      ∗ (((slab xrM 4).view.loc (c : Thread nD τ)) ↦[(slab xrM 4).view.set]{qX} gx 4)
      ∗ (((slab xrM 4).view.loc (c : Thread nD τ)) ↦[(slab xrM 4).view.set]{qH} gx 4)
      ∗ (((slab xrM 5).view.loc (c : Thread nD τ)) ↦[(slab xrM 5).view.set]{qX} gx 5)
      ∗ (((slab xrM 5).view.loc (c : Thread nD τ)) ↦[(slab xrM 5).view.set]{qH} gx 5)
      ∗ (((slab xrM 6).view.loc (c : Thread nD τ)) ↦[(slab xrM 6).view.set]{qX} gx 6)
      ∗ (((slab xrM 6).view.loc (c : Thread nD τ)) ↦[(slab xrM 6).view.set]{qH} gx 6)
      ∗ (((slab xrM 7).view.loc (c : Thread nD τ)) ↦[(slab xrM 7).view.set]{qX} gx 7)
      ∗ (((slab xrM 7).view.loc (c : Thread nD τ)) ↦[(slab xrM 7).view.set]{qH} gx 7)
      ∗ (((slab xrM 8).view.loc (c : Thread nD τ)) ↦[(slab xrM 8).view.set]{qX} gx 8)
      ∗ (((slab xrM 8).view.loc (c : Thread nD τ)) ↦[(slab xrM 8).view.set]{qH} gx 8)
      ∗ (((slab xrM 9).view.loc (c : Thread nD τ)) ↦[(slab xrM 9).view.set]{qX} gx 9)
      ∗ (((slab xrM 9).view.loc (c : Thread nD τ)) ↦[(slab xrM 9).view.set]{qH} gx 9)
      ∗ (((slab xrM 10).view.loc (c : Thread nD τ)) ↦[(slab xrM 10).view.set]{qX} gx 10)
      ∗ (((slab xrM 10).view.loc (c : Thread nD τ)) ↦[(slab xrM 10).view.set]{qH} gx 10)
      ∗ (((slab xrM 11).view.loc (c : Thread nD τ)) ↦[(slab xrM 11).view.set]{qX} gx 11)
      ∗ (((slab xrM 11).view.loc (c : Thread nD τ)) ↦[(slab xrM 11).view.set]{qH} gx 11)
      ∗ (((slab xrM 12).view.loc (c : Thread nD τ)) ↦[(slab xrM 12).view.set]{qX} gx 12)
      ∗ (((slab xrM 12).view.loc (c : Thread nD τ)) ↦[(slab xrM 12).view.set]{qH} gx 12)
      ∗ (((slab xrM 13).view.loc (c : Thread nD τ)) ↦[(slab xrM 13).view.set]{qX} gx 13)
      ∗ (((slab xrM 13).view.loc (c : Thread nD τ)) ↦[(slab xrM 13).view.set]{qH} gx 13)
      ∗ (((slab xrM 14).view.loc (c : Thread nD τ)) ↦[(slab xrM 14).view.set]{qX} gx 14)
      ∗ (((slab xrM 14).view.loc (c : Thread nD τ)) ↦[(slab xrM 14).view.set]{qH} gx 14)
      ∗ (((slab xrM 15).view.loc (c : Thread nD τ)) ↦[(slab xrM 15).view.set]{qX} gx 15)
      ∗ (((slab xrM 15).view.loc (c : Thread nD τ)) ↦[(slab xrM 15).view.set]{qH} gx 15))
      ∗ (
        (((slab zrM 0).view.loc (c : Thread nD τ)) ↦[(slab zrM 0).view.set]{qX} gz 0)
      ∗ (((slab zrM 0).view.loc (c : Thread nD τ)) ↦[(slab zrM 0).view.set]{qH} gz 0)
      ∗ (((slab zrM 1).view.loc (c : Thread nD τ)) ↦[(slab zrM 1).view.set]{qX} gz 1)
      ∗ (((slab zrM 1).view.loc (c : Thread nD τ)) ↦[(slab zrM 1).view.set]{qH} gz 1)
      ∗ (((slab zrM 2).view.loc (c : Thread nD τ)) ↦[(slab zrM 2).view.set]{qX} gz 2)
      ∗ (((slab zrM 2).view.loc (c : Thread nD τ)) ↦[(slab zrM 2).view.set]{qH} gz 2)
      ∗ (((slab zrM 3).view.loc (c : Thread nD τ)) ↦[(slab zrM 3).view.set]{qX} gz 3)
      ∗ (((slab zrM 3).view.loc (c : Thread nD τ)) ↦[(slab zrM 3).view.set]{qH} gz 3)
      ∗ (((slab zrM 4).view.loc (c : Thread nD τ)) ↦[(slab zrM 4).view.set]{qX} gz 4)
      ∗ (((slab zrM 4).view.loc (c : Thread nD τ)) ↦[(slab zrM 4).view.set]{qH} gz 4)
      ∗ (((slab zrM 5).view.loc (c : Thread nD τ)) ↦[(slab zrM 5).view.set]{qX} gz 5)
      ∗ (((slab zrM 5).view.loc (c : Thread nD τ)) ↦[(slab zrM 5).view.set]{qH} gz 5)
      ∗ (((slab zrM 6).view.loc (c : Thread nD τ)) ↦[(slab zrM 6).view.set]{qX} gz 6)
      ∗ (((slab zrM 6).view.loc (c : Thread nD τ)) ↦[(slab zrM 6).view.set]{qH} gz 6)
      ∗ (((slab zrM 7).view.loc (c : Thread nD τ)) ↦[(slab zrM 7).view.set]{qX} gz 7)
      ∗ (((slab zrM 7).view.loc (c : Thread nD τ)) ↦[(slab zrM 7).view.set]{qH} gz 7)
      ∗ (((slab zrM 8).view.loc (c : Thread nD τ)) ↦[(slab zrM 8).view.set]{qX} gz 8)
      ∗ (((slab zrM 8).view.loc (c : Thread nD τ)) ↦[(slab zrM 8).view.set]{qH} gz 8)
      ∗ (((slab zrM 9).view.loc (c : Thread nD τ)) ↦[(slab zrM 9).view.set]{qX} gz 9)
      ∗ (((slab zrM 9).view.loc (c : Thread nD τ)) ↦[(slab zrM 9).view.set]{qH} gz 9)
      ∗ (((slab zrM 10).view.loc (c : Thread nD τ)) ↦[(slab zrM 10).view.set]{qX} gz 10)
      ∗ (((slab zrM 10).view.loc (c : Thread nD τ)) ↦[(slab zrM 10).view.set]{qH} gz 10)
      ∗ (((slab zrM 11).view.loc (c : Thread nD τ)) ↦[(slab zrM 11).view.set]{qX} gz 11)
      ∗ (((slab zrM 11).view.loc (c : Thread nD τ)) ↦[(slab zrM 11).view.set]{qH} gz 11)
      ∗ (((slab zrM 12).view.loc (c : Thread nD τ)) ↦[(slab zrM 12).view.set]{qX} gz 12)
      ∗ (((slab zrM 12).view.loc (c : Thread nD τ)) ↦[(slab zrM 12).view.set]{qH} gz 12)
      ∗ (((slab zrM 13).view.loc (c : Thread nD τ)) ↦[(slab zrM 13).view.set]{qX} gz 13)
      ∗ (((slab zrM 13).view.loc (c : Thread nD τ)) ↦[(slab zrM 13).view.set]{qH} gz 13)
      ∗ (((slab zrM 14).view.loc (c : Thread nD τ)) ↦[(slab zrM 14).view.set]{qX} gz 14)
      ∗ (((slab zrM 14).view.loc (c : Thread nD τ)) ↦[(slab zrM 14).view.set]{qH} gz 14)
      ∗ (((slab zrM 15).view.loc (c : Thread nD τ)) ↦[(slab zrM 15).view.set]{qX} gz 15)
      ∗ (((slab zrM 15).view.loc (c : Thread nD τ)) ↦[(slab zrM 15).view.set]{qH} gz 15))
      ∗ ((lM.view.loc (c : Thread nD τ)) ↦[lM.view.set]{fullShare} fl))
      ⊢ (|={Set.univ}=> iprop(Φ₁ m c ∗ (dats m 0 c).owesAt () (Gen.t0_0 : Fin cfg0.N).succ) : sProp 𝕄) :=
  finish_core m K c W' _ Idle Arg Res _ hLoc hArg hRes (scratch_chain c gs gr gx gz fl)

/-- info: 'Cert.Kernel.A2A.finish' depends on axioms: [propext, Classical.choice, Quot.sound] -/
#guard_msgs in #print axioms finish

end Cert.Kernel.A2A

end
-- ==== Proof.BLocChain.lean ====
import proofs.«900640_g7700000000000641_dist_a2a_v7x_xyz2x2x4_y_m4096_n1024_f32_1_alg».proof.Proof.BPieces
import proofs.«900640_g7700000000000641_dist_a2a_v7x_xyz2x2x4_y_m4096_n1024_f32_1_alg».proof.Proof.BClose
/-!
# The local semaphores and the input's pieces, one by one

The sixty-six DMA semaphores of the local copies, listed in the order the body's context lists them, and the idle
ones are the device's DMA semaphores that are no chunk cell. The input array is its sixteen chunk windows, its
own-half window and the part no copy reads.
-/

set_option maxRecDepth 65536

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ)

set_option maxHeartbeats 4000000 in
/-- The sixty-six semaphores of the local copies at zero, in the order the body's context lists them, and the idle
    ones, are the device's local semaphores. -/
theorem loc_chain (c : Dev nD) :
    iprop((
        semVal ((c : Thread nD τ), .dma ⟨0, by decide⟩) 0 ∗ semVal ((c : Thread nD τ), .dma ⟨1, by decide⟩) 0 ∗ semVal ((c : Thread nD τ), .dma ⟨2, by decide⟩) 0
      ∗ semVal ((c : Thread nD τ), .dma ⟨3, by decide⟩) 0 ∗ semVal ((c : Thread nD τ), .dma ⟨4, by decide⟩) 0 ∗ semVal ((c : Thread nD τ), .dma ⟨5, by decide⟩) 0
      ∗ semVal ((c : Thread nD τ), .dma ⟨6, by decide⟩) 0 ∗ semVal ((c : Thread nD τ), .dma ⟨7, by decide⟩) 0 ∗ semVal ((c : Thread nD τ), .dma ⟨8, by decide⟩) 0
      ∗ semVal ((c : Thread nD τ), .dma ⟨9, by decide⟩) 0 ∗ semVal ((c : Thread nD τ), .dma ⟨10, by decide⟩) 0 ∗ semVal ((c : Thread nD τ), .dma ⟨11, by decide⟩) 0
      ∗ semVal ((c : Thread nD τ), .dma ⟨12, by decide⟩) 0 ∗ semVal ((c : Thread nD τ), .dma ⟨13, by decide⟩) 0 ∗ semVal ((c : Thread nD τ), .dma ⟨14, by decide⟩) 0
      ∗ semVal ((c : Thread nD τ), .dma ⟨15, by decide⟩) 0 ∗ semVal ((c : Thread nD τ), .dma ⟨16, by decide⟩) 0 ∗ semVal ((c : Thread nD τ), .dma ⟨17, by decide⟩) 0
      ∗ semVal ((c : Thread nD τ), .dma ⟨18, by decide⟩) 0 ∗ semVal ((c : Thread nD τ), .dma ⟨19, by decide⟩) 0 ∗ semVal ((c : Thread nD τ), .dma ⟨20, by decide⟩) 0
      ∗ semVal ((c : Thread nD τ), .dma ⟨21, by decide⟩) 0 ∗ semVal ((c : Thread nD τ), .dma ⟨22, by decide⟩) 0 ∗ semVal ((c : Thread nD τ), .dma ⟨23, by decide⟩) 0
      ∗ semVal ((c : Thread nD τ), .dma ⟨24, by decide⟩) 0 ∗ semVal ((c : Thread nD τ), .dma ⟨25, by decide⟩) 0 ∗ semVal ((c : Thread nD τ), .dma ⟨26, by decide⟩) 0
      ∗ semVal ((c : Thread nD τ), .dma ⟨27, by decide⟩) 0 ∗ semVal ((c : Thread nD τ), .dma ⟨28, by decide⟩) 0 ∗ semVal ((c : Thread nD τ), .dma ⟨29, by decide⟩) 0
      ∗ semVal ((c : Thread nD τ), .dma ⟨30, by decide⟩) 0 ∗ semVal ((c : Thread nD τ), .dma ⟨31, by decide⟩) 0 ∗ semVal ((c : Thread nD τ), .dma ⟨32, by decide⟩) 0
      ∗ semVal ((c : Thread nD τ), .dma ⟨33, by decide⟩) 0 ∗ semVal ((c : Thread nD τ), .dma ⟨34, by decide⟩) 0 ∗ semVal ((c : Thread nD τ), .dma ⟨35, by decide⟩) 0
      ∗ semVal ((c : Thread nD τ), .dma ⟨36, by decide⟩) 0 ∗ semVal ((c : Thread nD τ), .dma ⟨37, by decide⟩) 0 ∗ semVal ((c : Thread nD τ), .dma ⟨38, by decide⟩) 0
      ∗ semVal ((c : Thread nD τ), .dma ⟨39, by decide⟩) 0 ∗ semVal ((c : Thread nD τ), .dma ⟨40, by decide⟩) 0 ∗ semVal ((c : Thread nD τ), .dma ⟨41, by decide⟩) 0
      ∗ semVal ((c : Thread nD τ), .dma ⟨42, by decide⟩) 0 ∗ semVal ((c : Thread nD τ), .dma ⟨43, by decide⟩) 0 ∗ semVal ((c : Thread nD τ), .dma ⟨44, by decide⟩) 0
      ∗ semVal ((c : Thread nD τ), .dma ⟨45, by decide⟩) 0 ∗ semVal ((c : Thread nD τ), .dma ⟨46, by decide⟩) 0 ∗ semVal ((c : Thread nD τ), .dma ⟨47, by decide⟩) 0
      ∗ semVal ((c : Thread nD τ), .dma ⟨48, by decide⟩) 0 ∗ semVal ((c : Thread nD τ), .dma ⟨49, by decide⟩) 0 ∗ semVal ((c : Thread nD τ), .dma ⟨50, by decide⟩) 0
      ∗ semVal ((c : Thread nD τ), .dma ⟨51, by decide⟩) 0 ∗ semVal ((c : Thread nD τ), .dma ⟨52, by decide⟩) 0 ∗ semVal ((c : Thread nD τ), .dma ⟨53, by decide⟩) 0
      ∗ semVal ((c : Thread nD τ), .dma ⟨54, by decide⟩) 0 ∗ semVal ((c : Thread nD τ), .dma ⟨55, by decide⟩) 0 ∗ semVal ((c : Thread nD τ), .dma ⟨56, by decide⟩) 0
      ∗ semVal ((c : Thread nD τ), .dma ⟨57, by decide⟩) 0 ∗ semVal ((c : Thread nD τ), .dma ⟨58, by decide⟩) 0 ∗ semVal ((c : Thread nD τ), .dma ⟨59, by decide⟩) 0
      ∗ semVal ((c : Thread nD τ), .dma ⟨60, by decide⟩) 0 ∗ semVal ((c : Thread nD τ), .dma ⟨61, by decide⟩) 0 ∗ semVal ((c : Thread nD τ), .dma ⟨62, by decide⟩) 0
      ∗ semVal ((c : Thread nD τ), .dma ⟨63, by decide⟩) 0 ∗ semVal ((c : Thread nD τ), .dma ⟨224, by decide⟩) 0 ∗ semVal ((c : Thread nD τ), .dma ⟨225, by decide⟩) 0)
      ∗ idle (F := F) c) ⊢ localSems (F := F) c := by
  rw [localSems_split, bigSep_eq_bigSepL usedL usedL_nodup]
  exact Entails.rfl

/-! ## The input's pieces, one by one -/

/-- The sixteen chunk windows of the input, its own-half window and the part no copy reads are the input array. -/
theorem arg_chain (c : Dev nD) :
    iprop(
        ((aWin c 0).view.loc (c : Thread nD τ) ↦[(aWin c 0).view.set]{fullShare} m ((c : Thread nD τ).loc main_arg0))
      ∗ ((aWin c 1).view.loc (c : Thread nD τ) ↦[(aWin c 1).view.set]{fullShare} m ((c : Thread nD τ).loc main_arg0))
      ∗ ((aWin c 2).view.loc (c : Thread nD τ) ↦[(aWin c 2).view.set]{fullShare} m ((c : Thread nD τ).loc main_arg0))
      ∗ ((aWin c 3).view.loc (c : Thread nD τ) ↦[(aWin c 3).view.set]{fullShare} m ((c : Thread nD τ).loc main_arg0))
      ∗ ((aWin c 4).view.loc (c : Thread nD τ) ↦[(aWin c 4).view.set]{fullShare} m ((c : Thread nD τ).loc main_arg0))
      ∗ ((aWin c 5).view.loc (c : Thread nD τ) ↦[(aWin c 5).view.set]{fullShare} m ((c : Thread nD τ).loc main_arg0))
      ∗ ((aWin c 6).view.loc (c : Thread nD τ) ↦[(aWin c 6).view.set]{fullShare} m ((c : Thread nD τ).loc main_arg0))
      ∗ ((aWin c 7).view.loc (c : Thread nD τ) ↦[(aWin c 7).view.set]{fullShare} m ((c : Thread nD τ).loc main_arg0))
      ∗ ((aWin c 8).view.loc (c : Thread nD τ) ↦[(aWin c 8).view.set]{fullShare} m ((c : Thread nD τ).loc main_arg0))
      ∗ ((aWin c 9).view.loc (c : Thread nD τ) ↦[(aWin c 9).view.set]{fullShare} m ((c : Thread nD τ).loc main_arg0))
      ∗ ((aWin c 10).view.loc (c : Thread nD τ) ↦[(aWin c 10).view.set]{fullShare} m ((c : Thread nD τ).loc main_arg0))
      ∗ ((aWin c 11).view.loc (c : Thread nD τ) ↦[(aWin c 11).view.set]{fullShare} m ((c : Thread nD τ).loc main_arg0))
      ∗ ((aWin c 12).view.loc (c : Thread nD τ) ↦[(aWin c 12).view.set]{fullShare} m ((c : Thread nD τ).loc main_arg0))
      ∗ ((aWin c 13).view.loc (c : Thread nD τ) ↦[(aWin c 13).view.set]{fullShare} m ((c : Thread nD τ).loc main_arg0))
      ∗ ((aWin c 14).view.loc (c : Thread nD τ) ↦[(aWin c 14).view.set]{fullShare} m ((c : Thread nD τ).loc main_arg0))
      ∗ ((aWin c 15).view.loc (c : Thread nD τ) ↦[(aWin c 15).view.set]{fullShare} m ((c : Thread nD τ).loc main_arg0))
      ∗ ((aOwn c).view.loc (c : Thread nD τ) ↦[(aOwn c).view.set]{fullShare} m ((c : Thread nD τ).loc main_arg0))
      ∗ (aM.view.loc (c : Thread nD τ) ↦[aRest c]{fullShare} m ((c : Thread nD τ).loc main_arg0))) ⊢ (argPts m c : sProp 𝕄) := by
  refine Entails.trans (Entails.of_eq ?_) (Entails.of_eq (arg_pieces_eq m c).symm)
  simp only [close_fin16, close_sep_assoc]

/-- info: 'Cert.Kernel.A2A.arg_chain' depends on axioms: [propext, Classical.choice, Quot.sound] -/
#guard_msgs in #print axioms arg_chain

/-- info: 'Cert.Kernel.A2A.loc_chain' depends on axioms: [propext, Classical.choice, Quot.sound] -/
#guard_msgs in #print axioms loc_chain

end Cert.Kernel.A2A

end
-- ==== Proof.BBody.lean ====
import proofs.«900640_g7700000000000641_dist_a2a_v7x_xyz2x2x4_y_m4096_n1024_f32_1_alg».proof.Proof.BGhost
import proofs.«900640_g7700000000000641_dist_a2a_v7x_xyz2x2x4_y_m4096_n1024_f32_1_alg».proof.Proof.BWindows
import proofs.«900640_g7700000000000641_dist_a2a_v7x_xyz2x2x4_y_m4096_n1024_f32_1_alg».proof.Proof.BLanding
import proofs.«900640_g7700000000000641_dist_a2a_v7x_xyz2x2x4_y_m4096_n1024_f32_1_alg».proof.Proof.BLevels
import proofs.«900640_g7700000000000641_dist_a2a_v7x_xyz2x2x4_y_m4096_n1024_f32_1_alg».proof.Proof.BTables
import proofs.«900640_g7700000000000641_dist_a2a_v7x_xyz2x2x4_y_m4096_n1024_f32_1_alg».proof.Proof.BTables2
import proofs.«900640_g7700000000000641_dist_a2a_v7x_xyz2x2x4_y_m4096_n1024_f32_1_alg».proof.Proof.BTables3
import proofs.«900640_g7700000000000641_dist_a2a_v7x_xyz2x2x4_y_m4096_n1024_f32_1_alg».proof.Proof.BTables4
import proofs.«900640_g7700000000000641_dist_a2a_v7x_xyz2x2x4_y_m4096_n1024_f32_1_alg».proof.Proof.BTables5
import proofs.«900640_g7700000000000641_dist_a2a_v7x_xyz2x2x4_y_m4096_n1024_f32_1_alg».proof.Proof.BEndFacts
import proofs.«900640_g7700000000000641_dist_a2a_v7x_xyz2x2x4_y_m4096_n1024_f32_1_alg».proof.Proof.BRestate
import proofs.«900640_g7700000000000641_dist_a2a_v7x_xyz2x2x4_y_m4096_n1024_f32_1_alg».proof.Proof.BAbove
import proofs.«900640_g7700000000000641_dist_a2a_v7x_xyz2x2x4_y_m4096_n1024_f32_1_alg».proof.Proof.BCanon
import proofs.«900640_g7700000000000641_dist_a2a_v7x_xyz2x2x4_y_m4096_n1024_f32_1_alg».proof.Proof.BBodyCtx
import proofs.«900640_g7700000000000641_dist_a2a_v7x_xyz2x2x4_y_m4096_n1024_f32_1_alg».proof.Proof.BPieces
import proofs.«900640_g7700000000000641_dist_a2a_v7x_xyz2x2x4_y_m4096_n1024_f32_1_alg».proof.Proof.BFinish
import proofs.«900640_g7700000000000641_dist_a2a_v7x_xyz2x2x4_y_m4096_n1024_f32_1_alg».proof.Proof.BLocChain
import proofs.«900640_g7700000000000641_dist_a2a_v7x_xyz2x2x4_y_m4096_n1024_f32_1_alg».proof.Proof.BValue
import proofs.«900640_g7700000000000641_dist_a2a_v7x_xyz2x2x4_y_m4096_n1024_f32_1_alg».proof.Proof.Gen.Kernel.Skeleton
import Idealize.ShloMosaic.Lib.Tactic

/-!
# One device's body

From what a device holds when its body starts — the cells' invariants, its positions, tokens and credits, what it
owes, its semaphores at zero, the input and the result in the pieces the copies name, the scratch buffers chunk by
chunk — the body runs to its return and leaves the input as it was, the result at its value, every scratch chunk
whole again and every semaphore at zero.

The run follows the program. Sixteen loads and the own-half load start; the three barrier signals hand each partner
the landing windows it will write into, and the barrier wait brings the partners' windows back. Then, chunk by chunk:
the load's wait and the first hop; the first hop's arrival, the two second hops and the store of the received chunk;
the second hops' arrivals, their stores and the one fourth hop; at the end every departure's wait, the fourth
quarter's arrivals and the stores' waits. What the device owes is kept in the order in which it will be paid, last
debt first, so that each payment takes the last summand off the sum.
-/

set_option maxRecDepth 65536

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]
local notation "𝕄" => MT nD τ sig Unit (Elt F) ℕ UU ℕ
variable (m : (ℓ : Loc nD τ sig) → Buf (Elt F) ℓ)

/-! ## The schedule's tables, as equations with the entry on the left

A cell's payload is read in the owner's form at the owner's wait and in the payer's form at the copy that lands
there; where both equations match, the payer's form is taken first. -/

attribute [local sl_rounds] duties_bar duties_fam amount_bar amount_fam expect_bar expect_fam
attribute [local sl_rounds] pay_ys_own pay_yr_own pay_xs_own pay_xr_own_sw pay_zs_own pay_zr_own_sw pay_qs_own_0 pay_qs_own_1 pay_qs_own_2 pay_qs_own_3 pay_qs_own_4 pay_qs_own_5 pay_qs_own_6 pay_qs_own_7 pay_qs_own_8 pay_qs_own_9 pay_qs_own_10 pay_qs_own_11 pay_qs_own_12 pay_qs_own_13 pay_qs_own_14 pay_qs_own_15 pay_qr_own rest_bar_own_flat
attribute [local sl_rounds high] pay_yr_paid pay_xr_paid pay_zr_paid pay_qr_paid_0 pay_qr_paid_1 pay_qr_paid_2 pay_qr_paid_3 pay_qr_paid_4 pay_qr_paid_5 pay_qr_paid_6 pay_qr_paid_7 pay_qr_paid_8 pay_qr_paid_9 pay_qr_paid_10 pay_qr_paid_11 pay_qr_paid_12 pay_qr_paid_13 pay_qr_paid_14 pay_qr_paid_15 pay_bar_y_paid pay_bar_x_paid_flat pay_bar_z_paid_flat
attribute [local sl_rounds] yP_yP xP_xP zP_zP

set_option maxHeartbeats 8000000
set_option sl_exec.dmaWindow true
set_option sl_exec.dmaWindowSet true
set_option sl_exec.askDisjointFirst true

/-- One stretch of the body: the side conditions are a level comparison (a wait while something is still owed), a
    separation of two windows, or a device id the program computes. -/
local macro "a2a_run " c:term : tactic => `(tactic| sl_exec_parts (disch := first | above_tac | a2a_disj $c | a2a_dev))

/-- The body of device `c`, from its starting context and the semaphores the body never touches. -/
theorem sound_body (K : Dev nD × CK → ℕ) (c : Dev nD) (W : Waits sig Unit) (fo : S8192x1024.Idx → Elt F .f32)
    (fs fr fx fz : S16x64x1024.Idx → Elt F .f32) (fl : S4096x1024.Idx → Elt F .f32) :
    iprop(bodyCtx m K c W fo fs fr fx fz fl ∗ idle (F := F) c)
    ⊢ wp frame (wpE (defs₀ (F := F)) 𝒱₀ (c : Thread nD τ) none) Set.univ (Gen.bodyAt0 t0_0)
        (fun _ => iprop(Φ₁ m c ∗ (dats m 0 c).owesAt () (t0_0 : Fin cfg0.N).succ)) := by
  unfold bodyCtx Gen.bodyAt0
  iintro ⟨⟨#Hlev, #I0, #Iby, #Ibx, #Ibz, #Rby, #Rbx, #Rbz, Hat0, Tby, Tbx, Tbz, Cb, HO, S0, Ha0, Hs0, S1, Ha1, Hs1, S2, Ha2, Hs2, S3, Ha3, Hs3, S4, Ha4, Hs4, S5, Ha5, Hs5, S6, Ha6, Hs6, S7, Ha7, Hs7, S8, Ha8, Hs8, S9, Ha9, Hs9, S10, Ha10, Hs10, S11, Ha11, Hs11, S12, Ha12, Hs12, S13, Ha13, Hs13, S14, Ha14, Hs14, S15, Ha15, Hs15, S224, Haown, Hl, Hr0, Hr1, Hr2, Hr3, Hr4, Hr5, Hr6, Hr7, Hr8, Hr9, Hr10, Hr11, Hr12, Hr13, Hr14, Hr15, Hx0, Hx1, Hx2, Hx3, Hx4, Hx5, Hx6, Hx7, Hx8, Hx9, Hx10, Hx11, Hx12, Hx13, Hx14, Hx15, HoQ0, HoQ2, HoQ4, HoQ6, HoQ8, HoQ10, HoQ12, HoQ14, Hz0, Hz1, Hz2, Hz3, Hz4, Hz5, Hz6, Hz7, Hz8, Hz9, Hz10, Hz11, Hz12, Hz13, Hz14, Hz15, HoQ1, HoQ3, HoQ5, HoQ7, HoQ9, HoQ11, HoQ13, HoQ15, Rest⟩, Hidle⟩
  have hmw : ∀ (sm : SemLoc sig) (u : Unit) (O : CellTallies nD τ sig Unit), Above (lv ((c : Thread nD τ), sm) u) O → (levAts L lv : sProp 𝕄) ⊢ MayWait (c : Thread nD τ) sm u O := fun sm u O h => mayWait_above c sm O h
  -- what is owed, restated with the last debt first
  have hOeq : (tallyAt (fcell (yP c) Fam.yr 0) () N + tallyAt (fcell (yP c) Fam.yr 1) () N + tallyAt (fcell (yP c) Fam.yr 2) () N + tallyAt (fcell (yP c) Fam.yr 3) () N + tallyAt (fcell (yP c) Fam.yr 4) () N + tallyAt (fcell (yP c) Fam.yr 5) () N + tallyAt (fcell (yP c) Fam.yr 6) () N + tallyAt (fcell (yP c) Fam.yr 7) () N + tallyAt (fcell (yP c) Fam.yr 8) () N + tallyAt (fcell (yP c) Fam.yr 9) () N + tallyAt (fcell (yP c) Fam.yr 10) () N + tallyAt (fcell (yP c) Fam.yr 11) () N + tallyAt (fcell (yP c) Fam.yr 12) () N + tallyAt (fcell (yP c) Fam.yr 13) () N + tallyAt (fcell (yP c) Fam.yr 14) () N + tallyAt (fcell (yP c) Fam.yr 15) () N + tallyAt (fcell (xP c) Fam.xr 0) () N + tallyAt (fcell (zP c) Fam.zr 0) () N + tallyAt (fcell (xP c) Fam.xr 1) () N + tallyAt (fcell (zP c) Fam.zr 1) () N + tallyAt (fcell (xP c) Fam.xr 2) () N + tallyAt (fcell (zP c) Fam.zr 2) () N + tallyAt (fcell (xP c) Fam.xr 3) () N + tallyAt (fcell (zP c) Fam.zr 3) () N + tallyAt (fcell (xP c) Fam.xr 4) () N + tallyAt (fcell (zP c) Fam.zr 4) () N + tallyAt (fcell (xP c) Fam.xr 5) () N + tallyAt (fcell (zP c) Fam.zr 5) () N + tallyAt (fcell (xP c) Fam.xr 6) () N + tallyAt (fcell (zP c) Fam.zr 6) () N + tallyAt (fcell (xP c) Fam.xr 7) () N + tallyAt (fcell (zP c) Fam.zr 7) () N + tallyAt (fcell (xP c) Fam.xr 8) () N + tallyAt (fcell (zP c) Fam.zr 8) () N + tallyAt (fcell (xP c) Fam.xr 9) () N + tallyAt (fcell (zP c) Fam.zr 9) () N + tallyAt (fcell (xP c) Fam.xr 10) () N + tallyAt (fcell (zP c) Fam.zr 10) () N + tallyAt (fcell (xP c) Fam.xr 11) () N + tallyAt (fcell (zP c) Fam.zr 11) () N + tallyAt (fcell (xP c) Fam.xr 12) () N + tallyAt (fcell (zP c) Fam.zr 12) () N + tallyAt (fcell (xP c) Fam.xr 13) () N + tallyAt (fcell (zP c) Fam.zr 13) () N + tallyAt (fcell (xP c) Fam.xr 14) () N + tallyAt (fcell (zP c) Fam.zr 14) () N + tallyAt (fcell (xP c) Fam.xr 15) () N + tallyAt (fcell (zP c) Fam.zr 15) () N + tallyAt (fcell (xP c) Fam.qr 0) () N + tallyAt (fcell (zP c) Fam.qr 1) () N + tallyAt (fcell (xP c) Fam.qr 2) () N + tallyAt (fcell (zP c) Fam.qr 3) () N + tallyAt (fcell (xP c) Fam.qr 4) () N + tallyAt (fcell (zP c) Fam.qr 5) () N + tallyAt (fcell (xP c) Fam.qr 6) () N + tallyAt (fcell (zP c) Fam.qr 7) () N + tallyAt (fcell (xP c) Fam.qr 8) () N + tallyAt (fcell (zP c) Fam.qr 9) () N + tallyAt (fcell (xP c) Fam.qr 10) () N + tallyAt (fcell (zP c) Fam.qr 11) () N + tallyAt (fcell (xP c) Fam.qr 12) () N + tallyAt (fcell (zP c) Fam.qr 13) () N + tallyAt (fcell (xP c) Fam.qr 14) () N + tallyAt (fcell (zP c) Fam.qr 15) () N + tallyAt (barCell (zP c)) () 1 + tallyAt (barCell (xP c)) () 1 + tallyAt (barCell (yP c)) () 1 : CellTallies nD τ sig Unit) = tallyAt (fcell (zP c) Fam.qr 15) () N + tallyAt (fcell (xP c) Fam.qr 14) () N + tallyAt (fcell (zP c) Fam.qr 13) () N + tallyAt (fcell (xP c) Fam.qr 12) () N + tallyAt (fcell (zP c) Fam.qr 11) () N + tallyAt (fcell (xP c) Fam.qr 10) () N + tallyAt (fcell (zP c) Fam.qr 9) () N + tallyAt (fcell (xP c) Fam.qr 8) () N + tallyAt (fcell (zP c) Fam.qr 7) () N + tallyAt (fcell (xP c) Fam.qr 6) () N + tallyAt (fcell (zP c) Fam.qr 5) () N + tallyAt (fcell (xP c) Fam.qr 4) () N + tallyAt (fcell (zP c) Fam.qr 3) () N + tallyAt (fcell (xP c) Fam.qr 2) () N + tallyAt (fcell (zP c) Fam.qr 1) () N + tallyAt (fcell (xP c) Fam.qr 0) () N + tallyAt (fcell (zP c) Fam.zr 15) () N + tallyAt (fcell (xP c) Fam.xr 15) () N + tallyAt (fcell (zP c) Fam.zr 14) () N + tallyAt (fcell (xP c) Fam.xr 14) () N + tallyAt (fcell (zP c) Fam.zr 13) () N + tallyAt (fcell (xP c) Fam.xr 13) () N + tallyAt (fcell (zP c) Fam.zr 12) () N + tallyAt (fcell (xP c) Fam.xr 12) () N + tallyAt (fcell (zP c) Fam.zr 11) () N + tallyAt (fcell (xP c) Fam.xr 11) () N + tallyAt (fcell (zP c) Fam.zr 10) () N + tallyAt (fcell (xP c) Fam.xr 10) () N + tallyAt (fcell (zP c) Fam.zr 9) () N + tallyAt (fcell (xP c) Fam.xr 9) () N + tallyAt (fcell (zP c) Fam.zr 8) () N + tallyAt (fcell (xP c) Fam.xr 8) () N + tallyAt (fcell (zP c) Fam.zr 7) () N + tallyAt (fcell (xP c) Fam.xr 7) () N + tallyAt (fcell (zP c) Fam.zr 6) () N + tallyAt (fcell (xP c) Fam.xr 6) () N + tallyAt (fcell (zP c) Fam.zr 5) () N + tallyAt (fcell (xP c) Fam.xr 5) () N + tallyAt (fcell (zP c) Fam.zr 4) () N + tallyAt (fcell (xP c) Fam.xr 4) () N + tallyAt (fcell (zP c) Fam.zr 3) () N + tallyAt (fcell (xP c) Fam.xr 3) () N + tallyAt (fcell (zP c) Fam.zr 2) () N + tallyAt (fcell (xP c) Fam.xr 2) () N + tallyAt (fcell (zP c) Fam.zr 1) () N + tallyAt (fcell (xP c) Fam.xr 1) () N + tallyAt (fcell (zP c) Fam.zr 0) () N + tallyAt (fcell (xP c) Fam.xr 0) () N + tallyAt (fcell (yP c) Fam.yr 15) () N + tallyAt (fcell (yP c) Fam.yr 14) () N + tallyAt (fcell (yP c) Fam.yr 13) () N + tallyAt (fcell (yP c) Fam.yr 12) () N + tallyAt (fcell (yP c) Fam.yr 11) () N + tallyAt (fcell (yP c) Fam.yr 10) () N + tallyAt (fcell (yP c) Fam.yr 9) () N + tallyAt (fcell (yP c) Fam.yr 8) () N + tallyAt (fcell (yP c) Fam.yr 7) () N + tallyAt (fcell (yP c) Fam.yr 6) () N + tallyAt (fcell (yP c) Fam.yr 5) () N + tallyAt (fcell (yP c) Fam.yr 4) () N + tallyAt (fcell (yP c) Fam.yr 3) () N + tallyAt (fcell (yP c) Fam.yr 2) () N + tallyAt (fcell (yP c) Fam.yr 1) () N + tallyAt (fcell (yP c) Fam.yr 0) () N + tallyAt (barCell (zP c)) () 1 + tallyAt (barCell (xP c)) () 1 + tallyAt (barCell (yP c)) () 1 := by ac_rfl
  ihave HO := (Entails.of_eq (congrArg (fun O => (owes (c : Thread nD τ) O W : sProp 𝕄)) hOeq)) $$ HO
  clear hOeq
  sl_unfold [cc0_body]
  -- the loads, the three barrier signals, the barrier wait, the first load's wait
  a2a_run c
  -- the partners' landing windows, one by one
  have hb := rest_bar_own_flat m c
  rw [duties_bar, Finset.sdiff_empty] at hb
  ihave Hb := (Entails.of_eq hb) $$ Hat0_pay1
  clear hb
  icases Hb with ⟨⟨%gr0, Gr0⟩, ⟨%gr1, Gr1⟩, ⟨%gr2, Gr2⟩, ⟨%gr3, Gr3⟩, ⟨%gr4, Gr4⟩, ⟨%gr5, Gr5⟩, ⟨%gr6, Gr6⟩, ⟨%gr7, Gr7⟩, ⟨%gr8, Gr8⟩, ⟨%gr9, Gr9⟩, ⟨%gr10, Gr10⟩, ⟨%gr11, Gr11⟩, ⟨%gr12, Gr12⟩, ⟨%gr13, Gr13⟩, ⟨%gr14, Gr14⟩, ⟨%gr15, Gr15⟩, ⟨%gx0, Gx0⟩, ⟨%gx1, Gx1⟩, ⟨%gx2, Gx2⟩, ⟨%gx3, Gx3⟩, ⟨%gx4, Gx4⟩, ⟨%gx5, Gx5⟩, ⟨%gx6, Gx6⟩, ⟨%gx7, Gx7⟩, ⟨%gx8, Gx8⟩, ⟨%gx9, Gx9⟩, ⟨%gx10, Gx10⟩, ⟨%gx11, Gx11⟩, ⟨%gx12, Gx12⟩, ⟨%gx13, Gx13⟩, ⟨%gx14, Gx14⟩, ⟨%gx15, Gx15⟩, ⟨%gox0, GoX0⟩, ⟨%gox2, GoX2⟩, ⟨%gox4, GoX4⟩, ⟨%gox6, GoX6⟩, ⟨%gox8, GoX8⟩, ⟨%gox10, GoX10⟩, ⟨%gox12, GoX12⟩, ⟨%gox14, GoX14⟩, ⟨%gz0, Gz0⟩, ⟨%gz1, Gz1⟩, ⟨%gz2, Gz2⟩, ⟨%gz3, Gz3⟩, ⟨%gz4, Gz4⟩, ⟨%gz5, Gz5⟩, ⟨%gz6, Gz6⟩, ⟨%gz7, Gz7⟩, ⟨%gz8, Gz8⟩, ⟨%gz9, Gz9⟩, ⟨%gz10, Gz10⟩, ⟨%gz11, Gz11⟩, ⟨%gz12, Gz12⟩, ⟨%gz13, Gz13⟩, ⟨%gz14, Gz14⟩, ⟨%gz15, Gz15⟩, ⟨%goz1, GoZ1⟩, ⟨%goz3, GoZ3⟩, ⟨%goz5, GoZ5⟩, ⟨%goz7, GoZ7⟩, ⟨%goz9, GoZ9⟩, ⟨%goz11, GoZ11⟩, ⟨%goz13, GoZ13⟩, ⟨%goz15, GoZ15⟩⟩
  -- per chunk: the loaded chunk at its contents, the first hop, the next load's wait
  icases Rest with ⟨#Iys0, #Jy0, #Rys0, #RJy0, Tys0, Tyr0, Rest⟩
  ihave Hs0 := (Entails.of_eq (sbuf_loaded m c 0 fs (sound_body.sl.dma0 m c) rfl)) $$ Hs0
  a2a_run c
  icases Rest with ⟨#Iys1, #Jy1, #Rys1, #RJy1, Tys1, Tyr1, Rest⟩
  ihave Hs1 := (Entails.of_eq (sbuf_loaded m c 1 fs (sound_body.sl.dma0_1 m c) rfl)) $$ Hs1
  a2a_run c
  icases Rest with ⟨#Iys2, #Jy2, #Rys2, #RJy2, Tys2, Tyr2, Rest⟩
  ihave Hs2 := (Entails.of_eq (sbuf_loaded m c 2 fs (sound_body.sl.dma0_2 m c) rfl)) $$ Hs2
  a2a_run c
  icases Rest with ⟨#Iys3, #Jy3, #Rys3, #RJy3, Tys3, Tyr3, Rest⟩
  ihave Hs3 := (Entails.of_eq (sbuf_loaded m c 3 fs (sound_body.sl.dma0_3 m c) rfl)) $$ Hs3
  a2a_run c
  icases Rest with ⟨#Iys4, #Jy4, #Rys4, #RJy4, Tys4, Tyr4, Rest⟩
  ihave Hs4 := (Entails.of_eq (sbuf_loaded m c 4 fs (sound_body.sl.dma0_4 m c) rfl)) $$ Hs4
  a2a_run c
  icases Rest with ⟨#Iys5, #Jy5, #Rys5, #RJy5, Tys5, Tyr5, Rest⟩
  ihave Hs5 := (Entails.of_eq (sbuf_loaded m c 5 fs (sound_body.sl.dma0_5 m c) rfl)) $$ Hs5
  a2a_run c
  icases Rest with ⟨#Iys6, #Jy6, #Rys6, #RJy6, Tys6, Tyr6, Rest⟩
  ihave Hs6 := (Entails.of_eq (sbuf_loaded m c 6 fs (sound_body.sl.dma0_6 m c) rfl)) $$ Hs6
  a2a_run c
  icases Rest with ⟨#Iys7, #Jy7, #Rys7, #RJy7, Tys7, Tyr7, Rest⟩
  ihave Hs7 := (Entails.of_eq (sbuf_loaded m c 7 fs (sound_body.sl.dma0_7 m c) rfl)) $$ Hs7
  a2a_run c
  icases Rest with ⟨#Iys8, #Jy8, #Rys8, #RJy8, Tys8, Tyr8, Rest⟩
  ihave Hs8 := (Entails.of_eq (sbuf_loaded m c 8 fs (sound_body.sl.dma0_8 m c) rfl)) $$ Hs8
  a2a_run c
  icases Rest with ⟨#Iys9, #Jy9, #Rys9, #RJy9, Tys9, Tyr9, Rest⟩
  ihave Hs9 := (Entails.of_eq (sbuf_loaded m c 9 fs (sound_body.sl.dma0_9 m c) rfl)) $$ Hs9
  a2a_run c
  icases Rest with ⟨#Iys10, #Jy10, #Rys10, #RJy10, Tys10, Tyr10, Rest⟩
  ihave Hs10 := (Entails.of_eq (sbuf_loaded m c 10 fs (sound_body.sl.dma0_10 m c) rfl)) $$ Hs10
  a2a_run c
  icases Rest with ⟨#Iys11, #Jy11, #Rys11, #RJy11, Tys11, Tyr11, Rest⟩
  ihave Hs11 := (Entails.of_eq (sbuf_loaded m c 11 fs (sound_body.sl.dma0_11 m c) rfl)) $$ Hs11
  a2a_run c
  icases Rest with ⟨#Iys12, #Jy12, #Rys12, #RJy12, Tys12, Tyr12, Rest⟩
  ihave Hs12 := (Entails.of_eq (sbuf_loaded m c 12 fs (sound_body.sl.dma0_12 m c) rfl)) $$ Hs12
  a2a_run c
  icases Rest with ⟨#Iys13, #Jy13, #Rys13, #RJy13, Tys13, Tyr13, Rest⟩
  ihave Hs13 := (Entails.of_eq (sbuf_loaded m c 13 fs (sound_body.sl.dma0_13 m c) rfl)) $$ Hs13
  a2a_run c
  icases Rest with ⟨#Iys14, #Jy14, #Rys14, #RJy14, Tys14, Tyr14, Rest⟩
  ihave Hs14 := (Entails.of_eq (sbuf_loaded m c 14 fs (sound_body.sl.dma0_14 m c) rfl)) $$ Hs14
  a2a_run c
  icases Rest with ⟨#Iys15, #Jy15, #Rys15, #RJy15, Tys15, Tyr15, Rest⟩
  ihave Hs15 := (Entails.of_eq (sbuf_loaded m c 15 fs (sound_body.sl.dma0_15 m c) rfl)) $$ Hs15
  a2a_run c
  -- the own half's load lands and is stored
  icases Rest with ⟨S225, Hown, Rest⟩
  a2a_run c
  -- per chunk: the first hop's arrival, the two second hops, the store of the received chunk
  icases Rest with ⟨#Iyr0, Ayr0, Cyr0, #Ixs0, #Jx0, #Rxs0, #RJx0, Txs0, Txr0, #Izs0, #Jz0, #Rzs0, #RJz0, Tzs0, Tzr0, S16, HoY0, Rest⟩
  a2a_run c
  icases Rest with ⟨#Iyr1, Ayr1, Cyr1, #Ixs1, #Jx1, #Rxs1, #RJx1, Txs1, Txr1, #Izs1, #Jz1, #Rzs1, #RJz1, Tzs1, Tzr1, S17, HoY1, Rest⟩
  a2a_run c
  icases Rest with ⟨#Iyr2, Ayr2, Cyr2, #Ixs2, #Jx2, #Rxs2, #RJx2, Txs2, Txr2, #Izs2, #Jz2, #Rzs2, #RJz2, Tzs2, Tzr2, S18, HoY2, Rest⟩
  a2a_run c
  icases Rest with ⟨#Iyr3, Ayr3, Cyr3, #Ixs3, #Jx3, #Rxs3, #RJx3, Txs3, Txr3, #Izs3, #Jz3, #Rzs3, #RJz3, Tzs3, Tzr3, S19, HoY3, Rest⟩
  a2a_run c
  icases Rest with ⟨#Iyr4, Ayr4, Cyr4, #Ixs4, #Jx4, #Rxs4, #RJx4, Txs4, Txr4, #Izs4, #Jz4, #Rzs4, #RJz4, Tzs4, Tzr4, S20, HoY4, Rest⟩
  a2a_run c
  icases Rest with ⟨#Iyr5, Ayr5, Cyr5, #Ixs5, #Jx5, #Rxs5, #RJx5, Txs5, Txr5, #Izs5, #Jz5, #Rzs5, #RJz5, Tzs5, Tzr5, S21, HoY5, Rest⟩
  a2a_run c
  icases Rest with ⟨#Iyr6, Ayr6, Cyr6, #Ixs6, #Jx6, #Rxs6, #RJx6, Txs6, Txr6, #Izs6, #Jz6, #Rzs6, #RJz6, Tzs6, Tzr6, S22, HoY6, Rest⟩
  a2a_run c
  icases Rest with ⟨#Iyr7, Ayr7, Cyr7, #Ixs7, #Jx7, #Rxs7, #RJx7, Txs7, Txr7, #Izs7, #Jz7, #Rzs7, #RJz7, Tzs7, Tzr7, S23, HoY7, Rest⟩
  a2a_run c
  icases Rest with ⟨#Iyr8, Ayr8, Cyr8, #Ixs8, #Jx8, #Rxs8, #RJx8, Txs8, Txr8, #Izs8, #Jz8, #Rzs8, #RJz8, Tzs8, Tzr8, S24, HoY8, Rest⟩
  a2a_run c
  icases Rest with ⟨#Iyr9, Ayr9, Cyr9, #Ixs9, #Jx9, #Rxs9, #RJx9, Txs9, Txr9, #Izs9, #Jz9, #Rzs9, #RJz9, Tzs9, Tzr9, S25, HoY9, Rest⟩
  a2a_run c
  icases Rest with ⟨#Iyr10, Ayr10, Cyr10, #Ixs10, #Jx10, #Rxs10, #RJx10, Txs10, Txr10, #Izs10, #Jz10, #Rzs10, #RJz10, Tzs10, Tzr10, S26, HoY10, Rest⟩
  a2a_run c
  icases Rest with ⟨#Iyr11, Ayr11, Cyr11, #Ixs11, #Jx11, #Rxs11, #RJx11, Txs11, Txr11, #Izs11, #Jz11, #Rzs11, #RJz11, Tzs11, Tzr11, S27, HoY11, Rest⟩
  a2a_run c
  icases Rest with ⟨#Iyr12, Ayr12, Cyr12, #Ixs12, #Jx12, #Rxs12, #RJx12, Txs12, Txr12, #Izs12, #Jz12, #Rzs12, #RJz12, Tzs12, Tzr12, S28, HoY12, Rest⟩
  a2a_run c
  icases Rest with ⟨#Iyr13, Ayr13, Cyr13, #Ixs13, #Jx13, #Rxs13, #RJx13, Txs13, Txr13, #Izs13, #Jz13, #Rzs13, #RJz13, Tzs13, Tzr13, S29, HoY13, Rest⟩
  a2a_run c
  icases Rest with ⟨#Iyr14, Ayr14, Cyr14, #Ixs14, #Jx14, #Rxs14, #RJx14, Txs14, Txr14, #Izs14, #Jz14, #Rzs14, #RJz14, Tzs14, Tzr14, S30, HoY14, Rest⟩
  a2a_run c
  icases Rest with ⟨#Iyr15, Ayr15, Cyr15, #Ixs15, #Jx15, #Rxs15, #RJx15, Txs15, Txr15, #Izs15, #Jz15, #Rzs15, #RJz15, Tzs15, Tzr15, S31, HoY15, Rest⟩
  a2a_run c
  -- per chunk: the second hops' arrivals, their stores, the fourth hop
  icases Rest with ⟨#Ixr0, Axr0, Cxr0, S32, HoX0, #Izr0, Azr0, Czr0, S48, HoZ0, #Iqs0, #Jq0, #Rqs0, #RJq0, Tqs0, Tqr0, Rest⟩
  a2a_run c
  icases Rest with ⟨#Ixr1, Axr1, Cxr1, S33, HoX1, #Izr1, Azr1, Czr1, S49, HoZ1, #Iqs1, #Jq1, #Rqs1, #RJq1, Tqs1, Tqr1, Rest⟩
  a2a_run c
  icases Rest with ⟨#Ixr2, Axr2, Cxr2, S34, HoX2, #Izr2, Azr2, Czr2, S50, HoZ2, #Iqs2, #Jq2, #Rqs2, #RJq2, Tqs2, Tqr2, Rest⟩
  a2a_run c
  icases Rest with ⟨#Ixr3, Axr3, Cxr3, S35, HoX3, #Izr3, Azr3, Czr3, S51, HoZ3, #Iqs3, #Jq3, #Rqs3, #RJq3, Tqs3, Tqr3, Rest⟩
  a2a_run c
  icases Rest with ⟨#Ixr4, Axr4, Cxr4, S36, HoX4, #Izr4, Azr4, Czr4, S52, HoZ4, #Iqs4, #Jq4, #Rqs4, #RJq4, Tqs4, Tqr4, Rest⟩
  a2a_run c
  icases Rest with ⟨#Ixr5, Axr5, Cxr5, S37, HoX5, #Izr5, Azr5, Czr5, S53, HoZ5, #Iqs5, #Jq5, #Rqs5, #RJq5, Tqs5, Tqr5, Rest⟩
  a2a_run c
  icases Rest with ⟨#Ixr6, Axr6, Cxr6, S38, HoX6, #Izr6, Azr6, Czr6, S54, HoZ6, #Iqs6, #Jq6, #Rqs6, #RJq6, Tqs6, Tqr6, Rest⟩
  a2a_run c
  icases Rest with ⟨#Ixr7, Axr7, Cxr7, S39, HoX7, #Izr7, Azr7, Czr7, S55, HoZ7, #Iqs7, #Jq7, #Rqs7, #RJq7, Tqs7, Tqr7, Rest⟩
  a2a_run c
  icases Rest with ⟨#Ixr8, Axr8, Cxr8, S40, HoX8, #Izr8, Azr8, Czr8, S56, HoZ8, #Iqs8, #Jq8, #Rqs8, #RJq8, Tqs8, Tqr8, Rest⟩
  a2a_run c
  icases Rest with ⟨#Ixr9, Axr9, Cxr9, S41, HoX9, #Izr9, Azr9, Czr9, S57, HoZ9, #Iqs9, #Jq9, #Rqs9, #RJq9, Tqs9, Tqr9, Rest⟩
  a2a_run c
  icases Rest with ⟨#Ixr10, Axr10, Cxr10, S42, HoX10, #Izr10, Azr10, Czr10, S58, HoZ10, #Iqs10, #Jq10, #Rqs10, #RJq10, Tqs10, Tqr10, Rest⟩
  a2a_run c
  icases Rest with ⟨#Ixr11, Axr11, Cxr11, S43, HoX11, #Izr11, Azr11, Czr11, S59, HoZ11, #Iqs11, #Jq11, #Rqs11, #RJq11, Tqs11, Tqr11, Rest⟩
  a2a_run c
  icases Rest with ⟨#Ixr12, Axr12, Cxr12, S44, HoX12, #Izr12, Azr12, Czr12, S60, HoZ12, #Iqs12, #Jq12, #Rqs12, #RJq12, Tqs12, Tqr12, Rest⟩
  a2a_run c
  icases Rest with ⟨#Ixr13, Axr13, Cxr13, S45, HoX13, #Izr13, Azr13, Czr13, S61, HoZ13, #Iqs13, #Jq13, #Rqs13, #RJq13, Tqs13, Tqr13, Rest⟩
  a2a_run c
  icases Rest with ⟨#Ixr14, Axr14, Cxr14, S46, HoX14, #Izr14, Azr14, Czr14, S62, HoZ14, #Iqs14, #Jq14, #Rqs14, #RJq14, Tqs14, Tqr14, Rest⟩
  a2a_run c
  icases Rest with ⟨#Ixr15, Axr15, Cxr15, S47, HoX15, #Izr15, Azr15, Czr15, S63, HoZ15, #Iqs15, #Jq15, #Rqs15, #RJq15, Tqs15, Tqr15, Rest⟩
  a2a_run c
  -- per chunk: the departures' waits and the fourth quarter's arrival; after the last, the stores' waits
  icases Rest with ⟨Ays0, Axs0, Azs0, Aqs0, #Iqr0, Aqr0, Cqr0, Rest⟩
  a2a_run c
  icases Rest with ⟨Ays1, Axs1, Azs1, Aqs1, #Iqr1, Aqr1, Cqr1, Rest⟩
  a2a_run c
  icases Rest with ⟨Ays2, Axs2, Azs2, Aqs2, #Iqr2, Aqr2, Cqr2, Rest⟩
  a2a_run c
  icases Rest with ⟨Ays3, Axs3, Azs3, Aqs3, #Iqr3, Aqr3, Cqr3, Rest⟩
  a2a_run c
  icases Rest with ⟨Ays4, Axs4, Azs4, Aqs4, #Iqr4, Aqr4, Cqr4, Rest⟩
  a2a_run c
  icases Rest with ⟨Ays5, Axs5, Azs5, Aqs5, #Iqr5, Aqr5, Cqr5, Rest⟩
  a2a_run c
  icases Rest with ⟨Ays6, Axs6, Azs6, Aqs6, #Iqr6, Aqr6, Cqr6, Rest⟩
  a2a_run c
  icases Rest with ⟨Ays7, Axs7, Azs7, Aqs7, #Iqr7, Aqr7, Cqr7, Rest⟩
  a2a_run c
  icases Rest with ⟨Ays8, Axs8, Azs8, Aqs8, #Iqr8, Aqr8, Cqr8, Rest⟩
  a2a_run c
  icases Rest with ⟨Ays9, Axs9, Azs9, Aqs9, #Iqr9, Aqr9, Cqr9, Rest⟩
  a2a_run c
  icases Rest with ⟨Ays10, Axs10, Azs10, Aqs10, #Iqr10, Aqr10, Cqr10, Rest⟩
  a2a_run c
  icases Rest with ⟨Ays11, Axs11, Azs11, Aqs11, #Iqr11, Aqr11, Cqr11, Rest⟩
  a2a_run c
  icases Rest with ⟨Ays12, Axs12, Azs12, Aqs12, #Iqr12, Aqr12, Cqr12, Rest⟩
  a2a_run c
  icases Rest with ⟨Ays13, Axs13, Azs13, Aqs13, #Iqr13, Aqr13, Cqr13, Rest⟩
  a2a_run c
  icases Rest with ⟨Ays14, Axs14, Azs14, Aqs14, #Iqr14, Aqr14, Cqr14, Rest⟩
  a2a_run c
  icases Rest with ⟨Ays15, Axs15, Azs15, Aqs15, #Iqr15, Aqr15, Cqr15, Harest⟩
  a2a_run c
  -- the return
  rw [wp_ret]
  iapply (finish m K c _ (fun i => slabBuf (chunk m c i)) (fun i => slabBuf (chunk m (yP c) i)) (fun i => slabBuf (chunk m (yP (xP c)) i)) (fun i => slabBuf (chunk m (yP (zP c)) i)) _
    (idle (F := F) c) _ _ (loc_chain c) (arg_chain m c)
    (res_join_chain m c _ (fun i => rowBuf (chunk m (yP c) i)) (fun i => rowBuf (chunk m (yP (xP c)) i)) (fun i => rowBuf (chunk m (yP (zP c)) i)) (fun i => rowBuf (chunk m (yP (xP (zP c))) i))
      (endOwn m c fo fl _ _ rfl rfl) (rowY_out m c) (rowX_out m c) (rowZ_out m c) (rowQ_out m c)))
  -- 1: the 128 chunk-cell invariants (persistent: no spatial hypothesis goes left)
  isplitl []
  · isplitl []; · iexact Iys0
    isplitl []; · iexact Iys1
    isplitl []; · iexact Iys2
    isplitl []; · iexact Iys3
    isplitl []; · iexact Iys4
    isplitl []; · iexact Iys5
    isplitl []; · iexact Iys6
    isplitl []; · iexact Iys7
    isplitl []; · iexact Iys8
    isplitl []; · iexact Iys9
    isplitl []; · iexact Iys10
    isplitl []; · iexact Iys11
    isplitl []; · iexact Iys12
    isplitl []; · iexact Iys13
    isplitl []; · iexact Iys14
    isplitl []; · iexact Iys15
    isplitl []; · iexact Iyr0
    isplitl []; · iexact Iyr1
    isplitl []; · iexact Iyr2
    isplitl []; · iexact Iyr3
    isplitl []; · iexact Iyr4
    isplitl []; · iexact Iyr5
    isplitl []; · iexact Iyr6
    isplitl []; · iexact Iyr7
    isplitl []; · iexact Iyr8
    isplitl []; · iexact Iyr9
    isplitl []; · iexact Iyr10
    isplitl []; · iexact Iyr11
    isplitl []; · iexact Iyr12
    isplitl []; · iexact Iyr13
    isplitl []; · iexact Iyr14
    isplitl []; · iexact Iyr15
    isplitl []; · iexact Ixs0
    isplitl []; · iexact Ixs1
    isplitl []; · iexact Ixs2
    isplitl []; · iexact Ixs3
    isplitl []; · iexact Ixs4
    isplitl []; · iexact Ixs5
    isplitl []; · iexact Ixs6
    isplitl []; · iexact Ixs7
    isplitl []; · iexact Ixs8
    isplitl []; · iexact Ixs9
    isplitl []; · iexact Ixs10
    isplitl []; · iexact Ixs11
    isplitl []; · iexact Ixs12
    isplitl []; · iexact Ixs13
    isplitl []; · iexact Ixs14
    isplitl []; · iexact Ixs15
    isplitl []; · iexact Ixr0
    isplitl []; · iexact Ixr1
    isplitl []; · iexact Ixr2
    isplitl []; · iexact Ixr3
    isplitl []; · iexact Ixr4
    isplitl []; · iexact Ixr5
    isplitl []; · iexact Ixr6
    isplitl []; · iexact Ixr7
    isplitl []; · iexact Ixr8
    isplitl []; · iexact Ixr9
    isplitl []; · iexact Ixr10
    isplitl []; · iexact Ixr11
    isplitl []; · iexact Ixr12
    isplitl []; · iexact Ixr13
    isplitl []; · iexact Ixr14
    isplitl []; · iexact Ixr15
    isplitl []; · iexact Izs0
    isplitl []; · iexact Izs1
    isplitl []; · iexact Izs2
    isplitl []; · iexact Izs3
    isplitl []; · iexact Izs4
    isplitl []; · iexact Izs5
    isplitl []; · iexact Izs6
    isplitl []; · iexact Izs7
    isplitl []; · iexact Izs8
    isplitl []; · iexact Izs9
    isplitl []; · iexact Izs10
    isplitl []; · iexact Izs11
    isplitl []; · iexact Izs12
    isplitl []; · iexact Izs13
    isplitl []; · iexact Izs14
    isplitl []; · iexact Izs15
    isplitl []; · iexact Izr0
    isplitl []; · iexact Izr1
    isplitl []; · iexact Izr2
    isplitl []; · iexact Izr3
    isplitl []; · iexact Izr4
    isplitl []; · iexact Izr5
    isplitl []; · iexact Izr6
    isplitl []; · iexact Izr7
    isplitl []; · iexact Izr8
    isplitl []; · iexact Izr9
    isplitl []; · iexact Izr10
    isplitl []; · iexact Izr11
    isplitl []; · iexact Izr12
    isplitl []; · iexact Izr13
    isplitl []; · iexact Izr14
    isplitl []; · iexact Izr15
    isplitl []; · iexact Iqs0
    isplitl []; · iexact Iqs1
    isplitl []; · iexact Iqs2
    isplitl []; · iexact Iqs3
    isplitl []; · iexact Iqs4
    isplitl []; · iexact Iqs5
    isplitl []; · iexact Iqs6
    isplitl []; · iexact Iqs7
    isplitl []; · iexact Iqs8
    isplitl []; · iexact Iqs9
    isplitl []; · iexact Iqs10
    isplitl []; · iexact Iqs11
    isplitl []; · iexact Iqs12
    isplitl []; · iexact Iqs13
    isplitl []; · iexact Iqs14
    isplitl []; · iexact Iqs15
    isplitl []; · iexact Iqr0
    isplitl []; · iexact Iqr1
    isplitl []; · iexact Iqr2
    isplitl []; · iexact Iqr3
    isplitl []; · iexact Iqr4
    isplitl []; · iexact Iqr5
    isplitl []; · iexact Iqr6
    isplitl []; · iexact Iqr7
    isplitl []; · iexact Iqr8
    isplitl []; · iexact Iqr9
    isplitl []; · iexact Iqr10
    isplitl []; · iexact Iqr11
    isplitl []; · iexact Iqr12
    isplitl []; · iexact Iqr13
    isplitl []; · iexact Iqr14
    iexact Iqr15
  -- 2: the 128 positions at round 1
  isplitl [Ays0 Ays1 Ays2 Ays3 Ays4 Ays5 Ays6 Ays7 Ays8 Ays9 Ays10 Ays11 Ays12 Ays13 Ays14 Ays15 Ayr0 Ayr1 Ayr2 Ayr3 Ayr4 Ayr5 Ayr6 Ayr7 Ayr8 Ayr9 Ayr10 Ayr11 Ayr12 Ayr13 Ayr14 Ayr15 Axs0 Axs1 Axs2 Axs3 Axs4 Axs5 Axs6 Axs7 Axs8 Axs9 Axs10 Axs11 Axs12 Axs13 Axs14 Axs15 Axr0 Axr1 Axr2 Axr3 Axr4 Axr5 Axr6 Axr7 Axr8 Axr9 Axr10 Axr11 Axr12 Axr13 Axr14 Axr15 Azs0 Azs1 Azs2 Azs3 Azs4 Azs5 Azs6 Azs7 Azs8 Azs9 Azs10 Azs11 Azs12 Azs13 Azs14 Azs15 Azr0 Azr1 Azr2 Azr3 Azr4 Azr5 Azr6 Azr7 Azr8 Azr9 Azr10 Azr11 Azr12 Azr13 Azr14 Azr15 Aqs0 Aqs1 Aqs2 Aqs3 Aqs4 Aqs5 Aqs6 Aqs7 Aqs8 Aqs9 Aqs10 Aqs11 Aqs12 Aqs13 Aqs14 Aqs15 Aqr0 Aqr1 Aqr2 Aqr3 Aqr4 Aqr5 Aqr6 Aqr7 Aqr8 Aqr9 Aqr10 Aqr11 Aqr12 Aqr13 Aqr14 Aqr15]
  · isplitl [Ays0]; · iexact Ays0
    isplitl [Ays1]; · iexact Ays1
    isplitl [Ays2]; · iexact Ays2
    isplitl [Ays3]; · iexact Ays3
    isplitl [Ays4]; · iexact Ays4
    isplitl [Ays5]; · iexact Ays5
    isplitl [Ays6]; · iexact Ays6
    isplitl [Ays7]; · iexact Ays7
    isplitl [Ays8]; · iexact Ays8
    isplitl [Ays9]; · iexact Ays9
    isplitl [Ays10]; · iexact Ays10
    isplitl [Ays11]; · iexact Ays11
    isplitl [Ays12]; · iexact Ays12
    isplitl [Ays13]; · iexact Ays13
    isplitl [Ays14]; · iexact Ays14
    isplitl [Ays15]; · iexact Ays15
    isplitl [Ayr0]; · iexact Ayr0
    isplitl [Ayr1]; · iexact Ayr1
    isplitl [Ayr2]; · iexact Ayr2
    isplitl [Ayr3]; · iexact Ayr3
    isplitl [Ayr4]; · iexact Ayr4
    isplitl [Ayr5]; · iexact Ayr5
    isplitl [Ayr6]; · iexact Ayr6
    isplitl [Ayr7]; · iexact Ayr7
    isplitl [Ayr8]; · iexact Ayr8
    isplitl [Ayr9]; · iexact Ayr9
    isplitl [Ayr10]; · iexact Ayr10
    isplitl [Ayr11]; · iexact Ayr11
    isplitl [Ayr12]; · iexact Ayr12
    isplitl [Ayr13]; · iexact Ayr13
    isplitl [Ayr14]; · iexact Ayr14
    isplitl [Ayr15]; · iexact Ayr15
    isplitl [Axs0]; · iexact Axs0
    isplitl [Axs1]; · iexact Axs1
    isplitl [Axs2]; · iexact Axs2
    isplitl [Axs3]; · iexact Axs3
    isplitl [Axs4]; · iexact Axs4
    isplitl [Axs5]; · iexact Axs5
    isplitl [Axs6]; · iexact Axs6
    isplitl [Axs7]; · iexact Axs7
    isplitl [Axs8]; · iexact Axs8
    isplitl [Axs9]; · iexact Axs9
    isplitl [Axs10]; · iexact Axs10
    isplitl [Axs11]; · iexact Axs11
    isplitl [Axs12]; · iexact Axs12
    isplitl [Axs13]; · iexact Axs13
    isplitl [Axs14]; · iexact Axs14
    isplitl [Axs15]; · iexact Axs15
    isplitl [Axr0]; · iexact Axr0
    isplitl [Axr1]; · iexact Axr1
    isplitl [Axr2]; · iexact Axr2
    isplitl [Axr3]; · iexact Axr3
    isplitl [Axr4]; · iexact Axr4
    isplitl [Axr5]; · iexact Axr5
    isplitl [Axr6]; · iexact Axr6
    isplitl [Axr7]; · iexact Axr7
    isplitl [Axr8]; · iexact Axr8
    isplitl [Axr9]; · iexact Axr9
    isplitl [Axr10]; · iexact Axr10
    isplitl [Axr11]; · iexact Axr11
    isplitl [Axr12]; · iexact Axr12
    isplitl [Axr13]; · iexact Axr13
    isplitl [Axr14]; · iexact Axr14
    isplitl [Axr15]; · iexact Axr15
    isplitl [Azs0]; · iexact Azs0
    isplitl [Azs1]; · iexact Azs1
    isplitl [Azs2]; · iexact Azs2
    isplitl [Azs3]; · iexact Azs3
    isplitl [Azs4]; · iexact Azs4
    isplitl [Azs5]; · iexact Azs5
    isplitl [Azs6]; · iexact Azs6
    isplitl [Azs7]; · iexact Azs7
    isplitl [Azs8]; · iexact Azs8
    isplitl [Azs9]; · iexact Azs9
    isplitl [Azs10]; · iexact Azs10
    isplitl [Azs11]; · iexact Azs11
    isplitl [Azs12]; · iexact Azs12
    isplitl [Azs13]; · iexact Azs13
    isplitl [Azs14]; · iexact Azs14
    isplitl [Azs15]; · iexact Azs15
    isplitl [Azr0]; · iexact Azr0
    isplitl [Azr1]; · iexact Azr1
    isplitl [Azr2]; · iexact Azr2
    isplitl [Azr3]; · iexact Azr3
    isplitl [Azr4]; · iexact Azr4
    isplitl [Azr5]; · iexact Azr5
    isplitl [Azr6]; · iexact Azr6
    isplitl [Azr7]; · iexact Azr7
    isplitl [Azr8]; · iexact Azr8
    isplitl [Azr9]; · iexact Azr9
    isplitl [Azr10]; · iexact Azr10
    isplitl [Azr11]; · iexact Azr11
    isplitl [Azr12]; · iexact Azr12
    isplitl [Azr13]; · iexact Azr13
    isplitl [Azr14]; · iexact Azr14
    isplitl [Azr15]; · iexact Azr15
    isplitl [Aqs0]; · iexact Aqs0
    isplitl [Aqs1]; · iexact Aqs1
    isplitl [Aqs2]; · iexact Aqs2
    isplitl [Aqs3]; · iexact Aqs3
    isplitl [Aqs4]; · iexact Aqs4
    isplitl [Aqs5]; · iexact Aqs5
    isplitl [Aqs6]; · iexact Aqs6
    isplitl [Aqs7]; · iexact Aqs7
    isplitl [Aqs8]; · iexact Aqs8
    isplitl [Aqs9]; · iexact Aqs9
    isplitl [Aqs10]; · iexact Aqs10
    isplitl [Aqs11]; · iexact Aqs11
    isplitl [Aqs12]; · iexact Aqs12
    isplitl [Aqs13]; · iexact Aqs13
    isplitl [Aqs14]; · iexact Aqs14
    isplitl [Aqs15]; · iexact Aqs15
    isplitl [Aqr0]; · iexact Aqr0
    isplitl [Aqr1]; · iexact Aqr1
    isplitl [Aqr2]; · iexact Aqr2
    isplitl [Aqr3]; · iexact Aqr3
    isplitl [Aqr4]; · iexact Aqr4
    isplitl [Aqr5]; · iexact Aqr5
    isplitl [Aqr6]; · iexact Aqr6
    isplitl [Aqr7]; · iexact Aqr7
    isplitl [Aqr8]; · iexact Aqr8
    isplitl [Aqr9]; · iexact Aqr9
    isplitl [Aqr10]; · iexact Aqr10
    isplitl [Aqr11]; · iexact Aqr11
    isplitl [Aqr12]; · iexact Aqr12
    isplitl [Aqr13]; · iexact Aqr13
    isplitl [Aqr14]; · iexact Aqr14
    iexact Aqr15
  -- 3: the 66 local semaphores
  isplitl [S0 S1 S2 S3 S4 S5 S6 S7 S8 S9 S10 S11 S12 S13 S14 S15 S16 S17 S18 S19 S20 S21 S22 S23 S24 S25 S26 S27 S28 S29 S30 S31 S32 S33 S34 S35 S36 S37 S38 S39 S40 S41 S42 S43 S44 S45 S46 S47 S48 S49 S50 S51 S52 S53 S54 S55 S56 S57 S58 S59 S60 S61 S62 S63 S224 S225]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    isplitl [S41]; · iexact S41
    isplitl [S42]; · iexact S42
    isplitl [S43]; · iexact S43
    isplitl [S44]; · iexact S44
    isplitl [S45]; · iexact S45
    isplitl [S46]; · iexact S46
    isplitl [S47]; · iexact S47
    isplitl [S48]; · iexact S48
    isplitl [S49]; · iexact S49
    isplitl [S50]; · iexact S50
    isplitl [S51]; · iexact S51
    isplitl [S52]; · iexact S52
    isplitl [S53]; · iexact S53
    isplitl [S54]; · iexact S54
    isplitl [S55]; · iexact S55
    isplitl [S56]; · iexact S56
    isplitl [S57]; · iexact S57
    isplitl [S58]; · iexact S58
    isplitl [S59]; · iexact S59
    isplitl [S60]; · iexact S60
    isplitl [S61]; · iexact S61
    isplitl [S62]; · iexact S62
    isplitl [S63]; · iexact S63
    isplitl [S224]; · iexact S224
    iexact S225
  -- 4: the idle semaphores;  5: nothing owed
  isplitl [Hidle]; · iexact Hidle
  isplitl [HO]; · iexact HO
  -- 6: the input's eighteen pieces
  isplitl [Ha0 Ha1 Ha2 Ha3 Ha4 Ha5 Ha6 Ha7 Ha8 Ha9 Ha10 Ha11 Ha12 Ha13 Ha14 Ha15 Haown Harest]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [Haown]; · iexact Haown
    iexact Harest
  -- 7: the result's sixty-five pieces (own half; per chunk Y X Z Q)
  isplitl [Hown HoY0 HoX0 HoZ0 Aqr0_pay1 HoY1 HoX1 HoZ1 Aqr1_pay1 HoY2 HoX2 HoZ2 Aqr2_pay1 HoY3 HoX3 HoZ3 Aqr3_pay1 HoY4 HoX4 HoZ4 Aqr4_pay1 HoY5 HoX5 HoZ5 Aqr5_pay1 HoY6 HoX6 HoZ6 Aqr6_pay1 HoY7 HoX7 HoZ7 Aqr7_pay1 HoY8 HoX8 HoZ8 Aqr8_pay1 HoY9 HoX9 HoZ9 Aqr9_pay1 HoY10 HoX10 HoZ10 Aqr10_pay1 HoY11 HoX11 HoZ11 Aqr11_pay1 HoY12 HoX12 HoZ12 Aqr12_pay1 HoY13 HoX13 HoZ13 Aqr13_pay1 HoY14 HoX14 HoZ14 Aqr14_pay1 HoY15 HoX15 HoZ15 Aqr15_pay1]
  · isplitl [Hown]; · iexact Hown
    isplitl [HoY0]; · iapply (restY m c 0 _ _ rfl); iexact HoY0
    isplitl [HoX0]; · iapply (restX m c 0 _ _ rfl); iexact HoX0
    isplitl [HoZ0]; · iapply (restZ m c 0 _ _ rfl); iexact HoZ0
    isplitl [Aqr0_pay1]; · iexact Aqr0_pay1
    isplitl [HoY1]; · iapply (restY m c 1 _ _ rfl); iexact HoY1
    isplitl [HoX1]; · iapply (restX m c 1 _ _ rfl); iexact HoX1
    isplitl [HoZ1]; · iapply (restZ m c 1 _ _ rfl); iexact HoZ1
    isplitl [Aqr1_pay1]; · iexact Aqr1_pay1
    isplitl [HoY2]; · iapply (restY m c 2 _ _ rfl); iexact HoY2
    isplitl [HoX2]; · iapply (restX m c 2 _ _ rfl); iexact HoX2
    isplitl [HoZ2]; · iapply (restZ m c 2 _ _ rfl); iexact HoZ2
    isplitl [Aqr2_pay1]; · iexact Aqr2_pay1
    isplitl [HoY3]; · iapply (restY m c 3 _ _ rfl); iexact HoY3
    isplitl [HoX3]; · iapply (restX m c 3 _ _ rfl); iexact HoX3
    isplitl [HoZ3]; · iapply (restZ m c 3 _ _ rfl); iexact HoZ3
    isplitl [Aqr3_pay1]; · iexact Aqr3_pay1
    isplitl [HoY4]; · iapply (restY m c 4 _ _ rfl); iexact HoY4
    isplitl [HoX4]; · iapply (restX m c 4 _ _ rfl); iexact HoX4
    isplitl [HoZ4]; · iapply (restZ m c 4 _ _ rfl); iexact HoZ4
    isplitl [Aqr4_pay1]; · iexact Aqr4_pay1
    isplitl [HoY5]; · iapply (restY m c 5 _ _ rfl); iexact HoY5
    isplitl [HoX5]; · iapply (restX m c 5 _ _ rfl); iexact HoX5
    isplitl [HoZ5]; · iapply (restZ m c 5 _ _ rfl); iexact HoZ5
    isplitl [Aqr5_pay1]; · iexact Aqr5_pay1
    isplitl [HoY6]; · iapply (restY m c 6 _ _ rfl); iexact HoY6
    isplitl [HoX6]; · iapply (restX m c 6 _ _ rfl); iexact HoX6
    isplitl [HoZ6]; · iapply (restZ m c 6 _ _ rfl); iexact HoZ6
    isplitl [Aqr6_pay1]; · iexact Aqr6_pay1
    isplitl [HoY7]; · iapply (restY m c 7 _ _ rfl); iexact HoY7
    isplitl [HoX7]; · iapply (restX m c 7 _ _ rfl); iexact HoX7
    isplitl [HoZ7]; · iapply (restZ m c 7 _ _ rfl); iexact HoZ7
    isplitl [Aqr7_pay1]; · iexact Aqr7_pay1
    isplitl [HoY8]; · iapply (restY m c 8 _ _ rfl); iexact HoY8
    isplitl [HoX8]; · iapply (restX m c 8 _ _ rfl); iexact HoX8
    isplitl [HoZ8]; · iapply (restZ m c 8 _ _ rfl); iexact HoZ8
    isplitl [Aqr8_pay1]; · iexact Aqr8_pay1
    isplitl [HoY9]; · iapply (restY m c 9 _ _ rfl); iexact HoY9
    isplitl [HoX9]; · iapply (restX m c 9 _ _ rfl); iexact HoX9
    isplitl [HoZ9]; · iapply (restZ m c 9 _ _ rfl); iexact HoZ9
    isplitl [Aqr9_pay1]; · iexact Aqr9_pay1
    isplitl [HoY10]; · iapply (restY m c 10 _ _ rfl); iexact HoY10
    isplitl [HoX10]; · iapply (restX m c 10 _ _ rfl); iexact HoX10
    isplitl [HoZ10]; · iapply (restZ m c 10 _ _ rfl); iexact HoZ10
    isplitl [Aqr10_pay1]; · iexact Aqr10_pay1
    isplitl [HoY11]; · iapply (restY m c 11 _ _ rfl); iexact HoY11
    isplitl [HoX11]; · iapply (restX m c 11 _ _ rfl); iexact HoX11
    isplitl [HoZ11]; · iapply (restZ m c 11 _ _ rfl); iexact HoZ11
    isplitl [Aqr11_pay1]; · iexact Aqr11_pay1
    isplitl [HoY12]; · iapply (restY m c 12 _ _ rfl); iexact HoY12
    isplitl [HoX12]; · iapply (restX m c 12 _ _ rfl); iexact HoX12
    isplitl [HoZ12]; · iapply (restZ m c 12 _ _ rfl); iexact HoZ12
    isplitl [Aqr12_pay1]; · iexact Aqr12_pay1
    isplitl [HoY13]; · iapply (restY m c 13 _ _ rfl); iexact HoY13
    isplitl [HoX13]; · iapply (restX m c 13 _ _ rfl); iexact HoX13
    isplitl [HoZ13]; · iapply (restZ m c 13 _ _ rfl); iexact HoZ13
    isplitl [Aqr13_pay1]; · iexact Aqr13_pay1
    isplitl [HoY14]; · iapply (restY m c 14 _ _ rfl); iexact HoY14
    isplitl [HoX14]; · iapply (restX m c 14 _ _ rfl); iexact HoX14
    isplitl [HoZ14]; · iapply (restZ m c 14 _ _ rfl); iexact HoZ14
    isplitl [Aqr14_pay1]; · iexact Aqr14_pay1
    isplitl [HoY15]; · iapply (restY m c 15 _ _ rfl); iexact HoY15
    isplitl [HoX15]; · iapply (restX m c 15 _ _ rfl); iexact HoX15
    isplitl [HoZ15]; · iapply (restZ m c 15 _ _ rfl); iexact HoZ15
    iexact Aqr15_pay1
  -- 8: sbuf's chunks, back from the first hop's send waits
  isplitl [Ays0_pay1 Ays1_pay1 Ays2_pay1 Ays3_pay1 Ays4_pay1 Ays5_pay1 Ays6_pay1 Ays7_pay1 Ays8_pay1 Ays9_pay1 Ays10_pay1 Ays11_pay1 Ays12_pay1 Ays13_pay1 Ays14_pay1 Ays15_pay1]
  · isplitl [Ays0_pay1]; · iexact Ays0_pay1
    isplitl [Ays1_pay1]; · iexact Ays1_pay1
    isplitl [Ays2_pay1]; · iexact Ays2_pay1
    isplitl [Ays3_pay1]; · iexact Ays3_pay1
    isplitl [Ays4_pay1]; · iexact Ays4_pay1
    isplitl [Ays5_pay1]; · iexact Ays5_pay1
    isplitl [Ays6_pay1]; · iexact Ays6_pay1
    isplitl [Ays7_pay1]; · iexact Ays7_pay1
    isplitl [Ays8_pay1]; · iexact Ays8_pay1
    isplitl [Ays9_pay1]; · iexact Ays9_pay1
    isplitl [Ays10_pay1]; · iexact Ays10_pay1
    isplitl [Ays11_pay1]; · iexact Ays11_pay1
    isplitl [Ays12_pay1]; · iexact Ays12_pay1
    isplitl [Ays13_pay1]; · iexact Ays13_pay1
    isplitl [Ays14_pay1]; · iexact Ays14_pay1
    iexact Ays15_pay1
  -- 9: rbuf's shares per chunk: qX (back from the x copy's send wait), qZ (from the z copy's), qS (the local store's)
  isplitl [Axs0_pay1 Azs0_pay1 Ayr0_pay3 Axs1_pay1 Azs1_pay1 Ayr1_pay3 Axs2_pay1 Azs2_pay1 Ayr2_pay3 Axs3_pay1 Azs3_pay1 Ayr3_pay3 Axs4_pay1 Azs4_pay1 Ayr4_pay3 Axs5_pay1 Azs5_pay1 Ayr5_pay3 Axs6_pay1 Azs6_pay1 Ayr6_pay3 Axs7_pay1 Azs7_pay1 Ayr7_pay3 Axs8_pay1 Azs8_pay1 Ayr8_pay3 Axs9_pay1 Azs9_pay1 Ayr9_pay3 Axs10_pay1 Azs10_pay1 Ayr10_pay3 Axs11_pay1 Azs11_pay1 Ayr11_pay3 Axs12_pay1 Azs12_pay1 Ayr12_pay3 Axs13_pay1 Azs13_pay1 Ayr13_pay3 Axs14_pay1 Azs14_pay1 Ayr14_pay3 Axs15_pay1 Azs15_pay1 Ayr15_pay3]
  · isplitl [Axs0_pay1]; · iexact Axs0_pay1
    isplitl [Azs0_pay1]; · iexact Azs0_pay1
    isplitl [Ayr0_pay3]; · iexact Ayr0_pay3
    isplitl [Axs1_pay1]; · iexact Axs1_pay1
    isplitl [Azs1_pay1]; · iexact Azs1_pay1
    isplitl [Ayr1_pay3]; · iexact Ayr1_pay3
    isplitl [Axs2_pay1]; · iexact Axs2_pay1
    isplitl [Azs2_pay1]; · iexact Azs2_pay1
    isplitl [Ayr2_pay3]; · iexact Ayr2_pay3
    isplitl [Axs3_pay1]; · iexact Axs3_pay1
    isplitl [Azs3_pay1]; · iexact Azs3_pay1
    isplitl [Ayr3_pay3]; · iexact Ayr3_pay3
    isplitl [Axs4_pay1]; · iexact Axs4_pay1
    isplitl [Azs4_pay1]; · iexact Azs4_pay1
    isplitl [Ayr4_pay3]; · iexact Ayr4_pay3
    isplitl [Axs5_pay1]; · iexact Axs5_pay1
    isplitl [Azs5_pay1]; · iexact Azs5_pay1
    isplitl [Ayr5_pay3]; · iexact Ayr5_pay3
    isplitl [Axs6_pay1]; · iexact Axs6_pay1
    isplitl [Azs6_pay1]; · iexact Azs6_pay1
    isplitl [Ayr6_pay3]; · iexact Ayr6_pay3
    isplitl [Axs7_pay1]; · iexact Axs7_pay1
    isplitl [Azs7_pay1]; · iexact Azs7_pay1
    isplitl [Ayr7_pay3]; · iexact Ayr7_pay3
    isplitl [Axs8_pay1]; · iexact Axs8_pay1
    isplitl [Azs8_pay1]; · iexact Azs8_pay1
    isplitl [Ayr8_pay3]; · iexact Ayr8_pay3
    isplitl [Axs9_pay1]; · iexact Axs9_pay1
    isplitl [Azs9_pay1]; · iexact Azs9_pay1
    isplitl [Ayr9_pay3]; · iexact Ayr9_pay3
    isplitl [Axs10_pay1]; · iexact Axs10_pay1
    isplitl [Azs10_pay1]; · iexact Azs10_pay1
    isplitl [Ayr10_pay3]; · iexact Ayr10_pay3
    isplitl [Axs11_pay1]; · iexact Axs11_pay1
    isplitl [Azs11_pay1]; · iexact Azs11_pay1
    isplitl [Ayr11_pay3]; · iexact Ayr11_pay3
    isplitl [Axs12_pay1]; · iexact Axs12_pay1
    isplitl [Azs12_pay1]; · iexact Azs12_pay1
    isplitl [Ayr12_pay3]; · iexact Ayr12_pay3
    isplitl [Axs13_pay1]; · iexact Axs13_pay1
    isplitl [Azs13_pay1]; · iexact Azs13_pay1
    isplitl [Ayr13_pay3]; · iexact Ayr13_pay3
    isplitl [Axs14_pay1]; · iexact Axs14_pay1
    isplitl [Azs14_pay1]; · iexact Azs14_pay1
    isplitl [Ayr14_pay3]; · iexact Ayr14_pay3
    isplitl [Axs15_pay1]; · iexact Axs15_pay1
    isplitl [Azs15_pay1]; · iexact Azs15_pay1
    iexact Ayr15_pay3
  -- 10: xrbuf's shares per chunk: qX (odd i: back from the fourth hop's send wait; even i: never lent), qH (the local store's)
  isplitl [Axr0_pay2 Axr0_pay1 Aqs1_pay1 Axr1_pay1 Axr2_pay2 Axr2_pay1 Aqs3_pay1 Axr3_pay1 Axr4_pay2 Axr4_pay1 Aqs5_pay1 Axr5_pay1 Axr6_pay2 Axr6_pay1 Aqs7_pay1 Axr7_pay1 Axr8_pay2 Axr8_pay1 Aqs9_pay1 Axr9_pay1 Axr10_pay2 Axr10_pay1 Aqs11_pay1 Axr11_pay1 Axr12_pay2 Axr12_pay1 Aqs13_pay1 Axr13_pay1 Axr14_pay2 Axr14_pay1 Aqs15_pay1 Axr15_pay1]
  · isplitl [Axr0_pay2]; · iexact Axr0_pay2
    isplitl [Axr0_pay1]; · iexact Axr0_pay1
    isplitl [Aqs1_pay1]; · iexact Aqs1_pay1
    isplitl [Axr1_pay1]; · iexact Axr1_pay1
    isplitl [Axr2_pay2]; · iexact Axr2_pay2
    isplitl [Axr2_pay1]; · iexact Axr2_pay1
    isplitl [Aqs3_pay1]; · iexact Aqs3_pay1
    isplitl [Axr3_pay1]; · iexact Axr3_pay1
    isplitl [Axr4_pay2]; · iexact Axr4_pay2
    isplitl [Axr4_pay1]; · iexact Axr4_pay1
    isplitl [Aqs5_pay1]; · iexact Aqs5_pay1
    isplitl [Axr5_pay1]; · iexact Axr5_pay1
    isplitl [Axr6_pay2]; · iexact Axr6_pay2
    isplitl [Axr6_pay1]; · iexact Axr6_pay1
    isplitl [Aqs7_pay1]; · iexact Aqs7_pay1
    isplitl [Axr7_pay1]; · iexact Axr7_pay1
    isplitl [Axr8_pay2]; · iexact Axr8_pay2
    isplitl [Axr8_pay1]; · iexact Axr8_pay1
    isplitl [Aqs9_pay1]; · iexact Aqs9_pay1
    isplitl [Axr9_pay1]; · iexact Axr9_pay1
    isplitl [Axr10_pay2]; · iexact Axr10_pay2
    isplitl [Axr10_pay1]; · iexact Axr10_pay1
    isplitl [Aqs11_pay1]; · iexact Aqs11_pay1
    isplitl [Axr11_pay1]; · iexact Axr11_pay1
    isplitl [Axr12_pay2]; · iexact Axr12_pay2
    isplitl [Axr12_pay1]; · iexact Axr12_pay1
    isplitl [Aqs13_pay1]; · iexact Aqs13_pay1
    isplitl [Axr13_pay1]; · iexact Axr13_pay1
    isplitl [Axr14_pay2]; · iexact Axr14_pay2
    isplitl [Axr14_pay1]; · iexact Axr14_pay1
    isplitl [Aqs15_pay1]; · iexact Aqs15_pay1
    iexact Axr15_pay1
  -- 11: zrbuf's shares per chunk: qX (even i: back from the fourth hop's send wait; odd i: never lent), qH (the local store's)
  isplitl [Aqs0_pay1 Azr0_pay1 Azr1_pay2 Azr1_pay1 Aqs2_pay1 Azr2_pay1 Azr3_pay2 Azr3_pay1 Aqs4_pay1 Azr4_pay1 Azr5_pay2 Azr5_pay1 Aqs6_pay1 Azr6_pay1 Azr7_pay2 Azr7_pay1 Aqs8_pay1 Azr8_pay1 Azr9_pay2 Azr9_pay1 Aqs10_pay1 Azr10_pay1 Azr11_pay2 Azr11_pay1 Aqs12_pay1 Azr12_pay1 Azr13_pay2 Azr13_pay1 Aqs14_pay1 Azr14_pay1 Azr15_pay2 Azr15_pay1]
  · isplitl [Aqs0_pay1]; · iexact Aqs0_pay1
    isplitl [Azr0_pay1]; · iexact Azr0_pay1
    isplitl [Azr1_pay2]; · iexact Azr1_pay2
    isplitl [Azr1_pay1]; · iexact Azr1_pay1
    isplitl [Aqs2_pay1]; · iexact Aqs2_pay1
    isplitl [Azr2_pay1]; · iexact Azr2_pay1
    isplitl [Azr3_pay2]; · iexact Azr3_pay2
    isplitl [Azr3_pay1]; · iexact Azr3_pay1
    isplitl [Aqs4_pay1]; · iexact Aqs4_pay1
    isplitl [Azr4_pay1]; · iexact Azr4_pay1
    isplitl [Azr5_pay2]; · iexact Azr5_pay2
    isplitl [Azr5_pay1]; · iexact Azr5_pay1
    isplitl [Aqs6_pay1]; · iexact Aqs6_pay1
    isplitl [Azr6_pay1]; · iexact Azr6_pay1
    isplitl [Azr7_pay2]; · iexact Azr7_pay2
    isplitl [Azr7_pay1]; · iexact Azr7_pay1
    isplitl [Aqs8_pay1]; · iexact Aqs8_pay1
    isplitl [Azr8_pay1]; · iexact Azr8_pay1
    isplitl [Azr9_pay2]; · iexact Azr9_pay2
    isplitl [Azr9_pay1]; · iexact Azr9_pay1
    isplitl [Aqs10_pay1]; · iexact Aqs10_pay1
    isplitl [Azr10_pay1]; · iexact Azr10_pay1
    isplitl [Azr11_pay2]; · iexact Azr11_pay2
    isplitl [Azr11_pay1]; · iexact Azr11_pay1
    isplitl [Aqs12_pay1]; · iexact Aqs12_pay1
    isplitl [Azr12_pay1]; · iexact Azr12_pay1
    isplitl [Azr13_pay2]; · iexact Azr13_pay2
    isplitl [Azr13_pay1]; · iexact Azr13_pay1
    isplitl [Aqs14_pay1]; · iexact Aqs14_pay1
    isplitl [Azr14_pay1]; · iexact Azr14_pay1
    isplitl [Azr15_pay2]; · iexact Azr15_pay2
    iexact Azr15_pay1
  -- 12: the staging buffer (whatever else is left in the context — reached facts, credits, the levels — rides to here and is dropped)
  iexact Hl

end Cert.Kernel.A2A

end
-- ==== Proof.lean ====
/- The certificate of the sixteen-device all-to-all against its one-device identity reference.

   Every device cuts the rows of the other `y` half into four quarters of sixteen chunks. A chunk a device loads
   goes to its `y` partner; a copy of what arrives there goes on to that device's `x` partner and one to its `z`
   partner; and one of those second-hand copies goes across the remaining axis. Each device also copies its own
   column half straight into its result. So row `R` of a device's result is row `R mod 4096` of the input block of
   a device on row block `R / 4096`, read at the device's own column half: the matching column block of the whole
   array, which is what the identity reference returns.

   The three frames and the value claim all come from one run of the kernel on every device, proved once for any
   float instance; the reference returns at once. -/
import proofs.«900640_g7700000000000641_dist_a2a_v7x_xyz2x2x4_y_m4096_n1024_f32_1_alg».proof.Defs
import proofs.«900640_g7700000000000641_dist_a2a_v7x_xyz2x2x4_y_m4096_n1024_f32_1_alg».proof.Proof.Gen.Kernel
import proofs.«900640_g7700000000000641_dist_a2a_v7x_xyz2x2x4_y_m4096_n1024_f32_1_alg».proof.Proof.Gen.KernelIdeal
import proofs.«900640_g7700000000000641_dist_a2a_v7x_xyz2x2x4_y_m4096_n1024_f32_1_alg».proof.Proof.Gen.ReferenceIdeal
import proofs.«900640_g7700000000000641_dist_a2a_v7x_xyz2x2x4_y_m4096_n1024_f32_1_alg».proof.Proof.Gen.Pre_finite_inputs_Kernel
import proofs.«900640_g7700000000000641_dist_a2a_v7x_xyz2x2x4_y_m4096_n1024_f32_1_alg».proof.Proof.Gen.Pre_finite_inputs_ReferenceIdeal
import proofs.«900640_g7700000000000641_dist_a2a_v7x_xyz2x2x4_y_m4096_n1024_f32_1_alg».proof.Proof.RefAndLayout
import proofs.«900640_g7700000000000641_dist_a2a_v7x_xyz2x2x4_y_m4096_n1024_f32_1_alg».proof.Proof.ValueIdeal
import proofs.«900640_g7700000000000641_dist_a2a_v7x_xyz2x2x4_y_m4096_n1024_f32_1_alg».proof.Proof.Launch
import proofs.«900640_g7700000000000641_dist_a2a_v7x_xyz2x2x4_y_m4096_n1024_f32_1_alg».proof.Proof.Glob
import proofs.«900640_g7700000000000641_dist_a2a_v7x_xyz2x2x4_y_m4096_n1024_f32_1_alg».proof.Proof.Unpack
import proofs.«900640_g7700000000000641_dist_a2a_v7x_xyz2x2x4_y_m4096_n1024_f32_1_alg».proof.Proof.Value
import proofs.«900640_g7700000000000641_dist_a2a_v7x_xyz2x2x4_y_m4096_n1024_f32_1_alg».proof.Proof.Body
import proofs.«900640_g7700000000000641_dist_a2a_v7x_xyz2x2x4_y_m4096_n1024_f32_1_alg».proof.Proof.BLaunch
import proofs.«900640_g7700000000000641_dist_a2a_v7x_xyz2x2x4_y_m4096_n1024_f32_1_alg».proof.Proof.BGlob
import proofs.«900640_g7700000000000641_dist_a2a_v7x_xyz2x2x4_y_m4096_n1024_f32_1_alg».proof.Proof.BUnpack
import proofs.«900640_g7700000000000641_dist_a2a_v7x_xyz2x2x4_y_m4096_n1024_f32_1_alg».proof.Proof.BValue
import proofs.«900640_g7700000000000641_dist_a2a_v7x_xyz2x2x4_y_m4096_n1024_f32_1_alg».proof.Proof.BBody
import Idealize.ShloMosaic.Adequacy
import Idealize.ShloMosaic.Init

noncomputable section

namespace Cert.Proof

open Idealize.ShloMosaic Idealize.SL.Sem

/-- The kernel's run at the word level: every device's result at its value, its input unchanged. -/
theorem run_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => ∀ c : Dev Cert.Kernel.nD,
        r.2.mem ((c.tc : Thread Cert.Kernel.nD Cert.Kernel.τ).loc Cert.Kernel.main_v1) = Cert.Kernel.A2A.outC m c
        ∧ r.2.mem ((c.tc : Thread Cert.Kernel.nD Cert.Kernel.τ).loc Cert.Kernel.main_arg0) = m ((c.tc : Thread Cert.Kernel.nD Cert.Kernel.τ).loc Cert.Kernel.main_arg0)) :=
  Cert.Kernel.A2A.run_main m g Cert.Kernel.A2A.u₀ (Cert.Kernel.A2A.G m) (Cert.Kernel.A2A.hu₀ m) (Cert.Kernel.A2A.glob m)
    Cert.Kernel.A2A.ownSemFacts (Cert.Kernel.A2A.body_obligation m Cert.Kernel.A2A.res_split (Cert.Kernel.A2A.sound_body m))

/-- The same run over the extended reals. -/
theorem run_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1) = Cert.KernelIdeal.A2A.outC m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  Cert.KernelIdeal.A2A.run_main m g Cert.KernelIdeal.A2A.u₀ (Cert.KernelIdeal.A2A.G m) (Cert.KernelIdeal.A2A.hu₀ m) (Cert.KernelIdeal.A2A.glob m)
    Cert.KernelIdeal.A2A.ownSemFacts (Cert.KernelIdeal.A2A.body_obligation m Cert.KernelIdeal.A2A.res_split (Cert.KernelIdeal.A2A.sound_body m))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m g _ => (θ_run (Cert.Kernel.defs (F := Bits)) _ _).mono (fun _ h c => (h c).2) (run_bits m g),
  fun m g _ => (θ_run (Cert.KernelIdeal.defs (F := Ideal)) _ _).mono (fun _ h c => (h c).2) (run_ideal m g),
  Cert.A2A.RefLayout.frame_ref,
  trivial,
  fun m g m' g' _ hagree =>
    ⟨m' (((0 : Dev Cert.ReferenceIdeal.nD).tc : Thread Cert.ReferenceIdeal.nD Cert.ReferenceIdeal.τ).loc Cert.ReferenceIdeal.main_arg0),
      (θ_run (Cert.KernelIdeal.defs (F := Ideal)) _ _).mono
        (fun r h c => ⟨(h c).1.trans (Cert.KernelIdeal.A2A.LayoutIdeal.outC_layout m _ hagree c), (h c).2⟩)
        (run_ideal m g),
      (θ_run (Cert.ReferenceIdeal.defs (F := Ideal)) _ _).mono (fun r h => ⟨h _, h _⟩) (Cert.A2A.RefLayout.ref_run m' g')⟩⟩

end Cert.Proof

end
